-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S64x256 : Shape := ⟨2, ![64, 256]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S2x1000000 : S_.BroadcastsInDim S2x1000000 (![] : Fin 0 → Fin S2x1000000.rank)
  reducesTo_S2x1000000_S_d0_1 : S2x1000000.ReducesTo [0, 1] S_

variable [Facts]

def fn_part3 {F : FTy → Type} [FloatOps F] (main_v47 : IVec S_ 1) (main_v49 : IVec S2x1000000 1) (main_c_19 : IVec S_ 1) : IVec S_ 1 :=
  let main_v50 : IVec S_ 1 := (fun x v => Host.reduce IntOp.andi x v reducesTo_S2x1000000_S_d0_1 h_S_) main_v49 main_c_19
  let main_v51 : IVec S_ 1 := andi main_v47 main_v50
  main_v51

def fn_part2 {F : FTy → Type} [FloatOps F] (main_arg1 : IVec S2x1000000 32) (main_arg8 : FVec F S1x64 .f32) (main_arg9 : FVec F S1 .f32) (main_v33 : IVec S_ 1) : IVec S_ 1 :=
  let main_v34 : FVec F S1x64 .f32 := Host.absf main_arg8
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 0#32
  let main_v44 : IVec S2x1000000 32 := broadcastInDim S2x1000000 ![] bcast_S_S2x1000000 main_c_16
  let main_v45 : IVec S2x1000000 1 := cmpi .sge main_arg1 main_v44
  let main_c_17 : IVec S_ 1 := constantI S_ 1 1#1
  let main_v46 : IVec S_ 1 := (fun x v => Host.reduce IntOp.andi x v reducesTo_S2x1000000_S_d0_1 h_S_) main_v45 main_c_17
  let main_v47 : IVec S_ 1 := andi main_v43 main_v46
  let main_c_18 : IVec S_ 32 := constantI S_ 32 100000#32
  let main_v48 : IVec S2x1000000 32 := broadcastInDim S2x1000000 ![] bcast_S_S2x1000000 main_c_18
  let main_v49 : IVec S2x1000000 1 := cmpi .slt main_arg1 main_v48
  let main_c_19 : IVec S_ 1 := constantI S_ 1 1#1
  fn_part3 (F := F) main_v47 main_v49 main_c_19

def fn_part1 {F : FTy → Type} [FloatOps F] (main_arg1 : IVec S2x1000000 32) (main_arg5 : FVec F S64 .f32) (main_arg6 : FVec F S64 .f32) (main_arg7 : FVec F S64 .f32) (main_arg8 : FVec F S1x64 .f32) (main_arg9 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_v33

def fn {F : FTy → Type} [FloatOps F] (main_arg0 : FVec F S100000x128 .f32) (main_arg1 : IVec S2x1000000 32) (main_arg2 : FVec F S64x256 .f32) (main_arg3 : FVec F S64 .f32) (main_arg4 : FVec F S64x64 .f32) (main_arg5 : FVec F S64 .f32) (main_arg6 : FVec F S64 .f32) (main_arg7 : FVec F S64 .f32) (main_arg8 : FVec F S1x64 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x256 .f32 := Host.absf main_arg2
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_arg8 main_arg9 main_v13 main_v16
-- ==== Kernel.lean ====
abbrev S100000x128 : Shape := ⟨2, ![100000, 128]⟩
abbrev S2x1000000 : Shape := ⟨2, ![2, 1000000]⟩
abbrev S64x256 : Shape := ⟨2, ![64, 256]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x1000000 : Shape := ⟨2, ![1, 1000000]⟩
abbrev S1000000 : Shape := ⟨1, ![1000000]⟩
abbrev S64x128 : Shape := ⟨2, ![64, 128]⟩
abbrev S1x1 : Shape := ⟨2, ![1, 1]⟩
abbrev S62500 : Shape := ⟨1, ![62500]⟩
abbrev S62500x64 : Shape := ⟨2, ![62500, 64]⟩
abbrev S1x128 : Shape := ⟨2, ![1, 128]⟩
abbrev S3 : Shape := ⟨1, ![3]⟩
abbrev S_ : Shape := ⟨0, ![]⟩
abbrev S128x64 : Shape := ⟨2, ![128, 64]⟩
abbrev S1000000x64 : Shape := ⟨2, ![1000000, 64]⟩
abbrev S1x1x64 : Shape := ⟨3, ![1, 1, 64]⟩
abbrev S16x1x64 : Shape := ⟨3, ![16, 1, 64]⟩
abbrev S1000000x1 : Shape := ⟨2, ![1000000, 1]⟩
abbrev S8000x64 : Shape := ⟨2, ![8000, 64]⟩
abbrev S8000x1 : Shape := ⟨2, ![8000, 1]⟩
abbrev S64x1 : Shape := ⟨2, ![64, 1]⟩

abbrev nBuf : Space → Nat
  | .hbm => 121
  | .vmem => 170
  | .smem => 32
  | _ => 0

abbrev vmemTy0_0 (i : Nat) : BufTy := match i % 128 with
  | 0 => ⟨S64x128, .f32⟩
  | 1 => ⟨S64x128, .f32⟩
  | 2 => ⟨S1x64, .f32⟩
  | 3 => ⟨S64x64, .f32⟩
  | 4 => ⟨S1x64, .f32⟩
  | 5 => ⟨S1x64, .f32⟩
  | 6 => ⟨S1x64, .f32⟩
  | 7 => ⟨S1x128, .f32⟩
  | 8 => ⟨S1x128, .f32⟩
  | 9 => ⟨S1x64, .f32⟩
  | 10 => ⟨S64x128, .f32⟩
  | 11 => ⟨S64x128, .f32⟩
  | 12 => ⟨S1x64, .f32⟩
  | 13 => ⟨S64x64, .f32⟩
  | 14 => ⟨S1x64, .f32⟩
  | 15 => ⟨S1x64, .f32⟩
  | 16 => ⟨S1x64, .f32⟩
  | 17 => ⟨S1x128, .f32⟩
  | 18 => ⟨S1x128, .f32⟩
  | 19 => ⟨S1x64, .f32⟩
  | 20 => ⟨S64x128, .f32⟩
  | 21 => ⟨S64x128, .f32⟩
  | 22 => ⟨S1x64, .f32⟩
  | 23 => ⟨S64x64, .f32⟩
  | 24 => ⟨S1x64, .f32⟩
  | 25 => ⟨S1x64, .f32⟩
  | 26 => ⟨S1x64, .f32⟩
  | 27 => ⟨S1x128, .f32⟩
  | 28 => ⟨S1x128, .f32⟩
  | 29 => ⟨S1x64, .f32⟩
  | 30 => ⟨S64x128, .f32⟩
  | 31 => ⟨S64x128, .f32⟩
  | 32 => ⟨S1x64, .f32⟩
  | 33 => ⟨S64x64, .f32⟩
  | 34 => ⟨S1x64, .f32⟩
  | 35 => ⟨S1x64, .f32⟩
  | 36 => ⟨S1x64, .f32⟩
  | 37 => ⟨S1x128, .f32⟩
  | 38 => ⟨S1x128, .f32⟩
  | 39 => ⟨S1x64, .f32⟩
  | 40 => ⟨S64x128, .f32⟩
  | 41 => ⟨S64x128, .f32⟩
  | 42 => ⟨S1x64, .f32⟩
  | 43 => ⟨S64x64, .f32⟩
  | 44 => ⟨S1x64, .f32⟩
  | 45 => ⟨S1x64, .f32⟩
  | 46 => ⟨S1x64, .f32⟩
  | 47 => ⟨S1x128, .f32⟩
  | 48 => ⟨S1x128, .f32⟩
  | 49 => ⟨S1x64, .f32⟩
  | 50 => ⟨S64x128, .f32⟩
  | 51 => ⟨S64x128, .f32⟩
  | 52 => ⟨S1x64, .f32⟩
  | 53 => ⟨S64x64, .f32⟩
  | 54 => ⟨S1x64, .f32⟩
  | 55 => ⟨S1x64, .f32⟩
  | 56 => ⟨S1x64, .f32⟩
  | 57 => ⟨S1x128, .f32⟩
  | 58 => ⟨S1x128, .f32⟩
  | 59 => ⟨S1x64, .f32⟩
  | 60 => ⟨S64x128, .f32⟩
  | 61 => ⟨S64x128, .f32⟩
  | 62 => ⟨S1x64, .f32⟩
  | 63 => ⟨S64x64, .f32⟩
  | 64 => ⟨S1x64, .f32⟩
  | 65 => ⟨S1x64, .f32⟩
  | 66 => ⟨S1x64, .f32⟩
  | 67 => ⟨S1x128, .f32⟩
  | 68 => ⟨S1x128, .f32⟩
  | 69 => ⟨S1x64, .f32⟩
  | 70 => ⟨S64x128, .f32⟩
  | 71 => ⟨S64x128, .f32⟩
  | 72 => ⟨S1x64, .f32⟩
  | 73 => ⟨S64x64, .f32⟩
  | 74 => ⟨S1x64, .f32⟩
  | 75 => ⟨S1x64, .f32⟩
  | 76 => ⟨S1x64, .f32⟩
  | 77 => ⟨S1x128, .f32⟩
  | 78 => ⟨S1x128, .f32⟩
  | 79 => ⟨S1x64, .f32⟩
  | 80 => ⟨S64x128, .f32⟩
  | 81 => ⟨S64x128, .f32⟩
  | 82 => ⟨S1x64, .f32⟩
  | 83 => ⟨S64x64, .f32⟩
  | 84 => ⟨S1x64, .f32⟩
  | 85 => ⟨S1x64, .f32⟩
  | 86 => ⟨S1x64, .f32⟩
  | 87 => ⟨S1x128, .f32⟩
  | 88 => ⟨S1x128, .f32⟩
  | 89 => ⟨S1x64, .f32⟩
  | 90 => ⟨S64x128, .f32⟩
  | 91 => ⟨S64x128, .f32⟩
  | 92 => ⟨S1x64, .f32⟩
  | 93 => ⟨S64x64, .f32⟩
  | 94 => ⟨S1x64, .f32⟩
  | 95 => ⟨S1x64, .f32⟩
  | 96 => ⟨S1x64, .f32⟩
  | 97 => ⟨S1x128, .f32⟩
  | 98 => ⟨S1x128, .f32⟩
  | 99 => ⟨S1x64, .f32⟩
  | 100 => ⟨S64x128, .f32⟩
  | 101 => ⟨S64x128, .f32⟩
  | 102 => ⟨S1x64, .f32⟩
  | 103 => ⟨S64x64, .f32⟩
  | 104 => ⟨S1x64, .f32⟩
  | 105 => ⟨S1x64, .f32⟩
  | 106 => ⟨S1x64, .f32⟩
  | 107 => ⟨S1x128, .f32⟩
  | 108 => ⟨S1x128, .f32⟩
  | 109 => ⟨S1x64, .f32⟩
  | 110 => ⟨S64x128, .f32⟩
  | 111 => ⟨S64x128, .f32⟩
  | 112 => ⟨S1x64, .f32⟩
  | 113 => ⟨S64x64, .f32⟩
  | 114 => ⟨S1x64, .f32⟩
  | 115 => ⟨S1x64, .f32⟩
  | 116 => ⟨S1x64, .f32⟩
  | 117 => ⟨S1x128, .f32⟩
  | 118 => ⟨S1x128, .f32⟩
  | 119 => ⟨S1x64, .f32⟩
  | 120 => ⟨S64x128, .f32⟩
  | 121 => ⟨S64x128, .f32⟩
  | 122 => ⟨S1x64, .f32⟩
  | 123 => ⟨S64x64, .f32⟩
  | 124 => ⟨S1x64, .f32⟩
  | 125 => ⟨S1x64, .f32⟩
  | 126 => ⟨S1x64, .f32⟩
  | 127 => ⟨S1x128, .f32⟩
  | _ => ⟨S100000x128, .f32⟩

abbrev vmemTy0_1 (i : Nat) : BufTy := match i % 128 with
  | 0 => ⟨S1x128, .f32⟩
  | 1 => ⟨S1x64, .f32⟩
  | 2 => ⟨S64x128, .f32⟩
  | 3 => ⟨S64x128, .f32⟩
  | 4 => ⟨S1x64, .f32⟩
  | 5 => ⟨S64x64, .f32⟩
  | 6 => ⟨S1x64, .f32⟩
  | 7 => ⟨S1x64, .f32⟩
  | 8 => ⟨S1x64, .f32⟩
  | 9 => ⟨S1x128, .f32⟩
  | 10 => ⟨S1x128, .f32⟩
  | 11 => ⟨S1x64, .f32⟩
  | 12 => ⟨S64x128, .f32⟩
  | 13 => ⟨S64x128, .f32⟩
  | 14 => ⟨S1x64, .f32⟩
  | 15 => ⟨S64x64, .f32⟩
  | 16 => ⟨S1x64, .f32⟩
  | 17 => ⟨S1x64, .f32⟩
  | 18 => ⟨S1x64, .f32⟩
  | 19 => ⟨S1x128, .f32⟩
  | 20 => ⟨S1x128, .f32⟩
  | 21 => ⟨S1x64, .f32⟩
  | 22 => ⟨S64x128, .f32⟩
  | 23 => ⟨S64x128, .f32⟩
  | 24 => ⟨S1x64, .f32⟩
  | 25 => ⟨S64x64, .f32⟩
  | 26 => ⟨S1x64, .f32⟩
  | 27 => ⟨S1x64, .f32⟩
  | 28 => ⟨S1x64, .f32⟩
  | 29 => ⟨S1x128, .f32⟩
  | 30 => ⟨S1x128, .f32⟩
  | 31 => ⟨S1x64, .f32⟩
  | 32 => ⟨S8000x64, .f32⟩
  | 33 => ⟨S8000x64, .f32⟩
  | 34 => ⟨S1x64, .f32⟩
  | 35 => ⟨S1x64, .f32⟩
  | 36 => ⟨S1x64, .f32⟩
  | 37 => ⟨S1x64, .f32⟩
  | 38 => ⟨S1x64, .f32⟩
  | 39 => ⟨S1x1, .f32⟩
  | 40 => ⟨S8000x1, .f32⟩
  | 41 => ⟨S8000x1, .f32⟩
  | _ => ⟨S100000x128, .f32⟩

abbrev vmemTy (i : Nat) : BufTy := match i / 128 with
  | 0 => vmemTy0_0 i
  | 1 => vmemTy0_1 i
  | _ => ⟨S100000x128, .f32⟩

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S64x256, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S1x64, .f32⟩
  | .hbm, ⟨9, _⟩ => ⟨S1, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S64x128, .f32⟩
  | .hbm, ⟨15, _⟩ => ⟨S64x128, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x1, .f32⟩
  | .hbm, ⟨21, _⟩ => ⟨S62500x64, .f32⟩
  | .hbm, ⟨22, _⟩ => ⟨S1x64, .f32⟩
  | .hbm, ⟨23, _⟩ => ⟨S1x64, .f32⟩
  | .hbm, ⟨24, _⟩ => ⟨S62500x64, .f32⟩
  | .hbm, ⟨25, _⟩ => ⟨S1x64, .f32⟩
  | .hbm, ⟨26, _⟩ => ⟨S1x64, .f32⟩
  | .hbm, ⟨27, _⟩ => ⟨S62500x64, .f32⟩
  | .hbm, ⟨28, _⟩ => ⟨S1x64, .f32⟩
  | .hbm, ⟨29, _⟩ => ⟨S1x64, .f32⟩
  | .hbm, ⟨30, _⟩ => ⟨S62500x64, .f32⟩
  | .hbm, ⟨31, _⟩ => ⟨S1x64, .f32⟩
  | .hbm, ⟨32, _⟩ => ⟨S1x64, .f32⟩
  | .hbm, ⟨33, _⟩ => ⟨S62500x64, .f32⟩
  | .hbm, ⟨34, _⟩ => ⟨S1x64, .f32⟩
  | .hbm, ⟨35, _⟩ => ⟨S1x64, .f32⟩
  | .hbm, ⟨36, _⟩ => ⟨S62500x64, .f32⟩
  | .hbm, ⟨37, _⟩ => ⟨S1x64, .f32⟩
  | .hbm, ⟨38, _⟩ => ⟨S1x64, .f32⟩
  | .hbm, ⟨39, _⟩ => ⟨S62500x64, .f32⟩
  | .hbm, ⟨40, _⟩ => ⟨S1x64, .f32⟩
  | .hbm, ⟨41, _⟩ => ⟨S1x64, .f32⟩
  | .hbm, ⟨42, _⟩ => ⟨S62500x64, .f32⟩
  | .hbm, ⟨43, _⟩ => ⟨S1x64, .f32⟩
  | .hbm, ⟨44, _⟩ => ⟨S1x64, .f32⟩
  | .hbm, ⟨45, _⟩ => ⟨S62500x64, .f32⟩
  | .hbm, ⟨46, _⟩ => ⟨S1x64, .f32⟩
  | .hbm, ⟨47, _⟩ => ⟨S1x64, .f32⟩
  | .hbm, ⟨48, _⟩ => ⟨S62500x64, .f32⟩
  | .hbm, ⟨49, _⟩ => ⟨S1x64, .f32⟩
  | .hbm, ⟨50, _⟩ => ⟨S1x64, .f32⟩
  | .hbm, ⟨51, _⟩ => ⟨S62500x64, .f32⟩
  | .hbm, ⟨52, _⟩ => ⟨S1x64, .f32⟩
  | .hbm, ⟨53, _⟩ => ⟨S1x64, .f32⟩
  | .hbm, ⟨54, _⟩ => ⟨S62500x64, .f32⟩
  | .hbm, ⟨55, _⟩ => ⟨S1x64, .f32⟩
  | .hbm, ⟨56, _⟩ => ⟨S1x64, .f32⟩
  | .hbm, ⟨57, _⟩ => ⟨S62500x64, .f32⟩
  | .hbm, ⟨58, _⟩ => ⟨S1x64, .f32⟩
  | .hbm, ⟨59, _⟩ => ⟨S1x64, .f32⟩
  | .hbm, ⟨60, _⟩ => ⟨S62500x64, .f32⟩
  | .hbm, ⟨61, _⟩ => ⟨S1x64, .f32⟩
  | .hbm, ⟨62, _⟩ => ⟨S1x64, .f32⟩
  | .hbm, ⟨63, _⟩ => ⟨S62500x64, .f32⟩
  | .hbm, ⟨64, _⟩ => ⟨S1x64, .f32⟩
  | .hbm, ⟨65, _⟩ => ⟨S1x64, .f32⟩
  | .hbm, ⟨66, _⟩ => ⟨S62500x64, .f32⟩
  | .hbm, ⟨67, _⟩ => ⟨S1x64, .f32⟩
  | .hbm, ⟨68, _⟩ => ⟨S1x64, .f32⟩
  | .hbm, ⟨69, _⟩ => ⟨S1000000x64, .f32⟩
  | .hbm, ⟨70, _⟩ => ⟨S1x1x64, .f32⟩
  | .hbm, ⟨71, _⟩ => ⟨S1x1x64, .f32⟩
  | .hbm, ⟨72, _⟩ => ⟨S1x1x64, .f32⟩
  | .hbm, ⟨73, _⟩ => ⟨S1x1x64, .f32⟩
  | .hbm, ⟨74, _⟩ => ⟨S1x1x64, .f32⟩
  | .hbm, ⟨75, _⟩ => ⟨S1x1x64, .f32⟩
  | .hbm, ⟨76, _⟩ => ⟨S1x1x64, .f32⟩
  | .hbm, ⟨77, _⟩ => ⟨S1x1x64, .f32⟩
  | .hbm, ⟨78, _⟩ => ⟨S1x1x64, .f32⟩
  | .hbm, ⟨79, _⟩ => ⟨S1x1x64, .f32⟩
  | .hbm, ⟨80, _⟩ => ⟨S1x1x64, .f32⟩
  | .hbm, ⟨81, _⟩ => ⟨S1x1x64, .f32⟩
  | .hbm, ⟨82, _⟩ => ⟨S1x1x64, .f32⟩
  | .hbm, ⟨83, _⟩ => ⟨S1x1x64, .f32⟩
  | .hbm, ⟨84, _⟩ => ⟨S1x1x64, .f32⟩
  | .hbm, ⟨85, _⟩ => ⟨S1x1x64, .f32⟩
  | .hbm, ⟨86, _⟩ => ⟨S16x1x64, .f32⟩
  | .hbm, ⟨87, _⟩ => ⟨S_, .f32⟩
  | .hbm, ⟨88, _⟩ => ⟨S1x64, .f32⟩
  | .hbm, ⟨89, _⟩ => ⟨S1x1x64, .f32⟩
  | .hbm, ⟨90, _⟩ => ⟨S1x1x64, .f32⟩
  | .hbm, ⟨91, _⟩ => ⟨S1x1x64, .f32⟩
  | .hbm, ⟨92, _⟩ => ⟨S1x1x64, .f32⟩
  | .hbm, ⟨93, _⟩ => ⟨S1x1x64, .f32⟩
  | .hbm, ⟨94, _⟩ => ⟨S1x1x64, .f32⟩
  | .hbm, ⟨95, _⟩ => ⟨S1x1x64, .f32⟩
  | .hbm, ⟨96, _⟩ => ⟨S1x1x64, .f32⟩
  | .hbm, ⟨97, _⟩ => ⟨S1x1x64, .f32⟩
  | .hbm, ⟨98, _⟩ => ⟨S1x1x64, .f32⟩
  | .hbm, ⟨99, _⟩ => ⟨S1x1x64, .f32⟩
  | .hbm, ⟨100, _⟩ => ⟨S1x1x64, .f32⟩
  | .hbm, ⟨101, _⟩ => ⟨S1x1x64, .f32⟩
  | .hbm, ⟨102, _⟩ => ⟨S1x1x64, .f32⟩
  | .hbm, ⟨103, _⟩ => ⟨S1x1x64, .f32⟩
  | .hbm, ⟨104, _⟩ => ⟨S1x1x64, .f32⟩
  | .hbm, ⟨105, _⟩ => ⟨S16x1x64, .f32⟩
  | .hbm, ⟨106, _⟩ => ⟨S_, .f32⟩
  | .hbm, ⟨107, _⟩ => ⟨S1x64, .f32⟩
  | .hbm, ⟨108, _⟩ => ⟨S_, .f32⟩
  | .hbm, ⟨109, _⟩ => ⟨S1x64, .f32⟩
  | .hbm, ⟨110, _⟩ => ⟨S1x64, .f32⟩
  | .hbm, ⟨111, _⟩ => ⟨S_, .f32⟩
  | .hbm, ⟨112, _⟩ => ⟨S1x64, .f32⟩
  | .hbm, ⟨113, _⟩ => ⟨S1x64, .f32⟩
  | .hbm, ⟨114, _⟩ => ⟨S1x64, .f32⟩
  | .hbm, ⟨115, _⟩ => ⟨S1x64, .f32⟩
  | .hbm, ⟨116, _⟩ => ⟨S_, .f32⟩
  | .hbm, ⟨117, _⟩ => ⟨S1x64, .f32⟩
  | .hbm, ⟨118, _⟩ => ⟨S1x64, .f32⟩
  | .hbm, ⟨119, _⟩ => ⟨S1000000x1, .f32⟩
  | .hbm, ⟨120, _⟩ => ⟨S1000000, .f32⟩
  | .local _ .vmem, ⟨i, _⟩ => vmemTy i
  | .local _ .smem, ⟨0, _⟩ => ⟨S62500, .i32⟩
  | .local _ .smem, ⟨1, _⟩ => ⟨S62500, .i32⟩
  | .local _ .smem, ⟨2, _⟩ => ⟨S62500, .i32⟩
  | .local _ .smem, ⟨3, _⟩ => ⟨S62500, .i32⟩
  | .local _ .smem, ⟨4, _⟩ => ⟨S62500, .i32⟩
  | .local _ .smem, ⟨5, _⟩ => ⟨S62500, .i32⟩
  | .local _ .smem, ⟨6, _⟩ => ⟨S62500, .i32⟩
  | .local _ .smem, ⟨7, _⟩ => ⟨S62500, .i32⟩
  | .local _ .smem, ⟨8, _⟩ => ⟨S62500, .i32⟩
  | .local _ .smem, ⟨9, _⟩ => ⟨S62500, .i32⟩
  | .local _ .smem, ⟨10, _⟩ => ⟨S62500, .i32⟩
  | .local _ .smem, ⟨11, _⟩ => ⟨S62500, .i32⟩
  | .local _ .smem, ⟨12, _⟩ => ⟨S62500, .i32⟩
  | .local _ .smem, ⟨13, _⟩ => ⟨S62500, .i32⟩
  | .local _ .smem, ⟨14, _⟩ => ⟨S62500, .i32⟩
  | .local _ .smem, ⟨15, _⟩ => ⟨S62500, .i32⟩
  | .local _ .smem, ⟨16, _⟩ => ⟨S62500, .i32⟩
  | .local _ .smem, ⟨17, _⟩ => ⟨S62500, .i32⟩
  | .local _ .smem, ⟨18, _⟩ => ⟨S62500, .i32⟩
  | .local _ .smem, ⟨19, _⟩ => ⟨S62500, .i32⟩
  | .local _ .smem, ⟨20, _⟩ => ⟨S62500, .i32⟩
  | .local _ .smem, ⟨21, _⟩ => ⟨S62500, .i32⟩
  | .local _ .smem, ⟨22, _⟩ => ⟨S62500, .i32⟩
  | .local _ .smem, ⟨23, _⟩ => ⟨S62500, .i32⟩
  | .local _ .smem, ⟨24, _⟩ => ⟨S62500, .i32⟩
  | .local _ .smem, ⟨25, _⟩ => ⟨S62500, .i32⟩
  | .local _ .smem, ⟨26, _⟩ => ⟨S62500, .i32⟩
  | .local _ .smem, ⟨27, _⟩ => ⟨S62500, .i32⟩
  | .local _ .smem, ⟨28, _⟩ => ⟨S62500, .i32⟩
  | .local _ .smem, ⟨29, _⟩ => ⟨S62500, .i32⟩
  | .local _ .smem, ⟨30, _⟩ => ⟨S62500, .i32⟩
  | .local _ .smem, ⟨31, _⟩ => ⟨S62500, .i32⟩
  | _, _ => ⟨S100000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 170 → Bool
  | ⟨i, _⟩ => dmaSemScopedAt i

abbrev sig : RefSig :=
  ofTc nBuf bufTy 0 170 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev main_v25_0 : Ref sig .tc := ⟨.hbm, 33, rfl⟩
abbrev main_v25_1 : Ref sig .tc := ⟨.hbm, 34, rfl⟩
abbrev main_v25_2 : Ref sig .tc := ⟨.hbm, 35, rfl⟩
abbrev main_v28_0 : Ref sig .tc := ⟨.hbm, 36, rfl⟩
abbrev main_v28_1 : Ref sig .tc := ⟨.hbm, 37, rfl⟩
abbrev main_v28_2 : Ref sig .tc := ⟨.hbm, 38, rfl⟩
abbrev main_v31_0 : Ref sig .tc := ⟨.hbm, 39, rfl⟩
abbrev main_v31_1 : Ref sig .tc := ⟨.hbm, 40, rfl⟩
abbrev main_v31_2 : Ref sig .tc := ⟨.hbm, 41, rfl⟩
abbrev main_v34_0 : Ref sig .tc := ⟨.hbm, 42, rfl⟩
abbrev main_v34_1 : Ref sig .tc := ⟨.hbm, 43, rfl⟩
abbrev main_v34_2 : Ref sig .tc := ⟨.hbm, 44, rfl⟩
abbrev main_v37_0 : Ref sig .tc := ⟨.hbm, 45, rfl⟩
abbrev main_v37_1 : Ref sig .tc := ⟨.hbm, 46, rfl⟩
abbrev main_v37_2 : Ref sig .tc := ⟨.hbm, 47, rfl⟩
abbrev main_v40_0 : Ref sig .tc := ⟨.hbm, 48, rfl⟩
abbrev main_v40_1 : Ref sig .tc := ⟨.hbm, 49, rfl⟩
abbrev main_v40_2 : Ref sig .tc := ⟨.hbm, 50, rfl⟩
abbrev main_v43_0 : Ref sig .tc := ⟨.hbm, 51, rfl⟩
abbrev main_v43_1 : Ref sig .tc := ⟨.hbm, 52, rfl⟩
abbrev main_v43_2 : Ref sig .tc := ⟨.hbm, 53, rfl⟩
abbrev main_v46_0 : Ref sig .tc := ⟨.hbm, 54, rfl⟩
abbrev main_v46_1 : Ref sig .tc := ⟨.hbm, 55, rfl⟩
abbrev main_v46_2 : Ref sig .tc := ⟨.hbm, 56, rfl⟩
abbrev main_v49_0 : Ref sig .tc := ⟨.hbm, 57, rfl⟩
abbrev main_v49_1 : Ref sig .tc := ⟨.hbm, 58, rfl⟩
abbrev main_v49_2 : Ref sig .tc := ⟨.hbm, 59, rfl⟩
abbrev main_v52_0 : Ref sig .tc := ⟨.hbm, 60, rfl⟩
abbrev main_v52_1 : Ref sig .tc := ⟨.hbm, 61, rfl⟩
abbrev main_v52_2 : Ref sig .tc := ⟨.hbm, 62, rfl⟩
abbrev main_v55_0 : Ref sig .tc := ⟨.hbm, 63, rfl⟩
abbrev main_v55_1 : Ref sig .tc := ⟨.hbm, 64, rfl⟩
abbrev main_v55_2 : Ref sig .tc := ⟨.hbm, 65, rfl⟩
abbrev main_v58_0 : Ref sig .tc := ⟨.hbm, 66, rfl⟩
abbrev main_v58_1 : Ref sig .tc := ⟨.hbm, 67, rfl⟩
abbrev main_v58_2 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_cst : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_cst_0 : Ref sig .tc := ⟨.hbm, 106, rfl⟩
abbrev main_v95 : Ref sig .tc := ⟨.hbm, 107, rfl⟩
abbrev main_cst_1 : Ref sig .tc := ⟨.hbm, 108, rfl⟩
abbrev main_v96 : Ref sig .tc := ⟨.hbm, 109, rfl⟩
abbrev main_v97 : Ref sig .tc := ⟨.hbm, 110, rfl⟩
abbrev main_cst_2 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_cst_3 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v11 : Ref sig .tc := ⟨.smem, 0, rfl⟩
abbrev main_v12 : Ref sig .tc := ⟨.smem, 1, rfl⟩
abbrev main_v14 : Ref sig .tc := ⟨.smem, 2, rfl⟩
abbrev main_v15 : Ref sig .tc := ⟨.smem, 3, rfl⟩
abbrev main_v17 : Ref sig .tc := ⟨.smem, 4, rfl⟩
abbrev main_v18 : Ref sig .tc := ⟨.smem, 5, rfl⟩
abbrev main_v20 : Ref sig .tc := ⟨.smem, 6, rfl⟩
abbrev main_v21 : Ref sig .tc := ⟨.smem, 7, rfl⟩
abbrev main_v23 : Ref sig .tc := ⟨.smem, 8, rfl⟩
abbrev main_v24 : Ref sig .tc := ⟨.smem, 9, rfl⟩
abbrev main_v26 : Ref sig .tc := ⟨.smem, 10, rfl⟩
abbrev main_v27 : Ref sig .tc := ⟨.smem, 11, rfl⟩
abbrev main_v29 : Ref sig .tc := ⟨.smem, 12, rfl⟩
abbrev main_v30 : Ref sig .tc := ⟨.smem, 13, rfl⟩
abbrev main_v32 : Ref sig .tc := ⟨.smem, 14, rfl⟩
abbrev main_v33 : Ref sig .tc := ⟨.smem, 15, rfl⟩
abbrev main_v35 : Ref sig .tc := ⟨.smem, 16, rfl⟩
abbrev main_v36 : Ref sig .tc := ⟨.smem, 17, rfl⟩
abbrev main_v38 : Ref sig .tc := ⟨.smem, 18, rfl⟩
abbrev main_v39 : Ref sig .tc := ⟨.smem, 19, rfl⟩
abbrev main_v41 : Ref sig .tc := ⟨.smem, 20, rfl⟩
abbrev main_v42 : Ref sig .tc := ⟨.smem, 21, rfl⟩
abbrev main_v44 : Ref sig .tc := ⟨.smem, 22, rfl⟩
abbrev main_v45 : Ref sig .tc := ⟨.smem, 23, rfl⟩
abbrev main_v47 : Ref sig .tc := ⟨.smem, 24, rfl⟩
abbrev main_v48 : Ref sig .tc := ⟨.smem, 25, rfl⟩
abbrev main_v50 : Ref sig .tc := ⟨.smem, 26, rfl⟩
abbrev main_v51 : Ref sig .tc := ⟨.smem, 27, rfl⟩
abbrev main_v53 : Ref sig .tc := ⟨.smem, 28, rfl⟩
abbrev main_v54 : Ref sig .tc := ⟨.smem, 29, rfl⟩
abbrev main_v56 : Ref sig .tc := ⟨.smem, 30, rfl⟩
abbrev main_v57 : Ref sig .tc := ⟨.smem, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_scratch0 : Ref sig .tc := ⟨.vmem, 27, rfl⟩
abbrev cc2_scratch1 : Ref sig .tc := ⟨.vmem, 28, rfl⟩
abbrev cc2_scratch2 : Ref sig .tc := ⟨.vmem, 29, rfl⟩
abbrev cc3_stg0_0 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_scratch0 : Ref sig .tc := ⟨.vmem, 37, rfl⟩
abbrev cc3_scratch1 : Ref sig .tc := ⟨.vmem, 38, rfl⟩
abbrev cc3_scratch2 : Ref sig .tc := ⟨.vmem, 39, rfl⟩
abbrev cc4_stg0_0 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg6_0 : Ref sig .tc := ⟨.vmem, 46, rfl⟩
abbrev cc4_scratch0 : Ref sig .tc := ⟨.vmem, 47, rfl⟩
abbrev cc4_scratch1 : Ref sig .tc := ⟨.vmem, 48, rfl⟩
abbrev cc4_scratch2 : Ref sig .tc := ⟨.vmem, 49, rfl⟩
abbrev cc5_stg0_0 : Ref sig .tc := ⟨.vmem, 50, rfl⟩
abbrev cc5_stg1_0 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg6_0 : Ref sig .tc := ⟨.vmem, 56, rfl⟩
abbrev cc5_scratch0 : Ref sig .tc := ⟨.vmem, 57, rfl⟩
abbrev cc5_scratch1 : Ref sig .tc := ⟨.vmem, 58, rfl⟩
abbrev cc5_scratch2 : Ref sig .tc := ⟨.vmem, 59, rfl⟩
abbrev cc6_stg0_0 : Ref sig .tc := ⟨.vmem, 60, rfl⟩
abbrev cc6_stg1_0 : Ref sig .tc := ⟨.vmem, 61, rfl⟩
abbrev cc6_stg2_0 : Ref sig .tc := ⟨.vmem, 62, rfl⟩
abbrev cc6_stg3_0 : Ref sig .tc := ⟨.vmem, 63, rfl⟩
abbrev cc6_stg4_0 : Ref sig .tc := ⟨.vmem, 64, rfl⟩
abbrev cc6_stg5_0 : Ref sig .tc := ⟨.vmem, 65, rfl⟩
abbrev cc6_stg6_0 : Ref sig .tc := ⟨.vmem, 66, rfl⟩
abbrev cc6_scratch0 : Ref sig .tc := ⟨.vmem, 67, rfl⟩
abbrev cc6_scratch1 : Ref sig .tc := ⟨.vmem, 68, rfl⟩
abbrev cc6_scratch2 : Ref sig .tc := ⟨.vmem, 69, rfl⟩
abbrev cc7_stg0_0 : Ref sig .tc := ⟨.vmem, 70, rfl⟩
abbrev cc7_stg1_0 : Ref sig .tc := ⟨.vmem, 71, rfl⟩
abbrev cc7_stg2_0 : Ref sig .tc := ⟨.vmem, 72, rfl⟩
abbrev cc7_stg3_0 : Ref sig .tc := ⟨.vmem, 73, rfl⟩
abbrev cc7_stg4_0 : Ref sig .tc := ⟨.vmem, 74, rfl⟩
abbrev cc7_stg5_0 : Ref sig .tc := ⟨.vmem, 75, rfl⟩
abbrev cc7_stg6_0 : Ref sig .tc := ⟨.vmem, 76, rfl⟩
abbrev cc7_scratch0 : Ref sig .tc := ⟨.vmem, 77, rfl⟩
abbrev cc7_scratch1 : Ref sig .tc := ⟨.vmem, 78, rfl⟩
abbrev cc7_scratch2 : Ref sig .tc := ⟨.vmem, 79, rfl⟩
abbrev cc8_stg0_0 : Ref sig .tc := ⟨.vmem, 80, rfl⟩
abbrev cc8_stg1_0 : Ref sig .tc := ⟨.vmem, 81, rfl⟩
abbrev cc8_stg2_0 : Ref sig .tc := ⟨.vmem, 82, rfl⟩
abbrev cc8_stg3_0 : Ref sig .tc := ⟨.vmem, 83, rfl⟩
abbrev cc8_stg4_0 : Ref sig .tc := ⟨.vmem, 84, rfl⟩
abbrev cc8_stg5_0 : Ref sig .tc := ⟨.vmem, 85, rfl⟩
abbrev cc8_stg6_0 : Ref sig .tc := ⟨.vmem, 86, rfl⟩
abbrev cc8_scratch0 : Ref sig .tc := ⟨.vmem, 87, rfl⟩
abbrev cc8_scratch1 : Ref sig .tc := ⟨.vmem, 88, rfl⟩
abbrev cc8_scratch2 : Ref sig .tc := ⟨.vmem, 89, rfl⟩
abbrev cc9_stg0_0 : Ref sig .tc := ⟨.vmem, 90, rfl⟩
abbrev cc9_stg1_0 : Ref sig .tc := ⟨.vmem, 91, rfl⟩
abbrev cc9_stg2_0 : Ref sig .tc := ⟨.vmem, 92, rfl⟩
abbrev cc9_stg3_0 : Ref sig .tc := ⟨.vmem, 93, rfl⟩
abbrev cc9_stg4_0 : Ref sig .tc := ⟨.vmem, 94, rfl⟩
abbrev cc9_stg5_0 : Ref sig .tc := ⟨.vmem, 95, rfl⟩
abbrev cc9_stg6_0 : Ref sig .tc := ⟨.vmem, 96, rfl⟩
abbrev cc9_scratch0 : Ref sig .tc := ⟨.vmem, 97, rfl⟩
abbrev cc9_scratch1 : Ref sig .tc := ⟨.vmem, 98, rfl⟩
abbrev cc9_scratch2 : Ref sig .tc := ⟨.vmem, 99, rfl⟩
abbrev cc10_stg0_0 : Ref sig .tc := ⟨.vmem, 100, rfl⟩
abbrev cc10_stg1_0 : Ref sig .tc := ⟨.vmem, 101, rfl⟩
abbrev cc10_stg2_0 : Ref sig .tc := ⟨.vmem, 102, rfl⟩
abbrev cc10_stg3_0 : Ref sig .tc := ⟨.vmem, 103, rfl⟩
abbrev cc10_stg4_0 : Ref sig .tc := ⟨.vmem, 104, rfl⟩
abbrev cc10_stg5_0 : Ref sig .tc := ⟨.vmem, 105, rfl⟩
abbrev cc10_stg6_0 : Ref sig .tc := ⟨.vmem, 106, rfl⟩
abbrev cc10_scratch0 : Ref sig .tc := ⟨.vmem, 107, rfl⟩
abbrev cc10_scratch1 : Ref sig .tc := ⟨.vmem, 108, rfl⟩
abbrev cc10_scratch2 : Ref sig .tc := ⟨.vmem, 109, rfl⟩
abbrev cc11_stg0_0 : Ref sig .tc := ⟨.vmem, 110, rfl⟩
abbrev cc11_stg1_0 : Ref sig .tc := ⟨.vmem, 111, rfl⟩
abbrev cc11_stg2_0 : Ref sig .tc := ⟨.vmem, 112, rfl⟩
abbrev cc11_stg3_0 : Ref sig .tc := ⟨.vmem, 113, rfl⟩
abbrev cc11_stg4_0 : Ref sig .tc := ⟨.vmem, 114, rfl⟩
abbrev cc11_stg5_0 : Ref sig .tc := ⟨.vmem, 115, rfl⟩
abbrev cc11_stg6_0 : Ref sig .tc := ⟨.vmem, 116, rfl⟩
abbrev cc11_scratch0 : Ref sig .tc := ⟨.vmem, 117, rfl⟩
abbrev cc11_scratch1 : Ref sig .tc := ⟨.vmem, 118, rfl⟩
abbrev cc11_scratch2 : Ref sig .tc := ⟨.vmem, 119, rfl⟩
abbrev cc12_stg0_0 : Ref sig .tc := ⟨.vmem, 120, rfl⟩
abbrev cc12_stg1_0 : Ref sig .tc := ⟨.vmem, 121, rfl⟩
abbrev cc12_stg2_0 : Ref sig .tc := ⟨.vmem, 122, rfl⟩
abbrev cc12_stg3_0 : Ref sig .tc := ⟨.vmem, 123, rfl⟩
abbrev cc12_stg4_0 : Ref sig .tc := ⟨.vmem, 124, rfl⟩
abbrev cc12_stg5_0 : Ref sig .tc := ⟨.vmem, 125, rfl⟩
abbrev cc12_stg6_0 : Ref sig .tc := ⟨.vmem, 126, rfl⟩
abbrev cc12_scratch0 : Ref sig .tc := ⟨.vmem, 127, rfl⟩
abbrev cc12_scratch1 : Ref sig .tc := ⟨.vmem, 128, rfl⟩
abbrev cc12_scratch2 : Ref sig .tc := ⟨.vmem, 129, rfl⟩
abbrev cc13_stg0_0 : Ref sig .tc := ⟨.vmem, 130, rfl⟩
abbrev cc13_stg1_0 : Ref sig .tc := ⟨.vmem, 131, rfl⟩
abbrev cc13_stg2_0 : Ref sig .tc := ⟨.vmem, 132, rfl⟩
abbrev cc13_stg3_0 : Ref sig .tc := ⟨.vmem, 133, rfl⟩
abbrev cc13_stg4_0 : Ref sig .tc := ⟨.vmem, 134, rfl⟩
abbrev cc13_stg5_0 : Ref sig .tc := ⟨.vmem, 135, rfl⟩
abbrev cc13_stg6_0 : Ref sig .tc := ⟨.vmem, 136, rfl⟩
abbrev cc13_scratch0 : Ref sig .tc := ⟨.vmem, 137, rfl⟩
abbrev cc13_scratch1 : Ref sig .tc := ⟨.vmem, 138, rfl⟩
abbrev cc13_scratch2 : Ref sig .tc := ⟨.vmem, 139, rfl⟩
abbrev cc14_stg0_0 : Ref sig .tc := ⟨.vmem, 140, rfl⟩
abbrev cc14_stg1_0 : Ref sig .tc := ⟨.vmem, 141, rfl⟩
abbrev cc14_stg2_0 : Ref sig .tc := ⟨.vmem, 142, rfl⟩
abbrev cc14_stg3_0 : Ref sig .tc := ⟨.vmem, 143, rfl⟩
abbrev cc14_stg4_0 : Ref sig .tc := ⟨.vmem, 144, rfl⟩
abbrev cc14_stg5_0 : Ref sig .tc := ⟨.vmem, 145, rfl⟩
abbrev cc14_stg6_0 : Ref sig .tc := ⟨.vmem, 146, rfl⟩
abbrev cc14_scratch0 : Ref sig .tc := ⟨.vmem, 147, rfl⟩
abbrev cc14_scratch1 : Ref sig .tc := ⟨.vmem, 148, rfl⟩
abbrev cc14_scratch2 : Ref sig .tc := ⟨.vmem, 149, rfl⟩
abbrev cc15_stg0_0 : Ref sig .tc := ⟨.vmem, 150, rfl⟩
abbrev cc15_stg1_0 : Ref sig .tc := ⟨.vmem, 151, rfl⟩
abbrev cc15_stg2_0 : Ref sig .tc := ⟨.vmem, 152, rfl⟩
abbrev cc15_stg3_0 : Ref sig .tc := ⟨.vmem, 153, rfl⟩
abbrev cc15_stg4_0 : Ref sig .tc := ⟨.vmem, 154, rfl⟩
abbrev cc15_stg5_0 : Ref sig .tc := ⟨.vmem, 155, rfl⟩
abbrev cc15_stg6_0 : Ref sig .tc := ⟨.vmem, 156, rfl⟩
abbrev cc15_scratch0 : Ref sig .tc := ⟨.vmem, 157, rfl⟩
abbrev cc15_scratch1 : Ref sig .tc := ⟨.vmem, 158, rfl⟩
abbrev cc15_scratch2 : Ref sig .tc := ⟨.vmem, 159, rfl⟩
abbrev cc16_stg0_0 : Ref sig .tc := ⟨.vmem, 160, rfl⟩
abbrev cc16_stg0_1 : Ref sig .tc := ⟨.vmem, 161, rfl⟩
abbrev cc16_stg1_0 : Ref sig .tc := ⟨.vmem, 162, rfl⟩
abbrev cc16_stg2_0 : Ref sig .tc := ⟨.vmem, 163, rfl⟩
abbrev cc16_stg3_0 : Ref sig .tc := ⟨.vmem, 164, rfl⟩
abbrev cc16_stg4_0 : Ref sig .tc := ⟨.vmem, 165, rfl⟩
abbrev cc16_stg5_0 : Ref sig .tc := ⟨.vmem, 166, rfl⟩
abbrev cc16_stg6_0 : Ref sig .tc := ⟨.vmem, 167, rfl⟩
abbrev cc16_stg7_0 : Ref sig .tc := ⟨.vmem, 168, rfl⟩
abbrev cc16_stg7_1 : Ref sig .tc := ⟨.vmem, 169, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc2_sem0_0 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc3_sem0_0 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc4_sem0_0 : DmaSem sig := 40
abbrev cc4_sem1_0 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem6_0 : DmaSem sig := 46
abbrev cc5_sem0_0 : DmaSem sig := 50
abbrev cc5_sem1_0 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem6_0 : DmaSem sig := 56
abbrev cc6_sem0_0 : DmaSem sig := 60
abbrev cc6_sem1_0 : DmaSem sig := 61
abbrev cc6_sem2_0 : DmaSem sig := 62
abbrev cc6_sem3_0 : DmaSem sig := 63
abbrev cc6_sem4_0 : DmaSem sig := 64
abbrev cc6_sem5_0 : DmaSem sig := 65
abbrev cc6_sem6_0 : DmaSem sig := 66
abbrev cc7_sem0_0 : DmaSem sig := 70
abbrev cc7_sem1_0 : DmaSem sig := 71
abbrev cc7_sem2_0 : DmaSem sig := 72
abbrev cc7_sem3_0 : DmaSem sig := 73
abbrev cc7_sem4_0 : DmaSem sig := 74
abbrev cc7_sem5_0 : DmaSem sig := 75
abbrev cc7_sem6_0 : DmaSem sig := 76
abbrev cc8_sem0_0 : DmaSem sig := 80
abbrev cc8_sem1_0 : DmaSem sig := 81
abbrev cc8_sem2_0 : DmaSem sig := 82
abbrev cc8_sem3_0 : DmaSem sig := 83
abbrev cc8_sem4_0 : DmaSem sig := 84
abbrev cc8_sem5_0 : DmaSem sig := 85
abbrev cc8_sem6_0 : DmaSem sig := 86
abbrev cc9_sem0_0 : DmaSem sig := 90
abbrev cc9_sem1_0 : DmaSem sig := 91
abbrev cc9_sem2_0 : DmaSem sig := 92
abbrev cc9_sem3_0 : DmaSem sig := 93
abbrev cc9_sem4_0 : DmaSem sig := 94
abbrev cc9_sem5_0 : DmaSem sig := 95
abbrev cc9_sem6_0 : DmaSem sig := 96
abbrev cc10_sem0_0 : DmaSem sig := 100
abbrev cc10_sem1_0 : DmaSem sig := 101
abbrev cc10_sem2_0 : DmaSem sig := 102
abbrev cc10_sem3_0 : DmaSem sig := 103
abbrev cc10_sem4_0 : DmaSem sig := 104
abbrev cc10_sem5_0 : DmaSem sig := 105
abbrev cc10_sem6_0 : DmaSem sig := 106
abbrev cc11_sem0_0 : DmaSem sig := 110
abbrev cc11_sem1_0 : DmaSem sig := 111
abbrev cc11_sem2_0 : DmaSem sig := 112
abbrev cc11_sem3_0 : DmaSem sig := 113
abbrev cc11_sem4_0 : DmaSem sig := 114
abbrev cc11_sem5_0 : DmaSem sig := 115
abbrev cc11_sem6_0 : DmaSem sig := 116
abbrev cc12_sem0_0 : DmaSem sig := 120
abbrev cc12_sem1_0 : DmaSem sig := 121
abbrev cc12_sem2_0 : DmaSem sig := 122
abbrev cc12_sem3_0 : DmaSem sig := 123
abbrev cc12_sem4_0 : DmaSem sig := 124
abbrev cc12_sem5_0 : DmaSem sig := 125
abbrev cc12_sem6_0 : DmaSem sig := 126
abbrev cc13_sem0_0 : DmaSem sig := 130
abbrev cc13_sem1_0 : DmaSem sig := 131
abbrev cc13_sem2_0 : DmaSem sig := 132
abbrev cc13_sem3_0 : DmaSem sig := 133
abbrev cc13_sem4_0 : DmaSem sig := 134
abbrev cc13_sem5_0 : DmaSem sig := 135
abbrev cc13_sem6_0 : DmaSem sig := 136
abbrev cc14_sem0_0 : DmaSem sig := 140
abbrev cc14_sem1_0 : DmaSem sig := 141
abbrev cc14_sem2_0 : DmaSem sig := 142
abbrev cc14_sem3_0 : DmaSem sig := 143
abbrev cc14_sem4_0 : DmaSem sig := 144
abbrev cc14_sem5_0 : DmaSem sig := 145
abbrev cc14_sem6_0 : DmaSem sig := 146
abbrev cc15_sem0_0 : DmaSem sig := 150
abbrev cc15_sem1_0 : DmaSem sig := 151
abbrev cc15_sem2_0 : DmaSem sig := 152
abbrev cc15_sem3_0 : DmaSem sig := 153
abbrev cc15_sem4_0 : DmaSem sig := 154
abbrev cc15_sem5_0 : DmaSem sig := 155
abbrev cc15_sem6_0 : DmaSem sig := 156
abbrev cc16_sem0_0 : DmaSem sig := 160
abbrev cc16_sem0_1 : DmaSem sig := 161
abbrev cc16_sem1_0 : DmaSem sig := 162
abbrev cc16_sem2_0 : DmaSem sig := 163
abbrev cc16_sem3_0 : DmaSem sig := 164
abbrev cc16_sem4_0 : DmaSem sig := 165
abbrev cc16_sem5_0 : DmaSem sig := 166
abbrev cc16_sem6_0 : DmaSem sig := 167
abbrev cc16_sem7_0 : DmaSem sig := 168
abbrev cc16_sem7_1 : DmaSem sig := 169

abbrev nD : Nat := 1
abbrev τ : Topo := Topo.v7x

variable {F : FTy → Type} [FloatOps F]

abbrev grid0 : Pipeline.Grid := ⟨1, ![62500], ![false]⟩

abbrev pre0 : Pipeline.Prefetch sig := ⟨2, ![main_v11.idx, main_v12.idx], fun | 0 => main_v11.names | 1 => main_v12.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
def k0_off2 (v4 : BitVec 32) : Fin 2 → Nat :=
  let c0_i32_2 : BitVec 32 := 0#32
  ![v4.toNat, 0]

def k0_chk1 (v4 : BitVec 32) : Prop :=
  (∀ a, (k0_off2 v4) a + S1x128.size a ≤ S100000x128.size a)
instance k0_chk1.dec : ∀ (v4 : BitVec 32), Decidable (k0_chk1 v4) := fun v4 => decidable_of_iff' _ (Iff.of_eq (k0_chk1.eq_1 v4))
theorem k0_off2_inb : ∀ (v4 : BitVec 32) (k0_hw1 : k0_chk1 v4), ∀ a, (k0_off2 v4) a + S1x128.size a ≤ S100000x128.size a := fun v4 k0_hw1 => k0_hw1

def k0_off3 (i : grid0.Coords) : Fin 1 → Nat :=
  let arg0 : BitVec 32 := BitVec.ofNat 32 (i 0).val
  let v11 : Index := Scalar.indexCast arg0
  ![v11.toNat]
def k0_off4 (v12 : BitVec 32) : Fin 2 → Nat :=
  let c0_i32_5 : BitVec 32 := 0#32
  ![v12.toNat, 0]

def k0_chk2 (v12 : BitVec 32) : Prop :=
  (∀ a, (k0_off4 v12) a + S1x128.size a ≤ S100000x128.size a)
instance k0_chk2.dec : ∀ (v12 : BitVec 32), Decidable (k0_chk2 v12) := fun v12 => decidable_of_iff' _ (Iff.of_eq (k0_chk2.eq_1 v12))
theorem k0_off4_inb : ∀ (v12 : BitVec 32) (k0_hw2 : k0_chk2 v12), ∀ a, (k0_off4 v12) a + S1x128.size a ≤ S100000x128.size a := fun v12 k0_hw2 => k0_hw2

def k0_off5 (i : grid0.Coords) : Fin 2 → Nat :=
  let arg0 : BitVec 32 := BitVec.ofNat 32 (i 0).val
  let c0_i32_26 : BitVec 32 := 0#32
  ![arg0.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![62500], ![false]⟩

abbrev pre1 : Pipeline.Prefetch sig := ⟨2, ![main_v14.idx, main_v15.idx], fun | 0 => main_v14.names | 1 => main_v15.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v3 : Index := Scalar.indexCast arg0
  ![v3.toNat]
def k1_off2 (v4 : BitVec 32) : Fin 2 → Nat :=
  let c0_i32_2 : BitVec 32 := 0#32
  ![v4.toNat, 0]

def k1_chk1 (v4 : BitVec 32) : Prop :=
  (∀ a, (k1_off2 v4) a + S1x128.size a ≤ S100000x128.size a)
instance k1_chk1.dec : ∀ (v4 : BitVec 32), Decidable (k1_chk1 v4) := fun v4 => decidable_of_iff' _ (Iff.of_eq (k1_chk1.eq_1 v4))
theorem k1_off2_inb : ∀ (v4 : BitVec 32) (k1_hw1 : k1_chk1 v4), ∀ a, (k1_off2 v4) a + S1x128.size a ≤ S100000x128.size a := fun v4 k1_hw1 => k1_hw1

def k1_off3 (i : grid1.Coords) : Fin 1 → Nat :=
  let arg0 : BitVec 32 := BitVec.ofNat 32 (i 0).val
  let v11 : Index := Scalar.indexCast arg0
  ![v11.toNat]
def k1_off4 (v12 : BitVec 32) : Fin 2 → Nat :=
  let c0_i32_5 : BitVec 32 := 0#32
  ![v12.toNat, 0]

def k1_chk2 (v12 : BitVec 32) : Prop :=
  (∀ a, (k1_off4 v12) a + S1x128.size a ≤ S100000x128.size a)
instance k1_chk2.dec : ∀ (v12 : BitVec 32), Decidable (k1_chk2 v12) := fun v12 => decidable_of_iff' _ (Iff.of_eq (k1_chk2.eq_1 v12))
theorem k1_off4_inb : ∀ (v12 : BitVec 32) (k1_hw2 : k1_chk2 v12), ∀ a, (k1_off4 v12) a + S1x128.size a ≤ S100000x128.size a := fun v12 k1_hw2 => k1_hw2

def k1_off5 (i : grid1.Coords) : Fin 2 → Nat :=
  let arg0 : BitVec 32 := BitVec.ofNat 32 (i 0).val
  let c0_i32_26 : BitVec 32 := 0#32
  ![arg0.toNat, 0]
def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![62500], ![false]⟩

abbrev pre2 : Pipeline.Prefetch sig := ⟨2, ![main_v17.idx, main_v18.idx], fun | 0 => main_v17.names | 1 => main_v18.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg0 : BitVec 32 := BitVec.ofNat 32 (i 0).val
  let v3 : Index := Scalar.indexCast arg0
  ![v3.toNat]
def k2_off2 (v4 : BitVec 32) : Fin 2 → Nat :=
  let c0_i32_2 : BitVec 32 := 0#32
  ![v4.toNat, 0]

def k2_chk1 (v4 : BitVec 32) : Prop :=
  (∀ a, (k2_off2 v4) a + S1x128.size a ≤ S100000x128.size a)
instance k2_chk1.dec : ∀ (v4 : BitVec 32), Decidable (k2_chk1 v4) := fun v4 => decidable_of_iff' _ (Iff.of_eq (k2_chk1.eq_1 v4))
theorem k2_off2_inb : ∀ (v4 : BitVec 32) (k2_hw1 : k2_chk1 v4), ∀ a, (k2_off2 v4) a + S1x128.size a ≤ S100000x128.size a := fun v4 k2_hw1 => k2_hw1

def k2_off3 (i : grid2.Coords) : Fin 1 → Nat :=
  let arg0 : BitVec 32 := BitVec.ofNat 32 (i 0).val
  let v11 : Index := Scalar.indexCast arg0
  ![v11.toNat]
def k2_off4 (v12 : BitVec 32) : Fin 2 → Nat :=
  let c0_i32_5 : BitVec 32 := 0#32
  ![v12.toNat, 0]

def k2_chk2 (v12 : BitVec 32) : Prop :=
  (∀ a, (k2_off4 v12) a + S1x128.size a ≤ S100000x128.size a)
instance k2_chk2.dec : ∀ (v12 : BitVec 32), Decidable (k2_chk2 v12) := fun v12 => decidable_of_iff' _ (Iff.of_eq (k2_chk2.eq_1 v12))
theorem k2_off4_inb : ∀ (v12 : BitVec 32) (k2_hw2 : k2_chk2 v12), ∀ a, (k2_off4 v12) a + S1x128.size a ≤ S100000x128.size a := fun v12 k2_hw2 => k2_hw2

def k2_off5 (i : grid2.Coords) : Fin 2 → Nat :=
  let arg0 : BitVec 32 := BitVec.ofNat 32 (i 0).val
  let c0_i32_26 : BitVec 32 := 0#32
  ![arg0.toNat, 0]
def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![62500], ![false]⟩

abbrev pre3 : Pipeline.Prefetch sig := ⟨2, ![main_v20.idx, main_v21.idx], fun | 0 => main_v20.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k3_off1 (i : grid3.Coords) : Fin 1 → Nat :=
  let arg0 : BitVec 32 := BitVec.ofNat 32 (i 0).val
  let v3 : Index := Scalar.indexCast arg0
  ![v3.toNat]
def k3_off2 (v4 : BitVec 32) : Fin 2 → Nat :=
  let c0_i32_2 : BitVec 32 := 0#32
  ![v4.toNat, 0]

def k3_chk1 (v4 : BitVec 32) : Prop :=
  (∀ a, (k3_off2 v4) a + S1x128.size a ≤ S100000x128.size a)
instance k3_chk1.dec : ∀ (v4 : BitVec 32), Decidable (k3_chk1 v4) := fun v4 => decidable_of_iff' _ (Iff.of_eq (k3_chk1.eq_1 v4))
theorem k3_off2_inb : ∀ (v4 : BitVec 32) (k3_hw1 : k3_chk1 v4), ∀ a, (k3_off2 v4) a + S1x128.size a ≤ S100000x128.size a := fun v4 k3_hw1 => k3_hw1

def k3_off3 (i : grid3.Coords) : Fin 1 → Nat :=
  let arg0 : BitVec 32 := BitVec.ofNat 32 (i 0).val
  let v11 : Index := Scalar.indexCast arg0
  ![v11.toNat]
def k3_off4 (v12 : BitVec 32) : Fin 2 → Nat :=
  let c0_i32_5 : BitVec 32 := 0#32
  ![v12.toNat, 0]

def k3_chk2 (v12 : BitVec 32) : Prop :=
  (∀ a, (k3_off4 v12) a + S1x128.size a ≤ S100000x128.size a)
instance k3_chk2.dec : ∀ (v12 : BitVec 32), Decidable (k3_chk2 v12) := fun v12 => decidable_of_iff' _ (Iff.of_eq (k3_chk2.eq_1 v12))
theorem k3_off4_inb : ∀ (v12 : BitVec 32) (k3_hw2 : k3_chk2 v12), ∀ a, (k3_off4 v12) a + S1x128.size a ≤ S100000x128.size a := fun v12 k3_hw2 => k3_hw2

def k3_off5 (i : grid3.Coords) : Fin 2 → Nat :=
  let arg0 : BitVec 32 := BitVec.ofNat 32 (i 0).val
  let c0_i32_26 : BitVec 32 := 0#32
  ![arg0.toNat, 0]
def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![62500], ![false]⟩

abbrev pre4 : Pipeline.Prefetch sig := ⟨2, ![main_v23.idx, main_v24.idx], fun | 0 => main_v23.names | 1 => main_v24.names | ⟨_ + 2, h⟩ => absurd h (Nat.not_lt.2 (Nat.le_add_left _ _)), fun | 0 => rfl | 1 => rfl | ⟨_ + 2, h⟩ => absurd h (Nat.not_lt.2 (Nat.le_add_left _ _))⟩

def k4_off1 (i : grid4.Coords) : Fin 1 → Nat :=
  let arg0 : BitVec 32 := BitVec.ofNat 32 (i 0).val
  let v3 : Index := Scalar.indexCast arg0
  ![v3.toNat]
def k4_off2 (v4 : BitVec 32) : Fin 2 → Nat :=
  let c0_i32_2 : BitVec 32 := 0#32
  ![v4.toNat, 0]

def k4_chk1 (v4 : BitVec 32) : Prop :=
  (∀ a, (k4_off2 v4) a + S1x128.size a ≤ S100000x128.size a)
instance k4_chk1.dec : ∀ (v4 : BitVec 32), Decidable (k4_chk1 v4) := fun v4 => decidable_of_iff' _ (Iff.of_eq (k4_chk1.eq_1 v4))
theorem k4_off2_inb : ∀ (v4 : BitVec 32) (k4_hw1 : k4_chk1 v4), ∀ a, (k4_off2 v4) a + S1x128.size a ≤ S100000x128.size a := fun v4 k4_hw1 => k4_hw1

def k4_off3 (i : grid4.Coords) : Fin 1 → Nat :=
  let arg0 : BitVec 32 := BitVec.ofNat 32 (i 0).val
  let v11 : Index := Scalar.indexCast arg0
  ![v11.toNat]
def k4_off4 (v12 : BitVec 32) : Fin 2 → Nat :=
  let c0_i32_5 : BitVec 32 := 0#32
  ![v12.toNat, 0]

def k4_chk2 (v12 : BitVec 32) : Prop :=
  (∀ a, (k4_off4 v12) a + S1x128.size a ≤ S100000x128.size a)
instance k4_chk2.dec : ∀ (v12 : BitVec 32), Decidable (k4_chk2 v12) := fun v12 => decidable_of_iff' _ (Iff.of_eq (k4_chk2.eq_1 v12))
theorem k4_off4_inb : ∀ (v12 : BitVec 32) (k4_hw2 : k4_chk2 v12), ∀ a, (k4_off4 v12) a + S1x128.size a ≤ S100000x128.size a := fun v12 k4_hw2 => k4_hw2

def k4_off5 (i : grid4.Coords) : Fin 2 → Nat :=
  let arg0 : BitVec 32 := BitVec.ofNat 32 (i 0).val
  let c0_i32_26 : BitVec 32 := 0#32
  ![arg0.toNat, 0]
def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![62500], ![false]⟩

abbrev pre5 : Pipeline.Prefetch sig := ⟨2, ![main_v26.idx, main_v27.idx], fun | 0 => main_v26.names | 1 => main_v27.names | ⟨_ + 2, h⟩ => absurd h (Nat.not_lt.2 (Nat.le_add_left _ _)), fun | 0 => rfl | 1 => rfl | ⟨_ + 2, h⟩ => absurd h (Nat.not_lt.2 (Nat.le_add_left _ _))⟩

def k5_off1 (i : grid5.Coords) : Fin 1 → Nat :=
  let arg0 : BitVec 32 := BitVec.ofNat 32 (i 0).val
  let v3 : Index := Scalar.indexCast arg0
  ![v3.toNat]
def k5_off2 (v4 : BitVec 32) : Fin 2 → Nat :=
  let c0_i32_2 : BitVec 32 := 0#32
  ![v4.toNat, 0]

def k5_chk1 (v4 : BitVec 32) : Prop :=
  (∀ a, (k5_off2 v4) a + S1x128.size a ≤ S100000x128.size a)
instance k5_chk1.dec : ∀ (v4 : BitVec 32), Decidable (k5_chk1 v4) := fun v4 => decidable_of_iff' _ (Iff.of_eq (k5_chk1.eq_1 v4))
theorem k5_off2_inb : ∀ (v4 : BitVec 32) (k5_hw1 : k5_chk1 v4), ∀ a, (k5_off2 v4) a + S1x128.size a ≤ S100000x128.size a := fun v4 k5_hw1 => k5_hw1

def k5_off3 (i : grid5.Coords) : Fin 1 → Nat :=
  let arg0 : BitVec 32 := BitVec.ofNat 32 (i 0).val
  let v11 : Index := Scalar.indexCast arg0
  ![v11.toNat]
def k5_off4 (v12 : BitVec 32) : Fin 2 → Nat :=
  let c0_i32_5 : BitVec 32 := 0#32
  ![v12.toNat, 0]

def k5_chk2 (v12 : BitVec 32) : Prop :=
  (∀ a, (k5_off4 v12) a + S1x128.size a ≤ S100000x128.size a)
instance k5_chk2.dec : ∀ (v12 : BitVec 32), Decidable (k5_chk2 v12) := fun v12 => decidable_of_iff' _ (Iff.of_eq (k5_chk2.eq_1 v12))
theorem k5_off4_inb : ∀ (v12 : BitVec 32) (k5_hw2 : k5_chk2 v12), ∀ a, (k5_off4 v12) a + S1x128.size a ≤ S100000x128.size a := fun v12 k5_hw2 => k5_hw2

def k5_off5 (i : grid5.Coords) : Fin 2 → Nat :=
  let arg0 : BitVec 32 := BitVec.ofNat 32 (i 0).val
  let c0_i32_26 : BitVec 32 := 0#32
  ![arg0.toNat, 0]
def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S64x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S64x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev grid6 : Pipeline.Grid := ⟨1, ![62500], ![false]⟩

abbrev pre6 : Pipeline.Prefetch sig := ⟨2, ![main_v29.idx, main_v30.idx], fun | 0 => main_v29.names | 1 => main_v30.names | ⟨_ + 2, h⟩ => absurd h (Nat.not_lt.2 (Nat.le_add_left _ _)), fun | 0 => rfl | 1 => rfl | ⟨_ + 2, h⟩ => absurd h (Nat.not_lt.2 (Nat.le_add_left _ _))⟩

def k6_off1 (i : grid6.Coords) : Fin 1 → Nat :=
  let arg0 : BitVec 32 := BitVec.ofNat 32 (i 0).val
  let v3 : Index := Scalar.indexCast arg0
  ![v3.toNat]
def k6_off2 (v4 : BitVec 32) : Fin 2 → Nat :=
  let c0_i32_2 : BitVec 32 := 0#32
  ![v4.toNat, 0]

def k6_chk1 (v4 : BitVec 32) : Prop :=
  (∀ a, (k6_off2 v4) a + S1x128.size a ≤ S100000x128.size a)
instance k6_chk1.dec : ∀ (v4 : BitVec 32), Decidable (k6_chk1 v4) := fun v4 => decidable_of_iff' _ (Iff.of_eq (k6_chk1.eq_1 v4))
theorem k6_off2_inb : ∀ (v4 : BitVec 32) (k6_hw1 : k6_chk1 v4), ∀ a, (k6_off2 v4) a + S1x128.size a ≤ S100000x128.size a := fun v4 k6_hw1 => k6_hw1

def k6_off3 (i : grid6.Coords) : Fin 1 → Nat :=
  let arg0 : BitVec 32 := BitVec.ofNat 32 (i 0).val
  let v11 : Index := Scalar.indexCast arg0
  ![v11.toNat]
def k6_off4 (v12 : BitVec 32) : Fin 2 → Nat :=
  let c0_i32_5 : BitVec 32 := 0#32
  ![v12.toNat, 0]

def k6_chk2 (v12 : BitVec 32) : Prop :=
  (∀ a, (k6_off4 v12) a + S1x128.size a ≤ S100000x128.size a)
instance k6_chk2.dec : ∀ (v12 : BitVec 32), Decidable (k6_chk2 v12) := fun v12 => decidable_of_iff' _ (Iff.of_eq (k6_chk2.eq_1 v12))
theorem k6_off4_inb : ∀ (v12 : BitVec 32) (k6_hw2 : k6_chk2 v12), ∀ a, (k6_off4 v12) a + S1x128.size a ≤ S100000x128.size a := fun v12 k6_hw2 => k6_hw2

def k6_off5 (i : grid6.Coords) : Fin 2 → Nat :=
  let arg0 : BitVec 32 := BitVec.ofNat 32 (i 0).val
  let c0_i32_26 : BitVec 32 := 0#32
  ![arg0.toNat, 0]
def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S64x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := ⟨1, ![62500], ![false]⟩

abbrev pre7 : Pipeline.Prefetch sig := ⟨2, ![main_v32.idx, main_v33.idx], fun | 0 => main_v32.names | 1 => main_v33.names | ⟨_ + 2, h⟩ => absurd h (Nat.not_lt.2 (Nat.le_add_left _ _)), fun | 0 => rfl | 1 => rfl | ⟨_ + 2, h⟩ => absurd h (Nat.not_lt.2 (Nat.le_add_left _ _))⟩

def k7_off1 (i : grid7.Coords) : Fin 1 → Nat :=
  let arg0 : BitVec 32 := BitVec.ofNat 32 (i 0).val
  let v3 : Index := Scalar.indexCast arg0
  ![v3.toNat]
def k7_off2 (v4 : BitVec 32) : Fin 2 → Nat :=
  let c0_i32_2 : BitVec 32 := 0#32
  ![v4.toNat, 0]

def k7_chk1 (v4 : BitVec 32) : Prop :=
  (∀ a, (k7_off2 v4) a + S1x128.size a ≤ S100000x128.size a)
instance k7_chk1.dec : ∀ (v4 : BitVec 32), Decidable (k7_chk1 v4) := fun v4 => decidable_of_iff' _ (Iff.of_eq (k7_chk1.eq_1 v4))
theorem k7_off2_inb : ∀ (v4 : BitVec 32) (k7_hw1 : k7_chk1 v4), ∀ a, (k7_off2 v4) a + S1x128.size a ≤ S100000x128.size a := fun v4 k7_hw1 => k7_hw1

def k7_off3 (i : grid7.Coords) : Fin 1 → Nat :=
  let arg0 : BitVec 32 := BitVec.ofNat 32 (i 0).val
  let v11 : Index := Scalar.indexCast arg0
  ![v11.toNat]
def k7_off4 (v12 : BitVec 32) : Fin 2 → Nat :=
  let c0_i32_5 : BitVec 32 := 0#32
  ![v12.toNat, 0]

def k7_chk2 (v12 : BitVec 32) : Prop :=
  (∀ a, (k7_off4 v12) a + S1x128.size a ≤ S100000x128.size a)
instance k7_chk2.dec : ∀ (v12 : BitVec 32), Decidable (k7_chk2 v12) := fun v12 => decidable_of_iff' _ (Iff.of_eq (k7_chk2.eq_1 v12))
theorem k7_off4_inb : ∀ (v12 : BitVec 32) (k7_hw2 : k7_chk2 v12), ∀ a, (k7_off4 v12) a + S1x128.size a ≤ S100000x128.size a := fun v12 k7_hw2 => k7_hw2

def k7_off5 (i : grid7.Coords) : Fin 2 → Nat :=
  let arg0 : BitVec 32 := BitVec.ofNat 32 (i 0).val
  let c0_i32_26 : BitVec 32 := 0#32
  ![arg0.toNat, 0]
def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S64x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S64x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev grid8 : Pipeline.Grid := ⟨1, ![62500], ![false]⟩

abbrev pre8 : Pipeline.Prefetch sig := ⟨2, ![main_v35.idx, main_v36.idx], fun | 0 => main_v35.names | 1 => main_v36.names | ⟨_ + 2, h⟩ => absurd h (Nat.not_lt.2 (Nat.le_add_left _ _)), fun | 0 => rfl | 1 => rfl | ⟨_ + 2, h⟩ => absurd h (Nat.not_lt.2 (Nat.le_add_left _ _))⟩

def k8_off1 (i : grid8.Coords) : Fin 1 → Nat :=
  let arg0 : BitVec 32 := BitVec.ofNat 32 (i 0).val
  let v3 : Index := Scalar.indexCast arg0
  ![v3.toNat]
def k8_off2 (v4 : BitVec 32) : Fin 2 → Nat :=
  let c0_i32_2 : BitVec 32 := 0#32
  ![v4.toNat, 0]

def k8_chk1 (v4 : BitVec 32) : Prop :=
  (∀ a, (k8_off2 v4) a + S1x128.size a ≤ S100000x128.size a)
instance k8_chk1.dec : ∀ (v4 : BitVec 32), Decidable (k8_chk1 v4) := fun v4 => decidable_of_iff' _ (Iff.of_eq (k8_chk1.eq_1 v4))
theorem k8_off2_inb : ∀ (v4 : BitVec 32) (k8_hw1 : k8_chk1 v4), ∀ a, (k8_off2 v4) a + S1x128.size a ≤ S100000x128.size a := fun v4 k8_hw1 => k8_hw1

def k8_off3 (i : grid8.Coords) : Fin 1 → Nat :=
  let arg0 : BitVec 32 := BitVec.ofNat 32 (i 0).val
  let v11 : Index := Scalar.indexCast arg0
  ![v11.toNat]
def k8_off4 (v12 : BitVec 32) : Fin 2 → Nat :=
  let c0_i32_5 : BitVec 32 := 0#32
  ![v12.toNat, 0]

def k8_chk2 (v12 : BitVec 32) : Prop :=
  (∀ a, (k8_off4 v12) a + S1x128.size a ≤ S100000x128.size a)
instance k8_chk2.dec : ∀ (v12 : BitVec 32), Decidable (k8_chk2 v12) := fun v12 => decidable_of_iff' _ (Iff.of_eq (k8_chk2.eq_1 v12))
theorem k8_off4_inb : ∀ (v12 : BitVec 32) (k8_hw2 : k8_chk2 v12), ∀ a, (k8_off4 v12) a + S1x128.size a ≤ S100000x128.size a := fun v12 k8_hw2 => k8_hw2

def k8_off5 (i : grid8.Coords) : Fin 2 → Nat :=
  let arg0 : BitVec 32 := BitVec.ofNat 32 (i 0).val
  let c0_i32_26 : BitVec 32 := 0#32
  ![arg0.toNat, 0]
def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S64x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S64x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x64 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev grid9 : Pipeline.Grid := ⟨1, ![62500], ![false]⟩

abbrev pre9 : Pipeline.Prefetch sig := ⟨2, ![main_v38.idx, main_v39.idx], fun | 0 => main_v38.names | 1 => main_v39.names | ⟨_ + 2, h⟩ => absurd h (Nat.not_lt.2 (Nat.le_add_left _ _)), fun | 0 => rfl | 1 => rfl | ⟨_ + 2, h⟩ => absurd h (Nat.not_lt.2 (Nat.le_add_left _ _))⟩

def k9_off1 (i : grid9.Coords) : Fin 1 → Nat :=
  let arg0 : BitVec 32 := BitVec.ofNat 32 (i 0).val
  let v3 : Index := Scalar.indexCast arg0
  ![v3.toNat]
def k9_off2 (v4 : BitVec 32) : Fin 2 → Nat :=
  let c0_i32_2 : BitVec 32 := 0#32
  ![v4.toNat, 0]

def k9_chk1 (v4 : BitVec 32) : Prop :=
  (∀ a, (k9_off2 v4) a + S1x128.size a ≤ S100000x128.size a)
instance k9_chk1.dec : ∀ (v4 : BitVec 32), Decidable (k9_chk1 v4) := fun v4 => decidable_of_iff' _ (Iff.of_eq (k9_chk1.eq_1 v4))
theorem k9_off2_inb : ∀ (v4 : BitVec 32) (k9_hw1 : k9_chk1 v4), ∀ a, (k9_off2 v4) a + S1x128.size a ≤ S100000x128.size a := fun v4 k9_hw1 => k9_hw1

def k9_off3 (i : grid9.Coords) : Fin 1 → Nat :=
  let arg0 : BitVec 32 := BitVec.ofNat 32 (i 0).val
  let v11 : Index := Scalar.indexCast arg0
  ![v11.toNat]
def k9_off4 (v12 : BitVec 32) : Fin 2 → Nat :=
  let c0_i32_5 : BitVec 32 := 0#32
  ![v12.toNat, 0]

def k9_chk2 (v12 : BitVec 32) : Prop :=
  (∀ a, (k9_off4 v12) a + S1x128.size a ≤ S100000x128.size a)
instance k9_chk2.dec : ∀ (v12 : BitVec 32), Decidable (k9_chk2 v12) := fun v12 => decidable_of_iff' _ (Iff.of_eq (k9_chk2.eq_1 v12))
theorem k9_off4_inb : ∀ (v12 : BitVec 32) (k9_hw2 : k9_chk2 v12), ∀ a, (k9_off4 v12) a + S1x128.size a ≤ S100000x128.size a := fun v12 k9_hw2 => k9_hw2

def k9_off5 (i : grid9.Coords) : Fin 2 → Nat :=
  let arg0 : BitVec 32 := BitVec.ofNat 32 (i 0).val
  let c0_i32_26 : BitVec 32 := 0#32
  ![arg0.toNat, 0]
def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S64x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S64x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x64 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x64 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev grid10 : Pipeline.Grid := ⟨1, ![62500], ![false]⟩

abbrev pre10 : Pipeline.Prefetch sig := ⟨2, ![main_v41.idx, main_v42.idx], fun | 0 => main_v41.names | 1 => main_v42.names | ⟨_ + 2, h⟩ => absurd h (Nat.not_lt.2 (Nat.le_add_left _ _)), fun | 0 => rfl | 1 => rfl | ⟨_ + 2, h⟩ => absurd h (Nat.not_lt.2 (Nat.le_add_left _ _))⟩

def k10_off1 (i : grid10.Coords) : Fin 1 → Nat :=
  let arg0 : BitVec 32 := BitVec.ofNat 32 (i 0).val
  let v3 : Index := Scalar.indexCast arg0
  ![v3.toNat]
def k10_off2 (v4 : BitVec 32) : Fin 2 → Nat :=
  let c0_i32_2 : BitVec 32 := 0#32
  ![v4.toNat, 0]

def k10_chk1 (v4 : BitVec 32) : Prop :=
  (∀ a, (k10_off2 v4) a + S1x128.size a ≤ S100000x128.size a)
instance k10_chk1.dec : ∀ (v4 : BitVec 32), Decidable (k10_chk1 v4) := fun v4 => decidable_of_iff' _ (Iff.of_eq (k10_chk1.eq_1 v4))
theorem k10_off2_inb : ∀ (v4 : BitVec 32) (k10_hw1 : k10_chk1 v4), ∀ a, (k10_off2 v4) a + S1x128.size a ≤ S100000x128.size a := fun v4 k10_hw1 => k10_hw1

def k10_off3 (i : grid10.Coords) : Fin 1 → Nat :=
  let arg0 : BitVec 32 := BitVec.ofNat 32 (i 0).val
  let v11 : Index := Scalar.indexCast arg0
  ![v11.toNat]
def k10_off4 (v12 : BitVec 32) : Fin 2 → Nat :=
  let c0_i32_5 : BitVec 32 := 0#32
  ![v12.toNat, 0]

def k10_chk2 (v12 : BitVec 32) : Prop :=
  (∀ a, (k10_off4 v12) a + S1x128.size a ≤ S100000x128.size a)
instance k10_chk2.dec : ∀ (v12 : BitVec 32), Decidable (k10_chk2 v12) := fun v12 => decidable_of_iff' _ (Iff.of_eq (k10_chk2.eq_1 v12))
theorem k10_off4_inb : ∀ (v12 : BitVec 32) (k10_hw2 : k10_chk2 v12), ∀ a, (k10_off4 v12) a + S1x128.size a ≤ S100000x128.size a := fun v12 k10_hw2 => k10_hw2

def k10_off5 (i : grid10.Coords) : Fin 2 → Nat :=
  let arg0 : BitVec 32 := BitVec.ofNat 32 (i 0).val
  let c0_i32_26 : BitVec 32 := 0#32
  ![arg0.toNat, 0]
def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S64x128 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S64x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S64x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x64 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x64 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev grid11 : Pipeline.Grid := ⟨1, ![62500], ![false]⟩

abbrev pre11 : Pipeline.Prefetch sig := ⟨2, ![main_v44.idx, main_v45.idx], fun | 0 => main_v44.names | 1 => main_v45.names | ⟨_ + 2, h⟩ => absurd h (Nat.not_lt.2 (Nat.le_add_left _ _)), fun | 0 => rfl | 1 => rfl | ⟨_ + 2, h⟩ => absurd h (Nat.not_lt.2 (Nat.le_add_left _ _))⟩

def k11_off1 (i : grid11.Coords) : Fin 1 → Nat :=
  let arg0 : BitVec 32 := BitVec.ofNat 32 (i 0).val
  let v3 : Index := Scalar.indexCast arg0
  ![v3.toNat]
def k11_off2 (v4 : BitVec 32) : Fin 2 → Nat :=
  let c0_i32_2 : BitVec 32 := 0#32
  ![v4.toNat, 0]

def k11_chk1 (v4 : BitVec 32) : Prop :=
  (∀ a, (k11_off2 v4) a + S1x128.size a ≤ S100000x128.size a)
instance k11_chk1.dec : ∀ (v4 : BitVec 32), Decidable (k11_chk1 v4) := fun v4 => decidable_of_iff' _ (Iff.of_eq (k11_chk1.eq_1 v4))
theorem k11_off2_inb : ∀ (v4 : BitVec 32) (k11_hw1 : k11_chk1 v4), ∀ a, (k11_off2 v4) a + S1x128.size a ≤ S100000x128.size a := fun v4 k11_hw1 => k11_hw1

def k11_off3 (i : grid11.Coords) : Fin 1 → Nat :=
  let arg0 : BitVec 32 := BitVec.ofNat 32 (i 0).val
  let v11 : Index := Scalar.indexCast arg0
  ![v11.toNat]
def k11_off4 (v12 : BitVec 32) : Fin 2 → Nat :=
  let c0_i32_5 : BitVec 32 := 0#32
  ![v12.toNat, 0]

def k11_chk2 (v12 : BitVec 32) : Prop :=
  (∀ a, (k11_off4 v12) a + S1x128.size a ≤ S100000x128.size a)
instance k11_chk2.dec : ∀ (v12 : BitVec 32), Decidable (k11_chk2 v12) := fun v12 => decidable_of_iff' _ (Iff.of_eq (k11_chk2.eq_1 v12))
theorem k11_off4_inb : ∀ (v12 : BitVec 32) (k11_hw2 : k11_chk2 v12), ∀ a, (k11_off4 v12) a + S1x128.size a ≤ S100000x128.size a := fun v12 k11_hw2 => k11_hw2

def k11_off5 (i : grid11.Coords) : Fin 2 → Nat :=
  let arg0 : BitVec 32 := BitVec.ofNat 32 (i 0).val
  let c0_i32_26 : BitVec 32 := 0#32
  ![arg0.toNat, 0]
def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_8 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 1 → Memref sig .tc .vmem S64x128 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![false]

abbrev stage11_1 : Fin 1 → Memref sig .tc .vmem S64x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S64x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x64 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x64 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev grid12 : Pipeline.Grid := ⟨1, ![62500], ![false]⟩

abbrev pre12 : Pipeline.Prefetch sig := ⟨2, ![main_v47.idx, main_v48.idx], fun | 0 => main_v47.names | 1 => main_v48.names | ⟨_ + 2, h⟩ => absurd h (Nat.not_lt.2 (Nat.le_add_left _ _)), fun | 0 => rfl | 1 => rfl | ⟨_ + 2, h⟩ => absurd h (Nat.not_lt.2 (Nat.le_add_left _ _))⟩

def k12_off1 (i : grid12.Coords) : Fin 1 → Nat :=
  let arg0 : BitVec 32 := BitVec.ofNat 32 (i 0).val
  let v3 : Index := Scalar.indexCast arg0
  ![v3.toNat]
def k12_off2 (v4 : BitVec 32) : Fin 2 → Nat :=
  let c0_i32_2 : BitVec 32 := 0#32
  ![v4.toNat, 0]

def k12_chk1 (v4 : BitVec 32) : Prop :=
  (∀ a, (k12_off2 v4) a + S1x128.size a ≤ S100000x128.size a)
instance k12_chk1.dec : ∀ (v4 : BitVec 32), Decidable (k12_chk1 v4) := fun v4 => decidable_of_iff' _ (Iff.of_eq (k12_chk1.eq_1 v4))
theorem k12_off2_inb : ∀ (v4 : BitVec 32) (k12_hw1 : k12_chk1 v4), ∀ a, (k12_off2 v4) a + S1x128.size a ≤ S100000x128.size a := fun v4 k12_hw1 => k12_hw1

def k12_off3 (i : grid12.Coords) : Fin 1 → Nat :=
  let arg0 : BitVec 32 := BitVec.ofNat 32 (i 0).val
  let v11 : Index := Scalar.indexCast arg0
  ![v11.toNat]
def k12_off4 (v12 : BitVec 32) : Fin 2 → Nat :=
  let c0_i32_5 : BitVec 32 := 0#32
  ![v12.toNat, 0]

def k12_chk2 (v12 : BitVec 32) : Prop :=
  (∀ a, (k12_off4 v12) a + S1x128.size a ≤ S100000x128.size a)
instance k12_chk2.dec : ∀ (v12 : BitVec 32), Decidable (k12_chk2 v12) := fun v12 => decidable_of_iff' _ (Iff.of_eq (k12_chk2.eq_1 v12))
theorem k12_off4_inb : ∀ (v12 : BitVec 32) (k12_hw2 : k12_chk2 v12), ∀ a, (k12_off4 v12) a + S1x128.size a ≤ S100000x128.size a := fun v12 k12_hw2 => k12_hw2

def k12_off5 (i : grid12.Coords) : Fin 2 → Nat :=
  let arg0 : BitVec 32 := BitVec.ofNat 32 (i 0).val
  let c0_i32_26 : BitVec 32 := 0#32
  ![arg0.toNat, 0]
def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_8 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 1 → Memref sig .tc .vmem S64x128 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![false]

abbrev stage12_1 : Fin 1 → Memref sig .tc .vmem S64x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S64x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x64 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S1x64 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x64 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev grid13 : Pipeline.Grid := ⟨1, ![62500], ![false]⟩

abbrev pre13 : Pipeline.Prefetch sig := ⟨2, ![main_v50.idx, main_v51.idx], fun | 0 => main_v50.names | 1 => main_v51.names | ⟨_ + 2, h⟩ => absurd h (Nat.not_lt.2 (Nat.le_add_left _ _)), fun | 0 => rfl | 1 => rfl | ⟨_ + 2, h⟩ => absurd h (Nat.not_lt.2 (Nat.le_add_left _ _))⟩

def k13_off1 (i : grid13.Coords) : Fin 1 → Nat :=
  let arg0 : BitVec 32 := BitVec.ofNat 32 (i 0).val
  let v3 : Index := Scalar.indexCast arg0
  ![v3.toNat]
def k13_off2 (v4 : BitVec 32) : Fin 2 → Nat :=
  let c0_i32_2 : BitVec 32 := 0#32
  ![v4.toNat, 0]

def k13_chk1 (v4 : BitVec 32) : Prop :=
  (∀ a, (k13_off2 v4) a + S1x128.size a ≤ S100000x128.size a)
instance k13_chk1.dec : ∀ (v4 : BitVec 32), Decidable (k13_chk1 v4) := fun v4 => decidable_of_iff' _ (Iff.of_eq (k13_chk1.eq_1 v4))
theorem k13_off2_inb : ∀ (v4 : BitVec 32) (k13_hw1 : k13_chk1 v4), ∀ a, (k13_off2 v4) a + S1x128.size a ≤ S100000x128.size a := fun v4 k13_hw1 => k13_hw1

def k13_off3 (i : grid13.Coords) : Fin 1 → Nat :=
  let arg0 : BitVec 32 := BitVec.ofNat 32 (i 0).val
  let v11 : Index := Scalar.indexCast arg0
  ![v11.toNat]
def k13_off4 (v12 : BitVec 32) : Fin 2 → Nat :=
  let c0_i32_5 : BitVec 32 := 0#32
  ![v12.toNat, 0]

def k13_chk2 (v12 : BitVec 32) : Prop :=
  (∀ a, (k13_off4 v12) a + S1x128.size a ≤ S100000x128.size a)
instance k13_chk2.dec : ∀ (v12 : BitVec 32), Decidable (k13_chk2 v12) := fun v12 => decidable_of_iff' _ (Iff.of_eq (k13_chk2.eq_1 v12))
theorem k13_off4_inb : ∀ (v12 : BitVec 32) (k13_hw2 : k13_chk2 v12), ∀ a, (k13_off4 v12) a + S1x128.size a ≤ S100000x128.size a := fun v12 k13_hw2 => k13_hw2

def k13_off5 (i : grid13.Coords) : Fin 2 → Nat :=
  let arg0 : BitVec 32 := BitVec.ofNat 32 (i 0).val
  let c0_i32_26 : BitVec 32 := 0#32
  ![arg0.toNat, 0]
def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_7 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_8 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 1 → Memref sig .tc .vmem S64x128 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![false]

abbrev stage13_1 : Fin 1 → Memref sig .tc .vmem S64x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S64x64 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x64 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S1x64 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S1x64 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev grid14 : Pipeline.Grid := ⟨1, ![62500], ![false]⟩

abbrev pre14 : Pipeline.Prefetch sig := ⟨2, ![main_v53.idx, main_v54.idx], fun | 0 => main_v53.names | 1 => main_v54.names | ⟨_ + 2, h⟩ => absurd h (Nat.not_lt.2 (Nat.le_add_left _ _)), fun | 0 => rfl | 1 => rfl | ⟨_ + 2, h⟩ => absurd h (Nat.not_lt.2 (Nat.le_add_left _ _))⟩

def k14_off1 (i : grid14.Coords) : Fin 1 → Nat :=
  let arg0 : BitVec 32 := BitVec.ofNat 32 (i 0).val
  let v3 : Index := Scalar.indexCast arg0
  ![v3.toNat]
def k14_off2 (v4 : BitVec 32) : Fin 2 → Nat :=
  let c0_i32_2 : BitVec 32 := 0#32
  ![v4.toNat, 0]

def k14_chk1 (v4 : BitVec 32) : Prop :=
  (∀ a, (k14_off2 v4) a + S1x128.size a ≤ S100000x128.size a)
instance k14_chk1.dec : ∀ (v4 : BitVec 32), Decidable (k14_chk1 v4) := fun v4 => decidable_of_iff' _ (Iff.of_eq (k14_chk1.eq_1 v4))
theorem k14_off2_inb : ∀ (v4 : BitVec 32) (k14_hw1 : k14_chk1 v4), ∀ a, (k14_off2 v4) a + S1x128.size a ≤ S100000x128.size a := fun v4 k14_hw1 => k14_hw1

def k14_off3 (i : grid14.Coords) : Fin 1 → Nat :=
  let arg0 : BitVec 32 := BitVec.ofNat 32 (i 0).val
  let v11 : Index := Scalar.indexCast arg0
  ![v11.toNat]
def k14_off4 (v12 : BitVec 32) : Fin 2 → Nat :=
  let c0_i32_5 : BitVec 32 := 0#32
  ![v12.toNat, 0]

def k14_chk2 (v12 : BitVec 32) : Prop :=
  (∀ a, (k14_off4 v12) a + S1x128.size a ≤ S100000x128.size a)
instance k14_chk2.dec : ∀ (v12 : BitVec 32), Decidable (k14_chk2 v12) := fun v12 => decidable_of_iff' _ (Iff.of_eq (k14_chk2.eq_1 v12))
theorem k14_off4_inb : ∀ (v12 : BitVec 32) (k14_hw2 : k14_chk2 v12), ∀ a, (k14_off4 v12) a + S1x128.size a ≤ S100000x128.size a := fun v12 k14_hw2 => k14_hw2

def k14_off5 (i : grid14.Coords) : Fin 2 → Nat :=
  let arg0 : BitVec 32 := BitVec.ofNat 32 (i 0).val
  let c0_i32_26 : BitVec 32 := 0#32
  ![arg0.toNat, 0]
def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_7 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_8 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 1 → Memref sig .tc .vmem S64x128 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![false]

abbrev stage14_1 : Fin 1 → Memref sig .tc .vmem S64x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x64 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S64x64 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x64 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S1x64 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 1 → Memref sig .tc .vmem S1x64 .f32 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))
abbrev reads14_6 : Fin grid14.rank → Bool := ![false]

abbrev grid15 : Pipeline.Grid := ⟨1, ![62500], ![false]⟩

abbrev pre15 : Pipeline.Prefetch sig := ⟨2, ![main_v56.idx, main_v57.idx], fun | 0 => main_v56.names | 1 => main_v57.names | ⟨_ + 2, h⟩ => absurd h (Nat.not_lt.2 (Nat.le_add_left _ _)), fun | 0 => rfl | 1 => rfl | ⟨_ + 2, h⟩ => absurd h (Nat.not_lt.2 (Nat.le_add_left _ _))⟩

def k15_off1 (i : grid15.Coords) : Fin 1 → Nat :=
  let arg0 : BitVec 32 := BitVec.ofNat 32 (i 0).val
  let v3 : Index := Scalar.indexCast arg0
  ![v3.toNat]
def k15_off2 (v4 : BitVec 32) : Fin 2 → Nat :=
  let c0_i32_2 : BitVec 32 := 0#32
  ![v4.toNat, 0]

def k15_chk1 (v4 : BitVec 32) : Prop :=
  (∀ a, (k15_off2 v4) a + S1x128.size a ≤ S100000x128.size a)
instance k15_chk1.dec : ∀ (v4 : BitVec 32), Decidable (k15_chk1 v4) := fun v4 => decidable_of_iff' _ (Iff.of_eq (k15_chk1.eq_1 v4))
theorem k15_off2_inb : ∀ (v4 : BitVec 32) (k15_hw1 : k15_chk1 v4), ∀ a, (k15_off2 v4) a + S1x128.size a ≤ S100000x128.size a := fun v4 k15_hw1 => k15_hw1

def k15_off3 (i : grid15.Coords) : Fin 1 → Nat :=
  let arg0 : BitVec 32 := BitVec.ofNat 32 (i 0).val
  let v11 : Index := Scalar.indexCast arg0
  ![v11.toNat]
def k15_off4 (v12 : BitVec 32) : Fin 2 → Nat :=
  let c0_i32_5 : BitVec 32 := 0#32
  ![v12.toNat, 0]

def k15_chk2 (v12 : BitVec 32) : Prop :=
  (∀ a, (k15_off4 v12) a + S1x128.size a ≤ S100000x128.size a)
instance k15_chk2.dec : ∀ (v12 : BitVec 32), Decidable (k15_chk2 v12) := fun v12 => decidable_of_iff' _ (Iff.of_eq (k15_chk2.eq_1 v12))
theorem k15_off4_inb : ∀ (v12 : BitVec 32) (k15_hw2 : k15_chk2 v12), ∀ a, (k15_off4 v12) a + S1x128.size a ≤ S100000x128.size a := fun v12 k15_hw2 => k15_hw2

def k15_off5 (i : grid15.Coords) : Fin 2 → Nat :=
  let arg0 : BitVec 32 := BitVec.ofNat 32 (i 0).val
  let c0_i32_26 : BitVec 32 := 0#32
  ![arg0.toNat, 0]
def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_7 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_8 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage15_0 : Fin 1 → Memref sig .tc .vmem S64x128 .f32 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))
abbrev reads15_0 : Fin grid15.rank → Bool := ![false]

abbrev stage15_1 : Fin 1 → Memref sig .tc .vmem S64x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x64 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S64x64 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x64 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 1 → Memref sig .tc .vmem S1x64 .f32 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))
abbrev reads15_5 : Fin grid15.rank → Bool := ![false]

abbrev stage15_6 : Fin 1 → Memref sig .tc .vmem S1x64 .f32 := fun | 0 => Memref.whole cc15_stg6_0 | ⟨_ + 1, h⟩ => absurd h (Nat.not_lt.2 (Nat.le_add_left _ _))
abbrev sem15_6 : Fin 1 → DmaSem sig := fun | 0 => cc15_sem6_0 | ⟨_ + 1, h⟩ => absurd h (Nat.not_lt.2 (Nat.le_add_left _ _))
abbrev reads15_6 : Fin grid15.rank → Bool := ![false]

abbrev grid16 : Pipeline.Grid := ⟨1, ![125], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_6 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_7 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S8000x64 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S1x64 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x64 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S1x64 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x64 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 1 → Memref sig .tc .vmem S1x64 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![false]

abbrev stage16_6 : Fin 1 → Memref sig .tc .vmem S1x1 .f32 := fun | 0 => Memref.whole cc16_stg6_0 | ⟨_ + 1, h⟩ => absurd h (Nat.not_lt.2 (Nat.le_add_left _ _))
abbrev sem16_6 : Fin 1 → DmaSem sig := fun | 0 => cc16_sem6_0 | ⟨_ + 1, h⟩ => absurd h (Nat.not_lt.2 (Nat.le_add_left _ _))
abbrev reads16_6 : Fin grid16.rank → Bool := ![false]

abbrev stage16_7 : Fin 2 → Memref sig .tc .vmem S8000x1 .f32 := fun | 0 => Memref.whole cc16_stg7_0 | 1 => Memref.whole cc16_stg7_1 | ⟨_ + 2, h⟩ => absurd h (Nat.not_lt.2 (Nat.le_add_left _ _))
abbrev sem16_7 : Fin 2 → DmaSem sig := fun | 0 => cc16_sem7_0 | 1 => cc16_sem7_1 | ⟨_ + 2, h⟩ => absurd h (Nat.not_lt.2 (Nat.le_add_left _ _))
abbrev reads16_7 : Fin grid16.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  slices_S64x256_S64x128_0_0 : S64x256.Slices ![0, 0] S64x128
  slices_S64x256_S64x128_0_128 : S64x256.Slices ![0, 128] S64x128
  shapeCasts_S64_S1x64 : S64.ShapeCasts S1x64
  shapeCasts_S1_S1x1 : S1.ShapeCasts S1x1
  slices_S1000000_S62500_0 : S1000000.Slices ![0] S62500
  inb_S1x64_S1x64_0_0 : ∀ a, (![0, 0] : Fin 2 → Nat) a + S1x64.size a ≤ S1x64.size a
  h_S1x64 : 0 < S1x64.numel
  numel1_S1 : S1.numel = 1
  inb_S3_S1_0 : ∀ a, (![0] : Fin 1 → Nat) a + S1.size a ≤ S3.size a
  squeezes_S1_S_ : S1.Squeezes S_
  inb_S3_S1_1 : ∀ a, (![1] : Fin 1 → Nat) a + S1.size a ≤ S3.size a
  inb_S1x128_S1x128_0_0 : ∀ a, (![0, 0] : Fin 2 → Nat) a + S1x128.size a ≤ S1x128.size a
  h_S1x128 : 0 < S1x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  transposes_S64x128_p1_0_S128x64 : S64x128.Transposes [1, 0] S128x64
  shapeCasts_S1x64_S1x64 : S1x64.ShapeCasts S1x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S3_S1_2 : ∀ a, (![2] : Fin 1 → Nat) a + S1.size a ≤ S3.size a
  slices_S1000000_S62500_62500 : S1000000.Slices ![62500] S62500
  slices_S1000000_S62500_125000 : S1000000.Slices ![125000] S62500
  slices_S1000000_S62500_187500 : S1000000.Slices ![187500] S62500
  slices_S1000000_S62500_250000 : S1000000.Slices ![250000] S62500
  slices_S1000000_S62500_312500 : S1000000.Slices ![312500] S62500
  slices_S1000000_S62500_375000 : S1000000.Slices ![375000] S62500
  slices_S1000000_S62500_437500 : S1000000.Slices ![437500] S62500
  slices_S1000000_S62500_500000 : S1000000.Slices ![500000] S62500
  slices_S1000000_S62500_562500 : S1000000.Slices ![562500] S62500
  slices_S1000000_S62500_625000 : S1000000.Slices ![625000] S62500
  slices_S1000000_S62500_687500 : S1000000.Slices ![687500] S62500
  slices_S1000000_S62500_750000 : S1000000.Slices ![750000] S62500
  slices_S1000000_S62500_812500 : S1000000.Slices ![812500] S62500
  slices_S1000000_S62500_875000 : S1000000.Slices ![875000] S62500
  slices_S1000000_S62500_937500 : S1000000.Slices ![937500] S62500
  concatenates_S62500x64_S62500x64_S62500x64_S62500x64_S62500x64_S62500x64_S62500x64_S62500x64_S62500x64_S62500x64_S62500x64_S62500x64_S62500x64_S62500x64_S62500x64_S62500x64_S1000000x64_d0 : Shape.Concatenates [S62500x64, S62500x64, S62500x64, S62500x64, S62500x64, S62500x64, S62500x64, S62500x64, S62500x64, S62500x64, S62500x64, S62500x64, S62500x64, S62500x64, S62500x64, S62500x64] S1000000x64 0
  bcast_S1x64_S1x1x64_1_2 : S1x64.BroadcastsInDim S1x1x64 (![1, 2] : Fin 2 → Fin S1x1x64.rank)
  concatenates_S1x1x64_S1x1x64_S1x1x64_S1x1x64_S1x1x64_S1x1x64_S1x1x64_S1x1x64_S1x1x64_S1x1x64_S1x1x64_S1x1x64_S1x1x64_S1x1x64_S1x1x64_S1x1x64_S16x1x64_d0 : Shape.Concatenates [S1x1x64, S1x1x64, S1x1x64, S1x1x64, S1x1x64, S1x1x64, S1x1x64, S1x1x64, S1x1x64, S1x1x64, S1x1x64, S1x1x64, S1x1x64, S1x1x64, S1x1x64, S1x1x64] S16x1x64 0
  reducesTo_S16x1x64_S1x64_d0 : S16x1x64.ReducesTo [0] S1x64
  h_S_ : 0 < S_.numel
  bcast_S_S1x64 : S_.BroadcastsInDim S1x64 (![] : Fin 0 → Fin S1x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  broadcasts_S1x64_S8000x64 : S1x64.Broadcasts S8000x64
  transposes_S1x64_p1_0_S64x1 : S1x64.Transposes [1, 0] S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S1000000x1_S1000000 : S1000000x1.ShapeCasts S1000000
  dot_S1x128_S128x64_S1x64_1_0_0_1_n_n_wf : DotDims.WF S1x128 S128x64 S1x64 [1] [0] [0] [1] [] []
  dot_S1x64_S64x64_S1x64_1_0_0_1_n_n_wf : DotDims.WF S1x64 S64x64 S1x64 [1] [0] [0] [1] [] []
  dot_S8000x64_S64x1_S8000x1_1_0_0_1_n_n_wf : DotDims.WF S8000x64 S64x1 S8000x1 [1] [0] [0] [1] [] []
  hcc0_scratch3 : 7 + S3.numel ≤ 170
  hcc1_scratch3 : 17 + S3.numel ≤ 170
  hcc2_scratch3 : 27 + S3.numel ≤ 170
  hcc3_scratch3 : 37 + S3.numel ≤ 170
  hcc4_scratch3 : 47 + S3.numel ≤ 170
  hcc5_scratch3 : 57 + S3.numel ≤ 170
  hcc6_scratch3 : 67 + S3.numel ≤ 170
  hcc7_scratch3 : 77 + S3.numel ≤ 170
  hcc8_scratch3 : 87 + S3.numel ≤ 170
  hcc9_scratch3 : 97 + S3.numel ≤ 170
  hcc10_scratch3 : 107 + S3.numel ≤ 170
  hcc11_scratch3 : 117 + S3.numel ≤ 170
  hcc12_scratch3 : 127 + S3.numel ≤ 170
  hcc13_scratch3 : 137 + S3.numel ≤ 170
  hcc14_scratch3 : 147 + S3.numel ≤ 170
  hcc15_scratch3 : 157 + S3.numel ≤ 170
  hrank0 : 0 < grid0.rank
  k0_off1_inb : ∀ i : grid0.Coords, ∀ a, (k0_off1 i) a + S1.size a ≤ S62500.size a
  k0_off3_inb : ∀ i : grid0.Coords, ∀ a, (k0_off3 i) a + S1.size a ≤ S62500.size a
  k0_off5_inb : ∀ i : grid0.Coords, ∀ a, (k0_off5 i) a + S1x64.size a ≤ S62500x64.size a
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S64x128.size a ≤ S64x128.size a
  hwx0_0 : ∀ i : grid0.Coords, EltTy.bits .f32 = 32 ∨ (Rect.block (s := S64x128) S64x128.size (cc0_transform_1 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S64x128.size a ≤ S64x128.size a
  hwx0_1 : ∀ i : grid0.Coords, EltTy.bits .f32 = 32 ∨ (Rect.block (s := S64x128) S64x128.size (cc0_transform_2 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S1x64.size a ≤ S1x64.size a
  hwx0_2 : ∀ i : grid0.Coords, EltTy.bits .f32 = 32 ∨ (Rect.block (s := S1x64) S1x64.size (cc0_transform_3 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_4 i = cc0_transform_4 i'
  hinb0_3 : ∀ (i : grid0.Coords) a, (cc0_transform_4 i a + 1) * S64x64.size a ≤ S64x64.size a
  hwx0_3 : ∀ i : grid0.Coords, EltTy.bits .f32 = 32 ∨ (Rect.block (s := S64x64) S64x64.size (cc0_transform_4 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_5 i = cc0_transform_5 i'
  hinb0_4 : ∀ (i : grid0.Coords) a, (cc0_transform_5 i a + 1) * S1x64.size a ≤ S1x64.size a
  hwx0_4 : ∀ i : grid0.Coords, EltTy.bits .f32 = 32 ∨ (Rect.block (s := S1x64) S1x64.size (cc0_transform_5 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_7 i = cc0_transform_7 i'
  hinb0_5 : ∀ (i : grid0.Coords) a, (cc0_transform_7 i a + 1) * S1x64.size a ≤ S1x64.size a
  hwx0_5 : ∀ i : grid0.Coords, EltTy.bits .f32 = 32 ∨ (Rect.block (s := S1x64) S1x64.size (cc0_transform_7 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_8 i = cc0_transform_8 i'
  hinb0_6 : ∀ (i : grid0.Coords) a, (cc0_transform_8 i a + 1) * S1x64.size a ≤ S1x64.size a
  hwx0_6 : ∀ i : grid0.Coords, EltTy.bits .f32 = 32 ∨ (Rect.block (s := S1x64) S1x64.size (cc0_transform_8 i) (hinb0_6 i)).WholeWords (EltTy.packing .f32)
  hrank1 : 0 < grid1.rank
  k1_off1_inb : ∀ i : grid1.Coords, ∀ a, (k1_off1 i) a + S1.size a ≤ S62500.size a
  k1_off3_inb : ∀ i : grid1.Coords, ∀ a, (k1_off3 i) a + S1.size a ≤ S62500.size a
  k1_off5_inb : ∀ i : grid1.Coords, ∀ a, (k1_off5 i) a + S1x64.size a ≤ S62500x64.size a
  hstage1_0 : ∀ j, (stage1_0 j).IsWhole
  nbuf1_0 : grid1.bufCount reads1_0 true = 1
  hreads1_0 : ∀ i i' : grid1.Coords, (∀ a, reads1_0 a = true → i a = i' a) → cc1_transform_1 i = cc1_transform_1 i'
  hinb1_0 : ∀ (i : grid1.Coords) a, (cc1_transform_1 i a + 1) * S64x128.size a ≤ S64x128.size a
  hwx1_0 : ∀ i : grid1.Coords, EltTy.bits .f32 = 32 ∨ (Rect.block (s := S64x128) S64x128.size (cc1_transform_1 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_2 i = cc1_transform_2 i'
  hinb1_1 : ∀ (i : grid1.Coords) a, (cc1_transform_2 i a + 1) * S64x128.size a ≤ S64x128.size a
  hwx1_1 : ∀ i : grid1.Coords, EltTy.bits .f32 = 32 ∨ (Rect.block (s := S64x128) S64x128.size (cc1_transform_2 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_3 i = cc1_transform_3 i'
  hinb1_2 : ∀ (i : grid1.Coords) a, (cc1_transform_3 i a + 1) * S1x64.size a ≤ S1x64.size a
  hwx1_2 : ∀ i : grid1.Coords, EltTy.bits .f32 = 32 ∨ (Rect.block (s := S1x64) S1x64.size (cc1_transform_3 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_4 i = cc1_transform_4 i'
  hinb1_3 : ∀ (i : grid1.Coords) a, (cc1_transform_4 i a + 1) * S64x64.size a ≤ S64x64.size a
  hwx1_3 : ∀ i : grid1.Coords, EltTy.bits .f32 = 32 ∨ (Rect.block (s := S64x64) S64x64.size (cc1_transform_4 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_5 i = cc1_transform_5 i'
  hinb1_4 : ∀ (i : grid1.Coords) a, (cc1_transform_5 i a + 1) * S1x64.size a ≤ S1x64.size a
  hwx1_4 : ∀ i : grid1.Coords, EltTy.bits .f32 = 32 ∨ (Rect.block (s := S1x64) S1x64.size (cc1_transform_5 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_7 i = cc1_transform_7 i'
  hinb1_5 : ∀ (i : grid1.Coords) a, (cc1_transform_7 i a + 1) * S1x64.size a ≤ S1x64.size a
  hwx1_5 : ∀ i : grid1.Coords, EltTy.bits .f32 = 32 ∨ (Rect.block (s := S1x64) S1x64.size (cc1_transform_7 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_8 i = cc1_transform_8 i'
  hinb1_6 : ∀ (i : grid1.Coords) a, (cc1_transform_8 i a + 1) * S1x64.size a ≤ S1x64.size a
  hwx1_6 : ∀ i : grid1.Coords, EltTy.bits .f32 = 32 ∨ (Rect.block (s := S1x64) S1x64.size (cc1_transform_8 i) (hinb1_6 i)).WholeWords (EltTy.packing .f32)
  hrank2 : 0 < grid2.rank
  k2_off1_inb : ∀ i : grid2.Coords, ∀ a, (k2_off1 i) a + S1.size a ≤ S62500.size a
  k2_off3_inb : ∀ i : grid2.Coords, ∀ a, (k2_off3 i) a + S1.size a ≤ S62500.size a
  k2_off5_inb : ∀ i : grid2.Coords, ∀ a, (k2_off5 i) a + S1x64.size a ≤ S62500x64.size a
  hstage2_0 : ∀ j, (stage2_0 j).IsWhole
  nbuf2_0 : grid2.bufCount reads2_0 true = 1
  hreads2_0 : ∀ i i' : grid2.Coords, (∀ a, reads2_0 a = true → i a = i' a) → cc2_transform_1 i = cc2_transform_1 i'
  hinb2_0 : ∀ (i : grid2.Coords) a, (cc2_transform_1 i a + 1) * S64x128.size a ≤ S64x128.size a
  hwx2_0 : ∀ i : grid2.Coords, EltTy.bits .f32 = 32 ∨ (Rect.block (s := S64x128) S64x128.size (cc2_transform_1 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_2 i = cc2_transform_2 i'
  hinb2_1 : ∀ (i : grid2.Coords) a, (cc2_transform_2 i a + 1) * S64x128.size a ≤ S64x128.size a
  hwx2_1 : ∀ i : grid2.Coords, EltTy.bits .f32 = 32 ∨ (Rect.block (s := S64x128) S64x128.size (cc2_transform_2 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_3 i = cc2_transform_3 i'
  hinb2_2 : ∀ (i : grid2.Coords) a, (cc2_transform_3 i a + 1) * S1x64.size a ≤ S1x64.size a
  hwx2_2 : ∀ i : grid2.Coords, EltTy.bits .f32 = 32 ∨ (Rect.block (s := S1x64) S1x64.size (cc2_transform_3 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_4 i = cc2_transform_4 i'
  hinb2_3 : ∀ (i : grid2.Coords) a, (cc2_transform_4 i a + 1) * S64x64.size a ≤ S64x64.size a
  hwx2_3 : ∀ i : grid2.Coords, EltTy.bits .f32 = 32 ∨ (Rect.block (s := S64x64) S64x64.size (cc2_transform_4 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_5 i = cc2_transform_5 i'
  hinb2_4 : ∀ (i : grid2.Coords) a, (cc2_transform_5 i a + 1) * S1x64.size a ≤ S1x64.size a
  hwx2_4 : ∀ i : grid2.Coords, EltTy.bits .f32 = 32 ∨ (Rect.block (s := S1x64) S1x64.size (cc2_transform_5 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_7 i = cc2_transform_7 i'
  hinb2_5 : ∀ (i : grid2.Coords) a, (cc2_transform_7 i a + 1) * S1x64.size a ≤ S1x64.size a
  hwx2_5 : ∀ i : grid2.Coords, EltTy.bits .f32 = 32 ∨ (Rect.block (s := S1x64) S1x64.size (cc2_transform_7 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_8 i = cc2_transform_8 i'
  hinb2_6 : ∀ (i : grid2.Coords) a, (cc2_transform_8 i a + 1) * S1x64.size a ≤ S1x64.size a
  hwx2_6 : ∀ i : grid2.Coords, EltTy.bits .f32 = 32 ∨ (Rect.block (s := S1x64) S1x64.size (cc2_transform_8 i) (hinb2_6 i)).WholeWords (EltTy.packing .f32)
  hrank3 : 0 < grid3.rank
  k3_off1_inb : ∀ i : grid3.Coords, ∀ a, (k3_off1 i) a + S1.size a ≤ S62500.size a
  k3_off3_inb : ∀ i : grid3.Coords, ∀ a, (k3_off3 i) a + S1.size a ≤ S62500.size a
  k3_off5_inb : ∀ i : grid3.Coords, ∀ a, (k3_off5 i) a + S1x64.size a ≤ S62500x64.size a
  hstage3_0 : ∀ j, (stage3_0 j).IsWhole
  nbuf3_0 : grid3.bufCount reads3_0 true = 1
  hreads3_0 : ∀ i i' : grid3.Coords, (∀ a, reads3_0 a = true → i a = i' a) → cc3_transform_1 i = cc3_transform_1 i'
  hinb3_0 : ∀ (i : grid3.Coords) a, (cc3_transform_1 i a + 1) * S64x128.size a ≤ S64x128.size a
  hwx3_0 : ∀ i : grid3.Coords, EltTy.bits .f32 = 32 ∨ (Rect.block (s := S64x128) S64x128.size (cc3_transform_1 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_2 i = cc3_transform_2 i'
  hinb3_1 : ∀ (i : grid3.Coords) a, (cc3_transform_2 i a + 1) * S64x128.size a ≤ S64x128.size a
  hwx3_1 : ∀ i : grid3.Coords, EltTy.bits .f32 = 32 ∨ (Rect.block (s := S64x128) S64x128.size (cc3_transform_2 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_3 i = cc3_transform_3 i'
  hinb3_2 : ∀ (i : grid3.Coords) a, (cc3_transform_3 i a + 1) * S1x64.size a ≤ S1x64.size a
  hwx3_2 : ∀ i : grid3.Coords, EltTy.bits .f32 = 32 ∨ (Rect.block (s := S1x64) S1x64.size (cc3_transform_3 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_4 i = cc3_transform_4 i'
  hinb3_3 : ∀ (i : grid3.Coords) a, (cc3_transform_4 i a + 1) * S64x64.size a ≤ S64x64.size a
  hwx3_3 : ∀ i : grid3.Coords, EltTy.bits .f32 = 32 ∨ (Rect.block (s := S64x64) S64x64.size (cc3_transform_4 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_5 i = cc3_transform_5 i'
  hinb3_4 : ∀ (i : grid3.Coords) a, (cc3_transform_5 i a + 1) * S1x64.size a ≤ S1x64.size a
  hwx3_4 : ∀ i : grid3.Coords, EltTy.bits .f32 = 32 ∨ (Rect.block (s := S1x64) S1x64.size (cc3_transform_5 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_7 i = cc3_transform_7 i'
  hinb3_5 : ∀ (i : grid3.Coords) a, (cc3_transform_7 i a + 1) * S1x64.size a ≤ S1x64.size a
  hwx3_5 : ∀ i : grid3.Coords, EltTy.bits .f32 = 32 ∨ (Rect.block (s := S1x64) S1x64.size (cc3_transform_7 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_8 i = cc3_transform_8 i'
  hinb3_6 : ∀ (i : grid3.Coords) a, (cc3_transform_8 i a + 1) * S1x64.size a ≤ S1x64.size a
  hwx3_6 : ∀ i : grid3.Coords, EltTy.bits .f32 = 32 ∨ (Rect.block (s := S1x64) S1x64.size (cc3_transform_8 i) (hinb3_6 i)).WholeWords (EltTy.packing .f32)
  hrank4 : 0 < grid4.rank
  k4_off1_inb : ∀ i : grid4.Coords, ∀ a, (k4_off1 i) a + S1.size a ≤ S62500.size a
  k4_off3_inb : ∀ i : grid4.Coords, ∀ a, (k4_off3 i) a + S1.size a ≤ S62500.size a
  k4_off5_inb : ∀ i : grid4.Coords, ∀ a, (k4_off5 i) a + S1x64.size a ≤ S62500x64.size a
  hstage4_0 : ∀ j, (stage4_0 j).IsWhole
  nbuf4_0 : grid4.bufCount reads4_0 true = 1
  hreads4_0 : ∀ i i' : grid4.Coords, (∀ a, reads4_0 a = true → i a = i' a) → cc4_transform_1 i = cc4_transform_1 i'
  hinb4_0 : ∀ (i : grid4.Coords) a, (cc4_transform_1 i a + 1) * S64x128.size a ≤ S64x128.size a
  hwx4_0 : ∀ i : grid4.Coords, EltTy.bits .f32 = 32 ∨ (Rect.block (s := S64x128) S64x128.size (cc4_transform_1 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_2 i = cc4_transform_2 i'
  hinb4_1 : ∀ (i : grid4.Coords) a, (cc4_transform_2 i a + 1) * S64x128.size a ≤ S64x128.size a
  hwx4_1 : ∀ i : grid4.Coords, EltTy.bits .f32 = 32 ∨ (Rect.block (s := S64x128) S64x128.size (cc4_transform_2 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_3 i = cc4_transform_3 i'
  hinb4_2 : ∀ (i : grid4.Coords) a, (cc4_transform_3 i a + 1) * S1x64.size a ≤ S1x64.size a
  hwx4_2 : ∀ i : grid4.Coords, EltTy.bits .f32 = 32 ∨ (Rect.block (s := S1x64) S1x64.size (cc4_transform_3 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_4 i = cc4_transform_4 i'
  hinb4_3 : ∀ (i : grid4.Coords) a, (cc4_transform_4 i a + 1) * S64x64.size a ≤ S64x64.size a
  hwx4_3 : ∀ i : grid4.Coords, EltTy.bits .f32 = 32 ∨ (Rect.block (s := S64x64) S64x64.size (cc4_transform_4 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_5 i = cc4_transform_5 i'
  hinb4_4 : ∀ (i : grid4.Coords) a, (cc4_transform_5 i a + 1) * S1x64.size a ≤ S1x64.size a
  hwx4_4 : ∀ i : grid4.Coords, EltTy.bits .f32 = 32 ∨ (Rect.block (s := S1x64) S1x64.size (cc4_transform_5 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_7 i = cc4_transform_7 i'
  hinb4_5 : ∀ (i : grid4.Coords) a, (cc4_transform_7 i a + 1) * S1x64.size a ≤ S1x64.size a
  hwx4_5 : ∀ i : grid4.Coords, EltTy.bits .f32 = 32 ∨ (Rect.block (s := S1x64) S1x64.size (cc4_transform_7 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_8 i = cc4_transform_8 i'
  hinb4_6 : ∀ (i : grid4.Coords) a, (cc4_transform_8 i a + 1) * S1x64.size a ≤ S1x64.size a
  hwx4_6 : ∀ i : grid4.Coords, EltTy.bits .f32 = 32 ∨ (Rect.block (s := S1x64) S1x64.size (cc4_transform_8 i) (hinb4_6 i)).WholeWords (EltTy.packing .f32)
  hrank5 : 0 < grid5.rank
  k5_off1_inb : ∀ i : grid5.Coords, ∀ a, (k5_off1 i) a + S1.size a ≤ S62500.size a
  k5_off3_inb : ∀ i : grid5.Coords, ∀ a, (k5_off3 i) a + S1.size a ≤ S62500.size a
  k5_off5_inb : ∀ i : grid5.Coords, ∀ a, (k5_off5 i) a + S1x64.size a ≤ S62500x64.size a
  hstage5_0 : ∀ j, (stage5_0 j).IsWhole
  nbuf5_0 : grid5.bufCount reads5_0 true = 1
  hreads5_0 : ∀ i i' : grid5.Coords, (∀ a, reads5_0 a = true → i a = i' a) → cc5_transform_1 i = cc5_transform_1 i'
  hinb5_0 : ∀ (i : grid5.Coords) a, (cc5_transform_1 i a + 1) * S64x128.size a ≤ S64x128.size a
  hwx5_0 : ∀ i : grid5.Coords, EltTy.bits .f32 = 32 ∨ (Rect.block (s := S64x128) S64x128.size (cc5_transform_1 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_2 i = cc5_transform_2 i'
  hinb5_1 : ∀ (i : grid5.Coords) a, (cc5_transform_2 i a + 1) * S64x128.size a ≤ S64x128.size a
  hwx5_1 : ∀ i : grid5.Coords, EltTy.bits .f32 = 32 ∨ (Rect.block (s := S64x128) S64x128.size (cc5_transform_2 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_3 i = cc5_transform_3 i'
  hinb5_2 : ∀ (i : grid5.Coords) a, (cc5_transform_3 i a + 1) * S1x64.size a ≤ S1x64.size a
  hwx5_2 : ∀ i : grid5.Coords, EltTy.bits .f32 = 32 ∨ (Rect.block (s := S1x64) S1x64.size (cc5_transform_3 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_4 i = cc5_transform_4 i'
  hinb5_3 : ∀ (i : grid5.Coords) a, (cc5_transform_4 i a + 1) * S64x64.size a ≤ S64x64.size a
  hwx5_3 : ∀ i : grid5.Coords, EltTy.bits .f32 = 32 ∨ (Rect.block (s := S64x64) S64x64.size (cc5_transform_4 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_5 i = cc5_transform_5 i'
  hinb5_4 : ∀ (i : grid5.Coords) a, (cc5_transform_5 i a + 1) * S1x64.size a ≤ S1x64.size a
  hwx5_4 : ∀ i : grid5.Coords, EltTy.bits .f32 = 32 ∨ (Rect.block (s := S1x64) S1x64.size (cc5_transform_5 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_7 i = cc5_transform_7 i'
  hinb5_5 : ∀ (i : grid5.Coords) a, (cc5_transform_7 i a + 1) * S1x64.size a ≤ S1x64.size a
  hwx5_5 : ∀ i : grid5.Coords, EltTy.bits .f32 = 32 ∨ (Rect.block (s := S1x64) S1x64.size (cc5_transform_7 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_8 i = cc5_transform_8 i'
  hinb5_6 : ∀ (i : grid5.Coords) a, (cc5_transform_8 i a + 1) * S1x64.size a ≤ S1x64.size a
  hwx5_6 : ∀ i : grid5.Coords, EltTy.bits .f32 = 32 ∨ (Rect.block (s := S1x64) S1x64.size (cc5_transform_8 i) (hinb5_6 i)).WholeWords (EltTy.packing .f32)
  hrank6 : 0 < grid6.rank
  k6_off1_inb : ∀ i : grid6.Coords, ∀ a, (k6_off1 i) a + S1.size a ≤ S62500.size a
  k6_off3_inb : ∀ i : grid6.Coords, ∀ a, (k6_off3 i) a + S1.size a ≤ S62500.size a
  k6_off5_inb : ∀ i : grid6.Coords, ∀ a, (k6_off5 i) a + S1x64.size a ≤ S62500x64.size a
  hstage6_0 : ∀ j, (stage6_0 j).IsWhole
  nbuf6_0 : grid6.bufCount reads6_0 true = 1
  hreads6_0 : ∀ i i' : grid6.Coords, (∀ a, reads6_0 a = true → i a = i' a) → cc6_transform_1 i = cc6_transform_1 i'
  hinb6_0 : ∀ (i : grid6.Coords) a, (cc6_transform_1 i a + 1) * S64x128.size a ≤ S64x128.size a
  hwx6_0 : ∀ i : grid6.Coords, EltTy.bits .f32 = 32 ∨ (Rect.block (s := S64x128) S64x128.size (cc6_transform_1 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_2 i = cc6_transform_2 i'
  hinb6_1 : ∀ (i : grid6.Coords) a, (cc6_transform_2 i a + 1) * S64x128.size a ≤ S64x128.size a
  hwx6_1 : ∀ i : grid6.Coords, EltTy.bits .f32 = 32 ∨ (Rect.block (s := S64x128) S64x128.size (cc6_transform_2 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_3 i = cc6_transform_3 i'
  hinb6_2 : ∀ (i : grid6.Coords) a, (cc6_transform_3 i a + 1) * S1x64.size a ≤ S1x64.size a
  hwx6_2 : ∀ i : grid6.Coords, EltTy.bits .f32 = 32 ∨ (Rect.block (s := S1x64) S1x64.size (cc6_transform_3 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_4 i = cc6_transform_4 i'
  hinb6_3 : ∀ (i : grid6.Coords) a, (cc6_transform_4 i a + 1) * S64x64.size a ≤ S64x64.size a
  hwx6_3 : ∀ i : grid6.Coords, EltTy.bits .f32 = 32 ∨ (Rect.block (s := S64x64) S64x64.size (cc6_transform_4 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_5 i = cc6_transform_5 i'
  hinb6_4 : ∀ (i : grid6.Coords) a, (cc6_transform_5 i a + 1) * S1x64.size a ≤ S1x64.size a
  hwx6_4 : ∀ i : grid6.Coords, EltTy.bits .f32 = 32 ∨ (Rect.block (s := S1x64) S1x64.size (cc6_transform_5 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_7 i = cc6_transform_7 i'
  hinb6_5 : ∀ (i : grid6.Coords) a, (cc6_transform_7 i a + 1) * S1x64.size a ≤ S1x64.size a
  hwx6_5 : ∀ i : grid6.Coords, EltTy.bits .f32 = 32 ∨ (Rect.block (s := S1x64) S1x64.size (cc6_transform_7 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_8 i = cc6_transform_8 i'
  hinb6_6 : ∀ (i : grid6.Coords) a, (cc6_transform_8 i a + 1) * S1x64.size a ≤ S1x64.size a
  hwx6_6 : ∀ i : grid6.Coords, EltTy.bits .f32 = 32 ∨ (Rect.block (s := S1x64) S1x64.size (cc6_transform_8 i) (hinb6_6 i)).WholeWords (EltTy.packing .f32)
  hrank7 : 0 < grid7.rank
  k7_off1_inb : ∀ i : grid7.Coords, ∀ a, (k7_off1 i) a + S1.size a ≤ S62500.size a
  k7_off3_inb : ∀ i : grid7.Coords, ∀ a, (k7_off3 i) a + S1.size a ≤ S62500.size a
  k7_off5_inb : ∀ i : grid7.Coords, ∀ a, (k7_off5 i) a + S1x64.size a ≤ S62500x64.size a
  hstage7_0 : ∀ j, (stage7_0 j).IsWhole
  nbuf7_0 : grid7.bufCount reads7_0 true = 1
  hreads7_0 : ∀ i i' : grid7.Coords, (∀ a, reads7_0 a = true → i a = i' a) → cc7_transform_1 i = cc7_transform_1 i'
  hinb7_0 : ∀ (i : grid7.Coords) a, (cc7_transform_1 i a + 1) * S64x128.size a ≤ S64x128.size a
  hwx7_0 : ∀ i : grid7.Coords, EltTy.bits .f32 = 32 ∨ (Rect.block (s := S64x128) S64x128.size (cc7_transform_1 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_2 i = cc7_transform_2 i'
  hinb7_1 : ∀ (i : grid7.Coords) a, (cc7_transform_2 i a + 1) * S64x128.size a ≤ S64x128.size a
  hwx7_1 : ∀ i : grid7.Coords, EltTy.bits .f32 = 32 ∨ (Rect.block (s := S64x128) S64x128.size (cc7_transform_2 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_3 i = cc7_transform_3 i'
  hinb7_2 : ∀ (i : grid7.Coords) a, (cc7_transform_3 i a + 1) * S1x64.size a ≤ S1x64.size a
  hwx7_2 : ∀ i : grid7.Coords, EltTy.bits .f32 = 32 ∨ (Rect.block (s := S1x64) S1x64.size (cc7_transform_3 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_4 i = cc7_transform_4 i'
  hinb7_3 : ∀ (i : grid7.Coords) a, (cc7_transform_4 i a + 1) * S64x64.size a ≤ S64x64.size a
  hwx7_3 : ∀ i : grid7.Coords, EltTy.bits .f32 = 32 ∨ (Rect.block (s := S64x64) S64x64.size (cc7_transform_4 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_5 i = cc7_transform_5 i'
  hinb7_4 : ∀ (i : grid7.Coords) a, (cc7_transform_5 i a + 1) * S1x64.size a ≤ S1x64.size a
  hwx7_4 : ∀ i : grid7.Coords, EltTy.bits .f32 = 32 ∨ (Rect.block (s := S1x64) S1x64.size (cc7_transform_5 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_7 i = cc7_transform_7 i'
  hinb7_5 : ∀ (i : grid7.Coords) a, (cc7_transform_7 i a + 1) * S1x64.size a ≤ S1x64.size a
  hwx7_5 : ∀ i : grid7.Coords, EltTy.bits .f32 = 32 ∨ (Rect.block (s := S1x64) S1x64.size (cc7_transform_7 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_8 i = cc7_transform_8 i'
  hinb7_6 : ∀ (i : grid7.Coords) a, (cc7_transform_8 i a + 1) * S1x64.size a ≤ S1x64.size a
  hwx7_6 : ∀ i : grid7.Coords, EltTy.bits .f32 = 32 ∨ (Rect.block (s := S1x64) S1x64.size (cc7_transform_8 i) (hinb7_6 i)).WholeWords (EltTy.packing .f32)
  hrank8 : 0 < grid8.rank
  k8_off1_inb : ∀ i : grid8.Coords, ∀ a, (k8_off1 i) a + S1.size a ≤ S62500.size a
  k8_off3_inb : ∀ i : grid8.Coords, ∀ a, (k8_off3 i) a + S1.size a ≤ S62500.size a
  k8_off5_inb : ∀ i : grid8.Coords, ∀ a, (k8_off5 i) a + S1x64.size a ≤ S62500x64.size a
  hstage8_0 : ∀ j, (stage8_0 j).IsWhole
  nbuf8_0 : grid8.bufCount reads8_0 true = 1
  hreads8_0 : ∀ i i' : grid8.Coords, (∀ a, reads8_0 a = true → i a = i' a) → cc8_transform_1 i = cc8_transform_1 i'
  hinb8_0 : ∀ (i : grid8.Coords) a, (cc8_transform_1 i a + 1) * S64x128.size a ≤ S64x128.size a
  hwx8_0 : ∀ i : grid8.Coords, EltTy.bits .f32 = 32 ∨ (Rect.block (s := S64x128) S64x128.size (cc8_transform_1 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_2 i = cc8_transform_2 i'
  hinb8_1 : ∀ (i : grid8.Coords) a, (cc8_transform_2 i a + 1) * S64x128.size a ≤ S64x128.size a
  hwx8_1 : ∀ i : grid8.Coords, EltTy.bits .f32 = 32 ∨ (Rect.block (s := S64x128) S64x128.size (cc8_transform_2 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_3 i = cc8_transform_3 i'
  hinb8_2 : ∀ (i : grid8.Coords) a, (cc8_transform_3 i a + 1) * S1x64.size a ≤ S1x64.size a
  hwx8_2 : ∀ i : grid8.Coords, EltTy.bits .f32 = 32 ∨ (Rect.block (s := S1x64) S1x64.size (cc8_transform_3 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_4 i = cc8_transform_4 i'
  hinb8_3 : ∀ (i : grid8.Coords) a, (cc8_transform_4 i a + 1) * S64x64.size a ≤ S64x64.size a
  hwx8_3 : ∀ i : grid8.Coords, EltTy.bits .f32 = 32 ∨ (Rect.block (s := S64x64) S64x64.size (cc8_transform_4 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_5 i = cc8_transform_5 i'
  hinb8_4 : ∀ (i : grid8.Coords) a, (cc8_transform_5 i a + 1) * S1x64.size a ≤ S1x64.size a
  hwx8_4 : ∀ i : grid8.Coords, EltTy.bits .f32 = 32 ∨ (Rect.block (s := S1x64) S1x64.size (cc8_transform_5 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_7 i = cc8_transform_7 i'
  hinb8_5 : ∀ (i : grid8.Coords) a, (cc8_transform_7 i a + 1) * S1x64.size a ≤ S1x64.size a
  hwx8_5 : ∀ i : grid8.Coords, EltTy.bits .f32 = 32 ∨ (Rect.block (s := S1x64) S1x64.size (cc8_transform_7 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_8 i = cc8_transform_8 i'
  hinb8_6 : ∀ (i : grid8.Coords) a, (cc8_transform_8 i a + 1) * S1x64.size a ≤ S1x64.size a
  hwx8_6 : ∀ i : grid8.Coords, EltTy.bits .f32 = 32 ∨ (Rect.block (s := S1x64) S1x64.size (cc8_transform_8 i) (hinb8_6 i)).WholeWords (EltTy.packing .f32)
  hrank9 : 0 < grid9.rank
  k9_off1_inb : ∀ i : grid9.Coords, ∀ a, (k9_off1 i) a + S1.size a ≤ S62500.size a
  k9_off3_inb : ∀ i : grid9.Coords, ∀ a, (k9_off3 i) a + S1.size a ≤ S62500.size a
  k9_off5_inb : ∀ i : grid9.Coords, ∀ a, (k9_off5 i) a + S1x64.size a ≤ S62500x64.size a
  hstage9_0 : ∀ j, (stage9_0 j).IsWhole
  nbuf9_0 : grid9.bufCount reads9_0 true = 1
  hreads9_0 : ∀ i i' : grid9.Coords, (∀ a, reads9_0 a = true → i a = i' a) → cc9_transform_1 i = cc9_transform_1 i'
  hinb9_0 : ∀ (i : grid9.Coords) a, (cc9_transform_1 i a + 1) * S64x128.size a ≤ S64x128.size a
  hwx9_0 : ∀ i : grid9.Coords, EltTy.bits .f32 = 32 ∨ (Rect.block (s := S64x128) S64x128.size (cc9_transform_1 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_2 i = cc9_transform_2 i'
  hinb9_1 : ∀ (i : grid9.Coords) a, (cc9_transform_2 i a + 1) * S64x128.size a ≤ S64x128.size a
  hwx9_1 : ∀ i : grid9.Coords, EltTy.bits .f32 = 32 ∨ (Rect.block (s := S64x128) S64x128.size (cc9_transform_2 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_3 i = cc9_transform_3 i'
  hinb9_2 : ∀ (i : grid9.Coords) a, (cc9_transform_3 i a + 1) * S1x64.size a ≤ S1x64.size a
  hwx9_2 : ∀ i : grid9.Coords, EltTy.bits .f32 = 32 ∨ (Rect.block (s := S1x64) S1x64.size (cc9_transform_3 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_4 i = cc9_transform_4 i'
  hinb9_3 : ∀ (i : grid9.Coords) a, (cc9_transform_4 i a + 1) * S64x64.size a ≤ S64x64.size a
  hwx9_3 : ∀ i : grid9.Coords, EltTy.bits .f32 = 32 ∨ (Rect.block (s := S64x64) S64x64.size (cc9_transform_4 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_5 i = cc9_transform_5 i'
  hinb9_4 : ∀ (i : grid9.Coords) a, (cc9_transform_5 i a + 1) * S1x64.size a ≤ S1x64.size a
  hwx9_4 : ∀ i : grid9.Coords, EltTy.bits .f32 = 32 ∨ (Rect.block (s := S1x64) S1x64.size (cc9_transform_5 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_7 i = cc9_transform_7 i'
  hinb9_5 : ∀ (i : grid9.Coords) a, (cc9_transform_7 i a + 1) * S1x64.size a ≤ S1x64.size a
  hwx9_5 : ∀ i : grid9.Coords, EltTy.bits .f32 = 32 ∨ (Rect.block (s := S1x64) S1x64.size (cc9_transform_7 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_8 i = cc9_transform_8 i'
  hinb9_6 : ∀ (i : grid9.Coords) a, (cc9_transform_8 i a + 1) * S1x64.size a ≤ S1x64.size a
  hwx9_6 : ∀ i : grid9.Coords, EltTy.bits .f32 = 32 ∨ (Rect.block (s := S1x64) S1x64.size (cc9_transform_8 i) (hinb9_6 i)).WholeWords (EltTy.packing .f32)
  hrank10 : 0 < grid10.rank
  k10_off1_inb : ∀ i : grid10.Coords, ∀ a, (k10_off1 i) a + S1.size a ≤ S62500.size a
  k10_off3_inb : ∀ i : grid10.Coords, ∀ a, (k10_off3 i) a + S1.size a ≤ S62500.size a
  k10_off5_inb : ∀ i : grid10.Coords, ∀ a, (k10_off5 i) a + S1x64.size a ≤ S62500x64.size a
  hstage10_0 : ∀ j, (stage10_0 j).IsWhole
  nbuf10_0 : grid10.bufCount reads10_0 true = 1
  hreads10_0 : ∀ i i' : grid10.Coords, (∀ a, reads10_0 a = true → i a = i' a) → cc10_transform_1 i = cc10_transform_1 i'
  hinb10_0 : ∀ (i : grid10.Coords) a, (cc10_transform_1 i a + 1) * S64x128.size a ≤ S64x128.size a
  hwx10_0 : ∀ i : grid10.Coords, EltTy.bits .f32 = 32 ∨ (Rect.block (s := S64x128) S64x128.size (cc10_transform_1 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_2 i = cc10_transform_2 i'
  hinb10_1 : ∀ (i : grid10.Coords) a, (cc10_transform_2 i a + 1) * S64x128.size a ≤ S64x128.size a
  hwx10_1 : ∀ i : grid10.Coords, EltTy.bits .f32 = 32 ∨ (Rect.block (s := S64x128) S64x128.size (cc10_transform_2 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_3 i = cc10_transform_3 i'
  hinb10_2 : ∀ (i : grid10.Coords) a, (cc10_transform_3 i a + 1) * S1x64.size a ≤ S1x64.size a
  hwx10_2 : ∀ i : grid10.Coords, EltTy.bits .f32 = 32 ∨ (Rect.block (s := S1x64) S1x64.size (cc10_transform_3 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_4 i = cc10_transform_4 i'
  hinb10_3 : ∀ (i : grid10.Coords) a, (cc10_transform_4 i a + 1) * S64x64.size a ≤ S64x64.size a
  hwx10_3 : ∀ i : grid10.Coords, EltTy.bits .f32 = 32 ∨ (Rect.block (s := S64x64) S64x64.size (cc10_transform_4 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_5 i = cc10_transform_5 i'
  hinb10_4 : ∀ (i : grid10.Coords) a, (cc10_transform_5 i a + 1) * S1x64.size a ≤ S1x64.size a
  hwx10_4 : ∀ i : grid10.Coords, EltTy.bits .f32 = 32 ∨ (Rect.block (s := S1x64) S1x64.size (cc10_transform_5 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_7 i = cc10_transform_7 i'
  hinb10_5 : ∀ (i : grid10.Coords) a, (cc10_transform_7 i a + 1) * S1x64.size a ≤ S1x64.size a
  hwx10_5 : ∀ i : grid10.Coords, EltTy.bits .f32 = 32 ∨ (Rect.block (s := S1x64) S1x64.size (cc10_transform_7 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_8 i = cc10_transform_8 i'
  hinb10_6 : ∀ (i : grid10.Coords) a, (cc10_transform_8 i a + 1) * S1x64.size a ≤ S1x64.size a
  hwx10_6 : ∀ i : grid10.Coords, EltTy.bits .f32 = 32 ∨ (Rect.block (s := S1x64) S1x64.size (cc10_transform_8 i) (hinb10_6 i)).WholeWords (EltTy.packing .f32)
  hrank11 : 0 < grid11.rank
  k11_off1_inb : ∀ i : grid11.Coords, ∀ a, (k11_off1 i) a + S1.size a ≤ S62500.size a
  k11_off3_inb : ∀ i : grid11.Coords, ∀ a, (k11_off3 i) a + S1.size a ≤ S62500.size a
  k11_off5_inb : ∀ i : grid11.Coords, ∀ a, (k11_off5 i) a + S1x64.size a ≤ S62500x64.size a
  hstage11_0 : ∀ j, (stage11_0 j).IsWhole
  nbuf11_0 : grid11.bufCount reads11_0 true = 1
  hreads11_0 : ∀ i i' : grid11.Coords, (∀ a, reads11_0 a = true → i a = i' a) → cc11_transform_1 i = cc11_transform_1 i'
  hinb11_0 : ∀ (i : grid11.Coords) a, (cc11_transform_1 i a + 1) * S64x128.size a ≤ S64x128.size a
  hwx11_0 : ∀ i : grid11.Coords, EltTy.bits .f32 = 32 ∨ (Rect.block (s := S64x128) S64x128.size (cc11_transform_1 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_2 i = cc11_transform_2 i'
  hinb11_1 : ∀ (i : grid11.Coords) a, (cc11_transform_2 i a + 1) * S64x128.size a ≤ S64x128.size a
  hwx11_1 : ∀ i : grid11.Coords, EltTy.bits .f32 = 32 ∨ (Rect.block (s := S64x128) S64x128.size (cc11_transform_2 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_3 i = cc11_transform_3 i'
  hinb11_2 : ∀ (i : grid11.Coords) a, (cc11_transform_3 i a + 1) * S1x64.size a ≤ S1x64.size a
  hwx11_2 : ∀ i : grid11.Coords, EltTy.bits .f32 = 32 ∨ (Rect.block (s := S1x64) S1x64.size (cc11_transform_3 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_4 i = cc11_transform_4 i'
  hinb11_3 : ∀ (i : grid11.Coords) a, (cc11_transform_4 i a + 1) * S64x64.size a ≤ S64x64.size a
  hwx11_3 : ∀ i : grid11.Coords, EltTy.bits .f32 = 32 ∨ (Rect.block (s := S64x64) S64x64.size (cc11_transform_4 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_5 i = cc11_transform_5 i'
  hinb11_4 : ∀ (i : grid11.Coords) a, (cc11_transform_5 i a + 1) * S1x64.size a ≤ S1x64.size a
  hwx11_4 : ∀ i : grid11.Coords, EltTy.bits .f32 = 32 ∨ (Rect.block (s := S1x64) S1x64.size (cc11_transform_5 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_7 i = cc11_transform_7 i'
  hinb11_5 : ∀ (i : grid11.Coords) a, (cc11_transform_7 i a + 1) * S1x64.size a ≤ S1x64.size a
  hwx11_5 : ∀ i : grid11.Coords, EltTy.bits .f32 = 32 ∨ (Rect.block (s := S1x64) S1x64.size (cc11_transform_7 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_8 i = cc11_transform_8 i'
  hinb11_6 : ∀ (i : grid11.Coords) a, (cc11_transform_8 i a + 1) * S1x64.size a ≤ S1x64.size a
  hwx11_6 : ∀ i : grid11.Coords, EltTy.bits .f32 = 32 ∨ (Rect.block (s := S1x64) S1x64.size (cc11_transform_8 i) (hinb11_6 i)).WholeWords (EltTy.packing .f32)
  hrank12 : 0 < grid12.rank
  k12_off1_inb : ∀ i : grid12.Coords, ∀ a, (k12_off1 i) a + S1.size a ≤ S62500.size a
  k12_off3_inb : ∀ i : grid12.Coords, ∀ a, (k12_off3 i) a + S1.size a ≤ S62500.size a
  k12_off5_inb : ∀ i : grid12.Coords, ∀ a, (k12_off5 i) a + S1x64.size a ≤ S62500x64.size a
  hstage12_0 : ∀ j, (stage12_0 j).IsWhole
  nbuf12_0 : grid12.bufCount reads12_0 true = 1
  hreads12_0 : ∀ i i' : grid12.Coords, (∀ a, reads12_0 a = true → i a = i' a) → cc12_transform_1 i = cc12_transform_1 i'
  hinb12_0 : ∀ (i : grid12.Coords) a, (cc12_transform_1 i a + 1) * S64x128.size a ≤ S64x128.size a
  hwx12_0 : ∀ i : grid12.Coords, EltTy.bits .f32 = 32 ∨ (Rect.block (s := S64x128) S64x128.size (cc12_transform_1 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_2 i = cc12_transform_2 i'
  hinb12_1 : ∀ (i : grid12.Coords) a, (cc12_transform_2 i a + 1) * S64x128.size a ≤ S64x128.size a
  hwx12_1 : ∀ i : grid12.Coords, EltTy.bits .f32 = 32 ∨ (Rect.block (s := S64x128) S64x128.size (cc12_transform_2 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_3 i = cc12_transform_3 i'
  hinb12_2 : ∀ (i : grid12.Coords) a, (cc12_transform_3 i a + 1) * S1x64.size a ≤ S1x64.size a
  hwx12_2 : ∀ i : grid12.Coords, EltTy.bits .f32 = 32 ∨ (Rect.block (s := S1x64) S1x64.size (cc12_transform_3 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_4 i = cc12_transform_4 i'
  hinb12_3 : ∀ (i : grid12.Coords) a, (cc12_transform_4 i a + 1) * S64x64.size a ≤ S64x64.size a
  hwx12_3 : ∀ i : grid12.Coords, EltTy.bits .f32 = 32 ∨ (Rect.block (s := S64x64) S64x64.size (cc12_transform_4 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_5 i = cc12_transform_5 i'
  hinb12_4 : ∀ (i : grid12.Coords) a, (cc12_transform_5 i a + 1) * S1x64.size a ≤ S1x64.size a
  hwx12_4 : ∀ i : grid12.Coords, EltTy.bits .f32 = 32 ∨ (Rect.block (s := S1x64) S1x64.size (cc12_transform_5 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_7 i = cc12_transform_7 i'
  hinb12_5 : ∀ (i : grid12.Coords) a, (cc12_transform_7 i a + 1) * S1x64.size a ≤ S1x64.size a
  hwx12_5 : ∀ i : grid12.Coords, EltTy.bits .f32 = 32 ∨ (Rect.block (s := S1x64) S1x64.size (cc12_transform_7 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_8 i = cc12_transform_8 i'
  hinb12_6 : ∀ (i : grid12.Coords) a, (cc12_transform_8 i a + 1) * S1x64.size a ≤ S1x64.size a
  hwx12_6 : ∀ i : grid12.Coords, EltTy.bits .f32 = 32 ∨ (Rect.block (s := S1x64) S1x64.size (cc12_transform_8 i) (hinb12_6 i)).WholeWords (EltTy.packing .f32)
  hrank13 : 0 < grid13.rank
  k13_off1_inb : ∀ i : grid13.Coords, ∀ a, (k13_off1 i) a + S1.size a ≤ S62500.size a
  k13_off3_inb : ∀ i : grid13.Coords, ∀ a, (k13_off3 i) a + S1.size a ≤ S62500.size a
  k13_off5_inb : ∀ i : grid13.Coords, ∀ a, (k13_off5 i) a + S1x64.size a ≤ S62500x64.size a
  hstage13_0 : ∀ j, (stage13_0 j).IsWhole
  nbuf13_0 : grid13.bufCount reads13_0 true = 1
  hreads13_0 : ∀ i i' : grid13.Coords, (∀ a, reads13_0 a = true → i a = i' a) → cc13_transform_1 i = cc13_transform_1 i'
  hinb13_0 : ∀ (i : grid13.Coords) a, (cc13_transform_1 i a + 1) * S64x128.size a ≤ S64x128.size a
  hwx13_0 : ∀ i : grid13.Coords, EltTy.bits .f32 = 32 ∨ (Rect.block (s := S64x128) S64x128.size (cc13_transform_1 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_2 i = cc13_transform_2 i'
  hinb13_1 : ∀ (i : grid13.Coords) a, (cc13_transform_2 i a + 1) * S64x128.size a ≤ S64x128.size a
  hwx13_1 : ∀ i : grid13.Coords, EltTy.bits .f32 = 32 ∨ (Rect.block (s := S64x128) S64x128.size (cc13_transform_2 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_3 i = cc13_transform_3 i'
  hinb13_2 : ∀ (i : grid13.Coords) a, (cc13_transform_3 i a + 1) * S1x64.size a ≤ S1x64.size a
  hwx13_2 : ∀ i : grid13.Coords, EltTy.bits .f32 = 32 ∨ (Rect.block (s := S1x64) S1x64.size (cc13_transform_3 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_4 i = cc13_transform_4 i'
  hinb13_3 : ∀ (i : grid13.Coords) a, (cc13_transform_4 i a + 1) * S64x64.size a ≤ S64x64.size a
  hwx13_3 : ∀ i : grid13.Coords, EltTy.bits .f32 = 32 ∨ (Rect.block (s := S64x64) S64x64.size (cc13_transform_4 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_5 i = cc13_transform_5 i'
  hinb13_4 : ∀ (i : grid13.Coords) a, (cc13_transform_5 i a + 1) * S1x64.size a ≤ S1x64.size a
  hwx13_4 : ∀ i : grid13.Coords, EltTy.bits .f32 = 32 ∨ (Rect.block (s := S1x64) S1x64.size (cc13_transform_5 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_7 i = cc13_transform_7 i'
  hinb13_5 : ∀ (i : grid13.Coords) a, (cc13_transform_7 i a + 1) * S1x64.size a ≤ S1x64.size a
  hwx13_5 : ∀ i : grid13.Coords, EltTy.bits .f32 = 32 ∨ (Rect.block (s := S1x64) S1x64.size (cc13_transform_7 i) (hinb13_5 i)).WholeWords (EltTy.packing .f32)
  hstage13_6 : ∀ j, (stage13_6 j).IsWhole
  nbuf13_6 : grid13.bufCount reads13_6 true = 1
  hreads13_6 : ∀ i i' : grid13.Coords, (∀ a, reads13_6 a = true → i a = i' a) → cc13_transform_8 i = cc13_transform_8 i'
  hinb13_6 : ∀ (i : grid13.Coords) a, (cc13_transform_8 i a + 1) * S1x64.size a ≤ S1x64.size a
  hwx13_6 : ∀ i : grid13.Coords, EltTy.bits .f32 = 32 ∨ (Rect.block (s := S1x64) S1x64.size (cc13_transform_8 i) (hinb13_6 i)).WholeWords (EltTy.packing .f32)
  hrank14 : 0 < grid14.rank
  k14_off1_inb : ∀ i : grid14.Coords, ∀ a, (k14_off1 i) a + S1.size a ≤ S62500.size a
  k14_off3_inb : ∀ i : grid14.Coords, ∀ a, (k14_off3 i) a + S1.size a ≤ S62500.size a
  k14_off5_inb : ∀ i : grid14.Coords, ∀ a, (k14_off5 i) a + S1x64.size a ≤ S62500x64.size a
  hstage14_0 : ∀ j, (stage14_0 j).IsWhole
  nbuf14_0 : grid14.bufCount reads14_0 true = 1
  hreads14_0 : ∀ i i' : grid14.Coords, (∀ a, reads14_0 a = true → i a = i' a) → cc14_transform_1 i = cc14_transform_1 i'
  hinb14_0 : ∀ (i : grid14.Coords) a, (cc14_transform_1 i a + 1) * S64x128.size a ≤ S64x128.size a
  hwx14_0 : ∀ i : grid14.Coords, EltTy.bits .f32 = 32 ∨ (Rect.block (s := S64x128) S64x128.size (cc14_transform_1 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_2 i = cc14_transform_2 i'
  hinb14_1 : ∀ (i : grid14.Coords) a, (cc14_transform_2 i a + 1) * S64x128.size a ≤ S64x128.size a
  hwx14_1 : ∀ i : grid14.Coords, EltTy.bits .f32 = 32 ∨ (Rect.block (s := S64x128) S64x128.size (cc14_transform_2 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_3 i = cc14_transform_3 i'
  hinb14_2 : ∀ (i : grid14.Coords) a, (cc14_transform_3 i a + 1) * S1x64.size a ≤ S1x64.size a
  hwx14_2 : ∀ i : grid14.Coords, EltTy.bits .f32 = 32 ∨ (Rect.block (s := S1x64) S1x64.size (cc14_transform_3 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_4 i = cc14_transform_4 i'
  hinb14_3 : ∀ (i : grid14.Coords) a, (cc14_transform_4 i a + 1) * S64x64.size a ≤ S64x64.size a
  hwx14_3 : ∀ i : grid14.Coords, EltTy.bits .f32 = 32 ∨ (Rect.block (s := S64x64) S64x64.size (cc14_transform_4 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_5 i = cc14_transform_5 i'
  hinb14_4 : ∀ (i : grid14.Coords) a, (cc14_transform_5 i a + 1) * S1x64.size a ≤ S1x64.size a
  hwx14_4 : ∀ i : grid14.Coords, EltTy.bits .f32 = 32 ∨ (Rect.block (s := S1x64) S1x64.size (cc14_transform_5 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_7 i = cc14_transform_7 i'
  hinb14_5 : ∀ (i : grid14.Coords) a, (cc14_transform_7 i a + 1) * S1x64.size a ≤ S1x64.size a
  hwx14_5 : ∀ i : grid14.Coords, EltTy.bits .f32 = 32 ∨ (Rect.block (s := S1x64) S1x64.size (cc14_transform_7 i) (hinb14_5 i)).WholeWords (EltTy.packing .f32)
  hstage14_6 : ∀ j, (stage14_6 j).IsWhole
  nbuf14_6 : grid14.bufCount reads14_6 true = 1
  hreads14_6 : ∀ i i' : grid14.Coords, (∀ a, reads14_6 a = true → i a = i' a) → cc14_transform_8 i = cc14_transform_8 i'
  hinb14_6 : ∀ (i : grid14.Coords) a, (cc14_transform_8 i a + 1) * S1x64.size a ≤ S1x64.size a
  hwx14_6 : ∀ i : grid14.Coords, EltTy.bits .f32 = 32 ∨ (Rect.block (s := S1x64) S1x64.size (cc14_transform_8 i) (hinb14_6 i)).WholeWords (EltTy.packing .f32)
  hrank15 : 0 < grid15.rank
  k15_off1_inb : ∀ i : grid15.Coords, ∀ a, (k15_off1 i) a + S1.size a ≤ S62500.size a
  k15_off3_inb : ∀ i : grid15.Coords, ∀ a, (k15_off3 i) a + S1.size a ≤ S62500.size a
  k15_off5_inb : ∀ i : grid15.Coords, ∀ a, (k15_off5 i) a + S1x64.size a ≤ S62500x64.size a
  hstage15_0 : ∀ j, (stage15_0 j).IsWhole
  nbuf15_0 : grid15.bufCount reads15_0 true = 1
  hreads15_0 : ∀ i i' : grid15.Coords, (∀ a, reads15_0 a = true → i a = i' a) → cc15_transform_1 i = cc15_transform_1 i'
  hinb15_0 : ∀ (i : grid15.Coords) a, (cc15_transform_1 i a + 1) * S64x128.size a ≤ S64x128.size a
  hwx15_0 : ∀ i : grid15.Coords, EltTy.bits .f32 = 32 ∨ (Rect.block (s := S64x128) S64x128.size (cc15_transform_1 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_2 i = cc15_transform_2 i'
  hinb15_1 : ∀ (i : grid15.Coords) a, (cc15_transform_2 i a + 1) * S64x128.size a ≤ S64x128.size a
  hwx15_1 : ∀ i : grid15.Coords, EltTy.bits .f32 = 32 ∨ (Rect.block (s := S64x128) S64x128.size (cc15_transform_2 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_3 i = cc15_transform_3 i'
  hinb15_2 : ∀ (i : grid15.Coords) a, (cc15_transform_3 i a + 1) * S1x64.size a ≤ S1x64.size a
  hwx15_2 : ∀ i : grid15.Coords, EltTy.bits .f32 = 32 ∨ (Rect.block (s := S1x64) S1x64.size (cc15_transform_3 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_4 i = cc15_transform_4 i'
  hinb15_3 : ∀ (i : grid15.Coords) a, (cc15_transform_4 i a + 1) * S64x64.size a ≤ S64x64.size a
  hwx15_3 : ∀ i : grid15.Coords, EltTy.bits .f32 = 32 ∨ (Rect.block (s := S64x64) S64x64.size (cc15_transform_4 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_5 i = cc15_transform_5 i'
  hinb15_4 : ∀ (i : grid15.Coords) a, (cc15_transform_5 i a + 1) * S1x64.size a ≤ S1x64.size a
  hwx15_4 : ∀ i : grid15.Coords, EltTy.bits .f32 = 32 ∨ (Rect.block (s := S1x64) S1x64.size (cc15_transform_5 i) (hinb15_4 i)).WholeWords (EltTy.packing .f32)
  hstage15_5 : ∀ j, (stage15_5 j).IsWhole
  nbuf15_5 : grid15.bufCount reads15_5 true = 1
  hreads15_5 : ∀ i i' : grid15.Coords, (∀ a, reads15_5 a = true → i a = i' a) → cc15_transform_7 i = cc15_transform_7 i'
  hinb15_5 : ∀ (i : grid15.Coords) a, (cc15_transform_7 i a + 1) * S1x64.size a ≤ S1x64.size a
  hwx15_5 : ∀ i : grid15.Coords, EltTy.bits .f32 = 32 ∨ (Rect.block (s := S1x64) S1x64.size (cc15_transform_7 i) (hinb15_5 i)).WholeWords (EltTy.packing .f32)
  hstage15_6 : ∀ j, (stage15_6 j).IsWhole
  nbuf15_6 : grid15.bufCount reads15_6 true = 1
  hreads15_6 : ∀ i i' : grid15.Coords, (∀ a, reads15_6 a = true → i a = i' a) → cc15_transform_8 i = cc15_transform_8 i'
  hinb15_6 : ∀ (i : grid15.Coords) a, (cc15_transform_8 i a + 1) * S1x64.size a ≤ S1x64.size a
  hwx15_6 : ∀ i : grid15.Coords, EltTy.bits .f32 = 32 ∨ (Rect.block (s := S1x64) S1x64.size (cc15_transform_8 i) (hinb15_6 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S8000x64.size a ≤ S1000000x64.size a
  hwx16_0 : ∀ i : grid16.Coords, EltTy.bits .f32 = 32 ∨ (Rect.block (s := S1000000x64) S8000x64.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S1x64.size a ≤ S1x64.size a
  hwx16_1 : ∀ i : grid16.Coords, EltTy.bits .f32 = 32 ∨ (Rect.block (s := S1x64) S1x64.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x64.size a ≤ S1x64.size a
  hwx16_2 : ∀ i : grid16.Coords, EltTy.bits .f32 = 32 ∨ (Rect.block (s := S1x64) S1x64.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S1x64.size a ≤ S1x64.size a
  hwx16_3 : ∀ i : grid16.Coords, EltTy.bits .f32 = 32 ∨ (Rect.block (s := S1x64) S1x64.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x64.size a ≤ S1x64.size a
  hwx16_4 : ∀ i : grid16.Coords, EltTy.bits .f32 = 32 ∨ (Rect.block (s := S1x64) S1x64.size (cc16_transform_4 i) (hinb16_4 i)).WholeWords (EltTy.packing .f32)
  hstage16_5 : ∀ j, (stage16_5 j).IsWhole
  nbuf16_5 : grid16.bufCount reads16_5 true = 1
  hreads16_5 : ∀ i i' : grid16.Coords, (∀ a, reads16_5 a = true → i a = i' a) → cc16_transform_5 i = cc16_transform_5 i'
  hinb16_5 : ∀ (i : grid16.Coords) a, (cc16_transform_5 i a + 1) * S1x64.size a ≤ S1x64.size a
  hwx16_5 : ∀ i : grid16.Coords, EltTy.bits .f32 = 32 ∨ (Rect.block (s := S1x64) S1x64.size (cc16_transform_5 i) (hinb16_5 i)).WholeWords (EltTy.packing .f32)
  hstage16_6 : ∀ j, (stage16_6 j).IsWhole
  nbuf16_6 : grid16.bufCount reads16_6 true = 1
  hreads16_6 : ∀ i i' : grid16.Coords, (∀ a, reads16_6 a = true → i a = i' a) → cc16_transform_6 i = cc16_transform_6 i'
  hinb16_6 : ∀ (i : grid16.Coords) a, (cc16_transform_6 i a + 1) * S1x1.size a ≤ S1x1.size a
  hwx16_6 : ∀ i : grid16.Coords, EltTy.bits .f32 = 32 ∨ (Rect.block (s := S1x1) S1x1.size (cc16_transform_6 i) (hinb16_6 i)).WholeWords (EltTy.packing .f32)
  hstage16_7 : ∀ j, (stage16_7 j).IsWhole
  nbuf16_7 : grid16.bufCount reads16_7 false = 2
  hreads16_7 : ∀ i i' : grid16.Coords, (∀ a, reads16_7 a = true → i a = i' a) → cc16_transform_7 i = cc16_transform_7 i'
  hinb16_7 : ∀ (i : grid16.Coords) a, (cc16_transform_7 i a + 1) * S8000x1.size a ≤ S1000000x1.size a
  hwx16_7 : ∀ i : grid16.Coords, EltTy.bits .f32 = 32 ∨ (Rect.block (s := S1000000x1) S8000x1.size (cc16_transform_7 i) (hinb16_7 i)).WholeWords (EltTy.packing .f32)

variable [Facts₀]

abbrev cc0_scratch3 : DmaSems sig S3 := SemArray.consecutive 7 S3 hcc0_scratch3
abbrev cc1_scratch3 : DmaSems sig S3 := SemArray.consecutive 17 S3 hcc1_scratch3
abbrev cc2_scratch3 : DmaSems sig S3 := SemArray.consecutive 27 S3 hcc2_scratch3
abbrev cc3_scratch3 : DmaSems sig S3 := SemArray.consecutive 37 S3 hcc3_scratch3
abbrev cc4_scratch3 : DmaSems sig S3 := SemArray.consecutive 47 S3 hcc4_scratch3
abbrev cc5_scratch3 : DmaSems sig S3 := SemArray.consecutive 57 S3 hcc5_scratch3
abbrev cc6_scratch3 : DmaSems sig S3 := SemArray.consecutive 67 S3 hcc6_scratch3
abbrev cc7_scratch3 : DmaSems sig S3 := SemArray.consecutive 77 S3 hcc7_scratch3
abbrev cc8_scratch3 : DmaSems sig S3 := SemArray.consecutive 87 S3 hcc8_scratch3
abbrev cc9_scratch3 : DmaSems sig S3 := SemArray.consecutive 97 S3 hcc9_scratch3
abbrev cc10_scratch3 : DmaSems sig S3 := SemArray.consecutive 107 S3 hcc10_scratch3
abbrev cc11_scratch3 : DmaSems sig S3 := SemArray.consecutive 117 S3 hcc11_scratch3
abbrev cc12_scratch3 : DmaSems sig S3 := SemArray.consecutive 127 S3 hcc12_scratch3
abbrev cc13_scratch3 : DmaSems sig S3 := SemArray.consecutive 137 S3 hcc13_scratch3
abbrev cc14_scratch3 : DmaSems sig S3 := SemArray.consecutive 147 S3 hcc14_scratch3
abbrev cc15_scratch3 : DmaSems sig S3 := SemArray.consecutive 157 S3 hcc15_scratch3
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S8000x64_S64x1_S8000x1_1_0_0_1_n_n : DotDims S8000x64 S64x1 S8000x1 where
  lhsContracting := [1]
  rhsContracting := [0]
  lhsNonContracting := [0]
  rhsNonContracting := [1]
  lhsBatch := []
  rhsBatch := []
  wf := dot_S8000x64_S64x1_S8000x1_1_0_0_1_n_n_wf

abbrev spec0_0 : Pipeline.WinSpec sig grid0.rank :=
  Pipeline.WinSpec.ofSpec (Memref.whole main_v4) S64x128.size reads0_0 false true 1 stage0_0 sem0_0 nbuf0_0 hstage0_0

abbrev spec0_1 : Pipeline.WinSpec sig grid0.rank :=
  Pipeline.WinSpec.ofSpec (Memref.whole main_v5) S64x128.size reads0_1 false true 1 stage0_1 sem0_1 nbuf0_1 hstage0_1

abbrev spec0_2 : Pipeline.WinSpec sig grid0.rank :=
  Pipeline.WinSpec.ofSpec (Memref.whole main_v6) S1x64.size reads0_2 false true 1 stage0_2 sem0_2 nbuf0_2 hstage0_2

abbrev spec0_3 : Pipeline.WinSpec sig grid0.rank :=
  Pipeline.WinSpec.ofSpec (Memref.whole main_arg4) S64x64.size reads0_3 false true 1 stage0_3 sem0_3 nbuf0_3 hstage0_3

abbrev spec0_4 : Pipeline.WinSpec sig grid0.rank :=
  Pipeline.WinSpec.ofSpec (Memref.whole main_v7) S1x64.size reads0_4 false true 1 stage0_4 sem0_4 nbuf0_4 hstage0_4

abbrev spec0_5 : Pipeline.WinSpec sig grid0.rank :=
  Pipeline.WinSpec.ofSpec (Memref.whole main_v13_1) S1x64.size reads0_5 true true 1 stage0_5 sem0_5 nbuf0_5 hstage0_5

abbrev spec0_6 : Pipeline.WinSpec sig grid0.rank :=
  Pipeline.WinSpec.ofSpec (Memref.whole main_v13_2) S1x64.size reads0_6 true true 1 stage0_6 sem0_6 nbuf0_6 hstage0_6

abbrev spec0 : Fin 7 → Pipeline.WinSpec sig grid0.rank := fun | 0 => spec0_0 | 1 => spec0_1 | 2 => spec0_2 | 3 => spec0_3 | 4 => spec0_4 | 5 => spec0_5 | 6 => spec0_6 | ⟨_ + 7, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | ⟨_ + 7, h⟩ => absurd h (Nat.not_lt.2 (Nat.le_add_left _ _))
abbrev ix0 (pf : pre0.Contents (Elt F)) : (w : Fin 7) → grid0.Coords → Fin (spec0 w).shape.rank → Nat := fun | 0 => cc0_transform_1 | 1 => cc0_transform_2 | 2 => cc0_transform_3 | 3 => cc0_transform_4 | 4 => cc0_transform_5 | 5 => cc0_transform_7 | 6 => cc0_transform_8 | ⟨_ + 7, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | ⟨_ + 7, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | ⟨_ + 7, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | ⟨_ + 7, h⟩ => absurd h (Nat.not_lt.2 (Nat.le_add_left _ _))
abbrev spec1_0 : Pipeline.WinSpec sig grid1.rank :=
  Pipeline.WinSpec.ofSpec (Memref.whole main_v4) S64x128.size reads1_0 false true 1 stage1_0 sem1_0 nbuf1_0 hstage1_0

abbrev spec1_1 : Pipeline.WinSpec sig grid1.rank :=
  Pipeline.WinSpec.ofSpec (Memref.whole main_v5) S64x128.size reads1_1 false true 1 stage1_1 sem1_1 nbuf1_1 hstage1_1

abbrev spec1_2 : Pipeline.WinSpec sig grid1.rank :=
  Pipeline.WinSpec.ofSpec (Memref.whole main_v6) S1x64.size reads1_2 false true 1 stage1_2 sem1_2 nbuf1_2 hstage1_2

abbrev spec1_3 : Pipeline.WinSpec sig grid1.rank :=
  Pipeline.WinSpec.ofSpec (Memref.whole main_arg4) S64x64.size reads1_3 false true 1 stage1_3 sem1_3 nbuf1_3 hstage1_3

abbrev spec1_4 : Pipeline.WinSpec sig grid1.rank :=
  Pipeline.WinSpec.ofSpec (Memref.whole main_v7) S1x64.size reads1_4 false true 1 stage1_4 sem1_4 nbuf1_4 hstage1_4

abbrev spec1_5 : Pipeline.WinSpec sig grid1.rank :=
  Pipeline.WinSpec.ofSpec (Memref.whole main_v16_1) S1x64.size reads1_5 true true 1 stage1_5 sem1_5 nbuf1_5 hstage1_5

abbrev spec1_6 : Pipeline.WinSpec sig grid1.rank :=
  Pipeline.WinSpec.ofSpec (Memref.whole main_v16_2) S1x64.size reads1_6 true true 1 stage1_6 sem1_6 nbuf1_6 hstage1_6

abbrev spec1 : Fin 7 → Pipeline.WinSpec sig grid1.rank := fun | 0 => spec1_0 | 1 => spec1_1 | 2 => spec1_2 | 3 => spec1_3 | 4 => spec1_4 | 5 => spec1_5 | 6 => spec1_6 | ⟨_ + 7, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | 5 => nbuf1_5 | 6 => nbuf1_6 | ⟨_ + 7, h⟩ => absurd h (Nat.not_lt.2 (Nat.le_add_left _ _))
abbrev ix1 (pf : pre1.Contents (Elt F)) : (w : Fin 7) → grid1.Coords → Fin (spec1 w).shape.rank → Nat := fun | 0 => cc1_transform_1 | 1 => cc1_transform_2 | 2 => cc1_transform_3 | 3 => cc1_transform_4 | 4 => cc1_transform_5 | 5 => cc1_transform_7 | 6 => cc1_transform_8 | ⟨_ + 7, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | 3 => hreads1_3 | 4 => hreads1_4 | 5 => hreads1_5 | 6 => hreads1_6 | ⟨_ + 7, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | 3 => hinb1_3 | 4 => hinb1_4 | 5 => hinb1_5 | 6 => hinb1_6 | ⟨_ + 7, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | 3 => hwx1_3 | 4 => hwx1_4 | 5 => hwx1_5 | 6 => hwx1_6 | ⟨_ + 7, h⟩ => absurd h (Nat.not_lt.2 (Nat.le_add_left _ _))
abbrev spec2_0 : Pipeline.WinSpec sig grid2.rank :=
  Pipeline.WinSpec.ofSpec (Memref.whole main_v4) S64x128.size reads2_0 false true 1 stage2_0 sem2_0 nbuf2_0 hstage2_0

abbrev spec2_1 : Pipeline.WinSpec sig grid2.rank :=
  Pipeline.WinSpec.ofSpec (Memref.whole main_v5) S64x128.size reads2_1 false true 1 stage2_1 sem2_1 nbuf2_1 hstage2_1

abbrev spec2_2 : Pipeline.WinSpec sig grid2.rank :=
  Pipeline.WinSpec.ofSpec (Memref.whole main_v6) S1x64.size reads2_2 false true 1 stage2_2 sem2_2 nbuf2_2 hstage2_2

abbrev spec2_3 : Pipeline.WinSpec sig grid2.rank :=
  Pipeline.WinSpec.ofSpec (Memref.whole main_arg4) S64x64.size reads2_3 false true 1 stage2_3 sem2_3 nbuf2_3 hstage2_3

abbrev spec2_4 : Pipeline.WinSpec sig grid2.rank :=
  Pipeline.WinSpec.ofSpec (Memref.whole main_v7) S1x64.size reads2_4 false true 1 stage2_4 sem2_4 nbuf2_4 hstage2_4

abbrev spec2_5 : Pipeline.WinSpec sig grid2.rank :=
  Pipeline.WinSpec.ofSpec (Memref.whole main_v19_1) S1x64.size reads2_5 true true 1 stage2_5 sem2_5 nbuf2_5 hstage2_5

abbrev spec2_6 : Pipeline.WinSpec sig grid2.rank :=
  Pipeline.WinSpec.ofSpec (Memref.whole main_v19_2) S1x64.size reads2_6 true true 1 stage2_6 sem2_6 nbuf2_6 hstage2_6

abbrev spec2 : Fin 7 → Pipeline.WinSpec sig grid2.rank := fun | 0 => spec2_0 | 1 => spec2_1 | 2 => spec2_2 | 3 => spec2_3 | 4 => spec2_4 | 5 => spec2_5 | 6 => spec2_6 | ⟨_ + 7, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | 3 => nbuf2_3 | 4 => nbuf2_4 | 5 => nbuf2_5 | 6 => nbuf2_6 | ⟨_ + 7, h⟩ => absurd h (Nat.not_lt.2 (Nat.le_add_left _ _))
abbrev ix2 (pf : pre2.Contents (Elt F)) : (w : Fin 7) → grid2.Coords → Fin (spec2 w).shape.rank → Nat := fun | 0 => cc2_transform_1 | 1 => cc2_transform_2 | 2 => cc2_transform_3 | 3 => cc2_transform_4 | 4 => cc2_transform_5 | 5 => cc2_transform_7 | 6 => cc2_transform_8 | ⟨_ + 7, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | 1 => hreads2_1 | 2 => hreads2_2 | 3 => hreads2_3 | 4 => hreads2_4 | 5 => hreads2_5 | 6 => hreads2_6 | ⟨_ + 7, h⟩ => absurd h (Nat.not_lt.2 (Nat.le_add_left _ _))
def ok2 (_ : pre2.Contents (Elt F)) : Prop :=
  True
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun _ _ => fun | 0 => hinb2_0 | 1 => hinb2_1 | 2 => hinb2_2 | 3 => hinb2_3 | 4 => hinb2_4 | 5 => hinb2_5 | 6 => hinb2_6 | ⟨_ + 7, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun _ _ => fun | 0 => hwx2_0 | 1 => hwx2_1 | 2 => hwx2_2 | 3 => hwx2_3 | 4 => hwx2_4 | 5 => hwx2_5 | 6 => hwx2_6 | ⟨_ + 7, h⟩ => absurd h (Nat.not_lt.2 (Nat.le_add_left _ _))
abbrev spec3_0 : Pipeline.WinSpec sig grid3.rank :=
  Pipeline.WinSpec.ofSpec (Memref.whole main_v4) S64x128.size reads3_0 false true 1 stage3_0 sem3_0 nbuf3_0 hstage3_0

abbrev spec3_1 : Pipeline.WinSpec sig grid3.rank :=
  Pipeline.WinSpec.ofSpec (Memref.whole main_v5) S64x128.size reads3_1 false true 1 stage3_1 sem3_1 nbuf3_1 hstage3_1

abbrev spec3_2 : Pipeline.WinSpec sig grid3.rank :=
  Pipeline.WinSpec.ofSpec (Memref.whole main_v6) S1x64.size reads3_2 false true 1 stage3_2 sem3_2 nbuf3_2 hstage3_2

abbrev spec3_3 : Pipeline.WinSpec sig grid3.rank :=
  Pipeline.WinSpec.ofSpec (Memref.whole main_arg4) S64x64.size reads3_3 false true 1 stage3_3 sem3_3 nbuf3_3 hstage3_3

abbrev spec3_4 : Pipeline.WinSpec sig grid3.rank :=
  Pipeline.WinSpec.ofSpec (Memref.whole main_v7) S1x64.size reads3_4 false true 1 stage3_4 sem3_4 nbuf3_4 hstage3_4

abbrev spec3_5 : Pipeline.WinSpec sig grid3.rank :=
  Pipeline.WinSpec.ofSpec (Memref.whole main_v22_1) S1x64.size reads3_5 true true 1 stage3_5 sem3_5 nbuf3_5 hstage3_5

abbrev spec3_6 : Pipeline.WinSpec sig grid3.rank :=
  Pipeline.WinSpec.ofSpec (Memref.whole main_v22_2) S1x64.size reads3_6 true true 1 stage3_6 sem3_6 nbuf3_6 hstage3_6

abbrev spec3 : Fin 7 → Pipeline.WinSpec sig grid3.rank := fun | 0 => spec3_0 | 1 => spec3_1 | 2 => spec3_2 | 3 => spec3_3 | 4 => spec3_4 | 5 => spec3_5 | 6 => spec3_6 | ⟨_ + 7, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | 3 => nbuf3_3 | 4 => nbuf3_4 | 5 => nbuf3_5 | 6 => nbuf3_6 | ⟨_ + 7, h⟩ => absurd h (Nat.not_lt.2 (Nat.le_add_left _ _))
abbrev ix3 (pf : pre3.Contents (Elt F)) : (w : Fin 7) → grid3.Coords → Fin (spec3 w).shape.rank → Nat := fun | 0 => cc3_transform_1 | 1 => cc3_transform_2 | 2 => cc3_transform_3 | 3 => cc3_transform_4 | 4 => cc3_transform_5 | 5 => cc3_transform_7 | 6 => cc3_transform_8 | ⟨_ + 7, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 | 1 => hreads3_1 | 2 => hreads3_2 | 3 => hreads3_3 | 4 => hreads3_4 | 5 => hreads3_5 | 6 => hreads3_6 | ⟨_ + 7, h⟩ => absurd h (Nat.not_lt.2 (Nat.le_add_left _ _))
def ok3 (_ : pre3.Contents (Elt F)) : Prop :=
  True
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun _ _ => fun | 0 => hinb3_0 | 1 => hinb3_1 | 2 => hinb3_2 | 3 => hinb3_3 | 4 => hinb3_4 | 5 => hinb3_5 | 6 => hinb3_6 | ⟨_ + 7, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun _ _ => fun | 0 => hwx3_0 | 1 => hwx3_1 | 2 => hwx3_2 | 3 => hwx3_3 | 4 => hwx3_4 | 5 => hwx3_5 | 6 => hwx3_6 | ⟨_ + 7, h⟩ => absurd h (Nat.not_lt.2 (Nat.le_add_left _ _))
abbrev spec4_0 : Pipeline.WinSpec sig grid4.rank :=
  Pipeline.WinSpec.ofSpec (Memref.whole main_v4) S64x128.size reads4_0 false true 1 stage4_0 sem4_0 nbuf4_0 hstage4_0

abbrev spec4_1 : Pipeline.WinSpec sig grid4.rank :=
  Pipeline.WinSpec.ofSpec (Memref.whole main_v5) S64x128.size reads4_1 false true 1 stage4_1 sem4_1 nbuf4_1 hstage4_1

abbrev spec4_2 : Pipeline.WinSpec sig grid4.rank :=
  Pipeline.WinSpec.ofSpec (Memref.whole main_v6) S1x64.size reads4_2 false true 1 stage4_2 sem4_2 nbuf4_2 hstage4_2

abbrev spec4_3 : Pipeline.WinSpec sig grid4.rank :=
  Pipeline.WinSpec.ofSpec (Memref.whole main_arg4) S64x64.size reads4_3 false true 1 stage4_3 sem4_3 nbuf4_3 hstage4_3

abbrev spec4_4 : Pipeline.WinSpec sig grid4.rank :=
  Pipeline.WinSpec.ofSpec (Memref.whole main_v7) S1x64.size reads4_4 false true 1 stage4_4 sem4_4 nbuf4_4 hstage4_4

abbrev spec4_5 : Pipeline.WinSpec sig grid4.rank :=
  Pipeline.WinSpec.ofSpec (Memref.whole main_v25_1) S1x64.size reads4_5 true true 1 stage4_5 sem4_5 nbuf4_5 hstage4_5

abbrev spec4_6 : Pipeline.WinSpec sig grid4.rank :=
  Pipeline.WinSpec.ofSpec (Memref.whole main_v25_2) S1x64.size reads4_6 true true 1 stage4_6 sem4_6 nbuf4_6 hstage4_6

abbrev spec4 : Fin 7 → Pipeline.WinSpec sig grid4.rank := fun | 0 => spec4_0 | 1 => spec4_1 | 2 => spec4_2 | 3 => spec4_3 | 4 => spec4_4 | 5 => spec4_5 | 6 => spec4_6 | ⟨_ + 7, h⟩ => absurd h (Nat.not_lt.2 (Nat.le_add_left _ _))
theorem hcount4 : ∀ w, grid4.bufCount (spec4 w).reads (spec4 w).sync = (spec4 w).nbuf := fun | 0 => nbuf4_0 | 1 => nbuf4_1 | 2 => nbuf4_2 | 3 => nbuf4_3 | 4 => nbuf4_4 | 5 => nbuf4_5 | 6 => nbuf4_6 | ⟨_ + 7, h⟩ => absurd h (Nat.not_lt.2 (Nat.le_add_left _ _))
abbrev ix4 (pf : pre4.Contents (Elt F)) : (w : Fin 7) → grid4.Coords → Fin (spec4 w).shape.rank → Nat := fun | 0 => cc4_transform_1 | 1 => cc4_transform_2 | 2 => cc4_transform_3 | 3 => cc4_transform_4 | 4 => cc4_transform_5 | 5 => cc4_transform_7 | 6 => cc4_transform_8 | ⟨_ + 7, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 | 1 => hreads4_1 | 2 => hreads4_2 | 3 => hreads4_3 | 4 => hreads4_4 | 5 => hreads4_5 | 6 => hreads4_6 | ⟨_ + 7, h⟩ => absurd h (Nat.not_lt.2 (Nat.le_add_left _ _))
def ok4 (_ : pre4.Contents (Elt F)) : Prop :=
  True
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun _ _ => fun | 0 => hinb4_0 | 1 => hinb4_1 | 2 => hinb4_2 | 3 => hinb4_3 | 4 => hinb4_4 | 5 => hinb4_5 | 6 => hinb4_6 | ⟨_ + 7, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun _ _ => fun | 0 => hwx4_0 | 1 => hwx4_1 | 2 => hwx4_2 | 3 => hwx4_3 | 4 => hwx4_4 | 5 => hwx4_5 | 6 => hwx4_6 | ⟨_ + 7, h⟩ => absurd h (Nat.not_lt.2 (Nat.le_add_left _ _))
abbrev spec5_0 : Pipeline.WinSpec sig grid5.rank :=
  Pipeline.WinSpec.ofSpec (Memref.whole main_v4) S64x128.size reads5_0 false true 1 stage5_0 sem5_0 nbuf5_0 hstage5_0

abbrev spec5_1 : Pipeline.WinSpec sig grid5.rank :=
  Pipeline.WinSpec.ofSpec (Memref.whole main_v5) S64x128.size reads5_1 false true 1 stage5_1 sem5_1 nbuf5_1 hstage5_1

abbrev spec5_2 : Pipeline.WinSpec sig grid5.rank :=
  Pipeline.WinSpec.ofSpec (Memref.whole main_v6) S1x64.size reads5_2 false true 1 stage5_2 sem5_2 nbuf5_2 hstage5_2

abbrev spec5_3 : Pipeline.WinSpec sig grid5.rank :=
  Pipeline.WinSpec.ofSpec (Memref.whole main_arg4) S64x64.size reads5_3 false true 1 stage5_3 sem5_3 nbuf5_3 hstage5_3

abbrev spec5_4 : Pipeline.WinSpec sig grid5.rank :=
  Pipeline.WinSpec.ofSpec (Memref.whole main_v7) S1x64.size reads5_4 false true 1 stage5_4 sem5_4 nbuf5_4 hstage5_4

abbrev spec5_5 : Pipeline.WinSpec sig grid5.rank :=
  Pipeline.WinSpec.ofSpec (Memref.whole main_v28_1) S1x64.size reads5_5 true true 1 stage5_5 sem5_5 nbuf5_5 hstage5_5

abbrev spec5_6 : Pipeline.WinSpec sig grid5.rank :=
  Pipeline.WinSpec.ofSpec (Memref.whole main_v28_2) S1x64.size reads5_6 true true 1 stage5_6 sem5_6 nbuf5_6 hstage5_6

abbrev spec5 : Fin 7 → Pipeline.WinSpec sig grid5.rank := fun | 0 => spec5_0 | 1 => spec5_1 | 2 => spec5_2 | 3 => spec5_3 | 4 => spec5_4 | 5 => spec5_5 | 6 => spec5_6 | ⟨_ + 7, h⟩ => absurd h (Nat.not_lt.2 (Nat.le_add_left _ _))
theorem hcount5 : ∀ w, grid5.bufCount (spec5 w).reads (spec5 w).sync = (spec5 w).nbuf := fun | 0 => nbuf5_0 | 1 => nbuf5_1 | 2 => nbuf5_2 | 3 => nbuf5_3 | 4 => nbuf5_4 | 5 => nbuf5_5 | 6 => nbuf5_6 | ⟨_ + 7, h⟩ => absurd h (Nat.not_lt.2 (Nat.le_add_left _ _))
abbrev ix5 (pf : pre5.Contents (Elt F)) : (w : Fin 7) → grid5.Coords → Fin (spec5 w).shape.rank → Nat := fun | 0 => cc5_transform_1 | 1 => cc5_transform_2 | 2 => cc5_transform_3 | 3 => cc5_transform_4 | 4 => cc5_transform_5 | 5 => cc5_transform_7 | 6 => cc5_transform_8 | ⟨_ + 7, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 | 1 => hreads5_1 | 2 => hreads5_2 | 3 => hreads5_3 | 4 => hreads5_4 | 5 => hreads5_5 | 6 => hreads5_6 | ⟨_ + 7, h⟩ => absurd h (Nat.not_lt.2 (Nat.le_add_left _ _))
def ok5 (_ : pre5.Contents (Elt F)) : Prop :=
  True
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun _ _ => fun | 0 => hinb5_0 | 1 => hinb5_1 | 2 => hinb5_2 | 3 => hinb5_3 | 4 => hinb5_4 | 5 => hinb5_5 | 6 => hinb5_6 | ⟨_ + 7, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun _ _ => fun | 0 => hwx5_0 | 1 => hwx5_1 | 2 => hwx5_2 | 3 => hwx5_3 | 4 => hwx5_4 | 5 => hwx5_5 | 6 => hwx5_6 | ⟨_ + 7, h⟩ => absurd h (Nat.not_lt.2 (Nat.le_add_left _ _))
abbrev spec6_0 : Pipeline.WinSpec sig grid6.rank :=
  Pipeline.WinSpec.ofSpec (Memref.whole main_v4) S64x128.size reads6_0 false true 1 stage6_0 sem6_0 nbuf6_0 hstage6_0

abbrev spec6_1 : Pipeline.WinSpec sig grid6.rank :=
  Pipeline.WinSpec.ofSpec (Memref.whole main_v5) S64x128.size reads6_1 false true 1 stage6_1 sem6_1 nbuf6_1 hstage6_1

abbrev spec6_2 : Pipeline.WinSpec sig grid6.rank :=
  Pipeline.WinSpec.ofSpec (Memref.whole main_v6) S1x64.size reads6_2 false true 1 stage6_2 sem6_2 nbuf6_2 hstage6_2

abbrev spec6_3 : Pipeline.WinSpec sig grid6.rank :=
  Pipeline.WinSpec.ofSpec (Memref.whole main_arg4) S64x64.size reads6_3 false true 1 stage6_3 sem6_3 nbuf6_3 hstage6_3

abbrev spec6_4 : Pipeline.WinSpec sig grid6.rank :=
  Pipeline.WinSpec.ofSpec (Memref.whole main_v7) S1x64.size reads6_4 false true 1 stage6_4 sem6_4 nbuf6_4 hstage6_4

abbrev spec6_5 : Pipeline.WinSpec sig grid6.rank :=
  Pipeline.WinSpec.ofSpec (Memref.whole main_v31_1) S1x64.size reads6_5 true true 1 stage6_5 sem6_5 nbuf6_5 hstage6_5

abbrev spec6_6 : Pipeline.WinSpec sig grid6.rank :=
  Pipeline.WinSpec.ofSpec (Memref.whole main_v31_2) S1x64.size reads6_6 true true 1 stage6_6 sem6_6 nbuf6_6 hstage6_6

abbrev spec6 : Fin 7 → Pipeline.WinSpec sig grid6.rank := fun | 0 => spec6_0 | 1 => spec6_1 | 2 => spec6_2 | 3 => spec6_3 | 4 => spec6_4 | 5 => spec6_5 | 6 => spec6_6 | ⟨_ + 7, h⟩ => absurd h (Nat.not_lt.2 (Nat.le_add_left _ _))
theorem hcount6 : ∀ w, grid6.bufCount (spec6 w).reads (spec6 w).sync = (spec6 w).nbuf := fun | 0 => nbuf6_0 | 1 => nbuf6_1 | 2 => nbuf6_2 | 3 => nbuf6_3 | 4 => nbuf6_4 | 5 => nbuf6_5 | 6 => nbuf6_6 | ⟨_ + 7, h⟩ => absurd h (Nat.not_lt.2 (Nat.le_add_left _ _))
abbrev ix6 (pf : pre6.Contents (Elt F)) : (w : Fin 7) → grid6.Coords → Fin (spec6 w).shape.rank → Nat := fun | 0 => cc6_transform_1 | 1 => cc6_transform_2 | 2 => cc6_transform_3 | 3 => cc6_transform_4 | 4 => cc6_transform_5 | 5 => cc6_transform_7 | 6 => cc6_transform_8 | ⟨_ + 7, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 | 1 => hreads6_1 | 2 => hreads6_2 | 3 => hreads6_3 | 4 => hreads6_4 | 5 => hreads6_5 | 6 => hreads6_6 | ⟨_ + 7, h⟩ => absurd h (Nat.not_lt.2 (Nat.le_add_left _ _))
def ok6 (_ : pre6.Contents (Elt F)) : Prop :=
  True
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun _ _ => fun | 0 => hinb6_0 | 1 => hinb6_1 | 2 => hinb6_2 | 3 => hinb6_3 | 4 => hinb6_4 | 5 => hinb6_5 | 6 => hinb6_6 | ⟨_ + 7, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun _ _ => fun | 0 => hwx6_0 | 1 => hwx6_1 | 2 => hwx6_2 | 3 => hwx6_3 | 4 => hwx6_4 | 5 => hwx6_5 | 6 => hwx6_6 | ⟨_ + 7, h⟩ => absurd h (Nat.not_lt.2 (Nat.le_add_left _ _))
abbrev spec7_0 : Pipeline.WinSpec sig grid7.rank :=
  Pipeline.WinSpec.ofSpec (Memref.whole main_v4) S64x128.size reads7_0 false true 1 stage7_0 sem7_0 nbuf7_0 hstage7_0

abbrev spec7_1 : Pipeline.WinSpec sig grid7.rank :=
  Pipeline.WinSpec.ofSpec (Memref.whole main_v5) S64x128.size reads7_1 false true 1 stage7_1 sem7_1 nbuf7_1 hstage7_1

abbrev spec7_2 : Pipeline.WinSpec sig grid7.rank :=
  Pipeline.WinSpec.ofSpec (Memref.whole main_v6) S1x64.size reads7_2 false true 1 stage7_2 sem7_2 nbuf7_2 hstage7_2

abbrev spec7_3 : Pipeline.WinSpec sig grid7.rank :=
  Pipeline.WinSpec.ofSpec (Memref.whole main_arg4) S64x64.size reads7_3 false true 1 stage7_3 sem7_3 nbuf7_3 hstage7_3

abbrev spec7_4 : Pipeline.WinSpec sig grid7.rank :=
  Pipeline.WinSpec.ofSpec (Memref.whole main_v7) S1x64.size reads7_4 false true 1 stage7_4 sem7_4 nbuf7_4 hstage7_4

abbrev spec7_5 : Pipeline.WinSpec sig grid7.rank :=
  Pipeline.WinSpec.ofSpec (Memref.whole main_v34_1) S1x64.size reads7_5 true true 1 stage7_5 sem7_5 nbuf7_5 hstage7_5

abbrev spec7_6 : Pipeline.WinSpec sig grid7.rank :=
  Pipeline.WinSpec.ofSpec (Memref.whole main_v34_2) S1x64.size reads7_6 true true 1 stage7_6 sem7_6 nbuf7_6 hstage7_6

abbrev spec7 : Fin 7 → Pipeline.WinSpec sig grid7.rank := fun | 0 => spec7_0 | 1 => spec7_1 | 2 => spec7_2 | 3 => spec7_3 | 4 => spec7_4 | 5 => spec7_5 | 6 => spec7_6 | ⟨_ + 7, h⟩ => absurd h (Nat.not_lt.2 (Nat.le_add_left _ _))
theorem hcount7 : ∀ w, grid7.bufCount (spec7 w).reads (spec7 w).sync = (spec7 w).nbuf := fun | 0 => nbuf7_0 | 1 => nbuf7_1 | 2 => nbuf7_2 | 3 => nbuf7_3 | 4 => nbuf7_4 | 5 => nbuf7_5 | 6 => nbuf7_6 | ⟨_ + 7, h⟩ => absurd h (Nat.not_lt.2 (Nat.le_add_left _ _))
abbrev ix7 (pf : pre7.Contents (Elt F)) : (w : Fin 7) → grid7.Coords → Fin (spec7 w).shape.rank → Nat := fun | 0 => cc7_transform_1 | 1 => cc7_transform_2 | 2 => cc7_transform_3 | 3 => cc7_transform_4 | 4 => cc7_transform_5 | 5 => cc7_transform_7 | 6 => cc7_transform_8 | ⟨_ + 7, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 | 1 => hreads7_1 | 2 => hreads7_2 | 3 => hreads7_3 | 4 => hreads7_4 | 5 => hreads7_5 | 6 => hreads7_6 | ⟨_ + 7, h⟩ => absurd h (Nat.not_lt.2 (Nat.le_add_left _ _))
def ok7 (_ : pre7.Contents (Elt F)) : Prop :=
  True
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun _ _ => fun | 0 => hinb7_0 | 1 => hinb7_1 | 2 => hinb7_2 | 3 => hinb7_3 | 4 => hinb7_4 | 5 => hinb7_5 | 6 => hinb7_6 | ⟨_ + 7, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun _ _ => fun | 0 => hwx7_0 | 1 => hwx7_1 | 2 => hwx7_2 | 3 => hwx7_3 | 4 => hwx7_4 | 5 => hwx7_5 | 6 => hwx7_6 | ⟨_ + 7, h⟩ => absurd h (Nat.not_lt.2 (Nat.le_add_left _ _))
abbrev spec8_0 : Pipeline.WinSpec sig grid8.rank :=
  Pipeline.WinSpec.ofSpec (Memref.whole main_v4) S64x128.size reads8_0 false true 1 stage8_0 sem8_0 nbuf8_0 hstage8_0

abbrev spec8_1 : Pipeline.WinSpec sig grid8.rank :=
  Pipeline.WinSpec.ofSpec (Memref.whole main_v5) S64x128.size reads8_1 false true 1 stage8_1 sem8_1 nbuf8_1 hstage8_1

abbrev spec8_2 : Pipeline.WinSpec sig grid8.rank :=
  Pipeline.WinSpec.ofSpec (Memref.whole main_v6) S1x64.size reads8_2 false true 1 stage8_2 sem8_2 nbuf8_2 hstage8_2

abbrev spec8_3 : Pipeline.WinSpec sig grid8.rank :=
  Pipeline.WinSpec.ofSpec (Memref.whole main_arg4) S64x64.size reads8_3 false true 1 stage8_3 sem8_3 nbuf8_3 hstage8_3

abbrev spec8_4 : Pipeline.WinSpec sig grid8.rank :=
  Pipeline.WinSpec.ofSpec (Memref.whole main_v7) S1x64.size reads8_4 false true 1 stage8_4 sem8_4 nbuf8_4 hstage8_4

abbrev spec8_5 : Pipeline.WinSpec sig grid8.rank :=
  Pipeline.WinSpec.ofSpec (Memref.whole main_v37_1) S1x64.size reads8_5 true true 1 stage8_5 sem8_5 nbuf8_5 hstage8_5

abbrev spec8_6 : Pipeline.WinSpec sig grid8.rank :=
  Pipeline.WinSpec.ofSpec (Memref.whole main_v37_2) S1x64.size reads8_6 true true 1 stage8_6 sem8_6 nbuf8_6 hstage8_6

abbrev spec8 : Fin 7 → Pipeline.WinSpec sig grid8.rank := fun | 0 => spec8_0 | 1 => spec8_1 | 2 => spec8_2 | 3 => spec8_3 | 4 => spec8_4 | 5 => spec8_5 | 6 => spec8_6 | ⟨_ + 7, h⟩ => absurd h (Nat.not_lt.2 (Nat.le_add_left _ _))
theorem hcount8 : ∀ w, grid8.bufCount (spec8 w).reads (spec8 w).sync = (spec8 w).nbuf := fun | 0 => nbuf8_0 | 1 => nbuf8_1 | 2 => nbuf8_2 | 3 => nbuf8_3 | 4 => nbuf8_4 | 5 => nbuf8_5 | 6 => nbuf8_6 | ⟨_ + 7, h⟩ => absurd h (Nat.not_lt.2 (Nat.le_add_left _ _))
abbrev ix8 (pf : pre8.Contents (Elt F)) : (w : Fin 7) → grid8.Coords → Fin (spec8 w).shape.rank → Nat := fun | 0 => cc8_transform_1 | 1 => cc8_transform_2 | 2 => cc8_transform_3 | 3 => cc8_transform_4 | 4 => cc8_transform_5 | 5 => cc8_transform_7 | 6 => cc8_transform_8 | ⟨_ + 7, h⟩ => absurd h (Nat.not_lt.2 (Nat.le_add_left _ _))
theorem hreads8 : ∀ (pf : pre8.Contents (Elt F)) w (i i' : grid8.Coords), (∀ a, (spec8 w).reads a = true → i a = i' a) → ix8 pf w i = ix8 pf w i' := fun pf => fun | 0 => hreads8_0 | 1 => hreads8_1 | 2 => hreads8_2 | 3 => hreads8_3 | 4 => hreads8_4 | 5 => hreads8_5 | 6 => hreads8_6 | ⟨_ + 7, h⟩ => absurd h (Nat.not_lt.2 (Nat.le_add_left _ _))
def ok8 (_ : pre8.Contents (Elt F)) : Prop :=
  True
instance (pf : pre8.Contents (Elt F)) : Decidable (ok8 pf) := decidable_of_iff' _ (Iff.of_eq (ok8.eq_1 pf))
theorem hinb8 : ∀ (pf : pre8.Contents (Elt F)), ok8 pf → ∀ w (i : grid8.Coords) a, (ix8 pf w i a + 1) * (spec8 w).size a ≤ (spec8 w).shape.size a :=
  fun _ _ => fun | 0 => hinb8_0 | 1 => hinb8_1 | 2 => hinb8_2 | 3 => hinb8_3 | 4 => hinb8_4 | 5 => hinb8_5 | 6 => hinb8_6 | ⟨_ + 7, h⟩ => absurd h (Nat.not_lt.2 (Nat.le_add_left _ _))
theorem hwx8 : ∀ (pf : pre8.Contents (Elt F)) (hok : ok8 pf) w (i : grid8.Coords), (spec8 w).elt.bits = 32 ∨ (Rect.block (spec8 w).size (ix8 pf w i) (hinb8 pf hok w i)).WholeWords (spec8 w).elt.packing :=
  fun _ _ => fun | 0 => hwx8_0 | 1 => hwx8_1 | 2 => hwx8_2 | 3 => hwx8_3 | 4 => hwx8_4 | 5 => hwx8_5 | 6 => hwx8_6 | ⟨_ + 7, h⟩ => absurd h (Nat.not_lt.2 (Nat.le_add_left _ _))
abbrev spec9_0 : Pipeline.WinSpec sig grid9.rank :=
  Pipeline.WinSpec.ofSpec (Memref.whole main_v4) S64x128.size reads9_0 false true 1 stage9_0 sem9_0 nbuf9_0 hstage9_0

abbrev spec9_1 : Pipeline.WinSpec sig grid9.rank :=
  Pipeline.WinSpec.ofSpec (Memref.whole main_v5) S64x128.size reads9_1 false true 1 stage9_1 sem9_1 nbuf9_1 hstage9_1

abbrev spec9_2 : Pipeline.WinSpec sig grid9.rank :=
  Pipeline.WinSpec.ofSpec (Memref.whole main_v6) S1x64.size reads9_2 false true 1 stage9_2 sem9_2 nbuf9_2 hstage9_2

abbrev spec9_3 : Pipeline.WinSpec sig grid9.rank :=
  Pipeline.WinSpec.ofSpec (Memref.whole main_arg4) S64x64.size reads9_3 false true 1 stage9_3 sem9_3 nbuf9_3 hstage9_3

abbrev spec9_4 : Pipeline.WinSpec sig grid9.rank :=
  Pipeline.WinSpec.ofSpec (Memref.whole main_v7) S1x64.size reads9_4 false true 1 stage9_4 sem9_4 nbuf9_4 hstage9_4

abbrev spec9_5 : Pipeline.WinSpec sig grid9.rank :=
  Pipeline.WinSpec.ofSpec (Memref.whole main_v40_1) S1x64.size reads9_5 true true 1 stage9_5 sem9_5 nbuf9_5 hstage9_5

abbrev spec9_6 : Pipeline.WinSpec sig grid9.rank :=
  Pipeline.WinSpec.ofSpec (Memref.whole main_v40_2) S1x64.size reads9_6 true true 1 stage9_6 sem9_6 nbuf9_6 hstage9_6

abbrev spec9 : Fin 7 → Pipeline.WinSpec sig grid9.rank := fun | 0 => spec9_0 | 1 => spec9_1 | 2 => spec9_2 | 3 => spec9_3 | 4 => spec9_4 | 5 => spec9_5 | 6 => spec9_6 | ⟨_ + 7, h⟩ => absurd h (Nat.not_lt.2 (Nat.le_add_left _ _))
theorem hcount9 : ∀ w, grid9.bufCount (spec9 w).reads (spec9 w).sync = (spec9 w).nbuf := fun | 0 => nbuf9_0 | 1 => nbuf9_1 | 2 => nbuf9_2 | 3 => nbuf9_3 | 4 => nbuf9_4 | 5 => nbuf9_5 | 6 => nbuf9_6 | ⟨_ + 7, h⟩ => absurd h (Nat.not_lt.2 (Nat.le_add_left _ _))
abbrev ix9 (pf : pre9.Contents (Elt F)) : (w : Fin 7) → grid9.Coords → Fin (spec9 w).shape.rank → Nat := fun | 0 => cc9_transform_1 | 1 => cc9_transform_2 | 2 => cc9_transform_3 | 3 => cc9_transform_4 | 4 => cc9_transform_5 | 5 => cc9_transform_7 | 6 => cc9_transform_8 | ⟨_ + 7, h⟩ => absurd h (Nat.not_lt.2 (Nat.le_add_left _ _))
theorem hreads9 : ∀ (pf : pre9.Contents (Elt F)) w (i i' : grid9.Coords), (∀ a, (spec9 w).reads a = true → i a = i' a) → ix9 pf w i = ix9 pf w i' := fun pf => fun | 0 => hreads9_0 | 1 => hreads9_1 | 2 => hreads9_2 | 3 => hreads9_3 | 4 => hreads9_4 | 5 => hreads9_5 | 6 => hreads9_6 | ⟨_ + 7, h⟩ => absurd h (Nat.not_lt.2 (Nat.le_add_left _ _))
def ok9 (_ : pre9.Contents (Elt F)) : Prop :=
  True
instance (pf : pre9.Contents (Elt F)) : Decidable (ok9 pf) := decidable_of_iff' _ (Iff.of_eq (ok9.eq_1 pf))
theorem hinb9 : ∀ (pf : pre9.Contents (Elt F)), ok9 pf → ∀ w (i : grid9.Coords) a, (ix9 pf w i a + 1) * (spec9 w).size a ≤ (spec9 w).shape.size a :=
  fun _ _ => fun | 0 => hinb9_0 | 1 => hinb9_1 | 2 => hinb9_2 | 3 => hinb9_3 | 4 => hinb9_4 | 5 => hinb9_5 | 6 => hinb9_6 | ⟨_ + 7, h⟩ => absurd h (Nat.not_lt.2 (Nat.le_add_left _ _))
theorem hwx9 : ∀ (pf : pre9.Contents (Elt F)) (hok : ok9 pf) w (i : grid9.Coords), (spec9 w).elt.bits = 32 ∨ (Rect.block (spec9 w).size (ix9 pf w i) (hinb9 pf hok w i)).WholeWords (spec9 w).elt.packing :=
  fun _ _ => fun | 0 => hwx9_0 | 1 => hwx9_1 | 2 => hwx9_2 | 3 => hwx9_3 | 4 => hwx9_4 | 5 => hwx9_5 | 6 => hwx9_6 | ⟨_ + 7, h⟩ => absurd h (Nat.not_lt.2 (Nat.le_add_left _ _))
abbrev spec10_0 : Pipeline.WinSpec sig grid10.rank :=
  Pipeline.WinSpec.ofSpec (Memref.whole main_v4) S64x128.size reads10_0 false true 1 stage10_0 sem10_0 nbuf10_0 hstage10_0

abbrev spec10_1 : Pipeline.WinSpec sig grid10.rank :=
  Pipeline.WinSpec.ofSpec (Memref.whole main_v5) S64x128.size reads10_1 false true 1 stage10_1 sem10_1 nbuf10_1 hstage10_1

abbrev spec10_2 : Pipeline.WinSpec sig grid10.rank :=
  Pipeline.WinSpec.ofSpec (Memref.whole main_v6) S1x64.size reads10_2 false true 1 stage10_2 sem10_2 nbuf10_2 hstage10_2

abbrev spec10_3 : Pipeline.WinSpec sig grid10.rank :=
  Pipeline.WinSpec.ofSpec (Memref.whole main_arg4) S64x64.size reads10_3 false true 1 stage10_3 sem10_3 nbuf10_3 hstage10_3

abbrev spec10_4 : Pipeline.WinSpec sig grid10.rank :=
  Pipeline.WinSpec.ofSpec (Memref.whole main_v7) S1x64.size reads10_4 false true 1 stage10_4 sem10_4 nbuf10_4 hstage10_4

abbrev spec10_5 : Pipeline.WinSpec sig grid10.rank :=
  Pipeline.WinSpec.ofSpec (Memref.whole main_v43_1) S1x64.size reads10_5 true true 1 stage10_5 sem10_5 nbuf10_5 hstage10_5

abbrev spec10_6 : Pipeline.WinSpec sig grid10.rank :=
  Pipeline.WinSpec.ofSpec (Memref.whole main_v43_2) S1x64.size reads10_6 true true 1 stage10_6 sem10_6 nbuf10_6 hstage10_6

abbrev spec10 : Fin 7 → Pipeline.WinSpec sig grid10.rank := fun | 0 => spec10_0 | 1 => spec10_1 | 2 => spec10_2 | 3 => spec10_3 | 4 => spec10_4 | 5 => spec10_5 | 6 => spec10_6 | ⟨_ + 7, h⟩ => absurd h (Nat.not_lt.2 (Nat.le_add_left _ _))
theorem hcount10 : ∀ w, grid10.bufCount (spec10 w).reads (spec10 w).sync = (spec10 w).nbuf := fun | 0 => nbuf10_0 | 1 => nbuf10_1 | 2 => nbuf10_2 | 3 => nbuf10_3 | 4 => nbuf10_4 | 5 => nbuf10_5 | 6 => nbuf10_6 | ⟨_ + 7, h⟩ => absurd h (Nat.not_lt.2 (Nat.le_add_left _ _))
abbrev ix10 (pf : pre10.Contents (Elt F)) : (w : Fin 7) → grid10.Coords → Fin (spec10 w).shape.rank → Nat := fun | 0 => cc10_transform_1 | 1 => cc10_transform_2 | 2 => cc10_transform_3 | 3 => cc10_transform_4 | 4 => cc10_transform_5 | 5 => cc10_transform_7 | 6 => cc10_transform_8 | ⟨_ + 7, h⟩ => absurd h (Nat.not_lt.2 (Nat.le_add_left _ _))
theorem hreads10 : ∀ (pf : pre10.Contents (Elt F)) w (i i' : grid10.Coords), (∀ a, (spec10 w).reads a = true → i a = i' a) → ix10 pf w i = ix10 pf w i' := fun pf => fun | 0 => hreads10_0 | 1 => hreads10_1 | 2 => hreads10_2 | 3 => hreads10_3 | 4 => hreads10_4 | 5 => hreads10_5 | 6 => hreads10_6 | ⟨_ + 7, h⟩ => absurd h (Nat.not_lt.2 (Nat.le_add_left _ _))
def ok10 (_ : pre10.Contents (Elt F)) : Prop :=
  True
instance (pf : pre10.Contents (Elt F)) : Decidable (ok10 pf) := decidable_of_iff' _ (Iff.of_eq (ok10.eq_1 pf))
theorem hinb10 : ∀ (pf : pre10.Contents (Elt F)), ok10 pf → ∀ w (i : grid10.Coords) a, (ix10 pf w i a + 1) * (spec10 w).size a ≤ (spec10 w).shape.size a :=
  fun _ _ => fun | 0 => hinb10_0 | 1 => hinb10_1 | 2 => hinb10_2 | 3 => hinb10_3 | 4 => hinb10_4 | 5 => hinb10_5 | 6 => hinb10_6 | ⟨_ + 7, h⟩ => absurd h (Nat.not_lt.2 (Nat.le_add_left _ _))
theorem hwx10 : ∀ (pf : pre10.Contents (Elt F)) (hok : ok10 pf) w (i : grid10.Coords), (spec10 w).elt.bits = 32 ∨ (Rect.block (spec10 w).size (ix10 pf w i) (hinb10 pf hok w i)).WholeWords (spec10 w).elt.packing :=
  fun _ _ => fun | 0 => hwx10_0 | 1 => hwx10_1 | 2 => hwx10_2 | 3 => hwx10_3 | 4 => hwx10_4 | 5 => hwx10_5 | 6 => hwx10_6 | ⟨_ + 7, h⟩ => absurd h (Nat.not_lt.2 (Nat.le_add_left _ _))
abbrev spec11_0 : Pipeline.WinSpec sig grid11.rank :=
  Pipeline.WinSpec.ofSpec (Memref.whole main_v4) S64x128.size reads11_0 false true 1 stage11_0 sem11_0 nbuf11_0 hstage11_0

abbrev spec11_1 : Pipeline.WinSpec sig grid11.rank :=
  Pipeline.WinSpec.ofSpec (Memref.whole main_v5) S64x128.size reads11_1 false true 1 stage11_1 sem11_1 nbuf11_1 hstage11_1

abbrev spec11_2 : Pipeline.WinSpec sig grid11.rank :=
  Pipeline.WinSpec.ofSpec (Memref.whole main_v6) S1x64.size reads11_2 false true 1 stage11_2 sem11_2 nbuf11_2 hstage11_2

abbrev spec11_3 : Pipeline.WinSpec sig grid11.rank :=
  Pipeline.WinSpec.ofSpec (Memref.whole main_arg4) S64x64.size reads11_3 false true 1 stage11_3 sem11_3 nbuf11_3 hstage11_3

abbrev spec11_4 : Pipeline.WinSpec sig grid11.rank :=
  Pipeline.WinSpec.ofSpec (Memref.whole main_v7) S1x64.size reads11_4 false true 1 stage11_4 sem11_4 nbuf11_4 hstage11_4

abbrev spec11_5 : Pipeline.WinSpec sig grid11.rank :=
  Pipeline.WinSpec.ofSpec (Memref.whole main_v46_1) S1x64.size reads11_5 true true 1 stage11_5 sem11_5 nbuf11_5 hstage11_5

abbrev spec11_6 : Pipeline.WinSpec sig grid11.rank :=
  Pipeline.WinSpec.ofSpec (Memref.whole main_v46_2) S1x64.size reads11_6 true true 1 stage11_6 sem11_6 nbuf11_6 hstage11_6

abbrev spec11 : Fin 7 → Pipeline.WinSpec sig grid11.rank := fun | 0 => spec11_0 | 1 => spec11_1 | 2 => spec11_2 | 3 => spec11_3 | 4 => spec11_4 | 5 => spec11_5 | 6 => spec11_6 | ⟨_ + 7, h⟩ => absurd h (Nat.not_lt.2 (Nat.le_add_left _ _))
theorem hcount11 : ∀ w, grid11.bufCount (spec11 w).reads (spec11 w).sync = (spec11 w).nbuf := fun | 0 => nbuf11_0 | 1 => nbuf11_1 | 2 => nbuf11_2 | 3 => nbuf11_3 | 4 => nbuf11_4 | 5 => nbuf11_5 | 6 => nbuf11_6 | ⟨_ + 7, h⟩ => absurd h (Nat.not_lt.2 (Nat.le_add_left _ _))
abbrev ix11 (pf : pre11.Contents (Elt F)) : (w : Fin 7) → grid11.Coords → Fin (spec11 w).shape.rank → Nat := fun | 0 => cc11_transform_1 | 1 => cc11_transform_2 | 2 => cc11_transform_3 | 3 => cc11_transform_4 | 4 => cc11_transform_5 | 5 => cc11_transform_7 | 6 => cc11_transform_8 | ⟨_ + 7, h⟩ => absurd h (Nat.not_lt.2 (Nat.le_add_left _ _))
theorem hreads11 : ∀ (pf : pre11.Contents (Elt F)) w (i i' : grid11.Coords), (∀ a, (spec11 w).reads a = true → i a = i' a) → ix11 pf w i = ix11 pf w i' := fun pf => fun | 0 => hreads11_0 | 1 => hreads11_1 | 2 => hreads11_2 | 3 => hreads11_3 | 4 => hreads11_4 | 5 => hreads11_5 | 6 => hreads11_6 | ⟨_ + 7, h⟩ => absurd h (Nat.not_lt.2 (Nat.le_add_left _ _))
def ok11 (_ : pre11.Contents (Elt F)) : Prop :=
  True
instance (pf : pre11.Contents (Elt F)) : Decidable (ok11 pf) := decidable_of_iff' _ (Iff.of_eq (ok11.eq_1 pf))
theorem hinb11 : ∀ (pf : pre11.Contents (Elt F)), ok11 pf → ∀ w (i : grid11.Coords) a, (ix11 pf w i a + 1) * (spec11 w).size a ≤ (spec11 w).shape.size a :=
  fun _ _ => fun | 0 => hinb11_0 | 1 => hinb11_1 | 2 => hinb11_2 | 3 => hinb11_3 | 4 => hinb11_4 | 5 => hinb11_5 | 6 => hinb11_6 | ⟨_ + 7, h⟩ => absurd h (Nat.not_lt.2 (Nat.le_add_left _ _))
theorem hwx11 : ∀ (pf : pre11.Contents (Elt F)) (hok : ok11 pf) w (i : grid11.Coords), (spec11 w).elt.bits = 32 ∨ (Rect.block (spec11 w).size (ix11 pf w i) (hinb11 pf hok w i)).WholeWords (spec11 w).elt.packing :=
  fun _ _ => fun | 0 => hwx11_0 | 1 => hwx11_1 | 2 => hwx11_2 | 3 => hwx11_3 | 4 => hwx11_4 | 5 => hwx11_5 | 6 => hwx11_6 | ⟨_ + 7, h⟩ => absurd h (Nat.not_lt.2 (Nat.le_add_left _ _))
abbrev spec12_0 : Pipeline.WinSpec sig grid12.rank :=
  Pipeline.WinSpec.ofSpec (Memref.whole main_v4) S64x128.size reads12_0 false true 1 stage12_0 sem12_0 nbuf12_0 hstage12_0

abbrev spec12_1 : Pipeline.WinSpec sig grid12.rank :=
  Pipeline.WinSpec.ofSpec (Memref.whole main_v5) S64x128.size reads12_1 false true 1 stage12_1 sem12_1 nbuf12_1 hstage12_1

abbrev spec12_2 : Pipeline.WinSpec sig grid12.rank :=
  Pipeline.WinSpec.ofSpec (Memref.whole main_v6) S1x64.size reads12_2 false true 1 stage12_2 sem12_2 nbuf12_2 hstage12_2

abbrev spec12_3 : Pipeline.WinSpec sig grid12.rank :=
  Pipeline.WinSpec.ofSpec (Memref.whole main_arg4) S64x64.size reads12_3 false true 1 stage12_3 sem12_3 nbuf12_3 hstage12_3

abbrev spec12_4 : Pipeline.WinSpec sig grid12.rank :=
  Pipeline.WinSpec.ofSpec (Memref.whole main_v7) S1x64.size reads12_4 false true 1 stage12_4 sem12_4 nbuf12_4 hstage12_4

abbrev spec12_5 : Pipeline.WinSpec sig grid12.rank :=
  Pipeline.WinSpec.ofSpec (Memref.whole main_v49_1) S1x64.size reads12_5 true true 1 stage12_5 sem12_5 nbuf12_5 hstage12_5

abbrev spec12_6 : Pipeline.WinSpec sig grid12.rank :=
  Pipeline.WinSpec.ofSpec (Memref.whole main_v49_2) S1x64.size reads12_6 true true 1 stage12_6 sem12_6 nbuf12_6 hstage12_6

abbrev spec12 : Fin 7 → Pipeline.WinSpec sig grid12.rank := fun | 0 => spec12_0 | 1 => spec12_1 | 2 => spec12_2 | 3 => spec12_3 | 4 => spec12_4 | 5 => spec12_5 | 6 => spec12_6 | ⟨_ + 7, h⟩ => absurd h (Nat.not_lt.2 (Nat.le_add_left _ _))
theorem hcount12 : ∀ w, grid12.bufCount (spec12 w).reads (spec12 w).sync = (spec12 w).nbuf := fun | 0 => nbuf12_0 | 1 => nbuf12_1 | 2 => nbuf12_2 | 3 => nbuf12_3 | 4 => nbuf12_4 | 5 => nbuf12_5 | 6 => nbuf12_6 | ⟨_ + 7, h⟩ => absurd h (Nat.not_lt.2 (Nat.le_add_left _ _))
abbrev ix12 (pf : pre12.Contents (Elt F)) : (w : Fin 7) → grid12.Coords → Fin (spec12 w).shape.rank → Nat := fun | 0 => cc12_transform_1 | 1 => cc12_transform_2 | 2 => cc12_transform_3 | 3 => cc12_transform_4 | 4 => cc12_transform_5 | 5 => cc12_transform_7 | 6 => cc12_transform_8 | ⟨_ + 7, h⟩ => absurd h (Nat.not_lt.2 (Nat.le_add_left _ _))
theorem hreads12 : ∀ (pf : pre12.Contents (Elt F)) w (i i' : grid12.Coords), (∀ a, (spec12 w).reads a = true → i a = i' a) → ix12 pf w i = ix12 pf w i' := fun pf => fun | 0 => hreads12_0 | 1 => hreads12_1 | 2 => hreads12_2 | 3 => hreads12_3 | 4 => hreads12_4 | 5 => hreads12_5 | 6 => hreads12_6 | ⟨_ + 7, h⟩ => absurd h (Nat.not_lt.2 (Nat.le_add_left _ _))
def ok12 (_ : pre12.Contents (Elt F)) : Prop :=
  True
instance (pf : pre12.Contents (Elt F)) : Decidable (ok12 pf) := decidable_of_iff' _ (Iff.of_eq (ok12.eq_1 pf))
theorem hinb12 : ∀ (pf : pre12.Contents (Elt F)), ok12 pf → ∀ w (i : grid12.Coords) a, (ix12 pf w i a + 1) * (spec12 w).size a ≤ (spec12 w).shape.size a :=
  fun _ _ => fun | 0 => hinb12_0 | 1 => hinb12_1 | 2 => hinb12_2 | 3 => hinb12_3 | 4 => hinb12_4 | 5 => hinb12_5 | 6 => hinb12_6 | ⟨_ + 7, h⟩ => absurd h (Nat.not_lt.2 (Nat.le_add_left _ _))
theorem hwx12 : ∀ (pf : pre12.Contents (Elt F)) (hok : ok12 pf) w (i : grid12.Coords), (spec12 w).elt.bits = 32 ∨ (Rect.block (spec12 w).size (ix12 pf w i) (hinb12 pf hok w i)).WholeWords (spec12 w).elt.packing :=
  fun _ _ => fun | 0 => hwx12_0 | 1 => hwx12_1 | 2 => hwx12_2 | 3 => hwx12_3 | 4 => hwx12_4 | 5 => hwx12_5 | 6 => hwx12_6 | ⟨_ + 7, h⟩ => absurd h (Nat.not_lt.2 (Nat.le_add_left _ _))
abbrev spec13_0 : Pipeline.WinSpec sig grid13.rank :=
  Pipeline.WinSpec.ofSpec (Memref.whole main_v4) S64x128.size reads13_0 false true 1 stage13_0 sem13_0 nbuf13_0 hstage13_0

abbrev spec13_1 : Pipeline.WinSpec sig grid13.rank :=
  Pipeline.WinSpec.ofSpec (Memref.whole main_v5) S64x128.size reads13_1 false true 1 stage13_1 sem13_1 nbuf13_1 hstage13_1

abbrev spec13_2 : Pipeline.WinSpec sig grid13.rank :=
  Pipeline.WinSpec.ofSpec (Memref.whole main_v6) S1x64.size reads13_2 false true 1 stage13_2 sem13_2 nbuf13_2 hstage13_2

abbrev spec13_3 : Pipeline.WinSpec sig grid13.rank :=
  Pipeline.WinSpec.ofSpec (Memref.whole main_arg4) S64x64.size reads13_3 false true 1 stage13_3 sem13_3 nbuf13_3 hstage13_3

abbrev spec13_4 : Pipeline.WinSpec sig grid13.rank :=
  Pipeline.WinSpec.ofSpec (Memref.whole main_v7) S1x64.size reads13_4 false true 1 stage13_4 sem13_4 nbuf13_4 hstage13_4

abbrev spec13_5 : Pipeline.WinSpec sig grid13.rank :=
  Pipeline.WinSpec.ofSpec (Memref.whole main_v52_1) S1x64.size reads13_5 true true 1 stage13_5 sem13_5 nbuf13_5 hstage13_5

abbrev spec13_6 : Pipeline.WinSpec sig grid13.rank :=
  Pipeline.WinSpec.ofSpec (Memref.whole main_v52_2) S1x64.size reads13_6 true true 1 stage13_6 sem13_6 nbuf13_6 hstage13_6

abbrev spec13 : Fin 7 → Pipeline.WinSpec sig grid13.rank := fun | 0 => spec13_0 | 1 => spec13_1 | 2 => spec13_2 | 3 => spec13_3 | 4 => spec13_4 | 5 => spec13_5 | 6 => spec13_6 | ⟨_ + 7, h⟩ => absurd h (Nat.not_lt.2 (Nat.le_add_left _ _))
theorem hcount13 : ∀ w, grid13.bufCount (spec13 w).reads (spec13 w).sync = (spec13 w).nbuf := fun | 0 => nbuf13_0 | 1 => nbuf13_1 | 2 => nbuf13_2 | 3 => nbuf13_3 | 4 => nbuf13_4 | 5 => nbuf13_5 | 6 => nbuf13_6 | ⟨_ + 7, h⟩ => absurd h (Nat.not_lt.2 (Nat.le_add_left _ _))
abbrev ix13 (pf : pre13.Contents (Elt F)) : (w : Fin 7) → grid13.Coords → Fin (spec13 w).shape.rank → Nat := fun | 0 => cc13_transform_1 | 1 => cc13_transform_2 | 2 => cc13_transform_3 | 3 => cc13_transform_4 | 4 => cc13_transform_5 | 5 => cc13_transform_7 | 6 => cc13_transform_8 | ⟨_ + 7, h⟩ => absurd h (Nat.not_lt.2 (Nat.le_add_left _ _))
theorem hreads13 : ∀ (pf : pre13.Contents (Elt F)) w (i i' : grid13.Coords), (∀ a, (spec13 w).reads a = true → i a = i' a) → ix13 pf w i = ix13 pf w i' := fun pf => fun | 0 => hreads13_0 | 1 => hreads13_1 | 2 => hreads13_2 | 3 => hreads13_3 | 4 => hreads13_4 | 5 => hreads13_5 | 6 => hreads13_6 | ⟨_ + 7, h⟩ => absurd h (Nat.not_lt.2 (Nat.le_add_left _ _))
def ok13 (_ : pre13.Contents (Elt F)) : Prop :=
  True
instance (pf : pre13.Contents (Elt F)) : Decidable (ok13 pf) := decidable_of_iff' _ (Iff.of_eq (ok13.eq_1 pf))
theorem hinb13 : ∀ (pf : pre13.Contents (Elt F)), ok13 pf → ∀ w (i : grid13.Coords) a, (ix13 pf w i a + 1) * (spec13 w).size a ≤ (spec13 w).shape.size a :=
  fun _ _ => fun | 0 => hinb13_0 | 1 => hinb13_1 | 2 => hinb13_2 | 3 => hinb13_3 | 4 => hinb13_4 | 5 => hinb13_5 | 6 => hinb13_6 | ⟨_ + 7, h⟩ => absurd h (Nat.not_lt.2 (Nat.le_add_left _ _))
theorem hwx13 : ∀ (pf : pre13.Contents (Elt F)) (hok : ok13 pf) w (i : grid13.Coords), (spec13 w).elt.bits = 32 ∨ (Rect.block (spec13 w).size (ix13 pf w i) (hinb13 pf hok w i)).WholeWords (spec13 w).elt.packing :=
  fun _ _ => fun | 0 => hwx13_0 | 1 => hwx13_1 | 2 => hwx13_2 | 3 => hwx13_3 | 4 => hwx13_4 | 5 => hwx13_5 | 6 => hwx13_6 | ⟨_ + 7, h⟩ => absurd h (Nat.not_lt.2 (Nat.le_add_left _ _))
abbrev spec14_0 : Pipeline.WinSpec sig grid14.rank :=
  Pipeline.WinSpec.ofSpec (Memref.whole main_v4) S64x128.size reads14_0 false true 1 stage14_0 sem14_0 nbuf14_0 hstage14_0

abbrev spec14_1 : Pipeline.WinSpec sig grid14.rank :=
  Pipeline.WinSpec.ofSpec (Memref.whole main_v5) S64x128.size reads14_1 false true 1 stage14_1 sem14_1 nbuf14_1 hstage14_1

abbrev spec14_2 : Pipeline.WinSpec sig grid14.rank :=
  Pipeline.WinSpec.ofSpec (Memref.whole main_v6) S1x64.size reads14_2 false true 1 stage14_2 sem14_2 nbuf14_2 hstage14_2

abbrev spec14_3 : Pipeline.WinSpec sig grid14.rank :=
  Pipeline.WinSpec.ofSpec (Memref.whole main_arg4) S64x64.size reads14_3 false true 1 stage14_3 sem14_3 nbuf14_3 hstage14_3

abbrev spec14_4 : Pipeline.WinSpec sig grid14.rank :=
  Pipeline.WinSpec.ofSpec (Memref.whole main_v7) S1x64.size reads14_4 false true 1 stage14_4 sem14_4 nbuf14_4 hstage14_4

abbrev spec14_5 : Pipeline.WinSpec sig grid14.rank :=
  Pipeline.WinSpec.ofSpec (Memref.whole main_v55_1) S1x64.size reads14_5 true true 1 stage14_5 sem14_5 nbuf14_5 hstage14_5

abbrev spec14_6 : Pipeline.WinSpec sig grid14.rank :=
  Pipeline.WinSpec.ofSpec (Memref.whole main_v55_2) S1x64.size reads14_6 true true 1 stage14_6 sem14_6 nbuf14_6 hstage14_6

abbrev spec14 : Fin 7 → Pipeline.WinSpec sig grid14.rank := fun | 0 => spec14_0 | 1 => spec14_1 | 2 => spec14_2 | 3 => spec14_3 | 4 => spec14_4 | 5 => spec14_5 | 6 => spec14_6 | ⟨_ + 7, h⟩ => absurd h (Nat.not_lt.2 (Nat.le_add_left _ _))
theorem hcount14 : ∀ w, grid14.bufCount (spec14 w).reads (spec14 w).sync = (spec14 w).nbuf := fun | 0 => nbuf14_0 | 1 => nbuf14_1 | 2 => nbuf14_2 | 3 => nbuf14_3 | 4 => nbuf14_4 | 5 => nbuf14_5 | 6 => nbuf14_6 | ⟨_ + 7, h⟩ => absurd h (Nat.not_lt.2 (Nat.le_add_left _ _))
abbrev ix14 (pf : pre14.Contents (Elt F)) : (w : Fin 7) → grid14.Coords → Fin (spec14 w).shape.rank → Nat := fun | 0 => cc14_transform_1 | 1 => cc14_transform_2 | 2 => cc14_transform_3 | 3 => cc14_transform_4 | 4 => cc14_transform_5 | 5 => cc14_transform_7 | 6 => cc14_transform_8 | ⟨_ + 7, h⟩ => absurd h (Nat.not_lt.2 (Nat.le_add_left _ _))
theorem hreads14 : ∀ (pf : pre14.Contents (Elt F)) w (i i' : grid14.Coords), (∀ a, (spec14 w).reads a = true → i a = i' a) → ix14 pf w i = ix14 pf w i' := fun pf => fun | 0 => hreads14_0 | 1 => hreads14_1 | 2 => hreads14_2 | 3 => hreads14_3 | 4 => hreads14_4 | 5 => hreads14_5 | 6 => hreads14_6 | ⟨_ + 7, h⟩ => absurd h (Nat.not_lt.2 (Nat.le_add_left _ _))
def ok14 (_ : pre14.Contents (Elt F)) : Prop :=
  True
instance (pf : pre14.Contents (Elt F)) : Decidable (ok14 pf) := decidable_of_iff' _ (Iff.of_eq (ok14.eq_1 pf))
theorem hinb14 : ∀ (pf : pre14.Contents (Elt F)), ok14 pf → ∀ w (i : grid14.Coords) a, (ix14 pf w i a + 1) * (spec14 w).size a ≤ (spec14 w).shape.size a :=
  fun _ _ => fun | 0 => hinb14_0 | 1 => hinb14_1 | 2 => hinb14_2 | 3 => hinb14_3 | 4 => hinb14_4 | 5 => hinb14_5 | 6 => hinb14_6 | ⟨_ + 7, h⟩ => absurd h (Nat.not_lt.2 (Nat.le_add_left _ _))
theorem hwx14 : ∀ (pf : pre14.Contents (Elt F)) (hok : ok14 pf) w (i : grid14.Coords), (spec14 w).elt.bits = 32 ∨ (Rect.block (spec14 w).size (ix14 pf w i) (hinb14 pf hok w i)).WholeWords (spec14 w).elt.packing :=
  fun _ _ => fun | 0 => hwx14_0 | 1 => hwx14_1 | 2 => hwx14_2 | 3 => hwx14_3 | 4 => hwx14_4 | 5 => hwx14_5 | 6 => hwx14_6 | ⟨_ + 7, h⟩ => absurd h (Nat.not_lt.2 (Nat.le_add_left _ _))
abbrev spec15_0 : Pipeline.WinSpec sig grid15.rank :=
  Pipeline.WinSpec.ofSpec (Memref.whole main_v4) S64x128.size reads15_0 false true 1 stage15_0 sem15_0 nbuf15_0 hstage15_0

abbrev spec15_1 : Pipeline.WinSpec sig grid15.rank :=
  Pipeline.WinSpec.ofSpec (Memref.whole main_v5) S64x128.size reads15_1 false true 1 stage15_1 sem15_1 nbuf15_1 hstage15_1

abbrev spec15_2 : Pipeline.WinSpec sig grid15.rank :=
  Pipeline.WinSpec.ofSpec (Memref.whole main_v6) S1x64.size reads15_2 false true 1 stage15_2 sem15_2 nbuf15_2 hstage15_2

abbrev spec15_3 : Pipeline.WinSpec sig grid15.rank :=
  Pipeline.WinSpec.ofSpec (Memref.whole main_arg4) S64x64.size reads15_3 false true 1 stage15_3 sem15_3 nbuf15_3 hstage15_3

abbrev spec15_4 : Pipeline.WinSpec sig grid15.rank :=
  Pipeline.WinSpec.ofSpec (Memref.whole main_v7) S1x64.size reads15_4 false true 1 stage15_4 sem15_4 nbuf15_4 hstage15_4

abbrev spec15_5 : Pipeline.WinSpec sig grid15.rank :=
  Pipeline.WinSpec.ofSpec (Memref.whole main_v58_1) S1x64.size reads15_5 true true 1 stage15_5 sem15_5 nbuf15_5 hstage15_5

abbrev spec15_6 : Pipeline.WinSpec sig grid15.rank :=
  Pipeline.WinSpec.ofSpec (Memref.whole main_v58_2) S1x64.size reads15_6 true true 1 stage15_6 sem15_6 nbuf15_6 hstage15_6

abbrev spec15 : Fin 7 → Pipeline.WinSpec sig grid15.rank := fun | 0 => spec15_0 | 1 => spec15_1 | 2 => spec15_2 | 3 => spec15_3 | 4 => spec15_4 | 5 => spec15_5 | 6 => spec15_6 | ⟨_ + 7, h⟩ => absurd h (Nat.not_lt.2 (Nat.le_add_left _ _))
theorem hcount15 : ∀ w, grid15.bufCount (spec15 w).reads (spec15 w).sync = (spec15 w).nbuf := fun | 0 => nbuf15_0 | 1 => nbuf15_1 | 2 => nbuf15_2 | 3 => nbuf15_3 | 4 => nbuf15_4 | 5 => nbuf15_5 | 6 => nbuf15_6 | ⟨_ + 7, h⟩ => absurd h (Nat.not_lt.2 (Nat.le_add_left _ _))
abbrev ix15 (pf : pre15.Contents (Elt F)) : (w : Fin 7) → grid15.Coords → Fin (spec15 w).shape.rank → Nat := fun | 0 => cc15_transform_1 | 1 => cc15_transform_2 | 2 => cc15_transform_3 | 3 => cc15_transform_4 | 4 => cc15_transform_5 | 5 => cc15_transform_7 | 6 => cc15_transform_8 | ⟨_ + 7, h⟩ => absurd h (Nat.not_lt.2 (Nat.le_add_left _ _))
theorem hreads15 : ∀ (pf : pre15.Contents (Elt F)) w (i i' : grid15.Coords), (∀ a, (spec15 w).reads a = true → i a = i' a) → ix15 pf w i = ix15 pf w i' := fun pf => fun | 0 => hreads15_0 | 1 => hreads15_1 | 2 => hreads15_2 | 3 => hreads15_3 | 4 => hreads15_4 | 5 => hreads15_5 | 6 => hreads15_6 | ⟨_ + 7, h⟩ => absurd h (Nat.not_lt.2 (Nat.le_add_left _ _))
def ok15 (_ : pre15.Contents (Elt F)) : Prop :=
  True
instance (pf : pre15.Contents (Elt F)) : Decidable (ok15 pf) := decidable_of_iff' _ (Iff.of_eq (ok15.eq_1 pf))
theorem hinb15 : ∀ (pf : pre15.Contents (Elt F)), ok15 pf → ∀ w (i : grid15.Coords) a, (ix15 pf w i a + 1) * (spec15 w).size a ≤ (spec15 w).shape.size a :=
  fun _ _ => fun | 0 => hinb15_0 | 1 => hinb15_1 | 2 => hinb15_2 | 3 => hinb15_3 | 4 => hinb15_4 | 5 => hinb15_5 | 6 => hinb15_6 | ⟨_ + 7, h⟩ => absurd h (Nat.not_lt.2 (Nat.le_add_left _ _))
theorem hwx15 : ∀ (pf : pre15.Contents (Elt F)) (hok : ok15 pf) w (i : grid15.Coords), (spec15 w).elt.bits = 32 ∨ (Rect.block (spec15 w).size (ix15 pf w i) (hinb15 pf hok w i)).WholeWords (spec15 w).elt.packing :=
  fun _ _ => fun | 0 => hwx15_0 | 1 => hwx15_1 | 2 => hwx15_2 | 3 => hwx15_3 | 4 => hwx15_4 | 5 => hwx15_5 | 6 => hwx15_6 | ⟨_ + 7, h⟩ => absurd h (Nat.not_lt.2 (Nat.le_add_left _ _))
abbrev win16_0 : Pipeline.Window sig grid16 :=
  Pipeline.Window.ofSpec (Memref.whole main_v59) S8000x64.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v97) S1x64.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v103) S1x64.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v8) S1x64.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v9) S1x64.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_arg8) S1x64.size cc16_transform_5 reads16_5 false true 1 stage16_5 sem16_5
    hrank16 hreads16_5 hinb16_5 nbuf16_5 (Memref.isWhole_whole _) hwx16_5 hstage16_5

abbrev win16_6 : Pipeline.Window sig grid16 :=
  Pipeline.Window.ofSpec (Memref.whole main_v10) S1x1.size cc16_transform_6 reads16_6 false true 1 stage16_6 sem16_6
    hrank16 hreads16_6 hinb16_6 nbuf16_6 (Memref.isWhole_whole _) hwx16_6 hstage16_6

abbrev win16_7 : Pipeline.Window sig grid16 :=
  Pipeline.Window.ofSpec (Memref.whole main_v104) S8000x1.size cc16_transform_7 reads16_7 true false 2 stage16_7 sem16_7
    hrank16 hreads16_7 hinb16_7 nbuf16_7 (Memref.isWhole_whole _) hwx16_7 hstage16_7

abbrev win16 : Fin 8 → Pipeline.Window sig grid16 := fun | 0 => win16_0 | 1 => win16_1 | 2 => win16_2 | 3 => win16_3 | 4 => win16_4 | 5 => win16_5 | 6 => win16_6 | 7 => win16_7 | ⟨_ + 8, h⟩ => absurd h (Nat.not_lt.2 (Nat.le_add_left _ _))
abbrev spec16 : Fin 8 → Pipeline.WinSpec sig grid16.rank := fun w => (win16 w).toWinSpec

class Facts : Prop extends Facts₀ where
  harr0 : ∀ w, (spec0 w).arr.IsWhole
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole
  harr6 : ∀ w, (spec6 w).arr.IsWhole
  harr7 : ∀ w, (spec7 w).arr.IsWhole
  harr8 : ∀ w, (spec8 w).arr.IsWhole
  harr9 : ∀ w, (spec9 w).arr.IsWhole
  harr10 : ∀ w, (spec10 w).arr.IsWhole
  harr11 : ∀ w, (spec11 w).arr.IsWhole
  harr12 : ∀ w, (spec12 w).arr.IsWhole
  harr13 : ∀ w, (spec13 w).arr.IsWhole
  harr14 : ∀ w, (spec14 w).arr.IsWhole
  harr15 : ∀ w, (spec15 w).arr.IsWhole

variable [Facts]
-- ==== ReferenceIdeal.lean ====
abbrev S100000x128 : Shape := ⟨2, ![100000, 128]⟩
abbrev S2x1000000 : Shape := ⟨2, ![2, 1000000]⟩
abbrev S64x256 : Shape := ⟨2, ![64, 256]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1000000x256 : Shape := ⟨2, ![1000000, 256]⟩
abbrev S256x64 : Shape := ⟨2, ![256, 64]⟩
abbrev S1000000x64 : Shape := ⟨2, ![1000000, 64]⟩
abbrev S64x1 : Shape := ⟨2, ![64, 1]⟩
abbrev S1x1 : Shape := ⟨2, ![1, 1]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S64x256, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S1x64, .f32⟩
  | .hbm, ⟨9, _⟩ => ⟨S1, .f32⟩
  | .hbm, ⟨10, _⟩ => ⟨S1x1000000, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x128, .f32⟩
  | .hbm, ⟨21, _⟩ => ⟨S1x1000000, .i32⟩
  | .hbm, ⟨22, _⟩ => ⟨S1000000, .i32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S1000000x128, .f32⟩
  | .hbm, ⟨32, _⟩ => ⟨S1000000x256, .f32⟩
  | .hbm, ⟨33, _⟩ => ⟨S256x64, .f32⟩
  | .hbm, ⟨34, _⟩ => ⟨S1000000x64, .f32⟩
  | .hbm, ⟨35, _⟩ => ⟨S1x64, .f32⟩
  | .hbm, ⟨36, _⟩ => ⟨S1000000x64, .f32⟩
  | .hbm, ⟨37, _⟩ => ⟨S1000000x64, .f32⟩
  | .hbm, ⟨38, _⟩ => ⟨S_, .f32⟩
  | .hbm, ⟨39, _⟩ => ⟨S1000000x64, .f32⟩
  | .hbm, ⟨40, _⟩ => ⟨S1000000x64, .f32⟩
  | .hbm, ⟨41, _⟩ => ⟨S64x64, .f32⟩
  | .hbm, ⟨42, _⟩ => ⟨S1000000x64, .f32⟩
  | .hbm, ⟨43, _⟩ => ⟨S1x64, .f32⟩
  | .hbm, ⟨44, _⟩ => ⟨S1000000x64, .f32⟩
  | .hbm, ⟨45, _⟩ => ⟨S1000000x64, .f32⟩
  | .hbm, ⟨46, _⟩ => ⟨S_, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S1x64, .f32⟩
  | .hbm, ⟨52, _⟩ => ⟨S1000000x64, .f32⟩
  | .hbm, ⟨53, _⟩ => ⟨S1000000x64, .f32⟩
  | .hbm, ⟨54, _⟩ => ⟨S1000000x64, .f32⟩
  | .hbm, ⟨55, _⟩ => ⟨S_, .f32⟩
  | .hbm, ⟨56, _⟩ => ⟨S64, .f32⟩
  | .hbm, ⟨57, _⟩ => ⟨S_, .f32⟩
  | .hbm, ⟨58, _⟩ => ⟨S64, .f32⟩
  | .hbm, ⟨59, _⟩ => ⟨S64, .f32⟩
  | .hbm, ⟨60, _⟩ => ⟨S1x64, .f32⟩
  | .hbm, ⟨61, _⟩ => ⟨S1000000x64, .f32⟩
  | .hbm, ⟨62, _⟩ => ⟨S1000000x64, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S1x64, .f32⟩
  | .hbm, ⟨68, _⟩ => ⟨S1000000x64, .f32⟩
  | .hbm, ⟨69, _⟩ => ⟨S1000000x64, .f32⟩
  | .hbm, ⟨70, _⟩ => ⟨S1x64, .f32⟩
  | .hbm, ⟨71, _⟩ => ⟨S1000000x64, .f32⟩
  | .hbm, ⟨72, _⟩ => ⟨S1000000x64, .f32⟩
  | .hbm, ⟨73, _⟩ => ⟨S1x64, .f32⟩
  | .hbm, ⟨74, _⟩ => ⟨S1000000x64, .f32⟩
  | .hbm, ⟨75, _⟩ => ⟨S1000000x64, .f32⟩
  | .hbm, ⟨76, _⟩ => ⟨S_, .f32⟩
  | .hbm, ⟨77, _⟩ => ⟨S1000000x64, .f32⟩
  | .hbm, ⟨78, _⟩ => ⟨S1000000x64, .f32⟩
  | .hbm, ⟨79, _⟩ => ⟨S64x1, .f32⟩
  | .hbm, ⟨80, _⟩ => ⟨S1000000x1, .f32⟩
  | .hbm, ⟨81, _⟩ => ⟨S1x1, .f32⟩
  | .hbm, ⟨82, _⟩ => ⟨S1000000x1, .f32⟩
  | .hbm, ⟨83, _⟩ => ⟨S1000000x1, .f32⟩
  | .hbm, ⟨84, _⟩ => ⟨S1000000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_cst : Ref sig .tc := ⟨.hbm, 38, rfl⟩
abbrev main_call0_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_call1_cst : Ref sig .tc := ⟨.hbm, 76, rfl⟩
abbrev main_call1_v0 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  concatenates_S1000000x128_S1000000x128_S1000000x256_d1 : Shape.Concatenates [S1000000x128, S1000000x128] S1000000x256 1
  transposes_S64x256_S256x64_1_0 : S64x256.Transposes [1, 0] S256x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  transposes_S64x64_S64x64_1_0 : S64x64.Transposes [1, 0] S64x64
  reducesTo_S1000000x64_S64_d0 : S1000000x64.ReducesTo [0] S64
  h_S_ : 0 < S_.numel
  bcast_S_S64 : S_.BroadcastsInDim S64 (![] : Fin 0 → Fin S64.rank)
  transposes_S1x64_S64x1_1_0 : S1x64.Transposes [1, 0] S64x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  gather_S100000x128_S1000000x1_S1000000x128_1_0_n_n_0_1_1128_wf : GatherDims.WF S100000x128 S1000000x1 S1000000x128 [1] [0] [] [0] [] 1 ![1, 128]
  dot_S1000000x256_S256x64_S1000000x64_1_0_0_1_n_n_wf : DotDims.WF S1000000x256 S256x64 S1000000x64 [1] [0] [0] [1] [] []
  dot_S1000000x64_S64x64_S1000000x64_1_0_0_1_n_n_wf : DotDims.WF S1000000x64 S64x64 S1000000x64 [1] [0] [0] [1] [] []
  dot_S1000000x64_S64x1_S1000000x1_1_0_0_1_n_n_wf : DotDims.WF S1000000x64 S64x1 S1000000x1 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S1000000x256_S256x64_S1000000x64_1_0_0_1_n_n : DotDims S1000000x256 S256x64 S1000000x64 where
  lhsContracting := [1]
  rhsContracting := [0]
  lhsNonContracting := [0]
  rhsNonContracting := [1]
  lhsBatch := []
  rhsBatch := []
  wf := dot_S1000000x256_S256x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf

class Facts : Prop extends Facts₀ where

variable [Facts]
-- ==== Proof.Spec.lean ====
/-
  The mathematical result of the edge network, as one function of the ten argument arrays, at the
  ideal float values (extended reals), and the laws that relate its three arrangements.

  An edge e has two endpoint nodes; its feature vector is the first node's row of x followed by the
  second node's row (256 numbers). A first layer W_in, b_in with a rectifier gives 64 numbers, a
  second layer W_h, b_h gives the hidden vector Hid e (64 numbers). Over all 1000000 edges each
  hidden feature has a mean and a (biased) variance; the hidden vector is normalised with them,
  scaled by gamma, shifted by beta, rectified, and mapped by W_out, b_out to one score per edge.

  The laws: the sum over the 256 features of an edge is the sum over the first node's 128 plus the
  sum over the second node's 128; a sum over the 1000000 edges is the sum over 16 chunks of 62500;
  and, where every hidden value is a real number, the mean of the squares minus the square of the
  mean is the mean squared deviation, which is not negative.
-/
import Idealize.ShloMosaic.PureOps.Ideal
import Idealize.ShloMosaic.Lib.ValueIdx
import Idealize.ShloMosaic.PureOps.Ideal.Laws
import Mathlib.Data.EReal.Basic
import Mathlib.Data.EReal.Operations
import Mathlib.Algebra.BigOperators.Fin
import Mathlib.Algebra.BigOperators.Group.Finset.Basic
import Mathlib.Algebra.Order.BigOperators.Group.Finset
import Mathlib.Tactic.Ring
import Mathlib.Tactic.FieldSimp
import Mathlib.Tactic.NormNum

noncomputable section

namespace Cert.Spec

open Idealize.ShloMosaic Idealize.ShloMosaic.ValueIdx
open scoped BigOperators

/-! ## Real-valued extended reals -/

/-- An extended real that is a real number. -/
def IsReal (a : EReal) : Prop := ∃ r : ℝ, a = (r : EReal)

theorem IsReal.coe (r : ℝ) : IsReal (r : EReal) := ⟨r, rfl⟩

theorem IsReal.zero : IsReal 0 := ⟨0, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.max {a b : EReal} (ha : IsReal a) (hb : IsReal b) : IsReal (max a b) := by
  rcases max_choice a b with h | h <;> rw [h] <;> assumption

theorem IsReal.sum {ι : Type*} (s : Finset ι) {f : ι → EReal} (hf : ∀ i, IsReal (f i)) : IsReal (∑ i ∈ s, f i) := by
  classical
  induction s using Finset.induction_on with
  | empty => rw [Finset.sum_empty]; exact IsReal.zero
  | insert a s ha ih => rw [Finset.sum_insert ha]; exact (hf a).add ih

/-- Neither infinity: a real number. -/
theorem isReal_of_ne {a : EReal} (ht : a ≠ ⊤) (hb : a ≠ ⊥) : IsReal a := ⟨a.toReal, (EReal.coe_toReal ht hb).symm⟩

/-- An extended real whose absolute value, max a (-a), is below ⊤ is a real number. -/
theorem isReal_of_abs_lt_top {a : EReal} (h : max a (-a) < ⊤) : IsReal a := by
  refine isReal_of_ne ?_ ?_
  · rintro rfl; simp at h
  · rintro rfl; simp at h

/-- The coercion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-! ## The constants -/

/-- The number of edges, as the program writes it: the float word of 1000000. -/
def nE : EReal := Ideal.ofBits .f32 0x49742400#32

/-- The variance's guard, as the program writes it (the float word nearest 1e-5). -/
def eps : EReal := Ideal.ofBits .f32 0x3727C5AC#32

/-- The word of the edge count denotes one million: (2^23 + 7611392) · 2^(146 - 127 - 23). -/
theorem nE_eq : nE = ((1000000 : ℝ) : EReal) := by
  unfold nE
  simp [Ideal.ofBits, Ideal.ieee, -EReal.coe_mul]
  norm_num

/-! ## The result, index by index -/

section Defs

variable (x : FVec Ideal ⟨2, ![100000, 128]⟩ .f32) (edges : IVec ⟨2, ![2, 1000000]⟩ 32)
  (Win : FVec Ideal ⟨2, ![64, 256]⟩ .f32) (bin : FVec Ideal ⟨1, ![64]⟩ .f32)
  (Wh : FVec Ideal ⟨2, ![64, 64]⟩ .f32) (bh : FVec Ideal ⟨1, ![64]⟩ .f32)
  (gamma : FVec Ideal ⟨1, ![64]⟩ .f32) (beta : FVec Ideal ⟨1, ![64]⟩ .f32)
  (Wout : FVec Ideal ⟨2, ![1, 64]⟩ .f32) (bout : FVec Ideal ⟨1, ![1]⟩ .f32)

/-- The node a 32-bit word names: the word read as a signed integer, clamped into the table of
    100000 nodes. For a word in range it is the word's value (node_val). -/
def node (w : BitVec 32) : Fin 100000 := ⟨min w.toInt.toNat 99999, by omega⟩

theorem node_val {w : BitVec 32} (h0 : 0 ≤ w.toInt) (h1 : w.toInt < 100000) : (node w).val = w.toInt.toNat := by
  show min w.toInt.toNat 99999 = w.toInt.toNat
  omega

/-- The first (a = 0) or second (a = 1) endpoint of edge e. -/
def endpoint (a : Fin 2) (e : Fin 1000000) : Fin 100000 := node (edges (ix2 a e))

/-- The feature k' of edge e: the first endpoint's row of x for k' < 128, then the second's. -/
def ef (e : Fin 1000000) (k' : Fin 256) : EReal :=
  if h : k'.val < 128 then x (ix2 (endpoint edges 0 e) (⟨k'.val, h⟩ : Fin 128))
  else x (ix2 (endpoint edges 1 e) (⟨k'.val - 128, by omega⟩ : Fin 128))

/-- The first layer with its rectifier: max (Σ_{k'} ef e k' · W_in k k' + b_in k) 0. -/
def pre (e : Fin 1000000) (k : Fin 64) : EReal :=
  max (∑ k' : Fin 256, ef x edges e k' * Win (ix2 k k') + bin (ix1 k)) 0

/-- The hidden value before normalisation: Σ_k pre e k · W_h j k + b_h j. -/
def Hid (e : Fin 1000000) (j : Fin 64) : EReal :=
  ∑ k : Fin 64, pre x edges Win bin e k * Wh (ix2 j k) + bh (ix1 j)

/-- The mean of hidden feature j over the edges. -/
def meanH (j : Fin 64) : EReal :=
  Ideal.div (∑ e : Fin 1000000, Hid x edges Win bin Wh bh e j) nE

/-- The biased variance of hidden feature j: the mean squared deviation from the mean. -/
def varH (j : Fin 64) : EReal :=
  Ideal.div (∑ e : Fin 1000000,
    (Hid x edges Win bin Wh bh e j - meanH x edges Win bin Wh bh j)
      * (Hid x edges Win bin Wh bh e j - meanH x edges Win bin Wh bh j)) nE

/-- The normalised, scaled, shifted and rectified hidden value. -/
def act (e : Fin 1000000) (j : Fin 64) : EReal :=
  max ((Hid x edges Win bin Wh bh e j - meanH x edges Win bin Wh bh j)
        * Ideal.rsqrt (varH x edges Win bin Wh bh j + eps) * gamma (ix1 j) + beta (ix1 j)) 0

/-- The score of edge e. -/
def score (e : Fin 1000000) : EReal :=
  ∑ j : Fin 64, act x edges Win bin Wh bh gamma beta e j * Wout (ix2 (0 : Fin 1) j) + bout (ix1 (0 : Fin 1))

/-- The result: the score of every edge. -/
def G : FVec Ideal ⟨1, ![1000000]⟩ .f32 :=
  fun i => score x edges Win bin Wh bh gamma beta Wout bout (i 0)

end Defs

/-! ## The laws between the arrangements -/

/-- A sum over 256 terms is the sum over the first 128 plus the sum over the last 128. -/
theorem sum_halves {M : Type*} [AddCommMonoid M] (f : Fin 256 → M) :
    ∑ k, f k = ∑ k : Fin 128, f ⟨k.val, by omega⟩ + ∑ k : Fin 128, f ⟨128 + k.val, by omega⟩ :=
  Fin.sum_univ_add (a := 128) (b := 128) f

/-- The 1000000 edges in 16 chunks of 62500: edge i of chunk c. -/
def chunk (c : Fin 16) (i : Fin 62500) : Fin 1000000 := ⟨c.val * 62500 + i.val, by omega⟩

/-- Chunk and position are the quotient and remainder by 62500. -/
def chunkEquiv : Fin 16 × Fin 62500 ≃ Fin 1000000 where
  toFun p := chunk p.1 p.2
  invFun e := (⟨e.val / 62500, by omega⟩, ⟨e.val % 62500, by omega⟩)
  left_inv p := by
    obtain ⟨c, i⟩ := p
    refine Prod.ext (Fin.ext ?_) (Fin.ext ?_)
    · show (c.val * 62500 + i.val) / 62500 = c.val
      omega
    · show (c.val * 62500 + i.val) % 62500 = i.val
      omega
  right_inv e := by
    refine Fin.ext ?_
    show e.val / 62500 * 62500 + e.val % 62500 = e.val
    omega

/-- A sum over the edges is the sum over the chunks of the sums within each chunk. -/
theorem sum_chunks {M : Type*} [AddCommMonoid M] (f : Fin 1000000 → M) :
    ∑ e, f e = ∑ c : Fin 16, ∑ i : Fin 62500, f (chunk c i) := by
  rw [← Equiv.sum_comp chunkEquiv f, Fintype.sum_prod_type]
  rfl

section Laws

variable (x : FVec Ideal ⟨2, ![100000, 128]⟩ .f32) (edges : IVec ⟨2, ![2, 1000000]⟩ 32)
  (Win : FVec Ideal ⟨2, ![64, 256]⟩ .f32) (bin : FVec Ideal ⟨1, ![64]⟩ .f32)
  (Wh : FVec Ideal ⟨2, ![64, 64]⟩ .f32) (bh : FVec Ideal ⟨1, ![64]⟩ .f32)

/-- The first layer's sum over an edge's 256 features, by endpoint. -/
theorem pre_split (e : Fin 1000000) (k : Fin 64) :
    pre x edges Win bin e k
      = max (∑ k' : Fin 128, x (ix2 (endpoint edges 0 e) k') * Win (ix2 k (⟨k'.val, by omega⟩ : Fin 256))
          + ∑ k' : Fin 128, x (ix2 (endpoint edges 1 e) k') * Win (ix2 k (⟨128 + k'.val, by omega⟩ : Fin 256))
          + bin (ix1 k)) 0 := by
  have h1 : ∀ k' : Fin 128, ef x edges e (⟨k'.val, by omega⟩ : Fin 256) = x (ix2 (endpoint edges 0 e) k') := fun k' => by
    unfold ef
    rw [dif_pos (show (⟨k'.val, by omega⟩ : Fin 256).val < 128 from k'.isLt)]
  have h2 : ∀ k' : Fin 128, ef x edges e (⟨128 + k'.val, by omega⟩ : Fin 256) = x (ix2 (endpoint edges 1 e) k') := fun k' => by
    unfold ef
    rw [dif_neg (show ¬ (⟨128 + k'.val, by omega⟩ : Fin 256).val < 128 from by show ¬ 128 + k'.val < 128; omega)]
    exact congrArg (fun q : Fin 128 => x (ix2 (endpoint edges 1 e) q)) (Fin.ext (by show 128 + k'.val - 128 = k'.val; omega))
  unfold pre
  rw [sum_halves]
  simp only [h1, h2]

/-- The hidden value with the first layer's sum taken by endpoint. -/
theorem Hid_split (e : Fin 1000000) (j : Fin 64) :
    Hid x edges Win bin Wh bh e j
      = ∑ k : Fin 64,
          max (∑ k' : Fin 128, x (ix2 (endpoint edges 0 e) k') * Win (ix2 k (⟨k'.val, by omega⟩ : Fin 256))
            + ∑ k' : Fin 128, x (ix2 (endpoint edges 1 e) k') * Win (ix2 k (⟨128 + k'.val, by omega⟩ : Fin 256))
            + bin (ix1 k)) 0 * Wh (ix2 j k)
        + bh (ix1 j) := by
  unfold Hid
  simp only [pre_split]

/-- With real inputs every hidden value is a real number. -/
theorem Hid_finite (hx : ∀ i, IsReal (x i)) (hWin : ∀ i, IsReal (Win i)) (hbin : ∀ i, IsReal (bin i))
    (hWh : ∀ i, IsReal (Wh i)) (hbh : ∀ i, IsReal (bh i)) (e : Fin 1000000) (j : Fin 64) :
    IsReal (Hid x edges Win bin Wh bh e j) := by
  have hef : ∀ k', IsReal (ef x edges e k') := fun k' => by
    unfold ef
    split
    · exact hx _
    · exact hx _
  have hpre : ∀ k, IsReal (pre x edges Win bin e k) := fun k =>
    ((IsReal.sum _ fun k' => (hef k').mul (hWin _)).add (hbin _)).max IsReal.zero
  exact (IsReal.sum _ fun k => (hpre k).mul (hWh _)).add (hbh _)

end Laws

/-! ## The variance identity -/

/-- For N real numbers: the mean of the squares minus the square of the mean is the mean of the squared
    deviations from the mean. -/
theorem real_variance {ι : Type*} [Fintype ι] (h : ι → ℝ) (N : ℝ) (hN : N ≠ 0) (hcard : (Fintype.card ι : ℝ) = N) :
    (∑ e, h e * h e) / N - (∑ e, h e) / N * ((∑ e, h e) / N)
      = (∑ e, (h e - (∑ e, h e) / N) * (h e - (∑ e, h e) / N)) / N := by
  have hexp : ∑ e, (h e - (∑ e, h e) / N) * (h e - (∑ e, h e) / N)
      = ∑ e, h e * h e - 2 * ((∑ e, h e) / N) * ∑ e, h e + N * (((∑ e, h e) / N) * ((∑ e, h e) / N)) := by
    have : ∀ e, (h e - (∑ e, h e) / N) * (h e - (∑ e, h e) / N)
        = h e * h e - 2 * ((∑ e, h e) / N) * h e + ((∑ e, h e) / N) * ((∑ e, h e) / N) := fun e => by ring
    simp only [this]
    rw [Finset.sum_add_distrib, Finset.sum_sub_distrib, ← Finset.mul_sum, Finset.sum_const, Finset.card_univ,
      nsmul_eq_mul, hcard]
  rw [hexp]
  field_simp
  ring

/-- The same at the extended reals, in the operations the programs use: for real hidden values,
    max (Σ Hid² / n − mean²) 0 is the mean squared deviation. -/
theorem var_kernel_form (x : FVec Ideal ⟨2, ![100000, 128]⟩ .f32) (edges : IVec ⟨2, ![2, 1000000]⟩ 32)
    (Win : FVec Ideal ⟨2, ![64, 256]⟩ .f32) (bin : FVec Ideal ⟨1, ![64]⟩ .f32)
    (Wh : FVec Ideal ⟨2, ![64, 64]⟩ .f32) (bh : FVec Ideal ⟨1, ![64]⟩ .f32) (j : Fin 64)
    (hH : ∀ e, IsReal (Hid x edges Win bin Wh bh e j)) :
    max (Ideal.div (∑ e : Fin 1000000, Hid x edges Win bin Wh bh e j * Hid x edges Win bin Wh bh e j) nE
        - meanH x edges Win bin Wh bh j * meanH x edges Win bin Wh bh j) 0
      = varH x edges Win bin Wh bh j := by
  choose h hh using hH
  have hN : (1000000 : ℝ) ≠ 0 := by norm_num
  have hdiv : ∀ s : ℝ, Ideal.div (s : EReal) nE = ((s / 1000000 : ℝ) : EReal) := fun s => by
    rw [nE_eq, Ideal.div_coe hN, ← EReal.coe_mul, mul_one_div]
  have hmean : meanH x edges Win bin Wh bh j = (((∑ e, h e) / 1000000 : ℝ) : EReal) := by
    unfold meanH
    simp only [hh]
    rw [← coe_sum, hdiv]
  have hvar : varH x edges Win bin Wh bh j
      = (((∑ e, (h e - (∑ e, h e) / 1000000) * (h e - (∑ e, h e) / 1000000)) / 1000000 : ℝ) : EReal) := by
    unfold varH
    rw [hmean]
    simp only [hh, ← EReal.coe_sub, ← EReal.coe_mul]
    rw [← coe_sum, hdiv]
  rw [hvar, hmean]
  simp only [hh, ← EReal.coe_mul]
  rw [← coe_sum, hdiv, ← EReal.coe_sub,
    real_variance h 1000000 hN (by rw [Fintype.card_fin]; norm_num)]
  refine max_eq_left ?_
  rw [← EReal.coe_zero, EReal.coe_le_coe_iff]
  exact div_nonneg (Finset.sum_nonneg fun e _ => mul_self_nonneg _) (by norm_num)

/-! ## Words in range, and the kernel's arrangement assembled -/

/-- An unsigned value below 100000 is the signed value too, and in range. -/
theorem toInt_of_toNat_lt {w : BitVec 32} (h : w.toNat < 100000) : 0 ≤ w.toInt ∧ w.toInt < 100000 := by
  have hw : w.toInt = (w.toNat : Int) := by
    rw [BitVec.toInt_eq_toNat_cond, if_pos (by omega)]
  omega

/-- The range hypothesis in its signed form from its unsigned form, for a whole array of words. -/
theorem hE_of_toNat_lt {s : Shape} (edges : IVec s 32) (h : ∀ idx, (edges idx).toNat < 100000) :
    ∀ idx, 0 ≤ (edges idx).toInt ∧ (edges idx).toInt < 100000 :=
  fun idx => toInt_of_toNat_lt (h idx)

/-- For a word in range the node is the word's unsigned value. -/
theorem node_val_of_toNat_lt {w : BitVec 32} (h : w.toNat < 100000) : (node w).val = w.toNat := by
  have hw : w.toInt = (w.toNat : Int) := by
    rw [BitVec.toInt_eq_toNat_cond, if_pos (by omega)]
  show min w.toInt.toNat 99999 = w.toNat
  omega

/-- Every edge is some position of some chunk. -/
theorem chunk_surj (e : Fin 1000000) : ∃ c i, chunk c i = e :=
  ⟨(chunkEquiv.symm e).1, (chunkEquiv.symm e).2, chunkEquiv.apply_symm_apply e⟩

section Assembled

variable (x : FVec Ideal ⟨2, ![100000, 128]⟩ .f32) (edges : IVec ⟨2, ![2, 1000000]⟩ 32)
  (Win : FVec Ideal ⟨2, ![64, 256]⟩ .f32) (bin : FVec Ideal ⟨1, ![64]⟩ .f32)
  (Wh : FVec Ideal ⟨2, ![64, 64]⟩ .f32) (bh : FVec Ideal ⟨1, ![64]⟩ .f32)
  (gamma : FVec Ideal ⟨1, ![64]⟩ .f32) (beta : FVec Ideal ⟨1, ![64]⟩ .f32)
  (Wout : FVec Ideal ⟨2, ![1, 64]⟩ .f32) (bout : FVec Ideal ⟨1, ![1]⟩ .f32)

/-- The chunked arrangement gives the result: a hidden array H equal to Hid, its column sums S and
    sums of squares Q taken chunk by chunk, mean = S / n, var = max (Q / n − mean²) 0, and the last
    layer over them is the score, where the inputs of the hidden layers are real. -/
theorem score_of_kernel_forms
    (hx : ∀ i, IsReal (x i)) (hWin : ∀ i, IsReal (Win i)) (hbin : ∀ i, IsReal (bin i))
    (hWh : ∀ i, IsReal (Wh i)) (hbh : ∀ i, IsReal (bh i))
    (H : Fin 1000000 → Fin 64 → EReal) (S Q mean var : Fin 64 → EReal)
    (hH : ∀ e j, H e j = Hid x edges Win bin Wh bh e j)
    (hS : ∀ j, S j = ∑ c : Fin 16, ∑ i : Fin 62500, H (chunk c i) j)
    (hQ : ∀ j, Q j = ∑ c : Fin 16, ∑ i : Fin 62500, H (chunk c i) j * H (chunk c i) j)
    (hmean : ∀ j, mean j = Ideal.div (S j) nE)
    (hvar : ∀ j, var j = max (Ideal.div (Q j) nE - mean j * mean j) 0)
    (e : Fin 1000000) :
    ∑ j : Fin 64, max ((H e j - mean j) * Ideal.rsqrt (var j + eps) * gamma (ix1 j) + beta (ix1 j)) 0
          * Wout (ix2 (0 : Fin 1) j) + bout (ix1 (0 : Fin 1))
      = G x edges Win bin Wh bh gamma beta Wout bout (ix1 e) := by
  have hm : ∀ j, mean j = meanH x edges Win bin Wh bh j := fun j => by
    rw [hmean, hS]
    simp only [hH]
    rw [← sum_chunks (fun e => Hid x edges Win bin Wh bh e j)]
    rfl
  have hv : ∀ j, var j = varH x edges Win bin Wh bh j := fun j => by
    rw [hvar, hQ, hm]
    simp only [hH]
    rw [← sum_chunks (fun e => Hid x edges Win bin Wh bh e j * Hid x edges Win bin Wh bh e j)]
    exact var_kernel_form x edges Win bin Wh bh j fun e => Hid_finite x edges Win bin Wh bh hx hWin hbin hWh hbh e j
  show _ = score x edges Win bin Wh bh gamma beta Wout bout e
  unfold score act
  simp only [hH, hm, hv]

/-- The same with the hidden array given chunk by chunk in the by-endpoint form of the first layer. -/
theorem score_of_chunk_forms
    (hx : ∀ i, IsReal (x i)) (hWin : ∀ i, IsReal (Win i)) (hbin : ∀ i, IsReal (bin i))
    (hWh : ∀ i, IsReal (Wh i)) (hbh : ∀ i, IsReal (bh i))
    (H : Fin 1000000 → Fin 64 → EReal) (S Q mean var : Fin 64 → EReal)
    (hH : ∀ (c : Fin 16) (i : Fin 62500) (j : Fin 64), H (chunk c i) j
      = ∑ k : Fin 64,
          max (∑ k' : Fin 128, x (ix2 (endpoint edges 0 (chunk c i)) k') * Win (ix2 k (⟨k'.val, by omega⟩ : Fin 256))
            + ∑ k' : Fin 128, x (ix2 (endpoint edges 1 (chunk c i)) k') * Win (ix2 k (⟨128 + k'.val, by omega⟩ : Fin 256))
            + bin (ix1 k)) 0 * Wh (ix2 j k)
        + bh (ix1 j))
    (hS : ∀ j, S j = ∑ c : Fin 16, ∑ i : Fin 62500, H (chunk c i) j)
    (hQ : ∀ j, Q j = ∑ c : Fin 16, ∑ i : Fin 62500, H (chunk c i) j * H (chunk c i) j)
    (hmean : ∀ j, mean j = Ideal.div (S j) nE)
    (hvar : ∀ j, var j = max (Ideal.div (Q j) nE - mean j * mean j) 0)
    (e : Fin 1000000) :
    ∑ j : Fin 64, max ((H e j - mean j) * Ideal.rsqrt (var j + eps) * gamma (ix1 j) + beta (ix1 j)) 0
          * Wout (ix2 (0 : Fin 1) j) + bout (ix1 (0 : Fin 1))
      = G x edges Win bin Wh bh gamma beta Wout bout (ix1 e) := by
  refine score_of_kernel_forms x edges Win bin Wh bh gamma beta Wout bout hx hWin hbin hWh hbh H S Q mean var
    (fun e j => ?_) hS hQ hmean hvar e
  obtain ⟨c, i, rfl⟩ := chunk_surj e
  rw [hH, Hid_split]

end Assembled

end Cert.Spec

end
-- ==== Proof.RefVal.lean ====
/-
  The reference computation read element by element: under the hypothesis that every edge endpoint is
  a node number (0 ≤ word < 100000, read signed), its result is the specification's G of the ten
  argument arrays.

  The reference first wraps a negative node number by adding 100000 (a select on "word < 0"); for a
  word in range the select returns the word itself. Its gather of x's rows then reads row
  clamp(word) — the specification's node — and the concatenation of the two gathered arrays along the
  feature axis is the edge feature ef. From there every operation is read at an index: the two
  layers, the two column sums over the edges with their division by the edge count, the
  normalisation, and the last layer.
-/
import proofs.«400866_j57071525429608_2_alg».proof.Proof.Gen.ReferenceIdeal.Read
import proofs.«400866_j57071525429608_2_alg».proof.Proof.Spec
import Idealize.ShloMosaic.Lib.Affine
import Idealize.ShloMosaic.Lib.Pipeline.Value
import Idealize.ShloMosaic.Lib.ValueIdx
import Idealize.ShloMosaic.PureOps.Ideal.Laws

noncomputable section

namespace Cert.RefVal

open Cert.ReferenceIdeal Cert.ReferenceIdeal.Gen Cert.ReferenceIdeal.Read
open Idealize.ShloMosaic Idealize.ShloMosaic.ValueIdx Idealize.SL.Sem
open scoped BigOperators

/-! ## The gather of rows, read at an index -/

/-- On the row axis the gathered operand index is the start word read signed and clamped into the table. -/
theorem gather_axis0 (idx : IVec S1000000x1 32) (j : S1000000x128.Idx) :
    (gather_S100000x128_S1000000x1_S1000000x128_1_0_n_n_0_1_1128.operandIdx j idx 0).val
      = min (idx (ix2 (j 0) (0 : Fin 1))).toInt.toNat 99999 := by
  show gather_S100000x128_S1000000x1_S1000000x128_1_0_n_n_0_1_1128.start j idx 0 + gather_S100000x128_S1000000x1_S1000000x128_1_0_n_n_0_1_1128.batchCoord j 0 + gather_S100000x128_S1000000x1_S1000000x128_1_0_n_n_0_1_1128.offCoord j 0 = _
  rw [GatherDims.batchCoord_eq_zero _ _ _ (show (0 : Fin S100000x128.rank) ∉ gather_S100000x128_S1000000x1_S1000000x128_1_0_n_n_0_1_1128.operandBatchingDims by decide),
    GatherDims.offCoord_eq_zero _ _ _ (fun h => ((GatherDims.mem_sKept _ _).mp h).1
      (show (0 : Fin S100000x128.rank) ∈ gather_S100000x128_S1000000x1_S1000000x128_1_0_n_n_0_1_1128.collapsedSliceDims by decide))]
  simp only [Nat.add_zero]
  unfold GatherDims.start
  rw [dif_pos (show (0 : Fin S100000x128.rank) ∈ gather_S100000x128_S1000000x1_S1000000x128_1_0_n_n_0_1_1128.startIndexMap by decide)]
  have hsi : gather_S100000x128_S1000000x1_S1000000x128_1_0_n_n_0_1_1128.siIdx j ⟨List.idxOf (0 : Fin S100000x128.rank) gather_S100000x128_S1000000x1_S1000000x128_1_0_n_n_0_1_1128.startIndexMap,
      List.idxOf_lt_length_iff.2 (show (0 : Fin S100000x128.rank) ∈ gather_S100000x128_S1000000x1_S1000000x128_1_0_n_n_0_1_1128.startIndexMap by decide)⟩
      = ix2 (j 0) (0 : Fin 1) := by
    funext b; refine Fin.ext ?_
    match b with
    | ⟨0, _⟩ => rfl
    | ⟨1, _⟩ => rfl
  rw [hsi]
  rfl

/-- On the feature axis the gathered operand index is the result's feature coordinate. -/
theorem gather_axis1 (idx : IVec S1000000x1 32) (j : S1000000x128.Idx) :
    (gather_S100000x128_S1000000x1_S1000000x128_1_0_n_n_0_1_1128.operandIdx j idx 1).val = (j 1).val := by
  show gather_S100000x128_S1000000x1_S1000000x128_1_0_n_n_0_1_1128.start j idx 1 + gather_S100000x128_S1000000x1_S1000000x128_1_0_n_n_0_1_1128.batchCoord j 1 + gather_S100000x128_S1000000x1_S1000000x128_1_0_n_n_0_1_1128.offCoord j 1 = _
  rw [GatherDims.batchCoord_eq_zero _ _ _ (show (1 : Fin S100000x128.rank) ∉ gather_S100000x128_S1000000x1_S1000000x128_1_0_n_n_0_1_1128.operandBatchingDims by decide)]
  unfold GatherDims.start
  rw [dif_neg (show ¬ (1 : Fin S100000x128.rank) ∈ gather_S100000x128_S1000000x1_S1000000x128_1_0_n_n_0_1_1128.startIndexMap by decide)]
  unfold GatherDims.offCoord
  rw [dif_pos (show (1 : Fin S100000x128.rank) ∈ gather_S100000x128_S1000000x1_S1000000x128_1_0_n_n_0_1_1128.sKept by decide)]
  simp only [Nat.add_zero, Nat.zero_add]
  rfl

/-- The gather at (e, k): row node(start word of e) of the operand, at feature k. -/
theorem gather_apply {α : Type} (x : S100000x128.Idx → α) (idx : IVec S1000000x1 32) (e : Fin 1000000) (k : Fin 128) :
    Host.gather gather_S100000x128_S1000000x1_S1000000x128_1_0_n_n_0_1_1128 x idx (ix2 e k) = x (ix2 (Spec.node (idx (ix2 e (0 : Fin 1)))) k) := by
  unfold Host.gather
  congr 1
  funext a
  refine Fin.ext ?_
  match a with
  | ⟨0, _⟩ => exact gather_axis0 idx (ix2 e k)
  | ⟨1, _⟩ => exact gather_axis1 idx (ix2 e k)

/-! ## The node words: the wrap of a negative word is the identity on a word in range -/

/-- For a word that is not negative, "word < 0" is false. -/
theorem slt_zero_of_nonneg {w : BitVec 32} (h : 0 ≤ w.toInt) : IntOp.cmpi .slt w 0#32 = 0#1 :=
  eq_zero_of_ne_one fun h1 => by
    have := IntOp.cmpi_slt.mp h1
    rw [show (0#32 : BitVec 32).toInt = 0 from by decide] at this
    omega

/-- The first endpoints' start words: the wrapped word of edge e is the word itself. -/
theorem v7_apply (x1 : (⟨S2x1000000, .i32⟩ : BufTy).Contents (Elt Ideal)) (hE : ∀ idx, 0 ≤ (x1 idx).toInt ∧ (x1 idx).toInt < 100000) (e : Fin 1000000) :
    val_main_v7 (F := Ideal) x1 (ix2 e (0 : Fin 1)) = x1 (ix2 (0 : Fin 2) e) := by
  have hidx : idx_main_v0 (idx_main_v1 (idx_main_v7 (ix2 e (0 : Fin 1)))) = ix2 (0 : Fin 2) e :=
    funext fun a => Fin.ext (by
      match a with
      | ⟨0, _⟩ => rfl
      | ⟨1, _⟩ => show e.val % 1000000 = e.val; omega)
  have h1 : val_main_v1 (F := Ideal) x1 (idx_main_v7 (ix2 e (0 : Fin 1))) = x1 (ix2 (0 : Fin 2) e) := by
    rw [val_main_v1_apply, val_main_v0_apply, hidx]
  rw [val_main_v7_apply, val_main_v6_apply, val_main_v3_apply, val_main_v2_apply, val_main_c_apply, h1,
    slt_zero_of_nonneg (hE _).1, select_zero]

/-- The second endpoints' start words likewise. -/
theorem v16_apply (x1 : (⟨S2x1000000, .i32⟩ : BufTy).Contents (Elt Ideal)) (hE : ∀ idx, 0 ≤ (x1 idx).toInt ∧ (x1 idx).toInt < 100000) (e : Fin 1000000) :
    val_main_v16 (F := Ideal) x1 (ix2 e (0 : Fin 1)) = x1 (ix2 (1 : Fin 2) e) := by
  have hidx : idx_main_v9 (idx_main_v10 (idx_main_v16 (ix2 e (0 : Fin 1)))) = ix2 (1 : Fin 2) e :=
    funext fun a => Fin.ext (by
      match a with
      | ⟨0, _⟩ => rfl
      | ⟨1, _⟩ => show e.val % 1000000 = e.val; omega)
  have h1 : val_main_v10 (F := Ideal) x1 (idx_main_v16 (ix2 e (0 : Fin 1))) = x1 (ix2 (1 : Fin 2) e) := by
    rw [val_main_v10_apply, val_main_v9_apply, hidx]
  rw [val_main_v16_apply, val_main_v15_apply, val_main_v12_apply, val_main_v11_apply, val_main_c_1_apply, h1,
    slt_zero_of_nonneg (hE _).1, select_zero]

/-! ## The edge features -/

/-- The concatenation of the two gathered arrays at (e, k') is the edge feature. -/
theorem v18_apply (x0 : (⟨S100000x128, .f32⟩ : BufTy).Contents (Elt Ideal)) (x1 : (⟨S2x1000000, .i32⟩ : BufTy).Contents (Elt Ideal)) (hE : ∀ idx, 0 ≤ (x1 idx).toInt ∧ (x1 idx).toInt < 100000) (e : Fin 1000000) (k' : Fin 256) :
    val_main_v18 (F := Ideal) x0 x1 (ix2 e k') = Spec.ef x0 x1 e k' := by
  unfold val_main_v18 Spec.ef
  by_cases h : k'.val < 128
  · rw [dif_pos h]
    rw [concatenate_pair_apply_left (t := S1000000x256) (s₁ := S1000000x128) (s₂ := S1000000x128) (1 : Fin S1000000x256.rank) _ _ _ (ix2 e k') rfl
      (ix2 e (⟨k'.val, h⟩ : Fin 128) : S1000000x128.Idx)
      (fun b => by match b with | ⟨0, _⟩ => rfl | ⟨1, _⟩ => rfl)]
    unfold val_main_v8
    rw [gather_apply, v7_apply x1 hE]
    rfl
  · rw [dif_neg h]
    rw [concatenate_pair_apply_right (t := S1000000x256) (s₁ := S1000000x128) (s₂ := S1000000x128) (1 : Fin S1000000x256.rank) _ _ _ (ix2 e k') rfl rfl
      (ix2 e (⟨k'.val - 128, by omega⟩ : Fin 128) : S1000000x128.Idx)
      (fun b hb => by
        match b with
        | ⟨0, _⟩ => rfl
        | ⟨1, _⟩ => exact absurd rfl hb)
      (by show k'.val - 128 + 128 = k'.val; omega)]
    unfold val_main_v17
    rw [gather_apply, v16_apply x1 hE]
    rfl

/-! ## The two layers -/

/-- The first layer with its rectifier. -/
theorem v24_apply (x0 : (⟨S100000x128, .f32⟩ : BufTy).Contents (Elt Ideal)) (x1 : (⟨S2x1000000, .i32⟩ : BufTy).Contents (Elt Ideal)) (x2 : (⟨S64x256, .f32⟩ : BufTy).Contents (Elt Ideal)) (x3 : (⟨S64, .f32⟩ : BufTy).Contents (Elt Ideal)) (hE : ∀ idx, 0 ≤ (x1 idx).toInt ∧ (x1 idx).toInt < 100000) (e : Fin 1000000) (k : Fin 64) :
    val_main_v24 (F := Ideal) x0 x1 x2 x3 (ix2 e k) = Spec.pre x0 x1 x2 x3 e k := by
  have hsum : ∑ k' : Fin 256, (val_main_v18 (F := Ideal) x0 x1) (lidx_main_v20 (ix2 e k) k')
        * (val_main_v19 (F := Ideal) x2) (ridx_main_v20 (ix2 e k) k')
      = ∑ k' : Fin 256, Spec.ef x0 x1 e k' * x2 (ix2 k k') :=
    Finset.sum_congr rfl fun k' _ => by
      have hl : lidx_main_v20 (ix2 e k) k' = ix2 e k' := funext fun a => Fin.ext (by match a with | ⟨0, _⟩ => rfl | ⟨1, _⟩ => rfl)
      have hr : idx_main_v19 (ridx_main_v20 (ix2 e k) k') = ix2 k k' := funext fun a => Fin.ext (by match a with | ⟨0, _⟩ => rfl | ⟨1, _⟩ => rfl)
      rw [hl, v18_apply x0 x1 hE, val_main_v19_apply, hr]
  have hb : idx_main_v21 (idx_main_v22 (ix2 e k)) = ix1 k := funext fun a => Fin.ext (by match a with | ⟨0, _⟩ => rfl)
  rw [val_main_v24_apply, val_main_v23_apply, val_main_v20_apply, hsum, val_main_v22_apply, val_main_v21_apply, hb,
    val_main_call0_v0_apply, val_main_call0_cst_apply]
  show max (_ + _) (Ideal.ofBits .f32 0x00000000#32) = _
  rw [Ideal.ofBits_zero_f32]
  rfl

/-- The second layer: the hidden value. -/
theorem v29_apply (x0 : (⟨S100000x128, .f32⟩ : BufTy).Contents (Elt Ideal)) (x1 : (⟨S2x1000000, .i32⟩ : BufTy).Contents (Elt Ideal)) (x2 : (⟨S64x256, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (hE : ∀ idx, 0 ≤ (x1 idx).toInt ∧ (x1 idx).toInt < 100000) (e : Fin 1000000) (j : Fin 64) :
    val_main_v29 (F := Ideal) x0 x1 x2 x3 x4 x5 (ix2 e j) = Spec.Hid x0 x1 x2 x3 x4 x5 e j := by
  have hsum : ∑ k : Fin 64, (val_main_v24 (F := Ideal) x0 x1 x2 x3) (lidx_main_v26 (ix2 e j) k)
        * (val_main_v25 (F := Ideal) x4) (ridx_main_v26 (ix2 e j) k)
      = ∑ k : Fin 64, Spec.pre x0 x1 x2 x3 e k * x4 (ix2 j k) :=
    Finset.sum_congr rfl fun k _ => by
      have hl : lidx_main_v26 (ix2 e j) k = ix2 e k := funext fun a => Fin.ext (by match a with | ⟨0, _⟩ => rfl | ⟨1, _⟩ => rfl)
      have hr : idx_main_v25 (ridx_main_v26 (ix2 e j) k) = ix2 j k := funext fun a => Fin.ext (by match a with | ⟨0, _⟩ => rfl | ⟨1, _⟩ => rfl)
      rw [hl, v24_apply x0 x1 x2 x3 hE, val_main_v25_apply, hr]
  have hb : idx_main_v27 (idx_main_v28 (ix2 e j)) = ix1 j := funext fun a => Fin.ext (by match a with | ⟨0, _⟩ => rfl)
  rw [val_main_v29_apply, val_main_v26_apply, hsum, val_main_v28_apply, val_main_v27_apply, hb]
  rfl

/-! ## Mean and variance over the edges -/

/-- The mean of a hidden feature. -/
theorem v32_apply (x0 : (⟨S100000x128, .f32⟩ : BufTy).Contents (Elt Ideal)) (x1 : (⟨S2x1000000, .i32⟩ : BufTy).Contents (Elt Ideal)) (x2 : (⟨S64x256, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (hE : ∀ idx, 0 ≤ (x1 idx).toInt ∧ (x1 idx).toInt < 100000) (j : Fin 64) :
    val_main_v32 (F := Ideal) x0 x1 x2 x3 x4 x5 (ix1 j) = Spec.meanH x0 x1 x2 x3 x4 x5 j := by
  have hsum : ∑ e : Fin 1000000, (val_main_v29 (F := Ideal) x0 x1 x2 x3 x4 x5) (idx_main_v30 (ix1 j) e)
      = ∑ e : Fin 1000000, Spec.Hid x0 x1 x2 x3 x4 x5 e j :=
    Finset.sum_congr rfl fun e _ => by
      have hi : idx_main_v30 (ix1 j) e = ix2 e j := funext fun a => Fin.ext (by match a with | ⟨0, _⟩ => rfl | ⟨1, _⟩ => rfl)
      rw [hi, v29_apply x0 x1 x2 x3 x4 x5 hE]
  rw [val_main_v32_apply, val_main_v30_apply, hsum, val_main_cst_apply, val_main_v31_apply, val_main_cst_3_apply]
  show Ideal.div (Ideal.ofBits .f32 0x00000000#32 + _) (Ideal.ofBits .f32 0x49742400#32) = _
  rw [Ideal.ofBits_zero_f32, zero_add]
  rfl

/-- The deviation from the mean, as the variance's sum reads it. -/
theorem v35_apply (x0 : (⟨S100000x128, .f32⟩ : BufTy).Contents (Elt Ideal)) (x1 : (⟨S2x1000000, .i32⟩ : BufTy).Contents (Elt Ideal)) (x2 : (⟨S64x256, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (hE : ∀ idx, 0 ≤ (x1 idx).toInt ∧ (x1 idx).toInt < 100000) (e : Fin 1000000) (j : Fin 64) :
    val_main_v35 (F := Ideal) x0 x1 x2 x3 x4 x5 (ix2 e j) = Spec.Hid x0 x1 x2 x3 x4 x5 e j - Spec.meanH x0 x1 x2 x3 x4 x5 j := by
  have hi : idx_main_v33 (idx_main_v34 (ix2 e j)) = ix1 j := funext fun a => Fin.ext (by match a with | ⟨0, _⟩ => rfl)
  rw [val_main_v35_apply, v29_apply x0 x1 x2 x3 x4 x5 hE, val_main_v34_apply, val_main_v33_apply, hi, v32_apply x0 x1 x2 x3 x4 x5 hE]
  rfl

/-- The variance of a hidden feature. -/
theorem v39_apply (x0 : (⟨S100000x128, .f32⟩ : BufTy).Contents (Elt Ideal)) (x1 : (⟨S2x1000000, .i32⟩ : BufTy).Contents (Elt Ideal)) (x2 : (⟨S64x256, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (hE : ∀ idx, 0 ≤ (x1 idx).toInt ∧ (x1 idx).toInt < 100000) (j : Fin 64) :
    val_main_v39 (F := Ideal) x0 x1 x2 x3 x4 x5 (ix1 j) = Spec.varH x0 x1 x2 x3 x4 x5 j := by
  have hsum : ∑ e : Fin 1000000, (val_main_v36 (F := Ideal) x0 x1 x2 x3 x4 x5) (idx_main_v37 (ix1 j) e)
      = ∑ e : Fin 1000000, (Spec.Hid x0 x1 x2 x3 x4 x5 e j - Spec.meanH x0 x1 x2 x3 x4 x5 j)
          * (Spec.Hid x0 x1 x2 x3 x4 x5 e j - Spec.meanH x0 x1 x2 x3 x4 x5 j) :=
    Finset.sum_congr rfl fun e _ => by
      have hi : idx_main_v37 (ix1 j) e = ix2 e j := funext fun a => Fin.ext (by match a with | ⟨0, _⟩ => rfl | ⟨1, _⟩ => rfl)
      rw [hi, val_main_v36_apply, v35_apply x0 x1 x2 x3 x4 x5 hE]
      rfl
  rw [val_main_v39_apply, val_main_v37_apply, hsum, val_main_cst_4_apply, val_main_v38_apply, val_main_cst_5_apply]
  show Ideal.div (Ideal.ofBits .f32 0x00000000#32 + _) (Ideal.ofBits .f32 0x49742400#32) = _
  rw [Ideal.ofBits_zero_f32, zero_add]
  rfl

/-! ## Normalisation and the last layer -/

/-- The normalised, scaled, shifted and rectified hidden value. -/
theorem v55_apply (x0 : (⟨S100000x128, .f32⟩ : BufTy).Contents (Elt Ideal)) (x1 : (⟨S2x1000000, .i32⟩ : BufTy).Contents (Elt Ideal)) (x2 : (⟨S64x256, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (hE : ∀ idx, 0 ≤ (x1 idx).toInt ∧ (x1 idx).toInt < 100000) (e : Fin 1000000) (j : Fin 64) :
    val_main_v55 (F := Ideal) x0 x1 x2 x3 x4 x5 x6 x7 (ix2 e j) = Spec.act x0 x1 x2 x3 x4 x5 x6 x7 e j := by
  have h41 : idx_main_v40 (idx_main_v41 (ix2 e j)) = ix1 j := funext fun a => Fin.ext (by match a with | ⟨0, _⟩ => rfl)
  have h47 : idx_main_v46 (idx_main_v47 (ix2 e j)) = ix1 j := funext fun a => Fin.ext (by match a with | ⟨0, _⟩ => rfl)
  have h50 : idx_main_v49 (idx_main_v50 (ix2 e j)) = ix1 j := funext fun a => Fin.ext (by match a with | ⟨0, _⟩ => rfl)
  have h53 : idx_main_v52 (idx_main_v53 (ix2 e j)) = ix1 j := funext fun a => Fin.ext (by match a with | ⟨0, _⟩ => rfl)
  rw [val_main_v55_apply, val_main_v54_apply, val_main_v51_apply, val_main_v48_apply, val_main_v42_apply,
    v29_apply x0 x1 x2 x3 x4 x5 hE, val_main_v41_apply, val_main_v40_apply, h41, v32_apply x0 x1 x2 x3 x4 x5 hE,
    val_main_v47_apply, val_main_v46_apply, h47, val_main_v45_apply, val_main_v44_apply, v39_apply x0 x1 x2 x3 x4 x5 hE,
    val_main_v43_apply, val_main_cst_6_apply, val_main_v50_apply, val_main_v49_apply, h50,
    val_main_v53_apply, val_main_v52_apply, h53, val_main_call1_v0_apply, val_main_call1_cst_apply]
  show max (_ + _) (Ideal.ofBits .f32 0x00000000#32) = _
  rw [Ideal.ofBits_zero_f32]
  rfl

/-- THE REFERENCE IS G: for edge endpoints in range, the reference's result is the specification. -/
theorem ref_eq_G (x0 : (⟨S100000x128, .f32⟩ : BufTy).Contents (Elt Ideal)) (x1 : (⟨S2x1000000, .i32⟩ : BufTy).Contents (Elt Ideal)) (x2 : (⟨S64x256, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S1x64, .f32⟩ : BufTy).Contents (Elt Ideal)) (x9 : (⟨S1, .f32⟩ : BufTy).Contents (Elt Ideal)) (hE : ∀ idx, 0 ≤ (x1 idx).toInt ∧ (x1 idx).toInt < 100000) :
    val_main_v61 (F := Ideal) x0 x1 x2 x3 x4 x5 x6 x7 x8 x9 = Spec.G x0 x1 x2 x3 x4 x5 x6 x7 x8 x9 := by
  funext i
  obtain ⟨e, rfl⟩ : ∃ e : Fin 1000000, i = ix1 e := ⟨i 0, eq_ix1 i⟩
  have h61 : idx_main_v61 (ix1 e) = ix2 e (0 : Fin 1) :=
    funext fun a => Fin.ext (by
      match a with
      | ⟨0, _⟩ => show e.val / 1 = e.val; omega
      | ⟨1, _⟩ => rfl)
  have hsum : ∑ j : Fin 64, (val_main_v55 (F := Ideal) x0 x1 x2 x3 x4 x5 x6 x7) (lidx_main_v57 (ix2 e (0 : Fin 1)) j)
        * (val_main_v56 (F := Ideal) x8) (ridx_main_v57 (ix2 e (0 : Fin 1)) j)
      = ∑ j : Fin 64, Spec.act x0 x1 x2 x3 x4 x5 x6 x7 e j * x8 (ix2 (0 : Fin 1) j) :=
    Finset.sum_congr rfl fun j _ => by
      have hl : lidx_main_v57 (ix2 e (0 : Fin 1)) j = ix2 e j := funext fun a => Fin.ext (by match a with | ⟨0, _⟩ => rfl | ⟨1, _⟩ => rfl)
      have hr : idx_main_v56 (ridx_main_v57 (ix2 e (0 : Fin 1)) j) = ix2 (0 : Fin 1) j := funext fun a => Fin.ext (by match a with | ⟨0, _⟩ => rfl | ⟨1, _⟩ => rfl)
      rw [hl, v55_apply x0 x1 x2 x3 x4 x5 x6 x7 hE, val_main_v56_apply, hr]
  have h59 : idx_main_v58 (idx_main_v59 (ix2 e (0 : Fin 1))) = ix1 (0 : Fin 1) := funext fun a => Fin.ext (by match a with | ⟨0, _⟩ => rfl)
  rw [val_main_v61_apply, h61, val_main_v60_apply, val_main_v57_apply, hsum, val_main_v59_apply, val_main_v58_apply, h59]
  rfl

/-- The same for the run's result term, at a launch memory whose edge array is in range. -/
theorem res_eq_G (m : (ℓ : Loc nD τ sig) → Buf (Elt Ideal) ℓ) (c : Dev nD)
    (hE : ∀ idx, 0 ≤ (m ((c.tc : Thread nD τ).loc main_arg1) idx).toInt
      ∧ (m ((c.tc : Thread nD τ).loc main_arg1) idx).toInt < 100000) :
    Cert.ReferenceIdeal.Value.res_main_v61 m c
      = Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) :=
  (val_main_v61_eq (F := Ideal) m c).trans (ref_eq_G _ _ _ _ _ _ _ _ _ _ hE)

end Cert.RefVal

end
-- ==== Proof.PreFacts.lean ====
/-
  Facts read out of the precondition. The precondition is a conjunction of eleven universal statements: for each of
  the nine float arrays "every entry has absolute value below +∞", and for the integer array of edge endpoints "every
  entry is ≥ 0" and "every entry is < 100000". Each of them is an and-reduction of comparison bits over all axes from the
  constant 1, so the whole being 1 gives the compared bit at every index. Generic in the float instance the eleven elementwise facts
  are `conjuncts`; the two integer ones give `edges_lt` (an endpoint read as a natural number is below 100000), and at
  the ideal instance (floats are extended reals) each float one says the entry is a real number.
-/
import proofs.«400866_j57071525429608_2_alg».proof.Pre_finite_inputs
import Idealize.ShloMosaic.Lib.StableHlo.Predicate
import Idealize.ShloMosaic.Lib.ReduceAll
import Idealize.ShloMosaic.Lib.ValueIdx
import Idealize.ShloMosaic.PureOps.Ideal

namespace Cert.PreFacts

open Idealize.ShloMosaic Cert.Pre_finite_inputs

/-- The shape of a scalar has one index. -/
instance : Subsingleton S_.Idx := ⟨fun a b => funext fun d => d.elim0⟩

/-- "|x| < +∞" at one entry, as the precondition spells it: the comparison bit of the host's absolute value against
    the pattern of +∞. -/
abbrev FiniteBit {F : FTy → Type} [FloatOps F] (x : F .f32) : Prop :=
  FloatOps.cmpf .olt (FloatOps.hostAbsf x) (FloatOps.ofBits (F := F) .f32 0x7F800000#32) = 1#1

section Generic

variable {F : FTy → Type} [FloatOps F] [Facts]

/-- The eleven conjuncts of the precondition, each read at every index. -/
theorem conjuncts (a0 : FVec F S100000x128 .f32) (a1 : IVec S2x1000000 32) (a2 : FVec F S64x256 .f32)
    (a3 : FVec F S64 .f32) (a4 : FVec F S64x64 .f32) (a5 : FVec F S64 .f32) (a6 : FVec F S64 .f32)
    (a7 : FVec F S64 .f32) (a8 : FVec F S1x64 .f32) (a9 : FVec F S1 .f32)
    (h : fn (F := F) a0 a1 a2 a3 a4 a5 a6 a7 a8 a9 = fun _ => 1#1) :
    (∀ i, FiniteBit (a0 i)) ∧ (∀ i, FiniteBit (a2 i)) ∧ (∀ i, FiniteBit (a3 i)) ∧ (∀ i, FiniteBit (a4 i))
      ∧ (∀ i, FiniteBit (a5 i)) ∧ (∀ i, FiniteBit (a6 i)) ∧ (∀ i, FiniteBit (a7 i)) ∧ (∀ i, FiniteBit (a8 i))
      ∧ (∀ i, FiniteBit (a9 i))
      ∧ (∀ i, IntOp.cmpi .sge (a1 i) 0#32 = 1#1) ∧ (∀ i, IntOp.cmpi .slt (a1 i) 100000#32 = 1#1) := by
  have h0 := congrFun h ValueIdx.ix0
  dsimp only [fn, fn_part1, fn_part2, fn_part3] at h0
  simp only [andi, IntOp.andi_eq_one] at h0
  obtain ⟨⟨⟨⟨⟨⟨⟨⟨⟨⟨e0, e2⟩, e3⟩, e4⟩, e5⟩, e6⟩, e7⟩, e8⟩, e9⟩, eg⟩, el⟩ := h0
  exact ⟨fun i => Host.reduce_andi_all _ _ _ _ _ e0 i, fun i => Host.reduce_andi_all _ _ _ _ _ e2 i,
    fun i => Host.reduce_andi_all _ _ _ _ _ e3 i, fun i => Host.reduce_andi_all _ _ _ _ _ e4 i,
    fun i => Host.reduce_andi_all _ _ _ _ _ e5 i, fun i => Host.reduce_andi_all _ _ _ _ _ e6 i,
    fun i => Host.reduce_andi_all _ _ _ _ _ e7 i, fun i => Host.reduce_andi_all _ _ _ _ _ e8 i,
    fun i => Host.reduce_andi_all _ _ _ _ _ e9 i, fun i => Host.reduce_andi_all _ _ _ _ _ eg i,
    fun i => Host.reduce_andi_all _ _ _ _ _ el i⟩

/-- A 32-bit word that compares signed ≥ 0 and signed < 100000 is, read unsigned, below 100000. -/
theorem toNat_lt_of_bits (v : BitVec 32) (hge : IntOp.cmpi .sge v 0#32 = 1#1)
    (hlt : IntOp.cmpi .slt v 100000#32 = 1#1) : v.toNat < 100000 := by
  rw [IntOp.cmpi_sge, show (0#32 : BitVec 32).toInt = 0 from by decide] at hge
  rw [IntOp.cmpi_slt, show (100000#32 : BitVec 32).toInt = 100000 from by decide] at hlt
  have hs : 2 * v.toNat < 2 ^ 32 := BitVec.toInt_pos_iff.1 hge
  have hi : v.toInt = v.toNat := StableHlo.Predicate.toInt_eq_toNat_of_lt (by omega)
  omega

/-- Every edge endpoint, read as a natural number, is a row of the node table: below 100000. -/
theorem edges_lt (a0 : FVec F S100000x128 .f32) (a1 : IVec S2x1000000 32) (a2 : FVec F S64x256 .f32)
    (a3 : FVec F S64 .f32) (a4 : FVec F S64x64 .f32) (a5 : FVec F S64 .f32) (a6 : FVec F S64 .f32)
    (a7 : FVec F S64 .f32) (a8 : FVec F S1x64 .f32) (a9 : FVec F S1 .f32)
    (h : fn (F := F) a0 a1 a2 a3 a4 a5 a6 a7 a8 a9 = fun _ => 1#1) :
    ∀ idx : S2x1000000.Idx, (a1 idx).toNat < 100000 := fun idx =>
  have c := conjuncts a0 a1 a2 a3 a4 a5 a6 a7 a8 a9 h
  toNat_lt_of_bits (a1 idx) (c.2.2.2.2.2.2.2.2.2.1 idx) (c.2.2.2.2.2.2.2.2.2.2 idx)

end Generic

/-! ## At the ideal instance: a finite entry is a real number -/

/-- An extended real whose absolute value is below +∞ is a real. -/
theorem real_of_finiteBit (x : Ideal .f32) (h : FiniteBit (F := Ideal) x) : ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  rw [StableHlo.Predicate.ofBool_eq_one_iff, decide_eq_true_eq, max_lt_iff] at h
  induction x using EReal.rec with
  | bot => simp at h
  | coe r => exact ⟨r, rfl⟩
  | top => simp at h

section AtIdeal

variable [Facts] (a0 : FVec Ideal S100000x128 .f32) (a1 : IVec S2x1000000 32) (a2 : FVec Ideal S64x256 .f32)
  (a3 : FVec Ideal S64 .f32) (a4 : FVec Ideal S64x64 .f32) (a5 : FVec Ideal S64 .f32) (a6 : FVec Ideal S64 .f32)
  (a7 : FVec Ideal S64 .f32) (a8 : FVec Ideal S1x64 .f32) (a9 : FVec Ideal S1 .f32)
  (h : fn (F := Ideal) a0 a1 a2 a3 a4 a5 a6 a7 a8 a9 = fun _ => 1#1)

include h

theorem finite_arg0 : ∀ idx, ∃ r : ℝ, a0 idx = (r : EReal) := fun idx =>
  real_of_finiteBit _ ((conjuncts a0 a1 a2 a3 a4 a5 a6 a7 a8 a9 h).1 idx)
theorem finite_arg2 : ∀ idx, ∃ r : ℝ, a2 idx = (r : EReal) := fun idx =>
  real_of_finiteBit _ ((conjuncts a0 a1 a2 a3 a4 a5 a6 a7 a8 a9 h).2.1 idx)
theorem finite_arg3 : ∀ idx, ∃ r : ℝ, a3 idx = (r : EReal) := fun idx =>
  real_of_finiteBit _ ((conjuncts a0 a1 a2 a3 a4 a5 a6 a7 a8 a9 h).2.2.1 idx)
theorem finite_arg4 : ∀ idx, ∃ r : ℝ, a4 idx = (r : EReal) := fun idx =>
  real_of_finiteBit _ ((conjuncts a0 a1 a2 a3 a4 a5 a6 a7 a8 a9 h).2.2.2.1 idx)
theorem finite_arg5 : ∀ idx, ∃ r : ℝ, a5 idx = (r : EReal) := fun idx =>
  real_of_finiteBit _ ((conjuncts a0 a1 a2 a3 a4 a5 a6 a7 a8 a9 h).2.2.2.2.1 idx)
theorem finite_arg6 : ∀ idx, ∃ r : ℝ, a6 idx = (r : EReal) := fun idx =>
  real_of_finiteBit _ ((conjuncts a0 a1 a2 a3 a4 a5 a6 a7 a8 a9 h).2.2.2.2.2.1 idx)
theorem finite_arg7 : ∀ idx, ∃ r : ℝ, a7 idx = (r : EReal) := fun idx =>
  real_of_finiteBit _ ((conjuncts a0 a1 a2 a3 a4 a5 a6 a7 a8 a9 h).2.2.2.2.2.2.1 idx)
theorem finite_arg8 : ∀ idx, ∃ r : ℝ, a8 idx = (r : EReal) := fun idx =>
  real_of_finiteBit _ ((conjuncts a0 a1 a2 a3 a4 a5 a6 a7 a8 a9 h).2.2.2.2.2.2.2.1 idx)
theorem finite_arg9 : ∀ idx, ∃ r : ℝ, a9 idx = (r : EReal) := fun idx =>
  real_of_finiteBit _ ((conjuncts a0 a1 a2 a3 a4 a5 a6 a7 a8 a9 h).2.2.2.2.2.2.2.2.1 idx)

end AtIdeal

end Cert.PreFacts
-- ==== Proof.Claims.lean ====
/- The claims' assembly: the reference's frame, the idealization's preservation, and the agreement of the idealized kernel
   with the idealized reference, given the kernel side.

   Both idealized programs compute, at the extended reals, one function of the ten argument arrays: the edge network's
   score `Spec.G`. The reference's generated run names its result, which is that function of its own arguments wherever
   the edge array is in range; the precondition puts it in range. So from memories that agree on the arguments the two
   results are the same array, once the kernel's run is known to end at `Spec.G` of its arguments with the arguments
   unchanged — the hypothesis `hk`. The reference's frame is its run with the result dropped; the idealization rewrote no
   operation, so its preservation claim is `True`. -/
import proofs.«400866_j57071525429608_2_alg».proof.Defs
import proofs.«400866_j57071525429608_2_alg».proof.Proof.Gen.Kernel
import proofs.«400866_j57071525429608_2_alg».proof.Proof.Gen.KernelIdeal
import proofs.«400866_j57071525429608_2_alg».proof.Proof.Gen.ReferenceIdeal
import proofs.«400866_j57071525429608_2_alg».proof.Proof.Gen.Pre_finite_inputs
import proofs.«400866_j57071525429608_2_alg».proof.Proof.Gen.ReferenceIdeal.Run
import proofs.«400866_j57071525429608_2_alg».proof.Proof.RefVal
import proofs.«400866_j57071525429608_2_alg».proof.Proof.PreFacts
import proofs.«400866_j57071525429608_2_alg».proof.Proof.Spec

noncomputable section

namespace Cert.Proof.Claims

open Idealize.ShloMosaic Idealize.SL.Sem

/-- The reference's frame: its generated run, the result dropped. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The two idealized programs end with equal results from memories agreeing on the arguments, given that the kernel's run
    ends at the score of its arguments with the arguments unchanged. -/
theorem algebraic_of
    (hk : ∀ (m : (ℓ : Loc Cert.KernelIdeal.nD Cert.KernelIdeal.τ Cert.KernelIdeal.sig) → Buf (Elt Ideal) ℓ) (ρ : Dev Cert.KernelIdeal.nD → PrngReg),
      Cert.Pre_KernelIdeal (hPre_finite_inputs := Cert.Pre_finite_inputs.Gen.facts) m →
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v105)
          = Cert.Spec.G (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))
              (m ((c.tc : Thread Cert.KernelIdeal.nD Cert.KernelIdeal.τ).loc Cert.KernelIdeal.main_arg7))
              (m ((c.tc : Thread Cert.KernelIdeal.nD Cert.KernelIdeal.τ).loc Cert.KernelIdeal.main_arg8))
              (m ((c.tc : Thread Cert.KernelIdeal.nD Cert.KernelIdeal.τ).loc Cert.KernelIdeal.main_arg9))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), hk m ρ hpre, ?_⟩
  refine (θ_run Cert.ReferenceIdeal.defs _ _).mono (fun _ h c => ⟨(h c).1.trans ?_, (h c).2⟩)
    (Cert.ReferenceIdeal.Value.run (F := Ideal) m' ρ')
  -- the precondition puts the kernel's edge array in range; the reference's is the same array
  have hlt : ∀ idx, (m ((c.tc : Thread Cert.KernelIdeal.nD Cert.KernelIdeal.τ).loc Cert.KernelIdeal.main_arg1) idx).toNat < 100000 :=
    Cert.PreFacts.edges_lt _ _ _ _ _ _ _ _ _ _ (hpre c)
  have hE : ∀ idx, 0 ≤ (m' ((c.tc : Thread Cert.ReferenceIdeal.nD Cert.ReferenceIdeal.τ).loc Cert.ReferenceIdeal.main_arg1) idx).toInt
      ∧ (m' ((c.tc : Thread Cert.ReferenceIdeal.nD Cert.ReferenceIdeal.τ).loc Cert.ReferenceIdeal.main_arg1) idx).toInt < 100000 := by
    rw [(hagree c).2.1]
    exact Cert.Spec.hE_of_toNat_lt _ hlt
  rw [Cert.RefVal.res_eq_G m' c hE, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1,
    (hagree c).2.2.2.2.2.2.2.2.2]

/-- Everything the certificate claims, given the two kernel frames and the kernel's value. -/
theorem claim_of
    (hfK : Cert.frame_Kernel (hKernel := Cert.Kernel.Gen.facts) (hPre_finite_inputs := Cert.Pre_finite_inputs.Gen.facts))
    (hfKI : Cert.frame_KernelIdeal (hKernelIdeal := Cert.KernelIdeal.Gen.facts) (hPre_finite_inputs := Cert.Pre_finite_inputs.Gen.facts))
    (hk : ∀ (m : (ℓ : Loc Cert.KernelIdeal.nD Cert.KernelIdeal.τ Cert.KernelIdeal.sig) → Buf (Elt Ideal) ℓ) (ρ : Dev Cert.KernelIdeal.nD → PrngReg),
      Cert.Pre_KernelIdeal (hPre_finite_inputs := Cert.Pre_finite_inputs.Gen.facts) m →
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v105)
          = Cert.Spec.G (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))
              (m ((c.tc : Thread Cert.KernelIdeal.nD Cert.KernelIdeal.τ).loc Cert.KernelIdeal.main_arg7))
              (m ((c.tc : Thread Cert.KernelIdeal.nD Cert.KernelIdeal.τ).loc Cert.KernelIdeal.main_arg8))
              (m ((c.tc : Thread Cert.KernelIdeal.nD Cert.KernelIdeal.τ).loc Cert.KernelIdeal.main_arg9))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))) :
    Cert.Claim :=
  ⟨Cert.Kernel.Gen.facts, Cert.KernelIdeal.Gen.facts, Cert.ReferenceIdeal.Gen.facts, Cert.Pre_finite_inputs.Gen.facts,
    hfK, hfKI, frame_ri, preserves, algebraic_of hk⟩

end Cert.Proof.Claims

end
-- ==== Proof.GlueBase.lean ====
/-
  Changing a core's buffer contents at a few named buffers: the bookkeeping behind the run's chain of contents.

  Between two items of the program a core's buffers hold some contents W (one value per buffer). A kernel region
  changes a few of them — each gather-and-project region its three results, the normalising pass its one — and
  leaves every other buffer alone. What is proved here, once, for any contents and any distinct buffers:
  the changed contents hold the new values at the named buffers and the old ones elsewhere, and changing W at the
  named buffers to what the changed contents hold there gives the changed contents again. The last fact is what
  ties a family of unknowns "what the regions leave" to one chosen chain of contents.

  Also here: the program runs on one device, so every device is that one.
-/
import proofs.«400866_j57071525429608_2_alg».proof.Proof.KernelIdealRegions

noncomputable section

namespace Cert.KernelIdeal.Glue

open Cert.KernelIdeal Cert.KernelIdeal.Gen
open Idealize.ShloMosaic Idealize.ShloMosaic.TcCoe

variable {F : FTy → Type} [FloatOps F]

/-! ## One device -/

/-- The device the program runs on. -/
abbrev c₀ : Dev nD := ⟨0, Nat.one_pos⟩

/-- There is no other. -/
theorem dev_eq (c : Dev nD) : c = c₀ := Fin.ext (Nat.lt_one_iff.mp c.isLt)

/-! ## Contents changed at three buffers -/

section Three

variable (W : Valuation τ sig (Elt F)) (r1 r2 r0 : Ref sig .tc)
  (x1 : (Proc.devRef (τ := τ) .tc r1).ty.Contents (Elt F)) (x2 : (Proc.devRef (τ := τ) .tc r2).ty.Contents (Elt F))
  (x0 : (Proc.devRef (τ := τ) .tc r0).ty.Contents (Elt F))

/-- The contents W with buffer r1 at x1, then r2 at x2, then r0 at x0. -/
def set3 : Valuation τ sig (Elt F) :=
  Function.update (Function.update (Function.update W (Proc.devRef .tc r1) x1) (Proc.devRef .tc r2) x2) (Proc.devRef .tc r0) x0

/-- At the first buffer, distinct from the two set after it, the first value; -/
theorem set3_1 (h12 : r1 ≠ r2) (h10 : r1 ≠ r0) : set3 W r1 r2 r0 x1 x2 x0 (Proc.devRef .tc r1) = x1 := by
  unfold set3
  rw [Function.update_of_ne (StableHlo.devRef_ne_of_ne h10), Function.update_of_ne (StableHlo.devRef_ne_of_ne h12),
    Function.update_self]

/-- at the second, distinct from the one set after it, the second; -/
theorem set3_2 (h20 : r2 ≠ r0) : set3 W r1 r2 r0 x1 x2 x0 (Proc.devRef .tc r2) = x2 := by
  unfold set3
  rw [Function.update_of_ne (StableHlo.devRef_ne_of_ne h20), Function.update_self]

/-- at the third the third; -/
theorem set3_0 : set3 W r1 r2 r0 x1 x2 x0 (Proc.devRef .tc r0) = x0 := by
  unfold set3
  rw [Function.update_self]

/-- and at any other buffer what W held. -/
theorem set3_of (r : Ref sig .tc) (h1 : r ≠ r1) (h2 : r ≠ r2) (h0 : r ≠ r0) :
    set3 W r1 r2 r0 x1 x2 x0 (Proc.devRef .tc r) = W (Proc.devRef .tc r) := by
  unfold set3
  rw [Function.update_of_ne (StableHlo.devRef_ne_of_ne h0), Function.update_of_ne (StableHlo.devRef_ne_of_ne h2),
    Function.update_of_ne (StableHlo.devRef_ne_of_ne h1)]

/-- W changed at the three buffers to what the changed contents hold there is the changed contents. -/
theorem set3_self (h12 : r1 ≠ r2) (h10 : r1 ≠ r0) (h20 : r2 ≠ r0) :
    Function.update (Function.update (Function.update W (Proc.devRef .tc r1) (set3 W r1 r2 r0 x1 x2 x0 (Proc.devRef .tc r1)))
      (Proc.devRef .tc r2) (set3 W r1 r2 r0 x1 x2 x0 (Proc.devRef .tc r2))) (Proc.devRef .tc r0) (set3 W r1 r2 r0 x1 x2 x0 (Proc.devRef .tc r0))
      = set3 W r1 r2 r0 x1 x2 x0 := by
  rw [set3_1 W r1 r2 r0 x1 x2 x0 h12 h10, set3_2 W r1 r2 r0 x1 x2 x0 h20, set3_0]
  rfl

/-- One step of a chain: if contents V are the contents W, then V changed at the three buffers to what W' holds
    there, W' being W changed there, is W'. -/
theorem set3_step {V W' : Valuation τ sig (Elt F)} (hVW : V = W) (hW' : W' = set3 W r1 r2 r0 x1 x2 x0)
    (h12 : r1 ≠ r2) (h10 : r1 ≠ r0) (h20 : r2 ≠ r0) :
    set3 V r1 r2 r0 (W' (Proc.devRef .tc r1)) (W' (Proc.devRef .tc r2)) (W' (Proc.devRef .tc r0)) = W' := by
  subst hVW hW'
  rw [set3_1 V r1 r2 r0 x1 x2 x0 h12 h10, set3_2 V r1 r2 r0 x1 x2 x0 h20, set3_0]

/-- The same with the three values given by name: contents V, equal to W, changed at the three buffers to values that
    are what W' holds there, W' being W changed there, are W'. Every hypothesis is an equation to be supplied, so that
    nothing is found by unfolding. -/
theorem set3_chain {V W' : Valuation τ sig (Elt F)}
    (y1 : (Proc.devRef (τ := τ) .tc r1).ty.Contents (Elt F)) (y2 : (Proc.devRef (τ := τ) .tc r2).ty.Contents (Elt F))
    (y0 : (Proc.devRef (τ := τ) .tc r0).ty.Contents (Elt F))
    (hVW : V = W) (hW' : W' = set3 W r1 r2 r0 x1 x2 x0)
    (e1 : y1 = W' (Proc.devRef .tc r1)) (e2 : y2 = W' (Proc.devRef .tc r2)) (e0 : y0 = W' (Proc.devRef .tc r0))
    (h12 : r1 ≠ r2) (h10 : r1 ≠ r0) (h20 : r2 ≠ r0) :
    set3 V r1 r2 r0 y1 y2 y0 = W' := by
  subst e1 e2 e0
  exact set3_step W r1 r2 r0 x1 x2 x0 hVW hW' h12 h10 h20

end Three

/-! ## Contents changed at one buffer -/

/-- One step of a chain, for a region with one result. -/
theorem set1_step {V W W' : Valuation τ sig (Elt F)} (r : Ref sig .tc) (x : (Proc.devRef (τ := τ) .tc r).ty.Contents (Elt F))
    (hVW : V = W) (hW' : W' = Function.update W (Proc.devRef .tc r) x) :
    Function.update V (Proc.devRef .tc r) (W' (Proc.devRef .tc r)) = W' := by
  subst hVW hW'
  rw [Function.update_self]

/-- The same with the value given by name. -/
theorem set1_chain {V W W' : Valuation τ sig (Elt F)} (r : Ref sig .tc) (x y : (Proc.devRef (τ := τ) .tc r).ty.Contents (Elt F))
    (hVW : V = W) (hW' : W' = Function.update W (Proc.devRef .tc r) x) (e : y = W' (Proc.devRef .tc r)) :
    Function.update V (Proc.devRef .tc r) y = W' := by
  subst e
  exact set1_step r x hVW hW'

/-- W changed at a buffer to what the changed contents hold there is the changed contents. -/
theorem set1_self (W : Valuation τ sig (Elt F)) (r : Ref sig .tc) (x : (Proc.devRef (τ := τ) .tc r).ty.Contents (Elt F)) :
    Function.update W (Proc.devRef .tc r) (Function.update W (Proc.devRef .tc r) x (Proc.devRef .tc r))
      = Function.update W (Proc.devRef .tc r) x := by
  rw [Function.update_self]

end Cert.KernelIdeal.Glue

end
-- ==== Proof.Pass2.lean ====
/-
  The normalising pass, the last kernel region of the program: its frame-and-value half.

  The region walks the 1000000 rows of the hidden array h in 125 blocks of 8000 rows. At block t it holds the
  8000 x 64 block of h and six small operands that never move — the column means, the column variances, the
  scale gamma, the shift beta (each 1 x 64), the output weights (1 x 64) and the output bias (1 x 1) — and writes
  the 8000 x 1 block of the result: relu((h − mean) · rsqrt(var + eps) · gamma + beta) contracted with the output
  weights, plus the bias.

  Everything here is stated at a PARAMETER V, the core's buffer contents when the region is entered, so that
  whoever runs the program may put in what the host stretch before the region left there. Per point t:
    * the block each window reads off its array (iblk16);
    * what the body leaves in the result block's buffer, a pure function of the seven blocks it read (out16_7);
    * the body's triple on any eight whole buffers (sound_kernel16);
    * the pipeline's proof data (dat16) with its projections (A_eq16, after16_w, before16_w);
    * the body obligation at every point (body_obligation16);
    * the result block in closed form, the payload of the seven blocks with no rectangle left (out16_7_eq).
  The six small operands are fetched at the first point only; at a later point their block index has not moved,
  so the buffer still holds the one block there is, which is the block of that point too.
-/
import proofs.«400866_j57071525429608_2_alg».proof.Proof.Gen.KernelIdeal.Launch
import proofs.«400866_j57071525429608_2_alg».proof.Proof.Gen.KernelIdeal.Skeleton
import proofs.«400866_j57071525429608_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.P2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The block each window reads -/

/-- Window w's block at point t, read off the window's array as the region finds it. For window 0 these are
    rows 8000 t … 8000 t + 7999 of h, for windows 1 … 6 the whole small operand, for window 7 the same rows of
    the result array. -/
def iblk16 (c : Dev nD) (w : Fin cfg16.W) (t : Fin cfg16.N) :
    ((cfg16.win w).xblock (cfg16.grid.coords t)).Idx → Elt F (cfg16.win w).elt :=
  ((cfg16.win w).blk t).view.read (Elt F) (V c (Pipeline.arrRef spec16 w))

/-! ## What the body finds in an input window's buffer

An input window's buffer holds, at every point, what a fetch there would put in it — fetched there or not. Not
fetched means the block index did not move, and the buffer still holds the previous point's block, which is this
point's. For window 0 (fetched at every point) this is the fetch itself; for the six small operands (fetched at
the first point only) it is the block of the first point carried along. Stated for ANY proof data whose array is
V's and whose body leaves the block in place, so that proof data over another invariant may cite it too. -/

section Held

variable {c : Dev nD} (dat : Dat τ (Elt F) Unit ℕ (Pipeline.UD sig nD τ) ℕ cfg16 c)

/-- The block of h: rows 8000 t … of the array. -/
theorem before16_0_of (hA : dat.A 0 = V c (Pipeline.arrRef spec16 0)) (hafter : ∀ t, dat.after 0 t = iblk16 V c 0 t)
    (t : Fin cfg16.N) (d) : dat.before 0 t d = iblk16 V c 0 t :=
  (dat.before_in_eq_fetched 0 rfl (fun _ => rfl) (fun _ _ _ => rfl)
    (fun t => by rw [hafter]; unfold Dat.blockOf iblk16; rw [hA]; try rfl) t d).trans
    (by unfold Dat.fetched Dat.blockOf iblk16; rw [hA]; try rfl)

/-- The column means. -/
theorem before16_1_of (hA : dat.A 1 = V c (Pipeline.arrRef spec16 1)) (hafter : ∀ t, dat.after 1 t = iblk16 V c 1 t)
    (t : Fin cfg16.N) (d) : dat.before 1 t d = iblk16 V c 1 t :=
  (dat.before_in_eq_fetched 1 rfl (fun _ => rfl) (fun _ _ _ => rfl)
    (fun t => by rw [hafter]; unfold Dat.blockOf iblk16; rw [hA]; try rfl) t d).trans
    (by unfold Dat.fetched Dat.blockOf iblk16; rw [hA]; try rfl)

/-- The column variances. -/
theorem before16_2_of (hA : dat.A 2 = V c (Pipeline.arrRef spec16 2)) (hafter : ∀ t, dat.after 2 t = iblk16 V c 2 t)
    (t : Fin cfg16.N) (d) : dat.before 2 t d = iblk16 V c 2 t :=
  (dat.before_in_eq_fetched 2 rfl (fun _ => rfl) (fun _ _ _ => rfl)
    (fun t => by rw [hafter]; unfold Dat.blockOf iblk16; rw [hA]; try rfl) t d).trans
    (by unfold Dat.fetched Dat.blockOf iblk16; rw [hA]; try rfl)

/-- The scale. -/
theorem before16_3_of (hA : dat.A 3 = V c (Pipeline.arrRef spec16 3)) (hafter : ∀ t, dat.after 3 t = iblk16 V c 3 t)
    (t : Fin cfg16.N) (d) : dat.before 3 t d = iblk16 V c 3 t :=
  (dat.before_in_eq_fetched 3 rfl (fun _ => rfl) (fun _ _ _ => rfl)
    (fun t => by rw [hafter]; unfold Dat.blockOf iblk16; rw [hA]; try rfl) t d).trans
    (by unfold Dat.fetched Dat.blockOf iblk16; rw [hA]; try rfl)

/-- The shift. -/
theorem before16_4_of (hA : dat.A 4 = V c (Pipeline.arrRef spec16 4)) (hafter : ∀ t, dat.after 4 t = iblk16 V c 4 t)
    (t : Fin cfg16.N) (d) : dat.before 4 t d = iblk16 V c 4 t :=
  (dat.before_in_eq_fetched 4 rfl (fun _ => rfl) (fun _ _ _ => rfl)
    (fun t => by rw [hafter]; unfold Dat.blockOf iblk16; rw [hA]; try rfl) t d).trans
    (by unfold Dat.fetched Dat.blockOf iblk16; rw [hA]; try rfl)

/-- The output weights. -/
theorem before16_5_of (hA : dat.A 5 = V c (Pipeline.arrRef spec16 5)) (hafter : ∀ t, dat.after 5 t = iblk16 V c 5 t)
    (t : Fin cfg16.N) (d) : dat.before 5 t d = iblk16 V c 5 t :=
  (dat.before_in_eq_fetched 5 rfl (fun _ => rfl) (fun _ _ _ => rfl)
    (fun t => by rw [hafter]; unfold Dat.blockOf iblk16; rw [hA]; try rfl) t d).trans
    (by unfold Dat.fetched Dat.blockOf iblk16; rw [hA]; try rfl)

/-- The output bias. -/
theorem before16_6_of (hA : dat.A 6 = V c (Pipeline.arrRef spec16 6)) (hafter : ∀ t, dat.after 6 t = iblk16 V c 6 t)
    (t : Fin cfg16.N) (d) : dat.before 6 t d = iblk16 V c 6 t :=
  (dat.before_in_eq_fetched 6 rfl (fun _ => rfl) (fun _ _ _ => rfl)
    (fun t => by rw [hafter]; unfold Dat.blockOf iblk16; rw [hA]; try rfl) t d).trans
    (by unfold Dat.fetched Dat.blockOf iblk16; rw [hA]; try rfl)

end Held

/-! ## The body's accesses: every load and the one store take the whole buffer -/

abbrev whole8000x64 : Rect S8000x64 := Rect.unit (s := S8000x64) ![0, 0] S8000x64.size inb_S8000x64_S8000x64_0_0
abbrev whole1x64 : Rect S1x64 := Rect.unit (s := S1x64) ![0, 0] S1x64.size inb_S1x64_S1x64_0_0
abbrev whole1x1 : Rect S1x1 := Rect.unit (s := S1x1) ![0, 0] S1x1.size inb_S1x1_S1x1_0_0
abbrev whole8000x1 : Rect S8000x1 := Rect.unit (s := S8000x1) ![0, 0] S8000x1.size inb_S8000x1_S8000x1_0_0

/-! ## What the body leaves in the result block's buffer -/

/-- The result block after the body, from the seven blocks read: h's rows, the means, the variances, the scale,
    the shift, the output weights, the output bias. The body's one store takes the whole buffer, so the buffer
    holds that store's payload — row by row, relu((h − mean) · rsqrt(var + eps) · gamma + beta) contracted with the
    weights, plus the bias. -/
def out16_7 (h : Vec F S8000x64 .f32) (mean var gamma beta wout : Vec F S1x64 .f32) (bout : Vec F S1x1 .f32) :
    Vec F S8000x1 .f32 :=
  View.canon [⟨whole8000x1,
    k16_pay1 (View.ld h whole8000x64) (View.ld mean whole1x64) (View.ld var whole1x64) (View.ld gamma whole1x64)
      (View.ld beta whole1x64) (View.ld wout whole1x64) (View.ld bout whole1x1)⟩]

/-- The one store is the whole buffer, so it covers it. -/
theorem cover16_7 (p : Vec F S8000x1 .f32) (y : S8000x1.Idx) :
    ∃ pc ∈ ([⟨whole8000x1, p⟩] : List (View.Piece (Elt F) S8000x1 .f32)), y ∈ pc.1.set :=
  View.cover_of_tiled [⟨whole8000x1, p⟩] S8000x1.size (by rfl) y

/-! ## The body's triple -/

set_option maxHeartbeats 1000000 in
/-- The body on any eight whole buffers, the seven inputs' at read contents and the result's at anything, runs to
    the continuation holding the inputs' as they were and the result's at out16_7 of them. The body loads the eight
    buffers whole (the result's too: what it reads there goes nowhere) and stores the payload over the result's. -/
theorem sound_kernel16 (c : Dev nD) (E : Set ℕ) (i : grid16.Coords)
    (arg1 : Memref sig .tc .vmem S8000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x1 .f32) (harg7 : arg7.IsWhole) (arg8 : Memref sig .tc .vmem S8000x1 .f32) (harg8 : arg8.IsWhole)
    (h : Vec F S8000x64 .f32) (mean var gamma beta wout : Vec F S1x64 .f32) (bout : Vec F S1x1 .f32) (K : PUnit → sProp 𝕄) :
    iprop(owns (c : Thread nD τ) arg1 fullShare h ∗ owns (c : Thread nD τ) arg2 fullShare mean
        ∗ owns (c : Thread nD τ) arg3 fullShare var ∗ owns (c : Thread nD τ) arg4 fullShare gamma
        ∗ owns (c : Thread nD τ) arg5 fullShare beta ∗ owns (c : Thread nD τ) arg6 fullShare wout
        ∗ owns (c : Thread nD τ) arg7 fullShare bout ∗ (∃ d, owns (c : Thread nD τ) arg8 fullShare d)
        ∗ (iprop(owns (c : Thread nD τ) arg1 fullShare h ∗ owns (c : Thread nD τ) arg2 fullShare mean
            ∗ owns (c : Thread nD τ) arg3 fullShare var ∗ owns (c : Thread nD τ) arg4 fullShare gamma
            ∗ owns (c : Thread nD τ) arg5 fullShare beta ∗ owns (c : Thread nD τ) arg6 fullShare wout
            ∗ owns (c : Thread nD τ) arg7 fullShare bout
            ∗ owns (c : Thread nD τ) arg8 fullShare (out16_7 h mean var gamma beta wout bout)) -∗ K ⟨⟩))
      ⊢ wp frame (wpE (defs₀ (F := F)) Variants.none c none) E
          (cc16__pass2_kernel i arg1 harg1 arg2 harg2 arg3 harg3 arg4 harg4 arg5 harg5 arg6 harg6 arg7 harg7 arg8 harg8) K := by
  simp only [cc16__pass2_kernel_eq_skeleton]; unfold cc16__pass2_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩,
    ⟨%d7, %f7, -, H7⟩, Hk⟩
  subst e0 e1 e2 e3 e4 e5 e6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover16_7 _)

/-! ## The pipeline's proof data -/

/-- The proof data of the normalising pass on core c: the arrays as the region finds them; after the body at
    point t each input's buffer still at its block and the result's at out16_7 of the seven input blocks; the
    invariant the scoped buffers no window stages and the generator register, at whatever they hold (the body
    touches neither); nothing owed; full shares. -/
def dat16 (c : Dev nD) : Dat τ (Elt F) Unit ℕ (Pipeline.UD sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => iblk16 V c 4 t
    | ⟨5, _⟩ => iblk16 V c 5 t
    | ⟨6, _⟩ => iblk16 V c 6 t
    | ⟨7, _⟩ => out16_7 (iblk16 V c 0 t) (iblk16 V c 1 t) (iblk16 V c 2 t) (iblk16 V c 3 t) (iblk16 V c 4 t)
        (iblk16 V c 5 t) (iblk16 V c 6 t)
  Φ _ := Pipeline.ΦA spec16 c
  q _ := fullShare
  owed _ := 0

/-- The proof data's arrays are the region-entry contents. -/
theorem A_eq16 (c : Dev nD) (w : Fin cfg16.W) : (dat16 V c).A w = V c (Pipeline.arrRef spec16 w) := by
  dsimp only [dat16]

/-- What the body leaves, window by window: an input's block where it was, -/
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = iblk16 V c 4 t := by dsimp only [dat16]
theorem after16_5 (c : Dev nD) (t : Fin cfg16.N) : (dat16 V c).after 5 t = iblk16 V c 5 t := by dsimp only [dat16]
theorem after16_6 (c : Dev nD) (t : Fin cfg16.N) : (dat16 V c).after 6 t = iblk16 V c 6 t := by dsimp only [dat16]
/-- and the result block at the pure function of the seven. -/
theorem after16_7 (c : Dev nD) (t : Fin cfg16.N) : (dat16 V c).after 7 t =
    out16_7 (iblk16 V c 0 t) (iblk16 V c 1 t) (iblk16 V c 2 t) (iblk16 V c 3 t) (iblk16 V c 4 t) (iblk16 V c 5 t)
      (iblk16 V c 6 t) := by dsimp only [dat16]

/-- Each input's current buffer holds its block at every point, fetched there or not. -/
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d
theorem before16_4 (c : Dev nD) (t : Fin cfg16.N) (d) : (dat16 V c).before 4 t d = iblk16 V c 4 t :=
  before16_4_of V (dat16 V c) (A_eq16 V c 4) (after16_4 V c) t d
theorem before16_5 (c : Dev nD) (t : Fin cfg16.N) (d) : (dat16 V c).before 5 t d = iblk16 V c 5 t :=
  before16_5_of V (dat16 V c) (A_eq16 V c 5) (after16_5 V c) t d
theorem before16_6 (c : Dev nD) (t : Fin cfg16.N) (d) : (dat16 V c).before 6 t d = iblk16 V c 6 t :=
  before16_6_of V (dat16 V c) (A_eq16 V c 6) (after16_6 V c) t d

/-! ## The body obligation, at a generic point -/

/-- What the body is called with at point t: the invariant, the core's debts, and the eight current buffers,
    each at what it holds when the body runs, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d))
    ∗ (∃ d, owns (c : Thread nD τ) (st16_5 t) fullShare ((dat16 V c).before 5 t d))
    ∗ (∃ d, owns (c : Thread nD τ) (st16_6 t) fullShare ((dat16 V c).before 6 t d))
    ∗ (∃ d, owns (c : Thread nD τ) (st16_7 t) fullShare ((dat16 V c).before 7 t d)))

/-- and what it returns: the same, each buffer at what the body leaves. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t)
    ∗ owns (c : Thread nD τ) (st16_5 t) fullShare ((dat16 V c).after 5 t)
    ∗ owns (c : Thread nD τ) (st16_6 t) fullShare ((dat16 V c).after 6 t)
    ∗ owns (c : Thread nD τ) (st16_7 t) fullShare ((dat16 V c).after 7 t))

/-- The body at any point: the seven input buffers hold their blocks, so the body's triple applies; the invariant
    and the core's debts pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3, before16_4, before16_5, before16_6]
  rw [show (dat16 V c).Φ t.succ = (dat16 V c).Φ t.castSucc from rfl,
    show (dat16 V c).owesAt () t.succ = (dat16 V c).owesAt () t.castSucc from rfl,
    after16_0, after16_1, after16_2, after16_3, after16_4, after16_5, after16_6, after16_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel16 c Set.univ (grid16.coords t) _ _ _ _ _ _ _ _ _ _ _ _ _ _ _ _
    (iblk16 V c 0 t) (iblk16 V c 1 t) (iblk16 V c 2 t) (iblk16 V c 3 t) (iblk16 V c 4 t) (iblk16 V c 5 t) (iblk16 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point of the 125. -/
theorem body_obligation16 (c : Dev nD) : BodyObligation (dat16 (F := F) V c) (defs₀ (F := F)) Variants.none () Set.univ := fun t => by
  rw [bigSep_W16, bigSep_W16]
  exact sound_body16 V c t

/-! ## The result block in closed form -/

/-- The offsets of a whole-buffer access are all zero. -/
theorem zero_offsets : (![0, 0] : Fin 2 → ℕ) = fun _ => 0 := by
  funext a; match a with | ⟨0, _⟩ => rfl | ⟨1, _⟩ => rfl

/-- Every load reads its whole buffer and the one store writes the whole result buffer, so the result block is the
    payload of the seven blocks as they are: no rectangle is left in the term. -/
theorem out16_7_eq (h : Vec F S8000x64 .f32) (mean var gamma beta wout : Vec F S1x64 .f32) (bout : Vec F S1x1 .f32) :
    out16_7 h mean var gamma beta wout bout = k16_pay1 h mean var gamma beta wout bout := by
  unfold out16_7
  rw [View.canon_unit_zero zero_offsets, View.ld_unit_zero zero_offsets, View.ld_unit_zero zero_offsets,
    View.ld_unit_zero zero_offsets, View.ld_unit_zero zero_offsets, View.ld_unit_zero zero_offsets,
    View.ld_unit_zero zero_offsets, View.ld_unit_zero zero_offsets]

end Cert.KernelIdeal.P2

end
-- ==== Proof.Assemble.lean ====
/- The whole run of the kernel program, assembled from one record per kernel region.

   The program is 17 kernel regions among 18 stretches of host operations. Between two items a core holds every unscoped
   buffer whole, at the contents `Gen.VJ` (the launch contents, then each host stretch's effect, then what a region leaves at
   the unknowns `outs`), and beside the buffers only its generator register at some state and the fact that it owes nothing
   (`Rr`). Given, for each region K, a segment record entered from the buffers at `V(2K+1)` beside `Rr` and left at
   `V(2K+2)` beside `Rr`, two facts about every weakly fair execution of @main from a memory `m` follow:

   * `frame_of_regs`: it terminates and every argument array ends holding what it held at launch;
   * `run_of_regs`: moreover the result buffer ends holding the last valuation's contents, `V35 m outs c main_v105`.

   What is settled here once for all regions: the user algebra (the staging cells' rounds beside the transfer counters), the
   launch element and how it funds the cells, that no level is assigned and nothing is owed at launch, how the rest `Rr` is
   made on every core at launch, and that it ends owing nothing. -/
import proofs.«400866_j57071525429608_2_alg».proof.Proof.KernelIdealRegions
import Idealize.ShloMosaic.Lib.Pipeline.Kit
import Idealize.ShloMosaic.Lib.Pipeline.Frame
import Idealize.ShloMosaic.Lib.Pipeline.Regions

-- decided memberships among the program's references recurse past the default depth
set_option maxRecDepth 1804

noncomputable section

namespace Cert.KernelIdeal.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal.Gen

variable {F : FTy → Type} [FloatOps F]

local notation "𝕄" => MT nD τ sig Unit (Elt F) ℕ (Pipeline.UD sig nD τ) ℕ

/-! ## The choices made once for the whole run -/

/-- No core waits on another: no pair of semaphores carries a level. -/
abbrev L₀ : GSem nD τ sig → Finset Unit := fun _ => ∅
/-- The (vacuous) level assignment. -/
abbrev lv₀ : GSem nD τ sig → Unit → ℕ := fun _ _ => 0

/-- What a core keeps beside its buffers between two items: its generator register at some state, and nothing owed. -/
abbrev Rr (c : Dev nD) : sProp 𝕄 :=
  iprop((∃ r, prngReg c r) ∗ ∃ W, owes (c : Thread nD τ) (0 : CellTallies nD τ sig Unit) W)

/-- The launch element: the staging cells' initial rounds on the left, the unit of the transfer counters on the right. -/
abbrev u₀ (a : (p : Fin 17) → (pcfgs (F := F) p).Adm) : Pipeline.UD sig nD τ :=
  (initOf (Pipeline.cells (Pipeline.pin (pcfgs (F := F)) a) (cellOf_inj a)) (Pipeline.launchToks (Pipeline.pin (pcfgs (F := F)) a) (cellOf_inj a)), 1)

/-- The launch element yields the cells' initial rounds through the left embedding; no core gets a ghost resource of its
    own (the big product of `emp` is `emp`). -/
theorem fund (a : (p : Fin 17) → (pcfgs (F := F) p).Adm) :
    (ownU (u₀ a) : sProp 𝕄) ⊢ |={Set.univ}=> iprop(BI.own ((embL : Emb _ 𝕄) (initOf (Pipeline.cells (Pipeline.pin (pcfgs (F := F)) a) (cellOf_inj a)) (Pipeline.launchToks (Pipeline.pin (pcfgs (F := F)) a) (cellOf_inj a)))) ∗ bigSep Finset.univ fun _ : Dev nD => (BI.emp : sProp 𝕄)) := by
  rw [BI.bigSep_emp_const]
  iintro Hu
  ihave Hp := (ownU_pair _ _) $$ Hu
  icases Hp with ⟨Hl, -⟩
  imodintro
  isplitl [Hl]
  · iexact Hl
  · iempintro

/-- At launch every core's rest is made at once: its generator register is at the launch state, and it owes the zero tally
    with no wait recorded. -/
theorem rest_init (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L₀ lv₀)
      ⊢ (|={Set.univ}=> bigSep Finset.univ (fun c : Dev nD => Rr (F := F) c) : sProp 𝕄) := by
  refine Pipeline.initEach _ _ fun c => ?_
  iintro ⟨⟨-, Ho, -, Hg, -⟩, -⟩
  imodintro
  isplitl [Hg]
  · iexists (ρ c); iexact Hg
  · iexists ∅; iexact Ho

/-- The rest ends owing nothing. -/
theorem rest_end (c : Dev nD) : Rr (F := F) c ⊢ (iprop(∃ W, owes (c : Thread nD τ) (0 : CellTallies nD τ sig Unit) W) : sProp 𝕄) := by
  iintro ⟨-, Ho⟩
  iexact Ho

/-! ## The regions' records, as hypotheses -/

section Run

variable (m : (ℓ : Loc nD τ sig) → Buf (Elt F) ℓ) (ρ : Dev nD → PrngReg) (outs : Outs (F := F))
  (a : (p : Fin 17) → (pcfgs (F := F) p).Adm)
  (pdats : (p : Fin 17) → (c : Dev nD) → Dat τ (Elt F) Unit ℕ (Pipeline.UD sig nD τ) ℕ (Pipeline.pin (pcfgs (F := F)) a p) c)

variable
  (R0 : RegionSeg (pcfgs (F := F)) a pdats () defs₀ Variants.none L₀ lv₀ 0)
  (hpre0 : ∀ c : Dev nD, iprop(StableHlo.held (c : Thread nD τ) (Pipeline.ucRefs τ sig) (V1 m c) ∗ Rr c) ⊢ R0.pre c)
  (hpost0 : ∀ c : Dev nD, R0.post c ⊢ iprop(StableHlo.held (c : Thread nD τ) (Pipeline.ucRefs τ sig) (V2 m outs c) ∗ Rr c))
  (R1 : RegionSeg (pcfgs (F := F)) a pdats () defs₀ Variants.none L₀ lv₀ 1)
  (hpre1 : ∀ c : Dev nD, iprop(StableHlo.held (c : Thread nD τ) (Pipeline.ucRefs τ sig) (V3 m outs c) ∗ Rr c) ⊢ R1.pre c)
  (hpost1 : ∀ c : Dev nD, R1.post c ⊢ iprop(StableHlo.held (c : Thread nD τ) (Pipeline.ucRefs τ sig) (V4 m outs c) ∗ Rr c))
  (R2 : RegionSeg (pcfgs (F := F)) a pdats () defs₀ Variants.none L₀ lv₀ 2)
  (hpre2 : ∀ c : Dev nD, iprop(StableHlo.held (c : Thread nD τ) (Pipeline.ucRefs τ sig) (V5 m outs c) ∗ Rr c) ⊢ R2.pre c)
  (hpost2 : ∀ c : Dev nD, R2.post c ⊢ iprop(StableHlo.held (c : Thread nD τ) (Pipeline.ucRefs τ sig) (V6 m outs c) ∗ Rr c))
  (R3 : RegionSeg (pcfgs (F := F)) a pdats () defs₀ Variants.none L₀ lv₀ 3)
  (hpre3 : ∀ c : Dev nD, iprop(StableHlo.held (c : Thread nD τ) (Pipeline.ucRefs τ sig) (V7 m outs c) ∗ Rr c) ⊢ R3.pre c)
  (hpost3 : ∀ c : Dev nD, R3.post c ⊢ iprop(StableHlo.held (c : Thread nD τ) (Pipeline.ucRefs τ sig) (V8 m outs c) ∗ Rr c))
  (R4 : RegionSeg (pcfgs (F := F)) a pdats () defs₀ Variants.none L₀ lv₀ 4)
  (hpre4 : ∀ c : Dev nD, iprop(StableHlo.held (c : Thread nD τ) (Pipeline.ucRefs τ sig) (V9 m outs c) ∗ Rr c) ⊢ R4.pre c)
  (hpost4 : ∀ c : Dev nD, R4.post c ⊢ iprop(StableHlo.held (c : Thread nD τ) (Pipeline.ucRefs τ sig) (V10 m outs c) ∗ Rr c))
  (R5 : RegionSeg (pcfgs (F := F)) a pdats () defs₀ Variants.none L₀ lv₀ 5)
  (hpre5 : ∀ c : Dev nD, iprop(StableHlo.held (c : Thread nD τ) (Pipeline.ucRefs τ sig) (V11 m outs c) ∗ Rr c) ⊢ R5.pre c)
  (hpost5 : ∀ c : Dev nD, R5.post c ⊢ iprop(StableHlo.held (c : Thread nD τ) (Pipeline.ucRefs τ sig) (V12 m outs c) ∗ Rr c))
  (R6 : RegionSeg (pcfgs (F := F)) a pdats () defs₀ Variants.none L₀ lv₀ 6)
  (hpre6 : ∀ c : Dev nD, iprop(StableHlo.held (c : Thread nD τ) (Pipeline.ucRefs τ sig) (V13 m outs c) ∗ Rr c) ⊢ R6.pre c)
  (hpost6 : ∀ c : Dev nD, R6.post c ⊢ iprop(StableHlo.held (c : Thread nD τ) (Pipeline.ucRefs τ sig) (V14 m outs c) ∗ Rr c))
  (R7 : RegionSeg (pcfgs (F := F)) a pdats () defs₀ Variants.none L₀ lv₀ 7)
  (hpre7 : ∀ c : Dev nD, iprop(StableHlo.held (c : Thread nD τ) (Pipeline.ucRefs τ sig) (V15 m outs c) ∗ Rr c) ⊢ R7.pre c)
  (hpost7 : ∀ c : Dev nD, R7.post c ⊢ iprop(StableHlo.held (c : Thread nD τ) (Pipeline.ucRefs τ sig) (V16 m outs c) ∗ Rr c))
  (R8 : RegionSeg (pcfgs (F := F)) a pdats () defs₀ Variants.none L₀ lv₀ 8)
  (hpre8 : ∀ c : Dev nD, iprop(StableHlo.held (c : Thread nD τ) (Pipeline.ucRefs τ sig) (V17 m outs c) ∗ Rr c) ⊢ R8.pre c)
  (hpost8 : ∀ c : Dev nD, R8.post c ⊢ iprop(StableHlo.held (c : Thread nD τ) (Pipeline.ucRefs τ sig) (V18 m outs c) ∗ Rr c))
  (R9 : RegionSeg (pcfgs (F := F)) a pdats () defs₀ Variants.none L₀ lv₀ 9)
  (hpre9 : ∀ c : Dev nD, iprop(StableHlo.held (c : Thread nD τ) (Pipeline.ucRefs τ sig) (V19 m outs c) ∗ Rr c) ⊢ R9.pre c)
  (hpost9 : ∀ c : Dev nD, R9.post c ⊢ iprop(StableHlo.held (c : Thread nD τ) (Pipeline.ucRefs τ sig) (V20 m outs c) ∗ Rr c))
  (R10 : RegionSeg (pcfgs (F := F)) a pdats () defs₀ Variants.none L₀ lv₀ 10)
  (hpre10 : ∀ c : Dev nD, iprop(StableHlo.held (c : Thread nD τ) (Pipeline.ucRefs τ sig) (V21 m outs c) ∗ Rr c) ⊢ R10.pre c)
  (hpost10 : ∀ c : Dev nD, R10.post c ⊢ iprop(StableHlo.held (c : Thread nD τ) (Pipeline.ucRefs τ sig) (V22 m outs c) ∗ Rr c))
  (R11 : RegionSeg (pcfgs (F := F)) a pdats () defs₀ Variants.none L₀ lv₀ 11)
  (hpre11 : ∀ c : Dev nD, iprop(StableHlo.held (c : Thread nD τ) (Pipeline.ucRefs τ sig) (V23 m outs c) ∗ Rr c) ⊢ R11.pre c)
  (hpost11 : ∀ c : Dev nD, R11.post c ⊢ iprop(StableHlo.held (c : Thread nD τ) (Pipeline.ucRefs τ sig) (V24 m outs c) ∗ Rr c))
  (R12 : RegionSeg (pcfgs (F := F)) a pdats () defs₀ Variants.none L₀ lv₀ 12)
  (hpre12 : ∀ c : Dev nD, iprop(StableHlo.held (c : Thread nD τ) (Pipeline.ucRefs τ sig) (V25 m outs c) ∗ Rr c) ⊢ R12.pre c)
  (hpost12 : ∀ c : Dev nD, R12.post c ⊢ iprop(StableHlo.held (c : Thread nD τ) (Pipeline.ucRefs τ sig) (V26 m outs c) ∗ Rr c))
  (R13 : RegionSeg (pcfgs (F := F)) a pdats () defs₀ Variants.none L₀ lv₀ 13)
  (hpre13 : ∀ c : Dev nD, iprop(StableHlo.held (c : Thread nD τ) (Pipeline.ucRefs τ sig) (V27 m outs c) ∗ Rr c) ⊢ R13.pre c)
  (hpost13 : ∀ c : Dev nD, R13.post c ⊢ iprop(StableHlo.held (c : Thread nD τ) (Pipeline.ucRefs τ sig) (V28 m outs c) ∗ Rr c))
  (R14 : RegionSeg (pcfgs (F := F)) a pdats () defs₀ Variants.none L₀ lv₀ 14)
  (hpre14 : ∀ c : Dev nD, iprop(StableHlo.held (c : Thread nD τ) (Pipeline.ucRefs τ sig) (V29 m outs c) ∗ Rr c) ⊢ R14.pre c)
  (hpost14 : ∀ c : Dev nD, R14.post c ⊢ iprop(StableHlo.held (c : Thread nD τ) (Pipeline.ucRefs τ sig) (V30 m outs c) ∗ Rr c))
  (R15 : RegionSeg (pcfgs (F := F)) a pdats () defs₀ Variants.none L₀ lv₀ 15)
  (hpre15 : ∀ c : Dev nD, iprop(StableHlo.held (c : Thread nD τ) (Pipeline.ucRefs τ sig) (V31 m outs c) ∗ Rr c) ⊢ R15.pre c)
  (hpost15 : ∀ c : Dev nD, R15.post c ⊢ iprop(StableHlo.held (c : Thread nD τ) (Pipeline.ucRefs τ sig) (V32 m outs c) ∗ Rr c))
  (R16 : RegionSeg (pcfgs (F := F)) a pdats () defs₀ Variants.none L₀ lv₀ 16)
  (hpre16 : ∀ c : Dev nD, iprop(StableHlo.held (c : Thread nD τ) (Pipeline.ucRefs τ sig) (V33 m outs c) ∗ Rr c) ⊢ R16.pre c)
  (hpost16 : ∀ c : Dev nD, R16.post c ⊢ iprop(StableHlo.held (c : Thread nD τ) (Pipeline.ucRefs τ sig) (V34 m outs c) ∗ Rr c))

include hpre0 hpost0 hpre1 hpost1 hpre2 hpost2 hpre3 hpost3 hpre4 hpost4 hpre5 hpost5 hpre6 hpost6 hpre7 hpost7 hpre8 hpost8
  hpre9 hpost9 hpre10 hpost10 hpre11 hpost11 hpre12 hpost12 hpre13 hpost13 hpre14 hpost14 hpre15 hpost15 hpre16 hpost16

/-! ## The frame -/

/-- Every weakly fair execution of @main from `m` with zero counters terminates, and every argument array ends as launched:
    the conditional frame at the choices above, the rest being `Rr` at every boundary. -/
theorem frame_of_regs :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_cond m (EP := (embL : Emb _ 𝕄)) (ι := ()) (𝒱₀ := Variants.none) (L := L₀) (lv := lv₀) (hL := fun _ _ => rfl)
    (ρ := ρ) (outs := outs) (a := a) (pdats := pdats) (O₀ := 0) (G := fun _ => (BI.emp : sProp 𝕄)) (u₀ := u₀ a) (hu₀ := fund a)
    (E := fun _ c => Rr c) (hE0 := rest_init ρ) (hE17 := rest_end)
    R0 hpre0 hpost0 R1 hpre1 hpost1 R2 hpre2 hpost2 R3 hpre3 hpost3 R4 hpre4 hpost4 R5 hpre5 hpost5 R6 hpre6 hpost6
    R7 hpre7 hpost7 R8 hpre8 hpost8 R9 hpre9 hpost9 R10 hpre10 hpost10 R11 hpre11 hpost11 R12 hpre12 hpost12
    R13 hpre13 hpost13 R14 hpre14 hpost14 R15 hpre15 hpost15 R16 hpre16 hpost16

/-! ## The run, naming the result -/

-- the launch theorem's implicit arguments are found by unifying its conclusion with this one, which takes unfolding plain
-- definitions in a metavariable's type
set_option backward.isDefEq.respectTransparency.types false in
/-- The same run, its post also naming the result: beside the arguments ending as launched, the result buffer ends at the
    last valuation's contents (it is an unscoped buffer, so the last thread state holds it whole). The launch over @main's
    items as segments, the thread states chained through the given records, the first made at launch from the launch
    contents beside `rest_init`, the last read against the final state. -/
theorem run_of_regs :
    θ_run defs (onTc (τ := τ) (main (F := F))) ⟨m, fun _ => 0, ρ⟩ (fun r => ∀ c : Dev nD,
      r.2.mem ((c.tc : Thread nD τ).loc main_v105) = V35 m outs c main_v105
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) a pdats () (cellOf_inj a) (embL : Emb _ 𝕄) defs₀ Variants.none L₀ lv₀ m ρ main
    (segs m outs Variants.none L₀ lv₀ (fun _ c => Rr c) () a pdats R0 R1 R2 R3 R4 R5 R6 R7 R8 R9 R10 R11 R12 R13 R14 R15 R16)
    (fun c Q => by
      rewrite [main_chain c, Seg.run_eq_chain,
        show (segs m outs Variants.none L₀ lv₀ (fun _ c => Rr c) () a pdats R0 R1 R2 R3 R4 R5 R6 R7 R8 R9 R10 R11 R12 R13 R14 R15 R16 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16,
          Prog.lift (.customCall (Pipeline.entry 16) ()),
          StableHlo.seq hostOps17 ] from rfl]
      with_reducible exact .rfl)
    (fun c => by simp only [segs, Seg.pipes_host, Seg.pipes_region, Seg.pipes_nil]; decide)
    (0 : Dev nD → CellTallies nD τ sig Unit) (fun _ _ => rfl) (fun _ => (BI.emp : sProp 𝕄)) (u₀ a) (fund a)
    (T₀ := fun c => iprop(StableHlo.held (c : Thread nD τ) (Pipeline.ucRefs τ sig) (V0 m c) ∗ Rr c))
    (Tₙ := fun c => StableHlo.held (c : Thread nD τ) (Pipeline.ucRefs τ sig) (V35 m outs c))
    (hch := fun c => ⟨.rfl, hpre0 c, hpost0 c, hpre1 c, hpost1 c, hpre2 c, hpost2 c, hpre3 c, hpost3 c, hpre4 c, hpost4 c,
      hpre5 c, hpost5 c, hpre6 c, hpost6 c, hpre7 c, hpost7 c, hpre8 c, hpost8 c, hpre9 c, hpost9 c, hpre10 c, hpost10 c,
      hpre11 c, hpost11 c, hpre12 c, hpost12 c, hpre13 c, hpost13 c, hpre14 c, hpost14 c, hpre15 c, hpost15 c,
      hpre16 c, hpost16 c, sep_mono .rfl (rest_end c)⟩)
    (hinit := ?_)
    (QY := fun c s => s.mem ((c.tc : Thread nD τ).loc main_v105) = V35 m outs c main_v105
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9))
    (hfin := fun c s' => ?_) (hQ := fun _ h => h)
  · -- the launch, core by core: the unscoped buffers at the launch memory are the first thread state's buffers at `V0`;
    -- the generator register and the zero tally make the rest
    refine Pipeline.initEach _ _ fun c => ?_
    rw [show unscopedBufs c (fun b => m ((c.tc : Thread nD τ).loc b)) = StableHlo.held (c : Thread nD τ) (Pipeline.ucRefs τ sig) (V0 m c)
      from Pipeline.unscopedBufs_held c (V0 m c)]
    iintro ⟨⟨Hb, -, Ho, -, Hg, -⟩, -⟩
    imodintro
    isplitl [Hb]
    · iexact Hb
    isplitl [Hg]
    · iexists (ρ c); iexact Hg
    · iexists ∅; iexact Ho
  · -- the end: every unscoped buffer of the final memory agrees with the last valuation; the result is one of them, and
    -- each argument's contents walk back through the valuations to the launch memory
    unfold StableHlo.held
    iintro ⟨Hh, HSI⟩
    ihave Hr := (pointsTo_read_all (Pipeline.ucRefs τ sig) (fun b => ((c : Thread nD τ).1, b)) (V35 m outs c) s') $$ [Hh HSI]
    · isplitl [Hh] <;> iassumption
    icases Hr with ⟨%h, HSI⟩
    imodintro
    isplitr
    · ipureintro
      exact ⟨h (Proc.devRef .tc main_v105) (Finset.mem_filter.mpr ⟨StableHlo.devRef_mem_tcRefs main_v105, by decide⟩),
        (h (Proc.devRef .tc main_arg0) (Finset.mem_filter.mpr ⟨StableHlo.devRef_mem_tcRefs main_arg0, by decide⟩)).trans (V35_main_arg0 m outs c),
        (h (Proc.devRef .tc main_arg1) (Finset.mem_filter.mpr ⟨StableHlo.devRef_mem_tcRefs main_arg1, by decide⟩)).trans (V35_main_arg1 m outs c),
        (h (Proc.devRef .tc main_arg2) (Finset.mem_filter.mpr ⟨StableHlo.devRef_mem_tcRefs main_arg2, by decide⟩)).trans (V35_main_arg2 m outs c),
        (h (Proc.devRef .tc main_arg3) (Finset.mem_filter.mpr ⟨StableHlo.devRef_mem_tcRefs main_arg3, by decide⟩)).trans (V35_main_arg3 m outs c),
        (h (Proc.devRef .tc main_arg4) (Finset.mem_filter.mpr ⟨StableHlo.devRef_mem_tcRefs main_arg4, by decide⟩)).trans (V35_main_arg4 m outs c),
        (h (Proc.devRef .tc main_arg5) (Finset.mem_filter.mpr ⟨StableHlo.devRef_mem_tcRefs main_arg5, by decide⟩)).trans (V35_main_arg5 m outs c),
        (h (Proc.devRef .tc main_arg6) (Finset.mem_filter.mpr ⟨StableHlo.devRef_mem_tcRefs main_arg6, by decide⟩)).trans (V35_main_arg6 m outs c),
        (h (Proc.devRef .tc main_arg7) (Finset.mem_filter.mpr ⟨StableHlo.devRef_mem_tcRefs main_arg7, by decide⟩)).trans (V35_main_arg7 m outs c),
        (h (Proc.devRef .tc main_arg8) (Finset.mem_filter.mpr ⟨StableHlo.devRef_mem_tcRefs main_arg8, by decide⟩)).trans (V35_main_arg8 m outs c),
        (h (Proc.devRef .tc main_arg9) (Finset.mem_filter.mpr ⟨StableHlo.devRef_mem_tcRefs main_arg9, by decide⟩)).trans (V35_main_arg9 m outs c)⟩
    · iexact HSI

end Run

end Cert.KernelIdeal.Asm

end
-- ==== Proof.Reg16.lean ====
/-
  The normalising pass as one segment of the program's run.

  Between two items of the program a core holds every unscoped buffer whole, at some contents, and beside them only
  its generator register and the fact that it owes nothing. The last kernel region is entered from the buffers at
  contents Win and leaves them at Wout: the pipeline's eight arrays are taken out of the buffers at entry and put back
  at exit, where each holds what the pipeline's write-backs made of it (for the seven inputs: what it held; for the
  result array: every block written once) and every other buffer holds what it held; the generator register goes
  into the region's invariant and comes back; the region names no semaphore of its own and nothing is owed.

  Stated for ANY entry and exit contents that are related so (hF, hrest) and any family of proof data whose
  member for this pipeline is the one over the entry contents (hpd), so that the run may instantiate them.
-/
import proofs.«400866_j57071525429608_2_alg».proof.Proof.Pass2
import proofs.«400866_j57071525429608_2_alg».proof.Proof.Assemble
import Idealize.ShloMosaic.Lib.Pipeline.RegionsLoop

set_option maxRecDepth 16384

noncomputable section

namespace Cert.KernelIdeal.Glue

open Cert.KernelIdeal Cert.KernelIdeal.Gen Cert.KernelIdeal.P2 Cert.KernelIdeal.Asm
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (Pipeline.UD sig nD τ) ℕ

/-- Contents of all of a core's buffers, read at the TensorCore's references only: what a region's proof data take. -/
abbrev atTc (W : Dev nD → Valuation τ sig (Elt F)) : (c : Dev nD) → (b : Ref sig .tc) → Buf (Elt F) ((c : Thread nD τ).loc b) :=
  fun c b => W c b

section Reg16

variable (a : (p : Fin 17) → (pcfgs (F := F) p).Adm)
  (pdats : (p : Fin 17) → (c : Dev nD) → Dat τ (Elt F) Unit ℕ (Pipeline.UD sig nD τ) ℕ (Pipeline.pin (pcfgs (F := F)) a p) c)
  (Win Wout : Dev nD → Valuation τ sig (Elt F))
  (hpd : ∀ c, pdats 16 c = dat16 (atTc Win) c)
  (hF : ∀ c w, (dat16 (atTc Win) c).arrAt w cfg16.N = Wout c (Pipeline.arrRef spec16 w))
  (hrest : ∀ c (b : Ref sig .tc), b ∉ Finset.univ.image (Pipeline.arrRef spec16) → Wout c b = Win c b)
include hpd hF hrest

set_option backward.isDefEq.respectTransparency.types false in
/-- The last region over the thread state: entered from every unscoped buffer at Win beside the rest, left at Wout
    beside the rest. -/
def reg16 : RegionSeg (pcfgs (F := F)) a pdats () defs₀ Variants.none L₀ lv₀ 16 where
  win := (launch16 (F := F)).win.to₀
  block_pos := (launch16 (F := F)).block_pos
  stage_whole := (launch16 (F := F)).stage_whole
  K := PEmpty
  osem k := k.elim
  ho := Pipeline.OwnSemFacts.none _
  hbody c := by rw [hpd c]; exact (body_obligation16 (atTc Win) c).loose
  hwaits := Pipeline.hwaits_of_owed_zero _ _ _ _ L₀ lv₀ 16 fun c _ => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop(∃ r, prngReg c r)
  Y c := iprop(∃ r, prngReg c r)
  Z c := Pipeline.unscopedRest (Ix := Unit) (Name := ℕ) (U := Pipeline.UD sig nD τ) (Lvl := ℕ) spec16 c (atTc Win c)
  hentry c := by
    rw [Pipeline.ownSems0_none]
    have hsplit := Pipeline.arrays_of_unscopedBufs (p := 16) (pcfgs (F := F)) a pdats (launch16 (F := F)).win (launch16 (F := F)).arr_whole c
      ((pdats 16 c).share_full fun _ => by rw [hpd c]; rfl) (atTc Win c) fun w => by rw [hpd c]; exact A_eq16 (atTc Win) c w
    rw [Pipeline.unscopedBufs_held] at hsplit
    rw [hpd c] at hsplit ⊢
    iintro ⟨⟨Hbufs, Hgen, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%S, Howes⟩; iexists S; isplitr; · ipureintro; exact fun _ _ => Or.inl trivial
      iexact Howes
    isplitl [Hgen]; · iexact Hgen
    iexact Hrest
  hin c := by
    rw [show (pdats 16 c).Φ 0 = Pipeline.ΦA spec16 c from by rw [hpd c]; rfl]; unfold Pipeline.ΦA
    iintro ⟨Hgen, -, Hscoped⟩
    isplitl [Hscoped]; · iexact Hscoped
    iexact Hgen
  hout c := by
    rw [Pipeline.ownSems0_none, show (pdats 16 c).Φ (Fin.last _) = Pipeline.ΦA spec16 c from by rw [hpd c]; rfl]; unfold Pipeline.ΦA
    iintro ⟨Hscoped, Hgen⟩
    isplitl [Hgen]; · iexact Hgen
    isplitr; · iempintro
    iexact Hscoped
  hexit c := by
    have hjoin := Pipeline.unscopedBufs_of_arrays (p := 16) (pcfgs (F := F)) a (Ix := Unit) (Name := ℕ) (U := Pipeline.UD sig nD τ) (Lvl := ℕ)
      (launch16 (F := F)).win (launch16 (F := F)).arr_whole c pdats ((pdats 16 c).share_full fun _ => by rw [hpd c]; rfl)
      (atTc Win c) (atTc Wout c) ((pdats 16 c).arrAt · cfg16.N) (fun w => by rw [hpd c]; exact hF c w) (hrest c)
    rw [Pipeline.unscopedBufs_held] at hjoin
    rw [hpd c] at hjoin ⊢
    iintro ⟨Harr, Howes, Hgen, Hrest⟩
    imodintro
    isplitl [Harr Hrest]
    · iapply hjoin; isplitl [Harr] <;> iassumption
    isplitl [Hgen]; · iexact Hgen
    unfold Pipeline.Dat.owesAt Pipeline.owesWithin
    icases Howes with ⟨%S, -, Howes⟩; iexists S; iexact Howes

/-- The segment is entered from and left at exactly the thread states named. -/
theorem reg16_pre (c : Dev nD) : (reg16 a pdats Win Wout hpd hF hrest).pre c
    = iprop(StableHlo.held (c : Thread nD τ) (Pipeline.ucRefs τ sig) (Win c) ∗ Rr c) := by rfl
theorem reg16_post (c : Dev nD) : (reg16 a pdats Win Wout hpd hF hrest).post c
    = iprop(StableHlo.held (c : Thread nD τ) (Pipeline.ucRefs τ sig) (Wout c) ∗ Rr c) := by rfl

end Reg16

end Cert.KernelIdeal.Glue

end
-- ==== Proof.TblFacts.lean ====
/-
  The prefetched tables hold node numbers. The edge endpoints are an integer array of shape [2 × 1000000]; the host
  operations take row 0 and row 1, flatten each to length 1000000, and cut each into sixteen consecutive pieces of
  62500 entries: piece K of row 0 and piece K of row 1 are the two tables the K-th pass-1 region reads its row numbers
  from. Every entry of every such table is therefore an entry of the endpoint array, so a bound on all endpoints is a
  bound on all table entries. The contents of the buffers between the program's items are the valuations `V0`, `V1`,
  …; the regions change only their own outputs, so the flattened rows stay what the first host operations made them.

  Read at an index: entry j of piece K of row a is endpoint a of edge 62500·K + j (`tblA_apply`, `tblB_apply`).

  The bound is stated over a hypothesis `hE` (every endpoint, read as a natural number, is below 100000), which the precondition
  gives; generic in the float instance, since only integer buffers are read.
-/
import proofs.«400866_j57071525429608_2_alg».proof.Proof.KernelIdealRegions
import proofs.«400866_j57071525429608_2_alg».proof.Proof.Spec
import Idealize.ShloMosaic.Lib.ValueLayout

set_option maxRecDepth 1804

noncomputable section

namespace Cert.KernelIdeal.Tbl

open Idealize.ShloMosaic Idealize.ShloMosaic.TcCoe Cert.KernelIdeal Cert.KernelIdeal.Gen

variable {F : FTy → Type} [FloatOps F]
variable (m : (ℓ : Loc nD τ sig) → Buf (Elt F) ℓ) (outs : Outs (F := F))

/-- The edge endpoints on core `c` at launch, as an integer array. -/
abbrev edges (c : Dev nD) : IVec S2x1000000 32 := V0 m c main_arg1

/-! ## The two flattened rows -/

/-- Row 0 of the endpoints, flattened: what the first host operations leave in `main_v1`. -/
theorem V1_main_v1 (c : Dev nD) :
    (V1 m c main_v1 : IVec S1000000 32)
      = shapeCast S1000000 (extractStridedSlice S1x1000000 ![0, 0] (edges m c) slices_S2x1000000_S1x1000000_0_0)
          shapeCasts_S1x1000000_S1000000 := by
  show StableHlo.after hostOps0 (V0 m c) (Proc.devRef .tc main_v1) = _
  simp only [hostOps0]
  after_results
  rfl

/-- Row 1 of the endpoints, flattened: `main_v3`. -/
theorem V1_main_v3 (c : Dev nD) :
    (V1 m c main_v3 : IVec S1000000 32)
      = shapeCast S1000000 (extractStridedSlice S1x1000000 ![1, 0] (edges m c) slices_S2x1000000_S1x1000000_1_0)
          shapeCasts_S1x1000000_S1000000 := by
  show StableHlo.after hostOps0 (V0 m c) (Proc.devRef .tc main_v3) = _
  simp only [hostOps0]
  after_results
  rfl

/-! ## Region 0: the tables are the first pieces -/

/-- Region 0's first table is entries [0, 62500) of flattened row 0. -/
theorem tbl_0a_eq (c : Dev nD) :
    (V1 m c main_v11 : IVec S62500 32)
      = extractStridedSlice S62500 ![0] (V1 m c main_v1 : IVec S1000000 32) slices_S1000000_S62500_0 := by
  rw [V1_main_v1]
  show StableHlo.after hostOps0 (V0 m c) (Proc.devRef .tc main_v11) = _
  simp only [hostOps0]
  after_results
  rfl

/-- Region 0's second table is entries [0, 62500) of flattened row 1. -/
theorem tbl_0b_eq (c : Dev nD) :
    (V1 m c main_v12 : IVec S62500 32)
      = extractStridedSlice S62500 ![0] (V1 m c main_v3 : IVec S1000000 32) slices_S1000000_S62500_0 := by
  rw [V1_main_v3]
  show StableHlo.after hostOps0 (V0 m c) (Proc.devRef .tc main_v12) = _
  simp only [hostOps0]
  after_results
  rfl

/-! ## Region 1: the flattened rows are untouched by region 0, and the tables are the second pieces -/

theorem V2_v1 (c : Dev nD) : V2 m outs c main_v1 = V1 m c main_v1 := V2_of m outs c main_v1 (by decide)
theorem V2_v3 (c : Dev nD) : V2 m outs c main_v3 = V1 m c main_v3 := V2_of m outs c main_v3 (by decide)

/-- Region 1's first table is entries [62500, 125000) of flattened row 0. -/
theorem tbl_1a_eq (c : Dev nD) :
    (V3 m outs c main_v14 : IVec S62500 32)
      = extractStridedSlice S62500 ![62500] (V1 m c main_v1 : IVec S1000000 32) slices_S1000000_S62500_62500 := by
  rw [← V2_v1 m outs c]
  show StableHlo.after hostOps1 (V2 m outs c) (Proc.devRef .tc main_v14) = _
  simp only [hostOps1]
  after_results

/-- Region 1's second table is entries [62500, 125000) of flattened row 1. -/
theorem tbl_1b_eq (c : Dev nD) :
    (V3 m outs c main_v15 : IVec S62500 32)
      = extractStridedSlice S62500 ![62500] (V1 m c main_v3 : IVec S1000000 32) slices_S1000000_S62500_62500 := by
  rw [← V2_v3 m outs c]
  show StableHlo.after hostOps1 (V2 m outs c) (Proc.devRef .tc main_v15) = _
  simp only [hostOps1]
  after_results

/-! ## Regions 2 to 15: the same, piece by piece -/

theorem V4_v1 (c : Dev nD) : V4 m outs c main_v1 = V1 m c main_v1 :=
  (V4_of m outs c main_v1 (by decide)).trans ((V3_of m outs c main_v1 (by decide)).trans (V2_v1 m outs c))
theorem V4_v3 (c : Dev nD) : V4 m outs c main_v3 = V1 m c main_v3 :=
  (V4_of m outs c main_v3 (by decide)).trans ((V3_of m outs c main_v3 (by decide)).trans (V2_v3 m outs c))

/-- Region 2's first table is entries [125000, 187500) of flattened row 0. -/
theorem tbl_2a_eq (c : Dev nD) :
    (V5 m outs c main_v17 : IVec S62500 32)
      = extractStridedSlice S62500 ![125000] (V1 m c main_v1 : IVec S1000000 32) slices_S1000000_S62500_125000 := by
  rw [← V4_v1 m outs c]
  show StableHlo.after hostOps2 (V4 m outs c) (Proc.devRef .tc main_v17) = _
  simp only [hostOps2]
  after_results

/-- Region 2's second table is entries [125000, 187500) of flattened row 1. -/
theorem tbl_2b_eq (c : Dev nD) :
    (V5 m outs c main_v18 : IVec S62500 32)
      = extractStridedSlice S62500 ![125000] (V1 m c main_v3 : IVec S1000000 32) slices_S1000000_S62500_125000 := by
  rw [← V4_v3 m outs c]
  show StableHlo.after hostOps2 (V4 m outs c) (Proc.devRef .tc main_v18) = _
  simp only [hostOps2]
  after_results

theorem V6_v1 (c : Dev nD) : V6 m outs c main_v1 = V1 m c main_v1 :=
  (V6_of m outs c main_v1 (by decide)).trans ((V5_of m outs c main_v1 (by decide)).trans (V4_v1 m outs c))
theorem V6_v3 (c : Dev nD) : V6 m outs c main_v3 = V1 m c main_v3 :=
  (V6_of m outs c main_v3 (by decide)).trans ((V5_of m outs c main_v3 (by decide)).trans (V4_v3 m outs c))

/-- Region 3's first table is entries [187500, 250000) of flattened row 0. -/
theorem tbl_3a_eq (c : Dev nD) :
    (V7 m outs c main_v20 : IVec S62500 32)
      = extractStridedSlice S62500 ![187500] (V1 m c main_v1 : IVec S1000000 32) slices_S1000000_S62500_187500 := by
  rw [← V6_v1 m outs c]
  show StableHlo.after hostOps3 (V6 m outs c) (Proc.devRef .tc main_v20) = _
  simp only [hostOps3]
  after_results

/-- Region 3's second table is entries [187500, 250000) of flattened row 1. -/
theorem tbl_3b_eq (c : Dev nD) :
    (V7 m outs c main_v21 : IVec S62500 32)
      = extractStridedSlice S62500 ![187500] (V1 m c main_v3 : IVec S1000000 32) slices_S1000000_S62500_187500 := by
  rw [← V6_v3 m outs c]
  show StableHlo.after hostOps3 (V6 m outs c) (Proc.devRef .tc main_v21) = _
  simp only [hostOps3]
  after_results

theorem V8_v1 (c : Dev nD) : V8 m outs c main_v1 = V1 m c main_v1 :=
  (V8_of m outs c main_v1 (by decide)).trans ((V7_of m outs c main_v1 (by decide)).trans (V6_v1 m outs c))
theorem V8_v3 (c : Dev nD) : V8 m outs c main_v3 = V1 m c main_v3 :=
  (V8_of m outs c main_v3 (by decide)).trans ((V7_of m outs c main_v3 (by decide)).trans (V6_v3 m outs c))

/-- Region 4's first table is entries [250000, 312500) of flattened row 0. -/
theorem tbl_4a_eq (c : Dev nD) :
    (V9 m outs c main_v23 : IVec S62500 32)
      = extractStridedSlice S62500 ![250000] (V1 m c main_v1 : IVec S1000000 32) slices_S1000000_S62500_250000 := by
  rw [← V8_v1 m outs c]
  show StableHlo.after hostOps4 (V8 m outs c) (Proc.devRef .tc main_v23) = _
  simp only [hostOps4]
  after_results

/-- Region 4's second table is entries [250000, 312500) of flattened row 1. -/
theorem tbl_4b_eq (c : Dev nD) :
    (V9 m outs c main_v24 : IVec S62500 32)
      = extractStridedSlice S62500 ![250000] (V1 m c main_v3 : IVec S1000000 32) slices_S1000000_S62500_250000 := by
  rw [← V8_v3 m outs c]
  show StableHlo.after hostOps4 (V8 m outs c) (Proc.devRef .tc main_v24) = _
  simp only [hostOps4]
  after_results

theorem V10_v1 (c : Dev nD) : V10 m outs c main_v1 = V1 m c main_v1 :=
  (V10_of m outs c main_v1 (by decide)).trans ((V9_of m outs c main_v1 (by decide)).trans (V8_v1 m outs c))
theorem V10_v3 (c : Dev nD) : V10 m outs c main_v3 = V1 m c main_v3 :=
  (V10_of m outs c main_v3 (by decide)).trans ((V9_of m outs c main_v3 (by decide)).trans (V8_v3 m outs c))

/-- Region 5's first table is entries [312500, 375000) of flattened row 0. -/
theorem tbl_5a_eq (c : Dev nD) :
    (V11 m outs c main_v26 : IVec S62500 32)
      = extractStridedSlice S62500 ![312500] (V1 m c main_v1 : IVec S1000000 32) slices_S1000000_S62500_312500 := by
  rw [← V10_v1 m outs c]
  show StableHlo.after hostOps5 (V10 m outs c) (Proc.devRef .tc main_v26) = _
  simp only [hostOps5]
  after_results

/-- Region 5's second table is entries [312500, 375000) of flattened row 1. -/
theorem tbl_5b_eq (c : Dev nD) :
    (V11 m outs c main_v27 : IVec S62500 32)
      = extractStridedSlice S62500 ![312500] (V1 m c main_v3 : IVec S1000000 32) slices_S1000000_S62500_312500 := by
  rw [← V10_v3 m outs c]
  show StableHlo.after hostOps5 (V10 m outs c) (Proc.devRef .tc main_v27) = _
  simp only [hostOps5]
  after_results

theorem V12_v1 (c : Dev nD) : V12 m outs c main_v1 = V1 m c main_v1 :=
  (V12_of m outs c main_v1 (by decide)).trans ((V11_of m outs c main_v1 (by decide)).trans (V10_v1 m outs c))
theorem V12_v3 (c : Dev nD) : V12 m outs c main_v3 = V1 m c main_v3 :=
  (V12_of m outs c main_v3 (by decide)).trans ((V11_of m outs c main_v3 (by decide)).trans (V10_v3 m outs c))

/-- Region 6's first table is entries [375000, 437500) of flattened row 0. -/
theorem tbl_6a_eq (c : Dev nD) :
    (V13 m outs c main_v29 : IVec S62500 32)
      = extractStridedSlice S62500 ![375000] (V1 m c main_v1 : IVec S1000000 32) slices_S1000000_S62500_375000 := by
  rw [← V12_v1 m outs c]
  show StableHlo.after hostOps6 (V12 m outs c) (Proc.devRef .tc main_v29) = _
  simp only [hostOps6]
  after_results

/-- Region 6's second table is entries [375000, 437500) of flattened row 1. -/
theorem tbl_6b_eq (c : Dev nD) :
    (V13 m outs c main_v30 : IVec S62500 32)
      = extractStridedSlice S62500 ![375000] (V1 m c main_v3 : IVec S1000000 32) slices_S1000000_S62500_375000 := by
  rw [← V12_v3 m outs c]
  show StableHlo.after hostOps6 (V12 m outs c) (Proc.devRef .tc main_v30) = _
  simp only [hostOps6]
  after_results

theorem V14_v1 (c : Dev nD) : V14 m outs c main_v1 = V1 m c main_v1 :=
  (V14_of m outs c main_v1 (by decide)).trans ((V13_of m outs c main_v1 (by decide)).trans (V12_v1 m outs c))
theorem V14_v3 (c : Dev nD) : V14 m outs c main_v3 = V1 m c main_v3 :=
  (V14_of m outs c main_v3 (by decide)).trans ((V13_of m outs c main_v3 (by decide)).trans (V12_v3 m outs c))

/-- Region 7's first table is entries [437500, 500000) of flattened row 0. -/
theorem tbl_7a_eq (c : Dev nD) :
    (V15 m outs c main_v32 : IVec S62500 32)
      = extractStridedSlice S62500 ![437500] (V1 m c main_v1 : IVec S1000000 32) slices_S1000000_S62500_437500 := by
  rw [← V14_v1 m outs c]
  show StableHlo.after hostOps7 (V14 m outs c) (Proc.devRef .tc main_v32) = _
  simp only [hostOps7]
  after_results

/-- Region 7's second table is entries [437500, 500000) of flattened row 1. -/
theorem tbl_7b_eq (c : Dev nD) :
    (V15 m outs c main_v33 : IVec S62500 32)
      = extractStridedSlice S62500 ![437500] (V1 m c main_v3 : IVec S1000000 32) slices_S1000000_S62500_437500 := by
  rw [← V14_v3 m outs c]
  show StableHlo.after hostOps7 (V14 m outs c) (Proc.devRef .tc main_v33) = _
  simp only [hostOps7]
  after_results

theorem V16_v1 (c : Dev nD) : V16 m outs c main_v1 = V1 m c main_v1 :=
  (V16_of m outs c main_v1 (by decide)).trans ((V15_of m outs c main_v1 (by decide)).trans (V14_v1 m outs c))
theorem V16_v3 (c : Dev nD) : V16 m outs c main_v3 = V1 m c main_v3 :=
  (V16_of m outs c main_v3 (by decide)).trans ((V15_of m outs c main_v3 (by decide)).trans (V14_v3 m outs c))

/-- Region 8's first table is entries [500000, 562500) of flattened row 0. -/
theorem tbl_8a_eq (c : Dev nD) :
    (V17 m outs c main_v35 : IVec S62500 32)
      = extractStridedSlice S62500 ![500000] (V1 m c main_v1 : IVec S1000000 32) slices_S1000000_S62500_500000 := by
  rw [← V16_v1 m outs c]
  show StableHlo.after hostOps8 (V16 m outs c) (Proc.devRef .tc main_v35) = _
  simp only [hostOps8]
  after_results

/-- Region 8's second table is entries [500000, 562500) of flattened row 1. -/
theorem tbl_8b_eq (c : Dev nD) :
    (V17 m outs c main_v36 : IVec S62500 32)
      = extractStridedSlice S62500 ![500000] (V1 m c main_v3 : IVec S1000000 32) slices_S1000000_S62500_500000 := by
  rw [← V16_v3 m outs c]
  show StableHlo.after hostOps8 (V16 m outs c) (Proc.devRef .tc main_v36) = _
  simp only [hostOps8]
  after_results

theorem V18_v1 (c : Dev nD) : V18 m outs c main_v1 = V1 m c main_v1 :=
  (V18_of m outs c main_v1 (by decide)).trans ((V17_of m outs c main_v1 (by decide)).trans (V16_v1 m outs c))
theorem V18_v3 (c : Dev nD) : V18 m outs c main_v3 = V1 m c main_v3 :=
  (V18_of m outs c main_v3 (by decide)).trans ((V17_of m outs c main_v3 (by decide)).trans (V16_v3 m outs c))

/-- Region 9's first table is entries [562500, 625000) of flattened row 0. -/
theorem tbl_9a_eq (c : Dev nD) :
    (V19 m outs c main_v38 : IVec S62500 32)
      = extractStridedSlice S62500 ![562500] (V1 m c main_v1 : IVec S1000000 32) slices_S1000000_S62500_562500 := by
  rw [← V18_v1 m outs c]
  show StableHlo.after hostOps9 (V18 m outs c) (Proc.devRef .tc main_v38) = _
  simp only [hostOps9]
  after_results

/-- Region 9's second table is entries [562500, 625000) of flattened row 1. -/
theorem tbl_9b_eq (c : Dev nD) :
    (V19 m outs c main_v39 : IVec S62500 32)
      = extractStridedSlice S62500 ![562500] (V1 m c main_v3 : IVec S1000000 32) slices_S1000000_S62500_562500 := by
  rw [← V18_v3 m outs c]
  show StableHlo.after hostOps9 (V18 m outs c) (Proc.devRef .tc main_v39) = _
  simp only [hostOps9]
  after_results

theorem V20_v1 (c : Dev nD) : V20 m outs c main_v1 = V1 m c main_v1 :=
  (V20_of m outs c main_v1 (by decide)).trans ((V19_of m outs c main_v1 (by decide)).trans (V18_v1 m outs c))
theorem V20_v3 (c : Dev nD) : V20 m outs c main_v3 = V1 m c main_v3 :=
  (V20_of m outs c main_v3 (by decide)).trans ((V19_of m outs c main_v3 (by decide)).trans (V18_v3 m outs c))

/-- Region 10's first table is entries [625000, 687500) of flattened row 0. -/
theorem tbl_10a_eq (c : Dev nD) :
    (V21 m outs c main_v41 : IVec S62500 32)
      = extractStridedSlice S62500 ![625000] (V1 m c main_v1 : IVec S1000000 32) slices_S1000000_S62500_625000 := by
  rw [← V20_v1 m outs c]
  show StableHlo.after hostOps10 (V20 m outs c) (Proc.devRef .tc main_v41) = _
  simp only [hostOps10]
  after_results

/-- Region 10's second table is entries [625000, 687500) of flattened row 1. -/
theorem tbl_10b_eq (c : Dev nD) :
    (V21 m outs c main_v42 : IVec S62500 32)
      = extractStridedSlice S62500 ![625000] (V1 m c main_v3 : IVec S1000000 32) slices_S1000000_S62500_625000 := by
  rw [← V20_v3 m outs c]
  show StableHlo.after hostOps10 (V20 m outs c) (Proc.devRef .tc main_v42) = _
  simp only [hostOps10]
  after_results

theorem V22_v1 (c : Dev nD) : V22 m outs c main_v1 = V1 m c main_v1 :=
  (V22_of m outs c main_v1 (by decide)).trans ((V21_of m outs c main_v1 (by decide)).trans (V20_v1 m outs c))
theorem V22_v3 (c : Dev nD) : V22 m outs c main_v3 = V1 m c main_v3 :=
  (V22_of m outs c main_v3 (by decide)).trans ((V21_of m outs c main_v3 (by decide)).trans (V20_v3 m outs c))

/-- Region 11's first table is entries [687500, 750000) of flattened row 0. -/
theorem tbl_11a_eq (c : Dev nD) :
    (V23 m outs c main_v44 : IVec S62500 32)
      = extractStridedSlice S62500 ![687500] (V1 m c main_v1 : IVec S1000000 32) slices_S1000000_S62500_687500 := by
  rw [← V22_v1 m outs c]
  show StableHlo.after hostOps11 (V22 m outs c) (Proc.devRef .tc main_v44) = _
  simp only [hostOps11]
  after_results

/-- Region 11's second table is entries [687500, 750000) of flattened row 1. -/
theorem tbl_11b_eq (c : Dev nD) :
    (V23 m outs c main_v45 : IVec S62500 32)
      = extractStridedSlice S62500 ![687500] (V1 m c main_v3 : IVec S1000000 32) slices_S1000000_S62500_687500 := by
  rw [← V22_v3 m outs c]
  show StableHlo.after hostOps11 (V22 m outs c) (Proc.devRef .tc main_v45) = _
  simp only [hostOps11]
  after_results

theorem V24_v1 (c : Dev nD) : V24 m outs c main_v1 = V1 m c main_v1 :=
  (V24_of m outs c main_v1 (by decide)).trans ((V23_of m outs c main_v1 (by decide)).trans (V22_v1 m outs c))
theorem V24_v3 (c : Dev nD) : V24 m outs c main_v3 = V1 m c main_v3 :=
  (V24_of m outs c main_v3 (by decide)).trans ((V23_of m outs c main_v3 (by decide)).trans (V22_v3 m outs c))

/-- Region 12's first table is entries [750000, 812500) of flattened row 0. -/
theorem tbl_12a_eq (c : Dev nD) :
    (V25 m outs c main_v47 : IVec S62500 32)
      = extractStridedSlice S62500 ![750000] (V1 m c main_v1 : IVec S1000000 32) slices_S1000000_S62500_750000 := by
  rw [← V24_v1 m outs c]
  show StableHlo.after hostOps12 (V24 m outs c) (Proc.devRef .tc main_v47) = _
  simp only [hostOps12]
  after_results

/-- Region 12's second table is entries [750000, 812500) of flattened row 1. -/
theorem tbl_12b_eq (c : Dev nD) :
    (V25 m outs c main_v48 : IVec S62500 32)
      = extractStridedSlice S62500 ![750000] (V1 m c main_v3 : IVec S1000000 32) slices_S1000000_S62500_750000 := by
  rw [← V24_v3 m outs c]
  show StableHlo.after hostOps12 (V24 m outs c) (Proc.devRef .tc main_v48) = _
  simp only [hostOps12]
  after_results

theorem V26_v1 (c : Dev nD) : V26 m outs c main_v1 = V1 m c main_v1 :=
  (V26_of m outs c main_v1 (by decide)).trans ((V25_of m outs c main_v1 (by decide)).trans (V24_v1 m outs c))
theorem V26_v3 (c : Dev nD) : V26 m outs c main_v3 = V1 m c main_v3 :=
  (V26_of m outs c main_v3 (by decide)).trans ((V25_of m outs c main_v3 (by decide)).trans (V24_v3 m outs c))

/-- Region 13's first table is entries [812500, 875000) of flattened row 0. -/
theorem tbl_13a_eq (c : Dev nD) :
    (V27 m outs c main_v50 : IVec S62500 32)
      = extractStridedSlice S62500 ![812500] (V1 m c main_v1 : IVec S1000000 32) slices_S1000000_S62500_812500 := by
  rw [← V26_v1 m outs c]
  show StableHlo.after hostOps13 (V26 m outs c) (Proc.devRef .tc main_v50) = _
  simp only [hostOps13]
  after_results

/-- Region 13's second table is entries [812500, 875000) of flattened row 1. -/
theorem tbl_13b_eq (c : Dev nD) :
    (V27 m outs c main_v51 : IVec S62500 32)
      = extractStridedSlice S62500 ![812500] (V1 m c main_v3 : IVec S1000000 32) slices_S1000000_S62500_812500 := by
  rw [← V26_v3 m outs c]
  show StableHlo.after hostOps13 (V26 m outs c) (Proc.devRef .tc main_v51) = _
  simp only [hostOps13]
  after_results

theorem V28_v1 (c : Dev nD) : V28 m outs c main_v1 = V1 m c main_v1 :=
  (V28_of m outs c main_v1 (by decide)).trans ((V27_of m outs c main_v1 (by decide)).trans (V26_v1 m outs c))
theorem V28_v3 (c : Dev nD) : V28 m outs c main_v3 = V1 m c main_v3 :=
  (V28_of m outs c main_v3 (by decide)).trans ((V27_of m outs c main_v3 (by decide)).trans (V26_v3 m outs c))

/-- Region 14's first table is entries [875000, 937500) of flattened row 0. -/
theorem tbl_14a_eq (c : Dev nD) :
    (V29 m outs c main_v53 : IVec S62500 32)
      = extractStridedSlice S62500 ![875000] (V1 m c main_v1 : IVec S1000000 32) slices_S1000000_S62500_875000 := by
  rw [← V28_v1 m outs c]
  show StableHlo.after hostOps14 (V28 m outs c) (Proc.devRef .tc main_v53) = _
  simp only [hostOps14]
  after_results

/-- Region 14's second table is entries [875000, 937500) of flattened row 1. -/
theorem tbl_14b_eq (c : Dev nD) :
    (V29 m outs c main_v54 : IVec S62500 32)
      = extractStridedSlice S62500 ![875000] (V1 m c main_v3 : IVec S1000000 32) slices_S1000000_S62500_875000 := by
  rw [← V28_v3 m outs c]
  show StableHlo.after hostOps14 (V28 m outs c) (Proc.devRef .tc main_v54) = _
  simp only [hostOps14]
  after_results

theorem V30_v1 (c : Dev nD) : V30 m outs c main_v1 = V1 m c main_v1 :=
  (V30_of m outs c main_v1 (by decide)).trans ((V29_of m outs c main_v1 (by decide)).trans (V28_v1 m outs c))
theorem V30_v3 (c : Dev nD) : V30 m outs c main_v3 = V1 m c main_v3 :=
  (V30_of m outs c main_v3 (by decide)).trans ((V29_of m outs c main_v3 (by decide)).trans (V28_v3 m outs c))

/-- Region 15's first table is entries [937500, 1000000) of flattened row 0. -/
theorem tbl_15a_eq (c : Dev nD) :
    (V31 m outs c main_v56 : IVec S62500 32)
      = extractStridedSlice S62500 ![937500] (V1 m c main_v1 : IVec S1000000 32) slices_S1000000_S62500_937500 := by
  rw [← V30_v1 m outs c]
  show StableHlo.after hostOps15 (V30 m outs c) (Proc.devRef .tc main_v56) = _
  simp only [hostOps15]
  after_results

/-- Region 15's second table is entries [937500, 1000000) of flattened row 1. -/
theorem tbl_15b_eq (c : Dev nD) :
    (V31 m outs c main_v57 : IVec S62500 32)
      = extractStridedSlice S62500 ![937500] (V1 m c main_v3 : IVec S1000000 32) slices_S1000000_S62500_937500 := by
  rw [← V30_v3 m outs c]
  show StableHlo.after hostOps15 (V30 m outs c) (Proc.devRef .tc main_v57) = _
  simp only [hostOps15]
  after_results

/-! ## The tables read at an index -/

/-- Entry e of flattened row 0 is the first endpoint of edge e. -/
theorem row0_apply (c : Dev nD) (e : Fin 1000000) :
    (V1 m c main_v1 : IVec S1000000 32) (ValueIdx.ix1 e) = edges m c (ValueIdx.ix2 (0 : Fin 2) e) := by
  rw [V1_main_v1]
  refine (ValueIdx.shapeCast_1a_a_apply _ shapeCasts_S1x1000000_S1000000 e).trans ?_
  refine extractStridedSlice_apply _ _ slices_S2x1000000_S1x1000000_0_0 _ (ValueIdx.ix2 (0 : Fin 2) e) ?_
  intro a
  match a with
  | ⟨0, _⟩ => rfl
  | ⟨1, _⟩ => show e.val = 0 + e.val; omega

/-- Entry e of flattened row 1 is the second endpoint of edge e. -/
theorem row1_apply (c : Dev nD) (e : Fin 1000000) :
    (V1 m c main_v3 : IVec S1000000 32) (ValueIdx.ix1 e) = edges m c (ValueIdx.ix2 (1 : Fin 2) e) := by
  rw [V1_main_v3]
  refine (ValueIdx.shapeCast_1a_a_apply _ shapeCasts_S1x1000000_S1000000 e).trans ?_
  refine extractStridedSlice_apply _ _ slices_S2x1000000_S1x1000000_1_0 _ (ValueIdx.ix2 (1 : Fin 2) e) ?_
  intro a
  match a with
  | ⟨0, _⟩ => rfl
  | ⟨1, _⟩ => show e.val = 0 + e.val; omega

/-- Entry j of the piece of flattened row 0 that starts at 62500·K is the first endpoint of edge j of chunk K. -/
theorem piece_row0 (c : Dev nD) (o k : ℕ) (hk : k < 16) (h : S1000000.Slices ![o] S62500) (j : Fin 62500)
    (ho : o = k * 62500) :
    extractStridedSlice S62500 ![o] (V1 m c main_v1 : IVec S1000000 32) h (ValueIdx.ix1 j)
      = edges m c (ValueIdx.ix2 (0 : Fin 2) (Cert.Spec.chunk ⟨k, hk⟩ j)) := by
  refine (extractStridedSlice_apply _ _ h (ValueIdx.ix1 j) (ValueIdx.ix1 (Cert.Spec.chunk ⟨k, hk⟩ j)) ?_).trans (row0_apply m c _)
  intro a
  match a with
  | ⟨0, _⟩ => show k * 62500 + j.val = o + j.val; omega

/-- The same for flattened row 1 and the second endpoint. -/
theorem piece_row1 (c : Dev nD) (o k : ℕ) (hk : k < 16) (h : S1000000.Slices ![o] S62500) (j : Fin 62500)
    (ho : o = k * 62500) :
    extractStridedSlice S62500 ![o] (V1 m c main_v3 : IVec S1000000 32) h (ValueIdx.ix1 j)
      = edges m c (ValueIdx.ix2 (1 : Fin 2) (Cert.Spec.chunk ⟨k, hk⟩ j)) := by
  refine (extractStridedSlice_apply _ _ h (ValueIdx.ix1 j) (ValueIdx.ix1 (Cert.Spec.chunk ⟨k, hk⟩ j)) ?_).trans (row1_apply m c _)
  intro a
  match a with
  | ⟨0, _⟩ => show k * 62500 + j.val = o + j.val; omega

theorem tbl_0a_apply (c : Dev nD) (j : Fin 62500) :
    (V1 m c main_v11 : IVec S62500 32) (ValueIdx.ix1 j) = edges m c (ValueIdx.ix2 (0 : Fin 2) (Cert.Spec.chunk ⟨0, by omega⟩ j)) := by
  rw [tbl_0a_eq]; exact piece_row0 m c 0 0 (by omega) _ j (by omega)
theorem tbl_0b_apply (c : Dev nD) (j : Fin 62500) :
    (V1 m c main_v12 : IVec S62500 32) (ValueIdx.ix1 j) = edges m c (ValueIdx.ix2 (1 : Fin 2) (Cert.Spec.chunk ⟨0, by omega⟩ j)) := by
  rw [tbl_0b_eq]; exact piece_row1 m c 0 0 (by omega) _ j (by omega)
theorem tbl_1a_apply (c : Dev nD) (j : Fin 62500) :
    (V3 m outs c main_v14 : IVec S62500 32) (ValueIdx.ix1 j) = edges m c (ValueIdx.ix2 (0 : Fin 2) (Cert.Spec.chunk ⟨1, by omega⟩ j)) := by
  rw [tbl_1a_eq]; exact piece_row0 m c 62500 1 (by omega) _ j (by omega)
theorem tbl_1b_apply (c : Dev nD) (j : Fin 62500) :
    (V3 m outs c main_v15 : IVec S62500 32) (ValueIdx.ix1 j) = edges m c (ValueIdx.ix2 (1 : Fin 2) (Cert.Spec.chunk ⟨1, by omega⟩ j)) := by
  rw [tbl_1b_eq]; exact piece_row1 m c 62500 1 (by omega) _ j (by omega)
theorem tbl_2a_apply (c : Dev nD) (j : Fin 62500) :
    (V5 m outs c main_v17 : IVec S62500 32) (ValueIdx.ix1 j) = edges m c (ValueIdx.ix2 (0 : Fin 2) (Cert.Spec.chunk ⟨2, by omega⟩ j)) := by
  rw [tbl_2a_eq]; exact piece_row0 m c 125000 2 (by omega) _ j (by omega)
theorem tbl_2b_apply (c : Dev nD) (j : Fin 62500) :
    (V5 m outs c main_v18 : IVec S62500 32) (ValueIdx.ix1 j) = edges m c (ValueIdx.ix2 (1 : Fin 2) (Cert.Spec.chunk ⟨2, by omega⟩ j)) := by
  rw [tbl_2b_eq]; exact piece_row1 m c 125000 2 (by omega) _ j (by omega)
theorem tbl_3a_apply (c : Dev nD) (j : Fin 62500) :
    (V7 m outs c main_v20 : IVec S62500 32) (ValueIdx.ix1 j) = edges m c (ValueIdx.ix2 (0 : Fin 2) (Cert.Spec.chunk ⟨3, by omega⟩ j)) := by
  rw [tbl_3a_eq]; exact piece_row0 m c 187500 3 (by omega) _ j (by omega)
theorem tbl_3b_apply (c : Dev nD) (j : Fin 62500) :
    (V7 m outs c main_v21 : IVec S62500 32) (ValueIdx.ix1 j) = edges m c (ValueIdx.ix2 (1 : Fin 2) (Cert.Spec.chunk ⟨3, by omega⟩ j)) := by
  rw [tbl_3b_eq]; exact piece_row1 m c 187500 3 (by omega) _ j (by omega)
theorem tbl_4a_apply (c : Dev nD) (j : Fin 62500) :
    (V9 m outs c main_v23 : IVec S62500 32) (ValueIdx.ix1 j) = edges m c (ValueIdx.ix2 (0 : Fin 2) (Cert.Spec.chunk ⟨4, by omega⟩ j)) := by
  rw [tbl_4a_eq]; exact piece_row0 m c 250000 4 (by omega) _ j (by omega)
theorem tbl_4b_apply (c : Dev nD) (j : Fin 62500) :
    (V9 m outs c main_v24 : IVec S62500 32) (ValueIdx.ix1 j) = edges m c (ValueIdx.ix2 (1 : Fin 2) (Cert.Spec.chunk ⟨4, by omega⟩ j)) := by
  rw [tbl_4b_eq]; exact piece_row1 m c 250000 4 (by omega) _ j (by omega)
theorem tbl_5a_apply (c : Dev nD) (j : Fin 62500) :
    (V11 m outs c main_v26 : IVec S62500 32) (ValueIdx.ix1 j) = edges m c (ValueIdx.ix2 (0 : Fin 2) (Cert.Spec.chunk ⟨5, by omega⟩ j)) := by
  rw [tbl_5a_eq]; exact piece_row0 m c 312500 5 (by omega) _ j (by omega)
theorem tbl_5b_apply (c : Dev nD) (j : Fin 62500) :
    (V11 m outs c main_v27 : IVec S62500 32) (ValueIdx.ix1 j) = edges m c (ValueIdx.ix2 (1 : Fin 2) (Cert.Spec.chunk ⟨5, by omega⟩ j)) := by
  rw [tbl_5b_eq]; exact piece_row1 m c 312500 5 (by omega) _ j (by omega)
theorem tbl_6a_apply (c : Dev nD) (j : Fin 62500) :
    (V13 m outs c main_v29 : IVec S62500 32) (ValueIdx.ix1 j) = edges m c (ValueIdx.ix2 (0 : Fin 2) (Cert.Spec.chunk ⟨6, by omega⟩ j)) := by
  rw [tbl_6a_eq]; exact piece_row0 m c 375000 6 (by omega) _ j (by omega)
theorem tbl_6b_apply (c : Dev nD) (j : Fin 62500) :
    (V13 m outs c main_v30 : IVec S62500 32) (ValueIdx.ix1 j) = edges m c (ValueIdx.ix2 (1 : Fin 2) (Cert.Spec.chunk ⟨6, by omega⟩ j)) := by
  rw [tbl_6b_eq]; exact piece_row1 m c 375000 6 (by omega) _ j (by omega)
theorem tbl_7a_apply (c : Dev nD) (j : Fin 62500) :
    (V15 m outs c main_v32 : IVec S62500 32) (ValueIdx.ix1 j) = edges m c (ValueIdx.ix2 (0 : Fin 2) (Cert.Spec.chunk ⟨7, by omega⟩ j)) := by
  rw [tbl_7a_eq]; exact piece_row0 m c 437500 7 (by omega) _ j (by omega)
theorem tbl_7b_apply (c : Dev nD) (j : Fin 62500) :
    (V15 m outs c main_v33 : IVec S62500 32) (ValueIdx.ix1 j) = edges m c (ValueIdx.ix2 (1 : Fin 2) (Cert.Spec.chunk ⟨7, by omega⟩ j)) := by
  rw [tbl_7b_eq]; exact piece_row1 m c 437500 7 (by omega) _ j (by omega)
theorem tbl_8a_apply (c : Dev nD) (j : Fin 62500) :
    (V17 m outs c main_v35 : IVec S62500 32) (ValueIdx.ix1 j) = edges m c (ValueIdx.ix2 (0 : Fin 2) (Cert.Spec.chunk ⟨8, by omega⟩ j)) := by
  rw [tbl_8a_eq]; exact piece_row0 m c 500000 8 (by omega) _ j (by omega)
theorem tbl_8b_apply (c : Dev nD) (j : Fin 62500) :
    (V17 m outs c main_v36 : IVec S62500 32) (ValueIdx.ix1 j) = edges m c (ValueIdx.ix2 (1 : Fin 2) (Cert.Spec.chunk ⟨8, by omega⟩ j)) := by
  rw [tbl_8b_eq]; exact piece_row1 m c 500000 8 (by omega) _ j (by omega)
theorem tbl_9a_apply (c : Dev nD) (j : Fin 62500) :
    (V19 m outs c main_v38 : IVec S62500 32) (ValueIdx.ix1 j) = edges m c (ValueIdx.ix2 (0 : Fin 2) (Cert.Spec.chunk ⟨9, by omega⟩ j)) := by
  rw [tbl_9a_eq]; exact piece_row0 m c 562500 9 (by omega) _ j (by omega)
theorem tbl_9b_apply (c : Dev nD) (j : Fin 62500) :
    (V19 m outs c main_v39 : IVec S62500 32) (ValueIdx.ix1 j) = edges m c (ValueIdx.ix2 (1 : Fin 2) (Cert.Spec.chunk ⟨9, by omega⟩ j)) := by
  rw [tbl_9b_eq]; exact piece_row1 m c 562500 9 (by omega) _ j (by omega)
theorem tbl_10a_apply (c : Dev nD) (j : Fin 62500) :
    (V21 m outs c main_v41 : IVec S62500 32) (ValueIdx.ix1 j) = edges m c (ValueIdx.ix2 (0 : Fin 2) (Cert.Spec.chunk ⟨10, by omega⟩ j)) := by
  rw [tbl_10a_eq]; exact piece_row0 m c 625000 10 (by omega) _ j (by omega)
theorem tbl_10b_apply (c : Dev nD) (j : Fin 62500) :
    (V21 m outs c main_v42 : IVec S62500 32) (ValueIdx.ix1 j) = edges m c (ValueIdx.ix2 (1 : Fin 2) (Cert.Spec.chunk ⟨10, by omega⟩ j)) := by
  rw [tbl_10b_eq]; exact piece_row1 m c 625000 10 (by omega) _ j (by omega)
theorem tbl_11a_apply (c : Dev nD) (j : Fin 62500) :
    (V23 m outs c main_v44 : IVec S62500 32) (ValueIdx.ix1 j) = edges m c (ValueIdx.ix2 (0 : Fin 2) (Cert.Spec.chunk ⟨11, by omega⟩ j)) := by
  rw [tbl_11a_eq]; exact piece_row0 m c 687500 11 (by omega) _ j (by omega)
theorem tbl_11b_apply (c : Dev nD) (j : Fin 62500) :
    (V23 m outs c main_v45 : IVec S62500 32) (ValueIdx.ix1 j) = edges m c (ValueIdx.ix2 (1 : Fin 2) (Cert.Spec.chunk ⟨11, by omega⟩ j)) := by
  rw [tbl_11b_eq]; exact piece_row1 m c 687500 11 (by omega) _ j (by omega)
theorem tbl_12a_apply (c : Dev nD) (j : Fin 62500) :
    (V25 m outs c main_v47 : IVec S62500 32) (ValueIdx.ix1 j) = edges m c (ValueIdx.ix2 (0 : Fin 2) (Cert.Spec.chunk ⟨12, by omega⟩ j)) := by
  rw [tbl_12a_eq]; exact piece_row0 m c 750000 12 (by omega) _ j (by omega)
theorem tbl_12b_apply (c : Dev nD) (j : Fin 62500) :
    (V25 m outs c main_v48 : IVec S62500 32) (ValueIdx.ix1 j) = edges m c (ValueIdx.ix2 (1 : Fin 2) (Cert.Spec.chunk ⟨12, by omega⟩ j)) := by
  rw [tbl_12b_eq]; exact piece_row1 m c 750000 12 (by omega) _ j (by omega)
theorem tbl_13a_apply (c : Dev nD) (j : Fin 62500) :
    (V27 m outs c main_v50 : IVec S62500 32) (ValueIdx.ix1 j) = edges m c (ValueIdx.ix2 (0 : Fin 2) (Cert.Spec.chunk ⟨13, by omega⟩ j)) := by
  rw [tbl_13a_eq]; exact piece_row0 m c 812500 13 (by omega) _ j (by omega)
theorem tbl_13b_apply (c : Dev nD) (j : Fin 62500) :
    (V27 m outs c main_v51 : IVec S62500 32) (ValueIdx.ix1 j) = edges m c (ValueIdx.ix2 (1 : Fin 2) (Cert.Spec.chunk ⟨13, by omega⟩ j)) := by
  rw [tbl_13b_eq]; exact piece_row1 m c 812500 13 (by omega) _ j (by omega)
theorem tbl_14a_apply (c : Dev nD) (j : Fin 62500) :
    (V29 m outs c main_v53 : IVec S62500 32) (ValueIdx.ix1 j) = edges m c (ValueIdx.ix2 (0 : Fin 2) (Cert.Spec.chunk ⟨14, by omega⟩ j)) := by
  rw [tbl_14a_eq]; exact piece_row0 m c 875000 14 (by omega) _ j (by omega)
theorem tbl_14b_apply (c : Dev nD) (j : Fin 62500) :
    (V29 m outs c main_v54 : IVec S62500 32) (ValueIdx.ix1 j) = edges m c (ValueIdx.ix2 (1 : Fin 2) (Cert.Spec.chunk ⟨14, by omega⟩ j)) := by
  rw [tbl_14b_eq]; exact piece_row1 m c 875000 14 (by omega) _ j (by omega)
theorem tbl_15a_apply (c : Dev nD) (j : Fin 62500) :
    (V31 m outs c main_v56 : IVec S62500 32) (ValueIdx.ix1 j) = edges m c (ValueIdx.ix2 (0 : Fin 2) (Cert.Spec.chunk ⟨15, by omega⟩ j)) := by
  rw [tbl_15a_eq]; exact piece_row0 m c 937500 15 (by omega) _ j (by omega)
theorem tbl_15b_apply (c : Dev nD) (j : Fin 62500) :
    (V31 m outs c main_v57 : IVec S62500 32) (ValueIdx.ix1 j) = edges m c (ValueIdx.ix2 (1 : Fin 2) (Cert.Spec.chunk ⟨15, by omega⟩ j)) := by
  rw [tbl_15b_eq]; exact piece_row1 m c 937500 15 (by omega) _ j (by omega)

/-! ## The sixteen regions' tables as functions of the region number -/

/-- The first table (first endpoints) of region K, as the buffers hold it when that region starts. -/
def tblA (c : Dev nD) : Fin 16 → IVec S62500 32
  | ⟨0, _⟩ => V1 m c main_v11
  | ⟨1, _⟩ => V3 m outs c main_v14
  | ⟨2, _⟩ => V5 m outs c main_v17
  | ⟨3, _⟩ => V7 m outs c main_v20
  | ⟨4, _⟩ => V9 m outs c main_v23
  | ⟨5, _⟩ => V11 m outs c main_v26
  | ⟨6, _⟩ => V13 m outs c main_v29
  | ⟨7, _⟩ => V15 m outs c main_v32
  | ⟨8, _⟩ => V17 m outs c main_v35
  | ⟨9, _⟩ => V19 m outs c main_v38
  | ⟨10, _⟩ => V21 m outs c main_v41
  | ⟨11, _⟩ => V23 m outs c main_v44
  | ⟨12, _⟩ => V25 m outs c main_v47
  | ⟨13, _⟩ => V27 m outs c main_v50
  | ⟨14, _⟩ => V29 m outs c main_v53
  | ⟨15, _⟩ => V31 m outs c main_v56
  | ⟨_ + 16, h⟩ => absurd h (Nat.not_lt.2 (Nat.le_add_left _ _))

/-- The second table (second endpoints) of region K. -/
def tblB (c : Dev nD) : Fin 16 → IVec S62500 32
  | ⟨0, _⟩ => V1 m c main_v12
  | ⟨1, _⟩ => V3 m outs c main_v15
  | ⟨2, _⟩ => V5 m outs c main_v18
  | ⟨3, _⟩ => V7 m outs c main_v21
  | ⟨4, _⟩ => V9 m outs c main_v24
  | ⟨5, _⟩ => V11 m outs c main_v27
  | ⟨6, _⟩ => V13 m outs c main_v30
  | ⟨7, _⟩ => V15 m outs c main_v33
  | ⟨8, _⟩ => V17 m outs c main_v36
  | ⟨9, _⟩ => V19 m outs c main_v39
  | ⟨10, _⟩ => V21 m outs c main_v42
  | ⟨11, _⟩ => V23 m outs c main_v45
  | ⟨12, _⟩ => V25 m outs c main_v48
  | ⟨13, _⟩ => V27 m outs c main_v51
  | ⟨14, _⟩ => V29 m outs c main_v54
  | ⟨15, _⟩ => V31 m outs c main_v57
  | ⟨_ + 16, h⟩ => absurd h (Nat.not_lt.2 (Nat.le_add_left _ _))

/-- Entry j of region K's first table is the first endpoint of edge j of chunk K. -/
theorem tblA_apply (c : Dev nD) (K : Fin 16) (j : Fin 62500) :
    tblA m outs c K (ValueIdx.ix1 j) = edges m c (ValueIdx.ix2 (0 : Fin 2) (Cert.Spec.chunk K j)) := by
  match K with
  | ⟨0, _⟩ => exact tbl_0a_apply m c j
  | ⟨1, _⟩ => exact tbl_1a_apply m outs c j
  | ⟨2, _⟩ => exact tbl_2a_apply m outs c j
  | ⟨3, _⟩ => exact tbl_3a_apply m outs c j
  | ⟨4, _⟩ => exact tbl_4a_apply m outs c j
  | ⟨5, _⟩ => exact tbl_5a_apply m outs c j
  | ⟨6, _⟩ => exact tbl_6a_apply m outs c j
  | ⟨7, _⟩ => exact tbl_7a_apply m outs c j
  | ⟨8, _⟩ => exact tbl_8a_apply m outs c j
  | ⟨9, _⟩ => exact tbl_9a_apply m outs c j
  | ⟨10, _⟩ => exact tbl_10a_apply m outs c j
  | ⟨11, _⟩ => exact tbl_11a_apply m outs c j
  | ⟨12, _⟩ => exact tbl_12a_apply m outs c j
  | ⟨13, _⟩ => exact tbl_13a_apply m outs c j
  | ⟨14, _⟩ => exact tbl_14a_apply m outs c j
  | ⟨15, _⟩ => exact tbl_15a_apply m outs c j
  | ⟨_ + 16, h⟩ => exact absurd h (by omega)

/-- Entry j of region K's second table is the second endpoint of edge j of chunk K. -/
theorem tblB_apply (c : Dev nD) (K : Fin 16) (j : Fin 62500) :
    tblB m outs c K (ValueIdx.ix1 j) = edges m c (ValueIdx.ix2 (1 : Fin 2) (Cert.Spec.chunk K j)) := by
  match K with
  | ⟨0, _⟩ => exact tbl_0b_apply m c j
  | ⟨1, _⟩ => exact tbl_1b_apply m outs c j
  | ⟨2, _⟩ => exact tbl_2b_apply m outs c j
  | ⟨3, _⟩ => exact tbl_3b_apply m outs c j
  | ⟨4, _⟩ => exact tbl_4b_apply m outs c j
  | ⟨5, _⟩ => exact tbl_5b_apply m outs c j
  | ⟨6, _⟩ => exact tbl_6b_apply m outs c j
  | ⟨7, _⟩ => exact tbl_7b_apply m outs c j
  | ⟨8, _⟩ => exact tbl_8b_apply m outs c j
  | ⟨9, _⟩ => exact tbl_9b_apply m outs c j
  | ⟨10, _⟩ => exact tbl_10b_apply m outs c j
  | ⟨11, _⟩ => exact tbl_11b_apply m outs c j
  | ⟨12, _⟩ => exact tbl_12b_apply m outs c j
  | ⟨13, _⟩ => exact tbl_13b_apply m outs c j
  | ⟨14, _⟩ => exact tbl_14b_apply m outs c j
  | ⟨15, _⟩ => exact tbl_15b_apply m outs c j
  | ⟨_ + 16, h⟩ => exact absurd h (by omega)

/-! ## The bound -/

section Bounded

variable (c : Dev nD) (hE : ∀ idx : S2x1000000.Idx, (edges m c idx).toNat < 100000)
include hE

/-- Every entry of flattened row 0 is an endpoint. -/
theorem row0_lt (i : S1000000.Idx) : ((V1 m c main_v1 : IVec S1000000 32) i).toNat < 100000 := by
  rw [V1_main_v1]; exact hE _

/-- Every entry of flattened row 1 is an endpoint. -/
theorem row1_lt (i : S1000000.Idx) : ((V1 m c main_v3 : IVec S1000000 32) i).toNat < 100000 := by
  rw [V1_main_v3]; exact hE _

theorem tbl_lt_0a (j : S62500.Idx) : ((V1 m c main_v11 : IVec S62500 32) j).toNat < 100000 := by
  rw [tbl_0a_eq]; exact row0_lt m c hE _
theorem tbl_lt_0b (j : S62500.Idx) : ((V1 m c main_v12 : IVec S62500 32) j).toNat < 100000 := by
  rw [tbl_0b_eq]; exact row1_lt m c hE _

theorem tbl_lt_1a (j : S62500.Idx) : ((V3 m outs c main_v14 : IVec S62500 32) j).toNat < 100000 := by
  rw [tbl_1a_eq]; exact row0_lt m c hE _
theorem tbl_lt_1b (j : S62500.Idx) : ((V3 m outs c main_v15 : IVec S62500 32) j).toNat < 100000 := by
  rw [tbl_1b_eq]; exact row1_lt m c hE _

theorem tbl_lt_2a (j : S62500.Idx) : ((V5 m outs c main_v17 : IVec S62500 32) j).toNat < 100000 := by
  rw [tbl_2a_eq]; exact row0_lt m c hE _
theorem tbl_lt_2b (j : S62500.Idx) : ((V5 m outs c main_v18 : IVec S62500 32) j).toNat < 100000 := by
  rw [tbl_2b_eq]; exact row1_lt m c hE _
theorem tbl_lt_3a (j : S62500.Idx) : ((V7 m outs c main_v20 : IVec S62500 32) j).toNat < 100000 := by
  rw [tbl_3a_eq]; exact row0_lt m c hE _
theorem tbl_lt_3b (j : S62500.Idx) : ((V7 m outs c main_v21 : IVec S62500 32) j).toNat < 100000 := by
  rw [tbl_3b_eq]; exact row1_lt m c hE _
theorem tbl_lt_4a (j : S62500.Idx) : ((V9 m outs c main_v23 : IVec S62500 32) j).toNat < 100000 := by
  rw [tbl_4a_eq]; exact row0_lt m c hE _
theorem tbl_lt_4b (j : S62500.Idx) : ((V9 m outs c main_v24 : IVec S62500 32) j).toNat < 100000 := by
  rw [tbl_4b_eq]; exact row1_lt m c hE _
theorem tbl_lt_5a (j : S62500.Idx) : ((V11 m outs c main_v26 : IVec S62500 32) j).toNat < 100000 := by
  rw [tbl_5a_eq]; exact row0_lt m c hE _
theorem tbl_lt_5b (j : S62500.Idx) : ((V11 m outs c main_v27 : IVec S62500 32) j).toNat < 100000 := by
  rw [tbl_5b_eq]; exact row1_lt m c hE _
theorem tbl_lt_6a (j : S62500.Idx) : ((V13 m outs c main_v29 : IVec S62500 32) j).toNat < 100000 := by
  rw [tbl_6a_eq]; exact row0_lt m c hE _
theorem tbl_lt_6b (j : S62500.Idx) : ((V13 m outs c main_v30 : IVec S62500 32) j).toNat < 100000 := by
  rw [tbl_6b_eq]; exact row1_lt m c hE _
theorem tbl_lt_7a (j : S62500.Idx) : ((V15 m outs c main_v32 : IVec S62500 32) j).toNat < 100000 := by
  rw [tbl_7a_eq]; exact row0_lt m c hE _
theorem tbl_lt_7b (j : S62500.Idx) : ((V15 m outs c main_v33 : IVec S62500 32) j).toNat < 100000 := by
  rw [tbl_7b_eq]; exact row1_lt m c hE _
theorem tbl_lt_8a (j : S62500.Idx) : ((V17 m outs c main_v35 : IVec S62500 32) j).toNat < 100000 := by
  rw [tbl_8a_eq]; exact row0_lt m c hE _
theorem tbl_lt_8b (j : S62500.Idx) : ((V17 m outs c main_v36 : IVec S62500 32) j).toNat < 100000 := by
  rw [tbl_8b_eq]; exact row1_lt m c hE _
theorem tbl_lt_9a (j : S62500.Idx) : ((V19 m outs c main_v38 : IVec S62500 32) j).toNat < 100000 := by
  rw [tbl_9a_eq]; exact row0_lt m c hE _
theorem tbl_lt_9b (j : S62500.Idx) : ((V19 m outs c main_v39 : IVec S62500 32) j).toNat < 100000 := by
  rw [tbl_9b_eq]; exact row1_lt m c hE _
theorem tbl_lt_10a (j : S62500.Idx) : ((V21 m outs c main_v41 : IVec S62500 32) j).toNat < 100000 := by
  rw [tbl_10a_eq]; exact row0_lt m c hE _
theorem tbl_lt_10b (j : S62500.Idx) : ((V21 m outs c main_v42 : IVec S62500 32) j).toNat < 100000 := by
  rw [tbl_10b_eq]; exact row1_lt m c hE _
theorem tbl_lt_11a (j : S62500.Idx) : ((V23 m outs c main_v44 : IVec S62500 32) j).toNat < 100000 := by
  rw [tbl_11a_eq]; exact row0_lt m c hE _
theorem tbl_lt_11b (j : S62500.Idx) : ((V23 m outs c main_v45 : IVec S62500 32) j).toNat < 100000 := by
  rw [tbl_11b_eq]; exact row1_lt m c hE _
theorem tbl_lt_12a (j : S62500.Idx) : ((V25 m outs c main_v47 : IVec S62500 32) j).toNat < 100000 := by
  rw [tbl_12a_eq]; exact row0_lt m c hE _
theorem tbl_lt_12b (j : S62500.Idx) : ((V25 m outs c main_v48 : IVec S62500 32) j).toNat < 100000 := by
  rw [tbl_12b_eq]; exact row1_lt m c hE _
theorem tbl_lt_13a (j : S62500.Idx) : ((V27 m outs c main_v50 : IVec S62500 32) j).toNat < 100000 := by
  rw [tbl_13a_eq]; exact row0_lt m c hE _
theorem tbl_lt_13b (j : S62500.Idx) : ((V27 m outs c main_v51 : IVec S62500 32) j).toNat < 100000 := by
  rw [tbl_13b_eq]; exact row1_lt m c hE _
theorem tbl_lt_14a (j : S62500.Idx) : ((V29 m outs c main_v53 : IVec S62500 32) j).toNat < 100000 := by
  rw [tbl_14a_eq]; exact row0_lt m c hE _
theorem tbl_lt_14b (j : S62500.Idx) : ((V29 m outs c main_v54 : IVec S62500 32) j).toNat < 100000 := by
  rw [tbl_14b_eq]; exact row1_lt m c hE _
theorem tbl_lt_15a (j : S62500.Idx) : ((V31 m outs c main_v56 : IVec S62500 32) j).toNat < 100000 := by
  rw [tbl_15a_eq]; exact row0_lt m c hE _
theorem tbl_lt_15b (j : S62500.Idx) : ((V31 m outs c main_v57 : IVec S62500 32) j).toNat < 100000 := by
  rw [tbl_15b_eq]; exact row1_lt m c hE _

/-- Every entry of every region's first table is below 100000. -/
theorem tblA_lt (K : Fin 16) (j : S62500.Idx) : (tblA m outs c K j).toNat < 100000 := by
  match K with
  | ⟨0, _⟩ => exact tbl_lt_0a m c hE j
  | ⟨1, _⟩ => exact tbl_lt_1a m outs c hE j
  | ⟨2, _⟩ => exact tbl_lt_2a m outs c hE j
  | ⟨3, _⟩ => exact tbl_lt_3a m outs c hE j
  | ⟨4, _⟩ => exact tbl_lt_4a m outs c hE j
  | ⟨5, _⟩ => exact tbl_lt_5a m outs c hE j
  | ⟨6, _⟩ => exact tbl_lt_6a m outs c hE j
  | ⟨7, _⟩ => exact tbl_lt_7a m outs c hE j
  | ⟨8, _⟩ => exact tbl_lt_8a m outs c hE j
  | ⟨9, _⟩ => exact tbl_lt_9a m outs c hE j
  | ⟨10, _⟩ => exact tbl_lt_10a m outs c hE j
  | ⟨11, _⟩ => exact tbl_lt_11a m outs c hE j
  | ⟨12, _⟩ => exact tbl_lt_12a m outs c hE j
  | ⟨13, _⟩ => exact tbl_lt_13a m outs c hE j
  | ⟨14, _⟩ => exact tbl_lt_14a m outs c hE j
  | ⟨15, _⟩ => exact tbl_lt_15a m outs c hE j
  | ⟨_ + 16, h⟩ => exact absurd h (by omega)

/-- Every entry of every region's second table is below 100000. -/
theorem tblB_lt (K : Fin 16) (j : S62500.Idx) : (tblB m outs c K j).toNat < 100000 := by
  match K with
  | ⟨0, _⟩ => exact tbl_lt_0b m c hE j
  | ⟨1, _⟩ => exact tbl_lt_1b m outs c hE j
  | ⟨2, _⟩ => exact tbl_lt_2b m outs c hE j
  | ⟨3, _⟩ => exact tbl_lt_3b m outs c hE j
  | ⟨4, _⟩ => exact tbl_lt_4b m outs c hE j
  | ⟨5, _⟩ => exact tbl_lt_5b m outs c hE j
  | ⟨6, _⟩ => exact tbl_lt_6b m outs c hE j
  | ⟨7, _⟩ => exact tbl_lt_7b m outs c hE j
  | ⟨8, _⟩ => exact tbl_lt_8b m outs c hE j
  | ⟨9, _⟩ => exact tbl_lt_9b m outs c hE j
  | ⟨10, _⟩ => exact tbl_lt_10b m outs c hE j
  | ⟨11, _⟩ => exact tbl_lt_11b m outs c hE j
  | ⟨12, _⟩ => exact tbl_lt_12b m outs c hE j
  | ⟨13, _⟩ => exact tbl_lt_13b m outs c hE j
  | ⟨14, _⟩ => exact tbl_lt_14b m outs c hE j
  | ⟨15, _⟩ => exact tbl_lt_15b m outs c hE j
  | ⟨_ + 16, h⟩ => exact absurd h (by omega)

end Bounded

end Cert.KernelIdeal.Tbl

end
-- ==== Proof.ChkFacts.lean ====
/-
  The side conditions the kernel bodies assume of a fetched row number. Each pass-1 body reads an edge endpoint `v`
  from a table and slices row `v` (one row, all 128 columns) out of the [100000 × 128] node table; the slice is inside
  the table exactly when `v`, read as a natural number, is below 100000. All sixteen regions state the same condition
  (offsets `![v.toNat, 0]`, extent [1 × 128], table [100000 × 128]), so one arithmetic lemma serves every region of
  both programs.
-/
import proofs.«400866_j57071525429608_2_alg».proof.KernelIdeal
import proofs.«400866_j57071525429608_2_alg».proof.Kernel

namespace Cert.ChkFacts

open Idealize.ShloMosaic

/-- Row `n < 100000`, all 128 columns, lies inside a [100000 × 128] table. -/
theorem row_inb (n : ℕ) (h : n < 100000) :
    ∀ a : Fin 2, (![n, 0] : Fin 2 → ℕ) a + (⟨2, ![1, 128]⟩ : Shape).size a ≤ (⟨2, ![100000, 128]⟩ : Shape).size a := by
  intro a
  match a with
  | ⟨0, _⟩ => show n + 1 ≤ 100000; omega
  | ⟨1, _⟩ => show 0 + 128 ≤ 128; omega

/-! ## The idealized kernel -/

theorem chk1_of_lt (v : BitVec 32) (h : v.toNat < 100000) : Cert.KernelIdeal.k0_chk1 v := row_inb v.toNat h
theorem chk2_of_lt (v : BitVec 32) (h : v.toNat < 100000) : Cert.KernelIdeal.k0_chk2 v := row_inb v.toNat h

example (v : BitVec 32) (h : v.toNat < 100000) : Cert.KernelIdeal.k1_chk1 v := row_inb v.toNat h
example (v : BitVec 32) (h : v.toNat < 100000) : Cert.KernelIdeal.k15_chk2 v := row_inb v.toNat h
example (v : BitVec 32) : Cert.KernelIdeal.k7_chk1 v = Cert.KernelIdeal.k0_chk1 v := rfl
example (v : BitVec 32) : Cert.KernelIdeal.k7_chk2 v = Cert.KernelIdeal.k0_chk1 v := rfl

/-! ## The kernel as printed -/

theorem bits_chk1_of_lt (v : BitVec 32) (h : v.toNat < 100000) : Cert.Kernel.k0_chk1 v := row_inb v.toNat h
theorem bits_chk2_of_lt (v : BitVec 32) (h : v.toNat < 100000) : Cert.Kernel.k0_chk2 v := row_inb v.toNat h
example (v : BitVec 32) : Cert.Kernel.k7_chk2 v = Cert.Kernel.k0_chk1 v := rfl

end Cert.ChkFacts
-- ==== Proof.P1Run.lean ====
/-
  The gather-and-project kernel (one chunk of 62500 edges per launch; the sixteen launches print one and the same body):
  one grid point's body, run symbolically over ANY whole index tables, node-feature array, hidden array and semaphore
  triple, so that one run serves every launch.
  At point i the body reads the two endpoint indices of the chunk's edge i from the two index tables, copies the two rows of the
  node-feature array they name into scratch (each copy started and awaited at once), forms
  h = relu(row₀·W₁ᵀ + row₁·W₂ᵀ + b_in)·W_hᵀ + b_h, copies h into row i of the hidden array, and adds h and h·h to the
  two resident accumulators — which it first sets to zero when i = 0. Two cases, by whether i = 0. Each run hands back,
  as its witness, the pieces stored to the two accumulators and to the hidden row's scratch; the hidden array ends with
  row i overwritten by that row.
-/
import proofs.«400866_j57071525429608_2_alg».proof.Proof.Gen.KernelIdeal.Launch
import proofs.«400866_j57071525429608_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.P1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A memref's buffer on core `c`: its contents type, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body's one branch: taken exactly when the grid coordinate is zero. -/
abbrev cond0_0 (i : grid0.Coords) : Prop := (Scalar.cmpi .ne (Scalar.extui (Scalar.cmpi .eq (BitVec.ofNat 32 (i 0).val) 0#32)) 0#32) = 1#1

/-- The body's three copy semaphores, as it addresses them in the semaphore array it is handed. -/
abbrev semAt (sems : DmaSems sig S3) (k : Fin 3) : SemLoc sig :=
  match k with
  | 0 => .dma ((sems.slice (Rect.unit (s := S3) ![0] S1.size inb_S3_S1_0)).squeeze S_ squeezes_S1_S_).sem
  | 1 => .dma ((sems.slice (Rect.unit (s := S3) ![1] S1.size inb_S3_S1_1)).squeeze S_ squeezes_S1_S_).sem
  | 2 => .dma ((sems.slice (Rect.unit (s := S3) ![2] S1.size inb_S3_S1_2)).squeeze S_ squeezes_S1_S_).sem

-- The two index tables, the node-feature array and the hidden array the body is handed: any whole memrefs.
variable (tb0 : Memref sig .tc .smem S62500 .i32) (htb0 : tb0.IsWhole) (tb1 : Memref sig .tc .smem S62500 .i32) (htb1 : tb1.IsWhole)
  (xM : Memref sig .tc .hbm S100000x128 .f32) (hxM : xM.IsWhole) (hM : Memref sig .tc .hbm S62500x64 .f32) (hhM : hM.IsWhole)
  (sems : DmaSems sig S3)

/-- The word of the first endpoints' table that point `i` reads, and the word of the second's. -/
abbrev tw0 (c : Dev nD) (i : grid0.Coords) (pf0 : Bf (F := F) c tb0) : BitVec 32 :=
  View.readAt (Elt F) tb0.view (Rect.unit (s := S62500) (k0_off1 i) S1.size (k0_off1_inb i)).toLoadRect pf0
    (Shape.Idx.first (numel1_S1.symm ▸ Nat.one_pos))
abbrev tw1 (c : Dev nD) (i : grid0.Coords) (pf1 : Bf (F := F) c tb1) : BitVec 32 :=
  View.readAt (Elt F) tb1.view (Rect.unit (s := S62500) (k0_off3 i) S1.size (k0_off3_inb i)).toLoadRect pf1
    (Shape.Idx.first (numel1_S1.symm ▸ Nat.one_pos))

/-- A fixed view of the hidden row's shape, through which a row's contents are stated (the choice does not matter:
    a read after covering writes forgets the view and what was there before). -/
abbrev VS : View sig .tc .vmem S1x64 .f32 := (Memref.whole cc0_stg5_0 : Memref sig .tc .vmem S1x64 .f32).view

/-- The hidden array with row `i` overwritten by `blk`. -/
def hNext (c : Dev nD) (i : grid0.Coords) (fh : Bf (F := F) c hM) (blk : Vec F S1x64 .f32) : Bf (F := F) c hM :=
  View.write (Elt F) (hM.slice (Rect.unit (s := S62500x64) (k0_off5 i) S1x64.size (k0_off5_inb i)) (fun _ => rfl)).view fh (ReadAs.same.apply blk) Finset.univ

/-- Copying out a row that was just stored whole: what the scratch held before, and through which view it is read,
    does not matter. -/
theorem hNext_eq (c : Dev nD) (i : grid0.Coords) (fh : Bf (F := F) c hM) (v : View sig .tc .vmem S1x64 .f32) (f : v.ty.Contents (Elt F))
    (L : List (View.Piece (Elt F) S1x64 .f32)) (hcover : ∀ y, ∃ p ∈ L, y ∈ p.1.set) :
    View.write (Elt F) (hM.slice (Rect.unit (s := S62500x64) (k0_off5 i) S1x64.size (k0_off5_inb i)) (fun _ => rfl)).view fh
        (ReadAs.same.apply (View.read (Elt F) v (v.writes (Elt F) f L))) Finset.univ
      = hNext hM c i fh (VS.read (Elt F) (VS.writes (Elt F) VS.junk L)) := by
  unfold hNext
  rw [View.read_writes_of_cover v f VS VS.junk L hcover]

set_option maxHeartbeats 4000000 in
/-- The body where i = 0: the accumulators start from anything (the body zeroes them first). -/
noncomputable def runA (c : Dev nD) (i : grid0.Coords)
    (arg4 : Memref sig .tc .vmem S64x128 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S64x64 .f32) (harg7 : arg7.IsWhole)
    (arg8 : Memref sig .tc .vmem S1x64 .f32) (harg8 : arg8.IsWhole)
    (arg10 : Memref sig .tc .vmem S1x64 .f32) (harg10 : arg10.IsWhole) (arg11 : Memref sig .tc .vmem S1x64 .f32) (harg11 : arg11.IsWhole)
    (arg12 : Memref sig .tc .vmem S1x128 .f32) (harg12 : arg12.IsWhole) (arg13 : Memref sig .tc .vmem S1x128 .f32) (harg13 : arg13.IsWhole)
    (arg14 : Memref sig .tc .vmem S1x64 .f32) (harg14 : arg14.IsWhole)
    (hc0 : cond0_0 i) (x0 : Vec F S64x128 .f32) (x1 : Vec F S64x128 .f32) (x2 : Vec F S1x64 .f32) (x3 : Vec F S64x64 .f32) (x4 : Vec F S1x64 .f32)
    (pf0 : Bf (F := F) c tb0) (pf1 : Bf (F := F) c tb1) (fx : Bf (F := F) c xM) (fh : Bf (F := F) c hM)
    (hw0 : k0_chk1 (tw0 tb0 c i pf0)) (hw1 : k0_chk2 (tw1 tb1 c i pf1)) :
    Σ' (L5 : List (View.Piece (Elt F) S1x64 .f32)) (L6 : List (View.Piece (Elt F) S1x64 .f32)) (L14 : List (View.Piece (Elt F) S1x64 .f32)),
      ∀ (W : Waits sig Unit) (K : PUnit → sProp 𝕄),
        iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4
            ∗ (∃ d, owns (c : Thread nD τ) arg10 fullShare d) ∗ (∃ d, owns (c : Thread nD τ) arg11 fullShare d)
            ∗ (∃ d, owns (c : Thread nD τ) arg12 fullShare d) ∗ (∃ d, owns (c : Thread nD τ) arg13 fullShare d) ∗ (∃ d, owns (c : Thread nD τ) arg14 fullShare d)
            ∗ semVal ((c : Thread nD τ), semAt sems 0) 0 ∗ semVal ((c : Thread nD τ), semAt sems 1) 0 ∗ semVal ((c : Thread nD τ), semAt sems 2) 0
            ∗ pt c tb0 pf0 ∗ pt c tb1 pf1 ∗ pt c xM fx ∗ pt c hM fh ∗ owes (c : Thread nD τ) 0 W
            ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4
            ∗ (∃ f, arg10.view.loc (c : Thread nD τ) ↦[arg10.view.set]{fullShare} arg10.view.writes (Elt F) f L5)
            ∗ (∃ f, arg11.view.loc (c : Thread nD τ) ↦[arg11.view.set]{fullShare} arg11.view.writes (Elt F) f L6)
            ∗ (∃ d, owns (c : Thread nD τ) arg12 fullShare d) ∗ (∃ d, owns (c : Thread nD τ) arg13 fullShare d)
            ∗ (∃ f, arg14.view.loc (c : Thread nD τ) ↦[arg14.view.set]{fullShare} arg14.view.writes (Elt F) f L14)
            ∗ semVal ((c : Thread nD τ), semAt sems 0) 0 ∗ semVal ((c : Thread nD τ), semAt sems 1) 0 ∗ semVal ((c : Thread nD τ), semAt sems 2) 0
            ∗ pt c tb0 pf0 ∗ pt c tb1 pf1 ∗ pt c xM fx
            ∗ (∃ fh', ⌜fh' = hNext hM c i fh (VS.read (Elt F) (VS.writes (Elt F) VS.junk L14))⌝ ∗ pt c hM fh') ∗ (∃ W', owes (c : Thread nD τ) 0 W')) -∗ K ⟨⟩))
          ⊢ wp frame (wpE (defs₀ (F := F)) Variants.none c none) Set.univ
              (cc0__pass1_kernel i tb0 htb0 tb1 htb1 xM hxM arg4 harg4 arg5 harg5 arg6 harg6 arg7 harg7 arg8 harg8 hM hhM arg10 harg10 arg11 harg11 arg12 harg12 arg13 harg13 arg14 harg14 sems) K := by
  refine ⟨?_, ?_, ?_, fun W K => ?run⟩
  case run =>
    simp only [cc0__pass1_kernel_eq_skeleton]; unfold cc0__pass1_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, Hq0, Hq1, Hq2, Ht0, Ht1, Hx, Hh, HW, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc0 | sl_exact hw0 | sl_exact hw1 | exact hw0 | exact hw1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [H6]; · iexists _; iexact H6
    isplitl [HS0]
    · iexists _, _; isplitr; swap; · iexact HS0
      ipureintro; rfl
    isplitl [HS1]
    · iexists _, _; isplitr; swap; · iexact HS1
      ipureintro; rfl
    isplitl [HS2]; · iexists _; iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]
    · iexists _; isplitr; swap; · iexact Hh
      ipureintro
      sl_unfold_words
      exact hNext_eq hM c i fh _ _ _ (View.cover_of_tiledL _ S1x64.size (by sl_kernel_rfl))
    iexists _; iexact HW

set_option maxHeartbeats 4000000 in
/-- The body where i ≠ 0: the accumulators are read at their running contents. -/
noncomputable def runB (c : Dev nD) (i : grid0.Coords)
    (arg4 : Memref sig .tc .vmem S64x128 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S64x64 .f32) (harg7 : arg7.IsWhole)
    (arg8 : Memref sig .tc .vmem S1x64 .f32) (harg8 : arg8.IsWhole)
    (arg10 : Memref sig .tc .vmem S1x64 .f32) (harg10 : arg10.IsWhole) (arg11 : Memref sig .tc .vmem S1x64 .f32) (harg11 : arg11.IsWhole)
    (arg12 : Memref sig .tc .vmem S1x128 .f32) (harg12 : arg12.IsWhole) (arg13 : Memref sig .tc .vmem S1x128 .f32) (harg13 : arg13.IsWhole)
    (arg14 : Memref sig .tc .vmem S1x64 .f32) (harg14 : arg14.IsWhole)
    (hc0 : ¬cond0_0 i) (x0 : Vec F S64x128 .f32) (x1 : Vec F S64x128 .f32) (x2 : Vec F S1x64 .f32) (x3 : Vec F S64x64 .f32) (x4 : Vec F S1x64 .f32) (xo5 : Vec F S1x64 .f32) (xo6 : Vec F S1x64 .f32)
    (pf0 : Bf (F := F) c tb0) (pf1 : Bf (F := F) c tb1) (fx : Bf (F := F) c xM) (fh : Bf (F := F) c hM)
    (hw0 : k0_chk1 (tw0 tb0 c i pf0)) (hw1 : k0_chk2 (tw1 tb1 c i pf1)) :
    Σ' (L5 : List (View.Piece (Elt F) S1x64 .f32)) (L6 : List (View.Piece (Elt F) S1x64 .f32)) (L14 : List (View.Piece (Elt F) S1x64 .f32)),
      ∀ (W : Waits sig Unit) (K : PUnit → sProp 𝕄),
        iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4
            ∗ owns (c : Thread nD τ) arg10 fullShare xo5 ∗ owns (c : Thread nD τ) arg11 fullShare xo6
            ∗ (∃ d, owns (c : Thread nD τ) arg12 fullShare d) ∗ (∃ d, owns (c : Thread nD τ) arg13 fullShare d) ∗ (∃ d, owns (c : Thread nD τ) arg14 fullShare d)
            ∗ semVal ((c : Thread nD τ), semAt sems 0) 0 ∗ semVal ((c : Thread nD τ), semAt sems 1) 0 ∗ semVal ((c : Thread nD τ), semAt sems 2) 0
            ∗ pt c tb0 pf0 ∗ pt c tb1 pf1 ∗ pt c xM fx ∗ pt c hM fh ∗ owes (c : Thread nD τ) 0 W
            ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4
            ∗ (∃ f, arg10.view.loc (c : Thread nD τ) ↦[arg10.view.set]{fullShare} arg10.view.writes (Elt F) f L5)
            ∗ (∃ f, arg11.view.loc (c : Thread nD τ) ↦[arg11.view.set]{fullShare} arg11.view.writes (Elt F) f L6)
            ∗ (∃ d, owns (c : Thread nD τ) arg12 fullShare d) ∗ (∃ d, owns (c : Thread nD τ) arg13 fullShare d)
            ∗ (∃ f, arg14.view.loc (c : Thread nD τ) ↦[arg14.view.set]{fullShare} arg14.view.writes (Elt F) f L14)
            ∗ semVal ((c : Thread nD τ), semAt sems 0) 0 ∗ semVal ((c : Thread nD τ), semAt sems 1) 0 ∗ semVal ((c : Thread nD τ), semAt sems 2) 0
            ∗ pt c tb0 pf0 ∗ pt c tb1 pf1 ∗ pt c xM fx
            ∗ (∃ fh', ⌜fh' = hNext hM c i fh (VS.read (Elt F) (VS.writes (Elt F) VS.junk L14))⌝ ∗ pt c hM fh') ∗ (∃ W', owes (c : Thread nD τ) 0 W')) -∗ K ⟨⟩))
          ⊢ wp frame (wpE (defs₀ (F := F)) Variants.none c none) Set.univ
              (cc0__pass1_kernel i tb0 htb0 tb1 htb1 xM hxM arg4 harg4 arg5 harg5 arg6 harg6 arg7 harg7 arg8 harg8 hM hhM arg10 harg10 arg11 harg11 arg12 harg12 arg13 harg13 arg14 harg14 sems) K := by
  refine ⟨?_, ?_, ?_, fun W K => ?run⟩
  case run =>
    simp only [cc0__pass1_kernel_eq_skeleton]; unfold cc0__pass1_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hq0, Hq1, Hq2, Ht0, Ht1, Hx, Hh, HW, Hk⟩
    obtain rfl := harg4.eq_unread hf0; obtain rfl := harg5.eq_unread hf1; obtain rfl := harg6.eq_unread hf2; obtain rfl := harg7.eq_unread hf3; obtain rfl := harg8.eq_unread hf4
    obtain rfl := harg10.eq_unread hf5; obtain rfl := harg11.eq_unread hf6
    sl_exec (disch := first | sl_exact hc0 | sl_exact hw0 | sl_exact hw1 | exact hw0 | exact hw1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [H6]; · iexists _; iexact H6
    isplitl [HS0]
    · iexists _, _; isplitr; swap; · iexact HS0
      ipureintro; rfl
    isplitl [HS1]
    · iexists _, _; isplitr; swap; · iexact HS1
      ipureintro; rfl
    isplitl [HS2]; · iexists _; iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]
    · iexists _; isplitr; swap; · iexact Hh
      ipureintro
      sl_unfold_words
      exact hNext_eq hM c i fh _ _ _ (View.cover_of_tiledL _ S1x64.size (by sl_kernel_rfl))
    iexists _; iexact HW

end Cert.KernelIdeal.P1

end
-- ==== Proof.P1Pieces.lean ====
/-
  The gather-and-project body, one grid point: what it leaves, as values, over any whole index tables,
  node-feature array and hidden array.

  At point i the body reads word i of each endpoint table, fetches the two rows of the node-feature
  array those words name, and leaves three things: the running sum plus the hidden row, the running
  sum of squares plus the hidden row's square, and the hidden row itself (written to row i of the
  hidden array). At the first point the two running sums start from the zero fill. Each of these is
  the body's arithmetic applied to the two fetched rows and the five parameter blocks: a store that
  covers its buffer leaves exactly its payload, a load of a buffer that was stored whole reads what was
  stored, and a load of an untouched parameter buffer reads the block it holds. Read at an index, the
  table word is the table's entry i, a fetched row is the node-feature array's row at that word, and
  the hidden array with row i overwritten reads the new row at row i and its old contents elsewhere.
-/
import proofs.«400866_j57071525429608_2_alg».proof.Proof.P1Run
import Idealize.ShloMosaic.Lib.Pipeline.Value
import Idealize.ShloMosaic.Lib.Tactic
import Idealize.ShloMosaic.Lib.ValueIdx

set_option maxRecDepth 100000

noncomputable section

namespace Cert.KernelIdeal.P1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl

/-- A load of the whole shape after one store of the whole shape reads the stored contents. -/
theorem readCov_whole {Val : EltTy → Type} [∀ e, Nonempty (Val e)] {sig' : RefSig} {κ : Kind} {sp : Space} {S : Shape} {e : EltTy}
    (v : View sig' κ sp S e) {off : Fin S.rank → Nat} (h : off = fun _ => 0)
    (inb : ∀ a, off a + S.size a ≤ S.size a) (w : S.Idx → Val e) :
    v.readCov [(⟨Rect.whole S, w⟩ : View.Piece Val S e)] (Rect.unit off S.size inb).toLoadRect = w := by
  subst h
  exact View.readCov_unit_zero v rfl _ w

variable (tb0 : Memref sig .tc .smem S62500 .i32) (htb0 : tb0.IsWhole) (tb1 : Memref sig .tc .smem S62500 .i32) (htb1 : tb1.IsWhole)
  (xM : Memref sig .tc .hbm S100000x128 .f32) (hxM : xM.IsWhole) (hM : Memref sig .tc .hbm S62500x64 .f32) (hhM : hM.IsWhole)
  (sems : DmaSems sig S3)

/-- The first endpoint's row of the node-feature array at point i. -/
def rowAt0 (c : Dev nD) (i : grid0.Coords) (pf0 : Bf (F := F) c tb0) (fx : Bf (F := F) c xM) (hw0 : k0_chk1 (tw0 tb0 c i pf0)) :
    Vec F S1x128 .f32 :=
  View.read (Elt F) (xM.slice (Rect.unit (s := S100000x128) (k0_off2 (tw0 tb0 c i pf0)) S1x128.size
    (k0_off2_inb (tw0 tb0 c i pf0) hw0)) (fun _ => rfl)).view fx

/-- The second endpoint's row of the node-feature array at point i. -/
def rowAt1 (c : Dev nD) (i : grid0.Coords) (pf1 : Bf (F := F) c tb1) (fx : Bf (F := F) c xM) (hw1 : k0_chk2 (tw1 tb1 c i pf1)) :
    Vec F S1x128 .f32 :=
  View.read (Elt F) (xM.slice (Rect.unit (s := S100000x128) (k0_off4 (tw1 tb1 c i pf1)) S1x128.size
    (k0_off4_inb (tw1 tb1 c i pf1) hw1)) (fun _ => rfl)).view fx

/-! ## The table words, the fetched rows and the hidden array, at an index -/

/-- A word that names a row of the node-feature array is below 100000. -/
theorem toNat_lt_of_chk1 {w : BitVec 32} (h : k0_chk1 w) : w.toNat < 100000 := by
  have h0 : w.toNat + 1 ≤ 100000 := h 0
  omega

theorem toNat_lt_of_chk2 {w : BitVec 32} (h : k0_chk2 w) : w.toNat < 100000 := by
  have h0 : w.toNat + 1 ≤ 100000 := h 0
  omega

/-- The grid coordinate is below 62500. -/
theorem coord_lt (i : grid0.Coords) : (i 0).val < 62500 := (i 0).isLt

/-- The coordinate as a 32-bit word and back. -/
theorem coord_word (i : grid0.Coords) : (BitVec.ofNat 32 (i 0).val).toNat = (i 0).val := by
  have := coord_lt i
  rw [BitVec.toNat_ofNat, Nat.mod_eq_of_lt (by omega)]

/-- The word point i reads of the first table is the table's entry i. -/
theorem tw0_eq (c : Dev nD) (i : grid0.Coords) (pf0 : Bf (F := F) c tb0) :
    tw0 tb0 c i pf0 = tb0.view.read (Elt F) pf0 (ValueIdx.ix1 (⟨(i 0).val, coord_lt i⟩ : Fin 62500)) := by
  show tb0.view.read (Elt F) pf0 _ = tb0.view.read (Elt F) pf0 _
  refine congrArg (tb0.view.read (Elt F) pf0) (funext fun a => Fin.ext ?_)
  match a with
  | ⟨0, _⟩ =>
    show (BitVec.ofNat 32 (i 0).val).toNat + 1 * 0 = (i 0).val
    rw [coord_word]; omega

/-- The word point i reads of the second table is the table's entry i. -/
theorem tw1_eq (c : Dev nD) (i : grid0.Coords) (pf1 : Bf (F := F) c tb1) :
    tw1 tb1 c i pf1 = tb1.view.read (Elt F) pf1 (ValueIdx.ix1 (⟨(i 0).val, coord_lt i⟩ : Fin 62500)) := by
  show tb1.view.read (Elt F) pf1 _ = tb1.view.read (Elt F) pf1 _
  refine congrArg (tb1.view.read (Elt F) pf1) (funext fun a => Fin.ext ?_)
  match a with
  | ⟨0, _⟩ =>
    show (BitVec.ofNat 32 (i 0).val).toNat + 1 * 0 = (i 0).val
    rw [coord_word]; omega

/-- The first fetched row at feature k' is the node-feature array at (word, k'). -/
theorem rowAt0_apply (c : Dev nD) (i : grid0.Coords) (pf0 : Bf (F := F) c tb0) (fx : Bf (F := F) c xM)
    (hw0 : k0_chk1 (tw0 tb0 c i pf0)) (k' : Fin 128) :
    rowAt0 tb0 xM c i pf0 fx hw0 (ValueIdx.ix2 (0 : Fin 1) k')
      = xM.view.read (Elt F) fx (ValueIdx.ix2 (⟨(tw0 tb0 c i pf0).toNat, toNat_lt_of_chk1 hw0⟩ : Fin 100000) k') := by
  unfold rowAt0
  show xM.view.read (Elt F) fx _ = xM.view.read (Elt F) fx _
  refine congrArg (xM.view.read (Elt F) fx) (funext fun a => Fin.ext ?_)
  match a with
  | ⟨0, _⟩ => show (tw0 tb0 c i pf0).toNat + 1 * 0 = (tw0 tb0 c i pf0).toNat; omega
  | ⟨1, _⟩ => show 0 + 1 * k'.val = k'.val; omega

/-- The second fetched row at feature k' is the node-feature array at (word, k'). -/
theorem rowAt1_apply (c : Dev nD) (i : grid0.Coords) (pf1 : Bf (F := F) c tb1) (fx : Bf (F := F) c xM)
    (hw1 : k0_chk2 (tw1 tb1 c i pf1)) (k' : Fin 128) :
    rowAt1 tb1 xM c i pf1 fx hw1 (ValueIdx.ix2 (0 : Fin 1) k')
      = xM.view.read (Elt F) fx (ValueIdx.ix2 (⟨(tw1 tb1 c i pf1).toNat, toNat_lt_of_chk2 hw1⟩ : Fin 100000) k') := by
  unfold rowAt1
  show xM.view.read (Elt F) fx _ = xM.view.read (Elt F) fx _
  refine congrArg (xM.view.read (Elt F) fx) (funext fun a => Fin.ext ?_)
  match a with
  | ⟨0, _⟩ => show (tw1 tb1 c i pf1).toNat + 1 * 0 = (tw1 tb1 c i pf1).toNat; omega
  | ⟨1, _⟩ => show 0 + 1 * k'.val = k'.val; omega

/-- In the hidden array with row i overwritten, row i reads the new row. -/
theorem hNext_read_same (c : Dev nD) (i : grid0.Coords) (fh : Bf (F := F) c hM) (blk : Vec F S1x64 .f32) (j : Fin 64) :
    hM.view.read (Elt F) (hNext hM c i fh blk) (ValueIdx.ix2 (⟨(i 0).val, coord_lt i⟩ : Fin 62500) j)
      = blk (ValueIdx.ix2 (0 : Fin 1) j) := by
  unfold hNext
  have he : (Rect.unit (s := S62500x64) (k0_off5 i) S1x64.size (k0_off5_inb i)).emb (ValueIdx.ix2 (0 : Fin 1) j)
      = ValueIdx.ix2 (⟨(i 0).val, coord_lt i⟩ : Fin 62500) j :=
    funext fun a => Fin.ext (by
      match a with
      | ⟨0, _⟩ =>
        show (BitVec.ofNat 32 (i 0).val).toNat + 1 * 0 = (i 0).val
        rw [coord_word]; omega
      | ⟨1, _⟩ => show 0 + 1 * j.val = j.val; omega)
  rw [← he]
  exact View.read_slice_write_emb (v := hM.view) _ fh _ (Finset.mem_univ _)

/-- … and every other row reads what it held. -/
theorem hNext_read_other (c : Dev nD) (i : grid0.Coords) (fh : Bf (F := F) c hM) (blk : Vec F S1x64 .f32)
    (r : Fin 62500) (hr : r.val ≠ (i 0).val) (j : Fin 64) :
    hM.view.read (Elt F) (hNext hM c i fh blk) (ValueIdx.ix2 r j) = hM.view.read (Elt F) fh (ValueIdx.ix2 r j) := by
  unfold hNext
  refine View.read_slice_write_of_not_mem (v := hM.view) _ fh _ _ ?_
  rw [Rect.map_emb_univ, Rect.mem_set_unit]
  intro h
  have h0 := h 0
  have h00 : (k0_off5 i) 0 = (i 0).val := coord_word i
  rw [h00] at h0
  have h1 : (S1x64.size 0) = 1 := rfl
  rw [h1] at h0
  have h2 : ((ValueIdx.ix2 r j : S62500x64.Idx) 0).val = r.val := rfl
  omega

/-! ## What each run leaves -/

theorem runB_L5 (c : Dev nD) (i : grid0.Coords)
    (arg4 : Memref sig .tc .vmem S64x128 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S64x64 .f32) (harg7 : arg7.IsWhole)
    (arg8 : Memref sig .tc .vmem S1x64 .f32) (harg8 : arg8.IsWhole)
    (arg10 : Memref sig .tc .vmem S1x64 .f32) (harg10 : arg10.IsWhole) (arg11 : Memref sig .tc .vmem S1x64 .f32) (harg11 : arg11.IsWhole)
    (arg12 : Memref sig .tc .vmem S1x128 .f32) (harg12 : arg12.IsWhole) (arg13 : Memref sig .tc .vmem S1x128 .f32) (harg13 : arg13.IsWhole)
    (arg14 : Memref sig .tc .vmem S1x64 .f32) (harg14 : arg14.IsWhole)
    (hc0 : ¬cond0_0 i) (x0 : Vec F S64x128 .f32) (x1 : Vec F S64x128 .f32) (x2 : Vec F S1x64 .f32) (x3 : Vec F S64x64 .f32) (x4 : Vec F S1x64 .f32) (xo5 : Vec F S1x64 .f32) (xo6 : Vec F S1x64 .f32)
    (pf0 : Bf (F := F) c tb0) (pf1 : Bf (F := F) c tb1) (fx : Bf (F := F) c xM) (fh : Bf (F := F) c hM)
    (hw0 : k0_chk1 (tw0 tb0 c i pf0)) (hw1 : k0_chk2 (tw1 tb1 c i pf1)) :
    VS.read (Elt F) (VS.writes (Elt F) VS.junk (runB tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 xo5 xo6 pf0 pf1 fx fh hw0 hw1).1)
      = k0_pay8 (k0_pay3 (rowAt1 tb1 xM c i pf1 fx hw1)) (k0_pay4 (rowAt0 tb0 xM c i pf0 fx hw0) x0) (k0_pay5 x1) (constant S1x64 .f32 0x00000000#32) x2 x3 x4 xo5 := by
  rw [View.read_writes_eq_canon _ _ _ (View.cover_of_tiledL _ S1x64.size (by sl_kernel_rfl))]
  unfold runB
  dsimp only
  sl_unfold_words
  rw [View.canon_unit_zero hz2]
  simp only [View.readAt_eq_ld, harg4.read_unread, harg5.read_unread, harg6.read_unread, harg7.read_unread, harg8.read_unread,
    View.ld_unit_zero (S := S64x128) hz2, View.ld_unit_zero (S := S1x64) hz2, View.ld_unit_zero (S := S64x64) hz2,
    readCov_whole (S := S1x128) _ hz2, ReadAs.apply_same, harg10.read_unread]
  rfl

theorem runB_L6 (c : Dev nD) (i : grid0.Coords)
    (arg4 : Memref sig .tc .vmem S64x128 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S64x64 .f32) (harg7 : arg7.IsWhole)
    (arg8 : Memref sig .tc .vmem S1x64 .f32) (harg8 : arg8.IsWhole)
    (arg10 : Memref sig .tc .vmem S1x64 .f32) (harg10 : arg10.IsWhole) (arg11 : Memref sig .tc .vmem S1x64 .f32) (harg11 : arg11.IsWhole)
    (arg12 : Memref sig .tc .vmem S1x128 .f32) (harg12 : arg12.IsWhole) (arg13 : Memref sig .tc .vmem S1x128 .f32) (harg13 : arg13.IsWhole)
    (arg14 : Memref sig .tc .vmem S1x64 .f32) (harg14 : arg14.IsWhole)
    (hc0 : ¬cond0_0 i) (x0 : Vec F S64x128 .f32) (x1 : Vec F S64x128 .f32) (x2 : Vec F S1x64 .f32) (x3 : Vec F S64x64 .f32) (x4 : Vec F S1x64 .f32) (xo5 : Vec F S1x64 .f32) (xo6 : Vec F S1x64 .f32)
    (pf0 : Bf (F := F) c tb0) (pf1 : Bf (F := F) c tb1) (fx : Bf (F := F) c xM) (fh : Bf (F := F) c hM)
    (hw0 : k0_chk1 (tw0 tb0 c i pf0)) (hw1 : k0_chk2 (tw1 tb1 c i pf1)) :
    VS.read (Elt F) (VS.writes (Elt F) VS.junk (runB tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 xo5 xo6 pf0 pf1 fx fh hw0 hw1).2.1)
      = k0_pay9 (k0_pay3 (rowAt1 tb1 xM c i pf1 fx hw1)) (k0_pay4 (rowAt0 tb0 xM c i pf0 fx hw0) x0) (k0_pay5 x1) (constant S1x64 .f32 0x00000000#32) x2 x3 x4 xo6 := by
  rw [View.read_writes_eq_canon _ _ _ (View.cover_of_tiledL _ S1x64.size (by sl_kernel_rfl))]
  unfold runB
  dsimp only
  sl_unfold_words
  rw [View.canon_unit_zero hz2]
  simp only [View.readAt_eq_ld, harg4.read_unread, harg5.read_unread, harg6.read_unread, harg7.read_unread, harg8.read_unread,
    View.ld_unit_zero (S := S64x128) hz2, View.ld_unit_zero (S := S1x64) hz2, View.ld_unit_zero (S := S64x64) hz2,
    readCov_whole (S := S1x128) _ hz2, ReadAs.apply_same, harg11.read_unread]
  rfl

theorem runB_L14 (c : Dev nD) (i : grid0.Coords)
    (arg4 : Memref sig .tc .vmem S64x128 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S64x64 .f32) (harg7 : arg7.IsWhole)
    (arg8 : Memref sig .tc .vmem S1x64 .f32) (harg8 : arg8.IsWhole)
    (arg10 : Memref sig .tc .vmem S1x64 .f32) (harg10 : arg10.IsWhole) (arg11 : Memref sig .tc .vmem S1x64 .f32) (harg11 : arg11.IsWhole)
    (arg12 : Memref sig .tc .vmem S1x128 .f32) (harg12 : arg12.IsWhole) (arg13 : Memref sig .tc .vmem S1x128 .f32) (harg13 : arg13.IsWhole)
    (arg14 : Memref sig .tc .vmem S1x64 .f32) (harg14 : arg14.IsWhole)
    (hc0 : ¬cond0_0 i) (x0 : Vec F S64x128 .f32) (x1 : Vec F S64x128 .f32) (x2 : Vec F S1x64 .f32) (x3 : Vec F S64x64 .f32) (x4 : Vec F S1x64 .f32) (xo5 : Vec F S1x64 .f32) (xo6 : Vec F S1x64 .f32)
    (pf0 : Bf (F := F) c tb0) (pf1 : Bf (F := F) c tb1) (fx : Bf (F := F) c xM) (fh : Bf (F := F) c hM)
    (hw0 : k0_chk1 (tw0 tb0 c i pf0)) (hw1 : k0_chk2 (tw1 tb1 c i pf1)) :
    VS.read (Elt F) (VS.writes (Elt F) VS.junk (runB tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 xo5 xo6 pf0 pf1 fx fh hw0 hw1).2.2.1)
      = k0_pay7 (k0_pay3 (rowAt1 tb1 xM c i pf1 fx hw1)) (k0_pay4 (rowAt0 tb0 xM c i pf0 fx hw0) x0) (k0_pay5 x1) (constant S1x64 .f32 0x00000000#32) x2 x3 x4 := by
  rw [View.read_writes_eq_canon _ _ _ (View.cover_of_tiledL _ S1x64.size (by sl_kernel_rfl))]
  unfold runB
  dsimp only
  sl_unfold_words
  rw [View.canon_unit_zero hz2]
  simp only [View.readAt_eq_ld, harg4.read_unread, harg5.read_unread, harg6.read_unread, harg7.read_unread, harg8.read_unread,
    View.ld_unit_zero (S := S64x128) hz2, View.ld_unit_zero (S := S1x64) hz2, View.ld_unit_zero (S := S64x64) hz2,
    readCov_whole (S := S1x128) _ hz2, ReadAs.apply_same]
  rfl

theorem runA_L5 (c : Dev nD) (i : grid0.Coords)
    (arg4 : Memref sig .tc .vmem S64x128 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S64x64 .f32) (harg7 : arg7.IsWhole)
    (arg8 : Memref sig .tc .vmem S1x64 .f32) (harg8 : arg8.IsWhole)
    (arg10 : Memref sig .tc .vmem S1x64 .f32) (harg10 : arg10.IsWhole) (arg11 : Memref sig .tc .vmem S1x64 .f32) (harg11 : arg11.IsWhole)
    (arg12 : Memref sig .tc .vmem S1x128 .f32) (harg12 : arg12.IsWhole) (arg13 : Memref sig .tc .vmem S1x128 .f32) (harg13 : arg13.IsWhole)
    (arg14 : Memref sig .tc .vmem S1x64 .f32) (harg14 : arg14.IsWhole)
    (hc0 : cond0_0 i) (x0 : Vec F S64x128 .f32) (x1 : Vec F S64x128 .f32) (x2 : Vec F S1x64 .f32) (x3 : Vec F S64x64 .f32) (x4 : Vec F S1x64 .f32)
    (pf0 : Bf (F := F) c tb0) (pf1 : Bf (F := F) c tb1) (fx : Bf (F := F) c xM) (fh : Bf (F := F) c hM)
    (hw0 : k0_chk1 (tw0 tb0 c i pf0)) (hw1 : k0_chk2 (tw1 tb1 c i pf1)) :
    VS.read (Elt F) (VS.writes (Elt F) VS.junk (runA tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 pf0 pf1 fx fh hw0 hw1).1)
      = k0_pay8 (k0_pay3 (rowAt1 tb1 xM c i pf1 fx hw1)) (k0_pay4 (rowAt0 tb0 xM c i pf0 fx hw0) x0) (k0_pay5 x1) (constant S1x64 .f32 0x00000000#32) x2 x3 x4 (k0_pay1 (F := F)) := by
  rw [View.read_writes_eq_canon _ _ _ (View.cover_of_tiledL _ S1x64.size (by sl_kernel_rfl))]
  unfold runA
  dsimp only
  sl_unfold_words
  rw [View.canon_cons_unit_zero (S := S1x64) hz2]
  simp only [View.readAt_eq_ld, harg4.read_unread, harg5.read_unread, harg6.read_unread, harg7.read_unread, harg8.read_unread,
    View.ld_unit_zero (S := S64x128) hz2, View.ld_unit_zero (S := S1x64) hz2, View.ld_unit_zero (S := S64x64) hz2,
    readCov_whole (S := S1x128) _ hz2, ReadAs.apply_same, View.readCov_unit_zero (S := S1x64) _ hz2]
  rfl

theorem runA_L6 (c : Dev nD) (i : grid0.Coords)
    (arg4 : Memref sig .tc .vmem S64x128 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S64x64 .f32) (harg7 : arg7.IsWhole)
    (arg8 : Memref sig .tc .vmem S1x64 .f32) (harg8 : arg8.IsWhole)
    (arg10 : Memref sig .tc .vmem S1x64 .f32) (harg10 : arg10.IsWhole) (arg11 : Memref sig .tc .vmem S1x64 .f32) (harg11 : arg11.IsWhole)
    (arg12 : Memref sig .tc .vmem S1x128 .f32) (harg12 : arg12.IsWhole) (arg13 : Memref sig .tc .vmem S1x128 .f32) (harg13 : arg13.IsWhole)
    (arg14 : Memref sig .tc .vmem S1x64 .f32) (harg14 : arg14.IsWhole)
    (hc0 : cond0_0 i) (x0 : Vec F S64x128 .f32) (x1 : Vec F S64x128 .f32) (x2 : Vec F S1x64 .f32) (x3 : Vec F S64x64 .f32) (x4 : Vec F S1x64 .f32)
    (pf0 : Bf (F := F) c tb0) (pf1 : Bf (F := F) c tb1) (fx : Bf (F := F) c xM) (fh : Bf (F := F) c hM)
    (hw0 : k0_chk1 (tw0 tb0 c i pf0)) (hw1 : k0_chk2 (tw1 tb1 c i pf1)) :
    VS.read (Elt F) (VS.writes (Elt F) VS.junk (runA tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 pf0 pf1 fx fh hw0 hw1).2.1)
      = k0_pay9 (k0_pay3 (rowAt1 tb1 xM c i pf1 fx hw1)) (k0_pay4 (rowAt0 tb0 xM c i pf0 fx hw0) x0) (k0_pay5 x1) (constant S1x64 .f32 0x00000000#32) x2 x3 x4 (k0_pay2 (F := F)) := by
  rw [View.read_writes_eq_canon _ _ _ (View.cover_of_tiledL _ S1x64.size (by sl_kernel_rfl))]
  unfold runA
  dsimp only
  sl_unfold_words
  rw [View.canon_cons_unit_zero (S := S1x64) hz2]
  simp only [View.readAt_eq_ld, harg4.read_unread, harg5.read_unread, harg6.read_unread, harg7.read_unread, harg8.read_unread,
    View.ld_unit_zero (S := S64x128) hz2, View.ld_unit_zero (S := S1x64) hz2, View.ld_unit_zero (S := S64x64) hz2,
    readCov_whole (S := S1x128) _ hz2, ReadAs.apply_same, View.readCov_unit_zero (S := S1x64) _ hz2]
  rfl

theorem runA_L14 (c : Dev nD) (i : grid0.Coords)
    (arg4 : Memref sig .tc .vmem S64x128 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S64x64 .f32) (harg7 : arg7.IsWhole)
    (arg8 : Memref sig .tc .vmem S1x64 .f32) (harg8 : arg8.IsWhole)
    (arg10 : Memref sig .tc .vmem S1x64 .f32) (harg10 : arg10.IsWhole) (arg11 : Memref sig .tc .vmem S1x64 .f32) (harg11 : arg11.IsWhole)
    (arg12 : Memref sig .tc .vmem S1x128 .f32) (harg12 : arg12.IsWhole) (arg13 : Memref sig .tc .vmem S1x128 .f32) (harg13 : arg13.IsWhole)
    (arg14 : Memref sig .tc .vmem S1x64 .f32) (harg14 : arg14.IsWhole)
    (hc0 : cond0_0 i) (x0 : Vec F S64x128 .f32) (x1 : Vec F S64x128 .f32) (x2 : Vec F S1x64 .f32) (x3 : Vec F S64x64 .f32) (x4 : Vec F S1x64 .f32)
    (pf0 : Bf (F := F) c tb0) (pf1 : Bf (F := F) c tb1) (fx : Bf (F := F) c xM) (fh : Bf (F := F) c hM)
    (hw0 : k0_chk1 (tw0 tb0 c i pf0)) (hw1 : k0_chk2 (tw1 tb1 c i pf1)) :
    VS.read (Elt F) (VS.writes (Elt F) VS.junk (runA tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 pf0 pf1 fx fh hw0 hw1).2.2.1)
      = k0_pay7 (k0_pay3 (rowAt1 tb1 xM c i pf1 fx hw1)) (k0_pay4 (rowAt0 tb0 xM c i pf0 fx hw0) x0) (k0_pay5 x1) (constant S1x64 .f32 0x00000000#32) x2 x3 x4 := by
  rw [View.read_writes_eq_canon _ _ _ (View.cover_of_tiledL _ S1x64.size (by sl_kernel_rfl))]
  unfold runA
  dsimp only
  sl_unfold_words
  rw [View.canon_unit_zero hz2]
  simp only [View.readAt_eq_ld, harg4.read_unread, harg5.read_unread, harg6.read_unread, harg7.read_unread, harg8.read_unread,
    View.ld_unit_zero (S := S64x128) hz2, View.ld_unit_zero (S := S1x64) hz2, View.ld_unit_zero (S := S64x64) hz2,
    readCov_whole (S := S1x128) _ hz2, ReadAs.apply_same]
  rfl

end Cert.KernelIdeal.P1

end
-- ==== Proof.P1Body.lean ====
/-
  The gather-and-project body at one grid point, as a specification with explicit contents: run with
  the five parameter blocks in their buffers, the two running sums in theirs (anything, at the first
  point), the scratch free, the tables and the node-feature array present and the hidden array at fh,
  the body terminates leaving the parameter blocks as they were, the running sum plus the point's
  hidden row, the running sum of squares plus its square (from the zero fills at the first point),
  the scratch free again, and the hidden array with row i overwritten by the hidden row.
-/
import proofs.«400866_j57071525429608_2_alg».proof.Proof.P1Run
import proofs.«400866_j57071525429608_2_alg».proof.Proof.P1Pieces
import Idealize.ShloMosaic.Lib.Pipeline.Value
import Idealize.ShloMosaic.Lib.Tactic
import Idealize.ShloMosaic.Lib.ValueIdx

set_option maxRecDepth 100000

noncomputable section

namespace Cert.KernelIdeal.P1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (tb0 : Memref sig .tc .smem S62500 .i32) (htb0 : tb0.IsWhole) (tb1 : Memref sig .tc .smem S62500 .i32) (htb1 : tb1.IsWhole)
  (xM : Memref sig .tc .hbm S100000x128 .f32) (hxM : xM.IsWhole) (hM : Memref sig .tc .hbm S62500x64 .f32) (hhM : hM.IsWhole)
  (sems : DmaSems sig S3)

set_option maxHeartbeats 2000000 in
/-- The body at a later point, with what it leaves written out. -/
theorem bodyB (c : Dev nD) (i : grid0.Coords)
    (arg4 : Memref sig .tc .vmem S64x128 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S64x64 .f32) (harg7 : arg7.IsWhole)
    (arg8 : Memref sig .tc .vmem S1x64 .f32) (harg8 : arg8.IsWhole)
    (arg10 : Memref sig .tc .vmem S1x64 .f32) (harg10 : arg10.IsWhole) (arg11 : Memref sig .tc .vmem S1x64 .f32) (harg11 : arg11.IsWhole)
    (arg12 : Memref sig .tc .vmem S1x128 .f32) (harg12 : arg12.IsWhole) (arg13 : Memref sig .tc .vmem S1x128 .f32) (harg13 : arg13.IsWhole)
    (arg14 : Memref sig .tc .vmem S1x64 .f32) (harg14 : arg14.IsWhole)
    (hc0 : ¬cond0_0 i) (x0 : Vec F S64x128 .f32) (x1 : Vec F S64x128 .f32) (x2 : Vec F S1x64 .f32) (x3 : Vec F S64x64 .f32) (x4 : Vec F S1x64 .f32) (xo5 : Vec F S1x64 .f32) (xo6 : Vec F S1x64 .f32)
    (pf0 : Bf (F := F) c tb0) (pf1 : Bf (F := F) c tb1) (fx : Bf (F := F) c xM) (fh : Bf (F := F) c hM)
    (hw0 : k0_chk1 (tw0 tb0 c i pf0)) (hw1 : k0_chk2 (tw1 tb1 c i pf1)) (W : Waits sig Unit) (K : PUnit → sProp 𝕄) :
    iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4
            ∗ owns (c : Thread nD τ) arg10 fullShare xo5 ∗ owns (c : Thread nD τ) arg11 fullShare xo6
            ∗ (∃ d, owns (c : Thread nD τ) arg12 fullShare d) ∗ (∃ d, owns (c : Thread nD τ) arg13 fullShare d) ∗ (∃ d, owns (c : Thread nD τ) arg14 fullShare d)
            ∗ semVal ((c : Thread nD τ), semAt sems 0) 0 ∗ semVal ((c : Thread nD τ), semAt sems 1) 0 ∗ semVal ((c : Thread nD τ), semAt sems 2) 0
            ∗ pt c tb0 pf0 ∗ pt c tb1 pf1 ∗ pt c xM fx ∗ pt c hM fh ∗ owes (c : Thread nD τ) 0 W
            ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4
            ∗ owns (c : Thread nD τ) arg10 fullShare (k0_pay8 (k0_pay3 (rowAt1 tb1 xM c i pf1 fx hw1)) (k0_pay4 (rowAt0 tb0 xM c i pf0 fx hw0) x0) (k0_pay5 x1) (constant S1x64 .f32 0x00000000#32) x2 x3 x4 xo5)
            ∗ owns (c : Thread nD τ) arg11 fullShare (k0_pay9 (k0_pay3 (rowAt1 tb1 xM c i pf1 fx hw1)) (k0_pay4 (rowAt0 tb0 xM c i pf0 fx hw0) x0) (k0_pay5 x1) (constant S1x64 .f32 0x00000000#32) x2 x3 x4 xo6)
            ∗ (∃ d, owns (c : Thread nD τ) arg12 fullShare d) ∗ (∃ d, owns (c : Thread nD τ) arg13 fullShare d) ∗ (∃ d, owns (c : Thread nD τ) arg14 fullShare d)
            ∗ semVal ((c : Thread nD τ), semAt sems 0) 0 ∗ semVal ((c : Thread nD τ), semAt sems 1) 0 ∗ semVal ((c : Thread nD τ), semAt sems 2) 0
            ∗ pt c tb0 pf0 ∗ pt c tb1 pf1 ∗ pt c xM fx
            ∗ pt c hM (hNext hM c i fh (k0_pay7 (k0_pay3 (rowAt1 tb1 xM c i pf1 fx hw1)) (k0_pay4 (rowAt0 tb0 xM c i pf0 fx hw0) x0) (k0_pay5 x1) (constant S1x64 .f32 0x00000000#32) x2 x3 x4)) ∗ (∃ W', owes (c : Thread nD τ) 0 W')) -∗ K ⟨⟩))
      ⊢ wp frame (wpE (defs₀ (F := F)) Variants.none c none) Set.univ (cc0__pass1_kernel i tb0 htb0 tb1 htb1 xM hxM arg4 harg4 arg5 harg5 arg6 harg6 arg7 harg7 arg8 harg8 hM hhM arg10 harg10 arg11 harg11 arg12 harg12 arg13 harg13 arg14 harg14 sems) K := by
  rw [← runB_L5 tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 xo5 xo6 pf0 pf1 fx fh hw0 hw1, ← runB_L6 tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 xo5 xo6 pf0 pf1 fx fh hw0 hw1, ← runB_L14 tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 xo5 xo6 pf0 pf1 fx fh hw0 hw1]
  iintro ⟨H0, H1, H2, H3, H4, H5, H6, HS0, HS1, HS2, Hq0, Hq1, Hq2, Ht0, Ht1, Hx, Hh, HW, Hk⟩
  iapply ((runB tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 xo5 xo6 pf0 pf1 fx fh hw0 hw1).2.2.2 W K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Ht0]; · iexact Ht0
  isplitl [Ht1]; · iexact Ht1
  isplitl [Hx]; · iexact Hx
  isplitl [Hh]; · iexact Hh
  isplitl [HW]; · iexact HW
  iintro ⟨H0, H1, H2, H3, H4, ⟨%e5, H5⟩, ⟨%e6, H6⟩, HS0, HS1, ⟨%e14, HS2⟩, Hq0, Hq1, Hq2, Ht0, Ht1, Hx, ⟨%fh', %hfh, Hh⟩, HW'⟩
  subst hfh
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (View.cover_of_tiledL _ S1x64.size (by sl_kernel_rfl))
  isplitl [H6]
  · unfold owns; iexists _; isplitr
    swap; · iexact H6
    ipureintro; exact View.read_writes_of_cover _ _ _ _ _ (View.cover_of_tiledL _ S1x64.size (by sl_kernel_rfl))
  isplitl [HS0]; · iexact HS0
  isplitl [HS1]; · iexact HS1
  isplitl [HS2]
  · unfold owns; iexists _, _; isplitr; swap; · iexact HS2
    ipureintro; rfl
  isplitl [Hq0]; · iexact Hq0
  isplitl [Hq1]; · iexact Hq1
  isplitl [Hq2]; · iexact Hq2
  isplitl [Ht0]; · iexact Ht0
  isplitl [Ht1]; · iexact Ht1
  isplitl [Hx]; · iexact Hx
  isplitl [Hh]; · iexact Hh
  iexact HW'

set_option maxHeartbeats 2000000 in
/-- The body at the first point, with what it leaves written out. -/
theorem bodyA (c : Dev nD) (i : grid0.Coords)
    (arg4 : Memref sig .tc .vmem S64x128 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S64x64 .f32) (harg7 : arg7.IsWhole)
    (arg8 : Memref sig .tc .vmem S1x64 .f32) (harg8 : arg8.IsWhole)
    (arg10 : Memref sig .tc .vmem S1x64 .f32) (harg10 : arg10.IsWhole) (arg11 : Memref sig .tc .vmem S1x64 .f32) (harg11 : arg11.IsWhole)
    (arg12 : Memref sig .tc .vmem S1x128 .f32) (harg12 : arg12.IsWhole) (arg13 : Memref sig .tc .vmem S1x128 .f32) (harg13 : arg13.IsWhole)
    (arg14 : Memref sig .tc .vmem S1x64 .f32) (harg14 : arg14.IsWhole)
    (hc0 : cond0_0 i) (x0 : Vec F S64x128 .f32) (x1 : Vec F S64x128 .f32) (x2 : Vec F S1x64 .f32) (x3 : Vec F S64x64 .f32) (x4 : Vec F S1x64 .f32)
    (pf0 : Bf (F := F) c tb0) (pf1 : Bf (F := F) c tb1) (fx : Bf (F := F) c xM) (fh : Bf (F := F) c hM)
    (hw0 : k0_chk1 (tw0 tb0 c i pf0)) (hw1 : k0_chk2 (tw1 tb1 c i pf1)) (W : Waits sig Unit) (K : PUnit → sProp 𝕄) :
    iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4
            ∗ (∃ d, owns (c : Thread nD τ) arg10 fullShare d) ∗ (∃ d, owns (c : Thread nD τ) arg11 fullShare d)
            ∗ (∃ d, owns (c : Thread nD τ) arg12 fullShare d) ∗ (∃ d, owns (c : Thread nD τ) arg13 fullShare d) ∗ (∃ d, owns (c : Thread nD τ) arg14 fullShare d)
            ∗ semVal ((c : Thread nD τ), semAt sems 0) 0 ∗ semVal ((c : Thread nD τ), semAt sems 1) 0 ∗ semVal ((c : Thread nD τ), semAt sems 2) 0
            ∗ pt c tb0 pf0 ∗ pt c tb1 pf1 ∗ pt c xM fx ∗ pt c hM fh ∗ owes (c : Thread nD τ) 0 W
            ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4
            ∗ owns (c : Thread nD τ) arg10 fullShare (k0_pay8 (k0_pay3 (rowAt1 tb1 xM c i pf1 fx hw1)) (k0_pay4 (rowAt0 tb0 xM c i pf0 fx hw0) x0) (k0_pay5 x1) (constant S1x64 .f32 0x00000000#32) x2 x3 x4 (k0_pay1 (F := F)))
            ∗ owns (c : Thread nD τ) arg11 fullShare (k0_pay9 (k0_pay3 (rowAt1 tb1 xM c i pf1 fx hw1)) (k0_pay4 (rowAt0 tb0 xM c i pf0 fx hw0) x0) (k0_pay5 x1) (constant S1x64 .f32 0x00000000#32) x2 x3 x4 (k0_pay2 (F := F)))
            ∗ (∃ d, owns (c : Thread nD τ) arg12 fullShare d) ∗ (∃ d, owns (c : Thread nD τ) arg13 fullShare d) ∗ (∃ d, owns (c : Thread nD τ) arg14 fullShare d)
            ∗ semVal ((c : Thread nD τ), semAt sems 0) 0 ∗ semVal ((c : Thread nD τ), semAt sems 1) 0 ∗ semVal ((c : Thread nD τ), semAt sems 2) 0
            ∗ pt c tb0 pf0 ∗ pt c tb1 pf1 ∗ pt c xM fx
            ∗ pt c hM (hNext hM c i fh (k0_pay7 (k0_pay3 (rowAt1 tb1 xM c i pf1 fx hw1)) (k0_pay4 (rowAt0 tb0 xM c i pf0 fx hw0) x0) (k0_pay5 x1) (constant S1x64 .f32 0x00000000#32) x2 x3 x4)) ∗ (∃ W', owes (c : Thread nD τ) 0 W')) -∗ K ⟨⟩))
      ⊢ wp frame (wpE (defs₀ (F := F)) Variants.none c none) Set.univ (cc0__pass1_kernel i tb0 htb0 tb1 htb1 xM hxM arg4 harg4 arg5 harg5 arg6 harg6 arg7 harg7 arg8 harg8 hM hhM arg10 harg10 arg11 harg11 arg12 harg12 arg13 harg13 arg14 harg14 sems) K := by
  rw [← runA_L5 tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 pf0 pf1 fx fh hw0 hw1, ← runA_L6 tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 pf0 pf1 fx fh hw0 hw1, ← runA_L14 tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 pf0 pf1 fx fh hw0 hw1]
  iintro ⟨H0, H1, H2, H3, H4, H5, H6, HS0, HS1, HS2, Hq0, Hq1, Hq2, Ht0, Ht1, Hx, Hh, HW, Hk⟩
  iapply ((runA tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 pf0 pf1 fx fh hw0 hw1).2.2.2 W K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Ht0]; · iexact Ht0
  isplitl [Ht1]; · iexact Ht1
  isplitl [Hx]; · iexact Hx
  isplitl [Hh]; · iexact Hh
  isplitl [HW]; · iexact HW
  iintro ⟨H0, H1, H2, H3, H4, ⟨%e5, H5⟩, ⟨%e6, H6⟩, HS0, HS1, ⟨%e14, HS2⟩, Hq0, Hq1, Hq2, Ht0, Ht1, Hx, ⟨%fh', %hfh, Hh⟩, HW'⟩
  subst hfh
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (View.cover_of_tiledL _ S1x64.size (by sl_kernel_rfl))
  isplitl [H6]
  · unfold owns; iexists _; isplitr
    swap; · iexact H6
    ipureintro; exact View.read_writes_of_cover _ _ _ _ _ (View.cover_of_tiledL _ S1x64.size (by sl_kernel_rfl))
  isplitl [HS0]; · iexact HS0
  isplitl [HS1]; · iexact HS1
  isplitl [HS2]
  · unfold owns; iexists _, _; isplitr; swap; · iexact HS2
    ipureintro; rfl
  isplitl [Hq0]; · iexact Hq0
  isplitl [Hq1]; · iexact Hq1
  isplitl [Hq2]; · iexact Hq2
  isplitl [Ht0]; · iexact Ht0
  isplitl [Ht1]; · iexact Ht1
  isplitl [Hx]; · iexact Hx
  isplitl [Hh]; · iexact Hh
  iexact HW'

end Cert.KernelIdeal.P1

end
-- ==== Proof.P1State.lean ====
/-
  The gather-and-project region as a recursion over its grid points, with no buffer in it: the state
  after point n is the running sum, the running sum of squares and the hidden array. The first point
  starts the two sums from the zero fills and the hidden array from what it held; every later point
  adds its hidden row to the first sum, the row's elementwise square to the second, and overwrites its
  own row of the hidden array.
-/
import proofs.«400866_j57071525429608_2_alg».proof.Proof.P1Run
import proofs.«400866_j57071525429608_2_alg».proof.Proof.P1Pieces
import Idealize.ShloMosaic.Lib.Pipeline.Value
import Idealize.ShloMosaic.Lib.Tactic
import Idealize.ShloMosaic.Lib.ValueIdx

set_option maxRecDepth 100000

noncomputable section

namespace Cert.KernelIdeal.P1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The recursion (any float values) -/

section Generic

variable {F : FTy → Type} [FloatOps F]

variable (tb0 : Memref sig .tc .smem S62500 .i32) (tb1 : Memref sig .tc .smem S62500 .i32)
  (xM : Memref sig .tc .hbm S100000x128 .f32) (hM : Memref sig .tc .hbm S62500x64 .f32) (c : Dev nD)
  (N : ℕ) (crd : Fin N → grid0.Coords)
  (x0 x1 : Fin N → Vec F S64x128 .f32) (x2 : Fin N → Vec F S1x64 .f32) (x3 : Fin N → Vec F S64x64 .f32) (x4 : Fin N → Vec F S1x64 .f32)
  (pf0 : Bf (F := F) c tb0) (pf1 : Bf (F := F) c tb1) (fx : Bf (F := F) c xM) (fh0 : Bf (F := F) c hM)
  (hw0 : ∀ t : Fin N, k0_chk1 (tw0 tb0 c (crd t) pf0)) (hw1 : ∀ t : Fin N, k0_chk2 (tw1 tb1 c (crd t) pf1))

/-- What a point leaves: the two running sums and the hidden array. -/
abbrev St : Type := Vec F S1x64 .f32 × Vec F S1x64 .f32 × Bf (F := F) c hM

/-- Point t's new running sum, from the one before. -/
abbrev sumStep (t : Fin N) (acc : Vec F S1x64 .f32) : Vec F S1x64 .f32 :=
  k0_pay8 (k0_pay3 (rowAt1 tb1 xM c (crd t) pf1 fx (hw1 t))) (k0_pay4 (rowAt0 tb0 xM c (crd t) pf0 fx (hw0 t)) (x0 t)) (k0_pay5 (x1 t))
    (constant S1x64 .f32 0x00000000#32) (x2 t) (x3 t) (x4 t) acc

/-- Point t's new running sum of squares, from the one before. -/
abbrev sqStep (t : Fin N) (acc : Vec F S1x64 .f32) : Vec F S1x64 .f32 :=
  k0_pay9 (k0_pay3 (rowAt1 tb1 xM c (crd t) pf1 fx (hw1 t))) (k0_pay4 (rowAt0 tb0 xM c (crd t) pf0 fx (hw0 t)) (x0 t)) (k0_pay5 (x1 t))
    (constant S1x64 .f32 0x00000000#32) (x2 t) (x3 t) (x4 t) acc

/-- Point t's hidden row. -/
abbrev rowStep (t : Fin N) : Vec F S1x64 .f32 :=
  k0_pay7 (k0_pay3 (rowAt1 tb1 xM c (crd t) pf1 fx (hw1 t))) (k0_pay4 (rowAt0 tb0 xM c (crd t) pf0 fx (hw0 t)) (x0 t)) (k0_pay5 (x1 t))
    (constant S1x64 .f32 0x00000000#32) (x2 t) (x3 t) (x4 t)

/-- The state after point n. -/
def stG : (n : ℕ) → n < N → St (F := F) hM c
  | 0, h =>
    (sumStep tb0 tb1 xM c N crd x0 x1 x2 x3 x4 pf0 pf1 fx hw0 hw1 ⟨0, h⟩ (k0_pay1 (F := F)), sqStep tb0 tb1 xM c N crd x0 x1 x2 x3 x4 pf0 pf1 fx hw0 hw1 ⟨0, h⟩ (k0_pay2 (F := F)),
      hNext hM c (crd ⟨0, h⟩) fh0 (rowStep tb0 tb1 xM c N crd x0 x1 x2 x3 x4 pf0 pf1 fx hw0 hw1 ⟨0, h⟩))
  | n + 1, h =>
    (sumStep tb0 tb1 xM c N crd x0 x1 x2 x3 x4 pf0 pf1 fx hw0 hw1 ⟨n + 1, h⟩ (stG n (Nat.lt_of_succ_lt h)).1,
      sqStep tb0 tb1 xM c N crd x0 x1 x2 x3 x4 pf0 pf1 fx hw0 hw1 ⟨n + 1, h⟩ (stG n (Nat.lt_of_succ_lt h)).2.1,
      hNext hM c (crd ⟨n + 1, h⟩) (stG n (Nat.lt_of_succ_lt h)).2.2 (rowStep tb0 tb1 xM c N crd x0 x1 x2 x3 x4 pf0 pf1 fx hw0 hw1 ⟨n + 1, h⟩))

theorem stG_zero (h : 0 < N) :
    stG tb0 tb1 xM hM c N crd x0 x1 x2 x3 x4 pf0 pf1 fx fh0 hw0 hw1 0 h
      = (sumStep tb0 tb1 xM c N crd x0 x1 x2 x3 x4 pf0 pf1 fx hw0 hw1 ⟨0, h⟩ (k0_pay1 (F := F)), sqStep tb0 tb1 xM c N crd x0 x1 x2 x3 x4 pf0 pf1 fx hw0 hw1 ⟨0, h⟩ (k0_pay2 (F := F)),
          hNext hM c (crd ⟨0, h⟩) fh0 (rowStep tb0 tb1 xM c N crd x0 x1 x2 x3 x4 pf0 pf1 fx hw0 hw1 ⟨0, h⟩)) := rfl

theorem stG_succ (n : ℕ) (h : n + 1 < N) :
    stG tb0 tb1 xM hM c N crd x0 x1 x2 x3 x4 pf0 pf1 fx fh0 hw0 hw1 (n + 1) h
      = (sumStep tb0 tb1 xM c N crd x0 x1 x2 x3 x4 pf0 pf1 fx hw0 hw1 ⟨n + 1, h⟩ (stG tb0 tb1 xM hM c N crd x0 x1 x2 x3 x4 pf0 pf1 fx fh0 hw0 hw1 n (Nat.lt_of_succ_lt h)).1,
          sqStep tb0 tb1 xM c N crd x0 x1 x2 x3 x4 pf0 pf1 fx hw0 hw1 ⟨n + 1, h⟩ (stG tb0 tb1 xM hM c N crd x0 x1 x2 x3 x4 pf0 pf1 fx fh0 hw0 hw1 n (Nat.lt_of_succ_lt h)).2.1,
          hNext hM c (crd ⟨n + 1, h⟩) (stG tb0 tb1 xM hM c N crd x0 x1 x2 x3 x4 pf0 pf1 fx fh0 hw0 hw1 n (Nat.lt_of_succ_lt h)).2.2 (rowStep tb0 tb1 xM c N crd x0 x1 x2 x3 x4 pf0 pf1 fx hw0 hw1 ⟨n + 1, h⟩)) := rfl

/-- The hidden array before point n: what it held at the start, then what the point before left. -/
def hG : (n : ℕ) → n ≤ N → Bf (F := F) c hM
  | 0, _ => fh0
  | n + 1, h => (stG tb0 tb1 xM hM c N crd x0 x1 x2 x3 x4 pf0 pf1 fx fh0 hw0 hw1 n h).2.2

/-- Each point overwrites its own row of the hidden array it finds. -/
theorem hG_succ (n : ℕ) (h : n < N) :
    hG tb0 tb1 xM hM c N crd x0 x1 x2 x3 x4 pf0 pf1 fx fh0 hw0 hw1 (n + 1) h = hNext hM c (crd ⟨n, h⟩) (hG tb0 tb1 xM hM c N crd x0 x1 x2 x3 x4 pf0 pf1 fx fh0 hw0 hw1 n (Nat.le_of_lt h)) (rowStep tb0 tb1 xM c N crd x0 x1 x2 x3 x4 pf0 pf1 fx hw0 hw1 ⟨n, h⟩) := by
  cases n with
  | zero => rfl
  | succ m => rfl

end Generic

end Cert.KernelIdeal.P1

end
-- ==== Proof.P1Kern.lean ====
/-
  The gather-and-project kernel under one name: the sixteen launches print the same body, and each launch's module
  rewrites its own copy to this one.
-/
import proofs.«400866_j57071525429608_2_alg».proof.Proof.Gen.KernelIdeal

noncomputable section

namespace Cert.KernelIdeal.P1

open Cert.KernelIdeal Cert.KernelIdeal.Gen Idealize.ShloMosaic

/-- The kernel function of the first launch, which every launch's kernel function equals. -/
abbrev kern {F : FTy → Type} [FloatOps F] := cc0__pass1_kernel (F := F)

end Cert.KernelIdeal.P1

end
-- ==== Proof.P1R0Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.P1Body
import proofs.«400866_j57071525429608_2_alg».proof.Proof.P1State
import proofs.«400866_j57071525429608_2_alg».proof.Proof.P1Kern

set_option maxRecDepth 100000

noncomputable section

namespace Cert.KernelIdeal.P1R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc0__pass1_kernel (F := F) = P1.kern := rfl

-- The buffer contents when the region is entered, and the admissible index tables.
variable (V : (c : Dev nD) → (b : Ref sig .tc) → Buf (Elt F) ((c : Thread nD τ).loc b))
variable (a : (pcfg0 (F := F)).Adm)

/-- The two index tables, the node-feature array and the hidden array, as the body is handed them. -/
abbrev tb0 : Memref sig .tc .smem S62500 .i32 := Memref.whole main_v11
abbrev tb1 : Memref sig .tc .smem S62500 .i32 := Memref.whole main_v12
abbrev xM : Memref sig .tc .hbm S100000x128 .f32 := Memref.whole main_arg0
abbrev hM : Memref sig .tc .hbm S62500x64 .f32 := Memref.whole main_v13_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid0.Coords), k0_chk1 (tw0 tb0 c i (T0 a c))) (hp1 : ∀ c (i : grid0.Coords), k0_chk2 (tw1 tb1 c i (T1 a c)))

/-- Window `w`'s block at point `t`, read off its array as the region finds it. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- Each window's current staging memref at point `t`, as the pipeline passes it to the body. -/
abbrev ms0 (t : Fin (cfg0 a).N) : Memref sig .tc .vmem S64x128 .f32 := spec0_0.stage ((cfg0 a).slots t 0)
abbrev hs0 (t : Fin (cfg0 a).N) : (ms0 a t).IsWhole := hstage0_0 (((cfg0 a).slots t 0).cast nbuf0_0)
abbrev ms1 (t : Fin (cfg0 a).N) : Memref sig .tc .vmem S64x128 .f32 := spec0_1.stage ((cfg0 a).slots t 1)
abbrev hs1 (t : Fin (cfg0 a).N) : (ms1 a t).IsWhole := hstage0_1 (((cfg0 a).slots t 1).cast nbuf0_1)
abbrev ms2 (t : Fin (cfg0 a).N) : Memref sig .tc .vmem S1x64 .f32 := spec0_2.stage ((cfg0 a).slots t 2)
abbrev hs2 (t : Fin (cfg0 a).N) : (ms2 a t).IsWhole := hstage0_2 (((cfg0 a).slots t 2).cast nbuf0_2)
abbrev ms3 (t : Fin (cfg0 a).N) : Memref sig .tc .vmem S64x64 .f32 := spec0_3.stage ((cfg0 a).slots t 3)
abbrev hs3 (t : Fin (cfg0 a).N) : (ms3 a t).IsWhole := hstage0_3 (((cfg0 a).slots t 3).cast nbuf0_3)
abbrev ms4 (t : Fin (cfg0 a).N) : Memref sig .tc .vmem S1x64 .f32 := spec0_4.stage ((cfg0 a).slots t 4)
abbrev hs4 (t : Fin (cfg0 a).N) : (ms4 a t).IsWhole := hstage0_4 (((cfg0 a).slots t 4).cast nbuf0_4)
abbrev ms5 (t : Fin (cfg0 a).N) : Memref sig .tc .vmem S1x64 .f32 := spec0_5.stage ((cfg0 a).slots t 5)
abbrev hs5 (t : Fin (cfg0 a).N) : (ms5 a t).IsWhole := hstage0_5 (((cfg0 a).slots t 5).cast nbuf0_5)
abbrev ms6 (t : Fin (cfg0 a).N) : Memref sig .tc .vmem S1x64 .f32 := spec0_6.stage ((cfg0 a).slots t 6)
abbrev hs6 (t : Fin (cfg0 a).N) : (ms6 a t).IsWhole := hstage0_6 (((cfg0 a).slots t 6).cast nbuf0_6)
/-- The three scratch buffers (the two gathered rows and the hidden row). -/
abbrev sc0 : Memref sig .tc .vmem S1x128 .f32 := Memref.whole cc0_scratch0
abbrev sc1 : Memref sig .tc .vmem S1x128 .f32 := Memref.whole cc0_scratch1
abbrev sc2 : Memref sig .tc .vmem S1x64 .f32 := Memref.whole cc0_scratch2

/-- The body's own three copy semaphores. -/
abbrev osem : Fin 3 → SemLoc sig := fun j => (![SemLoc.dma 7, SemLoc.dma 8, SemLoc.dma 9] : Fin 3 → SemLoc sig) j
theorem ownSemFacts : Pipeline.OwnSemFacts spec0 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc0_scratch3 0) 0 ∗ semVal ((c : Thread nD τ), semAt cc0_scratch3 1) 0 ∗ semVal ((c : Thread nD τ), semAt cc0_scratch3 2) 0) := by
  rw [Pipeline.ownSems0_eq_of_list c osem [0, 1, 2] (by decide) (by decide)]; rfl

/-- The grid point's coordinate. -/
abbrev crd (t : Fin (cfg0 a).N) : grid0.Coords := grid0.coords t

/-- The grid is one axis of 62500 points: the coordinate of point `t` is `t`. -/
theorem coord_val (t : Fin (cfg0 a).N) : ((crd a t) 0).val = t.val := by
  have hN : t.val < 62500 := lt_of_lt_of_eq t.isLt N_0
  show t.val / grid0.stride 0 % grid0.bound 0 = t.val
  rw [show grid0.stride 0 = 1 from by decide, Nat.div_one]
  exact Nat.mod_eq_of_lt hN

/-- The branch is taken at the first point and at no other. -/
theorem hcond (t : Fin (cfg0 a).N) : cond0_0 (grid0.coords t) ↔ t.val = 0 := by
  have hN : t.val < 62500 := lt_of_lt_of_eq t.isLt N_0
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg0 a).N) : St (F := F) c :=
  P1.stG tb0 tb1 xM hM c (cfg0 a).N (crd a) (fun t => iblk V a c 0 t) (fun t => iblk V a c 1 t) (fun t => iblk V a c 2 t) (fun t => iblk V a c 3 t) (fun t => iblk V a c 4 t) (T0 a c) (T1 a c) (V c main_arg0) (V c main_v13_0) (fun t => hp0 c (crd a t)) (fun t => hp1 c (crd a t)) n hn

/-- The hidden array before point `n` (after `n` points). -/
def hAt (c : Dev nD) (n : ℕ) (hn : n ≤ (cfg0 a).N) : Bf (F := F) c hM :=
  P1.hG tb0 tb1 xM hM c (cfg0 a).N (crd a) (fun t => iblk V a c 0 t) (fun t => iblk V a c 1 t) (fun t => iblk V a c 2 t) (fun t => iblk V a c 3 t) (fun t => iblk V a c 4 t) (T0 a c) (T1 a c) (V c main_arg0) (V c main_v13_0) (fun t => hp0 c (crd a t)) (fun t => hp1 c (crd a t)) n hn

theorem stAt_zero (c : Dev nD) (t : Fin (cfg0 a).N) (h0 : t.val = 0) :
    stAt V a hp0 hp1 c t.val t.isLt
      = (P1.sumStep tb0 tb1 xM c (cfg0 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k0_pay1 (F := F)), P1.sqStep tb0 tb1 xM c (cfg0 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k0_pay2 (F := F)),
          hNext hM c (crd a t) (V c main_v13_0) (P1.rowStep tb0 tb1 xM c (cfg0 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg0 a).N) (h0 : ¬t.val = 0) :
    stAt V a hp0 hp1 c t.val t.isLt
      = (P1.sumStep tb0 tb1 xM c (cfg0 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg0 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg0 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg0 a).N) (h0 : t.val = 0) (hn) : hAt V a hp0 hp1 c t.val hn = V c main_v13_0 := by
  obtain ⟨n, hlt⟩ := t
  cases n with
  | zero => rfl
  | succ n => exact absurd h0 (Nat.succ_ne_zero n)
theorem hAt_pos (c : Dev nD) (t : Fin (cfg0 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg0 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg0 a).N) : sProp 𝕄 :=
  iprop(Pipeline.scopedRest (Ix := Unit) (Name := ℕ) (U := Pipeline.UD sig nD τ) (Lvl := ℕ) (Val := Elt F) spec0 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg0 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec0 c [cc0_scratch0, cc0_scratch1, cc0_scratch2])
          ∗ (∃ r, prngReg c r)
          ∗ iprop(semVal ((c : Thread nD τ), semAt cc0_scratch3 0) 0 ∗ semVal ((c : Thread nD τ), semAt cc0_scratch3 1) 0 ∗ semVal ((c : Thread nD τ), semAt cc0_scratch3 2) 0)
          ∗ pt c tb0 (T0 a c) ∗ pt c tb1 (T1 a c) ∗ pt c xM (V c main_arg0) ∗ pt c hM (hAt V a hp0 hp1 c n hn)) := by
  unfold Φ1; rw [scopedRest0_split, ownSems0_eq]; simp only [sc0, sc1, sc2, owns_whole]; try rfl

def dat (c : Dev nD) : Dat τ (Elt F) Unit ℕ (Pipeline.UD sig nD τ) ℕ (cfg0 a) c where
  A w := V c (Pipeline.arrRef spec0 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg0 a).W) : (dat V a hp0 hp1 c).A w = V c (Pipeline.arrRef spec0 w) := by
  dsimp only [dat]
theorem after_0 (c : Dev nD) (t : Fin (cfg0 a).N) : (dat V a hp0 hp1 c).after 0 t = iblk V a c 0 t := by dsimp only [dat]; rfl
theorem after_1 (c : Dev nD) (t : Fin (cfg0 a).N) : (dat V a hp0 hp1 c).after 1 t = iblk V a c 1 t := by dsimp only [dat]; rfl
theorem after_2 (c : Dev nD) (t : Fin (cfg0 a).N) : (dat V a hp0 hp1 c).after 2 t = iblk V a c 2 t := by dsimp only [dat]; rfl
theorem after_3 (c : Dev nD) (t : Fin (cfg0 a).N) : (dat V a hp0 hp1 c).after 3 t = iblk V a c 3 t := by dsimp only [dat]; rfl
theorem after_4 (c : Dev nD) (t : Fin (cfg0 a).N) : (dat V a hp0 hp1 c).after 4 t = iblk V a c 4 t := by dsimp only [dat]; rfl
theorem after_5 (c : Dev nD) (t : Fin (cfg0 a).N) : (dat V a hp0 hp1 c).after 5 t = (stAt V a hp0 hp1 c t.val t.isLt).1 := by dsimp only [dat]; rfl
theorem after_6 (c : Dev nD) (t : Fin (cfg0 a).N) : (dat V a hp0 hp1 c).after 6 t = (stAt V a hp0 hp1 c t.val t.isLt).2.1 := by dsimp only [dat]; rfl
theorem before_0 (c : Dev nD) (t : Fin (cfg0 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg0 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg0 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg0 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg0 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg0 a).N) (h : t'.val + 1 < (cfg0 a).N) : ((cfg0 a).win 5).flush t' = false := by
  unfold Pipeline.Window.flush
  rw [Bool.and_eq_false_iff]; right
  rw [Bool.or_eq_false_iff]
  have h' : t'.val + 1 < (cfg0 a).grid.N := h
  exact ⟨decide_eq_false (by omega), decide_eq_false (fun ⟨_, hne⟩ => hne rfl)⟩
theorem before_5_B (c : Dev nD) (t : Fin (cfg0 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg0 a).N) (h : t'.val + 1 < (cfg0 a).N) : ((cfg0 a).win 6).flush t' = false := by
  unfold Pipeline.Window.flush
  rw [Bool.and_eq_false_iff]; right
  rw [Bool.or_eq_false_iff]
  have h' : t'.val + 1 < (cfg0 a).grid.N := h
  exact ⟨decide_eq_false (by omega), decide_eq_false (fun ⟨_, hne⟩ => hne rfl)⟩
theorem before_6_B (c : Dev nD) (t : Fin (cfg0 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg0 a).N) : Prog (TpuEff nD τ sig (Elt F) Λ₀ .tc) PUnit :=
  (cc0__pass1_kernel (grid0.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc0_scratch3)

def bodyPre (c : Dev nD) (t : Fin (cfg0 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg0 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg0 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc0_scratch3 c (grid0.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v13_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc0_scratch3 c (grid0.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W0, bigSep_W0]
  exact sound_body V a hp0 hp1 c t

end Cert.KernelIdeal.P1R0

end
-- ==== Proof.P1R0Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.P1R0Dat
import proofs.«400866_j57071525429608_2_alg».proof.Proof.Assemble

set_option maxRecDepth 16384

noncomputable section

namespace Cert.KernelIdeal.P1R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Asm (Rr L₀ lv₀)
open Cert.KernelIdeal.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid0.Coords), k0_chk1 (tw0 tb0 c i (T0 (adm 0) c))) (hp1 : ∀ c (i : grid0.Coords), k0_chk2 (tw1 tb1 c i (T1 (adm 0) c)))

/-- The unscoped buffers the body moves itself or reads as tables: no window's array. -/
def H : Finset (Ref sig .tc) := {main_arg0, main_v11, main_v12, main_v13_0}
theorem H_sub : H ⊆ Pipeline.restRefs sig spec0 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v11) ∗ pt c tb1 (W main_v12) ∗ pt c hM (W main_v13_0)) := by
  rw [BI.bigSep_eq_bigSepL_of_eq [main_arg0, main_v11, main_v12, main_v13_0] (by decide) (by decide)]; rfl

/-- The two tables held, listed. -/
theorem pref_eq (c : Dev nD) (T : (pcfgs (F := F) 0).pre.Contents (Elt F)) :
    (Pipeline.prefHeld (Ix := Unit) (Name := ℕ) (U := Pipeline.UD sig nD τ) (Lvl := ℕ) (pcfgs (F := F) 0).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 0) hp0 hp1 c (cfg0 (adm 0)).N le_rfl

/-- The entry valuation with the hidden array at its final contents: what the unscoped rest is at the exit. -/
def Vmid (c : Dev nD) : (b : Ref sig .tc) → Buf (Elt F) ((c : Thread nD τ).loc b) :=
  Function.update (Vin Win c) main_v13_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec0 c W : sProp 𝕄)
      = iprop((bigSep H fun b => ((c : Thread nD τ).loc b) ↦{fullShare} W b) ∗ (bigSep (Pipeline.restRefs sig spec0 \ H) fun b => ((c : Thread nD τ).loc b) ↦{fullShare} W b)) := by
  unfold Pipeline.unscopedRest; exact BI.bigSep_sdiff_split H_sub

set_option maxHeartbeats 4000000 in
def reg (hpd : ∀ c, pdats 0 c = dat (Vin Win) (adm 0) hp0 hp1 c)
    (hT0 : ∀ c, Vin Win c main_v11 = T0 (adm 0) c) (hT1 : ∀ c, Vin Win c main_v12 = T1 (adm 0) c)
    (hF : ∀ c w, (dat (Vin Win) (adm 0) hp0 hp1 c).arrAt w (cfg0 (adm 0)).N = Vout Wout c (Pipeline.arrRef spec0 w))
    (hrest : ∀ c b, b ∉ Finset.univ.image (Pipeline.arrRef spec0) → Vout Wout c b = Vmid adm Win hp0 hp1 c b) :
    Pipeline.RegionSeg (pcfgs (F := F)) adm pdats () defs₀ Variants.none L₀ lv₀ 0 where
  win := winFacts0.to₀
  block_pos := block_pos0
  stage_whole := stage_whole0
  K := Fin 3
  osem := osem
  ho := ownSemFacts
  hbody c := by rw [hpd c]; exact (body_obligation (Vin Win) (adm 0) hp0 hp1 c).loose
  hwaits := Pipeline.hwaits_of_owed_zero _ _ _ _ L₀ lv₀ 0 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v13_0))
  Y c := iprop((∃ r, prngReg c r) ∗ pt c tb0 (T0 (adm 0) c) ∗ pt c tb1 (T1 (adm 0) c) ∗ pt c xM (Vin Win c main_arg0) ∗ pt c hM (hEnd adm Win hp0 hp1 c))
  Z c := bigSep (Pipeline.restRefs sig spec0 \ H) fun b => ((c : Thread nD τ).loc b) ↦{fullShare} Vin Win c b
  hentry c := by
    have hsplit : (StableHlo.held (c : Thread nD τ) (Pipeline.ucRefs τ sig) (Win c) : sProp 𝕄)
        ⊢ iprop((pdats 0 c).arrays ((pdats 0 c).arrAt · 0) ∗ Pipeline.unscopedRest (Ix := Unit) (Name := ℕ) (U := Pipeline.UD sig nD τ) (Lvl := ℕ) spec0 c (Vin Win c)) := by
      have h := Pipeline.arrays_of_unscopedBufs (p := 0) (pcfgs (F := F)) adm pdats winFacts0 arr_whole0 c
        (by rw [hpd c]; exact (dat (Vin Win) (adm 0) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 0 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 0) hp0 hp1 c 0 (Nat.zero_le _)
    unfold Φ1
    rw [pref_eq, show hAt (Vin Win) (adm 0) hp0 hp1 c 0 (Nat.zero_le _) = Vin Win c main_v13_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 0) hp0 hp1 c (cfg0 (adm 0)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 0 c).arrays ((pdats 0 c).arrAt · (cfg0 (adm 0)).N) ∗ Pipeline.unscopedRest (Ix := Unit) (Name := ℕ) (U := Pipeline.UD sig nD τ) (Lvl := ℕ) spec0 c (Vmid adm Win hp0 hp1 c))
        ⊢ (StableHlo.held (c : Thread nD τ) (Pipeline.ucRefs τ sig) (Wout c) : sProp 𝕄) := by
      have h := Pipeline.unscopedBufs_of_arrays (p := 0) (pcfgs (F := F)) adm (Ix := Unit) (Name := ℕ) (U := Pipeline.UD sig nD τ) (Lvl := ℕ)
        winFacts0 arr_whole0 c pdats (by rw [hpd c]; exact (dat (Vin Win) (adm 0) hp0 hp1 c).share_full fun _ => rfl)
        (Vmid adm Win hp0 hp1 c) (Vout Wout c) ((pdats 0 c).arrAt · (cfg0 (adm 0)).N) (by rw [hpd c]; exact hF c) (hrest c)
      rw [Pipeline.unscopedBufs_held] at h; exact h
    rw [rest_split, Hpts_eq] at hjoin
    have hZ : (bigSep (Pipeline.restRefs sig spec0 \ H) fun b => ((c : Thread nD τ).loc b) ↦{fullShare} Vin Win c b : sProp 𝕄)
        = (bigSep (Pipeline.restRefs sig spec0 \ H) fun b => ((c : Thread nD τ).loc b) ↦{fullShare} Vmid adm Win hp0 hp1 c b) :=
      bigSep_congr fun b hb => by
        have hne : b ≠ main_v13_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v11 = Vin Win c main_v11 := by unfold Vmid; exact Function.update_of_ne (by decide) _ _
    have e2 : Vmid adm Win hp0 hp1 c main_v12 = Vin Win c main_v12 := by unfold Vmid; exact Function.update_of_ne (by decide) _ _
    have e3 : Vmid adm Win hp0 hp1 c main_v13_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 0 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.KernelIdeal.P1R0

end
-- ==== Proof.P1R1Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.P1Body
import proofs.«400866_j57071525429608_2_alg».proof.Proof.P1State
import proofs.«400866_j57071525429608_2_alg».proof.Proof.P1Kern

set_option maxRecDepth 100000

noncomputable section

namespace Cert.KernelIdeal.P1R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc1__pass1_kernel (F := F) = P1.kern := rfl

-- The buffer contents when the region is entered, and the admissible index tables.
variable (V : (c : Dev nD) → (b : Ref sig .tc) → Buf (Elt F) ((c : Thread nD τ).loc b))
variable (a : (pcfg1 (F := F)).Adm)

/-- The two index tables, the node-feature array and the hidden array, as the body is handed them. -/
abbrev tb0 : Memref sig .tc .smem S62500 .i32 := Memref.whole main_v14
abbrev tb1 : Memref sig .tc .smem S62500 .i32 := Memref.whole main_v15
abbrev xM : Memref sig .tc .hbm S100000x128 .f32 := Memref.whole main_arg0
abbrev hM : Memref sig .tc .hbm S62500x64 .f32 := Memref.whole main_v16_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid1.Coords), k1_chk1 (tw0 tb0 c i (T0 a c))) (hp1 : ∀ c (i : grid1.Coords), k1_chk2 (tw1 tb1 c i (T1 a c)))

/-- Window `w`'s block at point `t`, read off its array as the region finds it. -/
def iblk (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- Each window's current staging memref at point `t`, as the pipeline passes it to the body. -/
abbrev ms0 (t : Fin (cfg1 a).N) : Memref sig .tc .vmem S64x128 .f32 := spec1_0.stage ((cfg1 a).slots t 0)
abbrev hs0 (t : Fin (cfg1 a).N) : (ms0 a t).IsWhole := hstage1_0 (((cfg1 a).slots t 0).cast nbuf1_0)
abbrev ms1 (t : Fin (cfg1 a).N) : Memref sig .tc .vmem S64x128 .f32 := spec1_1.stage ((cfg1 a).slots t 1)
abbrev hs1 (t : Fin (cfg1 a).N) : (ms1 a t).IsWhole := hstage1_1 (((cfg1 a).slots t 1).cast nbuf1_1)
abbrev ms2 (t : Fin (cfg1 a).N) : Memref sig .tc .vmem S1x64 .f32 := spec1_2.stage ((cfg1 a).slots t 2)
abbrev hs2 (t : Fin (cfg1 a).N) : (ms2 a t).IsWhole := hstage1_2 (((cfg1 a).slots t 2).cast nbuf1_2)
abbrev ms3 (t : Fin (cfg1 a).N) : Memref sig .tc .vmem S64x64 .f32 := spec1_3.stage ((cfg1 a).slots t 3)
abbrev hs3 (t : Fin (cfg1 a).N) : (ms3 a t).IsWhole := hstage1_3 (((cfg1 a).slots t 3).cast nbuf1_3)
abbrev ms4 (t : Fin (cfg1 a).N) : Memref sig .tc .vmem S1x64 .f32 := spec1_4.stage ((cfg1 a).slots t 4)
abbrev hs4 (t : Fin (cfg1 a).N) : (ms4 a t).IsWhole := hstage1_4 (((cfg1 a).slots t 4).cast nbuf1_4)
abbrev ms5 (t : Fin (cfg1 a).N) : Memref sig .tc .vmem S1x64 .f32 := spec1_5.stage ((cfg1 a).slots t 5)
abbrev hs5 (t : Fin (cfg1 a).N) : (ms5 a t).IsWhole := hstage1_5 (((cfg1 a).slots t 5).cast nbuf1_5)
abbrev ms6 (t : Fin (cfg1 a).N) : Memref sig .tc .vmem S1x64 .f32 := spec1_6.stage ((cfg1 a).slots t 6)
abbrev hs6 (t : Fin (cfg1 a).N) : (ms6 a t).IsWhole := hstage1_6 (((cfg1 a).slots t 6).cast nbuf1_6)
/-- The three scratch buffers (the two gathered rows and the hidden row). -/
abbrev sc0 : Memref sig .tc .vmem S1x128 .f32 := Memref.whole cc1_scratch0
abbrev sc1 : Memref sig .tc .vmem S1x128 .f32 := Memref.whole cc1_scratch1
abbrev sc2 : Memref sig .tc .vmem S1x64 .f32 := Memref.whole cc1_scratch2

/-- The body's own three copy semaphores. -/
abbrev osem : Fin 3 → SemLoc sig := fun j => (![SemLoc.dma 17, SemLoc.dma 18, SemLoc.dma 19] : Fin 3 → SemLoc sig) j
theorem ownSemFacts : Pipeline.OwnSemFacts spec1 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc1_scratch3 0) 0 ∗ semVal ((c : Thread nD τ), semAt cc1_scratch3 1) 0 ∗ semVal ((c : Thread nD τ), semAt cc1_scratch3 2) 0) := by
  rw [Pipeline.ownSems0_eq_of_list c osem [0, 1, 2] (by decide) (by decide)]; rfl

/-- The grid point's coordinate. -/
abbrev crd (t : Fin (cfg1 a).N) : grid1.Coords := grid1.coords t

/-- The grid is one axis of 62500 points: the coordinate of point `t` is `t`. -/
theorem coord_val (t : Fin (cfg1 a).N) : ((crd a t) 0).val = t.val := by
  have hN : t.val < 62500 := lt_of_lt_of_eq t.isLt N_1
  show t.val / grid1.stride 0 % grid1.bound 0 = t.val
  rw [show grid1.stride 0 = 1 from by decide, Nat.div_one]
  exact Nat.mod_eq_of_lt hN

/-- The branch is taken at the first point and at no other. -/
theorem hcond (t : Fin (cfg1 a).N) : cond0_0 (grid1.coords t) ↔ t.val = 0 := by
  have hN : t.val < 62500 := lt_of_lt_of_eq t.isLt N_1
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg1 a).N) : St (F := F) c :=
  P1.stG tb0 tb1 xM hM c (cfg1 a).N (crd a) (fun t => iblk V a c 0 t) (fun t => iblk V a c 1 t) (fun t => iblk V a c 2 t) (fun t => iblk V a c 3 t) (fun t => iblk V a c 4 t) (T0 a c) (T1 a c) (V c main_arg0) (V c main_v16_0) (fun t => hp0 c (crd a t)) (fun t => hp1 c (crd a t)) n hn

/-- The hidden array before point `n` (after `n` points). -/
def hAt (c : Dev nD) (n : ℕ) (hn : n ≤ (cfg1 a).N) : Bf (F := F) c hM :=
  P1.hG tb0 tb1 xM hM c (cfg1 a).N (crd a) (fun t => iblk V a c 0 t) (fun t => iblk V a c 1 t) (fun t => iblk V a c 2 t) (fun t => iblk V a c 3 t) (fun t => iblk V a c 4 t) (T0 a c) (T1 a c) (V c main_arg0) (V c main_v16_0) (fun t => hp0 c (crd a t)) (fun t => hp1 c (crd a t)) n hn

theorem stAt_zero (c : Dev nD) (t : Fin (cfg1 a).N) (h0 : t.val = 0) :
    stAt V a hp0 hp1 c t.val t.isLt
      = (P1.sumStep tb0 tb1 xM c (cfg1 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k1_pay1 (F := F)), P1.sqStep tb0 tb1 xM c (cfg1 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k1_pay2 (F := F)),
          hNext hM c (crd a t) (V c main_v16_0) (P1.rowStep tb0 tb1 xM c (cfg1 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg1 a).N) (h0 : ¬t.val = 0) :
    stAt V a hp0 hp1 c t.val t.isLt
      = (P1.sumStep tb0 tb1 xM c (cfg1 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg1 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg1 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg1 a).N) (h0 : t.val = 0) (hn) : hAt V a hp0 hp1 c t.val hn = V c main_v16_0 := by
  obtain ⟨n, hlt⟩ := t
  cases n with
  | zero => rfl
  | succ n => exact absurd h0 (Nat.succ_ne_zero n)
theorem hAt_pos (c : Dev nD) (t : Fin (cfg1 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg1 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg1 a).N) : sProp 𝕄 :=
  iprop(Pipeline.scopedRest (Ix := Unit) (Name := ℕ) (U := Pipeline.UD sig nD τ) (Lvl := ℕ) (Val := Elt F) spec1 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg1 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec1 c [cc1_scratch0, cc1_scratch1, cc1_scratch2])
          ∗ (∃ r, prngReg c r)
          ∗ iprop(semVal ((c : Thread nD τ), semAt cc1_scratch3 0) 0 ∗ semVal ((c : Thread nD τ), semAt cc1_scratch3 1) 0 ∗ semVal ((c : Thread nD τ), semAt cc1_scratch3 2) 0)
          ∗ pt c tb0 (T0 a c) ∗ pt c tb1 (T1 a c) ∗ pt c xM (V c main_arg0) ∗ pt c hM (hAt V a hp0 hp1 c n hn)) := by
  unfold Φ1; rw [scopedRest1_split, ownSems0_eq]; simp only [sc0, sc1, sc2, owns_whole]; try rfl

def dat (c : Dev nD) : Dat τ (Elt F) Unit ℕ (Pipeline.UD sig nD τ) ℕ (cfg1 a) c where
  A w := V c (Pipeline.arrRef spec1 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg1 a).W) : (dat V a hp0 hp1 c).A w = V c (Pipeline.arrRef spec1 w) := by
  dsimp only [dat]
theorem after_0 (c : Dev nD) (t : Fin (cfg1 a).N) : (dat V a hp0 hp1 c).after 0 t = iblk V a c 0 t := by dsimp only [dat]; rfl
theorem after_1 (c : Dev nD) (t : Fin (cfg1 a).N) : (dat V a hp0 hp1 c).after 1 t = iblk V a c 1 t := by dsimp only [dat]; rfl
theorem after_2 (c : Dev nD) (t : Fin (cfg1 a).N) : (dat V a hp0 hp1 c).after 2 t = iblk V a c 2 t := by dsimp only [dat]; rfl
theorem after_3 (c : Dev nD) (t : Fin (cfg1 a).N) : (dat V a hp0 hp1 c).after 3 t = iblk V a c 3 t := by dsimp only [dat]; rfl
theorem after_4 (c : Dev nD) (t : Fin (cfg1 a).N) : (dat V a hp0 hp1 c).after 4 t = iblk V a c 4 t := by dsimp only [dat]; rfl
theorem after_5 (c : Dev nD) (t : Fin (cfg1 a).N) : (dat V a hp0 hp1 c).after 5 t = (stAt V a hp0 hp1 c t.val t.isLt).1 := by dsimp only [dat]; rfl
theorem after_6 (c : Dev nD) (t : Fin (cfg1 a).N) : (dat V a hp0 hp1 c).after 6 t = (stAt V a hp0 hp1 c t.val t.isLt).2.1 := by dsimp only [dat]; rfl
theorem before_0 (c : Dev nD) (t : Fin (cfg1 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg1 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg1 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg1 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg1 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg1 a).N) (h : t'.val + 1 < (cfg1 a).N) : ((cfg1 a).win 5).flush t' = false := by
  unfold Pipeline.Window.flush
  rw [Bool.and_eq_false_iff]; right
  rw [Bool.or_eq_false_iff]
  have h' : t'.val + 1 < (cfg1 a).grid.N := h
  exact ⟨decide_eq_false (by omega), decide_eq_false (fun ⟨_, hne⟩ => hne rfl)⟩
theorem before_5_B (c : Dev nD) (t : Fin (cfg1 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg1 a).N) (h : t'.val + 1 < (cfg1 a).N) : ((cfg1 a).win 6).flush t' = false := by
  unfold Pipeline.Window.flush
  rw [Bool.and_eq_false_iff]; right
  rw [Bool.or_eq_false_iff]
  have h' : t'.val + 1 < (cfg1 a).grid.N := h
  exact ⟨decide_eq_false (by omega), decide_eq_false (fun ⟨_, hne⟩ => hne rfl)⟩
theorem before_6_B (c : Dev nD) (t : Fin (cfg1 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg1 a).N) : Prog (TpuEff nD τ sig (Elt F) Λ₀ .tc) PUnit :=
  (cc1__pass1_kernel (grid1.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc1_scratch3)

def bodyPre (c : Dev nD) (t : Fin (cfg1 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg1 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg1 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc1_scratch3 c (grid1.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v16_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc1_scratch3 c (grid1.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W1, bigSep_W1]
  exact sound_body V a hp0 hp1 c t

end Cert.KernelIdeal.P1R1

end
-- ==== Proof.P1R1Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.P1R1Dat
import proofs.«400866_j57071525429608_2_alg».proof.Proof.Assemble

set_option maxRecDepth 16384

noncomputable section

namespace Cert.KernelIdeal.P1R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Asm (Rr L₀ lv₀)
open Cert.KernelIdeal.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid1.Coords), k1_chk1 (tw0 tb0 c i (T0 (adm 1) c))) (hp1 : ∀ c (i : grid1.Coords), k1_chk2 (tw1 tb1 c i (T1 (adm 1) c)))

/-- The unscoped buffers the body moves itself or reads as tables: no window's array. -/
def H : Finset (Ref sig .tc) := {main_arg0, main_v14, main_v15, main_v16_0}
theorem H_sub : H ⊆ Pipeline.restRefs sig spec1 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v14) ∗ pt c tb1 (W main_v15) ∗ pt c hM (W main_v16_0)) := by
  rw [BI.bigSep_eq_bigSepL_of_eq [main_arg0, main_v14, main_v15, main_v16_0] (by decide) (by decide)]; rfl

/-- The two tables held, listed. -/
theorem pref_eq (c : Dev nD) (T : (pcfgs (F := F) 1).pre.Contents (Elt F)) :
    (Pipeline.prefHeld (Ix := Unit) (Name := ℕ) (U := Pipeline.UD sig nD τ) (Lvl := ℕ) (pcfgs (F := F) 1).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 1) hp0 hp1 c (cfg1 (adm 1)).N le_rfl

/-- The entry valuation with the hidden array at its final contents: what the unscoped rest is at the exit. -/
def Vmid (c : Dev nD) : (b : Ref sig .tc) → Buf (Elt F) ((c : Thread nD τ).loc b) :=
  Function.update (Vin Win c) main_v16_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec1 c W : sProp 𝕄)
      = iprop((bigSep H fun b => ((c : Thread nD τ).loc b) ↦{fullShare} W b) ∗ (bigSep (Pipeline.restRefs sig spec1 \ H) fun b => ((c : Thread nD τ).loc b) ↦{fullShare} W b)) := by
  unfold Pipeline.unscopedRest; exact BI.bigSep_sdiff_split H_sub

set_option maxHeartbeats 4000000 in
def reg (hpd : ∀ c, pdats 1 c = dat (Vin Win) (adm 1) hp0 hp1 c)
    (hT0 : ∀ c, Vin Win c main_v14 = T0 (adm 1) c) (hT1 : ∀ c, Vin Win c main_v15 = T1 (adm 1) c)
    (hF : ∀ c w, (dat (Vin Win) (adm 1) hp0 hp1 c).arrAt w (cfg1 (adm 1)).N = Vout Wout c (Pipeline.arrRef spec1 w))
    (hrest : ∀ c b, b ∉ Finset.univ.image (Pipeline.arrRef spec1) → Vout Wout c b = Vmid adm Win hp0 hp1 c b) :
    Pipeline.RegionSeg (pcfgs (F := F)) adm pdats () defs₀ Variants.none L₀ lv₀ 1 where
  win := winFacts1.to₀
  block_pos := block_pos1
  stage_whole := stage_whole1
  K := Fin 3
  osem := osem
  ho := ownSemFacts
  hbody c := by rw [hpd c]; exact (body_obligation (Vin Win) (adm 1) hp0 hp1 c).loose
  hwaits := Pipeline.hwaits_of_owed_zero _ _ _ _ L₀ lv₀ 1 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v16_0))
  Y c := iprop((∃ r, prngReg c r) ∗ pt c tb0 (T0 (adm 1) c) ∗ pt c tb1 (T1 (adm 1) c) ∗ pt c xM (Vin Win c main_arg0) ∗ pt c hM (hEnd adm Win hp0 hp1 c))
  Z c := bigSep (Pipeline.restRefs sig spec1 \ H) fun b => ((c : Thread nD τ).loc b) ↦{fullShare} Vin Win c b
  hentry c := by
    have hsplit : (StableHlo.held (c : Thread nD τ) (Pipeline.ucRefs τ sig) (Win c) : sProp 𝕄)
        ⊢ iprop((pdats 1 c).arrays ((pdats 1 c).arrAt · 0) ∗ Pipeline.unscopedRest (Ix := Unit) (Name := ℕ) (U := Pipeline.UD sig nD τ) (Lvl := ℕ) spec1 c (Vin Win c)) := by
      have h := Pipeline.arrays_of_unscopedBufs (p := 1) (pcfgs (F := F)) adm pdats winFacts1 arr_whole1 c
        (by rw [hpd c]; exact (dat (Vin Win) (adm 1) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 1 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 1) hp0 hp1 c 0 (Nat.zero_le _)
    unfold Φ1
    rw [pref_eq, show hAt (Vin Win) (adm 1) hp0 hp1 c 0 (Nat.zero_le _) = Vin Win c main_v16_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 1) hp0 hp1 c (cfg1 (adm 1)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 1 c).arrays ((pdats 1 c).arrAt · (cfg1 (adm 1)).N) ∗ Pipeline.unscopedRest (Ix := Unit) (Name := ℕ) (U := Pipeline.UD sig nD τ) (Lvl := ℕ) spec1 c (Vmid adm Win hp0 hp1 c))
        ⊢ (StableHlo.held (c : Thread nD τ) (Pipeline.ucRefs τ sig) (Wout c) : sProp 𝕄) := by
      have h := Pipeline.unscopedBufs_of_arrays (p := 1) (pcfgs (F := F)) adm (Ix := Unit) (Name := ℕ) (U := Pipeline.UD sig nD τ) (Lvl := ℕ)
        winFacts1 arr_whole1 c pdats (by rw [hpd c]; exact (dat (Vin Win) (adm 1) hp0 hp1 c).share_full fun _ => rfl)
        (Vmid adm Win hp0 hp1 c) (Vout Wout c) ((pdats 1 c).arrAt · (cfg1 (adm 1)).N) (by rw [hpd c]; exact hF c) (hrest c)
      rw [Pipeline.unscopedBufs_held] at h; exact h
    rw [rest_split, Hpts_eq] at hjoin
    have hZ : (bigSep (Pipeline.restRefs sig spec1 \ H) fun b => ((c : Thread nD τ).loc b) ↦{fullShare} Vin Win c b : sProp 𝕄)
        = (bigSep (Pipeline.restRefs sig spec1 \ H) fun b => ((c : Thread nD τ).loc b) ↦{fullShare} Vmid adm Win hp0 hp1 c b) :=
      bigSep_congr fun b hb => by
        have hne : b ≠ main_v16_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v14 = Vin Win c main_v14 := by unfold Vmid; exact Function.update_of_ne (by decide) _ _
    have e2 : Vmid adm Win hp0 hp1 c main_v15 = Vin Win c main_v15 := by unfold Vmid; exact Function.update_of_ne (by decide) _ _
    have e3 : Vmid adm Win hp0 hp1 c main_v16_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 1 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.KernelIdeal.P1R1

end
-- ==== Proof.P1R2Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.P1Body
import proofs.«400866_j57071525429608_2_alg».proof.Proof.P1State
import proofs.«400866_j57071525429608_2_alg».proof.Proof.P1Kern

set_option maxRecDepth 100000

noncomputable section

namespace Cert.KernelIdeal.P1R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc2__pass1_kernel (F := F) = P1.kern := rfl

-- The buffer contents when the region is entered, and the admissible index tables.
variable (V : (c : Dev nD) → (b : Ref sig .tc) → Buf (Elt F) ((c : Thread nD τ).loc b))
variable (a : (pcfg2 (F := F)).Adm)

/-- The two index tables, the node-feature array and the hidden array, as the body is handed them. -/
abbrev tb0 : Memref sig .tc .smem S62500 .i32 := Memref.whole main_v17
abbrev tb1 : Memref sig .tc .smem S62500 .i32 := Memref.whole main_v18
abbrev xM : Memref sig .tc .hbm S100000x128 .f32 := Memref.whole main_arg0
abbrev hM : Memref sig .tc .hbm S62500x64 .f32 := Memref.whole main_v19_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid2.Coords), k2_chk1 (tw0 tb0 c i (T0 a c))) (hp1 : ∀ c (i : grid2.Coords), k2_chk2 (tw1 tb1 c i (T1 a c)))

/-- Window `w`'s block at point `t`, read off its array as the region finds it. -/
def iblk (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (V c (Pipeline.arrRef spec2 w))

/-- Each window's current staging memref at point `t`, as the pipeline passes it to the body. -/
abbrev ms0 (t : Fin (cfg2 a).N) : Memref sig .tc .vmem S64x128 .f32 := spec2_0.stage ((cfg2 a).slots t 0)
abbrev hs0 (t : Fin (cfg2 a).N) : (ms0 a t).IsWhole := hstage2_0 (((cfg2 a).slots t 0).cast nbuf2_0)
abbrev ms1 (t : Fin (cfg2 a).N) : Memref sig .tc .vmem S64x128 .f32 := spec2_1.stage ((cfg2 a).slots t 1)
abbrev hs1 (t : Fin (cfg2 a).N) : (ms1 a t).IsWhole := hstage2_1 (((cfg2 a).slots t 1).cast nbuf2_1)
abbrev ms2 (t : Fin (cfg2 a).N) : Memref sig .tc .vmem S1x64 .f32 := spec2_2.stage ((cfg2 a).slots t 2)
abbrev hs2 (t : Fin (cfg2 a).N) : (ms2 a t).IsWhole := hstage2_2 (((cfg2 a).slots t 2).cast nbuf2_2)
abbrev ms3 (t : Fin (cfg2 a).N) : Memref sig .tc .vmem S64x64 .f32 := spec2_3.stage ((cfg2 a).slots t 3)
abbrev hs3 (t : Fin (cfg2 a).N) : (ms3 a t).IsWhole := hstage2_3 (((cfg2 a).slots t 3).cast nbuf2_3)
abbrev ms4 (t : Fin (cfg2 a).N) : Memref sig .tc .vmem S1x64 .f32 := spec2_4.stage ((cfg2 a).slots t 4)
abbrev hs4 (t : Fin (cfg2 a).N) : (ms4 a t).IsWhole := hstage2_4 (((cfg2 a).slots t 4).cast nbuf2_4)
abbrev ms5 (t : Fin (cfg2 a).N) : Memref sig .tc .vmem S1x64 .f32 := spec2_5.stage ((cfg2 a).slots t 5)
abbrev hs5 (t : Fin (cfg2 a).N) : (ms5 a t).IsWhole := hstage2_5 (((cfg2 a).slots t 5).cast nbuf2_5)
abbrev ms6 (t : Fin (cfg2 a).N) : Memref sig .tc .vmem S1x64 .f32 := spec2_6.stage ((cfg2 a).slots t 6)
abbrev hs6 (t : Fin (cfg2 a).N) : (ms6 a t).IsWhole := hstage2_6 (((cfg2 a).slots t 6).cast nbuf2_6)
/-- The three scratch buffers (the two gathered rows and the hidden row). -/
abbrev sc0 : Memref sig .tc .vmem S1x128 .f32 := Memref.whole cc2_scratch0
abbrev sc1 : Memref sig .tc .vmem S1x128 .f32 := Memref.whole cc2_scratch1
abbrev sc2 : Memref sig .tc .vmem S1x64 .f32 := Memref.whole cc2_scratch2

/-- The body's own three copy semaphores. -/
abbrev osem : Fin 3 → SemLoc sig := fun j => (![SemLoc.dma 27, SemLoc.dma 28, SemLoc.dma 29] : Fin 3 → SemLoc sig) j
theorem ownSemFacts : Pipeline.OwnSemFacts spec2 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc2_scratch3 0) 0 ∗ semVal ((c : Thread nD τ), semAt cc2_scratch3 1) 0 ∗ semVal ((c : Thread nD τ), semAt cc2_scratch3 2) 0) := by
  rw [Pipeline.ownSems0_eq_of_list c osem [0, 1, 2] (by decide) (by decide)]; rfl

/-- The grid point's coordinate. -/
abbrev crd (t : Fin (cfg2 a).N) : grid2.Coords := grid2.coords t

/-- The grid is one axis of 62500 points: the coordinate of point `t` is `t`. -/
theorem coord_val (t : Fin (cfg2 a).N) : ((crd a t) 0).val = t.val := by
  have hN : t.val < 62500 := lt_of_lt_of_eq t.isLt N_2
  show t.val / grid2.stride 0 % grid2.bound 0 = t.val
  rw [show grid2.stride 0 = 1 from by decide, Nat.div_one]
  exact Nat.mod_eq_of_lt hN

/-- The branch is taken at the first point and at no other. -/
theorem hcond (t : Fin (cfg2 a).N) : cond0_0 (grid2.coords t) ↔ t.val = 0 := by
  have hN : t.val < 62500 := lt_of_lt_of_eq t.isLt N_2
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg2 a).N) : St (F := F) c :=
  P1.stG tb0 tb1 xM hM c (cfg2 a).N (crd a) (fun t => iblk V a c 0 t) (fun t => iblk V a c 1 t) (fun t => iblk V a c 2 t) (fun t => iblk V a c 3 t) (fun t => iblk V a c 4 t) (T0 a c) (T1 a c) (V c main_arg0) (V c main_v19_0) (fun t => hp0 c (crd a t)) (fun t => hp1 c (crd a t)) n hn

/-- The hidden array before point `n` (after `n` points). -/
def hAt (c : Dev nD) (n : ℕ) (hn : n ≤ (cfg2 a).N) : Bf (F := F) c hM :=
  P1.hG tb0 tb1 xM hM c (cfg2 a).N (crd a) (fun t => iblk V a c 0 t) (fun t => iblk V a c 1 t) (fun t => iblk V a c 2 t) (fun t => iblk V a c 3 t) (fun t => iblk V a c 4 t) (T0 a c) (T1 a c) (V c main_arg0) (V c main_v19_0) (fun t => hp0 c (crd a t)) (fun t => hp1 c (crd a t)) n hn

theorem stAt_zero (c : Dev nD) (t : Fin (cfg2 a).N) (h0 : t.val = 0) :
    stAt V a hp0 hp1 c t.val t.isLt
      = (P1.sumStep tb0 tb1 xM c (cfg2 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k2_pay1 (F := F)), P1.sqStep tb0 tb1 xM c (cfg2 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k2_pay2 (F := F)),
          hNext hM c (crd a t) (V c main_v19_0) (P1.rowStep tb0 tb1 xM c (cfg2 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg2 a).N) (h0 : ¬t.val = 0) :
    stAt V a hp0 hp1 c t.val t.isLt
      = (P1.sumStep tb0 tb1 xM c (cfg2 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg2 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg2 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg2 a).N) (h0 : t.val = 0) (hn) : hAt V a hp0 hp1 c t.val hn = V c main_v19_0 := by
  obtain ⟨n, hlt⟩ := t
  cases n with
  | zero => rfl
  | succ n => exact absurd h0 (Nat.succ_ne_zero n)
theorem hAt_pos (c : Dev nD) (t : Fin (cfg2 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg2 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg2 a).N) : sProp 𝕄 :=
  iprop(Pipeline.scopedRest (Ix := Unit) (Name := ℕ) (U := Pipeline.UD sig nD τ) (Lvl := ℕ) (Val := Elt F) spec2 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg2 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec2 c [cc2_scratch0, cc2_scratch1, cc2_scratch2])
          ∗ (∃ r, prngReg c r)
          ∗ iprop(semVal ((c : Thread nD τ), semAt cc2_scratch3 0) 0 ∗ semVal ((c : Thread nD τ), semAt cc2_scratch3 1) 0 ∗ semVal ((c : Thread nD τ), semAt cc2_scratch3 2) 0)
          ∗ pt c tb0 (T0 a c) ∗ pt c tb1 (T1 a c) ∗ pt c xM (V c main_arg0) ∗ pt c hM (hAt V a hp0 hp1 c n hn)) := by
  unfold Φ1; rw [scopedRest2_split, ownSems0_eq]; simp only [sc0, sc1, sc2, owns_whole]; try rfl

def dat (c : Dev nD) : Dat τ (Elt F) Unit ℕ (Pipeline.UD sig nD τ) ℕ (cfg2 a) c where
  A w := V c (Pipeline.arrRef spec2 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg2 a).W) : (dat V a hp0 hp1 c).A w = V c (Pipeline.arrRef spec2 w) := by
  dsimp only [dat]
theorem after_0 (c : Dev nD) (t : Fin (cfg2 a).N) : (dat V a hp0 hp1 c).after 0 t = iblk V a c 0 t := by dsimp only [dat]; rfl
theorem after_1 (c : Dev nD) (t : Fin (cfg2 a).N) : (dat V a hp0 hp1 c).after 1 t = iblk V a c 1 t := by dsimp only [dat]; rfl
theorem after_2 (c : Dev nD) (t : Fin (cfg2 a).N) : (dat V a hp0 hp1 c).after 2 t = iblk V a c 2 t := by dsimp only [dat]; rfl
theorem after_3 (c : Dev nD) (t : Fin (cfg2 a).N) : (dat V a hp0 hp1 c).after 3 t = iblk V a c 3 t := by dsimp only [dat]; rfl
theorem after_4 (c : Dev nD) (t : Fin (cfg2 a).N) : (dat V a hp0 hp1 c).after 4 t = iblk V a c 4 t := by dsimp only [dat]; rfl
theorem after_5 (c : Dev nD) (t : Fin (cfg2 a).N) : (dat V a hp0 hp1 c).after 5 t = (stAt V a hp0 hp1 c t.val t.isLt).1 := by dsimp only [dat]; rfl
theorem after_6 (c : Dev nD) (t : Fin (cfg2 a).N) : (dat V a hp0 hp1 c).after 6 t = (stAt V a hp0 hp1 c t.val t.isLt).2.1 := by dsimp only [dat]; rfl
theorem before_0 (c : Dev nD) (t : Fin (cfg2 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg2 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg2 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg2 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg2 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg2 a).N) (h : t'.val + 1 < (cfg2 a).N) : ((cfg2 a).win 5).flush t' = false := by
  unfold Pipeline.Window.flush
  rw [Bool.and_eq_false_iff]; right
  rw [Bool.or_eq_false_iff]
  have h' : t'.val + 1 < (cfg2 a).grid.N := h
  exact ⟨decide_eq_false (by omega), decide_eq_false (fun ⟨_, hne⟩ => hne rfl)⟩
theorem before_5_B (c : Dev nD) (t : Fin (cfg2 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg2 a).N) (h : t'.val + 1 < (cfg2 a).N) : ((cfg2 a).win 6).flush t' = false := by
  unfold Pipeline.Window.flush
  rw [Bool.and_eq_false_iff]; right
  rw [Bool.or_eq_false_iff]
  have h' : t'.val + 1 < (cfg2 a).grid.N := h
  exact ⟨decide_eq_false (by omega), decide_eq_false (fun ⟨_, hne⟩ => hne rfl)⟩
theorem before_6_B (c : Dev nD) (t : Fin (cfg2 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg2 a).N) : Prog (TpuEff nD τ sig (Elt F) Λ₀ .tc) PUnit :=
  (cc2__pass1_kernel (grid2.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc2_scratch3)

def bodyPre (c : Dev nD) (t : Fin (cfg2 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg2 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg2 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc2_scratch3 c (grid2.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v19_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc2_scratch3 c (grid2.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W2, bigSep_W2]
  exact sound_body V a hp0 hp1 c t

end Cert.KernelIdeal.P1R2

end
-- ==== Proof.P1R2Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.P1R2Dat
import proofs.«400866_j57071525429608_2_alg».proof.Proof.Assemble

set_option maxRecDepth 16384

noncomputable section

namespace Cert.KernelIdeal.P1R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Asm (Rr L₀ lv₀)
open Cert.KernelIdeal.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid2.Coords), k2_chk1 (tw0 tb0 c i (T0 (adm 2) c))) (hp1 : ∀ c (i : grid2.Coords), k2_chk2 (tw1 tb1 c i (T1 (adm 2) c)))

/-- The unscoped buffers the body moves itself or reads as tables: no window's array. -/
def H : Finset (Ref sig .tc) := {main_arg0, main_v17, main_v18, main_v19_0}
theorem H_sub : H ⊆ Pipeline.restRefs sig spec2 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v17) ∗ pt c tb1 (W main_v18) ∗ pt c hM (W main_v19_0)) := by
  rw [BI.bigSep_eq_bigSepL_of_eq [main_arg0, main_v17, main_v18, main_v19_0] (by decide) (by decide)]; rfl

/-- The two tables held, listed. -/
theorem pref_eq (c : Dev nD) (T : (pcfgs (F := F) 2).pre.Contents (Elt F)) :
    (Pipeline.prefHeld (Ix := Unit) (Name := ℕ) (U := Pipeline.UD sig nD τ) (Lvl := ℕ) (pcfgs (F := F) 2).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 2) hp0 hp1 c (cfg2 (adm 2)).N le_rfl

/-- The entry valuation with the hidden array at its final contents: what the unscoped rest is at the exit. -/
def Vmid (c : Dev nD) : (b : Ref sig .tc) → Buf (Elt F) ((c : Thread nD τ).loc b) :=
  Function.update (Vin Win c) main_v19_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec2 c W : sProp 𝕄)
      = iprop((bigSep H fun b => ((c : Thread nD τ).loc b) ↦{fullShare} W b) ∗ (bigSep (Pipeline.restRefs sig spec2 \ H) fun b => ((c : Thread nD τ).loc b) ↦{fullShare} W b)) := by
  unfold Pipeline.unscopedRest; exact BI.bigSep_sdiff_split H_sub

set_option maxHeartbeats 4000000 in
def reg (hpd : ∀ c, pdats 2 c = dat (Vin Win) (adm 2) hp0 hp1 c)
    (hT0 : ∀ c, Vin Win c main_v17 = T0 (adm 2) c) (hT1 : ∀ c, Vin Win c main_v18 = T1 (adm 2) c)
    (hF : ∀ c w, (dat (Vin Win) (adm 2) hp0 hp1 c).arrAt w (cfg2 (adm 2)).N = Vout Wout c (Pipeline.arrRef spec2 w))
    (hrest : ∀ c b, b ∉ Finset.univ.image (Pipeline.arrRef spec2) → Vout Wout c b = Vmid adm Win hp0 hp1 c b) :
    Pipeline.RegionSeg (pcfgs (F := F)) adm pdats () defs₀ Variants.none L₀ lv₀ 2 where
  win := winFacts2.to₀
  block_pos := block_pos2
  stage_whole := stage_whole2
  K := Fin 3
  osem := osem
  ho := ownSemFacts
  hbody c := by rw [hpd c]; exact (body_obligation (Vin Win) (adm 2) hp0 hp1 c).loose
  hwaits := Pipeline.hwaits_of_owed_zero _ _ _ _ L₀ lv₀ 2 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v19_0))
  Y c := iprop((∃ r, prngReg c r) ∗ pt c tb0 (T0 (adm 2) c) ∗ pt c tb1 (T1 (adm 2) c) ∗ pt c xM (Vin Win c main_arg0) ∗ pt c hM (hEnd adm Win hp0 hp1 c))
  Z c := bigSep (Pipeline.restRefs sig spec2 \ H) fun b => ((c : Thread nD τ).loc b) ↦{fullShare} Vin Win c b
  hentry c := by
    have hsplit : (StableHlo.held (c : Thread nD τ) (Pipeline.ucRefs τ sig) (Win c) : sProp 𝕄)
        ⊢ iprop((pdats 2 c).arrays ((pdats 2 c).arrAt · 0) ∗ Pipeline.unscopedRest (Ix := Unit) (Name := ℕ) (U := Pipeline.UD sig nD τ) (Lvl := ℕ) spec2 c (Vin Win c)) := by
      have h := Pipeline.arrays_of_unscopedBufs (p := 2) (pcfgs (F := F)) adm pdats winFacts2 arr_whole2 c
        (by rw [hpd c]; exact (dat (Vin Win) (adm 2) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 2 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 2) hp0 hp1 c 0 (Nat.zero_le _)
    unfold Φ1
    rw [pref_eq, show hAt (Vin Win) (adm 2) hp0 hp1 c 0 (Nat.zero_le _) = Vin Win c main_v19_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 2) hp0 hp1 c (cfg2 (adm 2)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 2 c).arrays ((pdats 2 c).arrAt · (cfg2 (adm 2)).N) ∗ Pipeline.unscopedRest (Ix := Unit) (Name := ℕ) (U := Pipeline.UD sig nD τ) (Lvl := ℕ) spec2 c (Vmid adm Win hp0 hp1 c))
        ⊢ (StableHlo.held (c : Thread nD τ) (Pipeline.ucRefs τ sig) (Wout c) : sProp 𝕄) := by
      have h := Pipeline.unscopedBufs_of_arrays (p := 2) (pcfgs (F := F)) adm (Ix := Unit) (Name := ℕ) (U := Pipeline.UD sig nD τ) (Lvl := ℕ)
        winFacts2 arr_whole2 c pdats (by rw [hpd c]; exact (dat (Vin Win) (adm 2) hp0 hp1 c).share_full fun _ => rfl)
        (Vmid adm Win hp0 hp1 c) (Vout Wout c) ((pdats 2 c).arrAt · (cfg2 (adm 2)).N) (by rw [hpd c]; exact hF c) (hrest c)
      rw [Pipeline.unscopedBufs_held] at h; exact h
    rw [rest_split, Hpts_eq] at hjoin
    have hZ : (bigSep (Pipeline.restRefs sig spec2 \ H) fun b => ((c : Thread nD τ).loc b) ↦{fullShare} Vin Win c b : sProp 𝕄)
        = (bigSep (Pipeline.restRefs sig spec2 \ H) fun b => ((c : Thread nD τ).loc b) ↦{fullShare} Vmid adm Win hp0 hp1 c b) :=
      bigSep_congr fun b hb => by
        have hne : b ≠ main_v19_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v17 = Vin Win c main_v17 := by unfold Vmid; exact Function.update_of_ne (by decide) _ _
    have e2 : Vmid adm Win hp0 hp1 c main_v18 = Vin Win c main_v18 := by unfold Vmid; exact Function.update_of_ne (by decide) _ _
    have e3 : Vmid adm Win hp0 hp1 c main_v19_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 2 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.KernelIdeal.P1R2

end
-- ==== Proof.P1R3Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.P1Body
import proofs.«400866_j57071525429608_2_alg».proof.Proof.P1State
import proofs.«400866_j57071525429608_2_alg».proof.Proof.P1Kern

set_option maxRecDepth 100000

noncomputable section

namespace Cert.KernelIdeal.P1R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc3__pass1_kernel (F := F) = P1.kern := rfl

-- The buffer contents when the region is entered, and the admissible index tables.
variable (V : (c : Dev nD) → (b : Ref sig .tc) → Buf (Elt F) ((c : Thread nD τ).loc b))
variable (a : (pcfg3 (F := F)).Adm)

/-- The two index tables, the node-feature array and the hidden array, as the body is handed them. -/
abbrev tb0 : Memref sig .tc .smem S62500 .i32 := Memref.whole main_v20
abbrev tb1 : Memref sig .tc .smem S62500 .i32 := Memref.whole main_v21
abbrev xM : Memref sig .tc .hbm S100000x128 .f32 := Memref.whole main_arg0
abbrev hM : Memref sig .tc .hbm S62500x64 .f32 := Memref.whole main_v22_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid3.Coords), k3_chk1 (tw0 tb0 c i (T0 a c))) (hp1 : ∀ c (i : grid3.Coords), k3_chk2 (tw1 tb1 c i (T1 a c)))

/-- Window `w`'s block at point `t`, read off its array as the region finds it. -/
def iblk (c : Dev nD) (w : Fin (cfg3 a).W) (t : Fin (cfg3 a).N) : (((cfg3 a).win w).xblock ((cfg3 a).grid.coords t)).Idx → Elt F ((cfg3 a).win w).elt :=
  (((cfg3 a).win w).blk t).view.read (Elt F) (V c (Pipeline.arrRef spec3 w))

/-- Each window's current staging memref at point `t`, as the pipeline passes it to the body. -/
abbrev ms0 (t : Fin (cfg3 a).N) : Memref sig .tc .vmem S64x128 .f32 := spec3_0.stage ((cfg3 a).slots t 0)
abbrev hs0 (t : Fin (cfg3 a).N) : (ms0 a t).IsWhole := hstage3_0 (((cfg3 a).slots t 0).cast nbuf3_0)
abbrev ms1 (t : Fin (cfg3 a).N) : Memref sig .tc .vmem S64x128 .f32 := spec3_1.stage ((cfg3 a).slots t 1)
abbrev hs1 (t : Fin (cfg3 a).N) : (ms1 a t).IsWhole := hstage3_1 (((cfg3 a).slots t 1).cast nbuf3_1)
abbrev ms2 (t : Fin (cfg3 a).N) : Memref sig .tc .vmem S1x64 .f32 := spec3_2.stage ((cfg3 a).slots t 2)
abbrev hs2 (t : Fin (cfg3 a).N) : (ms2 a t).IsWhole := hstage3_2 (((cfg3 a).slots t 2).cast nbuf3_2)
abbrev ms3 (t : Fin (cfg3 a).N) : Memref sig .tc .vmem S64x64 .f32 := spec3_3.stage ((cfg3 a).slots t 3)
abbrev hs3 (t : Fin (cfg3 a).N) : (ms3 a t).IsWhole := hstage3_3 (((cfg3 a).slots t 3).cast nbuf3_3)
abbrev ms4 (t : Fin (cfg3 a).N) : Memref sig .tc .vmem S1x64 .f32 := spec3_4.stage ((cfg3 a).slots t 4)
abbrev hs4 (t : Fin (cfg3 a).N) : (ms4 a t).IsWhole := hstage3_4 (((cfg3 a).slots t 4).cast nbuf3_4)
abbrev ms5 (t : Fin (cfg3 a).N) : Memref sig .tc .vmem S1x64 .f32 := spec3_5.stage ((cfg3 a).slots t 5)
abbrev hs5 (t : Fin (cfg3 a).N) : (ms5 a t).IsWhole := hstage3_5 (((cfg3 a).slots t 5).cast nbuf3_5)
abbrev ms6 (t : Fin (cfg3 a).N) : Memref sig .tc .vmem S1x64 .f32 := spec3_6.stage ((cfg3 a).slots t 6)
abbrev hs6 (t : Fin (cfg3 a).N) : (ms6 a t).IsWhole := hstage3_6 (((cfg3 a).slots t 6).cast nbuf3_6)
/-- The three scratch buffers (the two gathered rows and the hidden row). -/
abbrev sc0 : Memref sig .tc .vmem S1x128 .f32 := Memref.whole cc3_scratch0
abbrev sc1 : Memref sig .tc .vmem S1x128 .f32 := Memref.whole cc3_scratch1
abbrev sc2 : Memref sig .tc .vmem S1x64 .f32 := Memref.whole cc3_scratch2

/-- The body's own three copy semaphores. -/
abbrev osem : Fin 3 → SemLoc sig := fun j => (![SemLoc.dma 37, SemLoc.dma 38, SemLoc.dma 39] : Fin 3 → SemLoc sig) j
theorem ownSemFacts : Pipeline.OwnSemFacts spec3 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc3_scratch3 0) 0 ∗ semVal ((c : Thread nD τ), semAt cc3_scratch3 1) 0 ∗ semVal ((c : Thread nD τ), semAt cc3_scratch3 2) 0) := by
  rw [Pipeline.ownSems0_eq_of_list c osem [0, 1, 2] (by decide) (by decide)]; rfl

/-- The grid point's coordinate. -/
abbrev crd (t : Fin (cfg3 a).N) : grid3.Coords := grid3.coords t

/-- The grid is one axis of 62500 points: the coordinate of point `t` is `t`. -/
theorem coord_val (t : Fin (cfg3 a).N) : ((crd a t) 0).val = t.val := by
  have hN : t.val < 62500 := lt_of_lt_of_eq t.isLt N_3
  show t.val / grid3.stride 0 % grid3.bound 0 = t.val
  rw [show grid3.stride 0 = 1 from by decide, Nat.div_one]
  exact Nat.mod_eq_of_lt hN

/-- The branch is taken at the first point and at no other. -/
theorem hcond (t : Fin (cfg3 a).N) : cond0_0 (grid3.coords t) ↔ t.val = 0 := by
  have hN : t.val < 62500 := lt_of_lt_of_eq t.isLt N_3
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg3 a).N) : St (F := F) c :=
  P1.stG tb0 tb1 xM hM c (cfg3 a).N (crd a) (fun t => iblk V a c 0 t) (fun t => iblk V a c 1 t) (fun t => iblk V a c 2 t) (fun t => iblk V a c 3 t) (fun t => iblk V a c 4 t) (T0 a c) (T1 a c) (V c main_arg0) (V c main_v22_0) (fun t => hp0 c (crd a t)) (fun t => hp1 c (crd a t)) n hn

/-- The hidden array before point `n` (after `n` points). -/
def hAt (c : Dev nD) (n : ℕ) (hn : n ≤ (cfg3 a).N) : Bf (F := F) c hM :=
  P1.hG tb0 tb1 xM hM c (cfg3 a).N (crd a) (fun t => iblk V a c 0 t) (fun t => iblk V a c 1 t) (fun t => iblk V a c 2 t) (fun t => iblk V a c 3 t) (fun t => iblk V a c 4 t) (T0 a c) (T1 a c) (V c main_arg0) (V c main_v22_0) (fun t => hp0 c (crd a t)) (fun t => hp1 c (crd a t)) n hn

theorem stAt_zero (c : Dev nD) (t : Fin (cfg3 a).N) (h0 : t.val = 0) :
    stAt V a hp0 hp1 c t.val t.isLt
      = (P1.sumStep tb0 tb1 xM c (cfg3 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k3_pay1 (F := F)), P1.sqStep tb0 tb1 xM c (cfg3 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k3_pay2 (F := F)),
          hNext hM c (crd a t) (V c main_v22_0) (P1.rowStep tb0 tb1 xM c (cfg3 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg3 a).N) (h0 : ¬t.val = 0) :
    stAt V a hp0 hp1 c t.val t.isLt
      = (P1.sumStep tb0 tb1 xM c (cfg3 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg3 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg3 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg3 a).N) (h0 : t.val = 0) (hn) : hAt V a hp0 hp1 c t.val hn = V c main_v22_0 := by
  obtain ⟨n, hlt⟩ := t
  cases n with
  | zero => rfl
  | succ n => exact absurd h0 (Nat.succ_ne_zero n)
theorem hAt_pos (c : Dev nD) (t : Fin (cfg3 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg3 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg3 a).N) : sProp 𝕄 :=
  iprop(Pipeline.scopedRest (Ix := Unit) (Name := ℕ) (U := Pipeline.UD sig nD τ) (Lvl := ℕ) (Val := Elt F) spec3 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg3 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec3 c [cc3_scratch0, cc3_scratch1, cc3_scratch2])
          ∗ (∃ r, prngReg c r)
          ∗ iprop(semVal ((c : Thread nD τ), semAt cc3_scratch3 0) 0 ∗ semVal ((c : Thread nD τ), semAt cc3_scratch3 1) 0 ∗ semVal ((c : Thread nD τ), semAt cc3_scratch3 2) 0)
          ∗ pt c tb0 (T0 a c) ∗ pt c tb1 (T1 a c) ∗ pt c xM (V c main_arg0) ∗ pt c hM (hAt V a hp0 hp1 c n hn)) := by
  unfold Φ1; rw [scopedRest3_split, ownSems0_eq]; simp only [sc0, sc1, sc2, owns_whole]; try rfl

def dat (c : Dev nD) : Dat τ (Elt F) Unit ℕ (Pipeline.UD sig nD τ) ℕ (cfg3 a) c where
  A w := V c (Pipeline.arrRef spec3 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg3 a).W) : (dat V a hp0 hp1 c).A w = V c (Pipeline.arrRef spec3 w) := by
  dsimp only [dat]
theorem after_0 (c : Dev nD) (t : Fin (cfg3 a).N) : (dat V a hp0 hp1 c).after 0 t = iblk V a c 0 t := by dsimp only [dat]; rfl
theorem after_1 (c : Dev nD) (t : Fin (cfg3 a).N) : (dat V a hp0 hp1 c).after 1 t = iblk V a c 1 t := by dsimp only [dat]; rfl
theorem after_2 (c : Dev nD) (t : Fin (cfg3 a).N) : (dat V a hp0 hp1 c).after 2 t = iblk V a c 2 t := by dsimp only [dat]; rfl
theorem after_3 (c : Dev nD) (t : Fin (cfg3 a).N) : (dat V a hp0 hp1 c).after 3 t = iblk V a c 3 t := by dsimp only [dat]; rfl
theorem after_4 (c : Dev nD) (t : Fin (cfg3 a).N) : (dat V a hp0 hp1 c).after 4 t = iblk V a c 4 t := by dsimp only [dat]; rfl
theorem after_5 (c : Dev nD) (t : Fin (cfg3 a).N) : (dat V a hp0 hp1 c).after 5 t = (stAt V a hp0 hp1 c t.val t.isLt).1 := by dsimp only [dat]; rfl
theorem after_6 (c : Dev nD) (t : Fin (cfg3 a).N) : (dat V a hp0 hp1 c).after 6 t = (stAt V a hp0 hp1 c t.val t.isLt).2.1 := by dsimp only [dat]; rfl
theorem before_0 (c : Dev nD) (t : Fin (cfg3 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg3 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg3 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg3 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg3 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg3 a).N) (h : t'.val + 1 < (cfg3 a).N) : ((cfg3 a).win 5).flush t' = false := by
  unfold Pipeline.Window.flush
  rw [Bool.and_eq_false_iff]; right
  rw [Bool.or_eq_false_iff]
  have h' : t'.val + 1 < (cfg3 a).grid.N := h
  exact ⟨decide_eq_false (by omega), decide_eq_false (fun ⟨_, hne⟩ => hne rfl)⟩
theorem before_5_B (c : Dev nD) (t : Fin (cfg3 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg3 a).N) (h : t'.val + 1 < (cfg3 a).N) : ((cfg3 a).win 6).flush t' = false := by
  unfold Pipeline.Window.flush
  rw [Bool.and_eq_false_iff]; right
  rw [Bool.or_eq_false_iff]
  have h' : t'.val + 1 < (cfg3 a).grid.N := h
  exact ⟨decide_eq_false (by omega), decide_eq_false (fun ⟨_, hne⟩ => hne rfl)⟩
theorem before_6_B (c : Dev nD) (t : Fin (cfg3 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg3 a).N) : Prog (TpuEff nD τ sig (Elt F) Λ₀ .tc) PUnit :=
  (cc3__pass1_kernel (grid3.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc3_scratch3)

def bodyPre (c : Dev nD) (t : Fin (cfg3 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg3 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg3 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc3_scratch3 c (grid3.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v22_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc3_scratch3 c (grid3.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W3, bigSep_W3]
  exact sound_body V a hp0 hp1 c t

end Cert.KernelIdeal.P1R3

end
-- ==== Proof.P1R3Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.P1R3Dat
import proofs.«400866_j57071525429608_2_alg».proof.Proof.Assemble

set_option maxRecDepth 16384

noncomputable section

namespace Cert.KernelIdeal.P1R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Asm (Rr L₀ lv₀)
open Cert.KernelIdeal.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid3.Coords), k3_chk1 (tw0 tb0 c i (T0 (adm 3) c))) (hp1 : ∀ c (i : grid3.Coords), k3_chk2 (tw1 tb1 c i (T1 (adm 3) c)))

/-- The unscoped buffers the body moves itself or reads as tables: no window's array. -/
def H : Finset (Ref sig .tc) := {main_arg0, main_v20, main_v21, main_v22_0}
theorem H_sub : H ⊆ Pipeline.restRefs sig spec3 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v20) ∗ pt c tb1 (W main_v21) ∗ pt c hM (W main_v22_0)) := by
  rw [BI.bigSep_eq_bigSepL_of_eq [main_arg0, main_v20, main_v21, main_v22_0] (by decide) (by decide)]; rfl

/-- The two tables held, listed. -/
theorem pref_eq (c : Dev nD) (T : (pcfgs (F := F) 3).pre.Contents (Elt F)) :
    (Pipeline.prefHeld (Ix := Unit) (Name := ℕ) (U := Pipeline.UD sig nD τ) (Lvl := ℕ) (pcfgs (F := F) 3).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 3) hp0 hp1 c (cfg3 (adm 3)).N le_rfl

/-- The entry valuation with the hidden array at its final contents: what the unscoped rest is at the exit. -/
def Vmid (c : Dev nD) : (b : Ref sig .tc) → Buf (Elt F) ((c : Thread nD τ).loc b) :=
  Function.update (Vin Win c) main_v22_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec3 c W : sProp 𝕄)
      = iprop((bigSep H fun b => ((c : Thread nD τ).loc b) ↦{fullShare} W b) ∗ (bigSep (Pipeline.restRefs sig spec3 \ H) fun b => ((c : Thread nD τ).loc b) ↦{fullShare} W b)) := by
  unfold Pipeline.unscopedRest; exact BI.bigSep_sdiff_split H_sub

set_option maxHeartbeats 4000000 in
def reg (hpd : ∀ c, pdats 3 c = dat (Vin Win) (adm 3) hp0 hp1 c)
    (hT0 : ∀ c, Vin Win c main_v20 = T0 (adm 3) c) (hT1 : ∀ c, Vin Win c main_v21 = T1 (adm 3) c)
    (hF : ∀ c w, (dat (Vin Win) (adm 3) hp0 hp1 c).arrAt w (cfg3 (adm 3)).N = Vout Wout c (Pipeline.arrRef spec3 w))
    (hrest : ∀ c b, b ∉ Finset.univ.image (Pipeline.arrRef spec3) → Vout Wout c b = Vmid adm Win hp0 hp1 c b) :
    Pipeline.RegionSeg (pcfgs (F := F)) adm pdats () defs₀ Variants.none L₀ lv₀ 3 where
  win := winFacts3.to₀
  block_pos := block_pos3
  stage_whole := stage_whole3
  K := Fin 3
  osem := osem
  ho := ownSemFacts
  hbody c := by rw [hpd c]; exact (body_obligation (Vin Win) (adm 3) hp0 hp1 c).loose
  hwaits := Pipeline.hwaits_of_owed_zero _ _ _ _ L₀ lv₀ 3 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v22_0))
  Y c := iprop((∃ r, prngReg c r) ∗ pt c tb0 (T0 (adm 3) c) ∗ pt c tb1 (T1 (adm 3) c) ∗ pt c xM (Vin Win c main_arg0) ∗ pt c hM (hEnd adm Win hp0 hp1 c))
  Z c := bigSep (Pipeline.restRefs sig spec3 \ H) fun b => ((c : Thread nD τ).loc b) ↦{fullShare} Vin Win c b
  hentry c := by
    have hsplit : (StableHlo.held (c : Thread nD τ) (Pipeline.ucRefs τ sig) (Win c) : sProp 𝕄)
        ⊢ iprop((pdats 3 c).arrays ((pdats 3 c).arrAt · 0) ∗ Pipeline.unscopedRest (Ix := Unit) (Name := ℕ) (U := Pipeline.UD sig nD τ) (Lvl := ℕ) spec3 c (Vin Win c)) := by
      have h := Pipeline.arrays_of_unscopedBufs (p := 3) (pcfgs (F := F)) adm pdats winFacts3 arr_whole3 c
        (by rw [hpd c]; exact (dat (Vin Win) (adm 3) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 3 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 3) hp0 hp1 c 0 (Nat.zero_le _)
    unfold Φ1
    rw [pref_eq, show hAt (Vin Win) (adm 3) hp0 hp1 c 0 (Nat.zero_le _) = Vin Win c main_v22_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 3) hp0 hp1 c (cfg3 (adm 3)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 3 c).arrays ((pdats 3 c).arrAt · (cfg3 (adm 3)).N) ∗ Pipeline.unscopedRest (Ix := Unit) (Name := ℕ) (U := Pipeline.UD sig nD τ) (Lvl := ℕ) spec3 c (Vmid adm Win hp0 hp1 c))
        ⊢ (StableHlo.held (c : Thread nD τ) (Pipeline.ucRefs τ sig) (Wout c) : sProp 𝕄) := by
      have h := Pipeline.unscopedBufs_of_arrays (p := 3) (pcfgs (F := F)) adm (Ix := Unit) (Name := ℕ) (U := Pipeline.UD sig nD τ) (Lvl := ℕ)
        winFacts3 arr_whole3 c pdats (by rw [hpd c]; exact (dat (Vin Win) (adm 3) hp0 hp1 c).share_full fun _ => rfl)
        (Vmid adm Win hp0 hp1 c) (Vout Wout c) ((pdats 3 c).arrAt · (cfg3 (adm 3)).N) (by rw [hpd c]; exact hF c) (hrest c)
      rw [Pipeline.unscopedBufs_held] at h; exact h
    rw [rest_split, Hpts_eq] at hjoin
    have hZ : (bigSep (Pipeline.restRefs sig spec3 \ H) fun b => ((c : Thread nD τ).loc b) ↦{fullShare} Vin Win c b : sProp 𝕄)
        = (bigSep (Pipeline.restRefs sig spec3 \ H) fun b => ((c : Thread nD τ).loc b) ↦{fullShare} Vmid adm Win hp0 hp1 c b) :=
      bigSep_congr fun b hb => by
        have hne : b ≠ main_v22_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v20 = Vin Win c main_v20 := by unfold Vmid; exact Function.update_of_ne (by decide) _ _
    have e2 : Vmid adm Win hp0 hp1 c main_v21 = Vin Win c main_v21 := by unfold Vmid; exact Function.update_of_ne (by decide) _ _
    have e3 : Vmid adm Win hp0 hp1 c main_v22_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 3 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.KernelIdeal.P1R3

end
-- ==== Proof.P1R4Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.P1Body
import proofs.«400866_j57071525429608_2_alg».proof.Proof.P1State
import proofs.«400866_j57071525429608_2_alg».proof.Proof.P1Kern

set_option maxRecDepth 100000

noncomputable section

namespace Cert.KernelIdeal.P1R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc4__pass1_kernel (F := F) = P1.kern := rfl

-- The buffer contents when the region is entered, and the admissible index tables.
variable (V : (c : Dev nD) → (b : Ref sig .tc) → Buf (Elt F) ((c : Thread nD τ).loc b))
variable (a : (pcfg4 (F := F)).Adm)

/-- The two index tables, the node-feature array and the hidden array, as the body is handed them. -/
abbrev tb0 : Memref sig .tc .smem S62500 .i32 := Memref.whole main_v23
abbrev tb1 : Memref sig .tc .smem S62500 .i32 := Memref.whole main_v24
abbrev xM : Memref sig .tc .hbm S100000x128 .f32 := Memref.whole main_arg0
abbrev hM : Memref sig .tc .hbm S62500x64 .f32 := Memref.whole main_v25_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid4.Coords), k4_chk1 (tw0 tb0 c i (T0 a c))) (hp1 : ∀ c (i : grid4.Coords), k4_chk2 (tw1 tb1 c i (T1 a c)))

/-- Window `w`'s block at point `t`, read off its array as the region finds it. -/
def iblk (c : Dev nD) (w : Fin (cfg4 a).W) (t : Fin (cfg4 a).N) : (((cfg4 a).win w).xblock ((cfg4 a).grid.coords t)).Idx → Elt F ((cfg4 a).win w).elt :=
  (((cfg4 a).win w).blk t).view.read (Elt F) (V c (Pipeline.arrRef spec4 w))

/-- Each window's current staging memref at point `t`, as the pipeline passes it to the body. -/
abbrev ms0 (t : Fin (cfg4 a).N) : Memref sig .tc .vmem S64x128 .f32 := spec4_0.stage ((cfg4 a).slots t 0)
abbrev hs0 (t : Fin (cfg4 a).N) : (ms0 a t).IsWhole := hstage4_0 (((cfg4 a).slots t 0).cast nbuf4_0)
abbrev ms1 (t : Fin (cfg4 a).N) : Memref sig .tc .vmem S64x128 .f32 := spec4_1.stage ((cfg4 a).slots t 1)
abbrev hs1 (t : Fin (cfg4 a).N) : (ms1 a t).IsWhole := hstage4_1 (((cfg4 a).slots t 1).cast nbuf4_1)
abbrev ms2 (t : Fin (cfg4 a).N) : Memref sig .tc .vmem S1x64 .f32 := spec4_2.stage ((cfg4 a).slots t 2)
abbrev hs2 (t : Fin (cfg4 a).N) : (ms2 a t).IsWhole := hstage4_2 (((cfg4 a).slots t 2).cast nbuf4_2)
abbrev ms3 (t : Fin (cfg4 a).N) : Memref sig .tc .vmem S64x64 .f32 := spec4_3.stage ((cfg4 a).slots t 3)
abbrev hs3 (t : Fin (cfg4 a).N) : (ms3 a t).IsWhole := hstage4_3 (((cfg4 a).slots t 3).cast nbuf4_3)
abbrev ms4 (t : Fin (cfg4 a).N) : Memref sig .tc .vmem S1x64 .f32 := spec4_4.stage ((cfg4 a).slots t 4)
abbrev hs4 (t : Fin (cfg4 a).N) : (ms4 a t).IsWhole := hstage4_4 (((cfg4 a).slots t 4).cast nbuf4_4)
abbrev ms5 (t : Fin (cfg4 a).N) : Memref sig .tc .vmem S1x64 .f32 := spec4_5.stage ((cfg4 a).slots t 5)
abbrev hs5 (t : Fin (cfg4 a).N) : (ms5 a t).IsWhole := hstage4_5 (((cfg4 a).slots t 5).cast nbuf4_5)
abbrev ms6 (t : Fin (cfg4 a).N) : Memref sig .tc .vmem S1x64 .f32 := spec4_6.stage ((cfg4 a).slots t 6)
abbrev hs6 (t : Fin (cfg4 a).N) : (ms6 a t).IsWhole := hstage4_6 (((cfg4 a).slots t 6).cast nbuf4_6)
/-- The three scratch buffers (the two gathered rows and the hidden row). -/
abbrev sc0 : Memref sig .tc .vmem S1x128 .f32 := Memref.whole cc4_scratch0
abbrev sc1 : Memref sig .tc .vmem S1x128 .f32 := Memref.whole cc4_scratch1
abbrev sc2 : Memref sig .tc .vmem S1x64 .f32 := Memref.whole cc4_scratch2

/-- The body's own three copy semaphores. -/
abbrev osem : Fin 3 → SemLoc sig := fun j => (![SemLoc.dma 47, SemLoc.dma 48, SemLoc.dma 49] : Fin 3 → SemLoc sig) j
theorem ownSemFacts : Pipeline.OwnSemFacts spec4 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc4_scratch3 0) 0 ∗ semVal ((c : Thread nD τ), semAt cc4_scratch3 1) 0 ∗ semVal ((c : Thread nD τ), semAt cc4_scratch3 2) 0) := by
  rw [Pipeline.ownSems0_eq_of_list c osem [0, 1, 2] (by decide) (by decide)]; rfl

/-- The grid point's coordinate. -/
abbrev crd (t : Fin (cfg4 a).N) : grid4.Coords := grid4.coords t

/-- The grid is one axis of 62500 points: the coordinate of point `t` is `t`. -/
theorem coord_val (t : Fin (cfg4 a).N) : ((crd a t) 0).val = t.val := by
  have hN : t.val < 62500 := lt_of_lt_of_eq t.isLt N_4
  show t.val / grid4.stride 0 % grid4.bound 0 = t.val
  rw [show grid4.stride 0 = 1 from by decide, Nat.div_one]
  exact Nat.mod_eq_of_lt hN

/-- The branch is taken at the first point and at no other. -/
theorem hcond (t : Fin (cfg4 a).N) : cond0_0 (grid4.coords t) ↔ t.val = 0 := by
  have hN : t.val < 62500 := lt_of_lt_of_eq t.isLt N_4
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg4 a).N) : St (F := F) c :=
  P1.stG tb0 tb1 xM hM c (cfg4 a).N (crd a) (fun t => iblk V a c 0 t) (fun t => iblk V a c 1 t) (fun t => iblk V a c 2 t) (fun t => iblk V a c 3 t) (fun t => iblk V a c 4 t) (T0 a c) (T1 a c) (V c main_arg0) (V c main_v25_0) (fun t => hp0 c (crd a t)) (fun t => hp1 c (crd a t)) n hn

/-- The hidden array before point `n` (after `n` points). -/
def hAt (c : Dev nD) (n : ℕ) (hn : n ≤ (cfg4 a).N) : Bf (F := F) c hM :=
  P1.hG tb0 tb1 xM hM c (cfg4 a).N (crd a) (fun t => iblk V a c 0 t) (fun t => iblk V a c 1 t) (fun t => iblk V a c 2 t) (fun t => iblk V a c 3 t) (fun t => iblk V a c 4 t) (T0 a c) (T1 a c) (V c main_arg0) (V c main_v25_0) (fun t => hp0 c (crd a t)) (fun t => hp1 c (crd a t)) n hn

theorem stAt_zero (c : Dev nD) (t : Fin (cfg4 a).N) (h0 : t.val = 0) :
    stAt V a hp0 hp1 c t.val t.isLt
      = (P1.sumStep tb0 tb1 xM c (cfg4 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k4_pay1 (F := F)), P1.sqStep tb0 tb1 xM c (cfg4 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k4_pay2 (F := F)),
          hNext hM c (crd a t) (V c main_v25_0) (P1.rowStep tb0 tb1 xM c (cfg4 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg4 a).N) (h0 : ¬t.val = 0) :
    stAt V a hp0 hp1 c t.val t.isLt
      = (P1.sumStep tb0 tb1 xM c (cfg4 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg4 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg4 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg4 a).N) (h0 : t.val = 0) (hn) : hAt V a hp0 hp1 c t.val hn = V c main_v25_0 := by
  obtain ⟨n, hlt⟩ := t
  cases n with
  | zero => rfl
  | succ n => exact absurd h0 (Nat.succ_ne_zero n)
theorem hAt_pos (c : Dev nD) (t : Fin (cfg4 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg4 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg4 a).N) : sProp 𝕄 :=
  iprop(Pipeline.scopedRest (Ix := Unit) (Name := ℕ) (U := Pipeline.UD sig nD τ) (Lvl := ℕ) (Val := Elt F) spec4 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg4 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec4 c [cc4_scratch0, cc4_scratch1, cc4_scratch2])
          ∗ (∃ r, prngReg c r)
          ∗ iprop(semVal ((c : Thread nD τ), semAt cc4_scratch3 0) 0 ∗ semVal ((c : Thread nD τ), semAt cc4_scratch3 1) 0 ∗ semVal ((c : Thread nD τ), semAt cc4_scratch3 2) 0)
          ∗ pt c tb0 (T0 a c) ∗ pt c tb1 (T1 a c) ∗ pt c xM (V c main_arg0) ∗ pt c hM (hAt V a hp0 hp1 c n hn)) := by
  unfold Φ1; rw [scopedRest4_split, ownSems0_eq]; simp only [sc0, sc1, sc2, owns_whole]; try rfl

def dat (c : Dev nD) : Dat τ (Elt F) Unit ℕ (Pipeline.UD sig nD τ) ℕ (cfg4 a) c where
  A w := V c (Pipeline.arrRef spec4 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg4 a).W) : (dat V a hp0 hp1 c).A w = V c (Pipeline.arrRef spec4 w) := by
  dsimp only [dat]
theorem after_0 (c : Dev nD) (t : Fin (cfg4 a).N) : (dat V a hp0 hp1 c).after 0 t = iblk V a c 0 t := by dsimp only [dat]; rfl
theorem after_1 (c : Dev nD) (t : Fin (cfg4 a).N) : (dat V a hp0 hp1 c).after 1 t = iblk V a c 1 t := by dsimp only [dat]; rfl
theorem after_2 (c : Dev nD) (t : Fin (cfg4 a).N) : (dat V a hp0 hp1 c).after 2 t = iblk V a c 2 t := by dsimp only [dat]; rfl
theorem after_3 (c : Dev nD) (t : Fin (cfg4 a).N) : (dat V a hp0 hp1 c).after 3 t = iblk V a c 3 t := by dsimp only [dat]; rfl
theorem after_4 (c : Dev nD) (t : Fin (cfg4 a).N) : (dat V a hp0 hp1 c).after 4 t = iblk V a c 4 t := by dsimp only [dat]; rfl
theorem after_5 (c : Dev nD) (t : Fin (cfg4 a).N) : (dat V a hp0 hp1 c).after 5 t = (stAt V a hp0 hp1 c t.val t.isLt).1 := by dsimp only [dat]; rfl
theorem after_6 (c : Dev nD) (t : Fin (cfg4 a).N) : (dat V a hp0 hp1 c).after 6 t = (stAt V a hp0 hp1 c t.val t.isLt).2.1 := by dsimp only [dat]; rfl
theorem before_0 (c : Dev nD) (t : Fin (cfg4 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg4 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg4 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg4 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg4 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg4 a).N) (h : t'.val + 1 < (cfg4 a).N) : ((cfg4 a).win 5).flush t' = false := by
  unfold Pipeline.Window.flush
  rw [Bool.and_eq_false_iff]; right
  rw [Bool.or_eq_false_iff]
  have h' : t'.val + 1 < (cfg4 a).grid.N := h
  exact ⟨decide_eq_false (by omega), decide_eq_false (fun ⟨_, hne⟩ => hne rfl)⟩
theorem before_5_B (c : Dev nD) (t : Fin (cfg4 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg4 a).N) (h : t'.val + 1 < (cfg4 a).N) : ((cfg4 a).win 6).flush t' = false := by
  unfold Pipeline.Window.flush
  rw [Bool.and_eq_false_iff]; right
  rw [Bool.or_eq_false_iff]
  have h' : t'.val + 1 < (cfg4 a).grid.N := h
  exact ⟨decide_eq_false (by omega), decide_eq_false (fun ⟨_, hne⟩ => hne rfl)⟩
theorem before_6_B (c : Dev nD) (t : Fin (cfg4 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg4 a).N) : Prog (TpuEff nD τ sig (Elt F) Λ₀ .tc) PUnit :=
  (cc4__pass1_kernel (grid4.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc4_scratch3)

def bodyPre (c : Dev nD) (t : Fin (cfg4 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg4 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg4 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc4_scratch3 c (grid4.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v25_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc4_scratch3 c (grid4.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W4, bigSep_W4]
  exact sound_body V a hp0 hp1 c t

end Cert.KernelIdeal.P1R4

end
-- ==== Proof.P1R4Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.P1R4Dat
import proofs.«400866_j57071525429608_2_alg».proof.Proof.Assemble

set_option maxRecDepth 16384

noncomputable section

namespace Cert.KernelIdeal.P1R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Asm (Rr L₀ lv₀)
open Cert.KernelIdeal.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid4.Coords), k4_chk1 (tw0 tb0 c i (T0 (adm 4) c))) (hp1 : ∀ c (i : grid4.Coords), k4_chk2 (tw1 tb1 c i (T1 (adm 4) c)))

/-- The unscoped buffers the body moves itself or reads as tables: no window's array. -/
def H : Finset (Ref sig .tc) := {main_arg0, main_v23, main_v24, main_v25_0}
theorem H_sub : H ⊆ Pipeline.restRefs sig spec4 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v23) ∗ pt c tb1 (W main_v24) ∗ pt c hM (W main_v25_0)) := by
  rw [BI.bigSep_eq_bigSepL_of_eq [main_arg0, main_v23, main_v24, main_v25_0] (by decide) (by decide)]; rfl

/-- The two tables held, listed. -/
theorem pref_eq (c : Dev nD) (T : (pcfgs (F := F) 4).pre.Contents (Elt F)) :
    (Pipeline.prefHeld (Ix := Unit) (Name := ℕ) (U := Pipeline.UD sig nD τ) (Lvl := ℕ) (pcfgs (F := F) 4).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 4) hp0 hp1 c (cfg4 (adm 4)).N le_rfl

/-- The entry valuation with the hidden array at its final contents: what the unscoped rest is at the exit. -/
def Vmid (c : Dev nD) : (b : Ref sig .tc) → Buf (Elt F) ((c : Thread nD τ).loc b) :=
  Function.update (Vin Win c) main_v25_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec4 c W : sProp 𝕄)
      = iprop((bigSep H fun b => ((c : Thread nD τ).loc b) ↦{fullShare} W b) ∗ (bigSep (Pipeline.restRefs sig spec4 \ H) fun b => ((c : Thread nD τ).loc b) ↦{fullShare} W b)) := by
  unfold Pipeline.unscopedRest; exact BI.bigSep_sdiff_split H_sub

set_option maxHeartbeats 4000000 in
def reg (hpd : ∀ c, pdats 4 c = dat (Vin Win) (adm 4) hp0 hp1 c)
    (hT0 : ∀ c, Vin Win c main_v23 = T0 (adm 4) c) (hT1 : ∀ c, Vin Win c main_v24 = T1 (adm 4) c)
    (hF : ∀ c w, (dat (Vin Win) (adm 4) hp0 hp1 c).arrAt w (cfg4 (adm 4)).N = Vout Wout c (Pipeline.arrRef spec4 w))
    (hrest : ∀ c b, b ∉ Finset.univ.image (Pipeline.arrRef spec4) → Vout Wout c b = Vmid adm Win hp0 hp1 c b) :
    Pipeline.RegionSeg (pcfgs (F := F)) adm pdats () defs₀ Variants.none L₀ lv₀ 4 where
  win := winFacts4.to₀
  block_pos := block_pos4
  stage_whole := stage_whole4
  K := Fin 3
  osem := osem
  ho := ownSemFacts
  hbody c := by rw [hpd c]; exact (body_obligation (Vin Win) (adm 4) hp0 hp1 c).loose
  hwaits := Pipeline.hwaits_of_owed_zero _ _ _ _ L₀ lv₀ 4 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v25_0))
  Y c := iprop((∃ r, prngReg c r) ∗ pt c tb0 (T0 (adm 4) c) ∗ pt c tb1 (T1 (adm 4) c) ∗ pt c xM (Vin Win c main_arg0) ∗ pt c hM (hEnd adm Win hp0 hp1 c))
  Z c := bigSep (Pipeline.restRefs sig spec4 \ H) fun b => ((c : Thread nD τ).loc b) ↦{fullShare} Vin Win c b
  hentry c := by
    have hsplit : (StableHlo.held (c : Thread nD τ) (Pipeline.ucRefs τ sig) (Win c) : sProp 𝕄)
        ⊢ iprop((pdats 4 c).arrays ((pdats 4 c).arrAt · 0) ∗ Pipeline.unscopedRest (Ix := Unit) (Name := ℕ) (U := Pipeline.UD sig nD τ) (Lvl := ℕ) spec4 c (Vin Win c)) := by
      have h := Pipeline.arrays_of_unscopedBufs (p := 4) (pcfgs (F := F)) adm pdats winFacts4 arr_whole4 c
        (by rw [hpd c]; exact (dat (Vin Win) (adm 4) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 4 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 4) hp0 hp1 c 0 (Nat.zero_le _)
    unfold Φ1
    rw [pref_eq, show hAt (Vin Win) (adm 4) hp0 hp1 c 0 (Nat.zero_le _) = Vin Win c main_v25_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 4) hp0 hp1 c (cfg4 (adm 4)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 4 c).arrays ((pdats 4 c).arrAt · (cfg4 (adm 4)).N) ∗ Pipeline.unscopedRest (Ix := Unit) (Name := ℕ) (U := Pipeline.UD sig nD τ) (Lvl := ℕ) spec4 c (Vmid adm Win hp0 hp1 c))
        ⊢ (StableHlo.held (c : Thread nD τ) (Pipeline.ucRefs τ sig) (Wout c) : sProp 𝕄) := by
      have h := Pipeline.unscopedBufs_of_arrays (p := 4) (pcfgs (F := F)) adm (Ix := Unit) (Name := ℕ) (U := Pipeline.UD sig nD τ) (Lvl := ℕ)
        winFacts4 arr_whole4 c pdats (by rw [hpd c]; exact (dat (Vin Win) (adm 4) hp0 hp1 c).share_full fun _ => rfl)
        (Vmid adm Win hp0 hp1 c) (Vout Wout c) ((pdats 4 c).arrAt · (cfg4 (adm 4)).N) (by rw [hpd c]; exact hF c) (hrest c)
      rw [Pipeline.unscopedBufs_held] at h; exact h
    rw [rest_split, Hpts_eq] at hjoin
    have hZ : (bigSep (Pipeline.restRefs sig spec4 \ H) fun b => ((c : Thread nD τ).loc b) ↦{fullShare} Vin Win c b : sProp 𝕄)
        = (bigSep (Pipeline.restRefs sig spec4 \ H) fun b => ((c : Thread nD τ).loc b) ↦{fullShare} Vmid adm Win hp0 hp1 c b) :=
      bigSep_congr fun b hb => by
        have hne : b ≠ main_v25_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v23 = Vin Win c main_v23 := by unfold Vmid; exact Function.update_of_ne (by decide) _ _
    have e2 : Vmid adm Win hp0 hp1 c main_v24 = Vin Win c main_v24 := by unfold Vmid; exact Function.update_of_ne (by decide) _ _
    have e3 : Vmid adm Win hp0 hp1 c main_v25_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 4 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.KernelIdeal.P1R4

end
-- ==== Proof.P1R5Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.P1Body
import proofs.«400866_j57071525429608_2_alg».proof.Proof.P1State
import proofs.«400866_j57071525429608_2_alg».proof.Proof.P1Kern

set_option maxRecDepth 100000

noncomputable section

namespace Cert.KernelIdeal.P1R5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc5__pass1_kernel (F := F) = P1.kern := rfl

-- The buffer contents when the region is entered, and the admissible index tables.
variable (V : (c : Dev nD) → (b : Ref sig .tc) → Buf (Elt F) ((c : Thread nD τ).loc b))
variable (a : (pcfg5 (F := F)).Adm)

/-- The two index tables, the node-feature array and the hidden array, as the body is handed them. -/
abbrev tb0 : Memref sig .tc .smem S62500 .i32 := Memref.whole main_v26
abbrev tb1 : Memref sig .tc .smem S62500 .i32 := Memref.whole main_v27
abbrev xM : Memref sig .tc .hbm S100000x128 .f32 := Memref.whole main_arg0
abbrev hM : Memref sig .tc .hbm S62500x64 .f32 := Memref.whole main_v28_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid5.Coords), k5_chk1 (tw0 tb0 c i (T0 a c))) (hp1 : ∀ c (i : grid5.Coords), k5_chk2 (tw1 tb1 c i (T1 a c)))

/-- Window `w`'s block at point `t`, read off its array as the region finds it. -/
def iblk (c : Dev nD) (w : Fin (cfg5 a).W) (t : Fin (cfg5 a).N) : (((cfg5 a).win w).xblock ((cfg5 a).grid.coords t)).Idx → Elt F ((cfg5 a).win w).elt :=
  (((cfg5 a).win w).blk t).view.read (Elt F) (V c (Pipeline.arrRef spec5 w))

/-- Each window's current staging memref at point `t`, as the pipeline passes it to the body. -/
abbrev ms0 (t : Fin (cfg5 a).N) : Memref sig .tc .vmem S64x128 .f32 := spec5_0.stage ((cfg5 a).slots t 0)
abbrev hs0 (t : Fin (cfg5 a).N) : (ms0 a t).IsWhole := hstage5_0 (((cfg5 a).slots t 0).cast nbuf5_0)
abbrev ms1 (t : Fin (cfg5 a).N) : Memref sig .tc .vmem S64x128 .f32 := spec5_1.stage ((cfg5 a).slots t 1)
abbrev hs1 (t : Fin (cfg5 a).N) : (ms1 a t).IsWhole := hstage5_1 (((cfg5 a).slots t 1).cast nbuf5_1)
abbrev ms2 (t : Fin (cfg5 a).N) : Memref sig .tc .vmem S1x64 .f32 := spec5_2.stage ((cfg5 a).slots t 2)
abbrev hs2 (t : Fin (cfg5 a).N) : (ms2 a t).IsWhole := hstage5_2 (((cfg5 a).slots t 2).cast nbuf5_2)
abbrev ms3 (t : Fin (cfg5 a).N) : Memref sig .tc .vmem S64x64 .f32 := spec5_3.stage ((cfg5 a).slots t 3)
abbrev hs3 (t : Fin (cfg5 a).N) : (ms3 a t).IsWhole := hstage5_3 (((cfg5 a).slots t 3).cast nbuf5_3)
abbrev ms4 (t : Fin (cfg5 a).N) : Memref sig .tc .vmem S1x64 .f32 := spec5_4.stage ((cfg5 a).slots t 4)
abbrev hs4 (t : Fin (cfg5 a).N) : (ms4 a t).IsWhole := hstage5_4 (((cfg5 a).slots t 4).cast nbuf5_4)
abbrev ms5 (t : Fin (cfg5 a).N) : Memref sig .tc .vmem S1x64 .f32 := spec5_5.stage ((cfg5 a).slots t 5)
abbrev hs5 (t : Fin (cfg5 a).N) : (ms5 a t).IsWhole := hstage5_5 (((cfg5 a).slots t 5).cast nbuf5_5)
abbrev ms6 (t : Fin (cfg5 a).N) : Memref sig .tc .vmem S1x64 .f32 := spec5_6.stage ((cfg5 a).slots t 6)
abbrev hs6 (t : Fin (cfg5 a).N) : (ms6 a t).IsWhole := hstage5_6 (((cfg5 a).slots t 6).cast nbuf5_6)
/-- The three scratch buffers (the two gathered rows and the hidden row). -/
abbrev sc0 : Memref sig .tc .vmem S1x128 .f32 := Memref.whole cc5_scratch0
abbrev sc1 : Memref sig .tc .vmem S1x128 .f32 := Memref.whole cc5_scratch1
abbrev sc2 : Memref sig .tc .vmem S1x64 .f32 := Memref.whole cc5_scratch2

/-- The body's own three copy semaphores. -/
abbrev osem : Fin 3 → SemLoc sig := fun j => (![SemLoc.dma 57, SemLoc.dma 58, SemLoc.dma 59] : Fin 3 → SemLoc sig) j
theorem ownSemFacts : Pipeline.OwnSemFacts spec5 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc5_scratch3 0) 0 ∗ semVal ((c : Thread nD τ), semAt cc5_scratch3 1) 0 ∗ semVal ((c : Thread nD τ), semAt cc5_scratch3 2) 0) := by
  rw [Pipeline.ownSems0_eq_of_list c osem [0, 1, 2] (by decide) (by decide)]; rfl

/-- The grid point's coordinate. -/
abbrev crd (t : Fin (cfg5 a).N) : grid5.Coords := grid5.coords t

/-- The grid is one axis of 62500 points: the coordinate of point `t` is `t`. -/
theorem coord_val (t : Fin (cfg5 a).N) : ((crd a t) 0).val = t.val := by
  have hN : t.val < 62500 := lt_of_lt_of_eq t.isLt N_5
  show t.val / grid5.stride 0 % grid5.bound 0 = t.val
  rw [show grid5.stride 0 = 1 from by decide, Nat.div_one]
  exact Nat.mod_eq_of_lt hN

/-- The branch is taken at the first point and at no other. -/
theorem hcond (t : Fin (cfg5 a).N) : cond0_0 (grid5.coords t) ↔ t.val = 0 := by
  have hN : t.val < 62500 := lt_of_lt_of_eq t.isLt N_5
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg5 a).N) : St (F := F) c :=
  P1.stG tb0 tb1 xM hM c (cfg5 a).N (crd a) (fun t => iblk V a c 0 t) (fun t => iblk V a c 1 t) (fun t => iblk V a c 2 t) (fun t => iblk V a c 3 t) (fun t => iblk V a c 4 t) (T0 a c) (T1 a c) (V c main_arg0) (V c main_v28_0) (fun t => hp0 c (crd a t)) (fun t => hp1 c (crd a t)) n hn

/-- The hidden array before point `n` (after `n` points). -/
def hAt (c : Dev nD) (n : ℕ) (hn : n ≤ (cfg5 a).N) : Bf (F := F) c hM :=
  P1.hG tb0 tb1 xM hM c (cfg5 a).N (crd a) (fun t => iblk V a c 0 t) (fun t => iblk V a c 1 t) (fun t => iblk V a c 2 t) (fun t => iblk V a c 3 t) (fun t => iblk V a c 4 t) (T0 a c) (T1 a c) (V c main_arg0) (V c main_v28_0) (fun t => hp0 c (crd a t)) (fun t => hp1 c (crd a t)) n hn

theorem stAt_zero (c : Dev nD) (t : Fin (cfg5 a).N) (h0 : t.val = 0) :
    stAt V a hp0 hp1 c t.val t.isLt
      = (P1.sumStep tb0 tb1 xM c (cfg5 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k5_pay1 (F := F)), P1.sqStep tb0 tb1 xM c (cfg5 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k5_pay2 (F := F)),
          hNext hM c (crd a t) (V c main_v28_0) (P1.rowStep tb0 tb1 xM c (cfg5 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg5 a).N) (h0 : ¬t.val = 0) :
    stAt V a hp0 hp1 c t.val t.isLt
      = (P1.sumStep tb0 tb1 xM c (cfg5 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg5 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg5 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg5 a).N) (h0 : t.val = 0) (hn) : hAt V a hp0 hp1 c t.val hn = V c main_v28_0 := by
  obtain ⟨n, hlt⟩ := t
  cases n with
  | zero => rfl
  | succ n => exact absurd h0 (Nat.succ_ne_zero n)
theorem hAt_pos (c : Dev nD) (t : Fin (cfg5 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg5 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg5 a).N) : sProp 𝕄 :=
  iprop(Pipeline.scopedRest (Ix := Unit) (Name := ℕ) (U := Pipeline.UD sig nD τ) (Lvl := ℕ) (Val := Elt F) spec5 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg5 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec5 c [cc5_scratch0, cc5_scratch1, cc5_scratch2])
          ∗ (∃ r, prngReg c r)
          ∗ iprop(semVal ((c : Thread nD τ), semAt cc5_scratch3 0) 0 ∗ semVal ((c : Thread nD τ), semAt cc5_scratch3 1) 0 ∗ semVal ((c : Thread nD τ), semAt cc5_scratch3 2) 0)
          ∗ pt c tb0 (T0 a c) ∗ pt c tb1 (T1 a c) ∗ pt c xM (V c main_arg0) ∗ pt c hM (hAt V a hp0 hp1 c n hn)) := by
  unfold Φ1; rw [scopedRest5_split, ownSems0_eq]; simp only [sc0, sc1, sc2, owns_whole]; try rfl

def dat (c : Dev nD) : Dat τ (Elt F) Unit ℕ (Pipeline.UD sig nD τ) ℕ (cfg5 a) c where
  A w := V c (Pipeline.arrRef spec5 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg5 a).W) : (dat V a hp0 hp1 c).A w = V c (Pipeline.arrRef spec5 w) := by
  dsimp only [dat]
theorem after_0 (c : Dev nD) (t : Fin (cfg5 a).N) : (dat V a hp0 hp1 c).after 0 t = iblk V a c 0 t := by dsimp only [dat]; rfl
theorem after_1 (c : Dev nD) (t : Fin (cfg5 a).N) : (dat V a hp0 hp1 c).after 1 t = iblk V a c 1 t := by dsimp only [dat]; rfl
theorem after_2 (c : Dev nD) (t : Fin (cfg5 a).N) : (dat V a hp0 hp1 c).after 2 t = iblk V a c 2 t := by dsimp only [dat]; rfl
theorem after_3 (c : Dev nD) (t : Fin (cfg5 a).N) : (dat V a hp0 hp1 c).after 3 t = iblk V a c 3 t := by dsimp only [dat]; rfl
theorem after_4 (c : Dev nD) (t : Fin (cfg5 a).N) : (dat V a hp0 hp1 c).after 4 t = iblk V a c 4 t := by dsimp only [dat]; rfl
theorem after_5 (c : Dev nD) (t : Fin (cfg5 a).N) : (dat V a hp0 hp1 c).after 5 t = (stAt V a hp0 hp1 c t.val t.isLt).1 := by dsimp only [dat]; rfl
theorem after_6 (c : Dev nD) (t : Fin (cfg5 a).N) : (dat V a hp0 hp1 c).after 6 t = (stAt V a hp0 hp1 c t.val t.isLt).2.1 := by dsimp only [dat]; rfl
theorem before_0 (c : Dev nD) (t : Fin (cfg5 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg5 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg5 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg5 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg5 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg5 a).N) (h : t'.val + 1 < (cfg5 a).N) : ((cfg5 a).win 5).flush t' = false := by
  unfold Pipeline.Window.flush
  rw [Bool.and_eq_false_iff]; right
  rw [Bool.or_eq_false_iff]
  have h' : t'.val + 1 < (cfg5 a).grid.N := h
  exact ⟨decide_eq_false (by omega), decide_eq_false (fun ⟨_, hne⟩ => hne rfl)⟩
theorem before_5_B (c : Dev nD) (t : Fin (cfg5 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg5 a).N) (h : t'.val + 1 < (cfg5 a).N) : ((cfg5 a).win 6).flush t' = false := by
  unfold Pipeline.Window.flush
  rw [Bool.and_eq_false_iff]; right
  rw [Bool.or_eq_false_iff]
  have h' : t'.val + 1 < (cfg5 a).grid.N := h
  exact ⟨decide_eq_false (by omega), decide_eq_false (fun ⟨_, hne⟩ => hne rfl)⟩
theorem before_6_B (c : Dev nD) (t : Fin (cfg5 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg5 a).N) : Prog (TpuEff nD τ sig (Elt F) Λ₀ .tc) PUnit :=
  (cc5__pass1_kernel (grid5.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc5_scratch3)

def bodyPre (c : Dev nD) (t : Fin (cfg5 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg5 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg5 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc5_scratch3 c (grid5.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v28_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc5_scratch3 c (grid5.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W5, bigSep_W5]
  exact sound_body V a hp0 hp1 c t

end Cert.KernelIdeal.P1R5

end
-- ==== Proof.P1R5Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.P1R5Dat
import proofs.«400866_j57071525429608_2_alg».proof.Proof.Assemble

set_option maxRecDepth 16384

noncomputable section

namespace Cert.KernelIdeal.P1R5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Asm (Rr L₀ lv₀)
open Cert.KernelIdeal.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid5.Coords), k5_chk1 (tw0 tb0 c i (T0 (adm 5) c))) (hp1 : ∀ c (i : grid5.Coords), k5_chk2 (tw1 tb1 c i (T1 (adm 5) c)))

/-- The unscoped buffers the body moves itself or reads as tables: no window's array. -/
def H : Finset (Ref sig .tc) := {main_arg0, main_v26, main_v27, main_v28_0}
theorem H_sub : H ⊆ Pipeline.restRefs sig spec5 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v26) ∗ pt c tb1 (W main_v27) ∗ pt c hM (W main_v28_0)) := by
  rw [BI.bigSep_eq_bigSepL_of_eq [main_arg0, main_v26, main_v27, main_v28_0] (by decide) (by decide)]; rfl

/-- The two tables held, listed. -/
theorem pref_eq (c : Dev nD) (T : (pcfgs (F := F) 5).pre.Contents (Elt F)) :
    (Pipeline.prefHeld (Ix := Unit) (Name := ℕ) (U := Pipeline.UD sig nD τ) (Lvl := ℕ) (pcfgs (F := F) 5).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 5) hp0 hp1 c (cfg5 (adm 5)).N le_rfl

/-- The entry valuation with the hidden array at its final contents: what the unscoped rest is at the exit. -/
def Vmid (c : Dev nD) : (b : Ref sig .tc) → Buf (Elt F) ((c : Thread nD τ).loc b) :=
  Function.update (Vin Win c) main_v28_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec5 c W : sProp 𝕄)
      = iprop((bigSep H fun b => ((c : Thread nD τ).loc b) ↦{fullShare} W b) ∗ (bigSep (Pipeline.restRefs sig spec5 \ H) fun b => ((c : Thread nD τ).loc b) ↦{fullShare} W b)) := by
  unfold Pipeline.unscopedRest; exact BI.bigSep_sdiff_split H_sub

set_option maxHeartbeats 4000000 in
def reg (hpd : ∀ c, pdats 5 c = dat (Vin Win) (adm 5) hp0 hp1 c)
    (hT0 : ∀ c, Vin Win c main_v26 = T0 (adm 5) c) (hT1 : ∀ c, Vin Win c main_v27 = T1 (adm 5) c)
    (hF : ∀ c w, (dat (Vin Win) (adm 5) hp0 hp1 c).arrAt w (cfg5 (adm 5)).N = Vout Wout c (Pipeline.arrRef spec5 w))
    (hrest : ∀ c b, b ∉ Finset.univ.image (Pipeline.arrRef spec5) → Vout Wout c b = Vmid adm Win hp0 hp1 c b) :
    Pipeline.RegionSeg (pcfgs (F := F)) adm pdats () defs₀ Variants.none L₀ lv₀ 5 where
  win := winFacts5.to₀
  block_pos := block_pos5
  stage_whole := stage_whole5
  K := Fin 3
  osem := osem
  ho := ownSemFacts
  hbody c := by rw [hpd c]; exact (body_obligation (Vin Win) (adm 5) hp0 hp1 c).loose
  hwaits := Pipeline.hwaits_of_owed_zero _ _ _ _ L₀ lv₀ 5 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v28_0))
  Y c := iprop((∃ r, prngReg c r) ∗ pt c tb0 (T0 (adm 5) c) ∗ pt c tb1 (T1 (adm 5) c) ∗ pt c xM (Vin Win c main_arg0) ∗ pt c hM (hEnd adm Win hp0 hp1 c))
  Z c := bigSep (Pipeline.restRefs sig spec5 \ H) fun b => ((c : Thread nD τ).loc b) ↦{fullShare} Vin Win c b
  hentry c := by
    have hsplit : (StableHlo.held (c : Thread nD τ) (Pipeline.ucRefs τ sig) (Win c) : sProp 𝕄)
        ⊢ iprop((pdats 5 c).arrays ((pdats 5 c).arrAt · 0) ∗ Pipeline.unscopedRest (Ix := Unit) (Name := ℕ) (U := Pipeline.UD sig nD τ) (Lvl := ℕ) spec5 c (Vin Win c)) := by
      have h := Pipeline.arrays_of_unscopedBufs (p := 5) (pcfgs (F := F)) adm pdats winFacts5 arr_whole5 c
        (by rw [hpd c]; exact (dat (Vin Win) (adm 5) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 5 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 5) hp0 hp1 c 0 (Nat.zero_le _)
    unfold Φ1
    rw [pref_eq, show hAt (Vin Win) (adm 5) hp0 hp1 c 0 (Nat.zero_le _) = Vin Win c main_v28_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 5) hp0 hp1 c (cfg5 (adm 5)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 5 c).arrays ((pdats 5 c).arrAt · (cfg5 (adm 5)).N) ∗ Pipeline.unscopedRest (Ix := Unit) (Name := ℕ) (U := Pipeline.UD sig nD τ) (Lvl := ℕ) spec5 c (Vmid adm Win hp0 hp1 c))
        ⊢ (StableHlo.held (c : Thread nD τ) (Pipeline.ucRefs τ sig) (Wout c) : sProp 𝕄) := by
      have h := Pipeline.unscopedBufs_of_arrays (p := 5) (pcfgs (F := F)) adm (Ix := Unit) (Name := ℕ) (U := Pipeline.UD sig nD τ) (Lvl := ℕ)
        winFacts5 arr_whole5 c pdats (by rw [hpd c]; exact (dat (Vin Win) (adm 5) hp0 hp1 c).share_full fun _ => rfl)
        (Vmid adm Win hp0 hp1 c) (Vout Wout c) ((pdats 5 c).arrAt · (cfg5 (adm 5)).N) (by rw [hpd c]; exact hF c) (hrest c)
      rw [Pipeline.unscopedBufs_held] at h; exact h
    rw [rest_split, Hpts_eq] at hjoin
    have hZ : (bigSep (Pipeline.restRefs sig spec5 \ H) fun b => ((c : Thread nD τ).loc b) ↦{fullShare} Vin Win c b : sProp 𝕄)
        = (bigSep (Pipeline.restRefs sig spec5 \ H) fun b => ((c : Thread nD τ).loc b) ↦{fullShare} Vmid adm Win hp0 hp1 c b) :=
      bigSep_congr fun b hb => by
        have hne : b ≠ main_v28_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v26 = Vin Win c main_v26 := by unfold Vmid; exact Function.update_of_ne (by decide) _ _
    have e2 : Vmid adm Win hp0 hp1 c main_v27 = Vin Win c main_v27 := by unfold Vmid; exact Function.update_of_ne (by decide) _ _
    have e3 : Vmid adm Win hp0 hp1 c main_v28_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 5 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.KernelIdeal.P1R5

end
-- ==== Proof.P1R6Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.P1Body
import proofs.«400866_j57071525429608_2_alg».proof.Proof.P1State
import proofs.«400866_j57071525429608_2_alg».proof.Proof.P1Kern

set_option maxRecDepth 100000

noncomputable section

namespace Cert.KernelIdeal.P1R6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc6__pass1_kernel (F := F) = P1.kern := rfl

-- The buffer contents when the region is entered, and the admissible index tables.
variable (V : (c : Dev nD) → (b : Ref sig .tc) → Buf (Elt F) ((c : Thread nD τ).loc b))
variable (a : (pcfg6 (F := F)).Adm)

/-- The two index tables, the node-feature array and the hidden array, as the body is handed them. -/
abbrev tb0 : Memref sig .tc .smem S62500 .i32 := Memref.whole main_v29
abbrev tb1 : Memref sig .tc .smem S62500 .i32 := Memref.whole main_v30
abbrev xM : Memref sig .tc .hbm S100000x128 .f32 := Memref.whole main_arg0
abbrev hM : Memref sig .tc .hbm S62500x64 .f32 := Memref.whole main_v31_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid6.Coords), k6_chk1 (tw0 tb0 c i (T0 a c))) (hp1 : ∀ c (i : grid6.Coords), k6_chk2 (tw1 tb1 c i (T1 a c)))

/-- Window `w`'s block at point `t`, read off its array as the region finds it. -/
def iblk (c : Dev nD) (w : Fin (cfg6 a).W) (t : Fin (cfg6 a).N) : (((cfg6 a).win w).xblock ((cfg6 a).grid.coords t)).Idx → Elt F ((cfg6 a).win w).elt :=
  (((cfg6 a).win w).blk t).view.read (Elt F) (V c (Pipeline.arrRef spec6 w))

/-- Each window's current staging memref at point `t`, as the pipeline passes it to the body. -/
abbrev ms0 (t : Fin (cfg6 a).N) : Memref sig .tc .vmem S64x128 .f32 := spec6_0.stage ((cfg6 a).slots t 0)
abbrev hs0 (t : Fin (cfg6 a).N) : (ms0 a t).IsWhole := hstage6_0 (((cfg6 a).slots t 0).cast nbuf6_0)
abbrev ms1 (t : Fin (cfg6 a).N) : Memref sig .tc .vmem S64x128 .f32 := spec6_1.stage ((cfg6 a).slots t 1)
abbrev hs1 (t : Fin (cfg6 a).N) : (ms1 a t).IsWhole := hstage6_1 (((cfg6 a).slots t 1).cast nbuf6_1)
abbrev ms2 (t : Fin (cfg6 a).N) : Memref sig .tc .vmem S1x64 .f32 := spec6_2.stage ((cfg6 a).slots t 2)
abbrev hs2 (t : Fin (cfg6 a).N) : (ms2 a t).IsWhole := hstage6_2 (((cfg6 a).slots t 2).cast nbuf6_2)
abbrev ms3 (t : Fin (cfg6 a).N) : Memref sig .tc .vmem S64x64 .f32 := spec6_3.stage ((cfg6 a).slots t 3)
abbrev hs3 (t : Fin (cfg6 a).N) : (ms3 a t).IsWhole := hstage6_3 (((cfg6 a).slots t 3).cast nbuf6_3)
abbrev ms4 (t : Fin (cfg6 a).N) : Memref sig .tc .vmem S1x64 .f32 := spec6_4.stage ((cfg6 a).slots t 4)
abbrev hs4 (t : Fin (cfg6 a).N) : (ms4 a t).IsWhole := hstage6_4 (((cfg6 a).slots t 4).cast nbuf6_4)
abbrev ms5 (t : Fin (cfg6 a).N) : Memref sig .tc .vmem S1x64 .f32 := spec6_5.stage ((cfg6 a).slots t 5)
abbrev hs5 (t : Fin (cfg6 a).N) : (ms5 a t).IsWhole := hstage6_5 (((cfg6 a).slots t 5).cast nbuf6_5)
abbrev ms6 (t : Fin (cfg6 a).N) : Memref sig .tc .vmem S1x64 .f32 := spec6_6.stage ((cfg6 a).slots t 6)
abbrev hs6 (t : Fin (cfg6 a).N) : (ms6 a t).IsWhole := hstage6_6 (((cfg6 a).slots t 6).cast nbuf6_6)
/-- The three scratch buffers (the two gathered rows and the hidden row). -/
abbrev sc0 : Memref sig .tc .vmem S1x128 .f32 := Memref.whole cc6_scratch0
abbrev sc1 : Memref sig .tc .vmem S1x128 .f32 := Memref.whole cc6_scratch1
abbrev sc2 : Memref sig .tc .vmem S1x64 .f32 := Memref.whole cc6_scratch2

/-- The body's own three copy semaphores. -/
abbrev osem : Fin 3 → SemLoc sig := fun j => (![SemLoc.dma 67, SemLoc.dma 68, SemLoc.dma 69] : Fin 3 → SemLoc sig) j
theorem ownSemFacts : Pipeline.OwnSemFacts spec6 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc6_scratch3 0) 0 ∗ semVal ((c : Thread nD τ), semAt cc6_scratch3 1) 0 ∗ semVal ((c : Thread nD τ), semAt cc6_scratch3 2) 0) := by
  rw [Pipeline.ownSems0_eq_of_list c osem [0, 1, 2] (by decide) (by decide)]; rfl

/-- The grid point's coordinate. -/
abbrev crd (t : Fin (cfg6 a).N) : grid6.Coords := grid6.coords t

/-- The grid is one axis of 62500 points: the coordinate of point `t` is `t`. -/
theorem coord_val (t : Fin (cfg6 a).N) : ((crd a t) 0).val = t.val := by
  have hN : t.val < 62500 := lt_of_lt_of_eq t.isLt N_6
  show t.val / grid6.stride 0 % grid6.bound 0 = t.val
  rw [show grid6.stride 0 = 1 from by decide, Nat.div_one]
  exact Nat.mod_eq_of_lt hN

/-- The branch is taken at the first point and at no other. -/
theorem hcond (t : Fin (cfg6 a).N) : cond0_0 (grid6.coords t) ↔ t.val = 0 := by
  have hN : t.val < 62500 := lt_of_lt_of_eq t.isLt N_6
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg6 a).N) : St (F := F) c :=
  P1.stG tb0 tb1 xM hM c (cfg6 a).N (crd a) (fun t => iblk V a c 0 t) (fun t => iblk V a c 1 t) (fun t => iblk V a c 2 t) (fun t => iblk V a c 3 t) (fun t => iblk V a c 4 t) (T0 a c) (T1 a c) (V c main_arg0) (V c main_v31_0) (fun t => hp0 c (crd a t)) (fun t => hp1 c (crd a t)) n hn

/-- The hidden array before point `n` (after `n` points). -/
def hAt (c : Dev nD) (n : ℕ) (hn : n ≤ (cfg6 a).N) : Bf (F := F) c hM :=
  P1.hG tb0 tb1 xM hM c (cfg6 a).N (crd a) (fun t => iblk V a c 0 t) (fun t => iblk V a c 1 t) (fun t => iblk V a c 2 t) (fun t => iblk V a c 3 t) (fun t => iblk V a c 4 t) (T0 a c) (T1 a c) (V c main_arg0) (V c main_v31_0) (fun t => hp0 c (crd a t)) (fun t => hp1 c (crd a t)) n hn

theorem stAt_zero (c : Dev nD) (t : Fin (cfg6 a).N) (h0 : t.val = 0) :
    stAt V a hp0 hp1 c t.val t.isLt
      = (P1.sumStep tb0 tb1 xM c (cfg6 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k6_pay1 (F := F)), P1.sqStep tb0 tb1 xM c (cfg6 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k6_pay2 (F := F)),
          hNext hM c (crd a t) (V c main_v31_0) (P1.rowStep tb0 tb1 xM c (cfg6 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg6 a).N) (h0 : ¬t.val = 0) :
    stAt V a hp0 hp1 c t.val t.isLt
      = (P1.sumStep tb0 tb1 xM c (cfg6 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg6 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg6 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg6 a).N) (h0 : t.val = 0) (hn) : hAt V a hp0 hp1 c t.val hn = V c main_v31_0 := by
  obtain ⟨n, hlt⟩ := t
  cases n with
  | zero => rfl
  | succ n => exact absurd h0 (Nat.succ_ne_zero n)
theorem hAt_pos (c : Dev nD) (t : Fin (cfg6 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg6 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg6 a).N) : sProp 𝕄 :=
  iprop(Pipeline.scopedRest (Ix := Unit) (Name := ℕ) (U := Pipeline.UD sig nD τ) (Lvl := ℕ) (Val := Elt F) spec6 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg6 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec6 c [cc6_scratch0, cc6_scratch1, cc6_scratch2])
          ∗ (∃ r, prngReg c r)
          ∗ iprop(semVal ((c : Thread nD τ), semAt cc6_scratch3 0) 0 ∗ semVal ((c : Thread nD τ), semAt cc6_scratch3 1) 0 ∗ semVal ((c : Thread nD τ), semAt cc6_scratch3 2) 0)
          ∗ pt c tb0 (T0 a c) ∗ pt c tb1 (T1 a c) ∗ pt c xM (V c main_arg0) ∗ pt c hM (hAt V a hp0 hp1 c n hn)) := by
  unfold Φ1; rw [scopedRest6_split, ownSems0_eq]; simp only [sc0, sc1, sc2, owns_whole]; try rfl

def dat (c : Dev nD) : Dat τ (Elt F) Unit ℕ (Pipeline.UD sig nD τ) ℕ (cfg6 a) c where
  A w := V c (Pipeline.arrRef spec6 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg6 a).W) : (dat V a hp0 hp1 c).A w = V c (Pipeline.arrRef spec6 w) := by
  dsimp only [dat]
theorem after_0 (c : Dev nD) (t : Fin (cfg6 a).N) : (dat V a hp0 hp1 c).after 0 t = iblk V a c 0 t := by dsimp only [dat]; rfl
theorem after_1 (c : Dev nD) (t : Fin (cfg6 a).N) : (dat V a hp0 hp1 c).after 1 t = iblk V a c 1 t := by dsimp only [dat]; rfl
theorem after_2 (c : Dev nD) (t : Fin (cfg6 a).N) : (dat V a hp0 hp1 c).after 2 t = iblk V a c 2 t := by dsimp only [dat]; rfl
theorem after_3 (c : Dev nD) (t : Fin (cfg6 a).N) : (dat V a hp0 hp1 c).after 3 t = iblk V a c 3 t := by dsimp only [dat]; rfl
theorem after_4 (c : Dev nD) (t : Fin (cfg6 a).N) : (dat V a hp0 hp1 c).after 4 t = iblk V a c 4 t := by dsimp only [dat]; rfl
theorem after_5 (c : Dev nD) (t : Fin (cfg6 a).N) : (dat V a hp0 hp1 c).after 5 t = (stAt V a hp0 hp1 c t.val t.isLt).1 := by dsimp only [dat]; rfl
theorem after_6 (c : Dev nD) (t : Fin (cfg6 a).N) : (dat V a hp0 hp1 c).after 6 t = (stAt V a hp0 hp1 c t.val t.isLt).2.1 := by dsimp only [dat]; rfl
theorem before_0 (c : Dev nD) (t : Fin (cfg6 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg6 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg6 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg6 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg6 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg6 a).N) (h : t'.val + 1 < (cfg6 a).N) : ((cfg6 a).win 5).flush t' = false := by
  unfold Pipeline.Window.flush
  rw [Bool.and_eq_false_iff]; right
  rw [Bool.or_eq_false_iff]
  have h' : t'.val + 1 < (cfg6 a).grid.N := h
  exact ⟨decide_eq_false (by omega), decide_eq_false (fun ⟨_, hne⟩ => hne rfl)⟩
theorem before_5_B (c : Dev nD) (t : Fin (cfg6 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg6 a).N) (h : t'.val + 1 < (cfg6 a).N) : ((cfg6 a).win 6).flush t' = false := by
  unfold Pipeline.Window.flush
  rw [Bool.and_eq_false_iff]; right
  rw [Bool.or_eq_false_iff]
  have h' : t'.val + 1 < (cfg6 a).grid.N := h
  exact ⟨decide_eq_false (by omega), decide_eq_false (fun ⟨_, hne⟩ => hne rfl)⟩
theorem before_6_B (c : Dev nD) (t : Fin (cfg6 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg6 a).N) : Prog (TpuEff nD τ sig (Elt F) Λ₀ .tc) PUnit :=
  (cc6__pass1_kernel (grid6.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc6_scratch3)

def bodyPre (c : Dev nD) (t : Fin (cfg6 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg6 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg6 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc6_scratch3 c (grid6.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v31_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc6_scratch3 c (grid6.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W6, bigSep_W6]
  exact sound_body V a hp0 hp1 c t

end Cert.KernelIdeal.P1R6

end
-- ==== Proof.P1R6Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.P1R6Dat
import proofs.«400866_j57071525429608_2_alg».proof.Proof.Assemble

set_option maxRecDepth 16384

noncomputable section

namespace Cert.KernelIdeal.P1R6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Asm (Rr L₀ lv₀)
open Cert.KernelIdeal.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid6.Coords), k6_chk1 (tw0 tb0 c i (T0 (adm 6) c))) (hp1 : ∀ c (i : grid6.Coords), k6_chk2 (tw1 tb1 c i (T1 (adm 6) c)))

/-- The unscoped buffers the body moves itself or reads as tables: no window's array. -/
def H : Finset (Ref sig .tc) := {main_arg0, main_v29, main_v30, main_v31_0}
theorem H_sub : H ⊆ Pipeline.restRefs sig spec6 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v29) ∗ pt c tb1 (W main_v30) ∗ pt c hM (W main_v31_0)) := by
  rw [BI.bigSep_eq_bigSepL_of_eq [main_arg0, main_v29, main_v30, main_v31_0] (by decide) (by decide)]; rfl

/-- The two tables held, listed. -/
theorem pref_eq (c : Dev nD) (T : (pcfgs (F := F) 6).pre.Contents (Elt F)) :
    (Pipeline.prefHeld (Ix := Unit) (Name := ℕ) (U := Pipeline.UD sig nD τ) (Lvl := ℕ) (pcfgs (F := F) 6).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 6) hp0 hp1 c (cfg6 (adm 6)).N le_rfl

/-- The entry valuation with the hidden array at its final contents: what the unscoped rest is at the exit. -/
def Vmid (c : Dev nD) : (b : Ref sig .tc) → Buf (Elt F) ((c : Thread nD τ).loc b) :=
  Function.update (Vin Win c) main_v31_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec6 c W : sProp 𝕄)
      = iprop((bigSep H fun b => ((c : Thread nD τ).loc b) ↦{fullShare} W b) ∗ (bigSep (Pipeline.restRefs sig spec6 \ H) fun b => ((c : Thread nD τ).loc b) ↦{fullShare} W b)) := by
  unfold Pipeline.unscopedRest; exact BI.bigSep_sdiff_split H_sub

set_option maxHeartbeats 4000000 in
def reg (hpd : ∀ c, pdats 6 c = dat (Vin Win) (adm 6) hp0 hp1 c)
    (hT0 : ∀ c, Vin Win c main_v29 = T0 (adm 6) c) (hT1 : ∀ c, Vin Win c main_v30 = T1 (adm 6) c)
    (hF : ∀ c w, (dat (Vin Win) (adm 6) hp0 hp1 c).arrAt w (cfg6 (adm 6)).N = Vout Wout c (Pipeline.arrRef spec6 w))
    (hrest : ∀ c b, b ∉ Finset.univ.image (Pipeline.arrRef spec6) → Vout Wout c b = Vmid adm Win hp0 hp1 c b) :
    Pipeline.RegionSeg (pcfgs (F := F)) adm pdats () defs₀ Variants.none L₀ lv₀ 6 where
  win := winFacts6.to₀
  block_pos := block_pos6
  stage_whole := stage_whole6
  K := Fin 3
  osem := osem
  ho := ownSemFacts
  hbody c := by rw [hpd c]; exact (body_obligation (Vin Win) (adm 6) hp0 hp1 c).loose
  hwaits := Pipeline.hwaits_of_owed_zero _ _ _ _ L₀ lv₀ 6 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v31_0))
  Y c := iprop((∃ r, prngReg c r) ∗ pt c tb0 (T0 (adm 6) c) ∗ pt c tb1 (T1 (adm 6) c) ∗ pt c xM (Vin Win c main_arg0) ∗ pt c hM (hEnd adm Win hp0 hp1 c))
  Z c := bigSep (Pipeline.restRefs sig spec6 \ H) fun b => ((c : Thread nD τ).loc b) ↦{fullShare} Vin Win c b
  hentry c := by
    have hsplit : (StableHlo.held (c : Thread nD τ) (Pipeline.ucRefs τ sig) (Win c) : sProp 𝕄)
        ⊢ iprop((pdats 6 c).arrays ((pdats 6 c).arrAt · 0) ∗ Pipeline.unscopedRest (Ix := Unit) (Name := ℕ) (U := Pipeline.UD sig nD τ) (Lvl := ℕ) spec6 c (Vin Win c)) := by
      have h := Pipeline.arrays_of_unscopedBufs (p := 6) (pcfgs (F := F)) adm pdats winFacts6 arr_whole6 c
        (by rw [hpd c]; exact (dat (Vin Win) (adm 6) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 6 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 6) hp0 hp1 c 0 (Nat.zero_le _)
    unfold Φ1
    rw [pref_eq, show hAt (Vin Win) (adm 6) hp0 hp1 c 0 (Nat.zero_le _) = Vin Win c main_v31_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 6) hp0 hp1 c (cfg6 (adm 6)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 6 c).arrays ((pdats 6 c).arrAt · (cfg6 (adm 6)).N) ∗ Pipeline.unscopedRest (Ix := Unit) (Name := ℕ) (U := Pipeline.UD sig nD τ) (Lvl := ℕ) spec6 c (Vmid adm Win hp0 hp1 c))
        ⊢ (StableHlo.held (c : Thread nD τ) (Pipeline.ucRefs τ sig) (Wout c) : sProp 𝕄) := by
      have h := Pipeline.unscopedBufs_of_arrays (p := 6) (pcfgs (F := F)) adm (Ix := Unit) (Name := ℕ) (U := Pipeline.UD sig nD τ) (Lvl := ℕ)
        winFacts6 arr_whole6 c pdats (by rw [hpd c]; exact (dat (Vin Win) (adm 6) hp0 hp1 c).share_full fun _ => rfl)
        (Vmid adm Win hp0 hp1 c) (Vout Wout c) ((pdats 6 c).arrAt · (cfg6 (adm 6)).N) (by rw [hpd c]; exact hF c) (hrest c)
      rw [Pipeline.unscopedBufs_held] at h; exact h
    rw [rest_split, Hpts_eq] at hjoin
    have hZ : (bigSep (Pipeline.restRefs sig spec6 \ H) fun b => ((c : Thread nD τ).loc b) ↦{fullShare} Vin Win c b : sProp 𝕄)
        = (bigSep (Pipeline.restRefs sig spec6 \ H) fun b => ((c : Thread nD τ).loc b) ↦{fullShare} Vmid adm Win hp0 hp1 c b) :=
      bigSep_congr fun b hb => by
        have hne : b ≠ main_v31_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v29 = Vin Win c main_v29 := by unfold Vmid; exact Function.update_of_ne (by decide) _ _
    have e2 : Vmid adm Win hp0 hp1 c main_v30 = Vin Win c main_v30 := by unfold Vmid; exact Function.update_of_ne (by decide) _ _
    have e3 : Vmid adm Win hp0 hp1 c main_v31_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 6 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.KernelIdeal.P1R6

end
-- ==== Proof.P1R7Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.P1Body
import proofs.«400866_j57071525429608_2_alg».proof.Proof.P1State
import proofs.«400866_j57071525429608_2_alg».proof.Proof.P1Kern

set_option maxRecDepth 100000

noncomputable section

namespace Cert.KernelIdeal.P1R7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc7__pass1_kernel (F := F) = P1.kern := rfl

-- The buffer contents when the region is entered, and the admissible index tables.
variable (V : (c : Dev nD) → (b : Ref sig .tc) → Buf (Elt F) ((c : Thread nD τ).loc b))
variable (a : (pcfg7 (F := F)).Adm)

/-- The two index tables, the node-feature array and the hidden array, as the body is handed them. -/
abbrev tb0 : Memref sig .tc .smem S62500 .i32 := Memref.whole main_v32
abbrev tb1 : Memref sig .tc .smem S62500 .i32 := Memref.whole main_v33
abbrev xM : Memref sig .tc .hbm S100000x128 .f32 := Memref.whole main_arg0
abbrev hM : Memref sig .tc .hbm S62500x64 .f32 := Memref.whole main_v34_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid7.Coords), k7_chk1 (tw0 tb0 c i (T0 a c))) (hp1 : ∀ c (i : grid7.Coords), k7_chk2 (tw1 tb1 c i (T1 a c)))

/-- Window `w`'s block at point `t`, read off its array as the region finds it. -/
def iblk (c : Dev nD) (w : Fin (cfg7 a).W) (t : Fin (cfg7 a).N) : (((cfg7 a).win w).xblock ((cfg7 a).grid.coords t)).Idx → Elt F ((cfg7 a).win w).elt :=
  (((cfg7 a).win w).blk t).view.read (Elt F) (V c (Pipeline.arrRef spec7 w))

/-- Each window's current staging memref at point `t`, as the pipeline passes it to the body. -/
abbrev ms0 (t : Fin (cfg7 a).N) : Memref sig .tc .vmem S64x128 .f32 := spec7_0.stage ((cfg7 a).slots t 0)
abbrev hs0 (t : Fin (cfg7 a).N) : (ms0 a t).IsWhole := hstage7_0 (((cfg7 a).slots t 0).cast nbuf7_0)
abbrev ms1 (t : Fin (cfg7 a).N) : Memref sig .tc .vmem S64x128 .f32 := spec7_1.stage ((cfg7 a).slots t 1)
abbrev hs1 (t : Fin (cfg7 a).N) : (ms1 a t).IsWhole := hstage7_1 (((cfg7 a).slots t 1).cast nbuf7_1)
abbrev ms2 (t : Fin (cfg7 a).N) : Memref sig .tc .vmem S1x64 .f32 := spec7_2.stage ((cfg7 a).slots t 2)
abbrev hs2 (t : Fin (cfg7 a).N) : (ms2 a t).IsWhole := hstage7_2 (((cfg7 a).slots t 2).cast nbuf7_2)
abbrev ms3 (t : Fin (cfg7 a).N) : Memref sig .tc .vmem S64x64 .f32 := spec7_3.stage ((cfg7 a).slots t 3)
abbrev hs3 (t : Fin (cfg7 a).N) : (ms3 a t).IsWhole := hstage7_3 (((cfg7 a).slots t 3).cast nbuf7_3)
abbrev ms4 (t : Fin (cfg7 a).N) : Memref sig .tc .vmem S1x64 .f32 := spec7_4.stage ((cfg7 a).slots t 4)
abbrev hs4 (t : Fin (cfg7 a).N) : (ms4 a t).IsWhole := hstage7_4 (((cfg7 a).slots t 4).cast nbuf7_4)
abbrev ms5 (t : Fin (cfg7 a).N) : Memref sig .tc .vmem S1x64 .f32 := spec7_5.stage ((cfg7 a).slots t 5)
abbrev hs5 (t : Fin (cfg7 a).N) : (ms5 a t).IsWhole := hstage7_5 (((cfg7 a).slots t 5).cast nbuf7_5)
abbrev ms6 (t : Fin (cfg7 a).N) : Memref sig .tc .vmem S1x64 .f32 := spec7_6.stage ((cfg7 a).slots t 6)
abbrev hs6 (t : Fin (cfg7 a).N) : (ms6 a t).IsWhole := hstage7_6 (((cfg7 a).slots t 6).cast nbuf7_6)
/-- The three scratch buffers (the two gathered rows and the hidden row). -/
abbrev sc0 : Memref sig .tc .vmem S1x128 .f32 := Memref.whole cc7_scratch0
abbrev sc1 : Memref sig .tc .vmem S1x128 .f32 := Memref.whole cc7_scratch1
abbrev sc2 : Memref sig .tc .vmem S1x64 .f32 := Memref.whole cc7_scratch2

/-- The body's own three copy semaphores. -/
abbrev osem : Fin 3 → SemLoc sig := fun j => (![SemLoc.dma 77, SemLoc.dma 78, SemLoc.dma 79] : Fin 3 → SemLoc sig) j
theorem ownSemFacts : Pipeline.OwnSemFacts spec7 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc7_scratch3 0) 0 ∗ semVal ((c : Thread nD τ), semAt cc7_scratch3 1) 0 ∗ semVal ((c : Thread nD τ), semAt cc7_scratch3 2) 0) := by
  rw [Pipeline.ownSems0_eq_of_list c osem [0, 1, 2] (by decide) (by decide)]; rfl

/-- The grid point's coordinate. -/
abbrev crd (t : Fin (cfg7 a).N) : grid7.Coords := grid7.coords t

/-- The grid is one axis of 62500 points: the coordinate of point `t` is `t`. -/
theorem coord_val (t : Fin (cfg7 a).N) : ((crd a t) 0).val = t.val := by
  have hN : t.val < 62500 := lt_of_lt_of_eq t.isLt N_7
  show t.val / grid7.stride 0 % grid7.bound 0 = t.val
  rw [show grid7.stride 0 = 1 from by decide, Nat.div_one]
  exact Nat.mod_eq_of_lt hN

/-- The branch is taken at the first point and at no other. -/
theorem hcond (t : Fin (cfg7 a).N) : cond0_0 (grid7.coords t) ↔ t.val = 0 := by
  have hN : t.val < 62500 := lt_of_lt_of_eq t.isLt N_7
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg7 a).N) : St (F := F) c :=
  P1.stG tb0 tb1 xM hM c (cfg7 a).N (crd a) (fun t => iblk V a c 0 t) (fun t => iblk V a c 1 t) (fun t => iblk V a c 2 t) (fun t => iblk V a c 3 t) (fun t => iblk V a c 4 t) (T0 a c) (T1 a c) (V c main_arg0) (V c main_v34_0) (fun t => hp0 c (crd a t)) (fun t => hp1 c (crd a t)) n hn

/-- The hidden array before point `n` (after `n` points). -/
def hAt (c : Dev nD) (n : ℕ) (hn : n ≤ (cfg7 a).N) : Bf (F := F) c hM :=
  P1.hG tb0 tb1 xM hM c (cfg7 a).N (crd a) (fun t => iblk V a c 0 t) (fun t => iblk V a c 1 t) (fun t => iblk V a c 2 t) (fun t => iblk V a c 3 t) (fun t => iblk V a c 4 t) (T0 a c) (T1 a c) (V c main_arg0) (V c main_v34_0) (fun t => hp0 c (crd a t)) (fun t => hp1 c (crd a t)) n hn

theorem stAt_zero (c : Dev nD) (t : Fin (cfg7 a).N) (h0 : t.val = 0) :
    stAt V a hp0 hp1 c t.val t.isLt
      = (P1.sumStep tb0 tb1 xM c (cfg7 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k7_pay1 (F := F)), P1.sqStep tb0 tb1 xM c (cfg7 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k7_pay2 (F := F)),
          hNext hM c (crd a t) (V c main_v34_0) (P1.rowStep tb0 tb1 xM c (cfg7 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg7 a).N) (h0 : ¬t.val = 0) :
    stAt V a hp0 hp1 c t.val t.isLt
      = (P1.sumStep tb0 tb1 xM c (cfg7 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg7 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg7 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg7 a).N) (h0 : t.val = 0) (hn) : hAt V a hp0 hp1 c t.val hn = V c main_v34_0 := by
  obtain ⟨n, hlt⟩ := t
  cases n with
  | zero => rfl
  | succ n => exact absurd h0 (Nat.succ_ne_zero n)
theorem hAt_pos (c : Dev nD) (t : Fin (cfg7 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg7 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg7 a).N) : sProp 𝕄 :=
  iprop(Pipeline.scopedRest (Ix := Unit) (Name := ℕ) (U := Pipeline.UD sig nD τ) (Lvl := ℕ) (Val := Elt F) spec7 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg7 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec7 c [cc7_scratch0, cc7_scratch1, cc7_scratch2])
          ∗ (∃ r, prngReg c r)
          ∗ iprop(semVal ((c : Thread nD τ), semAt cc7_scratch3 0) 0 ∗ semVal ((c : Thread nD τ), semAt cc7_scratch3 1) 0 ∗ semVal ((c : Thread nD τ), semAt cc7_scratch3 2) 0)
          ∗ pt c tb0 (T0 a c) ∗ pt c tb1 (T1 a c) ∗ pt c xM (V c main_arg0) ∗ pt c hM (hAt V a hp0 hp1 c n hn)) := by
  unfold Φ1; rw [scopedRest7_split, ownSems0_eq]; simp only [sc0, sc1, sc2, owns_whole]; try rfl

def dat (c : Dev nD) : Dat τ (Elt F) Unit ℕ (Pipeline.UD sig nD τ) ℕ (cfg7 a) c where
  A w := V c (Pipeline.arrRef spec7 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg7 a).W) : (dat V a hp0 hp1 c).A w = V c (Pipeline.arrRef spec7 w) := by
  dsimp only [dat]
theorem after_0 (c : Dev nD) (t : Fin (cfg7 a).N) : (dat V a hp0 hp1 c).after 0 t = iblk V a c 0 t := by dsimp only [dat]; rfl
theorem after_1 (c : Dev nD) (t : Fin (cfg7 a).N) : (dat V a hp0 hp1 c).after 1 t = iblk V a c 1 t := by dsimp only [dat]; rfl
theorem after_2 (c : Dev nD) (t : Fin (cfg7 a).N) : (dat V a hp0 hp1 c).after 2 t = iblk V a c 2 t := by dsimp only [dat]; rfl
theorem after_3 (c : Dev nD) (t : Fin (cfg7 a).N) : (dat V a hp0 hp1 c).after 3 t = iblk V a c 3 t := by dsimp only [dat]; rfl
theorem after_4 (c : Dev nD) (t : Fin (cfg7 a).N) : (dat V a hp0 hp1 c).after 4 t = iblk V a c 4 t := by dsimp only [dat]; rfl
theorem after_5 (c : Dev nD) (t : Fin (cfg7 a).N) : (dat V a hp0 hp1 c).after 5 t = (stAt V a hp0 hp1 c t.val t.isLt).1 := by dsimp only [dat]; rfl
theorem after_6 (c : Dev nD) (t : Fin (cfg7 a).N) : (dat V a hp0 hp1 c).after 6 t = (stAt V a hp0 hp1 c t.val t.isLt).2.1 := by dsimp only [dat]; rfl
theorem before_0 (c : Dev nD) (t : Fin (cfg7 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg7 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg7 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg7 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg7 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg7 a).N) (h : t'.val + 1 < (cfg7 a).N) : ((cfg7 a).win 5).flush t' = false := by
  unfold Pipeline.Window.flush
  rw [Bool.and_eq_false_iff]; right
  rw [Bool.or_eq_false_iff]
  have h' : t'.val + 1 < (cfg7 a).grid.N := h
  exact ⟨decide_eq_false (by omega), decide_eq_false (fun ⟨_, hne⟩ => hne rfl)⟩
theorem before_5_B (c : Dev nD) (t : Fin (cfg7 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg7 a).N) (h : t'.val + 1 < (cfg7 a).N) : ((cfg7 a).win 6).flush t' = false := by
  unfold Pipeline.Window.flush
  rw [Bool.and_eq_false_iff]; right
  rw [Bool.or_eq_false_iff]
  have h' : t'.val + 1 < (cfg7 a).grid.N := h
  exact ⟨decide_eq_false (by omega), decide_eq_false (fun ⟨_, hne⟩ => hne rfl)⟩
theorem before_6_B (c : Dev nD) (t : Fin (cfg7 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg7 a).N) : Prog (TpuEff nD τ sig (Elt F) Λ₀ .tc) PUnit :=
  (cc7__pass1_kernel (grid7.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc7_scratch3)

def bodyPre (c : Dev nD) (t : Fin (cfg7 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg7 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg7 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc7_scratch3 c (grid7.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v34_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc7_scratch3 c (grid7.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W7, bigSep_W7]
  exact sound_body V a hp0 hp1 c t

end Cert.KernelIdeal.P1R7

end
-- ==== Proof.P1R7Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.P1R7Dat
import proofs.«400866_j57071525429608_2_alg».proof.Proof.Assemble

set_option maxRecDepth 16384

noncomputable section

namespace Cert.KernelIdeal.P1R7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Asm (Rr L₀ lv₀)
open Cert.KernelIdeal.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid7.Coords), k7_chk1 (tw0 tb0 c i (T0 (adm 7) c))) (hp1 : ∀ c (i : grid7.Coords), k7_chk2 (tw1 tb1 c i (T1 (adm 7) c)))

/-- The unscoped buffers the body moves itself or reads as tables: no window's array. -/
def H : Finset (Ref sig .tc) := {main_arg0, main_v32, main_v33, main_v34_0}
theorem H_sub : H ⊆ Pipeline.restRefs sig spec7 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v32) ∗ pt c tb1 (W main_v33) ∗ pt c hM (W main_v34_0)) := by
  rw [BI.bigSep_eq_bigSepL_of_eq [main_arg0, main_v32, main_v33, main_v34_0] (by decide) (by decide)]; rfl

/-- The two tables held, listed. -/
theorem pref_eq (c : Dev nD) (T : (pcfgs (F := F) 7).pre.Contents (Elt F)) :
    (Pipeline.prefHeld (Ix := Unit) (Name := ℕ) (U := Pipeline.UD sig nD τ) (Lvl := ℕ) (pcfgs (F := F) 7).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 7) hp0 hp1 c (cfg7 (adm 7)).N le_rfl

/-- The entry valuation with the hidden array at its final contents: what the unscoped rest is at the exit. -/
def Vmid (c : Dev nD) : (b : Ref sig .tc) → Buf (Elt F) ((c : Thread nD τ).loc b) :=
  Function.update (Vin Win c) main_v34_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec7 c W : sProp 𝕄)
      = iprop((bigSep H fun b => ((c : Thread nD τ).loc b) ↦{fullShare} W b) ∗ (bigSep (Pipeline.restRefs sig spec7 \ H) fun b => ((c : Thread nD τ).loc b) ↦{fullShare} W b)) := by
  unfold Pipeline.unscopedRest; exact BI.bigSep_sdiff_split H_sub

set_option maxHeartbeats 4000000 in
def reg (hpd : ∀ c, pdats 7 c = dat (Vin Win) (adm 7) hp0 hp1 c)
    (hT0 : ∀ c, Vin Win c main_v32 = T0 (adm 7) c) (hT1 : ∀ c, Vin Win c main_v33 = T1 (adm 7) c)
    (hF : ∀ c w, (dat (Vin Win) (adm 7) hp0 hp1 c).arrAt w (cfg7 (adm 7)).N = Vout Wout c (Pipeline.arrRef spec7 w))
    (hrest : ∀ c b, b ∉ Finset.univ.image (Pipeline.arrRef spec7) → Vout Wout c b = Vmid adm Win hp0 hp1 c b) :
    Pipeline.RegionSeg (pcfgs (F := F)) adm pdats () defs₀ Variants.none L₀ lv₀ 7 where
  win := winFacts7.to₀
  block_pos := block_pos7
  stage_whole := stage_whole7
  K := Fin 3
  osem := osem
  ho := ownSemFacts
  hbody c := by rw [hpd c]; exact (body_obligation (Vin Win) (adm 7) hp0 hp1 c).loose
  hwaits := Pipeline.hwaits_of_owed_zero _ _ _ _ L₀ lv₀ 7 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v34_0))
  Y c := iprop((∃ r, prngReg c r) ∗ pt c tb0 (T0 (adm 7) c) ∗ pt c tb1 (T1 (adm 7) c) ∗ pt c xM (Vin Win c main_arg0) ∗ pt c hM (hEnd adm Win hp0 hp1 c))
  Z c := bigSep (Pipeline.restRefs sig spec7 \ H) fun b => ((c : Thread nD τ).loc b) ↦{fullShare} Vin Win c b
  hentry c := by
    have hsplit : (StableHlo.held (c : Thread nD τ) (Pipeline.ucRefs τ sig) (Win c) : sProp 𝕄)
        ⊢ iprop((pdats 7 c).arrays ((pdats 7 c).arrAt · 0) ∗ Pipeline.unscopedRest (Ix := Unit) (Name := ℕ) (U := Pipeline.UD sig nD τ) (Lvl := ℕ) spec7 c (Vin Win c)) := by
      have h := Pipeline.arrays_of_unscopedBufs (p := 7) (pcfgs (F := F)) adm pdats winFacts7 arr_whole7 c
        (by rw [hpd c]; exact (dat (Vin Win) (adm 7) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 7 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 7) hp0 hp1 c 0 (Nat.zero_le _)
    unfold Φ1
    rw [pref_eq, show hAt (Vin Win) (adm 7) hp0 hp1 c 0 (Nat.zero_le _) = Vin Win c main_v34_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 7) hp0 hp1 c (cfg7 (adm 7)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 7 c).arrays ((pdats 7 c).arrAt · (cfg7 (adm 7)).N) ∗ Pipeline.unscopedRest (Ix := Unit) (Name := ℕ) (U := Pipeline.UD sig nD τ) (Lvl := ℕ) spec7 c (Vmid adm Win hp0 hp1 c))
        ⊢ (StableHlo.held (c : Thread nD τ) (Pipeline.ucRefs τ sig) (Wout c) : sProp 𝕄) := by
      have h := Pipeline.unscopedBufs_of_arrays (p := 7) (pcfgs (F := F)) adm (Ix := Unit) (Name := ℕ) (U := Pipeline.UD sig nD τ) (Lvl := ℕ)
        winFacts7 arr_whole7 c pdats (by rw [hpd c]; exact (dat (Vin Win) (adm 7) hp0 hp1 c).share_full fun _ => rfl)
        (Vmid adm Win hp0 hp1 c) (Vout Wout c) ((pdats 7 c).arrAt · (cfg7 (adm 7)).N) (by rw [hpd c]; exact hF c) (hrest c)
      rw [Pipeline.unscopedBufs_held] at h; exact h
    rw [rest_split, Hpts_eq] at hjoin
    have hZ : (bigSep (Pipeline.restRefs sig spec7 \ H) fun b => ((c : Thread nD τ).loc b) ↦{fullShare} Vin Win c b : sProp 𝕄)
        = (bigSep (Pipeline.restRefs sig spec7 \ H) fun b => ((c : Thread nD τ).loc b) ↦{fullShare} Vmid adm Win hp0 hp1 c b) :=
      bigSep_congr fun b hb => by
        have hne : b ≠ main_v34_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v32 = Vin Win c main_v32 := by unfold Vmid; exact Function.update_of_ne (by decide) _ _
    have e2 : Vmid adm Win hp0 hp1 c main_v33 = Vin Win c main_v33 := by unfold Vmid; exact Function.update_of_ne (by decide) _ _
    have e3 : Vmid adm Win hp0 hp1 c main_v34_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 7 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.KernelIdeal.P1R7

end
-- ==== Proof.P1R8Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.P1Body
import proofs.«400866_j57071525429608_2_alg».proof.Proof.P1State
import proofs.«400866_j57071525429608_2_alg».proof.Proof.P1Kern

set_option maxRecDepth 100000

noncomputable section

namespace Cert.KernelIdeal.P1R8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc8__pass1_kernel (F := F) = P1.kern := rfl

-- The buffer contents when the region is entered, and the admissible index tables.
variable (V : (c : Dev nD) → (b : Ref sig .tc) → Buf (Elt F) ((c : Thread nD τ).loc b))
variable (a : (pcfg8 (F := F)).Adm)

/-- The two index tables, the node-feature array and the hidden array, as the body is handed them. -/
abbrev tb0 : Memref sig .tc .smem S62500 .i32 := Memref.whole main_v35
abbrev tb1 : Memref sig .tc .smem S62500 .i32 := Memref.whole main_v36
abbrev xM : Memref sig .tc .hbm S100000x128 .f32 := Memref.whole main_arg0
abbrev hM : Memref sig .tc .hbm S62500x64 .f32 := Memref.whole main_v37_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid8.Coords), k8_chk1 (tw0 tb0 c i (T0 a c))) (hp1 : ∀ c (i : grid8.Coords), k8_chk2 (tw1 tb1 c i (T1 a c)))

/-- Window `w`'s block at point `t`, read off its array as the region finds it. -/
def iblk (c : Dev nD) (w : Fin (cfg8 a).W) (t : Fin (cfg8 a).N) : (((cfg8 a).win w).xblock ((cfg8 a).grid.coords t)).Idx → Elt F ((cfg8 a).win w).elt :=
  (((cfg8 a).win w).blk t).view.read (Elt F) (V c (Pipeline.arrRef spec8 w))

/-- Each window's current staging memref at point `t`, as the pipeline passes it to the body. -/
abbrev ms0 (t : Fin (cfg8 a).N) : Memref sig .tc .vmem S64x128 .f32 := spec8_0.stage ((cfg8 a).slots t 0)
abbrev hs0 (t : Fin (cfg8 a).N) : (ms0 a t).IsWhole := hstage8_0 (((cfg8 a).slots t 0).cast nbuf8_0)
abbrev ms1 (t : Fin (cfg8 a).N) : Memref sig .tc .vmem S64x128 .f32 := spec8_1.stage ((cfg8 a).slots t 1)
abbrev hs1 (t : Fin (cfg8 a).N) : (ms1 a t).IsWhole := hstage8_1 (((cfg8 a).slots t 1).cast nbuf8_1)
abbrev ms2 (t : Fin (cfg8 a).N) : Memref sig .tc .vmem S1x64 .f32 := spec8_2.stage ((cfg8 a).slots t 2)
abbrev hs2 (t : Fin (cfg8 a).N) : (ms2 a t).IsWhole := hstage8_2 (((cfg8 a).slots t 2).cast nbuf8_2)
abbrev ms3 (t : Fin (cfg8 a).N) : Memref sig .tc .vmem S64x64 .f32 := spec8_3.stage ((cfg8 a).slots t 3)
abbrev hs3 (t : Fin (cfg8 a).N) : (ms3 a t).IsWhole := hstage8_3 (((cfg8 a).slots t 3).cast nbuf8_3)
abbrev ms4 (t : Fin (cfg8 a).N) : Memref sig .tc .vmem S1x64 .f32 := spec8_4.stage ((cfg8 a).slots t 4)
abbrev hs4 (t : Fin (cfg8 a).N) : (ms4 a t).IsWhole := hstage8_4 (((cfg8 a).slots t 4).cast nbuf8_4)
abbrev ms5 (t : Fin (cfg8 a).N) : Memref sig .tc .vmem S1x64 .f32 := spec8_5.stage ((cfg8 a).slots t 5)
abbrev hs5 (t : Fin (cfg8 a).N) : (ms5 a t).IsWhole := hstage8_5 (((cfg8 a).slots t 5).cast nbuf8_5)
abbrev ms6 (t : Fin (cfg8 a).N) : Memref sig .tc .vmem S1x64 .f32 := spec8_6.stage ((cfg8 a).slots t 6)
abbrev hs6 (t : Fin (cfg8 a).N) : (ms6 a t).IsWhole := hstage8_6 (((cfg8 a).slots t 6).cast nbuf8_6)
/-- The three scratch buffers (the two gathered rows and the hidden row). -/
abbrev sc0 : Memref sig .tc .vmem S1x128 .f32 := Memref.whole cc8_scratch0
abbrev sc1 : Memref sig .tc .vmem S1x128 .f32 := Memref.whole cc8_scratch1
abbrev sc2 : Memref sig .tc .vmem S1x64 .f32 := Memref.whole cc8_scratch2

/-- The body's own three copy semaphores. -/
abbrev osem : Fin 3 → SemLoc sig := fun j => (![SemLoc.dma 87, SemLoc.dma 88, SemLoc.dma 89] : Fin 3 → SemLoc sig) j
theorem ownSemFacts : Pipeline.OwnSemFacts spec8 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc8_scratch3 0) 0 ∗ semVal ((c : Thread nD τ), semAt cc8_scratch3 1) 0 ∗ semVal ((c : Thread nD τ), semAt cc8_scratch3 2) 0) := by
  rw [Pipeline.ownSems0_eq_of_list c osem [0, 1, 2] (by decide) (by decide)]; rfl

/-- The grid point's coordinate. -/
abbrev crd (t : Fin (cfg8 a).N) : grid8.Coords := grid8.coords t

/-- The grid is one axis of 62500 points: the coordinate of point `t` is `t`. -/
theorem coord_val (t : Fin (cfg8 a).N) : ((crd a t) 0).val = t.val := by
  have hN : t.val < 62500 := lt_of_lt_of_eq t.isLt N_8
  show t.val / grid8.stride 0 % grid8.bound 0 = t.val
  rw [show grid8.stride 0 = 1 from by decide, Nat.div_one]
  exact Nat.mod_eq_of_lt hN

/-- The branch is taken at the first point and at no other. -/
theorem hcond (t : Fin (cfg8 a).N) : cond0_0 (grid8.coords t) ↔ t.val = 0 := by
  have hN : t.val < 62500 := lt_of_lt_of_eq t.isLt N_8
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg8 a).N) : St (F := F) c :=
  P1.stG tb0 tb1 xM hM c (cfg8 a).N (crd a) (fun t => iblk V a c 0 t) (fun t => iblk V a c 1 t) (fun t => iblk V a c 2 t) (fun t => iblk V a c 3 t) (fun t => iblk V a c 4 t) (T0 a c) (T1 a c) (V c main_arg0) (V c main_v37_0) (fun t => hp0 c (crd a t)) (fun t => hp1 c (crd a t)) n hn

/-- The hidden array before point `n` (after `n` points). -/
def hAt (c : Dev nD) (n : ℕ) (hn : n ≤ (cfg8 a).N) : Bf (F := F) c hM :=
  P1.hG tb0 tb1 xM hM c (cfg8 a).N (crd a) (fun t => iblk V a c 0 t) (fun t => iblk V a c 1 t) (fun t => iblk V a c 2 t) (fun t => iblk V a c 3 t) (fun t => iblk V a c 4 t) (T0 a c) (T1 a c) (V c main_arg0) (V c main_v37_0) (fun t => hp0 c (crd a t)) (fun t => hp1 c (crd a t)) n hn

theorem stAt_zero (c : Dev nD) (t : Fin (cfg8 a).N) (h0 : t.val = 0) :
    stAt V a hp0 hp1 c t.val t.isLt
      = (P1.sumStep tb0 tb1 xM c (cfg8 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k8_pay1 (F := F)), P1.sqStep tb0 tb1 xM c (cfg8 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k8_pay2 (F := F)),
          hNext hM c (crd a t) (V c main_v37_0) (P1.rowStep tb0 tb1 xM c (cfg8 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg8 a).N) (h0 : ¬t.val = 0) :
    stAt V a hp0 hp1 c t.val t.isLt
      = (P1.sumStep tb0 tb1 xM c (cfg8 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg8 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg8 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg8 a).N) (h0 : t.val = 0) (hn) : hAt V a hp0 hp1 c t.val hn = V c main_v37_0 := by
  obtain ⟨n, hlt⟩ := t
  cases n with
  | zero => rfl
  | succ n => exact absurd h0 (Nat.succ_ne_zero n)
theorem hAt_pos (c : Dev nD) (t : Fin (cfg8 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg8 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg8 a).N) : sProp 𝕄 :=
  iprop(Pipeline.scopedRest (Ix := Unit) (Name := ℕ) (U := Pipeline.UD sig nD τ) (Lvl := ℕ) (Val := Elt F) spec8 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg8 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec8 c [cc8_scratch0, cc8_scratch1, cc8_scratch2])
          ∗ (∃ r, prngReg c r)
          ∗ iprop(semVal ((c : Thread nD τ), semAt cc8_scratch3 0) 0 ∗ semVal ((c : Thread nD τ), semAt cc8_scratch3 1) 0 ∗ semVal ((c : Thread nD τ), semAt cc8_scratch3 2) 0)
          ∗ pt c tb0 (T0 a c) ∗ pt c tb1 (T1 a c) ∗ pt c xM (V c main_arg0) ∗ pt c hM (hAt V a hp0 hp1 c n hn)) := by
  unfold Φ1; rw [scopedRest8_split, ownSems0_eq]; simp only [sc0, sc1, sc2, owns_whole]; try rfl

def dat (c : Dev nD) : Dat τ (Elt F) Unit ℕ (Pipeline.UD sig nD τ) ℕ (cfg8 a) c where
  A w := V c (Pipeline.arrRef spec8 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg8 a).W) : (dat V a hp0 hp1 c).A w = V c (Pipeline.arrRef spec8 w) := by
  dsimp only [dat]
theorem after_0 (c : Dev nD) (t : Fin (cfg8 a).N) : (dat V a hp0 hp1 c).after 0 t = iblk V a c 0 t := by dsimp only [dat]; rfl
theorem after_1 (c : Dev nD) (t : Fin (cfg8 a).N) : (dat V a hp0 hp1 c).after 1 t = iblk V a c 1 t := by dsimp only [dat]; rfl
theorem after_2 (c : Dev nD) (t : Fin (cfg8 a).N) : (dat V a hp0 hp1 c).after 2 t = iblk V a c 2 t := by dsimp only [dat]; rfl
theorem after_3 (c : Dev nD) (t : Fin (cfg8 a).N) : (dat V a hp0 hp1 c).after 3 t = iblk V a c 3 t := by dsimp only [dat]; rfl
theorem after_4 (c : Dev nD) (t : Fin (cfg8 a).N) : (dat V a hp0 hp1 c).after 4 t = iblk V a c 4 t := by dsimp only [dat]; rfl
theorem after_5 (c : Dev nD) (t : Fin (cfg8 a).N) : (dat V a hp0 hp1 c).after 5 t = (stAt V a hp0 hp1 c t.val t.isLt).1 := by dsimp only [dat]; rfl
theorem after_6 (c : Dev nD) (t : Fin (cfg8 a).N) : (dat V a hp0 hp1 c).after 6 t = (stAt V a hp0 hp1 c t.val t.isLt).2.1 := by dsimp only [dat]; rfl
theorem before_0 (c : Dev nD) (t : Fin (cfg8 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg8 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg8 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg8 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg8 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg8 a).N) (h : t'.val + 1 < (cfg8 a).N) : ((cfg8 a).win 5).flush t' = false := by
  unfold Pipeline.Window.flush
  rw [Bool.and_eq_false_iff]; right
  rw [Bool.or_eq_false_iff]
  have h' : t'.val + 1 < (cfg8 a).grid.N := h
  exact ⟨decide_eq_false (by omega), decide_eq_false (fun ⟨_, hne⟩ => hne rfl)⟩
theorem before_5_B (c : Dev nD) (t : Fin (cfg8 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg8 a).N) (h : t'.val + 1 < (cfg8 a).N) : ((cfg8 a).win 6).flush t' = false := by
  unfold Pipeline.Window.flush
  rw [Bool.and_eq_false_iff]; right
  rw [Bool.or_eq_false_iff]
  have h' : t'.val + 1 < (cfg8 a).grid.N := h
  exact ⟨decide_eq_false (by omega), decide_eq_false (fun ⟨_, hne⟩ => hne rfl)⟩
theorem before_6_B (c : Dev nD) (t : Fin (cfg8 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg8 a).N) : Prog (TpuEff nD τ sig (Elt F) Λ₀ .tc) PUnit :=
  (cc8__pass1_kernel (grid8.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc8_scratch3)

def bodyPre (c : Dev nD) (t : Fin (cfg8 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg8 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg8 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc8_scratch3 c (grid8.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v37_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc8_scratch3 c (grid8.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W8, bigSep_W8]
  exact sound_body V a hp0 hp1 c t

end Cert.KernelIdeal.P1R8

end
-- ==== Proof.P1R8Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.P1R8Dat
import proofs.«400866_j57071525429608_2_alg».proof.Proof.Assemble

set_option maxRecDepth 16384

noncomputable section

namespace Cert.KernelIdeal.P1R8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Asm (Rr L₀ lv₀)
open Cert.KernelIdeal.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid8.Coords), k8_chk1 (tw0 tb0 c i (T0 (adm 8) c))) (hp1 : ∀ c (i : grid8.Coords), k8_chk2 (tw1 tb1 c i (T1 (adm 8) c)))

/-- The unscoped buffers the body moves itself or reads as tables: no window's array. -/
def H : Finset (Ref sig .tc) := {main_arg0, main_v35, main_v36, main_v37_0}
theorem H_sub : H ⊆ Pipeline.restRefs sig spec8 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v35) ∗ pt c tb1 (W main_v36) ∗ pt c hM (W main_v37_0)) := by
  rw [BI.bigSep_eq_bigSepL_of_eq [main_arg0, main_v35, main_v36, main_v37_0] (by decide) (by decide)]; rfl

/-- The two tables held, listed. -/
theorem pref_eq (c : Dev nD) (T : (pcfgs (F := F) 8).pre.Contents (Elt F)) :
    (Pipeline.prefHeld (Ix := Unit) (Name := ℕ) (U := Pipeline.UD sig nD τ) (Lvl := ℕ) (pcfgs (F := F) 8).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 8) hp0 hp1 c (cfg8 (adm 8)).N le_rfl

/-- The entry valuation with the hidden array at its final contents: what the unscoped rest is at the exit. -/
def Vmid (c : Dev nD) : (b : Ref sig .tc) → Buf (Elt F) ((c : Thread nD τ).loc b) :=
  Function.update (Vin Win c) main_v37_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec8 c W : sProp 𝕄)
      = iprop((bigSep H fun b => ((c : Thread nD τ).loc b) ↦{fullShare} W b) ∗ (bigSep (Pipeline.restRefs sig spec8 \ H) fun b => ((c : Thread nD τ).loc b) ↦{fullShare} W b)) := by
  unfold Pipeline.unscopedRest; exact BI.bigSep_sdiff_split H_sub

set_option maxHeartbeats 4000000 in
def reg (hpd : ∀ c, pdats 8 c = dat (Vin Win) (adm 8) hp0 hp1 c)
    (hT0 : ∀ c, Vin Win c main_v35 = T0 (adm 8) c) (hT1 : ∀ c, Vin Win c main_v36 = T1 (adm 8) c)
    (hF : ∀ c w, (dat (Vin Win) (adm 8) hp0 hp1 c).arrAt w (cfg8 (adm 8)).N = Vout Wout c (Pipeline.arrRef spec8 w))
    (hrest : ∀ c b, b ∉ Finset.univ.image (Pipeline.arrRef spec8) → Vout Wout c b = Vmid adm Win hp0 hp1 c b) :
    Pipeline.RegionSeg (pcfgs (F := F)) adm pdats () defs₀ Variants.none L₀ lv₀ 8 where
  win := winFacts8.to₀
  block_pos := block_pos8
  stage_whole := stage_whole8
  K := Fin 3
  osem := osem
  ho := ownSemFacts
  hbody c := by rw [hpd c]; exact (body_obligation (Vin Win) (adm 8) hp0 hp1 c).loose
  hwaits := Pipeline.hwaits_of_owed_zero _ _ _ _ L₀ lv₀ 8 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v37_0))
  Y c := iprop((∃ r, prngReg c r) ∗ pt c tb0 (T0 (adm 8) c) ∗ pt c tb1 (T1 (adm 8) c) ∗ pt c xM (Vin Win c main_arg0) ∗ pt c hM (hEnd adm Win hp0 hp1 c))
  Z c := bigSep (Pipeline.restRefs sig spec8 \ H) fun b => ((c : Thread nD τ).loc b) ↦{fullShare} Vin Win c b
  hentry c := by
    have hsplit : (StableHlo.held (c : Thread nD τ) (Pipeline.ucRefs τ sig) (Win c) : sProp 𝕄)
        ⊢ iprop((pdats 8 c).arrays ((pdats 8 c).arrAt · 0) ∗ Pipeline.unscopedRest (Ix := Unit) (Name := ℕ) (U := Pipeline.UD sig nD τ) (Lvl := ℕ) spec8 c (Vin Win c)) := by
      have h := Pipeline.arrays_of_unscopedBufs (p := 8) (pcfgs (F := F)) adm pdats winFacts8 arr_whole8 c
        (by rw [hpd c]; exact (dat (Vin Win) (adm 8) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 8 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 8) hp0 hp1 c 0 (Nat.zero_le _)
    unfold Φ1
    rw [pref_eq, show hAt (Vin Win) (adm 8) hp0 hp1 c 0 (Nat.zero_le _) = Vin Win c main_v37_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 8) hp0 hp1 c (cfg8 (adm 8)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 8 c).arrays ((pdats 8 c).arrAt · (cfg8 (adm 8)).N) ∗ Pipeline.unscopedRest (Ix := Unit) (Name := ℕ) (U := Pipeline.UD sig nD τ) (Lvl := ℕ) spec8 c (Vmid adm Win hp0 hp1 c))
        ⊢ (StableHlo.held (c : Thread nD τ) (Pipeline.ucRefs τ sig) (Wout c) : sProp 𝕄) := by
      have h := Pipeline.unscopedBufs_of_arrays (p := 8) (pcfgs (F := F)) adm (Ix := Unit) (Name := ℕ) (U := Pipeline.UD sig nD τ) (Lvl := ℕ)
        winFacts8 arr_whole8 c pdats (by rw [hpd c]; exact (dat (Vin Win) (adm 8) hp0 hp1 c).share_full fun _ => rfl)
        (Vmid adm Win hp0 hp1 c) (Vout Wout c) ((pdats 8 c).arrAt · (cfg8 (adm 8)).N) (by rw [hpd c]; exact hF c) (hrest c)
      rw [Pipeline.unscopedBufs_held] at h; exact h
    rw [rest_split, Hpts_eq] at hjoin
    have hZ : (bigSep (Pipeline.restRefs sig spec8 \ H) fun b => ((c : Thread nD τ).loc b) ↦{fullShare} Vin Win c b : sProp 𝕄)
        = (bigSep (Pipeline.restRefs sig spec8 \ H) fun b => ((c : Thread nD τ).loc b) ↦{fullShare} Vmid adm Win hp0 hp1 c b) :=
      bigSep_congr fun b hb => by
        have hne : b ≠ main_v37_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v35 = Vin Win c main_v35 := by unfold Vmid; exact Function.update_of_ne (by decide) _ _
    have e2 : Vmid adm Win hp0 hp1 c main_v36 = Vin Win c main_v36 := by unfold Vmid; exact Function.update_of_ne (by decide) _ _
    have e3 : Vmid adm Win hp0 hp1 c main_v37_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 8 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.KernelIdeal.P1R8

end
-- ==== Proof.P1R9Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.P1Body
import proofs.«400866_j57071525429608_2_alg».proof.Proof.P1State
import proofs.«400866_j57071525429608_2_alg».proof.Proof.P1Kern

set_option maxRecDepth 100000

noncomputable section

namespace Cert.KernelIdeal.P1R9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc9__pass1_kernel (F := F) = P1.kern := rfl

-- The buffer contents when the region is entered, and the admissible index tables.
variable (V : (c : Dev nD) → (b : Ref sig .tc) → Buf (Elt F) ((c : Thread nD τ).loc b))
variable (a : (pcfg9 (F := F)).Adm)

/-- The two index tables, the node-feature array and the hidden array, as the body is handed them. -/
abbrev tb0 : Memref sig .tc .smem S62500 .i32 := Memref.whole main_v38
abbrev tb1 : Memref sig .tc .smem S62500 .i32 := Memref.whole main_v39
abbrev xM : Memref sig .tc .hbm S100000x128 .f32 := Memref.whole main_arg0
abbrev hM : Memref sig .tc .hbm S62500x64 .f32 := Memref.whole main_v40_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid9.Coords), k9_chk1 (tw0 tb0 c i (T0 a c))) (hp1 : ∀ c (i : grid9.Coords), k9_chk2 (tw1 tb1 c i (T1 a c)))

/-- Window `w`'s block at point `t`, read off its array as the region finds it. -/
def iblk (c : Dev nD) (w : Fin (cfg9 a).W) (t : Fin (cfg9 a).N) : (((cfg9 a).win w).xblock ((cfg9 a).grid.coords t)).Idx → Elt F ((cfg9 a).win w).elt :=
  (((cfg9 a).win w).blk t).view.read (Elt F) (V c (Pipeline.arrRef spec9 w))

/-- Each window's current staging memref at point `t`, as the pipeline passes it to the body. -/
abbrev ms0 (t : Fin (cfg9 a).N) : Memref sig .tc .vmem S64x128 .f32 := spec9_0.stage ((cfg9 a).slots t 0)
abbrev hs0 (t : Fin (cfg9 a).N) : (ms0 a t).IsWhole := hstage9_0 (((cfg9 a).slots t 0).cast nbuf9_0)
abbrev ms1 (t : Fin (cfg9 a).N) : Memref sig .tc .vmem S64x128 .f32 := spec9_1.stage ((cfg9 a).slots t 1)
abbrev hs1 (t : Fin (cfg9 a).N) : (ms1 a t).IsWhole := hstage9_1 (((cfg9 a).slots t 1).cast nbuf9_1)
abbrev ms2 (t : Fin (cfg9 a).N) : Memref sig .tc .vmem S1x64 .f32 := spec9_2.stage ((cfg9 a).slots t 2)
abbrev hs2 (t : Fin (cfg9 a).N) : (ms2 a t).IsWhole := hstage9_2 (((cfg9 a).slots t 2).cast nbuf9_2)
abbrev ms3 (t : Fin (cfg9 a).N) : Memref sig .tc .vmem S64x64 .f32 := spec9_3.stage ((cfg9 a).slots t 3)
abbrev hs3 (t : Fin (cfg9 a).N) : (ms3 a t).IsWhole := hstage9_3 (((cfg9 a).slots t 3).cast nbuf9_3)
abbrev ms4 (t : Fin (cfg9 a).N) : Memref sig .tc .vmem S1x64 .f32 := spec9_4.stage ((cfg9 a).slots t 4)
abbrev hs4 (t : Fin (cfg9 a).N) : (ms4 a t).IsWhole := hstage9_4 (((cfg9 a).slots t 4).cast nbuf9_4)
abbrev ms5 (t : Fin (cfg9 a).N) : Memref sig .tc .vmem S1x64 .f32 := spec9_5.stage ((cfg9 a).slots t 5)
abbrev hs5 (t : Fin (cfg9 a).N) : (ms5 a t).IsWhole := hstage9_5 (((cfg9 a).slots t 5).cast nbuf9_5)
abbrev ms6 (t : Fin (cfg9 a).N) : Memref sig .tc .vmem S1x64 .f32 := spec9_6.stage ((cfg9 a).slots t 6)
abbrev hs6 (t : Fin (cfg9 a).N) : (ms6 a t).IsWhole := hstage9_6 (((cfg9 a).slots t 6).cast nbuf9_6)
/-- The three scratch buffers (the two gathered rows and the hidden row). -/
abbrev sc0 : Memref sig .tc .vmem S1x128 .f32 := Memref.whole cc9_scratch0
abbrev sc1 : Memref sig .tc .vmem S1x128 .f32 := Memref.whole cc9_scratch1
abbrev sc2 : Memref sig .tc .vmem S1x64 .f32 := Memref.whole cc9_scratch2

/-- The body's own three copy semaphores. -/
abbrev osem : Fin 3 → SemLoc sig := fun j => (![SemLoc.dma 97, SemLoc.dma 98, SemLoc.dma 99] : Fin 3 → SemLoc sig) j
theorem ownSemFacts : Pipeline.OwnSemFacts spec9 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc9_scratch3 0) 0 ∗ semVal ((c : Thread nD τ), semAt cc9_scratch3 1) 0 ∗ semVal ((c : Thread nD τ), semAt cc9_scratch3 2) 0) := by
  rw [Pipeline.ownSems0_eq_of_list c osem [0, 1, 2] (by decide) (by decide)]; rfl

/-- The grid point's coordinate. -/
abbrev crd (t : Fin (cfg9 a).N) : grid9.Coords := grid9.coords t

/-- The grid is one axis of 62500 points: the coordinate of point `t` is `t`. -/
theorem coord_val (t : Fin (cfg9 a).N) : ((crd a t) 0).val = t.val := by
  have hN : t.val < 62500 := lt_of_lt_of_eq t.isLt N_9
  show t.val / grid9.stride 0 % grid9.bound 0 = t.val
  rw [show grid9.stride 0 = 1 from by decide, Nat.div_one]
  exact Nat.mod_eq_of_lt hN

/-- The branch is taken at the first point and at no other. -/
theorem hcond (t : Fin (cfg9 a).N) : cond0_0 (grid9.coords t) ↔ t.val = 0 := by
  have hN : t.val < 62500 := lt_of_lt_of_eq t.isLt N_9
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg9 a).N) : St (F := F) c :=
  P1.stG tb0 tb1 xM hM c (cfg9 a).N (crd a) (fun t => iblk V a c 0 t) (fun t => iblk V a c 1 t) (fun t => iblk V a c 2 t) (fun t => iblk V a c 3 t) (fun t => iblk V a c 4 t) (T0 a c) (T1 a c) (V c main_arg0) (V c main_v40_0) (fun t => hp0 c (crd a t)) (fun t => hp1 c (crd a t)) n hn

/-- The hidden array before point `n` (after `n` points). -/
def hAt (c : Dev nD) (n : ℕ) (hn : n ≤ (cfg9 a).N) : Bf (F := F) c hM :=
  P1.hG tb0 tb1 xM hM c (cfg9 a).N (crd a) (fun t => iblk V a c 0 t) (fun t => iblk V a c 1 t) (fun t => iblk V a c 2 t) (fun t => iblk V a c 3 t) (fun t => iblk V a c 4 t) (T0 a c) (T1 a c) (V c main_arg0) (V c main_v40_0) (fun t => hp0 c (crd a t)) (fun t => hp1 c (crd a t)) n hn

theorem stAt_zero (c : Dev nD) (t : Fin (cfg9 a).N) (h0 : t.val = 0) :
    stAt V a hp0 hp1 c t.val t.isLt
      = (P1.sumStep tb0 tb1 xM c (cfg9 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k9_pay1 (F := F)), P1.sqStep tb0 tb1 xM c (cfg9 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k9_pay2 (F := F)),
          hNext hM c (crd a t) (V c main_v40_0) (P1.rowStep tb0 tb1 xM c (cfg9 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg9 a).N) (h0 : ¬t.val = 0) :
    stAt V a hp0 hp1 c t.val t.isLt
      = (P1.sumStep tb0 tb1 xM c (cfg9 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg9 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg9 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg9 a).N) (h0 : t.val = 0) (hn) : hAt V a hp0 hp1 c t.val hn = V c main_v40_0 := by
  obtain ⟨n, hlt⟩ := t
  cases n with
  | zero => rfl
  | succ n => exact absurd h0 (Nat.succ_ne_zero n)
theorem hAt_pos (c : Dev nD) (t : Fin (cfg9 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg9 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg9 a).N) : sProp 𝕄 :=
  iprop(Pipeline.scopedRest (Ix := Unit) (Name := ℕ) (U := Pipeline.UD sig nD τ) (Lvl := ℕ) (Val := Elt F) spec9 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg9 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec9 c [cc9_scratch0, cc9_scratch1, cc9_scratch2])
          ∗ (∃ r, prngReg c r)
          ∗ iprop(semVal ((c : Thread nD τ), semAt cc9_scratch3 0) 0 ∗ semVal ((c : Thread nD τ), semAt cc9_scratch3 1) 0 ∗ semVal ((c : Thread nD τ), semAt cc9_scratch3 2) 0)
          ∗ pt c tb0 (T0 a c) ∗ pt c tb1 (T1 a c) ∗ pt c xM (V c main_arg0) ∗ pt c hM (hAt V a hp0 hp1 c n hn)) := by
  unfold Φ1; rw [scopedRest9_split, ownSems0_eq]; simp only [sc0, sc1, sc2, owns_whole]; try rfl

def dat (c : Dev nD) : Dat τ (Elt F) Unit ℕ (Pipeline.UD sig nD τ) ℕ (cfg9 a) c where
  A w := V c (Pipeline.arrRef spec9 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg9 a).W) : (dat V a hp0 hp1 c).A w = V c (Pipeline.arrRef spec9 w) := by
  dsimp only [dat]
theorem after_0 (c : Dev nD) (t : Fin (cfg9 a).N) : (dat V a hp0 hp1 c).after 0 t = iblk V a c 0 t := by dsimp only [dat]; rfl
theorem after_1 (c : Dev nD) (t : Fin (cfg9 a).N) : (dat V a hp0 hp1 c).after 1 t = iblk V a c 1 t := by dsimp only [dat]; rfl
theorem after_2 (c : Dev nD) (t : Fin (cfg9 a).N) : (dat V a hp0 hp1 c).after 2 t = iblk V a c 2 t := by dsimp only [dat]; rfl
theorem after_3 (c : Dev nD) (t : Fin (cfg9 a).N) : (dat V a hp0 hp1 c).after 3 t = iblk V a c 3 t := by dsimp only [dat]; rfl
theorem after_4 (c : Dev nD) (t : Fin (cfg9 a).N) : (dat V a hp0 hp1 c).after 4 t = iblk V a c 4 t := by dsimp only [dat]; rfl
theorem after_5 (c : Dev nD) (t : Fin (cfg9 a).N) : (dat V a hp0 hp1 c).after 5 t = (stAt V a hp0 hp1 c t.val t.isLt).1 := by dsimp only [dat]; rfl
theorem after_6 (c : Dev nD) (t : Fin (cfg9 a).N) : (dat V a hp0 hp1 c).after 6 t = (stAt V a hp0 hp1 c t.val t.isLt).2.1 := by dsimp only [dat]; rfl
theorem before_0 (c : Dev nD) (t : Fin (cfg9 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg9 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg9 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg9 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg9 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg9 a).N) (h : t'.val + 1 < (cfg9 a).N) : ((cfg9 a).win 5).flush t' = false := by
  unfold Pipeline.Window.flush
  rw [Bool.and_eq_false_iff]; right
  rw [Bool.or_eq_false_iff]
  have h' : t'.val + 1 < (cfg9 a).grid.N := h
  exact ⟨decide_eq_false (by omega), decide_eq_false (fun ⟨_, hne⟩ => hne rfl)⟩
theorem before_5_B (c : Dev nD) (t : Fin (cfg9 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg9 a).N) (h : t'.val + 1 < (cfg9 a).N) : ((cfg9 a).win 6).flush t' = false := by
  unfold Pipeline.Window.flush
  rw [Bool.and_eq_false_iff]; right
  rw [Bool.or_eq_false_iff]
  have h' : t'.val + 1 < (cfg9 a).grid.N := h
  exact ⟨decide_eq_false (by omega), decide_eq_false (fun ⟨_, hne⟩ => hne rfl)⟩
theorem before_6_B (c : Dev nD) (t : Fin (cfg9 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg9 a).N) : Prog (TpuEff nD τ sig (Elt F) Λ₀ .tc) PUnit :=
  (cc9__pass1_kernel (grid9.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc9_scratch3)

def bodyPre (c : Dev nD) (t : Fin (cfg9 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg9 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg9 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc9_scratch3 c (grid9.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v40_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc9_scratch3 c (grid9.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W9, bigSep_W9]
  exact sound_body V a hp0 hp1 c t

end Cert.KernelIdeal.P1R9

end
-- ==== Proof.P1R9Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.P1R9Dat
import proofs.«400866_j57071525429608_2_alg».proof.Proof.Assemble

set_option maxRecDepth 16384

noncomputable section

namespace Cert.KernelIdeal.P1R9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Asm (Rr L₀ lv₀)
open Cert.KernelIdeal.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid9.Coords), k9_chk1 (tw0 tb0 c i (T0 (adm 9) c))) (hp1 : ∀ c (i : grid9.Coords), k9_chk2 (tw1 tb1 c i (T1 (adm 9) c)))

/-- The unscoped buffers the body moves itself or reads as tables: no window's array. -/
def H : Finset (Ref sig .tc) := {main_arg0, main_v38, main_v39, main_v40_0}
theorem H_sub : H ⊆ Pipeline.restRefs sig spec9 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v38) ∗ pt c tb1 (W main_v39) ∗ pt c hM (W main_v40_0)) := by
  rw [BI.bigSep_eq_bigSepL_of_eq [main_arg0, main_v38, main_v39, main_v40_0] (by decide) (by decide)]; rfl

/-- The two tables held, listed. -/
theorem pref_eq (c : Dev nD) (T : (pcfgs (F := F) 9).pre.Contents (Elt F)) :
    (Pipeline.prefHeld (Ix := Unit) (Name := ℕ) (U := Pipeline.UD sig nD τ) (Lvl := ℕ) (pcfgs (F := F) 9).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 9) hp0 hp1 c (cfg9 (adm 9)).N le_rfl

/-- The entry valuation with the hidden array at its final contents: what the unscoped rest is at the exit. -/
def Vmid (c : Dev nD) : (b : Ref sig .tc) → Buf (Elt F) ((c : Thread nD τ).loc b) :=
  Function.update (Vin Win c) main_v40_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec9 c W : sProp 𝕄)
      = iprop((bigSep H fun b => ((c : Thread nD τ).loc b) ↦{fullShare} W b) ∗ (bigSep (Pipeline.restRefs sig spec9 \ H) fun b => ((c : Thread nD τ).loc b) ↦{fullShare} W b)) := by
  unfold Pipeline.unscopedRest; exact BI.bigSep_sdiff_split H_sub

set_option maxHeartbeats 4000000 in
def reg (hpd : ∀ c, pdats 9 c = dat (Vin Win) (adm 9) hp0 hp1 c)
    (hT0 : ∀ c, Vin Win c main_v38 = T0 (adm 9) c) (hT1 : ∀ c, Vin Win c main_v39 = T1 (adm 9) c)
    (hF : ∀ c w, (dat (Vin Win) (adm 9) hp0 hp1 c).arrAt w (cfg9 (adm 9)).N = Vout Wout c (Pipeline.arrRef spec9 w))
    (hrest : ∀ c b, b ∉ Finset.univ.image (Pipeline.arrRef spec9) → Vout Wout c b = Vmid adm Win hp0 hp1 c b) :
    Pipeline.RegionSeg (pcfgs (F := F)) adm pdats () defs₀ Variants.none L₀ lv₀ 9 where
  win := winFacts9.to₀
  block_pos := block_pos9
  stage_whole := stage_whole9
  K := Fin 3
  osem := osem
  ho := ownSemFacts
  hbody c := by rw [hpd c]; exact (body_obligation (Vin Win) (adm 9) hp0 hp1 c).loose
  hwaits := Pipeline.hwaits_of_owed_zero _ _ _ _ L₀ lv₀ 9 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v40_0))
  Y c := iprop((∃ r, prngReg c r) ∗ pt c tb0 (T0 (adm 9) c) ∗ pt c tb1 (T1 (adm 9) c) ∗ pt c xM (Vin Win c main_arg0) ∗ pt c hM (hEnd adm Win hp0 hp1 c))
  Z c := bigSep (Pipeline.restRefs sig spec9 \ H) fun b => ((c : Thread nD τ).loc b) ↦{fullShare} Vin Win c b
  hentry c := by
    have hsplit : (StableHlo.held (c : Thread nD τ) (Pipeline.ucRefs τ sig) (Win c) : sProp 𝕄)
        ⊢ iprop((pdats 9 c).arrays ((pdats 9 c).arrAt · 0) ∗ Pipeline.unscopedRest (Ix := Unit) (Name := ℕ) (U := Pipeline.UD sig nD τ) (Lvl := ℕ) spec9 c (Vin Win c)) := by
      have h := Pipeline.arrays_of_unscopedBufs (p := 9) (pcfgs (F := F)) adm pdats winFacts9 arr_whole9 c
        (by rw [hpd c]; exact (dat (Vin Win) (adm 9) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 9 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 9) hp0 hp1 c 0 (Nat.zero_le _)
    unfold Φ1
    rw [pref_eq, show hAt (Vin Win) (adm 9) hp0 hp1 c 0 (Nat.zero_le _) = Vin Win c main_v40_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 9) hp0 hp1 c (cfg9 (adm 9)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 9 c).arrays ((pdats 9 c).arrAt · (cfg9 (adm 9)).N) ∗ Pipeline.unscopedRest (Ix := Unit) (Name := ℕ) (U := Pipeline.UD sig nD τ) (Lvl := ℕ) spec9 c (Vmid adm Win hp0 hp1 c))
        ⊢ (StableHlo.held (c : Thread nD τ) (Pipeline.ucRefs τ sig) (Wout c) : sProp 𝕄) := by
      have h := Pipeline.unscopedBufs_of_arrays (p := 9) (pcfgs (F := F)) adm (Ix := Unit) (Name := ℕ) (U := Pipeline.UD sig nD τ) (Lvl := ℕ)
        winFacts9 arr_whole9 c pdats (by rw [hpd c]; exact (dat (Vin Win) (adm 9) hp0 hp1 c).share_full fun _ => rfl)
        (Vmid adm Win hp0 hp1 c) (Vout Wout c) ((pdats 9 c).arrAt · (cfg9 (adm 9)).N) (by rw [hpd c]; exact hF c) (hrest c)
      rw [Pipeline.unscopedBufs_held] at h; exact h
    rw [rest_split, Hpts_eq] at hjoin
    have hZ : (bigSep (Pipeline.restRefs sig spec9 \ H) fun b => ((c : Thread nD τ).loc b) ↦{fullShare} Vin Win c b : sProp 𝕄)
        = (bigSep (Pipeline.restRefs sig spec9 \ H) fun b => ((c : Thread nD τ).loc b) ↦{fullShare} Vmid adm Win hp0 hp1 c b) :=
      bigSep_congr fun b hb => by
        have hne : b ≠ main_v40_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v38 = Vin Win c main_v38 := by unfold Vmid; exact Function.update_of_ne (by decide) _ _
    have e2 : Vmid adm Win hp0 hp1 c main_v39 = Vin Win c main_v39 := by unfold Vmid; exact Function.update_of_ne (by decide) _ _
    have e3 : Vmid adm Win hp0 hp1 c main_v40_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 9 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.KernelIdeal.P1R9

end
-- ==== Proof.P1R10Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.P1Body
import proofs.«400866_j57071525429608_2_alg».proof.Proof.P1State
import proofs.«400866_j57071525429608_2_alg».proof.Proof.P1Kern

set_option maxRecDepth 100000

noncomputable section

namespace Cert.KernelIdeal.P1R10

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc10__pass1_kernel (F := F) = P1.kern := rfl

-- The buffer contents when the region is entered, and the admissible index tables.
variable (V : (c : Dev nD) → (b : Ref sig .tc) → Buf (Elt F) ((c : Thread nD τ).loc b))
variable (a : (pcfg10 (F := F)).Adm)

/-- The two index tables, the node-feature array and the hidden array, as the body is handed them. -/
abbrev tb0 : Memref sig .tc .smem S62500 .i32 := Memref.whole main_v41
abbrev tb1 : Memref sig .tc .smem S62500 .i32 := Memref.whole main_v42
abbrev xM : Memref sig .tc .hbm S100000x128 .f32 := Memref.whole main_arg0
abbrev hM : Memref sig .tc .hbm S62500x64 .f32 := Memref.whole main_v43_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid10.Coords), k10_chk1 (tw0 tb0 c i (T0 a c))) (hp1 : ∀ c (i : grid10.Coords), k10_chk2 (tw1 tb1 c i (T1 a c)))

/-- Window `w`'s block at point `t`, read off its array as the region finds it. -/
def iblk (c : Dev nD) (w : Fin (cfg10 a).W) (t : Fin (cfg10 a).N) : (((cfg10 a).win w).xblock ((cfg10 a).grid.coords t)).Idx → Elt F ((cfg10 a).win w).elt :=
  (((cfg10 a).win w).blk t).view.read (Elt F) (V c (Pipeline.arrRef spec10 w))

/-- Each window's current staging memref at point `t`, as the pipeline passes it to the body. -/
abbrev ms0 (t : Fin (cfg10 a).N) : Memref sig .tc .vmem S64x128 .f32 := spec10_0.stage ((cfg10 a).slots t 0)
abbrev hs0 (t : Fin (cfg10 a).N) : (ms0 a t).IsWhole := hstage10_0 (((cfg10 a).slots t 0).cast nbuf10_0)
abbrev ms1 (t : Fin (cfg10 a).N) : Memref sig .tc .vmem S64x128 .f32 := spec10_1.stage ((cfg10 a).slots t 1)
abbrev hs1 (t : Fin (cfg10 a).N) : (ms1 a t).IsWhole := hstage10_1 (((cfg10 a).slots t 1).cast nbuf10_1)
abbrev ms2 (t : Fin (cfg10 a).N) : Memref sig .tc .vmem S1x64 .f32 := spec10_2.stage ((cfg10 a).slots t 2)
abbrev hs2 (t : Fin (cfg10 a).N) : (ms2 a t).IsWhole := hstage10_2 (((cfg10 a).slots t 2).cast nbuf10_2)
abbrev ms3 (t : Fin (cfg10 a).N) : Memref sig .tc .vmem S64x64 .f32 := spec10_3.stage ((cfg10 a).slots t 3)
abbrev hs3 (t : Fin (cfg10 a).N) : (ms3 a t).IsWhole := hstage10_3 (((cfg10 a).slots t 3).cast nbuf10_3)
abbrev ms4 (t : Fin (cfg10 a).N) : Memref sig .tc .vmem S1x64 .f32 := spec10_4.stage ((cfg10 a).slots t 4)
abbrev hs4 (t : Fin (cfg10 a).N) : (ms4 a t).IsWhole := hstage10_4 (((cfg10 a).slots t 4).cast nbuf10_4)
abbrev ms5 (t : Fin (cfg10 a).N) : Memref sig .tc .vmem S1x64 .f32 := spec10_5.stage ((cfg10 a).slots t 5)
abbrev hs5 (t : Fin (cfg10 a).N) : (ms5 a t).IsWhole := hstage10_5 (((cfg10 a).slots t 5).cast nbuf10_5)
abbrev ms6 (t : Fin (cfg10 a).N) : Memref sig .tc .vmem S1x64 .f32 := spec10_6.stage ((cfg10 a).slots t 6)
abbrev hs6 (t : Fin (cfg10 a).N) : (ms6 a t).IsWhole := hstage10_6 (((cfg10 a).slots t 6).cast nbuf10_6)
/-- The three scratch buffers (the two gathered rows and the hidden row). -/
abbrev sc0 : Memref sig .tc .vmem S1x128 .f32 := Memref.whole cc10_scratch0
abbrev sc1 : Memref sig .tc .vmem S1x128 .f32 := Memref.whole cc10_scratch1
abbrev sc2 : Memref sig .tc .vmem S1x64 .f32 := Memref.whole cc10_scratch2

/-- The body's own three copy semaphores. -/
abbrev osem : Fin 3 → SemLoc sig := fun j => (![SemLoc.dma 107, SemLoc.dma 108, SemLoc.dma 109] : Fin 3 → SemLoc sig) j
theorem ownSemFacts : Pipeline.OwnSemFacts spec10 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc10_scratch3 0) 0 ∗ semVal ((c : Thread nD τ), semAt cc10_scratch3 1) 0 ∗ semVal ((c : Thread nD τ), semAt cc10_scratch3 2) 0) := by
  rw [Pipeline.ownSems0_eq_of_list c osem [0, 1, 2] (by decide) (by decide)]; rfl

/-- The grid point's coordinate. -/
abbrev crd (t : Fin (cfg10 a).N) : grid10.Coords := grid10.coords t

/-- The grid is one axis of 62500 points: the coordinate of point `t` is `t`. -/
theorem coord_val (t : Fin (cfg10 a).N) : ((crd a t) 0).val = t.val := by
  have hN : t.val < 62500 := lt_of_lt_of_eq t.isLt N_10
  show t.val / grid10.stride 0 % grid10.bound 0 = t.val
  rw [show grid10.stride 0 = 1 from by decide, Nat.div_one]
  exact Nat.mod_eq_of_lt hN

/-- The branch is taken at the first point and at no other. -/
theorem hcond (t : Fin (cfg10 a).N) : cond0_0 (grid10.coords t) ↔ t.val = 0 := by
  have hN : t.val < 62500 := lt_of_lt_of_eq t.isLt N_10
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg10 a).N) : St (F := F) c :=
  P1.stG tb0 tb1 xM hM c (cfg10 a).N (crd a) (fun t => iblk V a c 0 t) (fun t => iblk V a c 1 t) (fun t => iblk V a c 2 t) (fun t => iblk V a c 3 t) (fun t => iblk V a c 4 t) (T0 a c) (T1 a c) (V c main_arg0) (V c main_v43_0) (fun t => hp0 c (crd a t)) (fun t => hp1 c (crd a t)) n hn

/-- The hidden array before point `n` (after `n` points). -/
def hAt (c : Dev nD) (n : ℕ) (hn : n ≤ (cfg10 a).N) : Bf (F := F) c hM :=
  P1.hG tb0 tb1 xM hM c (cfg10 a).N (crd a) (fun t => iblk V a c 0 t) (fun t => iblk V a c 1 t) (fun t => iblk V a c 2 t) (fun t => iblk V a c 3 t) (fun t => iblk V a c 4 t) (T0 a c) (T1 a c) (V c main_arg0) (V c main_v43_0) (fun t => hp0 c (crd a t)) (fun t => hp1 c (crd a t)) n hn

theorem stAt_zero (c : Dev nD) (t : Fin (cfg10 a).N) (h0 : t.val = 0) :
    stAt V a hp0 hp1 c t.val t.isLt
      = (P1.sumStep tb0 tb1 xM c (cfg10 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k10_pay1 (F := F)), P1.sqStep tb0 tb1 xM c (cfg10 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k10_pay2 (F := F)),
          hNext hM c (crd a t) (V c main_v43_0) (P1.rowStep tb0 tb1 xM c (cfg10 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg10 a).N) (h0 : ¬t.val = 0) :
    stAt V a hp0 hp1 c t.val t.isLt
      = (P1.sumStep tb0 tb1 xM c (cfg10 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg10 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg10 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg10 a).N) (h0 : t.val = 0) (hn) : hAt V a hp0 hp1 c t.val hn = V c main_v43_0 := by
  obtain ⟨n, hlt⟩ := t
  cases n with
  | zero => rfl
  | succ n => exact absurd h0 (Nat.succ_ne_zero n)
theorem hAt_pos (c : Dev nD) (t : Fin (cfg10 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg10 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg10 a).N) : sProp 𝕄 :=
  iprop(Pipeline.scopedRest (Ix := Unit) (Name := ℕ) (U := Pipeline.UD sig nD τ) (Lvl := ℕ) (Val := Elt F) spec10 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg10 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec10 c [cc10_scratch0, cc10_scratch1, cc10_scratch2])
          ∗ (∃ r, prngReg c r)
          ∗ iprop(semVal ((c : Thread nD τ), semAt cc10_scratch3 0) 0 ∗ semVal ((c : Thread nD τ), semAt cc10_scratch3 1) 0 ∗ semVal ((c : Thread nD τ), semAt cc10_scratch3 2) 0)
          ∗ pt c tb0 (T0 a c) ∗ pt c tb1 (T1 a c) ∗ pt c xM (V c main_arg0) ∗ pt c hM (hAt V a hp0 hp1 c n hn)) := by
  unfold Φ1; rw [scopedRest10_split, ownSems0_eq]; simp only [sc0, sc1, sc2, owns_whole]; try rfl

def dat (c : Dev nD) : Dat τ (Elt F) Unit ℕ (Pipeline.UD sig nD τ) ℕ (cfg10 a) c where
  A w := V c (Pipeline.arrRef spec10 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg10 a).W) : (dat V a hp0 hp1 c).A w = V c (Pipeline.arrRef spec10 w) := by
  dsimp only [dat]
theorem after_0 (c : Dev nD) (t : Fin (cfg10 a).N) : (dat V a hp0 hp1 c).after 0 t = iblk V a c 0 t := by dsimp only [dat]; rfl
theorem after_1 (c : Dev nD) (t : Fin (cfg10 a).N) : (dat V a hp0 hp1 c).after 1 t = iblk V a c 1 t := by dsimp only [dat]; rfl
theorem after_2 (c : Dev nD) (t : Fin (cfg10 a).N) : (dat V a hp0 hp1 c).after 2 t = iblk V a c 2 t := by dsimp only [dat]; rfl
theorem after_3 (c : Dev nD) (t : Fin (cfg10 a).N) : (dat V a hp0 hp1 c).after 3 t = iblk V a c 3 t := by dsimp only [dat]; rfl
theorem after_4 (c : Dev nD) (t : Fin (cfg10 a).N) : (dat V a hp0 hp1 c).after 4 t = iblk V a c 4 t := by dsimp only [dat]; rfl
theorem after_5 (c : Dev nD) (t : Fin (cfg10 a).N) : (dat V a hp0 hp1 c).after 5 t = (stAt V a hp0 hp1 c t.val t.isLt).1 := by dsimp only [dat]; rfl
theorem after_6 (c : Dev nD) (t : Fin (cfg10 a).N) : (dat V a hp0 hp1 c).after 6 t = (stAt V a hp0 hp1 c t.val t.isLt).2.1 := by dsimp only [dat]; rfl
theorem before_0 (c : Dev nD) (t : Fin (cfg10 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg10 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg10 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg10 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg10 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg10 a).N) (h : t'.val + 1 < (cfg10 a).N) : ((cfg10 a).win 5).flush t' = false := by
  unfold Pipeline.Window.flush
  rw [Bool.and_eq_false_iff]; right
  rw [Bool.or_eq_false_iff]
  have h' : t'.val + 1 < (cfg10 a).grid.N := h
  exact ⟨decide_eq_false (by omega), decide_eq_false (fun ⟨_, hne⟩ => hne rfl)⟩
theorem before_5_B (c : Dev nD) (t : Fin (cfg10 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg10 a).N) (h : t'.val + 1 < (cfg10 a).N) : ((cfg10 a).win 6).flush t' = false := by
  unfold Pipeline.Window.flush
  rw [Bool.and_eq_false_iff]; right
  rw [Bool.or_eq_false_iff]
  have h' : t'.val + 1 < (cfg10 a).grid.N := h
  exact ⟨decide_eq_false (by omega), decide_eq_false (fun ⟨_, hne⟩ => hne rfl)⟩
theorem before_6_B (c : Dev nD) (t : Fin (cfg10 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg10 a).N) : Prog (TpuEff nD τ sig (Elt F) Λ₀ .tc) PUnit :=
  (cc10__pass1_kernel (grid10.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc10_scratch3)

def bodyPre (c : Dev nD) (t : Fin (cfg10 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg10 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg10 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc10_scratch3 c (grid10.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v43_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc10_scratch3 c (grid10.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W10, bigSep_W10]
  exact sound_body V a hp0 hp1 c t

end Cert.KernelIdeal.P1R10

end
-- ==== Proof.P1R10Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.P1R10Dat
import proofs.«400866_j57071525429608_2_alg».proof.Proof.Assemble

set_option maxRecDepth 16384

noncomputable section

namespace Cert.KernelIdeal.P1R10

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Asm (Rr L₀ lv₀)
open Cert.KernelIdeal.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid10.Coords), k10_chk1 (tw0 tb0 c i (T0 (adm 10) c))) (hp1 : ∀ c (i : grid10.Coords), k10_chk2 (tw1 tb1 c i (T1 (adm 10) c)))

/-- The unscoped buffers the body moves itself or reads as tables: no window's array. -/
def H : Finset (Ref sig .tc) := {main_arg0, main_v41, main_v42, main_v43_0}
theorem H_sub : H ⊆ Pipeline.restRefs sig spec10 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v41) ∗ pt c tb1 (W main_v42) ∗ pt c hM (W main_v43_0)) := by
  rw [BI.bigSep_eq_bigSepL_of_eq [main_arg0, main_v41, main_v42, main_v43_0] (by decide) (by decide)]; rfl

/-- The two tables held, listed. -/
theorem pref_eq (c : Dev nD) (T : (pcfgs (F := F) 10).pre.Contents (Elt F)) :
    (Pipeline.prefHeld (Ix := Unit) (Name := ℕ) (U := Pipeline.UD sig nD τ) (Lvl := ℕ) (pcfgs (F := F) 10).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 10) hp0 hp1 c (cfg10 (adm 10)).N le_rfl

/-- The entry valuation with the hidden array at its final contents: what the unscoped rest is at the exit. -/
def Vmid (c : Dev nD) : (b : Ref sig .tc) → Buf (Elt F) ((c : Thread nD τ).loc b) :=
  Function.update (Vin Win c) main_v43_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec10 c W : sProp 𝕄)
      = iprop((bigSep H fun b => ((c : Thread nD τ).loc b) ↦{fullShare} W b) ∗ (bigSep (Pipeline.restRefs sig spec10 \ H) fun b => ((c : Thread nD τ).loc b) ↦{fullShare} W b)) := by
  unfold Pipeline.unscopedRest; exact BI.bigSep_sdiff_split H_sub

set_option maxHeartbeats 4000000 in
def reg (hpd : ∀ c, pdats 10 c = dat (Vin Win) (adm 10) hp0 hp1 c)
    (hT0 : ∀ c, Vin Win c main_v41 = T0 (adm 10) c) (hT1 : ∀ c, Vin Win c main_v42 = T1 (adm 10) c)
    (hF : ∀ c w, (dat (Vin Win) (adm 10) hp0 hp1 c).arrAt w (cfg10 (adm 10)).N = Vout Wout c (Pipeline.arrRef spec10 w))
    (hrest : ∀ c b, b ∉ Finset.univ.image (Pipeline.arrRef spec10) → Vout Wout c b = Vmid adm Win hp0 hp1 c b) :
    Pipeline.RegionSeg (pcfgs (F := F)) adm pdats () defs₀ Variants.none L₀ lv₀ 10 where
  win := winFacts10.to₀
  block_pos := block_pos10
  stage_whole := stage_whole10
  K := Fin 3
  osem := osem
  ho := ownSemFacts
  hbody c := by rw [hpd c]; exact (body_obligation (Vin Win) (adm 10) hp0 hp1 c).loose
  hwaits := Pipeline.hwaits_of_owed_zero _ _ _ _ L₀ lv₀ 10 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v43_0))
  Y c := iprop((∃ r, prngReg c r) ∗ pt c tb0 (T0 (adm 10) c) ∗ pt c tb1 (T1 (adm 10) c) ∗ pt c xM (Vin Win c main_arg0) ∗ pt c hM (hEnd adm Win hp0 hp1 c))
  Z c := bigSep (Pipeline.restRefs sig spec10 \ H) fun b => ((c : Thread nD τ).loc b) ↦{fullShare} Vin Win c b
  hentry c := by
    have hsplit : (StableHlo.held (c : Thread nD τ) (Pipeline.ucRefs τ sig) (Win c) : sProp 𝕄)
        ⊢ iprop((pdats 10 c).arrays ((pdats 10 c).arrAt · 0) ∗ Pipeline.unscopedRest (Ix := Unit) (Name := ℕ) (U := Pipeline.UD sig nD τ) (Lvl := ℕ) spec10 c (Vin Win c)) := by
      have h := Pipeline.arrays_of_unscopedBufs (p := 10) (pcfgs (F := F)) adm pdats winFacts10 arr_whole10 c
        (by rw [hpd c]; exact (dat (Vin Win) (adm 10) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 10 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 10) hp0 hp1 c 0 (Nat.zero_le _)
    unfold Φ1
    rw [pref_eq, show hAt (Vin Win) (adm 10) hp0 hp1 c 0 (Nat.zero_le _) = Vin Win c main_v43_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 10) hp0 hp1 c (cfg10 (adm 10)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 10 c).arrays ((pdats 10 c).arrAt · (cfg10 (adm 10)).N) ∗ Pipeline.unscopedRest (Ix := Unit) (Name := ℕ) (U := Pipeline.UD sig nD τ) (Lvl := ℕ) spec10 c (Vmid adm Win hp0 hp1 c))
        ⊢ (StableHlo.held (c : Thread nD τ) (Pipeline.ucRefs τ sig) (Wout c) : sProp 𝕄) := by
      have h := Pipeline.unscopedBufs_of_arrays (p := 10) (pcfgs (F := F)) adm (Ix := Unit) (Name := ℕ) (U := Pipeline.UD sig nD τ) (Lvl := ℕ)
        winFacts10 arr_whole10 c pdats (by rw [hpd c]; exact (dat (Vin Win) (adm 10) hp0 hp1 c).share_full fun _ => rfl)
        (Vmid adm Win hp0 hp1 c) (Vout Wout c) ((pdats 10 c).arrAt · (cfg10 (adm 10)).N) (by rw [hpd c]; exact hF c) (hrest c)
      rw [Pipeline.unscopedBufs_held] at h; exact h
    rw [rest_split, Hpts_eq] at hjoin
    have hZ : (bigSep (Pipeline.restRefs sig spec10 \ H) fun b => ((c : Thread nD τ).loc b) ↦{fullShare} Vin Win c b : sProp 𝕄)
        = (bigSep (Pipeline.restRefs sig spec10 \ H) fun b => ((c : Thread nD τ).loc b) ↦{fullShare} Vmid adm Win hp0 hp1 c b) :=
      bigSep_congr fun b hb => by
        have hne : b ≠ main_v43_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v41 = Vin Win c main_v41 := by unfold Vmid; exact Function.update_of_ne (by decide) _ _
    have e2 : Vmid adm Win hp0 hp1 c main_v42 = Vin Win c main_v42 := by unfold Vmid; exact Function.update_of_ne (by decide) _ _
    have e3 : Vmid adm Win hp0 hp1 c main_v43_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 10 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.KernelIdeal.P1R10

end
-- ==== Proof.P1R11Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.P1Body
import proofs.«400866_j57071525429608_2_alg».proof.Proof.P1State
import proofs.«400866_j57071525429608_2_alg».proof.Proof.P1Kern

set_option maxRecDepth 100000

noncomputable section

namespace Cert.KernelIdeal.P1R11

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc11__pass1_kernel (F := F) = P1.kern := rfl

-- The buffer contents when the region is entered, and the admissible index tables.
variable (V : (c : Dev nD) → (b : Ref sig .tc) → Buf (Elt F) ((c : Thread nD τ).loc b))
variable (a : (pcfg11 (F := F)).Adm)

/-- The two index tables, the node-feature array and the hidden array, as the body is handed them. -/
abbrev tb0 : Memref sig .tc .smem S62500 .i32 := Memref.whole main_v44
abbrev tb1 : Memref sig .tc .smem S62500 .i32 := Memref.whole main_v45
abbrev xM : Memref sig .tc .hbm S100000x128 .f32 := Memref.whole main_arg0
abbrev hM : Memref sig .tc .hbm S62500x64 .f32 := Memref.whole main_v46_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid11.Coords), k11_chk1 (tw0 tb0 c i (T0 a c))) (hp1 : ∀ c (i : grid11.Coords), k11_chk2 (tw1 tb1 c i (T1 a c)))

/-- Window `w`'s block at point `t`, read off its array as the region finds it. -/
def iblk (c : Dev nD) (w : Fin (cfg11 a).W) (t : Fin (cfg11 a).N) : (((cfg11 a).win w).xblock ((cfg11 a).grid.coords t)).Idx → Elt F ((cfg11 a).win w).elt :=
  (((cfg11 a).win w).blk t).view.read (Elt F) (V c (Pipeline.arrRef spec11 w))

/-- Each window's current staging memref at point `t`, as the pipeline passes it to the body. -/
abbrev ms0 (t : Fin (cfg11 a).N) : Memref sig .tc .vmem S64x128 .f32 := spec11_0.stage ((cfg11 a).slots t 0)
abbrev hs0 (t : Fin (cfg11 a).N) : (ms0 a t).IsWhole := hstage11_0 (((cfg11 a).slots t 0).cast nbuf11_0)
abbrev ms1 (t : Fin (cfg11 a).N) : Memref sig .tc .vmem S64x128 .f32 := spec11_1.stage ((cfg11 a).slots t 1)
abbrev hs1 (t : Fin (cfg11 a).N) : (ms1 a t).IsWhole := hstage11_1 (((cfg11 a).slots t 1).cast nbuf11_1)
abbrev ms2 (t : Fin (cfg11 a).N) : Memref sig .tc .vmem S1x64 .f32 := spec11_2.stage ((cfg11 a).slots t 2)
abbrev hs2 (t : Fin (cfg11 a).N) : (ms2 a t).IsWhole := hstage11_2 (((cfg11 a).slots t 2).cast nbuf11_2)
abbrev ms3 (t : Fin (cfg11 a).N) : Memref sig .tc .vmem S64x64 .f32 := spec11_3.stage ((cfg11 a).slots t 3)
abbrev hs3 (t : Fin (cfg11 a).N) : (ms3 a t).IsWhole := hstage11_3 (((cfg11 a).slots t 3).cast nbuf11_3)
abbrev ms4 (t : Fin (cfg11 a).N) : Memref sig .tc .vmem S1x64 .f32 := spec11_4.stage ((cfg11 a).slots t 4)
abbrev hs4 (t : Fin (cfg11 a).N) : (ms4 a t).IsWhole := hstage11_4 (((cfg11 a).slots t 4).cast nbuf11_4)
abbrev ms5 (t : Fin (cfg11 a).N) : Memref sig .tc .vmem S1x64 .f32 := spec11_5.stage ((cfg11 a).slots t 5)
abbrev hs5 (t : Fin (cfg11 a).N) : (ms5 a t).IsWhole := hstage11_5 (((cfg11 a).slots t 5).cast nbuf11_5)
abbrev ms6 (t : Fin (cfg11 a).N) : Memref sig .tc .vmem S1x64 .f32 := spec11_6.stage ((cfg11 a).slots t 6)
abbrev hs6 (t : Fin (cfg11 a).N) : (ms6 a t).IsWhole := hstage11_6 (((cfg11 a).slots t 6).cast nbuf11_6)
/-- The three scratch buffers (the two gathered rows and the hidden row). -/
abbrev sc0 : Memref sig .tc .vmem S1x128 .f32 := Memref.whole cc11_scratch0
abbrev sc1 : Memref sig .tc .vmem S1x128 .f32 := Memref.whole cc11_scratch1
abbrev sc2 : Memref sig .tc .vmem S1x64 .f32 := Memref.whole cc11_scratch2

/-- The body's own three copy semaphores. -/
abbrev osem : Fin 3 → SemLoc sig := fun j => (![SemLoc.dma 117, SemLoc.dma 118, SemLoc.dma 119] : Fin 3 → SemLoc sig) j
theorem ownSemFacts : Pipeline.OwnSemFacts spec11 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc11_scratch3 0) 0 ∗ semVal ((c : Thread nD τ), semAt cc11_scratch3 1) 0 ∗ semVal ((c : Thread nD τ), semAt cc11_scratch3 2) 0) := by
  rw [Pipeline.ownSems0_eq_of_list c osem [0, 1, 2] (by decide) (by decide)]; rfl

/-- The grid point's coordinate. -/
abbrev crd (t : Fin (cfg11 a).N) : grid11.Coords := grid11.coords t

/-- The grid is one axis of 62500 points: the coordinate of point `t` is `t`. -/
theorem coord_val (t : Fin (cfg11 a).N) : ((crd a t) 0).val = t.val := by
  have hN : t.val < 62500 := lt_of_lt_of_eq t.isLt N_11
  show t.val / grid11.stride 0 % grid11.bound 0 = t.val
  rw [show grid11.stride 0 = 1 from by decide, Nat.div_one]
  exact Nat.mod_eq_of_lt hN

/-- The branch is taken at the first point and at no other. -/
theorem hcond (t : Fin (cfg11 a).N) : cond0_0 (grid11.coords t) ↔ t.val = 0 := by
  have hN : t.val < 62500 := lt_of_lt_of_eq t.isLt N_11
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg11 a).N) : St (F := F) c :=
  P1.stG tb0 tb1 xM hM c (cfg11 a).N (crd a) (fun t => iblk V a c 0 t) (fun t => iblk V a c 1 t) (fun t => iblk V a c 2 t) (fun t => iblk V a c 3 t) (fun t => iblk V a c 4 t) (T0 a c) (T1 a c) (V c main_arg0) (V c main_v46_0) (fun t => hp0 c (crd a t)) (fun t => hp1 c (crd a t)) n hn

/-- The hidden array before point `n` (after `n` points). -/
def hAt (c : Dev nD) (n : ℕ) (hn : n ≤ (cfg11 a).N) : Bf (F := F) c hM :=
  P1.hG tb0 tb1 xM hM c (cfg11 a).N (crd a) (fun t => iblk V a c 0 t) (fun t => iblk V a c 1 t) (fun t => iblk V a c 2 t) (fun t => iblk V a c 3 t) (fun t => iblk V a c 4 t) (T0 a c) (T1 a c) (V c main_arg0) (V c main_v46_0) (fun t => hp0 c (crd a t)) (fun t => hp1 c (crd a t)) n hn

theorem stAt_zero (c : Dev nD) (t : Fin (cfg11 a).N) (h0 : t.val = 0) :
    stAt V a hp0 hp1 c t.val t.isLt
      = (P1.sumStep tb0 tb1 xM c (cfg11 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k11_pay1 (F := F)), P1.sqStep tb0 tb1 xM c (cfg11 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k11_pay2 (F := F)),
          hNext hM c (crd a t) (V c main_v46_0) (P1.rowStep tb0 tb1 xM c (cfg11 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg11 a).N) (h0 : ¬t.val = 0) :
    stAt V a hp0 hp1 c t.val t.isLt
      = (P1.sumStep tb0 tb1 xM c (cfg11 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg11 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg11 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg11 a).N) (h0 : t.val = 0) (hn) : hAt V a hp0 hp1 c t.val hn = V c main_v46_0 := by
  obtain ⟨n, hlt⟩ := t
  cases n with
  | zero => rfl
  | succ n => exact absurd h0 (Nat.succ_ne_zero n)
theorem hAt_pos (c : Dev nD) (t : Fin (cfg11 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg11 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg11 a).N) : sProp 𝕄 :=
  iprop(Pipeline.scopedRest (Ix := Unit) (Name := ℕ) (U := Pipeline.UD sig nD τ) (Lvl := ℕ) (Val := Elt F) spec11 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg11 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec11 c [cc11_scratch0, cc11_scratch1, cc11_scratch2])
          ∗ (∃ r, prngReg c r)
          ∗ iprop(semVal ((c : Thread nD τ), semAt cc11_scratch3 0) 0 ∗ semVal ((c : Thread nD τ), semAt cc11_scratch3 1) 0 ∗ semVal ((c : Thread nD τ), semAt cc11_scratch3 2) 0)
          ∗ pt c tb0 (T0 a c) ∗ pt c tb1 (T1 a c) ∗ pt c xM (V c main_arg0) ∗ pt c hM (hAt V a hp0 hp1 c n hn)) := by
  unfold Φ1; rw [scopedRest11_split, ownSems0_eq]; simp only [sc0, sc1, sc2, owns_whole]; try rfl

def dat (c : Dev nD) : Dat τ (Elt F) Unit ℕ (Pipeline.UD sig nD τ) ℕ (cfg11 a) c where
  A w := V c (Pipeline.arrRef spec11 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg11 a).W) : (dat V a hp0 hp1 c).A w = V c (Pipeline.arrRef spec11 w) := by
  dsimp only [dat]
theorem after_0 (c : Dev nD) (t : Fin (cfg11 a).N) : (dat V a hp0 hp1 c).after 0 t = iblk V a c 0 t := by dsimp only [dat]; rfl
theorem after_1 (c : Dev nD) (t : Fin (cfg11 a).N) : (dat V a hp0 hp1 c).after 1 t = iblk V a c 1 t := by dsimp only [dat]; rfl
theorem after_2 (c : Dev nD) (t : Fin (cfg11 a).N) : (dat V a hp0 hp1 c).after 2 t = iblk V a c 2 t := by dsimp only [dat]; rfl
theorem after_3 (c : Dev nD) (t : Fin (cfg11 a).N) : (dat V a hp0 hp1 c).after 3 t = iblk V a c 3 t := by dsimp only [dat]; rfl
theorem after_4 (c : Dev nD) (t : Fin (cfg11 a).N) : (dat V a hp0 hp1 c).after 4 t = iblk V a c 4 t := by dsimp only [dat]; rfl
theorem after_5 (c : Dev nD) (t : Fin (cfg11 a).N) : (dat V a hp0 hp1 c).after 5 t = (stAt V a hp0 hp1 c t.val t.isLt).1 := by dsimp only [dat]; rfl
theorem after_6 (c : Dev nD) (t : Fin (cfg11 a).N) : (dat V a hp0 hp1 c).after 6 t = (stAt V a hp0 hp1 c t.val t.isLt).2.1 := by dsimp only [dat]; rfl
theorem before_0 (c : Dev nD) (t : Fin (cfg11 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg11 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg11 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg11 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg11 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg11 a).N) (h : t'.val + 1 < (cfg11 a).N) : ((cfg11 a).win 5).flush t' = false := by
  unfold Pipeline.Window.flush
  rw [Bool.and_eq_false_iff]; right
  rw [Bool.or_eq_false_iff]
  have h' : t'.val + 1 < (cfg11 a).grid.N := h
  exact ⟨decide_eq_false (by omega), decide_eq_false (fun ⟨_, hne⟩ => hne rfl)⟩
theorem before_5_B (c : Dev nD) (t : Fin (cfg11 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg11 a).N) (h : t'.val + 1 < (cfg11 a).N) : ((cfg11 a).win 6).flush t' = false := by
  unfold Pipeline.Window.flush
  rw [Bool.and_eq_false_iff]; right
  rw [Bool.or_eq_false_iff]
  have h' : t'.val + 1 < (cfg11 a).grid.N := h
  exact ⟨decide_eq_false (by omega), decide_eq_false (fun ⟨_, hne⟩ => hne rfl)⟩
theorem before_6_B (c : Dev nD) (t : Fin (cfg11 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg11 a).N) : Prog (TpuEff nD τ sig (Elt F) Λ₀ .tc) PUnit :=
  (cc11__pass1_kernel (grid11.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc11_scratch3)

def bodyPre (c : Dev nD) (t : Fin (cfg11 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg11 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg11 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc11_scratch3 c (grid11.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v46_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc11_scratch3 c (grid11.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W11, bigSep_W11]
  exact sound_body V a hp0 hp1 c t

end Cert.KernelIdeal.P1R11

end
-- ==== Proof.P1R11Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.P1R11Dat
import proofs.«400866_j57071525429608_2_alg».proof.Proof.Assemble

set_option maxRecDepth 16384

noncomputable section

namespace Cert.KernelIdeal.P1R11

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Asm (Rr L₀ lv₀)
open Cert.KernelIdeal.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid11.Coords), k11_chk1 (tw0 tb0 c i (T0 (adm 11) c))) (hp1 : ∀ c (i : grid11.Coords), k11_chk2 (tw1 tb1 c i (T1 (adm 11) c)))

/-- The unscoped buffers the body moves itself or reads as tables: no window's array. -/
def H : Finset (Ref sig .tc) := {main_arg0, main_v44, main_v45, main_v46_0}
theorem H_sub : H ⊆ Pipeline.restRefs sig spec11 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v44) ∗ pt c tb1 (W main_v45) ∗ pt c hM (W main_v46_0)) := by
  rw [BI.bigSep_eq_bigSepL_of_eq [main_arg0, main_v44, main_v45, main_v46_0] (by decide) (by decide)]; rfl

/-- The two tables held, listed. -/
theorem pref_eq (c : Dev nD) (T : (pcfgs (F := F) 11).pre.Contents (Elt F)) :
    (Pipeline.prefHeld (Ix := Unit) (Name := ℕ) (U := Pipeline.UD sig nD τ) (Lvl := ℕ) (pcfgs (F := F) 11).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 11) hp0 hp1 c (cfg11 (adm 11)).N le_rfl

/-- The entry valuation with the hidden array at its final contents: what the unscoped rest is at the exit. -/
def Vmid (c : Dev nD) : (b : Ref sig .tc) → Buf (Elt F) ((c : Thread nD τ).loc b) :=
  Function.update (Vin Win c) main_v46_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec11 c W : sProp 𝕄)
      = iprop((bigSep H fun b => ((c : Thread nD τ).loc b) ↦{fullShare} W b) ∗ (bigSep (Pipeline.restRefs sig spec11 \ H) fun b => ((c : Thread nD τ).loc b) ↦{fullShare} W b)) := by
  unfold Pipeline.unscopedRest; exact BI.bigSep_sdiff_split H_sub

set_option maxHeartbeats 4000000 in
def reg (hpd : ∀ c, pdats 11 c = dat (Vin Win) (adm 11) hp0 hp1 c)
    (hT0 : ∀ c, Vin Win c main_v44 = T0 (adm 11) c) (hT1 : ∀ c, Vin Win c main_v45 = T1 (adm 11) c)
    (hF : ∀ c w, (dat (Vin Win) (adm 11) hp0 hp1 c).arrAt w (cfg11 (adm 11)).N = Vout Wout c (Pipeline.arrRef spec11 w))
    (hrest : ∀ c b, b ∉ Finset.univ.image (Pipeline.arrRef spec11) → Vout Wout c b = Vmid adm Win hp0 hp1 c b) :
    Pipeline.RegionSeg (pcfgs (F := F)) adm pdats () defs₀ Variants.none L₀ lv₀ 11 where
  win := winFacts11.to₀
  block_pos := block_pos11
  stage_whole := stage_whole11
  K := Fin 3
  osem := osem
  ho := ownSemFacts
  hbody c := by rw [hpd c]; exact (body_obligation (Vin Win) (adm 11) hp0 hp1 c).loose
  hwaits := Pipeline.hwaits_of_owed_zero _ _ _ _ L₀ lv₀ 11 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v46_0))
  Y c := iprop((∃ r, prngReg c r) ∗ pt c tb0 (T0 (adm 11) c) ∗ pt c tb1 (T1 (adm 11) c) ∗ pt c xM (Vin Win c main_arg0) ∗ pt c hM (hEnd adm Win hp0 hp1 c))
  Z c := bigSep (Pipeline.restRefs sig spec11 \ H) fun b => ((c : Thread nD τ).loc b) ↦{fullShare} Vin Win c b
  hentry c := by
    have hsplit : (StableHlo.held (c : Thread nD τ) (Pipeline.ucRefs τ sig) (Win c) : sProp 𝕄)
        ⊢ iprop((pdats 11 c).arrays ((pdats 11 c).arrAt · 0) ∗ Pipeline.unscopedRest (Ix := Unit) (Name := ℕ) (U := Pipeline.UD sig nD τ) (Lvl := ℕ) spec11 c (Vin Win c)) := by
      have h := Pipeline.arrays_of_unscopedBufs (p := 11) (pcfgs (F := F)) adm pdats winFacts11 arr_whole11 c
        (by rw [hpd c]; exact (dat (Vin Win) (adm 11) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 11 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 11) hp0 hp1 c 0 (Nat.zero_le _)
    unfold Φ1
    rw [pref_eq, show hAt (Vin Win) (adm 11) hp0 hp1 c 0 (Nat.zero_le _) = Vin Win c main_v46_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 11) hp0 hp1 c (cfg11 (adm 11)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 11 c).arrays ((pdats 11 c).arrAt · (cfg11 (adm 11)).N) ∗ Pipeline.unscopedRest (Ix := Unit) (Name := ℕ) (U := Pipeline.UD sig nD τ) (Lvl := ℕ) spec11 c (Vmid adm Win hp0 hp1 c))
        ⊢ (StableHlo.held (c : Thread nD τ) (Pipeline.ucRefs τ sig) (Wout c) : sProp 𝕄) := by
      have h := Pipeline.unscopedBufs_of_arrays (p := 11) (pcfgs (F := F)) adm (Ix := Unit) (Name := ℕ) (U := Pipeline.UD sig nD τ) (Lvl := ℕ)
        winFacts11 arr_whole11 c pdats (by rw [hpd c]; exact (dat (Vin Win) (adm 11) hp0 hp1 c).share_full fun _ => rfl)
        (Vmid adm Win hp0 hp1 c) (Vout Wout c) ((pdats 11 c).arrAt · (cfg11 (adm 11)).N) (by rw [hpd c]; exact hF c) (hrest c)
      rw [Pipeline.unscopedBufs_held] at h; exact h
    rw [rest_split, Hpts_eq] at hjoin
    have hZ : (bigSep (Pipeline.restRefs sig spec11 \ H) fun b => ((c : Thread nD τ).loc b) ↦{fullShare} Vin Win c b : sProp 𝕄)
        = (bigSep (Pipeline.restRefs sig spec11 \ H) fun b => ((c : Thread nD τ).loc b) ↦{fullShare} Vmid adm Win hp0 hp1 c b) :=
      bigSep_congr fun b hb => by
        have hne : b ≠ main_v46_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v44 = Vin Win c main_v44 := by unfold Vmid; exact Function.update_of_ne (by decide) _ _
    have e2 : Vmid adm Win hp0 hp1 c main_v45 = Vin Win c main_v45 := by unfold Vmid; exact Function.update_of_ne (by decide) _ _
    have e3 : Vmid adm Win hp0 hp1 c main_v46_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 11 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.KernelIdeal.P1R11

end
-- ==== Proof.P1R12Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.P1Body
import proofs.«400866_j57071525429608_2_alg».proof.Proof.P1State
import proofs.«400866_j57071525429608_2_alg».proof.Proof.P1Kern

set_option maxRecDepth 100000

noncomputable section

namespace Cert.KernelIdeal.P1R12

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc12__pass1_kernel (F := F) = P1.kern := rfl

-- The buffer contents when the region is entered, and the admissible index tables.
variable (V : (c : Dev nD) → (b : Ref sig .tc) → Buf (Elt F) ((c : Thread nD τ).loc b))
variable (a : (pcfg12 (F := F)).Adm)

/-- The two index tables, the node-feature array and the hidden array, as the body is handed them. -/
abbrev tb0 : Memref sig .tc .smem S62500 .i32 := Memref.whole main_v47
abbrev tb1 : Memref sig .tc .smem S62500 .i32 := Memref.whole main_v48
abbrev xM : Memref sig .tc .hbm S100000x128 .f32 := Memref.whole main_arg0
abbrev hM : Memref sig .tc .hbm S62500x64 .f32 := Memref.whole main_v49_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid12.Coords), k12_chk1 (tw0 tb0 c i (T0 a c))) (hp1 : ∀ c (i : grid12.Coords), k12_chk2 (tw1 tb1 c i (T1 a c)))

/-- Window `w`'s block at point `t`, read off its array as the region finds it. -/
def iblk (c : Dev nD) (w : Fin (cfg12 a).W) (t : Fin (cfg12 a).N) : (((cfg12 a).win w).xblock ((cfg12 a).grid.coords t)).Idx → Elt F ((cfg12 a).win w).elt :=
  (((cfg12 a).win w).blk t).view.read (Elt F) (V c (Pipeline.arrRef spec12 w))

/-- Each window's current staging memref at point `t`, as the pipeline passes it to the body. -/
abbrev ms0 (t : Fin (cfg12 a).N) : Memref sig .tc .vmem S64x128 .f32 := spec12_0.stage ((cfg12 a).slots t 0)
abbrev hs0 (t : Fin (cfg12 a).N) : (ms0 a t).IsWhole := hstage12_0 (((cfg12 a).slots t 0).cast nbuf12_0)
abbrev ms1 (t : Fin (cfg12 a).N) : Memref sig .tc .vmem S64x128 .f32 := spec12_1.stage ((cfg12 a).slots t 1)
abbrev hs1 (t : Fin (cfg12 a).N) : (ms1 a t).IsWhole := hstage12_1 (((cfg12 a).slots t 1).cast nbuf12_1)
abbrev ms2 (t : Fin (cfg12 a).N) : Memref sig .tc .vmem S1x64 .f32 := spec12_2.stage ((cfg12 a).slots t 2)
abbrev hs2 (t : Fin (cfg12 a).N) : (ms2 a t).IsWhole := hstage12_2 (((cfg12 a).slots t 2).cast nbuf12_2)
abbrev ms3 (t : Fin (cfg12 a).N) : Memref sig .tc .vmem S64x64 .f32 := spec12_3.stage ((cfg12 a).slots t 3)
abbrev hs3 (t : Fin (cfg12 a).N) : (ms3 a t).IsWhole := hstage12_3 (((cfg12 a).slots t 3).cast nbuf12_3)
abbrev ms4 (t : Fin (cfg12 a).N) : Memref sig .tc .vmem S1x64 .f32 := spec12_4.stage ((cfg12 a).slots t 4)
abbrev hs4 (t : Fin (cfg12 a).N) : (ms4 a t).IsWhole := hstage12_4 (((cfg12 a).slots t 4).cast nbuf12_4)
abbrev ms5 (t : Fin (cfg12 a).N) : Memref sig .tc .vmem S1x64 .f32 := spec12_5.stage ((cfg12 a).slots t 5)
abbrev hs5 (t : Fin (cfg12 a).N) : (ms5 a t).IsWhole := hstage12_5 (((cfg12 a).slots t 5).cast nbuf12_5)
abbrev ms6 (t : Fin (cfg12 a).N) : Memref sig .tc .vmem S1x64 .f32 := spec12_6.stage ((cfg12 a).slots t 6)
abbrev hs6 (t : Fin (cfg12 a).N) : (ms6 a t).IsWhole := hstage12_6 (((cfg12 a).slots t 6).cast nbuf12_6)
/-- The three scratch buffers (the two gathered rows and the hidden row). -/
abbrev sc0 : Memref sig .tc .vmem S1x128 .f32 := Memref.whole cc12_scratch0
abbrev sc1 : Memref sig .tc .vmem S1x128 .f32 := Memref.whole cc12_scratch1
abbrev sc2 : Memref sig .tc .vmem S1x64 .f32 := Memref.whole cc12_scratch2

/-- The body's own three copy semaphores. -/
abbrev osem : Fin 3 → SemLoc sig := fun j => (![SemLoc.dma 127, SemLoc.dma 128, SemLoc.dma 129] : Fin 3 → SemLoc sig) j
theorem ownSemFacts : Pipeline.OwnSemFacts spec12 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc12_scratch3 0) 0 ∗ semVal ((c : Thread nD τ), semAt cc12_scratch3 1) 0 ∗ semVal ((c : Thread nD τ), semAt cc12_scratch3 2) 0) := by
  rw [Pipeline.ownSems0_eq_of_list c osem [0, 1, 2] (by decide) (by decide)]; rfl

/-- The grid point's coordinate. -/
abbrev crd (t : Fin (cfg12 a).N) : grid12.Coords := grid12.coords t

/-- The grid is one axis of 62500 points: the coordinate of point `t` is `t`. -/
theorem coord_val (t : Fin (cfg12 a).N) : ((crd a t) 0).val = t.val := by
  have hN : t.val < 62500 := lt_of_lt_of_eq t.isLt N_12
  show t.val / grid12.stride 0 % grid12.bound 0 = t.val
  rw [show grid12.stride 0 = 1 from by decide, Nat.div_one]
  exact Nat.mod_eq_of_lt hN

/-- The branch is taken at the first point and at no other. -/
theorem hcond (t : Fin (cfg12 a).N) : cond0_0 (grid12.coords t) ↔ t.val = 0 := by
  have hN : t.val < 62500 := lt_of_lt_of_eq t.isLt N_12
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg12 a).N) : St (F := F) c :=
  P1.stG tb0 tb1 xM hM c (cfg12 a).N (crd a) (fun t => iblk V a c 0 t) (fun t => iblk V a c 1 t) (fun t => iblk V a c 2 t) (fun t => iblk V a c 3 t) (fun t => iblk V a c 4 t) (T0 a c) (T1 a c) (V c main_arg0) (V c main_v49_0) (fun t => hp0 c (crd a t)) (fun t => hp1 c (crd a t)) n hn

/-- The hidden array before point `n` (after `n` points). -/
def hAt (c : Dev nD) (n : ℕ) (hn : n ≤ (cfg12 a).N) : Bf (F := F) c hM :=
  P1.hG tb0 tb1 xM hM c (cfg12 a).N (crd a) (fun t => iblk V a c 0 t) (fun t => iblk V a c 1 t) (fun t => iblk V a c 2 t) (fun t => iblk V a c 3 t) (fun t => iblk V a c 4 t) (T0 a c) (T1 a c) (V c main_arg0) (V c main_v49_0) (fun t => hp0 c (crd a t)) (fun t => hp1 c (crd a t)) n hn

theorem stAt_zero (c : Dev nD) (t : Fin (cfg12 a).N) (h0 : t.val = 0) :
    stAt V a hp0 hp1 c t.val t.isLt
      = (P1.sumStep tb0 tb1 xM c (cfg12 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k12_pay1 (F := F)), P1.sqStep tb0 tb1 xM c (cfg12 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k12_pay2 (F := F)),
          hNext hM c (crd a t) (V c main_v49_0) (P1.rowStep tb0 tb1 xM c (cfg12 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg12 a).N) (h0 : ¬t.val = 0) :
    stAt V a hp0 hp1 c t.val t.isLt
      = (P1.sumStep tb0 tb1 xM c (cfg12 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg12 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg12 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg12 a).N) (h0 : t.val = 0) (hn) : hAt V a hp0 hp1 c t.val hn = V c main_v49_0 := by
  obtain ⟨n, hlt⟩ := t
  cases n with
  | zero => rfl
  | succ n => exact absurd h0 (Nat.succ_ne_zero n)
theorem hAt_pos (c : Dev nD) (t : Fin (cfg12 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg12 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg12 a).N) : sProp 𝕄 :=
  iprop(Pipeline.scopedRest (Ix := Unit) (Name := ℕ) (U := Pipeline.UD sig nD τ) (Lvl := ℕ) (Val := Elt F) spec12 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg12 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec12 c [cc12_scratch0, cc12_scratch1, cc12_scratch2])
          ∗ (∃ r, prngReg c r)
          ∗ iprop(semVal ((c : Thread nD τ), semAt cc12_scratch3 0) 0 ∗ semVal ((c : Thread nD τ), semAt cc12_scratch3 1) 0 ∗ semVal ((c : Thread nD τ), semAt cc12_scratch3 2) 0)
          ∗ pt c tb0 (T0 a c) ∗ pt c tb1 (T1 a c) ∗ pt c xM (V c main_arg0) ∗ pt c hM (hAt V a hp0 hp1 c n hn)) := by
  unfold Φ1; rw [scopedRest12_split, ownSems0_eq]; simp only [sc0, sc1, sc2, owns_whole]; try rfl

def dat (c : Dev nD) : Dat τ (Elt F) Unit ℕ (Pipeline.UD sig nD τ) ℕ (cfg12 a) c where
  A w := V c (Pipeline.arrRef spec12 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg12 a).W) : (dat V a hp0 hp1 c).A w = V c (Pipeline.arrRef spec12 w) := by
  dsimp only [dat]
theorem after_0 (c : Dev nD) (t : Fin (cfg12 a).N) : (dat V a hp0 hp1 c).after 0 t = iblk V a c 0 t := by dsimp only [dat]; rfl
theorem after_1 (c : Dev nD) (t : Fin (cfg12 a).N) : (dat V a hp0 hp1 c).after 1 t = iblk V a c 1 t := by dsimp only [dat]; rfl
theorem after_2 (c : Dev nD) (t : Fin (cfg12 a).N) : (dat V a hp0 hp1 c).after 2 t = iblk V a c 2 t := by dsimp only [dat]; rfl
theorem after_3 (c : Dev nD) (t : Fin (cfg12 a).N) : (dat V a hp0 hp1 c).after 3 t = iblk V a c 3 t := by dsimp only [dat]; rfl
theorem after_4 (c : Dev nD) (t : Fin (cfg12 a).N) : (dat V a hp0 hp1 c).after 4 t = iblk V a c 4 t := by dsimp only [dat]; rfl
theorem after_5 (c : Dev nD) (t : Fin (cfg12 a).N) : (dat V a hp0 hp1 c).after 5 t = (stAt V a hp0 hp1 c t.val t.isLt).1 := by dsimp only [dat]; rfl
theorem after_6 (c : Dev nD) (t : Fin (cfg12 a).N) : (dat V a hp0 hp1 c).after 6 t = (stAt V a hp0 hp1 c t.val t.isLt).2.1 := by dsimp only [dat]; rfl
theorem before_0 (c : Dev nD) (t : Fin (cfg12 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg12 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg12 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg12 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg12 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg12 a).N) (h : t'.val + 1 < (cfg12 a).N) : ((cfg12 a).win 5).flush t' = false := by
  unfold Pipeline.Window.flush
  rw [Bool.and_eq_false_iff]; right
  rw [Bool.or_eq_false_iff]
  have h' : t'.val + 1 < (cfg12 a).grid.N := h
  exact ⟨decide_eq_false (by omega), decide_eq_false (fun ⟨_, hne⟩ => hne rfl)⟩
theorem before_5_B (c : Dev nD) (t : Fin (cfg12 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg12 a).N) (h : t'.val + 1 < (cfg12 a).N) : ((cfg12 a).win 6).flush t' = false := by
  unfold Pipeline.Window.flush
  rw [Bool.and_eq_false_iff]; right
  rw [Bool.or_eq_false_iff]
  have h' : t'.val + 1 < (cfg12 a).grid.N := h
  exact ⟨decide_eq_false (by omega), decide_eq_false (fun ⟨_, hne⟩ => hne rfl)⟩
theorem before_6_B (c : Dev nD) (t : Fin (cfg12 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg12 a).N) : Prog (TpuEff nD τ sig (Elt F) Λ₀ .tc) PUnit :=
  (cc12__pass1_kernel (grid12.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc12_scratch3)

def bodyPre (c : Dev nD) (t : Fin (cfg12 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg12 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg12 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc12_scratch3 c (grid12.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v49_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc12_scratch3 c (grid12.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W12, bigSep_W12]
  exact sound_body V a hp0 hp1 c t

end Cert.KernelIdeal.P1R12

end
-- ==== Proof.P1R12Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.P1R12Dat
import proofs.«400866_j57071525429608_2_alg».proof.Proof.Assemble

set_option maxRecDepth 16384

noncomputable section

namespace Cert.KernelIdeal.P1R12

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Asm (Rr L₀ lv₀)
open Cert.KernelIdeal.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid12.Coords), k12_chk1 (tw0 tb0 c i (T0 (adm 12) c))) (hp1 : ∀ c (i : grid12.Coords), k12_chk2 (tw1 tb1 c i (T1 (adm 12) c)))

/-- The unscoped buffers the body moves itself or reads as tables: no window's array. -/
def H : Finset (Ref sig .tc) := {main_arg0, main_v47, main_v48, main_v49_0}
theorem H_sub : H ⊆ Pipeline.restRefs sig spec12 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v47) ∗ pt c tb1 (W main_v48) ∗ pt c hM (W main_v49_0)) := by
  rw [BI.bigSep_eq_bigSepL_of_eq [main_arg0, main_v47, main_v48, main_v49_0] (by decide) (by decide)]; rfl

/-- The two tables held, listed. -/
theorem pref_eq (c : Dev nD) (T : (pcfgs (F := F) 12).pre.Contents (Elt F)) :
    (Pipeline.prefHeld (Ix := Unit) (Name := ℕ) (U := Pipeline.UD sig nD τ) (Lvl := ℕ) (pcfgs (F := F) 12).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 12) hp0 hp1 c (cfg12 (adm 12)).N le_rfl

/-- The entry valuation with the hidden array at its final contents: what the unscoped rest is at the exit. -/
def Vmid (c : Dev nD) : (b : Ref sig .tc) → Buf (Elt F) ((c : Thread nD τ).loc b) :=
  Function.update (Vin Win c) main_v49_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec12 c W : sProp 𝕄)
      = iprop((bigSep H fun b => ((c : Thread nD τ).loc b) ↦{fullShare} W b) ∗ (bigSep (Pipeline.restRefs sig spec12 \ H) fun b => ((c : Thread nD τ).loc b) ↦{fullShare} W b)) := by
  unfold Pipeline.unscopedRest; exact BI.bigSep_sdiff_split H_sub

set_option maxHeartbeats 4000000 in
def reg (hpd : ∀ c, pdats 12 c = dat (Vin Win) (adm 12) hp0 hp1 c)
    (hT0 : ∀ c, Vin Win c main_v47 = T0 (adm 12) c) (hT1 : ∀ c, Vin Win c main_v48 = T1 (adm 12) c)
    (hF : ∀ c w, (dat (Vin Win) (adm 12) hp0 hp1 c).arrAt w (cfg12 (adm 12)).N = Vout Wout c (Pipeline.arrRef spec12 w))
    (hrest : ∀ c b, b ∉ Finset.univ.image (Pipeline.arrRef spec12) → Vout Wout c b = Vmid adm Win hp0 hp1 c b) :
    Pipeline.RegionSeg (pcfgs (F := F)) adm pdats () defs₀ Variants.none L₀ lv₀ 12 where
  win := winFacts12.to₀
  block_pos := block_pos12
  stage_whole := stage_whole12
  K := Fin 3
  osem := osem
  ho := ownSemFacts
  hbody c := by rw [hpd c]; exact (body_obligation (Vin Win) (adm 12) hp0 hp1 c).loose
  hwaits := Pipeline.hwaits_of_owed_zero _ _ _ _ L₀ lv₀ 12 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v49_0))
  Y c := iprop((∃ r, prngReg c r) ∗ pt c tb0 (T0 (adm 12) c) ∗ pt c tb1 (T1 (adm 12) c) ∗ pt c xM (Vin Win c main_arg0) ∗ pt c hM (hEnd adm Win hp0 hp1 c))
  Z c := bigSep (Pipeline.restRefs sig spec12 \ H) fun b => ((c : Thread nD τ).loc b) ↦{fullShare} Vin Win c b
  hentry c := by
    have hsplit : (StableHlo.held (c : Thread nD τ) (Pipeline.ucRefs τ sig) (Win c) : sProp 𝕄)
        ⊢ iprop((pdats 12 c).arrays ((pdats 12 c).arrAt · 0) ∗ Pipeline.unscopedRest (Ix := Unit) (Name := ℕ) (U := Pipeline.UD sig nD τ) (Lvl := ℕ) spec12 c (Vin Win c)) := by
      have h := Pipeline.arrays_of_unscopedBufs (p := 12) (pcfgs (F := F)) adm pdats winFacts12 arr_whole12 c
        (by rw [hpd c]; exact (dat (Vin Win) (adm 12) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 12 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 12) hp0 hp1 c 0 (Nat.zero_le _)
    unfold Φ1
    rw [pref_eq, show hAt (Vin Win) (adm 12) hp0 hp1 c 0 (Nat.zero_le _) = Vin Win c main_v49_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 12) hp0 hp1 c (cfg12 (adm 12)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 12 c).arrays ((pdats 12 c).arrAt · (cfg12 (adm 12)).N) ∗ Pipeline.unscopedRest (Ix := Unit) (Name := ℕ) (U := Pipeline.UD sig nD τ) (Lvl := ℕ) spec12 c (Vmid adm Win hp0 hp1 c))
        ⊢ (StableHlo.held (c : Thread nD τ) (Pipeline.ucRefs τ sig) (Wout c) : sProp 𝕄) := by
      have h := Pipeline.unscopedBufs_of_arrays (p := 12) (pcfgs (F := F)) adm (Ix := Unit) (Name := ℕ) (U := Pipeline.UD sig nD τ) (Lvl := ℕ)
        winFacts12 arr_whole12 c pdats (by rw [hpd c]; exact (dat (Vin Win) (adm 12) hp0 hp1 c).share_full fun _ => rfl)
        (Vmid adm Win hp0 hp1 c) (Vout Wout c) ((pdats 12 c).arrAt · (cfg12 (adm 12)).N) (by rw [hpd c]; exact hF c) (hrest c)
      rw [Pipeline.unscopedBufs_held] at h; exact h
    rw [rest_split, Hpts_eq] at hjoin
    have hZ : (bigSep (Pipeline.restRefs sig spec12 \ H) fun b => ((c : Thread nD τ).loc b) ↦{fullShare} Vin Win c b : sProp 𝕄)
        = (bigSep (Pipeline.restRefs sig spec12 \ H) fun b => ((c : Thread nD τ).loc b) ↦{fullShare} Vmid adm Win hp0 hp1 c b) :=
      bigSep_congr fun b hb => by
        have hne : b ≠ main_v49_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v47 = Vin Win c main_v47 := by unfold Vmid; exact Function.update_of_ne (by decide) _ _
    have e2 : Vmid adm Win hp0 hp1 c main_v48 = Vin Win c main_v48 := by unfold Vmid; exact Function.update_of_ne (by decide) _ _
    have e3 : Vmid adm Win hp0 hp1 c main_v49_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 12 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.KernelIdeal.P1R12

end
-- ==== Proof.P1R13Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.P1Body
import proofs.«400866_j57071525429608_2_alg».proof.Proof.P1State
import proofs.«400866_j57071525429608_2_alg».proof.Proof.P1Kern

set_option maxRecDepth 100000

noncomputable section

namespace Cert.KernelIdeal.P1R13

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc13__pass1_kernel (F := F) = P1.kern := rfl

-- The buffer contents when the region is entered, and the admissible index tables.
variable (V : (c : Dev nD) → (b : Ref sig .tc) → Buf (Elt F) ((c : Thread nD τ).loc b))
variable (a : (pcfg13 (F := F)).Adm)

/-- The two index tables, the node-feature array and the hidden array, as the body is handed them. -/
abbrev tb0 : Memref sig .tc .smem S62500 .i32 := Memref.whole main_v50
abbrev tb1 : Memref sig .tc .smem S62500 .i32 := Memref.whole main_v51
abbrev xM : Memref sig .tc .hbm S100000x128 .f32 := Memref.whole main_arg0
abbrev hM : Memref sig .tc .hbm S62500x64 .f32 := Memref.whole main_v52_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid13.Coords), k13_chk1 (tw0 tb0 c i (T0 a c))) (hp1 : ∀ c (i : grid13.Coords), k13_chk2 (tw1 tb1 c i (T1 a c)))

/-- Window `w`'s block at point `t`, read off its array as the region finds it. -/
def iblk (c : Dev nD) (w : Fin (cfg13 a).W) (t : Fin (cfg13 a).N) : (((cfg13 a).win w).xblock ((cfg13 a).grid.coords t)).Idx → Elt F ((cfg13 a).win w).elt :=
  (((cfg13 a).win w).blk t).view.read (Elt F) (V c (Pipeline.arrRef spec13 w))

/-- Each window's current staging memref at point `t`, as the pipeline passes it to the body. -/
abbrev ms0 (t : Fin (cfg13 a).N) : Memref sig .tc .vmem S64x128 .f32 := spec13_0.stage ((cfg13 a).slots t 0)
abbrev hs0 (t : Fin (cfg13 a).N) : (ms0 a t).IsWhole := hstage13_0 (((cfg13 a).slots t 0).cast nbuf13_0)
abbrev ms1 (t : Fin (cfg13 a).N) : Memref sig .tc .vmem S64x128 .f32 := spec13_1.stage ((cfg13 a).slots t 1)
abbrev hs1 (t : Fin (cfg13 a).N) : (ms1 a t).IsWhole := hstage13_1 (((cfg13 a).slots t 1).cast nbuf13_1)
abbrev ms2 (t : Fin (cfg13 a).N) : Memref sig .tc .vmem S1x64 .f32 := spec13_2.stage ((cfg13 a).slots t 2)
abbrev hs2 (t : Fin (cfg13 a).N) : (ms2 a t).IsWhole := hstage13_2 (((cfg13 a).slots t 2).cast nbuf13_2)
abbrev ms3 (t : Fin (cfg13 a).N) : Memref sig .tc .vmem S64x64 .f32 := spec13_3.stage ((cfg13 a).slots t 3)
abbrev hs3 (t : Fin (cfg13 a).N) : (ms3 a t).IsWhole := hstage13_3 (((cfg13 a).slots t 3).cast nbuf13_3)
abbrev ms4 (t : Fin (cfg13 a).N) : Memref sig .tc .vmem S1x64 .f32 := spec13_4.stage ((cfg13 a).slots t 4)
abbrev hs4 (t : Fin (cfg13 a).N) : (ms4 a t).IsWhole := hstage13_4 (((cfg13 a).slots t 4).cast nbuf13_4)
abbrev ms5 (t : Fin (cfg13 a).N) : Memref sig .tc .vmem S1x64 .f32 := spec13_5.stage ((cfg13 a).slots t 5)
abbrev hs5 (t : Fin (cfg13 a).N) : (ms5 a t).IsWhole := hstage13_5 (((cfg13 a).slots t 5).cast nbuf13_5)
abbrev ms6 (t : Fin (cfg13 a).N) : Memref sig .tc .vmem S1x64 .f32 := spec13_6.stage ((cfg13 a).slots t 6)
abbrev hs6 (t : Fin (cfg13 a).N) : (ms6 a t).IsWhole := hstage13_6 (((cfg13 a).slots t 6).cast nbuf13_6)
/-- The three scratch buffers (the two gathered rows and the hidden row). -/
abbrev sc0 : Memref sig .tc .vmem S1x128 .f32 := Memref.whole cc13_scratch0
abbrev sc1 : Memref sig .tc .vmem S1x128 .f32 := Memref.whole cc13_scratch1
abbrev sc2 : Memref sig .tc .vmem S1x64 .f32 := Memref.whole cc13_scratch2

/-- The body's own three copy semaphores. -/
abbrev osem : Fin 3 → SemLoc sig := fun j => (![SemLoc.dma 137, SemLoc.dma 138, SemLoc.dma 139] : Fin 3 → SemLoc sig) j
theorem ownSemFacts : Pipeline.OwnSemFacts spec13 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc13_scratch3 0) 0 ∗ semVal ((c : Thread nD τ), semAt cc13_scratch3 1) 0 ∗ semVal ((c : Thread nD τ), semAt cc13_scratch3 2) 0) := by
  rw [Pipeline.ownSems0_eq_of_list c osem [0, 1, 2] (by decide) (by decide)]; rfl

/-- The grid point's coordinate. -/
abbrev crd (t : Fin (cfg13 a).N) : grid13.Coords := grid13.coords t

/-- The grid is one axis of 62500 points: the coordinate of point `t` is `t`. -/
theorem coord_val (t : Fin (cfg13 a).N) : ((crd a t) 0).val = t.val := by
  have hN : t.val < 62500 := lt_of_lt_of_eq t.isLt N_13
  show t.val / grid13.stride 0 % grid13.bound 0 = t.val
  rw [show grid13.stride 0 = 1 from by decide, Nat.div_one]
  exact Nat.mod_eq_of_lt hN

/-- The branch is taken at the first point and at no other. -/
theorem hcond (t : Fin (cfg13 a).N) : cond0_0 (grid13.coords t) ↔ t.val = 0 := by
  have hN : t.val < 62500 := lt_of_lt_of_eq t.isLt N_13
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg13 a).N) : St (F := F) c :=
  P1.stG tb0 tb1 xM hM c (cfg13 a).N (crd a) (fun t => iblk V a c 0 t) (fun t => iblk V a c 1 t) (fun t => iblk V a c 2 t) (fun t => iblk V a c 3 t) (fun t => iblk V a c 4 t) (T0 a c) (T1 a c) (V c main_arg0) (V c main_v52_0) (fun t => hp0 c (crd a t)) (fun t => hp1 c (crd a t)) n hn

/-- The hidden array before point `n` (after `n` points). -/
def hAt (c : Dev nD) (n : ℕ) (hn : n ≤ (cfg13 a).N) : Bf (F := F) c hM :=
  P1.hG tb0 tb1 xM hM c (cfg13 a).N (crd a) (fun t => iblk V a c 0 t) (fun t => iblk V a c 1 t) (fun t => iblk V a c 2 t) (fun t => iblk V a c 3 t) (fun t => iblk V a c 4 t) (T0 a c) (T1 a c) (V c main_arg0) (V c main_v52_0) (fun t => hp0 c (crd a t)) (fun t => hp1 c (crd a t)) n hn

theorem stAt_zero (c : Dev nD) (t : Fin (cfg13 a).N) (h0 : t.val = 0) :
    stAt V a hp0 hp1 c t.val t.isLt
      = (P1.sumStep tb0 tb1 xM c (cfg13 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k13_pay1 (F := F)), P1.sqStep tb0 tb1 xM c (cfg13 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k13_pay2 (F := F)),
          hNext hM c (crd a t) (V c main_v52_0) (P1.rowStep tb0 tb1 xM c (cfg13 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg13 a).N) (h0 : ¬t.val = 0) :
    stAt V a hp0 hp1 c t.val t.isLt
      = (P1.sumStep tb0 tb1 xM c (cfg13 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg13 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg13 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg13 a).N) (h0 : t.val = 0) (hn) : hAt V a hp0 hp1 c t.val hn = V c main_v52_0 := by
  obtain ⟨n, hlt⟩ := t
  cases n with
  | zero => rfl
  | succ n => exact absurd h0 (Nat.succ_ne_zero n)
theorem hAt_pos (c : Dev nD) (t : Fin (cfg13 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg13 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg13 a).N) : sProp 𝕄 :=
  iprop(Pipeline.scopedRest (Ix := Unit) (Name := ℕ) (U := Pipeline.UD sig nD τ) (Lvl := ℕ) (Val := Elt F) spec13 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg13 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec13 c [cc13_scratch0, cc13_scratch1, cc13_scratch2])
          ∗ (∃ r, prngReg c r)
          ∗ iprop(semVal ((c : Thread nD τ), semAt cc13_scratch3 0) 0 ∗ semVal ((c : Thread nD τ), semAt cc13_scratch3 1) 0 ∗ semVal ((c : Thread nD τ), semAt cc13_scratch3 2) 0)
          ∗ pt c tb0 (T0 a c) ∗ pt c tb1 (T1 a c) ∗ pt c xM (V c main_arg0) ∗ pt c hM (hAt V a hp0 hp1 c n hn)) := by
  unfold Φ1; rw [scopedRest13_split, ownSems0_eq]; simp only [sc0, sc1, sc2, owns_whole]; try rfl

def dat (c : Dev nD) : Dat τ (Elt F) Unit ℕ (Pipeline.UD sig nD τ) ℕ (cfg13 a) c where
  A w := V c (Pipeline.arrRef spec13 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg13 a).W) : (dat V a hp0 hp1 c).A w = V c (Pipeline.arrRef spec13 w) := by
  dsimp only [dat]
theorem after_0 (c : Dev nD) (t : Fin (cfg13 a).N) : (dat V a hp0 hp1 c).after 0 t = iblk V a c 0 t := by dsimp only [dat]; rfl
theorem after_1 (c : Dev nD) (t : Fin (cfg13 a).N) : (dat V a hp0 hp1 c).after 1 t = iblk V a c 1 t := by dsimp only [dat]; rfl
theorem after_2 (c : Dev nD) (t : Fin (cfg13 a).N) : (dat V a hp0 hp1 c).after 2 t = iblk V a c 2 t := by dsimp only [dat]; rfl
theorem after_3 (c : Dev nD) (t : Fin (cfg13 a).N) : (dat V a hp0 hp1 c).after 3 t = iblk V a c 3 t := by dsimp only [dat]; rfl
theorem after_4 (c : Dev nD) (t : Fin (cfg13 a).N) : (dat V a hp0 hp1 c).after 4 t = iblk V a c 4 t := by dsimp only [dat]; rfl
theorem after_5 (c : Dev nD) (t : Fin (cfg13 a).N) : (dat V a hp0 hp1 c).after 5 t = (stAt V a hp0 hp1 c t.val t.isLt).1 := by dsimp only [dat]; rfl
theorem after_6 (c : Dev nD) (t : Fin (cfg13 a).N) : (dat V a hp0 hp1 c).after 6 t = (stAt V a hp0 hp1 c t.val t.isLt).2.1 := by dsimp only [dat]; rfl
theorem before_0 (c : Dev nD) (t : Fin (cfg13 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg13 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg13 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg13 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg13 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg13 a).N) (h : t'.val + 1 < (cfg13 a).N) : ((cfg13 a).win 5).flush t' = false := by
  unfold Pipeline.Window.flush
  rw [Bool.and_eq_false_iff]; right
  rw [Bool.or_eq_false_iff]
  have h' : t'.val + 1 < (cfg13 a).grid.N := h
  exact ⟨decide_eq_false (by omega), decide_eq_false (fun ⟨_, hne⟩ => hne rfl)⟩
theorem before_5_B (c : Dev nD) (t : Fin (cfg13 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg13 a).N) (h : t'.val + 1 < (cfg13 a).N) : ((cfg13 a).win 6).flush t' = false := by
  unfold Pipeline.Window.flush
  rw [Bool.and_eq_false_iff]; right
  rw [Bool.or_eq_false_iff]
  have h' : t'.val + 1 < (cfg13 a).grid.N := h
  exact ⟨decide_eq_false (by omega), decide_eq_false (fun ⟨_, hne⟩ => hne rfl)⟩
theorem before_6_B (c : Dev nD) (t : Fin (cfg13 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg13 a).N) : Prog (TpuEff nD τ sig (Elt F) Λ₀ .tc) PUnit :=
  (cc13__pass1_kernel (grid13.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc13_scratch3)

def bodyPre (c : Dev nD) (t : Fin (cfg13 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg13 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg13 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc13_scratch3 c (grid13.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v52_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc13_scratch3 c (grid13.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W13, bigSep_W13]
  exact sound_body V a hp0 hp1 c t

end Cert.KernelIdeal.P1R13

end
-- ==== Proof.P1R13Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.P1R13Dat
import proofs.«400866_j57071525429608_2_alg».proof.Proof.Assemble

set_option maxRecDepth 16384

noncomputable section

namespace Cert.KernelIdeal.P1R13

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Asm (Rr L₀ lv₀)
open Cert.KernelIdeal.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid13.Coords), k13_chk1 (tw0 tb0 c i (T0 (adm 13) c))) (hp1 : ∀ c (i : grid13.Coords), k13_chk2 (tw1 tb1 c i (T1 (adm 13) c)))

/-- The unscoped buffers the body moves itself or reads as tables: no window's array. -/
def H : Finset (Ref sig .tc) := {main_arg0, main_v50, main_v51, main_v52_0}
theorem H_sub : H ⊆ Pipeline.restRefs sig spec13 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v50) ∗ pt c tb1 (W main_v51) ∗ pt c hM (W main_v52_0)) := by
  rw [BI.bigSep_eq_bigSepL_of_eq [main_arg0, main_v50, main_v51, main_v52_0] (by decide) (by decide)]; rfl

/-- The two tables held, listed. -/
theorem pref_eq (c : Dev nD) (T : (pcfgs (F := F) 13).pre.Contents (Elt F)) :
    (Pipeline.prefHeld (Ix := Unit) (Name := ℕ) (U := Pipeline.UD sig nD τ) (Lvl := ℕ) (pcfgs (F := F) 13).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 13) hp0 hp1 c (cfg13 (adm 13)).N le_rfl

/-- The entry valuation with the hidden array at its final contents: what the unscoped rest is at the exit. -/
def Vmid (c : Dev nD) : (b : Ref sig .tc) → Buf (Elt F) ((c : Thread nD τ).loc b) :=
  Function.update (Vin Win c) main_v52_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec13 c W : sProp 𝕄)
      = iprop((bigSep H fun b => ((c : Thread nD τ).loc b) ↦{fullShare} W b) ∗ (bigSep (Pipeline.restRefs sig spec13 \ H) fun b => ((c : Thread nD τ).loc b) ↦{fullShare} W b)) := by
  unfold Pipeline.unscopedRest; exact BI.bigSep_sdiff_split H_sub

set_option maxHeartbeats 4000000 in
def reg (hpd : ∀ c, pdats 13 c = dat (Vin Win) (adm 13) hp0 hp1 c)
    (hT0 : ∀ c, Vin Win c main_v50 = T0 (adm 13) c) (hT1 : ∀ c, Vin Win c main_v51 = T1 (adm 13) c)
    (hF : ∀ c w, (dat (Vin Win) (adm 13) hp0 hp1 c).arrAt w (cfg13 (adm 13)).N = Vout Wout c (Pipeline.arrRef spec13 w))
    (hrest : ∀ c b, b ∉ Finset.univ.image (Pipeline.arrRef spec13) → Vout Wout c b = Vmid adm Win hp0 hp1 c b) :
    Pipeline.RegionSeg (pcfgs (F := F)) adm pdats () defs₀ Variants.none L₀ lv₀ 13 where
  win := winFacts13.to₀
  block_pos := block_pos13
  stage_whole := stage_whole13
  K := Fin 3
  osem := osem
  ho := ownSemFacts
  hbody c := by rw [hpd c]; exact (body_obligation (Vin Win) (adm 13) hp0 hp1 c).loose
  hwaits := Pipeline.hwaits_of_owed_zero _ _ _ _ L₀ lv₀ 13 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v52_0))
  Y c := iprop((∃ r, prngReg c r) ∗ pt c tb0 (T0 (adm 13) c) ∗ pt c tb1 (T1 (adm 13) c) ∗ pt c xM (Vin Win c main_arg0) ∗ pt c hM (hEnd adm Win hp0 hp1 c))
  Z c := bigSep (Pipeline.restRefs sig spec13 \ H) fun b => ((c : Thread nD τ).loc b) ↦{fullShare} Vin Win c b
  hentry c := by
    have hsplit : (StableHlo.held (c : Thread nD τ) (Pipeline.ucRefs τ sig) (Win c) : sProp 𝕄)
        ⊢ iprop((pdats 13 c).arrays ((pdats 13 c).arrAt · 0) ∗ Pipeline.unscopedRest (Ix := Unit) (Name := ℕ) (U := Pipeline.UD sig nD τ) (Lvl := ℕ) spec13 c (Vin Win c)) := by
      have h := Pipeline.arrays_of_unscopedBufs (p := 13) (pcfgs (F := F)) adm pdats winFacts13 arr_whole13 c
        (by rw [hpd c]; exact (dat (Vin Win) (adm 13) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 13 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 13) hp0 hp1 c 0 (Nat.zero_le _)
    unfold Φ1
    rw [pref_eq, show hAt (Vin Win) (adm 13) hp0 hp1 c 0 (Nat.zero_le _) = Vin Win c main_v52_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 13) hp0 hp1 c (cfg13 (adm 13)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 13 c).arrays ((pdats 13 c).arrAt · (cfg13 (adm 13)).N) ∗ Pipeline.unscopedRest (Ix := Unit) (Name := ℕ) (U := Pipeline.UD sig nD τ) (Lvl := ℕ) spec13 c (Vmid adm Win hp0 hp1 c))
        ⊢ (StableHlo.held (c : Thread nD τ) (Pipeline.ucRefs τ sig) (Wout c) : sProp 𝕄) := by
      have h := Pipeline.unscopedBufs_of_arrays (p := 13) (pcfgs (F := F)) adm (Ix := Unit) (Name := ℕ) (U := Pipeline.UD sig nD τ) (Lvl := ℕ)
        winFacts13 arr_whole13 c pdats (by rw [hpd c]; exact (dat (Vin Win) (adm 13) hp0 hp1 c).share_full fun _ => rfl)
        (Vmid adm Win hp0 hp1 c) (Vout Wout c) ((pdats 13 c).arrAt · (cfg13 (adm 13)).N) (by rw [hpd c]; exact hF c) (hrest c)
      rw [Pipeline.unscopedBufs_held] at h; exact h
    rw [rest_split, Hpts_eq] at hjoin
    have hZ : (bigSep (Pipeline.restRefs sig spec13 \ H) fun b => ((c : Thread nD τ).loc b) ↦{fullShare} Vin Win c b : sProp 𝕄)
        = (bigSep (Pipeline.restRefs sig spec13 \ H) fun b => ((c : Thread nD τ).loc b) ↦{fullShare} Vmid adm Win hp0 hp1 c b) :=
      bigSep_congr fun b hb => by
        have hne : b ≠ main_v52_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v50 = Vin Win c main_v50 := by unfold Vmid; exact Function.update_of_ne (by decide) _ _
    have e2 : Vmid adm Win hp0 hp1 c main_v51 = Vin Win c main_v51 := by unfold Vmid; exact Function.update_of_ne (by decide) _ _
    have e3 : Vmid adm Win hp0 hp1 c main_v52_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 13 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.KernelIdeal.P1R13

end
-- ==== Proof.P1R14Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.P1Body
import proofs.«400866_j57071525429608_2_alg».proof.Proof.P1State
import proofs.«400866_j57071525429608_2_alg».proof.Proof.P1Kern

set_option maxRecDepth 100000

noncomputable section

namespace Cert.KernelIdeal.P1R14

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc14__pass1_kernel (F := F) = P1.kern := rfl

-- The buffer contents when the region is entered, and the admissible index tables.
variable (V : (c : Dev nD) → (b : Ref sig .tc) → Buf (Elt F) ((c : Thread nD τ).loc b))
variable (a : (pcfg14 (F := F)).Adm)

/-- The two index tables, the node-feature array and the hidden array, as the body is handed them. -/
abbrev tb0 : Memref sig .tc .smem S62500 .i32 := Memref.whole main_v53
abbrev tb1 : Memref sig .tc .smem S62500 .i32 := Memref.whole main_v54
abbrev xM : Memref sig .tc .hbm S100000x128 .f32 := Memref.whole main_arg0
abbrev hM : Memref sig .tc .hbm S62500x64 .f32 := Memref.whole main_v55_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid14.Coords), k14_chk1 (tw0 tb0 c i (T0 a c))) (hp1 : ∀ c (i : grid14.Coords), k14_chk2 (tw1 tb1 c i (T1 a c)))

/-- Window `w`'s block at point `t`, read off its array as the region finds it. -/
def iblk (c : Dev nD) (w : Fin (cfg14 a).W) (t : Fin (cfg14 a).N) : (((cfg14 a).win w).xblock ((cfg14 a).grid.coords t)).Idx → Elt F ((cfg14 a).win w).elt :=
  (((cfg14 a).win w).blk t).view.read (Elt F) (V c (Pipeline.arrRef spec14 w))

/-- Each window's current staging memref at point `t`, as the pipeline passes it to the body. -/
abbrev ms0 (t : Fin (cfg14 a).N) : Memref sig .tc .vmem S64x128 .f32 := spec14_0.stage ((cfg14 a).slots t 0)
abbrev hs0 (t : Fin (cfg14 a).N) : (ms0 a t).IsWhole := hstage14_0 (((cfg14 a).slots t 0).cast nbuf14_0)
abbrev ms1 (t : Fin (cfg14 a).N) : Memref sig .tc .vmem S64x128 .f32 := spec14_1.stage ((cfg14 a).slots t 1)
abbrev hs1 (t : Fin (cfg14 a).N) : (ms1 a t).IsWhole := hstage14_1 (((cfg14 a).slots t 1).cast nbuf14_1)
abbrev ms2 (t : Fin (cfg14 a).N) : Memref sig .tc .vmem S1x64 .f32 := spec14_2.stage ((cfg14 a).slots t 2)
abbrev hs2 (t : Fin (cfg14 a).N) : (ms2 a t).IsWhole := hstage14_2 (((cfg14 a).slots t 2).cast nbuf14_2)
abbrev ms3 (t : Fin (cfg14 a).N) : Memref sig .tc .vmem S64x64 .f32 := spec14_3.stage ((cfg14 a).slots t 3)
abbrev hs3 (t : Fin (cfg14 a).N) : (ms3 a t).IsWhole := hstage14_3 (((cfg14 a).slots t 3).cast nbuf14_3)
abbrev ms4 (t : Fin (cfg14 a).N) : Memref sig .tc .vmem S1x64 .f32 := spec14_4.stage ((cfg14 a).slots t 4)
abbrev hs4 (t : Fin (cfg14 a).N) : (ms4 a t).IsWhole := hstage14_4 (((cfg14 a).slots t 4).cast nbuf14_4)
abbrev ms5 (t : Fin (cfg14 a).N) : Memref sig .tc .vmem S1x64 .f32 := spec14_5.stage ((cfg14 a).slots t 5)
abbrev hs5 (t : Fin (cfg14 a).N) : (ms5 a t).IsWhole := hstage14_5 (((cfg14 a).slots t 5).cast nbuf14_5)
abbrev ms6 (t : Fin (cfg14 a).N) : Memref sig .tc .vmem S1x64 .f32 := spec14_6.stage ((cfg14 a).slots t 6)
abbrev hs6 (t : Fin (cfg14 a).N) : (ms6 a t).IsWhole := hstage14_6 (((cfg14 a).slots t 6).cast nbuf14_6)
/-- The three scratch buffers (the two gathered rows and the hidden row). -/
abbrev sc0 : Memref sig .tc .vmem S1x128 .f32 := Memref.whole cc14_scratch0
abbrev sc1 : Memref sig .tc .vmem S1x128 .f32 := Memref.whole cc14_scratch1
abbrev sc2 : Memref sig .tc .vmem S1x64 .f32 := Memref.whole cc14_scratch2

/-- The body's own three copy semaphores. -/
abbrev osem : Fin 3 → SemLoc sig := fun j => (![SemLoc.dma 147, SemLoc.dma 148, SemLoc.dma 149] : Fin 3 → SemLoc sig) j
theorem ownSemFacts : Pipeline.OwnSemFacts spec14 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc14_scratch3 0) 0 ∗ semVal ((c : Thread nD τ), semAt cc14_scratch3 1) 0 ∗ semVal ((c : Thread nD τ), semAt cc14_scratch3 2) 0) := by
  rw [Pipeline.ownSems0_eq_of_list c osem [0, 1, 2] (by decide) (by decide)]; rfl

/-- The grid point's coordinate. -/
abbrev crd (t : Fin (cfg14 a).N) : grid14.Coords := grid14.coords t

/-- The grid is one axis of 62500 points: the coordinate of point `t` is `t`. -/
theorem coord_val (t : Fin (cfg14 a).N) : ((crd a t) 0).val = t.val := by
  have hN : t.val < 62500 := lt_of_lt_of_eq t.isLt N_14
  show t.val / grid14.stride 0 % grid14.bound 0 = t.val
  rw [show grid14.stride 0 = 1 from by decide, Nat.div_one]
  exact Nat.mod_eq_of_lt hN

/-- The branch is taken at the first point and at no other. -/
theorem hcond (t : Fin (cfg14 a).N) : cond0_0 (grid14.coords t) ↔ t.val = 0 := by
  have hN : t.val < 62500 := lt_of_lt_of_eq t.isLt N_14
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg14 a).N) : St (F := F) c :=
  P1.stG tb0 tb1 xM hM c (cfg14 a).N (crd a) (fun t => iblk V a c 0 t) (fun t => iblk V a c 1 t) (fun t => iblk V a c 2 t) (fun t => iblk V a c 3 t) (fun t => iblk V a c 4 t) (T0 a c) (T1 a c) (V c main_arg0) (V c main_v55_0) (fun t => hp0 c (crd a t)) (fun t => hp1 c (crd a t)) n hn

/-- The hidden array before point `n` (after `n` points). -/
def hAt (c : Dev nD) (n : ℕ) (hn : n ≤ (cfg14 a).N) : Bf (F := F) c hM :=
  P1.hG tb0 tb1 xM hM c (cfg14 a).N (crd a) (fun t => iblk V a c 0 t) (fun t => iblk V a c 1 t) (fun t => iblk V a c 2 t) (fun t => iblk V a c 3 t) (fun t => iblk V a c 4 t) (T0 a c) (T1 a c) (V c main_arg0) (V c main_v55_0) (fun t => hp0 c (crd a t)) (fun t => hp1 c (crd a t)) n hn

theorem stAt_zero (c : Dev nD) (t : Fin (cfg14 a).N) (h0 : t.val = 0) :
    stAt V a hp0 hp1 c t.val t.isLt
      = (P1.sumStep tb0 tb1 xM c (cfg14 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k14_pay1 (F := F)), P1.sqStep tb0 tb1 xM c (cfg14 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k14_pay2 (F := F)),
          hNext hM c (crd a t) (V c main_v55_0) (P1.rowStep tb0 tb1 xM c (cfg14 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg14 a).N) (h0 : ¬t.val = 0) :
    stAt V a hp0 hp1 c t.val t.isLt
      = (P1.sumStep tb0 tb1 xM c (cfg14 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg14 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg14 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg14 a).N) (h0 : t.val = 0) (hn) : hAt V a hp0 hp1 c t.val hn = V c main_v55_0 := by
  obtain ⟨n, hlt⟩ := t
  cases n with
  | zero => rfl
  | succ n => exact absurd h0 (Nat.succ_ne_zero n)
theorem hAt_pos (c : Dev nD) (t : Fin (cfg14 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg14 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg14 a).N) : sProp 𝕄 :=
  iprop(Pipeline.scopedRest (Ix := Unit) (Name := ℕ) (U := Pipeline.UD sig nD τ) (Lvl := ℕ) (Val := Elt F) spec14 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg14 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec14 c [cc14_scratch0, cc14_scratch1, cc14_scratch2])
          ∗ (∃ r, prngReg c r)
          ∗ iprop(semVal ((c : Thread nD τ), semAt cc14_scratch3 0) 0 ∗ semVal ((c : Thread nD τ), semAt cc14_scratch3 1) 0 ∗ semVal ((c : Thread nD τ), semAt cc14_scratch3 2) 0)
          ∗ pt c tb0 (T0 a c) ∗ pt c tb1 (T1 a c) ∗ pt c xM (V c main_arg0) ∗ pt c hM (hAt V a hp0 hp1 c n hn)) := by
  unfold Φ1; rw [scopedRest14_split, ownSems0_eq]; simp only [sc0, sc1, sc2, owns_whole]; try rfl

def dat (c : Dev nD) : Dat τ (Elt F) Unit ℕ (Pipeline.UD sig nD τ) ℕ (cfg14 a) c where
  A w := V c (Pipeline.arrRef spec14 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg14 a).W) : (dat V a hp0 hp1 c).A w = V c (Pipeline.arrRef spec14 w) := by
  dsimp only [dat]
theorem after_0 (c : Dev nD) (t : Fin (cfg14 a).N) : (dat V a hp0 hp1 c).after 0 t = iblk V a c 0 t := by dsimp only [dat]; rfl
theorem after_1 (c : Dev nD) (t : Fin (cfg14 a).N) : (dat V a hp0 hp1 c).after 1 t = iblk V a c 1 t := by dsimp only [dat]; rfl
theorem after_2 (c : Dev nD) (t : Fin (cfg14 a).N) : (dat V a hp0 hp1 c).after 2 t = iblk V a c 2 t := by dsimp only [dat]; rfl
theorem after_3 (c : Dev nD) (t : Fin (cfg14 a).N) : (dat V a hp0 hp1 c).after 3 t = iblk V a c 3 t := by dsimp only [dat]; rfl
theorem after_4 (c : Dev nD) (t : Fin (cfg14 a).N) : (dat V a hp0 hp1 c).after 4 t = iblk V a c 4 t := by dsimp only [dat]; rfl
theorem after_5 (c : Dev nD) (t : Fin (cfg14 a).N) : (dat V a hp0 hp1 c).after 5 t = (stAt V a hp0 hp1 c t.val t.isLt).1 := by dsimp only [dat]; rfl
theorem after_6 (c : Dev nD) (t : Fin (cfg14 a).N) : (dat V a hp0 hp1 c).after 6 t = (stAt V a hp0 hp1 c t.val t.isLt).2.1 := by dsimp only [dat]; rfl
theorem before_0 (c : Dev nD) (t : Fin (cfg14 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg14 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg14 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg14 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg14 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg14 a).N) (h : t'.val + 1 < (cfg14 a).N) : ((cfg14 a).win 5).flush t' = false := by
  unfold Pipeline.Window.flush
  rw [Bool.and_eq_false_iff]; right
  rw [Bool.or_eq_false_iff]
  have h' : t'.val + 1 < (cfg14 a).grid.N := h
  exact ⟨decide_eq_false (by omega), decide_eq_false (fun ⟨_, hne⟩ => hne rfl)⟩
theorem before_5_B (c : Dev nD) (t : Fin (cfg14 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg14 a).N) (h : t'.val + 1 < (cfg14 a).N) : ((cfg14 a).win 6).flush t' = false := by
  unfold Pipeline.Window.flush
  rw [Bool.and_eq_false_iff]; right
  rw [Bool.or_eq_false_iff]
  have h' : t'.val + 1 < (cfg14 a).grid.N := h
  exact ⟨decide_eq_false (by omega), decide_eq_false (fun ⟨_, hne⟩ => hne rfl)⟩
theorem before_6_B (c : Dev nD) (t : Fin (cfg14 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg14 a).N) : Prog (TpuEff nD τ sig (Elt F) Λ₀ .tc) PUnit :=
  (cc14__pass1_kernel (grid14.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc14_scratch3)

def bodyPre (c : Dev nD) (t : Fin (cfg14 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg14 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg14 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc14_scratch3 c (grid14.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v55_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc14_scratch3 c (grid14.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W14, bigSep_W14]
  exact sound_body V a hp0 hp1 c t

end Cert.KernelIdeal.P1R14

end
-- ==== Proof.P1R14Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.P1R14Dat
import proofs.«400866_j57071525429608_2_alg».proof.Proof.Assemble

set_option maxRecDepth 16384

noncomputable section

namespace Cert.KernelIdeal.P1R14

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Asm (Rr L₀ lv₀)
open Cert.KernelIdeal.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid14.Coords), k14_chk1 (tw0 tb0 c i (T0 (adm 14) c))) (hp1 : ∀ c (i : grid14.Coords), k14_chk2 (tw1 tb1 c i (T1 (adm 14) c)))

/-- The unscoped buffers the body moves itself or reads as tables: no window's array. -/
def H : Finset (Ref sig .tc) := {main_arg0, main_v53, main_v54, main_v55_0}
theorem H_sub : H ⊆ Pipeline.restRefs sig spec14 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v53) ∗ pt c tb1 (W main_v54) ∗ pt c hM (W main_v55_0)) := by
  rw [BI.bigSep_eq_bigSepL_of_eq [main_arg0, main_v53, main_v54, main_v55_0] (by decide) (by decide)]; rfl

/-- The two tables held, listed. -/
theorem pref_eq (c : Dev nD) (T : (pcfgs (F := F) 14).pre.Contents (Elt F)) :
    (Pipeline.prefHeld (Ix := Unit) (Name := ℕ) (U := Pipeline.UD sig nD τ) (Lvl := ℕ) (pcfgs (F := F) 14).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 14) hp0 hp1 c (cfg14 (adm 14)).N le_rfl

/-- The entry valuation with the hidden array at its final contents: what the unscoped rest is at the exit. -/
def Vmid (c : Dev nD) : (b : Ref sig .tc) → Buf (Elt F) ((c : Thread nD τ).loc b) :=
  Function.update (Vin Win c) main_v55_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec14 c W : sProp 𝕄)
      = iprop((bigSep H fun b => ((c : Thread nD τ).loc b) ↦{fullShare} W b) ∗ (bigSep (Pipeline.restRefs sig spec14 \ H) fun b => ((c : Thread nD τ).loc b) ↦{fullShare} W b)) := by
  unfold Pipeline.unscopedRest; exact BI.bigSep_sdiff_split H_sub

set_option maxHeartbeats 4000000 in
def reg (hpd : ∀ c, pdats 14 c = dat (Vin Win) (adm 14) hp0 hp1 c)
    (hT0 : ∀ c, Vin Win c main_v53 = T0 (adm 14) c) (hT1 : ∀ c, Vin Win c main_v54 = T1 (adm 14) c)
    (hF : ∀ c w, (dat (Vin Win) (adm 14) hp0 hp1 c).arrAt w (cfg14 (adm 14)).N = Vout Wout c (Pipeline.arrRef spec14 w))
    (hrest : ∀ c b, b ∉ Finset.univ.image (Pipeline.arrRef spec14) → Vout Wout c b = Vmid adm Win hp0 hp1 c b) :
    Pipeline.RegionSeg (pcfgs (F := F)) adm pdats () defs₀ Variants.none L₀ lv₀ 14 where
  win := winFacts14.to₀
  block_pos := block_pos14
  stage_whole := stage_whole14
  K := Fin 3
  osem := osem
  ho := ownSemFacts
  hbody c := by rw [hpd c]; exact (body_obligation (Vin Win) (adm 14) hp0 hp1 c).loose
  hwaits := Pipeline.hwaits_of_owed_zero _ _ _ _ L₀ lv₀ 14 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v55_0))
  Y c := iprop((∃ r, prngReg c r) ∗ pt c tb0 (T0 (adm 14) c) ∗ pt c tb1 (T1 (adm 14) c) ∗ pt c xM (Vin Win c main_arg0) ∗ pt c hM (hEnd adm Win hp0 hp1 c))
  Z c := bigSep (Pipeline.restRefs sig spec14 \ H) fun b => ((c : Thread nD τ).loc b) ↦{fullShare} Vin Win c b
  hentry c := by
    have hsplit : (StableHlo.held (c : Thread nD τ) (Pipeline.ucRefs τ sig) (Win c) : sProp 𝕄)
        ⊢ iprop((pdats 14 c).arrays ((pdats 14 c).arrAt · 0) ∗ Pipeline.unscopedRest (Ix := Unit) (Name := ℕ) (U := Pipeline.UD sig nD τ) (Lvl := ℕ) spec14 c (Vin Win c)) := by
      have h := Pipeline.arrays_of_unscopedBufs (p := 14) (pcfgs (F := F)) adm pdats winFacts14 arr_whole14 c
        (by rw [hpd c]; exact (dat (Vin Win) (adm 14) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 14 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 14) hp0 hp1 c 0 (Nat.zero_le _)
    unfold Φ1
    rw [pref_eq, show hAt (Vin Win) (adm 14) hp0 hp1 c 0 (Nat.zero_le _) = Vin Win c main_v55_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 14) hp0 hp1 c (cfg14 (adm 14)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 14 c).arrays ((pdats 14 c).arrAt · (cfg14 (adm 14)).N) ∗ Pipeline.unscopedRest (Ix := Unit) (Name := ℕ) (U := Pipeline.UD sig nD τ) (Lvl := ℕ) spec14 c (Vmid adm Win hp0 hp1 c))
        ⊢ (StableHlo.held (c : Thread nD τ) (Pipeline.ucRefs τ sig) (Wout c) : sProp 𝕄) := by
      have h := Pipeline.unscopedBufs_of_arrays (p := 14) (pcfgs (F := F)) adm (Ix := Unit) (Name := ℕ) (U := Pipeline.UD sig nD τ) (Lvl := ℕ)
        winFacts14 arr_whole14 c pdats (by rw [hpd c]; exact (dat (Vin Win) (adm 14) hp0 hp1 c).share_full fun _ => rfl)
        (Vmid adm Win hp0 hp1 c) (Vout Wout c) ((pdats 14 c).arrAt · (cfg14 (adm 14)).N) (by rw [hpd c]; exact hF c) (hrest c)
      rw [Pipeline.unscopedBufs_held] at h; exact h
    rw [rest_split, Hpts_eq] at hjoin
    have hZ : (bigSep (Pipeline.restRefs sig spec14 \ H) fun b => ((c : Thread nD τ).loc b) ↦{fullShare} Vin Win c b : sProp 𝕄)
        = (bigSep (Pipeline.restRefs sig spec14 \ H) fun b => ((c : Thread nD τ).loc b) ↦{fullShare} Vmid adm Win hp0 hp1 c b) :=
      bigSep_congr fun b hb => by
        have hne : b ≠ main_v55_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v53 = Vin Win c main_v53 := by unfold Vmid; exact Function.update_of_ne (by decide) _ _
    have e2 : Vmid adm Win hp0 hp1 c main_v54 = Vin Win c main_v54 := by unfold Vmid; exact Function.update_of_ne (by decide) _ _
    have e3 : Vmid adm Win hp0 hp1 c main_v55_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 14 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.KernelIdeal.P1R14

end
-- ==== Proof.P1R15Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.P1Body
import proofs.«400866_j57071525429608_2_alg».proof.Proof.P1State
import proofs.«400866_j57071525429608_2_alg».proof.Proof.P1Kern

set_option maxRecDepth 100000

noncomputable section

namespace Cert.KernelIdeal.P1R15

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc15__pass1_kernel (F := F) = P1.kern := rfl

-- The buffer contents when the region is entered, and the admissible index tables.
variable (V : (c : Dev nD) → (b : Ref sig .tc) → Buf (Elt F) ((c : Thread nD τ).loc b))
variable (a : (pcfg15 (F := F)).Adm)

/-- The two index tables, the node-feature array and the hidden array, as the body is handed them. -/
abbrev tb0 : Memref sig .tc .smem S62500 .i32 := Memref.whole main_v56
abbrev tb1 : Memref sig .tc .smem S62500 .i32 := Memref.whole main_v57
abbrev xM : Memref sig .tc .hbm S100000x128 .f32 := Memref.whole main_arg0
abbrev hM : Memref sig .tc .hbm S62500x64 .f32 := Memref.whole main_v58_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid15.Coords), k15_chk1 (tw0 tb0 c i (T0 a c))) (hp1 : ∀ c (i : grid15.Coords), k15_chk2 (tw1 tb1 c i (T1 a c)))

/-- Window `w`'s block at point `t`, read off its array as the region finds it. -/
def iblk (c : Dev nD) (w : Fin (cfg15 a).W) (t : Fin (cfg15 a).N) : (((cfg15 a).win w).xblock ((cfg15 a).grid.coords t)).Idx → Elt F ((cfg15 a).win w).elt :=
  (((cfg15 a).win w).blk t).view.read (Elt F) (V c (Pipeline.arrRef spec15 w))

/-- Each window's current staging memref at point `t`, as the pipeline passes it to the body. -/
abbrev ms0 (t : Fin (cfg15 a).N) : Memref sig .tc .vmem S64x128 .f32 := spec15_0.stage ((cfg15 a).slots t 0)
abbrev hs0 (t : Fin (cfg15 a).N) : (ms0 a t).IsWhole := hstage15_0 (((cfg15 a).slots t 0).cast nbuf15_0)
abbrev ms1 (t : Fin (cfg15 a).N) : Memref sig .tc .vmem S64x128 .f32 := spec15_1.stage ((cfg15 a).slots t 1)
abbrev hs1 (t : Fin (cfg15 a).N) : (ms1 a t).IsWhole := hstage15_1 (((cfg15 a).slots t 1).cast nbuf15_1)
abbrev ms2 (t : Fin (cfg15 a).N) : Memref sig .tc .vmem S1x64 .f32 := spec15_2.stage ((cfg15 a).slots t 2)
abbrev hs2 (t : Fin (cfg15 a).N) : (ms2 a t).IsWhole := hstage15_2 (((cfg15 a).slots t 2).cast nbuf15_2)
abbrev ms3 (t : Fin (cfg15 a).N) : Memref sig .tc .vmem S64x64 .f32 := spec15_3.stage ((cfg15 a).slots t 3)
abbrev hs3 (t : Fin (cfg15 a).N) : (ms3 a t).IsWhole := hstage15_3 (((cfg15 a).slots t 3).cast nbuf15_3)
abbrev ms4 (t : Fin (cfg15 a).N) : Memref sig .tc .vmem S1x64 .f32 := spec15_4.stage ((cfg15 a).slots t 4)
abbrev hs4 (t : Fin (cfg15 a).N) : (ms4 a t).IsWhole := hstage15_4 (((cfg15 a).slots t 4).cast nbuf15_4)
abbrev ms5 (t : Fin (cfg15 a).N) : Memref sig .tc .vmem S1x64 .f32 := spec15_5.stage ((cfg15 a).slots t 5)
abbrev hs5 (t : Fin (cfg15 a).N) : (ms5 a t).IsWhole := hstage15_5 (((cfg15 a).slots t 5).cast nbuf15_5)
abbrev ms6 (t : Fin (cfg15 a).N) : Memref sig .tc .vmem S1x64 .f32 := spec15_6.stage ((cfg15 a).slots t 6)
abbrev hs6 (t : Fin (cfg15 a).N) : (ms6 a t).IsWhole := hstage15_6 (((cfg15 a).slots t 6).cast nbuf15_6)
/-- The three scratch buffers (the two gathered rows and the hidden row). -/
abbrev sc0 : Memref sig .tc .vmem S1x128 .f32 := Memref.whole cc15_scratch0
abbrev sc1 : Memref sig .tc .vmem S1x128 .f32 := Memref.whole cc15_scratch1
abbrev sc2 : Memref sig .tc .vmem S1x64 .f32 := Memref.whole cc15_scratch2

/-- The body's own three copy semaphores. -/
abbrev osem : Fin 3 → SemLoc sig := fun j => (![SemLoc.dma 157, SemLoc.dma 158, SemLoc.dma 159] : Fin 3 → SemLoc sig) j
theorem ownSemFacts : Pipeline.OwnSemFacts spec15 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc15_scratch3 0) 0 ∗ semVal ((c : Thread nD τ), semAt cc15_scratch3 1) 0 ∗ semVal ((c : Thread nD τ), semAt cc15_scratch3 2) 0) := by
  rw [Pipeline.ownSems0_eq_of_list c osem [0, 1, 2] (by decide) (by decide)]; rfl

/-- The grid point's coordinate. -/
abbrev crd (t : Fin (cfg15 a).N) : grid15.Coords := grid15.coords t

/-- The grid is one axis of 62500 points: the coordinate of point `t` is `t`. -/
theorem coord_val (t : Fin (cfg15 a).N) : ((crd a t) 0).val = t.val := by
  have hN : t.val < 62500 := lt_of_lt_of_eq t.isLt N_15
  show t.val / grid15.stride 0 % grid15.bound 0 = t.val
  rw [show grid15.stride 0 = 1 from by decide, Nat.div_one]
  exact Nat.mod_eq_of_lt hN

/-- The branch is taken at the first point and at no other. -/
theorem hcond (t : Fin (cfg15 a).N) : cond0_0 (grid15.coords t) ↔ t.val = 0 := by
  have hN : t.val < 62500 := lt_of_lt_of_eq t.isLt N_15
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg15 a).N) : St (F := F) c :=
  P1.stG tb0 tb1 xM hM c (cfg15 a).N (crd a) (fun t => iblk V a c 0 t) (fun t => iblk V a c 1 t) (fun t => iblk V a c 2 t) (fun t => iblk V a c 3 t) (fun t => iblk V a c 4 t) (T0 a c) (T1 a c) (V c main_arg0) (V c main_v58_0) (fun t => hp0 c (crd a t)) (fun t => hp1 c (crd a t)) n hn

/-- The hidden array before point `n` (after `n` points). -/
def hAt (c : Dev nD) (n : ℕ) (hn : n ≤ (cfg15 a).N) : Bf (F := F) c hM :=
  P1.hG tb0 tb1 xM hM c (cfg15 a).N (crd a) (fun t => iblk V a c 0 t) (fun t => iblk V a c 1 t) (fun t => iblk V a c 2 t) (fun t => iblk V a c 3 t) (fun t => iblk V a c 4 t) (T0 a c) (T1 a c) (V c main_arg0) (V c main_v58_0) (fun t => hp0 c (crd a t)) (fun t => hp1 c (crd a t)) n hn

theorem stAt_zero (c : Dev nD) (t : Fin (cfg15 a).N) (h0 : t.val = 0) :
    stAt V a hp0 hp1 c t.val t.isLt
      = (P1.sumStep tb0 tb1 xM c (cfg15 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k15_pay1 (F := F)), P1.sqStep tb0 tb1 xM c (cfg15 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k15_pay2 (F := F)),
          hNext hM c (crd a t) (V c main_v58_0) (P1.rowStep tb0 tb1 xM c (cfg15 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg15 a).N) (h0 : ¬t.val = 0) :
    stAt V a hp0 hp1 c t.val t.isLt
      = (P1.sumStep tb0 tb1 xM c (cfg15 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg15 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg15 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg15 a).N) (h0 : t.val = 0) (hn) : hAt V a hp0 hp1 c t.val hn = V c main_v58_0 := by
  obtain ⟨n, hlt⟩ := t
  cases n with
  | zero => rfl
  | succ n => exact absurd h0 (Nat.succ_ne_zero n)
theorem hAt_pos (c : Dev nD) (t : Fin (cfg15 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg15 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg15 a).N) : sProp 𝕄 :=
  iprop(Pipeline.scopedRest (Ix := Unit) (Name := ℕ) (U := Pipeline.UD sig nD τ) (Lvl := ℕ) (Val := Elt F) spec15 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg15 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec15 c [cc15_scratch0, cc15_scratch1, cc15_scratch2])
          ∗ (∃ r, prngReg c r)
          ∗ iprop(semVal ((c : Thread nD τ), semAt cc15_scratch3 0) 0 ∗ semVal ((c : Thread nD τ), semAt cc15_scratch3 1) 0 ∗ semVal ((c : Thread nD τ), semAt cc15_scratch3 2) 0)
          ∗ pt c tb0 (T0 a c) ∗ pt c tb1 (T1 a c) ∗ pt c xM (V c main_arg0) ∗ pt c hM (hAt V a hp0 hp1 c n hn)) := by
  unfold Φ1; rw [scopedRest15_split, ownSems0_eq]; simp only [sc0, sc1, sc2, owns_whole]; try rfl

def dat (c : Dev nD) : Dat τ (Elt F) Unit ℕ (Pipeline.UD sig nD τ) ℕ (cfg15 a) c where
  A w := V c (Pipeline.arrRef spec15 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg15 a).W) : (dat V a hp0 hp1 c).A w = V c (Pipeline.arrRef spec15 w) := by
  dsimp only [dat]
theorem after_0 (c : Dev nD) (t : Fin (cfg15 a).N) : (dat V a hp0 hp1 c).after 0 t = iblk V a c 0 t := by dsimp only [dat]; rfl
theorem after_1 (c : Dev nD) (t : Fin (cfg15 a).N) : (dat V a hp0 hp1 c).after 1 t = iblk V a c 1 t := by dsimp only [dat]; rfl
theorem after_2 (c : Dev nD) (t : Fin (cfg15 a).N) : (dat V a hp0 hp1 c).after 2 t = iblk V a c 2 t := by dsimp only [dat]; rfl
theorem after_3 (c : Dev nD) (t : Fin (cfg15 a).N) : (dat V a hp0 hp1 c).after 3 t = iblk V a c 3 t := by dsimp only [dat]; rfl
theorem after_4 (c : Dev nD) (t : Fin (cfg15 a).N) : (dat V a hp0 hp1 c).after 4 t = iblk V a c 4 t := by dsimp only [dat]; rfl
theorem after_5 (c : Dev nD) (t : Fin (cfg15 a).N) : (dat V a hp0 hp1 c).after 5 t = (stAt V a hp0 hp1 c t.val t.isLt).1 := by dsimp only [dat]; rfl
theorem after_6 (c : Dev nD) (t : Fin (cfg15 a).N) : (dat V a hp0 hp1 c).after 6 t = (stAt V a hp0 hp1 c t.val t.isLt).2.1 := by dsimp only [dat]; rfl
theorem before_0 (c : Dev nD) (t : Fin (cfg15 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg15 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg15 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg15 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg15 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg15 a).N) (h : t'.val + 1 < (cfg15 a).N) : ((cfg15 a).win 5).flush t' = false := by
  unfold Pipeline.Window.flush
  rw [Bool.and_eq_false_iff]; right
  rw [Bool.or_eq_false_iff]
  have h' : t'.val + 1 < (cfg15 a).grid.N := h
  exact ⟨decide_eq_false (by omega), decide_eq_false (fun ⟨_, hne⟩ => hne rfl)⟩
theorem before_5_B (c : Dev nD) (t : Fin (cfg15 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg15 a).N) (h : t'.val + 1 < (cfg15 a).N) : ((cfg15 a).win 6).flush t' = false := by
  unfold Pipeline.Window.flush
  rw [Bool.and_eq_false_iff]; right
  rw [Bool.or_eq_false_iff]
  have h' : t'.val + 1 < (cfg15 a).grid.N := h
  exact ⟨decide_eq_false (by omega), decide_eq_false (fun ⟨_, hne⟩ => hne rfl)⟩
theorem before_6_B (c : Dev nD) (t : Fin (cfg15 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg15 a).N) : Prog (TpuEff nD τ sig (Elt F) Λ₀ .tc) PUnit :=
  (cc15__pass1_kernel (grid15.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc15_scratch3)

def bodyPre (c : Dev nD) (t : Fin (cfg15 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg15 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg15 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc15_scratch3 c (grid15.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v58_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc15_scratch3 c (grid15.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W15, bigSep_W15]
  exact sound_body V a hp0 hp1 c t

end Cert.KernelIdeal.P1R15

end
-- ==== Proof.P1R15Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.P1R15Dat
import proofs.«400866_j57071525429608_2_alg».proof.Proof.Assemble

set_option maxRecDepth 16384

noncomputable section

namespace Cert.KernelIdeal.P1R15

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Asm (Rr L₀ lv₀)
open Cert.KernelIdeal.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid15.Coords), k15_chk1 (tw0 tb0 c i (T0 (adm 15) c))) (hp1 : ∀ c (i : grid15.Coords), k15_chk2 (tw1 tb1 c i (T1 (adm 15) c)))

/-- The unscoped buffers the body moves itself or reads as tables: no window's array. -/
def H : Finset (Ref sig .tc) := {main_arg0, main_v56, main_v57, main_v58_0}
theorem H_sub : H ⊆ Pipeline.restRefs sig spec15 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v56) ∗ pt c tb1 (W main_v57) ∗ pt c hM (W main_v58_0)) := by
  rw [BI.bigSep_eq_bigSepL_of_eq [main_arg0, main_v56, main_v57, main_v58_0] (by decide) (by decide)]; rfl

/-- The two tables held, listed. -/
theorem pref_eq (c : Dev nD) (T : (pcfgs (F := F) 15).pre.Contents (Elt F)) :
    (Pipeline.prefHeld (Ix := Unit) (Name := ℕ) (U := Pipeline.UD sig nD τ) (Lvl := ℕ) (pcfgs (F := F) 15).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 15) hp0 hp1 c (cfg15 (adm 15)).N le_rfl

/-- The entry valuation with the hidden array at its final contents: what the unscoped rest is at the exit. -/
def Vmid (c : Dev nD) : (b : Ref sig .tc) → Buf (Elt F) ((c : Thread nD τ).loc b) :=
  Function.update (Vin Win c) main_v58_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec15 c W : sProp 𝕄)
      = iprop((bigSep H fun b => ((c : Thread nD τ).loc b) ↦{fullShare} W b) ∗ (bigSep (Pipeline.restRefs sig spec15 \ H) fun b => ((c : Thread nD τ).loc b) ↦{fullShare} W b)) := by
  unfold Pipeline.unscopedRest; exact BI.bigSep_sdiff_split H_sub

set_option maxHeartbeats 4000000 in
def reg (hpd : ∀ c, pdats 15 c = dat (Vin Win) (adm 15) hp0 hp1 c)
    (hT0 : ∀ c, Vin Win c main_v56 = T0 (adm 15) c) (hT1 : ∀ c, Vin Win c main_v57 = T1 (adm 15) c)
    (hF : ∀ c w, (dat (Vin Win) (adm 15) hp0 hp1 c).arrAt w (cfg15 (adm 15)).N = Vout Wout c (Pipeline.arrRef spec15 w))
    (hrest : ∀ c b, b ∉ Finset.univ.image (Pipeline.arrRef spec15) → Vout Wout c b = Vmid adm Win hp0 hp1 c b) :
    Pipeline.RegionSeg (pcfgs (F := F)) adm pdats () defs₀ Variants.none L₀ lv₀ 15 where
  win := winFacts15.to₀
  block_pos := block_pos15
  stage_whole := stage_whole15
  K := Fin 3
  osem := osem
  ho := ownSemFacts
  hbody c := by rw [hpd c]; exact (body_obligation (Vin Win) (adm 15) hp0 hp1 c).loose
  hwaits := Pipeline.hwaits_of_owed_zero _ _ _ _ L₀ lv₀ 15 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v58_0))
  Y c := iprop((∃ r, prngReg c r) ∗ pt c tb0 (T0 (adm 15) c) ∗ pt c tb1 (T1 (adm 15) c) ∗ pt c xM (Vin Win c main_arg0) ∗ pt c hM (hEnd adm Win hp0 hp1 c))
  Z c := bigSep (Pipeline.restRefs sig spec15 \ H) fun b => ((c : Thread nD τ).loc b) ↦{fullShare} Vin Win c b
  hentry c := by
    have hsplit : (StableHlo.held (c : Thread nD τ) (Pipeline.ucRefs τ sig) (Win c) : sProp 𝕄)
        ⊢ iprop((pdats 15 c).arrays ((pdats 15 c).arrAt · 0) ∗ Pipeline.unscopedRest (Ix := Unit) (Name := ℕ) (U := Pipeline.UD sig nD τ) (Lvl := ℕ) spec15 c (Vin Win c)) := by
      have h := Pipeline.arrays_of_unscopedBufs (p := 15) (pcfgs (F := F)) adm pdats winFacts15 arr_whole15 c
        (by rw [hpd c]; exact (dat (Vin Win) (adm 15) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 15 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 15) hp0 hp1 c 0 (Nat.zero_le _)
    unfold Φ1
    rw [pref_eq, show hAt (Vin Win) (adm 15) hp0 hp1 c 0 (Nat.zero_le _) = Vin Win c main_v58_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 15) hp0 hp1 c (cfg15 (adm 15)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 15 c).arrays ((pdats 15 c).arrAt · (cfg15 (adm 15)).N) ∗ Pipeline.unscopedRest (Ix := Unit) (Name := ℕ) (U := Pipeline.UD sig nD τ) (Lvl := ℕ) spec15 c (Vmid adm Win hp0 hp1 c))
        ⊢ (StableHlo.held (c : Thread nD τ) (Pipeline.ucRefs τ sig) (Wout c) : sProp 𝕄) := by
      have h := Pipeline.unscopedBufs_of_arrays (p := 15) (pcfgs (F := F)) adm (Ix := Unit) (Name := ℕ) (U := Pipeline.UD sig nD τ) (Lvl := ℕ)
        winFacts15 arr_whole15 c pdats (by rw [hpd c]; exact (dat (Vin Win) (adm 15) hp0 hp1 c).share_full fun _ => rfl)
        (Vmid adm Win hp0 hp1 c) (Vout Wout c) ((pdats 15 c).arrAt · (cfg15 (adm 15)).N) (by rw [hpd c]; exact hF c) (hrest c)
      rw [Pipeline.unscopedBufs_held] at h; exact h
    rw [rest_split, Hpts_eq] at hjoin
    have hZ : (bigSep (Pipeline.restRefs sig spec15 \ H) fun b => ((c : Thread nD τ).loc b) ↦{fullShare} Vin Win c b : sProp 𝕄)
        = (bigSep (Pipeline.restRefs sig spec15 \ H) fun b => ((c : Thread nD τ).loc b) ↦{fullShare} Vmid adm Win hp0 hp1 c b) :=
      bigSep_congr fun b hb => by
        have hne : b ≠ main_v58_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v56 = Vin Win c main_v56 := by unfold Vmid; exact Function.update_of_ne (by decide) _ _
    have e2 : Vmid adm Win hp0 hp1 c main_v57 = Vin Win c main_v57 := by unfold Vmid; exact Function.update_of_ne (by decide) _ _
    have e3 : Vmid adm Win hp0 hp1 c main_v58_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 15 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.KernelIdeal.P1R15

end
-- ==== Proof.Glue.lean ====
/- (the text of one gather-and-project region, written for region 0, substituted for regions 0 to 15; the rest written once) -/
/-
  The run's choices: the index tables, the buffer contents between the program's items, the proof data, and each
  region's segment of the run.

  The program is 17 kernel regions among stretches of host operations. The conditional run is stated over UNKNOWNS,
  "what region K leaves in its result buffers"; here they are chosen. The contents of a core's buffers between two
  items form a chain that mentions no unknown:
    W1            what the first host stretch makes of the launch contents;
    W(2K+2)       W(2K+1) changed at region K's three result buffers to what region K's own proof data, entered from
                  W(2K+1), leave there (the two accumulators' arrays after the last write-back, and the hidden array
                  after the last point);
    W(2K+3)       what the next host stretch makes of W(2K+2);
    W34           W33 changed at the result array of the normalising pass to what its write-backs leave.
  The unknown "after item J, buffer r" is then W(J) at r, and the conditional run's contents V(J) at these unknowns ARE
  the chain (V(J)_eq), by one step per item: a region's step is that contents changed at distinct buffers to what the
  changed contents hold there are the changed contents; a host stretch's step is a congruence.

  The index tables of region K are entries [62500 K, 62500 K + 62500) of the two flattened rows of the edge-endpoint
  array, read off the first contents on the one device; every entry is an endpoint, so below 100000 under the
  hypothesis hE, which is what the bodies assume of the row number a point reads.

  Each region's segment is then its own record at these choices: the tables it finds are its admissible ones, its
  arrays end at what the chain holds, and every other buffer is as the region's record says.
-/
import proofs.«400866_j57071525429608_2_alg».proof.Proof.GlueBase
import proofs.«400866_j57071525429608_2_alg».proof.Proof.Reg16
import proofs.«400866_j57071525429608_2_alg».proof.Proof.TblFacts
import proofs.«400866_j57071525429608_2_alg».proof.Proof.ChkFacts
import proofs.«400866_j57071525429608_2_alg».proof.Proof.P1R0Reg
import proofs.«400866_j57071525429608_2_alg».proof.Proof.P1R1Reg
import proofs.«400866_j57071525429608_2_alg».proof.Proof.P1R2Reg
import proofs.«400866_j57071525429608_2_alg».proof.Proof.P1R3Reg
import proofs.«400866_j57071525429608_2_alg».proof.Proof.P1R4Reg
import proofs.«400866_j57071525429608_2_alg».proof.Proof.P1R5Reg
import proofs.«400866_j57071525429608_2_alg».proof.Proof.P1R6Reg
import proofs.«400866_j57071525429608_2_alg».proof.Proof.P1R7Reg
import proofs.«400866_j57071525429608_2_alg».proof.Proof.P1R8Reg
import proofs.«400866_j57071525429608_2_alg».proof.Proof.P1R9Reg
import proofs.«400866_j57071525429608_2_alg».proof.Proof.P1R10Reg
import proofs.«400866_j57071525429608_2_alg».proof.Proof.P1R11Reg
import proofs.«400866_j57071525429608_2_alg».proof.Proof.P1R12Reg
import proofs.«400866_j57071525429608_2_alg».proof.Proof.P1R13Reg
import proofs.«400866_j57071525429608_2_alg».proof.Proof.P1R14Reg
import proofs.«400866_j57071525429608_2_alg».proof.Proof.P1R15Reg

set_option maxRecDepth 16384

noncomputable section

namespace Cert.KernelIdeal.Glue

open Cert.KernelIdeal Cert.KernelIdeal.Gen Cert.KernelIdeal.P2 Cert.KernelIdeal.Asm
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)
  (hE : ∀ (c : Dev nD) (idx : S2x1000000.Idx), ((V0 m c main_arg1 : IVec S2x1000000 32) idx).toNat < 100000)

/-! ## The chain of contents, region by region -/

/-- After the first host stretch. -/
def W1 (c : Dev nD) : Valuation τ sig (Elt F) := V1 m c

/-! ### Region 0 -/

/-- Its two index tables: entries [0, 0 + 62500) of the two flattened rows of the endpoints. -/
def tbls0 : pre0.Contents (Elt F) := fun
  | 0 => extractStridedSlice S62500 ![0] (V1 m c₀ main_v1 : IVec S1000000 32) slices_S1000000_S62500_0
  | 1 => extractStridedSlice S62500 ![0] (V1 m c₀ main_v3 : IVec S1000000 32) slices_S1000000_S62500_0
  | ⟨_ + 2, h⟩ => absurd h (Nat.not_lt.2 (Nat.le_add_left _ _))
/-- They are admissible: the side condition asks nothing of the contents. -/
def adm0 : (pcfg0 (F := F)).Adm := ⟨tbls0 m, trivial⟩
include hE in
/-- The word a point reads of either table is an entry of the table, so an endpoint: it names a row of the node table. -/
theorem hp0_0 (c : Dev nD) (i : grid0.Coords) : k0_chk1 (P1.tw0 P1R0.tb0 c i (P1R0.T0 (adm0 m) c)) :=
  ChkFacts.row_inb _ (by rw [P1.tw0_eq]; exact Tbl.row0_lt m c₀ (hE c₀) _)
include hE in
theorem hp1_0 (c : Dev nD) (i : grid0.Coords) : k0_chk2 (P1.tw1 P1R0.tb1 c i (P1R0.T1 (adm0 m) c)) :=
  ChkFacts.row_inb _ (by rw [P1.tw1_eq]; exact Tbl.row1_lt m c₀ (hE c₀) _)
/-- Its proof data over the contents it is entered from. -/
abbrev d0 (c : Dev nD) : Dat τ (Elt F) Unit ℕ (Pipeline.UD sig nD τ) ℕ (cfg0 (adm0 m)) c :=
  P1R0.dat (atTc (W1 m)) (adm0 m) (hp0_0 m hE) (hp1_0 m hE) c
/-- The contents it leaves: its three results at what its proof data leave, every other buffer as entered. -/
def W2 (c : Dev nD) : Valuation τ sig (Elt F) :=
  set3 (W1 m c) main_v13_1 main_v13_2 main_v13_0
    ((d0 m hE c).arrAt 5 (cfg0 (adm0 m)).N) ((d0 m hE c).arrAt 6 (cfg0 (adm0 m)).N)
    (P1R0.hAt (atTc (W1 m)) (adm0 m) (hp0_0 m hE) (hp1_0 m hE) c (cfg0 (adm0 m)).N le_rfl)
theorem W2_def (c : Dev nD) : W2 m hE c =
  set3 (W1 m c) main_v13_1 main_v13_2 main_v13_0
    ((d0 m hE c).arrAt 5 (cfg0 (adm0 m)).N) ((d0 m hE c).arrAt 6 (cfg0 (adm0 m)).N)
    (P1R0.hAt (atTc (W1 m)) (adm0 m) (hp0_0 m hE) (hp1_0 m hE) c (cfg0 (adm0 m)).N le_rfl) := rfl
/-- The contents after the host stretch that follows. -/
def W3 (c : Dev nD) : Valuation τ sig (Elt F) := StableHlo.after hostOps1 (W2 m hE c)
/-- What the region leaves in its results, -/
theorem W2_res1 (c : Dev nD) : W2 m hE c (Proc.devRef .tc main_v13_1) = (d0 m hE c).arrAt 5 (cfg0 (adm0 m)).N :=
  set3_1 _ _ _ _ _ _ _ (by decide) (by decide)
theorem W2_res2 (c : Dev nD) : W2 m hE c (Proc.devRef .tc main_v13_2) = (d0 m hE c).arrAt 6 (cfg0 (adm0 m)).N :=
  set3_2 _ _ _ _ _ _ _ (by decide)
theorem W2_res0 (c : Dev nD) : W2 m hE c (Proc.devRef .tc main_v13_0)
    = P1R0.hAt (atTc (W1 m)) (adm0 m) (hp0_0 m hE) (hp1_0 m hE) c (cfg0 (adm0 m)).N le_rfl :=
  set3_0 _ _ _ _ _ _ _
/-- and every other buffer is as it was entered. -/
theorem W2_of (c : Dev nD) (r : Ref sig .tc) (h1 : r ≠ main_v13_1) (h2 : r ≠ main_v13_2) (h0 : r ≠ main_v13_0) :
    W2 m hE c (Proc.devRef .tc r) = W1 m c (Proc.devRef .tc r) :=
  set3_of _ _ _ _ _ _ _ r h1 h2 h0

/-! ### Region 1 -/

/-- Its two index tables: entries [62500, 62500 + 62500) of the two flattened rows of the endpoints. -/
def tbls1 : pre1.Contents (Elt F) := fun
  | 0 => extractStridedSlice S62500 ![62500] (V1 m c₀ main_v1 : IVec S1000000 32) slices_S1000000_S62500_62500
  | 1 => extractStridedSlice S62500 ![62500] (V1 m c₀ main_v3 : IVec S1000000 32) slices_S1000000_S62500_62500
  | ⟨_ + 2, h⟩ => absurd h (Nat.not_lt.2 (Nat.le_add_left _ _))
/-- They are admissible: the side condition asks nothing of the contents. -/
def adm1 : (pcfg1 (F := F)).Adm := ⟨tbls1 m, trivial⟩
include hE in
/-- The word a point reads of either table is an entry of the table, so an endpoint: it names a row of the node table. -/
theorem hp0_1 (c : Dev nD) (i : grid1.Coords) : k1_chk1 (P1.tw0 P1R1.tb0 c i (P1R1.T0 (adm1 m) c)) :=
  ChkFacts.row_inb _ (by rw [P1.tw0_eq]; exact Tbl.row0_lt m c₀ (hE c₀) _)
include hE in
theorem hp1_1 (c : Dev nD) (i : grid1.Coords) : k1_chk2 (P1.tw1 P1R1.tb1 c i (P1R1.T1 (adm1 m) c)) :=
  ChkFacts.row_inb _ (by rw [P1.tw1_eq]; exact Tbl.row1_lt m c₀ (hE c₀) _)
/-- Its proof data over the contents it is entered from. -/
abbrev d1 (c : Dev nD) : Dat τ (Elt F) Unit ℕ (Pipeline.UD sig nD τ) ℕ (cfg1 (adm1 m)) c :=
  P1R1.dat (atTc (W3 m hE)) (adm1 m) (hp0_1 m hE) (hp1_1 m hE) c
/-- The contents it leaves: its three results at what its proof data leave, every other buffer as entered. -/
def W4 (c : Dev nD) : Valuation τ sig (Elt F) :=
  set3 (W3 m hE c) main_v16_1 main_v16_2 main_v16_0
    ((d1 m hE c).arrAt 5 (cfg1 (adm1 m)).N) ((d1 m hE c).arrAt 6 (cfg1 (adm1 m)).N)
    (P1R1.hAt (atTc (W3 m hE)) (adm1 m) (hp0_1 m hE) (hp1_1 m hE) c (cfg1 (adm1 m)).N le_rfl)
theorem W4_def (c : Dev nD) : W4 m hE c =
  set3 (W3 m hE c) main_v16_1 main_v16_2 main_v16_0
    ((d1 m hE c).arrAt 5 (cfg1 (adm1 m)).N) ((d1 m hE c).arrAt 6 (cfg1 (adm1 m)).N)
    (P1R1.hAt (atTc (W3 m hE)) (adm1 m) (hp0_1 m hE) (hp1_1 m hE) c (cfg1 (adm1 m)).N le_rfl) := rfl
/-- The contents after the host stretch that follows. -/
def W5 (c : Dev nD) : Valuation τ sig (Elt F) := StableHlo.after hostOps2 (W4 m hE c)
/-- What the region leaves in its results, -/
theorem W4_res1 (c : Dev nD) : W4 m hE c (Proc.devRef .tc main_v16_1) = (d1 m hE c).arrAt 5 (cfg1 (adm1 m)).N :=
  set3_1 _ _ _ _ _ _ _ (by decide) (by decide)
theorem W4_res2 (c : Dev nD) : W4 m hE c (Proc.devRef .tc main_v16_2) = (d1 m hE c).arrAt 6 (cfg1 (adm1 m)).N :=
  set3_2 _ _ _ _ _ _ _ (by decide)
theorem W4_res0 (c : Dev nD) : W4 m hE c (Proc.devRef .tc main_v16_0)
    = P1R1.hAt (atTc (W3 m hE)) (adm1 m) (hp0_1 m hE) (hp1_1 m hE) c (cfg1 (adm1 m)).N le_rfl :=
  set3_0 _ _ _ _ _ _ _
/-- and every other buffer is as it was entered. -/
theorem W4_of (c : Dev nD) (r : Ref sig .tc) (h1 : r ≠ main_v16_1) (h2 : r ≠ main_v16_2) (h0 : r ≠ main_v16_0) :
    W4 m hE c (Proc.devRef .tc r) = W3 m hE c (Proc.devRef .tc r) :=
  set3_of _ _ _ _ _ _ _ r h1 h2 h0

/-! ### Region 2 -/

/-- Its two index tables: entries [125000, 125000 + 62500) of the two flattened rows of the endpoints. -/
def tbls2 : pre2.Contents (Elt F) := fun
  | 0 => extractStridedSlice S62500 ![125000] (V1 m c₀ main_v1 : IVec S1000000 32) slices_S1000000_S62500_125000
  | 1 => extractStridedSlice S62500 ![125000] (V1 m c₀ main_v3 : IVec S1000000 32) slices_S1000000_S62500_125000
  | ⟨_ + 2, h⟩ => absurd h (Nat.not_lt.2 (Nat.le_add_left _ _))
/-- They are admissible: the side condition asks nothing of the contents. -/
def adm2 : (pcfg2 (F := F)).Adm := ⟨tbls2 m, trivial⟩
include hE in
/-- The word a point reads of either table is an entry of the table, so an endpoint: it names a row of the node table. -/
theorem hp0_2 (c : Dev nD) (i : grid2.Coords) : k2_chk1 (P1.tw0 P1R2.tb0 c i (P1R2.T0 (adm2 m) c)) :=
  ChkFacts.row_inb _ (by rw [P1.tw0_eq]; exact Tbl.row0_lt m c₀ (hE c₀) _)
include hE in
theorem hp1_2 (c : Dev nD) (i : grid2.Coords) : k2_chk2 (P1.tw1 P1R2.tb1 c i (P1R2.T1 (adm2 m) c)) :=
  ChkFacts.row_inb _ (by rw [P1.tw1_eq]; exact Tbl.row1_lt m c₀ (hE c₀) _)
/-- Its proof data over the contents it is entered from. -/
abbrev d2 (c : Dev nD) : Dat τ (Elt F) Unit ℕ (Pipeline.UD sig nD τ) ℕ (cfg2 (adm2 m)) c :=
  P1R2.dat (atTc (W5 m hE)) (adm2 m) (hp0_2 m hE) (hp1_2 m hE) c
/-- The contents it leaves: its three results at what its proof data leave, every other buffer as entered. -/
def W6 (c : Dev nD) : Valuation τ sig (Elt F) :=
  set3 (W5 m hE c) main_v19_1 main_v19_2 main_v19_0
    ((d2 m hE c).arrAt 5 (cfg2 (adm2 m)).N) ((d2 m hE c).arrAt 6 (cfg2 (adm2 m)).N)
    (P1R2.hAt (atTc (W5 m hE)) (adm2 m) (hp0_2 m hE) (hp1_2 m hE) c (cfg2 (adm2 m)).N le_rfl)
theorem W6_def (c : Dev nD) : W6 m hE c =
  set3 (W5 m hE c) main_v19_1 main_v19_2 main_v19_0
    ((d2 m hE c).arrAt 5 (cfg2 (adm2 m)).N) ((d2 m hE c).arrAt 6 (cfg2 (adm2 m)).N)
    (P1R2.hAt (atTc (W5 m hE)) (adm2 m) (hp0_2 m hE) (hp1_2 m hE) c (cfg2 (adm2 m)).N le_rfl) := rfl
/-- The contents after the host stretch that follows. -/
def W7 (c : Dev nD) : Valuation τ sig (Elt F) := StableHlo.after hostOps3 (W6 m hE c)
/-- What the region leaves in its results, -/
theorem W6_res1 (c : Dev nD) : W6 m hE c (Proc.devRef .tc main_v19_1) = (d2 m hE c).arrAt 5 (cfg2 (adm2 m)).N :=
  set3_1 _ _ _ _ _ _ _ (by decide) (by decide)
theorem W6_res2 (c : Dev nD) : W6 m hE c (Proc.devRef .tc main_v19_2) = (d2 m hE c).arrAt 6 (cfg2 (adm2 m)).N :=
  set3_2 _ _ _ _ _ _ _ (by decide)
theorem W6_res0 (c : Dev nD) : W6 m hE c (Proc.devRef .tc main_v19_0)
    = P1R2.hAt (atTc (W5 m hE)) (adm2 m) (hp0_2 m hE) (hp1_2 m hE) c (cfg2 (adm2 m)).N le_rfl :=
  set3_0 _ _ _ _ _ _ _
/-- and every other buffer is as it was entered. -/
theorem W6_of (c : Dev nD) (r : Ref sig .tc) (h1 : r ≠ main_v19_1) (h2 : r ≠ main_v19_2) (h0 : r ≠ main_v19_0) :
    W6 m hE c (Proc.devRef .tc r) = W5 m hE c (Proc.devRef .tc r) :=
  set3_of _ _ _ _ _ _ _ r h1 h2 h0

/-! ### Region 3 -/

/-- Its two index tables: entries [187500, 187500 + 62500) of the two flattened rows of the endpoints. -/
def tbls3 : pre3.Contents (Elt F) := fun
  | 0 => extractStridedSlice S62500 ![187500] (V1 m c₀ main_v1 : IVec S1000000 32) slices_S1000000_S62500_187500
  | 1 => extractStridedSlice S62500 ![187500] (V1 m c₀ main_v3 : IVec S1000000 32) slices_S1000000_S62500_187500
  | ⟨_ + 2, h⟩ => absurd h (Nat.not_lt.2 (Nat.le_add_left _ _))
/-- They are admissible: the side condition asks nothing of the contents. -/
def adm3 : (pcfg3 (F := F)).Adm := ⟨tbls3 m, trivial⟩
include hE in
/-- The word a point reads of either table is an entry of the table, so an endpoint: it names a row of the node table. -/
theorem hp0_3 (c : Dev nD) (i : grid3.Coords) : k3_chk1 (P1.tw0 P1R3.tb0 c i (P1R3.T0 (adm3 m) c)) :=
  ChkFacts.row_inb _ (by rw [P1.tw0_eq]; exact Tbl.row0_lt m c₀ (hE c₀) _)
include hE in
theorem hp1_3 (c : Dev nD) (i : grid3.Coords) : k3_chk2 (P1.tw1 P1R3.tb1 c i (P1R3.T1 (adm3 m) c)) :=
  ChkFacts.row_inb _ (by rw [P1.tw1_eq]; exact Tbl.row1_lt m c₀ (hE c₀) _)
/-- Its proof data over the contents it is entered from. -/
abbrev d3 (c : Dev nD) : Dat τ (Elt F) Unit ℕ (Pipeline.UD sig nD τ) ℕ (cfg3 (adm3 m)) c :=
  P1R3.dat (atTc (W7 m hE)) (adm3 m) (hp0_3 m hE) (hp1_3 m hE) c
/-- The contents it leaves: its three results at what its proof data leave, every other buffer as entered. -/
def W8 (c : Dev nD) : Valuation τ sig (Elt F) :=
  set3 (W7 m hE c) main_v22_1 main_v22_2 main_v22_0
    ((d3 m hE c).arrAt 5 (cfg3 (adm3 m)).N) ((d3 m hE c).arrAt 6 (cfg3 (adm3 m)).N)
    (P1R3.hAt (atTc (W7 m hE)) (adm3 m) (hp0_3 m hE) (hp1_3 m hE) c (cfg3 (adm3 m)).N le_rfl)
theorem W8_def (c : Dev nD) : W8 m hE c =
  set3 (W7 m hE c) main_v22_1 main_v22_2 main_v22_0
    ((d3 m hE c).arrAt 5 (cfg3 (adm3 m)).N) ((d3 m hE c).arrAt 6 (cfg3 (adm3 m)).N)
    (P1R3.hAt (atTc (W7 m hE)) (adm3 m) (hp0_3 m hE) (hp1_3 m hE) c (cfg3 (adm3 m)).N le_rfl) := rfl
/-- The contents after the host stretch that follows. -/
def W9 (c : Dev nD) : Valuation τ sig (Elt F) := StableHlo.after hostOps4 (W8 m hE c)
/-- What the region leaves in its results, -/
theorem W8_res1 (c : Dev nD) : W8 m hE c (Proc.devRef .tc main_v22_1) = (d3 m hE c).arrAt 5 (cfg3 (adm3 m)).N :=
  set3_1 _ _ _ _ _ _ _ (by decide) (by decide)
theorem W8_res2 (c : Dev nD) : W8 m hE c (Proc.devRef .tc main_v22_2) = (d3 m hE c).arrAt 6 (cfg3 (adm3 m)).N :=
  set3_2 _ _ _ _ _ _ _ (by decide)
theorem W8_res0 (c : Dev nD) : W8 m hE c (Proc.devRef .tc main_v22_0)
    = P1R3.hAt (atTc (W7 m hE)) (adm3 m) (hp0_3 m hE) (hp1_3 m hE) c (cfg3 (adm3 m)).N le_rfl :=
  set3_0 _ _ _ _ _ _ _
/-- and every other buffer is as it was entered. -/
theorem W8_of (c : Dev nD) (r : Ref sig .tc) (h1 : r ≠ main_v22_1) (h2 : r ≠ main_v22_2) (h0 : r ≠ main_v22_0) :
    W8 m hE c (Proc.devRef .tc r) = W7 m hE c (Proc.devRef .tc r) :=
  set3_of _ _ _ _ _ _ _ r h1 h2 h0

/-! ### Region 4 -/

/-- Its two index tables: entries [250000, 250000 + 62500) of the two flattened rows of the endpoints. -/
def tbls4 : pre4.Contents (Elt F) := fun
  | 0 => extractStridedSlice S62500 ![250000] (V1 m c₀ main_v1 : IVec S1000000 32) slices_S1000000_S62500_250000
  | 1 => extractStridedSlice S62500 ![250000] (V1 m c₀ main_v3 : IVec S1000000 32) slices_S1000000_S62500_250000
  | ⟨_ + 2, h⟩ => absurd h (Nat.not_lt.2 (Nat.le_add_left _ _))
/-- They are admissible: the side condition asks nothing of the contents. -/
def adm4 : (pcfg4 (F := F)).Adm := ⟨tbls4 m, trivial⟩
include hE in
/-- The word a point reads of either table is an entry of the table, so an endpoint: it names a row of the node table. -/
theorem hp0_4 (c : Dev nD) (i : grid4.Coords) : k4_chk1 (P1.tw0 P1R4.tb0 c i (P1R4.T0 (adm4 m) c)) :=
  ChkFacts.row_inb _ (by rw [P1.tw0_eq]; exact Tbl.row0_lt m c₀ (hE c₀) _)
include hE in
theorem hp1_4 (c : Dev nD) (i : grid4.Coords) : k4_chk2 (P1.tw1 P1R4.tb1 c i (P1R4.T1 (adm4 m) c)) :=
  ChkFacts.row_inb _ (by rw [P1.tw1_eq]; exact Tbl.row1_lt m c₀ (hE c₀) _)
/-- Its proof data over the contents it is entered from. -/
abbrev d4 (c : Dev nD) : Dat τ (Elt F) Unit ℕ (Pipeline.UD sig nD τ) ℕ (cfg4 (adm4 m)) c :=
  P1R4.dat (atTc (W9 m hE)) (adm4 m) (hp0_4 m hE) (hp1_4 m hE) c
/-- The contents it leaves: its three results at what its proof data leave, every other buffer as entered. -/
def W10 (c : Dev nD) : Valuation τ sig (Elt F) :=
  set3 (W9 m hE c) main_v25_1 main_v25_2 main_v25_0
    ((d4 m hE c).arrAt 5 (cfg4 (adm4 m)).N) ((d4 m hE c).arrAt 6 (cfg4 (adm4 m)).N)
    (P1R4.hAt (atTc (W9 m hE)) (adm4 m) (hp0_4 m hE) (hp1_4 m hE) c (cfg4 (adm4 m)).N le_rfl)
theorem W10_def (c : Dev nD) : W10 m hE c =
  set3 (W9 m hE c) main_v25_1 main_v25_2 main_v25_0
    ((d4 m hE c).arrAt 5 (cfg4 (adm4 m)).N) ((d4 m hE c).arrAt 6 (cfg4 (adm4 m)).N)
    (P1R4.hAt (atTc (W9 m hE)) (adm4 m) (hp0_4 m hE) (hp1_4 m hE) c (cfg4 (adm4 m)).N le_rfl) := rfl
/-- The contents after the host stretch that follows. -/
def W11 (c : Dev nD) : Valuation τ sig (Elt F) := StableHlo.after hostOps5 (W10 m hE c)
/-- What the region leaves in its results, -/
theorem W10_res1 (c : Dev nD) : W10 m hE c (Proc.devRef .tc main_v25_1) = (d4 m hE c).arrAt 5 (cfg4 (adm4 m)).N :=
  set3_1 _ _ _ _ _ _ _ (by decide) (by decide)
theorem W10_res2 (c : Dev nD) : W10 m hE c (Proc.devRef .tc main_v25_2) = (d4 m hE c).arrAt 6 (cfg4 (adm4 m)).N :=
  set3_2 _ _ _ _ _ _ _ (by decide)
theorem W10_res0 (c : Dev nD) : W10 m hE c (Proc.devRef .tc main_v25_0)
    = P1R4.hAt (atTc (W9 m hE)) (adm4 m) (hp0_4 m hE) (hp1_4 m hE) c (cfg4 (adm4 m)).N le_rfl :=
  set3_0 _ _ _ _ _ _ _
/-- and every other buffer is as it was entered. -/
theorem W10_of (c : Dev nD) (r : Ref sig .tc) (h1 : r ≠ main_v25_1) (h2 : r ≠ main_v25_2) (h0 : r ≠ main_v25_0) :
    W10 m hE c (Proc.devRef .tc r) = W9 m hE c (Proc.devRef .tc r) :=
  set3_of _ _ _ _ _ _ _ r h1 h2 h0

/-! ### Region 5 -/

/-- Its two index tables: entries [312500, 312500 + 62500) of the two flattened rows of the endpoints. -/
def tbls5 : pre5.Contents (Elt F) := fun
  | 0 => extractStridedSlice S62500 ![312500] (V1 m c₀ main_v1 : IVec S1000000 32) slices_S1000000_S62500_312500
  | 1 => extractStridedSlice S62500 ![312500] (V1 m c₀ main_v3 : IVec S1000000 32) slices_S1000000_S62500_312500
  | ⟨_ + 2, h⟩ => absurd h (Nat.not_lt.2 (Nat.le_add_left _ _))
/-- They are admissible: the side condition asks nothing of the contents. -/
def adm5 : (pcfg5 (F := F)).Adm := ⟨tbls5 m, trivial⟩
include hE in
/-- The word a point reads of either table is an entry of the table, so an endpoint: it names a row of the node table. -/
theorem hp0_5 (c : Dev nD) (i : grid5.Coords) : k5_chk1 (P1.tw0 P1R5.tb0 c i (P1R5.T0 (adm5 m) c)) :=
  ChkFacts.row_inb _ (by rw [P1.tw0_eq]; exact Tbl.row0_lt m c₀ (hE c₀) _)
include hE in
theorem hp1_5 (c : Dev nD) (i : grid5.Coords) : k5_chk2 (P1.tw1 P1R5.tb1 c i (P1R5.T1 (adm5 m) c)) :=
  ChkFacts.row_inb _ (by rw [P1.tw1_eq]; exact Tbl.row1_lt m c₀ (hE c₀) _)
/-- Its proof data over the contents it is entered from. -/
abbrev d5 (c : Dev nD) : Dat τ (Elt F) Unit ℕ (Pipeline.UD sig nD τ) ℕ (cfg5 (adm5 m)) c :=
  P1R5.dat (atTc (W11 m hE)) (adm5 m) (hp0_5 m hE) (hp1_5 m hE) c
/-- The contents it leaves: its three results at what its proof data leave, every other buffer as entered. -/
def W12 (c : Dev nD) : Valuation τ sig (Elt F) :=
  set3 (W11 m hE c) main_v28_1 main_v28_2 main_v28_0
    ((d5 m hE c).arrAt 5 (cfg5 (adm5 m)).N) ((d5 m hE c).arrAt 6 (cfg5 (adm5 m)).N)
    (P1R5.hAt (atTc (W11 m hE)) (adm5 m) (hp0_5 m hE) (hp1_5 m hE) c (cfg5 (adm5 m)).N le_rfl)
theorem W12_def (c : Dev nD) : W12 m hE c =
  set3 (W11 m hE c) main_v28_1 main_v28_2 main_v28_0
    ((d5 m hE c).arrAt 5 (cfg5 (adm5 m)).N) ((d5 m hE c).arrAt 6 (cfg5 (adm5 m)).N)
    (P1R5.hAt (atTc (W11 m hE)) (adm5 m) (hp0_5 m hE) (hp1_5 m hE) c (cfg5 (adm5 m)).N le_rfl) := rfl
/-- The contents after the host stretch that follows. -/
def W13 (c : Dev nD) : Valuation τ sig (Elt F) := StableHlo.after hostOps6 (W12 m hE c)
/-- What the region leaves in its results, -/
theorem W12_res1 (c : Dev nD) : W12 m hE c (Proc.devRef .tc main_v28_1) = (d5 m hE c).arrAt 5 (cfg5 (adm5 m)).N :=
  set3_1 _ _ _ _ _ _ _ (by decide) (by decide)
theorem W12_res2 (c : Dev nD) : W12 m hE c (Proc.devRef .tc main_v28_2) = (d5 m hE c).arrAt 6 (cfg5 (adm5 m)).N :=
  set3_2 _ _ _ _ _ _ _ (by decide)
theorem W12_res0 (c : Dev nD) : W12 m hE c (Proc.devRef .tc main_v28_0)
    = P1R5.hAt (atTc (W11 m hE)) (adm5 m) (hp0_5 m hE) (hp1_5 m hE) c (cfg5 (adm5 m)).N le_rfl :=
  set3_0 _ _ _ _ _ _ _
/-- and every other buffer is as it was entered. -/
theorem W12_of (c : Dev nD) (r : Ref sig .tc) (h1 : r ≠ main_v28_1) (h2 : r ≠ main_v28_2) (h0 : r ≠ main_v28_0) :
    W12 m hE c (Proc.devRef .tc r) = W11 m hE c (Proc.devRef .tc r) :=
  set3_of _ _ _ _ _ _ _ r h1 h2 h0

/-! ### Region 6 -/

/-- Its two index tables: entries [375000, 375000 + 62500) of the two flattened rows of the endpoints. -/
def tbls6 : pre6.Contents (Elt F) := fun
  | 0 => extractStridedSlice S62500 ![375000] (V1 m c₀ main_v1 : IVec S1000000 32) slices_S1000000_S62500_375000
  | 1 => extractStridedSlice S62500 ![375000] (V1 m c₀ main_v3 : IVec S1000000 32) slices_S1000000_S62500_375000
  | ⟨_ + 2, h⟩ => absurd h (Nat.not_lt.2 (Nat.le_add_left _ _))
/-- They are admissible: the side condition asks nothing of the contents. -/
def adm6 : (pcfg6 (F := F)).Adm := ⟨tbls6 m, trivial⟩
include hE in
/-- The word a point reads of either table is an entry of the table, so an endpoint: it names a row of the node table. -/
theorem hp0_6 (c : Dev nD) (i : grid6.Coords) : k6_chk1 (P1.tw0 P1R6.tb0 c i (P1R6.T0 (adm6 m) c)) :=
  ChkFacts.row_inb _ (by rw [P1.tw0_eq]; exact Tbl.row0_lt m c₀ (hE c₀) _)
include hE in
theorem hp1_6 (c : Dev nD) (i : grid6.Coords) : k6_chk2 (P1.tw1 P1R6.tb1 c i (P1R6.T1 (adm6 m) c)) :=
  ChkFacts.row_inb _ (by rw [P1.tw1_eq]; exact Tbl.row1_lt m c₀ (hE c₀) _)
/-- Its proof data over the contents it is entered from. -/
abbrev d6 (c : Dev nD) : Dat τ (Elt F) Unit ℕ (Pipeline.UD sig nD τ) ℕ (cfg6 (adm6 m)) c :=
  P1R6.dat (atTc (W13 m hE)) (adm6 m) (hp0_6 m hE) (hp1_6 m hE) c
/-- The contents it leaves: its three results at what its proof data leave, every other buffer as entered. -/
def W14 (c : Dev nD) : Valuation τ sig (Elt F) :=
  set3 (W13 m hE c) main_v31_1 main_v31_2 main_v31_0
    ((d6 m hE c).arrAt 5 (cfg6 (adm6 m)).N) ((d6 m hE c).arrAt 6 (cfg6 (adm6 m)).N)
    (P1R6.hAt (atTc (W13 m hE)) (adm6 m) (hp0_6 m hE) (hp1_6 m hE) c (cfg6 (adm6 m)).N le_rfl)
theorem W14_def (c : Dev nD) : W14 m hE c =
  set3 (W13 m hE c) main_v31_1 main_v31_2 main_v31_0
    ((d6 m hE c).arrAt 5 (cfg6 (adm6 m)).N) ((d6 m hE c).arrAt 6 (cfg6 (adm6 m)).N)
    (P1R6.hAt (atTc (W13 m hE)) (adm6 m) (hp0_6 m hE) (hp1_6 m hE) c (cfg6 (adm6 m)).N le_rfl) := rfl
/-- The contents after the host stretch that follows. -/
def W15 (c : Dev nD) : Valuation τ sig (Elt F) := StableHlo.after hostOps7 (W14 m hE c)
/-- What the region leaves in its results, -/
theorem W14_res1 (c : Dev nD) : W14 m hE c (Proc.devRef .tc main_v31_1) = (d6 m hE c).arrAt 5 (cfg6 (adm6 m)).N :=
  set3_1 _ _ _ _ _ _ _ (by decide) (by decide)
theorem W14_res2 (c : Dev nD) : W14 m hE c (Proc.devRef .tc main_v31_2) = (d6 m hE c).arrAt 6 (cfg6 (adm6 m)).N :=
  set3_2 _ _ _ _ _ _ _ (by decide)
theorem W14_res0 (c : Dev nD) : W14 m hE c (Proc.devRef .tc main_v31_0)
    = P1R6.hAt (atTc (W13 m hE)) (adm6 m) (hp0_6 m hE) (hp1_6 m hE) c (cfg6 (adm6 m)).N le_rfl :=
  set3_0 _ _ _ _ _ _ _
/-- and every other buffer is as it was entered. -/
theorem W14_of (c : Dev nD) (r : Ref sig .tc) (h1 : r ≠ main_v31_1) (h2 : r ≠ main_v31_2) (h0 : r ≠ main_v31_0) :
    W14 m hE c (Proc.devRef .tc r) = W13 m hE c (Proc.devRef .tc r) :=
  set3_of _ _ _ _ _ _ _ r h1 h2 h0

/-! ### Region 7 -/

/-- Its two index tables: entries [437500, 437500 + 62500) of the two flattened rows of the endpoints. -/
def tbls7 : pre7.Contents (Elt F) := fun
  | 0 => extractStridedSlice S62500 ![437500] (V1 m c₀ main_v1 : IVec S1000000 32) slices_S1000000_S62500_437500
  | 1 => extractStridedSlice S62500 ![437500] (V1 m c₀ main_v3 : IVec S1000000 32) slices_S1000000_S62500_437500
  | ⟨_ + 2, h⟩ => absurd h (Nat.not_lt.2 (Nat.le_add_left _ _))
/-- They are admissible: the side condition asks nothing of the contents. -/
def adm7 : (pcfg7 (F := F)).Adm := ⟨tbls7 m, trivial⟩
include hE in
/-- The word a point reads of either table is an entry of the table, so an endpoint: it names a row of the node table. -/
theorem hp0_7 (c : Dev nD) (i : grid7.Coords) : k7_chk1 (P1.tw0 P1R7.tb0 c i (P1R7.T0 (adm7 m) c)) :=
  ChkFacts.row_inb _ (by rw [P1.tw0_eq]; exact Tbl.row0_lt m c₀ (hE c₀) _)
include hE in
theorem hp1_7 (c : Dev nD) (i : grid7.Coords) : k7_chk2 (P1.tw1 P1R7.tb1 c i (P1R7.T1 (adm7 m) c)) :=
  ChkFacts.row_inb _ (by rw [P1.tw1_eq]; exact Tbl.row1_lt m c₀ (hE c₀) _)
/-- Its proof data over the contents it is entered from. -/
abbrev d7 (c : Dev nD) : Dat τ (Elt F) Unit ℕ (Pipeline.UD sig nD τ) ℕ (cfg7 (adm7 m)) c :=
  P1R7.dat (atTc (W15 m hE)) (adm7 m) (hp0_7 m hE) (hp1_7 m hE) c
/-- The contents it leaves: its three results at what its proof data leave, every other buffer as entered. -/
def W16 (c : Dev nD) : Valuation τ sig (Elt F) :=
  set3 (W15 m hE c) main_v34_1 main_v34_2 main_v34_0
    ((d7 m hE c).arrAt 5 (cfg7 (adm7 m)).N) ((d7 m hE c).arrAt 6 (cfg7 (adm7 m)).N)
    (P1R7.hAt (atTc (W15 m hE)) (adm7 m) (hp0_7 m hE) (hp1_7 m hE) c (cfg7 (adm7 m)).N le_rfl)
theorem W16_def (c : Dev nD) : W16 m hE c =
  set3 (W15 m hE c) main_v34_1 main_v34_2 main_v34_0
    ((d7 m hE c).arrAt 5 (cfg7 (adm7 m)).N) ((d7 m hE c).arrAt 6 (cfg7 (adm7 m)).N)
    (P1R7.hAt (atTc (W15 m hE)) (adm7 m) (hp0_7 m hE) (hp1_7 m hE) c (cfg7 (adm7 m)).N le_rfl) := rfl
/-- The contents after the host stretch that follows. -/
def W17 (c : Dev nD) : Valuation τ sig (Elt F) := StableHlo.after hostOps8 (W16 m hE c)
/-- What the region leaves in its results, -/
theorem W16_res1 (c : Dev nD) : W16 m hE c (Proc.devRef .tc main_v34_1) = (d7 m hE c).arrAt 5 (cfg7 (adm7 m)).N :=
  set3_1 _ _ _ _ _ _ _ (by decide) (by decide)
theorem W16_res2 (c : Dev nD) : W16 m hE c (Proc.devRef .tc main_v34_2) = (d7 m hE c).arrAt 6 (cfg7 (adm7 m)).N :=
  set3_2 _ _ _ _ _ _ _ (by decide)
theorem W16_res0 (c : Dev nD) : W16 m hE c (Proc.devRef .tc main_v34_0)
    = P1R7.hAt (atTc (W15 m hE)) (adm7 m) (hp0_7 m hE) (hp1_7 m hE) c (cfg7 (adm7 m)).N le_rfl :=
  set3_0 _ _ _ _ _ _ _
/-- and every other buffer is as it was entered. -/
theorem W16_of (c : Dev nD) (r : Ref sig .tc) (h1 : r ≠ main_v34_1) (h2 : r ≠ main_v34_2) (h0 : r ≠ main_v34_0) :
    W16 m hE c (Proc.devRef .tc r) = W15 m hE c (Proc.devRef .tc r) :=
  set3_of _ _ _ _ _ _ _ r h1 h2 h0

/-! ### Region 8 -/

/-- Its two index tables: entries [500000, 500000 + 62500) of the two flattened rows of the endpoints. -/
def tbls8 : pre8.Contents (Elt F) := fun
  | 0 => extractStridedSlice S62500 ![500000] (V1 m c₀ main_v1 : IVec S1000000 32) slices_S1000000_S62500_500000
  | 1 => extractStridedSlice S62500 ![500000] (V1 m c₀ main_v3 : IVec S1000000 32) slices_S1000000_S62500_500000
  | ⟨_ + 2, h⟩ => absurd h (Nat.not_lt.2 (Nat.le_add_left _ _))
/-- They are admissible: the side condition asks nothing of the contents. -/
def adm8 : (pcfg8 (F := F)).Adm := ⟨tbls8 m, trivial⟩
include hE in
/-- The word a point reads of either table is an entry of the table, so an endpoint: it names a row of the node table. -/
theorem hp0_8 (c : Dev nD) (i : grid8.Coords) : k8_chk1 (P1.tw0 P1R8.tb0 c i (P1R8.T0 (adm8 m) c)) :=
  ChkFacts.row_inb _ (by rw [P1.tw0_eq]; exact Tbl.row0_lt m c₀ (hE c₀) _)
include hE in
theorem hp1_8 (c : Dev nD) (i : grid8.Coords) : k8_chk2 (P1.tw1 P1R8.tb1 c i (P1R8.T1 (adm8 m) c)) :=
  ChkFacts.row_inb _ (by rw [P1.tw1_eq]; exact Tbl.row1_lt m c₀ (hE c₀) _)
/-- Its proof data over the contents it is entered from. -/
abbrev d8 (c : Dev nD) : Dat τ (Elt F) Unit ℕ (Pipeline.UD sig nD τ) ℕ (cfg8 (adm8 m)) c :=
  P1R8.dat (atTc (W17 m hE)) (adm8 m) (hp0_8 m hE) (hp1_8 m hE) c
/-- The contents it leaves: its three results at what its proof data leave, every other buffer as entered. -/
def W18 (c : Dev nD) : Valuation τ sig (Elt F) :=
  set3 (W17 m hE c) main_v37_1 main_v37_2 main_v37_0
    ((d8 m hE c).arrAt 5 (cfg8 (adm8 m)).N) ((d8 m hE c).arrAt 6 (cfg8 (adm8 m)).N)
    (P1R8.hAt (atTc (W17 m hE)) (adm8 m) (hp0_8 m hE) (hp1_8 m hE) c (cfg8 (adm8 m)).N le_rfl)
theorem W18_def (c : Dev nD) : W18 m hE c =
  set3 (W17 m hE c) main_v37_1 main_v37_2 main_v37_0
    ((d8 m hE c).arrAt 5 (cfg8 (adm8 m)).N) ((d8 m hE c).arrAt 6 (cfg8 (adm8 m)).N)
    (P1R8.hAt (atTc (W17 m hE)) (adm8 m) (hp0_8 m hE) (hp1_8 m hE) c (cfg8 (adm8 m)).N le_rfl) := rfl
/-- The contents after the host stretch that follows. -/
def W19 (c : Dev nD) : Valuation τ sig (Elt F) := StableHlo.after hostOps9 (W18 m hE c)
/-- What the region leaves in its results, -/
theorem W18_res1 (c : Dev nD) : W18 m hE c (Proc.devRef .tc main_v37_1) = (d8 m hE c).arrAt 5 (cfg8 (adm8 m)).N :=
  set3_1 _ _ _ _ _ _ _ (by decide) (by decide)
theorem W18_res2 (c : Dev nD) : W18 m hE c (Proc.devRef .tc main_v37_2) = (d8 m hE c).arrAt 6 (cfg8 (adm8 m)).N :=
  set3_2 _ _ _ _ _ _ _ (by decide)
theorem W18_res0 (c : Dev nD) : W18 m hE c (Proc.devRef .tc main_v37_0)
    = P1R8.hAt (atTc (W17 m hE)) (adm8 m) (hp0_8 m hE) (hp1_8 m hE) c (cfg8 (adm8 m)).N le_rfl :=
  set3_0 _ _ _ _ _ _ _
/-- and every other buffer is as it was entered. -/
theorem W18_of (c : Dev nD) (r : Ref sig .tc) (h1 : r ≠ main_v37_1) (h2 : r ≠ main_v37_2) (h0 : r ≠ main_v37_0) :
    W18 m hE c (Proc.devRef .tc r) = W17 m hE c (Proc.devRef .tc r) :=
  set3_of _ _ _ _ _ _ _ r h1 h2 h0

/-! ### Region 9 -/

/-- Its two index tables: entries [562500, 562500 + 62500) of the two flattened rows of the endpoints. -/
def tbls9 : pre9.Contents (Elt F) := fun
  | 0 => extractStridedSlice S62500 ![562500] (V1 m c₀ main_v1 : IVec S1000000 32) slices_S1000000_S62500_562500
  | 1 => extractStridedSlice S62500 ![562500] (V1 m c₀ main_v3 : IVec S1000000 32) slices_S1000000_S62500_562500
  | ⟨_ + 2, h⟩ => absurd h (Nat.not_lt.2 (Nat.le_add_left _ _))
/-- They are admissible: the side condition asks nothing of the contents. -/
def adm9 : (pcfg9 (F := F)).Adm := ⟨tbls9 m, trivial⟩
include hE in
/-- The word a point reads of either table is an entry of the table, so an endpoint: it names a row of the node table. -/
theorem hp0_9 (c : Dev nD) (i : grid9.Coords) : k9_chk1 (P1.tw0 P1R9.tb0 c i (P1R9.T0 (adm9 m) c)) :=
  ChkFacts.row_inb _ (by rw [P1.tw0_eq]; exact Tbl.row0_lt m c₀ (hE c₀) _)
include hE in
theorem hp1_9 (c : Dev nD) (i : grid9.Coords) : k9_chk2 (P1.tw1 P1R9.tb1 c i (P1R9.T1 (adm9 m) c)) :=
  ChkFacts.row_inb _ (by rw [P1.tw1_eq]; exact Tbl.row1_lt m c₀ (hE c₀) _)
/-- Its proof data over the contents it is entered from. -/
abbrev d9 (c : Dev nD) : Dat τ (Elt F) Unit ℕ (Pipeline.UD sig nD τ) ℕ (cfg9 (adm9 m)) c :=
  P1R9.dat (atTc (W19 m hE)) (adm9 m) (hp0_9 m hE) (hp1_9 m hE) c
/-- The contents it leaves: its three results at what its proof data leave, every other buffer as entered. -/
def W20 (c : Dev nD) : Valuation τ sig (Elt F) :=
  set3 (W19 m hE c) main_v40_1 main_v40_2 main_v40_0
    ((d9 m hE c).arrAt 5 (cfg9 (adm9 m)).N) ((d9 m hE c).arrAt 6 (cfg9 (adm9 m)).N)
    (P1R9.hAt (atTc (W19 m hE)) (adm9 m) (hp0_9 m hE) (hp1_9 m hE) c (cfg9 (adm9 m)).N le_rfl)
theorem W20_def (c : Dev nD) : W20 m hE c =
  set3 (W19 m hE c) main_v40_1 main_v40_2 main_v40_0
    ((d9 m hE c).arrAt 5 (cfg9 (adm9 m)).N) ((d9 m hE c).arrAt 6 (cfg9 (adm9 m)).N)
    (P1R9.hAt (atTc (W19 m hE)) (adm9 m) (hp0_9 m hE) (hp1_9 m hE) c (cfg9 (adm9 m)).N le_rfl) := rfl
/-- The contents after the host stretch that follows. -/
def W21 (c : Dev nD) : Valuation τ sig (Elt F) := StableHlo.after hostOps10 (W20 m hE c)
/-- What the region leaves in its results, -/
theorem W20_res1 (c : Dev nD) : W20 m hE c (Proc.devRef .tc main_v40_1) = (d9 m hE c).arrAt 5 (cfg9 (adm9 m)).N :=
  set3_1 _ _ _ _ _ _ _ (by decide) (by decide)
theorem W20_res2 (c : Dev nD) : W20 m hE c (Proc.devRef .tc main_v40_2) = (d9 m hE c).arrAt 6 (cfg9 (adm9 m)).N :=
  set3_2 _ _ _ _ _ _ _ (by decide)
theorem W20_res0 (c : Dev nD) : W20 m hE c (Proc.devRef .tc main_v40_0)
    = P1R9.hAt (atTc (W19 m hE)) (adm9 m) (hp0_9 m hE) (hp1_9 m hE) c (cfg9 (adm9 m)).N le_rfl :=
  set3_0 _ _ _ _ _ _ _
/-- and every other buffer is as it was entered. -/
theorem W20_of (c : Dev nD) (r : Ref sig .tc) (h1 : r ≠ main_v40_1) (h2 : r ≠ main_v40_2) (h0 : r ≠ main_v40_0) :
    W20 m hE c (Proc.devRef .tc r) = W19 m hE c (Proc.devRef .tc r) :=
  set3_of _ _ _ _ _ _ _ r h1 h2 h0

/-! ### Region 10 -/

/-- Its two index tables: entries [625000, 625000 + 62500) of the two flattened rows of the endpoints. -/
def tbls10 : pre10.Contents (Elt F) := fun
  | 0 => extractStridedSlice S62500 ![625000] (V1 m c₀ main_v1 : IVec S1000000 32) slices_S1000000_S62500_625000
  | 1 => extractStridedSlice S62500 ![625000] (V1 m c₀ main_v3 : IVec S1000000 32) slices_S1000000_S62500_625000
  | ⟨_ + 2, h⟩ => absurd h (Nat.not_lt.2 (Nat.le_add_left _ _))
/-- They are admissible: the side condition asks nothing of the contents. -/
def adm10 : (pcfg10 (F := F)).Adm := ⟨tbls10 m, trivial⟩
include hE in
/-- The word a point reads of either table is an entry of the table, so an endpoint: it names a row of the node table. -/
theorem hp0_10 (c : Dev nD) (i : grid10.Coords) : k10_chk1 (P1.tw0 P1R10.tb0 c i (P1R10.T0 (adm10 m) c)) :=
  ChkFacts.row_inb _ (by rw [P1.tw0_eq]; exact Tbl.row0_lt m c₀ (hE c₀) _)
include hE in
theorem hp1_10 (c : Dev nD) (i : grid10.Coords) : k10_chk2 (P1.tw1 P1R10.tb1 c i (P1R10.T1 (adm10 m) c)) :=
  ChkFacts.row_inb _ (by rw [P1.tw1_eq]; exact Tbl.row1_lt m c₀ (hE c₀) _)
/-- Its proof data over the contents it is entered from. -/
abbrev d10 (c : Dev nD) : Dat τ (Elt F) Unit ℕ (Pipeline.UD sig nD τ) ℕ (cfg10 (adm10 m)) c :=
  P1R10.dat (atTc (W21 m hE)) (adm10 m) (hp0_10 m hE) (hp1_10 m hE) c
/-- The contents it leaves: its three results at what its proof data leave, every other buffer as entered. -/
def W22 (c : Dev nD) : Valuation τ sig (Elt F) :=
  set3 (W21 m hE c) main_v43_1 main_v43_2 main_v43_0
    ((d10 m hE c).arrAt 5 (cfg10 (adm10 m)).N) ((d10 m hE c).arrAt 6 (cfg10 (adm10 m)).N)
    (P1R10.hAt (atTc (W21 m hE)) (adm10 m) (hp0_10 m hE) (hp1_10 m hE) c (cfg10 (adm10 m)).N le_rfl)
theorem W22_def (c : Dev nD) : W22 m hE c =
  set3 (W21 m hE c) main_v43_1 main_v43_2 main_v43_0
    ((d10 m hE c).arrAt 5 (cfg10 (adm10 m)).N) ((d10 m hE c).arrAt 6 (cfg10 (adm10 m)).N)
    (P1R10.hAt (atTc (W21 m hE)) (adm10 m) (hp0_10 m hE) (hp1_10 m hE) c (cfg10 (adm10 m)).N le_rfl) := rfl
/-- The contents after the host stretch that follows. -/
def W23 (c : Dev nD) : Valuation τ sig (Elt F) := StableHlo.after hostOps11 (W22 m hE c)
/-- What the region leaves in its results, -/
theorem W22_res1 (c : Dev nD) : W22 m hE c (Proc.devRef .tc main_v43_1) = (d10 m hE c).arrAt 5 (cfg10 (adm10 m)).N :=
  set3_1 _ _ _ _ _ _ _ (by decide) (by decide)
theorem W22_res2 (c : Dev nD) : W22 m hE c (Proc.devRef .tc main_v43_2) = (d10 m hE c).arrAt 6 (cfg10 (adm10 m)).N :=
  set3_2 _ _ _ _ _ _ _ (by decide)
theorem W22_res0 (c : Dev nD) : W22 m hE c (Proc.devRef .tc main_v43_0)
    = P1R10.hAt (atTc (W21 m hE)) (adm10 m) (hp0_10 m hE) (hp1_10 m hE) c (cfg10 (adm10 m)).N le_rfl :=
  set3_0 _ _ _ _ _ _ _
/-- and every other buffer is as it was entered. -/
theorem W22_of (c : Dev nD) (r : Ref sig .tc) (h1 : r ≠ main_v43_1) (h2 : r ≠ main_v43_2) (h0 : r ≠ main_v43_0) :
    W22 m hE c (Proc.devRef .tc r) = W21 m hE c (Proc.devRef .tc r) :=
  set3_of _ _ _ _ _ _ _ r h1 h2 h0

/-! ### Region 11 -/

/-- Its two index tables: entries [687500, 687500 + 62500) of the two flattened rows of the endpoints. -/
def tbls11 : pre11.Contents (Elt F) := fun
  | 0 => extractStridedSlice S62500 ![687500] (V1 m c₀ main_v1 : IVec S1000000 32) slices_S1000000_S62500_687500
  | 1 => extractStridedSlice S62500 ![687500] (V1 m c₀ main_v3 : IVec S1000000 32) slices_S1000000_S62500_687500
  | ⟨_ + 2, h⟩ => absurd h (Nat.not_lt.2 (Nat.le_add_left _ _))
/-- They are admissible: the side condition asks nothing of the contents. -/
def adm11 : (pcfg11 (F := F)).Adm := ⟨tbls11 m, trivial⟩
include hE in
/-- The word a point reads of either table is an entry of the table, so an endpoint: it names a row of the node table. -/
theorem hp0_11 (c : Dev nD) (i : grid11.Coords) : k11_chk1 (P1.tw0 P1R11.tb0 c i (P1R11.T0 (adm11 m) c)) :=
  ChkFacts.row_inb _ (by rw [P1.tw0_eq]; exact Tbl.row0_lt m c₀ (hE c₀) _)
include hE in
theorem hp1_11 (c : Dev nD) (i : grid11.Coords) : k11_chk2 (P1.tw1 P1R11.tb1 c i (P1R11.T1 (adm11 m) c)) :=
  ChkFacts.row_inb _ (by rw [P1.tw1_eq]; exact Tbl.row1_lt m c₀ (hE c₀) _)
/-- Its proof data over the contents it is entered from. -/
abbrev d11 (c : Dev nD) : Dat τ (Elt F) Unit ℕ (Pipeline.UD sig nD τ) ℕ (cfg11 (adm11 m)) c :=
  P1R11.dat (atTc (W23 m hE)) (adm11 m) (hp0_11 m hE) (hp1_11 m hE) c
/-- The contents it leaves: its three results at what its proof data leave, every other buffer as entered. -/
def W24 (c : Dev nD) : Valuation τ sig (Elt F) :=
  set3 (W23 m hE c) main_v46_1 main_v46_2 main_v46_0
    ((d11 m hE c).arrAt 5 (cfg11 (adm11 m)).N) ((d11 m hE c).arrAt 6 (cfg11 (adm11 m)).N)
    (P1R11.hAt (atTc (W23 m hE)) (adm11 m) (hp0_11 m hE) (hp1_11 m hE) c (cfg11 (adm11 m)).N le_rfl)
theorem W24_def (c : Dev nD) : W24 m hE c =
  set3 (W23 m hE c) main_v46_1 main_v46_2 main_v46_0
    ((d11 m hE c).arrAt 5 (cfg11 (adm11 m)).N) ((d11 m hE c).arrAt 6 (cfg11 (adm11 m)).N)
    (P1R11.hAt (atTc (W23 m hE)) (adm11 m) (hp0_11 m hE) (hp1_11 m hE) c (cfg11 (adm11 m)).N le_rfl) := rfl
/-- The contents after the host stretch that follows. -/
def W25 (c : Dev nD) : Valuation τ sig (Elt F) := StableHlo.after hostOps12 (W24 m hE c)
/-- What the region leaves in its results, -/
theorem W24_res1 (c : Dev nD) : W24 m hE c (Proc.devRef .tc main_v46_1) = (d11 m hE c).arrAt 5 (cfg11 (adm11 m)).N :=
  set3_1 _ _ _ _ _ _ _ (by decide) (by decide)
theorem W24_res2 (c : Dev nD) : W24 m hE c (Proc.devRef .tc main_v46_2) = (d11 m hE c).arrAt 6 (cfg11 (adm11 m)).N :=
  set3_2 _ _ _ _ _ _ _ (by decide)
theorem W24_res0 (c : Dev nD) : W24 m hE c (Proc.devRef .tc main_v46_0)
    = P1R11.hAt (atTc (W23 m hE)) (adm11 m) (hp0_11 m hE) (hp1_11 m hE) c (cfg11 (adm11 m)).N le_rfl :=
  set3_0 _ _ _ _ _ _ _
/-- and every other buffer is as it was entered. -/
theorem W24_of (c : Dev nD) (r : Ref sig .tc) (h1 : r ≠ main_v46_1) (h2 : r ≠ main_v46_2) (h0 : r ≠ main_v46_0) :
    W24 m hE c (Proc.devRef .tc r) = W23 m hE c (Proc.devRef .tc r) :=
  set3_of _ _ _ _ _ _ _ r h1 h2 h0

/-! ### Region 12 -/

/-- Its two index tables: entries [750000, 750000 + 62500) of the two flattened rows of the endpoints. -/
def tbls12 : pre12.Contents (Elt F) := fun
  | 0 => extractStridedSlice S62500 ![750000] (V1 m c₀ main_v1 : IVec S1000000 32) slices_S1000000_S62500_750000
  | 1 => extractStridedSlice S62500 ![750000] (V1 m c₀ main_v3 : IVec S1000000 32) slices_S1000000_S62500_750000
  | ⟨_ + 2, h⟩ => absurd h (Nat.not_lt.2 (Nat.le_add_left _ _))
/-- They are admissible: the side condition asks nothing of the contents. -/
def adm12 : (pcfg12 (F := F)).Adm := ⟨tbls12 m, trivial⟩
include hE in
/-- The word a point reads of either table is an entry of the table, so an endpoint: it names a row of the node table. -/
theorem hp0_12 (c : Dev nD) (i : grid12.Coords) : k12_chk1 (P1.tw0 P1R12.tb0 c i (P1R12.T0 (adm12 m) c)) :=
  ChkFacts.row_inb _ (by rw [P1.tw0_eq]; exact Tbl.row0_lt m c₀ (hE c₀) _)
include hE in
theorem hp1_12 (c : Dev nD) (i : grid12.Coords) : k12_chk2 (P1.tw1 P1R12.tb1 c i (P1R12.T1 (adm12 m) c)) :=
  ChkFacts.row_inb _ (by rw [P1.tw1_eq]; exact Tbl.row1_lt m c₀ (hE c₀) _)
/-- Its proof data over the contents it is entered from. -/
abbrev d12 (c : Dev nD) : Dat τ (Elt F) Unit ℕ (Pipeline.UD sig nD τ) ℕ (cfg12 (adm12 m)) c :=
  P1R12.dat (atTc (W25 m hE)) (adm12 m) (hp0_12 m hE) (hp1_12 m hE) c
/-- The contents it leaves: its three results at what its proof data leave, every other buffer as entered. -/
def W26 (c : Dev nD) : Valuation τ sig (Elt F) :=
  set3 (W25 m hE c) main_v49_1 main_v49_2 main_v49_0
    ((d12 m hE c).arrAt 5 (cfg12 (adm12 m)).N) ((d12 m hE c).arrAt 6 (cfg12 (adm12 m)).N)
    (P1R12.hAt (atTc (W25 m hE)) (adm12 m) (hp0_12 m hE) (hp1_12 m hE) c (cfg12 (adm12 m)).N le_rfl)
theorem W26_def (c : Dev nD) : W26 m hE c =
  set3 (W25 m hE c) main_v49_1 main_v49_2 main_v49_0
    ((d12 m hE c).arrAt 5 (cfg12 (adm12 m)).N) ((d12 m hE c).arrAt 6 (cfg12 (adm12 m)).N)
    (P1R12.hAt (atTc (W25 m hE)) (adm12 m) (hp0_12 m hE) (hp1_12 m hE) c (cfg12 (adm12 m)).N le_rfl) := rfl
/-- The contents after the host stretch that follows. -/
def W27 (c : Dev nD) : Valuation τ sig (Elt F) := StableHlo.after hostOps13 (W26 m hE c)
/-- What the region leaves in its results, -/
theorem W26_res1 (c : Dev nD) : W26 m hE c (Proc.devRef .tc main_v49_1) = (d12 m hE c).arrAt 5 (cfg12 (adm12 m)).N :=
  set3_1 _ _ _ _ _ _ _ (by decide) (by decide)
theorem W26_res2 (c : Dev nD) : W26 m hE c (Proc.devRef .tc main_v49_2) = (d12 m hE c).arrAt 6 (cfg12 (adm12 m)).N :=
  set3_2 _ _ _ _ _ _ _ (by decide)
theorem W26_res0 (c : Dev nD) : W26 m hE c (Proc.devRef .tc main_v49_0)
    = P1R12.hAt (atTc (W25 m hE)) (adm12 m) (hp0_12 m hE) (hp1_12 m hE) c (cfg12 (adm12 m)).N le_rfl :=
  set3_0 _ _ _ _ _ _ _
/-- and every other buffer is as it was entered. -/
theorem W26_of (c : Dev nD) (r : Ref sig .tc) (h1 : r ≠ main_v49_1) (h2 : r ≠ main_v49_2) (h0 : r ≠ main_v49_0) :
    W26 m hE c (Proc.devRef .tc r) = W25 m hE c (Proc.devRef .tc r) :=
  set3_of _ _ _ _ _ _ _ r h1 h2 h0

/-! ### Region 13 -/

/-- Its two index tables: entries [812500, 812500 + 62500) of the two flattened rows of the endpoints. -/
def tbls13 : pre13.Contents (Elt F) := fun
  | 0 => extractStridedSlice S62500 ![812500] (V1 m c₀ main_v1 : IVec S1000000 32) slices_S1000000_S62500_812500
  | 1 => extractStridedSlice S62500 ![812500] (V1 m c₀ main_v3 : IVec S1000000 32) slices_S1000000_S62500_812500
  | ⟨_ + 2, h⟩ => absurd h (Nat.not_lt.2 (Nat.le_add_left _ _))
/-- They are admissible: the side condition asks nothing of the contents. -/
def adm13 : (pcfg13 (F := F)).Adm := ⟨tbls13 m, trivial⟩
include hE in
/-- The word a point reads of either table is an entry of the table, so an endpoint: it names a row of the node table. -/
theorem hp0_13 (c : Dev nD) (i : grid13.Coords) : k13_chk1 (P1.tw0 P1R13.tb0 c i (P1R13.T0 (adm13 m) c)) :=
  ChkFacts.row_inb _ (by rw [P1.tw0_eq]; exact Tbl.row0_lt m c₀ (hE c₀) _)
include hE in
theorem hp1_13 (c : Dev nD) (i : grid13.Coords) : k13_chk2 (P1.tw1 P1R13.tb1 c i (P1R13.T1 (adm13 m) c)) :=
  ChkFacts.row_inb _ (by rw [P1.tw1_eq]; exact Tbl.row1_lt m c₀ (hE c₀) _)
/-- Its proof data over the contents it is entered from. -/
abbrev d13 (c : Dev nD) : Dat τ (Elt F) Unit ℕ (Pipeline.UD sig nD τ) ℕ (cfg13 (adm13 m)) c :=
  P1R13.dat (atTc (W27 m hE)) (adm13 m) (hp0_13 m hE) (hp1_13 m hE) c
/-- The contents it leaves: its three results at what its proof data leave, every other buffer as entered. -/
def W28 (c : Dev nD) : Valuation τ sig (Elt F) :=
  set3 (W27 m hE c) main_v52_1 main_v52_2 main_v52_0
    ((d13 m hE c).arrAt 5 (cfg13 (adm13 m)).N) ((d13 m hE c).arrAt 6 (cfg13 (adm13 m)).N)
    (P1R13.hAt (atTc (W27 m hE)) (adm13 m) (hp0_13 m hE) (hp1_13 m hE) c (cfg13 (adm13 m)).N le_rfl)
theorem W28_def (c : Dev nD) : W28 m hE c =
  set3 (W27 m hE c) main_v52_1 main_v52_2 main_v52_0
    ((d13 m hE c).arrAt 5 (cfg13 (adm13 m)).N) ((d13 m hE c).arrAt 6 (cfg13 (adm13 m)).N)
    (P1R13.hAt (atTc (W27 m hE)) (adm13 m) (hp0_13 m hE) (hp1_13 m hE) c (cfg13 (adm13 m)).N le_rfl) := rfl
/-- The contents after the host stretch that follows. -/
def W29 (c : Dev nD) : Valuation τ sig (Elt F) := StableHlo.after hostOps14 (W28 m hE c)
/-- What the region leaves in its results, -/
theorem W28_res1 (c : Dev nD) : W28 m hE c (Proc.devRef .tc main_v52_1) = (d13 m hE c).arrAt 5 (cfg13 (adm13 m)).N :=
  set3_1 _ _ _ _ _ _ _ (by decide) (by decide)
theorem W28_res2 (c : Dev nD) : W28 m hE c (Proc.devRef .tc main_v52_2) = (d13 m hE c).arrAt 6 (cfg13 (adm13 m)).N :=
  set3_2 _ _ _ _ _ _ _ (by decide)
theorem W28_res0 (c : Dev nD) : W28 m hE c (Proc.devRef .tc main_v52_0)
    = P1R13.hAt (atTc (W27 m hE)) (adm13 m) (hp0_13 m hE) (hp1_13 m hE) c (cfg13 (adm13 m)).N le_rfl :=
  set3_0 _ _ _ _ _ _ _
/-- and every other buffer is as it was entered. -/
theorem W28_of (c : Dev nD) (r : Ref sig .tc) (h1 : r ≠ main_v52_1) (h2 : r ≠ main_v52_2) (h0 : r ≠ main_v52_0) :
    W28 m hE c (Proc.devRef .tc r) = W27 m hE c (Proc.devRef .tc r) :=
  set3_of _ _ _ _ _ _ _ r h1 h2 h0

/-! ### Region 14 -/

/-- Its two index tables: entries [875000, 875000 + 62500) of the two flattened rows of the endpoints. -/
def tbls14 : pre14.Contents (Elt F) := fun
  | 0 => extractStridedSlice S62500 ![875000] (V1 m c₀ main_v1 : IVec S1000000 32) slices_S1000000_S62500_875000
  | 1 => extractStridedSlice S62500 ![875000] (V1 m c₀ main_v3 : IVec S1000000 32) slices_S1000000_S62500_875000
  | ⟨_ + 2, h⟩ => absurd h (Nat.not_lt.2 (Nat.le_add_left _ _))
/-- They are admissible: the side condition asks nothing of the contents. -/
def adm14 : (pcfg14 (F := F)).Adm := ⟨tbls14 m, trivial⟩
include hE in
/-- The word a point reads of either table is an entry of the table, so an endpoint: it names a row of the node table. -/
theorem hp0_14 (c : Dev nD) (i : grid14.Coords) : k14_chk1 (P1.tw0 P1R14.tb0 c i (P1R14.T0 (adm14 m) c)) :=
  ChkFacts.row_inb _ (by rw [P1.tw0_eq]; exact Tbl.row0_lt m c₀ (hE c₀) _)
include hE in
theorem hp1_14 (c : Dev nD) (i : grid14.Coords) : k14_chk2 (P1.tw1 P1R14.tb1 c i (P1R14.T1 (adm14 m) c)) :=
  ChkFacts.row_inb _ (by rw [P1.tw1_eq]; exact Tbl.row1_lt m c₀ (hE c₀) _)
/-- Its proof data over the contents it is entered from. -/
abbrev d14 (c : Dev nD) : Dat τ (Elt F) Unit ℕ (Pipeline.UD sig nD τ) ℕ (cfg14 (adm14 m)) c :=
  P1R14.dat (atTc (W29 m hE)) (adm14 m) (hp0_14 m hE) (hp1_14 m hE) c
/-- The contents it leaves: its three results at what its proof data leave, every other buffer as entered. -/
def W30 (c : Dev nD) : Valuation τ sig (Elt F) :=
  set3 (W29 m hE c) main_v55_1 main_v55_2 main_v55_0
    ((d14 m hE c).arrAt 5 (cfg14 (adm14 m)).N) ((d14 m hE c).arrAt 6 (cfg14 (adm14 m)).N)
    (P1R14.hAt (atTc (W29 m hE)) (adm14 m) (hp0_14 m hE) (hp1_14 m hE) c (cfg14 (adm14 m)).N le_rfl)
theorem W30_def (c : Dev nD) : W30 m hE c =
  set3 (W29 m hE c) main_v55_1 main_v55_2 main_v55_0
    ((d14 m hE c).arrAt 5 (cfg14 (adm14 m)).N) ((d14 m hE c).arrAt 6 (cfg14 (adm14 m)).N)
    (P1R14.hAt (atTc (W29 m hE)) (adm14 m) (hp0_14 m hE) (hp1_14 m hE) c (cfg14 (adm14 m)).N le_rfl) := rfl
/-- The contents after the host stretch that follows. -/
def W31 (c : Dev nD) : Valuation τ sig (Elt F) := StableHlo.after hostOps15 (W30 m hE c)
/-- What the region leaves in its results, -/
theorem W30_res1 (c : Dev nD) : W30 m hE c (Proc.devRef .tc main_v55_1) = (d14 m hE c).arrAt 5 (cfg14 (adm14 m)).N :=
  set3_1 _ _ _ _ _ _ _ (by decide) (by decide)
theorem W30_res2 (c : Dev nD) : W30 m hE c (Proc.devRef .tc main_v55_2) = (d14 m hE c).arrAt 6 (cfg14 (adm14 m)).N :=
  set3_2 _ _ _ _ _ _ _ (by decide)
theorem W30_res0 (c : Dev nD) : W30 m hE c (Proc.devRef .tc main_v55_0)
    = P1R14.hAt (atTc (W29 m hE)) (adm14 m) (hp0_14 m hE) (hp1_14 m hE) c (cfg14 (adm14 m)).N le_rfl :=
  set3_0 _ _ _ _ _ _ _
/-- and every other buffer is as it was entered. -/
theorem W30_of (c : Dev nD) (r : Ref sig .tc) (h1 : r ≠ main_v55_1) (h2 : r ≠ main_v55_2) (h0 : r ≠ main_v55_0) :
    W30 m hE c (Proc.devRef .tc r) = W29 m hE c (Proc.devRef .tc r) :=
  set3_of _ _ _ _ _ _ _ r h1 h2 h0

/-! ### Region 15 -/

/-- Its two index tables: entries [937500, 937500 + 62500) of the two flattened rows of the endpoints. -/
def tbls15 : pre15.Contents (Elt F) := fun
  | 0 => extractStridedSlice S62500 ![937500] (V1 m c₀ main_v1 : IVec S1000000 32) slices_S1000000_S62500_937500
  | 1 => extractStridedSlice S62500 ![937500] (V1 m c₀ main_v3 : IVec S1000000 32) slices_S1000000_S62500_937500
  | ⟨_ + 2, h⟩ => absurd h (Nat.not_lt.2 (Nat.le_add_left _ _))
/-- They are admissible: the side condition asks nothing of the contents. -/
def adm15 : (pcfg15 (F := F)).Adm := ⟨tbls15 m, trivial⟩
include hE in
/-- The word a point reads of either table is an entry of the table, so an endpoint: it names a row of the node table. -/
theorem hp0_15 (c : Dev nD) (i : grid15.Coords) : k15_chk1 (P1.tw0 P1R15.tb0 c i (P1R15.T0 (adm15 m) c)) :=
  ChkFacts.row_inb _ (by rw [P1.tw0_eq]; exact Tbl.row0_lt m c₀ (hE c₀) _)
include hE in
theorem hp1_15 (c : Dev nD) (i : grid15.Coords) : k15_chk2 (P1.tw1 P1R15.tb1 c i (P1R15.T1 (adm15 m) c)) :=
  ChkFacts.row_inb _ (by rw [P1.tw1_eq]; exact Tbl.row1_lt m c₀ (hE c₀) _)
/-- Its proof data over the contents it is entered from. -/
abbrev d15 (c : Dev nD) : Dat τ (Elt F) Unit ℕ (Pipeline.UD sig nD τ) ℕ (cfg15 (adm15 m)) c :=
  P1R15.dat (atTc (W31 m hE)) (adm15 m) (hp0_15 m hE) (hp1_15 m hE) c
/-- The contents it leaves: its three results at what its proof data leave, every other buffer as entered. -/
def W32 (c : Dev nD) : Valuation τ sig (Elt F) :=
  set3 (W31 m hE c) main_v58_1 main_v58_2 main_v58_0
    ((d15 m hE c).arrAt 5 (cfg15 (adm15 m)).N) ((d15 m hE c).arrAt 6 (cfg15 (adm15 m)).N)
    (P1R15.hAt (atTc (W31 m hE)) (adm15 m) (hp0_15 m hE) (hp1_15 m hE) c (cfg15 (adm15 m)).N le_rfl)
theorem W32_def (c : Dev nD) : W32 m hE c =
  set3 (W31 m hE c) main_v58_1 main_v58_2 main_v58_0
    ((d15 m hE c).arrAt 5 (cfg15 (adm15 m)).N) ((d15 m hE c).arrAt 6 (cfg15 (adm15 m)).N)
    (P1R15.hAt (atTc (W31 m hE)) (adm15 m) (hp0_15 m hE) (hp1_15 m hE) c (cfg15 (adm15 m)).N le_rfl) := rfl
/-- The contents after the host stretch that follows. -/
def W33 (c : Dev nD) : Valuation τ sig (Elt F) := StableHlo.after hostOps16 (W32 m hE c)
/-- What the region leaves in its results, -/
theorem W32_res1 (c : Dev nD) : W32 m hE c (Proc.devRef .tc main_v58_1) = (d15 m hE c).arrAt 5 (cfg15 (adm15 m)).N :=
  set3_1 _ _ _ _ _ _ _ (by decide) (by decide)
theorem W32_res2 (c : Dev nD) : W32 m hE c (Proc.devRef .tc main_v58_2) = (d15 m hE c).arrAt 6 (cfg15 (adm15 m)).N :=
  set3_2 _ _ _ _ _ _ _ (by decide)
theorem W32_res0 (c : Dev nD) : W32 m hE c (Proc.devRef .tc main_v58_0)
    = P1R15.hAt (atTc (W31 m hE)) (adm15 m) (hp0_15 m hE) (hp1_15 m hE) c (cfg15 (adm15 m)).N le_rfl :=
  set3_0 _ _ _ _ _ _ _
/-- and every other buffer is as it was entered. -/
theorem W32_of (c : Dev nD) (r : Ref sig .tc) (h1 : r ≠ main_v58_1) (h2 : r ≠ main_v58_2) (h0 : r ≠ main_v58_0) :
    W32 m hE c (Proc.devRef .tc r) = W31 m hE c (Proc.devRef .tc r) :=
  set3_of _ _ _ _ _ _ _ r h1 h2 h0

/-! ### Region 16: the normalising pass -/

/-- The contents it leaves: the result array at what its write-backs leave, every other buffer as entered. -/
def W34 (c : Dev nD) : Valuation τ sig (Elt F) :=
  Function.update (W33 m hE c) (Proc.devRef .tc main_v104) ((dat16 (atTc (W33 m hE)) c).arrAt 7 cfg16.N)

/-! ## The unknowns, chosen: after item J, buffer r holds what the chain holds there -/

def outs : Outs (F := F) := fun J r c =>
  match J with
  | 2 => W2 m hE c (Proc.devRef .tc r)
  | 4 => W4 m hE c (Proc.devRef .tc r)
  | 6 => W6 m hE c (Proc.devRef .tc r)
  | 8 => W8 m hE c (Proc.devRef .tc r)
  | 10 => W10 m hE c (Proc.devRef .tc r)
  | 12 => W12 m hE c (Proc.devRef .tc r)
  | 14 => W14 m hE c (Proc.devRef .tc r)
  | 16 => W16 m hE c (Proc.devRef .tc r)
  | 18 => W18 m hE c (Proc.devRef .tc r)
  | 20 => W20 m hE c (Proc.devRef .tc r)
  | 22 => W22 m hE c (Proc.devRef .tc r)
  | 24 => W24 m hE c (Proc.devRef .tc r)
  | 26 => W26 m hE c (Proc.devRef .tc r)
  | 28 => W28 m hE c (Proc.devRef .tc r)
  | 30 => W30 m hE c (Proc.devRef .tc r)
  | 32 => W32 m hE c (Proc.devRef .tc r)
  | 34 => W34 m hE c (Proc.devRef .tc r)
  | _ => W1 m c (Proc.devRef .tc r)

theorem outs_2 (r : Ref sig .tc) (c : Dev nD) : outs m hE 2 r c = W2 m hE c (Proc.devRef .tc r) := rfl
theorem outs_4 (r : Ref sig .tc) (c : Dev nD) : outs m hE 4 r c = W4 m hE c (Proc.devRef .tc r) := rfl
theorem outs_6 (r : Ref sig .tc) (c : Dev nD) : outs m hE 6 r c = W6 m hE c (Proc.devRef .tc r) := rfl
theorem outs_8 (r : Ref sig .tc) (c : Dev nD) : outs m hE 8 r c = W8 m hE c (Proc.devRef .tc r) := rfl
theorem outs_10 (r : Ref sig .tc) (c : Dev nD) : outs m hE 10 r c = W10 m hE c (Proc.devRef .tc r) := rfl
theorem outs_12 (r : Ref sig .tc) (c : Dev nD) : outs m hE 12 r c = W12 m hE c (Proc.devRef .tc r) := rfl
theorem outs_14 (r : Ref sig .tc) (c : Dev nD) : outs m hE 14 r c = W14 m hE c (Proc.devRef .tc r) := rfl
theorem outs_16 (r : Ref sig .tc) (c : Dev nD) : outs m hE 16 r c = W16 m hE c (Proc.devRef .tc r) := rfl
theorem outs_18 (r : Ref sig .tc) (c : Dev nD) : outs m hE 18 r c = W18 m hE c (Proc.devRef .tc r) := rfl
theorem outs_20 (r : Ref sig .tc) (c : Dev nD) : outs m hE 20 r c = W20 m hE c (Proc.devRef .tc r) := rfl
theorem outs_22 (r : Ref sig .tc) (c : Dev nD) : outs m hE 22 r c = W22 m hE c (Proc.devRef .tc r) := rfl
theorem outs_24 (r : Ref sig .tc) (c : Dev nD) : outs m hE 24 r c = W24 m hE c (Proc.devRef .tc r) := rfl
theorem outs_26 (r : Ref sig .tc) (c : Dev nD) : outs m hE 26 r c = W26 m hE c (Proc.devRef .tc r) := rfl
theorem outs_28 (r : Ref sig .tc) (c : Dev nD) : outs m hE 28 r c = W28 m hE c (Proc.devRef .tc r) := rfl
theorem outs_30 (r : Ref sig .tc) (c : Dev nD) : outs m hE 30 r c = W30 m hE c (Proc.devRef .tc r) := rfl
theorem outs_32 (r : Ref sig .tc) (c : Dev nD) : outs m hE 32 r c = W32 m hE c (Proc.devRef .tc r) := rfl
theorem outs_34 (r : Ref sig .tc) (c : Dev nD) : outs m hE 34 r c = W34 m hE c (Proc.devRef .tc r) := rfl

/-! ## The conditional run's contents at these unknowns are the chain -/

theorem V1_eq (c : Dev nD) : V1 m c = W1 m c := rfl
theorem V2_eq (c : Dev nD) : V2 m (outs m hE) c = W2 m hE c :=
  (set3_chain _ main_v13_1 main_v13_2 main_v13_0 _ _ _ _ _ _ (V1_eq m c) (W2_def m hE c)
      (outs_2 m hE main_v13_1 c) (outs_2 m hE main_v13_2 c) (outs_2 m hE main_v13_0 c) (by decide) (by decide) (by decide) :
    set3 (V1 m c) main_v13_1 main_v13_2 main_v13_0 (outs m hE 2 main_v13_1 c)
      (outs m hE 2 main_v13_2 c) (outs m hE 2 main_v13_0 c) = W2 m hE c)
theorem V3_eq (c : Dev nD) : V3 m (outs m hE) c = W3 m hE c :=
  congrArg (StableHlo.after hostOps1) (V2_eq m hE c)
theorem V4_eq (c : Dev nD) : V4 m (outs m hE) c = W4 m hE c :=
  (set3_chain _ main_v16_1 main_v16_2 main_v16_0 _ _ _ _ _ _ (V3_eq m hE c) (W4_def m hE c)
      (outs_4 m hE main_v16_1 c) (outs_4 m hE main_v16_2 c) (outs_4 m hE main_v16_0 c) (by decide) (by decide) (by decide) :
    set3 (V3 m (outs m hE) c) main_v16_1 main_v16_2 main_v16_0 (outs m hE 4 main_v16_1 c)
      (outs m hE 4 main_v16_2 c) (outs m hE 4 main_v16_0 c) = W4 m hE c)
theorem V5_eq (c : Dev nD) : V5 m (outs m hE) c = W5 m hE c :=
  congrArg (StableHlo.after hostOps2) (V4_eq m hE c)
theorem V6_eq (c : Dev nD) : V6 m (outs m hE) c = W6 m hE c :=
  (set3_chain _ main_v19_1 main_v19_2 main_v19_0 _ _ _ _ _ _ (V5_eq m hE c) (W6_def m hE c)
      (outs_6 m hE main_v19_1 c) (outs_6 m hE main_v19_2 c) (outs_6 m hE main_v19_0 c) (by decide) (by decide) (by decide) :
    set3 (V5 m (outs m hE) c) main_v19_1 main_v19_2 main_v19_0 (outs m hE 6 main_v19_1 c)
      (outs m hE 6 main_v19_2 c) (outs m hE 6 main_v19_0 c) = W6 m hE c)
theorem V7_eq (c : Dev nD) : V7 m (outs m hE) c = W7 m hE c :=
  congrArg (StableHlo.after hostOps3) (V6_eq m hE c)
theorem V8_eq (c : Dev nD) : V8 m (outs m hE) c = W8 m hE c :=
  (set3_chain _ main_v22_1 main_v22_2 main_v22_0 _ _ _ _ _ _ (V7_eq m hE c) (W8_def m hE c)
      (outs_8 m hE main_v22_1 c) (outs_8 m hE main_v22_2 c) (outs_8 m hE main_v22_0 c) (by decide) (by decide) (by decide) :
    set3 (V7 m (outs m hE) c) main_v22_1 main_v22_2 main_v22_0 (outs m hE 8 main_v22_1 c)
      (outs m hE 8 main_v22_2 c) (outs m hE 8 main_v22_0 c) = W8 m hE c)
theorem V9_eq (c : Dev nD) : V9 m (outs m hE) c = W9 m hE c :=
  congrArg (StableHlo.after hostOps4) (V8_eq m hE c)
theorem V10_eq (c : Dev nD) : V10 m (outs m hE) c = W10 m hE c :=
  (set3_chain _ main_v25_1 main_v25_2 main_v25_0 _ _ _ _ _ _ (V9_eq m hE c) (W10_def m hE c)
      (outs_10 m hE main_v25_1 c) (outs_10 m hE main_v25_2 c) (outs_10 m hE main_v25_0 c) (by decide) (by decide) (by decide) :
    set3 (V9 m (outs m hE) c) main_v25_1 main_v25_2 main_v25_0 (outs m hE 10 main_v25_1 c)
      (outs m hE 10 main_v25_2 c) (outs m hE 10 main_v25_0 c) = W10 m hE c)
theorem V11_eq (c : Dev nD) : V11 m (outs m hE) c = W11 m hE c :=
  congrArg (StableHlo.after hostOps5) (V10_eq m hE c)
theorem V12_eq (c : Dev nD) : V12 m (outs m hE) c = W12 m hE c :=
  (set3_chain _ main_v28_1 main_v28_2 main_v28_0 _ _ _ _ _ _ (V11_eq m hE c) (W12_def m hE c)
      (outs_12 m hE main_v28_1 c) (outs_12 m hE main_v28_2 c) (outs_12 m hE main_v28_0 c) (by decide) (by decide) (by decide) :
    set3 (V11 m (outs m hE) c) main_v28_1 main_v28_2 main_v28_0 (outs m hE 12 main_v28_1 c)
      (outs m hE 12 main_v28_2 c) (outs m hE 12 main_v28_0 c) = W12 m hE c)
theorem V13_eq (c : Dev nD) : V13 m (outs m hE) c = W13 m hE c :=
  congrArg (StableHlo.after hostOps6) (V12_eq m hE c)
theorem V14_eq (c : Dev nD) : V14 m (outs m hE) c = W14 m hE c :=
  (set3_chain _ main_v31_1 main_v31_2 main_v31_0 _ _ _ _ _ _ (V13_eq m hE c) (W14_def m hE c)
      (outs_14 m hE main_v31_1 c) (outs_14 m hE main_v31_2 c) (outs_14 m hE main_v31_0 c) (by decide) (by decide) (by decide) :
    set3 (V13 m (outs m hE) c) main_v31_1 main_v31_2 main_v31_0 (outs m hE 14 main_v31_1 c)
      (outs m hE 14 main_v31_2 c) (outs m hE 14 main_v31_0 c) = W14 m hE c)
theorem V15_eq (c : Dev nD) : V15 m (outs m hE) c = W15 m hE c :=
  congrArg (StableHlo.after hostOps7) (V14_eq m hE c)
theorem V16_eq (c : Dev nD) : V16 m (outs m hE) c = W16 m hE c :=
  (set3_chain _ main_v34_1 main_v34_2 main_v34_0 _ _ _ _ _ _ (V15_eq m hE c) (W16_def m hE c)
      (outs_16 m hE main_v34_1 c) (outs_16 m hE main_v34_2 c) (outs_16 m hE main_v34_0 c) (by decide) (by decide) (by decide) :
    set3 (V15 m (outs m hE) c) main_v34_1 main_v34_2 main_v34_0 (outs m hE 16 main_v34_1 c)
      (outs m hE 16 main_v34_2 c) (outs m hE 16 main_v34_0 c) = W16 m hE c)
theorem V17_eq (c : Dev nD) : V17 m (outs m hE) c = W17 m hE c :=
  congrArg (StableHlo.after hostOps8) (V16_eq m hE c)
theorem V18_eq (c : Dev nD) : V18 m (outs m hE) c = W18 m hE c :=
  (set3_chain _ main_v37_1 main_v37_2 main_v37_0 _ _ _ _ _ _ (V17_eq m hE c) (W18_def m hE c)
      (outs_18 m hE main_v37_1 c) (outs_18 m hE main_v37_2 c) (outs_18 m hE main_v37_0 c) (by decide) (by decide) (by decide) :
    set3 (V17 m (outs m hE) c) main_v37_1 main_v37_2 main_v37_0 (outs m hE 18 main_v37_1 c)
      (outs m hE 18 main_v37_2 c) (outs m hE 18 main_v37_0 c) = W18 m hE c)
theorem V19_eq (c : Dev nD) : V19 m (outs m hE) c = W19 m hE c :=
  congrArg (StableHlo.after hostOps9) (V18_eq m hE c)
theorem V20_eq (c : Dev nD) : V20 m (outs m hE) c = W20 m hE c :=
  (set3_chain _ main_v40_1 main_v40_2 main_v40_0 _ _ _ _ _ _ (V19_eq m hE c) (W20_def m hE c)
      (outs_20 m hE main_v40_1 c) (outs_20 m hE main_v40_2 c) (outs_20 m hE main_v40_0 c) (by decide) (by decide) (by decide) :
    set3 (V19 m (outs m hE) c) main_v40_1 main_v40_2 main_v40_0 (outs m hE 20 main_v40_1 c)
      (outs m hE 20 main_v40_2 c) (outs m hE 20 main_v40_0 c) = W20 m hE c)
theorem V21_eq (c : Dev nD) : V21 m (outs m hE) c = W21 m hE c :=
  congrArg (StableHlo.after hostOps10) (V20_eq m hE c)
theorem V22_eq (c : Dev nD) : V22 m (outs m hE) c = W22 m hE c :=
  (set3_chain _ main_v43_1 main_v43_2 main_v43_0 _ _ _ _ _ _ (V21_eq m hE c) (W22_def m hE c)
      (outs_22 m hE main_v43_1 c) (outs_22 m hE main_v43_2 c) (outs_22 m hE main_v43_0 c) (by decide) (by decide) (by decide) :
    set3 (V21 m (outs m hE) c) main_v43_1 main_v43_2 main_v43_0 (outs m hE 22 main_v43_1 c)
      (outs m hE 22 main_v43_2 c) (outs m hE 22 main_v43_0 c) = W22 m hE c)
theorem V23_eq (c : Dev nD) : V23 m (outs m hE) c = W23 m hE c :=
  congrArg (StableHlo.after hostOps11) (V22_eq m hE c)
theorem V24_eq (c : Dev nD) : V24 m (outs m hE) c = W24 m hE c :=
  (set3_chain _ main_v46_1 main_v46_2 main_v46_0 _ _ _ _ _ _ (V23_eq m hE c) (W24_def m hE c)
      (outs_24 m hE main_v46_1 c) (outs_24 m hE main_v46_2 c) (outs_24 m hE main_v46_0 c) (by decide) (by decide) (by decide) :
    set3 (V23 m (outs m hE) c) main_v46_1 main_v46_2 main_v46_0 (outs m hE 24 main_v46_1 c)
      (outs m hE 24 main_v46_2 c) (outs m hE 24 main_v46_0 c) = W24 m hE c)
theorem V25_eq (c : Dev nD) : V25 m (outs m hE) c = W25 m hE c :=
  congrArg (StableHlo.after hostOps12) (V24_eq m hE c)
theorem V26_eq (c : Dev nD) : V26 m (outs m hE) c = W26 m hE c :=
  (set3_chain _ main_v49_1 main_v49_2 main_v49_0 _ _ _ _ _ _ (V25_eq m hE c) (W26_def m hE c)
      (outs_26 m hE main_v49_1 c) (outs_26 m hE main_v49_2 c) (outs_26 m hE main_v49_0 c) (by decide) (by decide) (by decide) :
    set3 (V25 m (outs m hE) c) main_v49_1 main_v49_2 main_v49_0 (outs m hE 26 main_v49_1 c)
      (outs m hE 26 main_v49_2 c) (outs m hE 26 main_v49_0 c) = W26 m hE c)
theorem V27_eq (c : Dev nD) : V27 m (outs m hE) c = W27 m hE c :=
  congrArg (StableHlo.after hostOps13) (V26_eq m hE c)
theorem V28_eq (c : Dev nD) : V28 m (outs m hE) c = W28 m hE c :=
  (set3_chain _ main_v52_1 main_v52_2 main_v52_0 _ _ _ _ _ _ (V27_eq m hE c) (W28_def m hE c)
      (outs_28 m hE main_v52_1 c) (outs_28 m hE main_v52_2 c) (outs_28 m hE main_v52_0 c) (by decide) (by decide) (by decide) :
    set3 (V27 m (outs m hE) c) main_v52_1 main_v52_2 main_v52_0 (outs m hE 28 main_v52_1 c)
      (outs m hE 28 main_v52_2 c) (outs m hE 28 main_v52_0 c) = W28 m hE c)
theorem V29_eq (c : Dev nD) : V29 m (outs m hE) c = W29 m hE c :=
  congrArg (StableHlo.after hostOps14) (V28_eq m hE c)
theorem V30_eq (c : Dev nD) : V30 m (outs m hE) c = W30 m hE c :=
  (set3_chain _ main_v55_1 main_v55_2 main_v55_0 _ _ _ _ _ _ (V29_eq m hE c) (W30_def m hE c)
      (outs_30 m hE main_v55_1 c) (outs_30 m hE main_v55_2 c) (outs_30 m hE main_v55_0 c) (by decide) (by decide) (by decide) :
    set3 (V29 m (outs m hE) c) main_v55_1 main_v55_2 main_v55_0 (outs m hE 30 main_v55_1 c)
      (outs m hE 30 main_v55_2 c) (outs m hE 30 main_v55_0 c) = W30 m hE c)
theorem V31_eq (c : Dev nD) : V31 m (outs m hE) c = W31 m hE c :=
  congrArg (StableHlo.after hostOps15) (V30_eq m hE c)
theorem V32_eq (c : Dev nD) : V32 m (outs m hE) c = W32 m hE c :=
  (set3_chain _ main_v58_1 main_v58_2 main_v58_0 _ _ _ _ _ _ (V31_eq m hE c) (W32_def m hE c)
      (outs_32 m hE main_v58_1 c) (outs_32 m hE main_v58_2 c) (outs_32 m hE main_v58_0 c) (by decide) (by decide) (by decide) :
    set3 (V31 m (outs m hE) c) main_v58_1 main_v58_2 main_v58_0 (outs m hE 32 main_v58_1 c)
      (outs m hE 32 main_v58_2 c) (outs m hE 32 main_v58_0 c) = W32 m hE c)
theorem V33_eq (c : Dev nD) : V33 m (outs m hE) c = W33 m hE c :=
  congrArg (StableHlo.after hostOps16) (V32_eq m hE c)

theorem W34_def (c : Dev nD) : W34 m hE c =
  Function.update (W33 m hE c) (Proc.devRef .tc main_v104) ((dat16 (atTc (W33 m hE)) c).arrAt 7 cfg16.N) := rfl
theorem V34_eq (c : Dev nD) : V34 m (outs m hE) c = W34 m hE c :=
  (set1_chain main_v104 _ _ (V33_eq m hE c) (W34_def m hE c) (outs_34 m hE main_v104 c) :
    Function.update (V33 m (outs m hE) c) (Proc.devRef .tc main_v104) (outs m hE 34 main_v104 c) = W34 m hE c)

/-! ## The tables and the proof data, as families over the 17 pipelines -/

/-- Each pipeline's admissible tables (the last pipeline has none). -/
def adm : (p : Fin 17) → (pcfgs (F := F) p).Adm
  | ⟨0, _⟩ => adm0 m
  | ⟨1, _⟩ => adm1 m
  | ⟨2, _⟩ => adm2 m
  | ⟨3, _⟩ => adm3 m
  | ⟨4, _⟩ => adm4 m
  | ⟨5, _⟩ => adm5 m
  | ⟨6, _⟩ => adm6 m
  | ⟨7, _⟩ => adm7 m
  | ⟨8, _⟩ => adm8 m
  | ⟨9, _⟩ => adm9 m
  | ⟨10, _⟩ => adm10 m
  | ⟨11, _⟩ => adm11 m
  | ⟨12, _⟩ => adm12 m
  | ⟨13, _⟩ => adm13 m
  | ⟨14, _⟩ => adm14 m
  | ⟨15, _⟩ => adm15 m
  | ⟨16, _⟩ => cfg16.toPCfg_adm
  | ⟨_ + 17, h⟩ => absurd h (Nat.not_lt.2 (Nat.le_add_left _ _))

/-- Each pipeline's proof data, over the contents its region is entered from. -/
def pdats : (p : Fin 17) → (c : Dev nD) → Dat τ (Elt F) Unit ℕ (Pipeline.UD sig nD τ) ℕ (Pipeline.pin (pcfgs (F := F)) (adm m) p) c
  | ⟨0, _⟩ => fun c => d0 m hE c
  | ⟨1, _⟩ => fun c => d1 m hE c
  | ⟨2, _⟩ => fun c => d2 m hE c
  | ⟨3, _⟩ => fun c => d3 m hE c
  | ⟨4, _⟩ => fun c => d4 m hE c
  | ⟨5, _⟩ => fun c => d5 m hE c
  | ⟨6, _⟩ => fun c => d6 m hE c
  | ⟨7, _⟩ => fun c => d7 m hE c
  | ⟨8, _⟩ => fun c => d8 m hE c
  | ⟨9, _⟩ => fun c => d9 m hE c
  | ⟨10, _⟩ => fun c => d10 m hE c
  | ⟨11, _⟩ => fun c => d11 m hE c
  | ⟨12, _⟩ => fun c => d12 m hE c
  | ⟨13, _⟩ => fun c => d13 m hE c
  | ⟨14, _⟩ => fun c => d14 m hE c
  | ⟨15, _⟩ => fun c => d15 m hE c
  | ⟨16, _⟩ => fun c => dat16 (atTc (W33 m hE)) c
  | ⟨_ + 17, h⟩ => absurd h (Nat.not_lt.2 (Nat.le_add_left _ _))

/-! ## Each region as a segment of the run -/

/-! ### Region 0 -/

include hE in
/-- The tables it finds in the buffers are its admissible ones: the host stretch before it cut them out of the two
    flattened rows, which no region writes. -/
theorem hT0_0 (c : Dev nD) : atTc (W1 m) c main_v11 = P1R0.T0 (adm0 m) c := by
  obtain rfl := dev_eq c
  exact ((congrFun (V1_eq m c₀) (Proc.devRef .tc main_v11)).symm.trans (Tbl.tbl_0a_eq m c₀) :)
include hE in
theorem hT1_0 (c : Dev nD) : atTc (W1 m) c main_v12 = P1R0.T1 (adm0 m) c := by
  obtain rfl := dev_eq c
  exact ((congrFun (V1_eq m c₀) (Proc.devRef .tc main_v12)).symm.trans (Tbl.tbl_0b_eq m c₀) :)
/-- At its exit each of its arrays holds what the pipeline leaves: the five inputs what they held (none is a result),
    the two accumulators' arrays their last write-back; -/
theorem hF_0 (c : Dev nD) (w : Fin (cfg0 (adm0 m)).W) :
    (d0 m hE c).arrAt w (cfg0 (adm0 m)).N = atTc (W2 m hE) c (Pipeline.arrRef spec0 w) := by
  match w with
  | ⟨0, _⟩ => exact (((d0 m hE c).arrAt_in 0 rfl _).trans (P1R0.A_eq _ _ _ _ c 0)).trans (W2_of m hE c (Pipeline.arrRef spec0 (0 : Fin 7)) (by decide) (by decide) (by decide)).symm
  | ⟨1, _⟩ => exact (((d0 m hE c).arrAt_in 1 rfl _).trans (P1R0.A_eq _ _ _ _ c 1)).trans (W2_of m hE c (Pipeline.arrRef spec0 (1 : Fin 7)) (by decide) (by decide) (by decide)).symm
  | ⟨2, _⟩ => exact (((d0 m hE c).arrAt_in 2 rfl _).trans (P1R0.A_eq _ _ _ _ c 2)).trans (W2_of m hE c (Pipeline.arrRef spec0 (2 : Fin 7)) (by decide) (by decide) (by decide)).symm
  | ⟨3, _⟩ => exact (((d0 m hE c).arrAt_in 3 rfl _).trans (P1R0.A_eq _ _ _ _ c 3)).trans (W2_of m hE c (Pipeline.arrRef spec0 (3 : Fin 7)) (by decide) (by decide) (by decide)).symm
  | ⟨4, _⟩ => exact (((d0 m hE c).arrAt_in 4 rfl _).trans (P1R0.A_eq _ _ _ _ c 4)).trans (W2_of m hE c (Pipeline.arrRef spec0 (4 : Fin 7)) (by decide) (by decide) (by decide)).symm
  | ⟨5, _⟩ => exact (W2_res1 m hE c).symm
  | ⟨6, _⟩ => exact (W2_res2 m hE c).symm
/-- and every buffer that is none of its arrays holds what it held at entry, but the hidden array, which holds what
    the last point left. -/
theorem hrest_0 (c : Dev nD) (b : Ref sig .tc) (hb : b ∉ Finset.univ.image (Pipeline.arrRef spec0)) :
    atTc (W2 m hE) c b = P1R0.Vmid (adm m) (W1 m) (hp0_0 m hE) (hp1_0 m hE) c b := by
  have h1 : b ≠ main_v13_1 := fun e => hb (Finset.mem_image.mpr ⟨5, Finset.mem_univ _, e.symm⟩)
  have h2 : b ≠ main_v13_2 := fun e => hb (Finset.mem_image.mpr ⟨6, Finset.mem_univ _, e.symm⟩)
  unfold P1R0.Vmid
  by_cases h0 : b = main_v13_0
  · subst h0; rw [Function.update_self]; exact W2_res0 m hE c
  · rw [Function.update_of_ne h0]; exact W2_of m hE c b h1 h2 h0
/-- The region's segment, entered from the buffers at W1 and left at W2. -/
def R0 : RegionSeg (pcfgs (F := F)) (adm m) (pdats m hE) () defs₀ Variants.none L₀ lv₀ 0 :=
  P1R0.reg (adm m) (pdats m hE) (W1 m) (W2 m hE) (hp0_0 m hE) (hp1_0 m hE) (fun _ => rfl)
    (hT0_0 m hE) (hT1_0 m hE) (hF_0 m hE) (hrest_0 m hE)
/-- It is entered from the conditional run's contents before it and left at those after it. -/
theorem hpre0 (c : Dev nD) :
    iprop(StableHlo.held (c : Thread nD τ) (Pipeline.ucRefs τ sig) (V1 m c) ∗ Rr c) ⊢ (R0 m hE).pre c :=
  Entails.of_eq (congrArg (fun W => iprop(StableHlo.held (c : Thread nD τ) (Pipeline.ucRefs τ sig) W ∗ Rr c)) (V1_eq m c))
theorem hpost0 (c : Dev nD) :
    (R0 m hE).post c ⊢ iprop(StableHlo.held (c : Thread nD τ) (Pipeline.ucRefs τ sig) (V2 m (outs m hE) c) ∗ Rr c) :=
  Entails.of_eq (congrArg (fun W => iprop(StableHlo.held (c : Thread nD τ) (Pipeline.ucRefs τ sig) W ∗ Rr c)) (V2_eq m hE c).symm)

/-! ### Region 1 -/

include hE in
/-- The tables it finds in the buffers are its admissible ones: the host stretch before it cut them out of the two
    flattened rows, which no region writes. -/
theorem hT0_1 (c : Dev nD) : atTc (W3 m hE) c main_v14 = P1R1.T0 (adm1 m) c := by
  obtain rfl := dev_eq c
  exact ((congrFun (V3_eq m hE c₀) (Proc.devRef .tc main_v14)).symm.trans (Tbl.tbl_1a_eq m (outs m hE) c₀) :)
include hE in
theorem hT1_1 (c : Dev nD) : atTc (W3 m hE) c main_v15 = P1R1.T1 (adm1 m) c := by
  obtain rfl := dev_eq c
  exact ((congrFun (V3_eq m hE c₀) (Proc.devRef .tc main_v15)).symm.trans (Tbl.tbl_1b_eq m (outs m hE) c₀) :)
/-- At its exit each of its arrays holds what the pipeline leaves: the five inputs what they held (none is a result),
    the two accumulators' arrays their last write-back; -/
theorem hF_1 (c : Dev nD) (w : Fin (cfg1 (adm1 m)).W) :
    (d1 m hE c).arrAt w (cfg1 (adm1 m)).N = atTc (W4 m hE) c (Pipeline.arrRef spec1 w) := by
  match w with
  | ⟨0, _⟩ => exact (((d1 m hE c).arrAt_in 0 rfl _).trans (P1R1.A_eq _ _ _ _ c 0)).trans (W4_of m hE c (Pipeline.arrRef spec1 (0 : Fin 7)) (by decide) (by decide) (by decide)).symm
  | ⟨1, _⟩ => exact (((d1 m hE c).arrAt_in 1 rfl _).trans (P1R1.A_eq _ _ _ _ c 1)).trans (W4_of m hE c (Pipeline.arrRef spec1 (1 : Fin 7)) (by decide) (by decide) (by decide)).symm
  | ⟨2, _⟩ => exact (((d1 m hE c).arrAt_in 2 rfl _).trans (P1R1.A_eq _ _ _ _ c 2)).trans (W4_of m hE c (Pipeline.arrRef spec1 (2 : Fin 7)) (by decide) (by decide) (by decide)).symm
  | ⟨3, _⟩ => exact (((d1 m hE c).arrAt_in 3 rfl _).trans (P1R1.A_eq _ _ _ _ c 3)).trans (W4_of m hE c (Pipeline.arrRef spec1 (3 : Fin 7)) (by decide) (by decide) (by decide)).symm
  | ⟨4, _⟩ => exact (((d1 m hE c).arrAt_in 4 rfl _).trans (P1R1.A_eq _ _ _ _ c 4)).trans (W4_of m hE c (Pipeline.arrRef spec1 (4 : Fin 7)) (by decide) (by decide) (by decide)).symm
  | ⟨5, _⟩ => exact (W4_res1 m hE c).symm
  | ⟨6, _⟩ => exact (W4_res2 m hE c).symm
/-- and every buffer that is none of its arrays holds what it held at entry, but the hidden array, which holds what
    the last point left. -/
theorem hrest_1 (c : Dev nD) (b : Ref sig .tc) (hb : b ∉ Finset.univ.image (Pipeline.arrRef spec1)) :
    atTc (W4 m hE) c b = P1R1.Vmid (adm m) (W3 m hE) (hp0_1 m hE) (hp1_1 m hE) c b := by
  have h1 : b ≠ main_v16_1 := fun e => hb (Finset.mem_image.mpr ⟨5, Finset.mem_univ _, e.symm⟩)
  have h2 : b ≠ main_v16_2 := fun e => hb (Finset.mem_image.mpr ⟨6, Finset.mem_univ _, e.symm⟩)
  unfold P1R1.Vmid
  by_cases h0 : b = main_v16_0
  · subst h0; rw [Function.update_self]; exact W4_res0 m hE c
  · rw [Function.update_of_ne h0]; exact W4_of m hE c b h1 h2 h0
/-- The region's segment, entered from the buffers at W3 and left at W4. -/
def R1 : RegionSeg (pcfgs (F := F)) (adm m) (pdats m hE) () defs₀ Variants.none L₀ lv₀ 1 :=
  P1R1.reg (adm m) (pdats m hE) (W3 m hE) (W4 m hE) (hp0_1 m hE) (hp1_1 m hE) (fun _ => rfl)
    (hT0_1 m hE) (hT1_1 m hE) (hF_1 m hE) (hrest_1 m hE)
/-- It is entered from the conditional run's contents before it and left at those after it. -/
theorem hpre1 (c : Dev nD) :
    iprop(StableHlo.held (c : Thread nD τ) (Pipeline.ucRefs τ sig) (V3 m (outs m hE) c) ∗ Rr c) ⊢ (R1 m hE).pre c :=
  Entails.of_eq (congrArg (fun W => iprop(StableHlo.held (c : Thread nD τ) (Pipeline.ucRefs τ sig) W ∗ Rr c)) (V3_eq m hE c))
theorem hpost1 (c : Dev nD) :
    (R1 m hE).post c ⊢ iprop(StableHlo.held (c : Thread nD τ) (Pipeline.ucRefs τ sig) (V4 m (outs m hE) c) ∗ Rr c) :=
  Entails.of_eq (congrArg (fun W => iprop(StableHlo.held (c : Thread nD τ) (Pipeline.ucRefs τ sig) W ∗ Rr c)) (V4_eq m hE c).symm)

/-! ### Region 2 -/

include hE in
/-- The tables it finds in the buffers are its admissible ones: the host stretch before it cut them out of the two
    flattened rows, which no region writes. -/
theorem hT0_2 (c : Dev nD) : atTc (W5 m hE) c main_v17 = P1R2.T0 (adm2 m) c := by
  obtain rfl := dev_eq c
  exact ((congrFun (V5_eq m hE c₀) (Proc.devRef .tc main_v17)).symm.trans (Tbl.tbl_2a_eq m (outs m hE) c₀) :)
include hE in
theorem hT1_2 (c : Dev nD) : atTc (W5 m hE) c main_v18 = P1R2.T1 (adm2 m) c := by
  obtain rfl := dev_eq c
  exact ((congrFun (V5_eq m hE c₀) (Proc.devRef .tc main_v18)).symm.trans (Tbl.tbl_2b_eq m (outs m hE) c₀) :)
/-- At its exit each of its arrays holds what the pipeline leaves: the five inputs what they held (none is a result),
    the two accumulators' arrays their last write-back; -/
theorem hF_2 (c : Dev nD) (w : Fin (cfg2 (adm2 m)).W) :
    (d2 m hE c).arrAt w (cfg2 (adm2 m)).N = atTc (W6 m hE) c (Pipeline.arrRef spec2 w) := by
  match w with
  | ⟨0, _⟩ => exact (((d2 m hE c).arrAt_in 0 rfl _).trans (P1R2.A_eq _ _ _ _ c 0)).trans (W6_of m hE c (Pipeline.arrRef spec2 (0 : Fin 7)) (by decide) (by decide) (by decide)).symm
  | ⟨1, _⟩ => exact (((d2 m hE c).arrAt_in 1 rfl _).trans (P1R2.A_eq _ _ _ _ c 1)).trans (W6_of m hE c (Pipeline.arrRef spec2 (1 : Fin 7)) (by decide) (by decide) (by decide)).symm
  | ⟨2, _⟩ => exact (((d2 m hE c).arrAt_in 2 rfl _).trans (P1R2.A_eq _ _ _ _ c 2)).trans (W6_of m hE c (Pipeline.arrRef spec2 (2 : Fin 7)) (by decide) (by decide) (by decide)).symm
  | ⟨3, _⟩ => exact (((d2 m hE c).arrAt_in 3 rfl _).trans (P1R2.A_eq _ _ _ _ c 3)).trans (W6_of m hE c (Pipeline.arrRef spec2 (3 : Fin 7)) (by decide) (by decide) (by decide)).symm
  | ⟨4, _⟩ => exact (((d2 m hE c).arrAt_in 4 rfl _).trans (P1R2.A_eq _ _ _ _ c 4)).trans (W6_of m hE c (Pipeline.arrRef spec2 (4 : Fin 7)) (by decide) (by decide) (by decide)).symm
  | ⟨5, _⟩ => exact (W6_res1 m hE c).symm
  | ⟨6, _⟩ => exact (W6_res2 m hE c).symm
/-- and every buffer that is none of its arrays holds what it held at entry, but the hidden array, which holds what
    the last point left. -/
theorem hrest_2 (c : Dev nD) (b : Ref sig .tc) (hb : b ∉ Finset.univ.image (Pipeline.arrRef spec2)) :
    atTc (W6 m hE) c b = P1R2.Vmid (adm m) (W5 m hE) (hp0_2 m hE) (hp1_2 m hE) c b := by
  have h1 : b ≠ main_v19_1 := fun e => hb (Finset.mem_image.mpr ⟨5, Finset.mem_univ _, e.symm⟩)
  have h2 : b ≠ main_v19_2 := fun e => hb (Finset.mem_image.mpr ⟨6, Finset.mem_univ _, e.symm⟩)
  unfold P1R2.Vmid
  by_cases h0 : b = main_v19_0
  · subst h0; rw [Function.update_self]; exact W6_res0 m hE c
  · rw [Function.update_of_ne h0]; exact W6_of m hE c b h1 h2 h0
/-- The region's segment, entered from the buffers at W5 and left at W6. -/
def R2 : RegionSeg (pcfgs (F := F)) (adm m) (pdats m hE) () defs₀ Variants.none L₀ lv₀ 2 :=
  P1R2.reg (adm m) (pdats m hE) (W5 m hE) (W6 m hE) (hp0_2 m hE) (hp1_2 m hE) (fun _ => rfl)
    (hT0_2 m hE) (hT1_2 m hE) (hF_2 m hE) (hrest_2 m hE)
/-- It is entered from the conditional run's contents before it and left at those after it. -/
theorem hpre2 (c : Dev nD) :
    iprop(StableHlo.held (c : Thread nD τ) (Pipeline.ucRefs τ sig) (V5 m (outs m hE) c) ∗ Rr c) ⊢ (R2 m hE).pre c :=
  Entails.of_eq (congrArg (fun W => iprop(StableHlo.held (c : Thread nD τ) (Pipeline.ucRefs τ sig) W ∗ Rr c)) (V5_eq m hE c))
theorem hpost2 (c : Dev nD) :
    (R2 m hE).post c ⊢ iprop(StableHlo.held (c : Thread nD τ) (Pipeline.ucRefs τ sig) (V6 m (outs m hE) c) ∗ Rr c) :=
  Entails.of_eq (congrArg (fun W => iprop(StableHlo.held (c : Thread nD τ) (Pipeline.ucRefs τ sig) W ∗ Rr c)) (V6_eq m hE c).symm)

/-! ### Region 3 -/

include hE in
/-- The tables it finds in the buffers are its admissible ones: the host stretch before it cut them out of the two
    flattened rows, which no region writes. -/
theorem hT0_3 (c : Dev nD) : atTc (W7 m hE) c main_v20 = P1R3.T0 (adm3 m) c := by
  obtain rfl := dev_eq c
  exact ((congrFun (V7_eq m hE c₀) (Proc.devRef .tc main_v20)).symm.trans (Tbl.tbl_3a_eq m (outs m hE) c₀) :)
include hE in
theorem hT1_3 (c : Dev nD) : atTc (W7 m hE) c main_v21 = P1R3.T1 (adm3 m) c := by
  obtain rfl := dev_eq c
  exact ((congrFun (V7_eq m hE c₀) (Proc.devRef .tc main_v21)).symm.trans (Tbl.tbl_3b_eq m (outs m hE) c₀) :)
/-- At its exit each of its arrays holds what the pipeline leaves: the five inputs what they held (none is a result),
    the two accumulators' arrays their last write-back; -/
theorem hF_3 (c : Dev nD) (w : Fin (cfg3 (adm3 m)).W) :
    (d3 m hE c).arrAt w (cfg3 (adm3 m)).N = atTc (W8 m hE) c (Pipeline.arrRef spec3 w) := by
  match w with
  | ⟨0, _⟩ => exact (((d3 m hE c).arrAt_in 0 rfl _).trans (P1R3.A_eq _ _ _ _ c 0)).trans (W8_of m hE c (Pipeline.arrRef spec3 (0 : Fin 7)) (by decide) (by decide) (by decide)).symm
  | ⟨1, _⟩ => exact (((d3 m hE c).arrAt_in 1 rfl _).trans (P1R3.A_eq _ _ _ _ c 1)).trans (W8_of m hE c (Pipeline.arrRef spec3 (1 : Fin 7)) (by decide) (by decide) (by decide)).symm
  | ⟨2, _⟩ => exact (((d3 m hE c).arrAt_in 2 rfl _).trans (P1R3.A_eq _ _ _ _ c 2)).trans (W8_of m hE c (Pipeline.arrRef spec3 (2 : Fin 7)) (by decide) (by decide) (by decide)).symm
  | ⟨3, _⟩ => exact (((d3 m hE c).arrAt_in 3 rfl _).trans (P1R3.A_eq _ _ _ _ c 3)).trans (W8_of m hE c (Pipeline.arrRef spec3 (3 : Fin 7)) (by decide) (by decide) (by decide)).symm
  | ⟨4, _⟩ => exact (((d3 m hE c).arrAt_in 4 rfl _).trans (P1R3.A_eq _ _ _ _ c 4)).trans (W8_of m hE c (Pipeline.arrRef spec3 (4 : Fin 7)) (by decide) (by decide) (by decide)).symm
  | ⟨5, _⟩ => exact (W8_res1 m hE c).symm
  | ⟨6, _⟩ => exact (W8_res2 m hE c).symm
/-- and every buffer that is none of its arrays holds what it held at entry, but the hidden array, which holds what
    the last point left. -/
theorem hrest_3 (c : Dev nD) (b : Ref sig .tc) (hb : b ∉ Finset.univ.image (Pipeline.arrRef spec3)) :
    atTc (W8 m hE) c b = P1R3.Vmid (adm m) (W7 m hE) (hp0_3 m hE) (hp1_3 m hE) c b := by
  have h1 : b ≠ main_v22_1 := fun e => hb (Finset.mem_image.mpr ⟨5, Finset.mem_univ _, e.symm⟩)
  have h2 : b ≠ main_v22_2 := fun e => hb (Finset.mem_image.mpr ⟨6, Finset.mem_univ _, e.symm⟩)
  unfold P1R3.Vmid
  by_cases h0 : b = main_v22_0
  · subst h0; rw [Function.update_self]; exact W8_res0 m hE c
  · rw [Function.update_of_ne h0]; exact W8_of m hE c b h1 h2 h0
/-- The region's segment, entered from the buffers at W7 and left at W8. -/
def R3 : RegionSeg (pcfgs (F := F)) (adm m) (pdats m hE) () defs₀ Variants.none L₀ lv₀ 3 :=
  P1R3.reg (adm m) (pdats m hE) (W7 m hE) (W8 m hE) (hp0_3 m hE) (hp1_3 m hE) (fun _ => rfl)
    (hT0_3 m hE) (hT1_3 m hE) (hF_3 m hE) (hrest_3 m hE)
/-- It is entered from the conditional run's contents before it and left at those after it. -/
theorem hpre3 (c : Dev nD) :
    iprop(StableHlo.held (c : Thread nD τ) (Pipeline.ucRefs τ sig) (V7 m (outs m hE) c) ∗ Rr c) ⊢ (R3 m hE).pre c :=
  Entails.of_eq (congrArg (fun W => iprop(StableHlo.held (c : Thread nD τ) (Pipeline.ucRefs τ sig) W ∗ Rr c)) (V7_eq m hE c))
theorem hpost3 (c : Dev nD) :
    (R3 m hE).post c ⊢ iprop(StableHlo.held (c : Thread nD τ) (Pipeline.ucRefs τ sig) (V8 m (outs m hE) c) ∗ Rr c) :=
  Entails.of_eq (congrArg (fun W => iprop(StableHlo.held (c : Thread nD τ) (Pipeline.ucRefs τ sig) W ∗ Rr c)) (V8_eq m hE c).symm)

/-! ### Region 4 -/

include hE in
/-- The tables it finds in the buffers are its admissible ones: the host stretch before it cut them out of the two
    flattened rows, which no region writes. -/
theorem hT0_4 (c : Dev nD) : atTc (W9 m hE) c main_v23 = P1R4.T0 (adm4 m) c := by
  obtain rfl := dev_eq c
  exact ((congrFun (V9_eq m hE c₀) (Proc.devRef .tc main_v23)).symm.trans (Tbl.tbl_4a_eq m (outs m hE) c₀) :)
include hE in
theorem hT1_4 (c : Dev nD) : atTc (W9 m hE) c main_v24 = P1R4.T1 (adm4 m) c := by
  obtain rfl := dev_eq c
  exact ((congrFun (V9_eq m hE c₀) (Proc.devRef .tc main_v24)).symm.trans (Tbl.tbl_4b_eq m (outs m hE) c₀) :)
/-- At its exit each of its arrays holds what the pipeline leaves: the five inputs what they held (none is a result),
    the two accumulators' arrays their last write-back; -/
theorem hF_4 (c : Dev nD) (w : Fin (cfg4 (adm4 m)).W) :
    (d4 m hE c).arrAt w (cfg4 (adm4 m)).N = atTc (W10 m hE) c (Pipeline.arrRef spec4 w) := by
  match w with
  | ⟨0, _⟩ => exact (((d4 m hE c).arrAt_in 0 rfl _).trans (P1R4.A_eq _ _ _ _ c 0)).trans (W10_of m hE c (Pipeline.arrRef spec4 (0 : Fin 7)) (by decide) (by decide) (by decide)).symm
  | ⟨1, _⟩ => exact (((d4 m hE c).arrAt_in 1 rfl _).trans (P1R4.A_eq _ _ _ _ c 1)).trans (W10_of m hE c (Pipeline.arrRef spec4 (1 : Fin 7)) (by decide) (by decide) (by decide)).symm
  | ⟨2, _⟩ => exact (((d4 m hE c).arrAt_in 2 rfl _).trans (P1R4.A_eq _ _ _ _ c 2)).trans (W10_of m hE c (Pipeline.arrRef spec4 (2 : Fin 7)) (by decide) (by decide) (by decide)).symm
  | ⟨3, _⟩ => exact (((d4 m hE c).arrAt_in 3 rfl _).trans (P1R4.A_eq _ _ _ _ c 3)).trans (W10_of m hE c (Pipeline.arrRef spec4 (3 : Fin 7)) (by decide) (by decide) (by decide)).symm
  | ⟨4, _⟩ => exact (((d4 m hE c).arrAt_in 4 rfl _).trans (P1R4.A_eq _ _ _ _ c 4)).trans (W10_of m hE c (Pipeline.arrRef spec4 (4 : Fin 7)) (by decide) (by decide) (by decide)).symm
  | ⟨5, _⟩ => exact (W10_res1 m hE c).symm
  | ⟨6, _⟩ => exact (W10_res2 m hE c).symm
/-- and every buffer that is none of its arrays holds what it held at entry, but the hidden array, which holds what
    the last point left. -/
theorem hrest_4 (c : Dev nD) (b : Ref sig .tc) (hb : b ∉ Finset.univ.image (Pipeline.arrRef spec4)) :
    atTc (W10 m hE) c b = P1R4.Vmid (adm m) (W9 m hE) (hp0_4 m hE) (hp1_4 m hE) c b := by
  have h1 : b ≠ main_v25_1 := fun e => hb (Finset.mem_image.mpr ⟨5, Finset.mem_univ _, e.symm⟩)
  have h2 : b ≠ main_v25_2 := fun e => hb (Finset.mem_image.mpr ⟨6, Finset.mem_univ _, e.symm⟩)
  unfold P1R4.Vmid
  by_cases h0 : b = main_v25_0
  · subst h0; rw [Function.update_self]; exact W10_res0 m hE c
  · rw [Function.update_of_ne h0]; exact W10_of m hE c b h1 h2 h0
/-- The region's segment, entered from the buffers at W9 and left at W10. -/
def R4 : RegionSeg (pcfgs (F := F)) (adm m) (pdats m hE) () defs₀ Variants.none L₀ lv₀ 4 :=
  P1R4.reg (adm m) (pdats m hE) (W9 m hE) (W10 m hE) (hp0_4 m hE) (hp1_4 m hE) (fun _ => rfl)
    (hT0_4 m hE) (hT1_4 m hE) (hF_4 m hE) (hrest_4 m hE)
/-- It is entered from the conditional run's contents before it and left at those after it. -/
theorem hpre4 (c : Dev nD) :
    iprop(StableHlo.held (c : Thread nD τ) (Pipeline.ucRefs τ sig) (V9 m (outs m hE) c) ∗ Rr c) ⊢ (R4 m hE).pre c :=
  Entails.of_eq (congrArg (fun W => iprop(StableHlo.held (c : Thread nD τ) (Pipeline.ucRefs τ sig) W ∗ Rr c)) (V9_eq m hE c))
theorem hpost4 (c : Dev nD) :
    (R4 m hE).post c ⊢ iprop(StableHlo.held (c : Thread nD τ) (Pipeline.ucRefs τ sig) (V10 m (outs m hE) c) ∗ Rr c) :=
  Entails.of_eq (congrArg (fun W => iprop(StableHlo.held (c : Thread nD τ) (Pipeline.ucRefs τ sig) W ∗ Rr c)) (V10_eq m hE c).symm)

/-! ### Region 5 -/

include hE in
/-- The tables it finds in the buffers are its admissible ones: the host stretch before it cut them out of the two
    flattened rows, which no region writes. -/
theorem hT0_5 (c : Dev nD) : atTc (W11 m hE) c main_v26 = P1R5.T0 (adm5 m) c := by
  obtain rfl := dev_eq c
  exact ((congrFun (V11_eq m hE c₀) (Proc.devRef .tc main_v26)).symm.trans (Tbl.tbl_5a_eq m (outs m hE) c₀) :)
include hE in
theorem hT1_5 (c : Dev nD) : atTc (W11 m hE) c main_v27 = P1R5.T1 (adm5 m) c := by
  obtain rfl := dev_eq c
  exact ((congrFun (V11_eq m hE c₀) (Proc.devRef .tc main_v27)).symm.trans (Tbl.tbl_5b_eq m (outs m hE) c₀) :)
/-- At its exit each of its arrays holds what the pipeline leaves: the five inputs what they held (none is a result),
    the two accumulators' arrays their last write-back; -/
theorem hF_5 (c : Dev nD) (w : Fin (cfg5 (adm5 m)).W) :
    (d5 m hE c).arrAt w (cfg5 (adm5 m)).N = atTc (W12 m hE) c (Pipeline.arrRef spec5 w) := by
  match w with
  | ⟨0, _⟩ => exact (((d5 m hE c).arrAt_in 0 rfl _).trans (P1R5.A_eq _ _ _ _ c 0)).trans (W12_of m hE c (Pipeline.arrRef spec5 (0 : Fin 7)) (by decide) (by decide) (by decide)).symm
  | ⟨1, _⟩ => exact (((d5 m hE c).arrAt_in 1 rfl _).trans (P1R5.A_eq _ _ _ _ c 1)).trans (W12_of m hE c (Pipeline.arrRef spec5 (1 : Fin 7)) (by decide) (by decide) (by decide)).symm
  | ⟨2, _⟩ => exact (((d5 m hE c).arrAt_in 2 rfl _).trans (P1R5.A_eq _ _ _ _ c 2)).trans (W12_of m hE c (Pipeline.arrRef spec5 (2 : Fin 7)) (by decide) (by decide) (by decide)).symm
  | ⟨3, _⟩ => exact (((d5 m hE c).arrAt_in 3 rfl _).trans (P1R5.A_eq _ _ _ _ c 3)).trans (W12_of m hE c (Pipeline.arrRef spec5 (3 : Fin 7)) (by decide) (by decide) (by decide)).symm
  | ⟨4, _⟩ => exact (((d5 m hE c).arrAt_in 4 rfl _).trans (P1R5.A_eq _ _ _ _ c 4)).trans (W12_of m hE c (Pipeline.arrRef spec5 (4 : Fin 7)) (by decide) (by decide) (by decide)).symm
  | ⟨5, _⟩ => exact (W12_res1 m hE c).symm
  | ⟨6, _⟩ => exact (W12_res2 m hE c).symm
/-- and every buffer that is none of its arrays holds what it held at entry, but the hidden array, which holds what
    the last point left. -/
theorem hrest_5 (c : Dev nD) (b : Ref sig .tc) (hb : b ∉ Finset.univ.image (Pipeline.arrRef spec5)) :
    atTc (W12 m hE) c b = P1R5.Vmid (adm m) (W11 m hE) (hp0_5 m hE) (hp1_5 m hE) c b := by
  have h1 : b ≠ main_v28_1 := fun e => hb (Finset.mem_image.mpr ⟨5, Finset.mem_univ _, e.symm⟩)
  have h2 : b ≠ main_v28_2 := fun e => hb (Finset.mem_image.mpr ⟨6, Finset.mem_univ _, e.symm⟩)
  unfold P1R5.Vmid
  by_cases h0 : b = main_v28_0
  · subst h0; rw [Function.update_self]; exact W12_res0 m hE c
  · rw [Function.update_of_ne h0]; exact W12_of m hE c b h1 h2 h0
/-- The region's segment, entered from the buffers at W11 and left at W12. -/
def R5 : RegionSeg (pcfgs (F := F)) (adm m) (pdats m hE) () defs₀ Variants.none L₀ lv₀ 5 :=
  P1R5.reg (adm m) (pdats m hE) (W11 m hE) (W12 m hE) (hp0_5 m hE) (hp1_5 m hE) (fun _ => rfl)
    (hT0_5 m hE) (hT1_5 m hE) (hF_5 m hE) (hrest_5 m hE)
/-- It is entered from the conditional run's contents before it and left at those after it. -/
theorem hpre5 (c : Dev nD) :
    iprop(StableHlo.held (c : Thread nD τ) (Pipeline.ucRefs τ sig) (V11 m (outs m hE) c) ∗ Rr c) ⊢ (R5 m hE).pre c :=
  Entails.of_eq (congrArg (fun W => iprop(StableHlo.held (c : Thread nD τ) (Pipeline.ucRefs τ sig) W ∗ Rr c)) (V11_eq m hE c))
theorem hpost5 (c : Dev nD) :
    (R5 m hE).post c ⊢ iprop(StableHlo.held (c : Thread nD τ) (Pipeline.ucRefs τ sig) (V12 m (outs m hE) c) ∗ Rr c) :=
  Entails.of_eq (congrArg (fun W => iprop(StableHlo.held (c : Thread nD τ) (Pipeline.ucRefs τ sig) W ∗ Rr c)) (V12_eq m hE c).symm)

/-! ### Region 6 -/

include hE in
/-- The tables it finds in the buffers are its admissible ones: the host stretch before it cut them out of the two
    flattened rows, which no region writes. -/
theorem hT0_6 (c : Dev nD) : atTc (W13 m hE) c main_v29 = P1R6.T0 (adm6 m) c := by
  obtain rfl := dev_eq c
  exact ((congrFun (V13_eq m hE c₀) (Proc.devRef .tc main_v29)).symm.trans (Tbl.tbl_6a_eq m (outs m hE) c₀) :)
include hE in
theorem hT1_6 (c : Dev nD) : atTc (W13 m hE) c main_v30 = P1R6.T1 (adm6 m) c := by
  obtain rfl := dev_eq c
  exact ((congrFun (V13_eq m hE c₀) (Proc.devRef .tc main_v30)).symm.trans (Tbl.tbl_6b_eq m (outs m hE) c₀) :)
/-- At its exit each of its arrays holds what the pipeline leaves: the five inputs what they held (none is a result),
    the two accumulators' arrays their last write-back; -/
theorem hF_6 (c : Dev nD) (w : Fin (cfg6 (adm6 m)).W) :
    (d6 m hE c).arrAt w (cfg6 (adm6 m)).N = atTc (W14 m hE) c (Pipeline.arrRef spec6 w) := by
  match w with
  | ⟨0, _⟩ => exact (((d6 m hE c).arrAt_in 0 rfl _).trans (P1R6.A_eq _ _ _ _ c 0)).trans (W14_of m hE c (Pipeline.arrRef spec6 (0 : Fin 7)) (by decide) (by decide) (by decide)).symm
  | ⟨1, _⟩ => exact (((d6 m hE c).arrAt_in 1 rfl _).trans (P1R6.A_eq _ _ _ _ c 1)).trans (W14_of m hE c (Pipeline.arrRef spec6 (1 : Fin 7)) (by decide) (by decide) (by decide)).symm
  | ⟨2, _⟩ => exact (((d6 m hE c).arrAt_in 2 rfl _).trans (P1R6.A_eq _ _ _ _ c 2)).trans (W14_of m hE c (Pipeline.arrRef spec6 (2 : Fin 7)) (by decide) (by decide) (by decide)).symm
  | ⟨3, _⟩ => exact (((d6 m hE c).arrAt_in 3 rfl _).trans (P1R6.A_eq _ _ _ _ c 3)).trans (W14_of m hE c (Pipeline.arrRef spec6 (3 : Fin 7)) (by decide) (by decide) (by decide)).symm
  | ⟨4, _⟩ => exact (((d6 m hE c).arrAt_in 4 rfl _).trans (P1R6.A_eq _ _ _ _ c 4)).trans (W14_of m hE c (Pipeline.arrRef spec6 (4 : Fin 7)) (by decide) (by decide) (by decide)).symm
  | ⟨5, _⟩ => exact (W14_res1 m hE c).symm
  | ⟨6, _⟩ => exact (W14_res2 m hE c).symm
/-- and every buffer that is none of its arrays holds what it held at entry, but the hidden array, which holds what
    the last point left. -/
theorem hrest_6 (c : Dev nD) (b : Ref sig .tc) (hb : b ∉ Finset.univ.image (Pipeline.arrRef spec6)) :
    atTc (W14 m hE) c b = P1R6.Vmid (adm m) (W13 m hE) (hp0_6 m hE) (hp1_6 m hE) c b := by
  have h1 : b ≠ main_v31_1 := fun e => hb (Finset.mem_image.mpr ⟨5, Finset.mem_univ _, e.symm⟩)
  have h2 : b ≠ main_v31_2 := fun e => hb (Finset.mem_image.mpr ⟨6, Finset.mem_univ _, e.symm⟩)
  unfold P1R6.Vmid
  by_cases h0 : b = main_v31_0
  · subst h0; rw [Function.update_self]; exact W14_res0 m hE c
  · rw [Function.update_of_ne h0]; exact W14_of m hE c b h1 h2 h0
/-- The region's segment, entered from the buffers at W13 and left at W14. -/
def R6 : RegionSeg (pcfgs (F := F)) (adm m) (pdats m hE) () defs₀ Variants.none L₀ lv₀ 6 :=
  P1R6.reg (adm m) (pdats m hE) (W13 m hE) (W14 m hE) (hp0_6 m hE) (hp1_6 m hE) (fun _ => rfl)
    (hT0_6 m hE) (hT1_6 m hE) (hF_6 m hE) (hrest_6 m hE)
/-- It is entered from the conditional run's contents before it and left at those after it. -/
theorem hpre6 (c : Dev nD) :
    iprop(StableHlo.held (c : Thread nD τ) (Pipeline.ucRefs τ sig) (V13 m (outs m hE) c) ∗ Rr c) ⊢ (R6 m hE).pre c :=
  Entails.of_eq (congrArg (fun W => iprop(StableHlo.held (c : Thread nD τ) (Pipeline.ucRefs τ sig) W ∗ Rr c)) (V13_eq m hE c))
theorem hpost6 (c : Dev nD) :
    (R6 m hE).post c ⊢ iprop(StableHlo.held (c : Thread nD τ) (Pipeline.ucRefs τ sig) (V14 m (outs m hE) c) ∗ Rr c) :=
  Entails.of_eq (congrArg (fun W => iprop(StableHlo.held (c : Thread nD τ) (Pipeline.ucRefs τ sig) W ∗ Rr c)) (V14_eq m hE c).symm)

/-! ### Region 7 -/

include hE in
/-- The tables it finds in the buffers are its admissible ones: the host stretch before it cut them out of the two
    flattened rows, which no region writes. -/
theorem hT0_7 (c : Dev nD) : atTc (W15 m hE) c main_v32 = P1R7.T0 (adm7 m) c := by
  obtain rfl := dev_eq c
  exact ((congrFun (V15_eq m hE c₀) (Proc.devRef .tc main_v32)).symm.trans (Tbl.tbl_7a_eq m (outs m hE) c₀) :)
include hE in
theorem hT1_7 (c : Dev nD) : atTc (W15 m hE) c main_v33 = P1R7.T1 (adm7 m) c := by
  obtain rfl := dev_eq c
  exact ((congrFun (V15_eq m hE c₀) (Proc.devRef .tc main_v33)).symm.trans (Tbl.tbl_7b_eq m (outs m hE) c₀) :)
/-- At its exit each of its arrays holds what the pipeline leaves: the five inputs what they held (none is a result),
    the two accumulators' arrays their last write-back; -/
theorem hF_7 (c : Dev nD) (w : Fin (cfg7 (adm7 m)).W) :
    (d7 m hE c).arrAt w (cfg7 (adm7 m)).N = atTc (W16 m hE) c (Pipeline.arrRef spec7 w) := by
  match w with
  | ⟨0, _⟩ => exact (((d7 m hE c).arrAt_in 0 rfl _).trans (P1R7.A_eq _ _ _ _ c 0)).trans (W16_of m hE c (Pipeline.arrRef spec7 (0 : Fin 7)) (by decide) (by decide) (by decide)).symm
  | ⟨1, _⟩ => exact (((d7 m hE c).arrAt_in 1 rfl _).trans (P1R7.A_eq _ _ _ _ c 1)).trans (W16_of m hE c (Pipeline.arrRef spec7 (1 : Fin 7)) (by decide) (by decide) (by decide)).symm
  | ⟨2, _⟩ => exact (((d7 m hE c).arrAt_in 2 rfl _).trans (P1R7.A_eq _ _ _ _ c 2)).trans (W16_of m hE c (Pipeline.arrRef spec7 (2 : Fin 7)) (by decide) (by decide) (by decide)).symm
  | ⟨3, _⟩ => exact (((d7 m hE c).arrAt_in 3 rfl _).trans (P1R7.A_eq _ _ _ _ c 3)).trans (W16_of m hE c (Pipeline.arrRef spec7 (3 : Fin 7)) (by decide) (by decide) (by decide)).symm
  | ⟨4, _⟩ => exact (((d7 m hE c).arrAt_in 4 rfl _).trans (P1R7.A_eq _ _ _ _ c 4)).trans (W16_of m hE c (Pipeline.arrRef spec7 (4 : Fin 7)) (by decide) (by decide) (by decide)).symm
  | ⟨5, _⟩ => exact (W16_res1 m hE c).symm
  | ⟨6, _⟩ => exact (W16_res2 m hE c).symm
/-- and every buffer that is none of its arrays holds what it held at entry, but the hidden array, which holds what
    the last point left. -/
theorem hrest_7 (c : Dev nD) (b : Ref sig .tc) (hb : b ∉ Finset.univ.image (Pipeline.arrRef spec7)) :
    atTc (W16 m hE) c b = P1R7.Vmid (adm m) (W15 m hE) (hp0_7 m hE) (hp1_7 m hE) c b := by
  have h1 : b ≠ main_v34_1 := fun e => hb (Finset.mem_image.mpr ⟨5, Finset.mem_univ _, e.symm⟩)
  have h2 : b ≠ main_v34_2 := fun e => hb (Finset.mem_image.mpr ⟨6, Finset.mem_univ _, e.symm⟩)
  unfold P1R7.Vmid
  by_cases h0 : b = main_v34_0
  · subst h0; rw [Function.update_self]; exact W16_res0 m hE c
  · rw [Function.update_of_ne h0]; exact W16_of m hE c b h1 h2 h0
/-- The region's segment, entered from the buffers at W15 and left at W16. -/
def R7 : RegionSeg (pcfgs (F := F)) (adm m) (pdats m hE) () defs₀ Variants.none L₀ lv₀ 7 :=
  P1R7.reg (adm m) (pdats m hE) (W15 m hE) (W16 m hE) (hp0_7 m hE) (hp1_7 m hE) (fun _ => rfl)
    (hT0_7 m hE) (hT1_7 m hE) (hF_7 m hE) (hrest_7 m hE)
/-- It is entered from the conditional run's contents before it and left at those after it. -/
theorem hpre7 (c : Dev nD) :
    iprop(StableHlo.held (c : Thread nD τ) (Pipeline.ucRefs τ sig) (V15 m (outs m hE) c) ∗ Rr c) ⊢ (R7 m hE).pre c :=
  Entails.of_eq (congrArg (fun W => iprop(StableHlo.held (c : Thread nD τ) (Pipeline.ucRefs τ sig) W ∗ Rr c)) (V15_eq m hE c))
theorem hpost7 (c : Dev nD) :
    (R7 m hE).post c ⊢ iprop(StableHlo.held (c : Thread nD τ) (Pipeline.ucRefs τ sig) (V16 m (outs m hE) c) ∗ Rr c) :=
  Entails.of_eq (congrArg (fun W => iprop(StableHlo.held (c : Thread nD τ) (Pipeline.ucRefs τ sig) W ∗ Rr c)) (V16_eq m hE c).symm)

/-! ### Region 8 -/

include hE in
/-- The tables it finds in the buffers are its admissible ones: the host stretch before it cut them out of the two
    flattened rows, which no region writes. -/
theorem hT0_8 (c : Dev nD) : atTc (W17 m hE) c main_v35 = P1R8.T0 (adm8 m) c := by
  obtain rfl := dev_eq c
  exact ((congrFun (V17_eq m hE c₀) (Proc.devRef .tc main_v35)).symm.trans (Tbl.tbl_8a_eq m (outs m hE) c₀) :)
include hE in
theorem hT1_8 (c : Dev nD) : atTc (W17 m hE) c main_v36 = P1R8.T1 (adm8 m) c := by
  obtain rfl := dev_eq c
  exact ((congrFun (V17_eq m hE c₀) (Proc.devRef .tc main_v36)).symm.trans (Tbl.tbl_8b_eq m (outs m hE) c₀) :)
/-- At its exit each of its arrays holds what the pipeline leaves: the five inputs what they held (none is a result),
    the two accumulators' arrays their last write-back; -/
theorem hF_8 (c : Dev nD) (w : Fin (cfg8 (adm8 m)).W) :
    (d8 m hE c).arrAt w (cfg8 (adm8 m)).N = atTc (W18 m hE) c (Pipeline.arrRef spec8 w) := by
  match w with
  | ⟨0, _⟩ => exact (((d8 m hE c).arrAt_in 0 rfl _).trans (P1R8.A_eq _ _ _ _ c 0)).trans (W18_of m hE c (Pipeline.arrRef spec8 (0 : Fin 7)) (by decide) (by decide) (by decide)).symm
  | ⟨1, _⟩ => exact (((d8 m hE c).arrAt_in 1 rfl _).trans (P1R8.A_eq _ _ _ _ c 1)).trans (W18_of m hE c (Pipeline.arrRef spec8 (1 : Fin 7)) (by decide) (by decide) (by decide)).symm
  | ⟨2, _⟩ => exact (((d8 m hE c).arrAt_in 2 rfl _).trans (P1R8.A_eq _ _ _ _ c 2)).trans (W18_of m hE c (Pipeline.arrRef spec8 (2 : Fin 7)) (by decide) (by decide) (by decide)).symm
  | ⟨3, _⟩ => exact (((d8 m hE c).arrAt_in 3 rfl _).trans (P1R8.A_eq _ _ _ _ c 3)).trans (W18_of m hE c (Pipeline.arrRef spec8 (3 : Fin 7)) (by decide) (by decide) (by decide)).symm
  | ⟨4, _⟩ => exact (((d8 m hE c).arrAt_in 4 rfl _).trans (P1R8.A_eq _ _ _ _ c 4)).trans (W18_of m hE c (Pipeline.arrRef spec8 (4 : Fin 7)) (by decide) (by decide) (by decide)).symm
  | ⟨5, _⟩ => exact (W18_res1 m hE c).symm
  | ⟨6, _⟩ => exact (W18_res2 m hE c).symm
/-- and every buffer that is none of its arrays holds what it held at entry, but the hidden array, which holds what
    the last point left. -/
theorem hrest_8 (c : Dev nD) (b : Ref sig .tc) (hb : b ∉ Finset.univ.image (Pipeline.arrRef spec8)) :
    atTc (W18 m hE) c b = P1R8.Vmid (adm m) (W17 m hE) (hp0_8 m hE) (hp1_8 m hE) c b := by
  have h1 : b ≠ main_v37_1 := fun e => hb (Finset.mem_image.mpr ⟨5, Finset.mem_univ _, e.symm⟩)
  have h2 : b ≠ main_v37_2 := fun e => hb (Finset.mem_image.mpr ⟨6, Finset.mem_univ _, e.symm⟩)
  unfold P1R8.Vmid
  by_cases h0 : b = main_v37_0
  · subst h0; rw [Function.update_self]; exact W18_res0 m hE c
  · rw [Function.update_of_ne h0]; exact W18_of m hE c b h1 h2 h0
/-- The region's segment, entered from the buffers at W17 and left at W18. -/
def R8 : RegionSeg (pcfgs (F := F)) (adm m) (pdats m hE) () defs₀ Variants.none L₀ lv₀ 8 :=
  P1R8.reg (adm m) (pdats m hE) (W17 m hE) (W18 m hE) (hp0_8 m hE) (hp1_8 m hE) (fun _ => rfl)
    (hT0_8 m hE) (hT1_8 m hE) (hF_8 m hE) (hrest_8 m hE)
/-- It is entered from the conditional run's contents before it and left at those after it. -/
theorem hpre8 (c : Dev nD) :
    iprop(StableHlo.held (c : Thread nD τ) (Pipeline.ucRefs τ sig) (V17 m (outs m hE) c) ∗ Rr c) ⊢ (R8 m hE).pre c :=
  Entails.of_eq (congrArg (fun W => iprop(StableHlo.held (c : Thread nD τ) (Pipeline.ucRefs τ sig) W ∗ Rr c)) (V17_eq m hE c))
theorem hpost8 (c : Dev nD) :
    (R8 m hE).post c ⊢ iprop(StableHlo.held (c : Thread nD τ) (Pipeline.ucRefs τ sig) (V18 m (outs m hE) c) ∗ Rr c) :=
  Entails.of_eq (congrArg (fun W => iprop(StableHlo.held (c : Thread nD τ) (Pipeline.ucRefs τ sig) W ∗ Rr c)) (V18_eq m hE c).symm)

/-! ### Region 9 -/

include hE in
/-- The tables it finds in the buffers are its admissible ones: the host stretch before it cut them out of the two
    flattened rows, which no region writes. -/
theorem hT0_9 (c : Dev nD) : atTc (W19 m hE) c main_v38 = P1R9.T0 (adm9 m) c := by
  obtain rfl := dev_eq c
  exact ((congrFun (V19_eq m hE c₀) (Proc.devRef .tc main_v38)).symm.trans (Tbl.tbl_9a_eq m (outs m hE) c₀) :)
include hE in
theorem hT1_9 (c : Dev nD) : atTc (W19 m hE) c main_v39 = P1R9.T1 (adm9 m) c := by
  obtain rfl := dev_eq c
  exact ((congrFun (V19_eq m hE c₀) (Proc.devRef .tc main_v39)).symm.trans (Tbl.tbl_9b_eq m (outs m hE) c₀) :)
/-- At its exit each of its arrays holds what the pipeline leaves: the five inputs what they held (none is a result),
    the two accumulators' arrays their last write-back; -/
theorem hF_9 (c : Dev nD) (w : Fin (cfg9 (adm9 m)).W) :
    (d9 m hE c).arrAt w (cfg9 (adm9 m)).N = atTc (W20 m hE) c (Pipeline.arrRef spec9 w) := by
  match w with
  | ⟨0, _⟩ => exact (((d9 m hE c).arrAt_in 0 rfl _).trans (P1R9.A_eq _ _ _ _ c 0)).trans (W20_of m hE c (Pipeline.arrRef spec9 (0 : Fin 7)) (by decide) (by decide) (by decide)).symm
  | ⟨1, _⟩ => exact (((d9 m hE c).arrAt_in 1 rfl _).trans (P1R9.A_eq _ _ _ _ c 1)).trans (W20_of m hE c (Pipeline.arrRef spec9 (1 : Fin 7)) (by decide) (by decide) (by decide)).symm
  | ⟨2, _⟩ => exact (((d9 m hE c).arrAt_in 2 rfl _).trans (P1R9.A_eq _ _ _ _ c 2)).trans (W20_of m hE c (Pipeline.arrRef spec9 (2 : Fin 7)) (by decide) (by decide) (by decide)).symm
  | ⟨3, _⟩ => exact (((d9 m hE c).arrAt_in 3 rfl _).trans (P1R9.A_eq _ _ _ _ c 3)).trans (W20_of m hE c (Pipeline.arrRef spec9 (3 : Fin 7)) (by decide) (by decide) (by decide)).symm
  | ⟨4, _⟩ => exact (((d9 m hE c).arrAt_in 4 rfl _).trans (P1R9.A_eq _ _ _ _ c 4)).trans (W20_of m hE c (Pipeline.arrRef spec9 (4 : Fin 7)) (by decide) (by decide) (by decide)).symm
  | ⟨5, _⟩ => exact (W20_res1 m hE c).symm
  | ⟨6, _⟩ => exact (W20_res2 m hE c).symm
/-- and every buffer that is none of its arrays holds what it held at entry, but the hidden array, which holds what
    the last point left. -/
theorem hrest_9 (c : Dev nD) (b : Ref sig .tc) (hb : b ∉ Finset.univ.image (Pipeline.arrRef spec9)) :
    atTc (W20 m hE) c b = P1R9.Vmid (adm m) (W19 m hE) (hp0_9 m hE) (hp1_9 m hE) c b := by
  have h1 : b ≠ main_v40_1 := fun e => hb (Finset.mem_image.mpr ⟨5, Finset.mem_univ _, e.symm⟩)
  have h2 : b ≠ main_v40_2 := fun e => hb (Finset.mem_image.mpr ⟨6, Finset.mem_univ _, e.symm⟩)
  unfold P1R9.Vmid
  by_cases h0 : b = main_v40_0
  · subst h0; rw [Function.update_self]; exact W20_res0 m hE c
  · rw [Function.update_of_ne h0]; exact W20_of m hE c b h1 h2 h0
/-- The region's segment, entered from the buffers at W19 and left at W20. -/
def R9 : RegionSeg (pcfgs (F := F)) (adm m) (pdats m hE) () defs₀ Variants.none L₀ lv₀ 9 :=
  P1R9.reg (adm m) (pdats m hE) (W19 m hE) (W20 m hE) (hp0_9 m hE) (hp1_9 m hE) (fun _ => rfl)
    (hT0_9 m hE) (hT1_9 m hE) (hF_9 m hE) (hrest_9 m hE)
/-- It is entered from the conditional run's contents before it and left at those after it. -/
theorem hpre9 (c : Dev nD) :
    iprop(StableHlo.held (c : Thread nD τ) (Pipeline.ucRefs τ sig) (V19 m (outs m hE) c) ∗ Rr c) ⊢ (R9 m hE).pre c :=
  Entails.of_eq (congrArg (fun W => iprop(StableHlo.held (c : Thread nD τ) (Pipeline.ucRefs τ sig) W ∗ Rr c)) (V19_eq m hE c))
theorem hpost9 (c : Dev nD) :
    (R9 m hE).post c ⊢ iprop(StableHlo.held (c : Thread nD τ) (Pipeline.ucRefs τ sig) (V20 m (outs m hE) c) ∗ Rr c) :=
  Entails.of_eq (congrArg (fun W => iprop(StableHlo.held (c : Thread nD τ) (Pipeline.ucRefs τ sig) W ∗ Rr c)) (V20_eq m hE c).symm)

/-! ### Region 10 -/

include hE in
/-- The tables it finds in the buffers are its admissible ones: the host stretch before it cut them out of the two
    flattened rows, which no region writes. -/
theorem hT0_10 (c : Dev nD) : atTc (W21 m hE) c main_v41 = P1R10.T0 (adm10 m) c := by
  obtain rfl := dev_eq c
  exact ((congrFun (V21_eq m hE c₀) (Proc.devRef .tc main_v41)).symm.trans (Tbl.tbl_10a_eq m (outs m hE) c₀) :)
include hE in
theorem hT1_10 (c : Dev nD) : atTc (W21 m hE) c main_v42 = P1R10.T1 (adm10 m) c := by
  obtain rfl := dev_eq c
  exact ((congrFun (V21_eq m hE c₀) (Proc.devRef .tc main_v42)).symm.trans (Tbl.tbl_10b_eq m (outs m hE) c₀) :)
/-- At its exit each of its arrays holds what the pipeline leaves: the five inputs what they held (none is a result),
    the two accumulators' arrays their last write-back; -/
theorem hF_10 (c : Dev nD) (w : Fin (cfg10 (adm10 m)).W) :
    (d10 m hE c).arrAt w (cfg10 (adm10 m)).N = atTc (W22 m hE) c (Pipeline.arrRef spec10 w) := by
  match w with
  | ⟨0, _⟩ => exact (((d10 m hE c).arrAt_in 0 rfl _).trans (P1R10.A_eq _ _ _ _ c 0)).trans (W22_of m hE c (Pipeline.arrRef spec10 (0 : Fin 7)) (by decide) (by decide) (by decide)).symm
  | ⟨1, _⟩ => exact (((d10 m hE c).arrAt_in 1 rfl _).trans (P1R10.A_eq _ _ _ _ c 1)).trans (W22_of m hE c (Pipeline.arrRef spec10 (1 : Fin 7)) (by decide) (by decide) (by decide)).symm
  | ⟨2, _⟩ => exact (((d10 m hE c).arrAt_in 2 rfl _).trans (P1R10.A_eq _ _ _ _ c 2)).trans (W22_of m hE c (Pipeline.arrRef spec10 (2 : Fin 7)) (by decide) (by decide) (by decide)).symm
  | ⟨3, _⟩ => exact (((d10 m hE c).arrAt_in 3 rfl _).trans (P1R10.A_eq _ _ _ _ c 3)).trans (W22_of m hE c (Pipeline.arrRef spec10 (3 : Fin 7)) (by decide) (by decide) (by decide)).symm
  | ⟨4, _⟩ => exact (((d10 m hE c).arrAt_in 4 rfl _).trans (P1R10.A_eq _ _ _ _ c 4)).trans (W22_of m hE c (Pipeline.arrRef spec10 (4 : Fin 7)) (by decide) (by decide) (by decide)).symm
  | ⟨5, _⟩ => exact (W22_res1 m hE c).symm
  | ⟨6, _⟩ => exact (W22_res2 m hE c).symm
/-- and every buffer that is none of its arrays holds what it held at entry, but the hidden array, which holds what
    the last point left. -/
theorem hrest_10 (c : Dev nD) (b : Ref sig .tc) (hb : b ∉ Finset.univ.image (Pipeline.arrRef spec10)) :
    atTc (W22 m hE) c b = P1R10.Vmid (adm m) (W21 m hE) (hp0_10 m hE) (hp1_10 m hE) c b := by
  have h1 : b ≠ main_v43_1 := fun e => hb (Finset.mem_image.mpr ⟨5, Finset.mem_univ _, e.symm⟩)
  have h2 : b ≠ main_v43_2 := fun e => hb (Finset.mem_image.mpr ⟨6, Finset.mem_univ _, e.symm⟩)
  unfold P1R10.Vmid
  by_cases h0 : b = main_v43_0
  · subst h0; rw [Function.update_self]; exact W22_res0 m hE c
  · rw [Function.update_of_ne h0]; exact W22_of m hE c b h1 h2 h0
/-- The region's segment, entered from the buffers at W21 and left at W22. -/
def R10 : RegionSeg (pcfgs (F := F)) (adm m) (pdats m hE) () defs₀ Variants.none L₀ lv₀ 10 :=
  P1R10.reg (adm m) (pdats m hE) (W21 m hE) (W22 m hE) (hp0_10 m hE) (hp1_10 m hE) (fun _ => rfl)
    (hT0_10 m hE) (hT1_10 m hE) (hF_10 m hE) (hrest_10 m hE)
/-- It is entered from the conditional run's contents before it and left at those after it. -/
theorem hpre10 (c : Dev nD) :
    iprop(StableHlo.held (c : Thread nD τ) (Pipeline.ucRefs τ sig) (V21 m (outs m hE) c) ∗ Rr c) ⊢ (R10 m hE).pre c :=
  Entails.of_eq (congrArg (fun W => iprop(StableHlo.held (c : Thread nD τ) (Pipeline.ucRefs τ sig) W ∗ Rr c)) (V21_eq m hE c))
theorem hpost10 (c : Dev nD) :
    (R10 m hE).post c ⊢ iprop(StableHlo.held (c : Thread nD τ) (Pipeline.ucRefs τ sig) (V22 m (outs m hE) c) ∗ Rr c) :=
  Entails.of_eq (congrArg (fun W => iprop(StableHlo.held (c : Thread nD τ) (Pipeline.ucRefs τ sig) W ∗ Rr c)) (V22_eq m hE c).symm)

/-! ### Region 11 -/

include hE in
/-- The tables it finds in the buffers are its admissible ones: the host stretch before it cut them out of the two
    flattened rows, which no region writes. -/
theorem hT0_11 (c : Dev nD) : atTc (W23 m hE) c main_v44 = P1R11.T0 (adm11 m) c := by
  obtain rfl := dev_eq c
  exact ((congrFun (V23_eq m hE c₀) (Proc.devRef .tc main_v44)).symm.trans (Tbl.tbl_11a_eq m (outs m hE) c₀) :)
include hE in
theorem hT1_11 (c : Dev nD) : atTc (W23 m hE) c main_v45 = P1R11.T1 (adm11 m) c := by
  obtain rfl := dev_eq c
  exact ((congrFun (V23_eq m hE c₀) (Proc.devRef .tc main_v45)).symm.trans (Tbl.tbl_11b_eq m (outs m hE) c₀) :)
/-- At its exit each of its arrays holds what the pipeline leaves: the five inputs what they held (none is a result),
    the two accumulators' arrays their last write-back; -/
theorem hF_11 (c : Dev nD) (w : Fin (cfg11 (adm11 m)).W) :
    (d11 m hE c).arrAt w (cfg11 (adm11 m)).N = atTc (W24 m hE) c (Pipeline.arrRef spec11 w) := by
  match w with
  | ⟨0, _⟩ => exact (((d11 m hE c).arrAt_in 0 rfl _).trans (P1R11.A_eq _ _ _ _ c 0)).trans (W24_of m hE c (Pipeline.arrRef spec11 (0 : Fin 7)) (by decide) (by decide) (by decide)).symm
  | ⟨1, _⟩ => exact (((d11 m hE c).arrAt_in 1 rfl _).trans (P1R11.A_eq _ _ _ _ c 1)).trans (W24_of m hE c (Pipeline.arrRef spec11 (1 : Fin 7)) (by decide) (by decide) (by decide)).symm
  | ⟨2, _⟩ => exact (((d11 m hE c).arrAt_in 2 rfl _).trans (P1R11.A_eq _ _ _ _ c 2)).trans (W24_of m hE c (Pipeline.arrRef spec11 (2 : Fin 7)) (by decide) (by decide) (by decide)).symm
  | ⟨3, _⟩ => exact (((d11 m hE c).arrAt_in 3 rfl _).trans (P1R11.A_eq _ _ _ _ c 3)).trans (W24_of m hE c (Pipeline.arrRef spec11 (3 : Fin 7)) (by decide) (by decide) (by decide)).symm
  | ⟨4, _⟩ => exact (((d11 m hE c).arrAt_in 4 rfl _).trans (P1R11.A_eq _ _ _ _ c 4)).trans (W24_of m hE c (Pipeline.arrRef spec11 (4 : Fin 7)) (by decide) (by decide) (by decide)).symm
  | ⟨5, _⟩ => exact (W24_res1 m hE c).symm
  | ⟨6, _⟩ => exact (W24_res2 m hE c).symm
/-- and every buffer that is none of its arrays holds what it held at entry, but the hidden array, which holds what
    the last point left. -/
theorem hrest_11 (c : Dev nD) (b : Ref sig .tc) (hb : b ∉ Finset.univ.image (Pipeline.arrRef spec11)) :
    atTc (W24 m hE) c b = P1R11.Vmid (adm m) (W23 m hE) (hp0_11 m hE) (hp1_11 m hE) c b := by
  have h1 : b ≠ main_v46_1 := fun e => hb (Finset.mem_image.mpr ⟨5, Finset.mem_univ _, e.symm⟩)
  have h2 : b ≠ main_v46_2 := fun e => hb (Finset.mem_image.mpr ⟨6, Finset.mem_univ _, e.symm⟩)
  unfold P1R11.Vmid
  by_cases h0 : b = main_v46_0
  · subst h0; rw [Function.update_self]; exact W24_res0 m hE c
  · rw [Function.update_of_ne h0]; exact W24_of m hE c b h1 h2 h0
/-- The region's segment, entered from the buffers at W23 and left at W24. -/
def R11 : RegionSeg (pcfgs (F := F)) (adm m) (pdats m hE) () defs₀ Variants.none L₀ lv₀ 11 :=
  P1R11.reg (adm m) (pdats m hE) (W23 m hE) (W24 m hE) (hp0_11 m hE) (hp1_11 m hE) (fun _ => rfl)
    (hT0_11 m hE) (hT1_11 m hE) (hF_11 m hE) (hrest_11 m hE)
/-- It is entered from the conditional run's contents before it and left at those after it. -/
theorem hpre11 (c : Dev nD) :
    iprop(StableHlo.held (c : Thread nD τ) (Pipeline.ucRefs τ sig) (V23 m (outs m hE) c) ∗ Rr c) ⊢ (R11 m hE).pre c :=
  Entails.of_eq (congrArg (fun W => iprop(StableHlo.held (c : Thread nD τ) (Pipeline.ucRefs τ sig) W ∗ Rr c)) (V23_eq m hE c))
theorem hpost11 (c : Dev nD) :
    (R11 m hE).post c ⊢ iprop(StableHlo.held (c : Thread nD τ) (Pipeline.ucRefs τ sig) (V24 m (outs m hE) c) ∗ Rr c) :=
  Entails.of_eq (congrArg (fun W => iprop(StableHlo.held (c : Thread nD τ) (Pipeline.ucRefs τ sig) W ∗ Rr c)) (V24_eq m hE c).symm)

/-! ### Region 12 -/

include hE in
/-- The tables it finds in the buffers are its admissible ones: the host stretch before it cut them out of the two
    flattened rows, which no region writes. -/
theorem hT0_12 (c : Dev nD) : atTc (W25 m hE) c main_v47 = P1R12.T0 (adm12 m) c := by
  obtain rfl := dev_eq c
  exact ((congrFun (V25_eq m hE c₀) (Proc.devRef .tc main_v47)).symm.trans (Tbl.tbl_12a_eq m (outs m hE) c₀) :)
include hE in
theorem hT1_12 (c : Dev nD) : atTc (W25 m hE) c main_v48 = P1R12.T1 (adm12 m) c := by
  obtain rfl := dev_eq c
  exact ((congrFun (V25_eq m hE c₀) (Proc.devRef .tc main_v48)).symm.trans (Tbl.tbl_12b_eq m (outs m hE) c₀) :)
/-- At its exit each of its arrays holds what the pipeline leaves: the five inputs what they held (none is a result),
    the two accumulators' arrays their last write-back; -/
theorem hF_12 (c : Dev nD) (w : Fin (cfg12 (adm12 m)).W) :
    (d12 m hE c).arrAt w (cfg12 (adm12 m)).N = atTc (W26 m hE) c (Pipeline.arrRef spec12 w) := by
  match w with
  | ⟨0, _⟩ => exact (((d12 m hE c).arrAt_in 0 rfl _).trans (P1R12.A_eq _ _ _ _ c 0)).trans (W26_of m hE c (Pipeline.arrRef spec12 (0 : Fin 7)) (by decide) (by decide) (by decide)).symm
  | ⟨1, _⟩ => exact (((d12 m hE c).arrAt_in 1 rfl _).trans (P1R12.A_eq _ _ _ _ c 1)).trans (W26_of m hE c (Pipeline.arrRef spec12 (1 : Fin 7)) (by decide) (by decide) (by decide)).symm
  | ⟨2, _⟩ => exact (((d12 m hE c).arrAt_in 2 rfl _).trans (P1R12.A_eq _ _ _ _ c 2)).trans (W26_of m hE c (Pipeline.arrRef spec12 (2 : Fin 7)) (by decide) (by decide) (by decide)).symm
  | ⟨3, _⟩ => exact (((d12 m hE c).arrAt_in 3 rfl _).trans (P1R12.A_eq _ _ _ _ c 3)).trans (W26_of m hE c (Pipeline.arrRef spec12 (3 : Fin 7)) (by decide) (by decide) (by decide)).symm
  | ⟨4, _⟩ => exact (((d12 m hE c).arrAt_in 4 rfl _).trans (P1R12.A_eq _ _ _ _ c 4)).trans (W26_of m hE c (Pipeline.arrRef spec12 (4 : Fin 7)) (by decide) (by decide) (by decide)).symm
  | ⟨5, _⟩ => exact (W26_res1 m hE c).symm
  | ⟨6, _⟩ => exact (W26_res2 m hE c).symm
/-- and every buffer that is none of its arrays holds what it held at entry, but the hidden array, which holds what
    the last point left. -/
theorem hrest_12 (c : Dev nD) (b : Ref sig .tc) (hb : b ∉ Finset.univ.image (Pipeline.arrRef spec12)) :
    atTc (W26 m hE) c b = P1R12.Vmid (adm m) (W25 m hE) (hp0_12 m hE) (hp1_12 m hE) c b := by
  have h1 : b ≠ main_v49_1 := fun e => hb (Finset.mem_image.mpr ⟨5, Finset.mem_univ _, e.symm⟩)
  have h2 : b ≠ main_v49_2 := fun e => hb (Finset.mem_image.mpr ⟨6, Finset.mem_univ _, e.symm⟩)
  unfold P1R12.Vmid
  by_cases h0 : b = main_v49_0
  · subst h0; rw [Function.update_self]; exact W26_res0 m hE c
  · rw [Function.update_of_ne h0]; exact W26_of m hE c b h1 h2 h0
/-- The region's segment, entered from the buffers at W25 and left at W26. -/
def R12 : RegionSeg (pcfgs (F := F)) (adm m) (pdats m hE) () defs₀ Variants.none L₀ lv₀ 12 :=
  P1R12.reg (adm m) (pdats m hE) (W25 m hE) (W26 m hE) (hp0_12 m hE) (hp1_12 m hE) (fun _ => rfl)
    (hT0_12 m hE) (hT1_12 m hE) (hF_12 m hE) (hrest_12 m hE)
/-- It is entered from the conditional run's contents before it and left at those after it. -/
theorem hpre12 (c : Dev nD) :
    iprop(StableHlo.held (c : Thread nD τ) (Pipeline.ucRefs τ sig) (V25 m (outs m hE) c) ∗ Rr c) ⊢ (R12 m hE).pre c :=
  Entails.of_eq (congrArg (fun W => iprop(StableHlo.held (c : Thread nD τ) (Pipeline.ucRefs τ sig) W ∗ Rr c)) (V25_eq m hE c))
theorem hpost12 (c : Dev nD) :
    (R12 m hE).post c ⊢ iprop(StableHlo.held (c : Thread nD τ) (Pipeline.ucRefs τ sig) (V26 m (outs m hE) c) ∗ Rr c) :=
  Entails.of_eq (congrArg (fun W => iprop(StableHlo.held (c : Thread nD τ) (Pipeline.ucRefs τ sig) W ∗ Rr c)) (V26_eq m hE c).symm)

/-! ### Region 13 -/

include hE in
/-- The tables it finds in the buffers are its admissible ones: the host stretch before it cut them out of the two
    flattened rows, which no region writes. -/
theorem hT0_13 (c : Dev nD) : atTc (W27 m hE) c main_v50 = P1R13.T0 (adm13 m) c := by
  obtain rfl := dev_eq c
  exact ((congrFun (V27_eq m hE c₀) (Proc.devRef .tc main_v50)).symm.trans (Tbl.tbl_13a_eq m (outs m hE) c₀) :)
include hE in
theorem hT1_13 (c : Dev nD) : atTc (W27 m hE) c main_v51 = P1R13.T1 (adm13 m) c := by
  obtain rfl := dev_eq c
  exact ((congrFun (V27_eq m hE c₀) (Proc.devRef .tc main_v51)).symm.trans (Tbl.tbl_13b_eq m (outs m hE) c₀) :)
/-- At its exit each of its arrays holds what the pipeline leaves: the five inputs what they held (none is a result),
    the two accumulators' arrays their last write-back; -/
theorem hF_13 (c : Dev nD) (w : Fin (cfg13 (adm13 m)).W) :
    (d13 m hE c).arrAt w (cfg13 (adm13 m)).N = atTc (W28 m hE) c (Pipeline.arrRef spec13 w) := by
  match w with
  | ⟨0, _⟩ => exact (((d13 m hE c).arrAt_in 0 rfl _).trans (P1R13.A_eq _ _ _ _ c 0)).trans (W28_of m hE c (Pipeline.arrRef spec13 (0 : Fin 7)) (by decide) (by decide) (by decide)).symm
  | ⟨1, _⟩ => exact (((d13 m hE c).arrAt_in 1 rfl _).trans (P1R13.A_eq _ _ _ _ c 1)).trans (W28_of m hE c (Pipeline.arrRef spec13 (1 : Fin 7)) (by decide) (by decide) (by decide)).symm
  | ⟨2, _⟩ => exact (((d13 m hE c).arrAt_in 2 rfl _).trans (P1R13.A_eq _ _ _ _ c 2)).trans (W28_of m hE c (Pipeline.arrRef spec13 (2 : Fin 7)) (by decide) (by decide) (by decide)).symm
  | ⟨3, _⟩ => exact (((d13 m hE c).arrAt_in 3 rfl _).trans (P1R13.A_eq _ _ _ _ c 3)).trans (W28_of m hE c (Pipeline.arrRef spec13 (3 : Fin 7)) (by decide) (by decide) (by decide)).symm
  | ⟨4, _⟩ => exact (((d13 m hE c).arrAt_in 4 rfl _).trans (P1R13.A_eq _ _ _ _ c 4)).trans (W28_of m hE c (Pipeline.arrRef spec13 (4 : Fin 7)) (by decide) (by decide) (by decide)).symm
  | ⟨5, _⟩ => exact (W28_res1 m hE c).symm
  | ⟨6, _⟩ => exact (W28_res2 m hE c).symm
/-- and every buffer that is none of its arrays holds what it held at entry, but the hidden array, which holds what
    the last point left. -/
theorem hrest_13 (c : Dev nD) (b : Ref sig .tc) (hb : b ∉ Finset.univ.image (Pipeline.arrRef spec13)) :
    atTc (W28 m hE) c b = P1R13.Vmid (adm m) (W27 m hE) (hp0_13 m hE) (hp1_13 m hE) c b := by
  have h1 : b ≠ main_v52_1 := fun e => hb (Finset.mem_image.mpr ⟨5, Finset.mem_univ _, e.symm⟩)
  have h2 : b ≠ main_v52_2 := fun e => hb (Finset.mem_image.mpr ⟨6, Finset.mem_univ _, e.symm⟩)
  unfold P1R13.Vmid
  by_cases h0 : b = main_v52_0
  · subst h0; rw [Function.update_self]; exact W28_res0 m hE c
  · rw [Function.update_of_ne h0]; exact W28_of m hE c b h1 h2 h0
/-- The region's segment, entered from the buffers at W27 and left at W28. -/
def R13 : RegionSeg (pcfgs (F := F)) (adm m) (pdats m hE) () defs₀ Variants.none L₀ lv₀ 13 :=
  P1R13.reg (adm m) (pdats m hE) (W27 m hE) (W28 m hE) (hp0_13 m hE) (hp1_13 m hE) (fun _ => rfl)
    (hT0_13 m hE) (hT1_13 m hE) (hF_13 m hE) (hrest_13 m hE)
/-- It is entered from the conditional run's contents before it and left at those after it. -/
theorem hpre13 (c : Dev nD) :
    iprop(StableHlo.held (c : Thread nD τ) (Pipeline.ucRefs τ sig) (V27 m (outs m hE) c) ∗ Rr c) ⊢ (R13 m hE).pre c :=
  Entails.of_eq (congrArg (fun W => iprop(StableHlo.held (c : Thread nD τ) (Pipeline.ucRefs τ sig) W ∗ Rr c)) (V27_eq m hE c))
theorem hpost13 (c : Dev nD) :
    (R13 m hE).post c ⊢ iprop(StableHlo.held (c : Thread nD τ) (Pipeline.ucRefs τ sig) (V28 m (outs m hE) c) ∗ Rr c) :=
  Entails.of_eq (congrArg (fun W => iprop(StableHlo.held (c : Thread nD τ) (Pipeline.ucRefs τ sig) W ∗ Rr c)) (V28_eq m hE c).symm)

/-! ### Region 14 -/

include hE in
/-- The tables it finds in the buffers are its admissible ones: the host stretch before it cut them out of the two
    flattened rows, which no region writes. -/
theorem hT0_14 (c : Dev nD) : atTc (W29 m hE) c main_v53 = P1R14.T0 (adm14 m) c := by
  obtain rfl := dev_eq c
  exact ((congrFun (V29_eq m hE c₀) (Proc.devRef .tc main_v53)).symm.trans (Tbl.tbl_14a_eq m (outs m hE) c₀) :)
include hE in
theorem hT1_14 (c : Dev nD) : atTc (W29 m hE) c main_v54 = P1R14.T1 (adm14 m) c := by
  obtain rfl := dev_eq c
  exact ((congrFun (V29_eq m hE c₀) (Proc.devRef .tc main_v54)).symm.trans (Tbl.tbl_14b_eq m (outs m hE) c₀) :)
/-- At its exit each of its arrays holds what the pipeline leaves: the five inputs what they held (none is a result),
    the two accumulators' arrays their last write-back; -/
theorem hF_14 (c : Dev nD) (w : Fin (cfg14 (adm14 m)).W) :
    (d14 m hE c).arrAt w (cfg14 (adm14 m)).N = atTc (W30 m hE) c (Pipeline.arrRef spec14 w) := by
  match w with
  | ⟨0, _⟩ => exact (((d14 m hE c).arrAt_in 0 rfl _).trans (P1R14.A_eq _ _ _ _ c 0)).trans (W30_of m hE c (Pipeline.arrRef spec14 (0 : Fin 7)) (by decide) (by decide) (by decide)).symm
  | ⟨1, _⟩ => exact (((d14 m hE c).arrAt_in 1 rfl _).trans (P1R14.A_eq _ _ _ _ c 1)).trans (W30_of m hE c (Pipeline.arrRef spec14 (1 : Fin 7)) (by decide) (by decide) (by decide)).symm
  | ⟨2, _⟩ => exact (((d14 m hE c).arrAt_in 2 rfl _).trans (P1R14.A_eq _ _ _ _ c 2)).trans (W30_of m hE c (Pipeline.arrRef spec14 (2 : Fin 7)) (by decide) (by decide) (by decide)).symm
  | ⟨3, _⟩ => exact (((d14 m hE c).arrAt_in 3 rfl _).trans (P1R14.A_eq _ _ _ _ c 3)).trans (W30_of m hE c (Pipeline.arrRef spec14 (3 : Fin 7)) (by decide) (by decide) (by decide)).symm
  | ⟨4, _⟩ => exact (((d14 m hE c).arrAt_in 4 rfl _).trans (P1R14.A_eq _ _ _ _ c 4)).trans (W30_of m hE c (Pipeline.arrRef spec14 (4 : Fin 7)) (by decide) (by decide) (by decide)).symm
  | ⟨5, _⟩ => exact (W30_res1 m hE c).symm
  | ⟨6, _⟩ => exact (W30_res2 m hE c).symm
/-- and every buffer that is none of its arrays holds what it held at entry, but the hidden array, which holds what
    the last point left. -/
theorem hrest_14 (c : Dev nD) (b : Ref sig .tc) (hb : b ∉ Finset.univ.image (Pipeline.arrRef spec14)) :
    atTc (W30 m hE) c b = P1R14.Vmid (adm m) (W29 m hE) (hp0_14 m hE) (hp1_14 m hE) c b := by
  have h1 : b ≠ main_v55_1 := fun e => hb (Finset.mem_image.mpr ⟨5, Finset.mem_univ _, e.symm⟩)
  have h2 : b ≠ main_v55_2 := fun e => hb (Finset.mem_image.mpr ⟨6, Finset.mem_univ _, e.symm⟩)
  unfold P1R14.Vmid
  by_cases h0 : b = main_v55_0
  · subst h0; rw [Function.update_self]; exact W30_res0 m hE c
  · rw [Function.update_of_ne h0]; exact W30_of m hE c b h1 h2 h0
/-- The region's segment, entered from the buffers at W29 and left at W30. -/
def R14 : RegionSeg (pcfgs (F := F)) (adm m) (pdats m hE) () defs₀ Variants.none L₀ lv₀ 14 :=
  P1R14.reg (adm m) (pdats m hE) (W29 m hE) (W30 m hE) (hp0_14 m hE) (hp1_14 m hE) (fun _ => rfl)
    (hT0_14 m hE) (hT1_14 m hE) (hF_14 m hE) (hrest_14 m hE)
/-- It is entered from the conditional run's contents before it and left at those after it. -/
theorem hpre14 (c : Dev nD) :
    iprop(StableHlo.held (c : Thread nD τ) (Pipeline.ucRefs τ sig) (V29 m (outs m hE) c) ∗ Rr c) ⊢ (R14 m hE).pre c :=
  Entails.of_eq (congrArg (fun W => iprop(StableHlo.held (c : Thread nD τ) (Pipeline.ucRefs τ sig) W ∗ Rr c)) (V29_eq m hE c))
theorem hpost14 (c : Dev nD) :
    (R14 m hE).post c ⊢ iprop(StableHlo.held (c : Thread nD τ) (Pipeline.ucRefs τ sig) (V30 m (outs m hE) c) ∗ Rr c) :=
  Entails.of_eq (congrArg (fun W => iprop(StableHlo.held (c : Thread nD τ) (Pipeline.ucRefs τ sig) W ∗ Rr c)) (V30_eq m hE c).symm)

/-! ### Region 15 -/

include hE in
/-- The tables it finds in the buffers are its admissible ones: the host stretch before it cut them out of the two
    flattened rows, which no region writes. -/
theorem hT0_15 (c : Dev nD) : atTc (W31 m hE) c main_v56 = P1R15.T0 (adm15 m) c := by
  obtain rfl := dev_eq c
  exact ((congrFun (V31_eq m hE c₀) (Proc.devRef .tc main_v56)).symm.trans (Tbl.tbl_15a_eq m (outs m hE) c₀) :)
include hE in
theorem hT1_15 (c : Dev nD) : atTc (W31 m hE) c main_v57 = P1R15.T1 (adm15 m) c := by
  obtain rfl := dev_eq c
  exact ((congrFun (V31_eq m hE c₀) (Proc.devRef .tc main_v57)).symm.trans (Tbl.tbl_15b_eq m (outs m hE) c₀) :)
/-- At its exit each of its arrays holds what the pipeline leaves: the five inputs what they held (none is a result),
    the two accumulators' arrays their last write-back; -/
theorem hF_15 (c : Dev nD) (w : Fin (cfg15 (adm15 m)).W) :
    (d15 m hE c).arrAt w (cfg15 (adm15 m)).N = atTc (W32 m hE) c (Pipeline.arrRef spec15 w) := by
  match w with
  | ⟨0, _⟩ => exact (((d15 m hE c).arrAt_in 0 rfl _).trans (P1R15.A_eq _ _ _ _ c 0)).trans (W32_of m hE c (Pipeline.arrRef spec15 (0 : Fin 7)) (by decide) (by decide) (by decide)).symm
  | ⟨1, _⟩ => exact (((d15 m hE c).arrAt_in 1 rfl _).trans (P1R15.A_eq _ _ _ _ c 1)).trans (W32_of m hE c (Pipeline.arrRef spec15 (1 : Fin 7)) (by decide) (by decide) (by decide)).symm
  | ⟨2, _⟩ => exact (((d15 m hE c).arrAt_in 2 rfl _).trans (P1R15.A_eq _ _ _ _ c 2)).trans (W32_of m hE c (Pipeline.arrRef spec15 (2 : Fin 7)) (by decide) (by decide) (by decide)).symm
  | ⟨3, _⟩ => exact (((d15 m hE c).arrAt_in 3 rfl _).trans (P1R15.A_eq _ _ _ _ c 3)).trans (W32_of m hE c (Pipeline.arrRef spec15 (3 : Fin 7)) (by decide) (by decide) (by decide)).symm
  | ⟨4, _⟩ => exact (((d15 m hE c).arrAt_in 4 rfl _).trans (P1R15.A_eq _ _ _ _ c 4)).trans (W32_of m hE c (Pipeline.arrRef spec15 (4 : Fin 7)) (by decide) (by decide) (by decide)).symm
  | ⟨5, _⟩ => exact (W32_res1 m hE c).symm
  | ⟨6, _⟩ => exact (W32_res2 m hE c).symm
/-- and every buffer that is none of its arrays holds what it held at entry, but the hidden array, which holds what
    the last point left. -/
theorem hrest_15 (c : Dev nD) (b : Ref sig .tc) (hb : b ∉ Finset.univ.image (Pipeline.arrRef spec15)) :
    atTc (W32 m hE) c b = P1R15.Vmid (adm m) (W31 m hE) (hp0_15 m hE) (hp1_15 m hE) c b := by
  have h1 : b ≠ main_v58_1 := fun e => hb (Finset.mem_image.mpr ⟨5, Finset.mem_univ _, e.symm⟩)
  have h2 : b ≠ main_v58_2 := fun e => hb (Finset.mem_image.mpr ⟨6, Finset.mem_univ _, e.symm⟩)
  unfold P1R15.Vmid
  by_cases h0 : b = main_v58_0
  · subst h0; rw [Function.update_self]; exact W32_res0 m hE c
  · rw [Function.update_of_ne h0]; exact W32_of m hE c b h1 h2 h0
/-- The region's segment, entered from the buffers at W31 and left at W32. -/
def R15 : RegionSeg (pcfgs (F := F)) (adm m) (pdats m hE) () defs₀ Variants.none L₀ lv₀ 15 :=
  P1R15.reg (adm m) (pdats m hE) (W31 m hE) (W32 m hE) (hp0_15 m hE) (hp1_15 m hE) (fun _ => rfl)
    (hT0_15 m hE) (hT1_15 m hE) (hF_15 m hE) (hrest_15 m hE)
/-- It is entered from the conditional run's contents before it and left at those after it. -/
theorem hpre15 (c : Dev nD) :
    iprop(StableHlo.held (c : Thread nD τ) (Pipeline.ucRefs τ sig) (V31 m (outs m hE) c) ∗ Rr c) ⊢ (R15 m hE).pre c :=
  Entails.of_eq (congrArg (fun W => iprop(StableHlo.held (c : Thread nD τ) (Pipeline.ucRefs τ sig) W ∗ Rr c)) (V31_eq m hE c))
theorem hpost15 (c : Dev nD) :
    (R15 m hE).post c ⊢ iprop(StableHlo.held (c : Thread nD τ) (Pipeline.ucRefs τ sig) (V32 m (outs m hE) c) ∗ Rr c) :=
  Entails.of_eq (congrArg (fun W => iprop(StableHlo.held (c : Thread nD τ) (Pipeline.ucRefs τ sig) W ∗ Rr c)) (V32_eq m hE c).symm)

/-! ### Region 16: the normalising pass -/

/-- Off the result array the region changes nothing. -/
theorem W34_of (c : Dev nD) (r : Ref sig .tc) (h : r ≠ main_v104) : W34 m hE c (Proc.devRef .tc r) = W33 m hE c (Proc.devRef .tc r) :=
  (congrFun (W34_def m hE c) _).trans (Function.update_of_ne (StableHlo.devRef_ne_of_ne h) ..)
/-- At the result array it holds the write-backs. -/
theorem W34_res (c : Dev nD) : W34 m hE c (Proc.devRef .tc main_v104) = (dat16 (atTc (W33 m hE)) c).arrAt 7 cfg16.N :=
  (congrFun (W34_def m hE c) _).trans (Function.update_self ..)
/-- An input window's array is not written: at the exit it holds what it held, and it is not the result array. -/
theorem hF16_in (c : Dev nD) (w : Fin 8) (hin : (cfg16.win w).isOut = false) (hne : Pipeline.arrRef spec16 w ≠ main_v104) :
    (dat16 (atTc (W33 m hE)) c).arrAt w cfg16.N = W34 m hE c (Proc.devRef .tc (Pipeline.arrRef spec16 w)) :=
  (((dat16 (atTc (W33 m hE)) c).arrAt_in w hin cfg16.N).trans (A_eq16 (atTc (W33 m hE)) c w)).trans (W34_of m hE c (Pipeline.arrRef spec16 w) hne).symm
/-- At the region's exit each of its arrays holds what the pipeline leaves: the seven inputs what they held (none is
    the result array), the result array its write-backs; -/
theorem hF16 (c : Dev nD) (w : Fin cfg16.W) :
    (dat16 (atTc (W33 m hE)) c).arrAt w cfg16.N = W34 m hE c (Proc.devRef .tc (Pipeline.arrRef spec16 w)) :=
  match w with
  | ⟨0, _⟩ => hF16_in m hE c (0 : Fin 8) rfl (by decide)
  | ⟨1, _⟩ => hF16_in m hE c (1 : Fin 8) rfl (by decide)
  | ⟨2, _⟩ => hF16_in m hE c (2 : Fin 8) rfl (by decide)
  | ⟨3, _⟩ => hF16_in m hE c (3 : Fin 8) rfl (by decide)
  | ⟨4, _⟩ => hF16_in m hE c (4 : Fin 8) rfl (by decide)
  | ⟨5, _⟩ => hF16_in m hE c (5 : Fin 8) rfl (by decide)
  | ⟨6, _⟩ => hF16_in m hE c (6 : Fin 8) rfl (by decide)
  | ⟨7, _⟩ => (W34_res m hE c).symm

/-- and every buffer that is none of its arrays holds what it held at entry. -/
theorem hrest16 (c : Dev nD) (b : Ref sig .tc) (hb : b ∉ Finset.univ.image (Pipeline.arrRef spec16)) :
    W34 m hE c (Proc.devRef .tc b) = W33 m hE c (Proc.devRef .tc b) :=
  W34_of m hE c b fun e => hb (Finset.mem_image.mpr ⟨7, Finset.mem_univ _, e.symm⟩)

/-- The last region's segment, entered from the buffers at W33 and left at W34. -/
def R16 : RegionSeg (pcfgs (F := F)) (adm m) (pdats m hE) () defs₀ Variants.none L₀ lv₀ 16 :=
  reg16 (adm m) (pdats m hE) (W33 m hE) (W34 m hE) (fun _ => rfl) (hF16 m hE) (hrest16 m hE)

theorem hpre16 (c : Dev nD) :
    iprop(StableHlo.held (c : Thread nD τ) (Pipeline.ucRefs τ sig) (V33 m (outs m hE) c) ∗ Rr c) ⊢ (R16 m hE).pre c :=
  Entails.of_eq (congrArg (fun W => iprop(StableHlo.held (c : Thread nD τ) (Pipeline.ucRefs τ sig) W ∗ Rr c)) (V33_eq m hE c))
theorem hpost16 (c : Dev nD) :
    (R16 m hE).post c ⊢ iprop(StableHlo.held (c : Thread nD τ) (Pipeline.ucRefs τ sig) (V34 m (outs m hE) c) ∗ Rr c) :=
  Entails.of_eq (congrArg (fun W => iprop(StableHlo.held (c : Thread nD τ) (Pipeline.ucRefs τ sig) W ∗ Rr c)) (V34_eq m hE c).symm)

end Cert.KernelIdeal.Glue

end
-- ==== Proof.GlueTop.lean ====
/- (the 17 regions' records listed in order) -/
/-
  The run of the program, unconditionally: every weakly fair execution from a memory whose edge endpoints are below
  100000 terminates, every argument array ends as launched, and the result buffer ends holding the last contents of
  the chain — the conditional run at the tables, unknowns, proof data and segments chosen region by region.
-/
import proofs.«400866_j57071525429608_2_alg».proof.Proof.Glue

set_option maxRecDepth 16384

noncomputable section

namespace Cert.KernelIdeal.Glue

open Cert.KernelIdeal Cert.KernelIdeal.Gen Cert.KernelIdeal.Asm
open Idealize.ShloMosaic Idealize.ShloMosaic.TcCoe
open Idealize.SL Idealize.SL.Sem

variable {F : FTy → Type} [FloatOps F]

/-- The run terminates and every argument array ends holding what it held at launch. -/
theorem frame (m : (ℓ : Loc nD τ sig) → Buf (Elt F) ℓ) (ρ : Dev nD → PrngReg)
    (hE : ∀ (c : Dev nD) (idx : S2x1000000.Idx), ((V0 m c main_arg1 : IVec S2x1000000 32) idx).toNat < 100000) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of_regs m ρ (outs m hE) (adm m) (pdats m hE)
    (R0 m hE) (hpre0 m hE) (hpost0 m hE)
    (R1 m hE) (hpre1 m hE) (hpost1 m hE)
    (R2 m hE) (hpre2 m hE) (hpost2 m hE)
    (R3 m hE) (hpre3 m hE) (hpost3 m hE)
    (R4 m hE) (hpre4 m hE) (hpost4 m hE)
    (R5 m hE) (hpre5 m hE) (hpost5 m hE)
    (R6 m hE) (hpre6 m hE) (hpost6 m hE)
    (R7 m hE) (hpre7 m hE) (hpost7 m hE)
    (R8 m hE) (hpre8 m hE) (hpost8 m hE)
    (R9 m hE) (hpre9 m hE) (hpost9 m hE)
    (R10 m hE) (hpre10 m hE) (hpost10 m hE)
    (R11 m hE) (hpre11 m hE) (hpost11 m hE)
    (R12 m hE) (hpre12 m hE) (hpost12 m hE)
    (R13 m hE) (hpre13 m hE) (hpost13 m hE)
    (R14 m hE) (hpre14 m hE) (hpost14 m hE)
    (R15 m hE) (hpre15 m hE) (hpost15 m hE)
    (R16 m hE) (hpre16 m hE) (hpost16 m hE)

/-- Moreover the result buffer ends holding the last contents of the chain. -/
theorem run (m : (ℓ : Loc nD τ sig) → Buf (Elt F) ℓ) (ρ : Dev nD → PrngReg)
    (hE : ∀ (c : Dev nD) (idx : S2x1000000.Idx), ((V0 m c main_arg1 : IVec S2x1000000 32) idx).toNat < 100000) :
    θ_run defs (onTc (τ := τ) (main (F := F))) ⟨m, fun _ => 0, ρ⟩ (fun r => ∀ c : Dev nD,
      r.2.mem ((c.tc : Thread nD τ).loc main_v105) = V35 m (outs m hE) c main_v105
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_of_regs m ρ (outs m hE) (adm m) (pdats m hE)
    (R0 m hE) (hpre0 m hE) (hpost0 m hE)
    (R1 m hE) (hpre1 m hE) (hpost1 m hE)
    (R2 m hE) (hpre2 m hE) (hpost2 m hE)
    (R3 m hE) (hpre3 m hE) (hpost3 m hE)
    (R4 m hE) (hpre4 m hE) (hpost4 m hE)
    (R5 m hE) (hpre5 m hE) (hpost5 m hE)
    (R6 m hE) (hpre6 m hE) (hpost6 m hE)
    (R7 m hE) (hpre7 m hE) (hpost7 m hE)
    (R8 m hE) (hpre8 m hE) (hpost8 m hE)
    (R9 m hE) (hpre9 m hE) (hpost9 m hE)
    (R10 m hE) (hpre10 m hE) (hpost10 m hE)
    (R11 m hE) (hpre11 m hE) (hpost11 m hE)
    (R12 m hE) (hpre12 m hE) (hpost12 m hE)
    (R13 m hE) (hpre13 m hE) (hpost13 m hE)
    (R14 m hE) (hpre14 m hE) (hpost14 m hE)
    (R15 m hE) (hpre15 m hE) (hpost15 m hE)
    (R16 m hE) (hpre16 m hE) (hpost16 m hE)

end Cert.KernelIdeal.Glue

end
-- ==== Proof.HostTail.lean ====
/- The kernel program's host operations, read at an index over what the regions leave.

   Between its kernel regions the program runs host operations on the buffers; the valuations `Gen.V0 … Gen.V35` fold them:
   a region's step writes the unknowns `outs` at its results, a host stretch's step applies its operations. Here the two
   last stretches are opened. The stretch before the last region lays the sixteen regions' row arrays end to end, adds up
   their sixteen column sums and their sixteen column sums of squares (each given a leading unit axis, stacked, summed
   along the stack from zero), and forms mean = sum / n and variance = max(sum of squares / n − mean², 0) with n the
   element count as a float word; the stretch after it drops the result's trailing unit axis. The module gives, over the
   unknowns: what each region's result holds when the stretch reads it, the rows operand at an index, the mean
   and variance operands as terms of the operations and, at the extended reals, at an index, and the program's result
   at an index. The long stretch is cut in four so that no step opens more than nineteen operations. -/
import proofs.«400866_j57071525429608_2_alg».proof.Proof.KernelIdealRegions
import Idealize.ShloMosaic.Lib.StableHlo.Run
import Idealize.ShloMosaic.Lib.ValueIdx
import Idealize.ShloMosaic.Lib.IdealHost
import Idealize.ShloMosaic.Lib.Pipeline.Value
import Idealize.ShloMosaic.PureOps.Ideal.Laws

-- decided memberships among the program's references recurse past the default depth
set_option maxRecDepth 1804

noncomputable section

namespace Cert.KernelIdeal.Tail

open Idealize.ShloMosaic Idealize.ShloMosaic.TcCoe Idealize.ShloMosaic.ValueIdx
open Cert.KernelIdeal.Gen

variable {F : FTy → Type} [FloatOps F]

section Generic

variable (m : (ℓ : Loc nD τ sig) → Buf (Elt F) ℓ) (outs : Outs (F := F)) (c : Dev nD)

/-! ## What the regions leave, read at the last-but-one host stretch

Region `K` (`K = 0 … 15`) leaves three results: its rows `main_v(13+3K)_0`, its column sums `…_1` and its column sums of
squares `…_2`; the valuation after it, `V(2K+2)`, holds the unknowns `outs (2K+2) · c` there. No later item up to the stretch
that reads them (`hostOps16`, between `V32` and `V33`) writes them, nor does that stretch. -/

/-- Three nested updates at three distinct references, read at the innermost one. -/
theorem upd3_at1 (V : Valuation τ sig (Elt F)) {a b d : Ref sig .tc} (hab : a ≠ b) (had : a ≠ d)
    (xa : (Proc.devRef (τ := τ) .tc a).ty.Contents (Elt F)) (xb : (Proc.devRef (τ := τ) .tc b).ty.Contents (Elt F))
    (xd : (Proc.devRef (τ := τ) .tc d).ty.Contents (Elt F)) :
    Function.update (Function.update (Function.update V (Proc.devRef .tc a) xa) (Proc.devRef .tc b) xb) (Proc.devRef .tc d) xd (Proc.devRef .tc a) = xa := by
  rw [Function.update_of_ne (StableHlo.devRef_ne_of_ne had), Function.update_of_ne (StableHlo.devRef_ne_of_ne hab), Function.update_self]
/-- … at the middle one. -/
theorem upd3_at2 (V : Valuation τ sig (Elt F)) {a b d : Ref sig .tc} (hbd : b ≠ d)
    (xa : (Proc.devRef (τ := τ) .tc a).ty.Contents (Elt F)) (xb : (Proc.devRef (τ := τ) .tc b).ty.Contents (Elt F))
    (xd : (Proc.devRef (τ := τ) .tc d).ty.Contents (Elt F)) :
    Function.update (Function.update (Function.update V (Proc.devRef .tc a) xa) (Proc.devRef .tc b) xb) (Proc.devRef .tc d) xd (Proc.devRef .tc b) = xb := by
  rw [Function.update_of_ne (StableHlo.devRef_ne_of_ne hbd), Function.update_self]
/-- … at the outermost one. -/
theorem upd3_at3 (V : Valuation τ sig (Elt F)) {a b d : Ref sig .tc}
    (xa : (Proc.devRef (τ := τ) .tc a).ty.Contents (Elt F)) (xb : (Proc.devRef (τ := τ) .tc b).ty.Contents (Elt F))
    (xd : (Proc.devRef (τ := τ) .tc d).ty.Contents (Elt F)) :
    Function.update (Function.update (Function.update V (Proc.devRef .tc a) xa) (Proc.devRef .tc b) xb) (Proc.devRef .tc d) xd (Proc.devRef .tc d) = xd :=
  Function.update_self ..

/-! ### The references written between `V(2K+2)` and `V32` -/

abbrev wr30 : List (Ref sig .tc) := hostOps15_W ++ [main_v58_1, main_v58_2, main_v58_0]
abbrev wr28 : List (Ref sig .tc) := hostOps14_W ++ ([main_v55_1, main_v55_2, main_v55_0] ++ wr30)
abbrev wr26 : List (Ref sig .tc) := hostOps13_W ++ ([main_v52_1, main_v52_2, main_v52_0] ++ wr28)
abbrev wr24 : List (Ref sig .tc) := hostOps12_W ++ ([main_v49_1, main_v49_2, main_v49_0] ++ wr26)
abbrev wr22 : List (Ref sig .tc) := hostOps11_W ++ ([main_v46_1, main_v46_2, main_v46_0] ++ wr24)
abbrev wr20 : List (Ref sig .tc) := hostOps10_W ++ ([main_v43_1, main_v43_2, main_v43_0] ++ wr22)
abbrev wr18 : List (Ref sig .tc) := hostOps9_W ++ ([main_v40_1, main_v40_2, main_v40_0] ++ wr20)
abbrev wr16 : List (Ref sig .tc) := hostOps8_W ++ ([main_v37_1, main_v37_2, main_v37_0] ++ wr18)
abbrev wr14 : List (Ref sig .tc) := hostOps7_W ++ ([main_v34_1, main_v34_2, main_v34_0] ++ wr16)
abbrev wr12 : List (Ref sig .tc) := hostOps6_W ++ ([main_v31_1, main_v31_2, main_v31_0] ++ wr14)
abbrev wr10 : List (Ref sig .tc) := hostOps5_W ++ ([main_v28_1, main_v28_2, main_v28_0] ++ wr12)
abbrev wr8 : List (Ref sig .tc) := hostOps4_W ++ ([main_v25_1, main_v25_2, main_v25_0] ++ wr10)
abbrev wr6 : List (Ref sig .tc) := hostOps3_W ++ ([main_v22_1, main_v22_2, main_v22_0] ++ wr8)
abbrev wr4 : List (Ref sig .tc) := hostOps2_W ++ ([main_v19_1, main_v19_2, main_v19_0] ++ wr6)
abbrev wr2 : List (Ref sig .tc) := hostOps1_W ++ ([main_v16_1, main_v16_2, main_v16_0] ++ wr4)

/-! ### `V32` agrees with `V(2K+2)` off those references -/

theorem V32_eq_V30 (r : Ref sig .tc) (h : r ∉ wr30) : V32 m outs c r = V30 m outs c r :=
  (V32_of m outs c r fun hm => h (List.mem_append_right _ hm)).trans (V31_of m outs c r fun hm => h (List.mem_append_left _ hm))
theorem V32_eq_V28 (r : Ref sig .tc) (h : r ∉ wr28) : V32 m outs c r = V28 m outs c r :=
  (V32_eq_V30 m outs c r fun hm => h (List.mem_append_right _ (List.mem_append_right _ hm))).trans
    ((V30_of m outs c r fun hm => h (List.mem_append_right _ (List.mem_append_left _ hm))).trans
      (V29_of m outs c r fun hm => h (List.mem_append_left _ hm)))
theorem V32_eq_V26 (r : Ref sig .tc) (h : r ∉ wr26) : V32 m outs c r = V26 m outs c r :=
  (V32_eq_V28 m outs c r fun hm => h (List.mem_append_right _ (List.mem_append_right _ hm))).trans
    ((V28_of m outs c r fun hm => h (List.mem_append_right _ (List.mem_append_left _ hm))).trans
      (V27_of m outs c r fun hm => h (List.mem_append_left _ hm)))
theorem V32_eq_V24 (r : Ref sig .tc) (h : r ∉ wr24) : V32 m outs c r = V24 m outs c r :=
  (V32_eq_V26 m outs c r fun hm => h (List.mem_append_right _ (List.mem_append_right _ hm))).trans
    ((V26_of m outs c r fun hm => h (List.mem_append_right _ (List.mem_append_left _ hm))).trans
      (V25_of m outs c r fun hm => h (List.mem_append_left _ hm)))
theorem V32_eq_V22 (r : Ref sig .tc) (h : r ∉ wr22) : V32 m outs c r = V22 m outs c r :=
  (V32_eq_V24 m outs c r fun hm => h (List.mem_append_right _ (List.mem_append_right _ hm))).trans
    ((V24_of m outs c r fun hm => h (List.mem_append_right _ (List.mem_append_left _ hm))).trans
      (V23_of m outs c r fun hm => h (List.mem_append_left _ hm)))
theorem V32_eq_V20 (r : Ref sig .tc) (h : r ∉ wr20) : V32 m outs c r = V20 m outs c r :=
  (V32_eq_V22 m outs c r fun hm => h (List.mem_append_right _ (List.mem_append_right _ hm))).trans
    ((V22_of m outs c r fun hm => h (List.mem_append_right _ (List.mem_append_left _ hm))).trans
      (V21_of m outs c r fun hm => h (List.mem_append_left _ hm)))
theorem V32_eq_V18 (r : Ref sig .tc) (h : r ∉ wr18) : V32 m outs c r = V18 m outs c r :=
  (V32_eq_V20 m outs c r fun hm => h (List.mem_append_right _ (List.mem_append_right _ hm))).trans
    ((V20_of m outs c r fun hm => h (List.mem_append_right _ (List.mem_append_left _ hm))).trans
      (V19_of m outs c r fun hm => h (List.mem_append_left _ hm)))
theorem V32_eq_V16 (r : Ref sig .tc) (h : r ∉ wr16) : V32 m outs c r = V16 m outs c r :=
  (V32_eq_V18 m outs c r fun hm => h (List.mem_append_right _ (List.mem_append_right _ hm))).trans
    ((V18_of m outs c r fun hm => h (List.mem_append_right _ (List.mem_append_left _ hm))).trans
      (V17_of m outs c r fun hm => h (List.mem_append_left _ hm)))
theorem V32_eq_V14 (r : Ref sig .tc) (h : r ∉ wr14) : V32 m outs c r = V14 m outs c r :=
  (V32_eq_V16 m outs c r fun hm => h (List.mem_append_right _ (List.mem_append_right _ hm))).trans
    ((V16_of m outs c r fun hm => h (List.mem_append_right _ (List.mem_append_left _ hm))).trans
      (V15_of m outs c r fun hm => h (List.mem_append_left _ hm)))
theorem V32_eq_V12 (r : Ref sig .tc) (h : r ∉ wr12) : V32 m outs c r = V12 m outs c r :=
  (V32_eq_V14 m outs c r fun hm => h (List.mem_append_right _ (List.mem_append_right _ hm))).trans
    ((V14_of m outs c r fun hm => h (List.mem_append_right _ (List.mem_append_left _ hm))).trans
      (V13_of m outs c r fun hm => h (List.mem_append_left _ hm)))
theorem V32_eq_V10 (r : Ref sig .tc) (h : r ∉ wr10) : V32 m outs c r = V10 m outs c r :=
  (V32_eq_V12 m outs c r fun hm => h (List.mem_append_right _ (List.mem_append_right _ hm))).trans
    ((V12_of m outs c r fun hm => h (List.mem_append_right _ (List.mem_append_left _ hm))).trans
      (V11_of m outs c r fun hm => h (List.mem_append_left _ hm)))
theorem V32_eq_V8 (r : Ref sig .tc) (h : r ∉ wr8) : V32 m outs c r = V8 m outs c r :=
  (V32_eq_V10 m outs c r fun hm => h (List.mem_append_right _ (List.mem_append_right _ hm))).trans
    ((V10_of m outs c r fun hm => h (List.mem_append_right _ (List.mem_append_left _ hm))).trans
      (V9_of m outs c r fun hm => h (List.mem_append_left _ hm)))
theorem V32_eq_V6 (r : Ref sig .tc) (h : r ∉ wr6) : V32 m outs c r = V6 m outs c r :=
  (V32_eq_V8 m outs c r fun hm => h (List.mem_append_right _ (List.mem_append_right _ hm))).trans
    ((V8_of m outs c r fun hm => h (List.mem_append_right _ (List.mem_append_left _ hm))).trans
      (V7_of m outs c r fun hm => h (List.mem_append_left _ hm)))
theorem V32_eq_V4 (r : Ref sig .tc) (h : r ∉ wr4) : V32 m outs c r = V4 m outs c r :=
  (V32_eq_V6 m outs c r fun hm => h (List.mem_append_right _ (List.mem_append_right _ hm))).trans
    ((V6_of m outs c r fun hm => h (List.mem_append_right _ (List.mem_append_left _ hm))).trans
      (V5_of m outs c r fun hm => h (List.mem_append_left _ hm)))
theorem V32_eq_V2 (r : Ref sig .tc) (h : r ∉ wr2) : V32 m outs c r = V2 m outs c r :=
  (V32_eq_V4 m outs c r fun hm => h (List.mem_append_right _ (List.mem_append_right _ hm))).trans
    ((V4_of m outs c r fun hm => h (List.mem_append_right _ (List.mem_append_left _ hm))).trans
      (V3_of m outs c r fun hm => h (List.mem_append_left _ hm)))

/-! ### The regions' results at `V32` -/

theorem V32_v13_1 : V32 m outs c main_v13_1 = outs 2 main_v13_1 c :=
  (V32_eq_V2 m outs c main_v13_1 (by decide)).trans (upd3_at1 _ (by decide) (by decide) _ _ _)
theorem V32_v13_2 : V32 m outs c main_v13_2 = outs 2 main_v13_2 c :=
  (V32_eq_V2 m outs c main_v13_2 (by decide)).trans (upd3_at2 _ (by decide) _ _ _)
theorem V32_v13_0 : V32 m outs c main_v13_0 = outs 2 main_v13_0 c :=
  (V32_eq_V2 m outs c main_v13_0 (by decide)).trans (upd3_at3 _ _ _ _)
theorem V32_v16_1 : V32 m outs c main_v16_1 = outs 4 main_v16_1 c :=
  (V32_eq_V4 m outs c main_v16_1 (by decide)).trans (upd3_at1 _ (by decide) (by decide) _ _ _)
theorem V32_v16_2 : V32 m outs c main_v16_2 = outs 4 main_v16_2 c :=
  (V32_eq_V4 m outs c main_v16_2 (by decide)).trans (upd3_at2 _ (by decide) _ _ _)
theorem V32_v16_0 : V32 m outs c main_v16_0 = outs 4 main_v16_0 c :=
  (V32_eq_V4 m outs c main_v16_0 (by decide)).trans (upd3_at3 _ _ _ _)
theorem V32_v19_1 : V32 m outs c main_v19_1 = outs 6 main_v19_1 c :=
  (V32_eq_V6 m outs c main_v19_1 (by decide)).trans (upd3_at1 _ (by decide) (by decide) _ _ _)
theorem V32_v19_2 : V32 m outs c main_v19_2 = outs 6 main_v19_2 c :=
  (V32_eq_V6 m outs c main_v19_2 (by decide)).trans (upd3_at2 _ (by decide) _ _ _)
theorem V32_v19_0 : V32 m outs c main_v19_0 = outs 6 main_v19_0 c :=
  (V32_eq_V6 m outs c main_v19_0 (by decide)).trans (upd3_at3 _ _ _ _)
theorem V32_v22_1 : V32 m outs c main_v22_1 = outs 8 main_v22_1 c :=
  (V32_eq_V8 m outs c main_v22_1 (by decide)).trans (upd3_at1 _ (by decide) (by decide) _ _ _)
theorem V32_v22_2 : V32 m outs c main_v22_2 = outs 8 main_v22_2 c :=
  (V32_eq_V8 m outs c main_v22_2 (by decide)).trans (upd3_at2 _ (by decide) _ _ _)
theorem V32_v22_0 : V32 m outs c main_v22_0 = outs 8 main_v22_0 c :=
  (V32_eq_V8 m outs c main_v22_0 (by decide)).trans (upd3_at3 _ _ _ _)
theorem V32_v25_1 : V32 m outs c main_v25_1 = outs 10 main_v25_1 c :=
  (V32_eq_V10 m outs c main_v25_1 (by decide)).trans (upd3_at1 _ (by decide) (by decide) _ _ _)
theorem V32_v25_2 : V32 m outs c main_v25_2 = outs 10 main_v25_2 c :=
  (V32_eq_V10 m outs c main_v25_2 (by decide)).trans (upd3_at2 _ (by decide) _ _ _)
theorem V32_v25_0 : V32 m outs c main_v25_0 = outs 10 main_v25_0 c :=
  (V32_eq_V10 m outs c main_v25_0 (by decide)).trans (upd3_at3 _ _ _ _)
theorem V32_v28_1 : V32 m outs c main_v28_1 = outs 12 main_v28_1 c :=
  (V32_eq_V12 m outs c main_v28_1 (by decide)).trans (upd3_at1 _ (by decide) (by decide) _ _ _)
theorem V32_v28_2 : V32 m outs c main_v28_2 = outs 12 main_v28_2 c :=
  (V32_eq_V12 m outs c main_v28_2 (by decide)).trans (upd3_at2 _ (by decide) _ _ _)
theorem V32_v28_0 : V32 m outs c main_v28_0 = outs 12 main_v28_0 c :=
  (V32_eq_V12 m outs c main_v28_0 (by decide)).trans (upd3_at3 _ _ _ _)
theorem V32_v31_1 : V32 m outs c main_v31_1 = outs 14 main_v31_1 c :=
  (V32_eq_V14 m outs c main_v31_1 (by decide)).trans (upd3_at1 _ (by decide) (by decide) _ _ _)
theorem V32_v31_2 : V32 m outs c main_v31_2 = outs 14 main_v31_2 c :=
  (V32_eq_V14 m outs c main_v31_2 (by decide)).trans (upd3_at2 _ (by decide) _ _ _)
theorem V32_v31_0 : V32 m outs c main_v31_0 = outs 14 main_v31_0 c :=
  (V32_eq_V14 m outs c main_v31_0 (by decide)).trans (upd3_at3 _ _ _ _)
theorem V32_v34_1 : V32 m outs c main_v34_1 = outs 16 main_v34_1 c :=
  (V32_eq_V16 m outs c main_v34_1 (by decide)).trans (upd3_at1 _ (by decide) (by decide) _ _ _)
theorem V32_v34_2 : V32 m outs c main_v34_2 = outs 16 main_v34_2 c :=
  (V32_eq_V16 m outs c main_v34_2 (by decide)).trans (upd3_at2 _ (by decide) _ _ _)
theorem V32_v34_0 : V32 m outs c main_v34_0 = outs 16 main_v34_0 c :=
  (V32_eq_V16 m outs c main_v34_0 (by decide)).trans (upd3_at3 _ _ _ _)
theorem V32_v37_1 : V32 m outs c main_v37_1 = outs 18 main_v37_1 c :=
  (V32_eq_V18 m outs c main_v37_1 (by decide)).trans (upd3_at1 _ (by decide) (by decide) _ _ _)
theorem V32_v37_2 : V32 m outs c main_v37_2 = outs 18 main_v37_2 c :=
  (V32_eq_V18 m outs c main_v37_2 (by decide)).trans (upd3_at2 _ (by decide) _ _ _)
theorem V32_v37_0 : V32 m outs c main_v37_0 = outs 18 main_v37_0 c :=
  (V32_eq_V18 m outs c main_v37_0 (by decide)).trans (upd3_at3 _ _ _ _)
theorem V32_v40_1 : V32 m outs c main_v40_1 = outs 20 main_v40_1 c :=
  (V32_eq_V20 m outs c main_v40_1 (by decide)).trans (upd3_at1 _ (by decide) (by decide) _ _ _)
theorem V32_v40_2 : V32 m outs c main_v40_2 = outs 20 main_v40_2 c :=
  (V32_eq_V20 m outs c main_v40_2 (by decide)).trans (upd3_at2 _ (by decide) _ _ _)
theorem V32_v40_0 : V32 m outs c main_v40_0 = outs 20 main_v40_0 c :=
  (V32_eq_V20 m outs c main_v40_0 (by decide)).trans (upd3_at3 _ _ _ _)
theorem V32_v43_1 : V32 m outs c main_v43_1 = outs 22 main_v43_1 c :=
  (V32_eq_V22 m outs c main_v43_1 (by decide)).trans (upd3_at1 _ (by decide) (by decide) _ _ _)
theorem V32_v43_2 : V32 m outs c main_v43_2 = outs 22 main_v43_2 c :=
  (V32_eq_V22 m outs c main_v43_2 (by decide)).trans (upd3_at2 _ (by decide) _ _ _)
theorem V32_v43_0 : V32 m outs c main_v43_0 = outs 22 main_v43_0 c :=
  (V32_eq_V22 m outs c main_v43_0 (by decide)).trans (upd3_at3 _ _ _ _)
theorem V32_v46_1 : V32 m outs c main_v46_1 = outs 24 main_v46_1 c :=
  (V32_eq_V24 m outs c main_v46_1 (by decide)).trans (upd3_at1 _ (by decide) (by decide) _ _ _)
theorem V32_v46_2 : V32 m outs c main_v46_2 = outs 24 main_v46_2 c :=
  (V32_eq_V24 m outs c main_v46_2 (by decide)).trans (upd3_at2 _ (by decide) _ _ _)
theorem V32_v46_0 : V32 m outs c main_v46_0 = outs 24 main_v46_0 c :=
  (V32_eq_V24 m outs c main_v46_0 (by decide)).trans (upd3_at3 _ _ _ _)
theorem V32_v49_1 : V32 m outs c main_v49_1 = outs 26 main_v49_1 c :=
  (V32_eq_V26 m outs c main_v49_1 (by decide)).trans (upd3_at1 _ (by decide) (by decide) _ _ _)
theorem V32_v49_2 : V32 m outs c main_v49_2 = outs 26 main_v49_2 c :=
  (V32_eq_V26 m outs c main_v49_2 (by decide)).trans (upd3_at2 _ (by decide) _ _ _)
theorem V32_v49_0 : V32 m outs c main_v49_0 = outs 26 main_v49_0 c :=
  (V32_eq_V26 m outs c main_v49_0 (by decide)).trans (upd3_at3 _ _ _ _)
theorem V32_v52_1 : V32 m outs c main_v52_1 = outs 28 main_v52_1 c :=
  (V32_eq_V28 m outs c main_v52_1 (by decide)).trans (upd3_at1 _ (by decide) (by decide) _ _ _)
theorem V32_v52_2 : V32 m outs c main_v52_2 = outs 28 main_v52_2 c :=
  (V32_eq_V28 m outs c main_v52_2 (by decide)).trans (upd3_at2 _ (by decide) _ _ _)
theorem V32_v52_0 : V32 m outs c main_v52_0 = outs 28 main_v52_0 c :=
  (V32_eq_V28 m outs c main_v52_0 (by decide)).trans (upd3_at3 _ _ _ _)
theorem V32_v55_1 : V32 m outs c main_v55_1 = outs 30 main_v55_1 c :=
  (V32_eq_V30 m outs c main_v55_1 (by decide)).trans (upd3_at1 _ (by decide) (by decide) _ _ _)
theorem V32_v55_2 : V32 m outs c main_v55_2 = outs 30 main_v55_2 c :=
  (V32_eq_V30 m outs c main_v55_2 (by decide)).trans (upd3_at2 _ (by decide) _ _ _)
theorem V32_v55_0 : V32 m outs c main_v55_0 = outs 30 main_v55_0 c :=
  (V32_eq_V30 m outs c main_v55_0 (by decide)).trans (upd3_at3 _ _ _ _)
theorem V32_v58_1 : V32 m outs c main_v58_1 = outs 32 main_v58_1 c := upd3_at1 _ (by decide) (by decide) _ _ _
theorem V32_v58_2 : V32 m outs c main_v58_2 = outs 32 main_v58_2 c := upd3_at2 _ (by decide) _ _ _
theorem V32_v58_0 : V32 m outs c main_v58_0 = outs 32 main_v58_0 c := upd3_at3 _ _ _ _

/-! ### … and at `V33`: the stretch between them writes none of them -/

theorem V33_v13_1 : V33 m outs c main_v13_1 = outs 2 main_v13_1 c := (V33_of m outs c main_v13_1 (by decide)).trans (V32_v13_1 m outs c)
theorem V33_v13_2 : V33 m outs c main_v13_2 = outs 2 main_v13_2 c := (V33_of m outs c main_v13_2 (by decide)).trans (V32_v13_2 m outs c)
theorem V33_v13_0 : V33 m outs c main_v13_0 = outs 2 main_v13_0 c := (V33_of m outs c main_v13_0 (by decide)).trans (V32_v13_0 m outs c)
theorem V33_v16_1 : V33 m outs c main_v16_1 = outs 4 main_v16_1 c := (V33_of m outs c main_v16_1 (by decide)).trans (V32_v16_1 m outs c)
theorem V33_v16_2 : V33 m outs c main_v16_2 = outs 4 main_v16_2 c := (V33_of m outs c main_v16_2 (by decide)).trans (V32_v16_2 m outs c)
theorem V33_v16_0 : V33 m outs c main_v16_0 = outs 4 main_v16_0 c := (V33_of m outs c main_v16_0 (by decide)).trans (V32_v16_0 m outs c)
theorem V33_v19_1 : V33 m outs c main_v19_1 = outs 6 main_v19_1 c := (V33_of m outs c main_v19_1 (by decide)).trans (V32_v19_1 m outs c)
theorem V33_v19_2 : V33 m outs c main_v19_2 = outs 6 main_v19_2 c := (V33_of m outs c main_v19_2 (by decide)).trans (V32_v19_2 m outs c)
theorem V33_v19_0 : V33 m outs c main_v19_0 = outs 6 main_v19_0 c := (V33_of m outs c main_v19_0 (by decide)).trans (V32_v19_0 m outs c)
theorem V33_v22_1 : V33 m outs c main_v22_1 = outs 8 main_v22_1 c := (V33_of m outs c main_v22_1 (by decide)).trans (V32_v22_1 m outs c)
theorem V33_v22_2 : V33 m outs c main_v22_2 = outs 8 main_v22_2 c := (V33_of m outs c main_v22_2 (by decide)).trans (V32_v22_2 m outs c)
theorem V33_v22_0 : V33 m outs c main_v22_0 = outs 8 main_v22_0 c := (V33_of m outs c main_v22_0 (by decide)).trans (V32_v22_0 m outs c)
theorem V33_v25_1 : V33 m outs c main_v25_1 = outs 10 main_v25_1 c := (V33_of m outs c main_v25_1 (by decide)).trans (V32_v25_1 m outs c)
theorem V33_v25_2 : V33 m outs c main_v25_2 = outs 10 main_v25_2 c := (V33_of m outs c main_v25_2 (by decide)).trans (V32_v25_2 m outs c)
theorem V33_v25_0 : V33 m outs c main_v25_0 = outs 10 main_v25_0 c := (V33_of m outs c main_v25_0 (by decide)).trans (V32_v25_0 m outs c)
theorem V33_v28_1 : V33 m outs c main_v28_1 = outs 12 main_v28_1 c := (V33_of m outs c main_v28_1 (by decide)).trans (V32_v28_1 m outs c)
theorem V33_v28_2 : V33 m outs c main_v28_2 = outs 12 main_v28_2 c := (V33_of m outs c main_v28_2 (by decide)).trans (V32_v28_2 m outs c)
theorem V33_v28_0 : V33 m outs c main_v28_0 = outs 12 main_v28_0 c := (V33_of m outs c main_v28_0 (by decide)).trans (V32_v28_0 m outs c)
theorem V33_v31_1 : V33 m outs c main_v31_1 = outs 14 main_v31_1 c := (V33_of m outs c main_v31_1 (by decide)).trans (V32_v31_1 m outs c)
theorem V33_v31_2 : V33 m outs c main_v31_2 = outs 14 main_v31_2 c := (V33_of m outs c main_v31_2 (by decide)).trans (V32_v31_2 m outs c)
theorem V33_v31_0 : V33 m outs c main_v31_0 = outs 14 main_v31_0 c := (V33_of m outs c main_v31_0 (by decide)).trans (V32_v31_0 m outs c)
theorem V33_v34_1 : V33 m outs c main_v34_1 = outs 16 main_v34_1 c := (V33_of m outs c main_v34_1 (by decide)).trans (V32_v34_1 m outs c)
theorem V33_v34_2 : V33 m outs c main_v34_2 = outs 16 main_v34_2 c := (V33_of m outs c main_v34_2 (by decide)).trans (V32_v34_2 m outs c)
theorem V33_v34_0 : V33 m outs c main_v34_0 = outs 16 main_v34_0 c := (V33_of m outs c main_v34_0 (by decide)).trans (V32_v34_0 m outs c)
theorem V33_v37_1 : V33 m outs c main_v37_1 = outs 18 main_v37_1 c := (V33_of m outs c main_v37_1 (by decide)).trans (V32_v37_1 m outs c)
theorem V33_v37_2 : V33 m outs c main_v37_2 = outs 18 main_v37_2 c := (V33_of m outs c main_v37_2 (by decide)).trans (V32_v37_2 m outs c)
theorem V33_v37_0 : V33 m outs c main_v37_0 = outs 18 main_v37_0 c := (V33_of m outs c main_v37_0 (by decide)).trans (V32_v37_0 m outs c)
theorem V33_v40_1 : V33 m outs c main_v40_1 = outs 20 main_v40_1 c := (V33_of m outs c main_v40_1 (by decide)).trans (V32_v40_1 m outs c)
theorem V33_v40_2 : V33 m outs c main_v40_2 = outs 20 main_v40_2 c := (V33_of m outs c main_v40_2 (by decide)).trans (V32_v40_2 m outs c)
theorem V33_v40_0 : V33 m outs c main_v40_0 = outs 20 main_v40_0 c := (V33_of m outs c main_v40_0 (by decide)).trans (V32_v40_0 m outs c)
theorem V33_v43_1 : V33 m outs c main_v43_1 = outs 22 main_v43_1 c := (V33_of m outs c main_v43_1 (by decide)).trans (V32_v43_1 m outs c)
theorem V33_v43_2 : V33 m outs c main_v43_2 = outs 22 main_v43_2 c := (V33_of m outs c main_v43_2 (by decide)).trans (V32_v43_2 m outs c)
theorem V33_v43_0 : V33 m outs c main_v43_0 = outs 22 main_v43_0 c := (V33_of m outs c main_v43_0 (by decide)).trans (V32_v43_0 m outs c)
theorem V33_v46_1 : V33 m outs c main_v46_1 = outs 24 main_v46_1 c := (V33_of m outs c main_v46_1 (by decide)).trans (V32_v46_1 m outs c)
theorem V33_v46_2 : V33 m outs c main_v46_2 = outs 24 main_v46_2 c := (V33_of m outs c main_v46_2 (by decide)).trans (V32_v46_2 m outs c)
theorem V33_v46_0 : V33 m outs c main_v46_0 = outs 24 main_v46_0 c := (V33_of m outs c main_v46_0 (by decide)).trans (V32_v46_0 m outs c)
theorem V33_v49_1 : V33 m outs c main_v49_1 = outs 26 main_v49_1 c := (V33_of m outs c main_v49_1 (by decide)).trans (V32_v49_1 m outs c)
theorem V33_v49_2 : V33 m outs c main_v49_2 = outs 26 main_v49_2 c := (V33_of m outs c main_v49_2 (by decide)).trans (V32_v49_2 m outs c)
theorem V33_v49_0 : V33 m outs c main_v49_0 = outs 26 main_v49_0 c := (V33_of m outs c main_v49_0 (by decide)).trans (V32_v49_0 m outs c)
theorem V33_v52_1 : V33 m outs c main_v52_1 = outs 28 main_v52_1 c := (V33_of m outs c main_v52_1 (by decide)).trans (V32_v52_1 m outs c)
theorem V33_v52_2 : V33 m outs c main_v52_2 = outs 28 main_v52_2 c := (V33_of m outs c main_v52_2 (by decide)).trans (V32_v52_2 m outs c)
theorem V33_v52_0 : V33 m outs c main_v52_0 = outs 28 main_v52_0 c := (V33_of m outs c main_v52_0 (by decide)).trans (V32_v52_0 m outs c)
theorem V33_v55_1 : V33 m outs c main_v55_1 = outs 30 main_v55_1 c := (V33_of m outs c main_v55_1 (by decide)).trans (V32_v55_1 m outs c)
theorem V33_v55_2 : V33 m outs c main_v55_2 = outs 30 main_v55_2 c := (V33_of m outs c main_v55_2 (by decide)).trans (V32_v55_2 m outs c)
theorem V33_v55_0 : V33 m outs c main_v55_0 = outs 30 main_v55_0 c := (V33_of m outs c main_v55_0 (by decide)).trans (V32_v55_0 m outs c)
theorem V33_v58_1 : V33 m outs c main_v58_1 = outs 32 main_v58_1 c := (V33_of m outs c main_v58_1 (by decide)).trans (V32_v58_1 m outs c)
theorem V33_v58_2 : V33 m outs c main_v58_2 = outs 32 main_v58_2 c := (V33_of m outs c main_v58_2 (by decide)).trans (V32_v58_2 m outs c)
theorem V33_v58_0 : V33 m outs c main_v58_0 = outs 32 main_v58_0 c := (V33_of m outs c main_v58_0 (by decide)).trans (V32_v58_0 m outs c)

/-! ## Reading sixteen sibling results off a valuation -/

/-- The sixteen regions' row arrays (`[62500,64]`), read off a valuation. -/
noncomputable def rows0 (W : Valuation τ sig (Elt F)) : Fin 16 → (⟨S62500x64, .f32⟩ : BufTy).Contents (Elt F)
  | ⟨0, _⟩ => W main_v13_0 | ⟨1, _⟩ => W main_v16_0 | ⟨2, _⟩ => W main_v19_0 | ⟨3, _⟩ => W main_v22_0
  | ⟨4, _⟩ => W main_v25_0 | ⟨5, _⟩ => W main_v28_0 | ⟨6, _⟩ => W main_v31_0 | ⟨7, _⟩ => W main_v34_0
  | ⟨8, _⟩ => W main_v37_0 | ⟨9, _⟩ => W main_v40_0 | ⟨10, _⟩ => W main_v43_0 | ⟨11, _⟩ => W main_v46_0
  | ⟨12, _⟩ => W main_v49_0 | ⟨13, _⟩ => W main_v52_0 | ⟨14, _⟩ => W main_v55_0 | ⟨15, _⟩ => W main_v58_0
  | ⟨_ + 16, h⟩ => absurd h (Nat.not_lt.2 (Nat.le_add_left _ _))

/-- The sixteen regions' column sums (`[1,64]`), read off a valuation. -/
noncomputable def rows1 (W : Valuation τ sig (Elt F)) : Fin 16 → (⟨S1x64, .f32⟩ : BufTy).Contents (Elt F)
  | ⟨0, _⟩ => W main_v13_1 | ⟨1, _⟩ => W main_v16_1 | ⟨2, _⟩ => W main_v19_1 | ⟨3, _⟩ => W main_v22_1
  | ⟨4, _⟩ => W main_v25_1 | ⟨5, _⟩ => W main_v28_1 | ⟨6, _⟩ => W main_v31_1 | ⟨7, _⟩ => W main_v34_1
  | ⟨8, _⟩ => W main_v37_1 | ⟨9, _⟩ => W main_v40_1 | ⟨10, _⟩ => W main_v43_1 | ⟨11, _⟩ => W main_v46_1
  | ⟨12, _⟩ => W main_v49_1 | ⟨13, _⟩ => W main_v52_1 | ⟨14, _⟩ => W main_v55_1 | ⟨15, _⟩ => W main_v58_1
  | ⟨_ + 16, h⟩ => absurd h (Nat.not_lt.2 (Nat.le_add_left _ _))

/-- The sixteen regions' column sums of squares (`[1,64]`), read off a valuation. -/
noncomputable def rows2 (W : Valuation τ sig (Elt F)) : Fin 16 → (⟨S1x64, .f32⟩ : BufTy).Contents (Elt F)
  | ⟨0, _⟩ => W main_v13_2 | ⟨1, _⟩ => W main_v16_2 | ⟨2, _⟩ => W main_v19_2 | ⟨3, _⟩ => W main_v22_2
  | ⟨4, _⟩ => W main_v25_2 | ⟨5, _⟩ => W main_v28_2 | ⟨6, _⟩ => W main_v31_2 | ⟨7, _⟩ => W main_v34_2
  | ⟨8, _⟩ => W main_v37_2 | ⟨9, _⟩ => W main_v40_2 | ⟨10, _⟩ => W main_v43_2 | ⟨11, _⟩ => W main_v46_2
  | ⟨12, _⟩ => W main_v49_2 | ⟨13, _⟩ => W main_v52_2 | ⟨14, _⟩ => W main_v55_2 | ⟨15, _⟩ => W main_v58_2
  | ⟨_ + 16, h⟩ => absurd h (Nat.not_lt.2 (Nat.le_add_left _ _))

/-- Sixteen rows `[1,64]`, each given a leading unit axis, stacked to `[16,1,64]` and added up along the stack from zero:
    the host's way of adding the regions' partial sums. -/
noncomputable def stackSum (r : Fin 16 → (⟨S1x64, .f32⟩ : BufTy).Contents (Elt F)) : (⟨S1x64, .f32⟩ : BufTy).Contents (Elt F) :=
  Host.reduceAdd (concatenate S16x1x64 0 (List.ofFn fun n : Fin 16 => (⟨S1x1x64, broadcastInDim S1x1x64 ![1, 2] Facts₀.bcast_S1x64_S1x1x64_1_2 (r n)⟩ : (s : Shape) × (s.Idx → Elt F .f32)))
    Facts₀.concatenates_S1x1x64_S1x1x64_S1x1x64_S1x1x64_S1x1x64_S1x1x64_S1x1x64_S1x1x64_S1x1x64_S1x1x64_S1x1x64_S1x1x64_S1x1x64_S1x1x64_S1x1x64_S1x1x64_S16x1x64_d0)
    (constant S_ .f32 0x00000000#32) Facts₀.reducesTo_S16x1x64_S1x64_d0 Facts₀.h_S_

/-- What the regions leave, by region: the rows … -/
noncomputable def res0 (outs : Outs (F := F)) (c : Dev nD) : Fin 16 → (⟨S62500x64, .f32⟩ : BufTy).Contents (Elt F)
  | ⟨0, _⟩ => outs 2 main_v13_0 c | ⟨1, _⟩ => outs 4 main_v16_0 c | ⟨2, _⟩ => outs 6 main_v19_0 c | ⟨3, _⟩ => outs 8 main_v22_0 c
  | ⟨4, _⟩ => outs 10 main_v25_0 c | ⟨5, _⟩ => outs 12 main_v28_0 c | ⟨6, _⟩ => outs 14 main_v31_0 c | ⟨7, _⟩ => outs 16 main_v34_0 c
  | ⟨8, _⟩ => outs 18 main_v37_0 c | ⟨9, _⟩ => outs 20 main_v40_0 c | ⟨10, _⟩ => outs 22 main_v43_0 c | ⟨11, _⟩ => outs 24 main_v46_0 c
  | ⟨12, _⟩ => outs 26 main_v49_0 c | ⟨13, _⟩ => outs 28 main_v52_0 c | ⟨14, _⟩ => outs 30 main_v55_0 c | ⟨15, _⟩ => outs 32 main_v58_0 c
  | ⟨_ + 16, h⟩ => absurd h (Nat.not_lt.2 (Nat.le_add_left _ _))
/-- … the column sums … -/
noncomputable def res1 (outs : Outs (F := F)) (c : Dev nD) : Fin 16 → (⟨S1x64, .f32⟩ : BufTy).Contents (Elt F)
  | ⟨0, _⟩ => outs 2 main_v13_1 c | ⟨1, _⟩ => outs 4 main_v16_1 c | ⟨2, _⟩ => outs 6 main_v19_1 c | ⟨3, _⟩ => outs 8 main_v22_1 c
  | ⟨4, _⟩ => outs 10 main_v25_1 c | ⟨5, _⟩ => outs 12 main_v28_1 c | ⟨6, _⟩ => outs 14 main_v31_1 c | ⟨7, _⟩ => outs 16 main_v34_1 c
  | ⟨8, _⟩ => outs 18 main_v37_1 c | ⟨9, _⟩ => outs 20 main_v40_1 c | ⟨10, _⟩ => outs 22 main_v43_1 c | ⟨11, _⟩ => outs 24 main_v46_1 c
  | ⟨12, _⟩ => outs 26 main_v49_1 c | ⟨13, _⟩ => outs 28 main_v52_1 c | ⟨14, _⟩ => outs 30 main_v55_1 c | ⟨15, _⟩ => outs 32 main_v58_1 c
  | ⟨_ + 16, h⟩ => absurd h (Nat.not_lt.2 (Nat.le_add_left _ _))
/-- … and the column sums of squares. -/
noncomputable def res2 (outs : Outs (F := F)) (c : Dev nD) : Fin 16 → (⟨S1x64, .f32⟩ : BufTy).Contents (Elt F)
  | ⟨0, _⟩ => outs 2 main_v13_2 c | ⟨1, _⟩ => outs 4 main_v16_2 c | ⟨2, _⟩ => outs 6 main_v19_2 c | ⟨3, _⟩ => outs 8 main_v22_2 c
  | ⟨4, _⟩ => outs 10 main_v25_2 c | ⟨5, _⟩ => outs 12 main_v28_2 c | ⟨6, _⟩ => outs 14 main_v31_2 c | ⟨7, _⟩ => outs 16 main_v34_2 c
  | ⟨8, _⟩ => outs 18 main_v37_2 c | ⟨9, _⟩ => outs 20 main_v40_2 c | ⟨10, _⟩ => outs 22 main_v43_2 c | ⟨11, _⟩ => outs 24 main_v46_2 c
  | ⟨12, _⟩ => outs 26 main_v49_2 c | ⟨13, _⟩ => outs 28 main_v52_2 c | ⟨14, _⟩ => outs 30 main_v55_2 c | ⟨15, _⟩ => outs 32 main_v58_2 c
  | ⟨_ + 16, h⟩ => absurd h (Nat.not_lt.2 (Nat.le_add_left _ _))

theorem rows0_V32 : rows0 (V32 m outs c) = res0 outs c := by
  funext k
  match k with
  | ⟨0, _⟩ => exact V32_v13_0 m outs c | ⟨1, _⟩ => exact V32_v16_0 m outs c | ⟨2, _⟩ => exact V32_v19_0 m outs c | ⟨3, _⟩ => exact V32_v22_0 m outs c
  | ⟨4, _⟩ => exact V32_v25_0 m outs c | ⟨5, _⟩ => exact V32_v28_0 m outs c | ⟨6, _⟩ => exact V32_v31_0 m outs c | ⟨7, _⟩ => exact V32_v34_0 m outs c
  | ⟨8, _⟩ => exact V32_v37_0 m outs c | ⟨9, _⟩ => exact V32_v40_0 m outs c | ⟨10, _⟩ => exact V32_v43_0 m outs c | ⟨11, _⟩ => exact V32_v46_0 m outs c
  | ⟨12, _⟩ => exact V32_v49_0 m outs c | ⟨13, _⟩ => exact V32_v52_0 m outs c | ⟨14, _⟩ => exact V32_v55_0 m outs c | ⟨15, _⟩ => exact V32_v58_0 m outs c
  | ⟨_ + 16, h⟩ => exact absurd h (Nat.not_lt.2 (Nat.le_add_left _ _))
theorem rows1_V32 : rows1 (V32 m outs c) = res1 outs c := by
  funext k
  match k with
  | ⟨0, _⟩ => exact V32_v13_1 m outs c | ⟨1, _⟩ => exact V32_v16_1 m outs c | ⟨2, _⟩ => exact V32_v19_1 m outs c | ⟨3, _⟩ => exact V32_v22_1 m outs c
  | ⟨4, _⟩ => exact V32_v25_1 m outs c | ⟨5, _⟩ => exact V32_v28_1 m outs c | ⟨6, _⟩ => exact V32_v31_1 m outs c | ⟨7, _⟩ => exact V32_v34_1 m outs c
  | ⟨8, _⟩ => exact V32_v37_1 m outs c | ⟨9, _⟩ => exact V32_v40_1 m outs c | ⟨10, _⟩ => exact V32_v43_1 m outs c | ⟨11, _⟩ => exact V32_v46_1 m outs c
  | ⟨12, _⟩ => exact V32_v49_1 m outs c | ⟨13, _⟩ => exact V32_v52_1 m outs c | ⟨14, _⟩ => exact V32_v55_1 m outs c | ⟨15, _⟩ => exact V32_v58_1 m outs c
  | ⟨_ + 16, h⟩ => exact absurd h (Nat.not_lt.2 (Nat.le_add_left _ _))
theorem rows2_V32 : rows2 (V32 m outs c) = res2 outs c := by
  funext k
  match k with
  | ⟨0, _⟩ => exact V32_v13_2 m outs c | ⟨1, _⟩ => exact V32_v16_2 m outs c | ⟨2, _⟩ => exact V32_v19_2 m outs c | ⟨3, _⟩ => exact V32_v22_2 m outs c
  | ⟨4, _⟩ => exact V32_v25_2 m outs c | ⟨5, _⟩ => exact V32_v28_2 m outs c | ⟨6, _⟩ => exact V32_v31_2 m outs c | ⟨7, _⟩ => exact V32_v34_2 m outs c
  | ⟨8, _⟩ => exact V32_v37_2 m outs c | ⟨9, _⟩ => exact V32_v40_2 m outs c | ⟨10, _⟩ => exact V32_v43_2 m outs c | ⟨11, _⟩ => exact V32_v46_2 m outs c
  | ⟨12, _⟩ => exact V32_v49_2 m outs c | ⟨13, _⟩ => exact V32_v52_2 m outs c | ⟨14, _⟩ => exact V32_v55_2 m outs c | ⟨15, _⟩ => exact V32_v58_2 m outs c
  | ⟨_ + 16, h⟩ => exact absurd h (Nat.not_lt.2 (Nat.le_add_left _ _))

/-! ## The last-but-one host stretch, cut in four -/

/-- Running two lists of host operations one after the other is running their concatenation. -/
theorem after_app (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-- The first operation: the sixteen regions' row arrays laid end to end. -/
abbrev opsA : List (HloOp τ sig (Elt F)) := (hostOps16 (F := F)).take 1
/-- The next nineteen: the sixteen column sums, each given a leading unit axis, stacked and added up. -/
abbrev opsB : List (HloOp τ sig (Elt F)) := ((hostOps16 (F := F)).drop 1).take 19
/-- The next nineteen: the same for the column sums of squares. -/
abbrev opsC : List (HloOp τ sig (Elt F)) := ((hostOps16 (F := F)).drop 20).take 19
/-- The last eleven: the mean, the mean of squares, and the clamped variance. -/
abbrev opsD : List (HloOp τ sig (Elt F)) := (hostOps16 (F := F)).drop 39

theorem hostOps16_cut : (hostOps16 : List (HloOp τ sig (Elt F))) = opsA ++ (opsB ++ (opsC ++ opsD)) := rfl

theorem V33_cut : V33 m outs c = StableHlo.after opsD (StableHlo.after opsC (StableHlo.after opsB (StableHlo.after opsA (V32 m outs c)))) := by
  show StableHlo.after hostOps16 (V32 m outs c) = _
  rw [hostOps16_cut, after_app, after_app, after_app]

/-! ### What each cut computes, from any contents `W` before it -/

theorem opsA_v59 (W : Valuation τ sig (Elt F)) : StableHlo.after opsA W (Proc.devRef .tc main_v59)
    = concatenate S1000000x64 0 (List.ofFn fun n : Fin 16 => (⟨S62500x64, rows0 W n⟩ : (s : Shape) × (s.Idx → Elt F .f32)))
        Facts₀.concatenates_S62500x64_S62500x64_S62500x64_S62500x64_S62500x64_S62500x64_S62500x64_S62500x64_S62500x64_S62500x64_S62500x64_S62500x64_S62500x64_S62500x64_S62500x64_S62500x64_S1000000x64_d0 := by
  show StableHlo.after [_] W _ = _
  after_results
  rfl

theorem opsB_v77 (W : Valuation τ sig (Elt F)) : StableHlo.after opsB W (Proc.devRef .tc main_v77) = stackSum (rows1 W) := by
  show StableHlo.after [_, _, _, _, _, _, _, _, _, _, _, _, _, _, _, _, _, _, _] W _ = _
  after_results
  rfl

theorem opsC_v95 (W : Valuation τ sig (Elt F)) : StableHlo.after opsC W (Proc.devRef .tc main_v95) = stackSum (rows2 W) := by
  show StableHlo.after [_, _, _, _, _, _, _, _, _, _, _, _, _, _, _, _, _, _, _] W _ = _
  after_results
  rfl

/-- The element count, as the program's float word, along a row. -/
noncomputable def nRow : (⟨S1x64, .f32⟩ : BufTy).Contents (Elt F) :=
  broadcastInDim S1x64 ![] Facts₀.bcast_S_S1x64 (constant S_ .f32 0x49742400#32 : (⟨S_, .f32⟩ : BufTy).Contents (Elt F))
/-- Zero along a row. -/
noncomputable def zRow : (⟨S1x64, .f32⟩ : BufTy).Contents (Elt F) :=
  broadcastInDim S1x64 ![] Facts₀.bcast_S_S1x64 (constant S_ .f32 0x00000000#32 : (⟨S_, .f32⟩ : BufTy).Contents (Elt F))
/-- The mean row from the row of sums. -/
noncomputable def meanOf (s : (⟨S1x64, .f32⟩ : BufTy).Contents (Elt F)) : (⟨S1x64, .f32⟩ : BufTy).Contents (Elt F) := Host.divf s nRow
/-- The variance row from the rows of sums and of sums of squares: the mean of squares less the squared mean, clamped at zero. -/
noncomputable def varOf (s q : (⟨S1x64, .f32⟩ : BufTy).Contents (Elt F)) : (⟨S1x64, .f32⟩ : BufTy).Contents (Elt F) :=
  maximumf (subf (Host.divf q nRow) (mulf (meanOf s) (meanOf s))) zRow

theorem opsD_v97 (W : Valuation τ sig (Elt F)) : StableHlo.after opsD W (Proc.devRef .tc main_v97) = meanOf (W main_v77) := by
  show StableHlo.after [_, _, _, _, _, _, _, _, _, _, _] W _ = _
  after_results
  rfl
theorem opsD_v103 (W : Valuation τ sig (Elt F)) : StableHlo.after opsD W (Proc.devRef .tc main_v103) = varOf (W main_v77) (W main_v95) := by
  show StableHlo.after [_, _, _, _, _, _, _, _, _, _, _] W _ = _
  after_results
  rfl

/-! ### What each cut keeps -/

theorem opsA_keep (W : Valuation τ sig (Elt F)) (r : Ref sig .tc) (h : r ≠ main_v59) :
    StableHlo.after opsA W (Proc.devRef .tc r) = W (Proc.devRef .tc r) := by
  show StableHlo.after [_] W _ = _
  rw [StableHlo.after_cons, StableHlo.after_nil, StableHlo.nary_result_ne]
  exact h

abbrev opsB_W : List (Ref sig .tc) := [main_v60, main_v61, main_v62, main_v63, main_v64, main_v65, main_v66, main_v67, main_v68, main_v69, main_v70, main_v71, main_v72, main_v73, main_v74, main_v75, main_v76, main_cst, main_v77]
theorem opsB_writes : (opsB : List (HloOp τ sig (Elt F))).Forall fun op => op.writes ⊆ (opsB_W.map (Proc.devRef (τ := τ) .tc)).toFinset := by
  show List.Forall _ [_, _, _, _, _, _, _, _, _, _, _, _, _, _, _, _, _, _, _]
  simp only [List.Forall]
  refine ⟨?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.nary_writes, Finset.singleton_subset_iff, List.mem_toFinset]; exact List.mem_map_of_mem (by decide))
theorem opsB_keep (W : Valuation τ sig (Elt F)) (r : Ref sig .tc) (h : r ∉ opsB_W) :
    StableHlo.after opsB W (Proc.devRef .tc r) = W (Proc.devRef .tc r) :=
  StableHlo.after_of_writes_sub opsB W opsB_writes h

abbrev opsC_W : List (Ref sig .tc) := [main_v78, main_v79, main_v80, main_v81, main_v82, main_v83, main_v84, main_v85, main_v86, main_v87, main_v88, main_v89, main_v90, main_v91, main_v92, main_v93, main_v94, main_cst_0, main_v95]
theorem opsC_writes : (opsC : List (HloOp τ sig (Elt F))).Forall fun op => op.writes ⊆ (opsC_W.map (Proc.devRef (τ := τ) .tc)).toFinset := by
  show List.Forall _ [_, _, _, _, _, _, _, _, _, _, _, _, _, _, _, _, _, _, _]
  simp only [List.Forall]
  refine ⟨?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.nary_writes, Finset.singleton_subset_iff, List.mem_toFinset]; exact List.mem_map_of_mem (by decide))
theorem opsC_keep (W : Valuation τ sig (Elt F)) (r : Ref sig .tc) (h : r ∉ opsC_W) :
    StableHlo.after opsC W (Proc.devRef .tc r) = W (Proc.devRef .tc r) :=
  StableHlo.after_of_writes_sub opsC W opsC_writes h

abbrev opsD_W : List (Ref sig .tc) := [main_cst_1, main_v96, main_v97, main_cst_2, main_v98, main_v99, main_v100, main_v101, main_cst_3, main_v102, main_v103]
theorem opsD_writes : (opsD : List (HloOp τ sig (Elt F))).Forall fun op => op.writes ⊆ (opsD_W.map (Proc.devRef (τ := τ) .tc)).toFinset := by
  show List.Forall _ [_, _, _, _, _, _, _, _, _, _, _]
  simp only [List.Forall]
  refine ⟨?_, ?_, ?_, ?_, ?_, ?_, ?_, ?_, ?_, ?_, ?_⟩ <;>
    (simp only [StableHlo.nullary_writes, StableHlo.unary_writes, StableHlo.binary_writes, StableHlo.nary_writes, Finset.singleton_subset_iff, List.mem_toFinset]; exact List.mem_map_of_mem (by decide))
theorem opsD_keep (W : Valuation τ sig (Elt F)) (r : Ref sig .tc) (h : r ∉ opsD_W) :
    StableHlo.after opsD W (Proc.devRef .tc r) = W (Proc.devRef .tc r) :=
  StableHlo.after_of_writes_sub opsD W opsD_writes h

theorem rows1_opsA (W : Valuation τ sig (Elt F)) : rows1 (StableHlo.after opsA W) = rows1 W := by
  funext k
  match k with
  | ⟨0, _⟩ => exact opsA_keep W main_v13_1 (by decide) | ⟨1, _⟩ => exact opsA_keep W main_v16_1 (by decide)
  | ⟨2, _⟩ => exact opsA_keep W main_v19_1 (by decide) | ⟨3, _⟩ => exact opsA_keep W main_v22_1 (by decide)
  | ⟨4, _⟩ => exact opsA_keep W main_v25_1 (by decide) | ⟨5, _⟩ => exact opsA_keep W main_v28_1 (by decide)
  | ⟨6, _⟩ => exact opsA_keep W main_v31_1 (by decide) | ⟨7, _⟩ => exact opsA_keep W main_v34_1 (by decide)
  | ⟨8, _⟩ => exact opsA_keep W main_v37_1 (by decide) | ⟨9, _⟩ => exact opsA_keep W main_v40_1 (by decide)
  | ⟨10, _⟩ => exact opsA_keep W main_v43_1 (by decide) | ⟨11, _⟩ => exact opsA_keep W main_v46_1 (by decide)
  | ⟨12, _⟩ => exact opsA_keep W main_v49_1 (by decide) | ⟨13, _⟩ => exact opsA_keep W main_v52_1 (by decide)
  | ⟨14, _⟩ => exact opsA_keep W main_v55_1 (by decide) | ⟨15, _⟩ => exact opsA_keep W main_v58_1 (by decide)
  | ⟨_ + 16, h⟩ => exact absurd h (Nat.not_lt.2 (Nat.le_add_left _ _))
theorem rows2_opsA (W : Valuation τ sig (Elt F)) : rows2 (StableHlo.after opsA W) = rows2 W := by
  funext k
  match k with
  | ⟨0, _⟩ => exact opsA_keep W main_v13_2 (by decide) | ⟨1, _⟩ => exact opsA_keep W main_v16_2 (by decide)
  | ⟨2, _⟩ => exact opsA_keep W main_v19_2 (by decide) | ⟨3, _⟩ => exact opsA_keep W main_v22_2 (by decide)
  | ⟨4, _⟩ => exact opsA_keep W main_v25_2 (by decide) | ⟨5, _⟩ => exact opsA_keep W main_v28_2 (by decide)
  | ⟨6, _⟩ => exact opsA_keep W main_v31_2 (by decide) | ⟨7, _⟩ => exact opsA_keep W main_v34_2 (by decide)
  | ⟨8, _⟩ => exact opsA_keep W main_v37_2 (by decide) | ⟨9, _⟩ => exact opsA_keep W main_v40_2 (by decide)
  | ⟨10, _⟩ => exact opsA_keep W main_v43_2 (by decide) | ⟨11, _⟩ => exact opsA_keep W main_v46_2 (by decide)
  | ⟨12, _⟩ => exact opsA_keep W main_v49_2 (by decide) | ⟨13, _⟩ => exact opsA_keep W main_v52_2 (by decide)
  | ⟨14, _⟩ => exact opsA_keep W main_v55_2 (by decide) | ⟨15, _⟩ => exact opsA_keep W main_v58_2 (by decide)
  | ⟨_ + 16, h⟩ => exact absurd h (Nat.not_lt.2 (Nat.le_add_left _ _))
-- sixteen memberships in a list of nineteen, each decided by evaluation, add up past the default budget
set_option maxHeartbeats 1000000 in
theorem rows2_opsB (W : Valuation τ sig (Elt F)) : rows2 (StableHlo.after opsB W) = rows2 W := by
  funext k
  match k with
  | ⟨0, _⟩ => exact opsB_keep W main_v13_2 (by decide) | ⟨1, _⟩ => exact opsB_keep W main_v16_2 (by decide)
  | ⟨2, _⟩ => exact opsB_keep W main_v19_2 (by decide) | ⟨3, _⟩ => exact opsB_keep W main_v22_2 (by decide)
  | ⟨4, _⟩ => exact opsB_keep W main_v25_2 (by decide) | ⟨5, _⟩ => exact opsB_keep W main_v28_2 (by decide)
  | ⟨6, _⟩ => exact opsB_keep W main_v31_2 (by decide) | ⟨7, _⟩ => exact opsB_keep W main_v34_2 (by decide)
  | ⟨8, _⟩ => exact opsB_keep W main_v37_2 (by decide) | ⟨9, _⟩ => exact opsB_keep W main_v40_2 (by decide)
  | ⟨10, _⟩ => exact opsB_keep W main_v43_2 (by decide) | ⟨11, _⟩ => exact opsB_keep W main_v46_2 (by decide)
  | ⟨12, _⟩ => exact opsB_keep W main_v49_2 (by decide) | ⟨13, _⟩ => exact opsB_keep W main_v52_2 (by decide)
  | ⟨14, _⟩ => exact opsB_keep W main_v55_2 (by decide) | ⟨15, _⟩ => exact opsB_keep W main_v58_2 (by decide)
  | ⟨_ + 16, h⟩ => exact absurd h (Nat.not_lt.2 (Nat.le_add_left _ _))

/-! ## The operands of the last region, over the unknowns -/

/-- Its rows operand: the sixteen regions' rows, end to end. -/
theorem V33_v59 : V33 m outs c main_v59
    = concatenate S1000000x64 0 (List.ofFn fun n : Fin 16 => (⟨S62500x64, res0 outs c n⟩ : (s : Shape) × (s.Idx → Elt F .f32)))
        Facts₀.concatenates_S62500x64_S62500x64_S62500x64_S62500x64_S62500x64_S62500x64_S62500x64_S62500x64_S62500x64_S62500x64_S62500x64_S62500x64_S62500x64_S62500x64_S62500x64_S62500x64_S1000000x64_d0 := by
  rw [V33_cut, opsD_keep _ main_v59 (by decide), opsC_keep _ main_v59 (by decide), opsB_keep _ main_v59 (by decide), opsA_v59, rows0_V32]

/-- Its mean operand. -/
theorem V33_v97 : V33 m outs c main_v97 = meanOf (stackSum (res1 outs c)) := by
  rw [V33_cut, opsD_v97, opsC_keep _ main_v77 (by decide), opsB_v77, rows1_opsA, rows1_V32]

/-- Its variance operand. -/
theorem V33_v103 : V33 m outs c main_v103 = varOf (stackSum (res1 outs c)) (stackSum (res2 outs c)) := by
  rw [V33_cut, opsD_v103, opsC_keep _ main_v77 (by decide), opsB_v77, rows1_opsA, rows1_V32, opsC_v95, rows2_opsB, rows2_opsA, rows2_V32]

/-- The program's result: the last region's result, its trailing unit axis dropped. -/
theorem V35_v105 : V35 m outs c main_v105
    = shapeCast S1000000 (outs 34 main_v104 c : (⟨S1000000x1, .f32⟩ : BufTy).Contents (Elt F)) Facts₀.shapeCasts_S1000000x1_S1000000 := by
  show StableHlo.after hostOps17 (V34 m outs c) (Proc.devRef .tc main_v105) = _
  after_results
  rw [show V34 m outs c (Proc.devRef .tc main_v104) = outs 34 main_v104 c from Function.update_self ..]
  rfl

/-! ## … read at an index -/

/-- Row `i` of region `K`'s rows, at column `j`. -/
noncomputable def chunkRow (outs : Outs (F := F)) (c : Dev nD) (K : Fin 16) (i : Fin 62500) (j : Fin 64) : Elt F .f32 :=
  res0 outs c K (ValueIdx.ix2 i j)

/-- Row `e = 62500 K + i` of the rows operand is row `i` of region `K`'s rows. -/
theorem hcat (K : Fin 16) (i : Fin 62500) (j : Fin 64) (e : Fin 1000000) (he : e.val = K.val * 62500 + i.val) :
    (V33 m outs c main_v59 : S1000000x64.Idx → Elt F .f32) (ValueIdx.ix2 e j) = chunkRow outs c K i j := by
  rw [V33_v59]
  exact concatenate_ofFn_apply (t := S1000000x64) (s₁ := S62500x64) (0 : Fin 2) (res0 outs c) _ rfl 62500 rfl (ValueIdx.ix2 e j) K
    (by show e.val / 62500 = K.val; have := i.isLt; omega) (ValueIdx.ix2 i j)
    (by show i.val = e.val % 62500; have := i.isLt; omega)
    (fun b hb => by
      match b with
      | ⟨0, _⟩ => exact absurd rfl hb
      | ⟨1, _⟩ => rfl)

/-- Entry `e` of the program's result is row `e` of the last region's one-column result. -/
theorem hres (e : Fin 1000000) :
    (V35 m outs c main_v105 : S1000000.Idx → Elt F .f32) (ValueIdx.ix1 e) = (outs 34 main_v104 c : S1000000x1.Idx → Elt F .f32) (ValueIdx.ix2 e 0) := by
  rw [V35_v105]
  refine shapeCast_apply _ _ (ValueIdx.ix1 e) (ValueIdx.ix2 e 0) ?_
  rw [Shape.rowMajor_val_two]
  show e.val * 1 + 0 = (S1000000.rowMajor (ValueIdx.ix1 e)).val
  rw [Shape.rowMajor_val_one]
  show e.val * 1 + 0 = e.val
  omega

end Generic

/-! ## The statistics at the extended reals -/

section AtIdeal

open scoped BigOperators

variable (m : (ℓ : Loc nD τ sig) → Buf (Elt Ideal) ℓ) (outs : Outs (F := Ideal)) (c : Dev nD)

/-- Region `K`'s column sum at column `j`. -/
noncomputable def chunkSum (outs : Outs (F := Ideal)) (c : Dev nD) (K : Fin 16) (j : Fin 64) : EReal := res1 outs c K (ValueIdx.ix2 0 j)
/-- Region `K`'s column sum of squares at column `j`. -/
noncomputable def chunkSq (outs : Outs (F := Ideal)) (c : Dev nD) (K : Fin 16) (j : Fin 64) : EReal := res2 outs c K (ValueIdx.ix2 0 j)

/-- The stacked sum at column `j` is the sixteen rows' entries at `j` added up, from the zero word. -/
theorem stackSum_apply (r : Fin 16 → (⟨S1x64, .f32⟩ : BufTy).Contents (Elt Ideal)) (j : Fin 64) :
    (stackSum r : S1x64.Idx → EReal) (ValueIdx.ix2 0 j) = Ideal.ofBits .f32 0x00000000#32 + ∑ K : Fin 16, (r K : S1x64.Idx → EReal) (ValueIdx.ix2 0 j) := by
  have hR : S16x1x64.Reduces [0] S1x64 := by decide
  unfold stackSum
  rw [hostReduceAdd_apply, Ideal.hostReduceAdd_single _ hR, constant_apply]
  congr 1
  refine Finset.sum_congr rfl fun K _ => ?_
  refine (concatenate_ofFn_apply (t := S16x1x64) (s₁ := S1x1x64) (0 : Fin 3) (fun n => broadcastInDim S1x1x64 ![1, 2] Facts₀.bcast_S1x64_S1x1x64_1_2 (r n)) _ rfl 1 rfl (hR.lift (ValueIdx.ix2 0 j) K) K (Nat.div_one _) (ValueIdx.ix3 0 0 j)
    (by show 0 = K.val % 1; omega)
    (fun b hb => by
      match b with
      | ⟨0, _⟩ => exact absurd rfl hb
      | ⟨1, _⟩ => rfl
      | ⟨2, _⟩ => rfl)).trans ?_
  exact broadcastInDim_apply (s := S1x64) (t := S1x1x64) ![1, 2] _ (r K) (ValueIdx.ix3 (0 : Fin 1) (0 : Fin 1) j) (ValueIdx.ix2 (0 : Fin 1) j) (fun a => by
    match a with
    | ⟨0, _⟩ => rfl
    | ⟨1, _⟩ => simp [ValueIdx.ix2, ValueIdx.ix3])

/-- The element count's word is the real 1000000. -/
theorem nWord : Ideal.ofBits .f32 0x49742400#32 = ((1000000 : ℝ) : EReal) := by
  simp [Ideal.ofBits, Ideal.ieee, -EReal.coe_mul]; norm_num

/-- The mean operand at column `j`: the regions' column sums added up, over the element count. -/
theorem mean_apply (j : Fin 64) :
    (V33 m outs c main_v97 : S1x64.Idx → EReal) (ValueIdx.ix2 0 j)
      = Ideal.div (Ideal.ofBits .f32 0x00000000#32 + ∑ K : Fin 16, chunkSum outs c K j) (Ideal.ofBits .f32 0x49742400#32) := by
  rw [V33_v97]
  unfold meanOf nRow
  rw [hostDivf_apply, stackSum_apply, broadcastInDim_scalar_apply, constant_apply]
  rfl

/-- The variance operand at column `j`: the mean of squares less the squared mean, clamped at the zero word. -/
theorem var_apply (j : Fin 64) :
    (V33 m outs c main_v103 : S1x64.Idx → EReal) (ValueIdx.ix2 0 j)
      = max (Ideal.div (Ideal.ofBits .f32 0x00000000#32 + ∑ K : Fin 16, chunkSq outs c K j) (Ideal.ofBits .f32 0x49742400#32)
              - Ideal.div (Ideal.ofBits .f32 0x00000000#32 + ∑ K : Fin 16, chunkSum outs c K j) (Ideal.ofBits .f32 0x49742400#32)
                * Ideal.div (Ideal.ofBits .f32 0x00000000#32 + ∑ K : Fin 16, chunkSum outs c K j) (Ideal.ofBits .f32 0x49742400#32))
            (Ideal.ofBits .f32 0x00000000#32) := by
  rw [V33_v103]
  unfold varOf meanOf nRow zRow
  rw [maximumf_apply, subf_apply, mulf_apply, hostDivf_apply, hostDivf_apply, stackSum_apply, stackSum_apply,
    broadcastInDim_scalar_apply, broadcastInDim_scalar_apply, constant_apply, constant_apply]
  rfl

end AtIdeal

end Cert.KernelIdeal.Tail

end
-- ==== Proof.GlueVal.lean ====
/- (the text of one gather-and-project region, written for region 0, substituted for regions 0 to 15; the rest written once) -/
/-
  The unknowns at the regions' results, for the VALUE of the run: what the chosen unknowns hold at each region's three
  result buffers is what that region's proof data leave there (the hidden array after the last point, the two
  accumulators' arrays after the last write-back), and at the normalising pass's result array what its write-backs leave.
  Each is the chain's fact read through the unknowns' definition, one named equation at a time.
-/
import proofs.«400866_j57071525429608_2_alg».proof.Proof.Glue
import proofs.«400866_j57071525429608_2_alg».proof.Proof.HostTail

set_option maxRecDepth 16384

noncomputable section

namespace Cert.KernelIdeal.Glue

open Cert.KernelIdeal Cert.KernelIdeal.Gen Cert.KernelIdeal.P2
open Idealize.ShloMosaic Idealize.ShloMosaic.TcCoe
open Idealize.ShloMosaic.Pipeline (Dat)

variable {F : FTy → Type} [FloatOps F]

/-! ## The regions' results among any unknowns, by name -/

section TailAt
variable (o : Outs (F := F)) (c : Dev nD)
theorem tail_res0_0 : Tail.res0 o c 0 = o 2 main_v13_0 c := rfl
theorem tail_res1_0 : Tail.res1 o c 0 = o 2 main_v13_1 c := rfl
theorem tail_res2_0 : Tail.res2 o c 0 = o 2 main_v13_2 c := rfl
theorem tail_res0_1 : Tail.res0 o c 1 = o 4 main_v16_0 c := rfl
theorem tail_res1_1 : Tail.res1 o c 1 = o 4 main_v16_1 c := rfl
theorem tail_res2_1 : Tail.res2 o c 1 = o 4 main_v16_2 c := rfl
theorem tail_res0_2 : Tail.res0 o c 2 = o 6 main_v19_0 c := rfl
theorem tail_res1_2 : Tail.res1 o c 2 = o 6 main_v19_1 c := rfl
theorem tail_res2_2 : Tail.res2 o c 2 = o 6 main_v19_2 c := rfl
theorem tail_res0_3 : Tail.res0 o c 3 = o 8 main_v22_0 c := rfl
theorem tail_res1_3 : Tail.res1 o c 3 = o 8 main_v22_1 c := rfl
theorem tail_res2_3 : Tail.res2 o c 3 = o 8 main_v22_2 c := rfl
theorem tail_res0_4 : Tail.res0 o c 4 = o 10 main_v25_0 c := rfl
theorem tail_res1_4 : Tail.res1 o c 4 = o 10 main_v25_1 c := rfl
theorem tail_res2_4 : Tail.res2 o c 4 = o 10 main_v25_2 c := rfl
theorem tail_res0_5 : Tail.res0 o c 5 = o 12 main_v28_0 c := rfl
theorem tail_res1_5 : Tail.res1 o c 5 = o 12 main_v28_1 c := rfl
theorem tail_res2_5 : Tail.res2 o c 5 = o 12 main_v28_2 c := rfl
theorem tail_res0_6 : Tail.res0 o c 6 = o 14 main_v31_0 c := rfl
theorem tail_res1_6 : Tail.res1 o c 6 = o 14 main_v31_1 c := rfl
theorem tail_res2_6 : Tail.res2 o c 6 = o 14 main_v31_2 c := rfl
theorem tail_res0_7 : Tail.res0 o c 7 = o 16 main_v34_0 c := rfl
theorem tail_res1_7 : Tail.res1 o c 7 = o 16 main_v34_1 c := rfl
theorem tail_res2_7 : Tail.res2 o c 7 = o 16 main_v34_2 c := rfl
theorem tail_res0_8 : Tail.res0 o c 8 = o 18 main_v37_0 c := rfl
theorem tail_res1_8 : Tail.res1 o c 8 = o 18 main_v37_1 c := rfl
theorem tail_res2_8 : Tail.res2 o c 8 = o 18 main_v37_2 c := rfl
theorem tail_res0_9 : Tail.res0 o c 9 = o 20 main_v40_0 c := rfl
theorem tail_res1_9 : Tail.res1 o c 9 = o 20 main_v40_1 c := rfl
theorem tail_res2_9 : Tail.res2 o c 9 = o 20 main_v40_2 c := rfl
theorem tail_res0_10 : Tail.res0 o c 10 = o 22 main_v43_0 c := rfl
theorem tail_res1_10 : Tail.res1 o c 10 = o 22 main_v43_1 c := rfl
theorem tail_res2_10 : Tail.res2 o c 10 = o 22 main_v43_2 c := rfl
theorem tail_res0_11 : Tail.res0 o c 11 = o 24 main_v46_0 c := rfl
theorem tail_res1_11 : Tail.res1 o c 11 = o 24 main_v46_1 c := rfl
theorem tail_res2_11 : Tail.res2 o c 11 = o 24 main_v46_2 c := rfl
theorem tail_res0_12 : Tail.res0 o c 12 = o 26 main_v49_0 c := rfl
theorem tail_res1_12 : Tail.res1 o c 12 = o 26 main_v49_1 c := rfl
theorem tail_res2_12 : Tail.res2 o c 12 = o 26 main_v49_2 c := rfl
theorem tail_res0_13 : Tail.res0 o c 13 = o 28 main_v52_0 c := rfl
theorem tail_res1_13 : Tail.res1 o c 13 = o 28 main_v52_1 c := rfl
theorem tail_res2_13 : Tail.res2 o c 13 = o 28 main_v52_2 c := rfl
theorem tail_res0_14 : Tail.res0 o c 14 = o 30 main_v55_0 c := rfl
theorem tail_res1_14 : Tail.res1 o c 14 = o 30 main_v55_1 c := rfl
theorem tail_res2_14 : Tail.res2 o c 14 = o 30 main_v55_2 c := rfl
theorem tail_res0_15 : Tail.res0 o c 15 = o 32 main_v58_0 c := rfl
theorem tail_res1_15 : Tail.res1 o c 15 = o 32 main_v58_1 c := rfl
theorem tail_res2_15 : Tail.res2 o c 15 = o 32 main_v58_2 c := rfl
end TailAt

variable (m : (ℓ : Loc nD τ sig) → Buf (Elt F) ℓ)
  (hE : ∀ (c : Dev nD) (idx : S2x1000000.Idx), ((V0 m c main_arg1 : IVec S2x1000000 32) idx).toNat < 100000)

/-! ### Region 0 -/

/-- The unknowns at its results, for the value of the run. -/
theorem res0_0 (c : Dev nD) : Tail.res0 (outs m hE) c 0
    = P1R0.hAt (atTc (W1 m)) (adm0 m) (hp0_0 m hE) (hp1_0 m hE) c (cfg0 (adm0 m)).N le_rfl :=
  (tail_res0_0 (outs m hE) c).trans ((outs_2 m hE main_v13_0 c).trans (W2_res0 m hE c))
theorem res1_0 (c : Dev nD) : Tail.res1 (outs m hE) c 0 = (d0 m hE c).arrAt 5 (cfg0 (adm0 m)).N :=
  (tail_res1_0 (outs m hE) c).trans ((outs_2 m hE main_v13_1 c).trans (W2_res1 m hE c))
theorem res2_0 (c : Dev nD) : Tail.res2 (outs m hE) c 0 = (d0 m hE c).arrAt 6 (cfg0 (adm0 m)).N :=
  (tail_res2_0 (outs m hE) c).trans ((outs_2 m hE main_v13_2 c).trans (W2_res2 m hE c))

/-! ### Region 1 -/

/-- The unknowns at its results, for the value of the run. -/
theorem res0_1 (c : Dev nD) : Tail.res0 (outs m hE) c 1
    = P1R1.hAt (atTc (W3 m hE)) (adm1 m) (hp0_1 m hE) (hp1_1 m hE) c (cfg1 (adm1 m)).N le_rfl :=
  (tail_res0_1 (outs m hE) c).trans ((outs_4 m hE main_v16_0 c).trans (W4_res0 m hE c))
theorem res1_1 (c : Dev nD) : Tail.res1 (outs m hE) c 1 = (d1 m hE c).arrAt 5 (cfg1 (adm1 m)).N :=
  (tail_res1_1 (outs m hE) c).trans ((outs_4 m hE main_v16_1 c).trans (W4_res1 m hE c))
theorem res2_1 (c : Dev nD) : Tail.res2 (outs m hE) c 1 = (d1 m hE c).arrAt 6 (cfg1 (adm1 m)).N :=
  (tail_res2_1 (outs m hE) c).trans ((outs_4 m hE main_v16_2 c).trans (W4_res2 m hE c))

/-! ### Region 2 -/

/-- The unknowns at its results, for the value of the run. -/
theorem res0_2 (c : Dev nD) : Tail.res0 (outs m hE) c 2
    = P1R2.hAt (atTc (W5 m hE)) (adm2 m) (hp0_2 m hE) (hp1_2 m hE) c (cfg2 (adm2 m)).N le_rfl :=
  (tail_res0_2 (outs m hE) c).trans ((outs_6 m hE main_v19_0 c).trans (W6_res0 m hE c))
theorem res1_2 (c : Dev nD) : Tail.res1 (outs m hE) c 2 = (d2 m hE c).arrAt 5 (cfg2 (adm2 m)).N :=
  (tail_res1_2 (outs m hE) c).trans ((outs_6 m hE main_v19_1 c).trans (W6_res1 m hE c))
theorem res2_2 (c : Dev nD) : Tail.res2 (outs m hE) c 2 = (d2 m hE c).arrAt 6 (cfg2 (adm2 m)).N :=
  (tail_res2_2 (outs m hE) c).trans ((outs_6 m hE main_v19_2 c).trans (W6_res2 m hE c))

/-! ### Region 3 -/

/-- The unknowns at its results, for the value of the run. -/
theorem res0_3 (c : Dev nD) : Tail.res0 (outs m hE) c 3
    = P1R3.hAt (atTc (W7 m hE)) (adm3 m) (hp0_3 m hE) (hp1_3 m hE) c (cfg3 (adm3 m)).N le_rfl :=
  (tail_res0_3 (outs m hE) c).trans ((outs_8 m hE main_v22_0 c).trans (W8_res0 m hE c))
theorem res1_3 (c : Dev nD) : Tail.res1 (outs m hE) c 3 = (d3 m hE c).arrAt 5 (cfg3 (adm3 m)).N :=
  (tail_res1_3 (outs m hE) c).trans ((outs_8 m hE main_v22_1 c).trans (W8_res1 m hE c))
theorem res2_3 (c : Dev nD) : Tail.res2 (outs m hE) c 3 = (d3 m hE c).arrAt 6 (cfg3 (adm3 m)).N :=
  (tail_res2_3 (outs m hE) c).trans ((outs_8 m hE main_v22_2 c).trans (W8_res2 m hE c))

/-! ### Region 4 -/

/-- The unknowns at its results, for the value of the run. -/
theorem res0_4 (c : Dev nD) : Tail.res0 (outs m hE) c 4
    = P1R4.hAt (atTc (W9 m hE)) (adm4 m) (hp0_4 m hE) (hp1_4 m hE) c (cfg4 (adm4 m)).N le_rfl :=
  (tail_res0_4 (outs m hE) c).trans ((outs_10 m hE main_v25_0 c).trans (W10_res0 m hE c))
theorem res1_4 (c : Dev nD) : Tail.res1 (outs m hE) c 4 = (d4 m hE c).arrAt 5 (cfg4 (adm4 m)).N :=
  (tail_res1_4 (outs m hE) c).trans ((outs_10 m hE main_v25_1 c).trans (W10_res1 m hE c))
theorem res2_4 (c : Dev nD) : Tail.res2 (outs m hE) c 4 = (d4 m hE c).arrAt 6 (cfg4 (adm4 m)).N :=
  (tail_res2_4 (outs m hE) c).trans ((outs_10 m hE main_v25_2 c).trans (W10_res2 m hE c))

/-! ### Region 5 -/

/-- The unknowns at its results, for the value of the run. -/
theorem res0_5 (c : Dev nD) : Tail.res0 (outs m hE) c 5
    = P1R5.hAt (atTc (W11 m hE)) (adm5 m) (hp0_5 m hE) (hp1_5 m hE) c (cfg5 (adm5 m)).N le_rfl :=
  (tail_res0_5 (outs m hE) c).trans ((outs_12 m hE main_v28_0 c).trans (W12_res0 m hE c))
theorem res1_5 (c : Dev nD) : Tail.res1 (outs m hE) c 5 = (d5 m hE c).arrAt 5 (cfg5 (adm5 m)).N :=
  (tail_res1_5 (outs m hE) c).trans ((outs_12 m hE main_v28_1 c).trans (W12_res1 m hE c))
theorem res2_5 (c : Dev nD) : Tail.res2 (outs m hE) c 5 = (d5 m hE c).arrAt 6 (cfg5 (adm5 m)).N :=
  (tail_res2_5 (outs m hE) c).trans ((outs_12 m hE main_v28_2 c).trans (W12_res2 m hE c))

/-! ### Region 6 -/

/-- The unknowns at its results, for the value of the run. -/
theorem res0_6 (c : Dev nD) : Tail.res0 (outs m hE) c 6
    = P1R6.hAt (atTc (W13 m hE)) (adm6 m) (hp0_6 m hE) (hp1_6 m hE) c (cfg6 (adm6 m)).N le_rfl :=
  (tail_res0_6 (outs m hE) c).trans ((outs_14 m hE main_v31_0 c).trans (W14_res0 m hE c))
theorem res1_6 (c : Dev nD) : Tail.res1 (outs m hE) c 6 = (d6 m hE c).arrAt 5 (cfg6 (adm6 m)).N :=
  (tail_res1_6 (outs m hE) c).trans ((outs_14 m hE main_v31_1 c).trans (W14_res1 m hE c))
theorem res2_6 (c : Dev nD) : Tail.res2 (outs m hE) c 6 = (d6 m hE c).arrAt 6 (cfg6 (adm6 m)).N :=
  (tail_res2_6 (outs m hE) c).trans ((outs_14 m hE main_v31_2 c).trans (W14_res2 m hE c))

/-! ### Region 7 -/

/-- The unknowns at its results, for the value of the run. -/
theorem res0_7 (c : Dev nD) : Tail.res0 (outs m hE) c 7
    = P1R7.hAt (atTc (W15 m hE)) (adm7 m) (hp0_7 m hE) (hp1_7 m hE) c (cfg7 (adm7 m)).N le_rfl :=
  (tail_res0_7 (outs m hE) c).trans ((outs_16 m hE main_v34_0 c).trans (W16_res0 m hE c))
theorem res1_7 (c : Dev nD) : Tail.res1 (outs m hE) c 7 = (d7 m hE c).arrAt 5 (cfg7 (adm7 m)).N :=
  (tail_res1_7 (outs m hE) c).trans ((outs_16 m hE main_v34_1 c).trans (W16_res1 m hE c))
theorem res2_7 (c : Dev nD) : Tail.res2 (outs m hE) c 7 = (d7 m hE c).arrAt 6 (cfg7 (adm7 m)).N :=
  (tail_res2_7 (outs m hE) c).trans ((outs_16 m hE main_v34_2 c).trans (W16_res2 m hE c))

/-! ### Region 8 -/

/-- The unknowns at its results, for the value of the run. -/
theorem res0_8 (c : Dev nD) : Tail.res0 (outs m hE) c 8
    = P1R8.hAt (atTc (W17 m hE)) (adm8 m) (hp0_8 m hE) (hp1_8 m hE) c (cfg8 (adm8 m)).N le_rfl :=
  (tail_res0_8 (outs m hE) c).trans ((outs_18 m hE main_v37_0 c).trans (W18_res0 m hE c))
theorem res1_8 (c : Dev nD) : Tail.res1 (outs m hE) c 8 = (d8 m hE c).arrAt 5 (cfg8 (adm8 m)).N :=
  (tail_res1_8 (outs m hE) c).trans ((outs_18 m hE main_v37_1 c).trans (W18_res1 m hE c))
theorem res2_8 (c : Dev nD) : Tail.res2 (outs m hE) c 8 = (d8 m hE c).arrAt 6 (cfg8 (adm8 m)).N :=
  (tail_res2_8 (outs m hE) c).trans ((outs_18 m hE main_v37_2 c).trans (W18_res2 m hE c))

/-! ### Region 9 -/

/-- The unknowns at its results, for the value of the run. -/
theorem res0_9 (c : Dev nD) : Tail.res0 (outs m hE) c 9
    = P1R9.hAt (atTc (W19 m hE)) (adm9 m) (hp0_9 m hE) (hp1_9 m hE) c (cfg9 (adm9 m)).N le_rfl :=
  (tail_res0_9 (outs m hE) c).trans ((outs_20 m hE main_v40_0 c).trans (W20_res0 m hE c))
theorem res1_9 (c : Dev nD) : Tail.res1 (outs m hE) c 9 = (d9 m hE c).arrAt 5 (cfg9 (adm9 m)).N :=
  (tail_res1_9 (outs m hE) c).trans ((outs_20 m hE main_v40_1 c).trans (W20_res1 m hE c))
theorem res2_9 (c : Dev nD) : Tail.res2 (outs m hE) c 9 = (d9 m hE c).arrAt 6 (cfg9 (adm9 m)).N :=
  (tail_res2_9 (outs m hE) c).trans ((outs_20 m hE main_v40_2 c).trans (W20_res2 m hE c))

/-! ### Region 10 -/

/-- The unknowns at its results, for the value of the run. -/
theorem res0_10 (c : Dev nD) : Tail.res0 (outs m hE) c 10
    = P1R10.hAt (atTc (W21 m hE)) (adm10 m) (hp0_10 m hE) (hp1_10 m hE) c (cfg10 (adm10 m)).N le_rfl :=
  (tail_res0_10 (outs m hE) c).trans ((outs_22 m hE main_v43_0 c).trans (W22_res0 m hE c))
theorem res1_10 (c : Dev nD) : Tail.res1 (outs m hE) c 10 = (d10 m hE c).arrAt 5 (cfg10 (adm10 m)).N :=
  (tail_res1_10 (outs m hE) c).trans ((outs_22 m hE main_v43_1 c).trans (W22_res1 m hE c))
theorem res2_10 (c : Dev nD) : Tail.res2 (outs m hE) c 10 = (d10 m hE c).arrAt 6 (cfg10 (adm10 m)).N :=
  (tail_res2_10 (outs m hE) c).trans ((outs_22 m hE main_v43_2 c).trans (W22_res2 m hE c))

/-! ### Region 11 -/

/-- The unknowns at its results, for the value of the run. -/
theorem res0_11 (c : Dev nD) : Tail.res0 (outs m hE) c 11
    = P1R11.hAt (atTc (W23 m hE)) (adm11 m) (hp0_11 m hE) (hp1_11 m hE) c (cfg11 (adm11 m)).N le_rfl :=
  (tail_res0_11 (outs m hE) c).trans ((outs_24 m hE main_v46_0 c).trans (W24_res0 m hE c))
theorem res1_11 (c : Dev nD) : Tail.res1 (outs m hE) c 11 = (d11 m hE c).arrAt 5 (cfg11 (adm11 m)).N :=
  (tail_res1_11 (outs m hE) c).trans ((outs_24 m hE main_v46_1 c).trans (W24_res1 m hE c))
theorem res2_11 (c : Dev nD) : Tail.res2 (outs m hE) c 11 = (d11 m hE c).arrAt 6 (cfg11 (adm11 m)).N :=
  (tail_res2_11 (outs m hE) c).trans ((outs_24 m hE main_v46_2 c).trans (W24_res2 m hE c))

/-! ### Region 12 -/

/-- The unknowns at its results, for the value of the run. -/
theorem res0_12 (c : Dev nD) : Tail.res0 (outs m hE) c 12
    = P1R12.hAt (atTc (W25 m hE)) (adm12 m) (hp0_12 m hE) (hp1_12 m hE) c (cfg12 (adm12 m)).N le_rfl :=
  (tail_res0_12 (outs m hE) c).trans ((outs_26 m hE main_v49_0 c).trans (W26_res0 m hE c))
theorem res1_12 (c : Dev nD) : Tail.res1 (outs m hE) c 12 = (d12 m hE c).arrAt 5 (cfg12 (adm12 m)).N :=
  (tail_res1_12 (outs m hE) c).trans ((outs_26 m hE main_v49_1 c).trans (W26_res1 m hE c))
theorem res2_12 (c : Dev nD) : Tail.res2 (outs m hE) c 12 = (d12 m hE c).arrAt 6 (cfg12 (adm12 m)).N :=
  (tail_res2_12 (outs m hE) c).trans ((outs_26 m hE main_v49_2 c).trans (W26_res2 m hE c))

/-! ### Region 13 -/

/-- The unknowns at its results, for the value of the run. -/
theorem res0_13 (c : Dev nD) : Tail.res0 (outs m hE) c 13
    = P1R13.hAt (atTc (W27 m hE)) (adm13 m) (hp0_13 m hE) (hp1_13 m hE) c (cfg13 (adm13 m)).N le_rfl :=
  (tail_res0_13 (outs m hE) c).trans ((outs_28 m hE main_v52_0 c).trans (W28_res0 m hE c))
theorem res1_13 (c : Dev nD) : Tail.res1 (outs m hE) c 13 = (d13 m hE c).arrAt 5 (cfg13 (adm13 m)).N :=
  (tail_res1_13 (outs m hE) c).trans ((outs_28 m hE main_v52_1 c).trans (W28_res1 m hE c))
theorem res2_13 (c : Dev nD) : Tail.res2 (outs m hE) c 13 = (d13 m hE c).arrAt 6 (cfg13 (adm13 m)).N :=
  (tail_res2_13 (outs m hE) c).trans ((outs_28 m hE main_v52_2 c).trans (W28_res2 m hE c))

/-! ### Region 14 -/

/-- The unknowns at its results, for the value of the run. -/
theorem res0_14 (c : Dev nD) : Tail.res0 (outs m hE) c 14
    = P1R14.hAt (atTc (W29 m hE)) (adm14 m) (hp0_14 m hE) (hp1_14 m hE) c (cfg14 (adm14 m)).N le_rfl :=
  (tail_res0_14 (outs m hE) c).trans ((outs_30 m hE main_v55_0 c).trans (W30_res0 m hE c))
theorem res1_14 (c : Dev nD) : Tail.res1 (outs m hE) c 14 = (d14 m hE c).arrAt 5 (cfg14 (adm14 m)).N :=
  (tail_res1_14 (outs m hE) c).trans ((outs_30 m hE main_v55_1 c).trans (W30_res1 m hE c))
theorem res2_14 (c : Dev nD) : Tail.res2 (outs m hE) c 14 = (d14 m hE c).arrAt 6 (cfg14 (adm14 m)).N :=
  (tail_res2_14 (outs m hE) c).trans ((outs_30 m hE main_v55_2 c).trans (W30_res2 m hE c))

/-! ### Region 15 -/

/-- The unknowns at its results, for the value of the run. -/
theorem res0_15 (c : Dev nD) : Tail.res0 (outs m hE) c 15
    = P1R15.hAt (atTc (W31 m hE)) (adm15 m) (hp0_15 m hE) (hp1_15 m hE) c (cfg15 (adm15 m)).N le_rfl :=
  (tail_res0_15 (outs m hE) c).trans ((outs_32 m hE main_v58_0 c).trans (W32_res0 m hE c))
theorem res1_15 (c : Dev nD) : Tail.res1 (outs m hE) c 15 = (d15 m hE c).arrAt 5 (cfg15 (adm15 m)).N :=
  (tail_res1_15 (outs m hE) c).trans ((outs_32 m hE main_v58_1 c).trans (W32_res1 m hE c))
theorem res2_15 (c : Dev nD) : Tail.res2 (outs m hE) c 15 = (d15 m hE c).arrAt 6 (cfg15 (adm15 m)).N :=
  (tail_res2_15 (outs m hE) c).trans ((outs_32 m hE main_v58_2 c).trans (W32_res2 m hE c))

/-! ### Region 16: the normalising pass -/

/-- The unknown at its result, for the value of the run. -/
theorem res16 (c : Dev nD) : outs m hE 34 main_v104 c = (dat16 (atTc (W33 m hE)) c).arrAt 7 cfg16.N :=
  (outs_34 m hE main_v104 c).trans (W34_res m hE c)

end Cert.KernelIdeal.Glue

end
-- ==== Proof.P2Arr.lean ====
/- From blocks to arrays for the normalising pass, the last kernel region.

   The region walks the 1000000 rows in 125 blocks of 8000: at point t its first window holds rows 8000 t … 8000 t + 7999 of
   the hidden array, its six small operands are whole arrays that never move, and its result window is the same rows of the
   result array, written back at every point. Here the blocks are read as parts of their arrays, index by index: a row of the
   hidden array's block is a row of the array; a small operand's block is the array; and, because the 125 result blocks are
   pairwise disjoint (the block index is the point), each row of the result array after the region holds what its own point
   wrote there — the payload of that point's seven blocks, at the row's place in the block. All at a parameter V, the buffer
   contents when the region is entered. -/
import proofs.«400866_j57071525429608_2_alg».proof.Proof.Pass2
import Idealize.ShloMosaic.Lib.Pipeline.Value
import Idealize.ShloMosaic.Lib.ValueIdx

set_option maxRecDepth 16384

noncomputable section

namespace Cert.KernelIdeal.P2

open Cert.KernelIdeal Cert.KernelIdeal.Gen
open Idealize.ShloMosaic Idealize.ShloMosaic.TcCoe
open Idealize.ShloMosaic.Pipeline (Dat)

variable {F : FTy → Type} [FloatOps F]

-- the core's buffer contents when the region is entered
variable (V : (c : Dev nD) → (b : Ref sig .tc) → Buf (Elt F) ((c : Thread nD τ).loc b))

/-! ## Points and rows -/

/-- Row `r` of point `t`'s block is row `8000 t + r` of the array. -/
def rowOf (t : Fin cfg16.N) (r : Fin 8000) : Fin 1000000 :=
  ⟨8000 * t.val + r.val, by have ht : t.val < 125 := t.isLt; have := r.isLt; omega⟩
/-- The point whose block holds row `e` … -/
def ptOf (e : Fin 1000000) : Fin cfg16.N := ⟨e.val / 8000, by show e.val / 8000 < 125; have := e.isLt; omega⟩
/-- … and the row's place inside that block. -/
def inOf (e : Fin 1000000) : Fin 8000 := ⟨e.val % 8000, Nat.mod_lt _ (by decide)⟩

theorem rowOf_ptOf (e : Fin 1000000) : rowOf (ptOf e) (inOf e) = e :=
  Fin.ext (by show 8000 * (e.val / 8000) + e.val % 8000 = e.val; omega)

/-- The printed index maps, decided once over the 125 points: the two row windows' block index is the point on the row axis
    and zero on the other; the six small operands' is zero on both. -/
theorem idx_facts : ∀ t : Fin cfg16.N,
    win16_0.index t (0 : Fin 2) = t.val ∧ win16_0.index t (1 : Fin 2) = 0
    ∧ win16_7.index t (0 : Fin 2) = t.val ∧ win16_7.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = 0 ∧ win16_3.index t (1 : Fin 2) = 0
    ∧ win16_4.index t (0 : Fin 2) = 0 ∧ win16_4.index t (1 : Fin 2) = 0
    ∧ win16_5.index t (0 : Fin 2) = 0 ∧ win16_5.index t (1 : Fin 2) = 0
    ∧ win16_6.index t (0 : Fin 2) = 0 ∧ win16_6.index t (1 : Fin 2) = 0 :=
  (by decide +kernel : ∀ t : Fin grid16.N, _)

/-! ## The input blocks, as parts of their arrays -/

/-- Where row `r`, column `j` of the hidden array's block at point `t` sits in the array. -/
theorem emb0 (t : Fin cfg16.N) (r : Fin 8000) (j : Fin 64) :
    ((cfg16.win 0).blk t).view.emb (ValueIdx.ix2 r j) = ValueIdx.ix2 (rowOf t r) j := by
  obtain ⟨e0, e1, -⟩ := idx_facts t
  funext a; apply Fin.ext
  match a with
  | ⟨0, _⟩ => show win16_0.index t (0 : Fin 2) * 8000 + 1 * r.val = 8000 * t.val + r.val; omega
  | ⟨1, _⟩ => show win16_0.index t (1 : Fin 2) * 64 + 1 * j.val = j.val; omega

/-- The hidden array's block at point `t`, read at a row and a column, is the array at the row's place. -/
theorem iblk16_0_apply (c : Dev nD) (t : Fin cfg16.N) (r : Fin 8000) (j : Fin 64) :
    (iblk16 V c 0 t : S8000x64.Idx → Elt F .f32) (ValueIdx.ix2 r j)
      = (V c main_v59 : S1000000x64.Idx → Elt F .f32) (ValueIdx.ix2 (rowOf t r) j) := by
  show (V c main_v59 : S1000000x64.Idx → Elt F .f32) (((cfg16.win 0).blk t).view.emb (ValueIdx.ix2 r j)) = _
  rw [emb0]

/-- The column means' block is the array. -/
theorem iblk16_1_eq (c : Dev nD) (t : Fin cfg16.N) : (iblk16 V c 1 t : S1x64.Idx → Elt F .f32) = V c main_v97 := by
  obtain ⟨-, -, -, -, e0, e1, -⟩ := idx_facts t
  funext y
  show (V c main_v97 : S1x64.Idx → Elt F .f32) (((cfg16.win 1).blk t).view.emb y) = _
  congr 1; funext a; apply Fin.ext
  match a with
  | ⟨0, _⟩ => show win16_1.index t (0 : Fin 2) * 1 + 1 * (y 0).val = (y 0).val; omega
  | ⟨1, _⟩ => show win16_1.index t (1 : Fin 2) * 64 + 1 * (y 1).val = (y 1).val; omega
/-- The column variances' block is the array. -/
theorem iblk16_2_eq (c : Dev nD) (t : Fin cfg16.N) : (iblk16 V c 2 t : S1x64.Idx → Elt F .f32) = V c main_v103 := by
  obtain ⟨-, -, -, -, -, -, e0, e1, -⟩ := idx_facts t
  funext y
  show (V c main_v103 : S1x64.Idx → Elt F .f32) (((cfg16.win 2).blk t).view.emb y) = _
  congr 1; funext a; apply Fin.ext
  match a with
  | ⟨0, _⟩ => show win16_2.index t (0 : Fin 2) * 1 + 1 * (y 0).val = (y 0).val; omega
  | ⟨1, _⟩ => show win16_2.index t (1 : Fin 2) * 64 + 1 * (y 1).val = (y 1).val; omega
/-- The scale's block is the array. -/
theorem iblk16_3_eq (c : Dev nD) (t : Fin cfg16.N) : (iblk16 V c 3 t : S1x64.Idx → Elt F .f32) = V c main_v8 := by
  obtain ⟨-, -, -, -, -, -, -, -, e0, e1, -⟩ := idx_facts t
  funext y
  show (V c main_v8 : S1x64.Idx → Elt F .f32) (((cfg16.win 3).blk t).view.emb y) = _
  congr 1; funext a; apply Fin.ext
  match a with
  | ⟨0, _⟩ => show win16_3.index t (0 : Fin 2) * 1 + 1 * (y 0).val = (y 0).val; omega
  | ⟨1, _⟩ => show win16_3.index t (1 : Fin 2) * 64 + 1 * (y 1).val = (y 1).val; omega
/-- The shift's block is the array. -/
theorem iblk16_4_eq (c : Dev nD) (t : Fin cfg16.N) : (iblk16 V c 4 t : S1x64.Idx → Elt F .f32) = V c main_v9 := by
  obtain ⟨-, -, -, -, -, -, -, -, -, -, e0, e1, -⟩ := idx_facts t
  funext y
  show (V c main_v9 : S1x64.Idx → Elt F .f32) (((cfg16.win 4).blk t).view.emb y) = _
  congr 1; funext a; apply Fin.ext
  match a with
  | ⟨0, _⟩ => show win16_4.index t (0 : Fin 2) * 1 + 1 * (y 0).val = (y 0).val; omega
  | ⟨1, _⟩ => show win16_4.index t (1 : Fin 2) * 64 + 1 * (y 1).val = (y 1).val; omega
/-- The output weights' block is the array. -/
theorem iblk16_5_eq (c : Dev nD) (t : Fin cfg16.N) : (iblk16 V c 5 t : S1x64.Idx → Elt F .f32) = V c main_arg8 := by
  obtain ⟨-, -, -, -, -, -, -, -, -, -, -, -, e0, e1, -⟩ := idx_facts t
  funext y
  show (V c main_arg8 : S1x64.Idx → Elt F .f32) (((cfg16.win 5).blk t).view.emb y) = _
  congr 1; funext a; apply Fin.ext
  match a with
  | ⟨0, _⟩ => show win16_5.index t (0 : Fin 2) * 1 + 1 * (y 0).val = (y 0).val; omega
  | ⟨1, _⟩ => show win16_5.index t (1 : Fin 2) * 64 + 1 * (y 1).val = (y 1).val; omega
/-- The output bias's block is the array. -/
theorem iblk16_6_eq (c : Dev nD) (t : Fin cfg16.N) : (iblk16 V c 6 t : S1x1.Idx → Elt F .f32) = V c main_v10 := by
  obtain ⟨-, -, -, -, -, -, -, -, -, -, -, -, -, -, e0, e1⟩ := idx_facts t
  funext y
  show (V c main_v10 : S1x1.Idx → Elt F .f32) (((cfg16.win 6).blk t).view.emb y) = _
  congr 1; funext a; apply Fin.ext
  match a with
  | ⟨0, _⟩ => show win16_6.index t (0 : Fin 2) * 1 + 1 * (y 0).val = (y 0).val; omega
  | ⟨1, _⟩ => show win16_6.index t (1 : Fin 2) * 1 + 1 * (y 1).val = (y 1).val; omega

/-! ## The result array, row by row -/

/-- Distinct points have distinct result blocks: the block index on the row axis is the point. -/
theorem idx_inj7 : ∀ t t' : Fin cfg16.N, win16_7.index t = win16_7.index t' → t = t' := fun t t' h => by
  obtain ⟨-, -, e, -⟩ := idx_facts t
  obtain ⟨-, -, e', -⟩ := idx_facts t'
  have h0 := congrFun h (0 : Fin 2)
  exact Fin.ext (by omega)

/-- So two points' result blocks share no index of the array. -/
theorem disjoint7 : ∀ t t' : Fin cfg16.N, (cfg16.win 7).flush t = true → (cfg16.win 7).flush t' = true → t ≠ t' →
    Disjoint ((cfg16.win 7).blk t).view.set ((cfg16.win 7).blk t').view.set :=
  fun t t' _ _ hne => (cfg16.win 7).disjoint_blk fun h => hne (idx_inj7 t t' h)

/-- Where row `r` of the result block at point `t` sits in the result array. -/
theorem emb7 (t : Fin cfg16.N) (r : Fin 8000) :
    ((cfg16.win 7).blk t).view.emb (ValueIdx.ix2 r (0 : Fin 1)) = ValueIdx.ix2 (rowOf t r) (0 : Fin 1) := by
  obtain ⟨-, -, e0, e1, -⟩ := idx_facts t
  funext a; apply Fin.ext
  match a with
  | ⟨0, _⟩ => show win16_7.index t (0 : Fin 2) * 8000 + 1 * r.val = 8000 * t.val + r.val; omega
  | ⟨1, _⟩ => show win16_7.index t (1 : Fin 2) * 1 + 1 * 0 = 0; omega

/-- Row `e` of the result array after the region is what the point holding it wrote: the payload of that point's seven
    blocks, at the row's place in the block. -/
theorem res_apply (c : Dev nD) (e : Fin 1000000) :
    ((dat16 V c).arrAt 7 cfg16.N : S1000000x1.Idx → Elt F .f32) (ValueIdx.ix2 e (0 : Fin 1))
      = k16_pay1 (iblk16 V c 0 (ptOf e)) (iblk16 V c 1 (ptOf e)) (iblk16 V c 2 (ptOf e)) (iblk16 V c 3 (ptOf e))
          (iblk16 V c 4 (ptOf e)) (iblk16 V c 5 (ptOf e)) (iblk16 V c 6 (ptOf e)) (ValueIdx.ix2 (inOf e) (0 : Fin 1)) := by
  have h := (dat16 V c).arrAt_emb_eq_flushed 7 disjoint7 (ptOf e) (flush16_7 _) (ValueIdx.ix2 (inOf e) (0 : Fin 1))
  rw [emb7, rowOf_ptOf] at h
  refine h.trans ?_
  rw [cast_eq]
  show (dat16 V c).after 7 (ptOf e) (ValueIdx.ix2 (inOf e) (0 : Fin 1)) = _
  rw [after16_7, out16_7_eq]

end Cert.KernelIdeal.P2

end
-- ==== Proof.P2Val.lean ====
/-
  The last layer's arithmetic on one block of 8000 edges, read at an index.

  The block's row r of hidden values is centred by the mean row, scaled by the reciprocal square root
  of the variance row plus the guard, multiplied by gamma, shifted by beta and rectified; the result
  row is contracted with W_out's one row (a product of an 8000 × 64 by a 64 × 1 matrix into a zero
  accumulator) and b_out's one number is added. A change of float format is the identity at the ideal
  values, so the element at row r is
    Σ_j max ((h r j − mean j) · rsqrt (var j + eps) · gamma j + beta j) 0 · W_out j + b_out.
-/
import proofs.«400866_j57071525429608_2_alg».proof.Proof.Gen.KernelIdeal.Skeleton
import proofs.«400866_j57071525429608_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.P2Val

open Cert.KernelIdeal Cert.KernelIdeal.Gen
open Idealize.ShloMosaic Idealize.ShloMosaic.ValueIdx
open scoped BigOperators

/-! ## The product's operand indices, axis by axis -/

theorem lhs_0 (i : S8000x1.Idx) (q : dot_S8000x64_S64x1_S8000x1_1_0_0_1_n_n.contr.Idx) :
    (dot_S8000x64_S64x1_S8000x1_1_0_0_1_n_n.lhsIdx i q 0).val = (i 0).val := by
  unfold DotDims.lhsIdx
  rw [dif_neg (show ¬(0 : Fin S8000x64.rank) ∈ dot_S8000x64_S64x1_S8000x1_1_0_0_1_n_n.lhsBatch by decide),
    dif_pos (show (0 : Fin S8000x64.rank) ∈ dot_S8000x64_S64x1_S8000x1_1_0_0_1_n_n.lhsNonContracting by decide)]
  rfl
theorem lhs_1 (i : S8000x1.Idx) (q : dot_S8000x64_S64x1_S8000x1_1_0_0_1_n_n.contr.Idx) :
    (dot_S8000x64_S64x1_S8000x1_1_0_0_1_n_n.lhsIdx i q 1).val = (q ⟨0, by decide⟩).val :=
  dot_S8000x64_S64x1_S8000x1_1_0_0_1_n_n.lhsIdx_val_of_single rfl i q
theorem rhs_0 (i : S8000x1.Idx) (q : dot_S8000x64_S64x1_S8000x1_1_0_0_1_n_n.contr.Idx) :
    (dot_S8000x64_S64x1_S8000x1_1_0_0_1_n_n.rhsIdx i q 0).val = (q ⟨0, by decide⟩).val :=
  dot_S8000x64_S64x1_S8000x1_1_0_0_1_n_n.rhsIdx_val_of_single rfl i q
theorem rhs_1 (i : S8000x1.Idx) (q : dot_S8000x64_S64x1_S8000x1_1_0_0_1_n_n.contr.Idx) :
    (dot_S8000x64_S64x1_S8000x1_1_0_0_1_n_n.rhsIdx i q 1).val = (i 1).val := by
  unfold DotDims.rhsIdx
  rw [dif_neg (show ¬(1 : Fin S64x1.rank) ∈ dot_S8000x64_S64x1_S8000x1_1_0_0_1_n_n.rhsBatch by decide),
    dif_pos (show (1 : Fin S64x1.rank) ∈ dot_S8000x64_S64x1_S8000x1_1_0_0_1_n_n.rhsNonContracting by decide)]
  rfl

/-- The product into a zero accumulator at (r, c): the sum over the 64 contracted positions. -/
theorem matmul_zero_apply (l : FVec Ideal S8000x64 .bf16) (rr : FVec Ideal S64x1 .bf16) (r : Fin 8000) (c : Fin 1) :
    matmul dot_S8000x64_S64x1_S8000x1_1_0_0_1_n_n none l rr (constant (F := Ideal) S8000x1 .f32 0x00000000#32) (ValueIdx.ix2 r c)
      = ∑ k : Fin 64, l (ValueIdx.ix2 r k) * rr (ValueIdx.ix2 k c) := by
  simp only [matmul]
  rw [Ideal.matmul_constant_zero_apply, ← Equiv.sum_comp (contrEquiv1 dot_S8000x64_S64x1_S8000x1_1_0_0_1_n_n 64 rfl rfl).symm]
  refine Finset.sum_congr rfl fun k _ => ?_
  have hk := contrEquiv1_symm_val dot_S8000x64_S64x1_S8000x1_1_0_0_1_n_n 64 rfl rfl k
  have el : dot_S8000x64_S64x1_S8000x1_1_0_0_1_n_n.lhsIdx (ValueIdx.ix2 r c) ((contrEquiv1 dot_S8000x64_S64x1_S8000x1_1_0_0_1_n_n 64 rfl rfl).symm k) = ValueIdx.ix2 r k :=
    funext fun a => Fin.ext (by
      match a with
      | ⟨0, _⟩ => exact lhs_0 _ _
      | ⟨1, _⟩ => exact (lhs_1 _ _).trans hk)
  have er : dot_S8000x64_S64x1_S8000x1_1_0_0_1_n_n.rhsIdx (ValueIdx.ix2 r c) ((contrEquiv1 dot_S8000x64_S64x1_S8000x1_1_0_0_1_n_n 64 rfl rfl).symm k) = ValueIdx.ix2 k c :=
    funext fun a => Fin.ext (by
      match a with
      | ⟨0, _⟩ => exact (rhs_0 _ _).trans hk
      | ⟨1, _⟩ => exact rhs_1 _ _)
  rw [el, er]

/-! ## The layout operations of the body, at an index -/

/-- A row of 64 broadcast over the block's 8000 rows. -/
theorem bc_row (v : FVec Ideal S1x64 .f32) (r : Fin 8000) (j : Fin 64) :
    broadcastTo S8000x64 v broadcasts_S1x64_S8000x64 (ValueIdx.ix2 r j) = v (ValueIdx.ix2 (0 : Fin 1) j) :=
  broadcastTo_1b_ab_apply v broadcasts_S1x64_S8000x64 r j

/-- The one number broadcast over the block's 8000 rows. -/
theorem bc_one (v : FVec Ideal S1x1 .f32) (r : Fin 8000) (c : Fin 1) :
    broadcastTo S8000x1 v broadcasts_S1x1_S8000x1 (ValueIdx.ix2 r c) = v (ValueIdx.ix2 (0 : Fin 1) c) :=
  broadcastTo_1b_ab_apply v broadcasts_S1x1_S8000x1 r c

/-- The one row of 64 as a column. -/
theorem tr_col (v : FVec Ideal S1x64 .f32) (k : Fin 64) (c : Fin 1) :
    transpose S64x1 [1, 0] v transposes_S1x64_p1_0_S64x1 (ValueIdx.ix2 k c) = v (ValueIdx.ix2 c k) :=
  transpose_ix2_apply v transposes_S1x64_p1_0_S64x1 k c

/-! ## The block's element at row r -/

theorem pay_apply (h : Vec Ideal S8000x64 .f32) (mean var gam bet wout : Vec Ideal S1x64 .f32) (bo : Vec Ideal S1x1 .f32)
    (r : Fin 8000) :
    k16_pay1 (F := Ideal) h mean var gam bet wout bo (ValueIdx.ix2 r (0 : Fin 1))
      = ∑ j : Fin 64,
          max ((h (ValueIdx.ix2 r j) - mean (ValueIdx.ix2 (0 : Fin 1) j)) * Ideal.rsqrt (var (ValueIdx.ix2 (0 : Fin 1) j) + Cert.Spec.eps)
                * gam (ValueIdx.ix2 (0 : Fin 1) j) + bet (ValueIdx.ix2 (0 : Fin 1) j)) 0
            * wout (ValueIdx.ix2 (0 : Fin 1) j)
        + bo (ValueIdx.ix2 (0 : Fin 1) (0 : Fin 1)) := by
  unfold k16_pay1
  simp only [shapeCast_self]
  rw [addf_apply, matmul_zero_apply, bc_one]
  refine congrArg (· + bo (ValueIdx.ix2 (0 : Fin 1) (0 : Fin 1))) (Finset.sum_congr rfl fun j _ => ?_)
  rw [truncf_apply, truncf_apply, tr_col, maximumf_apply, addf_apply, mulf_apply, mulf_apply, subf_apply,
    bc_row, bc_row, bc_row, bc_row]
  show max (_ + _) (Ideal.ofBits .f32 0x00000000#32) * _ = _
  rw [Ideal.ofBits_zero_f32]
  rfl

end Cert.KernelIdeal.P2Val

end
-- ==== Proof.KVal.lean ====
/- The top of the kernel program's value: the result array is the edge network's score, given what the first sixteen
   regions leave.

   The last region reads the hidden array (the sixteen regions' rows end to end), the column means and variances the host
   forms from the regions' column sums and sums of squares, and the four weight operands; it writes, row by row, the last
   layer over them; the final host step drops the result's unit axis. If the regions' rows are the hidden values of their
   edges (in the by-endpoint form of the first layer), their column sums and sums of squares are the sums of those values
   and of their squares over the chunk, the weight operands are the argument arrays, and the arguments of the hidden layers
   are real numbers, then every entry of the program's result is the score of its edge. -/
import proofs.«400866_j57071525429608_2_alg».proof.Proof.HostTail
import proofs.«400866_j57071525429608_2_alg».proof.Proof.P2Arr
import proofs.«400866_j57071525429608_2_alg».proof.Proof.Pass2
import proofs.«400866_j57071525429608_2_alg».proof.Proof.P2Val
import proofs.«400866_j57071525429608_2_alg».proof.Proof.Spec
import proofs.«400866_j57071525429608_2_alg».proof.Proof.KernelIdealRegions
import Idealize.ShloMosaic.Lib.ValueIdx
import Idealize.ShloMosaic.PureOps.Ideal.Laws

set_option maxRecDepth 16384

noncomputable section

namespace Cert.KernelIdeal.KVal

open Idealize.ShloMosaic Idealize.ShloMosaic.TcCoe
open Cert.KernelIdeal Cert.KernelIdeal.Gen
open Cert.Spec (IsReal)
open scoped BigOperators

variable (m : (ℓ : Loc nD τ sig) → Buf (Elt Ideal) ℓ) (outs : Outs (F := Ideal)) (c : Dev nD)

/-! ## The argument arrays, as the specification takes them -/

/-- The node features. -/
abbrev xA : FVec Ideal ⟨2, ![100000, 128]⟩ .f32 := V0 m c main_arg0
/-- The edges' endpoints. -/
abbrev edgesA : IVec ⟨2, ![2, 1000000]⟩ 32 := V0 m c main_arg1
/-- The first layer's weights and bias. -/
abbrev WinA : FVec Ideal ⟨2, ![64, 256]⟩ .f32 := V0 m c main_arg2
abbrev binA : FVec Ideal ⟨1, ![64]⟩ .f32 := V0 m c main_arg3
/-- The second layer's weights and bias. -/
abbrev WhA : FVec Ideal ⟨2, ![64, 64]⟩ .f32 := V0 m c main_arg4
abbrev bhA : FVec Ideal ⟨1, ![64]⟩ .f32 := V0 m c main_arg5
/-- The normalisation's scale and shift. -/
abbrev gammaA : FVec Ideal ⟨1, ![64]⟩ .f32 := V0 m c main_arg6
abbrev betaA : FVec Ideal ⟨1, ![64]⟩ .f32 := V0 m c main_arg7
/-- The output layer's weights and bias. -/
abbrev WoutA : FVec Ideal ⟨2, ![1, 64]⟩ .f32 := V0 m c main_arg8
abbrev boutA : FVec Ideal ⟨1, ![1]⟩ .f32 := V0 m c main_arg9

/-- The hidden value of edge `e`, feature `j`, with the first layer's sum taken by endpoint. -/
def hid (e : Fin 1000000) (j : Fin 64) : EReal :=
  ∑ k : Fin 64,
      max (∑ k' : Fin 128, xA m c (ValueIdx.ix2 (Cert.Spec.endpoint (edgesA m c) 0 e) k') * WinA m c (ValueIdx.ix2 k (⟨k'.val, by omega⟩ : Fin 256))
        + ∑ k' : Fin 128, xA m c (ValueIdx.ix2 (Cert.Spec.endpoint (edgesA m c) 1 e) k') * WinA m c (ValueIdx.ix2 k (⟨128 + k'.val, by omega⟩ : Fin 256))
        + binA m c (ValueIdx.ix1 k)) 0 * WhA m c (ValueIdx.ix2 j k)
    + bhA m c (ValueIdx.ix1 j)

/-- … of edge `i` of chunk `K`. -/
abbrev HID (K : Fin 16) (i : Fin 62500) (j : Fin 64) : EReal := hid m c (Cert.Spec.chunk K i) j

/-- Every entry of the program's result is the score of its edge, given what the first sixteen regions leave. -/
theorem kernel_value
    (hA : (outs 34 main_v104 c : S1000000x1.Idx → EReal)
        = ((Cert.KernelIdeal.P2.dat16 (fun c b => V33 m outs c b) c).arrAt 7 cfg16.N : S1000000x1.Idx → EReal))
    (hB0 : ∀ (K : Fin 16) (i : Fin 62500) (j : Fin 64), Tail.chunkRow outs c K i j = HID m c K i j)
    (hB1 : ∀ (K : Fin 16) (j : Fin 64), Tail.chunkSum outs c K j = ∑ i : Fin 62500, HID m c K i j)
    (hB2 : ∀ (K : Fin 16) (j : Fin 64), Tail.chunkSq outs c K j = ∑ i : Fin 62500, HID m c K i j * HID m c K i j)
    (hGgamma : ∀ j : Fin 64, (V33 m outs c main_v8 : S1x64.Idx → EReal) (ValueIdx.ix2 (0 : Fin 1) j) = gammaA m c (ValueIdx.ix1 j))
    (hGbeta : ∀ j : Fin 64, (V33 m outs c main_v9 : S1x64.Idx → EReal) (ValueIdx.ix2 (0 : Fin 1) j) = betaA m c (ValueIdx.ix1 j))
    (hGwout : (V33 m outs c main_arg8 : S1x64.Idx → EReal) = WoutA m c)
    (hGbout : (V33 m outs c main_v10 : S1x1.Idx → EReal) (ValueIdx.ix2 (0 : Fin 1) (0 : Fin 1)) = boutA m c (ValueIdx.ix1 (0 : Fin 1)))
    (hx : ∀ i, IsReal (xA m c i)) (hWin : ∀ i, IsReal (WinA m c i)) (hbin : ∀ i, IsReal (binA m c i))
    (hWh : ∀ i, IsReal (WhA m c i)) (hbh : ∀ i, IsReal (bhA m c i)) (e : Fin 1000000) :
    (V35 m outs c main_v105 : S1000000.Idx → EReal) (ValueIdx.ix1 e)
      = Cert.Spec.G (xA m c) (edgesA m c) (WinA m c) (binA m c) (WhA m c) (bhA m c) (gammaA m c) (betaA m c) (WoutA m c) (boutA m c) (ValueIdx.ix1 e) := by
  -- the column sums, the mean and the variance the specification's law is stated over
  let S : Fin 64 → EReal := fun j => ∑ K : Fin 16, ∑ i : Fin 62500, hid m c (Cert.Spec.chunk K i) j
  let Q : Fin 64 → EReal := fun j => ∑ K : Fin 16, ∑ i : Fin 62500, hid m c (Cert.Spec.chunk K i) j * hid m c (Cert.Spec.chunk K i) j
  let mean : Fin 64 → EReal := fun j => Ideal.div (S j) Cert.Spec.nE
  let var : Fin 64 → EReal := fun j => max (Ideal.div (Q j) Cert.Spec.nE - mean j * mean j) 0
  -- the edge's chunk and place
  have hKlt : e.val / 62500 < 16 := by have := e.isLt; omega
  have hKi : Cert.Spec.chunk ⟨e.val / 62500, hKlt⟩ ⟨e.val % 62500, Nat.mod_lt _ (by decide)⟩ = e :=
    Fin.ext (by show e.val / 62500 * 62500 + e.val % 62500 = e.val; omega)
  -- the seven blocks of the edge's point, read where the last layer reads them
  have h0 : ∀ j : Fin 64, (P2.iblk16 (fun c b => V33 m outs c b) c 0 (P2.ptOf e) : S8000x64.Idx → EReal) (ValueIdx.ix2 (P2.inOf e) j) = hid m c e j := fun j => by
    rw [P2.iblk16_0_apply, P2.rowOf_ptOf]
    show (V33 m outs c main_v59 : S1000000x64.Idx → EReal) (ValueIdx.ix2 e j) = _
    rw [Tail.hcat m outs c ⟨e.val / 62500, hKlt⟩ ⟨e.val % 62500, Nat.mod_lt _ (by decide)⟩ j e
      (by show e.val = e.val / 62500 * 62500 + e.val % 62500; omega), hB0]
    show hid m c (Cert.Spec.chunk _ _) j = _
    rw [hKi]
  have h1 : ∀ j : Fin 64, (P2.iblk16 (fun c b => V33 m outs c b) c 1 (P2.ptOf e) : S1x64.Idx → EReal) (ValueIdx.ix2 (0 : Fin 1) j) = mean j := fun j => by
    rw [P2.iblk16_1_eq]
    show (V33 m outs c main_v97 : S1x64.Idx → EReal) (ValueIdx.ix2 (0 : Fin 1) j) = _
    rw [Tail.mean_apply, Ideal.ofBits_zero_f32, zero_add]
    simp only [hB1]
    rfl
  have h2 : ∀ j : Fin 64, (P2.iblk16 (fun c b => V33 m outs c b) c 2 (P2.ptOf e) : S1x64.Idx → EReal) (ValueIdx.ix2 (0 : Fin 1) j) = var j := fun j => by
    rw [P2.iblk16_2_eq]
    show (V33 m outs c main_v103 : S1x64.Idx → EReal) (ValueIdx.ix2 (0 : Fin 1) j) = _
    rw [Tail.var_apply, Ideal.ofBits_zero_f32, zero_add, zero_add]
    simp only [hB1, hB2]
    rfl
  have h3 : ∀ j : Fin 64, (P2.iblk16 (fun c b => V33 m outs c b) c 3 (P2.ptOf e) : S1x64.Idx → EReal) (ValueIdx.ix2 (0 : Fin 1) j) = gammaA m c (ValueIdx.ix1 j) := fun j => by
    rw [P2.iblk16_3_eq]; exact hGgamma j
  have h4 : ∀ j : Fin 64, (P2.iblk16 (fun c b => V33 m outs c b) c 4 (P2.ptOf e) : S1x64.Idx → EReal) (ValueIdx.ix2 (0 : Fin 1) j) = betaA m c (ValueIdx.ix1 j) := fun j => by
    rw [P2.iblk16_4_eq]; exact hGbeta j
  have h5 : (P2.iblk16 (fun c b => V33 m outs c b) c 5 (P2.ptOf e) : S1x64.Idx → EReal) = WoutA m c := by
    rw [P2.iblk16_5_eq]; exact hGwout
  have h6 : (P2.iblk16 (fun c b => V33 m outs c b) c 6 (P2.ptOf e) : S1x1.Idx → EReal) (ValueIdx.ix2 (0 : Fin 1) (0 : Fin 1)) = boutA m c (ValueIdx.ix1 (0 : Fin 1)) := by
    rw [P2.iblk16_6_eq]; exact hGbout
  -- the program's result at e is the last region's row e, which its point wrote: the last layer over those blocks
  rw [Tail.hres m outs c e, hA, P2.res_apply (fun c b => V33 m outs c b) c e, P2Val.pay_apply, h5, h6]
  simp only [h0, h1, h2, h3, h4]
  exact Cert.Spec.score_of_chunk_forms (xA m c) (edgesA m c) (WinA m c) (binA m c) (WhA m c) (bhA m c) (gammaA m c) (betaA m c)
    (WoutA m c) (boutA m c) hx hWin hbin hWh hbh (hid m c) S Q mean var
    (fun _ _ _ => rfl) (fun _ => rfl) (fun _ => rfl) (fun _ => rfl) (fun _ => rfl) e

/-- The same, as an equation of arrays. -/
theorem kernel_value_arr
    (hA : (outs 34 main_v104 c : S1000000x1.Idx → EReal)
        = ((Cert.KernelIdeal.P2.dat16 (fun c b => V33 m outs c b) c).arrAt 7 cfg16.N : S1000000x1.Idx → EReal))
    (hB0 : ∀ (K : Fin 16) (i : Fin 62500) (j : Fin 64), Tail.chunkRow outs c K i j = HID m c K i j)
    (hB1 : ∀ (K : Fin 16) (j : Fin 64), Tail.chunkSum outs c K j = ∑ i : Fin 62500, HID m c K i j)
    (hB2 : ∀ (K : Fin 16) (j : Fin 64), Tail.chunkSq outs c K j = ∑ i : Fin 62500, HID m c K i j * HID m c K i j)
    (hGgamma : ∀ j : Fin 64, (V33 m outs c main_v8 : S1x64.Idx → EReal) (ValueIdx.ix2 (0 : Fin 1) j) = gammaA m c (ValueIdx.ix1 j))
    (hGbeta : ∀ j : Fin 64, (V33 m outs c main_v9 : S1x64.Idx → EReal) (ValueIdx.ix2 (0 : Fin 1) j) = betaA m c (ValueIdx.ix1 j))
    (hGwout : (V33 m outs c main_arg8 : S1x64.Idx → EReal) = WoutA m c)
    (hGbout : (V33 m outs c main_v10 : S1x1.Idx → EReal) (ValueIdx.ix2 (0 : Fin 1) (0 : Fin 1)) = boutA m c (ValueIdx.ix1 (0 : Fin 1)))
    (hx : ∀ i, IsReal (xA m c i)) (hWin : ∀ i, IsReal (WinA m c i)) (hbin : ∀ i, IsReal (binA m c i))
    (hWh : ∀ i, IsReal (WhA m c i)) (hbh : ∀ i, IsReal (bhA m c i)) :
    (V35 m outs c main_v105 : S1000000.Idx → EReal)
      = Cert.Spec.G (xA m c) (edgesA m c) (WinA m c) (binA m c) (WhA m c) (bhA m c) (gammaA m c) (betaA m c) (WoutA m c) (boutA m c) := by
  funext y
  rw [ValueIdx.eq_ix1 y]
  exact kernel_value m outs c hA hB0 hB1 hB2 hGgamma hGbeta hGwout hGbout hx hWin hbin hWh hbh (y 0)

end Cert.KernelIdeal.KVal

end
-- ==== Proof.HostHead.lean ====
/-
  The first host stretch's results, read at an index and carried through the program. Before the first region the
  host cuts the first-layer weight matrix W_in [64 × 256] into its left and right halves [64 × 128] (the columns that
  meet the first and the second endpoint's features), and gives the bias and scale vectors a leading unit axis
  ([64] → [1 × 64], [1] → [1 × 1]). Read at an index these are the argument arrays at the evident index. No later
  item writes them, nor the argument arrays: every later host stretch writes only its own results and every region only
  its own outputs. So at the entry of every region the operands are still what the first stretch made them.

  The contents of the buffers between the items are the valuations `V0`, `V1`, …; a region is entered from an odd one,
  `V1`, `V3`, …, `V33`, collected here as `Vodd K` for K = 0, …, 16. Generic in the float instance.
-/
import proofs.«400866_j57071525429608_2_alg».proof.Proof.KernelIdealRegions
import Idealize.ShloMosaic.Lib.ValueLayout

set_option maxRecDepth 1804

noncomputable section

namespace Cert.KernelIdeal.Head

open Idealize.ShloMosaic Idealize.ShloMosaic.TcCoe Cert.KernelIdeal Cert.KernelIdeal.Gen

variable {F : FTy → Type} [FloatOps F]
variable (m : (ℓ : Loc nD τ sig) → Buf (Elt F) ℓ) (outs : Outs (F := F))

/-! ## After the first host stretch: the operands at an index -/

/-- The left half of W_in: column k' of row k. -/
theorem V1_v4_apply (c : Dev nD) (k : Fin 64) (k' : Fin 128) :
    (V1 m c main_v4 : FVec F S64x128 .f32) (ValueIdx.ix2 k k')
      = (V0 m c main_arg2 : FVec F S64x256 .f32) (ValueIdx.ix2 k (⟨k'.val, by omega⟩ : Fin 256)) := by
  have e : (V1 m c main_v4 : FVec F S64x128 .f32)
      = extractStridedSlice S64x128 ![0, 0] (V0 m c main_arg2 : FVec F S64x256 .f32) slices_S64x256_S64x128_0_0 := by
    show StableHlo.after hostOps0 (V0 m c) (Proc.devRef .tc main_v4) = _
    simp only [hostOps0]
    after_results
  rw [e]
  refine extractStridedSlice_apply _ _ slices_S64x256_S64x128_0_0 _ _ ?_
  intro a
  match a with
  | ⟨0, _⟩ => show k.val = 0 + k.val; omega
  | ⟨1, _⟩ => show k'.val = 0 + k'.val; omega

/-- The right half of W_in: column 128 + k' of row k. -/
theorem V1_v5_apply (c : Dev nD) (k : Fin 64) (k' : Fin 128) :
    (V1 m c main_v5 : FVec F S64x128 .f32) (ValueIdx.ix2 k k')
      = (V0 m c main_arg2 : FVec F S64x256 .f32) (ValueIdx.ix2 k (⟨128 + k'.val, by omega⟩ : Fin 256)) := by
  have e : (V1 m c main_v5 : FVec F S64x128 .f32)
      = extractStridedSlice S64x128 ![0, 128] (V0 m c main_arg2 : FVec F S64x256 .f32) slices_S64x256_S64x128_0_128 := by
    show StableHlo.after hostOps0 (V0 m c) (Proc.devRef .tc main_v5) = _
    simp only [hostOps0]
    after_results
  rw [e]
  refine extractStridedSlice_apply _ _ slices_S64x256_S64x128_0_128 _ _ ?_
  intro a
  match a with
  | ⟨0, _⟩ => show k.val = 0 + k.val; omega
  | ⟨1, _⟩ => show 128 + k'.val = 128 + k'.val; rfl

/-- b_in with a leading unit axis. -/
theorem V1_v6_apply (c : Dev nD) (k : Fin 64) :
    (V1 m c main_v6 : FVec F S1x64 .f32) (ValueIdx.ix2 (0 : Fin 1) k)
      = (V0 m c main_arg3 : FVec F S64 .f32) (ValueIdx.ix1 k) := by
  have e : (V1 m c main_v6 : FVec F S1x64 .f32)
      = shapeCast S1x64 (V0 m c main_arg3 : FVec F S64 .f32) shapeCasts_S64_S1x64 := by
    show StableHlo.after hostOps0 (V0 m c) (Proc.devRef .tc main_v6) = _
    simp only [hostOps0]
    after_results
    rfl
  rw [e]
  exact ValueIdx.shapeCast_a_1a_apply _ shapeCasts_S64_S1x64 (0 : Fin 1) k

/-- b_h with a leading unit axis. -/
theorem V1_v7_apply (c : Dev nD) (k : Fin 64) :
    (V1 m c main_v7 : FVec F S1x64 .f32) (ValueIdx.ix2 (0 : Fin 1) k)
      = (V0 m c main_arg5 : FVec F S64 .f32) (ValueIdx.ix1 k) := by
  have e : (V1 m c main_v7 : FVec F S1x64 .f32)
      = shapeCast S1x64 (V0 m c main_arg5 : FVec F S64 .f32) shapeCasts_S64_S1x64 := by
    show StableHlo.after hostOps0 (V0 m c) (Proc.devRef .tc main_v7) = _
    simp only [hostOps0]
    after_results
    rfl
  rw [e]
  exact ValueIdx.shapeCast_a_1a_apply _ shapeCasts_S64_S1x64 (0 : Fin 1) k

/-- gamma with a leading unit axis. -/
theorem V1_v8_apply (c : Dev nD) (k : Fin 64) :
    (V1 m c main_v8 : FVec F S1x64 .f32) (ValueIdx.ix2 (0 : Fin 1) k)
      = (V0 m c main_arg6 : FVec F S64 .f32) (ValueIdx.ix1 k) := by
  have e : (V1 m c main_v8 : FVec F S1x64 .f32)
      = shapeCast S1x64 (V0 m c main_arg6 : FVec F S64 .f32) shapeCasts_S64_S1x64 := by
    show StableHlo.after hostOps0 (V0 m c) (Proc.devRef .tc main_v8) = _
    simp only [hostOps0]
    after_results
    rfl
  rw [e]
  exact ValueIdx.shapeCast_a_1a_apply _ shapeCasts_S64_S1x64 (0 : Fin 1) k

/-- beta with a leading unit axis. -/
theorem V1_v9_apply (c : Dev nD) (k : Fin 64) :
    (V1 m c main_v9 : FVec F S1x64 .f32) (ValueIdx.ix2 (0 : Fin 1) k)
      = (V0 m c main_arg7 : FVec F S64 .f32) (ValueIdx.ix1 k) := by
  have e : (V1 m c main_v9 : FVec F S1x64 .f32)
      = shapeCast S1x64 (V0 m c main_arg7 : FVec F S64 .f32) shapeCasts_S64_S1x64 := by
    show StableHlo.after hostOps0 (V0 m c) (Proc.devRef .tc main_v9) = _
    simp only [hostOps0]
    after_results
    rfl
  rw [e]
  exact ValueIdx.shapeCast_a_1a_apply _ shapeCasts_S64_S1x64 (0 : Fin 1) k

/-- b_out with a leading unit axis. -/
theorem V1_v10_apply (c : Dev nD) :
    (V1 m c main_v10 : FVec F S1x1 .f32) (ValueIdx.ix2 (0 : Fin 1) (0 : Fin 1))
      = (V0 m c main_arg9 : FVec F S1 .f32) (ValueIdx.ix1 (0 : Fin 1)) := by
  have e : (V1 m c main_v10 : FVec F S1x1 .f32)
      = shapeCast S1x1 (V0 m c main_arg9 : FVec F S1 .f32) shapeCasts_S1_S1x1 := by
    show StableHlo.after hostOps0 (V0 m c) (Proc.devRef .tc main_v10) = _
    simp only [hostOps0]
    after_results
    rfl
  rw [e]
  exact ValueIdx.shapeCast_a_1a_apply _ shapeCasts_S1_S1x1 (0 : Fin 1) (0 : Fin 1)

/-! ## What is written between the first host stretch and the entry of region K

`Wr K`: the results of host stretches 1 … K and the outputs of regions 0 … K − 1. A reference outside it holds at
`V(2K+1)` what it held at `V1`. -/

abbrev Wr1 : List (Ref sig .tc) := hostOps1_W ++ ([main_v13_1, main_v13_2, main_v13_0] ++ [])
abbrev Wr2 : List (Ref sig .tc) := hostOps2_W ++ ([main_v16_1, main_v16_2, main_v16_0] ++ Wr1)
abbrev Wr3 : List (Ref sig .tc) := hostOps3_W ++ ([main_v19_1, main_v19_2, main_v19_0] ++ Wr2)
abbrev Wr4 : List (Ref sig .tc) := hostOps4_W ++ ([main_v22_1, main_v22_2, main_v22_0] ++ Wr3)
abbrev Wr5 : List (Ref sig .tc) := hostOps5_W ++ ([main_v25_1, main_v25_2, main_v25_0] ++ Wr4)
abbrev Wr6 : List (Ref sig .tc) := hostOps6_W ++ ([main_v28_1, main_v28_2, main_v28_0] ++ Wr5)
abbrev Wr7 : List (Ref sig .tc) := hostOps7_W ++ ([main_v31_1, main_v31_2, main_v31_0] ++ Wr6)
abbrev Wr8 : List (Ref sig .tc) := hostOps8_W ++ ([main_v34_1, main_v34_2, main_v34_0] ++ Wr7)
abbrev Wr9 : List (Ref sig .tc) := hostOps9_W ++ ([main_v37_1, main_v37_2, main_v37_0] ++ Wr8)
abbrev Wr10 : List (Ref sig .tc) := hostOps10_W ++ ([main_v40_1, main_v40_2, main_v40_0] ++ Wr9)
abbrev Wr11 : List (Ref sig .tc) := hostOps11_W ++ ([main_v43_1, main_v43_2, main_v43_0] ++ Wr10)
abbrev Wr12 : List (Ref sig .tc) := hostOps12_W ++ ([main_v46_1, main_v46_2, main_v46_0] ++ Wr11)
abbrev Wr13 : List (Ref sig .tc) := hostOps13_W ++ ([main_v49_1, main_v49_2, main_v49_0] ++ Wr12)
abbrev Wr14 : List (Ref sig .tc) := hostOps14_W ++ ([main_v52_1, main_v52_2, main_v52_0] ++ Wr13)
abbrev Wr15 : List (Ref sig .tc) := hostOps15_W ++ ([main_v55_1, main_v55_2, main_v55_0] ++ Wr14)
abbrev Wr16 : List (Ref sig .tc) := hostOps16_W ++ ([main_v58_1, main_v58_2, main_v58_0] ++ Wr15)

section Keep

variable (c : Dev nD) (r : Ref sig .tc)

theorem V3_keep (h : r ∉ Wr1) : V3 m outs c r = V1 m c r :=
  (V3_of m outs c r (fun hm => h (List.mem_append_left _ hm))).trans
    (V2_of m outs c r (fun hm => h (List.mem_append_right _ (List.mem_append_left _ hm))))

theorem V5_keep (h : r ∉ Wr2) : V5 m outs c r = V1 m c r :=
  (V5_of m outs c r (fun hm => h (List.mem_append_left _ hm))).trans
    ((V4_of m outs c r (fun hm => h (List.mem_append_right _ (List.mem_append_left _ hm)))).trans
      (V3_keep m outs c r (fun hm => h (List.mem_append_right _ (List.mem_append_right _ hm)))))

theorem V7_keep (h : r ∉ Wr3) : V7 m outs c r = V1 m c r :=
  (V7_of m outs c r (fun hm => h (List.mem_append_left _ hm))).trans
    ((V6_of m outs c r (fun hm => h (List.mem_append_right _ (List.mem_append_left _ hm)))).trans
      (V5_keep m outs c r (fun hm => h (List.mem_append_right _ (List.mem_append_right _ hm)))))

theorem V9_keep (h : r ∉ Wr4) : V9 m outs c r = V1 m c r :=
  (V9_of m outs c r (fun hm => h (List.mem_append_left _ hm))).trans
    ((V8_of m outs c r (fun hm => h (List.mem_append_right _ (List.mem_append_left _ hm)))).trans
      (V7_keep m outs c r (fun hm => h (List.mem_append_right _ (List.mem_append_right _ hm)))))

theorem V11_keep (h : r ∉ Wr5) : V11 m outs c r = V1 m c r :=
  (V11_of m outs c r (fun hm => h (List.mem_append_left _ hm))).trans
    ((V10_of m outs c r (fun hm => h (List.mem_append_right _ (List.mem_append_left _ hm)))).trans
      (V9_keep m outs c r (fun hm => h (List.mem_append_right _ (List.mem_append_right _ hm)))))

theorem V13_keep (h : r ∉ Wr6) : V13 m outs c r = V1 m c r :=
  (V13_of m outs c r (fun hm => h (List.mem_append_left _ hm))).trans
    ((V12_of m outs c r (fun hm => h (List.mem_append_right _ (List.mem_append_left _ hm)))).trans
      (V11_keep m outs c r (fun hm => h (List.mem_append_right _ (List.mem_append_right _ hm)))))

theorem V15_keep (h : r ∉ Wr7) : V15 m outs c r = V1 m c r :=
  (V15_of m outs c r (fun hm => h (List.mem_append_left _ hm))).trans
    ((V14_of m outs c r (fun hm => h (List.mem_append_right _ (List.mem_append_left _ hm)))).trans
      (V13_keep m outs c r (fun hm => h (List.mem_append_right _ (List.mem_append_right _ hm)))))

theorem V17_keep (h : r ∉ Wr8) : V17 m outs c r = V1 m c r :=
  (V17_of m outs c r (fun hm => h (List.mem_append_left _ hm))).trans
    ((V16_of m outs c r (fun hm => h (List.mem_append_right _ (List.mem_append_left _ hm)))).trans
      (V15_keep m outs c r (fun hm => h (List.mem_append_right _ (List.mem_append_right _ hm)))))

theorem V19_keep (h : r ∉ Wr9) : V19 m outs c r = V1 m c r :=
  (V19_of m outs c r (fun hm => h (List.mem_append_left _ hm))).trans
    ((V18_of m outs c r (fun hm => h (List.mem_append_right _ (List.mem_append_left _ hm)))).trans
      (V17_keep m outs c r (fun hm => h (List.mem_append_right _ (List.mem_append_right _ hm)))))

theorem V21_keep (h : r ∉ Wr10) : V21 m outs c r = V1 m c r :=
  (V21_of m outs c r (fun hm => h (List.mem_append_left _ hm))).trans
    ((V20_of m outs c r (fun hm => h (List.mem_append_right _ (List.mem_append_left _ hm)))).trans
      (V19_keep m outs c r (fun hm => h (List.mem_append_right _ (List.mem_append_right _ hm)))))

theorem V23_keep (h : r ∉ Wr11) : V23 m outs c r = V1 m c r :=
  (V23_of m outs c r (fun hm => h (List.mem_append_left _ hm))).trans
    ((V22_of m outs c r (fun hm => h (List.mem_append_right _ (List.mem_append_left _ hm)))).trans
      (V21_keep m outs c r (fun hm => h (List.mem_append_right _ (List.mem_append_right _ hm)))))

theorem V25_keep (h : r ∉ Wr12) : V25 m outs c r = V1 m c r :=
  (V25_of m outs c r (fun hm => h (List.mem_append_left _ hm))).trans
    ((V24_of m outs c r (fun hm => h (List.mem_append_right _ (List.mem_append_left _ hm)))).trans
      (V23_keep m outs c r (fun hm => h (List.mem_append_right _ (List.mem_append_right _ hm)))))

theorem V27_keep (h : r ∉ Wr13) : V27 m outs c r = V1 m c r :=
  (V27_of m outs c r (fun hm => h (List.mem_append_left _ hm))).trans
    ((V26_of m outs c r (fun hm => h (List.mem_append_right _ (List.mem_append_left _ hm)))).trans
      (V25_keep m outs c r (fun hm => h (List.mem_append_right _ (List.mem_append_right _ hm)))))

theorem V29_keep (h : r ∉ Wr14) : V29 m outs c r = V1 m c r :=
  (V29_of m outs c r (fun hm => h (List.mem_append_left _ hm))).trans
    ((V28_of m outs c r (fun hm => h (List.mem_append_right _ (List.mem_append_left _ hm)))).trans
      (V27_keep m outs c r (fun hm => h (List.mem_append_right _ (List.mem_append_right _ hm)))))

theorem V31_keep (h : r ∉ Wr15) : V31 m outs c r = V1 m c r :=
  (V31_of m outs c r (fun hm => h (List.mem_append_left _ hm))).trans
    ((V30_of m outs c r (fun hm => h (List.mem_append_right _ (List.mem_append_left _ hm)))).trans
      (V29_keep m outs c r (fun hm => h (List.mem_append_right _ (List.mem_append_right _ hm)))))

theorem V33_keep (h : r ∉ Wr16) : V33 m outs c r = V1 m c r :=
  (V33_of m outs c r (fun hm => h (List.mem_append_left _ hm))).trans
    ((V32_of m outs c r (fun hm => h (List.mem_append_right _ (List.mem_append_left _ hm)))).trans
      (V31_keep m outs c r (fun hm => h (List.mem_append_right _ (List.mem_append_right _ hm)))))

end Keep

/-! ## The entry valuations as a function of the region number -/

/-- The buffers' contents when region K is entered (K = 16: the last region). -/
def Vodd (c : Dev nD) : Fin 17 → Valuation τ sig (Elt F)
  | ⟨0, _⟩ => V1 m c
  | ⟨1, _⟩ => V3 m outs c
  | ⟨2, _⟩ => V5 m outs c
  | ⟨3, _⟩ => V7 m outs c
  | ⟨4, _⟩ => V9 m outs c
  | ⟨5, _⟩ => V11 m outs c
  | ⟨6, _⟩ => V13 m outs c
  | ⟨7, _⟩ => V15 m outs c
  | ⟨8, _⟩ => V17 m outs c
  | ⟨9, _⟩ => V19 m outs c
  | ⟨10, _⟩ => V21 m outs c
  | ⟨11, _⟩ => V23 m outs c
  | ⟨12, _⟩ => V25 m outs c
  | ⟨13, _⟩ => V27 m outs c
  | ⟨14, _⟩ => V29 m outs c
  | ⟨15, _⟩ => V31 m outs c
  | ⟨16, _⟩ => V33 m outs c
  | ⟨_ + 17, h⟩ => absurd h (Nat.not_lt.2 (Nat.le_add_left _ _))

/-! `Vodd` at each literal region number. -/
theorem Vodd_0 (c : Dev nD) (h : 0 < 17) : Vodd m outs c ⟨0, h⟩ = V1 m c := by rw [Vodd]
theorem Vodd_1 (c : Dev nD) (h : 1 < 17) : Vodd m outs c ⟨1, h⟩ = V3 m outs c := by rw [Vodd]
theorem Vodd_2 (c : Dev nD) (h : 2 < 17) : Vodd m outs c ⟨2, h⟩ = V5 m outs c := by rw [Vodd]
theorem Vodd_3 (c : Dev nD) (h : 3 < 17) : Vodd m outs c ⟨3, h⟩ = V7 m outs c := by rw [Vodd]
theorem Vodd_4 (c : Dev nD) (h : 4 < 17) : Vodd m outs c ⟨4, h⟩ = V9 m outs c := by rw [Vodd]
theorem Vodd_5 (c : Dev nD) (h : 5 < 17) : Vodd m outs c ⟨5, h⟩ = V11 m outs c := by rw [Vodd]
theorem Vodd_6 (c : Dev nD) (h : 6 < 17) : Vodd m outs c ⟨6, h⟩ = V13 m outs c := by rw [Vodd]
theorem Vodd_7 (c : Dev nD) (h : 7 < 17) : Vodd m outs c ⟨7, h⟩ = V15 m outs c := by rw [Vodd]
theorem Vodd_8 (c : Dev nD) (h : 8 < 17) : Vodd m outs c ⟨8, h⟩ = V17 m outs c := by rw [Vodd]
theorem Vodd_9 (c : Dev nD) (h : 9 < 17) : Vodd m outs c ⟨9, h⟩ = V19 m outs c := by rw [Vodd]
theorem Vodd_10 (c : Dev nD) (h : 10 < 17) : Vodd m outs c ⟨10, h⟩ = V21 m outs c := by rw [Vodd]
theorem Vodd_11 (c : Dev nD) (h : 11 < 17) : Vodd m outs c ⟨11, h⟩ = V23 m outs c := by rw [Vodd]
theorem Vodd_12 (c : Dev nD) (h : 12 < 17) : Vodd m outs c ⟨12, h⟩ = V25 m outs c := by rw [Vodd]
theorem Vodd_13 (c : Dev nD) (h : 13 < 17) : Vodd m outs c ⟨13, h⟩ = V27 m outs c := by rw [Vodd]
theorem Vodd_14 (c : Dev nD) (h : 14 < 17) : Vodd m outs c ⟨14, h⟩ = V29 m outs c := by rw [Vodd]
theorem Vodd_15 (c : Dev nD) (h : 15 < 17) : Vodd m outs c ⟨15, h⟩ = V31 m outs c := by rw [Vodd]
theorem Vodd_16 (c : Dev nD) (h : 16 < 17) : Vodd m outs c ⟨16, h⟩ = V33 m outs c := by rw [Vodd]

section Down

variable {r : Ref sig .tc}

theorem notMem15 (h : r ∉ Wr16) : r ∉ Wr15 := fun hm => h (List.mem_append_right _ (List.mem_append_right _ hm))
theorem notMem14 (h : r ∉ Wr16) : r ∉ Wr14 := fun hm => notMem15 h (List.mem_append_right _ (List.mem_append_right _ hm))
theorem notMem13 (h : r ∉ Wr16) : r ∉ Wr13 := fun hm => notMem14 h (List.mem_append_right _ (List.mem_append_right _ hm))
theorem notMem12 (h : r ∉ Wr16) : r ∉ Wr12 := fun hm => notMem13 h (List.mem_append_right _ (List.mem_append_right _ hm))
theorem notMem11 (h : r ∉ Wr16) : r ∉ Wr11 := fun hm => notMem12 h (List.mem_append_right _ (List.mem_append_right _ hm))
theorem notMem10 (h : r ∉ Wr16) : r ∉ Wr10 := fun hm => notMem11 h (List.mem_append_right _ (List.mem_append_right _ hm))
theorem notMem9 (h : r ∉ Wr16) : r ∉ Wr9 := fun hm => notMem10 h (List.mem_append_right _ (List.mem_append_right _ hm))
theorem notMem8 (h : r ∉ Wr16) : r ∉ Wr8 := fun hm => notMem9 h (List.mem_append_right _ (List.mem_append_right _ hm))
theorem notMem7 (h : r ∉ Wr16) : r ∉ Wr7 := fun hm => notMem8 h (List.mem_append_right _ (List.mem_append_right _ hm))
theorem notMem6 (h : r ∉ Wr16) : r ∉ Wr6 := fun hm => notMem7 h (List.mem_append_right _ (List.mem_append_right _ hm))
theorem notMem5 (h : r ∉ Wr16) : r ∉ Wr5 := fun hm => notMem6 h (List.mem_append_right _ (List.mem_append_right _ hm))
theorem notMem4 (h : r ∉ Wr16) : r ∉ Wr4 := fun hm => notMem5 h (List.mem_append_right _ (List.mem_append_right _ hm))
theorem notMem3 (h : r ∉ Wr16) : r ∉ Wr3 := fun hm => notMem4 h (List.mem_append_right _ (List.mem_append_right _ hm))
theorem notMem2 (h : r ∉ Wr16) : r ∉ Wr2 := fun hm => notMem3 h (List.mem_append_right _ (List.mem_append_right _ hm))
theorem notMem1 (h : r ∉ Wr16) : r ∉ Wr1 := fun hm => notMem2 h (List.mem_append_right _ (List.mem_append_right _ hm))

end Down

/-- A reference that nothing after the first host stretch writes holds, at every region's entry, what it held
    after that stretch. -/
theorem Vodd_keep (c : Dev nD) (K : Fin 17) (r : Ref sig .tc) (h : r ∉ Wr16) : Vodd m outs c K r = V1 m c r := by
  match K with
  | ⟨0, _⟩ => rw [Vodd_0]
  | ⟨1, _⟩ => rw [Vodd_1]; exact V3_keep m outs c r (notMem1 h)
  | ⟨2, _⟩ => rw [Vodd_2]; exact V5_keep m outs c r (notMem2 h)
  | ⟨3, _⟩ => rw [Vodd_3]; exact V7_keep m outs c r (notMem3 h)
  | ⟨4, _⟩ => rw [Vodd_4]; exact V9_keep m outs c r (notMem4 h)
  | ⟨5, _⟩ => rw [Vodd_5]; exact V11_keep m outs c r (notMem5 h)
  | ⟨6, _⟩ => rw [Vodd_6]; exact V13_keep m outs c r (notMem6 h)
  | ⟨7, _⟩ => rw [Vodd_7]; exact V15_keep m outs c r (notMem7 h)
  | ⟨8, _⟩ => rw [Vodd_8]; exact V17_keep m outs c r (notMem8 h)
  | ⟨9, _⟩ => rw [Vodd_9]; exact V19_keep m outs c r (notMem9 h)
  | ⟨10, _⟩ => rw [Vodd_10]; exact V21_keep m outs c r (notMem10 h)
  | ⟨11, _⟩ => rw [Vodd_11]; exact V23_keep m outs c r (notMem11 h)
  | ⟨12, _⟩ => rw [Vodd_12]; exact V25_keep m outs c r (notMem12 h)
  | ⟨13, _⟩ => rw [Vodd_13]; exact V27_keep m outs c r (notMem13 h)
  | ⟨14, _⟩ => rw [Vodd_14]; exact V29_keep m outs c r (notMem14 h)
  | ⟨15, _⟩ => rw [Vodd_15]; exact V31_keep m outs c r (notMem15 h)
  | ⟨16, _⟩ => rw [Vodd_16]; exact V33_keep m outs c r h
  | ⟨_ + 17, h'⟩ => exact absurd h' (by omega)

/-! ## At every region's entry: the operands at an index, and the arguments -/

section Entry

variable (c : Dev nD) (K : Fin 17)

/-- The left half of W_in at region K's entry. -/
theorem v4_apply (k : Fin 64) (k' : Fin 128) :
    (Vodd m outs c K main_v4 : FVec F S64x128 .f32) (ValueIdx.ix2 k k')
      = (V0 m c main_arg2 : FVec F S64x256 .f32) (ValueIdx.ix2 k (⟨k'.val, by omega⟩ : Fin 256)) := by
  rw [Vodd_keep m outs c K main_v4 (by decide)]; exact V1_v4_apply m c k k'

/-- The right half of W_in at region K's entry. -/
theorem v5_apply (k : Fin 64) (k' : Fin 128) :
    (Vodd m outs c K main_v5 : FVec F S64x128 .f32) (ValueIdx.ix2 k k')
      = (V0 m c main_arg2 : FVec F S64x256 .f32) (ValueIdx.ix2 k (⟨128 + k'.val, by omega⟩ : Fin 256)) := by
  rw [Vodd_keep m outs c K main_v5 (by decide)]; exact V1_v5_apply m c k k'

/-- b_in at region K's entry. -/
theorem v6_apply (k : Fin 64) :
    (Vodd m outs c K main_v6 : FVec F S1x64 .f32) (ValueIdx.ix2 (0 : Fin 1) k)
      = (V0 m c main_arg3 : FVec F S64 .f32) (ValueIdx.ix1 k) := by
  rw [Vodd_keep m outs c K main_v6 (by decide)]; exact V1_v6_apply m c k

/-- b_h at region K's entry. -/
theorem v7_apply (k : Fin 64) :
    (Vodd m outs c K main_v7 : FVec F S1x64 .f32) (ValueIdx.ix2 (0 : Fin 1) k)
      = (V0 m c main_arg5 : FVec F S64 .f32) (ValueIdx.ix1 k) := by
  rw [Vodd_keep m outs c K main_v7 (by decide)]; exact V1_v7_apply m c k

/-- gamma at region K's entry. -/
theorem v8_apply (k : Fin 64) :
    (Vodd m outs c K main_v8 : FVec F S1x64 .f32) (ValueIdx.ix2 (0 : Fin 1) k)
      = (V0 m c main_arg6 : FVec F S64 .f32) (ValueIdx.ix1 k) := by
  rw [Vodd_keep m outs c K main_v8 (by decide)]; exact V1_v8_apply m c k

/-- beta at region K's entry. -/
theorem v9_apply (k : Fin 64) :
    (Vodd m outs c K main_v9 : FVec F S1x64 .f32) (ValueIdx.ix2 (0 : Fin 1) k)
      = (V0 m c main_arg7 : FVec F S64 .f32) (ValueIdx.ix1 k) := by
  rw [Vodd_keep m outs c K main_v9 (by decide)]; exact V1_v9_apply m c k

/-- b_out at region K's entry. -/
theorem v10_apply :
    (Vodd m outs c K main_v10 : FVec F S1x1 .f32) (ValueIdx.ix2 (0 : Fin 1) (0 : Fin 1))
      = (V0 m c main_arg9 : FVec F S1 .f32) (ValueIdx.ix1 (0 : Fin 1)) := by
  rw [Vodd_keep m outs c K main_v10 (by decide)]; exact V1_v10_apply m c

/-- The node features are never written. -/
theorem arg0_keep : Vodd m outs c K main_arg0 = V0 m c main_arg0 :=
  (Vodd_keep m outs c K main_arg0 (by decide)).trans (V1_of m c main_arg0 (by decide))
/-- W_in is never written. -/
theorem arg2_keep : Vodd m outs c K main_arg2 = V0 m c main_arg2 :=
  (Vodd_keep m outs c K main_arg2 (by decide)).trans (V1_of m c main_arg2 (by decide))
/-- W_h is never written. -/
theorem arg4_keep : Vodd m outs c K main_arg4 = V0 m c main_arg4 :=
  (Vodd_keep m outs c K main_arg4 (by decide)).trans (V1_of m c main_arg4 (by decide))
/-- W_out is never written. -/
theorem arg8_keep : Vodd m outs c K main_arg8 = V0 m c main_arg8 :=
  (Vodd_keep m outs c K main_arg8 (by decide)).trans (V1_of m c main_arg8 (by decide))

end Entry

end Cert.KernelIdeal.Head

end
-- ==== Proof.P1Val.lean ====
/-
  The first layers' arithmetic for one edge, read at an index.

  From the two endpoint rows row0, row1 (128 numbers each) and the two halves W1, W2 of W_in (64 × 128
  each) the body forms row0 · W1ᵀ + row1 · W2ᵀ + b_in, rectifies it, multiplies by W_hᵀ and adds b_h:
  the edge's hidden row of 64 numbers. It then adds the hidden row to a running sum and its
  elementwise square to a running sum of squares. The transposes re-index, the changes of float
  format are the identity at the ideal values, and each product is taken into a zero accumulator, so
  hidden j = Σ_k max (Σ_k' row0 k' · W1 k k' + Σ_k' row1 k' · W2 k k' + b_in k) 0 · W_h j k + b_h j.
-/
import proofs.«400866_j57071525429608_2_alg».proof.Proof.Gen.KernelIdeal.Skeleton
import proofs.«400866_j57071525429608_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.P1Val

open Cert.KernelIdeal Cert.KernelIdeal.Gen
open Idealize.ShloMosaic Idealize.ShloMosaic.ValueIdx
open scoped BigOperators

/-! ## The two products' operand indices, axis by axis -/

theorem mmA_lhs_0 (i : S1x64.Idx) (q : dot_S1x128_S128x64_S1x64_1_0_0_1_n_n.contr.Idx) :
    (dot_S1x128_S128x64_S1x64_1_0_0_1_n_n.lhsIdx i q 0).val = (i 0).val := by
  unfold DotDims.lhsIdx
  rw [dif_neg (show ¬(0 : Fin S1x128.rank) ∈ dot_S1x128_S128x64_S1x64_1_0_0_1_n_n.lhsBatch by decide),
    dif_pos (show (0 : Fin S1x128.rank) ∈ dot_S1x128_S128x64_S1x64_1_0_0_1_n_n.lhsNonContracting by decide)]
  rfl
theorem mmA_lhs_1 (i : S1x64.Idx) (q : dot_S1x128_S128x64_S1x64_1_0_0_1_n_n.contr.Idx) :
    (dot_S1x128_S128x64_S1x64_1_0_0_1_n_n.lhsIdx i q 1).val = (q ⟨0, by decide⟩).val :=
  dot_S1x128_S128x64_S1x64_1_0_0_1_n_n.lhsIdx_val_of_single rfl i q
theorem mmA_rhs_0 (i : S1x64.Idx) (q : dot_S1x128_S128x64_S1x64_1_0_0_1_n_n.contr.Idx) :
    (dot_S1x128_S128x64_S1x64_1_0_0_1_n_n.rhsIdx i q 0).val = (q ⟨0, by decide⟩).val :=
  dot_S1x128_S128x64_S1x64_1_0_0_1_n_n.rhsIdx_val_of_single rfl i q
theorem mmA_rhs_1 (i : S1x64.Idx) (q : dot_S1x128_S128x64_S1x64_1_0_0_1_n_n.contr.Idx) :
    (dot_S1x128_S128x64_S1x64_1_0_0_1_n_n.rhsIdx i q 1).val = (i 1).val := by
  unfold DotDims.rhsIdx
  rw [dif_neg (show ¬(1 : Fin S128x64.rank) ∈ dot_S1x128_S128x64_S1x64_1_0_0_1_n_n.rhsBatch by decide),
    dif_pos (show (1 : Fin S128x64.rank) ∈ dot_S1x128_S128x64_S1x64_1_0_0_1_n_n.rhsNonContracting by decide)]
  rfl

/-- The product into a zero accumulator at (r, c): the sum over the 128 contracted positions. -/
theorem mmA_zero_apply (l : FVec Ideal S1x128 .bf16) (rr : FVec Ideal S128x64 .bf16) (r : Fin 1) (c : Fin 64) :
    matmul dot_S1x128_S128x64_S1x64_1_0_0_1_n_n none l rr (constant (F := Ideal) S1x64 .f32 0x00000000#32) (ValueIdx.ix2 r c)
      = ∑ k : Fin 128, l (ValueIdx.ix2 r k) * rr (ValueIdx.ix2 k c) := by
  simp only [matmul]
  rw [Ideal.matmul_constant_zero_apply, ← Equiv.sum_comp (contrEquiv1 dot_S1x128_S128x64_S1x64_1_0_0_1_n_n 128 rfl rfl).symm]
  refine Finset.sum_congr rfl fun k _ => ?_
  have hk := contrEquiv1_symm_val dot_S1x128_S128x64_S1x64_1_0_0_1_n_n 128 rfl rfl k
  have el : dot_S1x128_S128x64_S1x64_1_0_0_1_n_n.lhsIdx (ValueIdx.ix2 r c) ((contrEquiv1 dot_S1x128_S128x64_S1x64_1_0_0_1_n_n 128 rfl rfl).symm k) = ValueIdx.ix2 r k :=
    funext fun a => Fin.ext (by
      match a with
      | ⟨0, _⟩ => exact mmA_lhs_0 _ _
      | ⟨1, _⟩ => exact (mmA_lhs_1 _ _).trans hk)
  have er : dot_S1x128_S128x64_S1x64_1_0_0_1_n_n.rhsIdx (ValueIdx.ix2 r c) ((contrEquiv1 dot_S1x128_S128x64_S1x64_1_0_0_1_n_n 128 rfl rfl).symm k) = ValueIdx.ix2 k c :=
    funext fun a => Fin.ext (by
      match a with
      | ⟨0, _⟩ => exact (mmA_rhs_0 _ _).trans hk
      | ⟨1, _⟩ => exact mmA_rhs_1 _ _)
  rw [el, er]

theorem mmB_lhs_0 (i : S1x64.Idx) (q : dot_S1x64_S64x64_S1x64_1_0_0_1_n_n.contr.Idx) :
    (dot_S1x64_S64x64_S1x64_1_0_0_1_n_n.lhsIdx i q 0).val = (i 0).val := by
  unfold DotDims.lhsIdx
  rw [dif_neg (show ¬(0 : Fin S1x64.rank) ∈ dot_S1x64_S64x64_S1x64_1_0_0_1_n_n.lhsBatch by decide),
    dif_pos (show (0 : Fin S1x64.rank) ∈ dot_S1x64_S64x64_S1x64_1_0_0_1_n_n.lhsNonContracting by decide)]
  rfl
theorem mmB_lhs_1 (i : S1x64.Idx) (q : dot_S1x64_S64x64_S1x64_1_0_0_1_n_n.contr.Idx) :
    (dot_S1x64_S64x64_S1x64_1_0_0_1_n_n.lhsIdx i q 1).val = (q ⟨0, by decide⟩).val :=
  dot_S1x64_S64x64_S1x64_1_0_0_1_n_n.lhsIdx_val_of_single rfl i q
theorem mmB_rhs_0 (i : S1x64.Idx) (q : dot_S1x64_S64x64_S1x64_1_0_0_1_n_n.contr.Idx) :
    (dot_S1x64_S64x64_S1x64_1_0_0_1_n_n.rhsIdx i q 0).val = (q ⟨0, by decide⟩).val :=
  dot_S1x64_S64x64_S1x64_1_0_0_1_n_n.rhsIdx_val_of_single rfl i q
theorem mmB_rhs_1 (i : S1x64.Idx) (q : dot_S1x64_S64x64_S1x64_1_0_0_1_n_n.contr.Idx) :
    (dot_S1x64_S64x64_S1x64_1_0_0_1_n_n.rhsIdx i q 1).val = (i 1).val := by
  unfold DotDims.rhsIdx
  rw [dif_neg (show ¬(1 : Fin S64x64.rank) ∈ dot_S1x64_S64x64_S1x64_1_0_0_1_n_n.rhsBatch by decide),
    dif_pos (show (1 : Fin S64x64.rank) ∈ dot_S1x64_S64x64_S1x64_1_0_0_1_n_n.rhsNonContracting by decide)]
  rfl

/-- The product into a zero accumulator at (r, c): the sum over the 64 contracted positions. -/
theorem mmB_zero_apply (l : FVec Ideal S1x64 .bf16) (rr : FVec Ideal S64x64 .bf16) (r : Fin 1) (c : Fin 64) :
    matmul dot_S1x64_S64x64_S1x64_1_0_0_1_n_n none l rr (constant (F := Ideal) S1x64 .f32 0x00000000#32) (ValueIdx.ix2 r c)
      = ∑ k : Fin 64, l (ValueIdx.ix2 r k) * rr (ValueIdx.ix2 k c) := by
  simp only [matmul]
  rw [Ideal.matmul_constant_zero_apply, ← Equiv.sum_comp (contrEquiv1 dot_S1x64_S64x64_S1x64_1_0_0_1_n_n 64 rfl rfl).symm]
  refine Finset.sum_congr rfl fun k _ => ?_
  have hk := contrEquiv1_symm_val dot_S1x64_S64x64_S1x64_1_0_0_1_n_n 64 rfl rfl k
  have el : dot_S1x64_S64x64_S1x64_1_0_0_1_n_n.lhsIdx (ValueIdx.ix2 r c) ((contrEquiv1 dot_S1x64_S64x64_S1x64_1_0_0_1_n_n 64 rfl rfl).symm k) = ValueIdx.ix2 r k :=
    funext fun a => Fin.ext (by
      match a with
      | ⟨0, _⟩ => exact mmB_lhs_0 _ _
      | ⟨1, _⟩ => exact (mmB_lhs_1 _ _).trans hk)
  have er : dot_S1x64_S64x64_S1x64_1_0_0_1_n_n.rhsIdx (ValueIdx.ix2 r c) ((contrEquiv1 dot_S1x64_S64x64_S1x64_1_0_0_1_n_n 64 rfl rfl).symm k) = ValueIdx.ix2 k c :=
    funext fun a => Fin.ext (by
      match a with
      | ⟨0, _⟩ => exact (mmB_rhs_0 _ _).trans hk
      | ⟨1, _⟩ => exact mmB_rhs_1 _ _)
  rw [el, er]

/-! ## The transposes of the body, at an index -/

/-- A half of W_in as a 128 × 64 matrix. -/
theorem tr_half (v : FVec Ideal S64x128 .bf16) (k' : Fin 128) (k : Fin 64) :
    transpose S128x64 [1, 0] v transposes_S64x128_p1_0_S128x64 (ValueIdx.ix2 k' k) = v (ValueIdx.ix2 k k') :=
  transpose_ix2_apply v transposes_S64x128_p1_0_S128x64 k' k

/-- W_h transposed. -/
theorem tr_sq (v : FVec Ideal S64x64 .bf16) (k : Fin 64) (j : Fin 64) :
    transpose S64x64 [1, 0] v transposes_S64x64_p1_0_S64x64 (ValueIdx.ix2 k j) = v (ValueIdx.ix2 j k) :=
  transpose_ix2_apply v transposes_S64x64_p1_0_S64x64 k j

/-! ## The first product: an endpoint row by its half of W_in -/

theorem pay4_apply (row0 : Vec Ideal S1x128 .f32) (W1 : Vec Ideal S64x128 .f32) (k : Fin 64) :
    k0_pay4 (F := Ideal) row0 W1 (ValueIdx.ix2 (0 : Fin 1) k)
      = ∑ k' : Fin 128, row0 (ValueIdx.ix2 (0 : Fin 1) k') * W1 (ValueIdx.ix2 k k') := by
  unfold k0_pay4
  simp only [shapeCast_self]
  rw [mmA_zero_apply]
  refine Finset.sum_congr rfl fun k' _ => ?_
  rw [truncf_apply, tr_half, truncf_apply]

theorem pay3_apply (row1 : Vec Ideal S1x128 .f32) (i : S1x128.Idx) : k0_pay3 (F := Ideal) row1 i = row1 i := rfl

theorem pay5_apply (W2 : Vec Ideal S64x128 .f32) (k' : Fin 128) (k : Fin 64) :
    k0_pay5 (F := Ideal) W2 (ValueIdx.ix2 k' k) = W2 (ValueIdx.ix2 k k') := by
  unfold k0_pay5
  simp only [shapeCast_self]
  rw [tr_half, truncf_apply]

/-! ## The hidden row -/

/-- The hidden row before its copy out, from the body's intermediate values. -/
theorem pay6_apply (row0 row1 : Vec Ideal S1x128 .f32) (W1 W2 : Vec Ideal S64x128 .f32) (bin : Vec Ideal S1x64 .f32)
    (Wh : Vec Ideal S64x64 .f32) (bh : Vec Ideal S1x64 .f32) (j : Fin 64) :
    k0_pay6 (F := Ideal) (k0_pay3 (F := Ideal) row1) (k0_pay4 (F := Ideal) row0 W1) (k0_pay5 (F := Ideal) W2)
      (constant (F := Ideal) S1x64 .f32 0x00000000#32) bin Wh bh (ValueIdx.ix2 (0 : Fin 1) j)
      = ∑ k : Fin 64,
          max (∑ k' : Fin 128, row0 (ValueIdx.ix2 (0 : Fin 1) k') * W1 (ValueIdx.ix2 k k')
              + ∑ k' : Fin 128, row1 (ValueIdx.ix2 (0 : Fin 1) k') * W2 (ValueIdx.ix2 k k')
              + bin (ValueIdx.ix2 (0 : Fin 1) k)) 0
            * Wh (ValueIdx.ix2 j k)
        + bh (ValueIdx.ix2 (0 : Fin 1) j) := by
  unfold k0_pay6
  simp only [shapeCast_self]
  rw [addf_apply, mmB_zero_apply]
  refine congrArg (· + bh (ValueIdx.ix2 (0 : Fin 1) j)) (Finset.sum_congr rfl fun k _ => ?_)
  rw [truncf_apply, tr_sq, truncf_apply, maximumf_apply, addf_apply, addf_apply, mmA_zero_apply, pay4_apply]
  have h2 : ∑ k' : Fin 128, k0_pay3 (F := Ideal) row1 (ValueIdx.ix2 (0 : Fin 1) k') * k0_pay5 (F := Ideal) W2 (ValueIdx.ix2 k' k)
      = ∑ k' : Fin 128, row1 (ValueIdx.ix2 (0 : Fin 1) k') * W2 (ValueIdx.ix2 k k') :=
    Finset.sum_congr rfl fun k' _ => by rw [pay3_apply, pay5_apply]
  rw [h2]
  show max (_ + _) (Ideal.ofBits .f32 0x00000000#32) * _ = _
  rw [Ideal.ofBits_zero_f32]

/-- The hidden row of one edge, as the body stores it. -/
def hrow (row0 row1 : Vec Ideal S1x128 .f32) (W1 W2 : Vec Ideal S64x128 .f32) (bin : Vec Ideal S1x64 .f32)
    (Wh : Vec Ideal S64x64 .f32) (bh : Vec Ideal S1x64 .f32) : FVec Ideal S1x64 .f32 :=
  k0_pay7 (F := Ideal) (k0_pay3 (F := Ideal) row1) (k0_pay4 (F := Ideal) row0 W1) (k0_pay5 (F := Ideal) W2)
      (constant (F := Ideal) S1x64 .f32 0x00000000#32) bin Wh bh

theorem hrow_eq_pay6 (row0 row1 : Vec Ideal S1x128 .f32) (W1 W2 : Vec Ideal S64x128 .f32) (bin : Vec Ideal S1x64 .f32)
    (Wh : Vec Ideal S64x64 .f32) (bh : Vec Ideal S1x64 .f32) :
    hrow row0 row1 W1 W2 bin Wh bh = k0_pay6 (F := Ideal) (k0_pay3 (F := Ideal) row1) (k0_pay4 (F := Ideal) row0 W1) (k0_pay5 (F := Ideal) W2)
      (constant (F := Ideal) S1x64 .f32 0x00000000#32) bin Wh bh := by
  unfold hrow k0_pay7
  exact shapeCast_self _ _

theorem hrow_apply (row0 row1 : Vec Ideal S1x128 .f32) (W1 W2 : Vec Ideal S64x128 .f32) (bin : Vec Ideal S1x64 .f32)
    (Wh : Vec Ideal S64x64 .f32) (bh : Vec Ideal S1x64 .f32) (j : Fin 64) :
    hrow row0 row1 W1 W2 bin Wh bh (ValueIdx.ix2 (0 : Fin 1) j)
      = ∑ k : Fin 64,
          max (∑ k' : Fin 128, row0 (ValueIdx.ix2 (0 : Fin 1) k') * W1 (ValueIdx.ix2 k k')
              + ∑ k' : Fin 128, row1 (ValueIdx.ix2 (0 : Fin 1) k') * W2 (ValueIdx.ix2 k k')
              + bin (ValueIdx.ix2 (0 : Fin 1) k)) 0
            * Wh (ValueIdx.ix2 j k)
        + bh (ValueIdx.ix2 (0 : Fin 1) j) := by
  rw [hrow_eq_pay6, pay6_apply]

/-! ## The running sums -/

theorem sum_apply (row0 row1 : Vec Ideal S1x128 .f32) (W1 W2 : Vec Ideal S64x128 .f32) (bin : Vec Ideal S1x64 .f32)
    (Wh : Vec Ideal S64x64 .f32) (bh : Vec Ideal S1x64 .f32) (acc : Vec Ideal S1x64 .f32) (j : Fin 64) :
    k0_pay8 (F := Ideal) (k0_pay3 (F := Ideal) row1) (k0_pay4 (F := Ideal) row0 W1) (k0_pay5 (F := Ideal) W2)
      (constant (F := Ideal) S1x64 .f32 0x00000000#32) bin Wh bh acc (ValueIdx.ix2 (0 : Fin 1) j)
      = acc (ValueIdx.ix2 (0 : Fin 1) j) + hrow row0 row1 W1 W2 bin Wh bh (ValueIdx.ix2 (0 : Fin 1) j) := by
  rw [hrow_eq_pay6]
  unfold k0_pay8
  simp only [shapeCast_self]
  rfl

theorem sumsq_apply (row0 row1 : Vec Ideal S1x128 .f32) (W1 W2 : Vec Ideal S64x128 .f32) (bin : Vec Ideal S1x64 .f32)
    (Wh : Vec Ideal S64x64 .f32) (bh : Vec Ideal S1x64 .f32) (acc2 : Vec Ideal S1x64 .f32) (j : Fin 64) :
    k0_pay9 (F := Ideal) (k0_pay3 (F := Ideal) row1) (k0_pay4 (F := Ideal) row0 W1) (k0_pay5 (F := Ideal) W2)
      (constant (F := Ideal) S1x64 .f32 0x00000000#32) bin Wh bh acc2 (ValueIdx.ix2 (0 : Fin 1) j)
      = acc2 (ValueIdx.ix2 (0 : Fin 1) j)
        + hrow row0 row1 W1 W2 bin Wh bh (ValueIdx.ix2 (0 : Fin 1) j) * hrow row0 row1 W1 W2 bin Wh bh (ValueIdx.ix2 (0 : Fin 1) j) := by
  rw [hrow_eq_pay6]
  unfold k0_pay9
  simp only [shapeCast_self]
  rfl

/-- The first point's fill of the running sum is zero. -/
theorem zero1_apply (i : S1x64.Idx) : k0_pay1 (F := Ideal) i = 0 := by
  show Ideal.ofBits .f32 0x00000000#32 = 0
  exact Ideal.ofBits_zero_f32

/-- The first point's fill of the running sum of squares is zero. -/
theorem zero2_apply (i : S1x64.Idx) : k0_pay2 (F := Ideal) i = 0 := by
  show Ideal.ofBits .f32 0x00000000#32 = 0
  exact Ideal.ofBits_zero_f32

/-! ## Finiteness -/

/-- With real operands the hidden row is real. -/
theorem hrow_isReal (row0 row1 : Vec Ideal S1x128 .f32) (W1 W2 : Vec Ideal S64x128 .f32) (bin : Vec Ideal S1x64 .f32)
    (Wh : Vec Ideal S64x64 .f32) (bh : Vec Ideal S1x64 .f32)
    (h0 : ∀ i, Cert.Spec.IsReal (row0 i)) (h1 : ∀ i, Cert.Spec.IsReal (row1 i)) (hW1 : ∀ i, Cert.Spec.IsReal (W1 i))
    (hW2 : ∀ i, Cert.Spec.IsReal (W2 i)) (hbin : ∀ i, Cert.Spec.IsReal (bin i)) (hWh : ∀ i, Cert.Spec.IsReal (Wh i))
    (hbh : ∀ i, Cert.Spec.IsReal (bh i)) (j : Fin 64) :
    Cert.Spec.IsReal (hrow row0 row1 W1 W2 bin Wh bh (ValueIdx.ix2 (0 : Fin 1) j)) := by
  rw [hrow_apply]
  exact (Cert.Spec.IsReal.sum _ fun k =>
    ((((Cert.Spec.IsReal.sum _ fun k' => (h0 _).mul (hW1 _)).add
      (Cert.Spec.IsReal.sum _ fun k' => (h1 _).mul (hW2 _))).add (hbin _)).max Cert.Spec.IsReal.zero).mul (hWh _)).add (hbh _)

end Cert.KernelIdeal.P1Val

end
-- ==== Proof.P1StateVal.lean ====
/-
  The values the gather-and-project recursion holds.

  A row of the hidden array is written by its own point and by no other: after n points a row before n
  reads its point's hidden row and a row at or after n what it held at the start. At the ideal
  values, after point n the running sum at feature j is the sum of the hidden rows of the points
  0 … n at j, and the running sum of squares the sum of their squares.
-/
import proofs.«400866_j57071525429608_2_alg».proof.Proof.P1State
import proofs.«400866_j57071525429608_2_alg».proof.Proof.P1Val
import Mathlib.Algebra.BigOperators.Fin
import Idealize.ShloMosaic.Lib.Pipeline.Value
import Idealize.ShloMosaic.Lib.Tactic
import Idealize.ShloMosaic.Lib.ValueIdx

set_option maxRecDepth 100000

noncomputable section

namespace Cert.KernelIdeal.P1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators

/-! ## The hidden array's rows (any float values) -/

section Rows

variable {F : FTy → Type} [FloatOps F]

variable (tb0 : Memref sig .tc .smem S62500 .i32) (tb1 : Memref sig .tc .smem S62500 .i32)
  (xM : Memref sig .tc .hbm S100000x128 .f32) (hM : Memref sig .tc .hbm S62500x64 .f32) (c : Dev nD)
  (N : ℕ) (crd : Fin N → grid0.Coords)
  (x0 x1 : Fin N → Vec F S64x128 .f32) (x2 : Fin N → Vec F S1x64 .f32) (x3 : Fin N → Vec F S64x64 .f32) (x4 : Fin N → Vec F S1x64 .f32)
  (pf0 : Bf (F := F) c tb0) (pf1 : Bf (F := F) c tb1) (fx : Bf (F := F) c xM) (fh0 : Bf (F := F) c hM)
  (hw0 : ∀ t : Fin N, k0_chk1 (tw0 tb0 c (crd t) pf0)) (hw1 : ∀ t : Fin N, k0_chk2 (tw1 tb1 c (crd t) pf1))

/-- A row is left alone by every point but its own: after n points, a row at or after n reads what it held at the start
    (the coordinate of point t is t). -/
theorem hG_row_untouched (hcrd : ∀ t : Fin N, ((crd t) 0).val = t.val) (j : Fin 64) :
    ∀ (n : ℕ) (h : n ≤ N) (r : Fin 62500) (hr : n ≤ r.val),
      hM.view.read (Elt F) (hG tb0 tb1 xM hM c N crd x0 x1 x2 x3 x4 pf0 pf1 fx fh0 hw0 hw1 n h) (ValueIdx.ix2 r j) = hM.view.read (Elt F) fh0 (ValueIdx.ix2 r j)
  | 0, _, _, _ => rfl
  | n + 1, h, r, hr => by
    rw [hG_succ, hNext_read_other hM c _ _ _ r (by rw [hcrd]; show r.val ≠ n; omega) j]
    exact hG_row_untouched hcrd j n (Nat.le_of_lt h) r (by omega)

/-- After n points, a row before n reads its point's hidden row. -/
theorem hG_row_written (hcrd : ∀ t : Fin N, ((crd t) 0).val = t.val) (j : Fin 64) :
    ∀ (n : ℕ) (h : n ≤ N) (i : ℕ) (hi : i < n),
      hM.view.read (Elt F) (hG tb0 tb1 xM hM c N crd x0 x1 x2 x3 x4 pf0 pf1 fx fh0 hw0 hw1 n h)
          (ValueIdx.ix2 (⟨i, by have := coord_lt (crd ⟨i, Nat.lt_of_lt_of_le hi h⟩); rw [hcrd] at this; exact this⟩ : Fin 62500) j)
        = rowStep tb0 tb1 xM c N crd x0 x1 x2 x3 x4 pf0 pf1 fx hw0 hw1 ⟨i, Nat.lt_of_lt_of_le hi h⟩ (ValueIdx.ix2 (0 : Fin 1) j)
  | 0, _, i, hi => absurd hi (Nat.not_lt_zero i)
  | n + 1, h, i, hi => by
    rw [hG_succ]
    by_cases hin : i = n
    · subst hin
      have e : (⟨i, by have := coord_lt (crd ⟨i, Nat.lt_of_lt_of_le hi h⟩); rw [hcrd] at this; exact this⟩ : Fin 62500)
          = ⟨((crd ⟨i, h⟩) 0).val, coord_lt _⟩ := Fin.ext (hcrd ⟨i, h⟩).symm
      rw [e, hNext_read_same]
    · rw [hNext_read_other hM c _ _ _ _ (fun e => hin (e.trans (hcrd ⟨n, h⟩))) j]
      exact hG_row_written hcrd j n (Nat.le_of_lt h) i (by omega)

end Rows

/-! ## The values, at the ideal instance -/

section AtIdeal

variable (tb0 : Memref sig .tc .smem S62500 .i32) (tb1 : Memref sig .tc .smem S62500 .i32)
  (xM : Memref sig .tc .hbm S100000x128 .f32) (hM : Memref sig .tc .hbm S62500x64 .f32) (c : Dev nD)
  (N : ℕ) (crd : Fin N → grid0.Coords)
  (x0 x1 : Fin N → Vec Ideal S64x128 .f32) (x2 : Fin N → Vec Ideal S1x64 .f32) (x3 : Fin N → Vec Ideal S64x64 .f32) (x4 : Fin N → Vec Ideal S1x64 .f32)
  (pf0 : Bf (F := Ideal) c tb0) (pf1 : Bf (F := Ideal) c tb1) (fx : Bf (F := Ideal) c xM) (fh0 : Bf (F := Ideal) c hM)
  (hw0 : ∀ t : Fin N, k0_chk1 (tw0 tb0 c (crd t) pf0)) (hw1 : ∀ t : Fin N, k0_chk2 (tw1 tb1 c (crd t) pf1))

/-- Point t's hidden row at feature j. -/
def hrowG (t : Fin N) (j : Fin 64) : EReal :=
  P1Val.hrow (rowAt0 tb0 xM c (crd t) pf0 fx (hw0 t)) (rowAt1 tb1 xM c (crd t) pf1 fx (hw1 t)) (x0 t) (x1 t) (x2 t) (x3 t) (x4 t)
    (ValueIdx.ix2 (0 : Fin 1) j)

/-- The row a point stores is hrowG. -/
theorem rowStep_apply (t : Fin N) (j : Fin 64) :
    rowStep (F := Ideal) tb0 tb1 xM c N crd x0 x1 x2 x3 x4 pf0 pf1 fx hw0 hw1 t (ValueIdx.ix2 (0 : Fin 1) j) = hrowG tb0 tb1 xM c N crd x0 x1 x2 x3 x4 pf0 pf1 fx hw0 hw1 t j := rfl

/-- After point n the running sum at feature j is the sum of the hidden rows of the points 0 … n. -/
theorem sumG_at (j : Fin 64) : ∀ (n : ℕ) (h : n < N),
    (stG (F := Ideal) tb0 tb1 xM hM c N crd x0 x1 x2 x3 x4 pf0 pf1 fx fh0 hw0 hw1 n h).1 (ValueIdx.ix2 (0 : Fin 1) j)
      = ∑ i : Fin (n + 1), hrowG tb0 tb1 xM c N crd x0 x1 x2 x3 x4 pf0 pf1 fx hw0 hw1 ⟨i.val, Nat.lt_of_le_of_lt (Nat.le_of_lt_succ i.isLt) h⟩ j
  | 0, h => by
    refine (P1Val.sum_apply _ _ _ _ _ _ _ _ j).trans ?_
    rw [P1Val.zero1_apply, zero_add, Fin.sum_univ_one]
    rfl
  | n + 1, h => by
    refine (P1Val.sum_apply _ _ _ _ _ _ _ _ j).trans ?_
    rw [sumG_at j n (Nat.lt_of_succ_lt h)]
    exact (Fin.sum_univ_castSucc (fun i : Fin (n + 1 + 1) =>
      hrowG tb0 tb1 xM c N crd x0 x1 x2 x3 x4 pf0 pf1 fx hw0 hw1 ⟨i.val, Nat.lt_of_le_of_lt (Nat.le_of_lt_succ i.isLt) h⟩ j)).symm

/-- After point n the running sum of squares at feature j is the sum of the squares of those hidden rows. -/
theorem sumsqG_at (j : Fin 64) : ∀ (n : ℕ) (h : n < N),
    (stG (F := Ideal) tb0 tb1 xM hM c N crd x0 x1 x2 x3 x4 pf0 pf1 fx fh0 hw0 hw1 n h).2.1 (ValueIdx.ix2 (0 : Fin 1) j)
      = ∑ i : Fin (n + 1), hrowG tb0 tb1 xM c N crd x0 x1 x2 x3 x4 pf0 pf1 fx hw0 hw1 ⟨i.val, Nat.lt_of_le_of_lt (Nat.le_of_lt_succ i.isLt) h⟩ j
          * hrowG tb0 tb1 xM c N crd x0 x1 x2 x3 x4 pf0 pf1 fx hw0 hw1 ⟨i.val, Nat.lt_of_le_of_lt (Nat.le_of_lt_succ i.isLt) h⟩ j
  | 0, h => by
    refine (P1Val.sumsq_apply _ _ _ _ _ _ _ _ j).trans ?_
    rw [P1Val.zero2_apply, zero_add, Fin.sum_univ_one]
    rfl
  | n + 1, h => by
    refine (P1Val.sumsq_apply _ _ _ _ _ _ _ _ j).trans ?_
    rw [sumsqG_at j n (Nat.lt_of_succ_lt h)]
    exact (Fin.sum_univ_castSucc (fun i : Fin (n + 1 + 1) =>
      hrowG tb0 tb1 xM c N crd x0 x1 x2 x3 x4 pf0 pf1 fx hw0 hw1 ⟨i.val, Nat.lt_of_le_of_lt (Nat.le_of_lt_succ i.isLt) h⟩ j
        * hrowG tb0 tb1 xM c N crd x0 x1 x2 x3 x4 pf0 pf1 fx hw0 hw1 ⟨i.val, Nat.lt_of_le_of_lt (Nat.le_of_lt_succ i.isLt) h⟩ j)).symm

/-- After point n, each of the rows 0 … n of the hidden array is its point's hidden row. -/
theorem hidden_at (hcrd : ∀ t : Fin N, ((crd t) 0).val = t.val) (j : Fin 64) (n : ℕ) (h : n < N) (i : ℕ) (hi : i ≤ n) :
    hM.view.read (Elt Ideal) (stG (F := Ideal) tb0 tb1 xM hM c N crd x0 x1 x2 x3 x4 pf0 pf1 fx fh0 hw0 hw1 n h).2.2
        (ValueIdx.ix2 (⟨i, by have := coord_lt (crd ⟨i, Nat.lt_of_le_of_lt hi h⟩); rw [hcrd] at this; exact this⟩ : Fin 62500) j)
      = hrowG tb0 tb1 xM c N crd x0 x1 x2 x3 x4 pf0 pf1 fx hw0 hw1 ⟨i, Nat.lt_of_le_of_lt hi h⟩ j :=
  hG_row_written (F := Ideal) tb0 tb1 xM hM c N crd x0 x1 x2 x3 x4 pf0 pf1 fx fh0 hw0 hw1 hcrd j (n + 1) h i (Nat.lt_succ_of_le hi)

/-- A hidden row whose two fetched rows are rows n0, n1 of an array X and whose parameter blocks are the arrays W1', W2',
    b_in', W_h', b_h', written out over those. -/
theorem hrow_eq_of (row0 row1 : Vec Ideal S1x128 .f32) (W1 W2 : Vec Ideal S64x128 .f32) (bin : Vec Ideal S1x64 .f32)
    (Wh : Vec Ideal S64x64 .f32) (bh : Vec Ideal S1x64 .f32)
    (X : S100000x128.Idx → EReal) (n0 n1 : Fin 100000) (W1' W2' : S64x128.Idx → EReal) (bin' : S1x64.Idx → EReal)
    (Wh' : S64x64.Idx → EReal) (bh' : S1x64.Idx → EReal)
    (h0 : ∀ k' : Fin 128, row0 (ValueIdx.ix2 (0 : Fin 1) k') = X (ValueIdx.ix2 n0 k'))
    (h1 : ∀ k' : Fin 128, row1 (ValueIdx.ix2 (0 : Fin 1) k') = X (ValueIdx.ix2 n1 k'))
    (hW1 : W1 = W1') (hW2 : W2 = W2') (hbin : bin = bin') (hWh : Wh = Wh') (hbh : bh = bh') (j : Fin 64) :
    P1Val.hrow row0 row1 W1 W2 bin Wh bh (ValueIdx.ix2 (0 : Fin 1) j)
      = ∑ k : Fin 64,
          max (∑ k' : Fin 128, X (ValueIdx.ix2 n0 k') * W1' (ValueIdx.ix2 k k')
              + ∑ k' : Fin 128, X (ValueIdx.ix2 n1 k') * W2' (ValueIdx.ix2 k k')
              + bin' (ValueIdx.ix2 (0 : Fin 1) k)) 0
            * Wh' (ValueIdx.ix2 j k)
        + bh' (ValueIdx.ix2 (0 : Fin 1) j) := by
  subst hW1 hW2 hbin hWh hbh
  rw [P1Val.hrow_apply]
  simp only [h0, h1]

end AtIdeal

end Cert.KernelIdeal.P1

end
-- ==== Proof.P1R0Val.lean ====
/-
  A gather-and-project region (one chunk of 62500 edges), from blocks to arrays.

  The five parameter windows never move: each one's block is its whole array. The two running-sum
  windows never move either and are written back once, after the last point, so their arrays end
  holding what the last point left. Put together with the recursion over the points, at the ideal
  values: the first array ends at the sum over the chunk's 62500 edges of their hidden rows, the
  second at the sum of the squares, and row i of the hidden array is edge i's hidden row — where the
  hidden row of edge i is the two layers applied to the two rows of the node-feature array that entry
  i of each endpoint table names.
-/
import proofs.«400866_j57071525429608_2_alg».proof.Proof.P1R0Dat
import proofs.«400866_j57071525429608_2_alg».proof.Proof.P1StateVal
import proofs.«400866_j57071525429608_2_alg».proof.Proof.P1Val
import Idealize.ShloMosaic.Lib.Pipeline.Value
import Idealize.ShloMosaic.Lib.ValueIdx
import Mathlib.Algebra.BigOperators.Fin

set_option maxRecDepth 100000

noncomputable section

namespace Cert.KernelIdeal.P1R0

open Cert.KernelIdeal Cert.KernelIdeal.Gen
open Idealize.ShloMosaic Idealize.ShloMosaic.TcCoe
open Idealize.ShloMosaic.Pipeline (Dat)
open Cert.KernelIdeal.P1 (Bf tw0 tw1 hNext)
open scoped BigOperators

/-! ## From blocks to arrays (any float values) -/

section Arrays

variable {F : FTy → Type} [FloatOps F]
variable (V : (c : Dev nD) → (b : Ref sig .tc) → Buf (Elt F) ((c : Thread nD τ).loc b))
variable (a : (pcfg0 (F := F)).Adm)
variable (hp0 : ∀ c (i : grid0.Coords), k0_chk1 (tw0 tb0 c i (T0 a c))) (hp1 : ∀ c (i : grid0.Coords), k0_chk2 (tw1 tb1 c i (T1 a c)))

/-- The last grid point. -/
def tlast : Fin (cfg0 a).N := ⟨62499, lt_of_lt_of_eq (by decide : 62499 < 62500) N_0.symm⟩

theorem tlast_succ : (tlast a).val + 1 = (cfg0 a).N := N_0.symm

/-- The first half of the first layer's weights: the block is the array. -/
theorem iblk_0_eq (c : Dev nD) (t : Fin (cfg0 a).N) : (iblk V a c 0 t : S64x128.Idx → Elt F .f32) = V c main_v4 := by
  refine funext fun (y : S64x128.Idx) => ?_
  show (V c main_v4 : S64x128.Idx → Elt F .f32) ((((cfg0 a).win 0).blk t).view.emb y) = _
  congr 1; funext b; apply Fin.ext
  match b with
  | ⟨0, _⟩ =>
    show ((cfg0 a).win 0).index t (0 : Fin 2) * 64 + 1 * (y 0).val = (y 0).val
    rw [show ((cfg0 a).win 0).index t (0 : Fin 2) = 0 from rfl]; omega
  | ⟨1, _⟩ =>
    show ((cfg0 a).win 0).index t (1 : Fin 2) * 128 + 1 * (y 1).val = (y 1).val
    rw [show ((cfg0 a).win 0).index t (1 : Fin 2) = 0 from rfl]; omega

/-- The second half of the first layer's weights: the block is the array. -/
theorem iblk_1_eq (c : Dev nD) (t : Fin (cfg0 a).N) : (iblk V a c 1 t : S64x128.Idx → Elt F .f32) = V c main_v5 := by
  refine funext fun (y : S64x128.Idx) => ?_
  show (V c main_v5 : S64x128.Idx → Elt F .f32) ((((cfg0 a).win 1).blk t).view.emb y) = _
  congr 1; funext b; apply Fin.ext
  match b with
  | ⟨0, _⟩ =>
    show ((cfg0 a).win 1).index t (0 : Fin 2) * 64 + 1 * (y 0).val = (y 0).val
    rw [show ((cfg0 a).win 1).index t (0 : Fin 2) = 0 from rfl]; omega
  | ⟨1, _⟩ =>
    show ((cfg0 a).win 1).index t (1 : Fin 2) * 128 + 1 * (y 1).val = (y 1).val
    rw [show ((cfg0 a).win 1).index t (1 : Fin 2) = 0 from rfl]; omega

/-- The first layer's bias: the block is the array. -/
theorem iblk_2_eq (c : Dev nD) (t : Fin (cfg0 a).N) : (iblk V a c 2 t : S1x64.Idx → Elt F .f32) = V c main_v6 := by
  refine funext fun (y : S1x64.Idx) => ?_
  show (V c main_v6 : S1x64.Idx → Elt F .f32) ((((cfg0 a).win 2).blk t).view.emb y) = _
  congr 1; funext b; apply Fin.ext
  match b with
  | ⟨0, _⟩ =>
    show ((cfg0 a).win 2).index t (0 : Fin 2) * 1 + 1 * (y 0).val = (y 0).val
    rw [show ((cfg0 a).win 2).index t (0 : Fin 2) = 0 from rfl]; omega
  | ⟨1, _⟩ =>
    show ((cfg0 a).win 2).index t (1 : Fin 2) * 64 + 1 * (y 1).val = (y 1).val
    rw [show ((cfg0 a).win 2).index t (1 : Fin 2) = 0 from rfl]; omega

/-- The second layer's weights: the block is the array. -/
theorem iblk_3_eq (c : Dev nD) (t : Fin (cfg0 a).N) : (iblk V a c 3 t : S64x64.Idx → Elt F .f32) = V c main_arg4 := by
  refine funext fun (y : S64x64.Idx) => ?_
  show (V c main_arg4 : S64x64.Idx → Elt F .f32) ((((cfg0 a).win 3).blk t).view.emb y) = _
  congr 1; funext b; apply Fin.ext
  match b with
  | ⟨0, _⟩ =>
    show ((cfg0 a).win 3).index t (0 : Fin 2) * 64 + 1 * (y 0).val = (y 0).val
    rw [show ((cfg0 a).win 3).index t (0 : Fin 2) = 0 from rfl]; omega
  | ⟨1, _⟩ =>
    show ((cfg0 a).win 3).index t (1 : Fin 2) * 64 + 1 * (y 1).val = (y 1).val
    rw [show ((cfg0 a).win 3).index t (1 : Fin 2) = 0 from rfl]; omega

/-- The second layer's bias: the block is the array. -/
theorem iblk_4_eq (c : Dev nD) (t : Fin (cfg0 a).N) : (iblk V a c 4 t : S1x64.Idx → Elt F .f32) = V c main_v7 := by
  refine funext fun (y : S1x64.Idx) => ?_
  show (V c main_v7 : S1x64.Idx → Elt F .f32) ((((cfg0 a).win 4).blk t).view.emb y) = _
  congr 1; funext b; apply Fin.ext
  match b with
  | ⟨0, _⟩ =>
    show ((cfg0 a).win 4).index t (0 : Fin 2) * 1 + 1 * (y 0).val = (y 0).val
    rw [show ((cfg0 a).win 4).index t (0 : Fin 2) = 0 from rfl]; omega
  | ⟨1, _⟩ =>
    show ((cfg0 a).win 4).index t (1 : Fin 2) * 64 + 1 * (y 1).val = (y 1).val
    rw [show ((cfg0 a).win 4).index t (1 : Fin 2) = 0 from rfl]; omega

/-- Window 5 is written back at the last point and at no other: its block never moves. -/
theorem flush5_iff (t : Fin (cfg0 a).N) : ((cfg0 a).win 5).flush t = true ↔ t.val + 1 = (cfg0 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint5 : ∀ t t' : Fin (cfg0 a).N, ((cfg0 a).win 5).flush t = true → ((cfg0 a).win 5).flush t' = true → t ≠ t' →
    Disjoint (((cfg0 a).win 5).blk t).view.set (((cfg0 a).win 5).blk t').view.set :=
  fun t t' h h' hne => absurd (Fin.ext (by
    have e := (flush5_iff a t).mp h
    have e' := (flush5_iff a t').mp h'
    omega)) hne

/-- Where feature j of window 5's block sits in its array: at feature j. -/
theorem emb5 (t : Fin (cfg0 a).N) (j : Fin 64) :
    (((cfg0 a).win 5).blk t).view.emb (ValueIdx.ix2 (0 : Fin 1) j) = ValueIdx.ix2 (0 : Fin 1) j := by
  funext b; apply Fin.ext
  match b with
  | ⟨0, _⟩ =>
    show ((cfg0 a).win 5).index t (0 : Fin 2) * 1 + 1 * 0 = 0
    rw [show ((cfg0 a).win 5).index t (0 : Fin 2) = 0 from rfl]
  | ⟨1, _⟩ =>
    show ((cfg0 a).win 5).index t (1 : Fin 2) * 64 + 1 * j.val = j.val
    rw [show ((cfg0 a).win 5).index t (1 : Fin 2) = 0 from rfl]; omega

theorem sum_arr_apply (c : Dev nD) (j : Fin 64) :
    ((dat V a hp0 hp1 c).arrAt 5 (cfg0 a).N : S1x64.Idx → Elt F .f32) (ValueIdx.ix2 (0 : Fin 1) j)
      = (stAt V a hp0 hp1 c (tlast a).val (tlast a).isLt).1 (ValueIdx.ix2 (0 : Fin 1) j) := by
  have h := (dat V a hp0 hp1 c).arrAt_emb_eq_flushed 5 (disjoint5 a) (tlast a) ((flush5_iff a (tlast a)).mpr (tlast_succ a))
    (ValueIdx.ix2 (0 : Fin 1) j)
  rw [emb5] at h
  refine h.trans ?_
  show (dat V a hp0 hp1 c).after 5 (tlast a) (ValueIdx.ix2 (0 : Fin 1) j) = _
  rw [after_5]

/-- The array of window 5 after the region is what the last point left. -/
theorem sum_arr (c : Dev nD) :
    ((dat V a hp0 hp1 c).arrAt 5 (cfg0 a).N : S1x64.Idx → Elt F .f32) = (stAt V a hp0 hp1 c (tlast a).val (tlast a).isLt).1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sum_arr_apply V a hp0 hp1 c j

/-- Window 6 is written back at the last point and at no other: its block never moves. -/
theorem flush6_iff (t : Fin (cfg0 a).N) : ((cfg0 a).win 6).flush t = true ↔ t.val + 1 = (cfg0 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint6 : ∀ t t' : Fin (cfg0 a).N, ((cfg0 a).win 6).flush t = true → ((cfg0 a).win 6).flush t' = true → t ≠ t' →
    Disjoint (((cfg0 a).win 6).blk t).view.set (((cfg0 a).win 6).blk t').view.set :=
  fun t t' h h' hne => absurd (Fin.ext (by
    have e := (flush6_iff a t).mp h
    have e' := (flush6_iff a t').mp h'
    omega)) hne

/-- Where feature j of window 6's block sits in its array: at feature j. -/
theorem emb6 (t : Fin (cfg0 a).N) (j : Fin 64) :
    (((cfg0 a).win 6).blk t).view.emb (ValueIdx.ix2 (0 : Fin 1) j) = ValueIdx.ix2 (0 : Fin 1) j := by
  funext b; apply Fin.ext
  match b with
  | ⟨0, _⟩ =>
    show ((cfg0 a).win 6).index t (0 : Fin 2) * 1 + 1 * 0 = 0
    rw [show ((cfg0 a).win 6).index t (0 : Fin 2) = 0 from rfl]
  | ⟨1, _⟩ =>
    show ((cfg0 a).win 6).index t (1 : Fin 2) * 64 + 1 * j.val = j.val
    rw [show ((cfg0 a).win 6).index t (1 : Fin 2) = 0 from rfl]; omega

theorem sq_arr_apply (c : Dev nD) (j : Fin 64) :
    ((dat V a hp0 hp1 c).arrAt 6 (cfg0 a).N : S1x64.Idx → Elt F .f32) (ValueIdx.ix2 (0 : Fin 1) j)
      = (stAt V a hp0 hp1 c (tlast a).val (tlast a).isLt).2.1 (ValueIdx.ix2 (0 : Fin 1) j) := by
  have h := (dat V a hp0 hp1 c).arrAt_emb_eq_flushed 6 (disjoint6 a) (tlast a) ((flush6_iff a (tlast a)).mpr (tlast_succ a))
    (ValueIdx.ix2 (0 : Fin 1) j)
  rw [emb6] at h
  refine h.trans ?_
  show (dat V a hp0 hp1 c).after 6 (tlast a) (ValueIdx.ix2 (0 : Fin 1) j) = _
  rw [after_6]

/-- The array of window 6 after the region is what the last point left. -/
theorem sq_arr (c : Dev nD) :
    ((dat V a hp0 hp1 c).arrAt 6 (cfg0 a).N : S1x64.Idx → Elt F .f32) = (stAt V a hp0 hp1 c (tlast a).val (tlast a).isLt).2.1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sq_arr_apply V a hp0 hp1 c j

end Arrays

/-! ## The values, at the ideal instance -/

section AtIdeal

variable (V : (c : Dev nD) → (b : Ref sig .tc) → Buf (Elt Ideal) ((c : Thread nD τ).loc b))
variable (a : (pcfg0 (F := Ideal)).Adm)
variable (hp0 : ∀ c (i : grid0.Coords), k0_chk1 (tw0 tb0 c i (T0 a c))) (hp1 : ∀ c (i : grid0.Coords), k0_chk2 (tw1 tb1 c i (T1 a c)))

/-- The arrays the region reads, each at its literal type. -/
abbrev xArr (c : Dev nD) : S100000x128.Idx → EReal := V c main_arg0
abbrev w1Arr (c : Dev nD) : S64x128.Idx → EReal := V c main_v4
abbrev w2Arr (c : Dev nD) : S64x128.Idx → EReal := V c main_v5
abbrev binArr (c : Dev nD) : S1x64.Idx → EReal := V c main_v6
abbrev whArr (c : Dev nD) : S64x64.Idx → EReal := V c main_arg4
abbrev bhArr (c : Dev nD) : S1x64.Idx → EReal := V c main_v7
/-- Entry i of each endpoint table. -/
abbrev e0At (c : Dev nD) (i : Fin 62500) : BitVec 32 := (T0 a c : S62500.Idx → BitVec 32) (ValueIdx.ix1 i)
abbrev e1At (c : Dev nD) (i : Fin 62500) : BitVec 32 := (T1 a c : S62500.Idx → BitVec 32) (ValueIdx.ix1 i)

/-- The grid point of edge i. -/
def ptOf (i : Fin 62500) : Fin (cfg0 a).N := ⟨i.val, lt_of_lt_of_eq i.isLt N_0.symm⟩

/-- The word a point reads of the first table is the table's entry at the point. -/
theorem tw0_at (c : Dev nD) (t : Fin (cfg0 a).N) :
    tw0 tb0 c (crd a t) (T0 a c) = e0At a c ⟨t.val, lt_of_lt_of_eq t.isLt N_0⟩ := by
  refine (P1.tw0_eq tb0 c (crd a t) (T0 a c)).trans ?_
  show (T0 a c : S62500.Idx → BitVec 32) _ = (T0 a c : S62500.Idx → BitVec 32) _
  refine congrArg (T0 a c : S62500.Idx → BitVec 32) (funext fun b => Fin.ext ?_)
  match b with
  | ⟨0, _⟩ => exact coord_val a t

theorem tw1_at (c : Dev nD) (t : Fin (cfg0 a).N) :
    tw1 tb1 c (crd a t) (T1 a c) = e1At a c ⟨t.val, lt_of_lt_of_eq t.isLt N_0⟩ := by
  refine (P1.tw1_eq tb1 c (crd a t) (T1 a c)).trans ?_
  show (T1 a c : S62500.Idx → BitVec 32) _ = (T1 a c : S62500.Idx → BitVec 32) _
  refine congrArg (T1 a c : S62500.Idx → BitVec 32) (funext fun b => Fin.ext ?_)
  match b with
  | ⟨0, _⟩ => exact coord_val a t

include hp0 in
/-- Every entry of the endpoint tables names a row of the node-feature array. -/
theorem e0_lt (c : Dev nD) (i : Fin 62500) : (e0At a c i).toNat < 100000 := by
  have h := P1.toNat_lt_of_chk1 (hp0 c (crd a (ptOf a i)))
  rw [tw0_at] at h
  exact h

include hp1 in
theorem e1_lt (c : Dev nD) (i : Fin 62500) : (e1At a c i).toNat < 100000 := by
  have h := P1.toNat_lt_of_chk2 (hp1 c (crd a (ptOf a i)))
  rw [tw1_at] at h
  exact h

/-- The hidden row of edge i of the chunk, at feature j: the two layers applied to the two rows of the node-feature
    array that entry i of each endpoint table names. -/
def rowval (c : Dev nD) (i : Fin 62500) (j : Fin 64) : EReal :=
  ∑ k : Fin 64,
      max (∑ k' : Fin 128, xArr V c (ValueIdx.ix2 (⟨(e0At a c i).toNat, e0_lt a hp0 c i⟩ : Fin 100000) k') * w1Arr V c (ValueIdx.ix2 k k')
          + ∑ k' : Fin 128, xArr V c (ValueIdx.ix2 (⟨(e1At a c i).toNat, e1_lt a hp1 c i⟩ : Fin 100000) k') * w2Arr V c (ValueIdx.ix2 k k')
          + binArr V c (ValueIdx.ix2 (0 : Fin 1) k)) 0
        * whArr V c (ValueIdx.ix2 j k)
    + bhArr V c (ValueIdx.ix2 (0 : Fin 1) j)

/-- The first row a point fetches, at feature k'. -/
theorem row0_val (c : Dev nD) (t : Fin (cfg0 a).N) (k' : Fin 128) :
    P1.rowAt0 tb0 xM c (crd a t) (T0 a c) (V c main_arg0) (hp0 c (crd a t)) (ValueIdx.ix2 (0 : Fin 1) k')
      = xArr V c (ValueIdx.ix2 (⟨(e0At a c ⟨t.val, lt_of_lt_of_eq t.isLt N_0⟩).toNat, e0_lt a hp0 c _⟩ : Fin 100000) k') := by
  refine (P1.rowAt0_apply tb0 xM c (crd a t) (T0 a c) (V c main_arg0) (hp0 c (crd a t)) k').trans ?_
  show xArr V c _ = xArr V c _
  refine congrArg (xArr V c) (funext fun b => Fin.ext ?_)
  match b with
  | ⟨0, _⟩ =>
    show (tw0 tb0 c (crd a t) (T0 a c)).toNat = (e0At a c ⟨t.val, lt_of_lt_of_eq t.isLt N_0⟩).toNat
    rw [tw0_at]
  | ⟨1, _⟩ => rfl

/-- The second row a point fetches, at feature k'. -/
theorem row1_val (c : Dev nD) (t : Fin (cfg0 a).N) (k' : Fin 128) :
    P1.rowAt1 tb1 xM c (crd a t) (T1 a c) (V c main_arg0) (hp1 c (crd a t)) (ValueIdx.ix2 (0 : Fin 1) k')
      = xArr V c (ValueIdx.ix2 (⟨(e1At a c ⟨t.val, lt_of_lt_of_eq t.isLt N_0⟩).toNat, e1_lt a hp1 c _⟩ : Fin 100000) k') := by
  refine (P1.rowAt1_apply tb1 xM c (crd a t) (T1 a c) (V c main_arg0) (hp1 c (crd a t)) k').trans ?_
  show xArr V c _ = xArr V c _
  refine congrArg (xArr V c) (funext fun b => Fin.ext ?_)
  match b with
  | ⟨0, _⟩ =>
    show (tw1 tb1 c (crd a t) (T1 a c)).toNat = (e1At a c ⟨t.val, lt_of_lt_of_eq t.isLt N_0⟩).toNat
    rw [tw1_at]
  | ⟨1, _⟩ => rfl

/-- A point's hidden row is the hidden row of its edge. -/
theorem hrow_val (c : Dev nD) (t : Fin (cfg0 a).N) (j : Fin 64) :
    P1.hrowG tb0 tb1 xM c (cfg0 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t j
      = rowval V a hp0 hp1 c ⟨t.val, lt_of_lt_of_eq t.isLt N_0⟩ j :=
  P1.hrow_eq_of (P1.rowAt0 tb0 xM c (crd a t) (T0 a c) (V c main_arg0) (hp0 c (crd a t)))
    (P1.rowAt1 tb1 xM c (crd a t) (T1 a c) (V c main_arg0) (hp1 c (crd a t)))
    (iblk V a c 0 t) (iblk V a c 1 t) (iblk V a c 2 t) (iblk V a c 3 t) (iblk V a c 4 t)
    (xArr V c) ⟨(e0At a c ⟨t.val, lt_of_lt_of_eq t.isLt N_0⟩).toNat, e0_lt a hp0 c _⟩
    ⟨(e1At a c ⟨t.val, lt_of_lt_of_eq t.isLt N_0⟩).toNat, e1_lt a hp1 c _⟩
    (w1Arr V c) (w2Arr V c) (binArr V c) (whArr V c) (bhArr V c)
    (row0_val V a hp0 c t) (row1_val V a hp1 c t)
    (iblk_0_eq V a c t) (iblk_1_eq V a c t) (iblk_2_eq V a c t) (iblk_3_eq V a c t) (iblk_4_eq V a c t) j

/-- After point n the first running sum is the sum of the hidden rows of the edges 0 … n. -/
theorem sum_at (c : Dev nD) (j : Fin 64) (n : ℕ) (hn : n < (cfg0 a).N) :
    (stAt V a hp0 hp1 c n hn).1 (ValueIdx.ix2 (0 : Fin 1) j)
      = ∑ i : Fin (n + 1), rowval V a hp0 hp1 c ⟨i.val, lt_of_lt_of_eq (Nat.lt_of_le_of_lt (Nat.le_of_lt_succ i.isLt) hn) N_0⟩ j := by
  unfold stAt
  refine (P1.sumG_at tb0 tb1 xM hM c (cfg0 a).N (crd a) (fun t => iblk V a c 0 t) (fun t => iblk V a c 1 t) (fun t => iblk V a c 2 t) (fun t => iblk V a c 3 t) (fun t => iblk V a c 4 t) (T0 a c) (T1 a c) (V c main_arg0) (V c main_v13_0) (fun t => hp0 c (crd a t)) (fun t => hp1 c (crd a t)) j n hn).trans ?_
  exact Finset.sum_congr rfl fun i _ => hrow_val V a hp0 hp1 c _ j

/-- After point n the second running sum is the sum of the squares of those hidden rows. -/
theorem sq_at (c : Dev nD) (j : Fin 64) (n : ℕ) (hn : n < (cfg0 a).N) :
    (stAt V a hp0 hp1 c n hn).2.1 (ValueIdx.ix2 (0 : Fin 1) j)
      = ∑ i : Fin (n + 1), rowval V a hp0 hp1 c ⟨i.val, lt_of_lt_of_eq (Nat.lt_of_le_of_lt (Nat.le_of_lt_succ i.isLt) hn) N_0⟩ j
          * rowval V a hp0 hp1 c ⟨i.val, lt_of_lt_of_eq (Nat.lt_of_le_of_lt (Nat.le_of_lt_succ i.isLt) hn) N_0⟩ j := by
  unfold stAt
  refine (P1.sumsqG_at tb0 tb1 xM hM c (cfg0 a).N (crd a) (fun t => iblk V a c 0 t) (fun t => iblk V a c 1 t) (fun t => iblk V a c 2 t) (fun t => iblk V a c 3 t) (fun t => iblk V a c 4 t) (T0 a c) (T1 a c) (V c main_arg0) (V c main_v13_0) (fun t => hp0 c (crd a t)) (fun t => hp1 c (crd a t)) j n hn).trans ?_
  exact Finset.sum_congr rfl fun i _ => by rw [hrow_val V a hp0 hp1 c _ j]

/-- The hidden array is read through its whole view as itself. -/
theorem read_hM (c : Dev nD) (f : Bf (F := Ideal) c hM) (y : S62500x64.Idx) :
    hM.view.read (Elt Ideal) f y = (f : S62500x64.Idx → EReal) y := rfl

/-- After n points, row i < n of the hidden array is edge i's hidden row. -/
theorem hid_at (c : Dev nD) (j : Fin 64) (n : ℕ) (hn : n ≤ (cfg0 a).N) (i : ℕ) (hi : i < n) :
    (hAt V a hp0 hp1 c n hn : S62500x64.Idx → EReal) (ValueIdx.ix2 (⟨i, lt_of_lt_of_eq (Nat.lt_of_lt_of_le hi hn) N_0⟩ : Fin 62500) j)
      = rowval V a hp0 hp1 c ⟨i, lt_of_lt_of_eq (Nat.lt_of_lt_of_le hi hn) N_0⟩ j := by
  unfold hAt
  refine (read_hM c _ _).symm.trans ?_
  refine (P1.hG_row_written (F := Ideal) tb0 tb1 xM hM c (cfg0 a).N (crd a) (fun t => iblk V a c 0 t) (fun t => iblk V a c 1 t) (fun t => iblk V a c 2 t) (fun t => iblk V a c 3 t) (fun t => iblk V a c 4 t) (T0 a c) (T1 a c) (V c main_arg0) (V c main_v13_0) (fun t => hp0 c (crd a t)) (fun t => hp1 c (crd a t)) (coord_val a) j n hn i hi).trans ?_
  exact (P1.rowStep_apply tb0 tb1 xM c (cfg0 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) _ j).trans (hrow_val V a hp0 hp1 c _ j)

/-- The two running-sum arrays and the hidden array after the region, each at its literal type. -/
abbrev sumArr (c : Dev nD) : S1x64.Idx → EReal := (dat V a hp0 hp1 c).arrAt 5 (cfg0 a).N
abbrev sqArr (c : Dev nD) : S1x64.Idx → EReal := (dat V a hp0 hp1 c).arrAt 6 (cfg0 a).N
abbrev hidArr (c : Dev nD) : S62500x64.Idx → EReal := hAt V a hp0 hp1 c (cfg0 a).N (Nat.le_refl _)

/-- The last point's index plus one is the number of edges of the chunk. -/
theorem tlast_count : (tlast a).val + 1 = 62500 := rfl

/-- The first running-sum array after the region: the sum over the chunk's edges of their hidden rows. -/
theorem sum_final (c : Dev nD) (j : Fin 64) :
    sumArr V a hp0 hp1 c (ValueIdx.ix2 (0 : Fin 1) j) = ∑ i : Fin 62500, rowval V a hp0 hp1 c i j := by
  refine (sum_arr_apply V a hp0 hp1 c j).trans ((sum_at V a hp0 hp1 c j (tlast a).val (tlast a).isLt).trans ?_)
  exact Fintype.sum_equiv (finCongr (tlast_count a)) _ _ (fun i => rfl)

/-- The second running-sum array after the region: the sum of the squares of those hidden rows. -/
theorem sq_final (c : Dev nD) (j : Fin 64) :
    sqArr V a hp0 hp1 c (ValueIdx.ix2 (0 : Fin 1) j)
      = ∑ i : Fin 62500, rowval V a hp0 hp1 c i j * rowval V a hp0 hp1 c i j := by
  refine (sq_arr_apply V a hp0 hp1 c j).trans ((sq_at V a hp0 hp1 c j (tlast a).val (tlast a).isLt).trans ?_)
  exact Fintype.sum_equiv (finCongr (tlast_count a)) _ _ (fun i => rfl)

/-- The hidden array after the region: row i is edge i's hidden row. -/
theorem hid_final (c : Dev nD) (i : Fin 62500) (j : Fin 64) :
    hidArr V a hp0 hp1 c (ValueIdx.ix2 i j) = rowval V a hp0 hp1 c i j :=
  hid_at V a hp0 hp1 c j (cfg0 a).N (Nat.le_refl _) i.val (lt_of_lt_of_eq i.isLt N_0.symm)

end AtIdeal

end Cert.KernelIdeal.P1R0

end
-- ==== Proof.P1R0Fin.lean ====
/- The first launch's results are its chunk's hidden values.

   The launch walks the 62500 edges of its chunk: at edge i it fetches the two rows of the node-feature array that entry i of
   its two endpoint tables names, applies the two layers, writes the hidden row and adds it, and its square, to two running
   sums. Its tables are the chunk's pieces of the edge array's two rows, and the weights it reads are the argument arrays'
   (the first layer's weights in two halves). So row i of its rows result is the hidden value of edge i of the chunk in the
   by-endpoint form, and its two sums are the sums of those values and of their squares over the chunk. -/
import proofs.«400866_j57071525429608_2_alg».proof.Proof.P1R0Val
import proofs.«400866_j57071525429608_2_alg».proof.Proof.HostHead
import proofs.«400866_j57071525429608_2_alg».proof.Proof.TblFacts
import proofs.«400866_j57071525429608_2_alg».proof.Proof.HostTail
import proofs.«400866_j57071525429608_2_alg».proof.Proof.KVal
import proofs.«400866_j57071525429608_2_alg».proof.Proof.Spec
import Idealize.ShloMosaic.Lib.ValueIdx

set_option maxRecDepth 16384

noncomputable section

namespace Cert.KernelIdeal.P1R0

open Cert.KernelIdeal Cert.KernelIdeal.Gen
open Idealize.ShloMosaic Idealize.ShloMosaic.TcCoe
open Cert.KernelIdeal.P1 (Bf tw0 tw1)
open scoped BigOperators

/-! ## The launch -/

/-- The launch's chunk among the sixteen. -/
abbrev KK : Fin 16 := ⟨0, by omega⟩
/-- The launch among the seventeen regions. -/
abbrev KK17 : Fin 17 := ⟨0, by omega⟩
/-- The buffers' contents when the launch is entered. -/
abbrev Ventry (m : (ℓ : Loc nD τ sig) → Buf (Elt Ideal) ℓ) (outs : Outs (F := Ideal)) (c : Dev nD) : Valuation τ sig (Elt Ideal) := V1 m c
/-- They are the entry contents the host operations' facts are stated at. -/
theorem Ventry_eq (m : (ℓ : Loc nD τ sig) → Buf (Elt Ideal) ℓ) (outs : Outs (F := Ideal)) (c : Dev nD) :
    Head.Vodd m outs c KK17 = Ventry m outs c := Head.Vodd_0 m outs c _

variable (m : (ℓ : Loc nD τ sig) → Buf (Elt Ideal) ℓ) (outs : Outs (F := Ideal)) (c : Dev nD)
variable (a : (pcfg0 (F := Ideal)).Adm)
variable (hp0 : ∀ c (i : grid0.Coords), k0_chk1 (tw0 tb0 c i (T0 a c))) (hp1 : ∀ c (i : grid0.Coords), k0_chk2 (tw1 tb1 c i (T1 a c)))

/-- The entry contents as the launch's value lemmas take them. -/
abbrev VV : (c : Dev nD) → (b : Ref sig .tc) → Buf (Elt Ideal) ((c : Thread nD τ).loc b) := fun c b => Ventry m outs c b

/-! ## The tables' words are the chunk's endpoints -/

/-- Entry `i` of the first table names the first endpoint of edge `i` of the chunk. -/
theorem e0_eq (hT0 : (T0 a c : S62500.Idx → BitVec 32) = (Tbl.tblA m outs c KK : IVec S62500 32)) (i : Fin 62500) :
    (⟨(e0At a c i).toNat, e0_lt a hp0 c i⟩ : Fin 100000) = Cert.Spec.endpoint (KVal.edgesA m c) 0 (Cert.Spec.chunk KK i) := by
  have hw : e0At a c i = (KVal.edgesA m c) (ValueIdx.ix2 (0 : Fin 2) (Cert.Spec.chunk KK i)) := by
    show (T0 a c : S62500.Idx → BitVec 32) (ValueIdx.ix1 i) = _
    rw [hT0]
    exact Tbl.tblA_apply m outs c KK i
  have hlt := e0_lt a hp0 c i
  rw [hw] at hlt
  refine Fin.ext ?_
  show (e0At a c i).toNat = (Cert.Spec.node _).val
  rw [Cert.Spec.node_val_of_toNat_lt hlt, hw]

/-- Entry `i` of the second table names the second endpoint. -/
theorem e1_eq (hT1 : (T1 a c : S62500.Idx → BitVec 32) = (Tbl.tblB m outs c KK : IVec S62500 32)) (i : Fin 62500) :
    (⟨(e1At a c i).toNat, e1_lt a hp1 c i⟩ : Fin 100000) = Cert.Spec.endpoint (KVal.edgesA m c) 1 (Cert.Spec.chunk KK i) := by
  have hw : e1At a c i = (KVal.edgesA m c) (ValueIdx.ix2 (1 : Fin 2) (Cert.Spec.chunk KK i)) := by
    show (T1 a c : S62500.Idx → BitVec 32) (ValueIdx.ix1 i) = _
    rw [hT1]
    exact Tbl.tblB_apply m outs c KK i
  have hlt := e1_lt a hp1 c i
  rw [hw] at hlt
  refine Fin.ext ?_
  show (e1At a c i).toNat = (Cert.Spec.node _).val
  rw [Cert.Spec.node_val_of_toNat_lt hlt, hw]

/-! ## The arrays the launch reads are the arguments' -/

theorem x_eq : xArr (VV m outs) c = KVal.xA m c := by
  show Ventry m outs c main_arg0 = _
  rw [← Ventry_eq m outs c]
  exact Head.arg0_keep m outs c KK17
theorem wh_eq : whArr (VV m outs) c = KVal.WhA m c := by
  show Ventry m outs c main_arg4 = _
  rw [← Ventry_eq m outs c]
  exact Head.arg4_keep m outs c KK17
theorem w1_apply (k : Fin 64) (k' : Fin 128) :
    w1Arr (VV m outs) c (ValueIdx.ix2 k k') = KVal.WinA m c (ValueIdx.ix2 k (⟨k'.val, by omega⟩ : Fin 256)) := by
  show (Ventry m outs c main_v4 : S64x128.Idx → EReal) (ValueIdx.ix2 k k') = _
  rw [← Ventry_eq m outs c]
  exact Head.v4_apply m outs c KK17 k k'
theorem w2_apply (k : Fin 64) (k' : Fin 128) :
    w2Arr (VV m outs) c (ValueIdx.ix2 k k') = KVal.WinA m c (ValueIdx.ix2 k (⟨128 + k'.val, by omega⟩ : Fin 256)) := by
  show (Ventry m outs c main_v5 : S64x128.Idx → EReal) (ValueIdx.ix2 k k') = _
  rw [← Ventry_eq m outs c]
  exact Head.v5_apply m outs c KK17 k k'
theorem bin_apply (k : Fin 64) :
    binArr (VV m outs) c (ValueIdx.ix2 (0 : Fin 1) k) = KVal.binA m c (ValueIdx.ix1 k) := by
  show (Ventry m outs c main_v6 : S1x64.Idx → EReal) (ValueIdx.ix2 (0 : Fin 1) k) = _
  rw [← Ventry_eq m outs c]
  exact Head.v6_apply m outs c KK17 k
theorem bh_apply (j : Fin 64) :
    bhArr (VV m outs) c (ValueIdx.ix2 (0 : Fin 1) j) = KVal.bhA m c (ValueIdx.ix1 j) := by
  show (Ventry m outs c main_v7 : S1x64.Idx → EReal) (ValueIdx.ix2 (0 : Fin 1) j) = _
  rw [← Ventry_eq m outs c]
  exact Head.v7_apply m outs c KK17 j

/-! ## The launch's hidden row is the chunk's hidden value -/

theorem rowval_eq (hT0 : (T0 a c : S62500.Idx → BitVec 32) = (Tbl.tblA m outs c KK : IVec S62500 32))
    (hT1 : (T1 a c : S62500.Idx → BitVec 32) = (Tbl.tblB m outs c KK : IVec S62500 32)) (i : Fin 62500) (j : Fin 64) :
    rowval (VV m outs) a hp0 hp1 c i j = KVal.hid m c (Cert.Spec.chunk KK i) j := by
  unfold rowval KVal.hid
  rw [e0_eq m outs c a hp0 hT0 i, e1_eq m outs c a hp1 hT1 i, x_eq m outs c, wh_eq m outs c]
  simp only [w1_apply m outs c, w2_apply m outs c, bin_apply m outs c, bh_apply m outs c]

/-! ## The three results -/

/-- Row `i` of the rows result is the hidden value of edge `i` of the chunk. -/
theorem chunkRow_eq (hT0 : (T0 a c : S62500.Idx → BitVec 32) = (Tbl.tblA m outs c KK : IVec S62500 32))
    (hT1 : (T1 a c : S62500.Idx → BitVec 32) = (Tbl.tblB m outs c KK : IVec S62500 32))
    (hR0 : (Tail.res0 outs c KK : S62500x64.Idx → EReal) = hidArr (VV m outs) a hp0 hp1 c)
    (i : Fin 62500) (j : Fin 64) : Tail.chunkRow outs c KK i j = KVal.HID m c KK i j := by
  show (Tail.res0 outs c KK : S62500x64.Idx → EReal) (ValueIdx.ix2 i j) = _
  rw [hR0]
  exact (hid_final (VV m outs) a hp0 hp1 c i j).trans (rowval_eq m outs c a hp0 hp1 hT0 hT1 i j)

/-- The sums result is the sum of the chunk's hidden values. -/
theorem chunkSum_eq (hT0 : (T0 a c : S62500.Idx → BitVec 32) = (Tbl.tblA m outs c KK : IVec S62500 32))
    (hT1 : (T1 a c : S62500.Idx → BitVec 32) = (Tbl.tblB m outs c KK : IVec S62500 32))
    (hR1 : (Tail.res1 outs c KK : S1x64.Idx → EReal) = sumArr (VV m outs) a hp0 hp1 c)
    (j : Fin 64) : Tail.chunkSum outs c KK j = ∑ i : Fin 62500, KVal.HID m c KK i j := by
  show (Tail.res1 outs c KK : S1x64.Idx → EReal) (ValueIdx.ix2 (0 : Fin 1) j) = _
  rw [hR1]
  exact (sum_final (VV m outs) a hp0 hp1 c j).trans (Finset.sum_congr rfl fun i _ => rowval_eq m outs c a hp0 hp1 hT0 hT1 i j)

/-- The sums-of-squares result is the sum of their squares. -/
theorem chunkSq_eq (hT0 : (T0 a c : S62500.Idx → BitVec 32) = (Tbl.tblA m outs c KK : IVec S62500 32))
    (hT1 : (T1 a c : S62500.Idx → BitVec 32) = (Tbl.tblB m outs c KK : IVec S62500 32))
    (hR2 : (Tail.res2 outs c KK : S1x64.Idx → EReal) = sqArr (VV m outs) a hp0 hp1 c)
    (j : Fin 64) : Tail.chunkSq outs c KK j = ∑ i : Fin 62500, KVal.HID m c KK i j * KVal.HID m c KK i j := by
  show (Tail.res2 outs c KK : S1x64.Idx → EReal) (ValueIdx.ix2 (0 : Fin 1) j) = _
  rw [hR2]
  exact (sq_final (VV m outs) a hp0 hp1 c j).trans
    (Finset.sum_congr rfl fun i _ => by rw [rowval_eq m outs c a hp0 hp1 hT0 hT1 i j])

end Cert.KernelIdeal.P1R0

end
-- ==== Proof.P1R0Top.lean ====
/- The first launch's results are its chunk's hidden values, at the run's own choices.

   The run fixes what every region leaves (the unknowns), each launch's tables and the contents each launch is entered
   from. At those choices nothing is left to assume: the launch's tables are its chunk's pieces of the edge array's rows,
   its results are what its proof data leave, and so its rows are the chunk's hidden values and its two sums their sums
   and sums of squares. -/
import proofs.«400866_j57071525429608_2_alg».proof.Proof.P1R0Fin
import proofs.«400866_j57071525429608_2_alg».proof.Proof.GlueVal

set_option maxRecDepth 16384

noncomputable section

namespace Cert.KernelIdeal.P1R0

open Cert.KernelIdeal Cert.KernelIdeal.Gen
open Idealize.ShloMosaic Idealize.ShloMosaic.TcCoe
open Cert.KernelIdeal.P1 (Bf tw0 tw1)
open Cert.KernelIdeal.Glue (atTc)
open scoped BigOperators

/-! ## The run's choices for this launch -/

/-- The launch's tables, admissible. -/
abbrev gA (m : (ℓ : Loc nD τ sig) → Buf (Elt Ideal) ℓ) : (pcfg0 (F := Ideal)).Adm := Glue.adm0 m
/-- The contents it is entered from, as the run names them. -/
abbrev gW (m : (ℓ : Loc nD τ sig) → Buf (Elt Ideal) ℓ)
    (hE : ∀ (c : Dev nD) (idx : S2x1000000.Idx), ((V0 m c main_arg1 : IVec S2x1000000 32) idx).toNat < 100000) :
    Dev nD → Valuation τ sig (Elt Ideal) := Glue.W1 m

variable (m : (ℓ : Loc nD τ sig) → Buf (Elt Ideal) ℓ)
  (hE : ∀ (c : Dev nD) (idx : S2x1000000.Idx), ((V0 m c main_arg1 : IVec S2x1000000 32) idx).toNat < 100000)
  (c : Dev nD)

include hE

/-- The words it reads of them name rows of the node table. -/
theorem gP0 : ∀ c (i : grid0.Coords), k0_chk1 (tw0 tb0 c i (T0 (gA m) c)) := Glue.hp0_0 m hE
theorem gP1 : ∀ c (i : grid0.Coords), k0_chk2 (tw1 tb1 c i (T1 (gA m) c)) := Glue.hp1_0 m hE
/-- The contents it is entered from are the valuation's. -/
theorem gV : Ventry m (Glue.outs m hE) c = gW m hE c := Glue.V1_eq m c
/-- The tables it finds in the buffers are its own. -/
theorem gTA : (T0 (gA m) c : S62500.Idx → BitVec 32) = (Tbl.tblA m (Glue.outs m hE) c KK : IVec S62500 32) :=
  ((Glue.hT0_0 m hE c).symm.trans (congrFun (gV m hE c) (Proc.devRef .tc main_v11)).symm :)
theorem gTB : (T1 (gA m) c : S62500.Idx → BitVec 32) = (Tbl.tblB m (Glue.outs m hE) c KK : IVec S62500 32) :=
  ((Glue.hT1_0 m hE c).symm.trans (congrFun (gV m hE c) (Proc.devRef .tc main_v12)).symm :)
/-- What it leaves at its three results. -/
theorem gR0 : (Tail.res0 (Glue.outs m hE) c KK : S62500x64.Idx → EReal) = hidArr (atTc (gW m hE)) (gA m) (gP0 m hE) (gP1 m hE) c :=
  Glue.res0_0 m hE c
theorem gR1 : (Tail.res1 (Glue.outs m hE) c KK : S1x64.Idx → EReal) = sumArr (atTc (gW m hE)) (gA m) (gP0 m hE) (gP1 m hE) c :=
  Glue.res1_0 m hE c
theorem gR2 : (Tail.res2 (Glue.outs m hE) c KK : S1x64.Idx → EReal) = sqArr (atTc (gW m hE)) (gA m) (gP0 m hE) (gP1 m hE) c :=
  Glue.res2_0 m hE c

/-! ## The three facts, nothing assumed -/

/-- The entry contents the launch's value lemmas take are the run's. -/
theorem VV_eq : VV m (Glue.outs m hE) = atTc (gW m hE) :=
  funext fun c => funext fun b => congrFun (gV m hE c) (Proc.devRef .tc b)

/-- Row `i` of the launch's rows is the hidden value of edge `i` of its chunk. -/
theorem row_top (i : Fin 62500) (j : Fin 64) : Tail.chunkRow (Glue.outs m hE) c KK i j = KVal.HID m c KK i j :=
  chunkRow_eq m (Glue.outs m hE) c (gA m) (gP0 m hE) (gP1 m hE) (gTA m hE c) (gTB m hE c)
    (by rw [VV_eq m hE]; exact gR0 m hE c) i j

/-- Its sums are the sums of those values over the chunk. -/
theorem sum_top (j : Fin 64) : Tail.chunkSum (Glue.outs m hE) c KK j = ∑ i : Fin 62500, KVal.HID m c KK i j :=
  chunkSum_eq m (Glue.outs m hE) c (gA m) (gP0 m hE) (gP1 m hE) (gTA m hE c) (gTB m hE c)
    (by rw [VV_eq m hE]; exact gR1 m hE c) j

/-- Its sums of squares are the sums of their squares. -/
theorem sq_top (j : Fin 64) :
    Tail.chunkSq (Glue.outs m hE) c KK j = ∑ i : Fin 62500, KVal.HID m c KK i j * KVal.HID m c KK i j :=
  chunkSq_eq m (Glue.outs m hE) c (gA m) (gP0 m hE) (gP1 m hE) (gTA m hE c) (gTB m hE c)
    (by rw [VV_eq m hE]; exact gR2 m hE c) j

end Cert.KernelIdeal.P1R0

end
-- ==== Proof.P1R1Val.lean ====
/-
  A gather-and-project region (one chunk of 62500 edges), from blocks to arrays.

  The five parameter windows never move: each one's block is its whole array. The two running-sum
  windows never move either and are written back once, after the last point, so their arrays end
  holding what the last point left. Put together with the recursion over the points, at the ideal
  values: the first array ends at the sum over the chunk's 62500 edges of their hidden rows, the
  second at the sum of the squares, and row i of the hidden array is edge i's hidden row — where the
  hidden row of edge i is the two layers applied to the two rows of the node-feature array that entry
  i of each endpoint table names.
-/
import proofs.«400866_j57071525429608_2_alg».proof.Proof.P1R1Dat
import proofs.«400866_j57071525429608_2_alg».proof.Proof.P1StateVal
import proofs.«400866_j57071525429608_2_alg».proof.Proof.P1Val
import Idealize.ShloMosaic.Lib.Pipeline.Value
import Idealize.ShloMosaic.Lib.ValueIdx
import Mathlib.Algebra.BigOperators.Fin

set_option maxRecDepth 100000

noncomputable section

namespace Cert.KernelIdeal.P1R1

open Cert.KernelIdeal Cert.KernelIdeal.Gen
open Idealize.ShloMosaic Idealize.ShloMosaic.TcCoe
open Idealize.ShloMosaic.Pipeline (Dat)
open Cert.KernelIdeal.P1 (Bf tw0 tw1 hNext)
open scoped BigOperators

/-! ## From blocks to arrays (any float values) -/

section Arrays

variable {F : FTy → Type} [FloatOps F]
variable (V : (c : Dev nD) → (b : Ref sig .tc) → Buf (Elt F) ((c : Thread nD τ).loc b))
variable (a : (pcfg1 (F := F)).Adm)
variable (hp0 : ∀ c (i : grid1.Coords), k1_chk1 (tw0 tb0 c i (T0 a c))) (hp1 : ∀ c (i : grid1.Coords), k1_chk2 (tw1 tb1 c i (T1 a c)))

/-- The last grid point. -/
def tlast : Fin (cfg1 a).N := ⟨62499, lt_of_lt_of_eq (by decide : 62499 < 62500) N_1.symm⟩

theorem tlast_succ : (tlast a).val + 1 = (cfg1 a).N := N_1.symm

/-- The first half of the first layer's weights: the block is the array. -/
theorem iblk_0_eq (c : Dev nD) (t : Fin (cfg1 a).N) : (iblk V a c 0 t : S64x128.Idx → Elt F .f32) = V c main_v4 := by
  refine funext fun (y : S64x128.Idx) => ?_
  show (V c main_v4 : S64x128.Idx → Elt F .f32) ((((cfg1 a).win 0).blk t).view.emb y) = _
  congr 1; funext b; apply Fin.ext
  match b with
  | ⟨0, _⟩ =>
    show ((cfg1 a).win 0).index t (0 : Fin 2) * 64 + 1 * (y 0).val = (y 0).val
    rw [show ((cfg1 a).win 0).index t (0 : Fin 2) = 0 from rfl]; omega
  | ⟨1, _⟩ =>
    show ((cfg1 a).win 0).index t (1 : Fin 2) * 128 + 1 * (y 1).val = (y 1).val
    rw [show ((cfg1 a).win 0).index t (1 : Fin 2) = 0 from rfl]; omega

/-- The second half of the first layer's weights: the block is the array. -/
theorem iblk_1_eq (c : Dev nD) (t : Fin (cfg1 a).N) : (iblk V a c 1 t : S64x128.Idx → Elt F .f32) = V c main_v5 := by
  refine funext fun (y : S64x128.Idx) => ?_
  show (V c main_v5 : S64x128.Idx → Elt F .f32) ((((cfg1 a).win 1).blk t).view.emb y) = _
  congr 1; funext b; apply Fin.ext
  match b with
  | ⟨0, _⟩ =>
    show ((cfg1 a).win 1).index t (0 : Fin 2) * 64 + 1 * (y 0).val = (y 0).val
    rw [show ((cfg1 a).win 1).index t (0 : Fin 2) = 0 from rfl]; omega
  | ⟨1, _⟩ =>
    show ((cfg1 a).win 1).index t (1 : Fin 2) * 128 + 1 * (y 1).val = (y 1).val
    rw [show ((cfg1 a).win 1).index t (1 : Fin 2) = 0 from rfl]; omega

/-- The first layer's bias: the block is the array. -/
theorem iblk_2_eq (c : Dev nD) (t : Fin (cfg1 a).N) : (iblk V a c 2 t : S1x64.Idx → Elt F .f32) = V c main_v6 := by
  refine funext fun (y : S1x64.Idx) => ?_
  show (V c main_v6 : S1x64.Idx → Elt F .f32) ((((cfg1 a).win 2).blk t).view.emb y) = _
  congr 1; funext b; apply Fin.ext
  match b with
  | ⟨0, _⟩ =>
    show ((cfg1 a).win 2).index t (0 : Fin 2) * 1 + 1 * (y 0).val = (y 0).val
    rw [show ((cfg1 a).win 2).index t (0 : Fin 2) = 0 from rfl]; omega
  | ⟨1, _⟩ =>
    show ((cfg1 a).win 2).index t (1 : Fin 2) * 64 + 1 * (y 1).val = (y 1).val
    rw [show ((cfg1 a).win 2).index t (1 : Fin 2) = 0 from rfl]; omega

/-- The second layer's weights: the block is the array. -/
theorem iblk_3_eq (c : Dev nD) (t : Fin (cfg1 a).N) : (iblk V a c 3 t : S64x64.Idx → Elt F .f32) = V c main_arg4 := by
  refine funext fun (y : S64x64.Idx) => ?_
  show (V c main_arg4 : S64x64.Idx → Elt F .f32) ((((cfg1 a).win 3).blk t).view.emb y) = _
  congr 1; funext b; apply Fin.ext
  match b with
  | ⟨0, _⟩ =>
    show ((cfg1 a).win 3).index t (0 : Fin 2) * 64 + 1 * (y 0).val = (y 0).val
    rw [show ((cfg1 a).win 3).index t (0 : Fin 2) = 0 from rfl]; omega
  | ⟨1, _⟩ =>
    show ((cfg1 a).win 3).index t (1 : Fin 2) * 64 + 1 * (y 1).val = (y 1).val
    rw [show ((cfg1 a).win 3).index t (1 : Fin 2) = 0 from rfl]; omega

/-- The second layer's bias: the block is the array. -/
theorem iblk_4_eq (c : Dev nD) (t : Fin (cfg1 a).N) : (iblk V a c 4 t : S1x64.Idx → Elt F .f32) = V c main_v7 := by
  refine funext fun (y : S1x64.Idx) => ?_
  show (V c main_v7 : S1x64.Idx → Elt F .f32) ((((cfg1 a).win 4).blk t).view.emb y) = _
  congr 1; funext b; apply Fin.ext
  match b with
  | ⟨0, _⟩ =>
    show ((cfg1 a).win 4).index t (0 : Fin 2) * 1 + 1 * (y 0).val = (y 0).val
    rw [show ((cfg1 a).win 4).index t (0 : Fin 2) = 0 from rfl]; omega
  | ⟨1, _⟩ =>
    show ((cfg1 a).win 4).index t (1 : Fin 2) * 64 + 1 * (y 1).val = (y 1).val
    rw [show ((cfg1 a).win 4).index t (1 : Fin 2) = 0 from rfl]; omega

/-- Window 5 is written back at the last point and at no other: its block never moves. -/
theorem flush5_iff (t : Fin (cfg1 a).N) : ((cfg1 a).win 5).flush t = true ↔ t.val + 1 = (cfg1 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint5 : ∀ t t' : Fin (cfg1 a).N, ((cfg1 a).win 5).flush t = true → ((cfg1 a).win 5).flush t' = true → t ≠ t' →
    Disjoint (((cfg1 a).win 5).blk t).view.set (((cfg1 a).win 5).blk t').view.set :=
  fun t t' h h' hne => absurd (Fin.ext (by
    have e := (flush5_iff a t).mp h
    have e' := (flush5_iff a t').mp h'
    omega)) hne

/-- Where feature j of window 5's block sits in its array: at feature j. -/
theorem emb5 (t : Fin (cfg1 a).N) (j : Fin 64) :
    (((cfg1 a).win 5).blk t).view.emb (ValueIdx.ix2 (0 : Fin 1) j) = ValueIdx.ix2 (0 : Fin 1) j := by
  funext b; apply Fin.ext
  match b with
  | ⟨0, _⟩ =>
    show ((cfg1 a).win 5).index t (0 : Fin 2) * 1 + 1 * 0 = 0
    rw [show ((cfg1 a).win 5).index t (0 : Fin 2) = 0 from rfl]
  | ⟨1, _⟩ =>
    show ((cfg1 a).win 5).index t (1 : Fin 2) * 64 + 1 * j.val = j.val
    rw [show ((cfg1 a).win 5).index t (1 : Fin 2) = 0 from rfl]; omega

theorem sum_arr_apply (c : Dev nD) (j : Fin 64) :
    ((dat V a hp0 hp1 c).arrAt 5 (cfg1 a).N : S1x64.Idx → Elt F .f32) (ValueIdx.ix2 (0 : Fin 1) j)
      = (stAt V a hp0 hp1 c (tlast a).val (tlast a).isLt).1 (ValueIdx.ix2 (0 : Fin 1) j) := by
  have h := (dat V a hp0 hp1 c).arrAt_emb_eq_flushed 5 (disjoint5 a) (tlast a) ((flush5_iff a (tlast a)).mpr (tlast_succ a))
    (ValueIdx.ix2 (0 : Fin 1) j)
  rw [emb5] at h
  refine h.trans ?_
  show (dat V a hp0 hp1 c).after 5 (tlast a) (ValueIdx.ix2 (0 : Fin 1) j) = _
  rw [after_5]

/-- The array of window 5 after the region is what the last point left. -/
theorem sum_arr (c : Dev nD) :
    ((dat V a hp0 hp1 c).arrAt 5 (cfg1 a).N : S1x64.Idx → Elt F .f32) = (stAt V a hp0 hp1 c (tlast a).val (tlast a).isLt).1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sum_arr_apply V a hp0 hp1 c j

/-- Window 6 is written back at the last point and at no other: its block never moves. -/
theorem flush6_iff (t : Fin (cfg1 a).N) : ((cfg1 a).win 6).flush t = true ↔ t.val + 1 = (cfg1 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint6 : ∀ t t' : Fin (cfg1 a).N, ((cfg1 a).win 6).flush t = true → ((cfg1 a).win 6).flush t' = true → t ≠ t' →
    Disjoint (((cfg1 a).win 6).blk t).view.set (((cfg1 a).win 6).blk t').view.set :=
  fun t t' h h' hne => absurd (Fin.ext (by
    have e := (flush6_iff a t).mp h
    have e' := (flush6_iff a t').mp h'
    omega)) hne

/-- Where feature j of window 6's block sits in its array: at feature j. -/
theorem emb6 (t : Fin (cfg1 a).N) (j : Fin 64) :
    (((cfg1 a).win 6).blk t).view.emb (ValueIdx.ix2 (0 : Fin 1) j) = ValueIdx.ix2 (0 : Fin 1) j := by
  funext b; apply Fin.ext
  match b with
  | ⟨0, _⟩ =>
    show ((cfg1 a).win 6).index t (0 : Fin 2) * 1 + 1 * 0 = 0
    rw [show ((cfg1 a).win 6).index t (0 : Fin 2) = 0 from rfl]
  | ⟨1, _⟩ =>
    show ((cfg1 a).win 6).index t (1 : Fin 2) * 64 + 1 * j.val = j.val
    rw [show ((cfg1 a).win 6).index t (1 : Fin 2) = 0 from rfl]; omega

theorem sq_arr_apply (c : Dev nD) (j : Fin 64) :
    ((dat V a hp0 hp1 c).arrAt 6 (cfg1 a).N : S1x64.Idx → Elt F .f32) (ValueIdx.ix2 (0 : Fin 1) j)
      = (stAt V a hp0 hp1 c (tlast a).val (tlast a).isLt).2.1 (ValueIdx.ix2 (0 : Fin 1) j) := by
  have h := (dat V a hp0 hp1 c).arrAt_emb_eq_flushed 6 (disjoint6 a) (tlast a) ((flush6_iff a (tlast a)).mpr (tlast_succ a))
    (ValueIdx.ix2 (0 : Fin 1) j)
  rw [emb6] at h
  refine h.trans ?_
  show (dat V a hp0 hp1 c).after 6 (tlast a) (ValueIdx.ix2 (0 : Fin 1) j) = _
  rw [after_6]

/-- The array of window 6 after the region is what the last point left. -/
theorem sq_arr (c : Dev nD) :
    ((dat V a hp0 hp1 c).arrAt 6 (cfg1 a).N : S1x64.Idx → Elt F .f32) = (stAt V a hp0 hp1 c (tlast a).val (tlast a).isLt).2.1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sq_arr_apply V a hp0 hp1 c j

end Arrays

/-! ## The values, at the ideal instance -/

section AtIdeal

variable (V : (c : Dev nD) → (b : Ref sig .tc) → Buf (Elt Ideal) ((c : Thread nD τ).loc b))
variable (a : (pcfg1 (F := Ideal)).Adm)
variable (hp0 : ∀ c (i : grid1.Coords), k1_chk1 (tw0 tb0 c i (T0 a c))) (hp1 : ∀ c (i : grid1.Coords), k1_chk2 (tw1 tb1 c i (T1 a c)))

/-- The arrays the region reads, each at its literal type. -/
abbrev xArr (c : Dev nD) : S100000x128.Idx → EReal := V c main_arg0
abbrev w1Arr (c : Dev nD) : S64x128.Idx → EReal := V c main_v4
abbrev w2Arr (c : Dev nD) : S64x128.Idx → EReal := V c main_v5
abbrev binArr (c : Dev nD) : S1x64.Idx → EReal := V c main_v6
abbrev whArr (c : Dev nD) : S64x64.Idx → EReal := V c main_arg4
abbrev bhArr (c : Dev nD) : S1x64.Idx → EReal := V c main_v7
/-- Entry i of each endpoint table. -/
abbrev e0At (c : Dev nD) (i : Fin 62500) : BitVec 32 := (T0 a c : S62500.Idx → BitVec 32) (ValueIdx.ix1 i)
abbrev e1At (c : Dev nD) (i : Fin 62500) : BitVec 32 := (T1 a c : S62500.Idx → BitVec 32) (ValueIdx.ix1 i)

/-- The grid point of edge i. -/
def ptOf (i : Fin 62500) : Fin (cfg1 a).N := ⟨i.val, lt_of_lt_of_eq i.isLt N_1.symm⟩

/-- The word a point reads of the first table is the table's entry at the point. -/
theorem tw0_at (c : Dev nD) (t : Fin (cfg1 a).N) :
    tw0 tb0 c (crd a t) (T0 a c) = e0At a c ⟨t.val, lt_of_lt_of_eq t.isLt N_1⟩ := by
  refine (P1.tw0_eq tb0 c (crd a t) (T0 a c)).trans ?_
  show (T0 a c : S62500.Idx → BitVec 32) _ = (T0 a c : S62500.Idx → BitVec 32) _
  refine congrArg (T0 a c : S62500.Idx → BitVec 32) (funext fun b => Fin.ext ?_)
  match b with
  | ⟨0, _⟩ => exact coord_val a t

theorem tw1_at (c : Dev nD) (t : Fin (cfg1 a).N) :
    tw1 tb1 c (crd a t) (T1 a c) = e1At a c ⟨t.val, lt_of_lt_of_eq t.isLt N_1⟩ := by
  refine (P1.tw1_eq tb1 c (crd a t) (T1 a c)).trans ?_
  show (T1 a c : S62500.Idx → BitVec 32) _ = (T1 a c : S62500.Idx → BitVec 32) _
  refine congrArg (T1 a c : S62500.Idx → BitVec 32) (funext fun b => Fin.ext ?_)
  match b with
  | ⟨0, _⟩ => exact coord_val a t

include hp0 in
/-- Every entry of the endpoint tables names a row of the node-feature array. -/
theorem e0_lt (c : Dev nD) (i : Fin 62500) : (e0At a c i).toNat < 100000 := by
  have h := P1.toNat_lt_of_chk1 (hp0 c (crd a (ptOf a i)))
  rw [tw0_at] at h
  exact h

include hp1 in
theorem e1_lt (c : Dev nD) (i : Fin 62500) : (e1At a c i).toNat < 100000 := by
  have h := P1.toNat_lt_of_chk2 (hp1 c (crd a (ptOf a i)))
  rw [tw1_at] at h
  exact h

/-- The hidden row of edge i of the chunk, at feature j: the two layers applied to the two rows of the node-feature
    array that entry i of each endpoint table names. -/
def rowval (c : Dev nD) (i : Fin 62500) (j : Fin 64) : EReal :=
  ∑ k : Fin 64,
      max (∑ k' : Fin 128, xArr V c (ValueIdx.ix2 (⟨(e0At a c i).toNat, e0_lt a hp0 c i⟩ : Fin 100000) k') * w1Arr V c (ValueIdx.ix2 k k')
          + ∑ k' : Fin 128, xArr V c (ValueIdx.ix2 (⟨(e1At a c i).toNat, e1_lt a hp1 c i⟩ : Fin 100000) k') * w2Arr V c (ValueIdx.ix2 k k')
          + binArr V c (ValueIdx.ix2 (0 : Fin 1) k)) 0
        * whArr V c (ValueIdx.ix2 j k)
    + bhArr V c (ValueIdx.ix2 (0 : Fin 1) j)

/-- The first row a point fetches, at feature k'. -/
theorem row0_val (c : Dev nD) (t : Fin (cfg1 a).N) (k' : Fin 128) :
    P1.rowAt0 tb0 xM c (crd a t) (T0 a c) (V c main_arg0) (hp0 c (crd a t)) (ValueIdx.ix2 (0 : Fin 1) k')
      = xArr V c (ValueIdx.ix2 (⟨(e0At a c ⟨t.val, lt_of_lt_of_eq t.isLt N_1⟩).toNat, e0_lt a hp0 c _⟩ : Fin 100000) k') := by
  refine (P1.rowAt0_apply tb0 xM c (crd a t) (T0 a c) (V c main_arg0) (hp0 c (crd a t)) k').trans ?_
  show xArr V c _ = xArr V c _
  refine congrArg (xArr V c) (funext fun b => Fin.ext ?_)
  match b with
  | ⟨0, _⟩ =>
    show (tw0 tb0 c (crd a t) (T0 a c)).toNat = (e0At a c ⟨t.val, lt_of_lt_of_eq t.isLt N_1⟩).toNat
    rw [tw0_at]
  | ⟨1, _⟩ => rfl

/-- The second row a point fetches, at feature k'. -/
theorem row1_val (c : Dev nD) (t : Fin (cfg1 a).N) (k' : Fin 128) :
    P1.rowAt1 tb1 xM c (crd a t) (T1 a c) (V c main_arg0) (hp1 c (crd a t)) (ValueIdx.ix2 (0 : Fin 1) k')
      = xArr V c (ValueIdx.ix2 (⟨(e1At a c ⟨t.val, lt_of_lt_of_eq t.isLt N_1⟩).toNat, e1_lt a hp1 c _⟩ : Fin 100000) k') := by
  refine (P1.rowAt1_apply tb1 xM c (crd a t) (T1 a c) (V c main_arg0) (hp1 c (crd a t)) k').trans ?_
  show xArr V c _ = xArr V c _
  refine congrArg (xArr V c) (funext fun b => Fin.ext ?_)
  match b with
  | ⟨0, _⟩ =>
    show (tw1 tb1 c (crd a t) (T1 a c)).toNat = (e1At a c ⟨t.val, lt_of_lt_of_eq t.isLt N_1⟩).toNat
    rw [tw1_at]
  | ⟨1, _⟩ => rfl

/-- A point's hidden row is the hidden row of its edge. -/
theorem hrow_val (c : Dev nD) (t : Fin (cfg1 a).N) (j : Fin 64) :
    P1.hrowG tb0 tb1 xM c (cfg1 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t j
      = rowval V a hp0 hp1 c ⟨t.val, lt_of_lt_of_eq t.isLt N_1⟩ j :=
  P1.hrow_eq_of (P1.rowAt0 tb0 xM c (crd a t) (T0 a c) (V c main_arg0) (hp0 c (crd a t)))
    (P1.rowAt1 tb1 xM c (crd a t) (T1 a c) (V c main_arg0) (hp1 c (crd a t)))
    (iblk V a c 0 t) (iblk V a c 1 t) (iblk V a c 2 t) (iblk V a c 3 t) (iblk V a c 4 t)
    (xArr V c) ⟨(e0At a c ⟨t.val, lt_of_lt_of_eq t.isLt N_1⟩).toNat, e0_lt a hp0 c _⟩
    ⟨(e1At a c ⟨t.val, lt_of_lt_of_eq t.isLt N_1⟩).toNat, e1_lt a hp1 c _⟩
    (w1Arr V c) (w2Arr V c) (binArr V c) (whArr V c) (bhArr V c)
    (row0_val V a hp0 c t) (row1_val V a hp1 c t)
    (iblk_0_eq V a c t) (iblk_1_eq V a c t) (iblk_2_eq V a c t) (iblk_3_eq V a c t) (iblk_4_eq V a c t) j

/-- After point n the first running sum is the sum of the hidden rows of the edges 0 … n. -/
theorem sum_at (c : Dev nD) (j : Fin 64) (n : ℕ) (hn : n < (cfg1 a).N) :
    (stAt V a hp0 hp1 c n hn).1 (ValueIdx.ix2 (0 : Fin 1) j)
      = ∑ i : Fin (n + 1), rowval V a hp0 hp1 c ⟨i.val, lt_of_lt_of_eq (Nat.lt_of_le_of_lt (Nat.le_of_lt_succ i.isLt) hn) N_1⟩ j := by
  unfold stAt
  refine (P1.sumG_at tb0 tb1 xM hM c (cfg1 a).N (crd a) (fun t => iblk V a c 0 t) (fun t => iblk V a c 1 t) (fun t => iblk V a c 2 t) (fun t => iblk V a c 3 t) (fun t => iblk V a c 4 t) (T0 a c) (T1 a c) (V c main_arg0) (V c main_v16_0) (fun t => hp0 c (crd a t)) (fun t => hp1 c (crd a t)) j n hn).trans ?_
  exact Finset.sum_congr rfl fun i _ => hrow_val V a hp0 hp1 c _ j

/-- After point n the second running sum is the sum of the squares of those hidden rows. -/
theorem sq_at (c : Dev nD) (j : Fin 64) (n : ℕ) (hn : n < (cfg1 a).N) :
    (stAt V a hp0 hp1 c n hn).2.1 (ValueIdx.ix2 (0 : Fin 1) j)
      = ∑ i : Fin (n + 1), rowval V a hp0 hp1 c ⟨i.val, lt_of_lt_of_eq (Nat.lt_of_le_of_lt (Nat.le_of_lt_succ i.isLt) hn) N_1⟩ j
          * rowval V a hp0 hp1 c ⟨i.val, lt_of_lt_of_eq (Nat.lt_of_le_of_lt (Nat.le_of_lt_succ i.isLt) hn) N_1⟩ j := by
  unfold stAt
  refine (P1.sumsqG_at tb0 tb1 xM hM c (cfg1 a).N (crd a) (fun t => iblk V a c 0 t) (fun t => iblk V a c 1 t) (fun t => iblk V a c 2 t) (fun t => iblk V a c 3 t) (fun t => iblk V a c 4 t) (T0 a c) (T1 a c) (V c main_arg0) (V c main_v16_0) (fun t => hp0 c (crd a t)) (fun t => hp1 c (crd a t)) j n hn).trans ?_
  exact Finset.sum_congr rfl fun i _ => by rw [hrow_val V a hp0 hp1 c _ j]

/-- The hidden array is read through its whole view as itself. -/
theorem read_hM (c : Dev nD) (f : Bf (F := Ideal) c hM) (y : S62500x64.Idx) :
    hM.view.read (Elt Ideal) f y = (f : S62500x64.Idx → EReal) y := rfl

/-- After n points, row i < n of the hidden array is edge i's hidden row. -/
theorem hid_at (c : Dev nD) (j : Fin 64) (n : ℕ) (hn : n ≤ (cfg1 a).N) (i : ℕ) (hi : i < n) :
    (hAt V a hp0 hp1 c n hn : S62500x64.Idx → EReal) (ValueIdx.ix2 (⟨i, lt_of_lt_of_eq (Nat.lt_of_lt_of_le hi hn) N_1⟩ : Fin 62500) j)
      = rowval V a hp0 hp1 c ⟨i, lt_of_lt_of_eq (Nat.lt_of_lt_of_le hi hn) N_1⟩ j := by
  unfold hAt
  refine (read_hM c _ _).symm.trans ?_
  refine (P1.hG_row_written (F := Ideal) tb0 tb1 xM hM c (cfg1 a).N (crd a) (fun t => iblk V a c 0 t) (fun t => iblk V a c 1 t) (fun t => iblk V a c 2 t) (fun t => iblk V a c 3 t) (fun t => iblk V a c 4 t) (T0 a c) (T1 a c) (V c main_arg0) (V c main_v16_0) (fun t => hp0 c (crd a t)) (fun t => hp1 c (crd a t)) (coord_val a) j n hn i hi).trans ?_
  exact (P1.rowStep_apply tb0 tb1 xM c (cfg1 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) _ j).trans (hrow_val V a hp0 hp1 c _ j)

/-- The two running-sum arrays and the hidden array after the region, each at its literal type. -/
abbrev sumArr (c : Dev nD) : S1x64.Idx → EReal := (dat V a hp0 hp1 c).arrAt 5 (cfg1 a).N
abbrev sqArr (c : Dev nD) : S1x64.Idx → EReal := (dat V a hp0 hp1 c).arrAt 6 (cfg1 a).N
abbrev hidArr (c : Dev nD) : S62500x64.Idx → EReal := hAt V a hp0 hp1 c (cfg1 a).N (Nat.le_refl _)

/-- The last point's index plus one is the number of edges of the chunk. -/
theorem tlast_count : (tlast a).val + 1 = 62500 := rfl

/-- The first running-sum array after the region: the sum over the chunk's edges of their hidden rows. -/
theorem sum_final (c : Dev nD) (j : Fin 64) :
    sumArr V a hp0 hp1 c (ValueIdx.ix2 (0 : Fin 1) j) = ∑ i : Fin 62500, rowval V a hp0 hp1 c i j := by
  refine (sum_arr_apply V a hp0 hp1 c j).trans ((sum_at V a hp0 hp1 c j (tlast a).val (tlast a).isLt).trans ?_)
  exact Fintype.sum_equiv (finCongr (tlast_count a)) _ _ (fun i => rfl)

/-- The second running-sum array after the region: the sum of the squares of those hidden rows. -/
theorem sq_final (c : Dev nD) (j : Fin 64) :
    sqArr V a hp0 hp1 c (ValueIdx.ix2 (0 : Fin 1) j)
      = ∑ i : Fin 62500, rowval V a hp0 hp1 c i j * rowval V a hp0 hp1 c i j := by
  refine (sq_arr_apply V a hp0 hp1 c j).trans ((sq_at V a hp0 hp1 c j (tlast a).val (tlast a).isLt).trans ?_)
  exact Fintype.sum_equiv (finCongr (tlast_count a)) _ _ (fun i => rfl)

/-- The hidden array after the region: row i is edge i's hidden row. -/
theorem hid_final (c : Dev nD) (i : Fin 62500) (j : Fin 64) :
    hidArr V a hp0 hp1 c (ValueIdx.ix2 i j) = rowval V a hp0 hp1 c i j :=
  hid_at V a hp0 hp1 c j (cfg1 a).N (Nat.le_refl _) i.val (lt_of_lt_of_eq i.isLt N_1.symm)

end AtIdeal

end Cert.KernelIdeal.P1R1

end
-- ==== Proof.P1R1Fin.lean ====
/- The first launch's results are its chunk's hidden values.

   The launch walks the 62500 edges of its chunk: at edge i it fetches the two rows of the node-feature array that entry i of
   its two endpoint tables names, applies the two layers, writes the hidden row and adds it, and its square, to two running
   sums. Its tables are the chunk's pieces of the edge array's two rows, and the weights it reads are the argument arrays'
   (the first layer's weights in two halves). So row i of its rows result is the hidden value of edge i of the chunk in the
   by-endpoint form, and its two sums are the sums of those values and of their squares over the chunk. -/
import proofs.«400866_j57071525429608_2_alg».proof.Proof.P1R1Val
import proofs.«400866_j57071525429608_2_alg».proof.Proof.HostHead
import proofs.«400866_j57071525429608_2_alg».proof.Proof.TblFacts
import proofs.«400866_j57071525429608_2_alg».proof.Proof.HostTail
import proofs.«400866_j57071525429608_2_alg».proof.Proof.KVal
import proofs.«400866_j57071525429608_2_alg».proof.Proof.Spec
import Idealize.ShloMosaic.Lib.ValueIdx

set_option maxRecDepth 16384

noncomputable section

namespace Cert.KernelIdeal.P1R1

open Cert.KernelIdeal Cert.KernelIdeal.Gen
open Idealize.ShloMosaic Idealize.ShloMosaic.TcCoe
open Cert.KernelIdeal.P1 (Bf tw0 tw1)
open scoped BigOperators

/-! ## The launch -/

/-- The launch's chunk among the sixteen. -/
abbrev KK : Fin 16 := ⟨1, by omega⟩
/-- The launch among the seventeen regions. -/
abbrev KK17 : Fin 17 := ⟨1, by omega⟩
/-- The buffers' contents when the launch is entered. -/
abbrev Ventry (m : (ℓ : Loc nD τ sig) → Buf (Elt Ideal) ℓ) (outs : Outs (F := Ideal)) (c : Dev nD) : Valuation τ sig (Elt Ideal) := V3 m outs c
/-- They are the entry contents the host operations' facts are stated at. -/
theorem Ventry_eq (m : (ℓ : Loc nD τ sig) → Buf (Elt Ideal) ℓ) (outs : Outs (F := Ideal)) (c : Dev nD) :
    Head.Vodd m outs c KK17 = Ventry m outs c := Head.Vodd_1 m outs c _

variable (m : (ℓ : Loc nD τ sig) → Buf (Elt Ideal) ℓ) (outs : Outs (F := Ideal)) (c : Dev nD)
variable (a : (pcfg1 (F := Ideal)).Adm)
variable (hp0 : ∀ c (i : grid1.Coords), k1_chk1 (tw0 tb0 c i (T0 a c))) (hp1 : ∀ c (i : grid1.Coords), k1_chk2 (tw1 tb1 c i (T1 a c)))

/-- The entry contents as the launch's value lemmas take them. -/
abbrev VV : (c : Dev nD) → (b : Ref sig .tc) → Buf (Elt Ideal) ((c : Thread nD τ).loc b) := fun c b => Ventry m outs c b

/-! ## The tables' words are the chunk's endpoints -/

/-- Entry `i` of the first table names the first endpoint of edge `i` of the chunk. -/
theorem e0_eq (hT0 : (T0 a c : S62500.Idx → BitVec 32) = (Tbl.tblA m outs c KK : IVec S62500 32)) (i : Fin 62500) :
    (⟨(e0At a c i).toNat, e0_lt a hp0 c i⟩ : Fin 100000) = Cert.Spec.endpoint (KVal.edgesA m c) 0 (Cert.Spec.chunk KK i) := by
  have hw : e0At a c i = (KVal.edgesA m c) (ValueIdx.ix2 (0 : Fin 2) (Cert.Spec.chunk KK i)) := by
    show (T0 a c : S62500.Idx → BitVec 32) (ValueIdx.ix1 i) = _
    rw [hT0]
    exact Tbl.tblA_apply m outs c KK i
  have hlt := e0_lt a hp0 c i
  rw [hw] at hlt
  refine Fin.ext ?_
  show (e0At a c i).toNat = (Cert.Spec.node _).val
  rw [Cert.Spec.node_val_of_toNat_lt hlt, hw]

/-- Entry `i` of the second table names the second endpoint. -/
theorem e1_eq (hT1 : (T1 a c : S62500.Idx → BitVec 32) = (Tbl.tblB m outs c KK : IVec S62500 32)) (i : Fin 62500) :
    (⟨(e1At a c i).toNat, e1_lt a hp1 c i⟩ : Fin 100000) = Cert.Spec.endpoint (KVal.edgesA m c) 1 (Cert.Spec.chunk KK i) := by
  have hw : e1At a c i = (KVal.edgesA m c) (ValueIdx.ix2 (1 : Fin 2) (Cert.Spec.chunk KK i)) := by
    show (T1 a c : S62500.Idx → BitVec 32) (ValueIdx.ix1 i) = _
    rw [hT1]
    exact Tbl.tblB_apply m outs c KK i
  have hlt := e1_lt a hp1 c i
  rw [hw] at hlt
  refine Fin.ext ?_
  show (e1At a c i).toNat = (Cert.Spec.node _).val
  rw [Cert.Spec.node_val_of_toNat_lt hlt, hw]

/-! ## The arrays the launch reads are the arguments' -/

theorem x_eq : xArr (VV m outs) c = KVal.xA m c := by
  show Ventry m outs c main_arg0 = _
  rw [← Ventry_eq m outs c]
  exact Head.arg0_keep m outs c KK17
theorem wh_eq : whArr (VV m outs) c = KVal.WhA m c := by
  show Ventry m outs c main_arg4 = _
  rw [← Ventry_eq m outs c]
  exact Head.arg4_keep m outs c KK17
theorem w1_apply (k : Fin 64) (k' : Fin 128) :
    w1Arr (VV m outs) c (ValueIdx.ix2 k k') = KVal.WinA m c (ValueIdx.ix2 k (⟨k'.val, by omega⟩ : Fin 256)) := by
  show (Ventry m outs c main_v4 : S64x128.Idx → EReal) (ValueIdx.ix2 k k') = _
  rw [← Ventry_eq m outs c]
  exact Head.v4_apply m outs c KK17 k k'
theorem w2_apply (k : Fin 64) (k' : Fin 128) :
    w2Arr (VV m outs) c (ValueIdx.ix2 k k') = KVal.WinA m c (ValueIdx.ix2 k (⟨128 + k'.val, by omega⟩ : Fin 256)) := by
  show (Ventry m outs c main_v5 : S64x128.Idx → EReal) (ValueIdx.ix2 k k') = _
  rw [← Ventry_eq m outs c]
  exact Head.v5_apply m outs c KK17 k k'
theorem bin_apply (k : Fin 64) :
    binArr (VV m outs) c (ValueIdx.ix2 (0 : Fin 1) k) = KVal.binA m c (ValueIdx.ix1 k) := by
  show (Ventry m outs c main_v6 : S1x64.Idx → EReal) (ValueIdx.ix2 (0 : Fin 1) k) = _
  rw [← Ventry_eq m outs c]
  exact Head.v6_apply m outs c KK17 k
theorem bh_apply (j : Fin 64) :
    bhArr (VV m outs) c (ValueIdx.ix2 (0 : Fin 1) j) = KVal.bhA m c (ValueIdx.ix1 j) := by
  show (Ventry m outs c main_v7 : S1x64.Idx → EReal) (ValueIdx.ix2 (0 : Fin 1) j) = _
  rw [← Ventry_eq m outs c]
  exact Head.v7_apply m outs c KK17 j

/-! ## The launch's hidden row is the chunk's hidden value -/

theorem rowval_eq (hT0 : (T0 a c : S62500.Idx → BitVec 32) = (Tbl.tblA m outs c KK : IVec S62500 32))
    (hT1 : (T1 a c : S62500.Idx → BitVec 32) = (Tbl.tblB m outs c KK : IVec S62500 32)) (i : Fin 62500) (j : Fin 64) :
    rowval (VV m outs) a hp0 hp1 c i j = KVal.hid m c (Cert.Spec.chunk KK i) j := by
  unfold rowval KVal.hid
  rw [e0_eq m outs c a hp0 hT0 i, e1_eq m outs c a hp1 hT1 i, x_eq m outs c, wh_eq m outs c]
  simp only [w1_apply m outs c, w2_apply m outs c, bin_apply m outs c, bh_apply m outs c]

/-! ## The three results -/

/-- Row `i` of the rows result is the hidden value of edge `i` of the chunk. -/
theorem chunkRow_eq (hT0 : (T0 a c : S62500.Idx → BitVec 32) = (Tbl.tblA m outs c KK : IVec S62500 32))
    (hT1 : (T1 a c : S62500.Idx → BitVec 32) = (Tbl.tblB m outs c KK : IVec S62500 32))
    (hR0 : (Tail.res0 outs c KK : S62500x64.Idx → EReal) = hidArr (VV m outs) a hp0 hp1 c)
    (i : Fin 62500) (j : Fin 64) : Tail.chunkRow outs c KK i j = KVal.HID m c KK i j := by
  show (Tail.res0 outs c KK : S62500x64.Idx → EReal) (ValueIdx.ix2 i j) = _
  rw [hR0]
  exact (hid_final (VV m outs) a hp0 hp1 c i j).trans (rowval_eq m outs c a hp0 hp1 hT0 hT1 i j)

/-- The sums result is the sum of the chunk's hidden values. -/
theorem chunkSum_eq (hT0 : (T0 a c : S62500.Idx → BitVec 32) = (Tbl.tblA m outs c KK : IVec S62500 32))
    (hT1 : (T1 a c : S62500.Idx → BitVec 32) = (Tbl.tblB m outs c KK : IVec S62500 32))
    (hR1 : (Tail.res1 outs c KK : S1x64.Idx → EReal) = sumArr (VV m outs) a hp0 hp1 c)
    (j : Fin 64) : Tail.chunkSum outs c KK j = ∑ i : Fin 62500, KVal.HID m c KK i j := by
  show (Tail.res1 outs c KK : S1x64.Idx → EReal) (ValueIdx.ix2 (0 : Fin 1) j) = _
  rw [hR1]
  exact (sum_final (VV m outs) a hp0 hp1 c j).trans (Finset.sum_congr rfl fun i _ => rowval_eq m outs c a hp0 hp1 hT0 hT1 i j)

/-- The sums-of-squares result is the sum of their squares. -/
theorem chunkSq_eq (hT0 : (T0 a c : S62500.Idx → BitVec 32) = (Tbl.tblA m outs c KK : IVec S62500 32))
    (hT1 : (T1 a c : S62500.Idx → BitVec 32) = (Tbl.tblB m outs c KK : IVec S62500 32))
    (hR2 : (Tail.res2 outs c KK : S1x64.Idx → EReal) = sqArr (VV m outs) a hp0 hp1 c)
    (j : Fin 64) : Tail.chunkSq outs c KK j = ∑ i : Fin 62500, KVal.HID m c KK i j * KVal.HID m c KK i j := by
  show (Tail.res2 outs c KK : S1x64.Idx → EReal) (ValueIdx.ix2 (0 : Fin 1) j) = _
  rw [hR2]
  exact (sq_final (VV m outs) a hp0 hp1 c j).trans
    (Finset.sum_congr rfl fun i _ => by rw [rowval_eq m outs c a hp0 hp1 hT0 hT1 i j])

end Cert.KernelIdeal.P1R1

end
-- ==== Proof.P1R1Top.lean ====
/- The first launch's results are its chunk's hidden values, at the run's own choices.

   The run fixes what every region leaves (the unknowns), each launch's tables and the contents each launch is entered
   from. At those choices nothing is left to assume: the launch's tables are its chunk's pieces of the edge array's rows,
   its results are what its proof data leave, and so its rows are the chunk's hidden values and its two sums their sums
   and sums of squares. -/
import proofs.«400866_j57071525429608_2_alg».proof.Proof.P1R1Fin
import proofs.«400866_j57071525429608_2_alg».proof.Proof.GlueVal

set_option maxRecDepth 16384

noncomputable section

namespace Cert.KernelIdeal.P1R1

open Cert.KernelIdeal Cert.KernelIdeal.Gen
open Idealize.ShloMosaic Idealize.ShloMosaic.TcCoe
open Cert.KernelIdeal.P1 (Bf tw0 tw1)
open Cert.KernelIdeal.Glue (atTc)
open scoped BigOperators

/-! ## The run's choices for this launch -/

/-- The launch's tables, admissible. -/
abbrev gA (m : (ℓ : Loc nD τ sig) → Buf (Elt Ideal) ℓ) : (pcfg1 (F := Ideal)).Adm := Glue.adm1 m
/-- The contents it is entered from, as the run names them. -/
abbrev gW (m : (ℓ : Loc nD τ sig) → Buf (Elt Ideal) ℓ)
    (hE : ∀ (c : Dev nD) (idx : S2x1000000.Idx), ((V0 m c main_arg1 : IVec S2x1000000 32) idx).toNat < 100000) :
    Dev nD → Valuation τ sig (Elt Ideal) := Glue.W3 m hE

variable (m : (ℓ : Loc nD τ sig) → Buf (Elt Ideal) ℓ)
  (hE : ∀ (c : Dev nD) (idx : S2x1000000.Idx), ((V0 m c main_arg1 : IVec S2x1000000 32) idx).toNat < 100000)
  (c : Dev nD)

include hE

/-- The words it reads of them name rows of the node table. -/
theorem gP0 : ∀ c (i : grid1.Coords), k1_chk1 (tw0 tb0 c i (T0 (gA m) c)) := Glue.hp0_1 m hE
theorem gP1 : ∀ c (i : grid1.Coords), k1_chk2 (tw1 tb1 c i (T1 (gA m) c)) := Glue.hp1_1 m hE
/-- The contents it is entered from are the valuation's. -/
theorem gV : Ventry m (Glue.outs m hE) c = gW m hE c := Glue.V3_eq m hE c
/-- The tables it finds in the buffers are its own. -/
theorem gTA : (T0 (gA m) c : S62500.Idx → BitVec 32) = (Tbl.tblA m (Glue.outs m hE) c KK : IVec S62500 32) :=
  ((Glue.hT0_1 m hE c).symm.trans (congrFun (gV m hE c) (Proc.devRef .tc main_v14)).symm :)
theorem gTB : (T1 (gA m) c : S62500.Idx → BitVec 32) = (Tbl.tblB m (Glue.outs m hE) c KK : IVec S62500 32) :=
  ((Glue.hT1_1 m hE c).symm.trans (congrFun (gV m hE c) (Proc.devRef .tc main_v15)).symm :)
/-- What it leaves at its three results. -/
theorem gR0 : (Tail.res0 (Glue.outs m hE) c KK : S62500x64.Idx → EReal) = hidArr (atTc (gW m hE)) (gA m) (gP0 m hE) (gP1 m hE) c :=
  Glue.res0_1 m hE c
theorem gR1 : (Tail.res1 (Glue.outs m hE) c KK : S1x64.Idx → EReal) = sumArr (atTc (gW m hE)) (gA m) (gP0 m hE) (gP1 m hE) c :=
  Glue.res1_1 m hE c
theorem gR2 : (Tail.res2 (Glue.outs m hE) c KK : S1x64.Idx → EReal) = sqArr (atTc (gW m hE)) (gA m) (gP0 m hE) (gP1 m hE) c :=
  Glue.res2_1 m hE c

/-! ## The three facts, nothing assumed -/

/-- The entry contents the launch's value lemmas take are the run's. -/
theorem VV_eq : VV m (Glue.outs m hE) = atTc (gW m hE) :=
  funext fun c => funext fun b => congrFun (gV m hE c) (Proc.devRef .tc b)

/-- Row `i` of the launch's rows is the hidden value of edge `i` of its chunk. -/
theorem row_top (i : Fin 62500) (j : Fin 64) : Tail.chunkRow (Glue.outs m hE) c KK i j = KVal.HID m c KK i j :=
  chunkRow_eq m (Glue.outs m hE) c (gA m) (gP0 m hE) (gP1 m hE) (gTA m hE c) (gTB m hE c)
    (by rw [VV_eq m hE]; exact gR0 m hE c) i j

/-- Its sums are the sums of those values over the chunk. -/
theorem sum_top (j : Fin 64) : Tail.chunkSum (Glue.outs m hE) c KK j = ∑ i : Fin 62500, KVal.HID m c KK i j :=
  chunkSum_eq m (Glue.outs m hE) c (gA m) (gP0 m hE) (gP1 m hE) (gTA m hE c) (gTB m hE c)
    (by rw [VV_eq m hE]; exact gR1 m hE c) j

/-- Its sums of squares are the sums of their squares. -/
theorem sq_top (j : Fin 64) :
    Tail.chunkSq (Glue.outs m hE) c KK j = ∑ i : Fin 62500, KVal.HID m c KK i j * KVal.HID m c KK i j :=
  chunkSq_eq m (Glue.outs m hE) c (gA m) (gP0 m hE) (gP1 m hE) (gTA m hE c) (gTB m hE c)
    (by rw [VV_eq m hE]; exact gR2 m hE c) j

end Cert.KernelIdeal.P1R1

end
-- ==== Proof.P1R2Val.lean ====
/-
  A gather-and-project region (one chunk of 62500 edges), from blocks to arrays.

  The five parameter windows never move: each one's block is its whole array. The two running-sum
  windows never move either and are written back once, after the last point, so their arrays end
  holding what the last point left. Put together with the recursion over the points, at the ideal
  values: the first array ends at the sum over the chunk's 62500 edges of their hidden rows, the
  second at the sum of the squares, and row i of the hidden array is edge i's hidden row — where the
  hidden row of edge i is the two layers applied to the two rows of the node-feature array that entry
  i of each endpoint table names.
-/
import proofs.«400866_j57071525429608_2_alg».proof.Proof.P1R2Dat
import proofs.«400866_j57071525429608_2_alg».proof.Proof.P1StateVal
import proofs.«400866_j57071525429608_2_alg».proof.Proof.P1Val
import Idealize.ShloMosaic.Lib.Pipeline.Value
import Idealize.ShloMosaic.Lib.ValueIdx
import Mathlib.Algebra.BigOperators.Fin

set_option maxRecDepth 100000

noncomputable section

namespace Cert.KernelIdeal.P1R2

open Cert.KernelIdeal Cert.KernelIdeal.Gen
open Idealize.ShloMosaic Idealize.ShloMosaic.TcCoe
open Idealize.ShloMosaic.Pipeline (Dat)
open Cert.KernelIdeal.P1 (Bf tw0 tw1 hNext)
open scoped BigOperators

/-! ## From blocks to arrays (any float values) -/

section Arrays

variable {F : FTy → Type} [FloatOps F]
variable (V : (c : Dev nD) → (b : Ref sig .tc) → Buf (Elt F) ((c : Thread nD τ).loc b))
variable (a : (pcfg2 (F := F)).Adm)
variable (hp0 : ∀ c (i : grid2.Coords), k2_chk1 (tw0 tb0 c i (T0 a c))) (hp1 : ∀ c (i : grid2.Coords), k2_chk2 (tw1 tb1 c i (T1 a c)))

/-- The last grid point. -/
def tlast : Fin (cfg2 a).N := ⟨62499, lt_of_lt_of_eq (by decide : 62499 < 62500) N_2.symm⟩

theorem tlast_succ : (tlast a).val + 1 = (cfg2 a).N := N_2.symm

/-- The first half of the first layer's weights: the block is the array. -/
theorem iblk_0_eq (c : Dev nD) (t : Fin (cfg2 a).N) : (iblk V a c 0 t : S64x128.Idx → Elt F .f32) = V c main_v4 := by
  refine funext fun (y : S64x128.Idx) => ?_
  show (V c main_v4 : S64x128.Idx → Elt F .f32) ((((cfg2 a).win 0).blk t).view.emb y) = _
  congr 1; funext b; apply Fin.ext
  match b with
  | ⟨0, _⟩ =>
    show ((cfg2 a).win 0).index t (0 : Fin 2) * 64 + 1 * (y 0).val = (y 0).val
    rw [show ((cfg2 a).win 0).index t (0 : Fin 2) = 0 from rfl]; omega
  | ⟨1, _⟩ =>
    show ((cfg2 a).win 0).index t (1 : Fin 2) * 128 + 1 * (y 1).val = (y 1).val
    rw [show ((cfg2 a).win 0).index t (1 : Fin 2) = 0 from rfl]; omega

/-- The second half of the first layer's weights: the block is the array. -/
theorem iblk_1_eq (c : Dev nD) (t : Fin (cfg2 a).N) : (iblk V a c 1 t : S64x128.Idx → Elt F .f32) = V c main_v5 := by
  refine funext fun (y : S64x128.Idx) => ?_
  show (V c main_v5 : S64x128.Idx → Elt F .f32) ((((cfg2 a).win 1).blk t).view.emb y) = _
  congr 1; funext b; apply Fin.ext
  match b with
  | ⟨0, _⟩ =>
    show ((cfg2 a).win 1).index t (0 : Fin 2) * 64 + 1 * (y 0).val = (y 0).val
    rw [show ((cfg2 a).win 1).index t (0 : Fin 2) = 0 from rfl]; omega
  | ⟨1, _⟩ =>
    show ((cfg2 a).win 1).index t (1 : Fin 2) * 128 + 1 * (y 1).val = (y 1).val
    rw [show ((cfg2 a).win 1).index t (1 : Fin 2) = 0 from rfl]; omega

/-- The first layer's bias: the block is the array. -/
theorem iblk_2_eq (c : Dev nD) (t : Fin (cfg2 a).N) : (iblk V a c 2 t : S1x64.Idx → Elt F .f32) = V c main_v6 := by
  refine funext fun (y : S1x64.Idx) => ?_
  show (V c main_v6 : S1x64.Idx → Elt F .f32) ((((cfg2 a).win 2).blk t).view.emb y) = _
  congr 1; funext b; apply Fin.ext
  match b with
  | ⟨0, _⟩ =>
    show ((cfg2 a).win 2).index t (0 : Fin 2) * 1 + 1 * (y 0).val = (y 0).val
    rw [show ((cfg2 a).win 2).index t (0 : Fin 2) = 0 from rfl]; omega
  | ⟨1, _⟩ =>
    show ((cfg2 a).win 2).index t (1 : Fin 2) * 64 + 1 * (y 1).val = (y 1).val
    rw [show ((cfg2 a).win 2).index t (1 : Fin 2) = 0 from rfl]; omega

/-- The second layer's weights: the block is the array. -/
theorem iblk_3_eq (c : Dev nD) (t : Fin (cfg2 a).N) : (iblk V a c 3 t : S64x64.Idx → Elt F .f32) = V c main_arg4 := by
  refine funext fun (y : S64x64.Idx) => ?_
  show (V c main_arg4 : S64x64.Idx → Elt F .f32) ((((cfg2 a).win 3).blk t).view.emb y) = _
  congr 1; funext b; apply Fin.ext
  match b with
  | ⟨0, _⟩ =>
    show ((cfg2 a).win 3).index t (0 : Fin 2) * 64 + 1 * (y 0).val = (y 0).val
    rw [show ((cfg2 a).win 3).index t (0 : Fin 2) = 0 from rfl]; omega
  | ⟨1, _⟩ =>
    show ((cfg2 a).win 3).index t (1 : Fin 2) * 64 + 1 * (y 1).val = (y 1).val
    rw [show ((cfg2 a).win 3).index t (1 : Fin 2) = 0 from rfl]; omega

/-- The second layer's bias: the block is the array. -/
theorem iblk_4_eq (c : Dev nD) (t : Fin (cfg2 a).N) : (iblk V a c 4 t : S1x64.Idx → Elt F .f32) = V c main_v7 := by
  refine funext fun (y : S1x64.Idx) => ?_
  show (V c main_v7 : S1x64.Idx → Elt F .f32) ((((cfg2 a).win 4).blk t).view.emb y) = _
  congr 1; funext b; apply Fin.ext
  match b with
  | ⟨0, _⟩ =>
    show ((cfg2 a).win 4).index t (0 : Fin 2) * 1 + 1 * (y 0).val = (y 0).val
    rw [show ((cfg2 a).win 4).index t (0 : Fin 2) = 0 from rfl]; omega
  | ⟨1, _⟩ =>
    show ((cfg2 a).win 4).index t (1 : Fin 2) * 64 + 1 * (y 1).val = (y 1).val
    rw [show ((cfg2 a).win 4).index t (1 : Fin 2) = 0 from rfl]; omega

/-- Window 5 is written back at the last point and at no other: its block never moves. -/
theorem flush5_iff (t : Fin (cfg2 a).N) : ((cfg2 a).win 5).flush t = true ↔ t.val + 1 = (cfg2 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint5 : ∀ t t' : Fin (cfg2 a).N, ((cfg2 a).win 5).flush t = true → ((cfg2 a).win 5).flush t' = true → t ≠ t' →
    Disjoint (((cfg2 a).win 5).blk t).view.set (((cfg2 a).win 5).blk t').view.set :=
  fun t t' h h' hne => absurd (Fin.ext (by
    have e := (flush5_iff a t).mp h
    have e' := (flush5_iff a t').mp h'
    omega)) hne

/-- Where feature j of window 5's block sits in its array: at feature j. -/
theorem emb5 (t : Fin (cfg2 a).N) (j : Fin 64) :
    (((cfg2 a).win 5).blk t).view.emb (ValueIdx.ix2 (0 : Fin 1) j) = ValueIdx.ix2 (0 : Fin 1) j := by
  funext b; apply Fin.ext
  match b with
  | ⟨0, _⟩ =>
    show ((cfg2 a).win 5).index t (0 : Fin 2) * 1 + 1 * 0 = 0
    rw [show ((cfg2 a).win 5).index t (0 : Fin 2) = 0 from rfl]
  | ⟨1, _⟩ =>
    show ((cfg2 a).win 5).index t (1 : Fin 2) * 64 + 1 * j.val = j.val
    rw [show ((cfg2 a).win 5).index t (1 : Fin 2) = 0 from rfl]; omega

theorem sum_arr_apply (c : Dev nD) (j : Fin 64) :
    ((dat V a hp0 hp1 c).arrAt 5 (cfg2 a).N : S1x64.Idx → Elt F .f32) (ValueIdx.ix2 (0 : Fin 1) j)
      = (stAt V a hp0 hp1 c (tlast a).val (tlast a).isLt).1 (ValueIdx.ix2 (0 : Fin 1) j) := by
  have h := (dat V a hp0 hp1 c).arrAt_emb_eq_flushed 5 (disjoint5 a) (tlast a) ((flush5_iff a (tlast a)).mpr (tlast_succ a))
    (ValueIdx.ix2 (0 : Fin 1) j)
  rw [emb5] at h
  refine h.trans ?_
  show (dat V a hp0 hp1 c).after 5 (tlast a) (ValueIdx.ix2 (0 : Fin 1) j) = _
  rw [after_5]

/-- The array of window 5 after the region is what the last point left. -/
theorem sum_arr (c : Dev nD) :
    ((dat V a hp0 hp1 c).arrAt 5 (cfg2 a).N : S1x64.Idx → Elt F .f32) = (stAt V a hp0 hp1 c (tlast a).val (tlast a).isLt).1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sum_arr_apply V a hp0 hp1 c j

/-- Window 6 is written back at the last point and at no other: its block never moves. -/
theorem flush6_iff (t : Fin (cfg2 a).N) : ((cfg2 a).win 6).flush t = true ↔ t.val + 1 = (cfg2 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint6 : ∀ t t' : Fin (cfg2 a).N, ((cfg2 a).win 6).flush t = true → ((cfg2 a).win 6).flush t' = true → t ≠ t' →
    Disjoint (((cfg2 a).win 6).blk t).view.set (((cfg2 a).win 6).blk t').view.set :=
  fun t t' h h' hne => absurd (Fin.ext (by
    have e := (flush6_iff a t).mp h
    have e' := (flush6_iff a t').mp h'
    omega)) hne

/-- Where feature j of window 6's block sits in its array: at feature j. -/
theorem emb6 (t : Fin (cfg2 a).N) (j : Fin 64) :
    (((cfg2 a).win 6).blk t).view.emb (ValueIdx.ix2 (0 : Fin 1) j) = ValueIdx.ix2 (0 : Fin 1) j := by
  funext b; apply Fin.ext
  match b with
  | ⟨0, _⟩ =>
    show ((cfg2 a).win 6).index t (0 : Fin 2) * 1 + 1 * 0 = 0
    rw [show ((cfg2 a).win 6).index t (0 : Fin 2) = 0 from rfl]
  | ⟨1, _⟩ =>
    show ((cfg2 a).win 6).index t (1 : Fin 2) * 64 + 1 * j.val = j.val
    rw [show ((cfg2 a).win 6).index t (1 : Fin 2) = 0 from rfl]; omega

theorem sq_arr_apply (c : Dev nD) (j : Fin 64) :
    ((dat V a hp0 hp1 c).arrAt 6 (cfg2 a).N : S1x64.Idx → Elt F .f32) (ValueIdx.ix2 (0 : Fin 1) j)
      = (stAt V a hp0 hp1 c (tlast a).val (tlast a).isLt).2.1 (ValueIdx.ix2 (0 : Fin 1) j) := by
  have h := (dat V a hp0 hp1 c).arrAt_emb_eq_flushed 6 (disjoint6 a) (tlast a) ((flush6_iff a (tlast a)).mpr (tlast_succ a))
    (ValueIdx.ix2 (0 : Fin 1) j)
  rw [emb6] at h
  refine h.trans ?_
  show (dat V a hp0 hp1 c).after 6 (tlast a) (ValueIdx.ix2 (0 : Fin 1) j) = _
  rw [after_6]

/-- The array of window 6 after the region is what the last point left. -/
theorem sq_arr (c : Dev nD) :
    ((dat V a hp0 hp1 c).arrAt 6 (cfg2 a).N : S1x64.Idx → Elt F .f32) = (stAt V a hp0 hp1 c (tlast a).val (tlast a).isLt).2.1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sq_arr_apply V a hp0 hp1 c j

end Arrays

/-! ## The values, at the ideal instance -/

section AtIdeal

variable (V : (c : Dev nD) → (b : Ref sig .tc) → Buf (Elt Ideal) ((c : Thread nD τ).loc b))
variable (a : (pcfg2 (F := Ideal)).Adm)
variable (hp0 : ∀ c (i : grid2.Coords), k2_chk1 (tw0 tb0 c i (T0 a c))) (hp1 : ∀ c (i : grid2.Coords), k2_chk2 (tw1 tb1 c i (T1 a c)))

/-- The arrays the region reads, each at its literal type. -/
abbrev xArr (c : Dev nD) : S100000x128.Idx → EReal := V c main_arg0
abbrev w1Arr (c : Dev nD) : S64x128.Idx → EReal := V c main_v4
abbrev w2Arr (c : Dev nD) : S64x128.Idx → EReal := V c main_v5
abbrev binArr (c : Dev nD) : S1x64.Idx → EReal := V c main_v6
abbrev whArr (c : Dev nD) : S64x64.Idx → EReal := V c main_arg4
abbrev bhArr (c : Dev nD) : S1x64.Idx → EReal := V c main_v7
/-- Entry i of each endpoint table. -/
abbrev e0At (c : Dev nD) (i : Fin 62500) : BitVec 32 := (T0 a c : S62500.Idx → BitVec 32) (ValueIdx.ix1 i)
abbrev e1At (c : Dev nD) (i : Fin 62500) : BitVec 32 := (T1 a c : S62500.Idx → BitVec 32) (ValueIdx.ix1 i)

/-- The grid point of edge i. -/
def ptOf (i : Fin 62500) : Fin (cfg2 a).N := ⟨i.val, lt_of_lt_of_eq i.isLt N_2.symm⟩

/-- The word a point reads of the first table is the table's entry at the point. -/
theorem tw0_at (c : Dev nD) (t : Fin (cfg2 a).N) :
    tw0 tb0 c (crd a t) (T0 a c) = e0At a c ⟨t.val, lt_of_lt_of_eq t.isLt N_2⟩ := by
  refine (P1.tw0_eq tb0 c (crd a t) (T0 a c)).trans ?_
  show (T0 a c : S62500.Idx → BitVec 32) _ = (T0 a c : S62500.Idx → BitVec 32) _
  refine congrArg (T0 a c : S62500.Idx → BitVec 32) (funext fun b => Fin.ext ?_)
  match b with
  | ⟨0, _⟩ => exact coord_val a t

theorem tw1_at (c : Dev nD) (t : Fin (cfg2 a).N) :
    tw1 tb1 c (crd a t) (T1 a c) = e1At a c ⟨t.val, lt_of_lt_of_eq t.isLt N_2⟩ := by
  refine (P1.tw1_eq tb1 c (crd a t) (T1 a c)).trans ?_
  show (T1 a c : S62500.Idx → BitVec 32) _ = (T1 a c : S62500.Idx → BitVec 32) _
  refine congrArg (T1 a c : S62500.Idx → BitVec 32) (funext fun b => Fin.ext ?_)
  match b with
  | ⟨0, _⟩ => exact coord_val a t

include hp0 in
/-- Every entry of the endpoint tables names a row of the node-feature array. -/
theorem e0_lt (c : Dev nD) (i : Fin 62500) : (e0At a c i).toNat < 100000 := by
  have h := P1.toNat_lt_of_chk1 (hp0 c (crd a (ptOf a i)))
  rw [tw0_at] at h
  exact h

include hp1 in
theorem e1_lt (c : Dev nD) (i : Fin 62500) : (e1At a c i).toNat < 100000 := by
  have h := P1.toNat_lt_of_chk2 (hp1 c (crd a (ptOf a i)))
  rw [tw1_at] at h
  exact h

/-- The hidden row of edge i of the chunk, at feature j: the two layers applied to the two rows of the node-feature
    array that entry i of each endpoint table names. -/
def rowval (c : Dev nD) (i : Fin 62500) (j : Fin 64) : EReal :=
  ∑ k : Fin 64,
      max (∑ k' : Fin 128, xArr V c (ValueIdx.ix2 (⟨(e0At a c i).toNat, e0_lt a hp0 c i⟩ : Fin 100000) k') * w1Arr V c (ValueIdx.ix2 k k')
          + ∑ k' : Fin 128, xArr V c (ValueIdx.ix2 (⟨(e1At a c i).toNat, e1_lt a hp1 c i⟩ : Fin 100000) k') * w2Arr V c (ValueIdx.ix2 k k')
          + binArr V c (ValueIdx.ix2 (0 : Fin 1) k)) 0
        * whArr V c (ValueIdx.ix2 j k)
    + bhArr V c (ValueIdx.ix2 (0 : Fin 1) j)

/-- The first row a point fetches, at feature k'. -/
theorem row0_val (c : Dev nD) (t : Fin (cfg2 a).N) (k' : Fin 128) :
    P1.rowAt0 tb0 xM c (crd a t) (T0 a c) (V c main_arg0) (hp0 c (crd a t)) (ValueIdx.ix2 (0 : Fin 1) k')
      = xArr V c (ValueIdx.ix2 (⟨(e0At a c ⟨t.val, lt_of_lt_of_eq t.isLt N_2⟩).toNat, e0_lt a hp0 c _⟩ : Fin 100000) k') := by
  refine (P1.rowAt0_apply tb0 xM c (crd a t) (T0 a c) (V c main_arg0) (hp0 c (crd a t)) k').trans ?_
  show xArr V c _ = xArr V c _
  refine congrArg (xArr V c) (funext fun b => Fin.ext ?_)
  match b with
  | ⟨0, _⟩ =>
    show (tw0 tb0 c (crd a t) (T0 a c)).toNat = (e0At a c ⟨t.val, lt_of_lt_of_eq t.isLt N_2⟩).toNat
    rw [tw0_at]
  | ⟨1, _⟩ => rfl

/-- The second row a point fetches, at feature k'. -/
theorem row1_val (c : Dev nD) (t : Fin (cfg2 a).N) (k' : Fin 128) :
    P1.rowAt1 tb1 xM c (crd a t) (T1 a c) (V c main_arg0) (hp1 c (crd a t)) (ValueIdx.ix2 (0 : Fin 1) k')
      = xArr V c (ValueIdx.ix2 (⟨(e1At a c ⟨t.val, lt_of_lt_of_eq t.isLt N_2⟩).toNat, e1_lt a hp1 c _⟩ : Fin 100000) k') := by
  refine (P1.rowAt1_apply tb1 xM c (crd a t) (T1 a c) (V c main_arg0) (hp1 c (crd a t)) k').trans ?_
  show xArr V c _ = xArr V c _
  refine congrArg (xArr V c) (funext fun b => Fin.ext ?_)
  match b with
  | ⟨0, _⟩ =>
    show (tw1 tb1 c (crd a t) (T1 a c)).toNat = (e1At a c ⟨t.val, lt_of_lt_of_eq t.isLt N_2⟩).toNat
    rw [tw1_at]
  | ⟨1, _⟩ => rfl

/-- A point's hidden row is the hidden row of its edge. -/
theorem hrow_val (c : Dev nD) (t : Fin (cfg2 a).N) (j : Fin 64) :
    P1.hrowG tb0 tb1 xM c (cfg2 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t j
      = rowval V a hp0 hp1 c ⟨t.val, lt_of_lt_of_eq t.isLt N_2⟩ j :=
  P1.hrow_eq_of (P1.rowAt0 tb0 xM c (crd a t) (T0 a c) (V c main_arg0) (hp0 c (crd a t)))
    (P1.rowAt1 tb1 xM c (crd a t) (T1 a c) (V c main_arg0) (hp1 c (crd a t)))
    (iblk V a c 0 t) (iblk V a c 1 t) (iblk V a c 2 t) (iblk V a c 3 t) (iblk V a c 4 t)
    (xArr V c) ⟨(e0At a c ⟨t.val, lt_of_lt_of_eq t.isLt N_2⟩).toNat, e0_lt a hp0 c _⟩
    ⟨(e1At a c ⟨t.val, lt_of_lt_of_eq t.isLt N_2⟩).toNat, e1_lt a hp1 c _⟩
    (w1Arr V c) (w2Arr V c) (binArr V c) (whArr V c) (bhArr V c)
    (row0_val V a hp0 c t) (row1_val V a hp1 c t)
    (iblk_0_eq V a c t) (iblk_1_eq V a c t) (iblk_2_eq V a c t) (iblk_3_eq V a c t) (iblk_4_eq V a c t) j

/-- After point n the first running sum is the sum of the hidden rows of the edges 0 … n. -/
theorem sum_at (c : Dev nD) (j : Fin 64) (n : ℕ) (hn : n < (cfg2 a).N) :
    (stAt V a hp0 hp1 c n hn).1 (ValueIdx.ix2 (0 : Fin 1) j)
      = ∑ i : Fin (n + 1), rowval V a hp0 hp1 c ⟨i.val, lt_of_lt_of_eq (Nat.lt_of_le_of_lt (Nat.le_of_lt_succ i.isLt) hn) N_2⟩ j := by
  unfold stAt
  refine (P1.sumG_at tb0 tb1 xM hM c (cfg2 a).N (crd a) (fun t => iblk V a c 0 t) (fun t => iblk V a c 1 t) (fun t => iblk V a c 2 t) (fun t => iblk V a c 3 t) (fun t => iblk V a c 4 t) (T0 a c) (T1 a c) (V c main_arg0) (V c main_v19_0) (fun t => hp0 c (crd a t)) (fun t => hp1 c (crd a t)) j n hn).trans ?_
  exact Finset.sum_congr rfl fun i _ => hrow_val V a hp0 hp1 c _ j

/-- After point n the second running sum is the sum of the squares of those hidden rows. -/
theorem sq_at (c : Dev nD) (j : Fin 64) (n : ℕ) (hn : n < (cfg2 a).N) :
    (stAt V a hp0 hp1 c n hn).2.1 (ValueIdx.ix2 (0 : Fin 1) j)
      = ∑ i : Fin (n + 1), rowval V a hp0 hp1 c ⟨i.val, lt_of_lt_of_eq (Nat.lt_of_le_of_lt (Nat.le_of_lt_succ i.isLt) hn) N_2⟩ j
          * rowval V a hp0 hp1 c ⟨i.val, lt_of_lt_of_eq (Nat.lt_of_le_of_lt (Nat.le_of_lt_succ i.isLt) hn) N_2⟩ j := by
  unfold stAt
  refine (P1.sumsqG_at tb0 tb1 xM hM c (cfg2 a).N (crd a) (fun t => iblk V a c 0 t) (fun t => iblk V a c 1 t) (fun t => iblk V a c 2 t) (fun t => iblk V a c 3 t) (fun t => iblk V a c 4 t) (T0 a c) (T1 a c) (V c main_arg0) (V c main_v19_0) (fun t => hp0 c (crd a t)) (fun t => hp1 c (crd a t)) j n hn).trans ?_
  exact Finset.sum_congr rfl fun i _ => by rw [hrow_val V a hp0 hp1 c _ j]

/-- The hidden array is read through its whole view as itself. -/
theorem read_hM (c : Dev nD) (f : Bf (F := Ideal) c hM) (y : S62500x64.Idx) :
    hM.view.read (Elt Ideal) f y = (f : S62500x64.Idx → EReal) y := rfl

/-- After n points, row i < n of the hidden array is edge i's hidden row. -/
theorem hid_at (c : Dev nD) (j : Fin 64) (n : ℕ) (hn : n ≤ (cfg2 a).N) (i : ℕ) (hi : i < n) :
    (hAt V a hp0 hp1 c n hn : S62500x64.Idx → EReal) (ValueIdx.ix2 (⟨i, lt_of_lt_of_eq (Nat.lt_of_lt_of_le hi hn) N_2⟩ : Fin 62500) j)
      = rowval V a hp0 hp1 c ⟨i, lt_of_lt_of_eq (Nat.lt_of_lt_of_le hi hn) N_2⟩ j := by
  unfold hAt
  refine (read_hM c _ _).symm.trans ?_
  refine (P1.hG_row_written (F := Ideal) tb0 tb1 xM hM c (cfg2 a).N (crd a) (fun t => iblk V a c 0 t) (fun t => iblk V a c 1 t) (fun t => iblk V a c 2 t) (fun t => iblk V a c 3 t) (fun t => iblk V a c 4 t) (T0 a c) (T1 a c) (V c main_arg0) (V c main_v19_0) (fun t => hp0 c (crd a t)) (fun t => hp1 c (crd a t)) (coord_val a) j n hn i hi).trans ?_
  exact (P1.rowStep_apply tb0 tb1 xM c (cfg2 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) _ j).trans (hrow_val V a hp0 hp1 c _ j)

/-- The two running-sum arrays and the hidden array after the region, each at its literal type. -/
abbrev sumArr (c : Dev nD) : S1x64.Idx → EReal := (dat V a hp0 hp1 c).arrAt 5 (cfg2 a).N
abbrev sqArr (c : Dev nD) : S1x64.Idx → EReal := (dat V a hp0 hp1 c).arrAt 6 (cfg2 a).N
abbrev hidArr (c : Dev nD) : S62500x64.Idx → EReal := hAt V a hp0 hp1 c (cfg2 a).N (Nat.le_refl _)

/-- The last point's index plus one is the number of edges of the chunk. -/
theorem tlast_count : (tlast a).val + 1 = 62500 := rfl

/-- The first running-sum array after the region: the sum over the chunk's edges of their hidden rows. -/
theorem sum_final (c : Dev nD) (j : Fin 64) :
    sumArr V a hp0 hp1 c (ValueIdx.ix2 (0 : Fin 1) j) = ∑ i : Fin 62500, rowval V a hp0 hp1 c i j := by
  refine (sum_arr_apply V a hp0 hp1 c j).trans ((sum_at V a hp0 hp1 c j (tlast a).val (tlast a).isLt).trans ?_)
  exact Fintype.sum_equiv (finCongr (tlast_count a)) _ _ (fun i => rfl)

/-- The second running-sum array after the region: the sum of the squares of those hidden rows. -/
theorem sq_final (c : Dev nD) (j : Fin 64) :
    sqArr V a hp0 hp1 c (ValueIdx.ix2 (0 : Fin 1) j)
      = ∑ i : Fin 62500, rowval V a hp0 hp1 c i j * rowval V a hp0 hp1 c i j := by
  refine (sq_arr_apply V a hp0 hp1 c j).trans ((sq_at V a hp0 hp1 c j (tlast a).val (tlast a).isLt).trans ?_)
  exact Fintype.sum_equiv (finCongr (tlast_count a)) _ _ (fun i => rfl)

/-- The hidden array after the region: row i is edge i's hidden row. -/
theorem hid_final (c : Dev nD) (i : Fin 62500) (j : Fin 64) :
    hidArr V a hp0 hp1 c (ValueIdx.ix2 i j) = rowval V a hp0 hp1 c i j :=
  hid_at V a hp0 hp1 c j (cfg2 a).N (Nat.le_refl _) i.val (lt_of_lt_of_eq i.isLt N_2.symm)

end AtIdeal

end Cert.KernelIdeal.P1R2

end
-- ==== Proof.P1R2Fin.lean ====
/- The first launch's results are its chunk's hidden values.

   The launch walks the 62500 edges of its chunk: at edge i it fetches the two rows of the node-feature array that entry i of
   its two endpoint tables names, applies the two layers, writes the hidden row and adds it, and its square, to two running
   sums. Its tables are the chunk's pieces of the edge array's two rows, and the weights it reads are the argument arrays'
   (the first layer's weights in two halves). So row i of its rows result is the hidden value of edge i of the chunk in the
   by-endpoint form, and its two sums are the sums of those values and of their squares over the chunk. -/
import proofs.«400866_j57071525429608_2_alg».proof.Proof.P1R2Val
import proofs.«400866_j57071525429608_2_alg».proof.Proof.HostHead
import proofs.«400866_j57071525429608_2_alg».proof.Proof.TblFacts
import proofs.«400866_j57071525429608_2_alg».proof.Proof.HostTail
import proofs.«400866_j57071525429608_2_alg».proof.Proof.KVal
import proofs.«400866_j57071525429608_2_alg».proof.Proof.Spec
import Idealize.ShloMosaic.Lib.ValueIdx

set_option maxRecDepth 16384

noncomputable section

namespace Cert.KernelIdeal.P1R2

open Cert.KernelIdeal Cert.KernelIdeal.Gen
open Idealize.ShloMosaic Idealize.ShloMosaic.TcCoe
open Cert.KernelIdeal.P1 (Bf tw0 tw1)
open scoped BigOperators

/-! ## The launch -/

/-- The launch's chunk among the sixteen. -/
abbrev KK : Fin 16 := ⟨2, by omega⟩
/-- The launch among the seventeen regions. -/
abbrev KK17 : Fin 17 := ⟨2, by omega⟩
/-- The buffers' contents when the launch is entered. -/
abbrev Ventry (m : (ℓ : Loc nD τ sig) → Buf (Elt Ideal) ℓ) (outs : Outs (F := Ideal)) (c : Dev nD) : Valuation τ sig (Elt Ideal) := V5 m outs c
/-- They are the entry contents the host operations' facts are stated at. -/
theorem Ventry_eq (m : (ℓ : Loc nD τ sig) → Buf (Elt Ideal) ℓ) (outs : Outs (F := Ideal)) (c : Dev nD) :
    Head.Vodd m outs c KK17 = Ventry m outs c := Head.Vodd_2 m outs c _

variable (m : (ℓ : Loc nD τ sig) → Buf (Elt Ideal) ℓ) (outs : Outs (F := Ideal)) (c : Dev nD)
variable (a : (pcfg2 (F := Ideal)).Adm)
variable (hp0 : ∀ c (i : grid2.Coords), k2_chk1 (tw0 tb0 c i (T0 a c))) (hp1 : ∀ c (i : grid2.Coords), k2_chk2 (tw1 tb1 c i (T1 a c)))

/-- The entry contents as the launch's value lemmas take them. -/
abbrev VV : (c : Dev nD) → (b : Ref sig .tc) → Buf (Elt Ideal) ((c : Thread nD τ).loc b) := fun c b => Ventry m outs c b

/-! ## The tables' words are the chunk's endpoints -/

/-- Entry `i` of the first table names the first endpoint of edge `i` of the chunk. -/
theorem e0_eq (hT0 : (T0 a c : S62500.Idx → BitVec 32) = (Tbl.tblA m outs c KK : IVec S62500 32)) (i : Fin 62500) :
    (⟨(e0At a c i).toNat, e0_lt a hp0 c i⟩ : Fin 100000) = Cert.Spec.endpoint (KVal.edgesA m c) 0 (Cert.Spec.chunk KK i) := by
  have hw : e0At a c i = (KVal.edgesA m c) (ValueIdx.ix2 (0 : Fin 2) (Cert.Spec.chunk KK i)) := by
    show (T0 a c : S62500.Idx → BitVec 32) (ValueIdx.ix1 i) = _
    rw [hT0]
    exact Tbl.tblA_apply m outs c KK i
  have hlt := e0_lt a hp0 c i
  rw [hw] at hlt
  refine Fin.ext ?_
  show (e0At a c i).toNat = (Cert.Spec.node _).val
  rw [Cert.Spec.node_val_of_toNat_lt hlt, hw]

/-- Entry `i` of the second table names the second endpoint. -/
theorem e1_eq (hT1 : (T1 a c : S62500.Idx → BitVec 32) = (Tbl.tblB m outs c KK : IVec S62500 32)) (i : Fin 62500) :
    (⟨(e1At a c i).toNat, e1_lt a hp1 c i⟩ : Fin 100000) = Cert.Spec.endpoint (KVal.edgesA m c) 1 (Cert.Spec.chunk KK i) := by
  have hw : e1At a c i = (KVal.edgesA m c) (ValueIdx.ix2 (1 : Fin 2) (Cert.Spec.chunk KK i)) := by
    show (T1 a c : S62500.Idx → BitVec 32) (ValueIdx.ix1 i) = _
    rw [hT1]
    exact Tbl.tblB_apply m outs c KK i
  have hlt := e1_lt a hp1 c i
  rw [hw] at hlt
  refine Fin.ext ?_
  show (e1At a c i).toNat = (Cert.Spec.node _).val
  rw [Cert.Spec.node_val_of_toNat_lt hlt, hw]

/-! ## The arrays the launch reads are the arguments' -/

theorem x_eq : xArr (VV m outs) c = KVal.xA m c := by
  show Ventry m outs c main_arg0 = _
  rw [← Ventry_eq m outs c]
  exact Head.arg0_keep m outs c KK17
theorem wh_eq : whArr (VV m outs) c = KVal.WhA m c := by
  show Ventry m outs c main_arg4 = _
  rw [← Ventry_eq m outs c]
  exact Head.arg4_keep m outs c KK17
theorem w1_apply (k : Fin 64) (k' : Fin 128) :
    w1Arr (VV m outs) c (ValueIdx.ix2 k k') = KVal.WinA m c (ValueIdx.ix2 k (⟨k'.val, by omega⟩ : Fin 256)) := by
  show (Ventry m outs c main_v4 : S64x128.Idx → EReal) (ValueIdx.ix2 k k') = _
  rw [← Ventry_eq m outs c]
  exact Head.v4_apply m outs c KK17 k k'
theorem w2_apply (k : Fin 64) (k' : Fin 128) :
    w2Arr (VV m outs) c (ValueIdx.ix2 k k') = KVal.WinA m c (ValueIdx.ix2 k (⟨128 + k'.val, by omega⟩ : Fin 256)) := by
  show (Ventry m outs c main_v5 : S64x128.Idx → EReal) (ValueIdx.ix2 k k') = _
  rw [← Ventry_eq m outs c]
  exact Head.v5_apply m outs c KK17 k k'
theorem bin_apply (k : Fin 64) :
    binArr (VV m outs) c (ValueIdx.ix2 (0 : Fin 1) k) = KVal.binA m c (ValueIdx.ix1 k) := by
  show (Ventry m outs c main_v6 : S1x64.Idx → EReal) (ValueIdx.ix2 (0 : Fin 1) k) = _
  rw [← Ventry_eq m outs c]
  exact Head.v6_apply m outs c KK17 k
theorem bh_apply (j : Fin 64) :
    bhArr (VV m outs) c (ValueIdx.ix2 (0 : Fin 1) j) = KVal.bhA m c (ValueIdx.ix1 j) := by
  show (Ventry m outs c main_v7 : S1x64.Idx → EReal) (ValueIdx.ix2 (0 : Fin 1) j) = _
  rw [← Ventry_eq m outs c]
  exact Head.v7_apply m outs c KK17 j

/-! ## The launch's hidden row is the chunk's hidden value -/

theorem rowval_eq (hT0 : (T0 a c : S62500.Idx → BitVec 32) = (Tbl.tblA m outs c KK : IVec S62500 32))
    (hT1 : (T1 a c : S62500.Idx → BitVec 32) = (Tbl.tblB m outs c KK : IVec S62500 32)) (i : Fin 62500) (j : Fin 64) :
    rowval (VV m outs) a hp0 hp1 c i j = KVal.hid m c (Cert.Spec.chunk KK i) j := by
  unfold rowval KVal.hid
  rw [e0_eq m outs c a hp0 hT0 i, e1_eq m outs c a hp1 hT1 i, x_eq m outs c, wh_eq m outs c]
  simp only [w1_apply m outs c, w2_apply m outs c, bin_apply m outs c, bh_apply m outs c]

/-! ## The three results -/

/-- Row `i` of the rows result is the hidden value of edge `i` of the chunk. -/
theorem chunkRow_eq (hT0 : (T0 a c : S62500.Idx → BitVec 32) = (Tbl.tblA m outs c KK : IVec S62500 32))
    (hT1 : (T1 a c : S62500.Idx → BitVec 32) = (Tbl.tblB m outs c KK : IVec S62500 32))
    (hR0 : (Tail.res0 outs c KK : S62500x64.Idx → EReal) = hidArr (VV m outs) a hp0 hp1 c)
    (i : Fin 62500) (j : Fin 64) : Tail.chunkRow outs c KK i j = KVal.HID m c KK i j := by
  show (Tail.res0 outs c KK : S62500x64.Idx → EReal) (ValueIdx.ix2 i j) = _
  rw [hR0]
  exact (hid_final (VV m outs) a hp0 hp1 c i j).trans (rowval_eq m outs c a hp0 hp1 hT0 hT1 i j)

/-- The sums result is the sum of the chunk's hidden values. -/
theorem chunkSum_eq (hT0 : (T0 a c : S62500.Idx → BitVec 32) = (Tbl.tblA m outs c KK : IVec S62500 32))
    (hT1 : (T1 a c : S62500.Idx → BitVec 32) = (Tbl.tblB m outs c KK : IVec S62500 32))
    (hR1 : (Tail.res1 outs c KK : S1x64.Idx → EReal) = sumArr (VV m outs) a hp0 hp1 c)
    (j : Fin 64) : Tail.chunkSum outs c KK j = ∑ i : Fin 62500, KVal.HID m c KK i j := by
  show (Tail.res1 outs c KK : S1x64.Idx → EReal) (ValueIdx.ix2 (0 : Fin 1) j) = _
  rw [hR1]
  exact (sum_final (VV m outs) a hp0 hp1 c j).trans (Finset.sum_congr rfl fun i _ => rowval_eq m outs c a hp0 hp1 hT0 hT1 i j)

/-- The sums-of-squares result is the sum of their squares. -/
theorem chunkSq_eq (hT0 : (T0 a c : S62500.Idx → BitVec 32) = (Tbl.tblA m outs c KK : IVec S62500 32))
    (hT1 : (T1 a c : S62500.Idx → BitVec 32) = (Tbl.tblB m outs c KK : IVec S62500 32))
    (hR2 : (Tail.res2 outs c KK : S1x64.Idx → EReal) = sqArr (VV m outs) a hp0 hp1 c)
    (j : Fin 64) : Tail.chunkSq outs c KK j = ∑ i : Fin 62500, KVal.HID m c KK i j * KVal.HID m c KK i j := by
  show (Tail.res2 outs c KK : S1x64.Idx → EReal) (ValueIdx.ix2 (0 : Fin 1) j) = _
  rw [hR2]
  exact (sq_final (VV m outs) a hp0 hp1 c j).trans
    (Finset.sum_congr rfl fun i _ => by rw [rowval_eq m outs c a hp0 hp1 hT0 hT1 i j])

end Cert.KernelIdeal.P1R2

end
-- ==== Proof.P1R2Top.lean ====
/- The first launch's results are its chunk's hidden values, at the run's own choices.

   The run fixes what every region leaves (the unknowns), each launch's tables and the contents each launch is entered
   from. At those choices nothing is left to assume: the launch's tables are its chunk's pieces of the edge array's rows,
   its results are what its proof data leave, and so its rows are the chunk's hidden values and its two sums their sums
   and sums of squares. -/
import proofs.«400866_j57071525429608_2_alg».proof.Proof.P1R2Fin
import proofs.«400866_j57071525429608_2_alg».proof.Proof.GlueVal

set_option maxRecDepth 16384

noncomputable section

namespace Cert.KernelIdeal.P1R2

open Cert.KernelIdeal Cert.KernelIdeal.Gen
open Idealize.ShloMosaic Idealize.ShloMosaic.TcCoe
open Cert.KernelIdeal.P1 (Bf tw0 tw1)
open Cert.KernelIdeal.Glue (atTc)
open scoped BigOperators

/-! ## The run's choices for this launch -/

/-- The launch's tables, admissible. -/
abbrev gA (m : (ℓ : Loc nD τ sig) → Buf (Elt Ideal) ℓ) : (pcfg2 (F := Ideal)).Adm := Glue.adm2 m
/-- The contents it is entered from, as the run names them. -/
abbrev gW (m : (ℓ : Loc nD τ sig) → Buf (Elt Ideal) ℓ)
    (hE : ∀ (c : Dev nD) (idx : S2x1000000.Idx), ((V0 m c main_arg1 : IVec S2x1000000 32) idx).toNat < 100000) :
    Dev nD → Valuation τ sig (Elt Ideal) := Glue.W5 m hE

variable (m : (ℓ : Loc nD τ sig) → Buf (Elt Ideal) ℓ)
  (hE : ∀ (c : Dev nD) (idx : S2x1000000.Idx), ((V0 m c main_arg1 : IVec S2x1000000 32) idx).toNat < 100000)
  (c : Dev nD)

include hE

/-- The words it reads of them name rows of the node table. -/
theorem gP0 : ∀ c (i : grid2.Coords), k2_chk1 (tw0 tb0 c i (T0 (gA m) c)) := Glue.hp0_2 m hE
theorem gP1 : ∀ c (i : grid2.Coords), k2_chk2 (tw1 tb1 c i (T1 (gA m) c)) := Glue.hp1_2 m hE
/-- The contents it is entered from are the valuation's. -/
theorem gV : Ventry m (Glue.outs m hE) c = gW m hE c := Glue.V5_eq m hE c
/-- The tables it finds in the buffers are its own. -/
theorem gTA : (T0 (gA m) c : S62500.Idx → BitVec 32) = (Tbl.tblA m (Glue.outs m hE) c KK : IVec S62500 32) :=
  ((Glue.hT0_2 m hE c).symm.trans (congrFun (gV m hE c) (Proc.devRef .tc main_v17)).symm :)
theorem gTB : (T1 (gA m) c : S62500.Idx → BitVec 32) = (Tbl.tblB m (Glue.outs m hE) c KK : IVec S62500 32) :=
  ((Glue.hT1_2 m hE c).symm.trans (congrFun (gV m hE c) (Proc.devRef .tc main_v18)).symm :)
/-- What it leaves at its three results. -/
theorem gR0 : (Tail.res0 (Glue.outs m hE) c KK : S62500x64.Idx → EReal) = hidArr (atTc (gW m hE)) (gA m) (gP0 m hE) (gP1 m hE) c :=
  Glue.res0_2 m hE c
theorem gR1 : (Tail.res1 (Glue.outs m hE) c KK : S1x64.Idx → EReal) = sumArr (atTc (gW m hE)) (gA m) (gP0 m hE) (gP1 m hE) c :=
  Glue.res1_2 m hE c
theorem gR2 : (Tail.res2 (Glue.outs m hE) c KK : S1x64.Idx → EReal) = sqArr (atTc (gW m hE)) (gA m) (gP0 m hE) (gP1 m hE) c :=
  Glue.res2_2 m hE c

/-! ## The three facts, nothing assumed -/

/-- The entry contents the launch's value lemmas take are the run's. -/
theorem VV_eq : VV m (Glue.outs m hE) = atTc (gW m hE) :=
  funext fun c => funext fun b => congrFun (gV m hE c) (Proc.devRef .tc b)

/-- Row `i` of the launch's rows is the hidden value of edge `i` of its chunk. -/
theorem row_top (i : Fin 62500) (j : Fin 64) : Tail.chunkRow (Glue.outs m hE) c KK i j = KVal.HID m c KK i j :=
  chunkRow_eq m (Glue.outs m hE) c (gA m) (gP0 m hE) (gP1 m hE) (gTA m hE c) (gTB m hE c)
    (by rw [VV_eq m hE]; exact gR0 m hE c) i j

/-- Its sums are the sums of those values over the chunk. -/
theorem sum_top (j : Fin 64) : Tail.chunkSum (Glue.outs m hE) c KK j = ∑ i : Fin 62500, KVal.HID m c KK i j :=
  chunkSum_eq m (Glue.outs m hE) c (gA m) (gP0 m hE) (gP1 m hE) (gTA m hE c) (gTB m hE c)
    (by rw [VV_eq m hE]; exact gR1 m hE c) j

/-- Its sums of squares are the sums of their squares. -/
theorem sq_top (j : Fin 64) :
    Tail.chunkSq (Glue.outs m hE) c KK j = ∑ i : Fin 62500, KVal.HID m c KK i j * KVal.HID m c KK i j :=
  chunkSq_eq m (Glue.outs m hE) c (gA m) (gP0 m hE) (gP1 m hE) (gTA m hE c) (gTB m hE c)
    (by rw [VV_eq m hE]; exact gR2 m hE c) j

end Cert.KernelIdeal.P1R2

end
-- ==== Proof.P1R3Val.lean ====
/-
  A gather-and-project region (one chunk of 62500 edges), from blocks to arrays.

  The five parameter windows never move: each one's block is its whole array. The two running-sum
  windows never move either and are written back once, after the last point, so their arrays end
  holding what the last point left. Put together with the recursion over the points, at the ideal
  values: the first array ends at the sum over the chunk's 62500 edges of their hidden rows, the
  second at the sum of the squares, and row i of the hidden array is edge i's hidden row — where the
  hidden row of edge i is the two layers applied to the two rows of the node-feature array that entry
  i of each endpoint table names.
-/
import proofs.«400866_j57071525429608_2_alg».proof.Proof.P1R3Dat
import proofs.«400866_j57071525429608_2_alg».proof.Proof.P1StateVal
import proofs.«400866_j57071525429608_2_alg».proof.Proof.P1Val
import Idealize.ShloMosaic.Lib.Pipeline.Value
import Idealize.ShloMosaic.Lib.ValueIdx
import Mathlib.Algebra.BigOperators.Fin

set_option maxRecDepth 100000

noncomputable section

namespace Cert.KernelIdeal.P1R3

open Cert.KernelIdeal Cert.KernelIdeal.Gen
open Idealize.ShloMosaic Idealize.ShloMosaic.TcCoe
open Idealize.ShloMosaic.Pipeline (Dat)
open Cert.KernelIdeal.P1 (Bf tw0 tw1 hNext)
open scoped BigOperators

/-! ## From blocks to arrays (any float values) -/

section Arrays

variable {F : FTy → Type} [FloatOps F]
variable (V : (c : Dev nD) → (b : Ref sig .tc) → Buf (Elt F) ((c : Thread nD τ).loc b))
variable (a : (pcfg3 (F := F)).Adm)
variable (hp0 : ∀ c (i : grid3.Coords), k3_chk1 (tw0 tb0 c i (T0 a c))) (hp1 : ∀ c (i : grid3.Coords), k3_chk2 (tw1 tb1 c i (T1 a c)))

/-- The last grid point. -/
def tlast : Fin (cfg3 a).N := ⟨62499, lt_of_lt_of_eq (by decide : 62499 < 62500) N_3.symm⟩

theorem tlast_succ : (tlast a).val + 1 = (cfg3 a).N := N_3.symm

/-- The first half of the first layer's weights: the block is the array. -/
theorem iblk_0_eq (c : Dev nD) (t : Fin (cfg3 a).N) : (iblk V a c 0 t : S64x128.Idx → Elt F .f32) = V c main_v4 := by
  refine funext fun (y : S64x128.Idx) => ?_
  show (V c main_v4 : S64x128.Idx → Elt F .f32) ((((cfg3 a).win 0).blk t).view.emb y) = _
  congr 1; funext b; apply Fin.ext
  match b with
  | ⟨0, _⟩ =>
    show ((cfg3 a).win 0).index t (0 : Fin 2) * 64 + 1 * (y 0).val = (y 0).val
    rw [show ((cfg3 a).win 0).index t (0 : Fin 2) = 0 from rfl]; omega
  | ⟨1, _⟩ =>
    show ((cfg3 a).win 0).index t (1 : Fin 2) * 128 + 1 * (y 1).val = (y 1).val
    rw [show ((cfg3 a).win 0).index t (1 : Fin 2) = 0 from rfl]; omega

/-- The second half of the first layer's weights: the block is the array. -/
theorem iblk_1_eq (c : Dev nD) (t : Fin (cfg3 a).N) : (iblk V a c 1 t : S64x128.Idx → Elt F .f32) = V c main_v5 := by
  refine funext fun (y : S64x128.Idx) => ?_
  show (V c main_v5 : S64x128.Idx → Elt F .f32) ((((cfg3 a).win 1).blk t).view.emb y) = _
  congr 1; funext b; apply Fin.ext
  match b with
  | ⟨0, _⟩ =>
    show ((cfg3 a).win 1).index t (0 : Fin 2) * 64 + 1 * (y 0).val = (y 0).val
    rw [show ((cfg3 a).win 1).index t (0 : Fin 2) = 0 from rfl]; omega
  | ⟨1, _⟩ =>
    show ((cfg3 a).win 1).index t (1 : Fin 2) * 128 + 1 * (y 1).val = (y 1).val
    rw [show ((cfg3 a).win 1).index t (1 : Fin 2) = 0 from rfl]; omega

/-- The first layer's bias: the block is the array. -/
theorem iblk_2_eq (c : Dev nD) (t : Fin (cfg3 a).N) : (iblk V a c 2 t : S1x64.Idx → Elt F .f32) = V c main_v6 := by
  refine funext fun (y : S1x64.Idx) => ?_
  show (V c main_v6 : S1x64.Idx → Elt F .f32) ((((cfg3 a).win 2).blk t).view.emb y) = _
  congr 1; funext b; apply Fin.ext
  match b with
  | ⟨0, _⟩ =>
    show ((cfg3 a).win 2).index t (0 : Fin 2) * 1 + 1 * (y 0).val = (y 0).val
    rw [show ((cfg3 a).win 2).index t (0 : Fin 2) = 0 from rfl]; omega
  | ⟨1, _⟩ =>
    show ((cfg3 a).win 2).index t (1 : Fin 2) * 64 + 1 * (y 1).val = (y 1).val
    rw [show ((cfg3 a).win 2).index t (1 : Fin 2) = 0 from rfl]; omega

/-- The second layer's weights: the block is the array. -/
theorem iblk_3_eq (c : Dev nD) (t : Fin (cfg3 a).N) : (iblk V a c 3 t : S64x64.Idx → Elt F .f32) = V c main_arg4 := by
  refine funext fun (y : S64x64.Idx) => ?_
  show (V c main_arg4 : S64x64.Idx → Elt F .f32) ((((cfg3 a).win 3).blk t).view.emb y) = _
  congr 1; funext b; apply Fin.ext
  match b with
  | ⟨0, _⟩ =>
    show ((cfg3 a).win 3).index t (0 : Fin 2) * 64 + 1 * (y 0).val = (y 0).val
    rw [show ((cfg3 a).win 3).index t (0 : Fin 2) = 0 from rfl]; omega
  | ⟨1, _⟩ =>
    show ((cfg3 a).win 3).index t (1 : Fin 2) * 64 + 1 * (y 1).val = (y 1).val
    rw [show ((cfg3 a).win 3).index t (1 : Fin 2) = 0 from rfl]; omega

/-- The second layer's bias: the block is the array. -/
theorem iblk_4_eq (c : Dev nD) (t : Fin (cfg3 a).N) : (iblk V a c 4 t : S1x64.Idx → Elt F .f32) = V c main_v7 := by
  refine funext fun (y : S1x64.Idx) => ?_
  show (V c main_v7 : S1x64.Idx → Elt F .f32) ((((cfg3 a).win 4).blk t).view.emb y) = _
  congr 1; funext b; apply Fin.ext
  match b with
  | ⟨0, _⟩ =>
    show ((cfg3 a).win 4).index t (0 : Fin 2) * 1 + 1 * (y 0).val = (y 0).val
    rw [show ((cfg3 a).win 4).index t (0 : Fin 2) = 0 from rfl]; omega
  | ⟨1, _⟩ =>
    show ((cfg3 a).win 4).index t (1 : Fin 2) * 64 + 1 * (y 1).val = (y 1).val
    rw [show ((cfg3 a).win 4).index t (1 : Fin 2) = 0 from rfl]; omega

/-- Window 5 is written back at the last point and at no other: its block never moves. -/
theorem flush5_iff (t : Fin (cfg3 a).N) : ((cfg3 a).win 5).flush t = true ↔ t.val + 1 = (cfg3 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint5 : ∀ t t' : Fin (cfg3 a).N, ((cfg3 a).win 5).flush t = true → ((cfg3 a).win 5).flush t' = true → t ≠ t' →
    Disjoint (((cfg3 a).win 5).blk t).view.set (((cfg3 a).win 5).blk t').view.set :=
  fun t t' h h' hne => absurd (Fin.ext (by
    have e := (flush5_iff a t).mp h
    have e' := (flush5_iff a t').mp h'
    omega)) hne

/-- Where feature j of window 5's block sits in its array: at feature j. -/
theorem emb5 (t : Fin (cfg3 a).N) (j : Fin 64) :
    (((cfg3 a).win 5).blk t).view.emb (ValueIdx.ix2 (0 : Fin 1) j) = ValueIdx.ix2 (0 : Fin 1) j := by
  funext b; apply Fin.ext
  match b with
  | ⟨0, _⟩ =>
    show ((cfg3 a).win 5).index t (0 : Fin 2) * 1 + 1 * 0 = 0
    rw [show ((cfg3 a).win 5).index t (0 : Fin 2) = 0 from rfl]
  | ⟨1, _⟩ =>
    show ((cfg3 a).win 5).index t (1 : Fin 2) * 64 + 1 * j.val = j.val
    rw [show ((cfg3 a).win 5).index t (1 : Fin 2) = 0 from rfl]; omega

theorem sum_arr_apply (c : Dev nD) (j : Fin 64) :
    ((dat V a hp0 hp1 c).arrAt 5 (cfg3 a).N : S1x64.Idx → Elt F .f32) (ValueIdx.ix2 (0 : Fin 1) j)
      = (stAt V a hp0 hp1 c (tlast a).val (tlast a).isLt).1 (ValueIdx.ix2 (0 : Fin 1) j) := by
  have h := (dat V a hp0 hp1 c).arrAt_emb_eq_flushed 5 (disjoint5 a) (tlast a) ((flush5_iff a (tlast a)).mpr (tlast_succ a))
    (ValueIdx.ix2 (0 : Fin 1) j)
  rw [emb5] at h
  refine h.trans ?_
  show (dat V a hp0 hp1 c).after 5 (tlast a) (ValueIdx.ix2 (0 : Fin 1) j) = _
  rw [after_5]

/-- The array of window 5 after the region is what the last point left. -/
theorem sum_arr (c : Dev nD) :
    ((dat V a hp0 hp1 c).arrAt 5 (cfg3 a).N : S1x64.Idx → Elt F .f32) = (stAt V a hp0 hp1 c (tlast a).val (tlast a).isLt).1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sum_arr_apply V a hp0 hp1 c j

/-- Window 6 is written back at the last point and at no other: its block never moves. -/
theorem flush6_iff (t : Fin (cfg3 a).N) : ((cfg3 a).win 6).flush t = true ↔ t.val + 1 = (cfg3 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint6 : ∀ t t' : Fin (cfg3 a).N, ((cfg3 a).win 6).flush t = true → ((cfg3 a).win 6).flush t' = true → t ≠ t' →
    Disjoint (((cfg3 a).win 6).blk t).view.set (((cfg3 a).win 6).blk t').view.set :=
  fun t t' h h' hne => absurd (Fin.ext (by
    have e := (flush6_iff a t).mp h
    have e' := (flush6_iff a t').mp h'
    omega)) hne

/-- Where feature j of window 6's block sits in its array: at feature j. -/
theorem emb6 (t : Fin (cfg3 a).N) (j : Fin 64) :
    (((cfg3 a).win 6).blk t).view.emb (ValueIdx.ix2 (0 : Fin 1) j) = ValueIdx.ix2 (0 : Fin 1) j := by
  funext b; apply Fin.ext
  match b with
  | ⟨0, _⟩ =>
    show ((cfg3 a).win 6).index t (0 : Fin 2) * 1 + 1 * 0 = 0
    rw [show ((cfg3 a).win 6).index t (0 : Fin 2) = 0 from rfl]
  | ⟨1, _⟩ =>
    show ((cfg3 a).win 6).index t (1 : Fin 2) * 64 + 1 * j.val = j.val
    rw [show ((cfg3 a).win 6).index t (1 : Fin 2) = 0 from rfl]; omega

theorem sq_arr_apply (c : Dev nD) (j : Fin 64) :
    ((dat V a hp0 hp1 c).arrAt 6 (cfg3 a).N : S1x64.Idx → Elt F .f32) (ValueIdx.ix2 (0 : Fin 1) j)
      = (stAt V a hp0 hp1 c (tlast a).val (tlast a).isLt).2.1 (ValueIdx.ix2 (0 : Fin 1) j) := by
  have h := (dat V a hp0 hp1 c).arrAt_emb_eq_flushed 6 (disjoint6 a) (tlast a) ((flush6_iff a (tlast a)).mpr (tlast_succ a))
    (ValueIdx.ix2 (0 : Fin 1) j)
  rw [emb6] at h
  refine h.trans ?_
  show (dat V a hp0 hp1 c).after 6 (tlast a) (ValueIdx.ix2 (0 : Fin 1) j) = _
  rw [after_6]

/-- The array of window 6 after the region is what the last point left. -/
theorem sq_arr (c : Dev nD) :
    ((dat V a hp0 hp1 c).arrAt 6 (cfg3 a).N : S1x64.Idx → Elt F .f32) = (stAt V a hp0 hp1 c (tlast a).val (tlast a).isLt).2.1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sq_arr_apply V a hp0 hp1 c j

end Arrays

/-! ## The values, at the ideal instance -/

section AtIdeal

variable (V : (c : Dev nD) → (b : Ref sig .tc) → Buf (Elt Ideal) ((c : Thread nD τ).loc b))
variable (a : (pcfg3 (F := Ideal)).Adm)
variable (hp0 : ∀ c (i : grid3.Coords), k3_chk1 (tw0 tb0 c i (T0 a c))) (hp1 : ∀ c (i : grid3.Coords), k3_chk2 (tw1 tb1 c i (T1 a c)))

/-- The arrays the region reads, each at its literal type. -/
abbrev xArr (c : Dev nD) : S100000x128.Idx → EReal := V c main_arg0
abbrev w1Arr (c : Dev nD) : S64x128.Idx → EReal := V c main_v4
abbrev w2Arr (c : Dev nD) : S64x128.Idx → EReal := V c main_v5
abbrev binArr (c : Dev nD) : S1x64.Idx → EReal := V c main_v6
abbrev whArr (c : Dev nD) : S64x64.Idx → EReal := V c main_arg4
abbrev bhArr (c : Dev nD) : S1x64.Idx → EReal := V c main_v7
/-- Entry i of each endpoint table. -/
abbrev e0At (c : Dev nD) (i : Fin 62500) : BitVec 32 := (T0 a c : S62500.Idx → BitVec 32) (ValueIdx.ix1 i)
abbrev e1At (c : Dev nD) (i : Fin 62500) : BitVec 32 := (T1 a c : S62500.Idx → BitVec 32) (ValueIdx.ix1 i)

/-- The grid point of edge i. -/
def ptOf (i : Fin 62500) : Fin (cfg3 a).N := ⟨i.val, lt_of_lt_of_eq i.isLt N_3.symm⟩

/-- The word a point reads of the first table is the table's entry at the point. -/
theorem tw0_at (c : Dev nD) (t : Fin (cfg3 a).N) :
    tw0 tb0 c (crd a t) (T0 a c) = e0At a c ⟨t.val, lt_of_lt_of_eq t.isLt N_3⟩ := by
  refine (P1.tw0_eq tb0 c (crd a t) (T0 a c)).trans ?_
  show (T0 a c : S62500.Idx → BitVec 32) _ = (T0 a c : S62500.Idx → BitVec 32) _
  refine congrArg (T0 a c : S62500.Idx → BitVec 32) (funext fun b => Fin.ext ?_)
  match b with
  | ⟨0, _⟩ => exact coord_val a t

theorem tw1_at (c : Dev nD) (t : Fin (cfg3 a).N) :
    tw1 tb1 c (crd a t) (T1 a c) = e1At a c ⟨t.val, lt_of_lt_of_eq t.isLt N_3⟩ := by
  refine (P1.tw1_eq tb1 c (crd a t) (T1 a c)).trans ?_
  show (T1 a c : S62500.Idx → BitVec 32) _ = (T1 a c : S62500.Idx → BitVec 32) _
  refine congrArg (T1 a c : S62500.Idx → BitVec 32) (funext fun b => Fin.ext ?_)
  match b with
  | ⟨0, _⟩ => exact coord_val a t

include hp0 in
/-- Every entry of the endpoint tables names a row of the node-feature array. -/
theorem e0_lt (c : Dev nD) (i : Fin 62500) : (e0At a c i).toNat < 100000 := by
  have h := P1.toNat_lt_of_chk1 (hp0 c (crd a (ptOf a i)))
  rw [tw0_at] at h
  exact h

include hp1 in
theorem e1_lt (c : Dev nD) (i : Fin 62500) : (e1At a c i).toNat < 100000 := by
  have h := P1.toNat_lt_of_chk2 (hp1 c (crd a (ptOf a i)))
  rw [tw1_at] at h
  exact h

/-- The hidden row of edge i of the chunk, at feature j: the two layers applied to the two rows of the node-feature
    array that entry i of each endpoint table names. -/
def rowval (c : Dev nD) (i : Fin 62500) (j : Fin 64) : EReal :=
  ∑ k : Fin 64,
      max (∑ k' : Fin 128, xArr V c (ValueIdx.ix2 (⟨(e0At a c i).toNat, e0_lt a hp0 c i⟩ : Fin 100000) k') * w1Arr V c (ValueIdx.ix2 k k')
          + ∑ k' : Fin 128, xArr V c (ValueIdx.ix2 (⟨(e1At a c i).toNat, e1_lt a hp1 c i⟩ : Fin 100000) k') * w2Arr V c (ValueIdx.ix2 k k')
          + binArr V c (ValueIdx.ix2 (0 : Fin 1) k)) 0
        * whArr V c (ValueIdx.ix2 j k)
    + bhArr V c (ValueIdx.ix2 (0 : Fin 1) j)

/-- The first row a point fetches, at feature k'. -/
theorem row0_val (c : Dev nD) (t : Fin (cfg3 a).N) (k' : Fin 128) :
    P1.rowAt0 tb0 xM c (crd a t) (T0 a c) (V c main_arg0) (hp0 c (crd a t)) (ValueIdx.ix2 (0 : Fin 1) k')
      = xArr V c (ValueIdx.ix2 (⟨(e0At a c ⟨t.val, lt_of_lt_of_eq t.isLt N_3⟩).toNat, e0_lt a hp0 c _⟩ : Fin 100000) k') := by
  refine (P1.rowAt0_apply tb0 xM c (crd a t) (T0 a c) (V c main_arg0) (hp0 c (crd a t)) k').trans ?_
  show xArr V c _ = xArr V c _
  refine congrArg (xArr V c) (funext fun b => Fin.ext ?_)
  match b with
  | ⟨0, _⟩ =>
    show (tw0 tb0 c (crd a t) (T0 a c)).toNat = (e0At a c ⟨t.val, lt_of_lt_of_eq t.isLt N_3⟩).toNat
    rw [tw0_at]
  | ⟨1, _⟩ => rfl

/-- The second row a point fetches, at feature k'. -/
theorem row1_val (c : Dev nD) (t : Fin (cfg3 a).N) (k' : Fin 128) :
    P1.rowAt1 tb1 xM c (crd a t) (T1 a c) (V c main_arg0) (hp1 c (crd a t)) (ValueIdx.ix2 (0 : Fin 1) k')
      = xArr V c (ValueIdx.ix2 (⟨(e1At a c ⟨t.val, lt_of_lt_of_eq t.isLt N_3⟩).toNat, e1_lt a hp1 c _⟩ : Fin 100000) k') := by
  refine (P1.rowAt1_apply tb1 xM c (crd a t) (T1 a c) (V c main_arg0) (hp1 c (crd a t)) k').trans ?_
  show xArr V c _ = xArr V c _
  refine congrArg (xArr V c) (funext fun b => Fin.ext ?_)
  match b with
  | ⟨0, _⟩ =>
    show (tw1 tb1 c (crd a t) (T1 a c)).toNat = (e1At a c ⟨t.val, lt_of_lt_of_eq t.isLt N_3⟩).toNat
    rw [tw1_at]
  | ⟨1, _⟩ => rfl

/-- A point's hidden row is the hidden row of its edge. -/
theorem hrow_val (c : Dev nD) (t : Fin (cfg3 a).N) (j : Fin 64) :
    P1.hrowG tb0 tb1 xM c (cfg3 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t j
      = rowval V a hp0 hp1 c ⟨t.val, lt_of_lt_of_eq t.isLt N_3⟩ j :=
  P1.hrow_eq_of (P1.rowAt0 tb0 xM c (crd a t) (T0 a c) (V c main_arg0) (hp0 c (crd a t)))
    (P1.rowAt1 tb1 xM c (crd a t) (T1 a c) (V c main_arg0) (hp1 c (crd a t)))
    (iblk V a c 0 t) (iblk V a c 1 t) (iblk V a c 2 t) (iblk V a c 3 t) (iblk V a c 4 t)
    (xArr V c) ⟨(e0At a c ⟨t.val, lt_of_lt_of_eq t.isLt N_3⟩).toNat, e0_lt a hp0 c _⟩
    ⟨(e1At a c ⟨t.val, lt_of_lt_of_eq t.isLt N_3⟩).toNat, e1_lt a hp1 c _⟩
    (w1Arr V c) (w2Arr V c) (binArr V c) (whArr V c) (bhArr V c)
    (row0_val V a hp0 c t) (row1_val V a hp1 c t)
    (iblk_0_eq V a c t) (iblk_1_eq V a c t) (iblk_2_eq V a c t) (iblk_3_eq V a c t) (iblk_4_eq V a c t) j

/-- After point n the first running sum is the sum of the hidden rows of the edges 0 … n. -/
theorem sum_at (c : Dev nD) (j : Fin 64) (n : ℕ) (hn : n < (cfg3 a).N) :
    (stAt V a hp0 hp1 c n hn).1 (ValueIdx.ix2 (0 : Fin 1) j)
      = ∑ i : Fin (n + 1), rowval V a hp0 hp1 c ⟨i.val, lt_of_lt_of_eq (Nat.lt_of_le_of_lt (Nat.le_of_lt_succ i.isLt) hn) N_3⟩ j := by
  unfold stAt
  refine (P1.sumG_at tb0 tb1 xM hM c (cfg3 a).N (crd a) (fun t => iblk V a c 0 t) (fun t => iblk V a c 1 t) (fun t => iblk V a c 2 t) (fun t => iblk V a c 3 t) (fun t => iblk V a c 4 t) (T0 a c) (T1 a c) (V c main_arg0) (V c main_v22_0) (fun t => hp0 c (crd a t)) (fun t => hp1 c (crd a t)) j n hn).trans ?_
  exact Finset.sum_congr rfl fun i _ => hrow_val V a hp0 hp1 c _ j

/-- After point n the second running sum is the sum of the squares of those hidden rows. -/
theorem sq_at (c : Dev nD) (j : Fin 64) (n : ℕ) (hn : n < (cfg3 a).N) :
    (stAt V a hp0 hp1 c n hn).2.1 (ValueIdx.ix2 (0 : Fin 1) j)
      = ∑ i : Fin (n + 1), rowval V a hp0 hp1 c ⟨i.val, lt_of_lt_of_eq (Nat.lt_of_le_of_lt (Nat.le_of_lt_succ i.isLt) hn) N_3⟩ j
          * rowval V a hp0 hp1 c ⟨i.val, lt_of_lt_of_eq (Nat.lt_of_le_of_lt (Nat.le_of_lt_succ i.isLt) hn) N_3⟩ j := by
  unfold stAt
  refine (P1.sumsqG_at tb0 tb1 xM hM c (cfg3 a).N (crd a) (fun t => iblk V a c 0 t) (fun t => iblk V a c 1 t) (fun t => iblk V a c 2 t) (fun t => iblk V a c 3 t) (fun t => iblk V a c 4 t) (T0 a c) (T1 a c) (V c main_arg0) (V c main_v22_0) (fun t => hp0 c (crd a t)) (fun t => hp1 c (crd a t)) j n hn).trans ?_
  exact Finset.sum_congr rfl fun i _ => by rw [hrow_val V a hp0 hp1 c _ j]

/-- The hidden array is read through its whole view as itself. -/
theorem read_hM (c : Dev nD) (f : Bf (F := Ideal) c hM) (y : S62500x64.Idx) :
    hM.view.read (Elt Ideal) f y = (f : S62500x64.Idx → EReal) y := rfl

/-- After n points, row i < n of the hidden array is edge i's hidden row. -/
theorem hid_at (c : Dev nD) (j : Fin 64) (n : ℕ) (hn : n ≤ (cfg3 a).N) (i : ℕ) (hi : i < n) :
    (hAt V a hp0 hp1 c n hn : S62500x64.Idx → EReal) (ValueIdx.ix2 (⟨i, lt_of_lt_of_eq (Nat.lt_of_lt_of_le hi hn) N_3⟩ : Fin 62500) j)
      = rowval V a hp0 hp1 c ⟨i, lt_of_lt_of_eq (Nat.lt_of_lt_of_le hi hn) N_3⟩ j := by
  unfold hAt
  refine (read_hM c _ _).symm.trans ?_
  refine (P1.hG_row_written (F := Ideal) tb0 tb1 xM hM c (cfg3 a).N (crd a) (fun t => iblk V a c 0 t) (fun t => iblk V a c 1 t) (fun t => iblk V a c 2 t) (fun t => iblk V a c 3 t) (fun t => iblk V a c 4 t) (T0 a c) (T1 a c) (V c main_arg0) (V c main_v22_0) (fun t => hp0 c (crd a t)) (fun t => hp1 c (crd a t)) (coord_val a) j n hn i hi).trans ?_
  exact (P1.rowStep_apply tb0 tb1 xM c (cfg3 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) _ j).trans (hrow_val V a hp0 hp1 c _ j)

/-- The two running-sum arrays and the hidden array after the region, each at its literal type. -/
abbrev sumArr (c : Dev nD) : S1x64.Idx → EReal := (dat V a hp0 hp1 c).arrAt 5 (cfg3 a).N
abbrev sqArr (c : Dev nD) : S1x64.Idx → EReal := (dat V a hp0 hp1 c).arrAt 6 (cfg3 a).N
abbrev hidArr (c : Dev nD) : S62500x64.Idx → EReal := hAt V a hp0 hp1 c (cfg3 a).N (Nat.le_refl _)

/-- The last point's index plus one is the number of edges of the chunk. -/
theorem tlast_count : (tlast a).val + 1 = 62500 := rfl

/-- The first running-sum array after the region: the sum over the chunk's edges of their hidden rows. -/
theorem sum_final (c : Dev nD) (j : Fin 64) :
    sumArr V a hp0 hp1 c (ValueIdx.ix2 (0 : Fin 1) j) = ∑ i : Fin 62500, rowval V a hp0 hp1 c i j := by
  refine (sum_arr_apply V a hp0 hp1 c j).trans ((sum_at V a hp0 hp1 c j (tlast a).val (tlast a).isLt).trans ?_)
  exact Fintype.sum_equiv (finCongr (tlast_count a)) _ _ (fun i => rfl)

/-- The second running-sum array after the region: the sum of the squares of those hidden rows. -/
theorem sq_final (c : Dev nD) (j : Fin 64) :
    sqArr V a hp0 hp1 c (ValueIdx.ix2 (0 : Fin 1) j)
      = ∑ i : Fin 62500, rowval V a hp0 hp1 c i j * rowval V a hp0 hp1 c i j := by
  refine (sq_arr_apply V a hp0 hp1 c j).trans ((sq_at V a hp0 hp1 c j (tlast a).val (tlast a).isLt).trans ?_)
  exact Fintype.sum_equiv (finCongr (tlast_count a)) _ _ (fun i => rfl)

/-- The hidden array after the region: row i is edge i's hidden row. -/
theorem hid_final (c : Dev nD) (i : Fin 62500) (j : Fin 64) :
    hidArr V a hp0 hp1 c (ValueIdx.ix2 i j) = rowval V a hp0 hp1 c i j :=
  hid_at V a hp0 hp1 c j (cfg3 a).N (Nat.le_refl _) i.val (lt_of_lt_of_eq i.isLt N_3.symm)

end AtIdeal

end Cert.KernelIdeal.P1R3

end
-- ==== Proof.P1R3Fin.lean ====
/- The first launch's results are its chunk's hidden values.

   The launch walks the 62500 edges of its chunk: at edge i it fetches the two rows of the node-feature array that entry i of
   its two endpoint tables names, applies the two layers, writes the hidden row and adds it, and its square, to two running
   sums. Its tables are the chunk's pieces of the edge array's two rows, and the weights it reads are the argument arrays'
   (the first layer's weights in two halves). So row i of its rows result is the hidden value of edge i of the chunk in the
   by-endpoint form, and its two sums are the sums of those values and of their squares over the chunk. -/
import proofs.«400866_j57071525429608_2_alg».proof.Proof.P1R3Val
import proofs.«400866_j57071525429608_2_alg».proof.Proof.HostHead
import proofs.«400866_j57071525429608_2_alg».proof.Proof.TblFacts
import proofs.«400866_j57071525429608_2_alg».proof.Proof.HostTail
import proofs.«400866_j57071525429608_2_alg».proof.Proof.KVal
import proofs.«400866_j57071525429608_2_alg».proof.Proof.Spec
import Idealize.ShloMosaic.Lib.ValueIdx

set_option maxRecDepth 16384

noncomputable section

namespace Cert.KernelIdeal.P1R3

open Cert.KernelIdeal Cert.KernelIdeal.Gen
open Idealize.ShloMosaic Idealize.ShloMosaic.TcCoe
open Cert.KernelIdeal.P1 (Bf tw0 tw1)
open scoped BigOperators

/-! ## The launch -/

/-- The launch's chunk among the sixteen. -/
abbrev KK : Fin 16 := ⟨3, by omega⟩
/-- The launch among the seventeen regions. -/
abbrev KK17 : Fin 17 := ⟨3, by omega⟩
/-- The buffers' contents when the launch is entered. -/
abbrev Ventry (m : (ℓ : Loc nD τ sig) → Buf (Elt Ideal) ℓ) (outs : Outs (F := Ideal)) (c : Dev nD) : Valuation τ sig (Elt Ideal) := V7 m outs c
/-- They are the entry contents the host operations' facts are stated at. -/
theorem Ventry_eq (m : (ℓ : Loc nD τ sig) → Buf (Elt Ideal) ℓ) (outs : Outs (F := Ideal)) (c : Dev nD) :
    Head.Vodd m outs c KK17 = Ventry m outs c := Head.Vodd_3 m outs c _

variable (m : (ℓ : Loc nD τ sig) → Buf (Elt Ideal) ℓ) (outs : Outs (F := Ideal)) (c : Dev nD)
variable (a : (pcfg3 (F := Ideal)).Adm)
variable (hp0 : ∀ c (i : grid3.Coords), k3_chk1 (tw0 tb0 c i (T0 a c))) (hp1 : ∀ c (i : grid3.Coords), k3_chk2 (tw1 tb1 c i (T1 a c)))

/-- The entry contents as the launch's value lemmas take them. -/
abbrev VV : (c : Dev nD) → (b : Ref sig .tc) → Buf (Elt Ideal) ((c : Thread nD τ).loc b) := fun c b => Ventry m outs c b

/-! ## The tables' words are the chunk's endpoints -/

/-- Entry `i` of the first table names the first endpoint of edge `i` of the chunk. -/
theorem e0_eq (hT0 : (T0 a c : S62500.Idx → BitVec 32) = (Tbl.tblA m outs c KK : IVec S62500 32)) (i : Fin 62500) :
    (⟨(e0At a c i).toNat, e0_lt a hp0 c i⟩ : Fin 100000) = Cert.Spec.endpoint (KVal.edgesA m c) 0 (Cert.Spec.chunk KK i) := by
  have hw : e0At a c i = (KVal.edgesA m c) (ValueIdx.ix2 (0 : Fin 2) (Cert.Spec.chunk KK i)) := by
    show (T0 a c : S62500.Idx → BitVec 32) (ValueIdx.ix1 i) = _
    rw [hT0]
    exact Tbl.tblA_apply m outs c KK i
  have hlt := e0_lt a hp0 c i
  rw [hw] at hlt
  refine Fin.ext ?_
  show (e0At a c i).toNat = (Cert.Spec.node _).val
  rw [Cert.Spec.node_val_of_toNat_lt hlt, hw]

/-- Entry `i` of the second table names the second endpoint. -/
theorem e1_eq (hT1 : (T1 a c : S62500.Idx → BitVec 32) = (Tbl.tblB m outs c KK : IVec S62500 32)) (i : Fin 62500) :
    (⟨(e1At a c i).toNat, e1_lt a hp1 c i⟩ : Fin 100000) = Cert.Spec.endpoint (KVal.edgesA m c) 1 (Cert.Spec.chunk KK i) := by
  have hw : e1At a c i = (KVal.edgesA m c) (ValueIdx.ix2 (1 : Fin 2) (Cert.Spec.chunk KK i)) := by
    show (T1 a c : S62500.Idx → BitVec 32) (ValueIdx.ix1 i) = _
    rw [hT1]
    exact Tbl.tblB_apply m outs c KK i
  have hlt := e1_lt a hp1 c i
  rw [hw] at hlt
  refine Fin.ext ?_
  show (e1At a c i).toNat = (Cert.Spec.node _).val
  rw [Cert.Spec.node_val_of_toNat_lt hlt, hw]

/-! ## The arrays the launch reads are the arguments' -/

theorem x_eq : xArr (VV m outs) c = KVal.xA m c := by
  show Ventry m outs c main_arg0 = _
  rw [← Ventry_eq m outs c]
  exact Head.arg0_keep m outs c KK17
theorem wh_eq : whArr (VV m outs) c = KVal.WhA m c := by
  show Ventry m outs c main_arg4 = _
  rw [← Ventry_eq m outs c]
  exact Head.arg4_keep m outs c KK17
theorem w1_apply (k : Fin 64) (k' : Fin 128) :
    w1Arr (VV m outs) c (ValueIdx.ix2 k k') = KVal.WinA m c (ValueIdx.ix2 k (⟨k'.val, by omega⟩ : Fin 256)) := by
  show (Ventry m outs c main_v4 : S64x128.Idx → EReal) (ValueIdx.ix2 k k') = _
  rw [← Ventry_eq m outs c]
  exact Head.v4_apply m outs c KK17 k k'
theorem w2_apply (k : Fin 64) (k' : Fin 128) :
    w2Arr (VV m outs) c (ValueIdx.ix2 k k') = KVal.WinA m c (ValueIdx.ix2 k (⟨128 + k'.val, by omega⟩ : Fin 256)) := by
  show (Ventry m outs c main_v5 : S64x128.Idx → EReal) (ValueIdx.ix2 k k') = _
  rw [← Ventry_eq m outs c]
  exact Head.v5_apply m outs c KK17 k k'
theorem bin_apply (k : Fin 64) :
    binArr (VV m outs) c (ValueIdx.ix2 (0 : Fin 1) k) = KVal.binA m c (ValueIdx.ix1 k) := by
  show (Ventry m outs c main_v6 : S1x64.Idx → EReal) (ValueIdx.ix2 (0 : Fin 1) k) = _
  rw [← Ventry_eq m outs c]
  exact Head.v6_apply m outs c KK17 k
theorem bh_apply (j : Fin 64) :
    bhArr (VV m outs) c (ValueIdx.ix2 (0 : Fin 1) j) = KVal.bhA m c (ValueIdx.ix1 j) := by
  show (Ventry m outs c main_v7 : S1x64.Idx → EReal) (ValueIdx.ix2 (0 : Fin 1) j) = _
  rw [← Ventry_eq m outs c]
  exact Head.v7_apply m outs c KK17 j

/-! ## The launch's hidden row is the chunk's hidden value -/

theorem rowval_eq (hT0 : (T0 a c : S62500.Idx → BitVec 32) = (Tbl.tblA m outs c KK : IVec S62500 32))
    (hT1 : (T1 a c : S62500.Idx → BitVec 32) = (Tbl.tblB m outs c KK : IVec S62500 32)) (i : Fin 62500) (j : Fin 64) :
    rowval (VV m outs) a hp0 hp1 c i j = KVal.hid m c (Cert.Spec.chunk KK i) j := by
  unfold rowval KVal.hid
  rw [e0_eq m outs c a hp0 hT0 i, e1_eq m outs c a hp1 hT1 i, x_eq m outs c, wh_eq m outs c]
  simp only [w1_apply m outs c, w2_apply m outs c, bin_apply m outs c, bh_apply m outs c]

/-! ## The three results -/

/-- Row `i` of the rows result is the hidden value of edge `i` of the chunk. -/
theorem chunkRow_eq (hT0 : (T0 a c : S62500.Idx → BitVec 32) = (Tbl.tblA m outs c KK : IVec S62500 32))
    (hT1 : (T1 a c : S62500.Idx → BitVec 32) = (Tbl.tblB m outs c KK : IVec S62500 32))
    (hR0 : (Tail.res0 outs c KK : S62500x64.Idx → EReal) = hidArr (VV m outs) a hp0 hp1 c)
    (i : Fin 62500) (j : Fin 64) : Tail.chunkRow outs c KK i j = KVal.HID m c KK i j := by
  show (Tail.res0 outs c KK : S62500x64.Idx → EReal) (ValueIdx.ix2 i j) = _
  rw [hR0]
  exact (hid_final (VV m outs) a hp0 hp1 c i j).trans (rowval_eq m outs c a hp0 hp1 hT0 hT1 i j)

/-- The sums result is the sum of the chunk's hidden values. -/
theorem chunkSum_eq (hT0 : (T0 a c : S62500.Idx → BitVec 32) = (Tbl.tblA m outs c KK : IVec S62500 32))
    (hT1 : (T1 a c : S62500.Idx → BitVec 32) = (Tbl.tblB m outs c KK : IVec S62500 32))
    (hR1 : (Tail.res1 outs c KK : S1x64.Idx → EReal) = sumArr (VV m outs) a hp0 hp1 c)
    (j : Fin 64) : Tail.chunkSum outs c KK j = ∑ i : Fin 62500, KVal.HID m c KK i j := by
  show (Tail.res1 outs c KK : S1x64.Idx → EReal) (ValueIdx.ix2 (0 : Fin 1) j) = _
  rw [hR1]
  exact (sum_final (VV m outs) a hp0 hp1 c j).trans (Finset.sum_congr rfl fun i _ => rowval_eq m outs c a hp0 hp1 hT0 hT1 i j)

/-- The sums-of-squares result is the sum of their squares. -/
theorem chunkSq_eq (hT0 : (T0 a c : S62500.Idx → BitVec 32) = (Tbl.tblA m outs c KK : IVec S62500 32))
    (hT1 : (T1 a c : S62500.Idx → BitVec 32) = (Tbl.tblB m outs c KK : IVec S62500 32))
    (hR2 : (Tail.res2 outs c KK : S1x64.Idx → EReal) = sqArr (VV m outs) a hp0 hp1 c)
    (j : Fin 64) : Tail.chunkSq outs c KK j = ∑ i : Fin 62500, KVal.HID m c KK i j * KVal.HID m c KK i j := by
  show (Tail.res2 outs c KK : S1x64.Idx → EReal) (ValueIdx.ix2 (0 : Fin 1) j) = _
  rw [hR2]
  exact (sq_final (VV m outs) a hp0 hp1 c j).trans
    (Finset.sum_congr rfl fun i _ => by rw [rowval_eq m outs c a hp0 hp1 hT0 hT1 i j])

end Cert.KernelIdeal.P1R3

end
-- ==== Proof.P1R3Top.lean ====
/- The first launch's results are its chunk's hidden values, at the run's own choices.

   The run fixes what every region leaves (the unknowns), each launch's tables and the contents each launch is entered
   from. At those choices nothing is left to assume: the launch's tables are its chunk's pieces of the edge array's rows,
   its results are what its proof data leave, and so its rows are the chunk's hidden values and its two sums their sums
   and sums of squares. -/
import proofs.«400866_j57071525429608_2_alg».proof.Proof.P1R3Fin
import proofs.«400866_j57071525429608_2_alg».proof.Proof.GlueVal

set_option maxRecDepth 16384

noncomputable section

namespace Cert.KernelIdeal.P1R3

open Cert.KernelIdeal Cert.KernelIdeal.Gen
open Idealize.ShloMosaic Idealize.ShloMosaic.TcCoe
open Cert.KernelIdeal.P1 (Bf tw0 tw1)
open Cert.KernelIdeal.Glue (atTc)
open scoped BigOperators

/-! ## The run's choices for this launch -/

/-- The launch's tables, admissible. -/
abbrev gA (m : (ℓ : Loc nD τ sig) → Buf (Elt Ideal) ℓ) : (pcfg3 (F := Ideal)).Adm := Glue.adm3 m
/-- The contents it is entered from, as the run names them. -/
abbrev gW (m : (ℓ : Loc nD τ sig) → Buf (Elt Ideal) ℓ)
    (hE : ∀ (c : Dev nD) (idx : S2x1000000.Idx), ((V0 m c main_arg1 : IVec S2x1000000 32) idx).toNat < 100000) :
    Dev nD → Valuation τ sig (Elt Ideal) := Glue.W7 m hE

variable (m : (ℓ : Loc nD τ sig) → Buf (Elt Ideal) ℓ)
  (hE : ∀ (c : Dev nD) (idx : S2x1000000.Idx), ((V0 m c main_arg1 : IVec S2x1000000 32) idx).toNat < 100000)
  (c : Dev nD)

include hE

/-- The words it reads of them name rows of the node table. -/
theorem gP0 : ∀ c (i : grid3.Coords), k3_chk1 (tw0 tb0 c i (T0 (gA m) c)) := Glue.hp0_3 m hE
theorem gP1 : ∀ c (i : grid3.Coords), k3_chk2 (tw1 tb1 c i (T1 (gA m) c)) := Glue.hp1_3 m hE
/-- The contents it is entered from are the valuation's. -/
theorem gV : Ventry m (Glue.outs m hE) c = gW m hE c := Glue.V7_eq m hE c
/-- The tables it finds in the buffers are its own. -/
theorem gTA : (T0 (gA m) c : S62500.Idx → BitVec 32) = (Tbl.tblA m (Glue.outs m hE) c KK : IVec S62500 32) :=
  ((Glue.hT0_3 m hE c).symm.trans (congrFun (gV m hE c) (Proc.devRef .tc main_v20)).symm :)
theorem gTB : (T1 (gA m) c : S62500.Idx → BitVec 32) = (Tbl.tblB m (Glue.outs m hE) c KK : IVec S62500 32) :=
  ((Glue.hT1_3 m hE c).symm.trans (congrFun (gV m hE c) (Proc.devRef .tc main_v21)).symm :)
/-- What it leaves at its three results. -/
theorem gR0 : (Tail.res0 (Glue.outs m hE) c KK : S62500x64.Idx → EReal) = hidArr (atTc (gW m hE)) (gA m) (gP0 m hE) (gP1 m hE) c :=
  Glue.res0_3 m hE c
theorem gR1 : (Tail.res1 (Glue.outs m hE) c KK : S1x64.Idx → EReal) = sumArr (atTc (gW m hE)) (gA m) (gP0 m hE) (gP1 m hE) c :=
  Glue.res1_3 m hE c
theorem gR2 : (Tail.res2 (Glue.outs m hE) c KK : S1x64.Idx → EReal) = sqArr (atTc (gW m hE)) (gA m) (gP0 m hE) (gP1 m hE) c :=
  Glue.res2_3 m hE c

/-! ## The three facts, nothing assumed -/

/-- The entry contents the launch's value lemmas take are the run's. -/
theorem VV_eq : VV m (Glue.outs m hE) = atTc (gW m hE) :=
  funext fun c => funext fun b => congrFun (gV m hE c) (Proc.devRef .tc b)

/-- Row `i` of the launch's rows is the hidden value of edge `i` of its chunk. -/
theorem row_top (i : Fin 62500) (j : Fin 64) : Tail.chunkRow (Glue.outs m hE) c KK i j = KVal.HID m c KK i j :=
  chunkRow_eq m (Glue.outs m hE) c (gA m) (gP0 m hE) (gP1 m hE) (gTA m hE c) (gTB m hE c)
    (by rw [VV_eq m hE]; exact gR0 m hE c) i j

/-- Its sums are the sums of those values over the chunk. -/
theorem sum_top (j : Fin 64) : Tail.chunkSum (Glue.outs m hE) c KK j = ∑ i : Fin 62500, KVal.HID m c KK i j :=
  chunkSum_eq m (Glue.outs m hE) c (gA m) (gP0 m hE) (gP1 m hE) (gTA m hE c) (gTB m hE c)
    (by rw [VV_eq m hE]; exact gR1 m hE c) j

/-- Its sums of squares are the sums of their squares. -/
theorem sq_top (j : Fin 64) :
    Tail.chunkSq (Glue.outs m hE) c KK j = ∑ i : Fin 62500, KVal.HID m c KK i j * KVal.HID m c KK i j :=
  chunkSq_eq m (Glue.outs m hE) c (gA m) (gP0 m hE) (gP1 m hE) (gTA m hE c) (gTB m hE c)
    (by rw [VV_eq m hE]; exact gR2 m hE c) j

end Cert.KernelIdeal.P1R3

end
-- ==== Proof.P1R4Val.lean ====
/-
  A gather-and-project region (one chunk of 62500 edges), from blocks to arrays.

  The five parameter windows never move: each one's block is its whole array. The two running-sum
  windows never move either and are written back once, after the last point, so their arrays end
  holding what the last point left. Put together with the recursion over the points, at the ideal
  values: the first array ends at the sum over the chunk's 62500 edges of their hidden rows, the
  second at the sum of the squares, and row i of the hidden array is edge i's hidden row — where the
  hidden row of edge i is the two layers applied to the two rows of the node-feature array that entry
  i of each endpoint table names.
-/
import proofs.«400866_j57071525429608_2_alg».proof.Proof.P1R4Dat
import proofs.«400866_j57071525429608_2_alg».proof.Proof.P1StateVal
import proofs.«400866_j57071525429608_2_alg».proof.Proof.P1Val
import Idealize.ShloMosaic.Lib.Pipeline.Value
import Idealize.ShloMosaic.Lib.ValueIdx
import Mathlib.Algebra.BigOperators.Fin

set_option maxRecDepth 100000

noncomputable section

namespace Cert.KernelIdeal.P1R4

open Cert.KernelIdeal Cert.KernelIdeal.Gen
open Idealize.ShloMosaic Idealize.ShloMosaic.TcCoe
open Idealize.ShloMosaic.Pipeline (Dat)
open Cert.KernelIdeal.P1 (Bf tw0 tw1 hNext)
open scoped BigOperators

/-! ## From blocks to arrays (any float values) -/

section Arrays

variable {F : FTy → Type} [FloatOps F]
variable (V : (c : Dev nD) → (b : Ref sig .tc) → Buf (Elt F) ((c : Thread nD τ).loc b))
variable (a : (pcfg4 (F := F)).Adm)
variable (hp0 : ∀ c (i : grid4.Coords), k4_chk1 (tw0 tb0 c i (T0 a c))) (hp1 : ∀ c (i : grid4.Coords), k4_chk2 (tw1 tb1 c i (T1 a c)))

/-- The last grid point. -/
def tlast : Fin (cfg4 a).N := ⟨62499, lt_of_lt_of_eq (by decide : 62499 < 62500) N_4.symm⟩

theorem tlast_succ : (tlast a).val + 1 = (cfg4 a).N := N_4.symm

/-- The first half of the first layer's weights: the block is the array. -/
theorem iblk_0_eq (c : Dev nD) (t : Fin (cfg4 a).N) : (iblk V a c 0 t : S64x128.Idx → Elt F .f32) = V c main_v4 := by
  refine funext fun (y : S64x128.Idx) => ?_
  show (V c main_v4 : S64x128.Idx → Elt F .f32) ((((cfg4 a).win 0).blk t).view.emb y) = _
  congr 1; funext b; apply Fin.ext
  match b with
  | ⟨0, _⟩ =>
    show ((cfg4 a).win 0).index t (0 : Fin 2) * 64 + 1 * (y 0).val = (y 0).val
    rw [show ((cfg4 a).win 0).index t (0 : Fin 2) = 0 from rfl]; omega
  | ⟨1, _⟩ =>
    show ((cfg4 a).win 0).index t (1 : Fin 2) * 128 + 1 * (y 1).val = (y 1).val
    rw [show ((cfg4 a).win 0).index t (1 : Fin 2) = 0 from rfl]; omega

/-- The second half of the first layer's weights: the block is the array. -/
theorem iblk_1_eq (c : Dev nD) (t : Fin (cfg4 a).N) : (iblk V a c 1 t : S64x128.Idx → Elt F .f32) = V c main_v5 := by
  refine funext fun (y : S64x128.Idx) => ?_
  show (V c main_v5 : S64x128.Idx → Elt F .f32) ((((cfg4 a).win 1).blk t).view.emb y) = _
  congr 1; funext b; apply Fin.ext
  match b with
  | ⟨0, _⟩ =>
    show ((cfg4 a).win 1).index t (0 : Fin 2) * 64 + 1 * (y 0).val = (y 0).val
    rw [show ((cfg4 a).win 1).index t (0 : Fin 2) = 0 from rfl]; omega
  | ⟨1, _⟩ =>
    show ((cfg4 a).win 1).index t (1 : Fin 2) * 128 + 1 * (y 1).val = (y 1).val
    rw [show ((cfg4 a).win 1).index t (1 : Fin 2) = 0 from rfl]; omega

/-- The first layer's bias: the block is the array. -/
theorem iblk_2_eq (c : Dev nD) (t : Fin (cfg4 a).N) : (iblk V a c 2 t : S1x64.Idx → Elt F .f32) = V c main_v6 := by
  refine funext fun (y : S1x64.Idx) => ?_
  show (V c main_v6 : S1x64.Idx → Elt F .f32) ((((cfg4 a).win 2).blk t).view.emb y) = _
  congr 1; funext b; apply Fin.ext
  match b with
  | ⟨0, _⟩ =>
    show ((cfg4 a).win 2).index t (0 : Fin 2) * 1 + 1 * (y 0).val = (y 0).val
    rw [show ((cfg4 a).win 2).index t (0 : Fin 2) = 0 from rfl]; omega
  | ⟨1, _⟩ =>
    show ((cfg4 a).win 2).index t (1 : Fin 2) * 64 + 1 * (y 1).val = (y 1).val
    rw [show ((cfg4 a).win 2).index t (1 : Fin 2) = 0 from rfl]; omega

/-- The second layer's weights: the block is the array. -/
theorem iblk_3_eq (c : Dev nD) (t : Fin (cfg4 a).N) : (iblk V a c 3 t : S64x64.Idx → Elt F .f32) = V c main_arg4 := by
  refine funext fun (y : S64x64.Idx) => ?_
  show (V c main_arg4 : S64x64.Idx → Elt F .f32) ((((cfg4 a).win 3).blk t).view.emb y) = _
  congr 1; funext b; apply Fin.ext
  match b with
  | ⟨0, _⟩ =>
    show ((cfg4 a).win 3).index t (0 : Fin 2) * 64 + 1 * (y 0).val = (y 0).val
    rw [show ((cfg4 a).win 3).index t (0 : Fin 2) = 0 from rfl]; omega
  | ⟨1, _⟩ =>
    show ((cfg4 a).win 3).index t (1 : Fin 2) * 64 + 1 * (y 1).val = (y 1).val
    rw [show ((cfg4 a).win 3).index t (1 : Fin 2) = 0 from rfl]; omega

/-- The second layer's bias: the block is the array. -/
theorem iblk_4_eq (c : Dev nD) (t : Fin (cfg4 a).N) : (iblk V a c 4 t : S1x64.Idx → Elt F .f32) = V c main_v7 := by
  refine funext fun (y : S1x64.Idx) => ?_
  show (V c main_v7 : S1x64.Idx → Elt F .f32) ((((cfg4 a).win 4).blk t).view.emb y) = _
  congr 1; funext b; apply Fin.ext
  match b with
  | ⟨0, _⟩ =>
    show ((cfg4 a).win 4).index t (0 : Fin 2) * 1 + 1 * (y 0).val = (y 0).val
    rw [show ((cfg4 a).win 4).index t (0 : Fin 2) = 0 from rfl]; omega
  | ⟨1, _⟩ =>
    show ((cfg4 a).win 4).index t (1 : Fin 2) * 64 + 1 * (y 1).val = (y 1).val
    rw [show ((cfg4 a).win 4).index t (1 : Fin 2) = 0 from rfl]; omega

/-- Window 5 is written back at the last point and at no other: its block never moves. -/
theorem flush5_iff (t : Fin (cfg4 a).N) : ((cfg4 a).win 5).flush t = true ↔ t.val + 1 = (cfg4 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint5 : ∀ t t' : Fin (cfg4 a).N, ((cfg4 a).win 5).flush t = true → ((cfg4 a).win 5).flush t' = true → t ≠ t' →
    Disjoint (((cfg4 a).win 5).blk t).view.set (((cfg4 a).win 5).blk t').view.set :=
  fun t t' h h' hne => absurd (Fin.ext (by
    have e := (flush5_iff a t).mp h
    have e' := (flush5_iff a t').mp h'
    omega)) hne

/-- Where feature j of window 5's block sits in its array: at feature j. -/
theorem emb5 (t : Fin (cfg4 a).N) (j : Fin 64) :
    (((cfg4 a).win 5).blk t).view.emb (ValueIdx.ix2 (0 : Fin 1) j) = ValueIdx.ix2 (0 : Fin 1) j := by
  funext b; apply Fin.ext
  match b with
  | ⟨0, _⟩ =>
    show ((cfg4 a).win 5).index t (0 : Fin 2) * 1 + 1 * 0 = 0
    rw [show ((cfg4 a).win 5).index t (0 : Fin 2) = 0 from rfl]
  | ⟨1, _⟩ =>
    show ((cfg4 a).win 5).index t (1 : Fin 2) * 64 + 1 * j.val = j.val
    rw [show ((cfg4 a).win 5).index t (1 : Fin 2) = 0 from rfl]; omega

theorem sum_arr_apply (c : Dev nD) (j : Fin 64) :
    ((dat V a hp0 hp1 c).arrAt 5 (cfg4 a).N : S1x64.Idx → Elt F .f32) (ValueIdx.ix2 (0 : Fin 1) j)
      = (stAt V a hp0 hp1 c (tlast a).val (tlast a).isLt).1 (ValueIdx.ix2 (0 : Fin 1) j) := by
  have h := (dat V a hp0 hp1 c).arrAt_emb_eq_flushed 5 (disjoint5 a) (tlast a) ((flush5_iff a (tlast a)).mpr (tlast_succ a))
    (ValueIdx.ix2 (0 : Fin 1) j)
  rw [emb5] at h
  refine h.trans ?_
  show (dat V a hp0 hp1 c).after 5 (tlast a) (ValueIdx.ix2 (0 : Fin 1) j) = _
  rw [after_5]

/-- The array of window 5 after the region is what the last point left. -/
theorem sum_arr (c : Dev nD) :
    ((dat V a hp0 hp1 c).arrAt 5 (cfg4 a).N : S1x64.Idx → Elt F .f32) = (stAt V a hp0 hp1 c (tlast a).val (tlast a).isLt).1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sum_arr_apply V a hp0 hp1 c j

/-- Window 6 is written back at the last point and at no other: its block never moves. -/
theorem flush6_iff (t : Fin (cfg4 a).N) : ((cfg4 a).win 6).flush t = true ↔ t.val + 1 = (cfg4 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint6 : ∀ t t' : Fin (cfg4 a).N, ((cfg4 a).win 6).flush t = true → ((cfg4 a).win 6).flush t' = true → t ≠ t' →
    Disjoint (((cfg4 a).win 6).blk t).view.set (((cfg4 a).win 6).blk t').view.set :=
  fun t t' h h' hne => absurd (Fin.ext (by
    have e := (flush6_iff a t).mp h
    have e' := (flush6_iff a t').mp h'
    omega)) hne

/-- Where feature j of window 6's block sits in its array: at feature j. -/
theorem emb6 (t : Fin (cfg4 a).N) (j : Fin 64) :
    (((cfg4 a).win 6).blk t).view.emb (ValueIdx.ix2 (0 : Fin 1) j) = ValueIdx.ix2 (0 : Fin 1) j := by
  funext b; apply Fin.ext
  match b with
  | ⟨0, _⟩ =>
    show ((cfg4 a).win 6).index t (0 : Fin 2) * 1 + 1 * 0 = 0
    rw [show ((cfg4 a).win 6).index t (0 : Fin 2) = 0 from rfl]
  | ⟨1, _⟩ =>
    show ((cfg4 a).win 6).index t (1 : Fin 2) * 64 + 1 * j.val = j.val
    rw [show ((cfg4 a).win 6).index t (1 : Fin 2) = 0 from rfl]; omega

theorem sq_arr_apply (c : Dev nD) (j : Fin 64) :
    ((dat V a hp0 hp1 c).arrAt 6 (cfg4 a).N : S1x64.Idx → Elt F .f32) (ValueIdx.ix2 (0 : Fin 1) j)
      = (stAt V a hp0 hp1 c (tlast a).val (tlast a).isLt).2.1 (ValueIdx.ix2 (0 : Fin 1) j) := by
  have h := (dat V a hp0 hp1 c).arrAt_emb_eq_flushed 6 (disjoint6 a) (tlast a) ((flush6_iff a (tlast a)).mpr (tlast_succ a))
    (ValueIdx.ix2 (0 : Fin 1) j)
  rw [emb6] at h
  refine h.trans ?_
  show (dat V a hp0 hp1 c).after 6 (tlast a) (ValueIdx.ix2 (0 : Fin 1) j) = _
  rw [after_6]

/-- The array of window 6 after the region is what the last point left. -/
theorem sq_arr (c : Dev nD) :
    ((dat V a hp0 hp1 c).arrAt 6 (cfg4 a).N : S1x64.Idx → Elt F .f32) = (stAt V a hp0 hp1 c (tlast a).val (tlast a).isLt).2.1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sq_arr_apply V a hp0 hp1 c j

end Arrays

/-! ## The values, at the ideal instance -/

section AtIdeal

variable (V : (c : Dev nD) → (b : Ref sig .tc) → Buf (Elt Ideal) ((c : Thread nD τ).loc b))
variable (a : (pcfg4 (F := Ideal)).Adm)
variable (hp0 : ∀ c (i : grid4.Coords), k4_chk1 (tw0 tb0 c i (T0 a c))) (hp1 : ∀ c (i : grid4.Coords), k4_chk2 (tw1 tb1 c i (T1 a c)))

/-- The arrays the region reads, each at its literal type. -/
abbrev xArr (c : Dev nD) : S100000x128.Idx → EReal := V c main_arg0
abbrev w1Arr (c : Dev nD) : S64x128.Idx → EReal := V c main_v4
abbrev w2Arr (c : Dev nD) : S64x128.Idx → EReal := V c main_v5
abbrev binArr (c : Dev nD) : S1x64.Idx → EReal := V c main_v6
abbrev whArr (c : Dev nD) : S64x64.Idx → EReal := V c main_arg4
abbrev bhArr (c : Dev nD) : S1x64.Idx → EReal := V c main_v7
/-- Entry i of each endpoint table. -/
abbrev e0At (c : Dev nD) (i : Fin 62500) : BitVec 32 := (T0 a c : S62500.Idx → BitVec 32) (ValueIdx.ix1 i)
abbrev e1At (c : Dev nD) (i : Fin 62500) : BitVec 32 := (T1 a c : S62500.Idx → BitVec 32) (ValueIdx.ix1 i)

/-- The grid point of edge i. -/
def ptOf (i : Fin 62500) : Fin (cfg4 a).N := ⟨i.val, lt_of_lt_of_eq i.isLt N_4.symm⟩

/-- The word a point reads of the first table is the table's entry at the point. -/
theorem tw0_at (c : Dev nD) (t : Fin (cfg4 a).N) :
    tw0 tb0 c (crd a t) (T0 a c) = e0At a c ⟨t.val, lt_of_lt_of_eq t.isLt N_4⟩ := by
  refine (P1.tw0_eq tb0 c (crd a t) (T0 a c)).trans ?_
  show (T0 a c : S62500.Idx → BitVec 32) _ = (T0 a c : S62500.Idx → BitVec 32) _
  refine congrArg (T0 a c : S62500.Idx → BitVec 32) (funext fun b => Fin.ext ?_)
  match b with
  | ⟨0, _⟩ => exact coord_val a t

theorem tw1_at (c : Dev nD) (t : Fin (cfg4 a).N) :
    tw1 tb1 c (crd a t) (T1 a c) = e1At a c ⟨t.val, lt_of_lt_of_eq t.isLt N_4⟩ := by
  refine (P1.tw1_eq tb1 c (crd a t) (T1 a c)).trans ?_
  show (T1 a c : S62500.Idx → BitVec 32) _ = (T1 a c : S62500.Idx → BitVec 32) _
  refine congrArg (T1 a c : S62500.Idx → BitVec 32) (funext fun b => Fin.ext ?_)
  match b with
  | ⟨0, _⟩ => exact coord_val a t

include hp0 in
/-- Every entry of the endpoint tables names a row of the node-feature array. -/
theorem e0_lt (c : Dev nD) (i : Fin 62500) : (e0At a c i).toNat < 100000 := by
  have h := P1.toNat_lt_of_chk1 (hp0 c (crd a (ptOf a i)))
  rw [tw0_at] at h
  exact h

include hp1 in
theorem e1_lt (c : Dev nD) (i : Fin 62500) : (e1At a c i).toNat < 100000 := by
  have h := P1.toNat_lt_of_chk2 (hp1 c (crd a (ptOf a i)))
  rw [tw1_at] at h
  exact h

/-- The hidden row of edge i of the chunk, at feature j: the two layers applied to the two rows of the node-feature
    array that entry i of each endpoint table names. -/
def rowval (c : Dev nD) (i : Fin 62500) (j : Fin 64) : EReal :=
  ∑ k : Fin 64,
      max (∑ k' : Fin 128, xArr V c (ValueIdx.ix2 (⟨(e0At a c i).toNat, e0_lt a hp0 c i⟩ : Fin 100000) k') * w1Arr V c (ValueIdx.ix2 k k')
          + ∑ k' : Fin 128, xArr V c (ValueIdx.ix2 (⟨(e1At a c i).toNat, e1_lt a hp1 c i⟩ : Fin 100000) k') * w2Arr V c (ValueIdx.ix2 k k')
          + binArr V c (ValueIdx.ix2 (0 : Fin 1) k)) 0
        * whArr V c (ValueIdx.ix2 j k)
    + bhArr V c (ValueIdx.ix2 (0 : Fin 1) j)

/-- The first row a point fetches, at feature k'. -/
theorem row0_val (c : Dev nD) (t : Fin (cfg4 a).N) (k' : Fin 128) :
    P1.rowAt0 tb0 xM c (crd a t) (T0 a c) (V c main_arg0) (hp0 c (crd a t)) (ValueIdx.ix2 (0 : Fin 1) k')
      = xArr V c (ValueIdx.ix2 (⟨(e0At a c ⟨t.val, lt_of_lt_of_eq t.isLt N_4⟩).toNat, e0_lt a hp0 c _⟩ : Fin 100000) k') := by
  refine (P1.rowAt0_apply tb0 xM c (crd a t) (T0 a c) (V c main_arg0) (hp0 c (crd a t)) k').trans ?_
  show xArr V c _ = xArr V c _
  refine congrArg (xArr V c) (funext fun b => Fin.ext ?_)
  match b with
  | ⟨0, _⟩ =>
    show (tw0 tb0 c (crd a t) (T0 a c)).toNat = (e0At a c ⟨t.val, lt_of_lt_of_eq t.isLt N_4⟩).toNat
    rw [tw0_at]
  | ⟨1, _⟩ => rfl

/-- The second row a point fetches, at feature k'. -/
theorem row1_val (c : Dev nD) (t : Fin (cfg4 a).N) (k' : Fin 128) :
    P1.rowAt1 tb1 xM c (crd a t) (T1 a c) (V c main_arg0) (hp1 c (crd a t)) (ValueIdx.ix2 (0 : Fin 1) k')
      = xArr V c (ValueIdx.ix2 (⟨(e1At a c ⟨t.val, lt_of_lt_of_eq t.isLt N_4⟩).toNat, e1_lt a hp1 c _⟩ : Fin 100000) k') := by
  refine (P1.rowAt1_apply tb1 xM c (crd a t) (T1 a c) (V c main_arg0) (hp1 c (crd a t)) k').trans ?_
  show xArr V c _ = xArr V c _
  refine congrArg (xArr V c) (funext fun b => Fin.ext ?_)
  match b with
  | ⟨0, _⟩ =>
    show (tw1 tb1 c (crd a t) (T1 a c)).toNat = (e1At a c ⟨t.val, lt_of_lt_of_eq t.isLt N_4⟩).toNat
    rw [tw1_at]
  | ⟨1, _⟩ => rfl

/-- A point's hidden row is the hidden row of its edge. -/
theorem hrow_val (c : Dev nD) (t : Fin (cfg4 a).N) (j : Fin 64) :
    P1.hrowG tb0 tb1 xM c (cfg4 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t j
      = rowval V a hp0 hp1 c ⟨t.val, lt_of_lt_of_eq t.isLt N_4⟩ j :=
  P1.hrow_eq_of (P1.rowAt0 tb0 xM c (crd a t) (T0 a c) (V c main_arg0) (hp0 c (crd a t)))
    (P1.rowAt1 tb1 xM c (crd a t) (T1 a c) (V c main_arg0) (hp1 c (crd a t)))
    (iblk V a c 0 t) (iblk V a c 1 t) (iblk V a c 2 t) (iblk V a c 3 t) (iblk V a c 4 t)
    (xArr V c) ⟨(e0At a c ⟨t.val, lt_of_lt_of_eq t.isLt N_4⟩).toNat, e0_lt a hp0 c _⟩
    ⟨(e1At a c ⟨t.val, lt_of_lt_of_eq t.isLt N_4⟩).toNat, e1_lt a hp1 c _⟩
    (w1Arr V c) (w2Arr V c) (binArr V c) (whArr V c) (bhArr V c)
    (row0_val V a hp0 c t) (row1_val V a hp1 c t)
    (iblk_0_eq V a c t) (iblk_1_eq V a c t) (iblk_2_eq V a c t) (iblk_3_eq V a c t) (iblk_4_eq V a c t) j

/-- After point n the first running sum is the sum of the hidden rows of the edges 0 … n. -/
theorem sum_at (c : Dev nD) (j : Fin 64) (n : ℕ) (hn : n < (cfg4 a).N) :
    (stAt V a hp0 hp1 c n hn).1 (ValueIdx.ix2 (0 : Fin 1) j)
      = ∑ i : Fin (n + 1), rowval V a hp0 hp1 c ⟨i.val, lt_of_lt_of_eq (Nat.lt_of_le_of_lt (Nat.le_of_lt_succ i.isLt) hn) N_4⟩ j := by
  unfold stAt
  refine (P1.sumG_at tb0 tb1 xM hM c (cfg4 a).N (crd a) (fun t => iblk V a c 0 t) (fun t => iblk V a c 1 t) (fun t => iblk V a c 2 t) (fun t => iblk V a c 3 t) (fun t => iblk V a c 4 t) (T0 a c) (T1 a c) (V c main_arg0) (V c main_v25_0) (fun t => hp0 c (crd a t)) (fun t => hp1 c (crd a t)) j n hn).trans ?_
  exact Finset.sum_congr rfl fun i _ => hrow_val V a hp0 hp1 c _ j

/-- After point n the second running sum is the sum of the squares of those hidden rows. -/
theorem sq_at (c : Dev nD) (j : Fin 64) (n : ℕ) (hn : n < (cfg4 a).N) :
    (stAt V a hp0 hp1 c n hn).2.1 (ValueIdx.ix2 (0 : Fin 1) j)
      = ∑ i : Fin (n + 1), rowval V a hp0 hp1 c ⟨i.val, lt_of_lt_of_eq (Nat.lt_of_le_of_lt (Nat.le_of_lt_succ i.isLt) hn) N_4⟩ j
          * rowval V a hp0 hp1 c ⟨i.val, lt_of_lt_of_eq (Nat.lt_of_le_of_lt (Nat.le_of_lt_succ i.isLt) hn) N_4⟩ j := by
  unfold stAt
  refine (P1.sumsqG_at tb0 tb1 xM hM c (cfg4 a).N (crd a) (fun t => iblk V a c 0 t) (fun t => iblk V a c 1 t) (fun t => iblk V a c 2 t) (fun t => iblk V a c 3 t) (fun t => iblk V a c 4 t) (T0 a c) (T1 a c) (V c main_arg0) (V c main_v25_0) (fun t => hp0 c (crd a t)) (fun t => hp1 c (crd a t)) j n hn).trans ?_
  exact Finset.sum_congr rfl fun i _ => by rw [hrow_val V a hp0 hp1 c _ j]

/-- The hidden array is read through its whole view as itself. -/
theorem read_hM (c : Dev nD) (f : Bf (F := Ideal) c hM) (y : S62500x64.Idx) :
    hM.view.read (Elt Ideal) f y = (f : S62500x64.Idx → EReal) y := rfl

/-- After n points, row i < n of the hidden array is edge i's hidden row. -/
theorem hid_at (c : Dev nD) (j : Fin 64) (n : ℕ) (hn : n ≤ (cfg4 a).N) (i : ℕ) (hi : i < n) :
    (hAt V a hp0 hp1 c n hn : S62500x64.Idx → EReal) (ValueIdx.ix2 (⟨i, lt_of_lt_of_eq (Nat.lt_of_lt_of_le hi hn) N_4⟩ : Fin 62500) j)
      = rowval V a hp0 hp1 c ⟨i, lt_of_lt_of_eq (Nat.lt_of_lt_of_le hi hn) N_4⟩ j := by
  unfold hAt
  refine (read_hM c _ _).symm.trans ?_
  refine (P1.hG_row_written (F := Ideal) tb0 tb1 xM hM c (cfg4 a).N (crd a) (fun t => iblk V a c 0 t) (fun t => iblk V a c 1 t) (fun t => iblk V a c 2 t) (fun t => iblk V a c 3 t) (fun t => iblk V a c 4 t) (T0 a c) (T1 a c) (V c main_arg0) (V c main_v25_0) (fun t => hp0 c (crd a t)) (fun t => hp1 c (crd a t)) (coord_val a) j n hn i hi).trans ?_
  exact (P1.rowStep_apply tb0 tb1 xM c (cfg4 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) _ j).trans (hrow_val V a hp0 hp1 c _ j)

/-- The two running-sum arrays and the hidden array after the region, each at its literal type. -/
abbrev sumArr (c : Dev nD) : S1x64.Idx → EReal := (dat V a hp0 hp1 c).arrAt 5 (cfg4 a).N
abbrev sqArr (c : Dev nD) : S1x64.Idx → EReal := (dat V a hp0 hp1 c).arrAt 6 (cfg4 a).N
abbrev hidArr (c : Dev nD) : S62500x64.Idx → EReal := hAt V a hp0 hp1 c (cfg4 a).N (Nat.le_refl _)

/-- The last point's index plus one is the number of edges of the chunk. -/
theorem tlast_count : (tlast a).val + 1 = 62500 := rfl

/-- The first running-sum array after the region: the sum over the chunk's edges of their hidden rows. -/
theorem sum_final (c : Dev nD) (j : Fin 64) :
    sumArr V a hp0 hp1 c (ValueIdx.ix2 (0 : Fin 1) j) = ∑ i : Fin 62500, rowval V a hp0 hp1 c i j := by
  refine (sum_arr_apply V a hp0 hp1 c j).trans ((sum_at V a hp0 hp1 c j (tlast a).val (tlast a).isLt).trans ?_)
  exact Fintype.sum_equiv (finCongr (tlast_count a)) _ _ (fun i => rfl)

/-- The second running-sum array after the region: the sum of the squares of those hidden rows. -/
theorem sq_final (c : Dev nD) (j : Fin 64) :
    sqArr V a hp0 hp1 c (ValueIdx.ix2 (0 : Fin 1) j)
      = ∑ i : Fin 62500, rowval V a hp0 hp1 c i j * rowval V a hp0 hp1 c i j := by
  refine (sq_arr_apply V a hp0 hp1 c j).trans ((sq_at V a hp0 hp1 c j (tlast a).val (tlast a).isLt).trans ?_)
  exact Fintype.sum_equiv (finCongr (tlast_count a)) _ _ (fun i => rfl)

/-- The hidden array after the region: row i is edge i's hidden row. -/
theorem hid_final (c : Dev nD) (i : Fin 62500) (j : Fin 64) :
    hidArr V a hp0 hp1 c (ValueIdx.ix2 i j) = rowval V a hp0 hp1 c i j :=
  hid_at V a hp0 hp1 c j (cfg4 a).N (Nat.le_refl _) i.val (lt_of_lt_of_eq i.isLt N_4.symm)

end AtIdeal

end Cert.KernelIdeal.P1R4

end
-- ==== Proof.P1R4Fin.lean ====
/- The first launch's results are its chunk's hidden values.

   The launch walks the 62500 edges of its chunk: at edge i it fetches the two rows of the node-feature array that entry i of
   its two endpoint tables names, applies the two layers, writes the hidden row and adds it, and its square, to two running
   sums. Its tables are the chunk's pieces of the edge array's two rows, and the weights it reads are the argument arrays'
   (the first layer's weights in two halves). So row i of its rows result is the hidden value of edge i of the chunk in the
   by-endpoint form, and its two sums are the sums of those values and of their squares over the chunk. -/
import proofs.«400866_j57071525429608_2_alg».proof.Proof.P1R4Val
import proofs.«400866_j57071525429608_2_alg».proof.Proof.HostHead
import proofs.«400866_j57071525429608_2_alg».proof.Proof.TblFacts
import proofs.«400866_j57071525429608_2_alg».proof.Proof.HostTail
import proofs.«400866_j57071525429608_2_alg».proof.Proof.KVal
import proofs.«400866_j57071525429608_2_alg».proof.Proof.Spec
import Idealize.ShloMosaic.Lib.ValueIdx

set_option maxRecDepth 16384

noncomputable section

namespace Cert.KernelIdeal.P1R4

open Cert.KernelIdeal Cert.KernelIdeal.Gen
open Idealize.ShloMosaic Idealize.ShloMosaic.TcCoe
open Cert.KernelIdeal.P1 (Bf tw0 tw1)
open scoped BigOperators

/-! ## The launch -/

/-- The launch's chunk among the sixteen. -/
abbrev KK : Fin 16 := ⟨4, by omega⟩
/-- The launch among the seventeen regions. -/
abbrev KK17 : Fin 17 := ⟨4, by omega⟩
/-- The buffers' contents when the launch is entered. -/
abbrev Ventry (m : (ℓ : Loc nD τ sig) → Buf (Elt Ideal) ℓ) (outs : Outs (F := Ideal)) (c : Dev nD) : Valuation τ sig (Elt Ideal) := V9 m outs c
/-- They are the entry contents the host operations' facts are stated at. -/
theorem Ventry_eq (m : (ℓ : Loc nD τ sig) → Buf (Elt Ideal) ℓ) (outs : Outs (F := Ideal)) (c : Dev nD) :
    Head.Vodd m outs c KK17 = Ventry m outs c := Head.Vodd_4 m outs c _

variable (m : (ℓ : Loc nD τ sig) → Buf (Elt Ideal) ℓ) (outs : Outs (F := Ideal)) (c : Dev nD)
variable (a : (pcfg4 (F := Ideal)).Adm)
variable (hp0 : ∀ c (i : grid4.Coords), k4_chk1 (tw0 tb0 c i (T0 a c))) (hp1 : ∀ c (i : grid4.Coords), k4_chk2 (tw1 tb1 c i (T1 a c)))

/-- The entry contents as the launch's value lemmas take them. -/
abbrev VV : (c : Dev nD) → (b : Ref sig .tc) → Buf (Elt Ideal) ((c : Thread nD τ).loc b) := fun c b => Ventry m outs c b

/-! ## The tables' words are the chunk's endpoints -/

/-- Entry `i` of the first table names the first endpoint of edge `i` of the chunk. -/
theorem e0_eq (hT0 : (T0 a c : S62500.Idx → BitVec 32) = (Tbl.tblA m outs c KK : IVec S62500 32)) (i : Fin 62500) :
    (⟨(e0At a c i).toNat, e0_lt a hp0 c i⟩ : Fin 100000) = Cert.Spec.endpoint (KVal.edgesA m c) 0 (Cert.Spec.chunk KK i) := by
  have hw : e0At a c i = (KVal.edgesA m c) (ValueIdx.ix2 (0 : Fin 2) (Cert.Spec.chunk KK i)) := by
    show (T0 a c : S62500.Idx → BitVec 32) (ValueIdx.ix1 i) = _
    rw [hT0]
    exact Tbl.tblA_apply m outs c KK i
  have hlt := e0_lt a hp0 c i
  rw [hw] at hlt
  refine Fin.ext ?_
  show (e0At a c i).toNat = (Cert.Spec.node _).val
  rw [Cert.Spec.node_val_of_toNat_lt hlt, hw]

/-- Entry `i` of the second table names the second endpoint. -/
theorem e1_eq (hT1 : (T1 a c : S62500.Idx → BitVec 32) = (Tbl.tblB m outs c KK : IVec S62500 32)) (i : Fin 62500) :
    (⟨(e1At a c i).toNat, e1_lt a hp1 c i⟩ : Fin 100000) = Cert.Spec.endpoint (KVal.edgesA m c) 1 (Cert.Spec.chunk KK i) := by
  have hw : e1At a c i = (KVal.edgesA m c) (ValueIdx.ix2 (1 : Fin 2) (Cert.Spec.chunk KK i)) := by
    show (T1 a c : S62500.Idx → BitVec 32) (ValueIdx.ix1 i) = _
    rw [hT1]
    exact Tbl.tblB_apply m outs c KK i
  have hlt := e1_lt a hp1 c i
  rw [hw] at hlt
  refine Fin.ext ?_
  show (e1At a c i).toNat = (Cert.Spec.node _).val
  rw [Cert.Spec.node_val_of_toNat_lt hlt, hw]

/-! ## The arrays the launch reads are the arguments' -/

theorem x_eq : xArr (VV m outs) c = KVal.xA m c := by
  show Ventry m outs c main_arg0 = _
  rw [← Ventry_eq m outs c]
  exact Head.arg0_keep m outs c KK17
theorem wh_eq : whArr (VV m outs) c = KVal.WhA m c := by
  show Ventry m outs c main_arg4 = _
  rw [← Ventry_eq m outs c]
  exact Head.arg4_keep m outs c KK17
theorem w1_apply (k : Fin 64) (k' : Fin 128) :
    w1Arr (VV m outs) c (ValueIdx.ix2 k k') = KVal.WinA m c (ValueIdx.ix2 k (⟨k'.val, by omega⟩ : Fin 256)) := by
  show (Ventry m outs c main_v4 : S64x128.Idx → EReal) (ValueIdx.ix2 k k') = _
  rw [← Ventry_eq m outs c]
  exact Head.v4_apply m outs c KK17 k k'
theorem w2_apply (k : Fin 64) (k' : Fin 128) :
    w2Arr (VV m outs) c (ValueIdx.ix2 k k') = KVal.WinA m c (ValueIdx.ix2 k (⟨128 + k'.val, by omega⟩ : Fin 256)) := by
  show (Ventry m outs c main_v5 : S64x128.Idx → EReal) (ValueIdx.ix2 k k') = _
  rw [← Ventry_eq m outs c]
  exact Head.v5_apply m outs c KK17 k k'
theorem bin_apply (k : Fin 64) :
    binArr (VV m outs) c (ValueIdx.ix2 (0 : Fin 1) k) = KVal.binA m c (ValueIdx.ix1 k) := by
  show (Ventry m outs c main_v6 : S1x64.Idx → EReal) (ValueIdx.ix2 (0 : Fin 1) k) = _
  rw [← Ventry_eq m outs c]
  exact Head.v6_apply m outs c KK17 k
theorem bh_apply (j : Fin 64) :
    bhArr (VV m outs) c (ValueIdx.ix2 (0 : Fin 1) j) = KVal.bhA m c (ValueIdx.ix1 j) := by
  show (Ventry m outs c main_v7 : S1x64.Idx → EReal) (ValueIdx.ix2 (0 : Fin 1) j) = _
  rw [← Ventry_eq m outs c]
  exact Head.v7_apply m outs c KK17 j

/-! ## The launch's hidden row is the chunk's hidden value -/

theorem rowval_eq (hT0 : (T0 a c : S62500.Idx → BitVec 32) = (Tbl.tblA m outs c KK : IVec S62500 32))
    (hT1 : (T1 a c : S62500.Idx → BitVec 32) = (Tbl.tblB m outs c KK : IVec S62500 32)) (i : Fin 62500) (j : Fin 64) :
    rowval (VV m outs) a hp0 hp1 c i j = KVal.hid m c (Cert.Spec.chunk KK i) j := by
  unfold rowval KVal.hid
  rw [e0_eq m outs c a hp0 hT0 i, e1_eq m outs c a hp1 hT1 i, x_eq m outs c, wh_eq m outs c]
  simp only [w1_apply m outs c, w2_apply m outs c, bin_apply m outs c, bh_apply m outs c]

/-! ## The three results -/

/-- Row `i` of the rows result is the hidden value of edge `i` of the chunk. -/
theorem chunkRow_eq (hT0 : (T0 a c : S62500.Idx → BitVec 32) = (Tbl.tblA m outs c KK : IVec S62500 32))
    (hT1 : (T1 a c : S62500.Idx → BitVec 32) = (Tbl.tblB m outs c KK : IVec S62500 32))
    (hR0 : (Tail.res0 outs c KK : S62500x64.Idx → EReal) = hidArr (VV m outs) a hp0 hp1 c)
    (i : Fin 62500) (j : Fin 64) : Tail.chunkRow outs c KK i j = KVal.HID m c KK i j := by
  show (Tail.res0 outs c KK : S62500x64.Idx → EReal) (ValueIdx.ix2 i j) = _
  rw [hR0]
  exact (hid_final (VV m outs) a hp0 hp1 c i j).trans (rowval_eq m outs c a hp0 hp1 hT0 hT1 i j)

/-- The sums result is the sum of the chunk's hidden values. -/
theorem chunkSum_eq (hT0 : (T0 a c : S62500.Idx → BitVec 32) = (Tbl.tblA m outs c KK : IVec S62500 32))
    (hT1 : (T1 a c : S62500.Idx → BitVec 32) = (Tbl.tblB m outs c KK : IVec S62500 32))
    (hR1 : (Tail.res1 outs c KK : S1x64.Idx → EReal) = sumArr (VV m outs) a hp0 hp1 c)
    (j : Fin 64) : Tail.chunkSum outs c KK j = ∑ i : Fin 62500, KVal.HID m c KK i j := by
  show (Tail.res1 outs c KK : S1x64.Idx → EReal) (ValueIdx.ix2 (0 : Fin 1) j) = _
  rw [hR1]
  exact (sum_final (VV m outs) a hp0 hp1 c j).trans (Finset.sum_congr rfl fun i _ => rowval_eq m outs c a hp0 hp1 hT0 hT1 i j)

/-- The sums-of-squares result is the sum of their squares. -/
theorem chunkSq_eq (hT0 : (T0 a c : S62500.Idx → BitVec 32) = (Tbl.tblA m outs c KK : IVec S62500 32))
    (hT1 : (T1 a c : S62500.Idx → BitVec 32) = (Tbl.tblB m outs c KK : IVec S62500 32))
    (hR2 : (Tail.res2 outs c KK : S1x64.Idx → EReal) = sqArr (VV m outs) a hp0 hp1 c)
    (j : Fin 64) : Tail.chunkSq outs c KK j = ∑ i : Fin 62500, KVal.HID m c KK i j * KVal.HID m c KK i j := by
  show (Tail.res2 outs c KK : S1x64.Idx → EReal) (ValueIdx.ix2 (0 : Fin 1) j) = _
  rw [hR2]
  exact (sq_final (VV m outs) a hp0 hp1 c j).trans
    (Finset.sum_congr rfl fun i _ => by rw [rowval_eq m outs c a hp0 hp1 hT0 hT1 i j])

end Cert.KernelIdeal.P1R4

end
-- ==== Proof.P1R4Top.lean ====
/- The first launch's results are its chunk's hidden values, at the run's own choices.

   The run fixes what every region leaves (the unknowns), each launch's tables and the contents each launch is entered
   from. At those choices nothing is left to assume: the launch's tables are its chunk's pieces of the edge array's rows,
   its results are what its proof data leave, and so its rows are the chunk's hidden values and its two sums their sums
   and sums of squares. -/
import proofs.«400866_j57071525429608_2_alg».proof.Proof.P1R4Fin
import proofs.«400866_j57071525429608_2_alg».proof.Proof.GlueVal

set_option maxRecDepth 16384

noncomputable section

namespace Cert.KernelIdeal.P1R4

open Cert.KernelIdeal Cert.KernelIdeal.Gen
open Idealize.ShloMosaic Idealize.ShloMosaic.TcCoe
open Cert.KernelIdeal.P1 (Bf tw0 tw1)
open Cert.KernelIdeal.Glue (atTc)
open scoped BigOperators

/-! ## The run's choices for this launch -/

/-- The launch's tables, admissible. -/
abbrev gA (m : (ℓ : Loc nD τ sig) → Buf (Elt Ideal) ℓ) : (pcfg4 (F := Ideal)).Adm := Glue.adm4 m
/-- The contents it is entered from, as the run names them. -/
abbrev gW (m : (ℓ : Loc nD τ sig) → Buf (Elt Ideal) ℓ)
    (hE : ∀ (c : Dev nD) (idx : S2x1000000.Idx), ((V0 m c main_arg1 : IVec S2x1000000 32) idx).toNat < 100000) :
    Dev nD → Valuation τ sig (Elt Ideal) := Glue.W9 m hE

variable (m : (ℓ : Loc nD τ sig) → Buf (Elt Ideal) ℓ)
  (hE : ∀ (c : Dev nD) (idx : S2x1000000.Idx), ((V0 m c main_arg1 : IVec S2x1000000 32) idx).toNat < 100000)
  (c : Dev nD)

include hE

/-- The words it reads of them name rows of the node table. -/
theorem gP0 : ∀ c (i : grid4.Coords), k4_chk1 (tw0 tb0 c i (T0 (gA m) c)) := Glue.hp0_4 m hE
theorem gP1 : ∀ c (i : grid4.Coords), k4_chk2 (tw1 tb1 c i (T1 (gA m) c)) := Glue.hp1_4 m hE
/-- The contents it is entered from are the valuation's. -/
theorem gV : Ventry m (Glue.outs m hE) c = gW m hE c := Glue.V9_eq m hE c
/-- The tables it finds in the buffers are its own. -/
theorem gTA : (T0 (gA m) c : S62500.Idx → BitVec 32) = (Tbl.tblA m (Glue.outs m hE) c KK : IVec S62500 32) :=
  ((Glue.hT0_4 m hE c).symm.trans (congrFun (gV m hE c) (Proc.devRef .tc main_v23)).symm :)
theorem gTB : (T1 (gA m) c : S62500.Idx → BitVec 32) = (Tbl.tblB m (Glue.outs m hE) c KK : IVec S62500 32) :=
  ((Glue.hT1_4 m hE c).symm.trans (congrFun (gV m hE c) (Proc.devRef .tc main_v24)).symm :)
/-- What it leaves at its three results. -/
theorem gR0 : (Tail.res0 (Glue.outs m hE) c KK : S62500x64.Idx → EReal) = hidArr (atTc (gW m hE)) (gA m) (gP0 m hE) (gP1 m hE) c :=
  Glue.res0_4 m hE c
theorem gR1 : (Tail.res1 (Glue.outs m hE) c KK : S1x64.Idx → EReal) = sumArr (atTc (gW m hE)) (gA m) (gP0 m hE) (gP1 m hE) c :=
  Glue.res1_4 m hE c
theorem gR2 : (Tail.res2 (Glue.outs m hE) c KK : S1x64.Idx → EReal) = sqArr (atTc (gW m hE)) (gA m) (gP0 m hE) (gP1 m hE) c :=
  Glue.res2_4 m hE c

/-! ## The three facts, nothing assumed -/

/-- The entry contents the launch's value lemmas take are the run's. -/
theorem VV_eq : VV m (Glue.outs m hE) = atTc (gW m hE) :=
  funext fun c => funext fun b => congrFun (gV m hE c) (Proc.devRef .tc b)

/-- Row `i` of the launch's rows is the hidden value of edge `i` of its chunk. -/
theorem row_top (i : Fin 62500) (j : Fin 64) : Tail.chunkRow (Glue.outs m hE) c KK i j = KVal.HID m c KK i j :=
  chunkRow_eq m (Glue.outs m hE) c (gA m) (gP0 m hE) (gP1 m hE) (gTA m hE c) (gTB m hE c)
    (by rw [VV_eq m hE]; exact gR0 m hE c) i j

/-- Its sums are the sums of those values over the chunk. -/
theorem sum_top (j : Fin 64) : Tail.chunkSum (Glue.outs m hE) c KK j = ∑ i : Fin 62500, KVal.HID m c KK i j :=
  chunkSum_eq m (Glue.outs m hE) c (gA m) (gP0 m hE) (gP1 m hE) (gTA m hE c) (gTB m hE c)
    (by rw [VV_eq m hE]; exact gR1 m hE c) j

/-- Its sums of squares are the sums of their squares. -/
theorem sq_top (j : Fin 64) :
    Tail.chunkSq (Glue.outs m hE) c KK j = ∑ i : Fin 62500, KVal.HID m c KK i j * KVal.HID m c KK i j :=
  chunkSq_eq m (Glue.outs m hE) c (gA m) (gP0 m hE) (gP1 m hE) (gTA m hE c) (gTB m hE c)
    (by rw [VV_eq m hE]; exact gR2 m hE c) j

end Cert.KernelIdeal.P1R4

end
-- ==== Proof.P1R5Val.lean ====
/-
  A gather-and-project region (one chunk of 62500 edges), from blocks to arrays.

  The five parameter windows never move: each one's block is its whole array. The two running-sum
  windows never move either and are written back once, after the last point, so their arrays end
  holding what the last point left. Put together with the recursion over the points, at the ideal
  values: the first array ends at the sum over the chunk's 62500 edges of their hidden rows, the
  second at the sum of the squares, and row i of the hidden array is edge i's hidden row — where the
  hidden row of edge i is the two layers applied to the two rows of the node-feature array that entry
  i of each endpoint table names.
-/
import proofs.«400866_j57071525429608_2_alg».proof.Proof.P1R5Dat
import proofs.«400866_j57071525429608_2_alg».proof.Proof.P1StateVal
import proofs.«400866_j57071525429608_2_alg».proof.Proof.P1Val
import Idealize.ShloMosaic.Lib.Pipeline.Value
import Idealize.ShloMosaic.Lib.ValueIdx
import Mathlib.Algebra.BigOperators.Fin

set_option maxRecDepth 100000

noncomputable section

namespace Cert.KernelIdeal.P1R5

open Cert.KernelIdeal Cert.KernelIdeal.Gen
open Idealize.ShloMosaic Idealize.ShloMosaic.TcCoe
open Idealize.ShloMosaic.Pipeline (Dat)
open Cert.KernelIdeal.P1 (Bf tw0 tw1 hNext)
open scoped BigOperators

/-! ## From blocks to arrays (any float values) -/

section Arrays

variable {F : FTy → Type} [FloatOps F]
variable (V : (c : Dev nD) → (b : Ref sig .tc) → Buf (Elt F) ((c : Thread nD τ).loc b))
variable (a : (pcfg5 (F := F)).Adm)
variable (hp0 : ∀ c (i : grid5.Coords), k5_chk1 (tw0 tb0 c i (T0 a c))) (hp1 : ∀ c (i : grid5.Coords), k5_chk2 (tw1 tb1 c i (T1 a c)))

/-- The last grid point. -/
def tlast : Fin (cfg5 a).N := ⟨62499, lt_of_lt_of_eq (by decide : 62499 < 62500) N_5.symm⟩

theorem tlast_succ : (tlast a).val + 1 = (cfg5 a).N := N_5.symm

/-- The first half of the first layer's weights: the block is the array. -/
theorem iblk_0_eq (c : Dev nD) (t : Fin (cfg5 a).N) : (iblk V a c 0 t : S64x128.Idx → Elt F .f32) = V c main_v4 := by
  refine funext fun (y : S64x128.Idx) => ?_
  show (V c main_v4 : S64x128.Idx → Elt F .f32) ((((cfg5 a).win 0).blk t).view.emb y) = _
  congr 1; funext b; apply Fin.ext
  match b with
  | ⟨0, _⟩ =>
    show ((cfg5 a).win 0).index t (0 : Fin 2) * 64 + 1 * (y 0).val = (y 0).val
    rw [show ((cfg5 a).win 0).index t (0 : Fin 2) = 0 from rfl]; omega
  | ⟨1, _⟩ =>
    show ((cfg5 a).win 0).index t (1 : Fin 2) * 128 + 1 * (y 1).val = (y 1).val
    rw [show ((cfg5 a).win 0).index t (1 : Fin 2) = 0 from rfl]; omega

/-- The second half of the first layer's weights: the block is the array. -/
theorem iblk_1_eq (c : Dev nD) (t : Fin (cfg5 a).N) : (iblk V a c 1 t : S64x128.Idx → Elt F .f32) = V c main_v5 := by
  refine funext fun (y : S64x128.Idx) => ?_
  show (V c main_v5 : S64x128.Idx → Elt F .f32) ((((cfg5 a).win 1).blk t).view.emb y) = _
  congr 1; funext b; apply Fin.ext
  match b with
  | ⟨0, _⟩ =>
    show ((cfg5 a).win 1).index t (0 : Fin 2) * 64 + 1 * (y 0).val = (y 0).val
    rw [show ((cfg5 a).win 1).index t (0 : Fin 2) = 0 from rfl]; omega
  | ⟨1, _⟩ =>
    show ((cfg5 a).win 1).index t (1 : Fin 2) * 128 + 1 * (y 1).val = (y 1).val
    rw [show ((cfg5 a).win 1).index t (1 : Fin 2) = 0 from rfl]; omega

/-- The first layer's bias: the block is the array. -/
theorem iblk_2_eq (c : Dev nD) (t : Fin (cfg5 a).N) : (iblk V a c 2 t : S1x64.Idx → Elt F .f32) = V c main_v6 := by
  refine funext fun (y : S1x64.Idx) => ?_
  show (V c main_v6 : S1x64.Idx → Elt F .f32) ((((cfg5 a).win 2).blk t).view.emb y) = _
  congr 1; funext b; apply Fin.ext
  match b with
  | ⟨0, _⟩ =>
    show ((cfg5 a).win 2).index t (0 : Fin 2) * 1 + 1 * (y 0).val = (y 0).val
    rw [show ((cfg5 a).win 2).index t (0 : Fin 2) = 0 from rfl]; omega
  | ⟨1, _⟩ =>
    show ((cfg5 a).win 2).index t (1 : Fin 2) * 64 + 1 * (y 1).val = (y 1).val
    rw [show ((cfg5 a).win 2).index t (1 : Fin 2) = 0 from rfl]; omega

/-- The second layer's weights: the block is the array. -/
theorem iblk_3_eq (c : Dev nD) (t : Fin (cfg5 a).N) : (iblk V a c 3 t : S64x64.Idx → Elt F .f32) = V c main_arg4 := by
  refine funext fun (y : S64x64.Idx) => ?_
  show (V c main_arg4 : S64x64.Idx → Elt F .f32) ((((cfg5 a).win 3).blk t).view.emb y) = _
  congr 1; funext b; apply Fin.ext
  match b with
  | ⟨0, _⟩ =>
    show ((cfg5 a).win 3).index t (0 : Fin 2) * 64 + 1 * (y 0).val = (y 0).val
    rw [show ((cfg5 a).win 3).index t (0 : Fin 2) = 0 from rfl]; omega
  | ⟨1, _⟩ =>
    show ((cfg5 a).win 3).index t (1 : Fin 2) * 64 + 1 * (y 1).val = (y 1).val
    rw [show ((cfg5 a).win 3).index t (1 : Fin 2) = 0 from rfl]; omega

/-- The second layer's bias: the block is the array. -/
theorem iblk_4_eq (c : Dev nD) (t : Fin (cfg5 a).N) : (iblk V a c 4 t : S1x64.Idx → Elt F .f32) = V c main_v7 := by
  refine funext fun (y : S1x64.Idx) => ?_
  show (V c main_v7 : S1x64.Idx → Elt F .f32) ((((cfg5 a).win 4).blk t).view.emb y) = _
  congr 1; funext b; apply Fin.ext
  match b with
  | ⟨0, _⟩ =>
    show ((cfg5 a).win 4).index t (0 : Fin 2) * 1 + 1 * (y 0).val = (y 0).val
    rw [show ((cfg5 a).win 4).index t (0 : Fin 2) = 0 from rfl]; omega
  | ⟨1, _⟩ =>
    show ((cfg5 a).win 4).index t (1 : Fin 2) * 64 + 1 * (y 1).val = (y 1).val
    rw [show ((cfg5 a).win 4).index t (1 : Fin 2) = 0 from rfl]; omega

/-- Window 5 is written back at the last point and at no other: its block never moves. -/
theorem flush5_iff (t : Fin (cfg5 a).N) : ((cfg5 a).win 5).flush t = true ↔ t.val + 1 = (cfg5 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint5 : ∀ t t' : Fin (cfg5 a).N, ((cfg5 a).win 5).flush t = true → ((cfg5 a).win 5).flush t' = true → t ≠ t' →
    Disjoint (((cfg5 a).win 5).blk t).view.set (((cfg5 a).win 5).blk t').view.set :=
  fun t t' h h' hne => absurd (Fin.ext (by
    have e := (flush5_iff a t).mp h
    have e' := (flush5_iff a t').mp h'
    omega)) hne

/-- Where feature j of window 5's block sits in its array: at feature j. -/
theorem emb5 (t : Fin (cfg5 a).N) (j : Fin 64) :
    (((cfg5 a).win 5).blk t).view.emb (ValueIdx.ix2 (0 : Fin 1) j) = ValueIdx.ix2 (0 : Fin 1) j := by
  funext b; apply Fin.ext
  match b with
  | ⟨0, _⟩ =>
    show ((cfg5 a).win 5).index t (0 : Fin 2) * 1 + 1 * 0 = 0
    rw [show ((cfg5 a).win 5).index t (0 : Fin 2) = 0 from rfl]
  | ⟨1, _⟩ =>
    show ((cfg5 a).win 5).index t (1 : Fin 2) * 64 + 1 * j.val = j.val
    rw [show ((cfg5 a).win 5).index t (1 : Fin 2) = 0 from rfl]; omega

theorem sum_arr_apply (c : Dev nD) (j : Fin 64) :
    ((dat V a hp0 hp1 c).arrAt 5 (cfg5 a).N : S1x64.Idx → Elt F .f32) (ValueIdx.ix2 (0 : Fin 1) j)
      = (stAt V a hp0 hp1 c (tlast a).val (tlast a).isLt).1 (ValueIdx.ix2 (0 : Fin 1) j) := by
  have h := (dat V a hp0 hp1 c).arrAt_emb_eq_flushed 5 (disjoint5 a) (tlast a) ((flush5_iff a (tlast a)).mpr (tlast_succ a))
    (ValueIdx.ix2 (0 : Fin 1) j)
  rw [emb5] at h
  refine h.trans ?_
  show (dat V a hp0 hp1 c).after 5 (tlast a) (ValueIdx.ix2 (0 : Fin 1) j) = _
  rw [after_5]

/-- The array of window 5 after the region is what the last point left. -/
theorem sum_arr (c : Dev nD) :
    ((dat V a hp0 hp1 c).arrAt 5 (cfg5 a).N : S1x64.Idx → Elt F .f32) = (stAt V a hp0 hp1 c (tlast a).val (tlast a).isLt).1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sum_arr_apply V a hp0 hp1 c j

/-- Window 6 is written back at the last point and at no other: its block never moves. -/
theorem flush6_iff (t : Fin (cfg5 a).N) : ((cfg5 a).win 6).flush t = true ↔ t.val + 1 = (cfg5 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint6 : ∀ t t' : Fin (cfg5 a).N, ((cfg5 a).win 6).flush t = true → ((cfg5 a).win 6).flush t' = true → t ≠ t' →
    Disjoint (((cfg5 a).win 6).blk t).view.set (((cfg5 a).win 6).blk t').view.set :=
  fun t t' h h' hne => absurd (Fin.ext (by
    have e := (flush6_iff a t).mp h
    have e' := (flush6_iff a t').mp h'
    omega)) hne

/-- Where feature j of window 6's block sits in its array: at feature j. -/
theorem emb6 (t : Fin (cfg5 a).N) (j : Fin 64) :
    (((cfg5 a).win 6).blk t).view.emb (ValueIdx.ix2 (0 : Fin 1) j) = ValueIdx.ix2 (0 : Fin 1) j := by
  funext b; apply Fin.ext
  match b with
  | ⟨0, _⟩ =>
    show ((cfg5 a).win 6).index t (0 : Fin 2) * 1 + 1 * 0 = 0
    rw [show ((cfg5 a).win 6).index t (0 : Fin 2) = 0 from rfl]
  | ⟨1, _⟩ =>
    show ((cfg5 a).win 6).index t (1 : Fin 2) * 64 + 1 * j.val = j.val
    rw [show ((cfg5 a).win 6).index t (1 : Fin 2) = 0 from rfl]; omega

theorem sq_arr_apply (c : Dev nD) (j : Fin 64) :
    ((dat V a hp0 hp1 c).arrAt 6 (cfg5 a).N : S1x64.Idx → Elt F .f32) (ValueIdx.ix2 (0 : Fin 1) j)
      = (stAt V a hp0 hp1 c (tlast a).val (tlast a).isLt).2.1 (ValueIdx.ix2 (0 : Fin 1) j) := by
  have h := (dat V a hp0 hp1 c).arrAt_emb_eq_flushed 6 (disjoint6 a) (tlast a) ((flush6_iff a (tlast a)).mpr (tlast_succ a))
    (ValueIdx.ix2 (0 : Fin 1) j)
  rw [emb6] at h
  refine h.trans ?_
  show (dat V a hp0 hp1 c).after 6 (tlast a) (ValueIdx.ix2 (0 : Fin 1) j) = _
  rw [after_6]

/-- The array of window 6 after the region is what the last point left. -/
theorem sq_arr (c : Dev nD) :
    ((dat V a hp0 hp1 c).arrAt 6 (cfg5 a).N : S1x64.Idx → Elt F .f32) = (stAt V a hp0 hp1 c (tlast a).val (tlast a).isLt).2.1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sq_arr_apply V a hp0 hp1 c j

end Arrays

/-! ## The values, at the ideal instance -/

section AtIdeal

variable (V : (c : Dev nD) → (b : Ref sig .tc) → Buf (Elt Ideal) ((c : Thread nD τ).loc b))
variable (a : (pcfg5 (F := Ideal)).Adm)
variable (hp0 : ∀ c (i : grid5.Coords), k5_chk1 (tw0 tb0 c i (T0 a c))) (hp1 : ∀ c (i : grid5.Coords), k5_chk2 (tw1 tb1 c i (T1 a c)))

/-- The arrays the region reads, each at its literal type. -/
abbrev xArr (c : Dev nD) : S100000x128.Idx → EReal := V c main_arg0
abbrev w1Arr (c : Dev nD) : S64x128.Idx → EReal := V c main_v4
abbrev w2Arr (c : Dev nD) : S64x128.Idx → EReal := V c main_v5
abbrev binArr (c : Dev nD) : S1x64.Idx → EReal := V c main_v6
abbrev whArr (c : Dev nD) : S64x64.Idx → EReal := V c main_arg4
abbrev bhArr (c : Dev nD) : S1x64.Idx → EReal := V c main_v7
/-- Entry i of each endpoint table. -/
abbrev e0At (c : Dev nD) (i : Fin 62500) : BitVec 32 := (T0 a c : S62500.Idx → BitVec 32) (ValueIdx.ix1 i)
abbrev e1At (c : Dev nD) (i : Fin 62500) : BitVec 32 := (T1 a c : S62500.Idx → BitVec 32) (ValueIdx.ix1 i)

/-- The grid point of edge i. -/
def ptOf (i : Fin 62500) : Fin (cfg5 a).N := ⟨i.val, lt_of_lt_of_eq i.isLt N_5.symm⟩

/-- The word a point reads of the first table is the table's entry at the point. -/
theorem tw0_at (c : Dev nD) (t : Fin (cfg5 a).N) :
    tw0 tb0 c (crd a t) (T0 a c) = e0At a c ⟨t.val, lt_of_lt_of_eq t.isLt N_5⟩ := by
  refine (P1.tw0_eq tb0 c (crd a t) (T0 a c)).trans ?_
  show (T0 a c : S62500.Idx → BitVec 32) _ = (T0 a c : S62500.Idx → BitVec 32) _
  refine congrArg (T0 a c : S62500.Idx → BitVec 32) (funext fun b => Fin.ext ?_)
  match b with
  | ⟨0, _⟩ => exact coord_val a t

theorem tw1_at (c : Dev nD) (t : Fin (cfg5 a).N) :
    tw1 tb1 c (crd a t) (T1 a c) = e1At a c ⟨t.val, lt_of_lt_of_eq t.isLt N_5⟩ := by
  refine (P1.tw1_eq tb1 c (crd a t) (T1 a c)).trans ?_
  show (T1 a c : S62500.Idx → BitVec 32) _ = (T1 a c : S62500.Idx → BitVec 32) _
  refine congrArg (T1 a c : S62500.Idx → BitVec 32) (funext fun b => Fin.ext ?_)
  match b with
  | ⟨0, _⟩ => exact coord_val a t

include hp0 in
/-- Every entry of the endpoint tables names a row of the node-feature array. -/
theorem e0_lt (c : Dev nD) (i : Fin 62500) : (e0At a c i).toNat < 100000 := by
  have h := P1.toNat_lt_of_chk1 (hp0 c (crd a (ptOf a i)))
  rw [tw0_at] at h
  exact h

include hp1 in
theorem e1_lt (c : Dev nD) (i : Fin 62500) : (e1At a c i).toNat < 100000 := by
  have h := P1.toNat_lt_of_chk2 (hp1 c (crd a (ptOf a i)))
  rw [tw1_at] at h
  exact h

/-- The hidden row of edge i of the chunk, at feature j: the two layers applied to the two rows of the node-feature
    array that entry i of each endpoint table names. -/
def rowval (c : Dev nD) (i : Fin 62500) (j : Fin 64) : EReal :=
  ∑ k : Fin 64,
      max (∑ k' : Fin 128, xArr V c (ValueIdx.ix2 (⟨(e0At a c i).toNat, e0_lt a hp0 c i⟩ : Fin 100000) k') * w1Arr V c (ValueIdx.ix2 k k')
          + ∑ k' : Fin 128, xArr V c (ValueIdx.ix2 (⟨(e1At a c i).toNat, e1_lt a hp1 c i⟩ : Fin 100000) k') * w2Arr V c (ValueIdx.ix2 k k')
          + binArr V c (ValueIdx.ix2 (0 : Fin 1) k)) 0
        * whArr V c (ValueIdx.ix2 j k)
    + bhArr V c (ValueIdx.ix2 (0 : Fin 1) j)

/-- The first row a point fetches, at feature k'. -/
theorem row0_val (c : Dev nD) (t : Fin (cfg5 a).N) (k' : Fin 128) :
    P1.rowAt0 tb0 xM c (crd a t) (T0 a c) (V c main_arg0) (hp0 c (crd a t)) (ValueIdx.ix2 (0 : Fin 1) k')
      = xArr V c (ValueIdx.ix2 (⟨(e0At a c ⟨t.val, lt_of_lt_of_eq t.isLt N_5⟩).toNat, e0_lt a hp0 c _⟩ : Fin 100000) k') := by
  refine (P1.rowAt0_apply tb0 xM c (crd a t) (T0 a c) (V c main_arg0) (hp0 c (crd a t)) k').trans ?_
  show xArr V c _ = xArr V c _
  refine congrArg (xArr V c) (funext fun b => Fin.ext ?_)
  match b with
  | ⟨0, _⟩ =>
    show (tw0 tb0 c (crd a t) (T0 a c)).toNat = (e0At a c ⟨t.val, lt_of_lt_of_eq t.isLt N_5⟩).toNat
    rw [tw0_at]
  | ⟨1, _⟩ => rfl

/-- The second row a point fetches, at feature k'. -/
theorem row1_val (c : Dev nD) (t : Fin (cfg5 a).N) (k' : Fin 128) :
    P1.rowAt1 tb1 xM c (crd a t) (T1 a c) (V c main_arg0) (hp1 c (crd a t)) (ValueIdx.ix2 (0 : Fin 1) k')
      = xArr V c (ValueIdx.ix2 (⟨(e1At a c ⟨t.val, lt_of_lt_of_eq t.isLt N_5⟩).toNat, e1_lt a hp1 c _⟩ : Fin 100000) k') := by
  refine (P1.rowAt1_apply tb1 xM c (crd a t) (T1 a c) (V c main_arg0) (hp1 c (crd a t)) k').trans ?_
  show xArr V c _ = xArr V c _
  refine congrArg (xArr V c) (funext fun b => Fin.ext ?_)
  match b with
  | ⟨0, _⟩ =>
    show (tw1 tb1 c (crd a t) (T1 a c)).toNat = (e1At a c ⟨t.val, lt_of_lt_of_eq t.isLt N_5⟩).toNat
    rw [tw1_at]
  | ⟨1, _⟩ => rfl

/-- A point's hidden row is the hidden row of its edge. -/
theorem hrow_val (c : Dev nD) (t : Fin (cfg5 a).N) (j : Fin 64) :
    P1.hrowG tb0 tb1 xM c (cfg5 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t j
      = rowval V a hp0 hp1 c ⟨t.val, lt_of_lt_of_eq t.isLt N_5⟩ j :=
  P1.hrow_eq_of (P1.rowAt0 tb0 xM c (crd a t) (T0 a c) (V c main_arg0) (hp0 c (crd a t)))
    (P1.rowAt1 tb1 xM c (crd a t) (T1 a c) (V c main_arg0) (hp1 c (crd a t)))
    (iblk V a c 0 t) (iblk V a c 1 t) (iblk V a c 2 t) (iblk V a c 3 t) (iblk V a c 4 t)
    (xArr V c) ⟨(e0At a c ⟨t.val, lt_of_lt_of_eq t.isLt N_5⟩).toNat, e0_lt a hp0 c _⟩
    ⟨(e1At a c ⟨t.val, lt_of_lt_of_eq t.isLt N_5⟩).toNat, e1_lt a hp1 c _⟩
    (w1Arr V c) (w2Arr V c) (binArr V c) (whArr V c) (bhArr V c)
    (row0_val V a hp0 c t) (row1_val V a hp1 c t)
    (iblk_0_eq V a c t) (iblk_1_eq V a c t) (iblk_2_eq V a c t) (iblk_3_eq V a c t) (iblk_4_eq V a c t) j

/-- After point n the first running sum is the sum of the hidden rows of the edges 0 … n. -/
theorem sum_at (c : Dev nD) (j : Fin 64) (n : ℕ) (hn : n < (cfg5 a).N) :
    (stAt V a hp0 hp1 c n hn).1 (ValueIdx.ix2 (0 : Fin 1) j)
      = ∑ i : Fin (n + 1), rowval V a hp0 hp1 c ⟨i.val, lt_of_lt_of_eq (Nat.lt_of_le_of_lt (Nat.le_of_lt_succ i.isLt) hn) N_5⟩ j := by
  unfold stAt
  refine (P1.sumG_at tb0 tb1 xM hM c (cfg5 a).N (crd a) (fun t => iblk V a c 0 t) (fun t => iblk V a c 1 t) (fun t => iblk V a c 2 t) (fun t => iblk V a c 3 t) (fun t => iblk V a c 4 t) (T0 a c) (T1 a c) (V c main_arg0) (V c main_v28_0) (fun t => hp0 c (crd a t)) (fun t => hp1 c (crd a t)) j n hn).trans ?_
  exact Finset.sum_congr rfl fun i _ => hrow_val V a hp0 hp1 c _ j

/-- After point n the second running sum is the sum of the squares of those hidden rows. -/
theorem sq_at (c : Dev nD) (j : Fin 64) (n : ℕ) (hn : n < (cfg5 a).N) :
    (stAt V a hp0 hp1 c n hn).2.1 (ValueIdx.ix2 (0 : Fin 1) j)
      = ∑ i : Fin (n + 1), rowval V a hp0 hp1 c ⟨i.val, lt_of_lt_of_eq (Nat.lt_of_le_of_lt (Nat.le_of_lt_succ i.isLt) hn) N_5⟩ j
          * rowval V a hp0 hp1 c ⟨i.val, lt_of_lt_of_eq (Nat.lt_of_le_of_lt (Nat.le_of_lt_succ i.isLt) hn) N_5⟩ j := by
  unfold stAt
  refine (P1.sumsqG_at tb0 tb1 xM hM c (cfg5 a).N (crd a) (fun t => iblk V a c 0 t) (fun t => iblk V a c 1 t) (fun t => iblk V a c 2 t) (fun t => iblk V a c 3 t) (fun t => iblk V a c 4 t) (T0 a c) (T1 a c) (V c main_arg0) (V c main_v28_0) (fun t => hp0 c (crd a t)) (fun t => hp1 c (crd a t)) j n hn).trans ?_
  exact Finset.sum_congr rfl fun i _ => by rw [hrow_val V a hp0 hp1 c _ j]

/-- The hidden array is read through its whole view as itself. -/
theorem read_hM (c : Dev nD) (f : Bf (F := Ideal) c hM) (y : S62500x64.Idx) :
    hM.view.read (Elt Ideal) f y = (f : S62500x64.Idx → EReal) y := rfl

/-- After n points, row i < n of the hidden array is edge i's hidden row. -/
theorem hid_at (c : Dev nD) (j : Fin 64) (n : ℕ) (hn : n ≤ (cfg5 a).N) (i : ℕ) (hi : i < n) :
    (hAt V a hp0 hp1 c n hn : S62500x64.Idx → EReal) (ValueIdx.ix2 (⟨i, lt_of_lt_of_eq (Nat.lt_of_lt_of_le hi hn) N_5⟩ : Fin 62500) j)
      = rowval V a hp0 hp1 c ⟨i, lt_of_lt_of_eq (Nat.lt_of_lt_of_le hi hn) N_5⟩ j := by
  unfold hAt
  refine (read_hM c _ _).symm.trans ?_
  refine (P1.hG_row_written (F := Ideal) tb0 tb1 xM hM c (cfg5 a).N (crd a) (fun t => iblk V a c 0 t) (fun t => iblk V a c 1 t) (fun t => iblk V a c 2 t) (fun t => iblk V a c 3 t) (fun t => iblk V a c 4 t) (T0 a c) (T1 a c) (V c main_arg0) (V c main_v28_0) (fun t => hp0 c (crd a t)) (fun t => hp1 c (crd a t)) (coord_val a) j n hn i hi).trans ?_
  exact (P1.rowStep_apply tb0 tb1 xM c (cfg5 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) _ j).trans (hrow_val V a hp0 hp1 c _ j)

/-- The two running-sum arrays and the hidden array after the region, each at its literal type. -/
abbrev sumArr (c : Dev nD) : S1x64.Idx → EReal := (dat V a hp0 hp1 c).arrAt 5 (cfg5 a).N
abbrev sqArr (c : Dev nD) : S1x64.Idx → EReal := (dat V a hp0 hp1 c).arrAt 6 (cfg5 a).N
abbrev hidArr (c : Dev nD) : S62500x64.Idx → EReal := hAt V a hp0 hp1 c (cfg5 a).N (Nat.le_refl _)

/-- The last point's index plus one is the number of edges of the chunk. -/
theorem tlast_count : (tlast a).val + 1 = 62500 := rfl

/-- The first running-sum array after the region: the sum over the chunk's edges of their hidden rows. -/
theorem sum_final (c : Dev nD) (j : Fin 64) :
    sumArr V a hp0 hp1 c (ValueIdx.ix2 (0 : Fin 1) j) = ∑ i : Fin 62500, rowval V a hp0 hp1 c i j := by
  refine (sum_arr_apply V a hp0 hp1 c j).trans ((sum_at V a hp0 hp1 c j (tlast a).val (tlast a).isLt).trans ?_)
  exact Fintype.sum_equiv (finCongr (tlast_count a)) _ _ (fun i => rfl)

/-- The second running-sum array after the region: the sum of the squares of those hidden rows. -/
theorem sq_final (c : Dev nD) (j : Fin 64) :
    sqArr V a hp0 hp1 c (ValueIdx.ix2 (0 : Fin 1) j)
      = ∑ i : Fin 62500, rowval V a hp0 hp1 c i j * rowval V a hp0 hp1 c i j := by
  refine (sq_arr_apply V a hp0 hp1 c j).trans ((sq_at V a hp0 hp1 c j (tlast a).val (tlast a).isLt).trans ?_)
  exact Fintype.sum_equiv (finCongr (tlast_count a)) _ _ (fun i => rfl)

/-- The hidden array after the region: row i is edge i's hidden row. -/
theorem hid_final (c : Dev nD) (i : Fin 62500) (j : Fin 64) :
    hidArr V a hp0 hp1 c (ValueIdx.ix2 i j) = rowval V a hp0 hp1 c i j :=
  hid_at V a hp0 hp1 c j (cfg5 a).N (Nat.le_refl _) i.val (lt_of_lt_of_eq i.isLt N_5.symm)

end AtIdeal

end Cert.KernelIdeal.P1R5

end
-- ==== Proof.P1R5Fin.lean ====
/- The first launch's results are its chunk's hidden values.

   The launch walks the 62500 edges of its chunk: at edge i it fetches the two rows of the node-feature array that entry i of
   its two endpoint tables names, applies the two layers, writes the hidden row and adds it, and its square, to two running
   sums. Its tables are the chunk's pieces of the edge array's two rows, and the weights it reads are the argument arrays'
   (the first layer's weights in two halves). So row i of its rows result is the hidden value of edge i of the chunk in the
   by-endpoint form, and its two sums are the sums of those values and of their squares over the chunk. -/
import proofs.«400866_j57071525429608_2_alg».proof.Proof.P1R5Val
import proofs.«400866_j57071525429608_2_alg».proof.Proof.HostHead
import proofs.«400866_j57071525429608_2_alg».proof.Proof.TblFacts
import proofs.«400866_j57071525429608_2_alg».proof.Proof.HostTail
import proofs.«400866_j57071525429608_2_alg».proof.Proof.KVal
import proofs.«400866_j57071525429608_2_alg».proof.Proof.Spec
import Idealize.ShloMosaic.Lib.ValueIdx

set_option maxRecDepth 16384

noncomputable section

namespace Cert.KernelIdeal.P1R5

open Cert.KernelIdeal Cert.KernelIdeal.Gen
open Idealize.ShloMosaic Idealize.ShloMosaic.TcCoe
open Cert.KernelIdeal.P1 (Bf tw0 tw1)
open scoped BigOperators

/-! ## The launch -/

/-- The launch's chunk among the sixteen. -/
abbrev KK : Fin 16 := ⟨5, by omega⟩
/-- The launch among the seventeen regions. -/
abbrev KK17 : Fin 17 := ⟨5, by omega⟩
/-- The buffers' contents when the launch is entered. -/
abbrev Ventry (m : (ℓ : Loc nD τ sig) → Buf (Elt Ideal) ℓ) (outs : Outs (F := Ideal)) (c : Dev nD) : Valuation τ sig (Elt Ideal) := V11 m outs c
/-- They are the entry contents the host operations' facts are stated at. -/
theorem Ventry_eq (m : (ℓ : Loc nD τ sig) → Buf (Elt Ideal) ℓ) (outs : Outs (F := Ideal)) (c : Dev nD) :
    Head.Vodd m outs c KK17 = Ventry m outs c := Head.Vodd_5 m outs c _

variable (m : (ℓ : Loc nD τ sig) → Buf (Elt Ideal) ℓ) (outs : Outs (F := Ideal)) (c : Dev nD)
variable (a : (pcfg5 (F := Ideal)).Adm)
variable (hp0 : ∀ c (i : grid5.Coords), k5_chk1 (tw0 tb0 c i (T0 a c))) (hp1 : ∀ c (i : grid5.Coords), k5_chk2 (tw1 tb1 c i (T1 a c)))

/-- The entry contents as the launch's value lemmas take them. -/
abbrev VV : (c : Dev nD) → (b : Ref sig .tc) → Buf (Elt Ideal) ((c : Thread nD τ).loc b) := fun c b => Ventry m outs c b

/-! ## The tables' words are the chunk's endpoints -/

/-- Entry `i` of the first table names the first endpoint of edge `i` of the chunk. -/
theorem e0_eq (hT0 : (T0 a c : S62500.Idx → BitVec 32) = (Tbl.tblA m outs c KK : IVec S62500 32)) (i : Fin 62500) :
    (⟨(e0At a c i).toNat, e0_lt a hp0 c i⟩ : Fin 100000) = Cert.Spec.endpoint (KVal.edgesA m c) 0 (Cert.Spec.chunk KK i) := by
  have hw : e0At a c i = (KVal.edgesA m c) (ValueIdx.ix2 (0 : Fin 2) (Cert.Spec.chunk KK i)) := by
    show (T0 a c : S62500.Idx → BitVec 32) (ValueIdx.ix1 i) = _
    rw [hT0]
    exact Tbl.tblA_apply m outs c KK i
  have hlt := e0_lt a hp0 c i
  rw [hw] at hlt
  refine Fin.ext ?_
  show (e0At a c i).toNat = (Cert.Spec.node _).val
  rw [Cert.Spec.node_val_of_toNat_lt hlt, hw]

/-- Entry `i` of the second table names the second endpoint. -/
theorem e1_eq (hT1 : (T1 a c : S62500.Idx → BitVec 32) = (Tbl.tblB m outs c KK : IVec S62500 32)) (i : Fin 62500) :
    (⟨(e1At a c i).toNat, e1_lt a hp1 c i⟩ : Fin 100000) = Cert.Spec.endpoint (KVal.edgesA m c) 1 (Cert.Spec.chunk KK i) := by
  have hw : e1At a c i = (KVal.edgesA m c) (ValueIdx.ix2 (1 : Fin 2) (Cert.Spec.chunk KK i)) := by
    show (T1 a c : S62500.Idx → BitVec 32) (ValueIdx.ix1 i) = _
    rw [hT1]
    exact Tbl.tblB_apply m outs c KK i
  have hlt := e1_lt a hp1 c i
  rw [hw] at hlt
  refine Fin.ext ?_
  show (e1At a c i).toNat = (Cert.Spec.node _).val
  rw [Cert.Spec.node_val_of_toNat_lt hlt, hw]

/-! ## The arrays the launch reads are the arguments' -/

theorem x_eq : xArr (VV m outs) c = KVal.xA m c := by
  show Ventry m outs c main_arg0 = _
  rw [← Ventry_eq m outs c]
  exact Head.arg0_keep m outs c KK17
theorem wh_eq : whArr (VV m outs) c = KVal.WhA m c := by
  show Ventry m outs c main_arg4 = _
  rw [← Ventry_eq m outs c]
  exact Head.arg4_keep m outs c KK17
theorem w1_apply (k : Fin 64) (k' : Fin 128) :
    w1Arr (VV m outs) c (ValueIdx.ix2 k k') = KVal.WinA m c (ValueIdx.ix2 k (⟨k'.val, by omega⟩ : Fin 256)) := by
  show (Ventry m outs c main_v4 : S64x128.Idx → EReal) (ValueIdx.ix2 k k') = _
  rw [← Ventry_eq m outs c]
  exact Head.v4_apply m outs c KK17 k k'
theorem w2_apply (k : Fin 64) (k' : Fin 128) :
    w2Arr (VV m outs) c (ValueIdx.ix2 k k') = KVal.WinA m c (ValueIdx.ix2 k (⟨128 + k'.val, by omega⟩ : Fin 256)) := by
  show (Ventry m outs c main_v5 : S64x128.Idx → EReal) (ValueIdx.ix2 k k') = _
  rw [← Ventry_eq m outs c]
  exact Head.v5_apply m outs c KK17 k k'
theorem bin_apply (k : Fin 64) :
    binArr (VV m outs) c (ValueIdx.ix2 (0 : Fin 1) k) = KVal.binA m c (ValueIdx.ix1 k) := by
  show (Ventry m outs c main_v6 : S1x64.Idx → EReal) (ValueIdx.ix2 (0 : Fin 1) k) = _
  rw [← Ventry_eq m outs c]
  exact Head.v6_apply m outs c KK17 k
theorem bh_apply (j : Fin 64) :
    bhArr (VV m outs) c (ValueIdx.ix2 (0 : Fin 1) j) = KVal.bhA m c (ValueIdx.ix1 j) := by
  show (Ventry m outs c main_v7 : S1x64.Idx → EReal) (ValueIdx.ix2 (0 : Fin 1) j) = _
  rw [← Ventry_eq m outs c]
  exact Head.v7_apply m outs c KK17 j

/-! ## The launch's hidden row is the chunk's hidden value -/

theorem rowval_eq (hT0 : (T0 a c : S62500.Idx → BitVec 32) = (Tbl.tblA m outs c KK : IVec S62500 32))
    (hT1 : (T1 a c : S62500.Idx → BitVec 32) = (Tbl.tblB m outs c KK : IVec S62500 32)) (i : Fin 62500) (j : Fin 64) :
    rowval (VV m outs) a hp0 hp1 c i j = KVal.hid m c (Cert.Spec.chunk KK i) j := by
  unfold rowval KVal.hid
  rw [e0_eq m outs c a hp0 hT0 i, e1_eq m outs c a hp1 hT1 i, x_eq m outs c, wh_eq m outs c]
  simp only [w1_apply m outs c, w2_apply m outs c, bin_apply m outs c, bh_apply m outs c]

/-! ## The three results -/

/-- Row `i` of the rows result is the hidden value of edge `i` of the chunk. -/
theorem chunkRow_eq (hT0 : (T0 a c : S62500.Idx → BitVec 32) = (Tbl.tblA m outs c KK : IVec S62500 32))
    (hT1 : (T1 a c : S62500.Idx → BitVec 32) = (Tbl.tblB m outs c KK : IVec S62500 32))
    (hR0 : (Tail.res0 outs c KK : S62500x64.Idx → EReal) = hidArr (VV m outs) a hp0 hp1 c)
    (i : Fin 62500) (j : Fin 64) : Tail.chunkRow outs c KK i j = KVal.HID m c KK i j := by
  show (Tail.res0 outs c KK : S62500x64.Idx → EReal) (ValueIdx.ix2 i j) = _
  rw [hR0]
  exact (hid_final (VV m outs) a hp0 hp1 c i j).trans (rowval_eq m outs c a hp0 hp1 hT0 hT1 i j)

/-- The sums result is the sum of the chunk's hidden values. -/
theorem chunkSum_eq (hT0 : (T0 a c : S62500.Idx → BitVec 32) = (Tbl.tblA m outs c KK : IVec S62500 32))
    (hT1 : (T1 a c : S62500.Idx → BitVec 32) = (Tbl.tblB m outs c KK : IVec S62500 32))
    (hR1 : (Tail.res1 outs c KK : S1x64.Idx → EReal) = sumArr (VV m outs) a hp0 hp1 c)
    (j : Fin 64) : Tail.chunkSum outs c KK j = ∑ i : Fin 62500, KVal.HID m c KK i j := by
  show (Tail.res1 outs c KK : S1x64.Idx → EReal) (ValueIdx.ix2 (0 : Fin 1) j) = _
  rw [hR1]
  exact (sum_final (VV m outs) a hp0 hp1 c j).trans (Finset.sum_congr rfl fun i _ => rowval_eq m outs c a hp0 hp1 hT0 hT1 i j)

/-- The sums-of-squares result is the sum of their squares. -/
theorem chunkSq_eq (hT0 : (T0 a c : S62500.Idx → BitVec 32) = (Tbl.tblA m outs c KK : IVec S62500 32))
    (hT1 : (T1 a c : S62500.Idx → BitVec 32) = (Tbl.tblB m outs c KK : IVec S62500 32))
    (hR2 : (Tail.res2 outs c KK : S1x64.Idx → EReal) = sqArr (VV m outs) a hp0 hp1 c)
    (j : Fin 64) : Tail.chunkSq outs c KK j = ∑ i : Fin 62500, KVal.HID m c KK i j * KVal.HID m c KK i j := by
  show (Tail.res2 outs c KK : S1x64.Idx → EReal) (ValueIdx.ix2 (0 : Fin 1) j) = _
  rw [hR2]
  exact (sq_final (VV m outs) a hp0 hp1 c j).trans
    (Finset.sum_congr rfl fun i _ => by rw [rowval_eq m outs c a hp0 hp1 hT0 hT1 i j])

end Cert.KernelIdeal.P1R5

end
-- ==== Proof.P1R5Top.lean ====
/- The first launch's results are its chunk's hidden values, at the run's own choices.

   The run fixes what every region leaves (the unknowns), each launch's tables and the contents each launch is entered
   from. At those choices nothing is left to assume: the launch's tables are its chunk's pieces of the edge array's rows,
   its results are what its proof data leave, and so its rows are the chunk's hidden values and its two sums their sums
   and sums of squares. -/
import proofs.«400866_j57071525429608_2_alg».proof.Proof.P1R5Fin
import proofs.«400866_j57071525429608_2_alg».proof.Proof.GlueVal

set_option maxRecDepth 16384

noncomputable section

namespace Cert.KernelIdeal.P1R5

open Cert.KernelIdeal Cert.KernelIdeal.Gen
open Idealize.ShloMosaic Idealize.ShloMosaic.TcCoe
open Cert.KernelIdeal.P1 (Bf tw0 tw1)
open Cert.KernelIdeal.Glue (atTc)
open scoped BigOperators

/-! ## The run's choices for this launch -/

/-- The launch's tables, admissible. -/
abbrev gA (m : (ℓ : Loc nD τ sig) → Buf (Elt Ideal) ℓ) : (pcfg5 (F := Ideal)).Adm := Glue.adm5 m
/-- The contents it is entered from, as the run names them. -/
abbrev gW (m : (ℓ : Loc nD τ sig) → Buf (Elt Ideal) ℓ)
    (hE : ∀ (c : Dev nD) (idx : S2x1000000.Idx), ((V0 m c main_arg1 : IVec S2x1000000 32) idx).toNat < 100000) :
    Dev nD → Valuation τ sig (Elt Ideal) := Glue.W11 m hE

variable (m : (ℓ : Loc nD τ sig) → Buf (Elt Ideal) ℓ)
  (hE : ∀ (c : Dev nD) (idx : S2x1000000.Idx), ((V0 m c main_arg1 : IVec S2x1000000 32) idx).toNat < 100000)
  (c : Dev nD)

include hE

/-- The words it reads of them name rows of the node table. -/
theorem gP0 : ∀ c (i : grid5.Coords), k5_chk1 (tw0 tb0 c i (T0 (gA m) c)) := Glue.hp0_5 m hE
theorem gP1 : ∀ c (i : grid5.Coords), k5_chk2 (tw1 tb1 c i (T1 (gA m) c)) := Glue.hp1_5 m hE
/-- The contents it is entered from are the valuation's. -/
theorem gV : Ventry m (Glue.outs m hE) c = gW m hE c := Glue.V11_eq m hE c
/-- The tables it finds in the buffers are its own. -/
theorem gTA : (T0 (gA m) c : S62500.Idx → BitVec 32) = (Tbl.tblA m (Glue.outs m hE) c KK : IVec S62500 32) :=
  ((Glue.hT0_5 m hE c).symm.trans (congrFun (gV m hE c) (Proc.devRef .tc main_v26)).symm :)
theorem gTB : (T1 (gA m) c : S62500.Idx → BitVec 32) = (Tbl.tblB m (Glue.outs m hE) c KK : IVec S62500 32) :=
  ((Glue.hT1_5 m hE c).symm.trans (congrFun (gV m hE c) (Proc.devRef .tc main_v27)).symm :)
/-- What it leaves at its three results. -/
theorem gR0 : (Tail.res0 (Glue.outs m hE) c KK : S62500x64.Idx → EReal) = hidArr (atTc (gW m hE)) (gA m) (gP0 m hE) (gP1 m hE) c :=
  Glue.res0_5 m hE c
theorem gR1 : (Tail.res1 (Glue.outs m hE) c KK : S1x64.Idx → EReal) = sumArr (atTc (gW m hE)) (gA m) (gP0 m hE) (gP1 m hE) c :=
  Glue.res1_5 m hE c
theorem gR2 : (Tail.res2 (Glue.outs m hE) c KK : S1x64.Idx → EReal) = sqArr (atTc (gW m hE)) (gA m) (gP0 m hE) (gP1 m hE) c :=
  Glue.res2_5 m hE c

/-! ## The three facts, nothing assumed -/

/-- The entry contents the launch's value lemmas take are the run's. -/
theorem VV_eq : VV m (Glue.outs m hE) = atTc (gW m hE) :=
  funext fun c => funext fun b => congrFun (gV m hE c) (Proc.devRef .tc b)

/-- Row `i` of the launch's rows is the hidden value of edge `i` of its chunk. -/
theorem row_top (i : Fin 62500) (j : Fin 64) : Tail.chunkRow (Glue.outs m hE) c KK i j = KVal.HID m c KK i j :=
  chunkRow_eq m (Glue.outs m hE) c (gA m) (gP0 m hE) (gP1 m hE) (gTA m hE c) (gTB m hE c)
    (by rw [VV_eq m hE]; exact gR0 m hE c) i j

/-- Its sums are the sums of those values over the chunk. -/
theorem sum_top (j : Fin 64) : Tail.chunkSum (Glue.outs m hE) c KK j = ∑ i : Fin 62500, KVal.HID m c KK i j :=
  chunkSum_eq m (Glue.outs m hE) c (gA m) (gP0 m hE) (gP1 m hE) (gTA m hE c) (gTB m hE c)
    (by rw [VV_eq m hE]; exact gR1 m hE c) j

/-- Its sums of squares are the sums of their squares. -/
theorem sq_top (j : Fin 64) :
    Tail.chunkSq (Glue.outs m hE) c KK j = ∑ i : Fin 62500, KVal.HID m c KK i j * KVal.HID m c KK i j :=
  chunkSq_eq m (Glue.outs m hE) c (gA m) (gP0 m hE) (gP1 m hE) (gTA m hE c) (gTB m hE c)
    (by rw [VV_eq m hE]; exact gR2 m hE c) j

end Cert.KernelIdeal.P1R5

end
-- ==== Proof.P1R6Val.lean ====
/-
  A gather-and-project region (one chunk of 62500 edges), from blocks to arrays.

  The five parameter windows never move: each one's block is its whole array. The two running-sum
  windows never move either and are written back once, after the last point, so their arrays end
  holding what the last point left. Put together with the recursion over the points, at the ideal
  values: the first array ends at the sum over the chunk's 62500 edges of their hidden rows, the
  second at the sum of the squares, and row i of the hidden array is edge i's hidden row — where the
  hidden row of edge i is the two layers applied to the two rows of the node-feature array that entry
  i of each endpoint table names.
-/
import proofs.«400866_j57071525429608_2_alg».proof.Proof.P1R6Dat
import proofs.«400866_j57071525429608_2_alg».proof.Proof.P1StateVal
import proofs.«400866_j57071525429608_2_alg».proof.Proof.P1Val
import Idealize.ShloMosaic.Lib.Pipeline.Value
import Idealize.ShloMosaic.Lib.ValueIdx
import Mathlib.Algebra.BigOperators.Fin

set_option maxRecDepth 100000

noncomputable section

namespace Cert.KernelIdeal.P1R6

open Cert.KernelIdeal Cert.KernelIdeal.Gen
open Idealize.ShloMosaic Idealize.ShloMosaic.TcCoe
open Idealize.ShloMosaic.Pipeline (Dat)
open Cert.KernelIdeal.P1 (Bf tw0 tw1 hNext)
open scoped BigOperators

/-! ## From blocks to arrays (any float values) -/

section Arrays

variable {F : FTy → Type} [FloatOps F]
variable (V : (c : Dev nD) → (b : Ref sig .tc) → Buf (Elt F) ((c : Thread nD τ).loc b))
variable (a : (pcfg6 (F := F)).Adm)
variable (hp0 : ∀ c (i : grid6.Coords), k6_chk1 (tw0 tb0 c i (T0 a c))) (hp1 : ∀ c (i : grid6.Coords), k6_chk2 (tw1 tb1 c i (T1 a c)))

/-- The last grid point. -/
def tlast : Fin (cfg6 a).N := ⟨62499, lt_of_lt_of_eq (by decide : 62499 < 62500) N_6.symm⟩

theorem tlast_succ : (tlast a).val + 1 = (cfg6 a).N := N_6.symm

/-- The first half of the first layer's weights: the block is the array. -/
theorem iblk_0_eq (c : Dev nD) (t : Fin (cfg6 a).N) : (iblk V a c 0 t : S64x128.Idx → Elt F .f32) = V c main_v4 := by
  refine funext fun (y : S64x128.Idx) => ?_
  show (V c main_v4 : S64x128.Idx → Elt F .f32) ((((cfg6 a).win 0).blk t).view.emb y) = _
  congr 1; funext b; apply Fin.ext
  match b with
  | ⟨0, _⟩ =>
    show ((cfg6 a).win 0).index t (0 : Fin 2) * 64 + 1 * (y 0).val = (y 0).val
    rw [show ((cfg6 a).win 0).index t (0 : Fin 2) = 0 from rfl]; omega
  | ⟨1, _⟩ =>
    show ((cfg6 a).win 0).index t (1 : Fin 2) * 128 + 1 * (y 1).val = (y 1).val
    rw [show ((cfg6 a).win 0).index t (1 : Fin 2) = 0 from rfl]; omega

/-- The second half of the first layer's weights: the block is the array. -/
theorem iblk_1_eq (c : Dev nD) (t : Fin (cfg6 a).N) : (iblk V a c 1 t : S64x128.Idx → Elt F .f32) = V c main_v5 := by
  refine funext fun (y : S64x128.Idx) => ?_
  show (V c main_v5 : S64x128.Idx → Elt F .f32) ((((cfg6 a).win 1).blk t).view.emb y) = _
  congr 1; funext b; apply Fin.ext
  match b with
  | ⟨0, _⟩ =>
    show ((cfg6 a).win 1).index t (0 : Fin 2) * 64 + 1 * (y 0).val = (y 0).val
    rw [show ((cfg6 a).win 1).index t (0 : Fin 2) = 0 from rfl]; omega
  | ⟨1, _⟩ =>
    show ((cfg6 a).win 1).index t (1 : Fin 2) * 128 + 1 * (y 1).val = (y 1).val
    rw [show ((cfg6 a).win 1).index t (1 : Fin 2) = 0 from rfl]; omega

/-- The first layer's bias: the block is the array. -/
theorem iblk_2_eq (c : Dev nD) (t : Fin (cfg6 a).N) : (iblk V a c 2 t : S1x64.Idx → Elt F .f32) = V c main_v6 := by
  refine funext fun (y : S1x64.Idx) => ?_
  show (V c main_v6 : S1x64.Idx → Elt F .f32) ((((cfg6 a).win 2).blk t).view.emb y) = _
  congr 1; funext b; apply Fin.ext
  match b with
  | ⟨0, _⟩ =>
    show ((cfg6 a).win 2).index t (0 : Fin 2) * 1 + 1 * (y 0).val = (y 0).val
    rw [show ((cfg6 a).win 2).index t (0 : Fin 2) = 0 from rfl]; omega
  | ⟨1, _⟩ =>
    show ((cfg6 a).win 2).index t (1 : Fin 2) * 64 + 1 * (y 1).val = (y 1).val
    rw [show ((cfg6 a).win 2).index t (1 : Fin 2) = 0 from rfl]; omega

/-- The second layer's weights: the block is the array. -/
theorem iblk_3_eq (c : Dev nD) (t : Fin (cfg6 a).N) : (iblk V a c 3 t : S64x64.Idx → Elt F .f32) = V c main_arg4 := by
  refine funext fun (y : S64x64.Idx) => ?_
  show (V c main_arg4 : S64x64.Idx → Elt F .f32) ((((cfg6 a).win 3).blk t).view.emb y) = _
  congr 1; funext b; apply Fin.ext
  match b with
  | ⟨0, _⟩ =>
    show ((cfg6 a).win 3).index t (0 : Fin 2) * 64 + 1 * (y 0).val = (y 0).val
    rw [show ((cfg6 a).win 3).index t (0 : Fin 2) = 0 from rfl]; omega
  | ⟨1, _⟩ =>
    show ((cfg6 a).win 3).index t (1 : Fin 2) * 64 + 1 * (y 1).val = (y 1).val
    rw [show ((cfg6 a).win 3).index t (1 : Fin 2) = 0 from rfl]; omega

/-- The second layer's bias: the block is the array. -/
theorem iblk_4_eq (c : Dev nD) (t : Fin (cfg6 a).N) : (iblk V a c 4 t : S1x64.Idx → Elt F .f32) = V c main_v7 := by
  refine funext fun (y : S1x64.Idx) => ?_
  show (V c main_v7 : S1x64.Idx → Elt F .f32) ((((cfg6 a).win 4).blk t).view.emb y) = _
  congr 1; funext b; apply Fin.ext
  match b with
  | ⟨0, _⟩ =>
    show ((cfg6 a).win 4).index t (0 : Fin 2) * 1 + 1 * (y 0).val = (y 0).val
    rw [show ((cfg6 a).win 4).index t (0 : Fin 2) = 0 from rfl]; omega
  | ⟨1, _⟩ =>
    show ((cfg6 a).win 4).index t (1 : Fin 2) * 64 + 1 * (y 1).val = (y 1).val
    rw [show ((cfg6 a).win 4).index t (1 : Fin 2) = 0 from rfl]; omega

/-- Window 5 is written back at the last point and at no other: its block never moves. -/
theorem flush5_iff (t : Fin (cfg6 a).N) : ((cfg6 a).win 5).flush t = true ↔ t.val + 1 = (cfg6 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint5 : ∀ t t' : Fin (cfg6 a).N, ((cfg6 a).win 5).flush t = true → ((cfg6 a).win 5).flush t' = true → t ≠ t' →
    Disjoint (((cfg6 a).win 5).blk t).view.set (((cfg6 a).win 5).blk t').view.set :=
  fun t t' h h' hne => absurd (Fin.ext (by
    have e := (flush5_iff a t).mp h
    have e' := (flush5_iff a t').mp h'
    omega)) hne

/-- Where feature j of window 5's block sits in its array: at feature j. -/
theorem emb5 (t : Fin (cfg6 a).N) (j : Fin 64) :
    (((cfg6 a).win 5).blk t).view.emb (ValueIdx.ix2 (0 : Fin 1) j) = ValueIdx.ix2 (0 : Fin 1) j := by
  funext b; apply Fin.ext
  match b with
  | ⟨0, _⟩ =>
    show ((cfg6 a).win 5).index t (0 : Fin 2) * 1 + 1 * 0 = 0
    rw [show ((cfg6 a).win 5).index t (0 : Fin 2) = 0 from rfl]
  | ⟨1, _⟩ =>
    show ((cfg6 a).win 5).index t (1 : Fin 2) * 64 + 1 * j.val = j.val
    rw [show ((cfg6 a).win 5).index t (1 : Fin 2) = 0 from rfl]; omega

theorem sum_arr_apply (c : Dev nD) (j : Fin 64) :
    ((dat V a hp0 hp1 c).arrAt 5 (cfg6 a).N : S1x64.Idx → Elt F .f32) (ValueIdx.ix2 (0 : Fin 1) j)
      = (stAt V a hp0 hp1 c (tlast a).val (tlast a).isLt).1 (ValueIdx.ix2 (0 : Fin 1) j) := by
  have h := (dat V a hp0 hp1 c).arrAt_emb_eq_flushed 5 (disjoint5 a) (tlast a) ((flush5_iff a (tlast a)).mpr (tlast_succ a))
    (ValueIdx.ix2 (0 : Fin 1) j)
  rw [emb5] at h
  refine h.trans ?_
  show (dat V a hp0 hp1 c).after 5 (tlast a) (ValueIdx.ix2 (0 : Fin 1) j) = _
  rw [after_5]

/-- The array of window 5 after the region is what the last point left. -/
theorem sum_arr (c : Dev nD) :
    ((dat V a hp0 hp1 c).arrAt 5 (cfg6 a).N : S1x64.Idx → Elt F .f32) = (stAt V a hp0 hp1 c (tlast a).val (tlast a).isLt).1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sum_arr_apply V a hp0 hp1 c j

/-- Window 6 is written back at the last point and at no other: its block never moves. -/
theorem flush6_iff (t : Fin (cfg6 a).N) : ((cfg6 a).win 6).flush t = true ↔ t.val + 1 = (cfg6 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint6 : ∀ t t' : Fin (cfg6 a).N, ((cfg6 a).win 6).flush t = true → ((cfg6 a).win 6).flush t' = true → t ≠ t' →
    Disjoint (((cfg6 a).win 6).blk t).view.set (((cfg6 a).win 6).blk t').view.set :=
  fun t t' h h' hne => absurd (Fin.ext (by
    have e := (flush6_iff a t).mp h
    have e' := (flush6_iff a t').mp h'
    omega)) hne

/-- Where feature j of window 6's block sits in its array: at feature j. -/
theorem emb6 (t : Fin (cfg6 a).N) (j : Fin 64) :
    (((cfg6 a).win 6).blk t).view.emb (ValueIdx.ix2 (0 : Fin 1) j) = ValueIdx.ix2 (0 : Fin 1) j := by
  funext b; apply Fin.ext
  match b with
  | ⟨0, _⟩ =>
    show ((cfg6 a).win 6).index t (0 : Fin 2) * 1 + 1 * 0 = 0
    rw [show ((cfg6 a).win 6).index t (0 : Fin 2) = 0 from rfl]
  | ⟨1, _⟩ =>
    show ((cfg6 a).win 6).index t (1 : Fin 2) * 64 + 1 * j.val = j.val
    rw [show ((cfg6 a).win 6).index t (1 : Fin 2) = 0 from rfl]; omega

theorem sq_arr_apply (c : Dev nD) (j : Fin 64) :
    ((dat V a hp0 hp1 c).arrAt 6 (cfg6 a).N : S1x64.Idx → Elt F .f32) (ValueIdx.ix2 (0 : Fin 1) j)
      = (stAt V a hp0 hp1 c (tlast a).val (tlast a).isLt).2.1 (ValueIdx.ix2 (0 : Fin 1) j) := by
  have h := (dat V a hp0 hp1 c).arrAt_emb_eq_flushed 6 (disjoint6 a) (tlast a) ((flush6_iff a (tlast a)).mpr (tlast_succ a))
    (ValueIdx.ix2 (0 : Fin 1) j)
  rw [emb6] at h
  refine h.trans ?_
  show (dat V a hp0 hp1 c).after 6 (tlast a) (ValueIdx.ix2 (0 : Fin 1) j) = _
  rw [after_6]

/-- The array of window 6 after the region is what the last point left. -/
theorem sq_arr (c : Dev nD) :
    ((dat V a hp0 hp1 c).arrAt 6 (cfg6 a).N : S1x64.Idx → Elt F .f32) = (stAt V a hp0 hp1 c (tlast a).val (tlast a).isLt).2.1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sq_arr_apply V a hp0 hp1 c j

end Arrays

/-! ## The values, at the ideal instance -/

section AtIdeal

variable (V : (c : Dev nD) → (b : Ref sig .tc) → Buf (Elt Ideal) ((c : Thread nD τ).loc b))
variable (a : (pcfg6 (F := Ideal)).Adm)
variable (hp0 : ∀ c (i : grid6.Coords), k6_chk1 (tw0 tb0 c i (T0 a c))) (hp1 : ∀ c (i : grid6.Coords), k6_chk2 (tw1 tb1 c i (T1 a c)))

/-- The arrays the region reads, each at its literal type. -/
abbrev xArr (c : Dev nD) : S100000x128.Idx → EReal := V c main_arg0
abbrev w1Arr (c : Dev nD) : S64x128.Idx → EReal := V c main_v4
abbrev w2Arr (c : Dev nD) : S64x128.Idx → EReal := V c main_v5
abbrev binArr (c : Dev nD) : S1x64.Idx → EReal := V c main_v6
abbrev whArr (c : Dev nD) : S64x64.Idx → EReal := V c main_arg4
abbrev bhArr (c : Dev nD) : S1x64.Idx → EReal := V c main_v7
/-- Entry i of each endpoint table. -/
abbrev e0At (c : Dev nD) (i : Fin 62500) : BitVec 32 := (T0 a c : S62500.Idx → BitVec 32) (ValueIdx.ix1 i)
abbrev e1At (c : Dev nD) (i : Fin 62500) : BitVec 32 := (T1 a c : S62500.Idx → BitVec 32) (ValueIdx.ix1 i)

/-- The grid point of edge i. -/
def ptOf (i : Fin 62500) : Fin (cfg6 a).N := ⟨i.val, lt_of_lt_of_eq i.isLt N_6.symm⟩

/-- The word a point reads of the first table is the table's entry at the point. -/
theorem tw0_at (c : Dev nD) (t : Fin (cfg6 a).N) :
    tw0 tb0 c (crd a t) (T0 a c) = e0At a c ⟨t.val, lt_of_lt_of_eq t.isLt N_6⟩ := by
  refine (P1.tw0_eq tb0 c (crd a t) (T0 a c)).trans ?_
  show (T0 a c : S62500.Idx → BitVec 32) _ = (T0 a c : S62500.Idx → BitVec 32) _
  refine congrArg (T0 a c : S62500.Idx → BitVec 32) (funext fun b => Fin.ext ?_)
  match b with
  | ⟨0, _⟩ => exact coord_val a t

theorem tw1_at (c : Dev nD) (t : Fin (cfg6 a).N) :
    tw1 tb1 c (crd a t) (T1 a c) = e1At a c ⟨t.val, lt_of_lt_of_eq t.isLt N_6⟩ := by
  refine (P1.tw1_eq tb1 c (crd a t) (T1 a c)).trans ?_
  show (T1 a c : S62500.Idx → BitVec 32) _ = (T1 a c : S62500.Idx → BitVec 32) _
  refine congrArg (T1 a c : S62500.Idx → BitVec 32) (funext fun b => Fin.ext ?_)
  match b with
  | ⟨0, _⟩ => exact coord_val a t

include hp0 in
/-- Every entry of the endpoint tables names a row of the node-feature array. -/
theorem e0_lt (c : Dev nD) (i : Fin 62500) : (e0At a c i).toNat < 100000 := by
  have h := P1.toNat_lt_of_chk1 (hp0 c (crd a (ptOf a i)))
  rw [tw0_at] at h
  exact h

include hp1 in
theorem e1_lt (c : Dev nD) (i : Fin 62500) : (e1At a c i).toNat < 100000 := by
  have h := P1.toNat_lt_of_chk2 (hp1 c (crd a (ptOf a i)))
  rw [tw1_at] at h
  exact h

/-- The hidden row of edge i of the chunk, at feature j: the two layers applied to the two rows of the node-feature
    array that entry i of each endpoint table names. -/
def rowval (c : Dev nD) (i : Fin 62500) (j : Fin 64) : EReal :=
  ∑ k : Fin 64,
      max (∑ k' : Fin 128, xArr V c (ValueIdx.ix2 (⟨(e0At a c i).toNat, e0_lt a hp0 c i⟩ : Fin 100000) k') * w1Arr V c (ValueIdx.ix2 k k')
          + ∑ k' : Fin 128, xArr V c (ValueIdx.ix2 (⟨(e1At a c i).toNat, e1_lt a hp1 c i⟩ : Fin 100000) k') * w2Arr V c (ValueIdx.ix2 k k')
          + binArr V c (ValueIdx.ix2 (0 : Fin 1) k)) 0
        * whArr V c (ValueIdx.ix2 j k)
    + bhArr V c (ValueIdx.ix2 (0 : Fin 1) j)

/-- The first row a point fetches, at feature k'. -/
theorem row0_val (c : Dev nD) (t : Fin (cfg6 a).N) (k' : Fin 128) :
    P1.rowAt0 tb0 xM c (crd a t) (T0 a c) (V c main_arg0) (hp0 c (crd a t)) (ValueIdx.ix2 (0 : Fin 1) k')
      = xArr V c (ValueIdx.ix2 (⟨(e0At a c ⟨t.val, lt_of_lt_of_eq t.isLt N_6⟩).toNat, e0_lt a hp0 c _⟩ : Fin 100000) k') := by
  refine (P1.rowAt0_apply tb0 xM c (crd a t) (T0 a c) (V c main_arg0) (hp0 c (crd a t)) k').trans ?_
  show xArr V c _ = xArr V c _
  refine congrArg (xArr V c) (funext fun b => Fin.ext ?_)
  match b with
  | ⟨0, _⟩ =>
    show (tw0 tb0 c (crd a t) (T0 a c)).toNat = (e0At a c ⟨t.val, lt_of_lt_of_eq t.isLt N_6⟩).toNat
    rw [tw0_at]
  | ⟨1, _⟩ => rfl

/-- The second row a point fetches, at feature k'. -/
theorem row1_val (c : Dev nD) (t : Fin (cfg6 a).N) (k' : Fin 128) :
    P1.rowAt1 tb1 xM c (crd a t) (T1 a c) (V c main_arg0) (hp1 c (crd a t)) (ValueIdx.ix2 (0 : Fin 1) k')
      = xArr V c (ValueIdx.ix2 (⟨(e1At a c ⟨t.val, lt_of_lt_of_eq t.isLt N_6⟩).toNat, e1_lt a hp1 c _⟩ : Fin 100000) k') := by
  refine (P1.rowAt1_apply tb1 xM c (crd a t) (T1 a c) (V c main_arg0) (hp1 c (crd a t)) k').trans ?_
  show xArr V c _ = xArr V c _
  refine congrArg (xArr V c) (funext fun b => Fin.ext ?_)
  match b with
  | ⟨0, _⟩ =>
    show (tw1 tb1 c (crd a t) (T1 a c)).toNat = (e1At a c ⟨t.val, lt_of_lt_of_eq t.isLt N_6⟩).toNat
    rw [tw1_at]
  | ⟨1, _⟩ => rfl

/-- A point's hidden row is the hidden row of its edge. -/
theorem hrow_val (c : Dev nD) (t : Fin (cfg6 a).N) (j : Fin 64) :
    P1.hrowG tb0 tb1 xM c (cfg6 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t j
      = rowval V a hp0 hp1 c ⟨t.val, lt_of_lt_of_eq t.isLt N_6⟩ j :=
  P1.hrow_eq_of (P1.rowAt0 tb0 xM c (crd a t) (T0 a c) (V c main_arg0) (hp0 c (crd a t)))
    (P1.rowAt1 tb1 xM c (crd a t) (T1 a c) (V c main_arg0) (hp1 c (crd a t)))
    (iblk V a c 0 t) (iblk V a c 1 t) (iblk V a c 2 t) (iblk V a c 3 t) (iblk V a c 4 t)
    (xArr V c) ⟨(e0At a c ⟨t.val, lt_of_lt_of_eq t.isLt N_6⟩).toNat, e0_lt a hp0 c _⟩
    ⟨(e1At a c ⟨t.val, lt_of_lt_of_eq t.isLt N_6⟩).toNat, e1_lt a hp1 c _⟩
    (w1Arr V c) (w2Arr V c) (binArr V c) (whArr V c) (bhArr V c)
    (row0_val V a hp0 c t) (row1_val V a hp1 c t)
    (iblk_0_eq V a c t) (iblk_1_eq V a c t) (iblk_2_eq V a c t) (iblk_3_eq V a c t) (iblk_4_eq V a c t) j

/-- After point n the first running sum is the sum of the hidden rows of the edges 0 … n. -/
theorem sum_at (c : Dev nD) (j : Fin 64) (n : ℕ) (hn : n < (cfg6 a).N) :
    (stAt V a hp0 hp1 c n hn).1 (ValueIdx.ix2 (0 : Fin 1) j)
      = ∑ i : Fin (n + 1), rowval V a hp0 hp1 c ⟨i.val, lt_of_lt_of_eq (Nat.lt_of_le_of_lt (Nat.le_of_lt_succ i.isLt) hn) N_6⟩ j := by
  unfold stAt
  refine (P1.sumG_at tb0 tb1 xM hM c (cfg6 a).N (crd a) (fun t => iblk V a c 0 t) (fun t => iblk V a c 1 t) (fun t => iblk V a c 2 t) (fun t => iblk V a c 3 t) (fun t => iblk V a c 4 t) (T0 a c) (T1 a c) (V c main_arg0) (V c main_v31_0) (fun t => hp0 c (crd a t)) (fun t => hp1 c (crd a t)) j n hn).trans ?_
  exact Finset.sum_congr rfl fun i _ => hrow_val V a hp0 hp1 c _ j

/-- After point n the second running sum is the sum of the squares of those hidden rows. -/
theorem sq_at (c : Dev nD) (j : Fin 64) (n : ℕ) (hn : n < (cfg6 a).N) :
    (stAt V a hp0 hp1 c n hn).2.1 (ValueIdx.ix2 (0 : Fin 1) j)
      = ∑ i : Fin (n + 1), rowval V a hp0 hp1 c ⟨i.val, lt_of_lt_of_eq (Nat.lt_of_le_of_lt (Nat.le_of_lt_succ i.isLt) hn) N_6⟩ j
          * rowval V a hp0 hp1 c ⟨i.val, lt_of_lt_of_eq (Nat.lt_of_le_of_lt (Nat.le_of_lt_succ i.isLt) hn) N_6⟩ j := by
  unfold stAt
  refine (P1.sumsqG_at tb0 tb1 xM hM c (cfg6 a).N (crd a) (fun t => iblk V a c 0 t) (fun t => iblk V a c 1 t) (fun t => iblk V a c 2 t) (fun t => iblk V a c 3 t) (fun t => iblk V a c 4 t) (T0 a c) (T1 a c) (V c main_arg0) (V c main_v31_0) (fun t => hp0 c (crd a t)) (fun t => hp1 c (crd a t)) j n hn).trans ?_
  exact Finset.sum_congr rfl fun i _ => by rw [hrow_val V a hp0 hp1 c _ j]

/-- The hidden array is read through its whole view as itself. -/
theorem read_hM (c : Dev nD) (f : Bf (F := Ideal) c hM) (y : S62500x64.Idx) :
    hM.view.read (Elt Ideal) f y = (f : S62500x64.Idx → EReal) y := rfl

/-- After n points, row i < n of the hidden array is edge i's hidden row. -/
theorem hid_at (c : Dev nD) (j : Fin 64) (n : ℕ) (hn : n ≤ (cfg6 a).N) (i : ℕ) (hi : i < n) :
    (hAt V a hp0 hp1 c n hn : S62500x64.Idx → EReal) (ValueIdx.ix2 (⟨i, lt_of_lt_of_eq (Nat.lt_of_lt_of_le hi hn) N_6⟩ : Fin 62500) j)
      = rowval V a hp0 hp1 c ⟨i, lt_of_lt_of_eq (Nat.lt_of_lt_of_le hi hn) N_6⟩ j := by
  unfold hAt
  refine (read_hM c _ _).symm.trans ?_
  refine (P1.hG_row_written (F := Ideal) tb0 tb1 xM hM c (cfg6 a).N (crd a) (fun t => iblk V a c 0 t) (fun t => iblk V a c 1 t) (fun t => iblk V a c 2 t) (fun t => iblk V a c 3 t) (fun t => iblk V a c 4 t) (T0 a c) (T1 a c) (V c main_arg0) (V c main_v31_0) (fun t => hp0 c (crd a t)) (fun t => hp1 c (crd a t)) (coord_val a) j n hn i hi).trans ?_
  exact (P1.rowStep_apply tb0 tb1 xM c (cfg6 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) _ j).trans (hrow_val V a hp0 hp1 c _ j)

/-- The two running-sum arrays and the hidden array after the region, each at its literal type. -/
abbrev sumArr (c : Dev nD) : S1x64.Idx → EReal := (dat V a hp0 hp1 c).arrAt 5 (cfg6 a).N
abbrev sqArr (c : Dev nD) : S1x64.Idx → EReal := (dat V a hp0 hp1 c).arrAt 6 (cfg6 a).N
abbrev hidArr (c : Dev nD) : S62500x64.Idx → EReal := hAt V a hp0 hp1 c (cfg6 a).N (Nat.le_refl _)

/-- The last point's index plus one is the number of edges of the chunk. -/
theorem tlast_count : (tlast a).val + 1 = 62500 := rfl

/-- The first running-sum array after the region: the sum over the chunk's edges of their hidden rows. -/
theorem sum_final (c : Dev nD) (j : Fin 64) :
    sumArr V a hp0 hp1 c (ValueIdx.ix2 (0 : Fin 1) j) = ∑ i : Fin 62500, rowval V a hp0 hp1 c i j := by
  refine (sum_arr_apply V a hp0 hp1 c j).trans ((sum_at V a hp0 hp1 c j (tlast a).val (tlast a).isLt).trans ?_)
  exact Fintype.sum_equiv (finCongr (tlast_count a)) _ _ (fun i => rfl)

/-- The second running-sum array after the region: the sum of the squares of those hidden rows. -/
theorem sq_final (c : Dev nD) (j : Fin 64) :
    sqArr V a hp0 hp1 c (ValueIdx.ix2 (0 : Fin 1) j)
      = ∑ i : Fin 62500, rowval V a hp0 hp1 c i j * rowval V a hp0 hp1 c i j := by
  refine (sq_arr_apply V a hp0 hp1 c j).trans ((sq_at V a hp0 hp1 c j (tlast a).val (tlast a).isLt).trans ?_)
  exact Fintype.sum_equiv (finCongr (tlast_count a)) _ _ (fun i => rfl)

/-- The hidden array after the region: row i is edge i's hidden row. -/
theorem hid_final (c : Dev nD) (i : Fin 62500) (j : Fin 64) :
    hidArr V a hp0 hp1 c (ValueIdx.ix2 i j) = rowval V a hp0 hp1 c i j :=
  hid_at V a hp0 hp1 c j (cfg6 a).N (Nat.le_refl _) i.val (lt_of_lt_of_eq i.isLt N_6.symm)

end AtIdeal

end Cert.KernelIdeal.P1R6

end
-- ==== Proof.P1R6Fin.lean ====
/- The first launch's results are its chunk's hidden values.

   The launch walks the 62500 edges of its chunk: at edge i it fetches the two rows of the node-feature array that entry i of
   its two endpoint tables names, applies the two layers, writes the hidden row and adds it, and its square, to two running
   sums. Its tables are the chunk's pieces of the edge array's two rows, and the weights it reads are the argument arrays'
   (the first layer's weights in two halves). So row i of its rows result is the hidden value of edge i of the chunk in the
   by-endpoint form, and its two sums are the sums of those values and of their squares over the chunk. -/
import proofs.«400866_j57071525429608_2_alg».proof.Proof.P1R6Val
import proofs.«400866_j57071525429608_2_alg».proof.Proof.HostHead
import proofs.«400866_j57071525429608_2_alg».proof.Proof.TblFacts
import proofs.«400866_j57071525429608_2_alg».proof.Proof.HostTail
import proofs.«400866_j57071525429608_2_alg».proof.Proof.KVal
import proofs.«400866_j57071525429608_2_alg».proof.Proof.Spec
import Idealize.ShloMosaic.Lib.ValueIdx

set_option maxRecDepth 16384

noncomputable section

namespace Cert.KernelIdeal.P1R6

open Cert.KernelIdeal Cert.KernelIdeal.Gen
open Idealize.ShloMosaic Idealize.ShloMosaic.TcCoe
open Cert.KernelIdeal.P1 (Bf tw0 tw1)
open scoped BigOperators

/-! ## The launch -/

/-- The launch's chunk among the sixteen. -/
abbrev KK : Fin 16 := ⟨6, by omega⟩
/-- The launch among the seventeen regions. -/
abbrev KK17 : Fin 17 := ⟨6, by omega⟩
/-- The buffers' contents when the launch is entered. -/
abbrev Ventry (m : (ℓ : Loc nD τ sig) → Buf (Elt Ideal) ℓ) (outs : Outs (F := Ideal)) (c : Dev nD) : Valuation τ sig (Elt Ideal) := V13 m outs c
/-- They are the entry contents the host operations' facts are stated at. -/
theorem Ventry_eq (m : (ℓ : Loc nD τ sig) → Buf (Elt Ideal) ℓ) (outs : Outs (F := Ideal)) (c : Dev nD) :
    Head.Vodd m outs c KK17 = Ventry m outs c := Head.Vodd_6 m outs c _

variable (m : (ℓ : Loc nD τ sig) → Buf (Elt Ideal) ℓ) (outs : Outs (F := Ideal)) (c : Dev nD)
variable (a : (pcfg6 (F := Ideal)).Adm)
variable (hp0 : ∀ c (i : grid6.Coords), k6_chk1 (tw0 tb0 c i (T0 a c))) (hp1 : ∀ c (i : grid6.Coords), k6_chk2 (tw1 tb1 c i (T1 a c)))

/-- The entry contents as the launch's value lemmas take them. -/
abbrev VV : (c : Dev nD) → (b : Ref sig .tc) → Buf (Elt Ideal) ((c : Thread nD τ).loc b) := fun c b => Ventry m outs c b

/-! ## The tables' words are the chunk's endpoints -/

/-- Entry `i` of the first table names the first endpoint of edge `i` of the chunk. -/
theorem e0_eq (hT0 : (T0 a c : S62500.Idx → BitVec 32) = (Tbl.tblA m outs c KK : IVec S62500 32)) (i : Fin 62500) :
    (⟨(e0At a c i).toNat, e0_lt a hp0 c i⟩ : Fin 100000) = Cert.Spec.endpoint (KVal.edgesA m c) 0 (Cert.Spec.chunk KK i) := by
  have hw : e0At a c i = (KVal.edgesA m c) (ValueIdx.ix2 (0 : Fin 2) (Cert.Spec.chunk KK i)) := by
    show (T0 a c : S62500.Idx → BitVec 32) (ValueIdx.ix1 i) = _
    rw [hT0]
    exact Tbl.tblA_apply m outs c KK i
  have hlt := e0_lt a hp0 c i
  rw [hw] at hlt
  refine Fin.ext ?_
  show (e0At a c i).toNat = (Cert.Spec.node _).val
  rw [Cert.Spec.node_val_of_toNat_lt hlt, hw]

/-- Entry `i` of the second table names the second endpoint. -/
theorem e1_eq (hT1 : (T1 a c : S62500.Idx → BitVec 32) = (Tbl.tblB m outs c KK : IVec S62500 32)) (i : Fin 62500) :
    (⟨(e1At a c i).toNat, e1_lt a hp1 c i⟩ : Fin 100000) = Cert.Spec.endpoint (KVal.edgesA m c) 1 (Cert.Spec.chunk KK i) := by
  have hw : e1At a c i = (KVal.edgesA m c) (ValueIdx.ix2 (1 : Fin 2) (Cert.Spec.chunk KK i)) := by
    show (T1 a c : S62500.Idx → BitVec 32) (ValueIdx.ix1 i) = _
    rw [hT1]
    exact Tbl.tblB_apply m outs c KK i
  have hlt := e1_lt a hp1 c i
  rw [hw] at hlt
  refine Fin.ext ?_
  show (e1At a c i).toNat = (Cert.Spec.node _).val
  rw [Cert.Spec.node_val_of_toNat_lt hlt, hw]

/-! ## The arrays the launch reads are the arguments' -/

theorem x_eq : xArr (VV m outs) c = KVal.xA m c := by
  show Ventry m outs c main_arg0 = _
  rw [← Ventry_eq m outs c]
  exact Head.arg0_keep m outs c KK17
theorem wh_eq : whArr (VV m outs) c = KVal.WhA m c := by
  show Ventry m outs c main_arg4 = _
  rw [← Ventry_eq m outs c]
  exact Head.arg4_keep m outs c KK17
theorem w1_apply (k : Fin 64) (k' : Fin 128) :
    w1Arr (VV m outs) c (ValueIdx.ix2 k k') = KVal.WinA m c (ValueIdx.ix2 k (⟨k'.val, by omega⟩ : Fin 256)) := by
  show (Ventry m outs c main_v4 : S64x128.Idx → EReal) (ValueIdx.ix2 k k') = _
  rw [← Ventry_eq m outs c]
  exact Head.v4_apply m outs c KK17 k k'
theorem w2_apply (k : Fin 64) (k' : Fin 128) :
    w2Arr (VV m outs) c (ValueIdx.ix2 k k') = KVal.WinA m c (ValueIdx.ix2 k (⟨128 + k'.val, by omega⟩ : Fin 256)) := by
  show (Ventry m outs c main_v5 : S64x128.Idx → EReal) (ValueIdx.ix2 k k') = _
  rw [← Ventry_eq m outs c]
  exact Head.v5_apply m outs c KK17 k k'
theorem bin_apply (k : Fin 64) :
    binArr (VV m outs) c (ValueIdx.ix2 (0 : Fin 1) k) = KVal.binA m c (ValueIdx.ix1 k) := by
  show (Ventry m outs c main_v6 : S1x64.Idx → EReal) (ValueIdx.ix2 (0 : Fin 1) k) = _
  rw [← Ventry_eq m outs c]
  exact Head.v6_apply m outs c KK17 k
theorem bh_apply (j : Fin 64) :
    bhArr (VV m outs) c (ValueIdx.ix2 (0 : Fin 1) j) = KVal.bhA m c (ValueIdx.ix1 j) := by
  show (Ventry m outs c main_v7 : S1x64.Idx → EReal) (ValueIdx.ix2 (0 : Fin 1) j) = _
  rw [← Ventry_eq m outs c]
  exact Head.v7_apply m outs c KK17 j

/-! ## The launch's hidden row is the chunk's hidden value -/

theorem rowval_eq (hT0 : (T0 a c : S62500.Idx → BitVec 32) = (Tbl.tblA m outs c KK : IVec S62500 32))
    (hT1 : (T1 a c : S62500.Idx → BitVec 32) = (Tbl.tblB m outs c KK : IVec S62500 32)) (i : Fin 62500) (j : Fin 64) :
    rowval (VV m outs) a hp0 hp1 c i j = KVal.hid m c (Cert.Spec.chunk KK i) j := by
  unfold rowval KVal.hid
  rw [e0_eq m outs c a hp0 hT0 i, e1_eq m outs c a hp1 hT1 i, x_eq m outs c, wh_eq m outs c]
  simp only [w1_apply m outs c, w2_apply m outs c, bin_apply m outs c, bh_apply m outs c]

/-! ## The three results -/

/-- Row `i` of the rows result is the hidden value of edge `i` of the chunk. -/
theorem chunkRow_eq (hT0 : (T0 a c : S62500.Idx → BitVec 32) = (Tbl.tblA m outs c KK : IVec S62500 32))
    (hT1 : (T1 a c : S62500.Idx → BitVec 32) = (Tbl.tblB m outs c KK : IVec S62500 32))
    (hR0 : (Tail.res0 outs c KK : S62500x64.Idx → EReal) = hidArr (VV m outs) a hp0 hp1 c)
    (i : Fin 62500) (j : Fin 64) : Tail.chunkRow outs c KK i j = KVal.HID m c KK i j := by
  show (Tail.res0 outs c KK : S62500x64.Idx → EReal) (ValueIdx.ix2 i j) = _
  rw [hR0]
  exact (hid_final (VV m outs) a hp0 hp1 c i j).trans (rowval_eq m outs c a hp0 hp1 hT0 hT1 i j)

/-- The sums result is the sum of the chunk's hidden values. -/
theorem chunkSum_eq (hT0 : (T0 a c : S62500.Idx → BitVec 32) = (Tbl.tblA m outs c KK : IVec S62500 32))
    (hT1 : (T1 a c : S62500.Idx → BitVec 32) = (Tbl.tblB m outs c KK : IVec S62500 32))
    (hR1 : (Tail.res1 outs c KK : S1x64.Idx → EReal) = sumArr (VV m outs) a hp0 hp1 c)
    (j : Fin 64) : Tail.chunkSum outs c KK j = ∑ i : Fin 62500, KVal.HID m c KK i j := by
  show (Tail.res1 outs c KK : S1x64.Idx → EReal) (ValueIdx.ix2 (0 : Fin 1) j) = _
  rw [hR1]
  exact (sum_final (VV m outs) a hp0 hp1 c j).trans (Finset.sum_congr rfl fun i _ => rowval_eq m outs c a hp0 hp1 hT0 hT1 i j)

/-- The sums-of-squares result is the sum of their squares. -/
theorem chunkSq_eq (hT0 : (T0 a c : S62500.Idx → BitVec 32) = (Tbl.tblA m outs c KK : IVec S62500 32))
    (hT1 : (T1 a c : S62500.Idx → BitVec 32) = (Tbl.tblB m outs c KK : IVec S62500 32))
    (hR2 : (Tail.res2 outs c KK : S1x64.Idx → EReal) = sqArr (VV m outs) a hp0 hp1 c)
    (j : Fin 64) : Tail.chunkSq outs c KK j = ∑ i : Fin 62500, KVal.HID m c KK i j * KVal.HID m c KK i j := by
  show (Tail.res2 outs c KK : S1x64.Idx → EReal) (ValueIdx.ix2 (0 : Fin 1) j) = _
  rw [hR2]
  exact (sq_final (VV m outs) a hp0 hp1 c j).trans
    (Finset.sum_congr rfl fun i _ => by rw [rowval_eq m outs c a hp0 hp1 hT0 hT1 i j])

end Cert.KernelIdeal.P1R6

end
-- ==== Proof.P1R6Top.lean ====
/- The first launch's results are its chunk's hidden values, at the run's own choices.

   The run fixes what every region leaves (the unknowns), each launch's tables and the contents each launch is entered
   from. At those choices nothing is left to assume: the launch's tables are its chunk's pieces of the edge array's rows,
   its results are what its proof data leave, and so its rows are the chunk's hidden values and its two sums their sums
   and sums of squares. -/
import proofs.«400866_j57071525429608_2_alg».proof.Proof.P1R6Fin
import proofs.«400866_j57071525429608_2_alg».proof.Proof.GlueVal

set_option maxRecDepth 16384

noncomputable section

namespace Cert.KernelIdeal.P1R6

open Cert.KernelIdeal Cert.KernelIdeal.Gen
open Idealize.ShloMosaic Idealize.ShloMosaic.TcCoe
open Cert.KernelIdeal.P1 (Bf tw0 tw1)
open Cert.KernelIdeal.Glue (atTc)
open scoped BigOperators

/-! ## The run's choices for this launch -/

/-- The launch's tables, admissible. -/
abbrev gA (m : (ℓ : Loc nD τ sig) → Buf (Elt Ideal) ℓ) : (pcfg6 (F := Ideal)).Adm := Glue.adm6 m
/-- The contents it is entered from, as the run names them. -/
abbrev gW (m : (ℓ : Loc nD τ sig) → Buf (Elt Ideal) ℓ)
    (hE : ∀ (c : Dev nD) (idx : S2x1000000.Idx), ((V0 m c main_arg1 : IVec S2x1000000 32) idx).toNat < 100000) :
    Dev nD → Valuation τ sig (Elt Ideal) := Glue.W13 m hE

variable (m : (ℓ : Loc nD τ sig) → Buf (Elt Ideal) ℓ)
  (hE : ∀ (c : Dev nD) (idx : S2x1000000.Idx), ((V0 m c main_arg1 : IVec S2x1000000 32) idx).toNat < 100000)
  (c : Dev nD)

include hE

/-- The words it reads of them name rows of the node table. -/
theorem gP0 : ∀ c (i : grid6.Coords), k6_chk1 (tw0 tb0 c i (T0 (gA m) c)) := Glue.hp0_6 m hE
theorem gP1 : ∀ c (i : grid6.Coords), k6_chk2 (tw1 tb1 c i (T1 (gA m) c)) := Glue.hp1_6 m hE
/-- The contents it is entered from are the valuation's. -/
theorem gV : Ventry m (Glue.outs m hE) c = gW m hE c := Glue.V13_eq m hE c
/-- The tables it finds in the buffers are its own. -/
theorem gTA : (T0 (gA m) c : S62500.Idx → BitVec 32) = (Tbl.tblA m (Glue.outs m hE) c KK : IVec S62500 32) :=
  ((Glue.hT0_6 m hE c).symm.trans (congrFun (gV m hE c) (Proc.devRef .tc main_v29)).symm :)
theorem gTB : (T1 (gA m) c : S62500.Idx → BitVec 32) = (Tbl.tblB m (Glue.outs m hE) c KK : IVec S62500 32) :=
  ((Glue.hT1_6 m hE c).symm.trans (congrFun (gV m hE c) (Proc.devRef .tc main_v30)).symm :)
/-- What it leaves at its three results. -/
theorem gR0 : (Tail.res0 (Glue.outs m hE) c KK : S62500x64.Idx → EReal) = hidArr (atTc (gW m hE)) (gA m) (gP0 m hE) (gP1 m hE) c :=
  Glue.res0_6 m hE c
theorem gR1 : (Tail.res1 (Glue.outs m hE) c KK : S1x64.Idx → EReal) = sumArr (atTc (gW m hE)) (gA m) (gP0 m hE) (gP1 m hE) c :=
  Glue.res1_6 m hE c
theorem gR2 : (Tail.res2 (Glue.outs m hE) c KK : S1x64.Idx → EReal) = sqArr (atTc (gW m hE)) (gA m) (gP0 m hE) (gP1 m hE) c :=
  Glue.res2_6 m hE c

/-! ## The three facts, nothing assumed -/

/-- The entry contents the launch's value lemmas take are the run's. -/
theorem VV_eq : VV m (Glue.outs m hE) = atTc (gW m hE) :=
  funext fun c => funext fun b => congrFun (gV m hE c) (Proc.devRef .tc b)

/-- Row `i` of the launch's rows is the hidden value of edge `i` of its chunk. -/
theorem row_top (i : Fin 62500) (j : Fin 64) : Tail.chunkRow (Glue.outs m hE) c KK i j = KVal.HID m c KK i j :=
  chunkRow_eq m (Glue.outs m hE) c (gA m) (gP0 m hE) (gP1 m hE) (gTA m hE c) (gTB m hE c)
    (by rw [VV_eq m hE]; exact gR0 m hE c) i j

/-- Its sums are the sums of those values over the chunk. -/
theorem sum_top (j : Fin 64) : Tail.chunkSum (Glue.outs m hE) c KK j = ∑ i : Fin 62500, KVal.HID m c KK i j :=
  chunkSum_eq m (Glue.outs m hE) c (gA m) (gP0 m hE) (gP1 m hE) (gTA m hE c) (gTB m hE c)
    (by rw [VV_eq m hE]; exact gR1 m hE c) j

/-- Its sums of squares are the sums of their squares. -/
theorem sq_top (j : Fin 64) :
    Tail.chunkSq (Glue.outs m hE) c KK j = ∑ i : Fin 62500, KVal.HID m c KK i j * KVal.HID m c KK i j :=
  chunkSq_eq m (Glue.outs m hE) c (gA m) (gP0 m hE) (gP1 m hE) (gTA m hE c) (gTB m hE c)
    (by rw [VV_eq m hE]; exact gR2 m hE c) j

end Cert.KernelIdeal.P1R6

end
-- ==== Proof.P1R7Val.lean ====
/-
  A gather-and-project region (one chunk of 62500 edges), from blocks to arrays.

  The five parameter windows never move: each one's block is its whole array. The two running-sum
  windows never move either and are written back once, after the last point, so their arrays end
  holding what the last point left. Put together with the recursion over the points, at the ideal
  values: the first array ends at the sum over the chunk's 62500 edges of their hidden rows, the
  second at the sum of the squares, and row i of the hidden array is edge i's hidden row — where the
  hidden row of edge i is the two layers applied to the two rows of the node-feature array that entry
  i of each endpoint table names.
-/
import proofs.«400866_j57071525429608_2_alg».proof.Proof.P1R7Dat
import proofs.«400866_j57071525429608_2_alg».proof.Proof.P1StateVal
import proofs.«400866_j57071525429608_2_alg».proof.Proof.P1Val
import Idealize.ShloMosaic.Lib.Pipeline.Value
import Idealize.ShloMosaic.Lib.ValueIdx
import Mathlib.Algebra.BigOperators.Fin

set_option maxRecDepth 100000

noncomputable section

namespace Cert.KernelIdeal.P1R7

open Cert.KernelIdeal Cert.KernelIdeal.Gen
open Idealize.ShloMosaic Idealize.ShloMosaic.TcCoe
open Idealize.ShloMosaic.Pipeline (Dat)
open Cert.KernelIdeal.P1 (Bf tw0 tw1 hNext)
open scoped BigOperators

/-! ## From blocks to arrays (any float values) -/

section Arrays

variable {F : FTy → Type} [FloatOps F]
variable (V : (c : Dev nD) → (b : Ref sig .tc) → Buf (Elt F) ((c : Thread nD τ).loc b))
variable (a : (pcfg7 (F := F)).Adm)
variable (hp0 : ∀ c (i : grid7.Coords), k7_chk1 (tw0 tb0 c i (T0 a c))) (hp1 : ∀ c (i : grid7.Coords), k7_chk2 (tw1 tb1 c i (T1 a c)))

/-- The last grid point. -/
def tlast : Fin (cfg7 a).N := ⟨62499, lt_of_lt_of_eq (by decide : 62499 < 62500) N_7.symm⟩

theorem tlast_succ : (tlast a).val + 1 = (cfg7 a).N := N_7.symm

/-- The first half of the first layer's weights: the block is the array. -/
theorem iblk_0_eq (c : Dev nD) (t : Fin (cfg7 a).N) : (iblk V a c 0 t : S64x128.Idx → Elt F .f32) = V c main_v4 := by
  refine funext fun (y : S64x128.Idx) => ?_
  show (V c main_v4 : S64x128.Idx → Elt F .f32) ((((cfg7 a).win 0).blk t).view.emb y) = _
  congr 1; funext b; apply Fin.ext
  match b with
  | ⟨0, _⟩ =>
    show ((cfg7 a).win 0).index t (0 : Fin 2) * 64 + 1 * (y 0).val = (y 0).val
    rw [show ((cfg7 a).win 0).index t (0 : Fin 2) = 0 from rfl]; omega
  | ⟨1, _⟩ =>
    show ((cfg7 a).win 0).index t (1 : Fin 2) * 128 + 1 * (y 1).val = (y 1).val
    rw [show ((cfg7 a).win 0).index t (1 : Fin 2) = 0 from rfl]; omega

/-- The second half of the first layer's weights: the block is the array. -/
theorem iblk_1_eq (c : Dev nD) (t : Fin (cfg7 a).N) : (iblk V a c 1 t : S64x128.Idx → Elt F .f32) = V c main_v5 := by
  refine funext fun (y : S64x128.Idx) => ?_
  show (V c main_v5 : S64x128.Idx → Elt F .f32) ((((cfg7 a).win 1).blk t).view.emb y) = _
  congr 1; funext b; apply Fin.ext
  match b with
  | ⟨0, _⟩ =>
    show ((cfg7 a).win 1).index t (0 : Fin 2) * 64 + 1 * (y 0).val = (y 0).val
    rw [show ((cfg7 a).win 1).index t (0 : Fin 2) = 0 from rfl]; omega
  | ⟨1, _⟩ =>
    show ((cfg7 a).win 1).index t (1 : Fin 2) * 128 + 1 * (y 1).val = (y 1).val
    rw [show ((cfg7 a).win 1).index t (1 : Fin 2) = 0 from rfl]; omega

/-- The first layer's bias: the block is the array. -/
theorem iblk_2_eq (c : Dev nD) (t : Fin (cfg7 a).N) : (iblk V a c 2 t : S1x64.Idx → Elt F .f32) = V c main_v6 := by
  refine funext fun (y : S1x64.Idx) => ?_
  show (V c main_v6 : S1x64.Idx → Elt F .f32) ((((cfg7 a).win 2).blk t).view.emb y) = _
  congr 1; funext b; apply Fin.ext
  match b with
  | ⟨0, _⟩ =>
    show ((cfg7 a).win 2).index t (0 : Fin 2) * 1 + 1 * (y 0).val = (y 0).val
    rw [show ((cfg7 a).win 2).index t (0 : Fin 2) = 0 from rfl]; omega
  | ⟨1, _⟩ =>
    show ((cfg7 a).win 2).index t (1 : Fin 2) * 64 + 1 * (y 1).val = (y 1).val
    rw [show ((cfg7 a).win 2).index t (1 : Fin 2) = 0 from rfl]; omega

/-- The second layer's weights: the block is the array. -/
theorem iblk_3_eq (c : Dev nD) (t : Fin (cfg7 a).N) : (iblk V a c 3 t : S64x64.Idx → Elt F .f32) = V c main_arg4 := by
  refine funext fun (y : S64x64.Idx) => ?_
  show (V c main_arg4 : S64x64.Idx → Elt F .f32) ((((cfg7 a).win 3).blk t).view.emb y) = _
  congr 1; funext b; apply Fin.ext
  match b with
  | ⟨0, _⟩ =>
    show ((cfg7 a).win 3).index t (0 : Fin 2) * 64 + 1 * (y 0).val = (y 0).val
    rw [show ((cfg7 a).win 3).index t (0 : Fin 2) = 0 from rfl]; omega
  | ⟨1, _⟩ =>
    show ((cfg7 a).win 3).index t (1 : Fin 2) * 64 + 1 * (y 1).val = (y 1).val
    rw [show ((cfg7 a).win 3).index t (1 : Fin 2) = 0 from rfl]; omega

/-- The second layer's bias: the block is the array. -/
theorem iblk_4_eq (c : Dev nD) (t : Fin (cfg7 a).N) : (iblk V a c 4 t : S1x64.Idx → Elt F .f32) = V c main_v7 := by
  refine funext fun (y : S1x64.Idx) => ?_
  show (V c main_v7 : S1x64.Idx → Elt F .f32) ((((cfg7 a).win 4).blk t).view.emb y) = _
  congr 1; funext b; apply Fin.ext
  match b with
  | ⟨0, _⟩ =>
    show ((cfg7 a).win 4).index t (0 : Fin 2) * 1 + 1 * (y 0).val = (y 0).val
    rw [show ((cfg7 a).win 4).index t (0 : Fin 2) = 0 from rfl]; omega
  | ⟨1, _⟩ =>
    show ((cfg7 a).win 4).index t (1 : Fin 2) * 64 + 1 * (y 1).val = (y 1).val
    rw [show ((cfg7 a).win 4).index t (1 : Fin 2) = 0 from rfl]; omega

/-- Window 5 is written back at the last point and at no other: its block never moves. -/
theorem flush5_iff (t : Fin (cfg7 a).N) : ((cfg7 a).win 5).flush t = true ↔ t.val + 1 = (cfg7 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint5 : ∀ t t' : Fin (cfg7 a).N, ((cfg7 a).win 5).flush t = true → ((cfg7 a).win 5).flush t' = true → t ≠ t' →
    Disjoint (((cfg7 a).win 5).blk t).view.set (((cfg7 a).win 5).blk t').view.set :=
  fun t t' h h' hne => absurd (Fin.ext (by
    have e := (flush5_iff a t).mp h
    have e' := (flush5_iff a t').mp h'
    omega)) hne

/-- Where feature j of window 5's block sits in its array: at feature j. -/
theorem emb5 (t : Fin (cfg7 a).N) (j : Fin 64) :
    (((cfg7 a).win 5).blk t).view.emb (ValueIdx.ix2 (0 : Fin 1) j) = ValueIdx.ix2 (0 : Fin 1) j := by
  funext b; apply Fin.ext
  match b with
  | ⟨0, _⟩ =>
    show ((cfg7 a).win 5).index t (0 : Fin 2) * 1 + 1 * 0 = 0
    rw [show ((cfg7 a).win 5).index t (0 : Fin 2) = 0 from rfl]
  | ⟨1, _⟩ =>
    show ((cfg7 a).win 5).index t (1 : Fin 2) * 64 + 1 * j.val = j.val
    rw [show ((cfg7 a).win 5).index t (1 : Fin 2) = 0 from rfl]; omega

theorem sum_arr_apply (c : Dev nD) (j : Fin 64) :
    ((dat V a hp0 hp1 c).arrAt 5 (cfg7 a).N : S1x64.Idx → Elt F .f32) (ValueIdx.ix2 (0 : Fin 1) j)
      = (stAt V a hp0 hp1 c (tlast a).val (tlast a).isLt).1 (ValueIdx.ix2 (0 : Fin 1) j) := by
  have h := (dat V a hp0 hp1 c).arrAt_emb_eq_flushed 5 (disjoint5 a) (tlast a) ((flush5_iff a (tlast a)).mpr (tlast_succ a))
    (ValueIdx.ix2 (0 : Fin 1) j)
  rw [emb5] at h
  refine h.trans ?_
  show (dat V a hp0 hp1 c).after 5 (tlast a) (ValueIdx.ix2 (0 : Fin 1) j) = _
  rw [after_5]

/-- The array of window 5 after the region is what the last point left. -/
theorem sum_arr (c : Dev nD) :
    ((dat V a hp0 hp1 c).arrAt 5 (cfg7 a).N : S1x64.Idx → Elt F .f32) = (stAt V a hp0 hp1 c (tlast a).val (tlast a).isLt).1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sum_arr_apply V a hp0 hp1 c j

/-- Window 6 is written back at the last point and at no other: its block never moves. -/
theorem flush6_iff (t : Fin (cfg7 a).N) : ((cfg7 a).win 6).flush t = true ↔ t.val + 1 = (cfg7 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint6 : ∀ t t' : Fin (cfg7 a).N, ((cfg7 a).win 6).flush t = true → ((cfg7 a).win 6).flush t' = true → t ≠ t' →
    Disjoint (((cfg7 a).win 6).blk t).view.set (((cfg7 a).win 6).blk t').view.set :=
  fun t t' h h' hne => absurd (Fin.ext (by
    have e := (flush6_iff a t).mp h
    have e' := (flush6_iff a t').mp h'
    omega)) hne

/-- Where feature j of window 6's block sits in its array: at feature j. -/
theorem emb6 (t : Fin (cfg7 a).N) (j : Fin 64) :
    (((cfg7 a).win 6).blk t).view.emb (ValueIdx.ix2 (0 : Fin 1) j) = ValueIdx.ix2 (0 : Fin 1) j := by
  funext b; apply Fin.ext
  match b with
  | ⟨0, _⟩ =>
    show ((cfg7 a).win 6).index t (0 : Fin 2) * 1 + 1 * 0 = 0
    rw [show ((cfg7 a).win 6).index t (0 : Fin 2) = 0 from rfl]
  | ⟨1, _⟩ =>
    show ((cfg7 a).win 6).index t (1 : Fin 2) * 64 + 1 * j.val = j.val
    rw [show ((cfg7 a).win 6).index t (1 : Fin 2) = 0 from rfl]; omega

theorem sq_arr_apply (c : Dev nD) (j : Fin 64) :
    ((dat V a hp0 hp1 c).arrAt 6 (cfg7 a).N : S1x64.Idx → Elt F .f32) (ValueIdx.ix2 (0 : Fin 1) j)
      = (stAt V a hp0 hp1 c (tlast a).val (tlast a).isLt).2.1 (ValueIdx.ix2 (0 : Fin 1) j) := by
  have h := (dat V a hp0 hp1 c).arrAt_emb_eq_flushed 6 (disjoint6 a) (tlast a) ((flush6_iff a (tlast a)).mpr (tlast_succ a))
    (ValueIdx.ix2 (0 : Fin 1) j)
  rw [emb6] at h
  refine h.trans ?_
  show (dat V a hp0 hp1 c).after 6 (tlast a) (ValueIdx.ix2 (0 : Fin 1) j) = _
  rw [after_6]

/-- The array of window 6 after the region is what the last point left. -/
theorem sq_arr (c : Dev nD) :
    ((dat V a hp0 hp1 c).arrAt 6 (cfg7 a).N : S1x64.Idx → Elt F .f32) = (stAt V a hp0 hp1 c (tlast a).val (tlast a).isLt).2.1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sq_arr_apply V a hp0 hp1 c j

end Arrays

/-! ## The values, at the ideal instance -/

section AtIdeal

variable (V : (c : Dev nD) → (b : Ref sig .tc) → Buf (Elt Ideal) ((c : Thread nD τ).loc b))
variable (a : (pcfg7 (F := Ideal)).Adm)
variable (hp0 : ∀ c (i : grid7.Coords), k7_chk1 (tw0 tb0 c i (T0 a c))) (hp1 : ∀ c (i : grid7.Coords), k7_chk2 (tw1 tb1 c i (T1 a c)))

/-- The arrays the region reads, each at its literal type. -/
abbrev xArr (c : Dev nD) : S100000x128.Idx → EReal := V c main_arg0
abbrev w1Arr (c : Dev nD) : S64x128.Idx → EReal := V c main_v4
abbrev w2Arr (c : Dev nD) : S64x128.Idx → EReal := V c main_v5
abbrev binArr (c : Dev nD) : S1x64.Idx → EReal := V c main_v6
abbrev whArr (c : Dev nD) : S64x64.Idx → EReal := V c main_arg4
abbrev bhArr (c : Dev nD) : S1x64.Idx → EReal := V c main_v7
/-- Entry i of each endpoint table. -/
abbrev e0At (c : Dev nD) (i : Fin 62500) : BitVec 32 := (T0 a c : S62500.Idx → BitVec 32) (ValueIdx.ix1 i)
abbrev e1At (c : Dev nD) (i : Fin 62500) : BitVec 32 := (T1 a c : S62500.Idx → BitVec 32) (ValueIdx.ix1 i)

/-- The grid point of edge i. -/
def ptOf (i : Fin 62500) : Fin (cfg7 a).N := ⟨i.val, lt_of_lt_of_eq i.isLt N_7.symm⟩

/-- The word a point reads of the first table is the table's entry at the point. -/
theorem tw0_at (c : Dev nD) (t : Fin (cfg7 a).N) :
    tw0 tb0 c (crd a t) (T0 a c) = e0At a c ⟨t.val, lt_of_lt_of_eq t.isLt N_7⟩ := by
  refine (P1.tw0_eq tb0 c (crd a t) (T0 a c)).trans ?_
  show (T0 a c : S62500.Idx → BitVec 32) _ = (T0 a c : S62500.Idx → BitVec 32) _
  refine congrArg (T0 a c : S62500.Idx → BitVec 32) (funext fun b => Fin.ext ?_)
  match b with
  | ⟨0, _⟩ => exact coord_val a t

theorem tw1_at (c : Dev nD) (t : Fin (cfg7 a).N) :
    tw1 tb1 c (crd a t) (T1 a c) = e1At a c ⟨t.val, lt_of_lt_of_eq t.isLt N_7⟩ := by
  refine (P1.tw1_eq tb1 c (crd a t) (T1 a c)).trans ?_
  show (T1 a c : S62500.Idx → BitVec 32) _ = (T1 a c : S62500.Idx → BitVec 32) _
  refine congrArg (T1 a c : S62500.Idx → BitVec 32) (funext fun b => Fin.ext ?_)
  match b with
  | ⟨0, _⟩ => exact coord_val a t

include hp0 in
/-- Every entry of the endpoint tables names a row of the node-feature array. -/
theorem e0_lt (c : Dev nD) (i : Fin 62500) : (e0At a c i).toNat < 100000 := by
  have h := P1.toNat_lt_of_chk1 (hp0 c (crd a (ptOf a i)))
  rw [tw0_at] at h
  exact h

include hp1 in
theorem e1_lt (c : Dev nD) (i : Fin 62500) : (e1At a c i).toNat < 100000 := by
  have h := P1.toNat_lt_of_chk2 (hp1 c (crd a (ptOf a i)))
  rw [tw1_at] at h
  exact h

/-- The hidden row of edge i of the chunk, at feature j: the two layers applied to the two rows of the node-feature
    array that entry i of each endpoint table names. -/
def rowval (c : Dev nD) (i : Fin 62500) (j : Fin 64) : EReal :=
  ∑ k : Fin 64,
      max (∑ k' : Fin 128, xArr V c (ValueIdx.ix2 (⟨(e0At a c i).toNat, e0_lt a hp0 c i⟩ : Fin 100000) k') * w1Arr V c (ValueIdx.ix2 k k')
          + ∑ k' : Fin 128, xArr V c (ValueIdx.ix2 (⟨(e1At a c i).toNat, e1_lt a hp1 c i⟩ : Fin 100000) k') * w2Arr V c (ValueIdx.ix2 k k')
          + binArr V c (ValueIdx.ix2 (0 : Fin 1) k)) 0
        * whArr V c (ValueIdx.ix2 j k)
    + bhArr V c (ValueIdx.ix2 (0 : Fin 1) j)

/-- The first row a point fetches, at feature k'. -/
theorem row0_val (c : Dev nD) (t : Fin (cfg7 a).N) (k' : Fin 128) :
    P1.rowAt0 tb0 xM c (crd a t) (T0 a c) (V c main_arg0) (hp0 c (crd a t)) (ValueIdx.ix2 (0 : Fin 1) k')
      = xArr V c (ValueIdx.ix2 (⟨(e0At a c ⟨t.val, lt_of_lt_of_eq t.isLt N_7⟩).toNat, e0_lt a hp0 c _⟩ : Fin 100000) k') := by
  refine (P1.rowAt0_apply tb0 xM c (crd a t) (T0 a c) (V c main_arg0) (hp0 c (crd a t)) k').trans ?_
  show xArr V c _ = xArr V c _
  refine congrArg (xArr V c) (funext fun b => Fin.ext ?_)
  match b with
  | ⟨0, _⟩ =>
    show (tw0 tb0 c (crd a t) (T0 a c)).toNat = (e0At a c ⟨t.val, lt_of_lt_of_eq t.isLt N_7⟩).toNat
    rw [tw0_at]
  | ⟨1, _⟩ => rfl

/-- The second row a point fetches, at feature k'. -/
theorem row1_val (c : Dev nD) (t : Fin (cfg7 a).N) (k' : Fin 128) :
    P1.rowAt1 tb1 xM c (crd a t) (T1 a c) (V c main_arg0) (hp1 c (crd a t)) (ValueIdx.ix2 (0 : Fin 1) k')
      = xArr V c (ValueIdx.ix2 (⟨(e1At a c ⟨t.val, lt_of_lt_of_eq t.isLt N_7⟩).toNat, e1_lt a hp1 c _⟩ : Fin 100000) k') := by
  refine (P1.rowAt1_apply tb1 xM c (crd a t) (T1 a c) (V c main_arg0) (hp1 c (crd a t)) k').trans ?_
  show xArr V c _ = xArr V c _
  refine congrArg (xArr V c) (funext fun b => Fin.ext ?_)
  match b with
  | ⟨0, _⟩ =>
    show (tw1 tb1 c (crd a t) (T1 a c)).toNat = (e1At a c ⟨t.val, lt_of_lt_of_eq t.isLt N_7⟩).toNat
    rw [tw1_at]
  | ⟨1, _⟩ => rfl

/-- A point's hidden row is the hidden row of its edge. -/
theorem hrow_val (c : Dev nD) (t : Fin (cfg7 a).N) (j : Fin 64) :
    P1.hrowG tb0 tb1 xM c (cfg7 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t j
      = rowval V a hp0 hp1 c ⟨t.val, lt_of_lt_of_eq t.isLt N_7⟩ j :=
  P1.hrow_eq_of (P1.rowAt0 tb0 xM c (crd a t) (T0 a c) (V c main_arg0) (hp0 c (crd a t)))
    (P1.rowAt1 tb1 xM c (crd a t) (T1 a c) (V c main_arg0) (hp1 c (crd a t)))
    (iblk V a c 0 t) (iblk V a c 1 t) (iblk V a c 2 t) (iblk V a c 3 t) (iblk V a c 4 t)
    (xArr V c) ⟨(e0At a c ⟨t.val, lt_of_lt_of_eq t.isLt N_7⟩).toNat, e0_lt a hp0 c _⟩
    ⟨(e1At a c ⟨t.val, lt_of_lt_of_eq t.isLt N_7⟩).toNat, e1_lt a hp1 c _⟩
    (w1Arr V c) (w2Arr V c) (binArr V c) (whArr V c) (bhArr V c)
    (row0_val V a hp0 c t) (row1_val V a hp1 c t)
    (iblk_0_eq V a c t) (iblk_1_eq V a c t) (iblk_2_eq V a c t) (iblk_3_eq V a c t) (iblk_4_eq V a c t) j

/-- After point n the first running sum is the sum of the hidden rows of the edges 0 … n. -/
theorem sum_at (c : Dev nD) (j : Fin 64) (n : ℕ) (hn : n < (cfg7 a).N) :
    (stAt V a hp0 hp1 c n hn).1 (ValueIdx.ix2 (0 : Fin 1) j)
      = ∑ i : Fin (n + 1), rowval V a hp0 hp1 c ⟨i.val, lt_of_lt_of_eq (Nat.lt_of_le_of_lt (Nat.le_of_lt_succ i.isLt) hn) N_7⟩ j := by
  unfold stAt
  refine (P1.sumG_at tb0 tb1 xM hM c (cfg7 a).N (crd a) (fun t => iblk V a c 0 t) (fun t => iblk V a c 1 t) (fun t => iblk V a c 2 t) (fun t => iblk V a c 3 t) (fun t => iblk V a c 4 t) (T0 a c) (T1 a c) (V c main_arg0) (V c main_v34_0) (fun t => hp0 c (crd a t)) (fun t => hp1 c (crd a t)) j n hn).trans ?_
  exact Finset.sum_congr rfl fun i _ => hrow_val V a hp0 hp1 c _ j

/-- After point n the second running sum is the sum of the squares of those hidden rows. -/
theorem sq_at (c : Dev nD) (j : Fin 64) (n : ℕ) (hn : n < (cfg7 a).N) :
    (stAt V a hp0 hp1 c n hn).2.1 (ValueIdx.ix2 (0 : Fin 1) j)
      = ∑ i : Fin (n + 1), rowval V a hp0 hp1 c ⟨i.val, lt_of_lt_of_eq (Nat.lt_of_le_of_lt (Nat.le_of_lt_succ i.isLt) hn) N_7⟩ j
          * rowval V a hp0 hp1 c ⟨i.val, lt_of_lt_of_eq (Nat.lt_of_le_of_lt (Nat.le_of_lt_succ i.isLt) hn) N_7⟩ j := by
  unfold stAt
  refine (P1.sumsqG_at tb0 tb1 xM hM c (cfg7 a).N (crd a) (fun t => iblk V a c 0 t) (fun t => iblk V a c 1 t) (fun t => iblk V a c 2 t) (fun t => iblk V a c 3 t) (fun t => iblk V a c 4 t) (T0 a c) (T1 a c) (V c main_arg0) (V c main_v34_0) (fun t => hp0 c (crd a t)) (fun t => hp1 c (crd a t)) j n hn).trans ?_
  exact Finset.sum_congr rfl fun i _ => by rw [hrow_val V a hp0 hp1 c _ j]

/-- The hidden array is read through its whole view as itself. -/
theorem read_hM (c : Dev nD) (f : Bf (F := Ideal) c hM) (y : S62500x64.Idx) :
    hM.view.read (Elt Ideal) f y = (f : S62500x64.Idx → EReal) y := rfl

/-- After n points, row i < n of the hidden array is edge i's hidden row. -/
theorem hid_at (c : Dev nD) (j : Fin 64) (n : ℕ) (hn : n ≤ (cfg7 a).N) (i : ℕ) (hi : i < n) :
    (hAt V a hp0 hp1 c n hn : S62500x64.Idx → EReal) (ValueIdx.ix2 (⟨i, lt_of_lt_of_eq (Nat.lt_of_lt_of_le hi hn) N_7⟩ : Fin 62500) j)
      = rowval V a hp0 hp1 c ⟨i, lt_of_lt_of_eq (Nat.lt_of_lt_of_le hi hn) N_7⟩ j := by
  unfold hAt
  refine (read_hM c _ _).symm.trans ?_
  refine (P1.hG_row_written (F := Ideal) tb0 tb1 xM hM c (cfg7 a).N (crd a) (fun t => iblk V a c 0 t) (fun t => iblk V a c 1 t) (fun t => iblk V a c 2 t) (fun t => iblk V a c 3 t) (fun t => iblk V a c 4 t) (T0 a c) (T1 a c) (V c main_arg0) (V c main_v34_0) (fun t => hp0 c (crd a t)) (fun t => hp1 c (crd a t)) (coord_val a) j n hn i hi).trans ?_
  exact (P1.rowStep_apply tb0 tb1 xM c (cfg7 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) _ j).trans (hrow_val V a hp0 hp1 c _ j)

/-- The two running-sum arrays and the hidden array after the region, each at its literal type. -/
abbrev sumArr (c : Dev nD) : S1x64.Idx → EReal := (dat V a hp0 hp1 c).arrAt 5 (cfg7 a).N
abbrev sqArr (c : Dev nD) : S1x64.Idx → EReal := (dat V a hp0 hp1 c).arrAt 6 (cfg7 a).N
abbrev hidArr (c : Dev nD) : S62500x64.Idx → EReal := hAt V a hp0 hp1 c (cfg7 a).N (Nat.le_refl _)

/-- The last point's index plus one is the number of edges of the chunk. -/
theorem tlast_count : (tlast a).val + 1 = 62500 := rfl

/-- The first running-sum array after the region: the sum over the chunk's edges of their hidden rows. -/
theorem sum_final (c : Dev nD) (j : Fin 64) :
    sumArr V a hp0 hp1 c (ValueIdx.ix2 (0 : Fin 1) j) = ∑ i : Fin 62500, rowval V a hp0 hp1 c i j := by
  refine (sum_arr_apply V a hp0 hp1 c j).trans ((sum_at V a hp0 hp1 c j (tlast a).val (tlast a).isLt).trans ?_)
  exact Fintype.sum_equiv (finCongr (tlast_count a)) _ _ (fun i => rfl)

/-- The second running-sum array after the region: the sum of the squares of those hidden rows. -/
theorem sq_final (c : Dev nD) (j : Fin 64) :
    sqArr V a hp0 hp1 c (ValueIdx.ix2 (0 : Fin 1) j)
      = ∑ i : Fin 62500, rowval V a hp0 hp1 c i j * rowval V a hp0 hp1 c i j := by
  refine (sq_arr_apply V a hp0 hp1 c j).trans ((sq_at V a hp0 hp1 c j (tlast a).val (tlast a).isLt).trans ?_)
  exact Fintype.sum_equiv (finCongr (tlast_count a)) _ _ (fun i => rfl)

/-- The hidden array after the region: row i is edge i's hidden row. -/
theorem hid_final (c : Dev nD) (i : Fin 62500) (j : Fin 64) :
    hidArr V a hp0 hp1 c (ValueIdx.ix2 i j) = rowval V a hp0 hp1 c i j :=
  hid_at V a hp0 hp1 c j (cfg7 a).N (Nat.le_refl _) i.val (lt_of_lt_of_eq i.isLt N_7.symm)

end AtIdeal

end Cert.KernelIdeal.P1R7

end
-- ==== Proof.P1R7Fin.lean ====
/- The first launch's results are its chunk's hidden values.

   The launch walks the 62500 edges of its chunk: at edge i it fetches the two rows of the node-feature array that entry i of
   its two endpoint tables names, applies the two layers, writes the hidden row and adds it, and its square, to two running
   sums. Its tables are the chunk's pieces of the edge array's two rows, and the weights it reads are the argument arrays'
   (the first layer's weights in two halves). So row i of its rows result is the hidden value of edge i of the chunk in the
   by-endpoint form, and its two sums are the sums of those values and of their squares over the chunk. -/
import proofs.«400866_j57071525429608_2_alg».proof.Proof.P1R7Val
import proofs.«400866_j57071525429608_2_alg».proof.Proof.HostHead
import proofs.«400866_j57071525429608_2_alg».proof.Proof.TblFacts
import proofs.«400866_j57071525429608_2_alg».proof.Proof.HostTail
import proofs.«400866_j57071525429608_2_alg».proof.Proof.KVal
import proofs.«400866_j57071525429608_2_alg».proof.Proof.Spec
import Idealize.ShloMosaic.Lib.ValueIdx

set_option maxRecDepth 16384

noncomputable section

namespace Cert.KernelIdeal.P1R7

open Cert.KernelIdeal Cert.KernelIdeal.Gen
open Idealize.ShloMosaic Idealize.ShloMosaic.TcCoe
open Cert.KernelIdeal.P1 (Bf tw0 tw1)
open scoped BigOperators

/-! ## The launch -/

/-- The launch's chunk among the sixteen. -/
abbrev KK : Fin 16 := ⟨7, by omega⟩
/-- The launch among the seventeen regions. -/
abbrev KK17 : Fin 17 := ⟨7, by omega⟩
/-- The buffers' contents when the launch is entered. -/
abbrev Ventry (m : (ℓ : Loc nD τ sig) → Buf (Elt Ideal) ℓ) (outs : Outs (F := Ideal)) (c : Dev nD) : Valuation τ sig (Elt Ideal) := V15 m outs c
/-- They are the entry contents the host operations' facts are stated at. -/
theorem Ventry_eq (m : (ℓ : Loc nD τ sig) → Buf (Elt Ideal) ℓ) (outs : Outs (F := Ideal)) (c : Dev nD) :
    Head.Vodd m outs c KK17 = Ventry m outs c := Head.Vodd_7 m outs c _

variable (m : (ℓ : Loc nD τ sig) → Buf (Elt Ideal) ℓ) (outs : Outs (F := Ideal)) (c : Dev nD)
variable (a : (pcfg7 (F := Ideal)).Adm)
variable (hp0 : ∀ c (i : grid7.Coords), k7_chk1 (tw0 tb0 c i (T0 a c))) (hp1 : ∀ c (i : grid7.Coords), k7_chk2 (tw1 tb1 c i (T1 a c)))

/-- The entry contents as the launch's value lemmas take them. -/
abbrev VV : (c : Dev nD) → (b : Ref sig .tc) → Buf (Elt Ideal) ((c : Thread nD τ).loc b) := fun c b => Ventry m outs c b

/-! ## The tables' words are the chunk's endpoints -/

/-- Entry `i` of the first table names the first endpoint of edge `i` of the chunk. -/
theorem e0_eq (hT0 : (T0 a c : S62500.Idx → BitVec 32) = (Tbl.tblA m outs c KK : IVec S62500 32)) (i : Fin 62500) :
    (⟨(e0At a c i).toNat, e0_lt a hp0 c i⟩ : Fin 100000) = Cert.Spec.endpoint (KVal.edgesA m c) 0 (Cert.Spec.chunk KK i) := by
  have hw : e0At a c i = (KVal.edgesA m c) (ValueIdx.ix2 (0 : Fin 2) (Cert.Spec.chunk KK i)) := by
    show (T0 a c : S62500.Idx → BitVec 32) (ValueIdx.ix1 i) = _
    rw [hT0]
    exact Tbl.tblA_apply m outs c KK i
  have hlt := e0_lt a hp0 c i
  rw [hw] at hlt
  refine Fin.ext ?_
  show (e0At a c i).toNat = (Cert.Spec.node _).val
  rw [Cert.Spec.node_val_of_toNat_lt hlt, hw]

/-- Entry `i` of the second table names the second endpoint. -/
theorem e1_eq (hT1 : (T1 a c : S62500.Idx → BitVec 32) = (Tbl.tblB m outs c KK : IVec S62500 32)) (i : Fin 62500) :
    (⟨(e1At a c i).toNat, e1_lt a hp1 c i⟩ : Fin 100000) = Cert.Spec.endpoint (KVal.edgesA m c) 1 (Cert.Spec.chunk KK i) := by
  have hw : e1At a c i = (KVal.edgesA m c) (ValueIdx.ix2 (1 : Fin 2) (Cert.Spec.chunk KK i)) := by
    show (T1 a c : S62500.Idx → BitVec 32) (ValueIdx.ix1 i) = _
    rw [hT1]
    exact Tbl.tblB_apply m outs c KK i
  have hlt := e1_lt a hp1 c i
  rw [hw] at hlt
  refine Fin.ext ?_
  show (e1At a c i).toNat = (Cert.Spec.node _).val
  rw [Cert.Spec.node_val_of_toNat_lt hlt, hw]

/-! ## The arrays the launch reads are the arguments' -/

theorem x_eq : xArr (VV m outs) c = KVal.xA m c := by
  show Ventry m outs c main_arg0 = _
  rw [← Ventry_eq m outs c]
  exact Head.arg0_keep m outs c KK17
theorem wh_eq : whArr (VV m outs) c = KVal.WhA m c := by
  show Ventry m outs c main_arg4 = _
  rw [← Ventry_eq m outs c]
  exact Head.arg4_keep m outs c KK17
theorem w1_apply (k : Fin 64) (k' : Fin 128) :
    w1Arr (VV m outs) c (ValueIdx.ix2 k k') = KVal.WinA m c (ValueIdx.ix2 k (⟨k'.val, by omega⟩ : Fin 256)) := by
  show (Ventry m outs c main_v4 : S64x128.Idx → EReal) (ValueIdx.ix2 k k') = _
  rw [← Ventry_eq m outs c]
  exact Head.v4_apply m outs c KK17 k k'
theorem w2_apply (k : Fin 64) (k' : Fin 128) :
    w2Arr (VV m outs) c (ValueIdx.ix2 k k') = KVal.WinA m c (ValueIdx.ix2 k (⟨128 + k'.val, by omega⟩ : Fin 256)) := by
  show (Ventry m outs c main_v5 : S64x128.Idx → EReal) (ValueIdx.ix2 k k') = _
  rw [← Ventry_eq m outs c]
  exact Head.v5_apply m outs c KK17 k k'
theorem bin_apply (k : Fin 64) :
    binArr (VV m outs) c (ValueIdx.ix2 (0 : Fin 1) k) = KVal.binA m c (ValueIdx.ix1 k) := by
  show (Ventry m outs c main_v6 : S1x64.Idx → EReal) (ValueIdx.ix2 (0 : Fin 1) k) = _
  rw [← Ventry_eq m outs c]
  exact Head.v6_apply m outs c KK17 k
theorem bh_apply (j : Fin 64) :
    bhArr (VV m outs) c (ValueIdx.ix2 (0 : Fin 1) j) = KVal.bhA m c (ValueIdx.ix1 j) := by
  show (Ventry m outs c main_v7 : S1x64.Idx → EReal) (ValueIdx.ix2 (0 : Fin 1) j) = _
  rw [← Ventry_eq m outs c]
  exact Head.v7_apply m outs c KK17 j

/-! ## The launch's hidden row is the chunk's hidden value -/

theorem rowval_eq (hT0 : (T0 a c : S62500.Idx → BitVec 32) = (Tbl.tblA m outs c KK : IVec S62500 32))
    (hT1 : (T1 a c : S62500.Idx → BitVec 32) = (Tbl.tblB m outs c KK : IVec S62500 32)) (i : Fin 62500) (j : Fin 64) :
    rowval (VV m outs) a hp0 hp1 c i j = KVal.hid m c (Cert.Spec.chunk KK i) j := by
  unfold rowval KVal.hid
  rw [e0_eq m outs c a hp0 hT0 i, e1_eq m outs c a hp1 hT1 i, x_eq m outs c, wh_eq m outs c]
  simp only [w1_apply m outs c, w2_apply m outs c, bin_apply m outs c, bh_apply m outs c]

/-! ## The three results -/

/-- Row `i` of the rows result is the hidden value of edge `i` of the chunk. -/
theorem chunkRow_eq (hT0 : (T0 a c : S62500.Idx → BitVec 32) = (Tbl.tblA m outs c KK : IVec S62500 32))
    (hT1 : (T1 a c : S62500.Idx → BitVec 32) = (Tbl.tblB m outs c KK : IVec S62500 32))
    (hR0 : (Tail.res0 outs c KK : S62500x64.Idx → EReal) = hidArr (VV m outs) a hp0 hp1 c)
    (i : Fin 62500) (j : Fin 64) : Tail.chunkRow outs c KK i j = KVal.HID m c KK i j := by
  show (Tail.res0 outs c KK : S62500x64.Idx → EReal) (ValueIdx.ix2 i j) = _
  rw [hR0]
  exact (hid_final (VV m outs) a hp0 hp1 c i j).trans (rowval_eq m outs c a hp0 hp1 hT0 hT1 i j)

/-- The sums result is the sum of the chunk's hidden values. -/
theorem chunkSum_eq (hT0 : (T0 a c : S62500.Idx → BitVec 32) = (Tbl.tblA m outs c KK : IVec S62500 32))
    (hT1 : (T1 a c : S62500.Idx → BitVec 32) = (Tbl.tblB m outs c KK : IVec S62500 32))
    (hR1 : (Tail.res1 outs c KK : S1x64.Idx → EReal) = sumArr (VV m outs) a hp0 hp1 c)
    (j : Fin 64) : Tail.chunkSum outs c KK j = ∑ i : Fin 62500, KVal.HID m c KK i j := by
  show (Tail.res1 outs c KK : S1x64.Idx → EReal) (ValueIdx.ix2 (0 : Fin 1) j) = _
  rw [hR1]
  exact (sum_final (VV m outs) a hp0 hp1 c j).trans (Finset.sum_congr rfl fun i _ => rowval_eq m outs c a hp0 hp1 hT0 hT1 i j)

/-- The sums-of-squares result is the sum of their squares. -/
theorem chunkSq_eq (hT0 : (T0 a c : S62500.Idx → BitVec 32) = (Tbl.tblA m outs c KK : IVec S62500 32))
    (hT1 : (T1 a c : S62500.Idx → BitVec 32) = (Tbl.tblB m outs c KK : IVec S62500 32))
    (hR2 : (Tail.res2 outs c KK : S1x64.Idx → EReal) = sqArr (VV m outs) a hp0 hp1 c)
    (j : Fin 64) : Tail.chunkSq outs c KK j = ∑ i : Fin 62500, KVal.HID m c KK i j * KVal.HID m c KK i j := by
  show (Tail.res2 outs c KK : S1x64.Idx → EReal) (ValueIdx.ix2 (0 : Fin 1) j) = _
  rw [hR2]
  exact (sq_final (VV m outs) a hp0 hp1 c j).trans
    (Finset.sum_congr rfl fun i _ => by rw [rowval_eq m outs c a hp0 hp1 hT0 hT1 i j])

end Cert.KernelIdeal.P1R7

end
-- ==== Proof.P1R7Top.lean ====
/- The first launch's results are its chunk's hidden values, at the run's own choices.

   The run fixes what every region leaves (the unknowns), each launch's tables and the contents each launch is entered
   from. At those choices nothing is left to assume: the launch's tables are its chunk's pieces of the edge array's rows,
   its results are what its proof data leave, and so its rows are the chunk's hidden values and its two sums their sums
   and sums of squares. -/
import proofs.«400866_j57071525429608_2_alg».proof.Proof.P1R7Fin
import proofs.«400866_j57071525429608_2_alg».proof.Proof.GlueVal

set_option maxRecDepth 16384

noncomputable section

namespace Cert.KernelIdeal.P1R7

open Cert.KernelIdeal Cert.KernelIdeal.Gen
open Idealize.ShloMosaic Idealize.ShloMosaic.TcCoe
open Cert.KernelIdeal.P1 (Bf tw0 tw1)
open Cert.KernelIdeal.Glue (atTc)
open scoped BigOperators

/-! ## The run's choices for this launch -/

/-- The launch's tables, admissible. -/
abbrev gA (m : (ℓ : Loc nD τ sig) → Buf (Elt Ideal) ℓ) : (pcfg7 (F := Ideal)).Adm := Glue.adm7 m
/-- The contents it is entered from, as the run names them. -/
abbrev gW (m : (ℓ : Loc nD τ sig) → Buf (Elt Ideal) ℓ)
    (hE : ∀ (c : Dev nD) (idx : S2x1000000.Idx), ((V0 m c main_arg1 : IVec S2x1000000 32) idx).toNat < 100000) :
    Dev nD → Valuation τ sig (Elt Ideal) := Glue.W15 m hE

variable (m : (ℓ : Loc nD τ sig) → Buf (Elt Ideal) ℓ)
  (hE : ∀ (c : Dev nD) (idx : S2x1000000.Idx), ((V0 m c main_arg1 : IVec S2x1000000 32) idx).toNat < 100000)
  (c : Dev nD)

include hE

/-- The words it reads of them name rows of the node table. -/
theorem gP0 : ∀ c (i : grid7.Coords), k7_chk1 (tw0 tb0 c i (T0 (gA m) c)) := Glue.hp0_7 m hE
theorem gP1 : ∀ c (i : grid7.Coords), k7_chk2 (tw1 tb1 c i (T1 (gA m) c)) := Glue.hp1_7 m hE
/-- The contents it is entered from are the valuation's. -/
theorem gV : Ventry m (Glue.outs m hE) c = gW m hE c := Glue.V15_eq m hE c
/-- The tables it finds in the buffers are its own. -/
theorem gTA : (T0 (gA m) c : S62500.Idx → BitVec 32) = (Tbl.tblA m (Glue.outs m hE) c KK : IVec S62500 32) :=
  ((Glue.hT0_7 m hE c).symm.trans (congrFun (gV m hE c) (Proc.devRef .tc main_v32)).symm :)
theorem gTB : (T1 (gA m) c : S62500.Idx → BitVec 32) = (Tbl.tblB m (Glue.outs m hE) c KK : IVec S62500 32) :=
  ((Glue.hT1_7 m hE c).symm.trans (congrFun (gV m hE c) (Proc.devRef .tc main_v33)).symm :)
/-- What it leaves at its three results. -/
theorem gR0 : (Tail.res0 (Glue.outs m hE) c KK : S62500x64.Idx → EReal) = hidArr (atTc (gW m hE)) (gA m) (gP0 m hE) (gP1 m hE) c :=
  Glue.res0_7 m hE c
theorem gR1 : (Tail.res1 (Glue.outs m hE) c KK : S1x64.Idx → EReal) = sumArr (atTc (gW m hE)) (gA m) (gP0 m hE) (gP1 m hE) c :=
  Glue.res1_7 m hE c
theorem gR2 : (Tail.res2 (Glue.outs m hE) c KK : S1x64.Idx → EReal) = sqArr (atTc (gW m hE)) (gA m) (gP0 m hE) (gP1 m hE) c :=
  Glue.res2_7 m hE c

/-! ## The three facts, nothing assumed -/

/-- The entry contents the launch's value lemmas take are the run's. -/
theorem VV_eq : VV m (Glue.outs m hE) = atTc (gW m hE) :=
  funext fun c => funext fun b => congrFun (gV m hE c) (Proc.devRef .tc b)

/-- Row `i` of the launch's rows is the hidden value of edge `i` of its chunk. -/
theorem row_top (i : Fin 62500) (j : Fin 64) : Tail.chunkRow (Glue.outs m hE) c KK i j = KVal.HID m c KK i j :=
  chunkRow_eq m (Glue.outs m hE) c (gA m) (gP0 m hE) (gP1 m hE) (gTA m hE c) (gTB m hE c)
    (by rw [VV_eq m hE]; exact gR0 m hE c) i j

/-- Its sums are the sums of those values over the chunk. -/
theorem sum_top (j : Fin 64) : Tail.chunkSum (Glue.outs m hE) c KK j = ∑ i : Fin 62500, KVal.HID m c KK i j :=
  chunkSum_eq m (Glue.outs m hE) c (gA m) (gP0 m hE) (gP1 m hE) (gTA m hE c) (gTB m hE c)
    (by rw [VV_eq m hE]; exact gR1 m hE c) j

/-- Its sums of squares are the sums of their squares. -/
theorem sq_top (j : Fin 64) :
    Tail.chunkSq (Glue.outs m hE) c KK j = ∑ i : Fin 62500, KVal.HID m c KK i j * KVal.HID m c KK i j :=
  chunkSq_eq m (Glue.outs m hE) c (gA m) (gP0 m hE) (gP1 m hE) (gTA m hE c) (gTB m hE c)
    (by rw [VV_eq m hE]; exact gR2 m hE c) j

end Cert.KernelIdeal.P1R7

end
-- ==== Proof.P1R8Val.lean ====
/-
  A gather-and-project region (one chunk of 62500 edges), from blocks to arrays.

  The five parameter windows never move: each one's block is its whole array. The two running-sum
  windows never move either and are written back once, after the last point, so their arrays end
  holding what the last point left. Put together with the recursion over the points, at the ideal
  values: the first array ends at the sum over the chunk's 62500 edges of their hidden rows, the
  second at the sum of the squares, and row i of the hidden array is edge i's hidden row — where the
  hidden row of edge i is the two layers applied to the two rows of the node-feature array that entry
  i of each endpoint table names.
-/
import proofs.«400866_j57071525429608_2_alg».proof.Proof.P1R8Dat
import proofs.«400866_j57071525429608_2_alg».proof.Proof.P1StateVal
import proofs.«400866_j57071525429608_2_alg».proof.Proof.P1Val
import Idealize.ShloMosaic.Lib.Pipeline.Value
import Idealize.ShloMosaic.Lib.ValueIdx
import Mathlib.Algebra.BigOperators.Fin

set_option maxRecDepth 100000

noncomputable section

namespace Cert.KernelIdeal.P1R8

open Cert.KernelIdeal Cert.KernelIdeal.Gen
open Idealize.ShloMosaic Idealize.ShloMosaic.TcCoe
open Idealize.ShloMosaic.Pipeline (Dat)
open Cert.KernelIdeal.P1 (Bf tw0 tw1 hNext)
open scoped BigOperators

/-! ## From blocks to arrays (any float values) -/

section Arrays

variable {F : FTy → Type} [FloatOps F]
variable (V : (c : Dev nD) → (b : Ref sig .tc) → Buf (Elt F) ((c : Thread nD τ).loc b))
variable (a : (pcfg8 (F := F)).Adm)
variable (hp0 : ∀ c (i : grid8.Coords), k8_chk1 (tw0 tb0 c i (T0 a c))) (hp1 : ∀ c (i : grid8.Coords), k8_chk2 (tw1 tb1 c i (T1 a c)))

/-- The last grid point. -/
def tlast : Fin (cfg8 a).N := ⟨62499, lt_of_lt_of_eq (by decide : 62499 < 62500) N_8.symm⟩

theorem tlast_succ : (tlast a).val + 1 = (cfg8 a).N := N_8.symm

/-- The first half of the first layer's weights: the block is the array. -/
theorem iblk_0_eq (c : Dev nD) (t : Fin (cfg8 a).N) : (iblk V a c 0 t : S64x128.Idx → Elt F .f32) = V c main_v4 := by
  refine funext fun (y : S64x128.Idx) => ?_
  show (V c main_v4 : S64x128.Idx → Elt F .f32) ((((cfg8 a).win 0).blk t).view.emb y) = _
  congr 1; funext b; apply Fin.ext
  match b with
  | ⟨0, _⟩ =>
    show ((cfg8 a).win 0).index t (0 : Fin 2) * 64 + 1 * (y 0).val = (y 0).val
    rw [show ((cfg8 a).win 0).index t (0 : Fin 2) = 0 from rfl]; omega
  | ⟨1, _⟩ =>
    show ((cfg8 a).win 0).index t (1 : Fin 2) * 128 + 1 * (y 1).val = (y 1).val
    rw [show ((cfg8 a).win 0).index t (1 : Fin 2) = 0 from rfl]; omega

/-- The second half of the first layer's weights: the block is the array. -/
theorem iblk_1_eq (c : Dev nD) (t : Fin (cfg8 a).N) : (iblk V a c 1 t : S64x128.Idx → Elt F .f32) = V c main_v5 := by
  refine funext fun (y : S64x128.Idx) => ?_
  show (V c main_v5 : S64x128.Idx → Elt F .f32) ((((cfg8 a).win 1).blk t).view.emb y) = _
  congr 1; funext b; apply Fin.ext
  match b with
  | ⟨0, _⟩ =>
    show ((cfg8 a).win 1).index t (0 : Fin 2) * 64 + 1 * (y 0).val = (y 0).val
    rw [show ((cfg8 a).win 1).index t (0 : Fin 2) = 0 from rfl]; omega
  | ⟨1, _⟩ =>
    show ((cfg8 a).win 1).index t (1 : Fin 2) * 128 + 1 * (y 1).val = (y 1).val
    rw [show ((cfg8 a).win 1).index t (1 : Fin 2) = 0 from rfl]; omega

/-- The first layer's bias: the block is the array. -/
theorem iblk_2_eq (c : Dev nD) (t : Fin (cfg8 a).N) : (iblk V a c 2 t : S1x64.Idx → Elt F .f32) = V c main_v6 := by
  refine funext fun (y : S1x64.Idx) => ?_
  show (V c main_v6 : S1x64.Idx → Elt F .f32) ((((cfg8 a).win 2).blk t).view.emb y) = _
  congr 1; funext b; apply Fin.ext
  match b with
  | ⟨0, _⟩ =>
    show ((cfg8 a).win 2).index t (0 : Fin 2) * 1 + 1 * (y 0).val = (y 0).val
    rw [show ((cfg8 a).win 2).index t (0 : Fin 2) = 0 from rfl]; omega
  | ⟨1, _⟩ =>
    show ((cfg8 a).win 2).index t (1 : Fin 2) * 64 + 1 * (y 1).val = (y 1).val
    rw [show ((cfg8 a).win 2).index t (1 : Fin 2) = 0 from rfl]; omega

/-- The second layer's weights: the block is the array. -/
theorem iblk_3_eq (c : Dev nD) (t : Fin (cfg8 a).N) : (iblk V a c 3 t : S64x64.Idx → Elt F .f32) = V c main_arg4 := by
  refine funext fun (y : S64x64.Idx) => ?_
  show (V c main_arg4 : S64x64.Idx → Elt F .f32) ((((cfg8 a).win 3).blk t).view.emb y) = _
  congr 1; funext b; apply Fin.ext
  match b with
  | ⟨0, _⟩ =>
    show ((cfg8 a).win 3).index t (0 : Fin 2) * 64 + 1 * (y 0).val = (y 0).val
    rw [show ((cfg8 a).win 3).index t (0 : Fin 2) = 0 from rfl]; omega
  | ⟨1, _⟩ =>
    show ((cfg8 a).win 3).index t (1 : Fin 2) * 64 + 1 * (y 1).val = (y 1).val
    rw [show ((cfg8 a).win 3).index t (1 : Fin 2) = 0 from rfl]; omega

/-- The second layer's bias: the block is the array. -/
theorem iblk_4_eq (c : Dev nD) (t : Fin (cfg8 a).N) : (iblk V a c 4 t : S1x64.Idx → Elt F .f32) = V c main_v7 := by
  refine funext fun (y : S1x64.Idx) => ?_
  show (V c main_v7 : S1x64.Idx → Elt F .f32) ((((cfg8 a).win 4).blk t).view.emb y) = _
  congr 1; funext b; apply Fin.ext
  match b with
  | ⟨0, _⟩ =>
    show ((cfg8 a).win 4).index t (0 : Fin 2) * 1 + 1 * (y 0).val = (y 0).val
    rw [show ((cfg8 a).win 4).index t (0 : Fin 2) = 0 from rfl]; omega
  | ⟨1, _⟩ =>
    show ((cfg8 a).win 4).index t (1 : Fin 2) * 64 + 1 * (y 1).val = (y 1).val
    rw [show ((cfg8 a).win 4).index t (1 : Fin 2) = 0 from rfl]; omega

/-- Window 5 is written back at the last point and at no other: its block never moves. -/
theorem flush5_iff (t : Fin (cfg8 a).N) : ((cfg8 a).win 5).flush t = true ↔ t.val + 1 = (cfg8 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint5 : ∀ t t' : Fin (cfg8 a).N, ((cfg8 a).win 5).flush t = true → ((cfg8 a).win 5).flush t' = true → t ≠ t' →
    Disjoint (((cfg8 a).win 5).blk t).view.set (((cfg8 a).win 5).blk t').view.set :=
  fun t t' h h' hne => absurd (Fin.ext (by
    have e := (flush5_iff a t).mp h
    have e' := (flush5_iff a t').mp h'
    omega)) hne

/-- Where feature j of window 5's block sits in its array: at feature j. -/
theorem emb5 (t : Fin (cfg8 a).N) (j : Fin 64) :
    (((cfg8 a).win 5).blk t).view.emb (ValueIdx.ix2 (0 : Fin 1) j) = ValueIdx.ix2 (0 : Fin 1) j := by
  funext b; apply Fin.ext
  match b with
  | ⟨0, _⟩ =>
    show ((cfg8 a).win 5).index t (0 : Fin 2) * 1 + 1 * 0 = 0
    rw [show ((cfg8 a).win 5).index t (0 : Fin 2) = 0 from rfl]
  | ⟨1, _⟩ =>
    show ((cfg8 a).win 5).index t (1 : Fin 2) * 64 + 1 * j.val = j.val
    rw [show ((cfg8 a).win 5).index t (1 : Fin 2) = 0 from rfl]; omega

theorem sum_arr_apply (c : Dev nD) (j : Fin 64) :
    ((dat V a hp0 hp1 c).arrAt 5 (cfg8 a).N : S1x64.Idx → Elt F .f32) (ValueIdx.ix2 (0 : Fin 1) j)
      = (stAt V a hp0 hp1 c (tlast a).val (tlast a).isLt).1 (ValueIdx.ix2 (0 : Fin 1) j) := by
  have h := (dat V a hp0 hp1 c).arrAt_emb_eq_flushed 5 (disjoint5 a) (tlast a) ((flush5_iff a (tlast a)).mpr (tlast_succ a))
    (ValueIdx.ix2 (0 : Fin 1) j)
  rw [emb5] at h
  refine h.trans ?_
  show (dat V a hp0 hp1 c).after 5 (tlast a) (ValueIdx.ix2 (0 : Fin 1) j) = _
  rw [after_5]

/-- The array of window 5 after the region is what the last point left. -/
theorem sum_arr (c : Dev nD) :
    ((dat V a hp0 hp1 c).arrAt 5 (cfg8 a).N : S1x64.Idx → Elt F .f32) = (stAt V a hp0 hp1 c (tlast a).val (tlast a).isLt).1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sum_arr_apply V a hp0 hp1 c j

/-- Window 6 is written back at the last point and at no other: its block never moves. -/
theorem flush6_iff (t : Fin (cfg8 a).N) : ((cfg8 a).win 6).flush t = true ↔ t.val + 1 = (cfg8 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint6 : ∀ t t' : Fin (cfg8 a).N, ((cfg8 a).win 6).flush t = true → ((cfg8 a).win 6).flush t' = true → t ≠ t' →
    Disjoint (((cfg8 a).win 6).blk t).view.set (((cfg8 a).win 6).blk t').view.set :=
  fun t t' h h' hne => absurd (Fin.ext (by
    have e := (flush6_iff a t).mp h
    have e' := (flush6_iff a t').mp h'
    omega)) hne

/-- Where feature j of window 6's block sits in its array: at feature j. -/
theorem emb6 (t : Fin (cfg8 a).N) (j : Fin 64) :
    (((cfg8 a).win 6).blk t).view.emb (ValueIdx.ix2 (0 : Fin 1) j) = ValueIdx.ix2 (0 : Fin 1) j := by
  funext b; apply Fin.ext
  match b with
  | ⟨0, _⟩ =>
    show ((cfg8 a).win 6).index t (0 : Fin 2) * 1 + 1 * 0 = 0
    rw [show ((cfg8 a).win 6).index t (0 : Fin 2) = 0 from rfl]
  | ⟨1, _⟩ =>
    show ((cfg8 a).win 6).index t (1 : Fin 2) * 64 + 1 * j.val = j.val
    rw [show ((cfg8 a).win 6).index t (1 : Fin 2) = 0 from rfl]; omega

theorem sq_arr_apply (c : Dev nD) (j : Fin 64) :
    ((dat V a hp0 hp1 c).arrAt 6 (cfg8 a).N : S1x64.Idx → Elt F .f32) (ValueIdx.ix2 (0 : Fin 1) j)
      = (stAt V a hp0 hp1 c (tlast a).val (tlast a).isLt).2.1 (ValueIdx.ix2 (0 : Fin 1) j) := by
  have h := (dat V a hp0 hp1 c).arrAt_emb_eq_flushed 6 (disjoint6 a) (tlast a) ((flush6_iff a (tlast a)).mpr (tlast_succ a))
    (ValueIdx.ix2 (0 : Fin 1) j)
  rw [emb6] at h
  refine h.trans ?_
  show (dat V a hp0 hp1 c).after 6 (tlast a) (ValueIdx.ix2 (0 : Fin 1) j) = _
  rw [after_6]

/-- The array of window 6 after the region is what the last point left. -/
theorem sq_arr (c : Dev nD) :
    ((dat V a hp0 hp1 c).arrAt 6 (cfg8 a).N : S1x64.Idx → Elt F .f32) = (stAt V a hp0 hp1 c (tlast a).val (tlast a).isLt).2.1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sq_arr_apply V a hp0 hp1 c j

end Arrays

/-! ## The values, at the ideal instance -/

section AtIdeal

variable (V : (c : Dev nD) → (b : Ref sig .tc) → Buf (Elt Ideal) ((c : Thread nD τ).loc b))
variable (a : (pcfg8 (F := Ideal)).Adm)
variable (hp0 : ∀ c (i : grid8.Coords), k8_chk1 (tw0 tb0 c i (T0 a c))) (hp1 : ∀ c (i : grid8.Coords), k8_chk2 (tw1 tb1 c i (T1 a c)))

/-- The arrays the region reads, each at its literal type. -/
abbrev xArr (c : Dev nD) : S100000x128.Idx → EReal := V c main_arg0
abbrev w1Arr (c : Dev nD) : S64x128.Idx → EReal := V c main_v4
abbrev w2Arr (c : Dev nD) : S64x128.Idx → EReal := V c main_v5
abbrev binArr (c : Dev nD) : S1x64.Idx → EReal := V c main_v6
abbrev whArr (c : Dev nD) : S64x64.Idx → EReal := V c main_arg4
abbrev bhArr (c : Dev nD) : S1x64.Idx → EReal := V c main_v7
/-- Entry i of each endpoint table. -/
abbrev e0At (c : Dev nD) (i : Fin 62500) : BitVec 32 := (T0 a c : S62500.Idx → BitVec 32) (ValueIdx.ix1 i)
abbrev e1At (c : Dev nD) (i : Fin 62500) : BitVec 32 := (T1 a c : S62500.Idx → BitVec 32) (ValueIdx.ix1 i)

/-- The grid point of edge i. -/
def ptOf (i : Fin 62500) : Fin (cfg8 a).N := ⟨i.val, lt_of_lt_of_eq i.isLt N_8.symm⟩

/-- The word a point reads of the first table is the table's entry at the point. -/
theorem tw0_at (c : Dev nD) (t : Fin (cfg8 a).N) :
    tw0 tb0 c (crd a t) (T0 a c) = e0At a c ⟨t.val, lt_of_lt_of_eq t.isLt N_8⟩ := by
  refine (P1.tw0_eq tb0 c (crd a t) (T0 a c)).trans ?_
  show (T0 a c : S62500.Idx → BitVec 32) _ = (T0 a c : S62500.Idx → BitVec 32) _
  refine congrArg (T0 a c : S62500.Idx → BitVec 32) (funext fun b => Fin.ext ?_)
  match b with
  | ⟨0, _⟩ => exact coord_val a t

theorem tw1_at (c : Dev nD) (t : Fin (cfg8 a).N) :
    tw1 tb1 c (crd a t) (T1 a c) = e1At a c ⟨t.val, lt_of_lt_of_eq t.isLt N_8⟩ := by
  refine (P1.tw1_eq tb1 c (crd a t) (T1 a c)).trans ?_
  show (T1 a c : S62500.Idx → BitVec 32) _ = (T1 a c : S62500.Idx → BitVec 32) _
  refine congrArg (T1 a c : S62500.Idx → BitVec 32) (funext fun b => Fin.ext ?_)
  match b with
  | ⟨0, _⟩ => exact coord_val a t

include hp0 in
/-- Every entry of the endpoint tables names a row of the node-feature array. -/
theorem e0_lt (c : Dev nD) (i : Fin 62500) : (e0At a c i).toNat < 100000 := by
  have h := P1.toNat_lt_of_chk1 (hp0 c (crd a (ptOf a i)))
  rw [tw0_at] at h
  exact h

include hp1 in
theorem e1_lt (c : Dev nD) (i : Fin 62500) : (e1At a c i).toNat < 100000 := by
  have h := P1.toNat_lt_of_chk2 (hp1 c (crd a (ptOf a i)))
  rw [tw1_at] at h
  exact h

/-- The hidden row of edge i of the chunk, at feature j: the two layers applied to the two rows of the node-feature
    array that entry i of each endpoint table names. -/
def rowval (c : Dev nD) (i : Fin 62500) (j : Fin 64) : EReal :=
  ∑ k : Fin 64,
      max (∑ k' : Fin 128, xArr V c (ValueIdx.ix2 (⟨(e0At a c i).toNat, e0_lt a hp0 c i⟩ : Fin 100000) k') * w1Arr V c (ValueIdx.ix2 k k')
          + ∑ k' : Fin 128, xArr V c (ValueIdx.ix2 (⟨(e1At a c i).toNat, e1_lt a hp1 c i⟩ : Fin 100000) k') * w2Arr V c (ValueIdx.ix2 k k')
          + binArr V c (ValueIdx.ix2 (0 : Fin 1) k)) 0
        * whArr V c (ValueIdx.ix2 j k)
    + bhArr V c (ValueIdx.ix2 (0 : Fin 1) j)

/-- The first row a point fetches, at feature k'. -/
theorem row0_val (c : Dev nD) (t : Fin (cfg8 a).N) (k' : Fin 128) :
    P1.rowAt0 tb0 xM c (crd a t) (T0 a c) (V c main_arg0) (hp0 c (crd a t)) (ValueIdx.ix2 (0 : Fin 1) k')
      = xArr V c (ValueIdx.ix2 (⟨(e0At a c ⟨t.val, lt_of_lt_of_eq t.isLt N_8⟩).toNat, e0_lt a hp0 c _⟩ : Fin 100000) k') := by
  refine (P1.rowAt0_apply tb0 xM c (crd a t) (T0 a c) (V c main_arg0) (hp0 c (crd a t)) k').trans ?_
  show xArr V c _ = xArr V c _
  refine congrArg (xArr V c) (funext fun b => Fin.ext ?_)
  match b with
  | ⟨0, _⟩ =>
    show (tw0 tb0 c (crd a t) (T0 a c)).toNat = (e0At a c ⟨t.val, lt_of_lt_of_eq t.isLt N_8⟩).toNat
    rw [tw0_at]
  | ⟨1, _⟩ => rfl

/-- The second row a point fetches, at feature k'. -/
theorem row1_val (c : Dev nD) (t : Fin (cfg8 a).N) (k' : Fin 128) :
    P1.rowAt1 tb1 xM c (crd a t) (T1 a c) (V c main_arg0) (hp1 c (crd a t)) (ValueIdx.ix2 (0 : Fin 1) k')
      = xArr V c (ValueIdx.ix2 (⟨(e1At a c ⟨t.val, lt_of_lt_of_eq t.isLt N_8⟩).toNat, e1_lt a hp1 c _⟩ : Fin 100000) k') := by
  refine (P1.rowAt1_apply tb1 xM c (crd a t) (T1 a c) (V c main_arg0) (hp1 c (crd a t)) k').trans ?_
  show xArr V c _ = xArr V c _
  refine congrArg (xArr V c) (funext fun b => Fin.ext ?_)
  match b with
  | ⟨0, _⟩ =>
    show (tw1 tb1 c (crd a t) (T1 a c)).toNat = (e1At a c ⟨t.val, lt_of_lt_of_eq t.isLt N_8⟩).toNat
    rw [tw1_at]
  | ⟨1, _⟩ => rfl

/-- A point's hidden row is the hidden row of its edge. -/
theorem hrow_val (c : Dev nD) (t : Fin (cfg8 a).N) (j : Fin 64) :
    P1.hrowG tb0 tb1 xM c (cfg8 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t j
      = rowval V a hp0 hp1 c ⟨t.val, lt_of_lt_of_eq t.isLt N_8⟩ j :=
  P1.hrow_eq_of (P1.rowAt0 tb0 xM c (crd a t) (T0 a c) (V c main_arg0) (hp0 c (crd a t)))
    (P1.rowAt1 tb1 xM c (crd a t) (T1 a c) (V c main_arg0) (hp1 c (crd a t)))
    (iblk V a c 0 t) (iblk V a c 1 t) (iblk V a c 2 t) (iblk V a c 3 t) (iblk V a c 4 t)
    (xArr V c) ⟨(e0At a c ⟨t.val, lt_of_lt_of_eq t.isLt N_8⟩).toNat, e0_lt a hp0 c _⟩
    ⟨(e1At a c ⟨t.val, lt_of_lt_of_eq t.isLt N_8⟩).toNat, e1_lt a hp1 c _⟩
    (w1Arr V c) (w2Arr V c) (binArr V c) (whArr V c) (bhArr V c)
    (row0_val V a hp0 c t) (row1_val V a hp1 c t)
    (iblk_0_eq V a c t) (iblk_1_eq V a c t) (iblk_2_eq V a c t) (iblk_3_eq V a c t) (iblk_4_eq V a c t) j

/-- After point n the first running sum is the sum of the hidden rows of the edges 0 … n. -/
theorem sum_at (c : Dev nD) (j : Fin 64) (n : ℕ) (hn : n < (cfg8 a).N) :
    (stAt V a hp0 hp1 c n hn).1 (ValueIdx.ix2 (0 : Fin 1) j)
      = ∑ i : Fin (n + 1), rowval V a hp0 hp1 c ⟨i.val, lt_of_lt_of_eq (Nat.lt_of_le_of_lt (Nat.le_of_lt_succ i.isLt) hn) N_8⟩ j := by
  unfold stAt
  refine (P1.sumG_at tb0 tb1 xM hM c (cfg8 a).N (crd a) (fun t => iblk V a c 0 t) (fun t => iblk V a c 1 t) (fun t => iblk V a c 2 t) (fun t => iblk V a c 3 t) (fun t => iblk V a c 4 t) (T0 a c) (T1 a c) (V c main_arg0) (V c main_v37_0) (fun t => hp0 c (crd a t)) (fun t => hp1 c (crd a t)) j n hn).trans ?_
  exact Finset.sum_congr rfl fun i _ => hrow_val V a hp0 hp1 c _ j

/-- After point n the second running sum is the sum of the squares of those hidden rows. -/
theorem sq_at (c : Dev nD) (j : Fin 64) (n : ℕ) (hn : n < (cfg8 a).N) :
    (stAt V a hp0 hp1 c n hn).2.1 (ValueIdx.ix2 (0 : Fin 1) j)
      = ∑ i : Fin (n + 1), rowval V a hp0 hp1 c ⟨i.val, lt_of_lt_of_eq (Nat.lt_of_le_of_lt (Nat.le_of_lt_succ i.isLt) hn) N_8⟩ j
          * rowval V a hp0 hp1 c ⟨i.val, lt_of_lt_of_eq (Nat.lt_of_le_of_lt (Nat.le_of_lt_succ i.isLt) hn) N_8⟩ j := by
  unfold stAt
  refine (P1.sumsqG_at tb0 tb1 xM hM c (cfg8 a).N (crd a) (fun t => iblk V a c 0 t) (fun t => iblk V a c 1 t) (fun t => iblk V a c 2 t) (fun t => iblk V a c 3 t) (fun t => iblk V a c 4 t) (T0 a c) (T1 a c) (V c main_arg0) (V c main_v37_0) (fun t => hp0 c (crd a t)) (fun t => hp1 c (crd a t)) j n hn).trans ?_
  exact Finset.sum_congr rfl fun i _ => by rw [hrow_val V a hp0 hp1 c _ j]

/-- The hidden array is read through its whole view as itself. -/
theorem read_hM (c : Dev nD) (f : Bf (F := Ideal) c hM) (y : S62500x64.Idx) :
    hM.view.read (Elt Ideal) f y = (f : S62500x64.Idx → EReal) y := rfl

/-- After n points, row i < n of the hidden array is edge i's hidden row. -/
theorem hid_at (c : Dev nD) (j : Fin 64) (n : ℕ) (hn : n ≤ (cfg8 a).N) (i : ℕ) (hi : i < n) :
    (hAt V a hp0 hp1 c n hn : S62500x64.Idx → EReal) (ValueIdx.ix2 (⟨i, lt_of_lt_of_eq (Nat.lt_of_lt_of_le hi hn) N_8⟩ : Fin 62500) j)
      = rowval V a hp0 hp1 c ⟨i, lt_of_lt_of_eq (Nat.lt_of_lt_of_le hi hn) N_8⟩ j := by
  unfold hAt
  refine (read_hM c _ _).symm.trans ?_
  refine (P1.hG_row_written (F := Ideal) tb0 tb1 xM hM c (cfg8 a).N (crd a) (fun t => iblk V a c 0 t) (fun t => iblk V a c 1 t) (fun t => iblk V a c 2 t) (fun t => iblk V a c 3 t) (fun t => iblk V a c 4 t) (T0 a c) (T1 a c) (V c main_arg0) (V c main_v37_0) (fun t => hp0 c (crd a t)) (fun t => hp1 c (crd a t)) (coord_val a) j n hn i hi).trans ?_
  exact (P1.rowStep_apply tb0 tb1 xM c (cfg8 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) _ j).trans (hrow_val V a hp0 hp1 c _ j)

/-- The two running-sum arrays and the hidden array after the region, each at its literal type. -/
abbrev sumArr (c : Dev nD) : S1x64.Idx → EReal := (dat V a hp0 hp1 c).arrAt 5 (cfg8 a).N
abbrev sqArr (c : Dev nD) : S1x64.Idx → EReal := (dat V a hp0 hp1 c).arrAt 6 (cfg8 a).N
abbrev hidArr (c : Dev nD) : S62500x64.Idx → EReal := hAt V a hp0 hp1 c (cfg8 a).N (Nat.le_refl _)

/-- The last point's index plus one is the number of edges of the chunk. -/
theorem tlast_count : (tlast a).val + 1 = 62500 := rfl

/-- The first running-sum array after the region: the sum over the chunk's edges of their hidden rows. -/
theorem sum_final (c : Dev nD) (j : Fin 64) :
    sumArr V a hp0 hp1 c (ValueIdx.ix2 (0 : Fin 1) j) = ∑ i : Fin 62500, rowval V a hp0 hp1 c i j := by
  refine (sum_arr_apply V a hp0 hp1 c j).trans ((sum_at V a hp0 hp1 c j (tlast a).val (tlast a).isLt).trans ?_)
  exact Fintype.sum_equiv (finCongr (tlast_count a)) _ _ (fun i => rfl)

/-- The second running-sum array after the region: the sum of the squares of those hidden rows. -/
theorem sq_final (c : Dev nD) (j : Fin 64) :
    sqArr V a hp0 hp1 c (ValueIdx.ix2 (0 : Fin 1) j)
      = ∑ i : Fin 62500, rowval V a hp0 hp1 c i j * rowval V a hp0 hp1 c i j := by
  refine (sq_arr_apply V a hp0 hp1 c j).trans ((sq_at V a hp0 hp1 c j (tlast a).val (tlast a).isLt).trans ?_)
  exact Fintype.sum_equiv (finCongr (tlast_count a)) _ _ (fun i => rfl)

/-- The hidden array after the region: row i is edge i's hidden row. -/
theorem hid_final (c : Dev nD) (i : Fin 62500) (j : Fin 64) :
    hidArr V a hp0 hp1 c (ValueIdx.ix2 i j) = rowval V a hp0 hp1 c i j :=
  hid_at V a hp0 hp1 c j (cfg8 a).N (Nat.le_refl _) i.val (lt_of_lt_of_eq i.isLt N_8.symm)

end AtIdeal

end Cert.KernelIdeal.P1R8

end
-- ==== Proof.P1R8Fin.lean ====
/- The first launch's results are its chunk's hidden values.

   The launch walks the 62500 edges of its chunk: at edge i it fetches the two rows of the node-feature array that entry i of
   its two endpoint tables names, applies the two layers, writes the hidden row and adds it, and its square, to two running
   sums. Its tables are the chunk's pieces of the edge array's two rows, and the weights it reads are the argument arrays'
   (the first layer's weights in two halves). So row i of its rows result is the hidden value of edge i of the chunk in the
   by-endpoint form, and its two sums are the sums of those values and of their squares over the chunk. -/
import proofs.«400866_j57071525429608_2_alg».proof.Proof.P1R8Val
import proofs.«400866_j57071525429608_2_alg».proof.Proof.HostHead
import proofs.«400866_j57071525429608_2_alg».proof.Proof.TblFacts
import proofs.«400866_j57071525429608_2_alg».proof.Proof.HostTail
import proofs.«400866_j57071525429608_2_alg».proof.Proof.KVal
import proofs.«400866_j57071525429608_2_alg».proof.Proof.Spec
import Idealize.ShloMosaic.Lib.ValueIdx

set_option maxRecDepth 16384

noncomputable section

namespace Cert.KernelIdeal.P1R8

open Cert.KernelIdeal Cert.KernelIdeal.Gen
open Idealize.ShloMosaic Idealize.ShloMosaic.TcCoe
open Cert.KernelIdeal.P1 (Bf tw0 tw1)
open scoped BigOperators

/-! ## The launch -/

/-- The launch's chunk among the sixteen. -/
abbrev KK : Fin 16 := ⟨8, by omega⟩
/-- The launch among the seventeen regions. -/
abbrev KK17 : Fin 17 := ⟨8, by omega⟩
/-- The buffers' contents when the launch is entered. -/
abbrev Ventry (m : (ℓ : Loc nD τ sig) → Buf (Elt Ideal) ℓ) (outs : Outs (F := Ideal)) (c : Dev nD) : Valuation τ sig (Elt Ideal) := V17 m outs c
/-- They are the entry contents the host operations' facts are stated at. -/
theorem Ventry_eq (m : (ℓ : Loc nD τ sig) → Buf (Elt Ideal) ℓ) (outs : Outs (F := Ideal)) (c : Dev nD) :
    Head.Vodd m outs c KK17 = Ventry m outs c := Head.Vodd_8 m outs c _

variable (m : (ℓ : Loc nD τ sig) → Buf (Elt Ideal) ℓ) (outs : Outs (F := Ideal)) (c : Dev nD)
variable (a : (pcfg8 (F := Ideal)).Adm)
variable (hp0 : ∀ c (i : grid8.Coords), k8_chk1 (tw0 tb0 c i (T0 a c))) (hp1 : ∀ c (i : grid8.Coords), k8_chk2 (tw1 tb1 c i (T1 a c)))

/-- The entry contents as the launch's value lemmas take them. -/
abbrev VV : (c : Dev nD) → (b : Ref sig .tc) → Buf (Elt Ideal) ((c : Thread nD τ).loc b) := fun c b => Ventry m outs c b

/-! ## The tables' words are the chunk's endpoints -/

/-- Entry `i` of the first table names the first endpoint of edge `i` of the chunk. -/
theorem e0_eq (hT0 : (T0 a c : S62500.Idx → BitVec 32) = (Tbl.tblA m outs c KK : IVec S62500 32)) (i : Fin 62500) :
    (⟨(e0At a c i).toNat, e0_lt a hp0 c i⟩ : Fin 100000) = Cert.Spec.endpoint (KVal.edgesA m c) 0 (Cert.Spec.chunk KK i) := by
  have hw : e0At a c i = (KVal.edgesA m c) (ValueIdx.ix2 (0 : Fin 2) (Cert.Spec.chunk KK i)) := by
    show (T0 a c : S62500.Idx → BitVec 32) (ValueIdx.ix1 i) = _
    rw [hT0]
    exact Tbl.tblA_apply m outs c KK i
  have hlt := e0_lt a hp0 c i
  rw [hw] at hlt
  refine Fin.ext ?_
  show (e0At a c i).toNat = (Cert.Spec.node _).val
  rw [Cert.Spec.node_val_of_toNat_lt hlt, hw]

/-- Entry `i` of the second table names the second endpoint. -/
theorem e1_eq (hT1 : (T1 a c : S62500.Idx → BitVec 32) = (Tbl.tblB m outs c KK : IVec S62500 32)) (i : Fin 62500) :
    (⟨(e1At a c i).toNat, e1_lt a hp1 c i⟩ : Fin 100000) = Cert.Spec.endpoint (KVal.edgesA m c) 1 (Cert.Spec.chunk KK i) := by
  have hw : e1At a c i = (KVal.edgesA m c) (ValueIdx.ix2 (1 : Fin 2) (Cert.Spec.chunk KK i)) := by
    show (T1 a c : S62500.Idx → BitVec 32) (ValueIdx.ix1 i) = _
    rw [hT1]
    exact Tbl.tblB_apply m outs c KK i
  have hlt := e1_lt a hp1 c i
  rw [hw] at hlt
  refine Fin.ext ?_
  show (e1At a c i).toNat = (Cert.Spec.node _).val
  rw [Cert.Spec.node_val_of_toNat_lt hlt, hw]

/-! ## The arrays the launch reads are the arguments' -/

theorem x_eq : xArr (VV m outs) c = KVal.xA m c := by
  show Ventry m outs c main_arg0 = _
  rw [← Ventry_eq m outs c]
  exact Head.arg0_keep m outs c KK17
theorem wh_eq : whArr (VV m outs) c = KVal.WhA m c := by
  show Ventry m outs c main_arg4 = _
  rw [← Ventry_eq m outs c]
  exact Head.arg4_keep m outs c KK17
theorem w1_apply (k : Fin 64) (k' : Fin 128) :
    w1Arr (VV m outs) c (ValueIdx.ix2 k k') = KVal.WinA m c (ValueIdx.ix2 k (⟨k'.val, by omega⟩ : Fin 256)) := by
  show (Ventry m outs c main_v4 : S64x128.Idx → EReal) (ValueIdx.ix2 k k') = _
  rw [← Ventry_eq m outs c]
  exact Head.v4_apply m outs c KK17 k k'
theorem w2_apply (k : Fin 64) (k' : Fin 128) :
    w2Arr (VV m outs) c (ValueIdx.ix2 k k') = KVal.WinA m c (ValueIdx.ix2 k (⟨128 + k'.val, by omega⟩ : Fin 256)) := by
  show (Ventry m outs c main_v5 : S64x128.Idx → EReal) (ValueIdx.ix2 k k') = _
  rw [← Ventry_eq m outs c]
  exact Head.v5_apply m outs c KK17 k k'
theorem bin_apply (k : Fin 64) :
    binArr (VV m outs) c (ValueIdx.ix2 (0 : Fin 1) k) = KVal.binA m c (ValueIdx.ix1 k) := by
  show (Ventry m outs c main_v6 : S1x64.Idx → EReal) (ValueIdx.ix2 (0 : Fin 1) k) = _
  rw [← Ventry_eq m outs c]
  exact Head.v6_apply m outs c KK17 k
theorem bh_apply (j : Fin 64) :
    bhArr (VV m outs) c (ValueIdx.ix2 (0 : Fin 1) j) = KVal.bhA m c (ValueIdx.ix1 j) := by
  show (Ventry m outs c main_v7 : S1x64.Idx → EReal) (ValueIdx.ix2 (0 : Fin 1) j) = _
  rw [← Ventry_eq m outs c]
  exact Head.v7_apply m outs c KK17 j

/-! ## The launch's hidden row is the chunk's hidden value -/

theorem rowval_eq (hT0 : (T0 a c : S62500.Idx → BitVec 32) = (Tbl.tblA m outs c KK : IVec S62500 32))
    (hT1 : (T1 a c : S62500.Idx → BitVec 32) = (Tbl.tblB m outs c KK : IVec S62500 32)) (i : Fin 62500) (j : Fin 64) :
    rowval (VV m outs) a hp0 hp1 c i j = KVal.hid m c (Cert.Spec.chunk KK i) j := by
  unfold rowval KVal.hid
  rw [e0_eq m outs c a hp0 hT0 i, e1_eq m outs c a hp1 hT1 i, x_eq m outs c, wh_eq m outs c]
  simp only [w1_apply m outs c, w2_apply m outs c, bin_apply m outs c, bh_apply m outs c]

/-! ## The three results -/

/-- Row `i` of the rows result is the hidden value of edge `i` of the chunk. -/
theorem chunkRow_eq (hT0 : (T0 a c : S62500.Idx → BitVec 32) = (Tbl.tblA m outs c KK : IVec S62500 32))
    (hT1 : (T1 a c : S62500.Idx → BitVec 32) = (Tbl.tblB m outs c KK : IVec S62500 32))
    (hR0 : (Tail.res0 outs c KK : S62500x64.Idx → EReal) = hidArr (VV m outs) a hp0 hp1 c)
    (i : Fin 62500) (j : Fin 64) : Tail.chunkRow outs c KK i j = KVal.HID m c KK i j := by
  show (Tail.res0 outs c KK : S62500x64.Idx → EReal) (ValueIdx.ix2 i j) = _
  rw [hR0]
  exact (hid_final (VV m outs) a hp0 hp1 c i j).trans (rowval_eq m outs c a hp0 hp1 hT0 hT1 i j)

/-- The sums result is the sum of the chunk's hidden values. -/
theorem chunkSum_eq (hT0 : (T0 a c : S62500.Idx → BitVec 32) = (Tbl.tblA m outs c KK : IVec S62500 32))
    (hT1 : (T1 a c : S62500.Idx → BitVec 32) = (Tbl.tblB m outs c KK : IVec S62500 32))
    (hR1 : (Tail.res1 outs c KK : S1x64.Idx → EReal) = sumArr (VV m outs) a hp0 hp1 c)
    (j : Fin 64) : Tail.chunkSum outs c KK j = ∑ i : Fin 62500, KVal.HID m c KK i j := by
  show (Tail.res1 outs c KK : S1x64.Idx → EReal) (ValueIdx.ix2 (0 : Fin 1) j) = _
  rw [hR1]
  exact (sum_final (VV m outs) a hp0 hp1 c j).trans (Finset.sum_congr rfl fun i _ => rowval_eq m outs c a hp0 hp1 hT0 hT1 i j)

/-- The sums-of-squares result is the sum of their squares. -/
theorem chunkSq_eq (hT0 : (T0 a c : S62500.Idx → BitVec 32) = (Tbl.tblA m outs c KK : IVec S62500 32))
    (hT1 : (T1 a c : S62500.Idx → BitVec 32) = (Tbl.tblB m outs c KK : IVec S62500 32))
    (hR2 : (Tail.res2 outs c KK : S1x64.Idx → EReal) = sqArr (VV m outs) a hp0 hp1 c)
    (j : Fin 64) : Tail.chunkSq outs c KK j = ∑ i : Fin 62500, KVal.HID m c KK i j * KVal.HID m c KK i j := by
  show (Tail.res2 outs c KK : S1x64.Idx → EReal) (ValueIdx.ix2 (0 : Fin 1) j) = _
  rw [hR2]
  exact (sq_final (VV m outs) a hp0 hp1 c j).trans
    (Finset.sum_congr rfl fun i _ => by rw [rowval_eq m outs c a hp0 hp1 hT0 hT1 i j])

end Cert.KernelIdeal.P1R8

end
-- ==== Proof.P1R8Top.lean ====
/- The first launch's results are its chunk's hidden values, at the run's own choices.

   The run fixes what every region leaves (the unknowns), each launch's tables and the contents each launch is entered
   from. At those choices nothing is left to assume: the launch's tables are its chunk's pieces of the edge array's rows,
   its results are what its proof data leave, and so its rows are the chunk's hidden values and its two sums their sums
   and sums of squares. -/
import proofs.«400866_j57071525429608_2_alg».proof.Proof.P1R8Fin
import proofs.«400866_j57071525429608_2_alg».proof.Proof.GlueVal

set_option maxRecDepth 16384

noncomputable section

namespace Cert.KernelIdeal.P1R8

open Cert.KernelIdeal Cert.KernelIdeal.Gen
open Idealize.ShloMosaic Idealize.ShloMosaic.TcCoe
open Cert.KernelIdeal.P1 (Bf tw0 tw1)
open Cert.KernelIdeal.Glue (atTc)
open scoped BigOperators

/-! ## The run's choices for this launch -/

/-- The launch's tables, admissible. -/
abbrev gA (m : (ℓ : Loc nD τ sig) → Buf (Elt Ideal) ℓ) : (pcfg8 (F := Ideal)).Adm := Glue.adm8 m
/-- The contents it is entered from, as the run names them. -/
abbrev gW (m : (ℓ : Loc nD τ sig) → Buf (Elt Ideal) ℓ)
    (hE : ∀ (c : Dev nD) (idx : S2x1000000.Idx), ((V0 m c main_arg1 : IVec S2x1000000 32) idx).toNat < 100000) :
    Dev nD → Valuation τ sig (Elt Ideal) := Glue.W17 m hE

variable (m : (ℓ : Loc nD τ sig) → Buf (Elt Ideal) ℓ)
  (hE : ∀ (c : Dev nD) (idx : S2x1000000.Idx), ((V0 m c main_arg1 : IVec S2x1000000 32) idx).toNat < 100000)
  (c : Dev nD)

include hE

/-- The words it reads of them name rows of the node table. -/
theorem gP0 : ∀ c (i : grid8.Coords), k8_chk1 (tw0 tb0 c i (T0 (gA m) c)) := Glue.hp0_8 m hE
theorem gP1 : ∀ c (i : grid8.Coords), k8_chk2 (tw1 tb1 c i (T1 (gA m) c)) := Glue.hp1_8 m hE
/-- The contents it is entered from are the valuation's. -/
theorem gV : Ventry m (Glue.outs m hE) c = gW m hE c := Glue.V17_eq m hE c
/-- The tables it finds in the buffers are its own. -/
theorem gTA : (T0 (gA m) c : S62500.Idx → BitVec 32) = (Tbl.tblA m (Glue.outs m hE) c KK : IVec S62500 32) :=
  ((Glue.hT0_8 m hE c).symm.trans (congrFun (gV m hE c) (Proc.devRef .tc main_v35)).symm :)
theorem gTB : (T1 (gA m) c : S62500.Idx → BitVec 32) = (Tbl.tblB m (Glue.outs m hE) c KK : IVec S62500 32) :=
  ((Glue.hT1_8 m hE c).symm.trans (congrFun (gV m hE c) (Proc.devRef .tc main_v36)).symm :)
/-- What it leaves at its three results. -/
theorem gR0 : (Tail.res0 (Glue.outs m hE) c KK : S62500x64.Idx → EReal) = hidArr (atTc (gW m hE)) (gA m) (gP0 m hE) (gP1 m hE) c :=
  Glue.res0_8 m hE c
theorem gR1 : (Tail.res1 (Glue.outs m hE) c KK : S1x64.Idx → EReal) = sumArr (atTc (gW m hE)) (gA m) (gP0 m hE) (gP1 m hE) c :=
  Glue.res1_8 m hE c
theorem gR2 : (Tail.res2 (Glue.outs m hE) c KK : S1x64.Idx → EReal) = sqArr (atTc (gW m hE)) (gA m) (gP0 m hE) (gP1 m hE) c :=
  Glue.res2_8 m hE c

/-! ## The three facts, nothing assumed -/

/-- The entry contents the launch's value lemmas take are the run's. -/
theorem VV_eq : VV m (Glue.outs m hE) = atTc (gW m hE) :=
  funext fun c => funext fun b => congrFun (gV m hE c) (Proc.devRef .tc b)

/-- Row `i` of the launch's rows is the hidden value of edge `i` of its chunk. -/
theorem row_top (i : Fin 62500) (j : Fin 64) : Tail.chunkRow (Glue.outs m hE) c KK i j = KVal.HID m c KK i j :=
  chunkRow_eq m (Glue.outs m hE) c (gA m) (gP0 m hE) (gP1 m hE) (gTA m hE c) (gTB m hE c)
    (by rw [VV_eq m hE]; exact gR0 m hE c) i j

/-- Its sums are the sums of those values over the chunk. -/
theorem sum_top (j : Fin 64) : Tail.chunkSum (Glue.outs m hE) c KK j = ∑ i : Fin 62500, KVal.HID m c KK i j :=
  chunkSum_eq m (Glue.outs m hE) c (gA m) (gP0 m hE) (gP1 m hE) (gTA m hE c) (gTB m hE c)
    (by rw [VV_eq m hE]; exact gR1 m hE c) j

/-- Its sums of squares are the sums of their squares. -/
theorem sq_top (j : Fin 64) :
    Tail.chunkSq (Glue.outs m hE) c KK j = ∑ i : Fin 62500, KVal.HID m c KK i j * KVal.HID m c KK i j :=
  chunkSq_eq m (Glue.outs m hE) c (gA m) (gP0 m hE) (gP1 m hE) (gTA m hE c) (gTB m hE c)
    (by rw [VV_eq m hE]; exact gR2 m hE c) j

end Cert.KernelIdeal.P1R8

end
-- ==== Proof.P1R9Val.lean ====
/-
  A gather-and-project region (one chunk of 62500 edges), from blocks to arrays.

  The five parameter windows never move: each one's block is its whole array. The two running-sum
  windows never move either and are written back once, after the last point, so their arrays end
  holding what the last point left. Put together with the recursion over the points, at the ideal
  values: the first array ends at the sum over the chunk's 62500 edges of their hidden rows, the
  second at the sum of the squares, and row i of the hidden array is edge i's hidden row — where the
  hidden row of edge i is the two layers applied to the two rows of the node-feature array that entry
  i of each endpoint table names.
-/
import proofs.«400866_j57071525429608_2_alg».proof.Proof.P1R9Dat
import proofs.«400866_j57071525429608_2_alg».proof.Proof.P1StateVal
import proofs.«400866_j57071525429608_2_alg».proof.Proof.P1Val
import Idealize.ShloMosaic.Lib.Pipeline.Value
import Idealize.ShloMosaic.Lib.ValueIdx
import Mathlib.Algebra.BigOperators.Fin

set_option maxRecDepth 100000

noncomputable section

namespace Cert.KernelIdeal.P1R9

open Cert.KernelIdeal Cert.KernelIdeal.Gen
open Idealize.ShloMosaic Idealize.ShloMosaic.TcCoe
open Idealize.ShloMosaic.Pipeline (Dat)
open Cert.KernelIdeal.P1 (Bf tw0 tw1 hNext)
open scoped BigOperators

/-! ## From blocks to arrays (any float values) -/

section Arrays

variable {F : FTy → Type} [FloatOps F]
variable (V : (c : Dev nD) → (b : Ref sig .tc) → Buf (Elt F) ((c : Thread nD τ).loc b))
variable (a : (pcfg9 (F := F)).Adm)
variable (hp0 : ∀ c (i : grid9.Coords), k9_chk1 (tw0 tb0 c i (T0 a c))) (hp1 : ∀ c (i : grid9.Coords), k9_chk2 (tw1 tb1 c i (T1 a c)))

/-- The last grid point. -/
def tlast : Fin (cfg9 a).N := ⟨62499, lt_of_lt_of_eq (by decide : 62499 < 62500) N_9.symm⟩

theorem tlast_succ : (tlast a).val + 1 = (cfg9 a).N := N_9.symm

/-- The first half of the first layer's weights: the block is the array. -/
theorem iblk_0_eq (c : Dev nD) (t : Fin (cfg9 a).N) : (iblk V a c 0 t : S64x128.Idx → Elt F .f32) = V c main_v4 := by
  refine funext fun (y : S64x128.Idx) => ?_
  show (V c main_v4 : S64x128.Idx → Elt F .f32) ((((cfg9 a).win 0).blk t).view.emb y) = _
  congr 1; funext b; apply Fin.ext
  match b with
  | ⟨0, _⟩ =>
    show ((cfg9 a).win 0).index t (0 : Fin 2) * 64 + 1 * (y 0).val = (y 0).val
    rw [show ((cfg9 a).win 0).index t (0 : Fin 2) = 0 from rfl]; omega
  | ⟨1, _⟩ =>
    show ((cfg9 a).win 0).index t (1 : Fin 2) * 128 + 1 * (y 1).val = (y 1).val
    rw [show ((cfg9 a).win 0).index t (1 : Fin 2) = 0 from rfl]; omega

/-- The second half of the first layer's weights: the block is the array. -/
theorem iblk_1_eq (c : Dev nD) (t : Fin (cfg9 a).N) : (iblk V a c 1 t : S64x128.Idx → Elt F .f32) = V c main_v5 := by
  refine funext fun (y : S64x128.Idx) => ?_
  show (V c main_v5 : S64x128.Idx → Elt F .f32) ((((cfg9 a).win 1).blk t).view.emb y) = _
  congr 1; funext b; apply Fin.ext
  match b with
  | ⟨0, _⟩ =>
    show ((cfg9 a).win 1).index t (0 : Fin 2) * 64 + 1 * (y 0).val = (y 0).val
    rw [show ((cfg9 a).win 1).index t (0 : Fin 2) = 0 from rfl]; omega
  | ⟨1, _⟩ =>
    show ((cfg9 a).win 1).index t (1 : Fin 2) * 128 + 1 * (y 1).val = (y 1).val
    rw [show ((cfg9 a).win 1).index t (1 : Fin 2) = 0 from rfl]; omega

/-- The first layer's bias: the block is the array. -/
theorem iblk_2_eq (c : Dev nD) (t : Fin (cfg9 a).N) : (iblk V a c 2 t : S1x64.Idx → Elt F .f32) = V c main_v6 := by
  refine funext fun (y : S1x64.Idx) => ?_
  show (V c main_v6 : S1x64.Idx → Elt F .f32) ((((cfg9 a).win 2).blk t).view.emb y) = _
  congr 1; funext b; apply Fin.ext
  match b with
  | ⟨0, _⟩ =>
    show ((cfg9 a).win 2).index t (0 : Fin 2) * 1 + 1 * (y 0).val = (y 0).val
    rw [show ((cfg9 a).win 2).index t (0 : Fin 2) = 0 from rfl]; omega
  | ⟨1, _⟩ =>
    show ((cfg9 a).win 2).index t (1 : Fin 2) * 64 + 1 * (y 1).val = (y 1).val
    rw [show ((cfg9 a).win 2).index t (1 : Fin 2) = 0 from rfl]; omega

/-- The second layer's weights: the block is the array. -/
theorem iblk_3_eq (c : Dev nD) (t : Fin (cfg9 a).N) : (iblk V a c 3 t : S64x64.Idx → Elt F .f32) = V c main_arg4 := by
  refine funext fun (y : S64x64.Idx) => ?_
  show (V c main_arg4 : S64x64.Idx → Elt F .f32) ((((cfg9 a).win 3).blk t).view.emb y) = _
  congr 1; funext b; apply Fin.ext
  match b with
  | ⟨0, _⟩ =>
    show ((cfg9 a).win 3).index t (0 : Fin 2) * 64 + 1 * (y 0).val = (y 0).val
    rw [show ((cfg9 a).win 3).index t (0 : Fin 2) = 0 from rfl]; omega
  | ⟨1, _⟩ =>
    show ((cfg9 a).win 3).index t (1 : Fin 2) * 64 + 1 * (y 1).val = (y 1).val
    rw [show ((cfg9 a).win 3).index t (1 : Fin 2) = 0 from rfl]; omega

/-- The second layer's bias: the block is the array. -/
theorem iblk_4_eq (c : Dev nD) (t : Fin (cfg9 a).N) : (iblk V a c 4 t : S1x64.Idx → Elt F .f32) = V c main_v7 := by
  refine funext fun (y : S1x64.Idx) => ?_
  show (V c main_v7 : S1x64.Idx → Elt F .f32) ((((cfg9 a).win 4).blk t).view.emb y) = _
  congr 1; funext b; apply Fin.ext
  match b with
  | ⟨0, _⟩ =>
    show ((cfg9 a).win 4).index t (0 : Fin 2) * 1 + 1 * (y 0).val = (y 0).val
    rw [show ((cfg9 a).win 4).index t (0 : Fin 2) = 0 from rfl]; omega
  | ⟨1, _⟩ =>
    show ((cfg9 a).win 4).index t (1 : Fin 2) * 64 + 1 * (y 1).val = (y 1).val
    rw [show ((cfg9 a).win 4).index t (1 : Fin 2) = 0 from rfl]; omega

/-- Window 5 is written back at the last point and at no other: its block never moves. -/
theorem flush5_iff (t : Fin (cfg9 a).N) : ((cfg9 a).win 5).flush t = true ↔ t.val + 1 = (cfg9 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint5 : ∀ t t' : Fin (cfg9 a).N, ((cfg9 a).win 5).flush t = true → ((cfg9 a).win 5).flush t' = true → t ≠ t' →
    Disjoint (((cfg9 a).win 5).blk t).view.set (((cfg9 a).win 5).blk t').view.set :=
  fun t t' h h' hne => absurd (Fin.ext (by
    have e := (flush5_iff a t).mp h
    have e' := (flush5_iff a t').mp h'
    omega)) hne

/-- Where feature j of window 5's block sits in its array: at feature j. -/
theorem emb5 (t : Fin (cfg9 a).N) (j : Fin 64) :
    (((cfg9 a).win 5).blk t).view.emb (ValueIdx.ix2 (0 : Fin 1) j) = ValueIdx.ix2 (0 : Fin 1) j := by
  funext b; apply Fin.ext
  match b with
  | ⟨0, _⟩ =>
    show ((cfg9 a).win 5).index t (0 : Fin 2) * 1 + 1 * 0 = 0
    rw [show ((cfg9 a).win 5).index t (0 : Fin 2) = 0 from rfl]
  | ⟨1, _⟩ =>
    show ((cfg9 a).win 5).index t (1 : Fin 2) * 64 + 1 * j.val = j.val
    rw [show ((cfg9 a).win 5).index t (1 : Fin 2) = 0 from rfl]; omega

theorem sum_arr_apply (c : Dev nD) (j : Fin 64) :
    ((dat V a hp0 hp1 c).arrAt 5 (cfg9 a).N : S1x64.Idx → Elt F .f32) (ValueIdx.ix2 (0 : Fin 1) j)
      = (stAt V a hp0 hp1 c (tlast a).val (tlast a).isLt).1 (ValueIdx.ix2 (0 : Fin 1) j) := by
  have h := (dat V a hp0 hp1 c).arrAt_emb_eq_flushed 5 (disjoint5 a) (tlast a) ((flush5_iff a (tlast a)).mpr (tlast_succ a))
    (ValueIdx.ix2 (0 : Fin 1) j)
  rw [emb5] at h
  refine h.trans ?_
  show (dat V a hp0 hp1 c).after 5 (tlast a) (ValueIdx.ix2 (0 : Fin 1) j) = _
  rw [after_5]

/-- The array of window 5 after the region is what the last point left. -/
theorem sum_arr (c : Dev nD) :
    ((dat V a hp0 hp1 c).arrAt 5 (cfg9 a).N : S1x64.Idx → Elt F .f32) = (stAt V a hp0 hp1 c (tlast a).val (tlast a).isLt).1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sum_arr_apply V a hp0 hp1 c j

/-- Window 6 is written back at the last point and at no other: its block never moves. -/
theorem flush6_iff (t : Fin (cfg9 a).N) : ((cfg9 a).win 6).flush t = true ↔ t.val + 1 = (cfg9 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint6 : ∀ t t' : Fin (cfg9 a).N, ((cfg9 a).win 6).flush t = true → ((cfg9 a).win 6).flush t' = true → t ≠ t' →
    Disjoint (((cfg9 a).win 6).blk t).view.set (((cfg9 a).win 6).blk t').view.set :=
  fun t t' h h' hne => absurd (Fin.ext (by
    have e := (flush6_iff a t).mp h
    have e' := (flush6_iff a t').mp h'
    omega)) hne

/-- Where feature j of window 6's block sits in its array: at feature j. -/
theorem emb6 (t : Fin (cfg9 a).N) (j : Fin 64) :
    (((cfg9 a).win 6).blk t).view.emb (ValueIdx.ix2 (0 : Fin 1) j) = ValueIdx.ix2 (0 : Fin 1) j := by
  funext b; apply Fin.ext
  match b with
  | ⟨0, _⟩ =>
    show ((cfg9 a).win 6).index t (0 : Fin 2) * 1 + 1 * 0 = 0
    rw [show ((cfg9 a).win 6).index t (0 : Fin 2) = 0 from rfl]
  | ⟨1, _⟩ =>
    show ((cfg9 a).win 6).index t (1 : Fin 2) * 64 + 1 * j.val = j.val
    rw [show ((cfg9 a).win 6).index t (1 : Fin 2) = 0 from rfl]; omega

theorem sq_arr_apply (c : Dev nD) (j : Fin 64) :
    ((dat V a hp0 hp1 c).arrAt 6 (cfg9 a).N : S1x64.Idx → Elt F .f32) (ValueIdx.ix2 (0 : Fin 1) j)
      = (stAt V a hp0 hp1 c (tlast a).val (tlast a).isLt).2.1 (ValueIdx.ix2 (0 : Fin 1) j) := by
  have h := (dat V a hp0 hp1 c).arrAt_emb_eq_flushed 6 (disjoint6 a) (tlast a) ((flush6_iff a (tlast a)).mpr (tlast_succ a))
    (ValueIdx.ix2 (0 : Fin 1) j)
  rw [emb6] at h
  refine h.trans ?_
  show (dat V a hp0 hp1 c).after 6 (tlast a) (ValueIdx.ix2 (0 : Fin 1) j) = _
  rw [after_6]

/-- The array of window 6 after the region is what the last point left. -/
theorem sq_arr (c : Dev nD) :
    ((dat V a hp0 hp1 c).arrAt 6 (cfg9 a).N : S1x64.Idx → Elt F .f32) = (stAt V a hp0 hp1 c (tlast a).val (tlast a).isLt).2.1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sq_arr_apply V a hp0 hp1 c j

end Arrays

/-! ## The values, at the ideal instance -/

section AtIdeal

variable (V : (c : Dev nD) → (b : Ref sig .tc) → Buf (Elt Ideal) ((c : Thread nD τ).loc b))
variable (a : (pcfg9 (F := Ideal)).Adm)
variable (hp0 : ∀ c (i : grid9.Coords), k9_chk1 (tw0 tb0 c i (T0 a c))) (hp1 : ∀ c (i : grid9.Coords), k9_chk2 (tw1 tb1 c i (T1 a c)))

/-- The arrays the region reads, each at its literal type. -/
abbrev xArr (c : Dev nD) : S100000x128.Idx → EReal := V c main_arg0
abbrev w1Arr (c : Dev nD) : S64x128.Idx → EReal := V c main_v4
abbrev w2Arr (c : Dev nD) : S64x128.Idx → EReal := V c main_v5
abbrev binArr (c : Dev nD) : S1x64.Idx → EReal := V c main_v6
abbrev whArr (c : Dev nD) : S64x64.Idx → EReal := V c main_arg4
abbrev bhArr (c : Dev nD) : S1x64.Idx → EReal := V c main_v7
/-- Entry i of each endpoint table. -/
abbrev e0At (c : Dev nD) (i : Fin 62500) : BitVec 32 := (T0 a c : S62500.Idx → BitVec 32) (ValueIdx.ix1 i)
abbrev e1At (c : Dev nD) (i : Fin 62500) : BitVec 32 := (T1 a c : S62500.Idx → BitVec 32) (ValueIdx.ix1 i)

/-- The grid point of edge i. -/
def ptOf (i : Fin 62500) : Fin (cfg9 a).N := ⟨i.val, lt_of_lt_of_eq i.isLt N_9.symm⟩

/-- The word a point reads of the first table is the table's entry at the point. -/
theorem tw0_at (c : Dev nD) (t : Fin (cfg9 a).N) :
    tw0 tb0 c (crd a t) (T0 a c) = e0At a c ⟨t.val, lt_of_lt_of_eq t.isLt N_9⟩ := by
  refine (P1.tw0_eq tb0 c (crd a t) (T0 a c)).trans ?_
  show (T0 a c : S62500.Idx → BitVec 32) _ = (T0 a c : S62500.Idx → BitVec 32) _
  refine congrArg (T0 a c : S62500.Idx → BitVec 32) (funext fun b => Fin.ext ?_)
  match b with
  | ⟨0, _⟩ => exact coord_val a t

theorem tw1_at (c : Dev nD) (t : Fin (cfg9 a).N) :
    tw1 tb1 c (crd a t) (T1 a c) = e1At a c ⟨t.val, lt_of_lt_of_eq t.isLt N_9⟩ := by
  refine (P1.tw1_eq tb1 c (crd a t) (T1 a c)).trans ?_
  show (T1 a c : S62500.Idx → BitVec 32) _ = (T1 a c : S62500.Idx → BitVec 32) _
  refine congrArg (T1 a c : S62500.Idx → BitVec 32) (funext fun b => Fin.ext ?_)
  match b with
  | ⟨0, _⟩ => exact coord_val a t

include hp0 in
/-- Every entry of the endpoint tables names a row of the node-feature array. -/
theorem e0_lt (c : Dev nD) (i : Fin 62500) : (e0At a c i).toNat < 100000 := by
  have h := P1.toNat_lt_of_chk1 (hp0 c (crd a (ptOf a i)))
  rw [tw0_at] at h
  exact h

include hp1 in
theorem e1_lt (c : Dev nD) (i : Fin 62500) : (e1At a c i).toNat < 100000 := by
  have h := P1.toNat_lt_of_chk2 (hp1 c (crd a (ptOf a i)))
  rw [tw1_at] at h
  exact h

/-- The hidden row of edge i of the chunk, at feature j: the two layers applied to the two rows of the node-feature
    array that entry i of each endpoint table names. -/
def rowval (c : Dev nD) (i : Fin 62500) (j : Fin 64) : EReal :=
  ∑ k : Fin 64,
      max (∑ k' : Fin 128, xArr V c (ValueIdx.ix2 (⟨(e0At a c i).toNat, e0_lt a hp0 c i⟩ : Fin 100000) k') * w1Arr V c (ValueIdx.ix2 k k')
          + ∑ k' : Fin 128, xArr V c (ValueIdx.ix2 (⟨(e1At a c i).toNat, e1_lt a hp1 c i⟩ : Fin 100000) k') * w2Arr V c (ValueIdx.ix2 k k')
          + binArr V c (ValueIdx.ix2 (0 : Fin 1) k)) 0
        * whArr V c (ValueIdx.ix2 j k)
    + bhArr V c (ValueIdx.ix2 (0 : Fin 1) j)

/-- The first row a point fetches, at feature k'. -/
theorem row0_val (c : Dev nD) (t : Fin (cfg9 a).N) (k' : Fin 128) :
    P1.rowAt0 tb0 xM c (crd a t) (T0 a c) (V c main_arg0) (hp0 c (crd a t)) (ValueIdx.ix2 (0 : Fin 1) k')
      = xArr V c (ValueIdx.ix2 (⟨(e0At a c ⟨t.val, lt_of_lt_of_eq t.isLt N_9⟩).toNat, e0_lt a hp0 c _⟩ : Fin 100000) k') := by
  refine (P1.rowAt0_apply tb0 xM c (crd a t) (T0 a c) (V c main_arg0) (hp0 c (crd a t)) k').trans ?_
  show xArr V c _ = xArr V c _
  refine congrArg (xArr V c) (funext fun b => Fin.ext ?_)
  match b with
  | ⟨0, _⟩ =>
    show (tw0 tb0 c (crd a t) (T0 a c)).toNat = (e0At a c ⟨t.val, lt_of_lt_of_eq t.isLt N_9⟩).toNat
    rw [tw0_at]
  | ⟨1, _⟩ => rfl

/-- The second row a point fetches, at feature k'. -/
theorem row1_val (c : Dev nD) (t : Fin (cfg9 a).N) (k' : Fin 128) :
    P1.rowAt1 tb1 xM c (crd a t) (T1 a c) (V c main_arg0) (hp1 c (crd a t)) (ValueIdx.ix2 (0 : Fin 1) k')
      = xArr V c (ValueIdx.ix2 (⟨(e1At a c ⟨t.val, lt_of_lt_of_eq t.isLt N_9⟩).toNat, e1_lt a hp1 c _⟩ : Fin 100000) k') := by
  refine (P1.rowAt1_apply tb1 xM c (crd a t) (T1 a c) (V c main_arg0) (hp1 c (crd a t)) k').trans ?_
  show xArr V c _ = xArr V c _
  refine congrArg (xArr V c) (funext fun b => Fin.ext ?_)
  match b with
  | ⟨0, _⟩ =>
    show (tw1 tb1 c (crd a t) (T1 a c)).toNat = (e1At a c ⟨t.val, lt_of_lt_of_eq t.isLt N_9⟩).toNat
    rw [tw1_at]
  | ⟨1, _⟩ => rfl

/-- A point's hidden row is the hidden row of its edge. -/
theorem hrow_val (c : Dev nD) (t : Fin (cfg9 a).N) (j : Fin 64) :
    P1.hrowG tb0 tb1 xM c (cfg9 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t j
      = rowval V a hp0 hp1 c ⟨t.val, lt_of_lt_of_eq t.isLt N_9⟩ j :=
  P1.hrow_eq_of (P1.rowAt0 tb0 xM c (crd a t) (T0 a c) (V c main_arg0) (hp0 c (crd a t)))
    (P1.rowAt1 tb1 xM c (crd a t) (T1 a c) (V c main_arg0) (hp1 c (crd a t)))
    (iblk V a c 0 t) (iblk V a c 1 t) (iblk V a c 2 t) (iblk V a c 3 t) (iblk V a c 4 t)
    (xArr V c) ⟨(e0At a c ⟨t.val, lt_of_lt_of_eq t.isLt N_9⟩).toNat, e0_lt a hp0 c _⟩
    ⟨(e1At a c ⟨t.val, lt_of_lt_of_eq t.isLt N_9⟩).toNat, e1_lt a hp1 c _⟩
    (w1Arr V c) (w2Arr V c) (binArr V c) (whArr V c) (bhArr V c)
    (row0_val V a hp0 c t) (row1_val V a hp1 c t)
    (iblk_0_eq V a c t) (iblk_1_eq V a c t) (iblk_2_eq V a c t) (iblk_3_eq V a c t) (iblk_4_eq V a c t) j

/-- After point n the first running sum is the sum of the hidden rows of the edges 0 … n. -/
theorem sum_at (c : Dev nD) (j : Fin 64) (n : ℕ) (hn : n < (cfg9 a).N) :
    (stAt V a hp0 hp1 c n hn).1 (ValueIdx.ix2 (0 : Fin 1) j)
      = ∑ i : Fin (n + 1), rowval V a hp0 hp1 c ⟨i.val, lt_of_lt_of_eq (Nat.lt_of_le_of_lt (Nat.le_of_lt_succ i.isLt) hn) N_9⟩ j := by
  unfold stAt
  refine (P1.sumG_at tb0 tb1 xM hM c (cfg9 a).N (crd a) (fun t => iblk V a c 0 t) (fun t => iblk V a c 1 t) (fun t => iblk V a c 2 t) (fun t => iblk V a c 3 t) (fun t => iblk V a c 4 t) (T0 a c) (T1 a c) (V c main_arg0) (V c main_v40_0) (fun t => hp0 c (crd a t)) (fun t => hp1 c (crd a t)) j n hn).trans ?_
  exact Finset.sum_congr rfl fun i _ => hrow_val V a hp0 hp1 c _ j

/-- After point n the second running sum is the sum of the squares of those hidden rows. -/
theorem sq_at (c : Dev nD) (j : Fin 64) (n : ℕ) (hn : n < (cfg9 a).N) :
    (stAt V a hp0 hp1 c n hn).2.1 (ValueIdx.ix2 (0 : Fin 1) j)
      = ∑ i : Fin (n + 1), rowval V a hp0 hp1 c ⟨i.val, lt_of_lt_of_eq (Nat.lt_of_le_of_lt (Nat.le_of_lt_succ i.isLt) hn) N_9⟩ j
          * rowval V a hp0 hp1 c ⟨i.val, lt_of_lt_of_eq (Nat.lt_of_le_of_lt (Nat.le_of_lt_succ i.isLt) hn) N_9⟩ j := by
  unfold stAt
  refine (P1.sumsqG_at tb0 tb1 xM hM c (cfg9 a).N (crd a) (fun t => iblk V a c 0 t) (fun t => iblk V a c 1 t) (fun t => iblk V a c 2 t) (fun t => iblk V a c 3 t) (fun t => iblk V a c 4 t) (T0 a c) (T1 a c) (V c main_arg0) (V c main_v40_0) (fun t => hp0 c (crd a t)) (fun t => hp1 c (crd a t)) j n hn).trans ?_
  exact Finset.sum_congr rfl fun i _ => by rw [hrow_val V a hp0 hp1 c _ j]

/-- The hidden array is read through its whole view as itself. -/
theorem read_hM (c : Dev nD) (f : Bf (F := Ideal) c hM) (y : S62500x64.Idx) :
    hM.view.read (Elt Ideal) f y = (f : S62500x64.Idx → EReal) y := rfl

/-- After n points, row i < n of the hidden array is edge i's hidden row. -/
theorem hid_at (c : Dev nD) (j : Fin 64) (n : ℕ) (hn : n ≤ (cfg9 a).N) (i : ℕ) (hi : i < n) :
    (hAt V a hp0 hp1 c n hn : S62500x64.Idx → EReal) (ValueIdx.ix2 (⟨i, lt_of_lt_of_eq (Nat.lt_of_lt_of_le hi hn) N_9⟩ : Fin 62500) j)
      = rowval V a hp0 hp1 c ⟨i, lt_of_lt_of_eq (Nat.lt_of_lt_of_le hi hn) N_9⟩ j := by
  unfold hAt
  refine (read_hM c _ _).symm.trans ?_
  refine (P1.hG_row_written (F := Ideal) tb0 tb1 xM hM c (cfg9 a).N (crd a) (fun t => iblk V a c 0 t) (fun t => iblk V a c 1 t) (fun t => iblk V a c 2 t) (fun t => iblk V a c 3 t) (fun t => iblk V a c 4 t) (T0 a c) (T1 a c) (V c main_arg0) (V c main_v40_0) (fun t => hp0 c (crd a t)) (fun t => hp1 c (crd a t)) (coord_val a) j n hn i hi).trans ?_
  exact (P1.rowStep_apply tb0 tb1 xM c (cfg9 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) _ j).trans (hrow_val V a hp0 hp1 c _ j)

/-- The two running-sum arrays and the hidden array after the region, each at its literal type. -/
abbrev sumArr (c : Dev nD) : S1x64.Idx → EReal := (dat V a hp0 hp1 c).arrAt 5 (cfg9 a).N
abbrev sqArr (c : Dev nD) : S1x64.Idx → EReal := (dat V a hp0 hp1 c).arrAt 6 (cfg9 a).N
abbrev hidArr (c : Dev nD) : S62500x64.Idx → EReal := hAt V a hp0 hp1 c (cfg9 a).N (Nat.le_refl _)

/-- The last point's index plus one is the number of edges of the chunk. -/
theorem tlast_count : (tlast a).val + 1 = 62500 := rfl

/-- The first running-sum array after the region: the sum over the chunk's edges of their hidden rows. -/
theorem sum_final (c : Dev nD) (j : Fin 64) :
    sumArr V a hp0 hp1 c (ValueIdx.ix2 (0 : Fin 1) j) = ∑ i : Fin 62500, rowval V a hp0 hp1 c i j := by
  refine (sum_arr_apply V a hp0 hp1 c j).trans ((sum_at V a hp0 hp1 c j (tlast a).val (tlast a).isLt).trans ?_)
  exact Fintype.sum_equiv (finCongr (tlast_count a)) _ _ (fun i => rfl)

/-- The second running-sum array after the region: the sum of the squares of those hidden rows. -/
theorem sq_final (c : Dev nD) (j : Fin 64) :
    sqArr V a hp0 hp1 c (ValueIdx.ix2 (0 : Fin 1) j)
      = ∑ i : Fin 62500, rowval V a hp0 hp1 c i j * rowval V a hp0 hp1 c i j := by
  refine (sq_arr_apply V a hp0 hp1 c j).trans ((sq_at V a hp0 hp1 c j (tlast a).val (tlast a).isLt).trans ?_)
  exact Fintype.sum_equiv (finCongr (tlast_count a)) _ _ (fun i => rfl)

/-- The hidden array after the region: row i is edge i's hidden row. -/
theorem hid_final (c : Dev nD) (i : Fin 62500) (j : Fin 64) :
    hidArr V a hp0 hp1 c (ValueIdx.ix2 i j) = rowval V a hp0 hp1 c i j :=
  hid_at V a hp0 hp1 c j (cfg9 a).N (Nat.le_refl _) i.val (lt_of_lt_of_eq i.isLt N_9.symm)

end AtIdeal

end Cert.KernelIdeal.P1R9

end
-- ==== Proof.P1R9Fin.lean ====
/- The first launch's results are its chunk's hidden values.

   The launch walks the 62500 edges of its chunk: at edge i it fetches the two rows of the node-feature array that entry i of
   its two endpoint tables names, applies the two layers, writes the hidden row and adds it, and its square, to two running
   sums. Its tables are the chunk's pieces of the edge array's two rows, and the weights it reads are the argument arrays'
   (the first layer's weights in two halves). So row i of its rows result is the hidden value of edge i of the chunk in the
   by-endpoint form, and its two sums are the sums of those values and of their squares over the chunk. -/
import proofs.«400866_j57071525429608_2_alg».proof.Proof.P1R9Val
import proofs.«400866_j57071525429608_2_alg».proof.Proof.HostHead
import proofs.«400866_j57071525429608_2_alg».proof.Proof.TblFacts
import proofs.«400866_j57071525429608_2_alg».proof.Proof.HostTail
import proofs.«400866_j57071525429608_2_alg».proof.Proof.KVal
import proofs.«400866_j57071525429608_2_alg».proof.Proof.Spec
import Idealize.ShloMosaic.Lib.ValueIdx

set_option maxRecDepth 16384

noncomputable section

namespace Cert.KernelIdeal.P1R9

open Cert.KernelIdeal Cert.KernelIdeal.Gen
open Idealize.ShloMosaic Idealize.ShloMosaic.TcCoe
open Cert.KernelIdeal.P1 (Bf tw0 tw1)
open scoped BigOperators

/-! ## The launch -/

/-- The launch's chunk among the sixteen. -/
abbrev KK : Fin 16 := ⟨9, by omega⟩
/-- The launch among the seventeen regions. -/
abbrev KK17 : Fin 17 := ⟨9, by omega⟩
/-- The buffers' contents when the launch is entered. -/
abbrev Ventry (m : (ℓ : Loc nD τ sig) → Buf (Elt Ideal) ℓ) (outs : Outs (F := Ideal)) (c : Dev nD) : Valuation τ sig (Elt Ideal) := V19 m outs c
/-- They are the entry contents the host operations' facts are stated at. -/
theorem Ventry_eq (m : (ℓ : Loc nD τ sig) → Buf (Elt Ideal) ℓ) (outs : Outs (F := Ideal)) (c : Dev nD) :
    Head.Vodd m outs c KK17 = Ventry m outs c := Head.Vodd_9 m outs c _

variable (m : (ℓ : Loc nD τ sig) → Buf (Elt Ideal) ℓ) (outs : Outs (F := Ideal)) (c : Dev nD)
variable (a : (pcfg9 (F := Ideal)).Adm)
variable (hp0 : ∀ c (i : grid9.Coords), k9_chk1 (tw0 tb0 c i (T0 a c))) (hp1 : ∀ c (i : grid9.Coords), k9_chk2 (tw1 tb1 c i (T1 a c)))

/-- The entry contents as the launch's value lemmas take them. -/
abbrev VV : (c : Dev nD) → (b : Ref sig .tc) → Buf (Elt Ideal) ((c : Thread nD τ).loc b) := fun c b => Ventry m outs c b

/-! ## The tables' words are the chunk's endpoints -/

/-- Entry `i` of the first table names the first endpoint of edge `i` of the chunk. -/
theorem e0_eq (hT0 : (T0 a c : S62500.Idx → BitVec 32) = (Tbl.tblA m outs c KK : IVec S62500 32)) (i : Fin 62500) :
    (⟨(e0At a c i).toNat, e0_lt a hp0 c i⟩ : Fin 100000) = Cert.Spec.endpoint (KVal.edgesA m c) 0 (Cert.Spec.chunk KK i) := by
  have hw : e0At a c i = (KVal.edgesA m c) (ValueIdx.ix2 (0 : Fin 2) (Cert.Spec.chunk KK i)) := by
    show (T0 a c : S62500.Idx → BitVec 32) (ValueIdx.ix1 i) = _
    rw [hT0]
    exact Tbl.tblA_apply m outs c KK i
  have hlt := e0_lt a hp0 c i
  rw [hw] at hlt
  refine Fin.ext ?_
  show (e0At a c i).toNat = (Cert.Spec.node _).val
  rw [Cert.Spec.node_val_of_toNat_lt hlt, hw]

/-- Entry `i` of the second table names the second endpoint. -/
theorem e1_eq (hT1 : (T1 a c : S62500.Idx → BitVec 32) = (Tbl.tblB m outs c KK : IVec S62500 32)) (i : Fin 62500) :
    (⟨(e1At a c i).toNat, e1_lt a hp1 c i⟩ : Fin 100000) = Cert.Spec.endpoint (KVal.edgesA m c) 1 (Cert.Spec.chunk KK i) := by
  have hw : e1At a c i = (KVal.edgesA m c) (ValueIdx.ix2 (1 : Fin 2) (Cert.Spec.chunk KK i)) := by
    show (T1 a c : S62500.Idx → BitVec 32) (ValueIdx.ix1 i) = _
    rw [hT1]
    exact Tbl.tblB_apply m outs c KK i
  have hlt := e1_lt a hp1 c i
  rw [hw] at hlt
  refine Fin.ext ?_
  show (e1At a c i).toNat = (Cert.Spec.node _).val
  rw [Cert.Spec.node_val_of_toNat_lt hlt, hw]

/-! ## The arrays the launch reads are the arguments' -/

theorem x_eq : xArr (VV m outs) c = KVal.xA m c := by
  show Ventry m outs c main_arg0 = _
  rw [← Ventry_eq m outs c]
  exact Head.arg0_keep m outs c KK17
theorem wh_eq : whArr (VV m outs) c = KVal.WhA m c := by
  show Ventry m outs c main_arg4 = _
  rw [← Ventry_eq m outs c]
  exact Head.arg4_keep m outs c KK17
theorem w1_apply (k : Fin 64) (k' : Fin 128) :
    w1Arr (VV m outs) c (ValueIdx.ix2 k k') = KVal.WinA m c (ValueIdx.ix2 k (⟨k'.val, by omega⟩ : Fin 256)) := by
  show (Ventry m outs c main_v4 : S64x128.Idx → EReal) (ValueIdx.ix2 k k') = _
  rw [← Ventry_eq m outs c]
  exact Head.v4_apply m outs c KK17 k k'
theorem w2_apply (k : Fin 64) (k' : Fin 128) :
    w2Arr (VV m outs) c (ValueIdx.ix2 k k') = KVal.WinA m c (ValueIdx.ix2 k (⟨128 + k'.val, by omega⟩ : Fin 256)) := by
  show (Ventry m outs c main_v5 : S64x128.Idx → EReal) (ValueIdx.ix2 k k') = _
  rw [← Ventry_eq m outs c]
  exact Head.v5_apply m outs c KK17 k k'
theorem bin_apply (k : Fin 64) :
    binArr (VV m outs) c (ValueIdx.ix2 (0 : Fin 1) k) = KVal.binA m c (ValueIdx.ix1 k) := by
  show (Ventry m outs c main_v6 : S1x64.Idx → EReal) (ValueIdx.ix2 (0 : Fin 1) k) = _
  rw [← Ventry_eq m outs c]
  exact Head.v6_apply m outs c KK17 k
theorem bh_apply (j : Fin 64) :
    bhArr (VV m outs) c (ValueIdx.ix2 (0 : Fin 1) j) = KVal.bhA m c (ValueIdx.ix1 j) := by
  show (Ventry m outs c main_v7 : S1x64.Idx → EReal) (ValueIdx.ix2 (0 : Fin 1) j) = _
  rw [← Ventry_eq m outs c]
  exact Head.v7_apply m outs c KK17 j

/-! ## The launch's hidden row is the chunk's hidden value -/

theorem rowval_eq (hT0 : (T0 a c : S62500.Idx → BitVec 32) = (Tbl.tblA m outs c KK : IVec S62500 32))
    (hT1 : (T1 a c : S62500.Idx → BitVec 32) = (Tbl.tblB m outs c KK : IVec S62500 32)) (i : Fin 62500) (j : Fin 64) :
    rowval (VV m outs) a hp0 hp1 c i j = KVal.hid m c (Cert.Spec.chunk KK i) j := by
  unfold rowval KVal.hid
  rw [e0_eq m outs c a hp0 hT0 i, e1_eq m outs c a hp1 hT1 i, x_eq m outs c, wh_eq m outs c]
  simp only [w1_apply m outs c, w2_apply m outs c, bin_apply m outs c, bh_apply m outs c]

/-! ## The three results -/

/-- Row `i` of the rows result is the hidden value of edge `i` of the chunk. -/
theorem chunkRow_eq (hT0 : (T0 a c : S62500.Idx → BitVec 32) = (Tbl.tblA m outs c KK : IVec S62500 32))
    (hT1 : (T1 a c : S62500.Idx → BitVec 32) = (Tbl.tblB m outs c KK : IVec S62500 32))
    (hR0 : (Tail.res0 outs c KK : S62500x64.Idx → EReal) = hidArr (VV m outs) a hp0 hp1 c)
    (i : Fin 62500) (j : Fin 64) : Tail.chunkRow outs c KK i j = KVal.HID m c KK i j := by
  show (Tail.res0 outs c KK : S62500x64.Idx → EReal) (ValueIdx.ix2 i j) = _
  rw [hR0]
  exact (hid_final (VV m outs) a hp0 hp1 c i j).trans (rowval_eq m outs c a hp0 hp1 hT0 hT1 i j)

/-- The sums result is the sum of the chunk's hidden values. -/
theorem chunkSum_eq (hT0 : (T0 a c : S62500.Idx → BitVec 32) = (Tbl.tblA m outs c KK : IVec S62500 32))
    (hT1 : (T1 a c : S62500.Idx → BitVec 32) = (Tbl.tblB m outs c KK : IVec S62500 32))
    (hR1 : (Tail.res1 outs c KK : S1x64.Idx → EReal) = sumArr (VV m outs) a hp0 hp1 c)
    (j : Fin 64) : Tail.chunkSum outs c KK j = ∑ i : Fin 62500, KVal.HID m c KK i j := by
  show (Tail.res1 outs c KK : S1x64.Idx → EReal) (ValueIdx.ix2 (0 : Fin 1) j) = _
  rw [hR1]
  exact (sum_final (VV m outs) a hp0 hp1 c j).trans (Finset.sum_congr rfl fun i _ => rowval_eq m outs c a hp0 hp1 hT0 hT1 i j)

/-- The sums-of-squares result is the sum of their squares. -/
theorem chunkSq_eq (hT0 : (T0 a c : S62500.Idx → BitVec 32) = (Tbl.tblA m outs c KK : IVec S62500 32))
    (hT1 : (T1 a c : S62500.Idx → BitVec 32) = (Tbl.tblB m outs c KK : IVec S62500 32))
    (hR2 : (Tail.res2 outs c KK : S1x64.Idx → EReal) = sqArr (VV m outs) a hp0 hp1 c)
    (j : Fin 64) : Tail.chunkSq outs c KK j = ∑ i : Fin 62500, KVal.HID m c KK i j * KVal.HID m c KK i j := by
  show (Tail.res2 outs c KK : S1x64.Idx → EReal) (ValueIdx.ix2 (0 : Fin 1) j) = _
  rw [hR2]
  exact (sq_final (VV m outs) a hp0 hp1 c j).trans
    (Finset.sum_congr rfl fun i _ => by rw [rowval_eq m outs c a hp0 hp1 hT0 hT1 i j])

end Cert.KernelIdeal.P1R9

end
-- ==== Proof.P1R9Top.lean ====
/- The first launch's results are its chunk's hidden values, at the run's own choices.

   The run fixes what every region leaves (the unknowns), each launch's tables and the contents each launch is entered
   from. At those choices nothing is left to assume: the launch's tables are its chunk's pieces of the edge array's rows,
   its results are what its proof data leave, and so its rows are the chunk's hidden values and its two sums their sums
   and sums of squares. -/
import proofs.«400866_j57071525429608_2_alg».proof.Proof.P1R9Fin
import proofs.«400866_j57071525429608_2_alg».proof.Proof.GlueVal

set_option maxRecDepth 16384

noncomputable section

namespace Cert.KernelIdeal.P1R9

open Cert.KernelIdeal Cert.KernelIdeal.Gen
open Idealize.ShloMosaic Idealize.ShloMosaic.TcCoe
open Cert.KernelIdeal.P1 (Bf tw0 tw1)
open Cert.KernelIdeal.Glue (atTc)
open scoped BigOperators

/-! ## The run's choices for this launch -/

/-- The launch's tables, admissible. -/
abbrev gA (m : (ℓ : Loc nD τ sig) → Buf (Elt Ideal) ℓ) : (pcfg9 (F := Ideal)).Adm := Glue.adm9 m
/-- The contents it is entered from, as the run names them. -/
abbrev gW (m : (ℓ : Loc nD τ sig) → Buf (Elt Ideal) ℓ)
    (hE : ∀ (c : Dev nD) (idx : S2x1000000.Idx), ((V0 m c main_arg1 : IVec S2x1000000 32) idx).toNat < 100000) :
    Dev nD → Valuation τ sig (Elt Ideal) := Glue.W19 m hE

variable (m : (ℓ : Loc nD τ sig) → Buf (Elt Ideal) ℓ)
  (hE : ∀ (c : Dev nD) (idx : S2x1000000.Idx), ((V0 m c main_arg1 : IVec S2x1000000 32) idx).toNat < 100000)
  (c : Dev nD)

include hE

/-- The words it reads of them name rows of the node table. -/
theorem gP0 : ∀ c (i : grid9.Coords), k9_chk1 (tw0 tb0 c i (T0 (gA m) c)) := Glue.hp0_9 m hE
theorem gP1 : ∀ c (i : grid9.Coords), k9_chk2 (tw1 tb1 c i (T1 (gA m) c)) := Glue.hp1_9 m hE
/-- The contents it is entered from are the valuation's. -/
theorem gV : Ventry m (Glue.outs m hE) c = gW m hE c := Glue.V19_eq m hE c
/-- The tables it finds in the buffers are its own. -/
theorem gTA : (T0 (gA m) c : S62500.Idx → BitVec 32) = (Tbl.tblA m (Glue.outs m hE) c KK : IVec S62500 32) :=
  ((Glue.hT0_9 m hE c).symm.trans (congrFun (gV m hE c) (Proc.devRef .tc main_v38)).symm :)
theorem gTB : (T1 (gA m) c : S62500.Idx → BitVec 32) = (Tbl.tblB m (Glue.outs m hE) c KK : IVec S62500 32) :=
  ((Glue.hT1_9 m hE c).symm.trans (congrFun (gV m hE c) (Proc.devRef .tc main_v39)).symm :)
/-- What it leaves at its three results. -/
theorem gR0 : (Tail.res0 (Glue.outs m hE) c KK : S62500x64.Idx → EReal) = hidArr (atTc (gW m hE)) (gA m) (gP0 m hE) (gP1 m hE) c :=
  Glue.res0_9 m hE c
theorem gR1 : (Tail.res1 (Glue.outs m hE) c KK : S1x64.Idx → EReal) = sumArr (atTc (gW m hE)) (gA m) (gP0 m hE) (gP1 m hE) c :=
  Glue.res1_9 m hE c
theorem gR2 : (Tail.res2 (Glue.outs m hE) c KK : S1x64.Idx → EReal) = sqArr (atTc (gW m hE)) (gA m) (gP0 m hE) (gP1 m hE) c :=
  Glue.res2_9 m hE c

/-! ## The three facts, nothing assumed -/

/-- The entry contents the launch's value lemmas take are the run's. -/
theorem VV_eq : VV m (Glue.outs m hE) = atTc (gW m hE) :=
  funext fun c => funext fun b => congrFun (gV m hE c) (Proc.devRef .tc b)

/-- Row `i` of the launch's rows is the hidden value of edge `i` of its chunk. -/
theorem row_top (i : Fin 62500) (j : Fin 64) : Tail.chunkRow (Glue.outs m hE) c KK i j = KVal.HID m c KK i j :=
  chunkRow_eq m (Glue.outs m hE) c (gA m) (gP0 m hE) (gP1 m hE) (gTA m hE c) (gTB m hE c)
    (by rw [VV_eq m hE]; exact gR0 m hE c) i j

/-- Its sums are the sums of those values over the chunk. -/
theorem sum_top (j : Fin 64) : Tail.chunkSum (Glue.outs m hE) c KK j = ∑ i : Fin 62500, KVal.HID m c KK i j :=
  chunkSum_eq m (Glue.outs m hE) c (gA m) (gP0 m hE) (gP1 m hE) (gTA m hE c) (gTB m hE c)
    (by rw [VV_eq m hE]; exact gR1 m hE c) j

/-- Its sums of squares are the sums of their squares. -/
theorem sq_top (j : Fin 64) :
    Tail.chunkSq (Glue.outs m hE) c KK j = ∑ i : Fin 62500, KVal.HID m c KK i j * KVal.HID m c KK i j :=
  chunkSq_eq m (Glue.outs m hE) c (gA m) (gP0 m hE) (gP1 m hE) (gTA m hE c) (gTB m hE c)
    (by rw [VV_eq m hE]; exact gR2 m hE c) j

end Cert.KernelIdeal.P1R9

end
-- ==== Proof.P1R10Val.lean ====
/-
  A gather-and-project region (one chunk of 62500 edges), from blocks to arrays.

  The five parameter windows never move: each one's block is its whole array. The two running-sum
  windows never move either and are written back once, after the last point, so their arrays end
  holding what the last point left. Put together with the recursion over the points, at the ideal
  values: the first array ends at the sum over the chunk's 62500 edges of their hidden rows, the
  second at the sum of the squares, and row i of the hidden array is edge i's hidden row — where the
  hidden row of edge i is the two layers applied to the two rows of the node-feature array that entry
  i of each endpoint table names.
-/
import proofs.«400866_j57071525429608_2_alg».proof.Proof.P1R10Dat
import proofs.«400866_j57071525429608_2_alg».proof.Proof.P1StateVal
import proofs.«400866_j57071525429608_2_alg».proof.Proof.P1Val
import Idealize.ShloMosaic.Lib.Pipeline.Value
import Idealize.ShloMosaic.Lib.ValueIdx
import Mathlib.Algebra.BigOperators.Fin

set_option maxRecDepth 100000

noncomputable section

namespace Cert.KernelIdeal.P1R10

open Cert.KernelIdeal Cert.KernelIdeal.Gen
open Idealize.ShloMosaic Idealize.ShloMosaic.TcCoe
open Idealize.ShloMosaic.Pipeline (Dat)
open Cert.KernelIdeal.P1 (Bf tw0 tw1 hNext)
open scoped BigOperators

/-! ## From blocks to arrays (any float values) -/

section Arrays

variable {F : FTy → Type} [FloatOps F]
variable (V : (c : Dev nD) → (b : Ref sig .tc) → Buf (Elt F) ((c : Thread nD τ).loc b))
variable (a : (pcfg10 (F := F)).Adm)
variable (hp0 : ∀ c (i : grid10.Coords), k10_chk1 (tw0 tb0 c i (T0 a c))) (hp1 : ∀ c (i : grid10.Coords), k10_chk2 (tw1 tb1 c i (T1 a c)))

/-- The last grid point. -/
def tlast : Fin (cfg10 a).N := ⟨62499, lt_of_lt_of_eq (by decide : 62499 < 62500) N_10.symm⟩

theorem tlast_succ : (tlast a).val + 1 = (cfg10 a).N := N_10.symm

/-- The first half of the first layer's weights: the block is the array. -/
theorem iblk_0_eq (c : Dev nD) (t : Fin (cfg10 a).N) : (iblk V a c 0 t : S64x128.Idx → Elt F .f32) = V c main_v4 := by
  refine funext fun (y : S64x128.Idx) => ?_
  show (V c main_v4 : S64x128.Idx → Elt F .f32) ((((cfg10 a).win 0).blk t).view.emb y) = _
  congr 1; funext b; apply Fin.ext
  match b with
  | ⟨0, _⟩ =>
    show ((cfg10 a).win 0).index t (0 : Fin 2) * 64 + 1 * (y 0).val = (y 0).val
    rw [show ((cfg10 a).win 0).index t (0 : Fin 2) = 0 from rfl]; omega
  | ⟨1, _⟩ =>
    show ((cfg10 a).win 0).index t (1 : Fin 2) * 128 + 1 * (y 1).val = (y 1).val
    rw [show ((cfg10 a).win 0).index t (1 : Fin 2) = 0 from rfl]; omega

/-- The second half of the first layer's weights: the block is the array. -/
theorem iblk_1_eq (c : Dev nD) (t : Fin (cfg10 a).N) : (iblk V a c 1 t : S64x128.Idx → Elt F .f32) = V c main_v5 := by
  refine funext fun (y : S64x128.Idx) => ?_
  show (V c main_v5 : S64x128.Idx → Elt F .f32) ((((cfg10 a).win 1).blk t).view.emb y) = _
  congr 1; funext b; apply Fin.ext
  match b with
  | ⟨0, _⟩ =>
    show ((cfg10 a).win 1).index t (0 : Fin 2) * 64 + 1 * (y 0).val = (y 0).val
    rw [show ((cfg10 a).win 1).index t (0 : Fin 2) = 0 from rfl]; omega
  | ⟨1, _⟩ =>
    show ((cfg10 a).win 1).index t (1 : Fin 2) * 128 + 1 * (y 1).val = (y 1).val
    rw [show ((cfg10 a).win 1).index t (1 : Fin 2) = 0 from rfl]; omega

/-- The first layer's bias: the block is the array. -/
theorem iblk_2_eq (c : Dev nD) (t : Fin (cfg10 a).N) : (iblk V a c 2 t : S1x64.Idx → Elt F .f32) = V c main_v6 := by
  refine funext fun (y : S1x64.Idx) => ?_
  show (V c main_v6 : S1x64.Idx → Elt F .f32) ((((cfg10 a).win 2).blk t).view.emb y) = _
  congr 1; funext b; apply Fin.ext
  match b with
  | ⟨0, _⟩ =>
    show ((cfg10 a).win 2).index t (0 : Fin 2) * 1 + 1 * (y 0).val = (y 0).val
    rw [show ((cfg10 a).win 2).index t (0 : Fin 2) = 0 from rfl]; omega
  | ⟨1, _⟩ =>
    show ((cfg10 a).win 2).index t (1 : Fin 2) * 64 + 1 * (y 1).val = (y 1).val
    rw [show ((cfg10 a).win 2).index t (1 : Fin 2) = 0 from rfl]; omega

/-- The second layer's weights: the block is the array. -/
theorem iblk_3_eq (c : Dev nD) (t : Fin (cfg10 a).N) : (iblk V a c 3 t : S64x64.Idx → Elt F .f32) = V c main_arg4 := by
  refine funext fun (y : S64x64.Idx) => ?_
  show (V c main_arg4 : S64x64.Idx → Elt F .f32) ((((cfg10 a).win 3).blk t).view.emb y) = _
  congr 1; funext b; apply Fin.ext
  match b with
  | ⟨0, _⟩ =>
    show ((cfg10 a).win 3).index t (0 : Fin 2) * 64 + 1 * (y 0).val = (y 0).val
    rw [show ((cfg10 a).win 3).index t (0 : Fin 2) = 0 from rfl]; omega
  | ⟨1, _⟩ =>
    show ((cfg10 a).win 3).index t (1 : Fin 2) * 64 + 1 * (y 1).val = (y 1).val
    rw [show ((cfg10 a).win 3).index t (1 : Fin 2) = 0 from rfl]; omega

/-- The second layer's bias: the block is the array. -/
theorem iblk_4_eq (c : Dev nD) (t : Fin (cfg10 a).N) : (iblk V a c 4 t : S1x64.Idx → Elt F .f32) = V c main_v7 := by
  refine funext fun (y : S1x64.Idx) => ?_
  show (V c main_v7 : S1x64.Idx → Elt F .f32) ((((cfg10 a).win 4).blk t).view.emb y) = _
  congr 1; funext b; apply Fin.ext
  match b with
  | ⟨0, _⟩ =>
    show ((cfg10 a).win 4).index t (0 : Fin 2) * 1 + 1 * (y 0).val = (y 0).val
    rw [show ((cfg10 a).win 4).index t (0 : Fin 2) = 0 from rfl]; omega
  | ⟨1, _⟩ =>
    show ((cfg10 a).win 4).index t (1 : Fin 2) * 64 + 1 * (y 1).val = (y 1).val
    rw [show ((cfg10 a).win 4).index t (1 : Fin 2) = 0 from rfl]; omega

/-- Window 5 is written back at the last point and at no other: its block never moves. -/
theorem flush5_iff (t : Fin (cfg10 a).N) : ((cfg10 a).win 5).flush t = true ↔ t.val + 1 = (cfg10 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint5 : ∀ t t' : Fin (cfg10 a).N, ((cfg10 a).win 5).flush t = true → ((cfg10 a).win 5).flush t' = true → t ≠ t' →
    Disjoint (((cfg10 a).win 5).blk t).view.set (((cfg10 a).win 5).blk t').view.set :=
  fun t t' h h' hne => absurd (Fin.ext (by
    have e := (flush5_iff a t).mp h
    have e' := (flush5_iff a t').mp h'
    omega)) hne

/-- Where feature j of window 5's block sits in its array: at feature j. -/
theorem emb5 (t : Fin (cfg10 a).N) (j : Fin 64) :
    (((cfg10 a).win 5).blk t).view.emb (ValueIdx.ix2 (0 : Fin 1) j) = ValueIdx.ix2 (0 : Fin 1) j := by
  funext b; apply Fin.ext
  match b with
  | ⟨0, _⟩ =>
    show ((cfg10 a).win 5).index t (0 : Fin 2) * 1 + 1 * 0 = 0
    rw [show ((cfg10 a).win 5).index t (0 : Fin 2) = 0 from rfl]
  | ⟨1, _⟩ =>
    show ((cfg10 a).win 5).index t (1 : Fin 2) * 64 + 1 * j.val = j.val
    rw [show ((cfg10 a).win 5).index t (1 : Fin 2) = 0 from rfl]; omega

theorem sum_arr_apply (c : Dev nD) (j : Fin 64) :
    ((dat V a hp0 hp1 c).arrAt 5 (cfg10 a).N : S1x64.Idx → Elt F .f32) (ValueIdx.ix2 (0 : Fin 1) j)
      = (stAt V a hp0 hp1 c (tlast a).val (tlast a).isLt).1 (ValueIdx.ix2 (0 : Fin 1) j) := by
  have h := (dat V a hp0 hp1 c).arrAt_emb_eq_flushed 5 (disjoint5 a) (tlast a) ((flush5_iff a (tlast a)).mpr (tlast_succ a))
    (ValueIdx.ix2 (0 : Fin 1) j)
  rw [emb5] at h
  refine h.trans ?_
  show (dat V a hp0 hp1 c).after 5 (tlast a) (ValueIdx.ix2 (0 : Fin 1) j) = _
  rw [after_5]

/-- The array of window 5 after the region is what the last point left. -/
theorem sum_arr (c : Dev nD) :
    ((dat V a hp0 hp1 c).arrAt 5 (cfg10 a).N : S1x64.Idx → Elt F .f32) = (stAt V a hp0 hp1 c (tlast a).val (tlast a).isLt).1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sum_arr_apply V a hp0 hp1 c j

/-- Window 6 is written back at the last point and at no other: its block never moves. -/
theorem flush6_iff (t : Fin (cfg10 a).N) : ((cfg10 a).win 6).flush t = true ↔ t.val + 1 = (cfg10 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint6 : ∀ t t' : Fin (cfg10 a).N, ((cfg10 a).win 6).flush t = true → ((cfg10 a).win 6).flush t' = true → t ≠ t' →
    Disjoint (((cfg10 a).win 6).blk t).view.set (((cfg10 a).win 6).blk t').view.set :=
  fun t t' h h' hne => absurd (Fin.ext (by
    have e := (flush6_iff a t).mp h
    have e' := (flush6_iff a t').mp h'
    omega)) hne

/-- Where feature j of window 6's block sits in its array: at feature j. -/
theorem emb6 (t : Fin (cfg10 a).N) (j : Fin 64) :
    (((cfg10 a).win 6).blk t).view.emb (ValueIdx.ix2 (0 : Fin 1) j) = ValueIdx.ix2 (0 : Fin 1) j := by
  funext b; apply Fin.ext
  match b with
  | ⟨0, _⟩ =>
    show ((cfg10 a).win 6).index t (0 : Fin 2) * 1 + 1 * 0 = 0
    rw [show ((cfg10 a).win 6).index t (0 : Fin 2) = 0 from rfl]
  | ⟨1, _⟩ =>
    show ((cfg10 a).win 6).index t (1 : Fin 2) * 64 + 1 * j.val = j.val
    rw [show ((cfg10 a).win 6).index t (1 : Fin 2) = 0 from rfl]; omega

theorem sq_arr_apply (c : Dev nD) (j : Fin 64) :
    ((dat V a hp0 hp1 c).arrAt 6 (cfg10 a).N : S1x64.Idx → Elt F .f32) (ValueIdx.ix2 (0 : Fin 1) j)
      = (stAt V a hp0 hp1 c (tlast a).val (tlast a).isLt).2.1 (ValueIdx.ix2 (0 : Fin 1) j) := by
  have h := (dat V a hp0 hp1 c).arrAt_emb_eq_flushed 6 (disjoint6 a) (tlast a) ((flush6_iff a (tlast a)).mpr (tlast_succ a))
    (ValueIdx.ix2 (0 : Fin 1) j)
  rw [emb6] at h
  refine h.trans ?_
  show (dat V a hp0 hp1 c).after 6 (tlast a) (ValueIdx.ix2 (0 : Fin 1) j) = _
  rw [after_6]

/-- The array of window 6 after the region is what the last point left. -/
theorem sq_arr (c : Dev nD) :
    ((dat V a hp0 hp1 c).arrAt 6 (cfg10 a).N : S1x64.Idx → Elt F .f32) = (stAt V a hp0 hp1 c (tlast a).val (tlast a).isLt).2.1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sq_arr_apply V a hp0 hp1 c j

end Arrays

/-! ## The values, at the ideal instance -/

section AtIdeal

variable (V : (c : Dev nD) → (b : Ref sig .tc) → Buf (Elt Ideal) ((c : Thread nD τ).loc b))
variable (a : (pcfg10 (F := Ideal)).Adm)
variable (hp0 : ∀ c (i : grid10.Coords), k10_chk1 (tw0 tb0 c i (T0 a c))) (hp1 : ∀ c (i : grid10.Coords), k10_chk2 (tw1 tb1 c i (T1 a c)))

/-- The arrays the region reads, each at its literal type. -/
abbrev xArr (c : Dev nD) : S100000x128.Idx → EReal := V c main_arg0
abbrev w1Arr (c : Dev nD) : S64x128.Idx → EReal := V c main_v4
abbrev w2Arr (c : Dev nD) : S64x128.Idx → EReal := V c main_v5
abbrev binArr (c : Dev nD) : S1x64.Idx → EReal := V c main_v6
abbrev whArr (c : Dev nD) : S64x64.Idx → EReal := V c main_arg4
abbrev bhArr (c : Dev nD) : S1x64.Idx → EReal := V c main_v7
/-- Entry i of each endpoint table. -/
abbrev e0At (c : Dev nD) (i : Fin 62500) : BitVec 32 := (T0 a c : S62500.Idx → BitVec 32) (ValueIdx.ix1 i)
abbrev e1At (c : Dev nD) (i : Fin 62500) : BitVec 32 := (T1 a c : S62500.Idx → BitVec 32) (ValueIdx.ix1 i)

/-- The grid point of edge i. -/
def ptOf (i : Fin 62500) : Fin (cfg10 a).N := ⟨i.val, lt_of_lt_of_eq i.isLt N_10.symm⟩

/-- The word a point reads of the first table is the table's entry at the point. -/
theorem tw0_at (c : Dev nD) (t : Fin (cfg10 a).N) :
    tw0 tb0 c (crd a t) (T0 a c) = e0At a c ⟨t.val, lt_of_lt_of_eq t.isLt N_10⟩ := by
  refine (P1.tw0_eq tb0 c (crd a t) (T0 a c)).trans ?_
  show (T0 a c : S62500.Idx → BitVec 32) _ = (T0 a c : S62500.Idx → BitVec 32) _
  refine congrArg (T0 a c : S62500.Idx → BitVec 32) (funext fun b => Fin.ext ?_)
  match b with
  | ⟨0, _⟩ => exact coord_val a t

theorem tw1_at (c : Dev nD) (t : Fin (cfg10 a).N) :
    tw1 tb1 c (crd a t) (T1 a c) = e1At a c ⟨t.val, lt_of_lt_of_eq t.isLt N_10⟩ := by
  refine (P1.tw1_eq tb1 c (crd a t) (T1 a c)).trans ?_
  show (T1 a c : S62500.Idx → BitVec 32) _ = (T1 a c : S62500.Idx → BitVec 32) _
  refine congrArg (T1 a c : S62500.Idx → BitVec 32) (funext fun b => Fin.ext ?_)
  match b with
  | ⟨0, _⟩ => exact coord_val a t

include hp0 in
/-- Every entry of the endpoint tables names a row of the node-feature array. -/
theorem e0_lt (c : Dev nD) (i : Fin 62500) : (e0At a c i).toNat < 100000 := by
  have h := P1.toNat_lt_of_chk1 (hp0 c (crd a (ptOf a i)))
  rw [tw0_at] at h
  exact h

include hp1 in
theorem e1_lt (c : Dev nD) (i : Fin 62500) : (e1At a c i).toNat < 100000 := by
  have h := P1.toNat_lt_of_chk2 (hp1 c (crd a (ptOf a i)))
  rw [tw1_at] at h
  exact h

/-- The hidden row of edge i of the chunk, at feature j: the two layers applied to the two rows of the node-feature
    array that entry i of each endpoint table names. -/
def rowval (c : Dev nD) (i : Fin 62500) (j : Fin 64) : EReal :=
  ∑ k : Fin 64,
      max (∑ k' : Fin 128, xArr V c (ValueIdx.ix2 (⟨(e0At a c i).toNat, e0_lt a hp0 c i⟩ : Fin 100000) k') * w1Arr V c (ValueIdx.ix2 k k')
          + ∑ k' : Fin 128, xArr V c (ValueIdx.ix2 (⟨(e1At a c i).toNat, e1_lt a hp1 c i⟩ : Fin 100000) k') * w2Arr V c (ValueIdx.ix2 k k')
          + binArr V c (ValueIdx.ix2 (0 : Fin 1) k)) 0
        * whArr V c (ValueIdx.ix2 j k)
    + bhArr V c (ValueIdx.ix2 (0 : Fin 1) j)

/-- The first row a point fetches, at feature k'. -/
theorem row0_val (c : Dev nD) (t : Fin (cfg10 a).N) (k' : Fin 128) :
    P1.rowAt0 tb0 xM c (crd a t) (T0 a c) (V c main_arg0) (hp0 c (crd a t)) (ValueIdx.ix2 (0 : Fin 1) k')
      = xArr V c (ValueIdx.ix2 (⟨(e0At a c ⟨t.val, lt_of_lt_of_eq t.isLt N_10⟩).toNat, e0_lt a hp0 c _⟩ : Fin 100000) k') := by
  refine (P1.rowAt0_apply tb0 xM c (crd a t) (T0 a c) (V c main_arg0) (hp0 c (crd a t)) k').trans ?_
  show xArr V c _ = xArr V c _
  refine congrArg (xArr V c) (funext fun b => Fin.ext ?_)
  match b with
  | ⟨0, _⟩ =>
    show (tw0 tb0 c (crd a t) (T0 a c)).toNat = (e0At a c ⟨t.val, lt_of_lt_of_eq t.isLt N_10⟩).toNat
    rw [tw0_at]
  | ⟨1, _⟩ => rfl

/-- The second row a point fetches, at feature k'. -/
theorem row1_val (c : Dev nD) (t : Fin (cfg10 a).N) (k' : Fin 128) :
    P1.rowAt1 tb1 xM c (crd a t) (T1 a c) (V c main_arg0) (hp1 c (crd a t)) (ValueIdx.ix2 (0 : Fin 1) k')
      = xArr V c (ValueIdx.ix2 (⟨(e1At a c ⟨t.val, lt_of_lt_of_eq t.isLt N_10⟩).toNat, e1_lt a hp1 c _⟩ : Fin 100000) k') := by
  refine (P1.rowAt1_apply tb1 xM c (crd a t) (T1 a c) (V c main_arg0) (hp1 c (crd a t)) k').trans ?_
  show xArr V c _ = xArr V c _
  refine congrArg (xArr V c) (funext fun b => Fin.ext ?_)
  match b with
  | ⟨0, _⟩ =>
    show (tw1 tb1 c (crd a t) (T1 a c)).toNat = (e1At a c ⟨t.val, lt_of_lt_of_eq t.isLt N_10⟩).toNat
    rw [tw1_at]
  | ⟨1, _⟩ => rfl

/-- A point's hidden row is the hidden row of its edge. -/
theorem hrow_val (c : Dev nD) (t : Fin (cfg10 a).N) (j : Fin 64) :
    P1.hrowG tb0 tb1 xM c (cfg10 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t j
      = rowval V a hp0 hp1 c ⟨t.val, lt_of_lt_of_eq t.isLt N_10⟩ j :=
  P1.hrow_eq_of (P1.rowAt0 tb0 xM c (crd a t) (T0 a c) (V c main_arg0) (hp0 c (crd a t)))
    (P1.rowAt1 tb1 xM c (crd a t) (T1 a c) (V c main_arg0) (hp1 c (crd a t)))
    (iblk V a c 0 t) (iblk V a c 1 t) (iblk V a c 2 t) (iblk V a c 3 t) (iblk V a c 4 t)
    (xArr V c) ⟨(e0At a c ⟨t.val, lt_of_lt_of_eq t.isLt N_10⟩).toNat, e0_lt a hp0 c _⟩
    ⟨(e1At a c ⟨t.val, lt_of_lt_of_eq t.isLt N_10⟩).toNat, e1_lt a hp1 c _⟩
    (w1Arr V c) (w2Arr V c) (binArr V c) (whArr V c) (bhArr V c)
    (row0_val V a hp0 c t) (row1_val V a hp1 c t)
    (iblk_0_eq V a c t) (iblk_1_eq V a c t) (iblk_2_eq V a c t) (iblk_3_eq V a c t) (iblk_4_eq V a c t) j

/-- After point n the first running sum is the sum of the hidden rows of the edges 0 … n. -/
theorem sum_at (c : Dev nD) (j : Fin 64) (n : ℕ) (hn : n < (cfg10 a).N) :
    (stAt V a hp0 hp1 c n hn).1 (ValueIdx.ix2 (0 : Fin 1) j)
      = ∑ i : Fin (n + 1), rowval V a hp0 hp1 c ⟨i.val, lt_of_lt_of_eq (Nat.lt_of_le_of_lt (Nat.le_of_lt_succ i.isLt) hn) N_10⟩ j := by
  unfold stAt
  refine (P1.sumG_at tb0 tb1 xM hM c (cfg10 a).N (crd a) (fun t => iblk V a c 0 t) (fun t => iblk V a c 1 t) (fun t => iblk V a c 2 t) (fun t => iblk V a c 3 t) (fun t => iblk V a c 4 t) (T0 a c) (T1 a c) (V c main_arg0) (V c main_v43_0) (fun t => hp0 c (crd a t)) (fun t => hp1 c (crd a t)) j n hn).trans ?_
  exact Finset.sum_congr rfl fun i _ => hrow_val V a hp0 hp1 c _ j

/-- After point n the second running sum is the sum of the squares of those hidden rows. -/
theorem sq_at (c : Dev nD) (j : Fin 64) (n : ℕ) (hn : n < (cfg10 a).N) :
    (stAt V a hp0 hp1 c n hn).2.1 (ValueIdx.ix2 (0 : Fin 1) j)
      = ∑ i : Fin (n + 1), rowval V a hp0 hp1 c ⟨i.val, lt_of_lt_of_eq (Nat.lt_of_le_of_lt (Nat.le_of_lt_succ i.isLt) hn) N_10⟩ j
          * rowval V a hp0 hp1 c ⟨i.val, lt_of_lt_of_eq (Nat.lt_of_le_of_lt (Nat.le_of_lt_succ i.isLt) hn) N_10⟩ j := by
  unfold stAt
  refine (P1.sumsqG_at tb0 tb1 xM hM c (cfg10 a).N (crd a) (fun t => iblk V a c 0 t) (fun t => iblk V a c 1 t) (fun t => iblk V a c 2 t) (fun t => iblk V a c 3 t) (fun t => iblk V a c 4 t) (T0 a c) (T1 a c) (V c main_arg0) (V c main_v43_0) (fun t => hp0 c (crd a t)) (fun t => hp1 c (crd a t)) j n hn).trans ?_
  exact Finset.sum_congr rfl fun i _ => by rw [hrow_val V a hp0 hp1 c _ j]

/-- The hidden array is read through its whole view as itself. -/
theorem read_hM (c : Dev nD) (f : Bf (F := Ideal) c hM) (y : S62500x64.Idx) :
    hM.view.read (Elt Ideal) f y = (f : S62500x64.Idx → EReal) y := rfl

/-- After n points, row i < n of the hidden array is edge i's hidden row. -/
theorem hid_at (c : Dev nD) (j : Fin 64) (n : ℕ) (hn : n ≤ (cfg10 a).N) (i : ℕ) (hi : i < n) :
    (hAt V a hp0 hp1 c n hn : S62500x64.Idx → EReal) (ValueIdx.ix2 (⟨i, lt_of_lt_of_eq (Nat.lt_of_lt_of_le hi hn) N_10⟩ : Fin 62500) j)
      = rowval V a hp0 hp1 c ⟨i, lt_of_lt_of_eq (Nat.lt_of_lt_of_le hi hn) N_10⟩ j := by
  unfold hAt
  refine (read_hM c _ _).symm.trans ?_
  refine (P1.hG_row_written (F := Ideal) tb0 tb1 xM hM c (cfg10 a).N (crd a) (fun t => iblk V a c 0 t) (fun t => iblk V a c 1 t) (fun t => iblk V a c 2 t) (fun t => iblk V a c 3 t) (fun t => iblk V a c 4 t) (T0 a c) (T1 a c) (V c main_arg0) (V c main_v43_0) (fun t => hp0 c (crd a t)) (fun t => hp1 c (crd a t)) (coord_val a) j n hn i hi).trans ?_
  exact (P1.rowStep_apply tb0 tb1 xM c (cfg10 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) _ j).trans (hrow_val V a hp0 hp1 c _ j)

/-- The two running-sum arrays and the hidden array after the region, each at its literal type. -/
abbrev sumArr (c : Dev nD) : S1x64.Idx → EReal := (dat V a hp0 hp1 c).arrAt 5 (cfg10 a).N
abbrev sqArr (c : Dev nD) : S1x64.Idx → EReal := (dat V a hp0 hp1 c).arrAt 6 (cfg10 a).N
abbrev hidArr (c : Dev nD) : S62500x64.Idx → EReal := hAt V a hp0 hp1 c (cfg10 a).N (Nat.le_refl _)

/-- The last point's index plus one is the number of edges of the chunk. -/
theorem tlast_count : (tlast a).val + 1 = 62500 := rfl

/-- The first running-sum array after the region: the sum over the chunk's edges of their hidden rows. -/
theorem sum_final (c : Dev nD) (j : Fin 64) :
    sumArr V a hp0 hp1 c (ValueIdx.ix2 (0 : Fin 1) j) = ∑ i : Fin 62500, rowval V a hp0 hp1 c i j := by
  refine (sum_arr_apply V a hp0 hp1 c j).trans ((sum_at V a hp0 hp1 c j (tlast a).val (tlast a).isLt).trans ?_)
  exact Fintype.sum_equiv (finCongr (tlast_count a)) _ _ (fun i => rfl)

/-- The second running-sum array after the region: the sum of the squares of those hidden rows. -/
theorem sq_final (c : Dev nD) (j : Fin 64) :
    sqArr V a hp0 hp1 c (ValueIdx.ix2 (0 : Fin 1) j)
      = ∑ i : Fin 62500, rowval V a hp0 hp1 c i j * rowval V a hp0 hp1 c i j := by
  refine (sq_arr_apply V a hp0 hp1 c j).trans ((sq_at V a hp0 hp1 c j (tlast a).val (tlast a).isLt).trans ?_)
  exact Fintype.sum_equiv (finCongr (tlast_count a)) _ _ (fun i => rfl)

/-- The hidden array after the region: row i is edge i's hidden row. -/
theorem hid_final (c : Dev nD) (i : Fin 62500) (j : Fin 64) :
    hidArr V a hp0 hp1 c (ValueIdx.ix2 i j) = rowval V a hp0 hp1 c i j :=
  hid_at V a hp0 hp1 c j (cfg10 a).N (Nat.le_refl _) i.val (lt_of_lt_of_eq i.isLt N_10.symm)

end AtIdeal

end Cert.KernelIdeal.P1R10

end
-- ==== Proof.P1R10Fin.lean ====
/- The first launch's results are its chunk's hidden values.

   The launch walks the 62500 edges of its chunk: at edge i it fetches the two rows of the node-feature array that entry i of
   its two endpoint tables names, applies the two layers, writes the hidden row and adds it, and its square, to two running
   sums. Its tables are the chunk's pieces of the edge array's two rows, and the weights it reads are the argument arrays'
   (the first layer's weights in two halves). So row i of its rows result is the hidden value of edge i of the chunk in the
   by-endpoint form, and its two sums are the sums of those values and of their squares over the chunk. -/
import proofs.«400866_j57071525429608_2_alg».proof.Proof.P1R10Val
import proofs.«400866_j57071525429608_2_alg».proof.Proof.HostHead
import proofs.«400866_j57071525429608_2_alg».proof.Proof.TblFacts
import proofs.«400866_j57071525429608_2_alg».proof.Proof.HostTail
import proofs.«400866_j57071525429608_2_alg».proof.Proof.KVal
import proofs.«400866_j57071525429608_2_alg».proof.Proof.Spec
import Idealize.ShloMosaic.Lib.ValueIdx

set_option maxRecDepth 16384

noncomputable section

namespace Cert.KernelIdeal.P1R10

open Cert.KernelIdeal Cert.KernelIdeal.Gen
open Idealize.ShloMosaic Idealize.ShloMosaic.TcCoe
open Cert.KernelIdeal.P1 (Bf tw0 tw1)
open scoped BigOperators

/-! ## The launch -/

/-- The launch's chunk among the sixteen. -/
abbrev KK : Fin 16 := ⟨10, by omega⟩
/-- The launch among the seventeen regions. -/
abbrev KK17 : Fin 17 := ⟨10, by omega⟩
/-- The buffers' contents when the launch is entered. -/
abbrev Ventry (m : (ℓ : Loc nD τ sig) → Buf (Elt Ideal) ℓ) (outs : Outs (F := Ideal)) (c : Dev nD) : Valuation τ sig (Elt Ideal) := V21 m outs c
/-- They are the entry contents the host operations' facts are stated at. -/
theorem Ventry_eq (m : (ℓ : Loc nD τ sig) → Buf (Elt Ideal) ℓ) (outs : Outs (F := Ideal)) (c : Dev nD) :
    Head.Vodd m outs c KK17 = Ventry m outs c := Head.Vodd_10 m outs c _

variable (m : (ℓ : Loc nD τ sig) → Buf (Elt Ideal) ℓ) (outs : Outs (F := Ideal)) (c : Dev nD)
variable (a : (pcfg10 (F := Ideal)).Adm)
variable (hp0 : ∀ c (i : grid10.Coords), k10_chk1 (tw0 tb0 c i (T0 a c))) (hp1 : ∀ c (i : grid10.Coords), k10_chk2 (tw1 tb1 c i (T1 a c)))

/-- The entry contents as the launch's value lemmas take them. -/
abbrev VV : (c : Dev nD) → (b : Ref sig .tc) → Buf (Elt Ideal) ((c : Thread nD τ).loc b) := fun c b => Ventry m outs c b

/-! ## The tables' words are the chunk's endpoints -/

/-- Entry `i` of the first table names the first endpoint of edge `i` of the chunk. -/
theorem e0_eq (hT0 : (T0 a c : S62500.Idx → BitVec 32) = (Tbl.tblA m outs c KK : IVec S62500 32)) (i : Fin 62500) :
    (⟨(e0At a c i).toNat, e0_lt a hp0 c i⟩ : Fin 100000) = Cert.Spec.endpoint (KVal.edgesA m c) 0 (Cert.Spec.chunk KK i) := by
  have hw : e0At a c i = (KVal.edgesA m c) (ValueIdx.ix2 (0 : Fin 2) (Cert.Spec.chunk KK i)) := by
    show (T0 a c : S62500.Idx → BitVec 32) (ValueIdx.ix1 i) = _
    rw [hT0]
    exact Tbl.tblA_apply m outs c KK i
  have hlt := e0_lt a hp0 c i
  rw [hw] at hlt
  refine Fin.ext ?_
  show (e0At a c i).toNat = (Cert.Spec.node _).val
  rw [Cert.Spec.node_val_of_toNat_lt hlt, hw]

/-- Entry `i` of the second table names the second endpoint. -/
theorem e1_eq (hT1 : (T1 a c : S62500.Idx → BitVec 32) = (Tbl.tblB m outs c KK : IVec S62500 32)) (i : Fin 62500) :
    (⟨(e1At a c i).toNat, e1_lt a hp1 c i⟩ : Fin 100000) = Cert.Spec.endpoint (KVal.edgesA m c) 1 (Cert.Spec.chunk KK i) := by
  have hw : e1At a c i = (KVal.edgesA m c) (ValueIdx.ix2 (1 : Fin 2) (Cert.Spec.chunk KK i)) := by
    show (T1 a c : S62500.Idx → BitVec 32) (ValueIdx.ix1 i) = _
    rw [hT1]
    exact Tbl.tblB_apply m outs c KK i
  have hlt := e1_lt a hp1 c i
  rw [hw] at hlt
  refine Fin.ext ?_
  show (e1At a c i).toNat = (Cert.Spec.node _).val
  rw [Cert.Spec.node_val_of_toNat_lt hlt, hw]

/-! ## The arrays the launch reads are the arguments' -/

theorem x_eq : xArr (VV m outs) c = KVal.xA m c := by
  show Ventry m outs c main_arg0 = _
  rw [← Ventry_eq m outs c]
  exact Head.arg0_keep m outs c KK17
theorem wh_eq : whArr (VV m outs) c = KVal.WhA m c := by
  show Ventry m outs c main_arg4 = _
  rw [← Ventry_eq m outs c]
  exact Head.arg4_keep m outs c KK17
theorem w1_apply (k : Fin 64) (k' : Fin 128) :
    w1Arr (VV m outs) c (ValueIdx.ix2 k k') = KVal.WinA m c (ValueIdx.ix2 k (⟨k'.val, by omega⟩ : Fin 256)) := by
  show (Ventry m outs c main_v4 : S64x128.Idx → EReal) (ValueIdx.ix2 k k') = _
  rw [← Ventry_eq m outs c]
  exact Head.v4_apply m outs c KK17 k k'
theorem w2_apply (k : Fin 64) (k' : Fin 128) :
    w2Arr (VV m outs) c (ValueIdx.ix2 k k') = KVal.WinA m c (ValueIdx.ix2 k (⟨128 + k'.val, by omega⟩ : Fin 256)) := by
  show (Ventry m outs c main_v5 : S64x128.Idx → EReal) (ValueIdx.ix2 k k') = _
  rw [← Ventry_eq m outs c]
  exact Head.v5_apply m outs c KK17 k k'
theorem bin_apply (k : Fin 64) :
    binArr (VV m outs) c (ValueIdx.ix2 (0 : Fin 1) k) = KVal.binA m c (ValueIdx.ix1 k) := by
  show (Ventry m outs c main_v6 : S1x64.Idx → EReal) (ValueIdx.ix2 (0 : Fin 1) k) = _
  rw [← Ventry_eq m outs c]
  exact Head.v6_apply m outs c KK17 k
theorem bh_apply (j : Fin 64) :
    bhArr (VV m outs) c (ValueIdx.ix2 (0 : Fin 1) j) = KVal.bhA m c (ValueIdx.ix1 j) := by
  show (Ventry m outs c main_v7 : S1x64.Idx → EReal) (ValueIdx.ix2 (0 : Fin 1) j) = _
  rw [← Ventry_eq m outs c]
  exact Head.v7_apply m outs c KK17 j

/-! ## The launch's hidden row is the chunk's hidden value -/

theorem rowval_eq (hT0 : (T0 a c : S62500.Idx → BitVec 32) = (Tbl.tblA m outs c KK : IVec S62500 32))
    (hT1 : (T1 a c : S62500.Idx → BitVec 32) = (Tbl.tblB m outs c KK : IVec S62500 32)) (i : Fin 62500) (j : Fin 64) :
    rowval (VV m outs) a hp0 hp1 c i j = KVal.hid m c (Cert.Spec.chunk KK i) j := by
  unfold rowval KVal.hid
  rw [e0_eq m outs c a hp0 hT0 i, e1_eq m outs c a hp1 hT1 i, x_eq m outs c, wh_eq m outs c]
  simp only [w1_apply m outs c, w2_apply m outs c, bin_apply m outs c, bh_apply m outs c]

/-! ## The three results -/

/-- Row `i` of the rows result is the hidden value of edge `i` of the chunk. -/
theorem chunkRow_eq (hT0 : (T0 a c : S62500.Idx → BitVec 32) = (Tbl.tblA m outs c KK : IVec S62500 32))
    (hT1 : (T1 a c : S62500.Idx → BitVec 32) = (Tbl.tblB m outs c KK : IVec S62500 32))
    (hR0 : (Tail.res0 outs c KK : S62500x64.Idx → EReal) = hidArr (VV m outs) a hp0 hp1 c)
    (i : Fin 62500) (j : Fin 64) : Tail.chunkRow outs c KK i j = KVal.HID m c KK i j := by
  show (Tail.res0 outs c KK : S62500x64.Idx → EReal) (ValueIdx.ix2 i j) = _
  rw [hR0]
  exact (hid_final (VV m outs) a hp0 hp1 c i j).trans (rowval_eq m outs c a hp0 hp1 hT0 hT1 i j)

/-- The sums result is the sum of the chunk's hidden values. -/
theorem chunkSum_eq (hT0 : (T0 a c : S62500.Idx → BitVec 32) = (Tbl.tblA m outs c KK : IVec S62500 32))
    (hT1 : (T1 a c : S62500.Idx → BitVec 32) = (Tbl.tblB m outs c KK : IVec S62500 32))
    (hR1 : (Tail.res1 outs c KK : S1x64.Idx → EReal) = sumArr (VV m outs) a hp0 hp1 c)
    (j : Fin 64) : Tail.chunkSum outs c KK j = ∑ i : Fin 62500, KVal.HID m c KK i j := by
  show (Tail.res1 outs c KK : S1x64.Idx → EReal) (ValueIdx.ix2 (0 : Fin 1) j) = _
  rw [hR1]
  exact (sum_final (VV m outs) a hp0 hp1 c j).trans (Finset.sum_congr rfl fun i _ => rowval_eq m outs c a hp0 hp1 hT0 hT1 i j)

/-- The sums-of-squares result is the sum of their squares. -/
theorem chunkSq_eq (hT0 : (T0 a c : S62500.Idx → BitVec 32) = (Tbl.tblA m outs c KK : IVec S62500 32))
    (hT1 : (T1 a c : S62500.Idx → BitVec 32) = (Tbl.tblB m outs c KK : IVec S62500 32))
    (hR2 : (Tail.res2 outs c KK : S1x64.Idx → EReal) = sqArr (VV m outs) a hp0 hp1 c)
    (j : Fin 64) : Tail.chunkSq outs c KK j = ∑ i : Fin 62500, KVal.HID m c KK i j * KVal.HID m c KK i j := by
  show (Tail.res2 outs c KK : S1x64.Idx → EReal) (ValueIdx.ix2 (0 : Fin 1) j) = _
  rw [hR2]
  exact (sq_final (VV m outs) a hp0 hp1 c j).trans
    (Finset.sum_congr rfl fun i _ => by rw [rowval_eq m outs c a hp0 hp1 hT0 hT1 i j])

end Cert.KernelIdeal.P1R10

end
-- ==== Proof.P1R10Top.lean ====
/- The first launch's results are its chunk's hidden values, at the run's own choices.

   The run fixes what every region leaves (the unknowns), each launch's tables and the contents each launch is entered
   from. At those choices nothing is left to assume: the launch's tables are its chunk's pieces of the edge array's rows,
   its results are what its proof data leave, and so its rows are the chunk's hidden values and its two sums their sums
   and sums of squares. -/
import proofs.«400866_j57071525429608_2_alg».proof.Proof.P1R10Fin
import proofs.«400866_j57071525429608_2_alg».proof.Proof.GlueVal

set_option maxRecDepth 16384

noncomputable section

namespace Cert.KernelIdeal.P1R10

open Cert.KernelIdeal Cert.KernelIdeal.Gen
open Idealize.ShloMosaic Idealize.ShloMosaic.TcCoe
open Cert.KernelIdeal.P1 (Bf tw0 tw1)
open Cert.KernelIdeal.Glue (atTc)
open scoped BigOperators

/-! ## The run's choices for this launch -/

/-- The launch's tables, admissible. -/
abbrev gA (m : (ℓ : Loc nD τ sig) → Buf (Elt Ideal) ℓ) : (pcfg10 (F := Ideal)).Adm := Glue.adm10 m
/-- The contents it is entered from, as the run names them. -/
abbrev gW (m : (ℓ : Loc nD τ sig) → Buf (Elt Ideal) ℓ)
    (hE : ∀ (c : Dev nD) (idx : S2x1000000.Idx), ((V0 m c main_arg1 : IVec S2x1000000 32) idx).toNat < 100000) :
    Dev nD → Valuation τ sig (Elt Ideal) := Glue.W21 m hE

variable (m : (ℓ : Loc nD τ sig) → Buf (Elt Ideal) ℓ)
  (hE : ∀ (c : Dev nD) (idx : S2x1000000.Idx), ((V0 m c main_arg1 : IVec S2x1000000 32) idx).toNat < 100000)
  (c : Dev nD)

include hE

/-- The words it reads of them name rows of the node table. -/
theorem gP0 : ∀ c (i : grid10.Coords), k10_chk1 (tw0 tb0 c i (T0 (gA m) c)) := Glue.hp0_10 m hE
theorem gP1 : ∀ c (i : grid10.Coords), k10_chk2 (tw1 tb1 c i (T1 (gA m) c)) := Glue.hp1_10 m hE
/-- The contents it is entered from are the valuation's. -/
theorem gV : Ventry m (Glue.outs m hE) c = gW m hE c := Glue.V21_eq m hE c
/-- The tables it finds in the buffers are its own. -/
theorem gTA : (T0 (gA m) c : S62500.Idx → BitVec 32) = (Tbl.tblA m (Glue.outs m hE) c KK : IVec S62500 32) :=
  ((Glue.hT0_10 m hE c).symm.trans (congrFun (gV m hE c) (Proc.devRef .tc main_v41)).symm :)
theorem gTB : (T1 (gA m) c : S62500.Idx → BitVec 32) = (Tbl.tblB m (Glue.outs m hE) c KK : IVec S62500 32) :=
  ((Glue.hT1_10 m hE c).symm.trans (congrFun (gV m hE c) (Proc.devRef .tc main_v42)).symm :)
/-- What it leaves at its three results. -/
theorem gR0 : (Tail.res0 (Glue.outs m hE) c KK : S62500x64.Idx → EReal) = hidArr (atTc (gW m hE)) (gA m) (gP0 m hE) (gP1 m hE) c :=
  Glue.res0_10 m hE c
theorem gR1 : (Tail.res1 (Glue.outs m hE) c KK : S1x64.Idx → EReal) = sumArr (atTc (gW m hE)) (gA m) (gP0 m hE) (gP1 m hE) c :=
  Glue.res1_10 m hE c
theorem gR2 : (Tail.res2 (Glue.outs m hE) c KK : S1x64.Idx → EReal) = sqArr (atTc (gW m hE)) (gA m) (gP0 m hE) (gP1 m hE) c :=
  Glue.res2_10 m hE c

/-! ## The three facts, nothing assumed -/

/-- The entry contents the launch's value lemmas take are the run's. -/
theorem VV_eq : VV m (Glue.outs m hE) = atTc (gW m hE) :=
  funext fun c => funext fun b => congrFun (gV m hE c) (Proc.devRef .tc b)

/-- Row `i` of the launch's rows is the hidden value of edge `i` of its chunk. -/
theorem row_top (i : Fin 62500) (j : Fin 64) : Tail.chunkRow (Glue.outs m hE) c KK i j = KVal.HID m c KK i j :=
  chunkRow_eq m (Glue.outs m hE) c (gA m) (gP0 m hE) (gP1 m hE) (gTA m hE c) (gTB m hE c)
    (by rw [VV_eq m hE]; exact gR0 m hE c) i j

/-- Its sums are the sums of those values over the chunk. -/
theorem sum_top (j : Fin 64) : Tail.chunkSum (Glue.outs m hE) c KK j = ∑ i : Fin 62500, KVal.HID m c KK i j :=
  chunkSum_eq m (Glue.outs m hE) c (gA m) (gP0 m hE) (gP1 m hE) (gTA m hE c) (gTB m hE c)
    (by rw [VV_eq m hE]; exact gR1 m hE c) j

/-- Its sums of squares are the sums of their squares. -/
theorem sq_top (j : Fin 64) :
    Tail.chunkSq (Glue.outs m hE) c KK j = ∑ i : Fin 62500, KVal.HID m c KK i j * KVal.HID m c KK i j :=
  chunkSq_eq m (Glue.outs m hE) c (gA m) (gP0 m hE) (gP1 m hE) (gTA m hE c) (gTB m hE c)
    (by rw [VV_eq m hE]; exact gR2 m hE c) j

end Cert.KernelIdeal.P1R10

end
-- ==== Proof.P1R11Val.lean ====
/-
  A gather-and-project region (one chunk of 62500 edges), from blocks to arrays.

  The five parameter windows never move: each one's block is its whole array. The two running-sum
  windows never move either and are written back once, after the last point, so their arrays end
  holding what the last point left. Put together with the recursion over the points, at the ideal
  values: the first array ends at the sum over the chunk's 62500 edges of their hidden rows, the
  second at the sum of the squares, and row i of the hidden array is edge i's hidden row — where the
  hidden row of edge i is the two layers applied to the two rows of the node-feature array that entry
  i of each endpoint table names.
-/
import proofs.«400866_j57071525429608_2_alg».proof.Proof.P1R11Dat
import proofs.«400866_j57071525429608_2_alg».proof.Proof.P1StateVal
import proofs.«400866_j57071525429608_2_alg».proof.Proof.P1Val
import Idealize.ShloMosaic.Lib.Pipeline.Value
import Idealize.ShloMosaic.Lib.ValueIdx
import Mathlib.Algebra.BigOperators.Fin

set_option maxRecDepth 100000

noncomputable section

namespace Cert.KernelIdeal.P1R11

open Cert.KernelIdeal Cert.KernelIdeal.Gen
open Idealize.ShloMosaic Idealize.ShloMosaic.TcCoe
open Idealize.ShloMosaic.Pipeline (Dat)
open Cert.KernelIdeal.P1 (Bf tw0 tw1 hNext)
open scoped BigOperators

/-! ## From blocks to arrays (any float values) -/

section Arrays

variable {F : FTy → Type} [FloatOps F]
variable (V : (c : Dev nD) → (b : Ref sig .tc) → Buf (Elt F) ((c : Thread nD τ).loc b))
variable (a : (pcfg11 (F := F)).Adm)
variable (hp0 : ∀ c (i : grid11.Coords), k11_chk1 (tw0 tb0 c i (T0 a c))) (hp1 : ∀ c (i : grid11.Coords), k11_chk2 (tw1 tb1 c i (T1 a c)))

/-- The last grid point. -/
def tlast : Fin (cfg11 a).N := ⟨62499, lt_of_lt_of_eq (by decide : 62499 < 62500) N_11.symm⟩

theorem tlast_succ : (tlast a).val + 1 = (cfg11 a).N := N_11.symm

/-- The first half of the first layer's weights: the block is the array. -/
theorem iblk_0_eq (c : Dev nD) (t : Fin (cfg11 a).N) : (iblk V a c 0 t : S64x128.Idx → Elt F .f32) = V c main_v4 := by
  refine funext fun (y : S64x128.Idx) => ?_
  show (V c main_v4 : S64x128.Idx → Elt F .f32) ((((cfg11 a).win 0).blk t).view.emb y) = _
  congr 1; funext b; apply Fin.ext
  match b with
  | ⟨0, _⟩ =>
    show ((cfg11 a).win 0).index t (0 : Fin 2) * 64 + 1 * (y 0).val = (y 0).val
    rw [show ((cfg11 a).win 0).index t (0 : Fin 2) = 0 from rfl]; omega
  | ⟨1, _⟩ =>
    show ((cfg11 a).win 0).index t (1 : Fin 2) * 128 + 1 * (y 1).val = (y 1).val
    rw [show ((cfg11 a).win 0).index t (1 : Fin 2) = 0 from rfl]; omega

/-- The second half of the first layer's weights: the block is the array. -/
theorem iblk_1_eq (c : Dev nD) (t : Fin (cfg11 a).N) : (iblk V a c 1 t : S64x128.Idx → Elt F .f32) = V c main_v5 := by
  refine funext fun (y : S64x128.Idx) => ?_
  show (V c main_v5 : S64x128.Idx → Elt F .f32) ((((cfg11 a).win 1).blk t).view.emb y) = _
  congr 1; funext b; apply Fin.ext
  match b with
  | ⟨0, _⟩ =>
    show ((cfg11 a).win 1).index t (0 : Fin 2) * 64 + 1 * (y 0).val = (y 0).val
    rw [show ((cfg11 a).win 1).index t (0 : Fin 2) = 0 from rfl]; omega
  | ⟨1, _⟩ =>
    show ((cfg11 a).win 1).index t (1 : Fin 2) * 128 + 1 * (y 1).val = (y 1).val
    rw [show ((cfg11 a).win 1).index t (1 : Fin 2) = 0 from rfl]; omega

/-- The first layer's bias: the block is the array. -/
theorem iblk_2_eq (c : Dev nD) (t : Fin (cfg11 a).N) : (iblk V a c 2 t : S1x64.Idx → Elt F .f32) = V c main_v6 := by
  refine funext fun (y : S1x64.Idx) => ?_
  show (V c main_v6 : S1x64.Idx → Elt F .f32) ((((cfg11 a).win 2).blk t).view.emb y) = _
  congr 1; funext b; apply Fin.ext
  match b with
  | ⟨0, _⟩ =>
    show ((cfg11 a).win 2).index t (0 : Fin 2) * 1 + 1 * (y 0).val = (y 0).val
    rw [show ((cfg11 a).win 2).index t (0 : Fin 2) = 0 from rfl]; omega
  | ⟨1, _⟩ =>
    show ((cfg11 a).win 2).index t (1 : Fin 2) * 64 + 1 * (y 1).val = (y 1).val
    rw [show ((cfg11 a).win 2).index t (1 : Fin 2) = 0 from rfl]; omega

/-- The second layer's weights: the block is the array. -/
theorem iblk_3_eq (c : Dev nD) (t : Fin (cfg11 a).N) : (iblk V a c 3 t : S64x64.Idx → Elt F .f32) = V c main_arg4 := by
  refine funext fun (y : S64x64.Idx) => ?_
  show (V c main_arg4 : S64x64.Idx → Elt F .f32) ((((cfg11 a).win 3).blk t).view.emb y) = _
  congr 1; funext b; apply Fin.ext
  match b with
  | ⟨0, _⟩ =>
    show ((cfg11 a).win 3).index t (0 : Fin 2) * 64 + 1 * (y 0).val = (y 0).val
    rw [show ((cfg11 a).win 3).index t (0 : Fin 2) = 0 from rfl]; omega
  | ⟨1, _⟩ =>
    show ((cfg11 a).win 3).index t (1 : Fin 2) * 64 + 1 * (y 1).val = (y 1).val
    rw [show ((cfg11 a).win 3).index t (1 : Fin 2) = 0 from rfl]; omega

/-- The second layer's bias: the block is the array. -/
theorem iblk_4_eq (c : Dev nD) (t : Fin (cfg11 a).N) : (iblk V a c 4 t : S1x64.Idx → Elt F .f32) = V c main_v7 := by
  refine funext fun (y : S1x64.Idx) => ?_
  show (V c main_v7 : S1x64.Idx → Elt F .f32) ((((cfg11 a).win 4).blk t).view.emb y) = _
  congr 1; funext b; apply Fin.ext
  match b with
  | ⟨0, _⟩ =>
    show ((cfg11 a).win 4).index t (0 : Fin 2) * 1 + 1 * (y 0).val = (y 0).val
    rw [show ((cfg11 a).win 4).index t (0 : Fin 2) = 0 from rfl]; omega
  | ⟨1, _⟩ =>
    show ((cfg11 a).win 4).index t (1 : Fin 2) * 64 + 1 * (y 1).val = (y 1).val
    rw [show ((cfg11 a).win 4).index t (1 : Fin 2) = 0 from rfl]; omega

/-- Window 5 is written back at the last point and at no other: its block never moves. -/
theorem flush5_iff (t : Fin (cfg11 a).N) : ((cfg11 a).win 5).flush t = true ↔ t.val + 1 = (cfg11 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint5 : ∀ t t' : Fin (cfg11 a).N, ((cfg11 a).win 5).flush t = true → ((cfg11 a).win 5).flush t' = true → t ≠ t' →
    Disjoint (((cfg11 a).win 5).blk t).view.set (((cfg11 a).win 5).blk t').view.set :=
  fun t t' h h' hne => absurd (Fin.ext (by
    have e := (flush5_iff a t).mp h
    have e' := (flush5_iff a t').mp h'
    omega)) hne

/-- Where feature j of window 5's block sits in its array: at feature j. -/
theorem emb5 (t : Fin (cfg11 a).N) (j : Fin 64) :
    (((cfg11 a).win 5).blk t).view.emb (ValueIdx.ix2 (0 : Fin 1) j) = ValueIdx.ix2 (0 : Fin 1) j := by
  funext b; apply Fin.ext
  match b with
  | ⟨0, _⟩ =>
    show ((cfg11 a).win 5).index t (0 : Fin 2) * 1 + 1 * 0 = 0
    rw [show ((cfg11 a).win 5).index t (0 : Fin 2) = 0 from rfl]
  | ⟨1, _⟩ =>
    show ((cfg11 a).win 5).index t (1 : Fin 2) * 64 + 1 * j.val = j.val
    rw [show ((cfg11 a).win 5).index t (1 : Fin 2) = 0 from rfl]; omega

theorem sum_arr_apply (c : Dev nD) (j : Fin 64) :
    ((dat V a hp0 hp1 c).arrAt 5 (cfg11 a).N : S1x64.Idx → Elt F .f32) (ValueIdx.ix2 (0 : Fin 1) j)
      = (stAt V a hp0 hp1 c (tlast a).val (tlast a).isLt).1 (ValueIdx.ix2 (0 : Fin 1) j) := by
  have h := (dat V a hp0 hp1 c).arrAt_emb_eq_flushed 5 (disjoint5 a) (tlast a) ((flush5_iff a (tlast a)).mpr (tlast_succ a))
    (ValueIdx.ix2 (0 : Fin 1) j)
  rw [emb5] at h
  refine h.trans ?_
  show (dat V a hp0 hp1 c).after 5 (tlast a) (ValueIdx.ix2 (0 : Fin 1) j) = _
  rw [after_5]

/-- The array of window 5 after the region is what the last point left. -/
theorem sum_arr (c : Dev nD) :
    ((dat V a hp0 hp1 c).arrAt 5 (cfg11 a).N : S1x64.Idx → Elt F .f32) = (stAt V a hp0 hp1 c (tlast a).val (tlast a).isLt).1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sum_arr_apply V a hp0 hp1 c j

/-- Window 6 is written back at the last point and at no other: its block never moves. -/
theorem flush6_iff (t : Fin (cfg11 a).N) : ((cfg11 a).win 6).flush t = true ↔ t.val + 1 = (cfg11 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint6 : ∀ t t' : Fin (cfg11 a).N, ((cfg11 a).win 6).flush t = true → ((cfg11 a).win 6).flush t' = true → t ≠ t' →
    Disjoint (((cfg11 a).win 6).blk t).view.set (((cfg11 a).win 6).blk t').view.set :=
  fun t t' h h' hne => absurd (Fin.ext (by
    have e := (flush6_iff a t).mp h
    have e' := (flush6_iff a t').mp h'
    omega)) hne

/-- Where feature j of window 6's block sits in its array: at feature j. -/
theorem emb6 (t : Fin (cfg11 a).N) (j : Fin 64) :
    (((cfg11 a).win 6).blk t).view.emb (ValueIdx.ix2 (0 : Fin 1) j) = ValueIdx.ix2 (0 : Fin 1) j := by
  funext b; apply Fin.ext
  match b with
  | ⟨0, _⟩ =>
    show ((cfg11 a).win 6).index t (0 : Fin 2) * 1 + 1 * 0 = 0
    rw [show ((cfg11 a).win 6).index t (0 : Fin 2) = 0 from rfl]
  | ⟨1, _⟩ =>
    show ((cfg11 a).win 6).index t (1 : Fin 2) * 64 + 1 * j.val = j.val
    rw [show ((cfg11 a).win 6).index t (1 : Fin 2) = 0 from rfl]; omega

theorem sq_arr_apply (c : Dev nD) (j : Fin 64) :
    ((dat V a hp0 hp1 c).arrAt 6 (cfg11 a).N : S1x64.Idx → Elt F .f32) (ValueIdx.ix2 (0 : Fin 1) j)
      = (stAt V a hp0 hp1 c (tlast a).val (tlast a).isLt).2.1 (ValueIdx.ix2 (0 : Fin 1) j) := by
  have h := (dat V a hp0 hp1 c).arrAt_emb_eq_flushed 6 (disjoint6 a) (tlast a) ((flush6_iff a (tlast a)).mpr (tlast_succ a))
    (ValueIdx.ix2 (0 : Fin 1) j)
  rw [emb6] at h
  refine h.trans ?_
  show (dat V a hp0 hp1 c).after 6 (tlast a) (ValueIdx.ix2 (0 : Fin 1) j) = _
  rw [after_6]

/-- The array of window 6 after the region is what the last point left. -/
theorem sq_arr (c : Dev nD) :
    ((dat V a hp0 hp1 c).arrAt 6 (cfg11 a).N : S1x64.Idx → Elt F .f32) = (stAt V a hp0 hp1 c (tlast a).val (tlast a).isLt).2.1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sq_arr_apply V a hp0 hp1 c j

end Arrays

/-! ## The values, at the ideal instance -/

section AtIdeal

variable (V : (c : Dev nD) → (b : Ref sig .tc) → Buf (Elt Ideal) ((c : Thread nD τ).loc b))
variable (a : (pcfg11 (F := Ideal)).Adm)
variable (hp0 : ∀ c (i : grid11.Coords), k11_chk1 (tw0 tb0 c i (T0 a c))) (hp1 : ∀ c (i : grid11.Coords), k11_chk2 (tw1 tb1 c i (T1 a c)))

/-- The arrays the region reads, each at its literal type. -/
abbrev xArr (c : Dev nD) : S100000x128.Idx → EReal := V c main_arg0
abbrev w1Arr (c : Dev nD) : S64x128.Idx → EReal := V c main_v4
abbrev w2Arr (c : Dev nD) : S64x128.Idx → EReal := V c main_v5
abbrev binArr (c : Dev nD) : S1x64.Idx → EReal := V c main_v6
abbrev whArr (c : Dev nD) : S64x64.Idx → EReal := V c main_arg4
abbrev bhArr (c : Dev nD) : S1x64.Idx → EReal := V c main_v7
/-- Entry i of each endpoint table. -/
abbrev e0At (c : Dev nD) (i : Fin 62500) : BitVec 32 := (T0 a c : S62500.Idx → BitVec 32) (ValueIdx.ix1 i)
abbrev e1At (c : Dev nD) (i : Fin 62500) : BitVec 32 := (T1 a c : S62500.Idx → BitVec 32) (ValueIdx.ix1 i)

/-- The grid point of edge i. -/
def ptOf (i : Fin 62500) : Fin (cfg11 a).N := ⟨i.val, lt_of_lt_of_eq i.isLt N_11.symm⟩

/-- The word a point reads of the first table is the table's entry at the point. -/
theorem tw0_at (c : Dev nD) (t : Fin (cfg11 a).N) :
    tw0 tb0 c (crd a t) (T0 a c) = e0At a c ⟨t.val, lt_of_lt_of_eq t.isLt N_11⟩ := by
  refine (P1.tw0_eq tb0 c (crd a t) (T0 a c)).trans ?_
  show (T0 a c : S62500.Idx → BitVec 32) _ = (T0 a c : S62500.Idx → BitVec 32) _
  refine congrArg (T0 a c : S62500.Idx → BitVec 32) (funext fun b => Fin.ext ?_)
  match b with
  | ⟨0, _⟩ => exact coord_val a t

theorem tw1_at (c : Dev nD) (t : Fin (cfg11 a).N) :
    tw1 tb1 c (crd a t) (T1 a c) = e1At a c ⟨t.val, lt_of_lt_of_eq t.isLt N_11⟩ := by
  refine (P1.tw1_eq tb1 c (crd a t) (T1 a c)).trans ?_
  show (T1 a c : S62500.Idx → BitVec 32) _ = (T1 a c : S62500.Idx → BitVec 32) _
  refine congrArg (T1 a c : S62500.Idx → BitVec 32) (funext fun b => Fin.ext ?_)
  match b with
  | ⟨0, _⟩ => exact coord_val a t

include hp0 in
/-- Every entry of the endpoint tables names a row of the node-feature array. -/
theorem e0_lt (c : Dev nD) (i : Fin 62500) : (e0At a c i).toNat < 100000 := by
  have h := P1.toNat_lt_of_chk1 (hp0 c (crd a (ptOf a i)))
  rw [tw0_at] at h
  exact h

include hp1 in
theorem e1_lt (c : Dev nD) (i : Fin 62500) : (e1At a c i).toNat < 100000 := by
  have h := P1.toNat_lt_of_chk2 (hp1 c (crd a (ptOf a i)))
  rw [tw1_at] at h
  exact h

/-- The hidden row of edge i of the chunk, at feature j: the two layers applied to the two rows of the node-feature
    array that entry i of each endpoint table names. -/
def rowval (c : Dev nD) (i : Fin 62500) (j : Fin 64) : EReal :=
  ∑ k : Fin 64,
      max (∑ k' : Fin 128, xArr V c (ValueIdx.ix2 (⟨(e0At a c i).toNat, e0_lt a hp0 c i⟩ : Fin 100000) k') * w1Arr V c (ValueIdx.ix2 k k')
          + ∑ k' : Fin 128, xArr V c (ValueIdx.ix2 (⟨(e1At a c i).toNat, e1_lt a hp1 c i⟩ : Fin 100000) k') * w2Arr V c (ValueIdx.ix2 k k')
          + binArr V c (ValueIdx.ix2 (0 : Fin 1) k)) 0
        * whArr V c (ValueIdx.ix2 j k)
    + bhArr V c (ValueIdx.ix2 (0 : Fin 1) j)

/-- The first row a point fetches, at feature k'. -/
theorem row0_val (c : Dev nD) (t : Fin (cfg11 a).N) (k' : Fin 128) :
    P1.rowAt0 tb0 xM c (crd a t) (T0 a c) (V c main_arg0) (hp0 c (crd a t)) (ValueIdx.ix2 (0 : Fin 1) k')
      = xArr V c (ValueIdx.ix2 (⟨(e0At a c ⟨t.val, lt_of_lt_of_eq t.isLt N_11⟩).toNat, e0_lt a hp0 c _⟩ : Fin 100000) k') := by
  refine (P1.rowAt0_apply tb0 xM c (crd a t) (T0 a c) (V c main_arg0) (hp0 c (crd a t)) k').trans ?_
  show xArr V c _ = xArr V c _
  refine congrArg (xArr V c) (funext fun b => Fin.ext ?_)
  match b with
  | ⟨0, _⟩ =>
    show (tw0 tb0 c (crd a t) (T0 a c)).toNat = (e0At a c ⟨t.val, lt_of_lt_of_eq t.isLt N_11⟩).toNat
    rw [tw0_at]
  | ⟨1, _⟩ => rfl

/-- The second row a point fetches, at feature k'. -/
theorem row1_val (c : Dev nD) (t : Fin (cfg11 a).N) (k' : Fin 128) :
    P1.rowAt1 tb1 xM c (crd a t) (T1 a c) (V c main_arg0) (hp1 c (crd a t)) (ValueIdx.ix2 (0 : Fin 1) k')
      = xArr V c (ValueIdx.ix2 (⟨(e1At a c ⟨t.val, lt_of_lt_of_eq t.isLt N_11⟩).toNat, e1_lt a hp1 c _⟩ : Fin 100000) k') := by
  refine (P1.rowAt1_apply tb1 xM c (crd a t) (T1 a c) (V c main_arg0) (hp1 c (crd a t)) k').trans ?_
  show xArr V c _ = xArr V c _
  refine congrArg (xArr V c) (funext fun b => Fin.ext ?_)
  match b with
  | ⟨0, _⟩ =>
    show (tw1 tb1 c (crd a t) (T1 a c)).toNat = (e1At a c ⟨t.val, lt_of_lt_of_eq t.isLt N_11⟩).toNat
    rw [tw1_at]
  | ⟨1, _⟩ => rfl

/-- A point's hidden row is the hidden row of its edge. -/
theorem hrow_val (c : Dev nD) (t : Fin (cfg11 a).N) (j : Fin 64) :
    P1.hrowG tb0 tb1 xM c (cfg11 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t j
      = rowval V a hp0 hp1 c ⟨t.val, lt_of_lt_of_eq t.isLt N_11⟩ j :=
  P1.hrow_eq_of (P1.rowAt0 tb0 xM c (crd a t) (T0 a c) (V c main_arg0) (hp0 c (crd a t)))
    (P1.rowAt1 tb1 xM c (crd a t) (T1 a c) (V c main_arg0) (hp1 c (crd a t)))
    (iblk V a c 0 t) (iblk V a c 1 t) (iblk V a c 2 t) (iblk V a c 3 t) (iblk V a c 4 t)
    (xArr V c) ⟨(e0At a c ⟨t.val, lt_of_lt_of_eq t.isLt N_11⟩).toNat, e0_lt a hp0 c _⟩
    ⟨(e1At a c ⟨t.val, lt_of_lt_of_eq t.isLt N_11⟩).toNat, e1_lt a hp1 c _⟩
    (w1Arr V c) (w2Arr V c) (binArr V c) (whArr V c) (bhArr V c)
    (row0_val V a hp0 c t) (row1_val V a hp1 c t)
    (iblk_0_eq V a c t) (iblk_1_eq V a c t) (iblk_2_eq V a c t) (iblk_3_eq V a c t) (iblk_4_eq V a c t) j

/-- After point n the first running sum is the sum of the hidden rows of the edges 0 … n. -/
theorem sum_at (c : Dev nD) (j : Fin 64) (n : ℕ) (hn : n < (cfg11 a).N) :
    (stAt V a hp0 hp1 c n hn).1 (ValueIdx.ix2 (0 : Fin 1) j)
      = ∑ i : Fin (n + 1), rowval V a hp0 hp1 c ⟨i.val, lt_of_lt_of_eq (Nat.lt_of_le_of_lt (Nat.le_of_lt_succ i.isLt) hn) N_11⟩ j := by
  unfold stAt
  refine (P1.sumG_at tb0 tb1 xM hM c (cfg11 a).N (crd a) (fun t => iblk V a c 0 t) (fun t => iblk V a c 1 t) (fun t => iblk V a c 2 t) (fun t => iblk V a c 3 t) (fun t => iblk V a c 4 t) (T0 a c) (T1 a c) (V c main_arg0) (V c main_v46_0) (fun t => hp0 c (crd a t)) (fun t => hp1 c (crd a t)) j n hn).trans ?_
  exact Finset.sum_congr rfl fun i _ => hrow_val V a hp0 hp1 c _ j

/-- After point n the second running sum is the sum of the squares of those hidden rows. -/
theorem sq_at (c : Dev nD) (j : Fin 64) (n : ℕ) (hn : n < (cfg11 a).N) :
    (stAt V a hp0 hp1 c n hn).2.1 (ValueIdx.ix2 (0 : Fin 1) j)
      = ∑ i : Fin (n + 1), rowval V a hp0 hp1 c ⟨i.val, lt_of_lt_of_eq (Nat.lt_of_le_of_lt (Nat.le_of_lt_succ i.isLt) hn) N_11⟩ j
          * rowval V a hp0 hp1 c ⟨i.val, lt_of_lt_of_eq (Nat.lt_of_le_of_lt (Nat.le_of_lt_succ i.isLt) hn) N_11⟩ j := by
  unfold stAt
  refine (P1.sumsqG_at tb0 tb1 xM hM c (cfg11 a).N (crd a) (fun t => iblk V a c 0 t) (fun t => iblk V a c 1 t) (fun t => iblk V a c 2 t) (fun t => iblk V a c 3 t) (fun t => iblk V a c 4 t) (T0 a c) (T1 a c) (V c main_arg0) (V c main_v46_0) (fun t => hp0 c (crd a t)) (fun t => hp1 c (crd a t)) j n hn).trans ?_
  exact Finset.sum_congr rfl fun i _ => by rw [hrow_val V a hp0 hp1 c _ j]

/-- The hidden array is read through its whole view as itself. -/
theorem read_hM (c : Dev nD) (f : Bf (F := Ideal) c hM) (y : S62500x64.Idx) :
    hM.view.read (Elt Ideal) f y = (f : S62500x64.Idx → EReal) y := rfl

/-- After n points, row i < n of the hidden array is edge i's hidden row. -/
theorem hid_at (c : Dev nD) (j : Fin 64) (n : ℕ) (hn : n ≤ (cfg11 a).N) (i : ℕ) (hi : i < n) :
    (hAt V a hp0 hp1 c n hn : S62500x64.Idx → EReal) (ValueIdx.ix2 (⟨i, lt_of_lt_of_eq (Nat.lt_of_lt_of_le hi hn) N_11⟩ : Fin 62500) j)
      = rowval V a hp0 hp1 c ⟨i, lt_of_lt_of_eq (Nat.lt_of_lt_of_le hi hn) N_11⟩ j := by
  unfold hAt
  refine (read_hM c _ _).symm.trans ?_
  refine (P1.hG_row_written (F := Ideal) tb0 tb1 xM hM c (cfg11 a).N (crd a) (fun t => iblk V a c 0 t) (fun t => iblk V a c 1 t) (fun t => iblk V a c 2 t) (fun t => iblk V a c 3 t) (fun t => iblk V a c 4 t) (T0 a c) (T1 a c) (V c main_arg0) (V c main_v46_0) (fun t => hp0 c (crd a t)) (fun t => hp1 c (crd a t)) (coord_val a) j n hn i hi).trans ?_
  exact (P1.rowStep_apply tb0 tb1 xM c (cfg11 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) _ j).trans (hrow_val V a hp0 hp1 c _ j)

/-- The two running-sum arrays and the hidden array after the region, each at its literal type. -/
abbrev sumArr (c : Dev nD) : S1x64.Idx → EReal := (dat V a hp0 hp1 c).arrAt 5 (cfg11 a).N
abbrev sqArr (c : Dev nD) : S1x64.Idx → EReal := (dat V a hp0 hp1 c).arrAt 6 (cfg11 a).N
abbrev hidArr (c : Dev nD) : S62500x64.Idx → EReal := hAt V a hp0 hp1 c (cfg11 a).N (Nat.le_refl _)

/-- The last point's index plus one is the number of edges of the chunk. -/
theorem tlast_count : (tlast a).val + 1 = 62500 := rfl

/-- The first running-sum array after the region: the sum over the chunk's edges of their hidden rows. -/
theorem sum_final (c : Dev nD) (j : Fin 64) :
    sumArr V a hp0 hp1 c (ValueIdx.ix2 (0 : Fin 1) j) = ∑ i : Fin 62500, rowval V a hp0 hp1 c i j := by
  refine (sum_arr_apply V a hp0 hp1 c j).trans ((sum_at V a hp0 hp1 c j (tlast a).val (tlast a).isLt).trans ?_)
  exact Fintype.sum_equiv (finCongr (tlast_count a)) _ _ (fun i => rfl)

/-- The second running-sum array after the region: the sum of the squares of those hidden rows. -/
theorem sq_final (c : Dev nD) (j : Fin 64) :
    sqArr V a hp0 hp1 c (ValueIdx.ix2 (0 : Fin 1) j)
      = ∑ i : Fin 62500, rowval V a hp0 hp1 c i j * rowval V a hp0 hp1 c i j := by
  refine (sq_arr_apply V a hp0 hp1 c j).trans ((sq_at V a hp0 hp1 c j (tlast a).val (tlast a).isLt).trans ?_)
  exact Fintype.sum_equiv (finCongr (tlast_count a)) _ _ (fun i => rfl)

/-- The hidden array after the region: row i is edge i's hidden row. -/
theorem hid_final (c : Dev nD) (i : Fin 62500) (j : Fin 64) :
    hidArr V a hp0 hp1 c (ValueIdx.ix2 i j) = rowval V a hp0 hp1 c i j :=
  hid_at V a hp0 hp1 c j (cfg11 a).N (Nat.le_refl _) i.val (lt_of_lt_of_eq i.isLt N_11.symm)

end AtIdeal

end Cert.KernelIdeal.P1R11

end
-- ==== Proof.P1R11Fin.lean ====
/- The first launch's results are its chunk's hidden values.

   The launch walks the 62500 edges of its chunk: at edge i it fetches the two rows of the node-feature array that entry i of
   its two endpoint tables names, applies the two layers, writes the hidden row and adds it, and its square, to two running
   sums. Its tables are the chunk's pieces of the edge array's two rows, and the weights it reads are the argument arrays'
   (the first layer's weights in two halves). So row i of its rows result is the hidden value of edge i of the chunk in the
   by-endpoint form, and its two sums are the sums of those values and of their squares over the chunk. -/
import proofs.«400866_j57071525429608_2_alg».proof.Proof.P1R11Val
import proofs.«400866_j57071525429608_2_alg».proof.Proof.HostHead
import proofs.«400866_j57071525429608_2_alg».proof.Proof.TblFacts
import proofs.«400866_j57071525429608_2_alg».proof.Proof.HostTail
import proofs.«400866_j57071525429608_2_alg».proof.Proof.KVal
import proofs.«400866_j57071525429608_2_alg».proof.Proof.Spec
import Idealize.ShloMosaic.Lib.ValueIdx

set_option maxRecDepth 16384

noncomputable section

namespace Cert.KernelIdeal.P1R11

open Cert.KernelIdeal Cert.KernelIdeal.Gen
open Idealize.ShloMosaic Idealize.ShloMosaic.TcCoe
open Cert.KernelIdeal.P1 (Bf tw0 tw1)
open scoped BigOperators

/-! ## The launch -/

/-- The launch's chunk among the sixteen. -/
abbrev KK : Fin 16 := ⟨11, by omega⟩
/-- The launch among the seventeen regions. -/
abbrev KK17 : Fin 17 := ⟨11, by omega⟩
/-- The buffers' contents when the launch is entered. -/
abbrev Ventry (m : (ℓ : Loc nD τ sig) → Buf (Elt Ideal) ℓ) (outs : Outs (F := Ideal)) (c : Dev nD) : Valuation τ sig (Elt Ideal) := V23 m outs c
/-- They are the entry contents the host operations' facts are stated at. -/
theorem Ventry_eq (m : (ℓ : Loc nD τ sig) → Buf (Elt Ideal) ℓ) (outs : Outs (F := Ideal)) (c : Dev nD) :
    Head.Vodd m outs c KK17 = Ventry m outs c := Head.Vodd_11 m outs c _

variable (m : (ℓ : Loc nD τ sig) → Buf (Elt Ideal) ℓ) (outs : Outs (F := Ideal)) (c : Dev nD)
variable (a : (pcfg11 (F := Ideal)).Adm)
variable (hp0 : ∀ c (i : grid11.Coords), k11_chk1 (tw0 tb0 c i (T0 a c))) (hp1 : ∀ c (i : grid11.Coords), k11_chk2 (tw1 tb1 c i (T1 a c)))

/-- The entry contents as the launch's value lemmas take them. -/
abbrev VV : (c : Dev nD) → (b : Ref sig .tc) → Buf (Elt Ideal) ((c : Thread nD τ).loc b) := fun c b => Ventry m outs c b

/-! ## The tables' words are the chunk's endpoints -/

/-- Entry `i` of the first table names the first endpoint of edge `i` of the chunk. -/
theorem e0_eq (hT0 : (T0 a c : S62500.Idx → BitVec 32) = (Tbl.tblA m outs c KK : IVec S62500 32)) (i : Fin 62500) :
    (⟨(e0At a c i).toNat, e0_lt a hp0 c i⟩ : Fin 100000) = Cert.Spec.endpoint (KVal.edgesA m c) 0 (Cert.Spec.chunk KK i) := by
  have hw : e0At a c i = (KVal.edgesA m c) (ValueIdx.ix2 (0 : Fin 2) (Cert.Spec.chunk KK i)) := by
    show (T0 a c : S62500.Idx → BitVec 32) (ValueIdx.ix1 i) = _
    rw [hT0]
    exact Tbl.tblA_apply m outs c KK i
  have hlt := e0_lt a hp0 c i
  rw [hw] at hlt
  refine Fin.ext ?_
  show (e0At a c i).toNat = (Cert.Spec.node _).val
  rw [Cert.Spec.node_val_of_toNat_lt hlt, hw]

/-- Entry `i` of the second table names the second endpoint. -/
theorem e1_eq (hT1 : (T1 a c : S62500.Idx → BitVec 32) = (Tbl.tblB m outs c KK : IVec S62500 32)) (i : Fin 62500) :
    (⟨(e1At a c i).toNat, e1_lt a hp1 c i⟩ : Fin 100000) = Cert.Spec.endpoint (KVal.edgesA m c) 1 (Cert.Spec.chunk KK i) := by
  have hw : e1At a c i = (KVal.edgesA m c) (ValueIdx.ix2 (1 : Fin 2) (Cert.Spec.chunk KK i)) := by
    show (T1 a c : S62500.Idx → BitVec 32) (ValueIdx.ix1 i) = _
    rw [hT1]
    exact Tbl.tblB_apply m outs c KK i
  have hlt := e1_lt a hp1 c i
  rw [hw] at hlt
  refine Fin.ext ?_
  show (e1At a c i).toNat = (Cert.Spec.node _).val
  rw [Cert.Spec.node_val_of_toNat_lt hlt, hw]

/-! ## The arrays the launch reads are the arguments' -/

theorem x_eq : xArr (VV m outs) c = KVal.xA m c := by
  show Ventry m outs c main_arg0 = _
  rw [← Ventry_eq m outs c]
  exact Head.arg0_keep m outs c KK17
theorem wh_eq : whArr (VV m outs) c = KVal.WhA m c := by
  show Ventry m outs c main_arg4 = _
  rw [← Ventry_eq m outs c]
  exact Head.arg4_keep m outs c KK17
theorem w1_apply (k : Fin 64) (k' : Fin 128) :
    w1Arr (VV m outs) c (ValueIdx.ix2 k k') = KVal.WinA m c (ValueIdx.ix2 k (⟨k'.val, by omega⟩ : Fin 256)) := by
  show (Ventry m outs c main_v4 : S64x128.Idx → EReal) (ValueIdx.ix2 k k') = _
  rw [← Ventry_eq m outs c]
  exact Head.v4_apply m outs c KK17 k k'
theorem w2_apply (k : Fin 64) (k' : Fin 128) :
    w2Arr (VV m outs) c (ValueIdx.ix2 k k') = KVal.WinA m c (ValueIdx.ix2 k (⟨128 + k'.val, by omega⟩ : Fin 256)) := by
  show (Ventry m outs c main_v5 : S64x128.Idx → EReal) (ValueIdx.ix2 k k') = _
  rw [← Ventry_eq m outs c]
  exact Head.v5_apply m outs c KK17 k k'
theorem bin_apply (k : Fin 64) :
    binArr (VV m outs) c (ValueIdx.ix2 (0 : Fin 1) k) = KVal.binA m c (ValueIdx.ix1 k) := by
  show (Ventry m outs c main_v6 : S1x64.Idx → EReal) (ValueIdx.ix2 (0 : Fin 1) k) = _
  rw [← Ventry_eq m outs c]
  exact Head.v6_apply m outs c KK17 k
theorem bh_apply (j : Fin 64) :
    bhArr (VV m outs) c (ValueIdx.ix2 (0 : Fin 1) j) = KVal.bhA m c (ValueIdx.ix1 j) := by
  show (Ventry m outs c main_v7 : S1x64.Idx → EReal) (ValueIdx.ix2 (0 : Fin 1) j) = _
  rw [← Ventry_eq m outs c]
  exact Head.v7_apply m outs c KK17 j

/-! ## The launch's hidden row is the chunk's hidden value -/

theorem rowval_eq (hT0 : (T0 a c : S62500.Idx → BitVec 32) = (Tbl.tblA m outs c KK : IVec S62500 32))
    (hT1 : (T1 a c : S62500.Idx → BitVec 32) = (Tbl.tblB m outs c KK : IVec S62500 32)) (i : Fin 62500) (j : Fin 64) :
    rowval (VV m outs) a hp0 hp1 c i j = KVal.hid m c (Cert.Spec.chunk KK i) j := by
  unfold rowval KVal.hid
  rw [e0_eq m outs c a hp0 hT0 i, e1_eq m outs c a hp1 hT1 i, x_eq m outs c, wh_eq m outs c]
  simp only [w1_apply m outs c, w2_apply m outs c, bin_apply m outs c, bh_apply m outs c]

/-! ## The three results -/

/-- Row `i` of the rows result is the hidden value of edge `i` of the chunk. -/
theorem chunkRow_eq (hT0 : (T0 a c : S62500.Idx → BitVec 32) = (Tbl.tblA m outs c KK : IVec S62500 32))
    (hT1 : (T1 a c : S62500.Idx → BitVec 32) = (Tbl.tblB m outs c KK : IVec S62500 32))
    (hR0 : (Tail.res0 outs c KK : S62500x64.Idx → EReal) = hidArr (VV m outs) a hp0 hp1 c)
    (i : Fin 62500) (j : Fin 64) : Tail.chunkRow outs c KK i j = KVal.HID m c KK i j := by
  show (Tail.res0 outs c KK : S62500x64.Idx → EReal) (ValueIdx.ix2 i j) = _
  rw [hR0]
  exact (hid_final (VV m outs) a hp0 hp1 c i j).trans (rowval_eq m outs c a hp0 hp1 hT0 hT1 i j)

/-- The sums result is the sum of the chunk's hidden values. -/
theorem chunkSum_eq (hT0 : (T0 a c : S62500.Idx → BitVec 32) = (Tbl.tblA m outs c KK : IVec S62500 32))
    (hT1 : (T1 a c : S62500.Idx → BitVec 32) = (Tbl.tblB m outs c KK : IVec S62500 32))
    (hR1 : (Tail.res1 outs c KK : S1x64.Idx → EReal) = sumArr (VV m outs) a hp0 hp1 c)
    (j : Fin 64) : Tail.chunkSum outs c KK j = ∑ i : Fin 62500, KVal.HID m c KK i j := by
  show (Tail.res1 outs c KK : S1x64.Idx → EReal) (ValueIdx.ix2 (0 : Fin 1) j) = _
  rw [hR1]
  exact (sum_final (VV m outs) a hp0 hp1 c j).trans (Finset.sum_congr rfl fun i _ => rowval_eq m outs c a hp0 hp1 hT0 hT1 i j)

/-- The sums-of-squares result is the sum of their squares. -/
theorem chunkSq_eq (hT0 : (T0 a c : S62500.Idx → BitVec 32) = (Tbl.tblA m outs c KK : IVec S62500 32))
    (hT1 : (T1 a c : S62500.Idx → BitVec 32) = (Tbl.tblB m outs c KK : IVec S62500 32))
    (hR2 : (Tail.res2 outs c KK : S1x64.Idx → EReal) = sqArr (VV m outs) a hp0 hp1 c)
    (j : Fin 64) : Tail.chunkSq outs c KK j = ∑ i : Fin 62500, KVal.HID m c KK i j * KVal.HID m c KK i j := by
  show (Tail.res2 outs c KK : S1x64.Idx → EReal) (ValueIdx.ix2 (0 : Fin 1) j) = _
  rw [hR2]
  exact (sq_final (VV m outs) a hp0 hp1 c j).trans
    (Finset.sum_congr rfl fun i _ => by rw [rowval_eq m outs c a hp0 hp1 hT0 hT1 i j])

end Cert.KernelIdeal.P1R11

end
-- ==== Proof.P1R11Top.lean ====
/- The first launch's results are its chunk's hidden values, at the run's own choices.

   The run fixes what every region leaves (the unknowns), each launch's tables and the contents each launch is entered
   from. At those choices nothing is left to assume: the launch's tables are its chunk's pieces of the edge array's rows,
   its results are what its proof data leave, and so its rows are the chunk's hidden values and its two sums their sums
   and sums of squares. -/
import proofs.«400866_j57071525429608_2_alg».proof.Proof.P1R11Fin
import proofs.«400866_j57071525429608_2_alg».proof.Proof.GlueVal

set_option maxRecDepth 16384

noncomputable section

namespace Cert.KernelIdeal.P1R11

open Cert.KernelIdeal Cert.KernelIdeal.Gen
open Idealize.ShloMosaic Idealize.ShloMosaic.TcCoe
open Cert.KernelIdeal.P1 (Bf tw0 tw1)
open Cert.KernelIdeal.Glue (atTc)
open scoped BigOperators

/-! ## The run's choices for this launch -/

/-- The launch's tables, admissible. -/
abbrev gA (m : (ℓ : Loc nD τ sig) → Buf (Elt Ideal) ℓ) : (pcfg11 (F := Ideal)).Adm := Glue.adm11 m
/-- The contents it is entered from, as the run names them. -/
abbrev gW (m : (ℓ : Loc nD τ sig) → Buf (Elt Ideal) ℓ)
    (hE : ∀ (c : Dev nD) (idx : S2x1000000.Idx), ((V0 m c main_arg1 : IVec S2x1000000 32) idx).toNat < 100000) :
    Dev nD → Valuation τ sig (Elt Ideal) := Glue.W23 m hE

variable (m : (ℓ : Loc nD τ sig) → Buf (Elt Ideal) ℓ)
  (hE : ∀ (c : Dev nD) (idx : S2x1000000.Idx), ((V0 m c main_arg1 : IVec S2x1000000 32) idx).toNat < 100000)
  (c : Dev nD)

include hE

/-- The words it reads of them name rows of the node table. -/
theorem gP0 : ∀ c (i : grid11.Coords), k11_chk1 (tw0 tb0 c i (T0 (gA m) c)) := Glue.hp0_11 m hE
theorem gP1 : ∀ c (i : grid11.Coords), k11_chk2 (tw1 tb1 c i (T1 (gA m) c)) := Glue.hp1_11 m hE
/-- The contents it is entered from are the valuation's. -/
theorem gV : Ventry m (Glue.outs m hE) c = gW m hE c := Glue.V23_eq m hE c
/-- The tables it finds in the buffers are its own. -/
theorem gTA : (T0 (gA m) c : S62500.Idx → BitVec 32) = (Tbl.tblA m (Glue.outs m hE) c KK : IVec S62500 32) :=
  ((Glue.hT0_11 m hE c).symm.trans (congrFun (gV m hE c) (Proc.devRef .tc main_v44)).symm :)
theorem gTB : (T1 (gA m) c : S62500.Idx → BitVec 32) = (Tbl.tblB m (Glue.outs m hE) c KK : IVec S62500 32) :=
  ((Glue.hT1_11 m hE c).symm.trans (congrFun (gV m hE c) (Proc.devRef .tc main_v45)).symm :)
/-- What it leaves at its three results. -/
theorem gR0 : (Tail.res0 (Glue.outs m hE) c KK : S62500x64.Idx → EReal) = hidArr (atTc (gW m hE)) (gA m) (gP0 m hE) (gP1 m hE) c :=
  Glue.res0_11 m hE c
theorem gR1 : (Tail.res1 (Glue.outs m hE) c KK : S1x64.Idx → EReal) = sumArr (atTc (gW m hE)) (gA m) (gP0 m hE) (gP1 m hE) c :=
  Glue.res1_11 m hE c
theorem gR2 : (Tail.res2 (Glue.outs m hE) c KK : S1x64.Idx → EReal) = sqArr (atTc (gW m hE)) (gA m) (gP0 m hE) (gP1 m hE) c :=
  Glue.res2_11 m hE c

/-! ## The three facts, nothing assumed -/

/-- The entry contents the launch's value lemmas take are the run's. -/
theorem VV_eq : VV m (Glue.outs m hE) = atTc (gW m hE) :=
  funext fun c => funext fun b => congrFun (gV m hE c) (Proc.devRef .tc b)

/-- Row `i` of the launch's rows is the hidden value of edge `i` of its chunk. -/
theorem row_top (i : Fin 62500) (j : Fin 64) : Tail.chunkRow (Glue.outs m hE) c KK i j = KVal.HID m c KK i j :=
  chunkRow_eq m (Glue.outs m hE) c (gA m) (gP0 m hE) (gP1 m hE) (gTA m hE c) (gTB m hE c)
    (by rw [VV_eq m hE]; exact gR0 m hE c) i j

/-- Its sums are the sums of those values over the chunk. -/
theorem sum_top (j : Fin 64) : Tail.chunkSum (Glue.outs m hE) c KK j = ∑ i : Fin 62500, KVal.HID m c KK i j :=
  chunkSum_eq m (Glue.outs m hE) c (gA m) (gP0 m hE) (gP1 m hE) (gTA m hE c) (gTB m hE c)
    (by rw [VV_eq m hE]; exact gR1 m hE c) j

/-- Its sums of squares are the sums of their squares. -/
theorem sq_top (j : Fin 64) :
    Tail.chunkSq (Glue.outs m hE) c KK j = ∑ i : Fin 62500, KVal.HID m c KK i j * KVal.HID m c KK i j :=
  chunkSq_eq m (Glue.outs m hE) c (gA m) (gP0 m hE) (gP1 m hE) (gTA m hE c) (gTB m hE c)
    (by rw [VV_eq m hE]; exact gR2 m hE c) j

end Cert.KernelIdeal.P1R11

end
-- ==== Proof.P1R12Val.lean ====
/-
  A gather-and-project region (one chunk of 62500 edges), from blocks to arrays.

  The five parameter windows never move: each one's block is its whole array. The two running-sum
  windows never move either and are written back once, after the last point, so their arrays end
  holding what the last point left. Put together with the recursion over the points, at the ideal
  values: the first array ends at the sum over the chunk's 62500 edges of their hidden rows, the
  second at the sum of the squares, and row i of the hidden array is edge i's hidden row — where the
  hidden row of edge i is the two layers applied to the two rows of the node-feature array that entry
  i of each endpoint table names.
-/
import proofs.«400866_j57071525429608_2_alg».proof.Proof.P1R12Dat
import proofs.«400866_j57071525429608_2_alg».proof.Proof.P1StateVal
import proofs.«400866_j57071525429608_2_alg».proof.Proof.P1Val
import Idealize.ShloMosaic.Lib.Pipeline.Value
import Idealize.ShloMosaic.Lib.ValueIdx
import Mathlib.Algebra.BigOperators.Fin

set_option maxRecDepth 100000

noncomputable section

namespace Cert.KernelIdeal.P1R12

open Cert.KernelIdeal Cert.KernelIdeal.Gen
open Idealize.ShloMosaic Idealize.ShloMosaic.TcCoe
open Idealize.ShloMosaic.Pipeline (Dat)
open Cert.KernelIdeal.P1 (Bf tw0 tw1 hNext)
open scoped BigOperators

/-! ## From blocks to arrays (any float values) -/

section Arrays

variable {F : FTy → Type} [FloatOps F]
variable (V : (c : Dev nD) → (b : Ref sig .tc) → Buf (Elt F) ((c : Thread nD τ).loc b))
variable (a : (pcfg12 (F := F)).Adm)
variable (hp0 : ∀ c (i : grid12.Coords), k12_chk1 (tw0 tb0 c i (T0 a c))) (hp1 : ∀ c (i : grid12.Coords), k12_chk2 (tw1 tb1 c i (T1 a c)))

/-- The last grid point. -/
def tlast : Fin (cfg12 a).N := ⟨62499, lt_of_lt_of_eq (by decide : 62499 < 62500) N_12.symm⟩

theorem tlast_succ : (tlast a).val + 1 = (cfg12 a).N := N_12.symm

/-- The first half of the first layer's weights: the block is the array. -/
theorem iblk_0_eq (c : Dev nD) (t : Fin (cfg12 a).N) : (iblk V a c 0 t : S64x128.Idx → Elt F .f32) = V c main_v4 := by
  refine funext fun (y : S64x128.Idx) => ?_
  show (V c main_v4 : S64x128.Idx → Elt F .f32) ((((cfg12 a).win 0).blk t).view.emb y) = _
  congr 1; funext b; apply Fin.ext
  match b with
  | ⟨0, _⟩ =>
    show ((cfg12 a).win 0).index t (0 : Fin 2) * 64 + 1 * (y 0).val = (y 0).val
    rw [show ((cfg12 a).win 0).index t (0 : Fin 2) = 0 from rfl]; omega
  | ⟨1, _⟩ =>
    show ((cfg12 a).win 0).index t (1 : Fin 2) * 128 + 1 * (y 1).val = (y 1).val
    rw [show ((cfg12 a).win 0).index t (1 : Fin 2) = 0 from rfl]; omega

/-- The second half of the first layer's weights: the block is the array. -/
theorem iblk_1_eq (c : Dev nD) (t : Fin (cfg12 a).N) : (iblk V a c 1 t : S64x128.Idx → Elt F .f32) = V c main_v5 := by
  refine funext fun (y : S64x128.Idx) => ?_
  show (V c main_v5 : S64x128.Idx → Elt F .f32) ((((cfg12 a).win 1).blk t).view.emb y) = _
  congr 1; funext b; apply Fin.ext
  match b with
  | ⟨0, _⟩ =>
    show ((cfg12 a).win 1).index t (0 : Fin 2) * 64 + 1 * (y 0).val = (y 0).val
    rw [show ((cfg12 a).win 1).index t (0 : Fin 2) = 0 from rfl]; omega
  | ⟨1, _⟩ =>
    show ((cfg12 a).win 1).index t (1 : Fin 2) * 128 + 1 * (y 1).val = (y 1).val
    rw [show ((cfg12 a).win 1).index t (1 : Fin 2) = 0 from rfl]; omega

/-- The first layer's bias: the block is the array. -/
theorem iblk_2_eq (c : Dev nD) (t : Fin (cfg12 a).N) : (iblk V a c 2 t : S1x64.Idx → Elt F .f32) = V c main_v6 := by
  refine funext fun (y : S1x64.Idx) => ?_
  show (V c main_v6 : S1x64.Idx → Elt F .f32) ((((cfg12 a).win 2).blk t).view.emb y) = _
  congr 1; funext b; apply Fin.ext
  match b with
  | ⟨0, _⟩ =>
    show ((cfg12 a).win 2).index t (0 : Fin 2) * 1 + 1 * (y 0).val = (y 0).val
    rw [show ((cfg12 a).win 2).index t (0 : Fin 2) = 0 from rfl]; omega
  | ⟨1, _⟩ =>
    show ((cfg12 a).win 2).index t (1 : Fin 2) * 64 + 1 * (y 1).val = (y 1).val
    rw [show ((cfg12 a).win 2).index t (1 : Fin 2) = 0 from rfl]; omega

/-- The second layer's weights: the block is the array. -/
theorem iblk_3_eq (c : Dev nD) (t : Fin (cfg12 a).N) : (iblk V a c 3 t : S64x64.Idx → Elt F .f32) = V c main_arg4 := by
  refine funext fun (y : S64x64.Idx) => ?_
  show (V c main_arg4 : S64x64.Idx → Elt F .f32) ((((cfg12 a).win 3).blk t).view.emb y) = _
  congr 1; funext b; apply Fin.ext
  match b with
  | ⟨0, _⟩ =>
    show ((cfg12 a).win 3).index t (0 : Fin 2) * 64 + 1 * (y 0).val = (y 0).val
    rw [show ((cfg12 a).win 3).index t (0 : Fin 2) = 0 from rfl]; omega
  | ⟨1, _⟩ =>
    show ((cfg12 a).win 3).index t (1 : Fin 2) * 64 + 1 * (y 1).val = (y 1).val
    rw [show ((cfg12 a).win 3).index t (1 : Fin 2) = 0 from rfl]; omega

/-- The second layer's bias: the block is the array. -/
theorem iblk_4_eq (c : Dev nD) (t : Fin (cfg12 a).N) : (iblk V a c 4 t : S1x64.Idx → Elt F .f32) = V c main_v7 := by
  refine funext fun (y : S1x64.Idx) => ?_
  show (V c main_v7 : S1x64.Idx → Elt F .f32) ((((cfg12 a).win 4).blk t).view.emb y) = _
  congr 1; funext b; apply Fin.ext
  match b with
  | ⟨0, _⟩ =>
    show ((cfg12 a).win 4).index t (0 : Fin 2) * 1 + 1 * (y 0).val = (y 0).val
    rw [show ((cfg12 a).win 4).index t (0 : Fin 2) = 0 from rfl]; omega
  | ⟨1, _⟩ =>
    show ((cfg12 a).win 4).index t (1 : Fin 2) * 64 + 1 * (y 1).val = (y 1).val
    rw [show ((cfg12 a).win 4).index t (1 : Fin 2) = 0 from rfl]; omega

/-- Window 5 is written back at the last point and at no other: its block never moves. -/
theorem flush5_iff (t : Fin (cfg12 a).N) : ((cfg12 a).win 5).flush t = true ↔ t.val + 1 = (cfg12 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint5 : ∀ t t' : Fin (cfg12 a).N, ((cfg12 a).win 5).flush t = true → ((cfg12 a).win 5).flush t' = true → t ≠ t' →
    Disjoint (((cfg12 a).win 5).blk t).view.set (((cfg12 a).win 5).blk t').view.set :=
  fun t t' h h' hne => absurd (Fin.ext (by
    have e := (flush5_iff a t).mp h
    have e' := (flush5_iff a t').mp h'
    omega)) hne

/-- Where feature j of window 5's block sits in its array: at feature j. -/
theorem emb5 (t : Fin (cfg12 a).N) (j : Fin 64) :
    (((cfg12 a).win 5).blk t).view.emb (ValueIdx.ix2 (0 : Fin 1) j) = ValueIdx.ix2 (0 : Fin 1) j := by
  funext b; apply Fin.ext
  match b with
  | ⟨0, _⟩ =>
    show ((cfg12 a).win 5).index t (0 : Fin 2) * 1 + 1 * 0 = 0
    rw [show ((cfg12 a).win 5).index t (0 : Fin 2) = 0 from rfl]
  | ⟨1, _⟩ =>
    show ((cfg12 a).win 5).index t (1 : Fin 2) * 64 + 1 * j.val = j.val
    rw [show ((cfg12 a).win 5).index t (1 : Fin 2) = 0 from rfl]; omega

theorem sum_arr_apply (c : Dev nD) (j : Fin 64) :
    ((dat V a hp0 hp1 c).arrAt 5 (cfg12 a).N : S1x64.Idx → Elt F .f32) (ValueIdx.ix2 (0 : Fin 1) j)
      = (stAt V a hp0 hp1 c (tlast a).val (tlast a).isLt).1 (ValueIdx.ix2 (0 : Fin 1) j) := by
  have h := (dat V a hp0 hp1 c).arrAt_emb_eq_flushed 5 (disjoint5 a) (tlast a) ((flush5_iff a (tlast a)).mpr (tlast_succ a))
    (ValueIdx.ix2 (0 : Fin 1) j)
  rw [emb5] at h
  refine h.trans ?_
  show (dat V a hp0 hp1 c).after 5 (tlast a) (ValueIdx.ix2 (0 : Fin 1) j) = _
  rw [after_5]

/-- The array of window 5 after the region is what the last point left. -/
theorem sum_arr (c : Dev nD) :
    ((dat V a hp0 hp1 c).arrAt 5 (cfg12 a).N : S1x64.Idx → Elt F .f32) = (stAt V a hp0 hp1 c (tlast a).val (tlast a).isLt).1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sum_arr_apply V a hp0 hp1 c j

/-- Window 6 is written back at the last point and at no other: its block never moves. -/
theorem flush6_iff (t : Fin (cfg12 a).N) : ((cfg12 a).win 6).flush t = true ↔ t.val + 1 = (cfg12 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint6 : ∀ t t' : Fin (cfg12 a).N, ((cfg12 a).win 6).flush t = true → ((cfg12 a).win 6).flush t' = true → t ≠ t' →
    Disjoint (((cfg12 a).win 6).blk t).view.set (((cfg12 a).win 6).blk t').view.set :=
  fun t t' h h' hne => absurd (Fin.ext (by
    have e := (flush6_iff a t).mp h
    have e' := (flush6_iff a t').mp h'
    omega)) hne

/-- Where feature j of window 6's block sits in its array: at feature j. -/
theorem emb6 (t : Fin (cfg12 a).N) (j : Fin 64) :
    (((cfg12 a).win 6).blk t).view.emb (ValueIdx.ix2 (0 : Fin 1) j) = ValueIdx.ix2 (0 : Fin 1) j := by
  funext b; apply Fin.ext
  match b with
  | ⟨0, _⟩ =>
    show ((cfg12 a).win 6).index t (0 : Fin 2) * 1 + 1 * 0 = 0
    rw [show ((cfg12 a).win 6).index t (0 : Fin 2) = 0 from rfl]
  | ⟨1, _⟩ =>
    show ((cfg12 a).win 6).index t (1 : Fin 2) * 64 + 1 * j.val = j.val
    rw [show ((cfg12 a).win 6).index t (1 : Fin 2) = 0 from rfl]; omega

theorem sq_arr_apply (c : Dev nD) (j : Fin 64) :
    ((dat V a hp0 hp1 c).arrAt 6 (cfg12 a).N : S1x64.Idx → Elt F .f32) (ValueIdx.ix2 (0 : Fin 1) j)
      = (stAt V a hp0 hp1 c (tlast a).val (tlast a).isLt).2.1 (ValueIdx.ix2 (0 : Fin 1) j) := by
  have h := (dat V a hp0 hp1 c).arrAt_emb_eq_flushed 6 (disjoint6 a) (tlast a) ((flush6_iff a (tlast a)).mpr (tlast_succ a))
    (ValueIdx.ix2 (0 : Fin 1) j)
  rw [emb6] at h
  refine h.trans ?_
  show (dat V a hp0 hp1 c).after 6 (tlast a) (ValueIdx.ix2 (0 : Fin 1) j) = _
  rw [after_6]

/-- The array of window 6 after the region is what the last point left. -/
theorem sq_arr (c : Dev nD) :
    ((dat V a hp0 hp1 c).arrAt 6 (cfg12 a).N : S1x64.Idx → Elt F .f32) = (stAt V a hp0 hp1 c (tlast a).val (tlast a).isLt).2.1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sq_arr_apply V a hp0 hp1 c j

end Arrays

/-! ## The values, at the ideal instance -/

section AtIdeal

variable (V : (c : Dev nD) → (b : Ref sig .tc) → Buf (Elt Ideal) ((c : Thread nD τ).loc b))
variable (a : (pcfg12 (F := Ideal)).Adm)
variable (hp0 : ∀ c (i : grid12.Coords), k12_chk1 (tw0 tb0 c i (T0 a c))) (hp1 : ∀ c (i : grid12.Coords), k12_chk2 (tw1 tb1 c i (T1 a c)))

/-- The arrays the region reads, each at its literal type. -/
abbrev xArr (c : Dev nD) : S100000x128.Idx → EReal := V c main_arg0
abbrev w1Arr (c : Dev nD) : S64x128.Idx → EReal := V c main_v4
abbrev w2Arr (c : Dev nD) : S64x128.Idx → EReal := V c main_v5
abbrev binArr (c : Dev nD) : S1x64.Idx → EReal := V c main_v6
abbrev whArr (c : Dev nD) : S64x64.Idx → EReal := V c main_arg4
abbrev bhArr (c : Dev nD) : S1x64.Idx → EReal := V c main_v7
/-- Entry i of each endpoint table. -/
abbrev e0At (c : Dev nD) (i : Fin 62500) : BitVec 32 := (T0 a c : S62500.Idx → BitVec 32) (ValueIdx.ix1 i)
abbrev e1At (c : Dev nD) (i : Fin 62500) : BitVec 32 := (T1 a c : S62500.Idx → BitVec 32) (ValueIdx.ix1 i)

/-- The grid point of edge i. -/
def ptOf (i : Fin 62500) : Fin (cfg12 a).N := ⟨i.val, lt_of_lt_of_eq i.isLt N_12.symm⟩

/-- The word a point reads of the first table is the table's entry at the point. -/
theorem tw0_at (c : Dev nD) (t : Fin (cfg12 a).N) :
    tw0 tb0 c (crd a t) (T0 a c) = e0At a c ⟨t.val, lt_of_lt_of_eq t.isLt N_12⟩ := by
  refine (P1.tw0_eq tb0 c (crd a t) (T0 a c)).trans ?_
  show (T0 a c : S62500.Idx → BitVec 32) _ = (T0 a c : S62500.Idx → BitVec 32) _
  refine congrArg (T0 a c : S62500.Idx → BitVec 32) (funext fun b => Fin.ext ?_)
  match b with
  | ⟨0, _⟩ => exact coord_val a t

theorem tw1_at (c : Dev nD) (t : Fin (cfg12 a).N) :
    tw1 tb1 c (crd a t) (T1 a c) = e1At a c ⟨t.val, lt_of_lt_of_eq t.isLt N_12⟩ := by
  refine (P1.tw1_eq tb1 c (crd a t) (T1 a c)).trans ?_
  show (T1 a c : S62500.Idx → BitVec 32) _ = (T1 a c : S62500.Idx → BitVec 32) _
  refine congrArg (T1 a c : S62500.Idx → BitVec 32) (funext fun b => Fin.ext ?_)
  match b with
  | ⟨0, _⟩ => exact coord_val a t

include hp0 in
/-- Every entry of the endpoint tables names a row of the node-feature array. -/
theorem e0_lt (c : Dev nD) (i : Fin 62500) : (e0At a c i).toNat < 100000 := by
  have h := P1.toNat_lt_of_chk1 (hp0 c (crd a (ptOf a i)))
  rw [tw0_at] at h
  exact h

include hp1 in
theorem e1_lt (c : Dev nD) (i : Fin 62500) : (e1At a c i).toNat < 100000 := by
  have h := P1.toNat_lt_of_chk2 (hp1 c (crd a (ptOf a i)))
  rw [tw1_at] at h
  exact h

/-- The hidden row of edge i of the chunk, at feature j: the two layers applied to the two rows of the node-feature
    array that entry i of each endpoint table names. -/
def rowval (c : Dev nD) (i : Fin 62500) (j : Fin 64) : EReal :=
  ∑ k : Fin 64,
      max (∑ k' : Fin 128, xArr V c (ValueIdx.ix2 (⟨(e0At a c i).toNat, e0_lt a hp0 c i⟩ : Fin 100000) k') * w1Arr V c (ValueIdx.ix2 k k')
          + ∑ k' : Fin 128, xArr V c (ValueIdx.ix2 (⟨(e1At a c i).toNat, e1_lt a hp1 c i⟩ : Fin 100000) k') * w2Arr V c (ValueIdx.ix2 k k')
          + binArr V c (ValueIdx.ix2 (0 : Fin 1) k)) 0
        * whArr V c (ValueIdx.ix2 j k)
    + bhArr V c (ValueIdx.ix2 (0 : Fin 1) j)

/-- The first row a point fetches, at feature k'. -/
theorem row0_val (c : Dev nD) (t : Fin (cfg12 a).N) (k' : Fin 128) :
    P1.rowAt0 tb0 xM c (crd a t) (T0 a c) (V c main_arg0) (hp0 c (crd a t)) (ValueIdx.ix2 (0 : Fin 1) k')
      = xArr V c (ValueIdx.ix2 (⟨(e0At a c ⟨t.val, lt_of_lt_of_eq t.isLt N_12⟩).toNat, e0_lt a hp0 c _⟩ : Fin 100000) k') := by
  refine (P1.rowAt0_apply tb0 xM c (crd a t) (T0 a c) (V c main_arg0) (hp0 c (crd a t)) k').trans ?_
  show xArr V c _ = xArr V c _
  refine congrArg (xArr V c) (funext fun b => Fin.ext ?_)
  match b with
  | ⟨0, _⟩ =>
    show (tw0 tb0 c (crd a t) (T0 a c)).toNat = (e0At a c ⟨t.val, lt_of_lt_of_eq t.isLt N_12⟩).toNat
    rw [tw0_at]
  | ⟨1, _⟩ => rfl

/-- The second row a point fetches, at feature k'. -/
theorem row1_val (c : Dev nD) (t : Fin (cfg12 a).N) (k' : Fin 128) :
    P1.rowAt1 tb1 xM c (crd a t) (T1 a c) (V c main_arg0) (hp1 c (crd a t)) (ValueIdx.ix2 (0 : Fin 1) k')
      = xArr V c (ValueIdx.ix2 (⟨(e1At a c ⟨t.val, lt_of_lt_of_eq t.isLt N_12⟩).toNat, e1_lt a hp1 c _⟩ : Fin 100000) k') := by
  refine (P1.rowAt1_apply tb1 xM c (crd a t) (T1 a c) (V c main_arg0) (hp1 c (crd a t)) k').trans ?_
  show xArr V c _ = xArr V c _
  refine congrArg (xArr V c) (funext fun b => Fin.ext ?_)
  match b with
  | ⟨0, _⟩ =>
    show (tw1 tb1 c (crd a t) (T1 a c)).toNat = (e1At a c ⟨t.val, lt_of_lt_of_eq t.isLt N_12⟩).toNat
    rw [tw1_at]
  | ⟨1, _⟩ => rfl

/-- A point's hidden row is the hidden row of its edge. -/
theorem hrow_val (c : Dev nD) (t : Fin (cfg12 a).N) (j : Fin 64) :
    P1.hrowG tb0 tb1 xM c (cfg12 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t j
      = rowval V a hp0 hp1 c ⟨t.val, lt_of_lt_of_eq t.isLt N_12⟩ j :=
  P1.hrow_eq_of (P1.rowAt0 tb0 xM c (crd a t) (T0 a c) (V c main_arg0) (hp0 c (crd a t)))
    (P1.rowAt1 tb1 xM c (crd a t) (T1 a c) (V c main_arg0) (hp1 c (crd a t)))
    (iblk V a c 0 t) (iblk V a c 1 t) (iblk V a c 2 t) (iblk V a c 3 t) (iblk V a c 4 t)
    (xArr V c) ⟨(e0At a c ⟨t.val, lt_of_lt_of_eq t.isLt N_12⟩).toNat, e0_lt a hp0 c _⟩
    ⟨(e1At a c ⟨t.val, lt_of_lt_of_eq t.isLt N_12⟩).toNat, e1_lt a hp1 c _⟩
    (w1Arr V c) (w2Arr V c) (binArr V c) (whArr V c) (bhArr V c)
    (row0_val V a hp0 c t) (row1_val V a hp1 c t)
    (iblk_0_eq V a c t) (iblk_1_eq V a c t) (iblk_2_eq V a c t) (iblk_3_eq V a c t) (iblk_4_eq V a c t) j

/-- After point n the first running sum is the sum of the hidden rows of the edges 0 … n. -/
theorem sum_at (c : Dev nD) (j : Fin 64) (n : ℕ) (hn : n < (cfg12 a).N) :
    (stAt V a hp0 hp1 c n hn).1 (ValueIdx.ix2 (0 : Fin 1) j)
      = ∑ i : Fin (n + 1), rowval V a hp0 hp1 c ⟨i.val, lt_of_lt_of_eq (Nat.lt_of_le_of_lt (Nat.le_of_lt_succ i.isLt) hn) N_12⟩ j := by
  unfold stAt
  refine (P1.sumG_at tb0 tb1 xM hM c (cfg12 a).N (crd a) (fun t => iblk V a c 0 t) (fun t => iblk V a c 1 t) (fun t => iblk V a c 2 t) (fun t => iblk V a c 3 t) (fun t => iblk V a c 4 t) (T0 a c) (T1 a c) (V c main_arg0) (V c main_v49_0) (fun t => hp0 c (crd a t)) (fun t => hp1 c (crd a t)) j n hn).trans ?_
  exact Finset.sum_congr rfl fun i _ => hrow_val V a hp0 hp1 c _ j

/-- After point n the second running sum is the sum of the squares of those hidden rows. -/
theorem sq_at (c : Dev nD) (j : Fin 64) (n : ℕ) (hn : n < (cfg12 a).N) :
    (stAt V a hp0 hp1 c n hn).2.1 (ValueIdx.ix2 (0 : Fin 1) j)
      = ∑ i : Fin (n + 1), rowval V a hp0 hp1 c ⟨i.val, lt_of_lt_of_eq (Nat.lt_of_le_of_lt (Nat.le_of_lt_succ i.isLt) hn) N_12⟩ j
          * rowval V a hp0 hp1 c ⟨i.val, lt_of_lt_of_eq (Nat.lt_of_le_of_lt (Nat.le_of_lt_succ i.isLt) hn) N_12⟩ j := by
  unfold stAt
  refine (P1.sumsqG_at tb0 tb1 xM hM c (cfg12 a).N (crd a) (fun t => iblk V a c 0 t) (fun t => iblk V a c 1 t) (fun t => iblk V a c 2 t) (fun t => iblk V a c 3 t) (fun t => iblk V a c 4 t) (T0 a c) (T1 a c) (V c main_arg0) (V c main_v49_0) (fun t => hp0 c (crd a t)) (fun t => hp1 c (crd a t)) j n hn).trans ?_
  exact Finset.sum_congr rfl fun i _ => by rw [hrow_val V a hp0 hp1 c _ j]

/-- The hidden array is read through its whole view as itself. -/
theorem read_hM (c : Dev nD) (f : Bf (F := Ideal) c hM) (y : S62500x64.Idx) :
    hM.view.read (Elt Ideal) f y = (f : S62500x64.Idx → EReal) y := rfl

/-- After n points, row i < n of the hidden array is edge i's hidden row. -/
theorem hid_at (c : Dev nD) (j : Fin 64) (n : ℕ) (hn : n ≤ (cfg12 a).N) (i : ℕ) (hi : i < n) :
    (hAt V a hp0 hp1 c n hn : S62500x64.Idx → EReal) (ValueIdx.ix2 (⟨i, lt_of_lt_of_eq (Nat.lt_of_lt_of_le hi hn) N_12⟩ : Fin 62500) j)
      = rowval V a hp0 hp1 c ⟨i, lt_of_lt_of_eq (Nat.lt_of_lt_of_le hi hn) N_12⟩ j := by
  unfold hAt
  refine (read_hM c _ _).symm.trans ?_
  refine (P1.hG_row_written (F := Ideal) tb0 tb1 xM hM c (cfg12 a).N (crd a) (fun t => iblk V a c 0 t) (fun t => iblk V a c 1 t) (fun t => iblk V a c 2 t) (fun t => iblk V a c 3 t) (fun t => iblk V a c 4 t) (T0 a c) (T1 a c) (V c main_arg0) (V c main_v49_0) (fun t => hp0 c (crd a t)) (fun t => hp1 c (crd a t)) (coord_val a) j n hn i hi).trans ?_
  exact (P1.rowStep_apply tb0 tb1 xM c (cfg12 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) _ j).trans (hrow_val V a hp0 hp1 c _ j)

/-- The two running-sum arrays and the hidden array after the region, each at its literal type. -/
abbrev sumArr (c : Dev nD) : S1x64.Idx → EReal := (dat V a hp0 hp1 c).arrAt 5 (cfg12 a).N
abbrev sqArr (c : Dev nD) : S1x64.Idx → EReal := (dat V a hp0 hp1 c).arrAt 6 (cfg12 a).N
abbrev hidArr (c : Dev nD) : S62500x64.Idx → EReal := hAt V a hp0 hp1 c (cfg12 a).N (Nat.le_refl _)

/-- The last point's index plus one is the number of edges of the chunk. -/
theorem tlast_count : (tlast a).val + 1 = 62500 := rfl

/-- The first running-sum array after the region: the sum over the chunk's edges of their hidden rows. -/
theorem sum_final (c : Dev nD) (j : Fin 64) :
    sumArr V a hp0 hp1 c (ValueIdx.ix2 (0 : Fin 1) j) = ∑ i : Fin 62500, rowval V a hp0 hp1 c i j := by
  refine (sum_arr_apply V a hp0 hp1 c j).trans ((sum_at V a hp0 hp1 c j (tlast a).val (tlast a).isLt).trans ?_)
  exact Fintype.sum_equiv (finCongr (tlast_count a)) _ _ (fun i => rfl)

/-- The second running-sum array after the region: the sum of the squares of those hidden rows. -/
theorem sq_final (c : Dev nD) (j : Fin 64) :
    sqArr V a hp0 hp1 c (ValueIdx.ix2 (0 : Fin 1) j)
      = ∑ i : Fin 62500, rowval V a hp0 hp1 c i j * rowval V a hp0 hp1 c i j := by
  refine (sq_arr_apply V a hp0 hp1 c j).trans ((sq_at V a hp0 hp1 c j (tlast a).val (tlast a).isLt).trans ?_)
  exact Fintype.sum_equiv (finCongr (tlast_count a)) _ _ (fun i => rfl)

/-- The hidden array after the region: row i is edge i's hidden row. -/
theorem hid_final (c : Dev nD) (i : Fin 62500) (j : Fin 64) :
    hidArr V a hp0 hp1 c (ValueIdx.ix2 i j) = rowval V a hp0 hp1 c i j :=
  hid_at V a hp0 hp1 c j (cfg12 a).N (Nat.le_refl _) i.val (lt_of_lt_of_eq i.isLt N_12.symm)

end AtIdeal

end Cert.KernelIdeal.P1R12

end
-- ==== Proof.P1R12Fin.lean ====
/- The first launch's results are its chunk's hidden values.

   The launch walks the 62500 edges of its chunk: at edge i it fetches the two rows of the node-feature array that entry i of
   its two endpoint tables names, applies the two layers, writes the hidden row and adds it, and its square, to two running
   sums. Its tables are the chunk's pieces of the edge array's two rows, and the weights it reads are the argument arrays'
   (the first layer's weights in two halves). So row i of its rows result is the hidden value of edge i of the chunk in the
   by-endpoint form, and its two sums are the sums of those values and of their squares over the chunk. -/
import proofs.«400866_j57071525429608_2_alg».proof.Proof.P1R12Val
import proofs.«400866_j57071525429608_2_alg».proof.Proof.HostHead
import proofs.«400866_j57071525429608_2_alg».proof.Proof.TblFacts
import proofs.«400866_j57071525429608_2_alg».proof.Proof.HostTail
import proofs.«400866_j57071525429608_2_alg».proof.Proof.KVal
import proofs.«400866_j57071525429608_2_alg».proof.Proof.Spec
import Idealize.ShloMosaic.Lib.ValueIdx

set_option maxRecDepth 16384

noncomputable section

namespace Cert.KernelIdeal.P1R12

open Cert.KernelIdeal Cert.KernelIdeal.Gen
open Idealize.ShloMosaic Idealize.ShloMosaic.TcCoe
open Cert.KernelIdeal.P1 (Bf tw0 tw1)
open scoped BigOperators

/-! ## The launch -/

/-- The launch's chunk among the sixteen. -/
abbrev KK : Fin 16 := ⟨12, by omega⟩
/-- The launch among the seventeen regions. -/
abbrev KK17 : Fin 17 := ⟨12, by omega⟩
/-- The buffers' contents when the launch is entered. -/
abbrev Ventry (m : (ℓ : Loc nD τ sig) → Buf (Elt Ideal) ℓ) (outs : Outs (F := Ideal)) (c : Dev nD) : Valuation τ sig (Elt Ideal) := V25 m outs c
/-- They are the entry contents the host operations' facts are stated at. -/
theorem Ventry_eq (m : (ℓ : Loc nD τ sig) → Buf (Elt Ideal) ℓ) (outs : Outs (F := Ideal)) (c : Dev nD) :
    Head.Vodd m outs c KK17 = Ventry m outs c := Head.Vodd_12 m outs c _

variable (m : (ℓ : Loc nD τ sig) → Buf (Elt Ideal) ℓ) (outs : Outs (F := Ideal)) (c : Dev nD)
variable (a : (pcfg12 (F := Ideal)).Adm)
variable (hp0 : ∀ c (i : grid12.Coords), k12_chk1 (tw0 tb0 c i (T0 a c))) (hp1 : ∀ c (i : grid12.Coords), k12_chk2 (tw1 tb1 c i (T1 a c)))

/-- The entry contents as the launch's value lemmas take them. -/
abbrev VV : (c : Dev nD) → (b : Ref sig .tc) → Buf (Elt Ideal) ((c : Thread nD τ).loc b) := fun c b => Ventry m outs c b

/-! ## The tables' words are the chunk's endpoints -/

/-- Entry `i` of the first table names the first endpoint of edge `i` of the chunk. -/
theorem e0_eq (hT0 : (T0 a c : S62500.Idx → BitVec 32) = (Tbl.tblA m outs c KK : IVec S62500 32)) (i : Fin 62500) :
    (⟨(e0At a c i).toNat, e0_lt a hp0 c i⟩ : Fin 100000) = Cert.Spec.endpoint (KVal.edgesA m c) 0 (Cert.Spec.chunk KK i) := by
  have hw : e0At a c i = (KVal.edgesA m c) (ValueIdx.ix2 (0 : Fin 2) (Cert.Spec.chunk KK i)) := by
    show (T0 a c : S62500.Idx → BitVec 32) (ValueIdx.ix1 i) = _
    rw [hT0]
    exact Tbl.tblA_apply m outs c KK i
  have hlt := e0_lt a hp0 c i
  rw [hw] at hlt
  refine Fin.ext ?_
  show (e0At a c i).toNat = (Cert.Spec.node _).val
  rw [Cert.Spec.node_val_of_toNat_lt hlt, hw]

/-- Entry `i` of the second table names the second endpoint. -/
theorem e1_eq (hT1 : (T1 a c : S62500.Idx → BitVec 32) = (Tbl.tblB m outs c KK : IVec S62500 32)) (i : Fin 62500) :
    (⟨(e1At a c i).toNat, e1_lt a hp1 c i⟩ : Fin 100000) = Cert.Spec.endpoint (KVal.edgesA m c) 1 (Cert.Spec.chunk KK i) := by
  have hw : e1At a c i = (KVal.edgesA m c) (ValueIdx.ix2 (1 : Fin 2) (Cert.Spec.chunk KK i)) := by
    show (T1 a c : S62500.Idx → BitVec 32) (ValueIdx.ix1 i) = _
    rw [hT1]
    exact Tbl.tblB_apply m outs c KK i
  have hlt := e1_lt a hp1 c i
  rw [hw] at hlt
  refine Fin.ext ?_
  show (e1At a c i).toNat = (Cert.Spec.node _).val
  rw [Cert.Spec.node_val_of_toNat_lt hlt, hw]

/-! ## The arrays the launch reads are the arguments' -/

theorem x_eq : xArr (VV m outs) c = KVal.xA m c := by
  show Ventry m outs c main_arg0 = _
  rw [← Ventry_eq m outs c]
  exact Head.arg0_keep m outs c KK17
theorem wh_eq : whArr (VV m outs) c = KVal.WhA m c := by
  show Ventry m outs c main_arg4 = _
  rw [← Ventry_eq m outs c]
  exact Head.arg4_keep m outs c KK17
theorem w1_apply (k : Fin 64) (k' : Fin 128) :
    w1Arr (VV m outs) c (ValueIdx.ix2 k k') = KVal.WinA m c (ValueIdx.ix2 k (⟨k'.val, by omega⟩ : Fin 256)) := by
  show (Ventry m outs c main_v4 : S64x128.Idx → EReal) (ValueIdx.ix2 k k') = _
  rw [← Ventry_eq m outs c]
  exact Head.v4_apply m outs c KK17 k k'
theorem w2_apply (k : Fin 64) (k' : Fin 128) :
    w2Arr (VV m outs) c (ValueIdx.ix2 k k') = KVal.WinA m c (ValueIdx.ix2 k (⟨128 + k'.val, by omega⟩ : Fin 256)) := by
  show (Ventry m outs c main_v5 : S64x128.Idx → EReal) (ValueIdx.ix2 k k') = _
  rw [← Ventry_eq m outs c]
  exact Head.v5_apply m outs c KK17 k k'
theorem bin_apply (k : Fin 64) :
    binArr (VV m outs) c (ValueIdx.ix2 (0 : Fin 1) k) = KVal.binA m c (ValueIdx.ix1 k) := by
  show (Ventry m outs c main_v6 : S1x64.Idx → EReal) (ValueIdx.ix2 (0 : Fin 1) k) = _
  rw [← Ventry_eq m outs c]
  exact Head.v6_apply m outs c KK17 k
theorem bh_apply (j : Fin 64) :
    bhArr (VV m outs) c (ValueIdx.ix2 (0 : Fin 1) j) = KVal.bhA m c (ValueIdx.ix1 j) := by
  show (Ventry m outs c main_v7 : S1x64.Idx → EReal) (ValueIdx.ix2 (0 : Fin 1) j) = _
  rw [← Ventry_eq m outs c]
  exact Head.v7_apply m outs c KK17 j

/-! ## The launch's hidden row is the chunk's hidden value -/

theorem rowval_eq (hT0 : (T0 a c : S62500.Idx → BitVec 32) = (Tbl.tblA m outs c KK : IVec S62500 32))
    (hT1 : (T1 a c : S62500.Idx → BitVec 32) = (Tbl.tblB m outs c KK : IVec S62500 32)) (i : Fin 62500) (j : Fin 64) :
    rowval (VV m outs) a hp0 hp1 c i j = KVal.hid m c (Cert.Spec.chunk KK i) j := by
  unfold rowval KVal.hid
  rw [e0_eq m outs c a hp0 hT0 i, e1_eq m outs c a hp1 hT1 i, x_eq m outs c, wh_eq m outs c]
  simp only [w1_apply m outs c, w2_apply m outs c, bin_apply m outs c, bh_apply m outs c]

/-! ## The three results -/

/-- Row `i` of the rows result is the hidden value of edge `i` of the chunk. -/
theorem chunkRow_eq (hT0 : (T0 a c : S62500.Idx → BitVec 32) = (Tbl.tblA m outs c KK : IVec S62500 32))
    (hT1 : (T1 a c : S62500.Idx → BitVec 32) = (Tbl.tblB m outs c KK : IVec S62500 32))
    (hR0 : (Tail.res0 outs c KK : S62500x64.Idx → EReal) = hidArr (VV m outs) a hp0 hp1 c)
    (i : Fin 62500) (j : Fin 64) : Tail.chunkRow outs c KK i j = KVal.HID m c KK i j := by
  show (Tail.res0 outs c KK : S62500x64.Idx → EReal) (ValueIdx.ix2 i j) = _
  rw [hR0]
  exact (hid_final (VV m outs) a hp0 hp1 c i j).trans (rowval_eq m outs c a hp0 hp1 hT0 hT1 i j)

/-- The sums result is the sum of the chunk's hidden values. -/
theorem chunkSum_eq (hT0 : (T0 a c : S62500.Idx → BitVec 32) = (Tbl.tblA m outs c KK : IVec S62500 32))
    (hT1 : (T1 a c : S62500.Idx → BitVec 32) = (Tbl.tblB m outs c KK : IVec S62500 32))
    (hR1 : (Tail.res1 outs c KK : S1x64.Idx → EReal) = sumArr (VV m outs) a hp0 hp1 c)
    (j : Fin 64) : Tail.chunkSum outs c KK j = ∑ i : Fin 62500, KVal.HID m c KK i j := by
  show (Tail.res1 outs c KK : S1x64.Idx → EReal) (ValueIdx.ix2 (0 : Fin 1) j) = _
  rw [hR1]
  exact (sum_final (VV m outs) a hp0 hp1 c j).trans (Finset.sum_congr rfl fun i _ => rowval_eq m outs c a hp0 hp1 hT0 hT1 i j)

/-- The sums-of-squares result is the sum of their squares. -/
theorem chunkSq_eq (hT0 : (T0 a c : S62500.Idx → BitVec 32) = (Tbl.tblA m outs c KK : IVec S62500 32))
    (hT1 : (T1 a c : S62500.Idx → BitVec 32) = (Tbl.tblB m outs c KK : IVec S62500 32))
    (hR2 : (Tail.res2 outs c KK : S1x64.Idx → EReal) = sqArr (VV m outs) a hp0 hp1 c)
    (j : Fin 64) : Tail.chunkSq outs c KK j = ∑ i : Fin 62500, KVal.HID m c KK i j * KVal.HID m c KK i j := by
  show (Tail.res2 outs c KK : S1x64.Idx → EReal) (ValueIdx.ix2 (0 : Fin 1) j) = _
  rw [hR2]
  exact (sq_final (VV m outs) a hp0 hp1 c j).trans
    (Finset.sum_congr rfl fun i _ => by rw [rowval_eq m outs c a hp0 hp1 hT0 hT1 i j])

end Cert.KernelIdeal.P1R12

end
-- ==== Proof.P1R12Top.lean ====
/- The first launch's results are its chunk's hidden values, at the run's own choices.

   The run fixes what every region leaves (the unknowns), each launch's tables and the contents each launch is entered
   from. At those choices nothing is left to assume: the launch's tables are its chunk's pieces of the edge array's rows,
   its results are what its proof data leave, and so its rows are the chunk's hidden values and its two sums their sums
   and sums of squares. -/
import proofs.«400866_j57071525429608_2_alg».proof.Proof.P1R12Fin
import proofs.«400866_j57071525429608_2_alg».proof.Proof.GlueVal

set_option maxRecDepth 16384

noncomputable section

namespace Cert.KernelIdeal.P1R12

open Cert.KernelIdeal Cert.KernelIdeal.Gen
open Idealize.ShloMosaic Idealize.ShloMosaic.TcCoe
open Cert.KernelIdeal.P1 (Bf tw0 tw1)
open Cert.KernelIdeal.Glue (atTc)
open scoped BigOperators

/-! ## The run's choices for this launch -/

/-- The launch's tables, admissible. -/
abbrev gA (m : (ℓ : Loc nD τ sig) → Buf (Elt Ideal) ℓ) : (pcfg12 (F := Ideal)).Adm := Glue.adm12 m
/-- The contents it is entered from, as the run names them. -/
abbrev gW (m : (ℓ : Loc nD τ sig) → Buf (Elt Ideal) ℓ)
    (hE : ∀ (c : Dev nD) (idx : S2x1000000.Idx), ((V0 m c main_arg1 : IVec S2x1000000 32) idx).toNat < 100000) :
    Dev nD → Valuation τ sig (Elt Ideal) := Glue.W25 m hE

variable (m : (ℓ : Loc nD τ sig) → Buf (Elt Ideal) ℓ)
  (hE : ∀ (c : Dev nD) (idx : S2x1000000.Idx), ((V0 m c main_arg1 : IVec S2x1000000 32) idx).toNat < 100000)
  (c : Dev nD)

include hE

/-- The words it reads of them name rows of the node table. -/
theorem gP0 : ∀ c (i : grid12.Coords), k12_chk1 (tw0 tb0 c i (T0 (gA m) c)) := Glue.hp0_12 m hE
theorem gP1 : ∀ c (i : grid12.Coords), k12_chk2 (tw1 tb1 c i (T1 (gA m) c)) := Glue.hp1_12 m hE
/-- The contents it is entered from are the valuation's. -/
theorem gV : Ventry m (Glue.outs m hE) c = gW m hE c := Glue.V25_eq m hE c
/-- The tables it finds in the buffers are its own. -/
theorem gTA : (T0 (gA m) c : S62500.Idx → BitVec 32) = (Tbl.tblA m (Glue.outs m hE) c KK : IVec S62500 32) :=
  ((Glue.hT0_12 m hE c).symm.trans (congrFun (gV m hE c) (Proc.devRef .tc main_v47)).symm :)
theorem gTB : (T1 (gA m) c : S62500.Idx → BitVec 32) = (Tbl.tblB m (Glue.outs m hE) c KK : IVec S62500 32) :=
  ((Glue.hT1_12 m hE c).symm.trans (congrFun (gV m hE c) (Proc.devRef .tc main_v48)).symm :)
/-- What it leaves at its three results. -/
theorem gR0 : (Tail.res0 (Glue.outs m hE) c KK : S62500x64.Idx → EReal) = hidArr (atTc (gW m hE)) (gA m) (gP0 m hE) (gP1 m hE) c :=
  Glue.res0_12 m hE c
theorem gR1 : (Tail.res1 (Glue.outs m hE) c KK : S1x64.Idx → EReal) = sumArr (atTc (gW m hE)) (gA m) (gP0 m hE) (gP1 m hE) c :=
  Glue.res1_12 m hE c
theorem gR2 : (Tail.res2 (Glue.outs m hE) c KK : S1x64.Idx → EReal) = sqArr (atTc (gW m hE)) (gA m) (gP0 m hE) (gP1 m hE) c :=
  Glue.res2_12 m hE c

/-! ## The three facts, nothing assumed -/

/-- The entry contents the launch's value lemmas take are the run's. -/
theorem VV_eq : VV m (Glue.outs m hE) = atTc (gW m hE) :=
  funext fun c => funext fun b => congrFun (gV m hE c) (Proc.devRef .tc b)

/-- Row `i` of the launch's rows is the hidden value of edge `i` of its chunk. -/
theorem row_top (i : Fin 62500) (j : Fin 64) : Tail.chunkRow (Glue.outs m hE) c KK i j = KVal.HID m c KK i j :=
  chunkRow_eq m (Glue.outs m hE) c (gA m) (gP0 m hE) (gP1 m hE) (gTA m hE c) (gTB m hE c)
    (by rw [VV_eq m hE]; exact gR0 m hE c) i j

/-- Its sums are the sums of those values over the chunk. -/
theorem sum_top (j : Fin 64) : Tail.chunkSum (Glue.outs m hE) c KK j = ∑ i : Fin 62500, KVal.HID m c KK i j :=
  chunkSum_eq m (Glue.outs m hE) c (gA m) (gP0 m hE) (gP1 m hE) (gTA m hE c) (gTB m hE c)
    (by rw [VV_eq m hE]; exact gR1 m hE c) j

/-- Its sums of squares are the sums of their squares. -/
theorem sq_top (j : Fin 64) :
    Tail.chunkSq (Glue.outs m hE) c KK j = ∑ i : Fin 62500, KVal.HID m c KK i j * KVal.HID m c KK i j :=
  chunkSq_eq m (Glue.outs m hE) c (gA m) (gP0 m hE) (gP1 m hE) (gTA m hE c) (gTB m hE c)
    (by rw [VV_eq m hE]; exact gR2 m hE c) j

end Cert.KernelIdeal.P1R12

end
-- ==== Proof.P1R13Val.lean ====
/-
  A gather-and-project region (one chunk of 62500 edges), from blocks to arrays.

  The five parameter windows never move: each one's block is its whole array. The two running-sum
  windows never move either and are written back once, after the last point, so their arrays end
  holding what the last point left. Put together with the recursion over the points, at the ideal
  values: the first array ends at the sum over the chunk's 62500 edges of their hidden rows, the
  second at the sum of the squares, and row i of the hidden array is edge i's hidden row — where the
  hidden row of edge i is the two layers applied to the two rows of the node-feature array that entry
  i of each endpoint table names.
-/
import proofs.«400866_j57071525429608_2_alg».proof.Proof.P1R13Dat
import proofs.«400866_j57071525429608_2_alg».proof.Proof.P1StateVal
import proofs.«400866_j57071525429608_2_alg».proof.Proof.P1Val
import Idealize.ShloMosaic.Lib.Pipeline.Value
import Idealize.ShloMosaic.Lib.ValueIdx
import Mathlib.Algebra.BigOperators.Fin

set_option maxRecDepth 100000

noncomputable section

namespace Cert.KernelIdeal.P1R13

open Cert.KernelIdeal Cert.KernelIdeal.Gen
open Idealize.ShloMosaic Idealize.ShloMosaic.TcCoe
open Idealize.ShloMosaic.Pipeline (Dat)
open Cert.KernelIdeal.P1 (Bf tw0 tw1 hNext)
open scoped BigOperators

/-! ## From blocks to arrays (any float values) -/

section Arrays

variable {F : FTy → Type} [FloatOps F]
variable (V : (c : Dev nD) → (b : Ref sig .tc) → Buf (Elt F) ((c : Thread nD τ).loc b))
variable (a : (pcfg13 (F := F)).Adm)
variable (hp0 : ∀ c (i : grid13.Coords), k13_chk1 (tw0 tb0 c i (T0 a c))) (hp1 : ∀ c (i : grid13.Coords), k13_chk2 (tw1 tb1 c i (T1 a c)))

/-- The last grid point. -/
def tlast : Fin (cfg13 a).N := ⟨62499, lt_of_lt_of_eq (by decide : 62499 < 62500) N_13.symm⟩

theorem tlast_succ : (tlast a).val + 1 = (cfg13 a).N := N_13.symm

/-- The first half of the first layer's weights: the block is the array. -/
theorem iblk_0_eq (c : Dev nD) (t : Fin (cfg13 a).N) : (iblk V a c 0 t : S64x128.Idx → Elt F .f32) = V c main_v4 := by
  refine funext fun (y : S64x128.Idx) => ?_
  show (V c main_v4 : S64x128.Idx → Elt F .f32) ((((cfg13 a).win 0).blk t).view.emb y) = _
  congr 1; funext b; apply Fin.ext
  match b with
  | ⟨0, _⟩ =>
    show ((cfg13 a).win 0).index t (0 : Fin 2) * 64 + 1 * (y 0).val = (y 0).val
    rw [show ((cfg13 a).win 0).index t (0 : Fin 2) = 0 from rfl]; omega
  | ⟨1, _⟩ =>
    show ((cfg13 a).win 0).index t (1 : Fin 2) * 128 + 1 * (y 1).val = (y 1).val
    rw [show ((cfg13 a).win 0).index t (1 : Fin 2) = 0 from rfl]; omega

/-- The second half of the first layer's weights: the block is the array. -/
theorem iblk_1_eq (c : Dev nD) (t : Fin (cfg13 a).N) : (iblk V a c 1 t : S64x128.Idx → Elt F .f32) = V c main_v5 := by
  refine funext fun (y : S64x128.Idx) => ?_
  show (V c main_v5 : S64x128.Idx → Elt F .f32) ((((cfg13 a).win 1).blk t).view.emb y) = _
  congr 1; funext b; apply Fin.ext
  match b with
  | ⟨0, _⟩ =>
    show ((cfg13 a).win 1).index t (0 : Fin 2) * 64 + 1 * (y 0).val = (y 0).val
    rw [show ((cfg13 a).win 1).index t (0 : Fin 2) = 0 from rfl]; omega
  | ⟨1, _⟩ =>
    show ((cfg13 a).win 1).index t (1 : Fin 2) * 128 + 1 * (y 1).val = (y 1).val
    rw [show ((cfg13 a).win 1).index t (1 : Fin 2) = 0 from rfl]; omega

/-- The first layer's bias: the block is the array. -/
theorem iblk_2_eq (c : Dev nD) (t : Fin (cfg13 a).N) : (iblk V a c 2 t : S1x64.Idx → Elt F .f32) = V c main_v6 := by
  refine funext fun (y : S1x64.Idx) => ?_
  show (V c main_v6 : S1x64.Idx → Elt F .f32) ((((cfg13 a).win 2).blk t).view.emb y) = _
  congr 1; funext b; apply Fin.ext
  match b with
  | ⟨0, _⟩ =>
    show ((cfg13 a).win 2).index t (0 : Fin 2) * 1 + 1 * (y 0).val = (y 0).val
    rw [show ((cfg13 a).win 2).index t (0 : Fin 2) = 0 from rfl]; omega
  | ⟨1, _⟩ =>
    show ((cfg13 a).win 2).index t (1 : Fin 2) * 64 + 1 * (y 1).val = (y 1).val
    rw [show ((cfg13 a).win 2).index t (1 : Fin 2) = 0 from rfl]; omega

/-- The second layer's weights: the block is the array. -/
theorem iblk_3_eq (c : Dev nD) (t : Fin (cfg13 a).N) : (iblk V a c 3 t : S64x64.Idx → Elt F .f32) = V c main_arg4 := by
  refine funext fun (y : S64x64.Idx) => ?_
  show (V c main_arg4 : S64x64.Idx → Elt F .f32) ((((cfg13 a).win 3).blk t).view.emb y) = _
  congr 1; funext b; apply Fin.ext
  match b with
  | ⟨0, _⟩ =>
    show ((cfg13 a).win 3).index t (0 : Fin 2) * 64 + 1 * (y 0).val = (y 0).val
    rw [show ((cfg13 a).win 3).index t (0 : Fin 2) = 0 from rfl]; omega
  | ⟨1, _⟩ =>
    show ((cfg13 a).win 3).index t (1 : Fin 2) * 64 + 1 * (y 1).val = (y 1).val
    rw [show ((cfg13 a).win 3).index t (1 : Fin 2) = 0 from rfl]; omega

/-- The second layer's bias: the block is the array. -/
theorem iblk_4_eq (c : Dev nD) (t : Fin (cfg13 a).N) : (iblk V a c 4 t : S1x64.Idx → Elt F .f32) = V c main_v7 := by
  refine funext fun (y : S1x64.Idx) => ?_
  show (V c main_v7 : S1x64.Idx → Elt F .f32) ((((cfg13 a).win 4).blk t).view.emb y) = _
  congr 1; funext b; apply Fin.ext
  match b with
  | ⟨0, _⟩ =>
    show ((cfg13 a).win 4).index t (0 : Fin 2) * 1 + 1 * (y 0).val = (y 0).val
    rw [show ((cfg13 a).win 4).index t (0 : Fin 2) = 0 from rfl]; omega
  | ⟨1, _⟩ =>
    show ((cfg13 a).win 4).index t (1 : Fin 2) * 64 + 1 * (y 1).val = (y 1).val
    rw [show ((cfg13 a).win 4).index t (1 : Fin 2) = 0 from rfl]; omega

/-- Window 5 is written back at the last point and at no other: its block never moves. -/
theorem flush5_iff (t : Fin (cfg13 a).N) : ((cfg13 a).win 5).flush t = true ↔ t.val + 1 = (cfg13 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint5 : ∀ t t' : Fin (cfg13 a).N, ((cfg13 a).win 5).flush t = true → ((cfg13 a).win 5).flush t' = true → t ≠ t' →
    Disjoint (((cfg13 a).win 5).blk t).view.set (((cfg13 a).win 5).blk t').view.set :=
  fun t t' h h' hne => absurd (Fin.ext (by
    have e := (flush5_iff a t).mp h
    have e' := (flush5_iff a t').mp h'
    omega)) hne

/-- Where feature j of window 5's block sits in its array: at feature j. -/
theorem emb5 (t : Fin (cfg13 a).N) (j : Fin 64) :
    (((cfg13 a).win 5).blk t).view.emb (ValueIdx.ix2 (0 : Fin 1) j) = ValueIdx.ix2 (0 : Fin 1) j := by
  funext b; apply Fin.ext
  match b with
  | ⟨0, _⟩ =>
    show ((cfg13 a).win 5).index t (0 : Fin 2) * 1 + 1 * 0 = 0
    rw [show ((cfg13 a).win 5).index t (0 : Fin 2) = 0 from rfl]
  | ⟨1, _⟩ =>
    show ((cfg13 a).win 5).index t (1 : Fin 2) * 64 + 1 * j.val = j.val
    rw [show ((cfg13 a).win 5).index t (1 : Fin 2) = 0 from rfl]; omega

theorem sum_arr_apply (c : Dev nD) (j : Fin 64) :
    ((dat V a hp0 hp1 c).arrAt 5 (cfg13 a).N : S1x64.Idx → Elt F .f32) (ValueIdx.ix2 (0 : Fin 1) j)
      = (stAt V a hp0 hp1 c (tlast a).val (tlast a).isLt).1 (ValueIdx.ix2 (0 : Fin 1) j) := by
  have h := (dat V a hp0 hp1 c).arrAt_emb_eq_flushed 5 (disjoint5 a) (tlast a) ((flush5_iff a (tlast a)).mpr (tlast_succ a))
    (ValueIdx.ix2 (0 : Fin 1) j)
  rw [emb5] at h
  refine h.trans ?_
  show (dat V a hp0 hp1 c).after 5 (tlast a) (ValueIdx.ix2 (0 : Fin 1) j) = _
  rw [after_5]

/-- The array of window 5 after the region is what the last point left. -/
theorem sum_arr (c : Dev nD) :
    ((dat V a hp0 hp1 c).arrAt 5 (cfg13 a).N : S1x64.Idx → Elt F .f32) = (stAt V a hp0 hp1 c (tlast a).val (tlast a).isLt).1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sum_arr_apply V a hp0 hp1 c j

/-- Window 6 is written back at the last point and at no other: its block never moves. -/
theorem flush6_iff (t : Fin (cfg13 a).N) : ((cfg13 a).win 6).flush t = true ↔ t.val + 1 = (cfg13 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint6 : ∀ t t' : Fin (cfg13 a).N, ((cfg13 a).win 6).flush t = true → ((cfg13 a).win 6).flush t' = true → t ≠ t' →
    Disjoint (((cfg13 a).win 6).blk t).view.set (((cfg13 a).win 6).blk t').view.set :=
  fun t t' h h' hne => absurd (Fin.ext (by
    have e := (flush6_iff a t).mp h
    have e' := (flush6_iff a t').mp h'
    omega)) hne

/-- Where feature j of window 6's block sits in its array: at feature j. -/
theorem emb6 (t : Fin (cfg13 a).N) (j : Fin 64) :
    (((cfg13 a).win 6).blk t).view.emb (ValueIdx.ix2 (0 : Fin 1) j) = ValueIdx.ix2 (0 : Fin 1) j := by
  funext b; apply Fin.ext
  match b with
  | ⟨0, _⟩ =>
    show ((cfg13 a).win 6).index t (0 : Fin 2) * 1 + 1 * 0 = 0
    rw [show ((cfg13 a).win 6).index t (0 : Fin 2) = 0 from rfl]
  | ⟨1, _⟩ =>
    show ((cfg13 a).win 6).index t (1 : Fin 2) * 64 + 1 * j.val = j.val
    rw [show ((cfg13 a).win 6).index t (1 : Fin 2) = 0 from rfl]; omega

theorem sq_arr_apply (c : Dev nD) (j : Fin 64) :
    ((dat V a hp0 hp1 c).arrAt 6 (cfg13 a).N : S1x64.Idx → Elt F .f32) (ValueIdx.ix2 (0 : Fin 1) j)
      = (stAt V a hp0 hp1 c (tlast a).val (tlast a).isLt).2.1 (ValueIdx.ix2 (0 : Fin 1) j) := by
  have h := (dat V a hp0 hp1 c).arrAt_emb_eq_flushed 6 (disjoint6 a) (tlast a) ((flush6_iff a (tlast a)).mpr (tlast_succ a))
    (ValueIdx.ix2 (0 : Fin 1) j)
  rw [emb6] at h
  refine h.trans ?_
  show (dat V a hp0 hp1 c).after 6 (tlast a) (ValueIdx.ix2 (0 : Fin 1) j) = _
  rw [after_6]

/-- The array of window 6 after the region is what the last point left. -/
theorem sq_arr (c : Dev nD) :
    ((dat V a hp0 hp1 c).arrAt 6 (cfg13 a).N : S1x64.Idx → Elt F .f32) = (stAt V a hp0 hp1 c (tlast a).val (tlast a).isLt).2.1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sq_arr_apply V a hp0 hp1 c j

end Arrays

/-! ## The values, at the ideal instance -/

section AtIdeal

variable (V : (c : Dev nD) → (b : Ref sig .tc) → Buf (Elt Ideal) ((c : Thread nD τ).loc b))
variable (a : (pcfg13 (F := Ideal)).Adm)
variable (hp0 : ∀ c (i : grid13.Coords), k13_chk1 (tw0 tb0 c i (T0 a c))) (hp1 : ∀ c (i : grid13.Coords), k13_chk2 (tw1 tb1 c i (T1 a c)))

/-- The arrays the region reads, each at its literal type. -/
abbrev xArr (c : Dev nD) : S100000x128.Idx → EReal := V c main_arg0
abbrev w1Arr (c : Dev nD) : S64x128.Idx → EReal := V c main_v4
abbrev w2Arr (c : Dev nD) : S64x128.Idx → EReal := V c main_v5
abbrev binArr (c : Dev nD) : S1x64.Idx → EReal := V c main_v6
abbrev whArr (c : Dev nD) : S64x64.Idx → EReal := V c main_arg4
abbrev bhArr (c : Dev nD) : S1x64.Idx → EReal := V c main_v7
/-- Entry i of each endpoint table. -/
abbrev e0At (c : Dev nD) (i : Fin 62500) : BitVec 32 := (T0 a c : S62500.Idx → BitVec 32) (ValueIdx.ix1 i)
abbrev e1At (c : Dev nD) (i : Fin 62500) : BitVec 32 := (T1 a c : S62500.Idx → BitVec 32) (ValueIdx.ix1 i)

/-- The grid point of edge i. -/
def ptOf (i : Fin 62500) : Fin (cfg13 a).N := ⟨i.val, lt_of_lt_of_eq i.isLt N_13.symm⟩

/-- The word a point reads of the first table is the table's entry at the point. -/
theorem tw0_at (c : Dev nD) (t : Fin (cfg13 a).N) :
    tw0 tb0 c (crd a t) (T0 a c) = e0At a c ⟨t.val, lt_of_lt_of_eq t.isLt N_13⟩ := by
  refine (P1.tw0_eq tb0 c (crd a t) (T0 a c)).trans ?_
  show (T0 a c : S62500.Idx → BitVec 32) _ = (T0 a c : S62500.Idx → BitVec 32) _
  refine congrArg (T0 a c : S62500.Idx → BitVec 32) (funext fun b => Fin.ext ?_)
  match b with
  | ⟨0, _⟩ => exact coord_val a t

theorem tw1_at (c : Dev nD) (t : Fin (cfg13 a).N) :
    tw1 tb1 c (crd a t) (T1 a c) = e1At a c ⟨t.val, lt_of_lt_of_eq t.isLt N_13⟩ := by
  refine (P1.tw1_eq tb1 c (crd a t) (T1 a c)).trans ?_
  show (T1 a c : S62500.Idx → BitVec 32) _ = (T1 a c : S62500.Idx → BitVec 32) _
  refine congrArg (T1 a c : S62500.Idx → BitVec 32) (funext fun b => Fin.ext ?_)
  match b with
  | ⟨0, _⟩ => exact coord_val a t

include hp0 in
/-- Every entry of the endpoint tables names a row of the node-feature array. -/
theorem e0_lt (c : Dev nD) (i : Fin 62500) : (e0At a c i).toNat < 100000 := by
  have h := P1.toNat_lt_of_chk1 (hp0 c (crd a (ptOf a i)))
  rw [tw0_at] at h
  exact h

include hp1 in
theorem e1_lt (c : Dev nD) (i : Fin 62500) : (e1At a c i).toNat < 100000 := by
  have h := P1.toNat_lt_of_chk2 (hp1 c (crd a (ptOf a i)))
  rw [tw1_at] at h
  exact h

/-- The hidden row of edge i of the chunk, at feature j: the two layers applied to the two rows of the node-feature
    array that entry i of each endpoint table names. -/
def rowval (c : Dev nD) (i : Fin 62500) (j : Fin 64) : EReal :=
  ∑ k : Fin 64,
      max (∑ k' : Fin 128, xArr V c (ValueIdx.ix2 (⟨(e0At a c i).toNat, e0_lt a hp0 c i⟩ : Fin 100000) k') * w1Arr V c (ValueIdx.ix2 k k')
          + ∑ k' : Fin 128, xArr V c (ValueIdx.ix2 (⟨(e1At a c i).toNat, e1_lt a hp1 c i⟩ : Fin 100000) k') * w2Arr V c (ValueIdx.ix2 k k')
          + binArr V c (ValueIdx.ix2 (0 : Fin 1) k)) 0
        * whArr V c (ValueIdx.ix2 j k)
    + bhArr V c (ValueIdx.ix2 (0 : Fin 1) j)

/-- The first row a point fetches, at feature k'. -/
theorem row0_val (c : Dev nD) (t : Fin (cfg13 a).N) (k' : Fin 128) :
    P1.rowAt0 tb0 xM c (crd a t) (T0 a c) (V c main_arg0) (hp0 c (crd a t)) (ValueIdx.ix2 (0 : Fin 1) k')
      = xArr V c (ValueIdx.ix2 (⟨(e0At a c ⟨t.val, lt_of_lt_of_eq t.isLt N_13⟩).toNat, e0_lt a hp0 c _⟩ : Fin 100000) k') := by
  refine (P1.rowAt0_apply tb0 xM c (crd a t) (T0 a c) (V c main_arg0) (hp0 c (crd a t)) k').trans ?_
  show xArr V c _ = xArr V c _
  refine congrArg (xArr V c) (funext fun b => Fin.ext ?_)
  match b with
  | ⟨0, _⟩ =>
    show (tw0 tb0 c (crd a t) (T0 a c)).toNat = (e0At a c ⟨t.val, lt_of_lt_of_eq t.isLt N_13⟩).toNat
    rw [tw0_at]
  | ⟨1, _⟩ => rfl

/-- The second row a point fetches, at feature k'. -/
theorem row1_val (c : Dev nD) (t : Fin (cfg13 a).N) (k' : Fin 128) :
    P1.rowAt1 tb1 xM c (crd a t) (T1 a c) (V c main_arg0) (hp1 c (crd a t)) (ValueIdx.ix2 (0 : Fin 1) k')
      = xArr V c (ValueIdx.ix2 (⟨(e1At a c ⟨t.val, lt_of_lt_of_eq t.isLt N_13⟩).toNat, e1_lt a hp1 c _⟩ : Fin 100000) k') := by
  refine (P1.rowAt1_apply tb1 xM c (crd a t) (T1 a c) (V c main_arg0) (hp1 c (crd a t)) k').trans ?_
  show xArr V c _ = xArr V c _
  refine congrArg (xArr V c) (funext fun b => Fin.ext ?_)
  match b with
  | ⟨0, _⟩ =>
    show (tw1 tb1 c (crd a t) (T1 a c)).toNat = (e1At a c ⟨t.val, lt_of_lt_of_eq t.isLt N_13⟩).toNat
    rw [tw1_at]
  | ⟨1, _⟩ => rfl

/-- A point's hidden row is the hidden row of its edge. -/
theorem hrow_val (c : Dev nD) (t : Fin (cfg13 a).N) (j : Fin 64) :
    P1.hrowG tb0 tb1 xM c (cfg13 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t j
      = rowval V a hp0 hp1 c ⟨t.val, lt_of_lt_of_eq t.isLt N_13⟩ j :=
  P1.hrow_eq_of (P1.rowAt0 tb0 xM c (crd a t) (T0 a c) (V c main_arg0) (hp0 c (crd a t)))
    (P1.rowAt1 tb1 xM c (crd a t) (T1 a c) (V c main_arg0) (hp1 c (crd a t)))
    (iblk V a c 0 t) (iblk V a c 1 t) (iblk V a c 2 t) (iblk V a c 3 t) (iblk V a c 4 t)
    (xArr V c) ⟨(e0At a c ⟨t.val, lt_of_lt_of_eq t.isLt N_13⟩).toNat, e0_lt a hp0 c _⟩
    ⟨(e1At a c ⟨t.val, lt_of_lt_of_eq t.isLt N_13⟩).toNat, e1_lt a hp1 c _⟩
    (w1Arr V c) (w2Arr V c) (binArr V c) (whArr V c) (bhArr V c)
    (row0_val V a hp0 c t) (row1_val V a hp1 c t)
    (iblk_0_eq V a c t) (iblk_1_eq V a c t) (iblk_2_eq V a c t) (iblk_3_eq V a c t) (iblk_4_eq V a c t) j

/-- After point n the first running sum is the sum of the hidden rows of the edges 0 … n. -/
theorem sum_at (c : Dev nD) (j : Fin 64) (n : ℕ) (hn : n < (cfg13 a).N) :
    (stAt V a hp0 hp1 c n hn).1 (ValueIdx.ix2 (0 : Fin 1) j)
      = ∑ i : Fin (n + 1), rowval V a hp0 hp1 c ⟨i.val, lt_of_lt_of_eq (Nat.lt_of_le_of_lt (Nat.le_of_lt_succ i.isLt) hn) N_13⟩ j := by
  unfold stAt
  refine (P1.sumG_at tb0 tb1 xM hM c (cfg13 a).N (crd a) (fun t => iblk V a c 0 t) (fun t => iblk V a c 1 t) (fun t => iblk V a c 2 t) (fun t => iblk V a c 3 t) (fun t => iblk V a c 4 t) (T0 a c) (T1 a c) (V c main_arg0) (V c main_v52_0) (fun t => hp0 c (crd a t)) (fun t => hp1 c (crd a t)) j n hn).trans ?_
  exact Finset.sum_congr rfl fun i _ => hrow_val V a hp0 hp1 c _ j

/-- After point n the second running sum is the sum of the squares of those hidden rows. -/
theorem sq_at (c : Dev nD) (j : Fin 64) (n : ℕ) (hn : n < (cfg13 a).N) :
    (stAt V a hp0 hp1 c n hn).2.1 (ValueIdx.ix2 (0 : Fin 1) j)
      = ∑ i : Fin (n + 1), rowval V a hp0 hp1 c ⟨i.val, lt_of_lt_of_eq (Nat.lt_of_le_of_lt (Nat.le_of_lt_succ i.isLt) hn) N_13⟩ j
          * rowval V a hp0 hp1 c ⟨i.val, lt_of_lt_of_eq (Nat.lt_of_le_of_lt (Nat.le_of_lt_succ i.isLt) hn) N_13⟩ j := by
  unfold stAt
  refine (P1.sumsqG_at tb0 tb1 xM hM c (cfg13 a).N (crd a) (fun t => iblk V a c 0 t) (fun t => iblk V a c 1 t) (fun t => iblk V a c 2 t) (fun t => iblk V a c 3 t) (fun t => iblk V a c 4 t) (T0 a c) (T1 a c) (V c main_arg0) (V c main_v52_0) (fun t => hp0 c (crd a t)) (fun t => hp1 c (crd a t)) j n hn).trans ?_
  exact Finset.sum_congr rfl fun i _ => by rw [hrow_val V a hp0 hp1 c _ j]

/-- The hidden array is read through its whole view as itself. -/
theorem read_hM (c : Dev nD) (f : Bf (F := Ideal) c hM) (y : S62500x64.Idx) :
    hM.view.read (Elt Ideal) f y = (f : S62500x64.Idx → EReal) y := rfl

/-- After n points, row i < n of the hidden array is edge i's hidden row. -/
theorem hid_at (c : Dev nD) (j : Fin 64) (n : ℕ) (hn : n ≤ (cfg13 a).N) (i : ℕ) (hi : i < n) :
    (hAt V a hp0 hp1 c n hn : S62500x64.Idx → EReal) (ValueIdx.ix2 (⟨i, lt_of_lt_of_eq (Nat.lt_of_lt_of_le hi hn) N_13⟩ : Fin 62500) j)
      = rowval V a hp0 hp1 c ⟨i, lt_of_lt_of_eq (Nat.lt_of_lt_of_le hi hn) N_13⟩ j := by
  unfold hAt
  refine (read_hM c _ _).symm.trans ?_
  refine (P1.hG_row_written (F := Ideal) tb0 tb1 xM hM c (cfg13 a).N (crd a) (fun t => iblk V a c 0 t) (fun t => iblk V a c 1 t) (fun t => iblk V a c 2 t) (fun t => iblk V a c 3 t) (fun t => iblk V a c 4 t) (T0 a c) (T1 a c) (V c main_arg0) (V c main_v52_0) (fun t => hp0 c (crd a t)) (fun t => hp1 c (crd a t)) (coord_val a) j n hn i hi).trans ?_
  exact (P1.rowStep_apply tb0 tb1 xM c (cfg13 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) _ j).trans (hrow_val V a hp0 hp1 c _ j)

/-- The two running-sum arrays and the hidden array after the region, each at its literal type. -/
abbrev sumArr (c : Dev nD) : S1x64.Idx → EReal := (dat V a hp0 hp1 c).arrAt 5 (cfg13 a).N
abbrev sqArr (c : Dev nD) : S1x64.Idx → EReal := (dat V a hp0 hp1 c).arrAt 6 (cfg13 a).N
abbrev hidArr (c : Dev nD) : S62500x64.Idx → EReal := hAt V a hp0 hp1 c (cfg13 a).N (Nat.le_refl _)

/-- The last point's index plus one is the number of edges of the chunk. -/
theorem tlast_count : (tlast a).val + 1 = 62500 := rfl

/-- The first running-sum array after the region: the sum over the chunk's edges of their hidden rows. -/
theorem sum_final (c : Dev nD) (j : Fin 64) :
    sumArr V a hp0 hp1 c (ValueIdx.ix2 (0 : Fin 1) j) = ∑ i : Fin 62500, rowval V a hp0 hp1 c i j := by
  refine (sum_arr_apply V a hp0 hp1 c j).trans ((sum_at V a hp0 hp1 c j (tlast a).val (tlast a).isLt).trans ?_)
  exact Fintype.sum_equiv (finCongr (tlast_count a)) _ _ (fun i => rfl)

/-- The second running-sum array after the region: the sum of the squares of those hidden rows. -/
theorem sq_final (c : Dev nD) (j : Fin 64) :
    sqArr V a hp0 hp1 c (ValueIdx.ix2 (0 : Fin 1) j)
      = ∑ i : Fin 62500, rowval V a hp0 hp1 c i j * rowval V a hp0 hp1 c i j := by
  refine (sq_arr_apply V a hp0 hp1 c j).trans ((sq_at V a hp0 hp1 c j (tlast a).val (tlast a).isLt).trans ?_)
  exact Fintype.sum_equiv (finCongr (tlast_count a)) _ _ (fun i => rfl)

/-- The hidden array after the region: row i is edge i's hidden row. -/
theorem hid_final (c : Dev nD) (i : Fin 62500) (j : Fin 64) :
    hidArr V a hp0 hp1 c (ValueIdx.ix2 i j) = rowval V a hp0 hp1 c i j :=
  hid_at V a hp0 hp1 c j (cfg13 a).N (Nat.le_refl _) i.val (lt_of_lt_of_eq i.isLt N_13.symm)

end AtIdeal

end Cert.KernelIdeal.P1R13

end
-- ==== Proof.P1R13Fin.lean ====
/- The first launch's results are its chunk's hidden values.

   The launch walks the 62500 edges of its chunk: at edge i it fetches the two rows of the node-feature array that entry i of
   its two endpoint tables names, applies the two layers, writes the hidden row and adds it, and its square, to two running
   sums. Its tables are the chunk's pieces of the edge array's two rows, and the weights it reads are the argument arrays'
   (the first layer's weights in two halves). So row i of its rows result is the hidden value of edge i of the chunk in the
   by-endpoint form, and its two sums are the sums of those values and of their squares over the chunk. -/
import proofs.«400866_j57071525429608_2_alg».proof.Proof.P1R13Val
import proofs.«400866_j57071525429608_2_alg».proof.Proof.HostHead
import proofs.«400866_j57071525429608_2_alg».proof.Proof.TblFacts
import proofs.«400866_j57071525429608_2_alg».proof.Proof.HostTail
import proofs.«400866_j57071525429608_2_alg».proof.Proof.KVal
import proofs.«400866_j57071525429608_2_alg».proof.Proof.Spec
import Idealize.ShloMosaic.Lib.ValueIdx

set_option maxRecDepth 16384

noncomputable section

namespace Cert.KernelIdeal.P1R13

open Cert.KernelIdeal Cert.KernelIdeal.Gen
open Idealize.ShloMosaic Idealize.ShloMosaic.TcCoe
open Cert.KernelIdeal.P1 (Bf tw0 tw1)
open scoped BigOperators

/-! ## The launch -/

/-- The launch's chunk among the sixteen. -/
abbrev KK : Fin 16 := ⟨13, by omega⟩
/-- The launch among the seventeen regions. -/
abbrev KK17 : Fin 17 := ⟨13, by omega⟩
/-- The buffers' contents when the launch is entered. -/
abbrev Ventry (m : (ℓ : Loc nD τ sig) → Buf (Elt Ideal) ℓ) (outs : Outs (F := Ideal)) (c : Dev nD) : Valuation τ sig (Elt Ideal) := V27 m outs c
/-- They are the entry contents the host operations' facts are stated at. -/
theorem Ventry_eq (m : (ℓ : Loc nD τ sig) → Buf (Elt Ideal) ℓ) (outs : Outs (F := Ideal)) (c : Dev nD) :
    Head.Vodd m outs c KK17 = Ventry m outs c := Head.Vodd_13 m outs c _

variable (m : (ℓ : Loc nD τ sig) → Buf (Elt Ideal) ℓ) (outs : Outs (F := Ideal)) (c : Dev nD)
variable (a : (pcfg13 (F := Ideal)).Adm)
variable (hp0 : ∀ c (i : grid13.Coords), k13_chk1 (tw0 tb0 c i (T0 a c))) (hp1 : ∀ c (i : grid13.Coords), k13_chk2 (tw1 tb1 c i (T1 a c)))

/-- The entry contents as the launch's value lemmas take them. -/
abbrev VV : (c : Dev nD) → (b : Ref sig .tc) → Buf (Elt Ideal) ((c : Thread nD τ).loc b) := fun c b => Ventry m outs c b

/-! ## The tables' words are the chunk's endpoints -/

/-- Entry `i` of the first table names the first endpoint of edge `i` of the chunk. -/
theorem e0_eq (hT0 : (T0 a c : S62500.Idx → BitVec 32) = (Tbl.tblA m outs c KK : IVec S62500 32)) (i : Fin 62500) :
    (⟨(e0At a c i).toNat, e0_lt a hp0 c i⟩ : Fin 100000) = Cert.Spec.endpoint (KVal.edgesA m c) 0 (Cert.Spec.chunk KK i) := by
  have hw : e0At a c i = (KVal.edgesA m c) (ValueIdx.ix2 (0 : Fin 2) (Cert.Spec.chunk KK i)) := by
    show (T0 a c : S62500.Idx → BitVec 32) (ValueIdx.ix1 i) = _
    rw [hT0]
    exact Tbl.tblA_apply m outs c KK i
  have hlt := e0_lt a hp0 c i
  rw [hw] at hlt
  refine Fin.ext ?_
  show (e0At a c i).toNat = (Cert.Spec.node _).val
  rw [Cert.Spec.node_val_of_toNat_lt hlt, hw]

/-- Entry `i` of the second table names the second endpoint. -/
theorem e1_eq (hT1 : (T1 a c : S62500.Idx → BitVec 32) = (Tbl.tblB m outs c KK : IVec S62500 32)) (i : Fin 62500) :
    (⟨(e1At a c i).toNat, e1_lt a hp1 c i⟩ : Fin 100000) = Cert.Spec.endpoint (KVal.edgesA m c) 1 (Cert.Spec.chunk KK i) := by
  have hw : e1At a c i = (KVal.edgesA m c) (ValueIdx.ix2 (1 : Fin 2) (Cert.Spec.chunk KK i)) := by
    show (T1 a c : S62500.Idx → BitVec 32) (ValueIdx.ix1 i) = _
    rw [hT1]
    exact Tbl.tblB_apply m outs c KK i
  have hlt := e1_lt a hp1 c i
  rw [hw] at hlt
  refine Fin.ext ?_
  show (e1At a c i).toNat = (Cert.Spec.node _).val
  rw [Cert.Spec.node_val_of_toNat_lt hlt, hw]

/-! ## The arrays the launch reads are the arguments' -/

theorem x_eq : xArr (VV m outs) c = KVal.xA m c := by
  show Ventry m outs c main_arg0 = _
  rw [← Ventry_eq m outs c]
  exact Head.arg0_keep m outs c KK17
theorem wh_eq : whArr (VV m outs) c = KVal.WhA m c := by
  show Ventry m outs c main_arg4 = _
  rw [← Ventry_eq m outs c]
  exact Head.arg4_keep m outs c KK17
theorem w1_apply (k : Fin 64) (k' : Fin 128) :
    w1Arr (VV m outs) c (ValueIdx.ix2 k k') = KVal.WinA m c (ValueIdx.ix2 k (⟨k'.val, by omega⟩ : Fin 256)) := by
  show (Ventry m outs c main_v4 : S64x128.Idx → EReal) (ValueIdx.ix2 k k') = _
  rw [← Ventry_eq m outs c]
  exact Head.v4_apply m outs c KK17 k k'
theorem w2_apply (k : Fin 64) (k' : Fin 128) :
    w2Arr (VV m outs) c (ValueIdx.ix2 k k') = KVal.WinA m c (ValueIdx.ix2 k (⟨128 + k'.val, by omega⟩ : Fin 256)) := by
  show (Ventry m outs c main_v5 : S64x128.Idx → EReal) (ValueIdx.ix2 k k') = _
  rw [← Ventry_eq m outs c]
  exact Head.v5_apply m outs c KK17 k k'
theorem bin_apply (k : Fin 64) :
    binArr (VV m outs) c (ValueIdx.ix2 (0 : Fin 1) k) = KVal.binA m c (ValueIdx.ix1 k) := by
  show (Ventry m outs c main_v6 : S1x64.Idx → EReal) (ValueIdx.ix2 (0 : Fin 1) k) = _
  rw [← Ventry_eq m outs c]
  exact Head.v6_apply m outs c KK17 k
theorem bh_apply (j : Fin 64) :
    bhArr (VV m outs) c (ValueIdx.ix2 (0 : Fin 1) j) = KVal.bhA m c (ValueIdx.ix1 j) := by
  show (Ventry m outs c main_v7 : S1x64.Idx → EReal) (ValueIdx.ix2 (0 : Fin 1) j) = _
  rw [← Ventry_eq m outs c]
  exact Head.v7_apply m outs c KK17 j

/-! ## The launch's hidden row is the chunk's hidden value -/

theorem rowval_eq (hT0 : (T0 a c : S62500.Idx → BitVec 32) = (Tbl.tblA m outs c KK : IVec S62500 32))
    (hT1 : (T1 a c : S62500.Idx → BitVec 32) = (Tbl.tblB m outs c KK : IVec S62500 32)) (i : Fin 62500) (j : Fin 64) :
    rowval (VV m outs) a hp0 hp1 c i j = KVal.hid m c (Cert.Spec.chunk KK i) j := by
  unfold rowval KVal.hid
  rw [e0_eq m outs c a hp0 hT0 i, e1_eq m outs c a hp1 hT1 i, x_eq m outs c, wh_eq m outs c]
  simp only [w1_apply m outs c, w2_apply m outs c, bin_apply m outs c, bh_apply m outs c]

/-! ## The three results -/

/-- Row `i` of the rows result is the hidden value of edge `i` of the chunk. -/
theorem chunkRow_eq (hT0 : (T0 a c : S62500.Idx → BitVec 32) = (Tbl.tblA m outs c KK : IVec S62500 32))
    (hT1 : (T1 a c : S62500.Idx → BitVec 32) = (Tbl.tblB m outs c KK : IVec S62500 32))
    (hR0 : (Tail.res0 outs c KK : S62500x64.Idx → EReal) = hidArr (VV m outs) a hp0 hp1 c)
    (i : Fin 62500) (j : Fin 64) : Tail.chunkRow outs c KK i j = KVal.HID m c KK i j := by
  show (Tail.res0 outs c KK : S62500x64.Idx → EReal) (ValueIdx.ix2 i j) = _
  rw [hR0]
  exact (hid_final (VV m outs) a hp0 hp1 c i j).trans (rowval_eq m outs c a hp0 hp1 hT0 hT1 i j)

/-- The sums result is the sum of the chunk's hidden values. -/
theorem chunkSum_eq (hT0 : (T0 a c : S62500.Idx → BitVec 32) = (Tbl.tblA m outs c KK : IVec S62500 32))
    (hT1 : (T1 a c : S62500.Idx → BitVec 32) = (Tbl.tblB m outs c KK : IVec S62500 32))
    (hR1 : (Tail.res1 outs c KK : S1x64.Idx → EReal) = sumArr (VV m outs) a hp0 hp1 c)
    (j : Fin 64) : Tail.chunkSum outs c KK j = ∑ i : Fin 62500, KVal.HID m c KK i j := by
  show (Tail.res1 outs c KK : S1x64.Idx → EReal) (ValueIdx.ix2 (0 : Fin 1) j) = _
  rw [hR1]
  exact (sum_final (VV m outs) a hp0 hp1 c j).trans (Finset.sum_congr rfl fun i _ => rowval_eq m outs c a hp0 hp1 hT0 hT1 i j)

/-- The sums-of-squares result is the sum of their squares. -/
theorem chunkSq_eq (hT0 : (T0 a c : S62500.Idx → BitVec 32) = (Tbl.tblA m outs c KK : IVec S62500 32))
    (hT1 : (T1 a c : S62500.Idx → BitVec 32) = (Tbl.tblB m outs c KK : IVec S62500 32))
    (hR2 : (Tail.res2 outs c KK : S1x64.Idx → EReal) = sqArr (VV m outs) a hp0 hp1 c)
    (j : Fin 64) : Tail.chunkSq outs c KK j = ∑ i : Fin 62500, KVal.HID m c KK i j * KVal.HID m c KK i j := by
  show (Tail.res2 outs c KK : S1x64.Idx → EReal) (ValueIdx.ix2 (0 : Fin 1) j) = _
  rw [hR2]
  exact (sq_final (VV m outs) a hp0 hp1 c j).trans
    (Finset.sum_congr rfl fun i _ => by rw [rowval_eq m outs c a hp0 hp1 hT0 hT1 i j])

end Cert.KernelIdeal.P1R13

end
-- ==== Proof.P1R13Top.lean ====
/- The first launch's results are its chunk's hidden values, at the run's own choices.

   The run fixes what every region leaves (the unknowns), each launch's tables and the contents each launch is entered
   from. At those choices nothing is left to assume: the launch's tables are its chunk's pieces of the edge array's rows,
   its results are what its proof data leave, and so its rows are the chunk's hidden values and its two sums their sums
   and sums of squares. -/
import proofs.«400866_j57071525429608_2_alg».proof.Proof.P1R13Fin
import proofs.«400866_j57071525429608_2_alg».proof.Proof.GlueVal

set_option maxRecDepth 16384

noncomputable section

namespace Cert.KernelIdeal.P1R13

open Cert.KernelIdeal Cert.KernelIdeal.Gen
open Idealize.ShloMosaic Idealize.ShloMosaic.TcCoe
open Cert.KernelIdeal.P1 (Bf tw0 tw1)
open Cert.KernelIdeal.Glue (atTc)
open scoped BigOperators

/-! ## The run's choices for this launch -/

/-- The launch's tables, admissible. -/
abbrev gA (m : (ℓ : Loc nD τ sig) → Buf (Elt Ideal) ℓ) : (pcfg13 (F := Ideal)).Adm := Glue.adm13 m
/-- The contents it is entered from, as the run names them. -/
abbrev gW (m : (ℓ : Loc nD τ sig) → Buf (Elt Ideal) ℓ)
    (hE : ∀ (c : Dev nD) (idx : S2x1000000.Idx), ((V0 m c main_arg1 : IVec S2x1000000 32) idx).toNat < 100000) :
    Dev nD → Valuation τ sig (Elt Ideal) := Glue.W27 m hE

variable (m : (ℓ : Loc nD τ sig) → Buf (Elt Ideal) ℓ)
  (hE : ∀ (c : Dev nD) (idx : S2x1000000.Idx), ((V0 m c main_arg1 : IVec S2x1000000 32) idx).toNat < 100000)
  (c : Dev nD)

include hE

/-- The words it reads of them name rows of the node table. -/
theorem gP0 : ∀ c (i : grid13.Coords), k13_chk1 (tw0 tb0 c i (T0 (gA m) c)) := Glue.hp0_13 m hE
theorem gP1 : ∀ c (i : grid13.Coords), k13_chk2 (tw1 tb1 c i (T1 (gA m) c)) := Glue.hp1_13 m hE
/-- The contents it is entered from are the valuation's. -/
theorem gV : Ventry m (Glue.outs m hE) c = gW m hE c := Glue.V27_eq m hE c
/-- The tables it finds in the buffers are its own. -/
theorem gTA : (T0 (gA m) c : S62500.Idx → BitVec 32) = (Tbl.tblA m (Glue.outs m hE) c KK : IVec S62500 32) :=
  ((Glue.hT0_13 m hE c).symm.trans (congrFun (gV m hE c) (Proc.devRef .tc main_v50)).symm :)
theorem gTB : (T1 (gA m) c : S62500.Idx → BitVec 32) = (Tbl.tblB m (Glue.outs m hE) c KK : IVec S62500 32) :=
  ((Glue.hT1_13 m hE c).symm.trans (congrFun (gV m hE c) (Proc.devRef .tc main_v51)).symm :)
/-- What it leaves at its three results. -/
theorem gR0 : (Tail.res0 (Glue.outs m hE) c KK : S62500x64.Idx → EReal) = hidArr (atTc (gW m hE)) (gA m) (gP0 m hE) (gP1 m hE) c :=
  Glue.res0_13 m hE c
theorem gR1 : (Tail.res1 (Glue.outs m hE) c KK : S1x64.Idx → EReal) = sumArr (atTc (gW m hE)) (gA m) (gP0 m hE) (gP1 m hE) c :=
  Glue.res1_13 m hE c
theorem gR2 : (Tail.res2 (Glue.outs m hE) c KK : S1x64.Idx → EReal) = sqArr (atTc (gW m hE)) (gA m) (gP0 m hE) (gP1 m hE) c :=
  Glue.res2_13 m hE c

/-! ## The three facts, nothing assumed -/

/-- The entry contents the launch's value lemmas take are the run's. -/
theorem VV_eq : VV m (Glue.outs m hE) = atTc (gW m hE) :=
  funext fun c => funext fun b => congrFun (gV m hE c) (Proc.devRef .tc b)

/-- Row `i` of the launch's rows is the hidden value of edge `i` of its chunk. -/
theorem row_top (i : Fin 62500) (j : Fin 64) : Tail.chunkRow (Glue.outs m hE) c KK i j = KVal.HID m c KK i j :=
  chunkRow_eq m (Glue.outs m hE) c (gA m) (gP0 m hE) (gP1 m hE) (gTA m hE c) (gTB m hE c)
    (by rw [VV_eq m hE]; exact gR0 m hE c) i j

/-- Its sums are the sums of those values over the chunk. -/
theorem sum_top (j : Fin 64) : Tail.chunkSum (Glue.outs m hE) c KK j = ∑ i : Fin 62500, KVal.HID m c KK i j :=
  chunkSum_eq m (Glue.outs m hE) c (gA m) (gP0 m hE) (gP1 m hE) (gTA m hE c) (gTB m hE c)
    (by rw [VV_eq m hE]; exact gR1 m hE c) j

/-- Its sums of squares are the sums of their squares. -/
theorem sq_top (j : Fin 64) :
    Tail.chunkSq (Glue.outs m hE) c KK j = ∑ i : Fin 62500, KVal.HID m c KK i j * KVal.HID m c KK i j :=
  chunkSq_eq m (Glue.outs m hE) c (gA m) (gP0 m hE) (gP1 m hE) (gTA m hE c) (gTB m hE c)
    (by rw [VV_eq m hE]; exact gR2 m hE c) j

end Cert.KernelIdeal.P1R13

end
-- ==== Proof.P1R14Val.lean ====
/-
  A gather-and-project region (one chunk of 62500 edges), from blocks to arrays.

  The five parameter windows never move: each one's block is its whole array. The two running-sum
  windows never move either and are written back once, after the last point, so their arrays end
  holding what the last point left. Put together with the recursion over the points, at the ideal
  values: the first array ends at the sum over the chunk's 62500 edges of their hidden rows, the
  second at the sum of the squares, and row i of the hidden array is edge i's hidden row — where the
  hidden row of edge i is the two layers applied to the two rows of the node-feature array that entry
  i of each endpoint table names.
-/
import proofs.«400866_j57071525429608_2_alg».proof.Proof.P1R14Dat
import proofs.«400866_j57071525429608_2_alg».proof.Proof.P1StateVal
import proofs.«400866_j57071525429608_2_alg».proof.Proof.P1Val
import Idealize.ShloMosaic.Lib.Pipeline.Value
import Idealize.ShloMosaic.Lib.ValueIdx
import Mathlib.Algebra.BigOperators.Fin

set_option maxRecDepth 100000

noncomputable section

namespace Cert.KernelIdeal.P1R14

open Cert.KernelIdeal Cert.KernelIdeal.Gen
open Idealize.ShloMosaic Idealize.ShloMosaic.TcCoe
open Idealize.ShloMosaic.Pipeline (Dat)
open Cert.KernelIdeal.P1 (Bf tw0 tw1 hNext)
open scoped BigOperators

/-! ## From blocks to arrays (any float values) -/

section Arrays

variable {F : FTy → Type} [FloatOps F]
variable (V : (c : Dev nD) → (b : Ref sig .tc) → Buf (Elt F) ((c : Thread nD τ).loc b))
variable (a : (pcfg14 (F := F)).Adm)
variable (hp0 : ∀ c (i : grid14.Coords), k14_chk1 (tw0 tb0 c i (T0 a c))) (hp1 : ∀ c (i : grid14.Coords), k14_chk2 (tw1 tb1 c i (T1 a c)))

/-- The last grid point. -/
def tlast : Fin (cfg14 a).N := ⟨62499, lt_of_lt_of_eq (by decide : 62499 < 62500) N_14.symm⟩

theorem tlast_succ : (tlast a).val + 1 = (cfg14 a).N := N_14.symm

/-- The first half of the first layer's weights: the block is the array. -/
theorem iblk_0_eq (c : Dev nD) (t : Fin (cfg14 a).N) : (iblk V a c 0 t : S64x128.Idx → Elt F .f32) = V c main_v4 := by
  refine funext fun (y : S64x128.Idx) => ?_
  show (V c main_v4 : S64x128.Idx → Elt F .f32) ((((cfg14 a).win 0).blk t).view.emb y) = _
  congr 1; funext b; apply Fin.ext
  match b with
  | ⟨0, _⟩ =>
    show ((cfg14 a).win 0).index t (0 : Fin 2) * 64 + 1 * (y 0).val = (y 0).val
    rw [show ((cfg14 a).win 0).index t (0 : Fin 2) = 0 from rfl]; omega
  | ⟨1, _⟩ =>
    show ((cfg14 a).win 0).index t (1 : Fin 2) * 128 + 1 * (y 1).val = (y 1).val
    rw [show ((cfg14 a).win 0).index t (1 : Fin 2) = 0 from rfl]; omega

/-- The second half of the first layer's weights: the block is the array. -/
theorem iblk_1_eq (c : Dev nD) (t : Fin (cfg14 a).N) : (iblk V a c 1 t : S64x128.Idx → Elt F .f32) = V c main_v5 := by
  refine funext fun (y : S64x128.Idx) => ?_
  show (V c main_v5 : S64x128.Idx → Elt F .f32) ((((cfg14 a).win 1).blk t).view.emb y) = _
  congr 1; funext b; apply Fin.ext
  match b with
  | ⟨0, _⟩ =>
    show ((cfg14 a).win 1).index t (0 : Fin 2) * 64 + 1 * (y 0).val = (y 0).val
    rw [show ((cfg14 a).win 1).index t (0 : Fin 2) = 0 from rfl]; omega
  | ⟨1, _⟩ =>
    show ((cfg14 a).win 1).index t (1 : Fin 2) * 128 + 1 * (y 1).val = (y 1).val
    rw [show ((cfg14 a).win 1).index t (1 : Fin 2) = 0 from rfl]; omega

/-- The first layer's bias: the block is the array. -/
theorem iblk_2_eq (c : Dev nD) (t : Fin (cfg14 a).N) : (iblk V a c 2 t : S1x64.Idx → Elt F .f32) = V c main_v6 := by
  refine funext fun (y : S1x64.Idx) => ?_
  show (V c main_v6 : S1x64.Idx → Elt F .f32) ((((cfg14 a).win 2).blk t).view.emb y) = _
  congr 1; funext b; apply Fin.ext
  match b with
  | ⟨0, _⟩ =>
    show ((cfg14 a).win 2).index t (0 : Fin 2) * 1 + 1 * (y 0).val = (y 0).val
    rw [show ((cfg14 a).win 2).index t (0 : Fin 2) = 0 from rfl]; omega
  | ⟨1, _⟩ =>
    show ((cfg14 a).win 2).index t (1 : Fin 2) * 64 + 1 * (y 1).val = (y 1).val
    rw [show ((cfg14 a).win 2).index t (1 : Fin 2) = 0 from rfl]; omega

/-- The second layer's weights: the block is the array. -/
theorem iblk_3_eq (c : Dev nD) (t : Fin (cfg14 a).N) : (iblk V a c 3 t : S64x64.Idx → Elt F .f32) = V c main_arg4 := by
  refine funext fun (y : S64x64.Idx) => ?_
  show (V c main_arg4 : S64x64.Idx → Elt F .f32) ((((cfg14 a).win 3).blk t).view.emb y) = _
  congr 1; funext b; apply Fin.ext
  match b with
  | ⟨0, _⟩ =>
    show ((cfg14 a).win 3).index t (0 : Fin 2) * 64 + 1 * (y 0).val = (y 0).val
    rw [show ((cfg14 a).win 3).index t (0 : Fin 2) = 0 from rfl]; omega
  | ⟨1, _⟩ =>
    show ((cfg14 a).win 3).index t (1 : Fin 2) * 64 + 1 * (y 1).val = (y 1).val
    rw [show ((cfg14 a).win 3).index t (1 : Fin 2) = 0 from rfl]; omega

/-- The second layer's bias: the block is the array. -/
theorem iblk_4_eq (c : Dev nD) (t : Fin (cfg14 a).N) : (iblk V a c 4 t : S1x64.Idx → Elt F .f32) = V c main_v7 := by
  refine funext fun (y : S1x64.Idx) => ?_
  show (V c main_v7 : S1x64.Idx → Elt F .f32) ((((cfg14 a).win 4).blk t).view.emb y) = _
  congr 1; funext b; apply Fin.ext
  match b with
  | ⟨0, _⟩ =>
    show ((cfg14 a).win 4).index t (0 : Fin 2) * 1 + 1 * (y 0).val = (y 0).val
    rw [show ((cfg14 a).win 4).index t (0 : Fin 2) = 0 from rfl]; omega
  | ⟨1, _⟩ =>
    show ((cfg14 a).win 4).index t (1 : Fin 2) * 64 + 1 * (y 1).val = (y 1).val
    rw [show ((cfg14 a).win 4).index t (1 : Fin 2) = 0 from rfl]; omega

/-- Window 5 is written back at the last point and at no other: its block never moves. -/
theorem flush5_iff (t : Fin (cfg14 a).N) : ((cfg14 a).win 5).flush t = true ↔ t.val + 1 = (cfg14 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint5 : ∀ t t' : Fin (cfg14 a).N, ((cfg14 a).win 5).flush t = true → ((cfg14 a).win 5).flush t' = true → t ≠ t' →
    Disjoint (((cfg14 a).win 5).blk t).view.set (((cfg14 a).win 5).blk t').view.set :=
  fun t t' h h' hne => absurd (Fin.ext (by
    have e := (flush5_iff a t).mp h
    have e' := (flush5_iff a t').mp h'
    omega)) hne

/-- Where feature j of window 5's block sits in its array: at feature j. -/
theorem emb5 (t : Fin (cfg14 a).N) (j : Fin 64) :
    (((cfg14 a).win 5).blk t).view.emb (ValueIdx.ix2 (0 : Fin 1) j) = ValueIdx.ix2 (0 : Fin 1) j := by
  funext b; apply Fin.ext
  match b with
  | ⟨0, _⟩ =>
    show ((cfg14 a).win 5).index t (0 : Fin 2) * 1 + 1 * 0 = 0
    rw [show ((cfg14 a).win 5).index t (0 : Fin 2) = 0 from rfl]
  | ⟨1, _⟩ =>
    show ((cfg14 a).win 5).index t (1 : Fin 2) * 64 + 1 * j.val = j.val
    rw [show ((cfg14 a).win 5).index t (1 : Fin 2) = 0 from rfl]; omega

theorem sum_arr_apply (c : Dev nD) (j : Fin 64) :
    ((dat V a hp0 hp1 c).arrAt 5 (cfg14 a).N : S1x64.Idx → Elt F .f32) (ValueIdx.ix2 (0 : Fin 1) j)
      = (stAt V a hp0 hp1 c (tlast a).val (tlast a).isLt).1 (ValueIdx.ix2 (0 : Fin 1) j) := by
  have h := (dat V a hp0 hp1 c).arrAt_emb_eq_flushed 5 (disjoint5 a) (tlast a) ((flush5_iff a (tlast a)).mpr (tlast_succ a))
    (ValueIdx.ix2 (0 : Fin 1) j)
  rw [emb5] at h
  refine h.trans ?_
  show (dat V a hp0 hp1 c).after 5 (tlast a) (ValueIdx.ix2 (0 : Fin 1) j) = _
  rw [after_5]

/-- The array of window 5 after the region is what the last point left. -/
theorem sum_arr (c : Dev nD) :
    ((dat V a hp0 hp1 c).arrAt 5 (cfg14 a).N : S1x64.Idx → Elt F .f32) = (stAt V a hp0 hp1 c (tlast a).val (tlast a).isLt).1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sum_arr_apply V a hp0 hp1 c j

/-- Window 6 is written back at the last point and at no other: its block never moves. -/
theorem flush6_iff (t : Fin (cfg14 a).N) : ((cfg14 a).win 6).flush t = true ↔ t.val + 1 = (cfg14 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint6 : ∀ t t' : Fin (cfg14 a).N, ((cfg14 a).win 6).flush t = true → ((cfg14 a).win 6).flush t' = true → t ≠ t' →
    Disjoint (((cfg14 a).win 6).blk t).view.set (((cfg14 a).win 6).blk t').view.set :=
  fun t t' h h' hne => absurd (Fin.ext (by
    have e := (flush6_iff a t).mp h
    have e' := (flush6_iff a t').mp h'
    omega)) hne

/-- Where feature j of window 6's block sits in its array: at feature j. -/
theorem emb6 (t : Fin (cfg14 a).N) (j : Fin 64) :
    (((cfg14 a).win 6).blk t).view.emb (ValueIdx.ix2 (0 : Fin 1) j) = ValueIdx.ix2 (0 : Fin 1) j := by
  funext b; apply Fin.ext
  match b with
  | ⟨0, _⟩ =>
    show ((cfg14 a).win 6).index t (0 : Fin 2) * 1 + 1 * 0 = 0
    rw [show ((cfg14 a).win 6).index t (0 : Fin 2) = 0 from rfl]
  | ⟨1, _⟩ =>
    show ((cfg14 a).win 6).index t (1 : Fin 2) * 64 + 1 * j.val = j.val
    rw [show ((cfg14 a).win 6).index t (1 : Fin 2) = 0 from rfl]; omega

theorem sq_arr_apply (c : Dev nD) (j : Fin 64) :
    ((dat V a hp0 hp1 c).arrAt 6 (cfg14 a).N : S1x64.Idx → Elt F .f32) (ValueIdx.ix2 (0 : Fin 1) j)
      = (stAt V a hp0 hp1 c (tlast a).val (tlast a).isLt).2.1 (ValueIdx.ix2 (0 : Fin 1) j) := by
  have h := (dat V a hp0 hp1 c).arrAt_emb_eq_flushed 6 (disjoint6 a) (tlast a) ((flush6_iff a (tlast a)).mpr (tlast_succ a))
    (ValueIdx.ix2 (0 : Fin 1) j)
  rw [emb6] at h
  refine h.trans ?_
  show (dat V a hp0 hp1 c).after 6 (tlast a) (ValueIdx.ix2 (0 : Fin 1) j) = _
  rw [after_6]

/-- The array of window 6 after the region is what the last point left. -/
theorem sq_arr (c : Dev nD) :
    ((dat V a hp0 hp1 c).arrAt 6 (cfg14 a).N : S1x64.Idx → Elt F .f32) = (stAt V a hp0 hp1 c (tlast a).val (tlast a).isLt).2.1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sq_arr_apply V a hp0 hp1 c j

end Arrays

/-! ## The values, at the ideal instance -/

section AtIdeal

variable (V : (c : Dev nD) → (b : Ref sig .tc) → Buf (Elt Ideal) ((c : Thread nD τ).loc b))
variable (a : (pcfg14 (F := Ideal)).Adm)
variable (hp0 : ∀ c (i : grid14.Coords), k14_chk1 (tw0 tb0 c i (T0 a c))) (hp1 : ∀ c (i : grid14.Coords), k14_chk2 (tw1 tb1 c i (T1 a c)))

/-- The arrays the region reads, each at its literal type. -/
abbrev xArr (c : Dev nD) : S100000x128.Idx → EReal := V c main_arg0
abbrev w1Arr (c : Dev nD) : S64x128.Idx → EReal := V c main_v4
abbrev w2Arr (c : Dev nD) : S64x128.Idx → EReal := V c main_v5
abbrev binArr (c : Dev nD) : S1x64.Idx → EReal := V c main_v6
abbrev whArr (c : Dev nD) : S64x64.Idx → EReal := V c main_arg4
abbrev bhArr (c : Dev nD) : S1x64.Idx → EReal := V c main_v7
/-- Entry i of each endpoint table. -/
abbrev e0At (c : Dev nD) (i : Fin 62500) : BitVec 32 := (T0 a c : S62500.Idx → BitVec 32) (ValueIdx.ix1 i)
abbrev e1At (c : Dev nD) (i : Fin 62500) : BitVec 32 := (T1 a c : S62500.Idx → BitVec 32) (ValueIdx.ix1 i)

/-- The grid point of edge i. -/
def ptOf (i : Fin 62500) : Fin (cfg14 a).N := ⟨i.val, lt_of_lt_of_eq i.isLt N_14.symm⟩

/-- The word a point reads of the first table is the table's entry at the point. -/
theorem tw0_at (c : Dev nD) (t : Fin (cfg14 a).N) :
    tw0 tb0 c (crd a t) (T0 a c) = e0At a c ⟨t.val, lt_of_lt_of_eq t.isLt N_14⟩ := by
  refine (P1.tw0_eq tb0 c (crd a t) (T0 a c)).trans ?_
  show (T0 a c : S62500.Idx → BitVec 32) _ = (T0 a c : S62500.Idx → BitVec 32) _
  refine congrArg (T0 a c : S62500.Idx → BitVec 32) (funext fun b => Fin.ext ?_)
  match b with
  | ⟨0, _⟩ => exact coord_val a t

theorem tw1_at (c : Dev nD) (t : Fin (cfg14 a).N) :
    tw1 tb1 c (crd a t) (T1 a c) = e1At a c ⟨t.val, lt_of_lt_of_eq t.isLt N_14⟩ := by
  refine (P1.tw1_eq tb1 c (crd a t) (T1 a c)).trans ?_
  show (T1 a c : S62500.Idx → BitVec 32) _ = (T1 a c : S62500.Idx → BitVec 32) _
  refine congrArg (T1 a c : S62500.Idx → BitVec 32) (funext fun b => Fin.ext ?_)
  match b with
  | ⟨0, _⟩ => exact coord_val a t

include hp0 in
/-- Every entry of the endpoint tables names a row of the node-feature array. -/
theorem e0_lt (c : Dev nD) (i : Fin 62500) : (e0At a c i).toNat < 100000 := by
  have h := P1.toNat_lt_of_chk1 (hp0 c (crd a (ptOf a i)))
  rw [tw0_at] at h
  exact h

include hp1 in
theorem e1_lt (c : Dev nD) (i : Fin 62500) : (e1At a c i).toNat < 100000 := by
  have h := P1.toNat_lt_of_chk2 (hp1 c (crd a (ptOf a i)))
  rw [tw1_at] at h
  exact h

/-- The hidden row of edge i of the chunk, at feature j: the two layers applied to the two rows of the node-feature
    array that entry i of each endpoint table names. -/
def rowval (c : Dev nD) (i : Fin 62500) (j : Fin 64) : EReal :=
  ∑ k : Fin 64,
      max (∑ k' : Fin 128, xArr V c (ValueIdx.ix2 (⟨(e0At a c i).toNat, e0_lt a hp0 c i⟩ : Fin 100000) k') * w1Arr V c (ValueIdx.ix2 k k')
          + ∑ k' : Fin 128, xArr V c (ValueIdx.ix2 (⟨(e1At a c i).toNat, e1_lt a hp1 c i⟩ : Fin 100000) k') * w2Arr V c (ValueIdx.ix2 k k')
          + binArr V c (ValueIdx.ix2 (0 : Fin 1) k)) 0
        * whArr V c (ValueIdx.ix2 j k)
    + bhArr V c (ValueIdx.ix2 (0 : Fin 1) j)

/-- The first row a point fetches, at feature k'. -/
theorem row0_val (c : Dev nD) (t : Fin (cfg14 a).N) (k' : Fin 128) :
    P1.rowAt0 tb0 xM c (crd a t) (T0 a c) (V c main_arg0) (hp0 c (crd a t)) (ValueIdx.ix2 (0 : Fin 1) k')
      = xArr V c (ValueIdx.ix2 (⟨(e0At a c ⟨t.val, lt_of_lt_of_eq t.isLt N_14⟩).toNat, e0_lt a hp0 c _⟩ : Fin 100000) k') := by
  refine (P1.rowAt0_apply tb0 xM c (crd a t) (T0 a c) (V c main_arg0) (hp0 c (crd a t)) k').trans ?_
  show xArr V c _ = xArr V c _
  refine congrArg (xArr V c) (funext fun b => Fin.ext ?_)
  match b with
  | ⟨0, _⟩ =>
    show (tw0 tb0 c (crd a t) (T0 a c)).toNat = (e0At a c ⟨t.val, lt_of_lt_of_eq t.isLt N_14⟩).toNat
    rw [tw0_at]
  | ⟨1, _⟩ => rfl

/-- The second row a point fetches, at feature k'. -/
theorem row1_val (c : Dev nD) (t : Fin (cfg14 a).N) (k' : Fin 128) :
    P1.rowAt1 tb1 xM c (crd a t) (T1 a c) (V c main_arg0) (hp1 c (crd a t)) (ValueIdx.ix2 (0 : Fin 1) k')
      = xArr V c (ValueIdx.ix2 (⟨(e1At a c ⟨t.val, lt_of_lt_of_eq t.isLt N_14⟩).toNat, e1_lt a hp1 c _⟩ : Fin 100000) k') := by
  refine (P1.rowAt1_apply tb1 xM c (crd a t) (T1 a c) (V c main_arg0) (hp1 c (crd a t)) k').trans ?_
  show xArr V c _ = xArr V c _
  refine congrArg (xArr V c) (funext fun b => Fin.ext ?_)
  match b with
  | ⟨0, _⟩ =>
    show (tw1 tb1 c (crd a t) (T1 a c)).toNat = (e1At a c ⟨t.val, lt_of_lt_of_eq t.isLt N_14⟩).toNat
    rw [tw1_at]
  | ⟨1, _⟩ => rfl

/-- A point's hidden row is the hidden row of its edge. -/
theorem hrow_val (c : Dev nD) (t : Fin (cfg14 a).N) (j : Fin 64) :
    P1.hrowG tb0 tb1 xM c (cfg14 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t j
      = rowval V a hp0 hp1 c ⟨t.val, lt_of_lt_of_eq t.isLt N_14⟩ j :=
  P1.hrow_eq_of (P1.rowAt0 tb0 xM c (crd a t) (T0 a c) (V c main_arg0) (hp0 c (crd a t)))
    (P1.rowAt1 tb1 xM c (crd a t) (T1 a c) (V c main_arg0) (hp1 c (crd a t)))
    (iblk V a c 0 t) (iblk V a c 1 t) (iblk V a c 2 t) (iblk V a c 3 t) (iblk V a c 4 t)
    (xArr V c) ⟨(e0At a c ⟨t.val, lt_of_lt_of_eq t.isLt N_14⟩).toNat, e0_lt a hp0 c _⟩
    ⟨(e1At a c ⟨t.val, lt_of_lt_of_eq t.isLt N_14⟩).toNat, e1_lt a hp1 c _⟩
    (w1Arr V c) (w2Arr V c) (binArr V c) (whArr V c) (bhArr V c)
    (row0_val V a hp0 c t) (row1_val V a hp1 c t)
    (iblk_0_eq V a c t) (iblk_1_eq V a c t) (iblk_2_eq V a c t) (iblk_3_eq V a c t) (iblk_4_eq V a c t) j

/-- After point n the first running sum is the sum of the hidden rows of the edges 0 … n. -/
theorem sum_at (c : Dev nD) (j : Fin 64) (n : ℕ) (hn : n < (cfg14 a).N) :
    (stAt V a hp0 hp1 c n hn).1 (ValueIdx.ix2 (0 : Fin 1) j)
      = ∑ i : Fin (n + 1), rowval V a hp0 hp1 c ⟨i.val, lt_of_lt_of_eq (Nat.lt_of_le_of_lt (Nat.le_of_lt_succ i.isLt) hn) N_14⟩ j := by
  unfold stAt
  refine (P1.sumG_at tb0 tb1 xM hM c (cfg14 a).N (crd a) (fun t => iblk V a c 0 t) (fun t => iblk V a c 1 t) (fun t => iblk V a c 2 t) (fun t => iblk V a c 3 t) (fun t => iblk V a c 4 t) (T0 a c) (T1 a c) (V c main_arg0) (V c main_v55_0) (fun t => hp0 c (crd a t)) (fun t => hp1 c (crd a t)) j n hn).trans ?_
  exact Finset.sum_congr rfl fun i _ => hrow_val V a hp0 hp1 c _ j

/-- After point n the second running sum is the sum of the squares of those hidden rows. -/
theorem sq_at (c : Dev nD) (j : Fin 64) (n : ℕ) (hn : n < (cfg14 a).N) :
    (stAt V a hp0 hp1 c n hn).2.1 (ValueIdx.ix2 (0 : Fin 1) j)
      = ∑ i : Fin (n + 1), rowval V a hp0 hp1 c ⟨i.val, lt_of_lt_of_eq (Nat.lt_of_le_of_lt (Nat.le_of_lt_succ i.isLt) hn) N_14⟩ j
          * rowval V a hp0 hp1 c ⟨i.val, lt_of_lt_of_eq (Nat.lt_of_le_of_lt (Nat.le_of_lt_succ i.isLt) hn) N_14⟩ j := by
  unfold stAt
  refine (P1.sumsqG_at tb0 tb1 xM hM c (cfg14 a).N (crd a) (fun t => iblk V a c 0 t) (fun t => iblk V a c 1 t) (fun t => iblk V a c 2 t) (fun t => iblk V a c 3 t) (fun t => iblk V a c 4 t) (T0 a c) (T1 a c) (V c main_arg0) (V c main_v55_0) (fun t => hp0 c (crd a t)) (fun t => hp1 c (crd a t)) j n hn).trans ?_
  exact Finset.sum_congr rfl fun i _ => by rw [hrow_val V a hp0 hp1 c _ j]

/-- The hidden array is read through its whole view as itself. -/
theorem read_hM (c : Dev nD) (f : Bf (F := Ideal) c hM) (y : S62500x64.Idx) :
    hM.view.read (Elt Ideal) f y = (f : S62500x64.Idx → EReal) y := rfl

/-- After n points, row i < n of the hidden array is edge i's hidden row. -/
theorem hid_at (c : Dev nD) (j : Fin 64) (n : ℕ) (hn : n ≤ (cfg14 a).N) (i : ℕ) (hi : i < n) :
    (hAt V a hp0 hp1 c n hn : S62500x64.Idx → EReal) (ValueIdx.ix2 (⟨i, lt_of_lt_of_eq (Nat.lt_of_lt_of_le hi hn) N_14⟩ : Fin 62500) j)
      = rowval V a hp0 hp1 c ⟨i, lt_of_lt_of_eq (Nat.lt_of_lt_of_le hi hn) N_14⟩ j := by
  unfold hAt
  refine (read_hM c _ _).symm.trans ?_
  refine (P1.hG_row_written (F := Ideal) tb0 tb1 xM hM c (cfg14 a).N (crd a) (fun t => iblk V a c 0 t) (fun t => iblk V a c 1 t) (fun t => iblk V a c 2 t) (fun t => iblk V a c 3 t) (fun t => iblk V a c 4 t) (T0 a c) (T1 a c) (V c main_arg0) (V c main_v55_0) (fun t => hp0 c (crd a t)) (fun t => hp1 c (crd a t)) (coord_val a) j n hn i hi).trans ?_
  exact (P1.rowStep_apply tb0 tb1 xM c (cfg14 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) _ j).trans (hrow_val V a hp0 hp1 c _ j)

/-- The two running-sum arrays and the hidden array after the region, each at its literal type. -/
abbrev sumArr (c : Dev nD) : S1x64.Idx → EReal := (dat V a hp0 hp1 c).arrAt 5 (cfg14 a).N
abbrev sqArr (c : Dev nD) : S1x64.Idx → EReal := (dat V a hp0 hp1 c).arrAt 6 (cfg14 a).N
abbrev hidArr (c : Dev nD) : S62500x64.Idx → EReal := hAt V a hp0 hp1 c (cfg14 a).N (Nat.le_refl _)

/-- The last point's index plus one is the number of edges of the chunk. -/
theorem tlast_count : (tlast a).val + 1 = 62500 := rfl

/-- The first running-sum array after the region: the sum over the chunk's edges of their hidden rows. -/
theorem sum_final (c : Dev nD) (j : Fin 64) :
    sumArr V a hp0 hp1 c (ValueIdx.ix2 (0 : Fin 1) j) = ∑ i : Fin 62500, rowval V a hp0 hp1 c i j := by
  refine (sum_arr_apply V a hp0 hp1 c j).trans ((sum_at V a hp0 hp1 c j (tlast a).val (tlast a).isLt).trans ?_)
  exact Fintype.sum_equiv (finCongr (tlast_count a)) _ _ (fun i => rfl)

/-- The second running-sum array after the region: the sum of the squares of those hidden rows. -/
theorem sq_final (c : Dev nD) (j : Fin 64) :
    sqArr V a hp0 hp1 c (ValueIdx.ix2 (0 : Fin 1) j)
      = ∑ i : Fin 62500, rowval V a hp0 hp1 c i j * rowval V a hp0 hp1 c i j := by
  refine (sq_arr_apply V a hp0 hp1 c j).trans ((sq_at V a hp0 hp1 c j (tlast a).val (tlast a).isLt).trans ?_)
  exact Fintype.sum_equiv (finCongr (tlast_count a)) _ _ (fun i => rfl)

/-- The hidden array after the region: row i is edge i's hidden row. -/
theorem hid_final (c : Dev nD) (i : Fin 62500) (j : Fin 64) :
    hidArr V a hp0 hp1 c (ValueIdx.ix2 i j) = rowval V a hp0 hp1 c i j :=
  hid_at V a hp0 hp1 c j (cfg14 a).N (Nat.le_refl _) i.val (lt_of_lt_of_eq i.isLt N_14.symm)

end AtIdeal

end Cert.KernelIdeal.P1R14

end
-- ==== Proof.P1R14Fin.lean ====
/- The first launch's results are its chunk's hidden values.

   The launch walks the 62500 edges of its chunk: at edge i it fetches the two rows of the node-feature array that entry i of
   its two endpoint tables names, applies the two layers, writes the hidden row and adds it, and its square, to two running
   sums. Its tables are the chunk's pieces of the edge array's two rows, and the weights it reads are the argument arrays'
   (the first layer's weights in two halves). So row i of its rows result is the hidden value of edge i of the chunk in the
   by-endpoint form, and its two sums are the sums of those values and of their squares over the chunk. -/
import proofs.«400866_j57071525429608_2_alg».proof.Proof.P1R14Val
import proofs.«400866_j57071525429608_2_alg».proof.Proof.HostHead
import proofs.«400866_j57071525429608_2_alg».proof.Proof.TblFacts
import proofs.«400866_j57071525429608_2_alg».proof.Proof.HostTail
import proofs.«400866_j57071525429608_2_alg».proof.Proof.KVal
import proofs.«400866_j57071525429608_2_alg».proof.Proof.Spec
import Idealize.ShloMosaic.Lib.ValueIdx

set_option maxRecDepth 16384

noncomputable section

namespace Cert.KernelIdeal.P1R14

open Cert.KernelIdeal Cert.KernelIdeal.Gen
open Idealize.ShloMosaic Idealize.ShloMosaic.TcCoe
open Cert.KernelIdeal.P1 (Bf tw0 tw1)
open scoped BigOperators

/-! ## The launch -/

/-- The launch's chunk among the sixteen. -/
abbrev KK : Fin 16 := ⟨14, by omega⟩
/-- The launch among the seventeen regions. -/
abbrev KK17 : Fin 17 := ⟨14, by omega⟩
/-- The buffers' contents when the launch is entered. -/
abbrev Ventry (m : (ℓ : Loc nD τ sig) → Buf (Elt Ideal) ℓ) (outs : Outs (F := Ideal)) (c : Dev nD) : Valuation τ sig (Elt Ideal) := V29 m outs c
/-- They are the entry contents the host operations' facts are stated at. -/
theorem Ventry_eq (m : (ℓ : Loc nD τ sig) → Buf (Elt Ideal) ℓ) (outs : Outs (F := Ideal)) (c : Dev nD) :
    Head.Vodd m outs c KK17 = Ventry m outs c := Head.Vodd_14 m outs c _

variable (m : (ℓ : Loc nD τ sig) → Buf (Elt Ideal) ℓ) (outs : Outs (F := Ideal)) (c : Dev nD)
variable (a : (pcfg14 (F := Ideal)).Adm)
variable (hp0 : ∀ c (i : grid14.Coords), k14_chk1 (tw0 tb0 c i (T0 a c))) (hp1 : ∀ c (i : grid14.Coords), k14_chk2 (tw1 tb1 c i (T1 a c)))

/-- The entry contents as the launch's value lemmas take them. -/
abbrev VV : (c : Dev nD) → (b : Ref sig .tc) → Buf (Elt Ideal) ((c : Thread nD τ).loc b) := fun c b => Ventry m outs c b

/-! ## The tables' words are the chunk's endpoints -/

/-- Entry `i` of the first table names the first endpoint of edge `i` of the chunk. -/
theorem e0_eq (hT0 : (T0 a c : S62500.Idx → BitVec 32) = (Tbl.tblA m outs c KK : IVec S62500 32)) (i : Fin 62500) :
    (⟨(e0At a c i).toNat, e0_lt a hp0 c i⟩ : Fin 100000) = Cert.Spec.endpoint (KVal.edgesA m c) 0 (Cert.Spec.chunk KK i) := by
  have hw : e0At a c i = (KVal.edgesA m c) (ValueIdx.ix2 (0 : Fin 2) (Cert.Spec.chunk KK i)) := by
    show (T0 a c : S62500.Idx → BitVec 32) (ValueIdx.ix1 i) = _
    rw [hT0]
    exact Tbl.tblA_apply m outs c KK i
  have hlt := e0_lt a hp0 c i
  rw [hw] at hlt
  refine Fin.ext ?_
  show (e0At a c i).toNat = (Cert.Spec.node _).val
  rw [Cert.Spec.node_val_of_toNat_lt hlt, hw]

/-- Entry `i` of the second table names the second endpoint. -/
theorem e1_eq (hT1 : (T1 a c : S62500.Idx → BitVec 32) = (Tbl.tblB m outs c KK : IVec S62500 32)) (i : Fin 62500) :
    (⟨(e1At a c i).toNat, e1_lt a hp1 c i⟩ : Fin 100000) = Cert.Spec.endpoint (KVal.edgesA m c) 1 (Cert.Spec.chunk KK i) := by
  have hw : e1At a c i = (KVal.edgesA m c) (ValueIdx.ix2 (1 : Fin 2) (Cert.Spec.chunk KK i)) := by
    show (T1 a c : S62500.Idx → BitVec 32) (ValueIdx.ix1 i) = _
    rw [hT1]
    exact Tbl.tblB_apply m outs c KK i
  have hlt := e1_lt a hp1 c i
  rw [hw] at hlt
  refine Fin.ext ?_
  show (e1At a c i).toNat = (Cert.Spec.node _).val
  rw [Cert.Spec.node_val_of_toNat_lt hlt, hw]

/-! ## The arrays the launch reads are the arguments' -/

theorem x_eq : xArr (VV m outs) c = KVal.xA m c := by
  show Ventry m outs c main_arg0 = _
  rw [← Ventry_eq m outs c]
  exact Head.arg0_keep m outs c KK17
theorem wh_eq : whArr (VV m outs) c = KVal.WhA m c := by
  show Ventry m outs c main_arg4 = _
  rw [← Ventry_eq m outs c]
  exact Head.arg4_keep m outs c KK17
theorem w1_apply (k : Fin 64) (k' : Fin 128) :
    w1Arr (VV m outs) c (ValueIdx.ix2 k k') = KVal.WinA m c (ValueIdx.ix2 k (⟨k'.val, by omega⟩ : Fin 256)) := by
  show (Ventry m outs c main_v4 : S64x128.Idx → EReal) (ValueIdx.ix2 k k') = _
  rw [← Ventry_eq m outs c]
  exact Head.v4_apply m outs c KK17 k k'
theorem w2_apply (k : Fin 64) (k' : Fin 128) :
    w2Arr (VV m outs) c (ValueIdx.ix2 k k') = KVal.WinA m c (ValueIdx.ix2 k (⟨128 + k'.val, by omega⟩ : Fin 256)) := by
  show (Ventry m outs c main_v5 : S64x128.Idx → EReal) (ValueIdx.ix2 k k') = _
  rw [← Ventry_eq m outs c]
  exact Head.v5_apply m outs c KK17 k k'
theorem bin_apply (k : Fin 64) :
    binArr (VV m outs) c (ValueIdx.ix2 (0 : Fin 1) k) = KVal.binA m c (ValueIdx.ix1 k) := by
  show (Ventry m outs c main_v6 : S1x64.Idx → EReal) (ValueIdx.ix2 (0 : Fin 1) k) = _
  rw [← Ventry_eq m outs c]
  exact Head.v6_apply m outs c KK17 k
theorem bh_apply (j : Fin 64) :
    bhArr (VV m outs) c (ValueIdx.ix2 (0 : Fin 1) j) = KVal.bhA m c (ValueIdx.ix1 j) := by
  show (Ventry m outs c main_v7 : S1x64.Idx → EReal) (ValueIdx.ix2 (0 : Fin 1) j) = _
  rw [← Ventry_eq m outs c]
  exact Head.v7_apply m outs c KK17 j

/-! ## The launch's hidden row is the chunk's hidden value -/

theorem rowval_eq (hT0 : (T0 a c : S62500.Idx → BitVec 32) = (Tbl.tblA m outs c KK : IVec S62500 32))
    (hT1 : (T1 a c : S62500.Idx → BitVec 32) = (Tbl.tblB m outs c KK : IVec S62500 32)) (i : Fin 62500) (j : Fin 64) :
    rowval (VV m outs) a hp0 hp1 c i j = KVal.hid m c (Cert.Spec.chunk KK i) j := by
  unfold rowval KVal.hid
  rw [e0_eq m outs c a hp0 hT0 i, e1_eq m outs c a hp1 hT1 i, x_eq m outs c, wh_eq m outs c]
  simp only [w1_apply m outs c, w2_apply m outs c, bin_apply m outs c, bh_apply m outs c]

/-! ## The three results -/

/-- Row `i` of the rows result is the hidden value of edge `i` of the chunk. -/
theorem chunkRow_eq (hT0 : (T0 a c : S62500.Idx → BitVec 32) = (Tbl.tblA m outs c KK : IVec S62500 32))
    (hT1 : (T1 a c : S62500.Idx → BitVec 32) = (Tbl.tblB m outs c KK : IVec S62500 32))
    (hR0 : (Tail.res0 outs c KK : S62500x64.Idx → EReal) = hidArr (VV m outs) a hp0 hp1 c)
    (i : Fin 62500) (j : Fin 64) : Tail.chunkRow outs c KK i j = KVal.HID m c KK i j := by
  show (Tail.res0 outs c KK : S62500x64.Idx → EReal) (ValueIdx.ix2 i j) = _
  rw [hR0]
  exact (hid_final (VV m outs) a hp0 hp1 c i j).trans (rowval_eq m outs c a hp0 hp1 hT0 hT1 i j)

/-- The sums result is the sum of the chunk's hidden values. -/
theorem chunkSum_eq (hT0 : (T0 a c : S62500.Idx → BitVec 32) = (Tbl.tblA m outs c KK : IVec S62500 32))
    (hT1 : (T1 a c : S62500.Idx → BitVec 32) = (Tbl.tblB m outs c KK : IVec S62500 32))
    (hR1 : (Tail.res1 outs c KK : S1x64.Idx → EReal) = sumArr (VV m outs) a hp0 hp1 c)
    (j : Fin 64) : Tail.chunkSum outs c KK j = ∑ i : Fin 62500, KVal.HID m c KK i j := by
  show (Tail.res1 outs c KK : S1x64.Idx → EReal) (ValueIdx.ix2 (0 : Fin 1) j) = _
  rw [hR1]
  exact (sum_final (VV m outs) a hp0 hp1 c j).trans (Finset.sum_congr rfl fun i _ => rowval_eq m outs c a hp0 hp1 hT0 hT1 i j)

/-- The sums-of-squares result is the sum of their squares. -/
theorem chunkSq_eq (hT0 : (T0 a c : S62500.Idx → BitVec 32) = (Tbl.tblA m outs c KK : IVec S62500 32))
    (hT1 : (T1 a c : S62500.Idx → BitVec 32) = (Tbl.tblB m outs c KK : IVec S62500 32))
    (hR2 : (Tail.res2 outs c KK : S1x64.Idx → EReal) = sqArr (VV m outs) a hp0 hp1 c)
    (j : Fin 64) : Tail.chunkSq outs c KK j = ∑ i : Fin 62500, KVal.HID m c KK i j * KVal.HID m c KK i j := by
  show (Tail.res2 outs c KK : S1x64.Idx → EReal) (ValueIdx.ix2 (0 : Fin 1) j) = _
  rw [hR2]
  exact (sq_final (VV m outs) a hp0 hp1 c j).trans
    (Finset.sum_congr rfl fun i _ => by rw [rowval_eq m outs c a hp0 hp1 hT0 hT1 i j])

end Cert.KernelIdeal.P1R14

end
-- ==== Proof.P1R14Top.lean ====
/- The first launch's results are its chunk's hidden values, at the run's own choices.

   The run fixes what every region leaves (the unknowns), each launch's tables and the contents each launch is entered
   from. At those choices nothing is left to assume: the launch's tables are its chunk's pieces of the edge array's rows,
   its results are what its proof data leave, and so its rows are the chunk's hidden values and its two sums their sums
   and sums of squares. -/
import proofs.«400866_j57071525429608_2_alg».proof.Proof.P1R14Fin
import proofs.«400866_j57071525429608_2_alg».proof.Proof.GlueVal

set_option maxRecDepth 16384

noncomputable section

namespace Cert.KernelIdeal.P1R14

open Cert.KernelIdeal Cert.KernelIdeal.Gen
open Idealize.ShloMosaic Idealize.ShloMosaic.TcCoe
open Cert.KernelIdeal.P1 (Bf tw0 tw1)
open Cert.KernelIdeal.Glue (atTc)
open scoped BigOperators

/-! ## The run's choices for this launch -/

/-- The launch's tables, admissible. -/
abbrev gA (m : (ℓ : Loc nD τ sig) → Buf (Elt Ideal) ℓ) : (pcfg14 (F := Ideal)).Adm := Glue.adm14 m
/-- The contents it is entered from, as the run names them. -/
abbrev gW (m : (ℓ : Loc nD τ sig) → Buf (Elt Ideal) ℓ)
    (hE : ∀ (c : Dev nD) (idx : S2x1000000.Idx), ((V0 m c main_arg1 : IVec S2x1000000 32) idx).toNat < 100000) :
    Dev nD → Valuation τ sig (Elt Ideal) := Glue.W29 m hE

variable (m : (ℓ : Loc nD τ sig) → Buf (Elt Ideal) ℓ)
  (hE : ∀ (c : Dev nD) (idx : S2x1000000.Idx), ((V0 m c main_arg1 : IVec S2x1000000 32) idx).toNat < 100000)
  (c : Dev nD)

include hE

/-- The words it reads of them name rows of the node table. -/
theorem gP0 : ∀ c (i : grid14.Coords), k14_chk1 (tw0 tb0 c i (T0 (gA m) c)) := Glue.hp0_14 m hE
theorem gP1 : ∀ c (i : grid14.Coords), k14_chk2 (tw1 tb1 c i (T1 (gA m) c)) := Glue.hp1_14 m hE
/-- The contents it is entered from are the valuation's. -/
theorem gV : Ventry m (Glue.outs m hE) c = gW m hE c := Glue.V29_eq m hE c
/-- The tables it finds in the buffers are its own. -/
theorem gTA : (T0 (gA m) c : S62500.Idx → BitVec 32) = (Tbl.tblA m (Glue.outs m hE) c KK : IVec S62500 32) :=
  ((Glue.hT0_14 m hE c).symm.trans (congrFun (gV m hE c) (Proc.devRef .tc main_v53)).symm :)
theorem gTB : (T1 (gA m) c : S62500.Idx → BitVec 32) = (Tbl.tblB m (Glue.outs m hE) c KK : IVec S62500 32) :=
  ((Glue.hT1_14 m hE c).symm.trans (congrFun (gV m hE c) (Proc.devRef .tc main_v54)).symm :)
/-- What it leaves at its three results. -/
theorem gR0 : (Tail.res0 (Glue.outs m hE) c KK : S62500x64.Idx → EReal) = hidArr (atTc (gW m hE)) (gA m) (gP0 m hE) (gP1 m hE) c :=
  Glue.res0_14 m hE c
theorem gR1 : (Tail.res1 (Glue.outs m hE) c KK : S1x64.Idx → EReal) = sumArr (atTc (gW m hE)) (gA m) (gP0 m hE) (gP1 m hE) c :=
  Glue.res1_14 m hE c
theorem gR2 : (Tail.res2 (Glue.outs m hE) c KK : S1x64.Idx → EReal) = sqArr (atTc (gW m hE)) (gA m) (gP0 m hE) (gP1 m hE) c :=
  Glue.res2_14 m hE c

/-! ## The three facts, nothing assumed -/

/-- The entry contents the launch's value lemmas take are the run's. -/
theorem VV_eq : VV m (Glue.outs m hE) = atTc (gW m hE) :=
  funext fun c => funext fun b => congrFun (gV m hE c) (Proc.devRef .tc b)

/-- Row `i` of the launch's rows is the hidden value of edge `i` of its chunk. -/
theorem row_top (i : Fin 62500) (j : Fin 64) : Tail.chunkRow (Glue.outs m hE) c KK i j = KVal.HID m c KK i j :=
  chunkRow_eq m (Glue.outs m hE) c (gA m) (gP0 m hE) (gP1 m hE) (gTA m hE c) (gTB m hE c)
    (by rw [VV_eq m hE]; exact gR0 m hE c) i j

/-- Its sums are the sums of those values over the chunk. -/
theorem sum_top (j : Fin 64) : Tail.chunkSum (Glue.outs m hE) c KK j = ∑ i : Fin 62500, KVal.HID m c KK i j :=
  chunkSum_eq m (Glue.outs m hE) c (gA m) (gP0 m hE) (gP1 m hE) (gTA m hE c) (gTB m hE c)
    (by rw [VV_eq m hE]; exact gR1 m hE c) j

/-- Its sums of squares are the sums of their squares. -/
theorem sq_top (j : Fin 64) :
    Tail.chunkSq (Glue.outs m hE) c KK j = ∑ i : Fin 62500, KVal.HID m c KK i j * KVal.HID m c KK i j :=
  chunkSq_eq m (Glue.outs m hE) c (gA m) (gP0 m hE) (gP1 m hE) (gTA m hE c) (gTB m hE c)
    (by rw [VV_eq m hE]; exact gR2 m hE c) j

end Cert.KernelIdeal.P1R14

end
-- ==== Proof.P1R15Val.lean ====
/-
  A gather-and-project region (one chunk of 62500 edges), from blocks to arrays.

  The five parameter windows never move: each one's block is its whole array. The two running-sum
  windows never move either and are written back once, after the last point, so their arrays end
  holding what the last point left. Put together with the recursion over the points, at the ideal
  values: the first array ends at the sum over the chunk's 62500 edges of their hidden rows, the
  second at the sum of the squares, and row i of the hidden array is edge i's hidden row — where the
  hidden row of edge i is the two layers applied to the two rows of the node-feature array that entry
  i of each endpoint table names.
-/
import proofs.«400866_j57071525429608_2_alg».proof.Proof.P1R15Dat
import proofs.«400866_j57071525429608_2_alg».proof.Proof.P1StateVal
import proofs.«400866_j57071525429608_2_alg».proof.Proof.P1Val
import Idealize.ShloMosaic.Lib.Pipeline.Value
import Idealize.ShloMosaic.Lib.ValueIdx
import Mathlib.Algebra.BigOperators.Fin

set_option maxRecDepth 100000

noncomputable section

namespace Cert.KernelIdeal.P1R15

open Cert.KernelIdeal Cert.KernelIdeal.Gen
open Idealize.ShloMosaic Idealize.ShloMosaic.TcCoe
open Idealize.ShloMosaic.Pipeline (Dat)
open Cert.KernelIdeal.P1 (Bf tw0 tw1 hNext)
open scoped BigOperators

/-! ## From blocks to arrays (any float values) -/

section Arrays

variable {F : FTy → Type} [FloatOps F]
variable (V : (c : Dev nD) → (b : Ref sig .tc) → Buf (Elt F) ((c : Thread nD τ).loc b))
variable (a : (pcfg15 (F := F)).Adm)
variable (hp0 : ∀ c (i : grid15.Coords), k15_chk1 (tw0 tb0 c i (T0 a c))) (hp1 : ∀ c (i : grid15.Coords), k15_chk2 (tw1 tb1 c i (T1 a c)))

/-- The last grid point. -/
def tlast : Fin (cfg15 a).N := ⟨62499, lt_of_lt_of_eq (by decide : 62499 < 62500) N_15.symm⟩

theorem tlast_succ : (tlast a).val + 1 = (cfg15 a).N := N_15.symm

/-- The first half of the first layer's weights: the block is the array. -/
theorem iblk_0_eq (c : Dev nD) (t : Fin (cfg15 a).N) : (iblk V a c 0 t : S64x128.Idx → Elt F .f32) = V c main_v4 := by
  refine funext fun (y : S64x128.Idx) => ?_
  show (V c main_v4 : S64x128.Idx → Elt F .f32) ((((cfg15 a).win 0).blk t).view.emb y) = _
  congr 1; funext b; apply Fin.ext
  match b with
  | ⟨0, _⟩ =>
    show ((cfg15 a).win 0).index t (0 : Fin 2) * 64 + 1 * (y 0).val = (y 0).val
    rw [show ((cfg15 a).win 0).index t (0 : Fin 2) = 0 from rfl]; omega
  | ⟨1, _⟩ =>
    show ((cfg15 a).win 0).index t (1 : Fin 2) * 128 + 1 * (y 1).val = (y 1).val
    rw [show ((cfg15 a).win 0).index t (1 : Fin 2) = 0 from rfl]; omega

/-- The second half of the first layer's weights: the block is the array. -/
theorem iblk_1_eq (c : Dev nD) (t : Fin (cfg15 a).N) : (iblk V a c 1 t : S64x128.Idx → Elt F .f32) = V c main_v5 := by
  refine funext fun (y : S64x128.Idx) => ?_
  show (V c main_v5 : S64x128.Idx → Elt F .f32) ((((cfg15 a).win 1).blk t).view.emb y) = _
  congr 1; funext b; apply Fin.ext
  match b with
  | ⟨0, _⟩ =>
    show ((cfg15 a).win 1).index t (0 : Fin 2) * 64 + 1 * (y 0).val = (y 0).val
    rw [show ((cfg15 a).win 1).index t (0 : Fin 2) = 0 from rfl]; omega
  | ⟨1, _⟩ =>
    show ((cfg15 a).win 1).index t (1 : Fin 2) * 128 + 1 * (y 1).val = (y 1).val
    rw [show ((cfg15 a).win 1).index t (1 : Fin 2) = 0 from rfl]; omega

/-- The first layer's bias: the block is the array. -/
theorem iblk_2_eq (c : Dev nD) (t : Fin (cfg15 a).N) : (iblk V a c 2 t : S1x64.Idx → Elt F .f32) = V c main_v6 := by
  refine funext fun (y : S1x64.Idx) => ?_
  show (V c main_v6 : S1x64.Idx → Elt F .f32) ((((cfg15 a).win 2).blk t).view.emb y) = _
  congr 1; funext b; apply Fin.ext
  match b with
  | ⟨0, _⟩ =>
    show ((cfg15 a).win 2).index t (0 : Fin 2) * 1 + 1 * (y 0).val = (y 0).val
    rw [show ((cfg15 a).win 2).index t (0 : Fin 2) = 0 from rfl]; omega
  | ⟨1, _⟩ =>
    show ((cfg15 a).win 2).index t (1 : Fin 2) * 64 + 1 * (y 1).val = (y 1).val
    rw [show ((cfg15 a).win 2).index t (1 : Fin 2) = 0 from rfl]; omega

/-- The second layer's weights: the block is the array. -/
theorem iblk_3_eq (c : Dev nD) (t : Fin (cfg15 a).N) : (iblk V a c 3 t : S64x64.Idx → Elt F .f32) = V c main_arg4 := by
  refine funext fun (y : S64x64.Idx) => ?_
  show (V c main_arg4 : S64x64.Idx → Elt F .f32) ((((cfg15 a).win 3).blk t).view.emb y) = _
  congr 1; funext b; apply Fin.ext
  match b with
  | ⟨0, _⟩ =>
    show ((cfg15 a).win 3).index t (0 : Fin 2) * 64 + 1 * (y 0).val = (y 0).val
    rw [show ((cfg15 a).win 3).index t (0 : Fin 2) = 0 from rfl]; omega
  | ⟨1, _⟩ =>
    show ((cfg15 a).win 3).index t (1 : Fin 2) * 64 + 1 * (y 1).val = (y 1).val
    rw [show ((cfg15 a).win 3).index t (1 : Fin 2) = 0 from rfl]; omega

/-- The second layer's bias: the block is the array. -/
theorem iblk_4_eq (c : Dev nD) (t : Fin (cfg15 a).N) : (iblk V a c 4 t : S1x64.Idx → Elt F .f32) = V c main_v7 := by
  refine funext fun (y : S1x64.Idx) => ?_
  show (V c main_v7 : S1x64.Idx → Elt F .f32) ((((cfg15 a).win 4).blk t).view.emb y) = _
  congr 1; funext b; apply Fin.ext
  match b with
  | ⟨0, _⟩ =>
    show ((cfg15 a).win 4).index t (0 : Fin 2) * 1 + 1 * (y 0).val = (y 0).val
    rw [show ((cfg15 a).win 4).index t (0 : Fin 2) = 0 from rfl]; omega
  | ⟨1, _⟩ =>
    show ((cfg15 a).win 4).index t (1 : Fin 2) * 64 + 1 * (y 1).val = (y 1).val
    rw [show ((cfg15 a).win 4).index t (1 : Fin 2) = 0 from rfl]; omega

/-- Window 5 is written back at the last point and at no other: its block never moves. -/
theorem flush5_iff (t : Fin (cfg15 a).N) : ((cfg15 a).win 5).flush t = true ↔ t.val + 1 = (cfg15 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint5 : ∀ t t' : Fin (cfg15 a).N, ((cfg15 a).win 5).flush t = true → ((cfg15 a).win 5).flush t' = true → t ≠ t' →
    Disjoint (((cfg15 a).win 5).blk t).view.set (((cfg15 a).win 5).blk t').view.set :=
  fun t t' h h' hne => absurd (Fin.ext (by
    have e := (flush5_iff a t).mp h
    have e' := (flush5_iff a t').mp h'
    omega)) hne

/-- Where feature j of window 5's block sits in its array: at feature j. -/
theorem emb5 (t : Fin (cfg15 a).N) (j : Fin 64) :
    (((cfg15 a).win 5).blk t).view.emb (ValueIdx.ix2 (0 : Fin 1) j) = ValueIdx.ix2 (0 : Fin 1) j := by
  funext b; apply Fin.ext
  match b with
  | ⟨0, _⟩ =>
    show ((cfg15 a).win 5).index t (0 : Fin 2) * 1 + 1 * 0 = 0
    rw [show ((cfg15 a).win 5).index t (0 : Fin 2) = 0 from rfl]
  | ⟨1, _⟩ =>
    show ((cfg15 a).win 5).index t (1 : Fin 2) * 64 + 1 * j.val = j.val
    rw [show ((cfg15 a).win 5).index t (1 : Fin 2) = 0 from rfl]; omega

theorem sum_arr_apply (c : Dev nD) (j : Fin 64) :
    ((dat V a hp0 hp1 c).arrAt 5 (cfg15 a).N : S1x64.Idx → Elt F .f32) (ValueIdx.ix2 (0 : Fin 1) j)
      = (stAt V a hp0 hp1 c (tlast a).val (tlast a).isLt).1 (ValueIdx.ix2 (0 : Fin 1) j) := by
  have h := (dat V a hp0 hp1 c).arrAt_emb_eq_flushed 5 (disjoint5 a) (tlast a) ((flush5_iff a (tlast a)).mpr (tlast_succ a))
    (ValueIdx.ix2 (0 : Fin 1) j)
  rw [emb5] at h
  refine h.trans ?_
  show (dat V a hp0 hp1 c).after 5 (tlast a) (ValueIdx.ix2 (0 : Fin 1) j) = _
  rw [after_5]

/-- The array of window 5 after the region is what the last point left. -/
theorem sum_arr (c : Dev nD) :
    ((dat V a hp0 hp1 c).arrAt 5 (cfg15 a).N : S1x64.Idx → Elt F .f32) = (stAt V a hp0 hp1 c (tlast a).val (tlast a).isLt).1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sum_arr_apply V a hp0 hp1 c j

/-- Window 6 is written back at the last point and at no other: its block never moves. -/
theorem flush6_iff (t : Fin (cfg15 a).N) : ((cfg15 a).win 6).flush t = true ↔ t.val + 1 = (cfg15 a).N := by
  unfold Pipeline.Window.flush
  rw [Bool.and_eq_true, Bool.or_eq_true, decide_eq_true_eq, decide_eq_true_eq]
  constructor
  · rintro ⟨-, h | ⟨_, hne⟩⟩
    · exact h
    · exact absurd rfl hne
  · intro h
    exact ⟨rfl, Or.inl h⟩

theorem disjoint6 : ∀ t t' : Fin (cfg15 a).N, ((cfg15 a).win 6).flush t = true → ((cfg15 a).win 6).flush t' = true → t ≠ t' →
    Disjoint (((cfg15 a).win 6).blk t).view.set (((cfg15 a).win 6).blk t').view.set :=
  fun t t' h h' hne => absurd (Fin.ext (by
    have e := (flush6_iff a t).mp h
    have e' := (flush6_iff a t').mp h'
    omega)) hne

/-- Where feature j of window 6's block sits in its array: at feature j. -/
theorem emb6 (t : Fin (cfg15 a).N) (j : Fin 64) :
    (((cfg15 a).win 6).blk t).view.emb (ValueIdx.ix2 (0 : Fin 1) j) = ValueIdx.ix2 (0 : Fin 1) j := by
  funext b; apply Fin.ext
  match b with
  | ⟨0, _⟩ =>
    show ((cfg15 a).win 6).index t (0 : Fin 2) * 1 + 1 * 0 = 0
    rw [show ((cfg15 a).win 6).index t (0 : Fin 2) = 0 from rfl]
  | ⟨1, _⟩ =>
    show ((cfg15 a).win 6).index t (1 : Fin 2) * 64 + 1 * j.val = j.val
    rw [show ((cfg15 a).win 6).index t (1 : Fin 2) = 0 from rfl]; omega

theorem sq_arr_apply (c : Dev nD) (j : Fin 64) :
    ((dat V a hp0 hp1 c).arrAt 6 (cfg15 a).N : S1x64.Idx → Elt F .f32) (ValueIdx.ix2 (0 : Fin 1) j)
      = (stAt V a hp0 hp1 c (tlast a).val (tlast a).isLt).2.1 (ValueIdx.ix2 (0 : Fin 1) j) := by
  have h := (dat V a hp0 hp1 c).arrAt_emb_eq_flushed 6 (disjoint6 a) (tlast a) ((flush6_iff a (tlast a)).mpr (tlast_succ a))
    (ValueIdx.ix2 (0 : Fin 1) j)
  rw [emb6] at h
  refine h.trans ?_
  show (dat V a hp0 hp1 c).after 6 (tlast a) (ValueIdx.ix2 (0 : Fin 1) j) = _
  rw [after_6]

/-- The array of window 6 after the region is what the last point left. -/
theorem sq_arr (c : Dev nD) :
    ((dat V a hp0 hp1 c).arrAt 6 (cfg15 a).N : S1x64.Idx → Elt F .f32) = (stAt V a hp0 hp1 c (tlast a).val (tlast a).isLt).2.1 := by
  refine funext fun (y : S1x64.Idx) => ?_
  obtain ⟨r, j, rfl⟩ : ∃ (r : Fin 1) (j : Fin 64), y = ValueIdx.ix2 r j := ⟨y 0, y 1, ValueIdx.eq_ix2 y⟩
  obtain rfl : r = 0 := Subsingleton.elim _ _
  exact sq_arr_apply V a hp0 hp1 c j

end Arrays

/-! ## The values, at the ideal instance -/

section AtIdeal

variable (V : (c : Dev nD) → (b : Ref sig .tc) → Buf (Elt Ideal) ((c : Thread nD τ).loc b))
variable (a : (pcfg15 (F := Ideal)).Adm)
variable (hp0 : ∀ c (i : grid15.Coords), k15_chk1 (tw0 tb0 c i (T0 a c))) (hp1 : ∀ c (i : grid15.Coords), k15_chk2 (tw1 tb1 c i (T1 a c)))

/-- The arrays the region reads, each at its literal type. -/
abbrev xArr (c : Dev nD) : S100000x128.Idx → EReal := V c main_arg0
abbrev w1Arr (c : Dev nD) : S64x128.Idx → EReal := V c main_v4
abbrev w2Arr (c : Dev nD) : S64x128.Idx → EReal := V c main_v5
abbrev binArr (c : Dev nD) : S1x64.Idx → EReal := V c main_v6
abbrev whArr (c : Dev nD) : S64x64.Idx → EReal := V c main_arg4
abbrev bhArr (c : Dev nD) : S1x64.Idx → EReal := V c main_v7
/-- Entry i of each endpoint table. -/
abbrev e0At (c : Dev nD) (i : Fin 62500) : BitVec 32 := (T0 a c : S62500.Idx → BitVec 32) (ValueIdx.ix1 i)
abbrev e1At (c : Dev nD) (i : Fin 62500) : BitVec 32 := (T1 a c : S62500.Idx → BitVec 32) (ValueIdx.ix1 i)

/-- The grid point of edge i. -/
def ptOf (i : Fin 62500) : Fin (cfg15 a).N := ⟨i.val, lt_of_lt_of_eq i.isLt N_15.symm⟩

/-- The word a point reads of the first table is the table's entry at the point. -/
theorem tw0_at (c : Dev nD) (t : Fin (cfg15 a).N) :
    tw0 tb0 c (crd a t) (T0 a c) = e0At a c ⟨t.val, lt_of_lt_of_eq t.isLt N_15⟩ := by
  refine (P1.tw0_eq tb0 c (crd a t) (T0 a c)).trans ?_
  show (T0 a c : S62500.Idx → BitVec 32) _ = (T0 a c : S62500.Idx → BitVec 32) _
  refine congrArg (T0 a c : S62500.Idx → BitVec 32) (funext fun b => Fin.ext ?_)
  match b with
  | ⟨0, _⟩ => exact coord_val a t

theorem tw1_at (c : Dev nD) (t : Fin (cfg15 a).N) :
    tw1 tb1 c (crd a t) (T1 a c) = e1At a c ⟨t.val, lt_of_lt_of_eq t.isLt N_15⟩ := by
  refine (P1.tw1_eq tb1 c (crd a t) (T1 a c)).trans ?_
  show (T1 a c : S62500.Idx → BitVec 32) _ = (T1 a c : S62500.Idx → BitVec 32) _
  refine congrArg (T1 a c : S62500.Idx → BitVec 32) (funext fun b => Fin.ext ?_)
  match b with
  | ⟨0, _⟩ => exact coord_val a t

include hp0 in
/-- Every entry of the endpoint tables names a row of the node-feature array. -/
theorem e0_lt (c : Dev nD) (i : Fin 62500) : (e0At a c i).toNat < 100000 := by
  have h := P1.toNat_lt_of_chk1 (hp0 c (crd a (ptOf a i)))
  rw [tw0_at] at h
  exact h

include hp1 in
theorem e1_lt (c : Dev nD) (i : Fin 62500) : (e1At a c i).toNat < 100000 := by
  have h := P1.toNat_lt_of_chk2 (hp1 c (crd a (ptOf a i)))
  rw [tw1_at] at h
  exact h

/-- The hidden row of edge i of the chunk, at feature j: the two layers applied to the two rows of the node-feature
    array that entry i of each endpoint table names. -/
def rowval (c : Dev nD) (i : Fin 62500) (j : Fin 64) : EReal :=
  ∑ k : Fin 64,
      max (∑ k' : Fin 128, xArr V c (ValueIdx.ix2 (⟨(e0At a c i).toNat, e0_lt a hp0 c i⟩ : Fin 100000) k') * w1Arr V c (ValueIdx.ix2 k k')
          + ∑ k' : Fin 128, xArr V c (ValueIdx.ix2 (⟨(e1At a c i).toNat, e1_lt a hp1 c i⟩ : Fin 100000) k') * w2Arr V c (ValueIdx.ix2 k k')
          + binArr V c (ValueIdx.ix2 (0 : Fin 1) k)) 0
        * whArr V c (ValueIdx.ix2 j k)
    + bhArr V c (ValueIdx.ix2 (0 : Fin 1) j)

/-- The first row a point fetches, at feature k'. -/
theorem row0_val (c : Dev nD) (t : Fin (cfg15 a).N) (k' : Fin 128) :
    P1.rowAt0 tb0 xM c (crd a t) (T0 a c) (V c main_arg0) (hp0 c (crd a t)) (ValueIdx.ix2 (0 : Fin 1) k')
      = xArr V c (ValueIdx.ix2 (⟨(e0At a c ⟨t.val, lt_of_lt_of_eq t.isLt N_15⟩).toNat, e0_lt a hp0 c _⟩ : Fin 100000) k') := by
  refine (P1.rowAt0_apply tb0 xM c (crd a t) (T0 a c) (V c main_arg0) (hp0 c (crd a t)) k').trans ?_
  show xArr V c _ = xArr V c _
  refine congrArg (xArr V c) (funext fun b => Fin.ext ?_)
  match b with
  | ⟨0, _⟩ =>
    show (tw0 tb0 c (crd a t) (T0 a c)).toNat = (e0At a c ⟨t.val, lt_of_lt_of_eq t.isLt N_15⟩).toNat
    rw [tw0_at]
  | ⟨1, _⟩ => rfl

/-- The second row a point fetches, at feature k'. -/
theorem row1_val (c : Dev nD) (t : Fin (cfg15 a).N) (k' : Fin 128) :
    P1.rowAt1 tb1 xM c (crd a t) (T1 a c) (V c main_arg0) (hp1 c (crd a t)) (ValueIdx.ix2 (0 : Fin 1) k')
      = xArr V c (ValueIdx.ix2 (⟨(e1At a c ⟨t.val, lt_of_lt_of_eq t.isLt N_15⟩).toNat, e1_lt a hp1 c _⟩ : Fin 100000) k') := by
  refine (P1.rowAt1_apply tb1 xM c (crd a t) (T1 a c) (V c main_arg0) (hp1 c (crd a t)) k').trans ?_
  show xArr V c _ = xArr V c _
  refine congrArg (xArr V c) (funext fun b => Fin.ext ?_)
  match b with
  | ⟨0, _⟩ =>
    show (tw1 tb1 c (crd a t) (T1 a c)).toNat = (e1At a c ⟨t.val, lt_of_lt_of_eq t.isLt N_15⟩).toNat
    rw [tw1_at]
  | ⟨1, _⟩ => rfl

/-- A point's hidden row is the hidden row of its edge. -/
theorem hrow_val (c : Dev nD) (t : Fin (cfg15 a).N) (j : Fin 64) :
    P1.hrowG tb0 tb1 xM c (cfg15 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t j
      = rowval V a hp0 hp1 c ⟨t.val, lt_of_lt_of_eq t.isLt N_15⟩ j :=
  P1.hrow_eq_of (P1.rowAt0 tb0 xM c (crd a t) (T0 a c) (V c main_arg0) (hp0 c (crd a t)))
    (P1.rowAt1 tb1 xM c (crd a t) (T1 a c) (V c main_arg0) (hp1 c (crd a t)))
    (iblk V a c 0 t) (iblk V a c 1 t) (iblk V a c 2 t) (iblk V a c 3 t) (iblk V a c 4 t)
    (xArr V c) ⟨(e0At a c ⟨t.val, lt_of_lt_of_eq t.isLt N_15⟩).toNat, e0_lt a hp0 c _⟩
    ⟨(e1At a c ⟨t.val, lt_of_lt_of_eq t.isLt N_15⟩).toNat, e1_lt a hp1 c _⟩
    (w1Arr V c) (w2Arr V c) (binArr V c) (whArr V c) (bhArr V c)
    (row0_val V a hp0 c t) (row1_val V a hp1 c t)
    (iblk_0_eq V a c t) (iblk_1_eq V a c t) (iblk_2_eq V a c t) (iblk_3_eq V a c t) (iblk_4_eq V a c t) j

/-- After point n the first running sum is the sum of the hidden rows of the edges 0 … n. -/
theorem sum_at (c : Dev nD) (j : Fin 64) (n : ℕ) (hn : n < (cfg15 a).N) :
    (stAt V a hp0 hp1 c n hn).1 (ValueIdx.ix2 (0 : Fin 1) j)
      = ∑ i : Fin (n + 1), rowval V a hp0 hp1 c ⟨i.val, lt_of_lt_of_eq (Nat.lt_of_le_of_lt (Nat.le_of_lt_succ i.isLt) hn) N_15⟩ j := by
  unfold stAt
  refine (P1.sumG_at tb0 tb1 xM hM c (cfg15 a).N (crd a) (fun t => iblk V a c 0 t) (fun t => iblk V a c 1 t) (fun t => iblk V a c 2 t) (fun t => iblk V a c 3 t) (fun t => iblk V a c 4 t) (T0 a c) (T1 a c) (V c main_arg0) (V c main_v58_0) (fun t => hp0 c (crd a t)) (fun t => hp1 c (crd a t)) j n hn).trans ?_
  exact Finset.sum_congr rfl fun i _ => hrow_val V a hp0 hp1 c _ j

/-- After point n the second running sum is the sum of the squares of those hidden rows. -/
theorem sq_at (c : Dev nD) (j : Fin 64) (n : ℕ) (hn : n < (cfg15 a).N) :
    (stAt V a hp0 hp1 c n hn).2.1 (ValueIdx.ix2 (0 : Fin 1) j)
      = ∑ i : Fin (n + 1), rowval V a hp0 hp1 c ⟨i.val, lt_of_lt_of_eq (Nat.lt_of_le_of_lt (Nat.le_of_lt_succ i.isLt) hn) N_15⟩ j
          * rowval V a hp0 hp1 c ⟨i.val, lt_of_lt_of_eq (Nat.lt_of_le_of_lt (Nat.le_of_lt_succ i.isLt) hn) N_15⟩ j := by
  unfold stAt
  refine (P1.sumsqG_at tb0 tb1 xM hM c (cfg15 a).N (crd a) (fun t => iblk V a c 0 t) (fun t => iblk V a c 1 t) (fun t => iblk V a c 2 t) (fun t => iblk V a c 3 t) (fun t => iblk V a c 4 t) (T0 a c) (T1 a c) (V c main_arg0) (V c main_v58_0) (fun t => hp0 c (crd a t)) (fun t => hp1 c (crd a t)) j n hn).trans ?_
  exact Finset.sum_congr rfl fun i _ => by rw [hrow_val V a hp0 hp1 c _ j]

/-- The hidden array is read through its whole view as itself. -/
theorem read_hM (c : Dev nD) (f : Bf (F := Ideal) c hM) (y : S62500x64.Idx) :
    hM.view.read (Elt Ideal) f y = (f : S62500x64.Idx → EReal) y := rfl

/-- After n points, row i < n of the hidden array is edge i's hidden row. -/
theorem hid_at (c : Dev nD) (j : Fin 64) (n : ℕ) (hn : n ≤ (cfg15 a).N) (i : ℕ) (hi : i < n) :
    (hAt V a hp0 hp1 c n hn : S62500x64.Idx → EReal) (ValueIdx.ix2 (⟨i, lt_of_lt_of_eq (Nat.lt_of_lt_of_le hi hn) N_15⟩ : Fin 62500) j)
      = rowval V a hp0 hp1 c ⟨i, lt_of_lt_of_eq (Nat.lt_of_lt_of_le hi hn) N_15⟩ j := by
  unfold hAt
  refine (read_hM c _ _).symm.trans ?_
  refine (P1.hG_row_written (F := Ideal) tb0 tb1 xM hM c (cfg15 a).N (crd a) (fun t => iblk V a c 0 t) (fun t => iblk V a c 1 t) (fun t => iblk V a c 2 t) (fun t => iblk V a c 3 t) (fun t => iblk V a c 4 t) (T0 a c) (T1 a c) (V c main_arg0) (V c main_v58_0) (fun t => hp0 c (crd a t)) (fun t => hp1 c (crd a t)) (coord_val a) j n hn i hi).trans ?_
  exact (P1.rowStep_apply tb0 tb1 xM c (cfg15 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) _ j).trans (hrow_val V a hp0 hp1 c _ j)

/-- The two running-sum arrays and the hidden array after the region, each at its literal type. -/
abbrev sumArr (c : Dev nD) : S1x64.Idx → EReal := (dat V a hp0 hp1 c).arrAt 5 (cfg15 a).N
abbrev sqArr (c : Dev nD) : S1x64.Idx → EReal := (dat V a hp0 hp1 c).arrAt 6 (cfg15 a).N
abbrev hidArr (c : Dev nD) : S62500x64.Idx → EReal := hAt V a hp0 hp1 c (cfg15 a).N (Nat.le_refl _)

/-- The last point's index plus one is the number of edges of the chunk. -/
theorem tlast_count : (tlast a).val + 1 = 62500 := rfl

/-- The first running-sum array after the region: the sum over the chunk's edges of their hidden rows. -/
theorem sum_final (c : Dev nD) (j : Fin 64) :
    sumArr V a hp0 hp1 c (ValueIdx.ix2 (0 : Fin 1) j) = ∑ i : Fin 62500, rowval V a hp0 hp1 c i j := by
  refine (sum_arr_apply V a hp0 hp1 c j).trans ((sum_at V a hp0 hp1 c j (tlast a).val (tlast a).isLt).trans ?_)
  exact Fintype.sum_equiv (finCongr (tlast_count a)) _ _ (fun i => rfl)

/-- The second running-sum array after the region: the sum of the squares of those hidden rows. -/
theorem sq_final (c : Dev nD) (j : Fin 64) :
    sqArr V a hp0 hp1 c (ValueIdx.ix2 (0 : Fin 1) j)
      = ∑ i : Fin 62500, rowval V a hp0 hp1 c i j * rowval V a hp0 hp1 c i j := by
  refine (sq_arr_apply V a hp0 hp1 c j).trans ((sq_at V a hp0 hp1 c j (tlast a).val (tlast a).isLt).trans ?_)
  exact Fintype.sum_equiv (finCongr (tlast_count a)) _ _ (fun i => rfl)

/-- The hidden array after the region: row i is edge i's hidden row. -/
theorem hid_final (c : Dev nD) (i : Fin 62500) (j : Fin 64) :
    hidArr V a hp0 hp1 c (ValueIdx.ix2 i j) = rowval V a hp0 hp1 c i j :=
  hid_at V a hp0 hp1 c j (cfg15 a).N (Nat.le_refl _) i.val (lt_of_lt_of_eq i.isLt N_15.symm)

end AtIdeal

end Cert.KernelIdeal.P1R15

end
-- ==== Proof.P1R15Fin.lean ====
/- The first launch's results are its chunk's hidden values.

   The launch walks the 62500 edges of its chunk: at edge i it fetches the two rows of the node-feature array that entry i of
   its two endpoint tables names, applies the two layers, writes the hidden row and adds it, and its square, to two running
   sums. Its tables are the chunk's pieces of the edge array's two rows, and the weights it reads are the argument arrays'
   (the first layer's weights in two halves). So row i of its rows result is the hidden value of edge i of the chunk in the
   by-endpoint form, and its two sums are the sums of those values and of their squares over the chunk. -/
import proofs.«400866_j57071525429608_2_alg».proof.Proof.P1R15Val
import proofs.«400866_j57071525429608_2_alg».proof.Proof.HostHead
import proofs.«400866_j57071525429608_2_alg».proof.Proof.TblFacts
import proofs.«400866_j57071525429608_2_alg».proof.Proof.HostTail
import proofs.«400866_j57071525429608_2_alg».proof.Proof.KVal
import proofs.«400866_j57071525429608_2_alg».proof.Proof.Spec
import Idealize.ShloMosaic.Lib.ValueIdx

set_option maxRecDepth 16384

noncomputable section

namespace Cert.KernelIdeal.P1R15

open Cert.KernelIdeal Cert.KernelIdeal.Gen
open Idealize.ShloMosaic Idealize.ShloMosaic.TcCoe
open Cert.KernelIdeal.P1 (Bf tw0 tw1)
open scoped BigOperators

/-! ## The launch -/

/-- The launch's chunk among the sixteen. -/
abbrev KK : Fin 16 := ⟨15, by omega⟩
/-- The launch among the seventeen regions. -/
abbrev KK17 : Fin 17 := ⟨15, by omega⟩
/-- The buffers' contents when the launch is entered. -/
abbrev Ventry (m : (ℓ : Loc nD τ sig) → Buf (Elt Ideal) ℓ) (outs : Outs (F := Ideal)) (c : Dev nD) : Valuation τ sig (Elt Ideal) := V31 m outs c
/-- They are the entry contents the host operations' facts are stated at. -/
theorem Ventry_eq (m : (ℓ : Loc nD τ sig) → Buf (Elt Ideal) ℓ) (outs : Outs (F := Ideal)) (c : Dev nD) :
    Head.Vodd m outs c KK17 = Ventry m outs c := Head.Vodd_15 m outs c _

variable (m : (ℓ : Loc nD τ sig) → Buf (Elt Ideal) ℓ) (outs : Outs (F := Ideal)) (c : Dev nD)
variable (a : (pcfg15 (F := Ideal)).Adm)
variable (hp0 : ∀ c (i : grid15.Coords), k15_chk1 (tw0 tb0 c i (T0 a c))) (hp1 : ∀ c (i : grid15.Coords), k15_chk2 (tw1 tb1 c i (T1 a c)))

/-- The entry contents as the launch's value lemmas take them. -/
abbrev VV : (c : Dev nD) → (b : Ref sig .tc) → Buf (Elt Ideal) ((c : Thread nD τ).loc b) := fun c b => Ventry m outs c b

/-! ## The tables' words are the chunk's endpoints -/

/-- Entry `i` of the first table names the first endpoint of edge `i` of the chunk. -/
theorem e0_eq (hT0 : (T0 a c : S62500.Idx → BitVec 32) = (Tbl.tblA m outs c KK : IVec S62500 32)) (i : Fin 62500) :
    (⟨(e0At a c i).toNat, e0_lt a hp0 c i⟩ : Fin 100000) = Cert.Spec.endpoint (KVal.edgesA m c) 0 (Cert.Spec.chunk KK i) := by
  have hw : e0At a c i = (KVal.edgesA m c) (ValueIdx.ix2 (0 : Fin 2) (Cert.Spec.chunk KK i)) := by
    show (T0 a c : S62500.Idx → BitVec 32) (ValueIdx.ix1 i) = _
    rw [hT0]
    exact Tbl.tblA_apply m outs c KK i
  have hlt := e0_lt a hp0 c i
  rw [hw] at hlt
  refine Fin.ext ?_
  show (e0At a c i).toNat = (Cert.Spec.node _).val
  rw [Cert.Spec.node_val_of_toNat_lt hlt, hw]

/-- Entry `i` of the second table names the second endpoint. -/
theorem e1_eq (hT1 : (T1 a c : S62500.Idx → BitVec 32) = (Tbl.tblB m outs c KK : IVec S62500 32)) (i : Fin 62500) :
    (⟨(e1At a c i).toNat, e1_lt a hp1 c i⟩ : Fin 100000) = Cert.Spec.endpoint (KVal.edgesA m c) 1 (Cert.Spec.chunk KK i) := by
  have hw : e1At a c i = (KVal.edgesA m c) (ValueIdx.ix2 (1 : Fin 2) (Cert.Spec.chunk KK i)) := by
    show (T1 a c : S62500.Idx → BitVec 32) (ValueIdx.ix1 i) = _
    rw [hT1]
    exact Tbl.tblB_apply m outs c KK i
  have hlt := e1_lt a hp1 c i
  rw [hw] at hlt
  refine Fin.ext ?_
  show (e1At a c i).toNat = (Cert.Spec.node _).val
  rw [Cert.Spec.node_val_of_toNat_lt hlt, hw]

/-! ## The arrays the launch reads are the arguments' -/

theorem x_eq : xArr (VV m outs) c = KVal.xA m c := by
  show Ventry m outs c main_arg0 = _
  rw [← Ventry_eq m outs c]
  exact Head.arg0_keep m outs c KK17
theorem wh_eq : whArr (VV m outs) c = KVal.WhA m c := by
  show Ventry m outs c main_arg4 = _
  rw [← Ventry_eq m outs c]
  exact Head.arg4_keep m outs c KK17
theorem w1_apply (k : Fin 64) (k' : Fin 128) :
    w1Arr (VV m outs) c (ValueIdx.ix2 k k') = KVal.WinA m c (ValueIdx.ix2 k (⟨k'.val, by omega⟩ : Fin 256)) := by
  show (Ventry m outs c main_v4 : S64x128.Idx → EReal) (ValueIdx.ix2 k k') = _
  rw [← Ventry_eq m outs c]
  exact Head.v4_apply m outs c KK17 k k'
theorem w2_apply (k : Fin 64) (k' : Fin 128) :
    w2Arr (VV m outs) c (ValueIdx.ix2 k k') = KVal.WinA m c (ValueIdx.ix2 k (⟨128 + k'.val, by omega⟩ : Fin 256)) := by
  show (Ventry m outs c main_v5 : S64x128.Idx → EReal) (ValueIdx.ix2 k k') = _
  rw [← Ventry_eq m outs c]
  exact Head.v5_apply m outs c KK17 k k'
theorem bin_apply (k : Fin 64) :
    binArr (VV m outs) c (ValueIdx.ix2 (0 : Fin 1) k) = KVal.binA m c (ValueIdx.ix1 k) := by
  show (Ventry m outs c main_v6 : S1x64.Idx → EReal) (ValueIdx.ix2 (0 : Fin 1) k) = _
  rw [← Ventry_eq m outs c]
  exact Head.v6_apply m outs c KK17 k
theorem bh_apply (j : Fin 64) :
    bhArr (VV m outs) c (ValueIdx.ix2 (0 : Fin 1) j) = KVal.bhA m c (ValueIdx.ix1 j) := by
  show (Ventry m outs c main_v7 : S1x64.Idx → EReal) (ValueIdx.ix2 (0 : Fin 1) j) = _
  rw [← Ventry_eq m outs c]
  exact Head.v7_apply m outs c KK17 j

/-! ## The launch's hidden row is the chunk's hidden value -/

theorem rowval_eq (hT0 : (T0 a c : S62500.Idx → BitVec 32) = (Tbl.tblA m outs c KK : IVec S62500 32))
    (hT1 : (T1 a c : S62500.Idx → BitVec 32) = (Tbl.tblB m outs c KK : IVec S62500 32)) (i : Fin 62500) (j : Fin 64) :
    rowval (VV m outs) a hp0 hp1 c i j = KVal.hid m c (Cert.Spec.chunk KK i) j := by
  unfold rowval KVal.hid
  rw [e0_eq m outs c a hp0 hT0 i, e1_eq m outs c a hp1 hT1 i, x_eq m outs c, wh_eq m outs c]
  simp only [w1_apply m outs c, w2_apply m outs c, bin_apply m outs c, bh_apply m outs c]

/-! ## The three results -/

/-- Row `i` of the rows result is the hidden value of edge `i` of the chunk. -/
theorem chunkRow_eq (hT0 : (T0 a c : S62500.Idx → BitVec 32) = (Tbl.tblA m outs c KK : IVec S62500 32))
    (hT1 : (T1 a c : S62500.Idx → BitVec 32) = (Tbl.tblB m outs c KK : IVec S62500 32))
    (hR0 : (Tail.res0 outs c KK : S62500x64.Idx → EReal) = hidArr (VV m outs) a hp0 hp1 c)
    (i : Fin 62500) (j : Fin 64) : Tail.chunkRow outs c KK i j = KVal.HID m c KK i j := by
  show (Tail.res0 outs c KK : S62500x64.Idx → EReal) (ValueIdx.ix2 i j) = _
  rw [hR0]
  exact (hid_final (VV m outs) a hp0 hp1 c i j).trans (rowval_eq m outs c a hp0 hp1 hT0 hT1 i j)

/-- The sums result is the sum of the chunk's hidden values. -/
theorem chunkSum_eq (hT0 : (T0 a c : S62500.Idx → BitVec 32) = (Tbl.tblA m outs c KK : IVec S62500 32))
    (hT1 : (T1 a c : S62500.Idx → BitVec 32) = (Tbl.tblB m outs c KK : IVec S62500 32))
    (hR1 : (Tail.res1 outs c KK : S1x64.Idx → EReal) = sumArr (VV m outs) a hp0 hp1 c)
    (j : Fin 64) : Tail.chunkSum outs c KK j = ∑ i : Fin 62500, KVal.HID m c KK i j := by
  show (Tail.res1 outs c KK : S1x64.Idx → EReal) (ValueIdx.ix2 (0 : Fin 1) j) = _
  rw [hR1]
  exact (sum_final (VV m outs) a hp0 hp1 c j).trans (Finset.sum_congr rfl fun i _ => rowval_eq m outs c a hp0 hp1 hT0 hT1 i j)

/-- The sums-of-squares result is the sum of their squares. -/
theorem chunkSq_eq (hT0 : (T0 a c : S62500.Idx → BitVec 32) = (Tbl.tblA m outs c KK : IVec S62500 32))
    (hT1 : (T1 a c : S62500.Idx → BitVec 32) = (Tbl.tblB m outs c KK : IVec S62500 32))
    (hR2 : (Tail.res2 outs c KK : S1x64.Idx → EReal) = sqArr (VV m outs) a hp0 hp1 c)
    (j : Fin 64) : Tail.chunkSq outs c KK j = ∑ i : Fin 62500, KVal.HID m c KK i j * KVal.HID m c KK i j := by
  show (Tail.res2 outs c KK : S1x64.Idx → EReal) (ValueIdx.ix2 (0 : Fin 1) j) = _
  rw [hR2]
  exact (sq_final (VV m outs) a hp0 hp1 c j).trans
    (Finset.sum_congr rfl fun i _ => by rw [rowval_eq m outs c a hp0 hp1 hT0 hT1 i j])

end Cert.KernelIdeal.P1R15

end
-- ==== Proof.P1R15Top.lean ====
/- The first launch's results are its chunk's hidden values, at the run's own choices.

   The run fixes what every region leaves (the unknowns), each launch's tables and the contents each launch is entered
   from. At those choices nothing is left to assume: the launch's tables are its chunk's pieces of the edge array's rows,
   its results are what its proof data leave, and so its rows are the chunk's hidden values and its two sums their sums
   and sums of squares. -/
import proofs.«400866_j57071525429608_2_alg».proof.Proof.P1R15Fin
import proofs.«400866_j57071525429608_2_alg».proof.Proof.GlueVal

set_option maxRecDepth 16384

noncomputable section

namespace Cert.KernelIdeal.P1R15

open Cert.KernelIdeal Cert.KernelIdeal.Gen
open Idealize.ShloMosaic Idealize.ShloMosaic.TcCoe
open Cert.KernelIdeal.P1 (Bf tw0 tw1)
open Cert.KernelIdeal.Glue (atTc)
open scoped BigOperators

/-! ## The run's choices for this launch -/

/-- The launch's tables, admissible. -/
abbrev gA (m : (ℓ : Loc nD τ sig) → Buf (Elt Ideal) ℓ) : (pcfg15 (F := Ideal)).Adm := Glue.adm15 m
/-- The contents it is entered from, as the run names them. -/
abbrev gW (m : (ℓ : Loc nD τ sig) → Buf (Elt Ideal) ℓ)
    (hE : ∀ (c : Dev nD) (idx : S2x1000000.Idx), ((V0 m c main_arg1 : IVec S2x1000000 32) idx).toNat < 100000) :
    Dev nD → Valuation τ sig (Elt Ideal) := Glue.W31 m hE

variable (m : (ℓ : Loc nD τ sig) → Buf (Elt Ideal) ℓ)
  (hE : ∀ (c : Dev nD) (idx : S2x1000000.Idx), ((V0 m c main_arg1 : IVec S2x1000000 32) idx).toNat < 100000)
  (c : Dev nD)

include hE

/-- The words it reads of them name rows of the node table. -/
theorem gP0 : ∀ c (i : grid15.Coords), k15_chk1 (tw0 tb0 c i (T0 (gA m) c)) := Glue.hp0_15 m hE
theorem gP1 : ∀ c (i : grid15.Coords), k15_chk2 (tw1 tb1 c i (T1 (gA m) c)) := Glue.hp1_15 m hE
/-- The contents it is entered from are the valuation's. -/
theorem gV : Ventry m (Glue.outs m hE) c = gW m hE c := Glue.V31_eq m hE c
/-- The tables it finds in the buffers are its own. -/
theorem gTA : (T0 (gA m) c : S62500.Idx → BitVec 32) = (Tbl.tblA m (Glue.outs m hE) c KK : IVec S62500 32) :=
  ((Glue.hT0_15 m hE c).symm.trans (congrFun (gV m hE c) (Proc.devRef .tc main_v56)).symm :)
theorem gTB : (T1 (gA m) c : S62500.Idx → BitVec 32) = (Tbl.tblB m (Glue.outs m hE) c KK : IVec S62500 32) :=
  ((Glue.hT1_15 m hE c).symm.trans (congrFun (gV m hE c) (Proc.devRef .tc main_v57)).symm :)
/-- What it leaves at its three results. -/
theorem gR0 : (Tail.res0 (Glue.outs m hE) c KK : S62500x64.Idx → EReal) = hidArr (atTc (gW m hE)) (gA m) (gP0 m hE) (gP1 m hE) c :=
  Glue.res0_15 m hE c
theorem gR1 : (Tail.res1 (Glue.outs m hE) c KK : S1x64.Idx → EReal) = sumArr (atTc (gW m hE)) (gA m) (gP0 m hE) (gP1 m hE) c :=
  Glue.res1_15 m hE c
theorem gR2 : (Tail.res2 (Glue.outs m hE) c KK : S1x64.Idx → EReal) = sqArr (atTc (gW m hE)) (gA m) (gP0 m hE) (gP1 m hE) c :=
  Glue.res2_15 m hE c

/-! ## The three facts, nothing assumed -/

/-- The entry contents the launch's value lemmas take are the run's. -/
theorem VV_eq : VV m (Glue.outs m hE) = atTc (gW m hE) :=
  funext fun c => funext fun b => congrFun (gV m hE c) (Proc.devRef .tc b)

/-- Row `i` of the launch's rows is the hidden value of edge `i` of its chunk. -/
theorem row_top (i : Fin 62500) (j : Fin 64) : Tail.chunkRow (Glue.outs m hE) c KK i j = KVal.HID m c KK i j :=
  chunkRow_eq m (Glue.outs m hE) c (gA m) (gP0 m hE) (gP1 m hE) (gTA m hE c) (gTB m hE c)
    (by rw [VV_eq m hE]; exact gR0 m hE c) i j

/-- Its sums are the sums of those values over the chunk. -/
theorem sum_top (j : Fin 64) : Tail.chunkSum (Glue.outs m hE) c KK j = ∑ i : Fin 62500, KVal.HID m c KK i j :=
  chunkSum_eq m (Glue.outs m hE) c (gA m) (gP0 m hE) (gP1 m hE) (gTA m hE c) (gTB m hE c)
    (by rw [VV_eq m hE]; exact gR1 m hE c) j

/-- Its sums of squares are the sums of their squares. -/
theorem sq_top (j : Fin 64) :
    Tail.chunkSq (Glue.outs m hE) c KK j = ∑ i : Fin 62500, KVal.HID m c KK i j * KVal.HID m c KK i j :=
  chunkSq_eq m (Glue.outs m hE) c (gA m) (gP0 m hE) (gP1 m hE) (gTA m hE c) (gTB m hE c)
    (by rw [VV_eq m hE]; exact gR2 m hE c) j

end Cert.KernelIdeal.P1R15

end
-- ==== Proof.KITop.lean ====
/-
  The idealized kernel program's two claims. Its frame: the sixteen gather-and-project regions and the normalise-and-score
  region, each entered from the buffers as the items before it left them, chained through the host operations between
  them; the edge indices name rows of the node-feature array because the precondition says so. Its value: the result
  array is, edge by edge, the score the specification defines — each chunk's hidden rows, their column sums and sums of
  squares are what the regions leave; the host operations add the sixteen partial sums and form mean and variance
  (the variance as mean of squares minus squared mean, clamped at zero: equal to the mean squared deviation because
  every hidden value is a real number); the last region normalises, applies the second ReLU and the output projection.
-/
import proofs.«400866_j57071525429608_2_alg».proof.Proof.Claims
import proofs.«400866_j57071525429608_2_alg».proof.Proof.GlueTop
import proofs.«400866_j57071525429608_2_alg».proof.Proof.GlueVal
import proofs.«400866_j57071525429608_2_alg».proof.Proof.KVal
import proofs.«400866_j57071525429608_2_alg».proof.Proof.HostHead
import proofs.«400866_j57071525429608_2_alg».proof.Proof.P1R0Top
import proofs.«400866_j57071525429608_2_alg».proof.Proof.P1R1Top
import proofs.«400866_j57071525429608_2_alg».proof.Proof.P1R2Top
import proofs.«400866_j57071525429608_2_alg».proof.Proof.P1R3Top
import proofs.«400866_j57071525429608_2_alg».proof.Proof.P1R4Top
import proofs.«400866_j57071525429608_2_alg».proof.Proof.P1R5Top
import proofs.«400866_j57071525429608_2_alg».proof.Proof.P1R6Top
import proofs.«400866_j57071525429608_2_alg».proof.Proof.P1R7Top
import proofs.«400866_j57071525429608_2_alg».proof.Proof.P1R8Top
import proofs.«400866_j57071525429608_2_alg».proof.Proof.P1R9Top
import proofs.«400866_j57071525429608_2_alg».proof.Proof.P1R10Top
import proofs.«400866_j57071525429608_2_alg».proof.Proof.P1R11Top
import proofs.«400866_j57071525429608_2_alg».proof.Proof.P1R12Top
import proofs.«400866_j57071525429608_2_alg».proof.Proof.P1R13Top
import proofs.«400866_j57071525429608_2_alg».proof.Proof.P1R14Top
import proofs.«400866_j57071525429608_2_alg».proof.Proof.P1R15Top

noncomputable section

namespace Cert.Proof.KITop

open Cert.KernelIdeal Cert.KernelIdeal.Gen
open Idealize.ShloMosaic Idealize.ShloMosaic.TcCoe Idealize.SL.Sem

variable (m : (ℓ : Loc nD τ sig) → Buf (Elt Ideal) ℓ)

/-- Under the precondition every edge endpoint names a row of the node-feature array. -/
theorem edge_range (hpre : Cert.Pre_KernelIdeal (hPre_finite_inputs := Cert.Pre_finite_inputs.Gen.facts) m) :
    ∀ (c : Dev nD) (idx : S2x1000000.Idx), ((V0 m c main_arg1 : IVec S2x1000000 32) idx).toNat < 100000 :=
  fun c => Cert.PreFacts.edges_lt _ _ _ _ _ _ _ _ _ _ (hpre c)

/-- The frame: the program runs to its end and leaves its arguments as it found them. -/
theorem frame_KI : Cert.frame_KernelIdeal (hKernelIdeal := Cert.KernelIdeal.Gen.facts) (hPre_finite_inputs := Cert.Pre_finite_inputs.Gen.facts) :=
  fun m ρ hpre => Cert.KernelIdeal.Glue.frame m ρ (edge_range m hpre)

variable (hE : ∀ (c : Dev nD) (idx : S2x1000000.Idx), ((V0 m c main_arg1 : IVec S2x1000000 32) idx).toNat < 100000) (c : Dev nD)

/-- Chunk by chunk, the hidden rows the regions leave are the specification's hidden rows, -/
theorem rows : ∀ (K : Fin 16) (i : Fin 62500) (j : Fin 64), Tail.chunkRow (Glue.outs m hE) c K i j = KVal.HID m c K i j
  | ⟨0, _⟩ => P1R0.row_top m hE c
  | ⟨1, _⟩ => P1R1.row_top m hE c
  | ⟨2, _⟩ => P1R2.row_top m hE c
  | ⟨3, _⟩ => P1R3.row_top m hE c
  | ⟨4, _⟩ => P1R4.row_top m hE c
  | ⟨5, _⟩ => P1R5.row_top m hE c
  | ⟨6, _⟩ => P1R6.row_top m hE c
  | ⟨7, _⟩ => P1R7.row_top m hE c
  | ⟨8, _⟩ => P1R8.row_top m hE c
  | ⟨9, _⟩ => P1R9.row_top m hE c
  | ⟨10, _⟩ => P1R10.row_top m hE c
  | ⟨11, _⟩ => P1R11.row_top m hE c
  | ⟨12, _⟩ => P1R12.row_top m hE c
  | ⟨13, _⟩ => P1R13.row_top m hE c
  | ⟨14, _⟩ => P1R14.row_top m hE c
  | ⟨15, _⟩ => P1R15.row_top m hE c
  | ⟨_ + 16, h⟩ => absurd h (Nat.not_lt.2 (Nat.le_add_left _ _))

/-- their column sums, -/
theorem sums : ∀ (K : Fin 16) (j : Fin 64), Tail.chunkSum (Glue.outs m hE) c K j = ∑ i : Fin 62500, KVal.HID m c K i j
  | ⟨0, _⟩ => P1R0.sum_top m hE c
  | ⟨1, _⟩ => P1R1.sum_top m hE c
  | ⟨2, _⟩ => P1R2.sum_top m hE c
  | ⟨3, _⟩ => P1R3.sum_top m hE c
  | ⟨4, _⟩ => P1R4.sum_top m hE c
  | ⟨5, _⟩ => P1R5.sum_top m hE c
  | ⟨6, _⟩ => P1R6.sum_top m hE c
  | ⟨7, _⟩ => P1R7.sum_top m hE c
  | ⟨8, _⟩ => P1R8.sum_top m hE c
  | ⟨9, _⟩ => P1R9.sum_top m hE c
  | ⟨10, _⟩ => P1R10.sum_top m hE c
  | ⟨11, _⟩ => P1R11.sum_top m hE c
  | ⟨12, _⟩ => P1R12.sum_top m hE c
  | ⟨13, _⟩ => P1R13.sum_top m hE c
  | ⟨14, _⟩ => P1R14.sum_top m hE c
  | ⟨15, _⟩ => P1R15.sum_top m hE c
  | ⟨_ + 16, h⟩ => absurd h (Nat.not_lt.2 (Nat.le_add_left _ _))

/-- and the column sums of their squares. -/
theorem sqs : ∀ (K : Fin 16) (j : Fin 64), Tail.chunkSq (Glue.outs m hE) c K j = ∑ i : Fin 62500, KVal.HID m c K i j * KVal.HID m c K i j
  | ⟨0, _⟩ => P1R0.sq_top m hE c
  | ⟨1, _⟩ => P1R1.sq_top m hE c
  | ⟨2, _⟩ => P1R2.sq_top m hE c
  | ⟨3, _⟩ => P1R3.sq_top m hE c
  | ⟨4, _⟩ => P1R4.sq_top m hE c
  | ⟨5, _⟩ => P1R5.sq_top m hE c
  | ⟨6, _⟩ => P1R6.sq_top m hE c
  | ⟨7, _⟩ => P1R7.sq_top m hE c
  | ⟨8, _⟩ => P1R8.sq_top m hE c
  | ⟨9, _⟩ => P1R9.sq_top m hE c
  | ⟨10, _⟩ => P1R10.sq_top m hE c
  | ⟨11, _⟩ => P1R11.sq_top m hE c
  | ⟨12, _⟩ => P1R12.sq_top m hE c
  | ⟨13, _⟩ => P1R13.sq_top m hE c
  | ⟨14, _⟩ => P1R14.sq_top m hE c
  | ⟨15, _⟩ => P1R15.sq_top m hE c
  | ⟨_ + 16, h⟩ => absurd h (Nat.not_lt.2 (Nat.le_add_left _ _))

/-- The last region's result is what its own proof data leaves, entered from the buffers after the last host stretch. -/
theorem last_region : (Glue.outs m hE 34 main_v104 c : S1000000x1.Idx → EReal)
    = ((Cert.KernelIdeal.P2.dat16 (fun c b => V33 m (Glue.outs m hE) c b) c).arrAt 7 cfg16.N : S1000000x1.Idx → EReal) := by
  have hV : (fun (c : Dev nD) (b : Ref sig .tc) => V33 m (Glue.outs m hE) c b) = Glue.atTc (Glue.W33 m hE) := by
    funext c b; rw [Glue.V33_eq m hE c]
  rw [hV]; exact Glue.res16 m hE c

/-- THE KERNEL'S RUN: it ends with the result at the specification's score and the arguments unchanged. -/
theorem kernel_run :
    ∀ (m : (ℓ : Loc Cert.KernelIdeal.nD Cert.KernelIdeal.τ Cert.KernelIdeal.sig) → Buf (Elt Ideal) ℓ) (ρ : Dev Cert.KernelIdeal.nD → PrngReg),
      Cert.Pre_KernelIdeal (hPre_finite_inputs := Cert.Pre_finite_inputs.Gen.facts) m →
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v105)
            = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) := by
  intro m ρ hpre
  have hE := edge_range m hpre
  refine (θ_run _ _ _).mono (fun r h c => ⟨(h c).1.trans ?_, (h c).2⟩) (Cert.KernelIdeal.Glue.run m ρ hE)
  refine KVal.kernel_value_arr m (Glue.outs m hE) c (last_region m hE c) (rows m hE c) (sums m hE c) (sqs m hE c) ?_ ?_ ?_ ?_
    (fun i => Cert.PreFacts.finite_arg0 _ _ _ _ _ _ _ _ _ _ (hpre c) i) (fun i => Cert.PreFacts.finite_arg2 _ _ _ _ _ _ _ _ _ _ (hpre c) i)
    (fun i => Cert.PreFacts.finite_arg3 _ _ _ _ _ _ _ _ _ _ (hpre c) i) (fun i => Cert.PreFacts.finite_arg4 _ _ _ _ _ _ _ _ _ _ (hpre c) i)
    (fun i => Cert.PreFacts.finite_arg5 _ _ _ _ _ _ _ _ _ _ (hpre c) i)
  · intro j
    have h := Head.v8_apply m (Glue.outs m hE) c ⟨16, by omega⟩ j
    rw [Head.Vodd_16 m (Glue.outs m hE) c (by omega)] at h; exact h
  · intro j
    have h := Head.v9_apply m (Glue.outs m hE) c ⟨16, by omega⟩ j
    rw [Head.Vodd_16 m (Glue.outs m hE) c (by omega)] at h; exact h
  · have h := Head.arg8_keep m (Glue.outs m hE) c ⟨16, by omega⟩
    rw [Head.Vodd_16 m (Glue.outs m hE) c (by omega)] at h; exact h
  · have h := Head.v10_apply m (Glue.outs m hE) c ⟨16, by omega⟩
    rw [Head.Vodd_16 m (Glue.outs m hE) c (by omega)] at h; exact h

end Cert.Proof.KITop

end
-- ==== Proof.GlueBitsBase.lean ====
/-
  Changing a core's buffer contents at a few named buffers: the bookkeeping behind the run's chain of contents.

  Between two items of the program a core's buffers hold some contents W (one value per buffer). A kernel region
  changes a few of them — each gather-and-project region its three results, the normalising pass its one — and
  leaves every other buffer alone. What is proved here, once, for any contents and any distinct buffers:
  the changed contents hold the new values at the named buffers and the old ones elsewhere, and changing W at the
  named buffers to what the changed contents hold there gives the changed contents again. The last fact is what
  ties a family of unknowns "what the regions leave" to one chosen chain of contents.

  Also here: the program runs on one device, so every device is that one.
-/
import proofs.«400866_j57071525429608_2_alg».proof.Proof.KernelRegions

noncomputable section

namespace Cert.Kernel.Glue

open Cert.Kernel Cert.Kernel.Gen
open Idealize.ShloMosaic Idealize.ShloMosaic.TcCoe

variable {F : FTy → Type} [FloatOps F]

/-! ## One device -/

/-- The device the program runs on. -/
abbrev c₀ : Dev nD := ⟨0, Nat.one_pos⟩

/-- There is no other. -/
theorem dev_eq (c : Dev nD) : c = c₀ := Fin.ext (Nat.lt_one_iff.mp c.isLt)

/-! ## Contents changed at three buffers -/

section Three

variable (W : Valuation τ sig (Elt F)) (r1 r2 r0 : Ref sig .tc)
  (x1 : (Proc.devRef (τ := τ) .tc r1).ty.Contents (Elt F)) (x2 : (Proc.devRef (τ := τ) .tc r2).ty.Contents (Elt F))
  (x0 : (Proc.devRef (τ := τ) .tc r0).ty.Contents (Elt F))

/-- The contents W with buffer r1 at x1, then r2 at x2, then r0 at x0. -/
def set3 : Valuation τ sig (Elt F) :=
  Function.update (Function.update (Function.update W (Proc.devRef .tc r1) x1) (Proc.devRef .tc r2) x2) (Proc.devRef .tc r0) x0

/-- At the first buffer, distinct from the two set after it, the first value; -/
theorem set3_1 (h12 : r1 ≠ r2) (h10 : r1 ≠ r0) : set3 W r1 r2 r0 x1 x2 x0 (Proc.devRef .tc r1) = x1 := by
  unfold set3
  rw [Function.update_of_ne (StableHlo.devRef_ne_of_ne h10), Function.update_of_ne (StableHlo.devRef_ne_of_ne h12),
    Function.update_self]

/-- at the second, distinct from the one set after it, the second; -/
theorem set3_2 (h20 : r2 ≠ r0) : set3 W r1 r2 r0 x1 x2 x0 (Proc.devRef .tc r2) = x2 := by
  unfold set3
  rw [Function.update_of_ne (StableHlo.devRef_ne_of_ne h20), Function.update_self]

/-- at the third the third; -/
theorem set3_0 : set3 W r1 r2 r0 x1 x2 x0 (Proc.devRef .tc r0) = x0 := by
  unfold set3
  rw [Function.update_self]

/-- and at any other buffer what W held. -/
theorem set3_of (r : Ref sig .tc) (h1 : r ≠ r1) (h2 : r ≠ r2) (h0 : r ≠ r0) :
    set3 W r1 r2 r0 x1 x2 x0 (Proc.devRef .tc r) = W (Proc.devRef .tc r) := by
  unfold set3
  rw [Function.update_of_ne (StableHlo.devRef_ne_of_ne h0), Function.update_of_ne (StableHlo.devRef_ne_of_ne h2),
    Function.update_of_ne (StableHlo.devRef_ne_of_ne h1)]

/-- W changed at the three buffers to what the changed contents hold there is the changed contents. -/
theorem set3_self (h12 : r1 ≠ r2) (h10 : r1 ≠ r0) (h20 : r2 ≠ r0) :
    Function.update (Function.update (Function.update W (Proc.devRef .tc r1) (set3 W r1 r2 r0 x1 x2 x0 (Proc.devRef .tc r1)))
      (Proc.devRef .tc r2) (set3 W r1 r2 r0 x1 x2 x0 (Proc.devRef .tc r2))) (Proc.devRef .tc r0) (set3 W r1 r2 r0 x1 x2 x0 (Proc.devRef .tc r0))
      = set3 W r1 r2 r0 x1 x2 x0 := by
  rw [set3_1 W r1 r2 r0 x1 x2 x0 h12 h10, set3_2 W r1 r2 r0 x1 x2 x0 h20, set3_0]
  rfl

/-- One step of a chain: if contents V are the contents W, then V changed at the three buffers to what W' holds
    there, W' being W changed there, is W'. -/
theorem set3_step {V W' : Valuation τ sig (Elt F)} (hVW : V = W) (hW' : W' = set3 W r1 r2 r0 x1 x2 x0)
    (h12 : r1 ≠ r2) (h10 : r1 ≠ r0) (h20 : r2 ≠ r0) :
    set3 V r1 r2 r0 (W' (Proc.devRef .tc r1)) (W' (Proc.devRef .tc r2)) (W' (Proc.devRef .tc r0)) = W' := by
  subst hVW hW'
  rw [set3_1 V r1 r2 r0 x1 x2 x0 h12 h10, set3_2 V r1 r2 r0 x1 x2 x0 h20, set3_0]

/-- The same with the three values given by name: contents V, equal to W, changed at the three buffers to values that
    are what W' holds there, W' being W changed there, are W'. Every hypothesis is an equation to be supplied, so that
    nothing is found by unfolding. -/
theorem set3_chain {V W' : Valuation τ sig (Elt F)}
    (y1 : (Proc.devRef (τ := τ) .tc r1).ty.Contents (Elt F)) (y2 : (Proc.devRef (τ := τ) .tc r2).ty.Contents (Elt F))
    (y0 : (Proc.devRef (τ := τ) .tc r0).ty.Contents (Elt F))
    (hVW : V = W) (hW' : W' = set3 W r1 r2 r0 x1 x2 x0)
    (e1 : y1 = W' (Proc.devRef .tc r1)) (e2 : y2 = W' (Proc.devRef .tc r2)) (e0 : y0 = W' (Proc.devRef .tc r0))
    (h12 : r1 ≠ r2) (h10 : r1 ≠ r0) (h20 : r2 ≠ r0) :
    set3 V r1 r2 r0 y1 y2 y0 = W' := by
  subst e1 e2 e0
  exact set3_step W r1 r2 r0 x1 x2 x0 hVW hW' h12 h10 h20

end Three

/-! ## Contents changed at one buffer -/

/-- One step of a chain, for a region with one result. -/
theorem set1_step {V W W' : Valuation τ sig (Elt F)} (r : Ref sig .tc) (x : (Proc.devRef (τ := τ) .tc r).ty.Contents (Elt F))
    (hVW : V = W) (hW' : W' = Function.update W (Proc.devRef .tc r) x) :
    Function.update V (Proc.devRef .tc r) (W' (Proc.devRef .tc r)) = W' := by
  subst hVW hW'
  rw [Function.update_self]

/-- The same with the value given by name. -/
theorem set1_chain {V W W' : Valuation τ sig (Elt F)} (r : Ref sig .tc) (x y : (Proc.devRef (τ := τ) .tc r).ty.Contents (Elt F))
    (hVW : V = W) (hW' : W' = Function.update W (Proc.devRef .tc r) x) (e : y = W' (Proc.devRef .tc r)) :
    Function.update V (Proc.devRef .tc r) y = W' := by
  subst e
  exact set1_step r x hVW hW'

/-- W changed at a buffer to what the changed contents hold there is the changed contents. -/
theorem set1_self (W : Valuation τ sig (Elt F)) (r : Ref sig .tc) (x : (Proc.devRef (τ := τ) .tc r).ty.Contents (Elt F)) :
    Function.update W (Proc.devRef .tc r) (Function.update W (Proc.devRef .tc r) x (Proc.devRef .tc r))
      = Function.update W (Proc.devRef .tc r) x := by
  rw [Function.update_self]

end Cert.Kernel.Glue

end
-- ==== Proof.Pass2Bits.lean ====
/-
  The normalising pass, the last kernel region of the program: its frame-and-value half.

  The region walks the 1000000 rows of the hidden array h in 125 blocks of 8000 rows. At block t it holds the
  8000 x 64 block of h and six small operands that never move — the column means, the column variances, the
  scale gamma, the shift beta (each 1 x 64), the output weights (1 x 64) and the output bias (1 x 1) — and writes
  the 8000 x 1 block of the result: relu((h − mean) · rsqrt(var + eps) · gamma + beta) contracted with the output
  weights, plus the bias.

  Everything here is stated at a PARAMETER V, the core's buffer contents when the region is entered, so that
  whoever runs the program may put in what the host stretch before the region left there. Per point t:
    * the block each window reads off its array (iblk16);
    * what the body leaves in the result block's buffer, a pure function of the seven blocks it read (out16_7);
    * the body's triple on any eight whole buffers (sound_kernel16);
    * the pipeline's proof data (dat16) with its projections (A_eq16, after16_w, before16_w);
    * the body obligation at every point (body_obligation16);
    * the result block in closed form, the payload of the seven blocks with no rectangle left (out16_7_eq).
  The six small operands are fetched at the first point only; at a later point their block index has not moved,
  so the buffer still holds the one block there is, which is the block of that point too.
-/
import proofs.«400866_j57071525429608_2_alg».proof.Proof.Gen.Kernel.Launch
import proofs.«400866_j57071525429608_2_alg».proof.Proof.Gen.Kernel.Skeleton
import proofs.«400866_j57071525429608_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.P2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the core's buffer contents when the region is entered
variable (V : (c : Dev nD) → (b : Ref sig .tc) → Buf (Elt F) ((c : Thread nD τ).loc b))

/-! ## The block each window reads -/

/-- Window w's block at point t, read off the window's array as the region finds it. For window 0 these are
    rows 8000 t … 8000 t + 7999 of h, for windows 1 … 6 the whole small operand, for window 7 the same rows of
    the result array. -/
def iblk16 (c : Dev nD) (w : Fin cfg16.W) (t : Fin cfg16.N) :
    ((cfg16.win w).xblock (cfg16.grid.coords t)).Idx → Elt F (cfg16.win w).elt :=
  ((cfg16.win w).blk t).view.read (Elt F) (V c (Pipeline.arrRef spec16 w))

/-! ## What the body finds in an input window's buffer

An input window's buffer holds, at every point, what a fetch there would put in it — fetched there or not. Not
fetched means the block index did not move, and the buffer still holds the previous point's block, which is this
point's. For window 0 (fetched at every point) this is the fetch itself; for the six small operands (fetched at
the first point only) it is the block of the first point carried along. Stated for ANY proof data whose array is
V's and whose body leaves the block in place, so that proof data over another invariant may cite it too. -/

section Held

variable {c : Dev nD} (dat : Dat τ (Elt F) Unit ℕ (Pipeline.UD sig nD τ) ℕ cfg16 c)

/-- The block of h: rows 8000 t … of the array. -/
theorem before16_0_of (hA : dat.A 0 = V c (Pipeline.arrRef spec16 0)) (hafter : ∀ t, dat.after 0 t = iblk16 V c 0 t)
    (t : Fin cfg16.N) (d) : dat.before 0 t d = iblk16 V c 0 t :=
  (dat.before_in_eq_fetched 0 rfl (fun _ => rfl) (fun _ _ _ => rfl)
    (fun t => by rw [hafter]; unfold Dat.blockOf iblk16; rw [hA]; try rfl) t d).trans
    (by unfold Dat.fetched Dat.blockOf iblk16; rw [hA]; try rfl)

/-- The column means. -/
theorem before16_1_of (hA : dat.A 1 = V c (Pipeline.arrRef spec16 1)) (hafter : ∀ t, dat.after 1 t = iblk16 V c 1 t)
    (t : Fin cfg16.N) (d) : dat.before 1 t d = iblk16 V c 1 t :=
  (dat.before_in_eq_fetched 1 rfl (fun _ => rfl) (fun _ _ _ => rfl)
    (fun t => by rw [hafter]; unfold Dat.blockOf iblk16; rw [hA]; try rfl) t d).trans
    (by unfold Dat.fetched Dat.blockOf iblk16; rw [hA]; try rfl)

/-- The column variances. -/
theorem before16_2_of (hA : dat.A 2 = V c (Pipeline.arrRef spec16 2)) (hafter : ∀ t, dat.after 2 t = iblk16 V c 2 t)
    (t : Fin cfg16.N) (d) : dat.before 2 t d = iblk16 V c 2 t :=
  (dat.before_in_eq_fetched 2 rfl (fun _ => rfl) (fun _ _ _ => rfl)
    (fun t => by rw [hafter]; unfold Dat.blockOf iblk16; rw [hA]; try rfl) t d).trans
    (by unfold Dat.fetched Dat.blockOf iblk16; rw [hA]; try rfl)

/-- The scale. -/
theorem before16_3_of (hA : dat.A 3 = V c (Pipeline.arrRef spec16 3)) (hafter : ∀ t, dat.after 3 t = iblk16 V c 3 t)
    (t : Fin cfg16.N) (d) : dat.before 3 t d = iblk16 V c 3 t :=
  (dat.before_in_eq_fetched 3 rfl (fun _ => rfl) (fun _ _ _ => rfl)
    (fun t => by rw [hafter]; unfold Dat.blockOf iblk16; rw [hA]; try rfl) t d).trans
    (by unfold Dat.fetched Dat.blockOf iblk16; rw [hA]; try rfl)

/-- The shift. -/
theorem before16_4_of (hA : dat.A 4 = V c (Pipeline.arrRef spec16 4)) (hafter : ∀ t, dat.after 4 t = iblk16 V c 4 t)
    (t : Fin cfg16.N) (d) : dat.before 4 t d = iblk16 V c 4 t :=
  (dat.before_in_eq_fetched 4 rfl (fun _ => rfl) (fun _ _ _ => rfl)
    (fun t => by rw [hafter]; unfold Dat.blockOf iblk16; rw [hA]; try rfl) t d).trans
    (by unfold Dat.fetched Dat.blockOf iblk16; rw [hA]; try rfl)

/-- The output weights. -/
theorem before16_5_of (hA : dat.A 5 = V c (Pipeline.arrRef spec16 5)) (hafter : ∀ t, dat.after 5 t = iblk16 V c 5 t)
    (t : Fin cfg16.N) (d) : dat.before 5 t d = iblk16 V c 5 t :=
  (dat.before_in_eq_fetched 5 rfl (fun _ => rfl) (fun _ _ _ => rfl)
    (fun t => by rw [hafter]; unfold Dat.blockOf iblk16; rw [hA]; try rfl) t d).trans
    (by unfold Dat.fetched Dat.blockOf iblk16; rw [hA]; try rfl)

/-- The output bias. -/
theorem before16_6_of (hA : dat.A 6 = V c (Pipeline.arrRef spec16 6)) (hafter : ∀ t, dat.after 6 t = iblk16 V c 6 t)
    (t : Fin cfg16.N) (d) : dat.before 6 t d = iblk16 V c 6 t :=
  (dat.before_in_eq_fetched 6 rfl (fun _ => rfl) (fun _ _ _ => rfl)
    (fun t => by rw [hafter]; unfold Dat.blockOf iblk16; rw [hA]; try rfl) t d).trans
    (by unfold Dat.fetched Dat.blockOf iblk16; rw [hA]; try rfl)

end Held

/-! ## The body's accesses: every load and the one store take the whole buffer -/

abbrev whole8000x64 : Rect S8000x64 := Rect.unit (s := S8000x64) ![0, 0] S8000x64.size inb_S8000x64_S8000x64_0_0
abbrev whole1x64 : Rect S1x64 := Rect.unit (s := S1x64) ![0, 0] S1x64.size inb_S1x64_S1x64_0_0
abbrev whole1x1 : Rect S1x1 := Rect.unit (s := S1x1) ![0, 0] S1x1.size inb_S1x1_S1x1_0_0
abbrev whole8000x1 : Rect S8000x1 := Rect.unit (s := S8000x1) ![0, 0] S8000x1.size inb_S8000x1_S8000x1_0_0

/-! ## What the body leaves in the result block's buffer -/

/-- The result block after the body, from the seven blocks read: h's rows, the means, the variances, the scale,
    the shift, the output weights, the output bias. The body's one store takes the whole buffer, so the buffer
    holds that store's payload — row by row, relu((h − mean) · rsqrt(var + eps) · gamma + beta) contracted with the
    weights, plus the bias. -/
def out16_7 (h : Vec F S8000x64 .f32) (mean var gamma beta wout : Vec F S1x64 .f32) (bout : Vec F S1x1 .f32) :
    Vec F S8000x1 .f32 :=
  View.canon [⟨whole8000x1,
    k16_pay1 (View.ld h whole8000x64) (View.ld mean whole1x64) (View.ld var whole1x64) (View.ld gamma whole1x64)
      (View.ld beta whole1x64) (View.ld wout whole1x64) (View.ld bout whole1x1)⟩]

/-- The one store is the whole buffer, so it covers it. -/
theorem cover16_7 (p : Vec F S8000x1 .f32) (y : S8000x1.Idx) :
    ∃ pc ∈ ([⟨whole8000x1, p⟩] : List (View.Piece (Elt F) S8000x1 .f32)), y ∈ pc.1.set :=
  View.cover_of_tiled [⟨whole8000x1, p⟩] S8000x1.size (by rfl) y

/-! ## The body's triple -/

set_option maxHeartbeats 1000000 in
/-- The body on any eight whole buffers, the seven inputs' at read contents and the result's at anything, runs to
    the continuation holding the inputs' as they were and the result's at out16_7 of them. The body loads the eight
    buffers whole (the result's too: what it reads there goes nowhere) and stores the payload over the result's. -/
theorem sound_kernel16 (c : Dev nD) (E : Set ℕ) (i : grid16.Coords)
    (arg1 : Memref sig .tc .vmem S8000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x1 .f32) (harg7 : arg7.IsWhole) (arg8 : Memref sig .tc .vmem S8000x1 .f32) (harg8 : arg8.IsWhole)
    (h : Vec F S8000x64 .f32) (mean var gamma beta wout : Vec F S1x64 .f32) (bout : Vec F S1x1 .f32) (K : PUnit → sProp 𝕄) :
    iprop(owns (c : Thread nD τ) arg1 fullShare h ∗ owns (c : Thread nD τ) arg2 fullShare mean
        ∗ owns (c : Thread nD τ) arg3 fullShare var ∗ owns (c : Thread nD τ) arg4 fullShare gamma
        ∗ owns (c : Thread nD τ) arg5 fullShare beta ∗ owns (c : Thread nD τ) arg6 fullShare wout
        ∗ owns (c : Thread nD τ) arg7 fullShare bout ∗ (∃ d, owns (c : Thread nD τ) arg8 fullShare d)
        ∗ (iprop(owns (c : Thread nD τ) arg1 fullShare h ∗ owns (c : Thread nD τ) arg2 fullShare mean
            ∗ owns (c : Thread nD τ) arg3 fullShare var ∗ owns (c : Thread nD τ) arg4 fullShare gamma
            ∗ owns (c : Thread nD τ) arg5 fullShare beta ∗ owns (c : Thread nD τ) arg6 fullShare wout
            ∗ owns (c : Thread nD τ) arg7 fullShare bout
            ∗ owns (c : Thread nD τ) arg8 fullShare (out16_7 h mean var gamma beta wout bout)) -∗ K ⟨⟩))
      ⊢ wp frame (wpE (defs₀ (F := F)) Variants.none c none) E
          (cc16__pass2_kernel i arg1 harg1 arg2 harg2 arg3 harg3 arg4 harg4 arg5 harg5 arg6 harg6 arg7 harg7 arg8 harg8) K := by
  simp only [cc16__pass2_kernel_eq_skeleton]; unfold cc16__pass2_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩,
    ⟨%d7, %f7, -, H7⟩, Hk⟩
  subst e0 e1 e2 e3 e4 e5 e6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover16_7 _)

/-! ## The pipeline's proof data -/

/-- The proof data of the normalising pass on core c: the arrays as the region finds them; after the body at
    point t each input's buffer still at its block and the result's at out16_7 of the seven input blocks; the
    invariant the scoped buffers no window stages and the generator register, at whatever they hold (the body
    touches neither); nothing owed; full shares. -/
def dat16 (c : Dev nD) : Dat τ (Elt F) Unit ℕ (Pipeline.UD sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => iblk16 V c 4 t
    | ⟨5, _⟩ => iblk16 V c 5 t
    | ⟨6, _⟩ => iblk16 V c 6 t
    | ⟨7, _⟩ => out16_7 (iblk16 V c 0 t) (iblk16 V c 1 t) (iblk16 V c 2 t) (iblk16 V c 3 t) (iblk16 V c 4 t)
        (iblk16 V c 5 t) (iblk16 V c 6 t)
  Φ _ := Pipeline.ΦA spec16 c
  q _ := fullShare
  owed _ := 0

/-- The proof data's arrays are the region-entry contents. -/
theorem A_eq16 (c : Dev nD) (w : Fin cfg16.W) : (dat16 V c).A w = V c (Pipeline.arrRef spec16 w) := by
  dsimp only [dat16]

/-- What the body leaves, window by window: an input's block where it was, -/
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = iblk16 V c 4 t := by dsimp only [dat16]
theorem after16_5 (c : Dev nD) (t : Fin cfg16.N) : (dat16 V c).after 5 t = iblk16 V c 5 t := by dsimp only [dat16]
theorem after16_6 (c : Dev nD) (t : Fin cfg16.N) : (dat16 V c).after 6 t = iblk16 V c 6 t := by dsimp only [dat16]
/-- and the result block at the pure function of the seven. -/
theorem after16_7 (c : Dev nD) (t : Fin cfg16.N) : (dat16 V c).after 7 t =
    out16_7 (iblk16 V c 0 t) (iblk16 V c 1 t) (iblk16 V c 2 t) (iblk16 V c 3 t) (iblk16 V c 4 t) (iblk16 V c 5 t)
      (iblk16 V c 6 t) := by dsimp only [dat16]

/-- Each input's current buffer holds its block at every point, fetched there or not. -/
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d
theorem before16_4 (c : Dev nD) (t : Fin cfg16.N) (d) : (dat16 V c).before 4 t d = iblk16 V c 4 t :=
  before16_4_of V (dat16 V c) (A_eq16 V c 4) (after16_4 V c) t d
theorem before16_5 (c : Dev nD) (t : Fin cfg16.N) (d) : (dat16 V c).before 5 t d = iblk16 V c 5 t :=
  before16_5_of V (dat16 V c) (A_eq16 V c 5) (after16_5 V c) t d
theorem before16_6 (c : Dev nD) (t : Fin cfg16.N) (d) : (dat16 V c).before 6 t d = iblk16 V c 6 t :=
  before16_6_of V (dat16 V c) (A_eq16 V c 6) (after16_6 V c) t d

/-! ## The body obligation, at a generic point -/

/-- What the body is called with at point t: the invariant, the core's debts, and the eight current buffers,
    each at what it holds when the body runs, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d))
    ∗ (∃ d, owns (c : Thread nD τ) (st16_5 t) fullShare ((dat16 V c).before 5 t d))
    ∗ (∃ d, owns (c : Thread nD τ) (st16_6 t) fullShare ((dat16 V c).before 6 t d))
    ∗ (∃ d, owns (c : Thread nD τ) (st16_7 t) fullShare ((dat16 V c).before 7 t d)))

/-- and what it returns: the same, each buffer at what the body leaves. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t)
    ∗ owns (c : Thread nD τ) (st16_5 t) fullShare ((dat16 V c).after 5 t)
    ∗ owns (c : Thread nD τ) (st16_6 t) fullShare ((dat16 V c).after 6 t)
    ∗ owns (c : Thread nD τ) (st16_7 t) fullShare ((dat16 V c).after 7 t))

/-- The body at any point: the seven input buffers hold their blocks, so the body's triple applies; the invariant
    and the core's debts pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3, before16_4, before16_5, before16_6]
  rw [show (dat16 V c).Φ t.succ = (dat16 V c).Φ t.castSucc from rfl,
    show (dat16 V c).owesAt () t.succ = (dat16 V c).owesAt () t.castSucc from rfl,
    after16_0, after16_1, after16_2, after16_3, after16_4, after16_5, after16_6, after16_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel16 c Set.univ (grid16.coords t) _ _ _ _ _ _ _ _ _ _ _ _ _ _ _ _
    (iblk16 V c 0 t) (iblk16 V c 1 t) (iblk16 V c 2 t) (iblk16 V c 3 t) (iblk16 V c 4 t) (iblk16 V c 5 t) (iblk16 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point of the 125. -/
theorem body_obligation16 (c : Dev nD) : BodyObligation (dat16 (F := F) V c) (defs₀ (F := F)) Variants.none () Set.univ := fun t => by
  rw [bigSep_W16, bigSep_W16]
  exact sound_body16 V c t

/-! ## The result block in closed form -/

/-- The offsets of a whole-buffer access are all zero. -/
theorem zero_offsets : (![0, 0] : Fin 2 → ℕ) = fun _ => 0 := by
  funext a; match a with | ⟨0, _⟩ => rfl | ⟨1, _⟩ => rfl

/-- Every load reads its whole buffer and the one store writes the whole result buffer, so the result block is the
    payload of the seven blocks as they are: no rectangle is left in the term. -/
theorem out16_7_eq (h : Vec F S8000x64 .f32) (mean var gamma beta wout : Vec F S1x64 .f32) (bout : Vec F S1x1 .f32) :
    out16_7 h mean var gamma beta wout bout = k16_pay1 h mean var gamma beta wout bout := by
  unfold out16_7
  rw [View.canon_unit_zero zero_offsets, View.ld_unit_zero zero_offsets, View.ld_unit_zero zero_offsets,
    View.ld_unit_zero zero_offsets, View.ld_unit_zero zero_offsets, View.ld_unit_zero zero_offsets,
    View.ld_unit_zero zero_offsets, View.ld_unit_zero zero_offsets]

end Cert.Kernel.P2

end
-- ==== Proof.AssembleBits.lean ====
/- The whole run of the kernel program, assembled from one record per kernel region.

   The program is 17 kernel regions among 18 stretches of host operations. Between two items a core holds every unscoped
   buffer whole, at the contents `Gen.VJ` (the launch contents, then each host stretch's effect, then what a region leaves at
   the unknowns `outs`), and beside the buffers only its generator register at some state and the fact that it owes nothing
   (`Rr`). Given, for each region K, a segment record entered from the buffers at `V(2K+1)` beside `Rr` and left at
   `V(2K+2)` beside `Rr`, two facts about every weakly fair execution of @main from a memory `m` follow:

   * `frame_of_regs`: it terminates and every argument array ends holding what it held at launch;
   * `run_of_regs`: moreover the result buffer ends holding the last valuation's contents, `V35 m outs c main_v105`.

   What is settled here once for all regions: the user algebra (the staging cells' rounds beside the transfer counters), the
   launch element and how it funds the cells, that no level is assigned and nothing is owed at launch, how the rest `Rr` is
   made on every core at launch, and that it ends owing nothing. -/
import proofs.«400866_j57071525429608_2_alg».proof.Proof.KernelRegions
import Idealize.ShloMosaic.Lib.Pipeline.Kit
import Idealize.ShloMosaic.Lib.Pipeline.Frame
import Idealize.ShloMosaic.Lib.Pipeline.Regions

-- decided memberships among the program's references recurse past the default depth
set_option maxRecDepth 1804

noncomputable section

namespace Cert.Kernel.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel.Gen

variable {F : FTy → Type} [FloatOps F]

local notation "𝕄" => MT nD τ sig Unit (Elt F) ℕ (Pipeline.UD sig nD τ) ℕ

/-! ## The choices made once for the whole run -/

/-- No core waits on another: no pair of semaphores carries a level. -/
abbrev L₀ : GSem nD τ sig → Finset Unit := fun _ => ∅
/-- The (vacuous) level assignment. -/
abbrev lv₀ : GSem nD τ sig → Unit → ℕ := fun _ _ => 0

/-- What a core keeps beside its buffers between two items: its generator register at some state, and nothing owed. -/
abbrev Rr (c : Dev nD) : sProp 𝕄 :=
  iprop((∃ r, prngReg c r) ∗ ∃ W, owes (c : Thread nD τ) (0 : CellTallies nD τ sig Unit) W)

/-- The launch element: the staging cells' initial rounds on the left, the unit of the transfer counters on the right. -/
abbrev u₀ (a : (p : Fin 17) → (pcfgs (F := F) p).Adm) : Pipeline.UD sig nD τ :=
  (initOf (Pipeline.cells (Pipeline.pin (pcfgs (F := F)) a) (cellOf_inj a)) (Pipeline.launchToks (Pipeline.pin (pcfgs (F := F)) a) (cellOf_inj a)), 1)

/-- The launch element yields the cells' initial rounds through the left embedding; no core gets a ghost resource of its
    own (the big product of `emp` is `emp`). -/
theorem fund (a : (p : Fin 17) → (pcfgs (F := F) p).Adm) :
    (ownU (u₀ a) : sProp 𝕄) ⊢ |={Set.univ}=> iprop(BI.own ((embL : Emb _ 𝕄) (initOf (Pipeline.cells (Pipeline.pin (pcfgs (F := F)) a) (cellOf_inj a)) (Pipeline.launchToks (Pipeline.pin (pcfgs (F := F)) a) (cellOf_inj a)))) ∗ bigSep Finset.univ fun _ : Dev nD => (BI.emp : sProp 𝕄)) := by
  rw [BI.bigSep_emp_const]
  iintro Hu
  ihave Hp := (ownU_pair _ _) $$ Hu
  icases Hp with ⟨Hl, -⟩
  imodintro
  isplitl [Hl]
  · iexact Hl
  · iempintro

/-- At launch every core's rest is made at once: its generator register is at the launch state, and it owes the zero tally
    with no wait recorded. -/
theorem rest_init (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L₀ lv₀)
      ⊢ (|={Set.univ}=> bigSep Finset.univ (fun c : Dev nD => Rr (F := F) c) : sProp 𝕄) := by
  refine Pipeline.initEach _ _ fun c => ?_
  iintro ⟨⟨-, Ho, -, Hg, -⟩, -⟩
  imodintro
  isplitl [Hg]
  · iexists (ρ c); iexact Hg
  · iexists ∅; iexact Ho

/-- The rest ends owing nothing. -/
theorem rest_end (c : Dev nD) : Rr (F := F) c ⊢ (iprop(∃ W, owes (c : Thread nD τ) (0 : CellTallies nD τ sig Unit) W) : sProp 𝕄) := by
  iintro ⟨-, Ho⟩
  iexact Ho

/-! ## The regions' records, as hypotheses -/

section Run

variable (m : (ℓ : Loc nD τ sig) → Buf (Elt F) ℓ) (ρ : Dev nD → PrngReg) (outs : Outs (F := F))
  (a : (p : Fin 17) → (pcfgs (F := F) p).Adm)
  (pdats : (p : Fin 17) → (c : Dev nD) → Dat τ (Elt F) Unit ℕ (Pipeline.UD sig nD τ) ℕ (Pipeline.pin (pcfgs (F := F)) a p) c)

variable
  (R0 : RegionSeg (pcfgs (F := F)) a pdats () defs₀ Variants.none L₀ lv₀ 0)
  (hpre0 : ∀ c : Dev nD, iprop(StableHlo.held (c : Thread nD τ) (Pipeline.ucRefs τ sig) (V1 m c) ∗ Rr c) ⊢ R0.pre c)
  (hpost0 : ∀ c : Dev nD, R0.post c ⊢ iprop(StableHlo.held (c : Thread nD τ) (Pipeline.ucRefs τ sig) (V2 m outs c) ∗ Rr c))
  (R1 : RegionSeg (pcfgs (F := F)) a pdats () defs₀ Variants.none L₀ lv₀ 1)
  (hpre1 : ∀ c : Dev nD, iprop(StableHlo.held (c : Thread nD τ) (Pipeline.ucRefs τ sig) (V3 m outs c) ∗ Rr c) ⊢ R1.pre c)
  (hpost1 : ∀ c : Dev nD, R1.post c ⊢ iprop(StableHlo.held (c : Thread nD τ) (Pipeline.ucRefs τ sig) (V4 m outs c) ∗ Rr c))
  (R2 : RegionSeg (pcfgs (F := F)) a pdats () defs₀ Variants.none L₀ lv₀ 2)
  (hpre2 : ∀ c : Dev nD, iprop(StableHlo.held (c : Thread nD τ) (Pipeline.ucRefs τ sig) (V5 m outs c) ∗ Rr c) ⊢ R2.pre c)
  (hpost2 : ∀ c : Dev nD, R2.post c ⊢ iprop(StableHlo.held (c : Thread nD τ) (Pipeline.ucRefs τ sig) (V6 m outs c) ∗ Rr c))
  (R3 : RegionSeg (pcfgs (F := F)) a pdats () defs₀ Variants.none L₀ lv₀ 3)
  (hpre3 : ∀ c : Dev nD, iprop(StableHlo.held (c : Thread nD τ) (Pipeline.ucRefs τ sig) (V7 m outs c) ∗ Rr c) ⊢ R3.pre c)
  (hpost3 : ∀ c : Dev nD, R3.post c ⊢ iprop(StableHlo.held (c : Thread nD τ) (Pipeline.ucRefs τ sig) (V8 m outs c) ∗ Rr c))
  (R4 : RegionSeg (pcfgs (F := F)) a pdats () defs₀ Variants.none L₀ lv₀ 4)
  (hpre4 : ∀ c : Dev nD, iprop(StableHlo.held (c : Thread nD τ) (Pipeline.ucRefs τ sig) (V9 m outs c) ∗ Rr c) ⊢ R4.pre c)
  (hpost4 : ∀ c : Dev nD, R4.post c ⊢ iprop(StableHlo.held (c : Thread nD τ) (Pipeline.ucRefs τ sig) (V10 m outs c) ∗ Rr c))
  (R5 : RegionSeg (pcfgs (F := F)) a pdats () defs₀ Variants.none L₀ lv₀ 5)
  (hpre5 : ∀ c : Dev nD, iprop(StableHlo.held (c : Thread nD τ) (Pipeline.ucRefs τ sig) (V11 m outs c) ∗ Rr c) ⊢ R5.pre c)
  (hpost5 : ∀ c : Dev nD, R5.post c ⊢ iprop(StableHlo.held (c : Thread nD τ) (Pipeline.ucRefs τ sig) (V12 m outs c) ∗ Rr c))
  (R6 : RegionSeg (pcfgs (F := F)) a pdats () defs₀ Variants.none L₀ lv₀ 6)
  (hpre6 : ∀ c : Dev nD, iprop(StableHlo.held (c : Thread nD τ) (Pipeline.ucRefs τ sig) (V13 m outs c) ∗ Rr c) ⊢ R6.pre c)
  (hpost6 : ∀ c : Dev nD, R6.post c ⊢ iprop(StableHlo.held (c : Thread nD τ) (Pipeline.ucRefs τ sig) (V14 m outs c) ∗ Rr c))
  (R7 : RegionSeg (pcfgs (F := F)) a pdats () defs₀ Variants.none L₀ lv₀ 7)
  (hpre7 : ∀ c : Dev nD, iprop(StableHlo.held (c : Thread nD τ) (Pipeline.ucRefs τ sig) (V15 m outs c) ∗ Rr c) ⊢ R7.pre c)
  (hpost7 : ∀ c : Dev nD, R7.post c ⊢ iprop(StableHlo.held (c : Thread nD τ) (Pipeline.ucRefs τ sig) (V16 m outs c) ∗ Rr c))
  (R8 : RegionSeg (pcfgs (F := F)) a pdats () defs₀ Variants.none L₀ lv₀ 8)
  (hpre8 : ∀ c : Dev nD, iprop(StableHlo.held (c : Thread nD τ) (Pipeline.ucRefs τ sig) (V17 m outs c) ∗ Rr c) ⊢ R8.pre c)
  (hpost8 : ∀ c : Dev nD, R8.post c ⊢ iprop(StableHlo.held (c : Thread nD τ) (Pipeline.ucRefs τ sig) (V18 m outs c) ∗ Rr c))
  (R9 : RegionSeg (pcfgs (F := F)) a pdats () defs₀ Variants.none L₀ lv₀ 9)
  (hpre9 : ∀ c : Dev nD, iprop(StableHlo.held (c : Thread nD τ) (Pipeline.ucRefs τ sig) (V19 m outs c) ∗ Rr c) ⊢ R9.pre c)
  (hpost9 : ∀ c : Dev nD, R9.post c ⊢ iprop(StableHlo.held (c : Thread nD τ) (Pipeline.ucRefs τ sig) (V20 m outs c) ∗ Rr c))
  (R10 : RegionSeg (pcfgs (F := F)) a pdats () defs₀ Variants.none L₀ lv₀ 10)
  (hpre10 : ∀ c : Dev nD, iprop(StableHlo.held (c : Thread nD τ) (Pipeline.ucRefs τ sig) (V21 m outs c) ∗ Rr c) ⊢ R10.pre c)
  (hpost10 : ∀ c : Dev nD, R10.post c ⊢ iprop(StableHlo.held (c : Thread nD τ) (Pipeline.ucRefs τ sig) (V22 m outs c) ∗ Rr c))
  (R11 : RegionSeg (pcfgs (F := F)) a pdats () defs₀ Variants.none L₀ lv₀ 11)
  (hpre11 : ∀ c : Dev nD, iprop(StableHlo.held (c : Thread nD τ) (Pipeline.ucRefs τ sig) (V23 m outs c) ∗ Rr c) ⊢ R11.pre c)
  (hpost11 : ∀ c : Dev nD, R11.post c ⊢ iprop(StableHlo.held (c : Thread nD τ) (Pipeline.ucRefs τ sig) (V24 m outs c) ∗ Rr c))
  (R12 : RegionSeg (pcfgs (F := F)) a pdats () defs₀ Variants.none L₀ lv₀ 12)
  (hpre12 : ∀ c : Dev nD, iprop(StableHlo.held (c : Thread nD τ) (Pipeline.ucRefs τ sig) (V25 m outs c) ∗ Rr c) ⊢ R12.pre c)
  (hpost12 : ∀ c : Dev nD, R12.post c ⊢ iprop(StableHlo.held (c : Thread nD τ) (Pipeline.ucRefs τ sig) (V26 m outs c) ∗ Rr c))
  (R13 : RegionSeg (pcfgs (F := F)) a pdats () defs₀ Variants.none L₀ lv₀ 13)
  (hpre13 : ∀ c : Dev nD, iprop(StableHlo.held (c : Thread nD τ) (Pipeline.ucRefs τ sig) (V27 m outs c) ∗ Rr c) ⊢ R13.pre c)
  (hpost13 : ∀ c : Dev nD, R13.post c ⊢ iprop(StableHlo.held (c : Thread nD τ) (Pipeline.ucRefs τ sig) (V28 m outs c) ∗ Rr c))
  (R14 : RegionSeg (pcfgs (F := F)) a pdats () defs₀ Variants.none L₀ lv₀ 14)
  (hpre14 : ∀ c : Dev nD, iprop(StableHlo.held (c : Thread nD τ) (Pipeline.ucRefs τ sig) (V29 m outs c) ∗ Rr c) ⊢ R14.pre c)
  (hpost14 : ∀ c : Dev nD, R14.post c ⊢ iprop(StableHlo.held (c : Thread nD τ) (Pipeline.ucRefs τ sig) (V30 m outs c) ∗ Rr c))
  (R15 : RegionSeg (pcfgs (F := F)) a pdats () defs₀ Variants.none L₀ lv₀ 15)
  (hpre15 : ∀ c : Dev nD, iprop(StableHlo.held (c : Thread nD τ) (Pipeline.ucRefs τ sig) (V31 m outs c) ∗ Rr c) ⊢ R15.pre c)
  (hpost15 : ∀ c : Dev nD, R15.post c ⊢ iprop(StableHlo.held (c : Thread nD τ) (Pipeline.ucRefs τ sig) (V32 m outs c) ∗ Rr c))
  (R16 : RegionSeg (pcfgs (F := F)) a pdats () defs₀ Variants.none L₀ lv₀ 16)
  (hpre16 : ∀ c : Dev nD, iprop(StableHlo.held (c : Thread nD τ) (Pipeline.ucRefs τ sig) (V33 m outs c) ∗ Rr c) ⊢ R16.pre c)
  (hpost16 : ∀ c : Dev nD, R16.post c ⊢ iprop(StableHlo.held (c : Thread nD τ) (Pipeline.ucRefs τ sig) (V34 m outs c) ∗ Rr c))

include hpre0 hpost0 hpre1 hpost1 hpre2 hpost2 hpre3 hpost3 hpre4 hpost4 hpre5 hpost5 hpre6 hpost6 hpre7 hpost7 hpre8 hpost8
  hpre9 hpost9 hpre10 hpost10 hpre11 hpost11 hpre12 hpost12 hpre13 hpost13 hpre14 hpost14 hpre15 hpost15 hpre16 hpost16

/-! ## The frame -/

/-- Every weakly fair execution of @main from `m` with zero counters terminates, and every argument array ends as launched:
    the conditional frame at the choices above, the rest being `Rr` at every boundary. -/
theorem frame_of_regs :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_cond m (EP := (embL : Emb _ 𝕄)) (ι := ()) (𝒱₀ := Variants.none) (L := L₀) (lv := lv₀) (hL := fun _ _ => rfl)
    (ρ := ρ) (outs := outs) (a := a) (pdats := pdats) (O₀ := 0) (G := fun _ => (BI.emp : sProp 𝕄)) (u₀ := u₀ a) (hu₀ := fund a)
    (E := fun _ c => Rr c) (hE0 := rest_init ρ) (hE17 := rest_end)
    R0 hpre0 hpost0 R1 hpre1 hpost1 R2 hpre2 hpost2 R3 hpre3 hpost3 R4 hpre4 hpost4 R5 hpre5 hpost5 R6 hpre6 hpost6
    R7 hpre7 hpost7 R8 hpre8 hpost8 R9 hpre9 hpost9 R10 hpre10 hpost10 R11 hpre11 hpost11 R12 hpre12 hpost12
    R13 hpre13 hpost13 R14 hpre14 hpost14 R15 hpre15 hpost15 R16 hpre16 hpost16

/-! ## The run, naming the result -/

-- the launch theorem's implicit arguments are found by unifying its conclusion with this one, which takes unfolding plain
-- definitions in a metavariable's type
set_option backward.isDefEq.respectTransparency.types false in
/-- The same run, its post also naming the result: beside the arguments ending as launched, the result buffer ends at the
    last valuation's contents (it is an unscoped buffer, so the last thread state holds it whole). The launch over @main's
    items as segments, the thread states chained through the given records, the first made at launch from the launch
    contents beside `rest_init`, the last read against the final state. -/
theorem run_of_regs :
    θ_run defs (onTc (τ := τ) (main (F := F))) ⟨m, fun _ => 0, ρ⟩ (fun r => ∀ c : Dev nD,
      r.2.mem ((c.tc : Thread nD τ).loc main_v105) = V35 m outs c main_v105
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) a pdats () (cellOf_inj a) (embL : Emb _ 𝕄) defs₀ Variants.none L₀ lv₀ m ρ main
    (segs m outs Variants.none L₀ lv₀ (fun _ c => Rr c) () a pdats R0 R1 R2 R3 R4 R5 R6 R7 R8 R9 R10 R11 R12 R13 R14 R15 R16)
    (fun c Q => by
      rewrite [main_chain c, Seg.run_eq_chain,
        show (segs m outs Variants.none L₀ lv₀ (fun _ c => Rr c) () a pdats R0 R1 R2 R3 R4 R5 R6 R7 R8 R9 R10 R11 R12 R13 R14 R15 R16 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16,
          Prog.lift (.customCall (Pipeline.entry 16) ()),
          StableHlo.seq hostOps17 ] from rfl]
      with_reducible exact .rfl)
    (fun c => by simp only [segs, Seg.pipes_host, Seg.pipes_region, Seg.pipes_nil]; decide)
    (0 : Dev nD → CellTallies nD τ sig Unit) (fun _ _ => rfl) (fun _ => (BI.emp : sProp 𝕄)) (u₀ a) (fund a)
    (T₀ := fun c => iprop(StableHlo.held (c : Thread nD τ) (Pipeline.ucRefs τ sig) (V0 m c) ∗ Rr c))
    (Tₙ := fun c => StableHlo.held (c : Thread nD τ) (Pipeline.ucRefs τ sig) (V35 m outs c))
    (hch := fun c => ⟨.rfl, hpre0 c, hpost0 c, hpre1 c, hpost1 c, hpre2 c, hpost2 c, hpre3 c, hpost3 c, hpre4 c, hpost4 c,
      hpre5 c, hpost5 c, hpre6 c, hpost6 c, hpre7 c, hpost7 c, hpre8 c, hpost8 c, hpre9 c, hpost9 c, hpre10 c, hpost10 c,
      hpre11 c, hpost11 c, hpre12 c, hpost12 c, hpre13 c, hpost13 c, hpre14 c, hpost14 c, hpre15 c, hpost15 c,
      hpre16 c, hpost16 c, sep_mono .rfl (rest_end c)⟩)
    (hinit := ?_)
    (QY := fun c s => s.mem ((c.tc : Thread nD τ).loc main_v105) = V35 m outs c main_v105
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9))
    (hfin := fun c s' => ?_) (hQ := fun _ h => h)
  · -- the launch, core by core: the unscoped buffers at the launch memory are the first thread state's buffers at `V0`;
    -- the generator register and the zero tally make the rest
    refine Pipeline.initEach _ _ fun c => ?_
    rw [show unscopedBufs c (fun b => m ((c.tc : Thread nD τ).loc b)) = StableHlo.held (c : Thread nD τ) (Pipeline.ucRefs τ sig) (V0 m c)
      from Pipeline.unscopedBufs_held c (V0 m c)]
    iintro ⟨⟨Hb, -, Ho, -, Hg, -⟩, -⟩
    imodintro
    isplitl [Hb]
    · iexact Hb
    isplitl [Hg]
    · iexists (ρ c); iexact Hg
    · iexists ∅; iexact Ho
  · -- the end: every unscoped buffer of the final memory agrees with the last valuation; the result is one of them, and
    -- each argument's contents walk back through the valuations to the launch memory
    unfold StableHlo.held
    iintro ⟨Hh, HSI⟩
    ihave Hr := (pointsTo_read_all (Pipeline.ucRefs τ sig) (fun b => ((c : Thread nD τ).1, b)) (V35 m outs c) s') $$ [Hh HSI]
    · isplitl [Hh] <;> iassumption
    icases Hr with ⟨%h, HSI⟩
    imodintro
    isplitr
    · ipureintro
      exact ⟨h (Proc.devRef .tc main_v105) (Finset.mem_filter.mpr ⟨StableHlo.devRef_mem_tcRefs main_v105, by decide⟩),
        (h (Proc.devRef .tc main_arg0) (Finset.mem_filter.mpr ⟨StableHlo.devRef_mem_tcRefs main_arg0, by decide⟩)).trans (V35_main_arg0 m outs c),
        (h (Proc.devRef .tc main_arg1) (Finset.mem_filter.mpr ⟨StableHlo.devRef_mem_tcRefs main_arg1, by decide⟩)).trans (V35_main_arg1 m outs c),
        (h (Proc.devRef .tc main_arg2) (Finset.mem_filter.mpr ⟨StableHlo.devRef_mem_tcRefs main_arg2, by decide⟩)).trans (V35_main_arg2 m outs c),
        (h (Proc.devRef .tc main_arg3) (Finset.mem_filter.mpr ⟨StableHlo.devRef_mem_tcRefs main_arg3, by decide⟩)).trans (V35_main_arg3 m outs c),
        (h (Proc.devRef .tc main_arg4) (Finset.mem_filter.mpr ⟨StableHlo.devRef_mem_tcRefs main_arg4, by decide⟩)).trans (V35_main_arg4 m outs c),
        (h (Proc.devRef .tc main_arg5) (Finset.mem_filter.mpr ⟨StableHlo.devRef_mem_tcRefs main_arg5, by decide⟩)).trans (V35_main_arg5 m outs c),
        (h (Proc.devRef .tc main_arg6) (Finset.mem_filter.mpr ⟨StableHlo.devRef_mem_tcRefs main_arg6, by decide⟩)).trans (V35_main_arg6 m outs c),
        (h (Proc.devRef .tc main_arg7) (Finset.mem_filter.mpr ⟨StableHlo.devRef_mem_tcRefs main_arg7, by decide⟩)).trans (V35_main_arg7 m outs c),
        (h (Proc.devRef .tc main_arg8) (Finset.mem_filter.mpr ⟨StableHlo.devRef_mem_tcRefs main_arg8, by decide⟩)).trans (V35_main_arg8 m outs c),
        (h (Proc.devRef .tc main_arg9) (Finset.mem_filter.mpr ⟨StableHlo.devRef_mem_tcRefs main_arg9, by decide⟩)).trans (V35_main_arg9 m outs c)⟩
    · iexact HSI

end Run

end Cert.Kernel.Asm

end
-- ==== Proof.Reg16Bits.lean ====
/-
  The normalising pass as one segment of the program's run.

  Between two items of the program a core holds every unscoped buffer whole, at some contents, and beside them only
  its generator register and the fact that it owes nothing. The last kernel region is entered from the buffers at
  contents Win and leaves them at Wout: the pipeline's eight arrays are taken out of the buffers at entry and put back
  at exit, where each holds what the pipeline's write-backs made of it (for the seven inputs: what it held; for the
  result array: every block written once) and every other buffer holds what it held; the generator register goes
  into the region's invariant and comes back; the region names no semaphore of its own and nothing is owed.

  Stated for ANY entry and exit contents that are related so (hF, hrest) and any family of proof data whose
  member for this pipeline is the one over the entry contents (hpd), so that the run may instantiate them.
-/
import proofs.«400866_j57071525429608_2_alg».proof.Proof.Pass2Bits
import proofs.«400866_j57071525429608_2_alg».proof.Proof.AssembleBits
import Idealize.ShloMosaic.Lib.Pipeline.RegionsLoop

set_option maxRecDepth 16384

noncomputable section

namespace Cert.Kernel.Glue

open Cert.Kernel Cert.Kernel.Gen Cert.Kernel.P2 Cert.Kernel.Asm
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (Pipeline.UD sig nD τ) ℕ

/-- Contents of all of a core's buffers, read at the TensorCore's references only: what a region's proof data take. -/
abbrev atTc (W : Dev nD → Valuation τ sig (Elt F)) : (c : Dev nD) → (b : Ref sig .tc) → Buf (Elt F) ((c : Thread nD τ).loc b) :=
  fun c b => W c b

section Reg16

variable (a : (p : Fin 17) → (pcfgs (F := F) p).Adm)
  (pdats : (p : Fin 17) → (c : Dev nD) → Dat τ (Elt F) Unit ℕ (Pipeline.UD sig nD τ) ℕ (Pipeline.pin (pcfgs (F := F)) a p) c)
  (Win Wout : Dev nD → Valuation τ sig (Elt F))
  (hpd : ∀ c, pdats 16 c = dat16 (atTc Win) c)
  (hF : ∀ c w, (dat16 (atTc Win) c).arrAt w cfg16.N = Wout c (Pipeline.arrRef spec16 w))
  (hrest : ∀ c (b : Ref sig .tc), b ∉ Finset.univ.image (Pipeline.arrRef spec16) → Wout c b = Win c b)
include hpd hF hrest

set_option backward.isDefEq.respectTransparency.types false in
/-- The last region over the thread state: entered from every unscoped buffer at Win beside the rest, left at Wout
    beside the rest. -/
def reg16 : RegionSeg (pcfgs (F := F)) a pdats () defs₀ Variants.none L₀ lv₀ 16 where
  win := (launch16 (F := F)).win.to₀
  block_pos := (launch16 (F := F)).block_pos
  stage_whole := (launch16 (F := F)).stage_whole
  K := PEmpty
  osem k := k.elim
  ho := Pipeline.OwnSemFacts.none _
  hbody c := by rw [hpd c]; exact (body_obligation16 (atTc Win) c).loose
  hwaits := Pipeline.hwaits_of_owed_zero _ _ _ _ L₀ lv₀ 16 fun c _ => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop(∃ r, prngReg c r)
  Y c := iprop(∃ r, prngReg c r)
  Z c := Pipeline.unscopedRest (Ix := Unit) (Name := ℕ) (U := Pipeline.UD sig nD τ) (Lvl := ℕ) spec16 c (atTc Win c)
  hentry c := by
    rw [Pipeline.ownSems0_none]
    have hsplit := Pipeline.arrays_of_unscopedBufs (p := 16) (pcfgs (F := F)) a pdats (launch16 (F := F)).win (launch16 (F := F)).arr_whole c
      ((pdats 16 c).share_full fun _ => by rw [hpd c]; rfl) (atTc Win c) fun w => by rw [hpd c]; exact A_eq16 (atTc Win) c w
    rw [Pipeline.unscopedBufs_held] at hsplit
    rw [hpd c] at hsplit ⊢
    iintro ⟨⟨Hbufs, Hgen, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%S, Howes⟩; iexists S; isplitr; · ipureintro; exact fun _ _ => Or.inl trivial
      iexact Howes
    isplitl [Hgen]; · iexact Hgen
    iexact Hrest
  hin c := by
    rw [show (pdats 16 c).Φ 0 = Pipeline.ΦA spec16 c from by rw [hpd c]; rfl]; unfold Pipeline.ΦA
    iintro ⟨Hgen, -, Hscoped⟩
    isplitl [Hscoped]; · iexact Hscoped
    iexact Hgen
  hout c := by
    rw [Pipeline.ownSems0_none, show (pdats 16 c).Φ (Fin.last _) = Pipeline.ΦA spec16 c from by rw [hpd c]; rfl]; unfold Pipeline.ΦA
    iintro ⟨Hscoped, Hgen⟩
    isplitl [Hgen]; · iexact Hgen
    isplitr; · iempintro
    iexact Hscoped
  hexit c := by
    have hjoin := Pipeline.unscopedBufs_of_arrays (p := 16) (pcfgs (F := F)) a (Ix := Unit) (Name := ℕ) (U := Pipeline.UD sig nD τ) (Lvl := ℕ)
      (launch16 (F := F)).win (launch16 (F := F)).arr_whole c pdats ((pdats 16 c).share_full fun _ => by rw [hpd c]; rfl)
      (atTc Win c) (atTc Wout c) ((pdats 16 c).arrAt · cfg16.N) (fun w => by rw [hpd c]; exact hF c w) (hrest c)
    rw [Pipeline.unscopedBufs_held] at hjoin
    rw [hpd c] at hjoin ⊢
    iintro ⟨Harr, Howes, Hgen, Hrest⟩
    imodintro
    isplitl [Harr Hrest]
    · iapply hjoin; isplitl [Harr] <;> iassumption
    isplitl [Hgen]; · iexact Hgen
    unfold Pipeline.Dat.owesAt Pipeline.owesWithin
    icases Howes with ⟨%S, -, Howes⟩; iexists S; iexact Howes

/-- The segment is entered from and left at exactly the thread states named. -/
theorem reg16_pre (c : Dev nD) : (reg16 a pdats Win Wout hpd hF hrest).pre c
    = iprop(StableHlo.held (c : Thread nD τ) (Pipeline.ucRefs τ sig) (Win c) ∗ Rr c) := by rfl
theorem reg16_post (c : Dev nD) : (reg16 a pdats Win Wout hpd hF hrest).post c
    = iprop(StableHlo.held (c : Thread nD τ) (Pipeline.ucRefs τ sig) (Wout c) ∗ Rr c) := by rfl

end Reg16

end Cert.Kernel.Glue

end
-- ==== Proof.TblFactsBits.lean ====
/-
  The prefetched tables hold node numbers. The edge endpoints are an integer array of shape [2 × 1000000]; the host
  operations take row 0 and row 1, flatten each to length 1000000, and cut each into sixteen consecutive pieces of
  62500 entries: piece K of row 0 and piece K of row 1 are the two tables the K-th pass-1 region reads its row numbers
  from. Every entry of every such table is therefore an entry of the endpoint array, so a bound on all endpoints is a
  bound on all table entries. The contents of the buffers between the program's items are the valuations `V0`, `V1`,
  …; the regions change only their own outputs, so the flattened rows stay what the first host operations made them.

  Stated over a hypothesis `hE` (every endpoint, read as a natural number, is below 100000), which the precondition
  gives; generic in the float instance, since only integer buffers are read.
-/
import proofs.«400866_j57071525429608_2_alg».proof.Proof.KernelRegions

set_option maxRecDepth 1804

noncomputable section

namespace Cert.Kernel.Tbl

open Idealize.ShloMosaic Idealize.ShloMosaic.TcCoe Cert.Kernel Cert.Kernel.Gen

variable {F : FTy → Type} [FloatOps F]
variable (m : (ℓ : Loc nD τ sig) → Buf (Elt F) ℓ) (outs : Outs (F := F))

/-- The edge endpoints on core `c` at launch, as an integer array. -/
abbrev edges (c : Dev nD) : IVec S2x1000000 32 := V0 m c main_arg1

/-! ## The two flattened rows -/

/-- Row 0 of the endpoints, flattened: what the first host operations leave in `main_v1`. -/
theorem V1_main_v1 (c : Dev nD) :
    (V1 m c main_v1 : IVec S1000000 32)
      = shapeCast S1000000 (extractStridedSlice S1x1000000 ![0, 0] (edges m c) slices_S2x1000000_S1x1000000_0_0)
          shapeCasts_S1x1000000_S1000000 := by
  show StableHlo.after hostOps0 (V0 m c) (Proc.devRef .tc main_v1) = _
  simp only [hostOps0]
  after_results
  rfl

/-- Row 1 of the endpoints, flattened: `main_v3`. -/
theorem V1_main_v3 (c : Dev nD) :
    (V1 m c main_v3 : IVec S1000000 32)
      = shapeCast S1000000 (extractStridedSlice S1x1000000 ![1, 0] (edges m c) slices_S2x1000000_S1x1000000_1_0)
          shapeCasts_S1x1000000_S1000000 := by
  show StableHlo.after hostOps0 (V0 m c) (Proc.devRef .tc main_v3) = _
  simp only [hostOps0]
  after_results
  rfl

/-! ## Region 0: the tables are the first pieces -/

/-- Region 0's first table is entries [0, 62500) of flattened row 0. -/
theorem tbl_0a_eq (c : Dev nD) :
    (V1 m c main_v11 : IVec S62500 32)
      = extractStridedSlice S62500 ![0] (V1 m c main_v1 : IVec S1000000 32) slices_S1000000_S62500_0 := by
  rw [V1_main_v1]
  show StableHlo.after hostOps0 (V0 m c) (Proc.devRef .tc main_v11) = _
  simp only [hostOps0]
  after_results
  rfl

/-- Region 0's second table is entries [0, 62500) of flattened row 1. -/
theorem tbl_0b_eq (c : Dev nD) :
    (V1 m c main_v12 : IVec S62500 32)
      = extractStridedSlice S62500 ![0] (V1 m c main_v3 : IVec S1000000 32) slices_S1000000_S62500_0 := by
  rw [V1_main_v3]
  show StableHlo.after hostOps0 (V0 m c) (Proc.devRef .tc main_v12) = _
  simp only [hostOps0]
  after_results
  rfl

/-! ## Region 1: the flattened rows are untouched by region 0, and the tables are the second pieces -/

theorem V2_v1 (c : Dev nD) : V2 m outs c main_v1 = V1 m c main_v1 := V2_of m outs c main_v1 (by decide)
theorem V2_v3 (c : Dev nD) : V2 m outs c main_v3 = V1 m c main_v3 := V2_of m outs c main_v3 (by decide)

/-- Region 1's first table is entries [62500, 125000) of flattened row 0. -/
theorem tbl_1a_eq (c : Dev nD) :
    (V3 m outs c main_v14 : IVec S62500 32)
      = extractStridedSlice S62500 ![62500] (V1 m c main_v1 : IVec S1000000 32) slices_S1000000_S62500_62500 := by
  rw [← V2_v1 m outs c]
  show StableHlo.after hostOps1 (V2 m outs c) (Proc.devRef .tc main_v14) = _
  simp only [hostOps1]
  after_results

/-- Region 1's second table is entries [62500, 125000) of flattened row 1. -/
theorem tbl_1b_eq (c : Dev nD) :
    (V3 m outs c main_v15 : IVec S62500 32)
      = extractStridedSlice S62500 ![62500] (V1 m c main_v3 : IVec S1000000 32) slices_S1000000_S62500_62500 := by
  rw [← V2_v3 m outs c]
  show StableHlo.after hostOps1 (V2 m outs c) (Proc.devRef .tc main_v15) = _
  simp only [hostOps1]
  after_results

/-! ## Regions 2 to 15: the same, piece by piece -/

theorem V4_v1 (c : Dev nD) : V4 m outs c main_v1 = V1 m c main_v1 :=
  (V4_of m outs c main_v1 (by decide)).trans ((V3_of m outs c main_v1 (by decide)).trans (V2_v1 m outs c))
theorem V4_v3 (c : Dev nD) : V4 m outs c main_v3 = V1 m c main_v3 :=
  (V4_of m outs c main_v3 (by decide)).trans ((V3_of m outs c main_v3 (by decide)).trans (V2_v3 m outs c))

/-- Region 2's first table is entries [125000, 187500) of flattened row 0. -/
theorem tbl_2a_eq (c : Dev nD) :
    (V5 m outs c main_v17 : IVec S62500 32)
      = extractStridedSlice S62500 ![125000] (V1 m c main_v1 : IVec S1000000 32) slices_S1000000_S62500_125000 := by
  rw [← V4_v1 m outs c]
  show StableHlo.after hostOps2 (V4 m outs c) (Proc.devRef .tc main_v17) = _
  simp only [hostOps2]
  after_results

/-- Region 2's second table is entries [125000, 187500) of flattened row 1. -/
theorem tbl_2b_eq (c : Dev nD) :
    (V5 m outs c main_v18 : IVec S62500 32)
      = extractStridedSlice S62500 ![125000] (V1 m c main_v3 : IVec S1000000 32) slices_S1000000_S62500_125000 := by
  rw [← V4_v3 m outs c]
  show StableHlo.after hostOps2 (V4 m outs c) (Proc.devRef .tc main_v18) = _
  simp only [hostOps2]
  after_results

theorem V6_v1 (c : Dev nD) : V6 m outs c main_v1 = V1 m c main_v1 :=
  (V6_of m outs c main_v1 (by decide)).trans ((V5_of m outs c main_v1 (by decide)).trans (V4_v1 m outs c))
theorem V6_v3 (c : Dev nD) : V6 m outs c main_v3 = V1 m c main_v3 :=
  (V6_of m outs c main_v3 (by decide)).trans ((V5_of m outs c main_v3 (by decide)).trans (V4_v3 m outs c))

/-- Region 3's first table is entries [187500, 250000) of flattened row 0. -/
theorem tbl_3a_eq (c : Dev nD) :
    (V7 m outs c main_v20 : IVec S62500 32)
      = extractStridedSlice S62500 ![187500] (V1 m c main_v1 : IVec S1000000 32) slices_S1000000_S62500_187500 := by
  rw [← V6_v1 m outs c]
  show StableHlo.after hostOps3 (V6 m outs c) (Proc.devRef .tc main_v20) = _
  simp only [hostOps3]
  after_results

/-- Region 3's second table is entries [187500, 250000) of flattened row 1. -/
theorem tbl_3b_eq (c : Dev nD) :
    (V7 m outs c main_v21 : IVec S62500 32)
      = extractStridedSlice S62500 ![187500] (V1 m c main_v3 : IVec S1000000 32) slices_S1000000_S62500_187500 := by
  rw [← V6_v3 m outs c]
  show StableHlo.after hostOps3 (V6 m outs c) (Proc.devRef .tc main_v21) = _
  simp only [hostOps3]
  after_results

theorem V8_v1 (c : Dev nD) : V8 m outs c main_v1 = V1 m c main_v1 :=
  (V8_of m outs c main_v1 (by decide)).trans ((V7_of m outs c main_v1 (by decide)).trans (V6_v1 m outs c))
theorem V8_v3 (c : Dev nD) : V8 m outs c main_v3 = V1 m c main_v3 :=
  (V8_of m outs c main_v3 (by decide)).trans ((V7_of m outs c main_v3 (by decide)).trans (V6_v3 m outs c))

/-- Region 4's first table is entries [250000, 312500) of flattened row 0. -/
theorem tbl_4a_eq (c : Dev nD) :
    (V9 m outs c main_v23 : IVec S62500 32)
      = extractStridedSlice S62500 ![250000] (V1 m c main_v1 : IVec S1000000 32) slices_S1000000_S62500_250000 := by
  rw [← V8_v1 m outs c]
  show StableHlo.after hostOps4 (V8 m outs c) (Proc.devRef .tc main_v23) = _
  simp only [hostOps4]
  after_results

/-- Region 4's second table is entries [250000, 312500) of flattened row 1. -/
theorem tbl_4b_eq (c : Dev nD) :
    (V9 m outs c main_v24 : IVec S62500 32)
      = extractStridedSlice S62500 ![250000] (V1 m c main_v3 : IVec S1000000 32) slices_S1000000_S62500_250000 := by
  rw [← V8_v3 m outs c]
  show StableHlo.after hostOps4 (V8 m outs c) (Proc.devRef .tc main_v24) = _
  simp only [hostOps4]
  after_results

theorem V10_v1 (c : Dev nD) : V10 m outs c main_v1 = V1 m c main_v1 :=
  (V10_of m outs c main_v1 (by decide)).trans ((V9_of m outs c main_v1 (by decide)).trans (V8_v1 m outs c))
theorem V10_v3 (c : Dev nD) : V10 m outs c main_v3 = V1 m c main_v3 :=
  (V10_of m outs c main_v3 (by decide)).trans ((V9_of m outs c main_v3 (by decide)).trans (V8_v3 m outs c))

/-- Region 5's first table is entries [312500, 375000) of flattened row 0. -/
theorem tbl_5a_eq (c : Dev nD) :
    (V11 m outs c main_v26 : IVec S62500 32)
      = extractStridedSlice S62500 ![312500] (V1 m c main_v1 : IVec S1000000 32) slices_S1000000_S62500_312500 := by
  rw [← V10_v1 m outs c]
  show StableHlo.after hostOps5 (V10 m outs c) (Proc.devRef .tc main_v26) = _
  simp only [hostOps5]
  after_results

/-- Region 5's second table is entries [312500, 375000) of flattened row 1. -/
theorem tbl_5b_eq (c : Dev nD) :
    (V11 m outs c main_v27 : IVec S62500 32)
      = extractStridedSlice S62500 ![312500] (V1 m c main_v3 : IVec S1000000 32) slices_S1000000_S62500_312500 := by
  rw [← V10_v3 m outs c]
  show StableHlo.after hostOps5 (V10 m outs c) (Proc.devRef .tc main_v27) = _
  simp only [hostOps5]
  after_results

theorem V12_v1 (c : Dev nD) : V12 m outs c main_v1 = V1 m c main_v1 :=
  (V12_of m outs c main_v1 (by decide)).trans ((V11_of m outs c main_v1 (by decide)).trans (V10_v1 m outs c))
theorem V12_v3 (c : Dev nD) : V12 m outs c main_v3 = V1 m c main_v3 :=
  (V12_of m outs c main_v3 (by decide)).trans ((V11_of m outs c main_v3 (by decide)).trans (V10_v3 m outs c))

/-- Region 6's first table is entries [375000, 437500) of flattened row 0. -/
theorem tbl_6a_eq (c : Dev nD) :
    (V13 m outs c main_v29 : IVec S62500 32)
      = extractStridedSlice S62500 ![375000] (V1 m c main_v1 : IVec S1000000 32) slices_S1000000_S62500_375000 := by
  rw [← V12_v1 m outs c]
  show StableHlo.after hostOps6 (V12 m outs c) (Proc.devRef .tc main_v29) = _
  simp only [hostOps6]
  after_results

/-- Region 6's second table is entries [375000, 437500) of flattened row 1. -/
theorem tbl_6b_eq (c : Dev nD) :
    (V13 m outs c main_v30 : IVec S62500 32)
      = extractStridedSlice S62500 ![375000] (V1 m c main_v3 : IVec S1000000 32) slices_S1000000_S62500_375000 := by
  rw [← V12_v3 m outs c]
  show StableHlo.after hostOps6 (V12 m outs c) (Proc.devRef .tc main_v30) = _
  simp only [hostOps6]
  after_results

theorem V14_v1 (c : Dev nD) : V14 m outs c main_v1 = V1 m c main_v1 :=
  (V14_of m outs c main_v1 (by decide)).trans ((V13_of m outs c main_v1 (by decide)).trans (V12_v1 m outs c))
theorem V14_v3 (c : Dev nD) : V14 m outs c main_v3 = V1 m c main_v3 :=
  (V14_of m outs c main_v3 (by decide)).trans ((V13_of m outs c main_v3 (by decide)).trans (V12_v3 m outs c))

/-- Region 7's first table is entries [437500, 500000) of flattened row 0. -/
theorem tbl_7a_eq (c : Dev nD) :
    (V15 m outs c main_v32 : IVec S62500 32)
      = extractStridedSlice S62500 ![437500] (V1 m c main_v1 : IVec S1000000 32) slices_S1000000_S62500_437500 := by
  rw [← V14_v1 m outs c]
  show StableHlo.after hostOps7 (V14 m outs c) (Proc.devRef .tc main_v32) = _
  simp only [hostOps7]
  after_results

/-- Region 7's second table is entries [437500, 500000) of flattened row 1. -/
theorem tbl_7b_eq (c : Dev nD) :
    (V15 m outs c main_v33 : IVec S62500 32)
      = extractStridedSlice S62500 ![437500] (V1 m c main_v3 : IVec S1000000 32) slices_S1000000_S62500_437500 := by
  rw [← V14_v3 m outs c]
  show StableHlo.after hostOps7 (V14 m outs c) (Proc.devRef .tc main_v33) = _
  simp only [hostOps7]
  after_results

theorem V16_v1 (c : Dev nD) : V16 m outs c main_v1 = V1 m c main_v1 :=
  (V16_of m outs c main_v1 (by decide)).trans ((V15_of m outs c main_v1 (by decide)).trans (V14_v1 m outs c))
theorem V16_v3 (c : Dev nD) : V16 m outs c main_v3 = V1 m c main_v3 :=
  (V16_of m outs c main_v3 (by decide)).trans ((V15_of m outs c main_v3 (by decide)).trans (V14_v3 m outs c))

/-- Region 8's first table is entries [500000, 562500) of flattened row 0. -/
theorem tbl_8a_eq (c : Dev nD) :
    (V17 m outs c main_v35 : IVec S62500 32)
      = extractStridedSlice S62500 ![500000] (V1 m c main_v1 : IVec S1000000 32) slices_S1000000_S62500_500000 := by
  rw [← V16_v1 m outs c]
  show StableHlo.after hostOps8 (V16 m outs c) (Proc.devRef .tc main_v35) = _
  simp only [hostOps8]
  after_results

/-- Region 8's second table is entries [500000, 562500) of flattened row 1. -/
theorem tbl_8b_eq (c : Dev nD) :
    (V17 m outs c main_v36 : IVec S62500 32)
      = extractStridedSlice S62500 ![500000] (V1 m c main_v3 : IVec S1000000 32) slices_S1000000_S62500_500000 := by
  rw [← V16_v3 m outs c]
  show StableHlo.after hostOps8 (V16 m outs c) (Proc.devRef .tc main_v36) = _
  simp only [hostOps8]
  after_results

theorem V18_v1 (c : Dev nD) : V18 m outs c main_v1 = V1 m c main_v1 :=
  (V18_of m outs c main_v1 (by decide)).trans ((V17_of m outs c main_v1 (by decide)).trans (V16_v1 m outs c))
theorem V18_v3 (c : Dev nD) : V18 m outs c main_v3 = V1 m c main_v3 :=
  (V18_of m outs c main_v3 (by decide)).trans ((V17_of m outs c main_v3 (by decide)).trans (V16_v3 m outs c))

/-- Region 9's first table is entries [562500, 625000) of flattened row 0. -/
theorem tbl_9a_eq (c : Dev nD) :
    (V19 m outs c main_v38 : IVec S62500 32)
      = extractStridedSlice S62500 ![562500] (V1 m c main_v1 : IVec S1000000 32) slices_S1000000_S62500_562500 := by
  rw [← V18_v1 m outs c]
  show StableHlo.after hostOps9 (V18 m outs c) (Proc.devRef .tc main_v38) = _
  simp only [hostOps9]
  after_results

/-- Region 9's second table is entries [562500, 625000) of flattened row 1. -/
theorem tbl_9b_eq (c : Dev nD) :
    (V19 m outs c main_v39 : IVec S62500 32)
      = extractStridedSlice S62500 ![562500] (V1 m c main_v3 : IVec S1000000 32) slices_S1000000_S62500_562500 := by
  rw [← V18_v3 m outs c]
  show StableHlo.after hostOps9 (V18 m outs c) (Proc.devRef .tc main_v39) = _
  simp only [hostOps9]
  after_results

theorem V20_v1 (c : Dev nD) : V20 m outs c main_v1 = V1 m c main_v1 :=
  (V20_of m outs c main_v1 (by decide)).trans ((V19_of m outs c main_v1 (by decide)).trans (V18_v1 m outs c))
theorem V20_v3 (c : Dev nD) : V20 m outs c main_v3 = V1 m c main_v3 :=
  (V20_of m outs c main_v3 (by decide)).trans ((V19_of m outs c main_v3 (by decide)).trans (V18_v3 m outs c))

/-- Region 10's first table is entries [625000, 687500) of flattened row 0. -/
theorem tbl_10a_eq (c : Dev nD) :
    (V21 m outs c main_v41 : IVec S62500 32)
      = extractStridedSlice S62500 ![625000] (V1 m c main_v1 : IVec S1000000 32) slices_S1000000_S62500_625000 := by
  rw [← V20_v1 m outs c]
  show StableHlo.after hostOps10 (V20 m outs c) (Proc.devRef .tc main_v41) = _
  simp only [hostOps10]
  after_results

/-- Region 10's second table is entries [625000, 687500) of flattened row 1. -/
theorem tbl_10b_eq (c : Dev nD) :
    (V21 m outs c main_v42 : IVec S62500 32)
      = extractStridedSlice S62500 ![625000] (V1 m c main_v3 : IVec S1000000 32) slices_S1000000_S62500_625000 := by
  rw [← V20_v3 m outs c]
  show StableHlo.after hostOps10 (V20 m outs c) (Proc.devRef .tc main_v42) = _
  simp only [hostOps10]
  after_results

theorem V22_v1 (c : Dev nD) : V22 m outs c main_v1 = V1 m c main_v1 :=
  (V22_of m outs c main_v1 (by decide)).trans ((V21_of m outs c main_v1 (by decide)).trans (V20_v1 m outs c))
theorem V22_v3 (c : Dev nD) : V22 m outs c main_v3 = V1 m c main_v3 :=
  (V22_of m outs c main_v3 (by decide)).trans ((V21_of m outs c main_v3 (by decide)).trans (V20_v3 m outs c))

/-- Region 11's first table is entries [687500, 750000) of flattened row 0. -/
theorem tbl_11a_eq (c : Dev nD) :
    (V23 m outs c main_v44 : IVec S62500 32)
      = extractStridedSlice S62500 ![687500] (V1 m c main_v1 : IVec S1000000 32) slices_S1000000_S62500_687500 := by
  rw [← V22_v1 m outs c]
  show StableHlo.after hostOps11 (V22 m outs c) (Proc.devRef .tc main_v44) = _
  simp only [hostOps11]
  after_results

/-- Region 11's second table is entries [687500, 750000) of flattened row 1. -/
theorem tbl_11b_eq (c : Dev nD) :
    (V23 m outs c main_v45 : IVec S62500 32)
      = extractStridedSlice S62500 ![687500] (V1 m c main_v3 : IVec S1000000 32) slices_S1000000_S62500_687500 := by
  rw [← V22_v3 m outs c]
  show StableHlo.after hostOps11 (V22 m outs c) (Proc.devRef .tc main_v45) = _
  simp only [hostOps11]
  after_results

theorem V24_v1 (c : Dev nD) : V24 m outs c main_v1 = V1 m c main_v1 :=
  (V24_of m outs c main_v1 (by decide)).trans ((V23_of m outs c main_v1 (by decide)).trans (V22_v1 m outs c))
theorem V24_v3 (c : Dev nD) : V24 m outs c main_v3 = V1 m c main_v3 :=
  (V24_of m outs c main_v3 (by decide)).trans ((V23_of m outs c main_v3 (by decide)).trans (V22_v3 m outs c))

/-- Region 12's first table is entries [750000, 812500) of flattened row 0. -/
theorem tbl_12a_eq (c : Dev nD) :
    (V25 m outs c main_v47 : IVec S62500 32)
      = extractStridedSlice S62500 ![750000] (V1 m c main_v1 : IVec S1000000 32) slices_S1000000_S62500_750000 := by
  rw [← V24_v1 m outs c]
  show StableHlo.after hostOps12 (V24 m outs c) (Proc.devRef .tc main_v47) = _
  simp only [hostOps12]
  after_results

/-- Region 12's second table is entries [750000, 812500) of flattened row 1. -/
theorem tbl_12b_eq (c : Dev nD) :
    (V25 m outs c main_v48 : IVec S62500 32)
      = extractStridedSlice S62500 ![750000] (V1 m c main_v3 : IVec S1000000 32) slices_S1000000_S62500_750000 := by
  rw [← V24_v3 m outs c]
  show StableHlo.after hostOps12 (V24 m outs c) (Proc.devRef .tc main_v48) = _
  simp only [hostOps12]
  after_results

theorem V26_v1 (c : Dev nD) : V26 m outs c main_v1 = V1 m c main_v1 :=
  (V26_of m outs c main_v1 (by decide)).trans ((V25_of m outs c main_v1 (by decide)).trans (V24_v1 m outs c))
theorem V26_v3 (c : Dev nD) : V26 m outs c main_v3 = V1 m c main_v3 :=
  (V26_of m outs c main_v3 (by decide)).trans ((V25_of m outs c main_v3 (by decide)).trans (V24_v3 m outs c))

/-- Region 13's first table is entries [812500, 875000) of flattened row 0. -/
theorem tbl_13a_eq (c : Dev nD) :
    (V27 m outs c main_v50 : IVec S62500 32)
      = extractStridedSlice S62500 ![812500] (V1 m c main_v1 : IVec S1000000 32) slices_S1000000_S62500_812500 := by
  rw [← V26_v1 m outs c]
  show StableHlo.after hostOps13 (V26 m outs c) (Proc.devRef .tc main_v50) = _
  simp only [hostOps13]
  after_results

/-- Region 13's second table is entries [812500, 875000) of flattened row 1. -/
theorem tbl_13b_eq (c : Dev nD) :
    (V27 m outs c main_v51 : IVec S62500 32)
      = extractStridedSlice S62500 ![812500] (V1 m c main_v3 : IVec S1000000 32) slices_S1000000_S62500_812500 := by
  rw [← V26_v3 m outs c]
  show StableHlo.after hostOps13 (V26 m outs c) (Proc.devRef .tc main_v51) = _
  simp only [hostOps13]
  after_results

theorem V28_v1 (c : Dev nD) : V28 m outs c main_v1 = V1 m c main_v1 :=
  (V28_of m outs c main_v1 (by decide)).trans ((V27_of m outs c main_v1 (by decide)).trans (V26_v1 m outs c))
theorem V28_v3 (c : Dev nD) : V28 m outs c main_v3 = V1 m c main_v3 :=
  (V28_of m outs c main_v3 (by decide)).trans ((V27_of m outs c main_v3 (by decide)).trans (V26_v3 m outs c))

/-- Region 14's first table is entries [875000, 937500) of flattened row 0. -/
theorem tbl_14a_eq (c : Dev nD) :
    (V29 m outs c main_v53 : IVec S62500 32)
      = extractStridedSlice S62500 ![875000] (V1 m c main_v1 : IVec S1000000 32) slices_S1000000_S62500_875000 := by
  rw [← V28_v1 m outs c]
  show StableHlo.after hostOps14 (V28 m outs c) (Proc.devRef .tc main_v53) = _
  simp only [hostOps14]
  after_results

/-- Region 14's second table is entries [875000, 937500) of flattened row 1. -/
theorem tbl_14b_eq (c : Dev nD) :
    (V29 m outs c main_v54 : IVec S62500 32)
      = extractStridedSlice S62500 ![875000] (V1 m c main_v3 : IVec S1000000 32) slices_S1000000_S62500_875000 := by
  rw [← V28_v3 m outs c]
  show StableHlo.after hostOps14 (V28 m outs c) (Proc.devRef .tc main_v54) = _
  simp only [hostOps14]
  after_results

theorem V30_v1 (c : Dev nD) : V30 m outs c main_v1 = V1 m c main_v1 :=
  (V30_of m outs c main_v1 (by decide)).trans ((V29_of m outs c main_v1 (by decide)).trans (V28_v1 m outs c))
theorem V30_v3 (c : Dev nD) : V30 m outs c main_v3 = V1 m c main_v3 :=
  (V30_of m outs c main_v3 (by decide)).trans ((V29_of m outs c main_v3 (by decide)).trans (V28_v3 m outs c))

/-- Region 15's first table is entries [937500, 1000000) of flattened row 0. -/
theorem tbl_15a_eq (c : Dev nD) :
    (V31 m outs c main_v56 : IVec S62500 32)
      = extractStridedSlice S62500 ![937500] (V1 m c main_v1 : IVec S1000000 32) slices_S1000000_S62500_937500 := by
  rw [← V30_v1 m outs c]
  show StableHlo.after hostOps15 (V30 m outs c) (Proc.devRef .tc main_v56) = _
  simp only [hostOps15]
  after_results

/-- Region 15's second table is entries [937500, 1000000) of flattened row 1. -/
theorem tbl_15b_eq (c : Dev nD) :
    (V31 m outs c main_v57 : IVec S62500 32)
      = extractStridedSlice S62500 ![937500] (V1 m c main_v3 : IVec S1000000 32) slices_S1000000_S62500_937500 := by
  rw [← V30_v3 m outs c]
  show StableHlo.after hostOps15 (V30 m outs c) (Proc.devRef .tc main_v57) = _
  simp only [hostOps15]
  after_results

/-! ## The bound -/

section Bounded

variable (c : Dev nD) (hE : ∀ idx : S2x1000000.Idx, (edges m c idx).toNat < 100000)
include hE

/-- Every entry of flattened row 0 is an endpoint. -/
theorem row0_lt (i : S1000000.Idx) : ((V1 m c main_v1 : IVec S1000000 32) i).toNat < 100000 := by
  rw [V1_main_v1]; exact hE _

/-- Every entry of flattened row 1 is an endpoint. -/
theorem row1_lt (i : S1000000.Idx) : ((V1 m c main_v3 : IVec S1000000 32) i).toNat < 100000 := by
  rw [V1_main_v3]; exact hE _

theorem tbl_lt_0a (j : S62500.Idx) : ((V1 m c main_v11 : IVec S62500 32) j).toNat < 100000 := by
  rw [tbl_0a_eq]; exact row0_lt m c hE _
theorem tbl_lt_0b (j : S62500.Idx) : ((V1 m c main_v12 : IVec S62500 32) j).toNat < 100000 := by
  rw [tbl_0b_eq]; exact row1_lt m c hE _

theorem tbl_lt_1a (j : S62500.Idx) : ((V3 m outs c main_v14 : IVec S62500 32) j).toNat < 100000 := by
  rw [tbl_1a_eq]; exact row0_lt m c hE _
theorem tbl_lt_1b (j : S62500.Idx) : ((V3 m outs c main_v15 : IVec S62500 32) j).toNat < 100000 := by
  rw [tbl_1b_eq]; exact row1_lt m c hE _

theorem tbl_lt_2a (j : S62500.Idx) : ((V5 m outs c main_v17 : IVec S62500 32) j).toNat < 100000 := by
  rw [tbl_2a_eq]; exact row0_lt m c hE _
theorem tbl_lt_2b (j : S62500.Idx) : ((V5 m outs c main_v18 : IVec S62500 32) j).toNat < 100000 := by
  rw [tbl_2b_eq]; exact row1_lt m c hE _
theorem tbl_lt_3a (j : S62500.Idx) : ((V7 m outs c main_v20 : IVec S62500 32) j).toNat < 100000 := by
  rw [tbl_3a_eq]; exact row0_lt m c hE _
theorem tbl_lt_3b (j : S62500.Idx) : ((V7 m outs c main_v21 : IVec S62500 32) j).toNat < 100000 := by
  rw [tbl_3b_eq]; exact row1_lt m c hE _
theorem tbl_lt_4a (j : S62500.Idx) : ((V9 m outs c main_v23 : IVec S62500 32) j).toNat < 100000 := by
  rw [tbl_4a_eq]; exact row0_lt m c hE _
theorem tbl_lt_4b (j : S62500.Idx) : ((V9 m outs c main_v24 : IVec S62500 32) j).toNat < 100000 := by
  rw [tbl_4b_eq]; exact row1_lt m c hE _
theorem tbl_lt_5a (j : S62500.Idx) : ((V11 m outs c main_v26 : IVec S62500 32) j).toNat < 100000 := by
  rw [tbl_5a_eq]; exact row0_lt m c hE _
theorem tbl_lt_5b (j : S62500.Idx) : ((V11 m outs c main_v27 : IVec S62500 32) j).toNat < 100000 := by
  rw [tbl_5b_eq]; exact row1_lt m c hE _
theorem tbl_lt_6a (j : S62500.Idx) : ((V13 m outs c main_v29 : IVec S62500 32) j).toNat < 100000 := by
  rw [tbl_6a_eq]; exact row0_lt m c hE _
theorem tbl_lt_6b (j : S62500.Idx) : ((V13 m outs c main_v30 : IVec S62500 32) j).toNat < 100000 := by
  rw [tbl_6b_eq]; exact row1_lt m c hE _
theorem tbl_lt_7a (j : S62500.Idx) : ((V15 m outs c main_v32 : IVec S62500 32) j).toNat < 100000 := by
  rw [tbl_7a_eq]; exact row0_lt m c hE _
theorem tbl_lt_7b (j : S62500.Idx) : ((V15 m outs c main_v33 : IVec S62500 32) j).toNat < 100000 := by
  rw [tbl_7b_eq]; exact row1_lt m c hE _
theorem tbl_lt_8a (j : S62500.Idx) : ((V17 m outs c main_v35 : IVec S62500 32) j).toNat < 100000 := by
  rw [tbl_8a_eq]; exact row0_lt m c hE _
theorem tbl_lt_8b (j : S62500.Idx) : ((V17 m outs c main_v36 : IVec S62500 32) j).toNat < 100000 := by
  rw [tbl_8b_eq]; exact row1_lt m c hE _
theorem tbl_lt_9a (j : S62500.Idx) : ((V19 m outs c main_v38 : IVec S62500 32) j).toNat < 100000 := by
  rw [tbl_9a_eq]; exact row0_lt m c hE _
theorem tbl_lt_9b (j : S62500.Idx) : ((V19 m outs c main_v39 : IVec S62500 32) j).toNat < 100000 := by
  rw [tbl_9b_eq]; exact row1_lt m c hE _
theorem tbl_lt_10a (j : S62500.Idx) : ((V21 m outs c main_v41 : IVec S62500 32) j).toNat < 100000 := by
  rw [tbl_10a_eq]; exact row0_lt m c hE _
theorem tbl_lt_10b (j : S62500.Idx) : ((V21 m outs c main_v42 : IVec S62500 32) j).toNat < 100000 := by
  rw [tbl_10b_eq]; exact row1_lt m c hE _
theorem tbl_lt_11a (j : S62500.Idx) : ((V23 m outs c main_v44 : IVec S62500 32) j).toNat < 100000 := by
  rw [tbl_11a_eq]; exact row0_lt m c hE _
theorem tbl_lt_11b (j : S62500.Idx) : ((V23 m outs c main_v45 : IVec S62500 32) j).toNat < 100000 := by
  rw [tbl_11b_eq]; exact row1_lt m c hE _
theorem tbl_lt_12a (j : S62500.Idx) : ((V25 m outs c main_v47 : IVec S62500 32) j).toNat < 100000 := by
  rw [tbl_12a_eq]; exact row0_lt m c hE _
theorem tbl_lt_12b (j : S62500.Idx) : ((V25 m outs c main_v48 : IVec S62500 32) j).toNat < 100000 := by
  rw [tbl_12b_eq]; exact row1_lt m c hE _
theorem tbl_lt_13a (j : S62500.Idx) : ((V27 m outs c main_v50 : IVec S62500 32) j).toNat < 100000 := by
  rw [tbl_13a_eq]; exact row0_lt m c hE _
theorem tbl_lt_13b (j : S62500.Idx) : ((V27 m outs c main_v51 : IVec S62500 32) j).toNat < 100000 := by
  rw [tbl_13b_eq]; exact row1_lt m c hE _
theorem tbl_lt_14a (j : S62500.Idx) : ((V29 m outs c main_v53 : IVec S62500 32) j).toNat < 100000 := by
  rw [tbl_14a_eq]; exact row0_lt m c hE _
theorem tbl_lt_14b (j : S62500.Idx) : ((V29 m outs c main_v54 : IVec S62500 32) j).toNat < 100000 := by
  rw [tbl_14b_eq]; exact row1_lt m c hE _
theorem tbl_lt_15a (j : S62500.Idx) : ((V31 m outs c main_v56 : IVec S62500 32) j).toNat < 100000 := by
  rw [tbl_15a_eq]; exact row0_lt m c hE _
theorem tbl_lt_15b (j : S62500.Idx) : ((V31 m outs c main_v57 : IVec S62500 32) j).toNat < 100000 := by
  rw [tbl_15b_eq]; exact row1_lt m c hE _

end Bounded

end Cert.Kernel.Tbl

end
-- ==== Proof.B1Run.lean ====
/-
  The gather-and-project kernel (one chunk of 62500 edges per launch; the sixteen launches print one and the same body):
  one grid point's body, run symbolically over ANY whole index tables, node-feature array, hidden array and semaphore
  triple, so that one run serves every launch.
  At point i the body reads the two endpoint indices of the chunk's edge i from the two index tables, copies the two rows of the
  node-feature array they name into scratch (each copy started and awaited at once), forms
  h = relu(row₀·W₁ᵀ + row₁·W₂ᵀ + b_in)·W_hᵀ + b_h, copies h into row i of the hidden array, and adds h and h·h to the
  two resident accumulators — which it first sets to zero when i = 0. Two cases, by whether i = 0. Each run hands back,
  as its witness, the pieces stored to the two accumulators and to the hidden row's scratch; the hidden array ends with
  row i overwritten by that row.
-/
import proofs.«400866_j57071525429608_2_alg».proof.Proof.Gen.Kernel.Launch
import proofs.«400866_j57071525429608_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.P1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A memref's buffer on core `c`: its contents type, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body's one branch: taken exactly when the grid coordinate is zero. -/
abbrev cond0_0 (i : grid0.Coords) : Prop := (Scalar.cmpi .ne (Scalar.extui (Scalar.cmpi .eq (BitVec.ofNat 32 (i 0).val) 0#32)) 0#32) = 1#1

/-- The body's three copy semaphores, as it addresses them in the semaphore array it is handed. -/
abbrev semAt (sems : DmaSems sig S3) (k : Fin 3) : SemLoc sig :=
  match k with
  | 0 => .dma ((sems.slice (Rect.unit (s := S3) ![0] S1.size inb_S3_S1_0)).squeeze S_ squeezes_S1_S_).sem
  | 1 => .dma ((sems.slice (Rect.unit (s := S3) ![1] S1.size inb_S3_S1_1)).squeeze S_ squeezes_S1_S_).sem
  | 2 => .dma ((sems.slice (Rect.unit (s := S3) ![2] S1.size inb_S3_S1_2)).squeeze S_ squeezes_S1_S_).sem

-- The two index tables, the node-feature array and the hidden array the body is handed: any whole memrefs.
variable (tb0 : Memref sig .tc .smem S62500 .i32) (htb0 : tb0.IsWhole) (tb1 : Memref sig .tc .smem S62500 .i32) (htb1 : tb1.IsWhole)
  (xM : Memref sig .tc .hbm S100000x128 .f32) (hxM : xM.IsWhole) (hM : Memref sig .tc .hbm S62500x64 .f32) (hhM : hM.IsWhole)
  (sems : DmaSems sig S3)

/-- The word of the first endpoints' table that point `i` reads, and the word of the second's. -/
abbrev tw0 (c : Dev nD) (i : grid0.Coords) (pf0 : Bf (F := F) c tb0) : BitVec 32 :=
  View.readAt (Elt F) tb0.view (Rect.unit (s := S62500) (k0_off1 i) S1.size (k0_off1_inb i)).toLoadRect pf0
    (Shape.Idx.first (numel1_S1.symm ▸ Nat.one_pos))
abbrev tw1 (c : Dev nD) (i : grid0.Coords) (pf1 : Bf (F := F) c tb1) : BitVec 32 :=
  View.readAt (Elt F) tb1.view (Rect.unit (s := S62500) (k0_off3 i) S1.size (k0_off3_inb i)).toLoadRect pf1
    (Shape.Idx.first (numel1_S1.symm ▸ Nat.one_pos))

/-- A fixed view of the hidden row's shape, through which a row's contents are stated (the choice does not matter:
    a read after covering writes forgets the view and what was there before). -/
abbrev VS : View sig .tc .vmem S1x64 .f32 := (Memref.whole cc0_stg5_0 : Memref sig .tc .vmem S1x64 .f32).view

/-- The hidden array with row `i` overwritten by `blk`. -/
def hNext (c : Dev nD) (i : grid0.Coords) (fh : Bf (F := F) c hM) (blk : Vec F S1x64 .f32) : Bf (F := F) c hM :=
  View.write (Elt F) (hM.slice (Rect.unit (s := S62500x64) (k0_off5 i) S1x64.size (k0_off5_inb i)) (fun _ => rfl)).view fh (ReadAs.same.apply blk) Finset.univ

/-- Copying out a row that was just stored whole: what the scratch held before, and through which view it is read,
    does not matter. -/
theorem hNext_eq (c : Dev nD) (i : grid0.Coords) (fh : Bf (F := F) c hM) (v : View sig .tc .vmem S1x64 .f32) (f : v.ty.Contents (Elt F))
    (L : List (View.Piece (Elt F) S1x64 .f32)) (hcover : ∀ y, ∃ p ∈ L, y ∈ p.1.set) :
    View.write (Elt F) (hM.slice (Rect.unit (s := S62500x64) (k0_off5 i) S1x64.size (k0_off5_inb i)) (fun _ => rfl)).view fh
        (ReadAs.same.apply (View.read (Elt F) v (v.writes (Elt F) f L))) Finset.univ
      = hNext hM c i fh (VS.read (Elt F) (VS.writes (Elt F) VS.junk L)) := by
  unfold hNext
  rw [View.read_writes_of_cover v f VS VS.junk L hcover]

set_option maxHeartbeats 4000000 in
/-- The body where i = 0: the accumulators start from anything (the body zeroes them first). -/
noncomputable def runA (c : Dev nD) (i : grid0.Coords)
    (arg4 : Memref sig .tc .vmem S64x128 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S64x64 .f32) (harg7 : arg7.IsWhole)
    (arg8 : Memref sig .tc .vmem S1x64 .f32) (harg8 : arg8.IsWhole)
    (arg10 : Memref sig .tc .vmem S1x64 .f32) (harg10 : arg10.IsWhole) (arg11 : Memref sig .tc .vmem S1x64 .f32) (harg11 : arg11.IsWhole)
    (arg12 : Memref sig .tc .vmem S1x128 .f32) (harg12 : arg12.IsWhole) (arg13 : Memref sig .tc .vmem S1x128 .f32) (harg13 : arg13.IsWhole)
    (arg14 : Memref sig .tc .vmem S1x64 .f32) (harg14 : arg14.IsWhole)
    (hc0 : cond0_0 i) (x0 : Vec F S64x128 .f32) (x1 : Vec F S64x128 .f32) (x2 : Vec F S1x64 .f32) (x3 : Vec F S64x64 .f32) (x4 : Vec F S1x64 .f32)
    (pf0 : Bf (F := F) c tb0) (pf1 : Bf (F := F) c tb1) (fx : Bf (F := F) c xM) (fh : Bf (F := F) c hM)
    (hw0 : k0_chk1 (tw0 tb0 c i pf0)) (hw1 : k0_chk2 (tw1 tb1 c i pf1)) :
    Σ' (L5 : List (View.Piece (Elt F) S1x64 .f32)) (L6 : List (View.Piece (Elt F) S1x64 .f32)) (L14 : List (View.Piece (Elt F) S1x64 .f32)),
      ∀ (W : Waits sig Unit) (K : PUnit → sProp 𝕄),
        iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4
            ∗ (∃ d, owns (c : Thread nD τ) arg10 fullShare d) ∗ (∃ d, owns (c : Thread nD τ) arg11 fullShare d)
            ∗ (∃ d, owns (c : Thread nD τ) arg12 fullShare d) ∗ (∃ d, owns (c : Thread nD τ) arg13 fullShare d) ∗ (∃ d, owns (c : Thread nD τ) arg14 fullShare d)
            ∗ semVal ((c : Thread nD τ), semAt sems 0) 0 ∗ semVal ((c : Thread nD τ), semAt sems 1) 0 ∗ semVal ((c : Thread nD τ), semAt sems 2) 0
            ∗ pt c tb0 pf0 ∗ pt c tb1 pf1 ∗ pt c xM fx ∗ pt c hM fh ∗ owes (c : Thread nD τ) 0 W
            ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4
            ∗ (∃ f, arg10.view.loc (c : Thread nD τ) ↦[arg10.view.set]{fullShare} arg10.view.writes (Elt F) f L5)
            ∗ (∃ f, arg11.view.loc (c : Thread nD τ) ↦[arg11.view.set]{fullShare} arg11.view.writes (Elt F) f L6)
            ∗ (∃ d, owns (c : Thread nD τ) arg12 fullShare d) ∗ (∃ d, owns (c : Thread nD τ) arg13 fullShare d)
            ∗ (∃ f, arg14.view.loc (c : Thread nD τ) ↦[arg14.view.set]{fullShare} arg14.view.writes (Elt F) f L14)
            ∗ semVal ((c : Thread nD τ), semAt sems 0) 0 ∗ semVal ((c : Thread nD τ), semAt sems 1) 0 ∗ semVal ((c : Thread nD τ), semAt sems 2) 0
            ∗ pt c tb0 pf0 ∗ pt c tb1 pf1 ∗ pt c xM fx
            ∗ (∃ fh', ⌜fh' = hNext hM c i fh (VS.read (Elt F) (VS.writes (Elt F) VS.junk L14))⌝ ∗ pt c hM fh') ∗ (∃ W', owes (c : Thread nD τ) 0 W')) -∗ K ⟨⟩))
          ⊢ wp frame (wpE (defs₀ (F := F)) Variants.none c none) Set.univ
              (cc0__pass1_kernel i tb0 htb0 tb1 htb1 xM hxM arg4 harg4 arg5 harg5 arg6 harg6 arg7 harg7 arg8 harg8 hM hhM arg10 harg10 arg11 harg11 arg12 harg12 arg13 harg13 arg14 harg14 sems) K := by
  refine ⟨?_, ?_, ?_, fun W K => ?run⟩
  case run =>
    simp only [cc0__pass1_kernel_eq_skeleton]; unfold cc0__pass1_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, Hq0, Hq1, Hq2, Ht0, Ht1, Hx, Hh, HW, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc0 | sl_exact hw0 | sl_exact hw1 | exact hw0 | exact hw1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [H6]; · iexists _; iexact H6
    isplitl [HS0]
    · iexists _, _; isplitr; swap; · iexact HS0
      ipureintro; rfl
    isplitl [HS1]
    · iexists _, _; isplitr; swap; · iexact HS1
      ipureintro; rfl
    isplitl [HS2]; · iexists _; iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]
    · iexists _; isplitr; swap; · iexact Hh
      ipureintro
      sl_unfold_words
      exact hNext_eq hM c i fh _ _ _ (View.cover_of_tiledL _ S1x64.size (by sl_kernel_rfl))
    iexists _; iexact HW

set_option maxHeartbeats 4000000 in
/-- The body where i ≠ 0: the accumulators are read at their running contents. -/
noncomputable def runB (c : Dev nD) (i : grid0.Coords)
    (arg4 : Memref sig .tc .vmem S64x128 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S64x64 .f32) (harg7 : arg7.IsWhole)
    (arg8 : Memref sig .tc .vmem S1x64 .f32) (harg8 : arg8.IsWhole)
    (arg10 : Memref sig .tc .vmem S1x64 .f32) (harg10 : arg10.IsWhole) (arg11 : Memref sig .tc .vmem S1x64 .f32) (harg11 : arg11.IsWhole)
    (arg12 : Memref sig .tc .vmem S1x128 .f32) (harg12 : arg12.IsWhole) (arg13 : Memref sig .tc .vmem S1x128 .f32) (harg13 : arg13.IsWhole)
    (arg14 : Memref sig .tc .vmem S1x64 .f32) (harg14 : arg14.IsWhole)
    (hc0 : ¬cond0_0 i) (x0 : Vec F S64x128 .f32) (x1 : Vec F S64x128 .f32) (x2 : Vec F S1x64 .f32) (x3 : Vec F S64x64 .f32) (x4 : Vec F S1x64 .f32) (xo5 : Vec F S1x64 .f32) (xo6 : Vec F S1x64 .f32)
    (pf0 : Bf (F := F) c tb0) (pf1 : Bf (F := F) c tb1) (fx : Bf (F := F) c xM) (fh : Bf (F := F) c hM)
    (hw0 : k0_chk1 (tw0 tb0 c i pf0)) (hw1 : k0_chk2 (tw1 tb1 c i pf1)) :
    Σ' (L5 : List (View.Piece (Elt F) S1x64 .f32)) (L6 : List (View.Piece (Elt F) S1x64 .f32)) (L14 : List (View.Piece (Elt F) S1x64 .f32)),
      ∀ (W : Waits sig Unit) (K : PUnit → sProp 𝕄),
        iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4
            ∗ owns (c : Thread nD τ) arg10 fullShare xo5 ∗ owns (c : Thread nD τ) arg11 fullShare xo6
            ∗ (∃ d, owns (c : Thread nD τ) arg12 fullShare d) ∗ (∃ d, owns (c : Thread nD τ) arg13 fullShare d) ∗ (∃ d, owns (c : Thread nD τ) arg14 fullShare d)
            ∗ semVal ((c : Thread nD τ), semAt sems 0) 0 ∗ semVal ((c : Thread nD τ), semAt sems 1) 0 ∗ semVal ((c : Thread nD τ), semAt sems 2) 0
            ∗ pt c tb0 pf0 ∗ pt c tb1 pf1 ∗ pt c xM fx ∗ pt c hM fh ∗ owes (c : Thread nD τ) 0 W
            ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4
            ∗ (∃ f, arg10.view.loc (c : Thread nD τ) ↦[arg10.view.set]{fullShare} arg10.view.writes (Elt F) f L5)
            ∗ (∃ f, arg11.view.loc (c : Thread nD τ) ↦[arg11.view.set]{fullShare} arg11.view.writes (Elt F) f L6)
            ∗ (∃ d, owns (c : Thread nD τ) arg12 fullShare d) ∗ (∃ d, owns (c : Thread nD τ) arg13 fullShare d)
            ∗ (∃ f, arg14.view.loc (c : Thread nD τ) ↦[arg14.view.set]{fullShare} arg14.view.writes (Elt F) f L14)
            ∗ semVal ((c : Thread nD τ), semAt sems 0) 0 ∗ semVal ((c : Thread nD τ), semAt sems 1) 0 ∗ semVal ((c : Thread nD τ), semAt sems 2) 0
            ∗ pt c tb0 pf0 ∗ pt c tb1 pf1 ∗ pt c xM fx
            ∗ (∃ fh', ⌜fh' = hNext hM c i fh (VS.read (Elt F) (VS.writes (Elt F) VS.junk L14))⌝ ∗ pt c hM fh') ∗ (∃ W', owes (c : Thread nD τ) 0 W')) -∗ K ⟨⟩))
          ⊢ wp frame (wpE (defs₀ (F := F)) Variants.none c none) Set.univ
              (cc0__pass1_kernel i tb0 htb0 tb1 htb1 xM hxM arg4 harg4 arg5 harg5 arg6 harg6 arg7 harg7 arg8 harg8 hM hhM arg10 harg10 arg11 harg11 arg12 harg12 arg13 harg13 arg14 harg14 sems) K := by
  refine ⟨?_, ?_, ?_, fun W K => ?run⟩
  case run =>
    simp only [cc0__pass1_kernel_eq_skeleton]; unfold cc0__pass1_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hq0, Hq1, Hq2, Ht0, Ht1, Hx, Hh, HW, Hk⟩
    obtain rfl := harg4.eq_unread hf0; obtain rfl := harg5.eq_unread hf1; obtain rfl := harg6.eq_unread hf2; obtain rfl := harg7.eq_unread hf3; obtain rfl := harg8.eq_unread hf4
    obtain rfl := harg10.eq_unread hf5; obtain rfl := harg11.eq_unread hf6
    sl_exec (disch := first | sl_exact hc0 | sl_exact hw0 | sl_exact hw1 | exact hw0 | exact hw1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [H6]; · iexists _; iexact H6
    isplitl [HS0]
    · iexists _, _; isplitr; swap; · iexact HS0
      ipureintro; rfl
    isplitl [HS1]
    · iexists _, _; isplitr; swap; · iexact HS1
      ipureintro; rfl
    isplitl [HS2]; · iexists _; iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]
    · iexists _; isplitr; swap; · iexact Hh
      ipureintro
      sl_unfold_words
      exact hNext_eq hM c i fh _ _ _ (View.cover_of_tiledL _ S1x64.size (by sl_kernel_rfl))
    iexists _; iexact HW

end Cert.Kernel.P1

end
-- ==== Proof.B1Pieces.lean ====
/-
  The gather-and-project body, one grid point: what it leaves, as values, over any whole index tables,
  node-feature array and hidden array.

  At point i the body reads word i of each endpoint table, fetches the two rows of the node-feature
  array those words name, and leaves three things: the running sum plus the hidden row, the running
  sum of squares plus the hidden row's square, and the hidden row itself (written to row i of the
  hidden array). At the first point the two running sums start from the zero fill. Each of these is
  the body's arithmetic applied to the two fetched rows and the five parameter blocks: a store that
  covers its buffer leaves exactly its payload, a load of a buffer that was stored whole reads what was
  stored, and a load of an untouched parameter buffer reads the block it holds. Read at an index, the
  table word is the table's entry i, a fetched row is the node-feature array's row at that word, and
  the hidden array with row i overwritten reads the new row at row i and its old contents elsewhere.
-/
import proofs.«400866_j57071525429608_2_alg».proof.Proof.B1Run
import Idealize.ShloMosaic.Lib.Pipeline.Value
import Idealize.ShloMosaic.Lib.Tactic
import Idealize.ShloMosaic.Lib.ValueIdx

set_option maxRecDepth 100000

noncomputable section

namespace Cert.Kernel.P1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl

/-- A load of the whole shape after one store of the whole shape reads the stored contents. -/
theorem readCov_whole {Val : EltTy → Type} [∀ e, Nonempty (Val e)] {sig' : RefSig} {κ : Kind} {sp : Space} {S : Shape} {e : EltTy}
    (v : View sig' κ sp S e) {off : Fin S.rank → Nat} (h : off = fun _ => 0)
    (inb : ∀ a, off a + S.size a ≤ S.size a) (w : S.Idx → Val e) :
    v.readCov [(⟨Rect.whole S, w⟩ : View.Piece Val S e)] (Rect.unit off S.size inb).toLoadRect = w := by
  subst h
  exact View.readCov_unit_zero v rfl _ w

variable (tb0 : Memref sig .tc .smem S62500 .i32) (htb0 : tb0.IsWhole) (tb1 : Memref sig .tc .smem S62500 .i32) (htb1 : tb1.IsWhole)
  (xM : Memref sig .tc .hbm S100000x128 .f32) (hxM : xM.IsWhole) (hM : Memref sig .tc .hbm S62500x64 .f32) (hhM : hM.IsWhole)
  (sems : DmaSems sig S3)

/-- The first endpoint's row of the node-feature array at point i. -/
def rowAt0 (c : Dev nD) (i : grid0.Coords) (pf0 : Bf (F := F) c tb0) (fx : Bf (F := F) c xM) (hw0 : k0_chk1 (tw0 tb0 c i pf0)) :
    Vec F S1x128 .f32 :=
  View.read (Elt F) (xM.slice (Rect.unit (s := S100000x128) (k0_off2 (tw0 tb0 c i pf0)) S1x128.size
    (k0_off2_inb (tw0 tb0 c i pf0) hw0)) (fun _ => rfl)).view fx

/-- The second endpoint's row of the node-feature array at point i. -/
def rowAt1 (c : Dev nD) (i : grid0.Coords) (pf1 : Bf (F := F) c tb1) (fx : Bf (F := F) c xM) (hw1 : k0_chk2 (tw1 tb1 c i pf1)) :
    Vec F S1x128 .f32 :=
  View.read (Elt F) (xM.slice (Rect.unit (s := S100000x128) (k0_off4 (tw1 tb1 c i pf1)) S1x128.size
    (k0_off4_inb (tw1 tb1 c i pf1) hw1)) (fun _ => rfl)).view fx

/-! ## The table words, the fetched rows and the hidden array, at an index -/

/-- A word that names a row of the node-feature array is below 100000. -/
theorem toNat_lt_of_chk1 {w : BitVec 32} (h : k0_chk1 w) : w.toNat < 100000 := by
  have h0 : w.toNat + 1 ≤ 100000 := h 0
  omega

theorem toNat_lt_of_chk2 {w : BitVec 32} (h : k0_chk2 w) : w.toNat < 100000 := by
  have h0 : w.toNat + 1 ≤ 100000 := h 0
  omega

/-- The grid coordinate is below 62500. -/
theorem coord_lt (i : grid0.Coords) : (i 0).val < 62500 := (i 0).isLt

/-- The coordinate as a 32-bit word and back. -/
theorem coord_word (i : grid0.Coords) : (BitVec.ofNat 32 (i 0).val).toNat = (i 0).val := by
  have := coord_lt i
  rw [BitVec.toNat_ofNat, Nat.mod_eq_of_lt (by omega)]

/-- The word point i reads of the first table is the table's entry i. -/
theorem tw0_eq (c : Dev nD) (i : grid0.Coords) (pf0 : Bf (F := F) c tb0) :
    tw0 tb0 c i pf0 = tb0.view.read (Elt F) pf0 (ValueIdx.ix1 (⟨(i 0).val, coord_lt i⟩ : Fin 62500)) := by
  show tb0.view.read (Elt F) pf0 _ = tb0.view.read (Elt F) pf0 _
  refine congrArg (tb0.view.read (Elt F) pf0) (funext fun a => Fin.ext ?_)
  match a with
  | ⟨0, _⟩ =>
    show (BitVec.ofNat 32 (i 0).val).toNat + 1 * 0 = (i 0).val
    rw [coord_word]; omega

/-- The word point i reads of the second table is the table's entry i. -/
theorem tw1_eq (c : Dev nD) (i : grid0.Coords) (pf1 : Bf (F := F) c tb1) :
    tw1 tb1 c i pf1 = tb1.view.read (Elt F) pf1 (ValueIdx.ix1 (⟨(i 0).val, coord_lt i⟩ : Fin 62500)) := by
  show tb1.view.read (Elt F) pf1 _ = tb1.view.read (Elt F) pf1 _
  refine congrArg (tb1.view.read (Elt F) pf1) (funext fun a => Fin.ext ?_)
  match a with
  | ⟨0, _⟩ =>
    show (BitVec.ofNat 32 (i 0).val).toNat + 1 * 0 = (i 0).val
    rw [coord_word]; omega

/-- The first fetched row at feature k' is the node-feature array at (word, k'). -/
theorem rowAt0_apply (c : Dev nD) (i : grid0.Coords) (pf0 : Bf (F := F) c tb0) (fx : Bf (F := F) c xM)
    (hw0 : k0_chk1 (tw0 tb0 c i pf0)) (k' : Fin 128) :
    rowAt0 tb0 xM c i pf0 fx hw0 (ValueIdx.ix2 (0 : Fin 1) k')
      = xM.view.read (Elt F) fx (ValueIdx.ix2 (⟨(tw0 tb0 c i pf0).toNat, toNat_lt_of_chk1 hw0⟩ : Fin 100000) k') := by
  unfold rowAt0
  show xM.view.read (Elt F) fx _ = xM.view.read (Elt F) fx _
  refine congrArg (xM.view.read (Elt F) fx) (funext fun a => Fin.ext ?_)
  match a with
  | ⟨0, _⟩ => show (tw0 tb0 c i pf0).toNat + 1 * 0 = (tw0 tb0 c i pf0).toNat; omega
  | ⟨1, _⟩ => show 0 + 1 * k'.val = k'.val; omega

/-- The second fetched row at feature k' is the node-feature array at (word, k'). -/
theorem rowAt1_apply (c : Dev nD) (i : grid0.Coords) (pf1 : Bf (F := F) c tb1) (fx : Bf (F := F) c xM)
    (hw1 : k0_chk2 (tw1 tb1 c i pf1)) (k' : Fin 128) :
    rowAt1 tb1 xM c i pf1 fx hw1 (ValueIdx.ix2 (0 : Fin 1) k')
      = xM.view.read (Elt F) fx (ValueIdx.ix2 (⟨(tw1 tb1 c i pf1).toNat, toNat_lt_of_chk2 hw1⟩ : Fin 100000) k') := by
  unfold rowAt1
  show xM.view.read (Elt F) fx _ = xM.view.read (Elt F) fx _
  refine congrArg (xM.view.read (Elt F) fx) (funext fun a => Fin.ext ?_)
  match a with
  | ⟨0, _⟩ => show (tw1 tb1 c i pf1).toNat + 1 * 0 = (tw1 tb1 c i pf1).toNat; omega
  | ⟨1, _⟩ => show 0 + 1 * k'.val = k'.val; omega

/-- In the hidden array with row i overwritten, row i reads the new row. -/
theorem hNext_read_same (c : Dev nD) (i : grid0.Coords) (fh : Bf (F := F) c hM) (blk : Vec F S1x64 .f32) (j : Fin 64) :
    hM.view.read (Elt F) (hNext hM c i fh blk) (ValueIdx.ix2 (⟨(i 0).val, coord_lt i⟩ : Fin 62500) j)
      = blk (ValueIdx.ix2 (0 : Fin 1) j) := by
  unfold hNext
  have he : (Rect.unit (s := S62500x64) (k0_off5 i) S1x64.size (k0_off5_inb i)).emb (ValueIdx.ix2 (0 : Fin 1) j)
      = ValueIdx.ix2 (⟨(i 0).val, coord_lt i⟩ : Fin 62500) j :=
    funext fun a => Fin.ext (by
      match a with
      | ⟨0, _⟩ =>
        show (BitVec.ofNat 32 (i 0).val).toNat + 1 * 0 = (i 0).val
        rw [coord_word]; omega
      | ⟨1, _⟩ => show 0 + 1 * j.val = j.val; omega)
  rw [← he]
  exact View.read_slice_write_emb (v := hM.view) _ fh _ (Finset.mem_univ _)

/-- … and every other row reads what it held. -/
theorem hNext_read_other (c : Dev nD) (i : grid0.Coords) (fh : Bf (F := F) c hM) (blk : Vec F S1x64 .f32)
    (r : Fin 62500) (hr : r.val ≠ (i 0).val) (j : Fin 64) :
    hM.view.read (Elt F) (hNext hM c i fh blk) (ValueIdx.ix2 r j) = hM.view.read (Elt F) fh (ValueIdx.ix2 r j) := by
  unfold hNext
  refine View.read_slice_write_of_not_mem (v := hM.view) _ fh _ _ ?_
  rw [Rect.map_emb_univ, Rect.mem_set_unit]
  intro h
  have h0 := h 0
  have h00 : (k0_off5 i) 0 = (i 0).val := coord_word i
  rw [h00] at h0
  have h1 : (S1x64.size 0) = 1 := rfl
  rw [h1] at h0
  have h2 : ((ValueIdx.ix2 r j : S62500x64.Idx) 0).val = r.val := rfl
  omega

/-! ## What each run leaves -/

theorem runB_L5 (c : Dev nD) (i : grid0.Coords)
    (arg4 : Memref sig .tc .vmem S64x128 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S64x64 .f32) (harg7 : arg7.IsWhole)
    (arg8 : Memref sig .tc .vmem S1x64 .f32) (harg8 : arg8.IsWhole)
    (arg10 : Memref sig .tc .vmem S1x64 .f32) (harg10 : arg10.IsWhole) (arg11 : Memref sig .tc .vmem S1x64 .f32) (harg11 : arg11.IsWhole)
    (arg12 : Memref sig .tc .vmem S1x128 .f32) (harg12 : arg12.IsWhole) (arg13 : Memref sig .tc .vmem S1x128 .f32) (harg13 : arg13.IsWhole)
    (arg14 : Memref sig .tc .vmem S1x64 .f32) (harg14 : arg14.IsWhole)
    (hc0 : ¬cond0_0 i) (x0 : Vec F S64x128 .f32) (x1 : Vec F S64x128 .f32) (x2 : Vec F S1x64 .f32) (x3 : Vec F S64x64 .f32) (x4 : Vec F S1x64 .f32) (xo5 : Vec F S1x64 .f32) (xo6 : Vec F S1x64 .f32)
    (pf0 : Bf (F := F) c tb0) (pf1 : Bf (F := F) c tb1) (fx : Bf (F := F) c xM) (fh : Bf (F := F) c hM)
    (hw0 : k0_chk1 (tw0 tb0 c i pf0)) (hw1 : k0_chk2 (tw1 tb1 c i pf1)) :
    VS.read (Elt F) (VS.writes (Elt F) VS.junk (runB tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 xo5 xo6 pf0 pf1 fx fh hw0 hw1).1)
      = k0_pay8 (k0_pay3 (rowAt1 tb1 xM c i pf1 fx hw1)) (k0_pay4 (rowAt0 tb0 xM c i pf0 fx hw0) x0) (k0_pay5 x1) (constant S1x64 .f32 0x00000000#32) x2 x3 x4 xo5 := by
  rw [View.read_writes_eq_canon _ _ _ (View.cover_of_tiledL _ S1x64.size (by sl_kernel_rfl))]
  unfold runB
  dsimp only
  sl_unfold_words
  rw [View.canon_unit_zero hz2]
  simp only [View.readAt_eq_ld, harg4.read_unread, harg5.read_unread, harg6.read_unread, harg7.read_unread, harg8.read_unread,
    View.ld_unit_zero (S := S64x128) hz2, View.ld_unit_zero (S := S1x64) hz2, View.ld_unit_zero (S := S64x64) hz2,
    readCov_whole (S := S1x128) _ hz2, ReadAs.apply_same, harg10.read_unread]
  rfl

theorem runB_L6 (c : Dev nD) (i : grid0.Coords)
    (arg4 : Memref sig .tc .vmem S64x128 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S64x64 .f32) (harg7 : arg7.IsWhole)
    (arg8 : Memref sig .tc .vmem S1x64 .f32) (harg8 : arg8.IsWhole)
    (arg10 : Memref sig .tc .vmem S1x64 .f32) (harg10 : arg10.IsWhole) (arg11 : Memref sig .tc .vmem S1x64 .f32) (harg11 : arg11.IsWhole)
    (arg12 : Memref sig .tc .vmem S1x128 .f32) (harg12 : arg12.IsWhole) (arg13 : Memref sig .tc .vmem S1x128 .f32) (harg13 : arg13.IsWhole)
    (arg14 : Memref sig .tc .vmem S1x64 .f32) (harg14 : arg14.IsWhole)
    (hc0 : ¬cond0_0 i) (x0 : Vec F S64x128 .f32) (x1 : Vec F S64x128 .f32) (x2 : Vec F S1x64 .f32) (x3 : Vec F S64x64 .f32) (x4 : Vec F S1x64 .f32) (xo5 : Vec F S1x64 .f32) (xo6 : Vec F S1x64 .f32)
    (pf0 : Bf (F := F) c tb0) (pf1 : Bf (F := F) c tb1) (fx : Bf (F := F) c xM) (fh : Bf (F := F) c hM)
    (hw0 : k0_chk1 (tw0 tb0 c i pf0)) (hw1 : k0_chk2 (tw1 tb1 c i pf1)) :
    VS.read (Elt F) (VS.writes (Elt F) VS.junk (runB tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 xo5 xo6 pf0 pf1 fx fh hw0 hw1).2.1)
      = k0_pay9 (k0_pay3 (rowAt1 tb1 xM c i pf1 fx hw1)) (k0_pay4 (rowAt0 tb0 xM c i pf0 fx hw0) x0) (k0_pay5 x1) (constant S1x64 .f32 0x00000000#32) x2 x3 x4 xo6 := by
  rw [View.read_writes_eq_canon _ _ _ (View.cover_of_tiledL _ S1x64.size (by sl_kernel_rfl))]
  unfold runB
  dsimp only
  sl_unfold_words
  rw [View.canon_unit_zero hz2]
  simp only [View.readAt_eq_ld, harg4.read_unread, harg5.read_unread, harg6.read_unread, harg7.read_unread, harg8.read_unread,
    View.ld_unit_zero (S := S64x128) hz2, View.ld_unit_zero (S := S1x64) hz2, View.ld_unit_zero (S := S64x64) hz2,
    readCov_whole (S := S1x128) _ hz2, ReadAs.apply_same, harg11.read_unread]
  rfl

theorem runB_L14 (c : Dev nD) (i : grid0.Coords)
    (arg4 : Memref sig .tc .vmem S64x128 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S64x64 .f32) (harg7 : arg7.IsWhole)
    (arg8 : Memref sig .tc .vmem S1x64 .f32) (harg8 : arg8.IsWhole)
    (arg10 : Memref sig .tc .vmem S1x64 .f32) (harg10 : arg10.IsWhole) (arg11 : Memref sig .tc .vmem S1x64 .f32) (harg11 : arg11.IsWhole)
    (arg12 : Memref sig .tc .vmem S1x128 .f32) (harg12 : arg12.IsWhole) (arg13 : Memref sig .tc .vmem S1x128 .f32) (harg13 : arg13.IsWhole)
    (arg14 : Memref sig .tc .vmem S1x64 .f32) (harg14 : arg14.IsWhole)
    (hc0 : ¬cond0_0 i) (x0 : Vec F S64x128 .f32) (x1 : Vec F S64x128 .f32) (x2 : Vec F S1x64 .f32) (x3 : Vec F S64x64 .f32) (x4 : Vec F S1x64 .f32) (xo5 : Vec F S1x64 .f32) (xo6 : Vec F S1x64 .f32)
    (pf0 : Bf (F := F) c tb0) (pf1 : Bf (F := F) c tb1) (fx : Bf (F := F) c xM) (fh : Bf (F := F) c hM)
    (hw0 : k0_chk1 (tw0 tb0 c i pf0)) (hw1 : k0_chk2 (tw1 tb1 c i pf1)) :
    VS.read (Elt F) (VS.writes (Elt F) VS.junk (runB tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 xo5 xo6 pf0 pf1 fx fh hw0 hw1).2.2.1)
      = k0_pay7 (k0_pay3 (rowAt1 tb1 xM c i pf1 fx hw1)) (k0_pay4 (rowAt0 tb0 xM c i pf0 fx hw0) x0) (k0_pay5 x1) (constant S1x64 .f32 0x00000000#32) x2 x3 x4 := by
  rw [View.read_writes_eq_canon _ _ _ (View.cover_of_tiledL _ S1x64.size (by sl_kernel_rfl))]
  unfold runB
  dsimp only
  sl_unfold_words
  rw [View.canon_unit_zero hz2]
  simp only [View.readAt_eq_ld, harg4.read_unread, harg5.read_unread, harg6.read_unread, harg7.read_unread, harg8.read_unread,
    View.ld_unit_zero (S := S64x128) hz2, View.ld_unit_zero (S := S1x64) hz2, View.ld_unit_zero (S := S64x64) hz2,
    readCov_whole (S := S1x128) _ hz2, ReadAs.apply_same]
  rfl

theorem runA_L5 (c : Dev nD) (i : grid0.Coords)
    (arg4 : Memref sig .tc .vmem S64x128 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S64x64 .f32) (harg7 : arg7.IsWhole)
    (arg8 : Memref sig .tc .vmem S1x64 .f32) (harg8 : arg8.IsWhole)
    (arg10 : Memref sig .tc .vmem S1x64 .f32) (harg10 : arg10.IsWhole) (arg11 : Memref sig .tc .vmem S1x64 .f32) (harg11 : arg11.IsWhole)
    (arg12 : Memref sig .tc .vmem S1x128 .f32) (harg12 : arg12.IsWhole) (arg13 : Memref sig .tc .vmem S1x128 .f32) (harg13 : arg13.IsWhole)
    (arg14 : Memref sig .tc .vmem S1x64 .f32) (harg14 : arg14.IsWhole)
    (hc0 : cond0_0 i) (x0 : Vec F S64x128 .f32) (x1 : Vec F S64x128 .f32) (x2 : Vec F S1x64 .f32) (x3 : Vec F S64x64 .f32) (x4 : Vec F S1x64 .f32)
    (pf0 : Bf (F := F) c tb0) (pf1 : Bf (F := F) c tb1) (fx : Bf (F := F) c xM) (fh : Bf (F := F) c hM)
    (hw0 : k0_chk1 (tw0 tb0 c i pf0)) (hw1 : k0_chk2 (tw1 tb1 c i pf1)) :
    VS.read (Elt F) (VS.writes (Elt F) VS.junk (runA tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 pf0 pf1 fx fh hw0 hw1).1)
      = k0_pay8 (k0_pay3 (rowAt1 tb1 xM c i pf1 fx hw1)) (k0_pay4 (rowAt0 tb0 xM c i pf0 fx hw0) x0) (k0_pay5 x1) (constant S1x64 .f32 0x00000000#32) x2 x3 x4 (k0_pay1 (F := F)) := by
  rw [View.read_writes_eq_canon _ _ _ (View.cover_of_tiledL _ S1x64.size (by sl_kernel_rfl))]
  unfold runA
  dsimp only
  sl_unfold_words
  rw [View.canon_cons_unit_zero (S := S1x64) hz2]
  simp only [View.readAt_eq_ld, harg4.read_unread, harg5.read_unread, harg6.read_unread, harg7.read_unread, harg8.read_unread,
    View.ld_unit_zero (S := S64x128) hz2, View.ld_unit_zero (S := S1x64) hz2, View.ld_unit_zero (S := S64x64) hz2,
    readCov_whole (S := S1x128) _ hz2, ReadAs.apply_same, View.readCov_unit_zero (S := S1x64) _ hz2]
  rfl

theorem runA_L6 (c : Dev nD) (i : grid0.Coords)
    (arg4 : Memref sig .tc .vmem S64x128 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S64x64 .f32) (harg7 : arg7.IsWhole)
    (arg8 : Memref sig .tc .vmem S1x64 .f32) (harg8 : arg8.IsWhole)
    (arg10 : Memref sig .tc .vmem S1x64 .f32) (harg10 : arg10.IsWhole) (arg11 : Memref sig .tc .vmem S1x64 .f32) (harg11 : arg11.IsWhole)
    (arg12 : Memref sig .tc .vmem S1x128 .f32) (harg12 : arg12.IsWhole) (arg13 : Memref sig .tc .vmem S1x128 .f32) (harg13 : arg13.IsWhole)
    (arg14 : Memref sig .tc .vmem S1x64 .f32) (harg14 : arg14.IsWhole)
    (hc0 : cond0_0 i) (x0 : Vec F S64x128 .f32) (x1 : Vec F S64x128 .f32) (x2 : Vec F S1x64 .f32) (x3 : Vec F S64x64 .f32) (x4 : Vec F S1x64 .f32)
    (pf0 : Bf (F := F) c tb0) (pf1 : Bf (F := F) c tb1) (fx : Bf (F := F) c xM) (fh : Bf (F := F) c hM)
    (hw0 : k0_chk1 (tw0 tb0 c i pf0)) (hw1 : k0_chk2 (tw1 tb1 c i pf1)) :
    VS.read (Elt F) (VS.writes (Elt F) VS.junk (runA tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 pf0 pf1 fx fh hw0 hw1).2.1)
      = k0_pay9 (k0_pay3 (rowAt1 tb1 xM c i pf1 fx hw1)) (k0_pay4 (rowAt0 tb0 xM c i pf0 fx hw0) x0) (k0_pay5 x1) (constant S1x64 .f32 0x00000000#32) x2 x3 x4 (k0_pay2 (F := F)) := by
  rw [View.read_writes_eq_canon _ _ _ (View.cover_of_tiledL _ S1x64.size (by sl_kernel_rfl))]
  unfold runA
  dsimp only
  sl_unfold_words
  rw [View.canon_cons_unit_zero (S := S1x64) hz2]
  simp only [View.readAt_eq_ld, harg4.read_unread, harg5.read_unread, harg6.read_unread, harg7.read_unread, harg8.read_unread,
    View.ld_unit_zero (S := S64x128) hz2, View.ld_unit_zero (S := S1x64) hz2, View.ld_unit_zero (S := S64x64) hz2,
    readCov_whole (S := S1x128) _ hz2, ReadAs.apply_same, View.readCov_unit_zero (S := S1x64) _ hz2]
  rfl

theorem runA_L14 (c : Dev nD) (i : grid0.Coords)
    (arg4 : Memref sig .tc .vmem S64x128 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S64x64 .f32) (harg7 : arg7.IsWhole)
    (arg8 : Memref sig .tc .vmem S1x64 .f32) (harg8 : arg8.IsWhole)
    (arg10 : Memref sig .tc .vmem S1x64 .f32) (harg10 : arg10.IsWhole) (arg11 : Memref sig .tc .vmem S1x64 .f32) (harg11 : arg11.IsWhole)
    (arg12 : Memref sig .tc .vmem S1x128 .f32) (harg12 : arg12.IsWhole) (arg13 : Memref sig .tc .vmem S1x128 .f32) (harg13 : arg13.IsWhole)
    (arg14 : Memref sig .tc .vmem S1x64 .f32) (harg14 : arg14.IsWhole)
    (hc0 : cond0_0 i) (x0 : Vec F S64x128 .f32) (x1 : Vec F S64x128 .f32) (x2 : Vec F S1x64 .f32) (x3 : Vec F S64x64 .f32) (x4 : Vec F S1x64 .f32)
    (pf0 : Bf (F := F) c tb0) (pf1 : Bf (F := F) c tb1) (fx : Bf (F := F) c xM) (fh : Bf (F := F) c hM)
    (hw0 : k0_chk1 (tw0 tb0 c i pf0)) (hw1 : k0_chk2 (tw1 tb1 c i pf1)) :
    VS.read (Elt F) (VS.writes (Elt F) VS.junk (runA tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 pf0 pf1 fx fh hw0 hw1).2.2.1)
      = k0_pay7 (k0_pay3 (rowAt1 tb1 xM c i pf1 fx hw1)) (k0_pay4 (rowAt0 tb0 xM c i pf0 fx hw0) x0) (k0_pay5 x1) (constant S1x64 .f32 0x00000000#32) x2 x3 x4 := by
  rw [View.read_writes_eq_canon _ _ _ (View.cover_of_tiledL _ S1x64.size (by sl_kernel_rfl))]
  unfold runA
  dsimp only
  sl_unfold_words
  rw [View.canon_unit_zero hz2]
  simp only [View.readAt_eq_ld, harg4.read_unread, harg5.read_unread, harg6.read_unread, harg7.read_unread, harg8.read_unread,
    View.ld_unit_zero (S := S64x128) hz2, View.ld_unit_zero (S := S1x64) hz2, View.ld_unit_zero (S := S64x64) hz2,
    readCov_whole (S := S1x128) _ hz2, ReadAs.apply_same]
  rfl

end Cert.Kernel.P1

end
-- ==== Proof.B1Body.lean ====
/-
  The gather-and-project body at one grid point, as a specification with explicit contents: run with
  the five parameter blocks in their buffers, the two running sums in theirs (anything, at the first
  point), the scratch free, the tables and the node-feature array present and the hidden array at fh,
  the body terminates leaving the parameter blocks as they were, the running sum plus the point's
  hidden row, the running sum of squares plus its square (from the zero fills at the first point),
  the scratch free again, and the hidden array with row i overwritten by the hidden row.
-/
import proofs.«400866_j57071525429608_2_alg».proof.Proof.B1Run
import proofs.«400866_j57071525429608_2_alg».proof.Proof.B1Pieces
import Idealize.ShloMosaic.Lib.Pipeline.Value
import Idealize.ShloMosaic.Lib.Tactic
import Idealize.ShloMosaic.Lib.ValueIdx

set_option maxRecDepth 100000

noncomputable section

namespace Cert.Kernel.P1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (tb0 : Memref sig .tc .smem S62500 .i32) (htb0 : tb0.IsWhole) (tb1 : Memref sig .tc .smem S62500 .i32) (htb1 : tb1.IsWhole)
  (xM : Memref sig .tc .hbm S100000x128 .f32) (hxM : xM.IsWhole) (hM : Memref sig .tc .hbm S62500x64 .f32) (hhM : hM.IsWhole)
  (sems : DmaSems sig S3)

set_option maxHeartbeats 2000000 in
/-- The body at a later point, with what it leaves written out. -/
theorem bodyB (c : Dev nD) (i : grid0.Coords)
    (arg4 : Memref sig .tc .vmem S64x128 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S64x64 .f32) (harg7 : arg7.IsWhole)
    (arg8 : Memref sig .tc .vmem S1x64 .f32) (harg8 : arg8.IsWhole)
    (arg10 : Memref sig .tc .vmem S1x64 .f32) (harg10 : arg10.IsWhole) (arg11 : Memref sig .tc .vmem S1x64 .f32) (harg11 : arg11.IsWhole)
    (arg12 : Memref sig .tc .vmem S1x128 .f32) (harg12 : arg12.IsWhole) (arg13 : Memref sig .tc .vmem S1x128 .f32) (harg13 : arg13.IsWhole)
    (arg14 : Memref sig .tc .vmem S1x64 .f32) (harg14 : arg14.IsWhole)
    (hc0 : ¬cond0_0 i) (x0 : Vec F S64x128 .f32) (x1 : Vec F S64x128 .f32) (x2 : Vec F S1x64 .f32) (x3 : Vec F S64x64 .f32) (x4 : Vec F S1x64 .f32) (xo5 : Vec F S1x64 .f32) (xo6 : Vec F S1x64 .f32)
    (pf0 : Bf (F := F) c tb0) (pf1 : Bf (F := F) c tb1) (fx : Bf (F := F) c xM) (fh : Bf (F := F) c hM)
    (hw0 : k0_chk1 (tw0 tb0 c i pf0)) (hw1 : k0_chk2 (tw1 tb1 c i pf1)) (W : Waits sig Unit) (K : PUnit → sProp 𝕄) :
    iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4
            ∗ owns (c : Thread nD τ) arg10 fullShare xo5 ∗ owns (c : Thread nD τ) arg11 fullShare xo6
            ∗ (∃ d, owns (c : Thread nD τ) arg12 fullShare d) ∗ (∃ d, owns (c : Thread nD τ) arg13 fullShare d) ∗ (∃ d, owns (c : Thread nD τ) arg14 fullShare d)
            ∗ semVal ((c : Thread nD τ), semAt sems 0) 0 ∗ semVal ((c : Thread nD τ), semAt sems 1) 0 ∗ semVal ((c : Thread nD τ), semAt sems 2) 0
            ∗ pt c tb0 pf0 ∗ pt c tb1 pf1 ∗ pt c xM fx ∗ pt c hM fh ∗ owes (c : Thread nD τ) 0 W
            ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4
            ∗ owns (c : Thread nD τ) arg10 fullShare (k0_pay8 (k0_pay3 (rowAt1 tb1 xM c i pf1 fx hw1)) (k0_pay4 (rowAt0 tb0 xM c i pf0 fx hw0) x0) (k0_pay5 x1) (constant S1x64 .f32 0x00000000#32) x2 x3 x4 xo5)
            ∗ owns (c : Thread nD τ) arg11 fullShare (k0_pay9 (k0_pay3 (rowAt1 tb1 xM c i pf1 fx hw1)) (k0_pay4 (rowAt0 tb0 xM c i pf0 fx hw0) x0) (k0_pay5 x1) (constant S1x64 .f32 0x00000000#32) x2 x3 x4 xo6)
            ∗ (∃ d, owns (c : Thread nD τ) arg12 fullShare d) ∗ (∃ d, owns (c : Thread nD τ) arg13 fullShare d) ∗ (∃ d, owns (c : Thread nD τ) arg14 fullShare d)
            ∗ semVal ((c : Thread nD τ), semAt sems 0) 0 ∗ semVal ((c : Thread nD τ), semAt sems 1) 0 ∗ semVal ((c : Thread nD τ), semAt sems 2) 0
            ∗ pt c tb0 pf0 ∗ pt c tb1 pf1 ∗ pt c xM fx
            ∗ pt c hM (hNext hM c i fh (k0_pay7 (k0_pay3 (rowAt1 tb1 xM c i pf1 fx hw1)) (k0_pay4 (rowAt0 tb0 xM c i pf0 fx hw0) x0) (k0_pay5 x1) (constant S1x64 .f32 0x00000000#32) x2 x3 x4)) ∗ (∃ W', owes (c : Thread nD τ) 0 W')) -∗ K ⟨⟩))
      ⊢ wp frame (wpE (defs₀ (F := F)) Variants.none c none) Set.univ (cc0__pass1_kernel i tb0 htb0 tb1 htb1 xM hxM arg4 harg4 arg5 harg5 arg6 harg6 arg7 harg7 arg8 harg8 hM hhM arg10 harg10 arg11 harg11 arg12 harg12 arg13 harg13 arg14 harg14 sems) K := by
  rw [← runB_L5 tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 xo5 xo6 pf0 pf1 fx fh hw0 hw1, ← runB_L6 tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 xo5 xo6 pf0 pf1 fx fh hw0 hw1, ← runB_L14 tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 xo5 xo6 pf0 pf1 fx fh hw0 hw1]
  iintro ⟨H0, H1, H2, H3, H4, H5, H6, HS0, HS1, HS2, Hq0, Hq1, Hq2, Ht0, Ht1, Hx, Hh, HW, Hk⟩
  iapply ((runB tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 xo5 xo6 pf0 pf1 fx fh hw0 hw1).2.2.2 W K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Ht0]; · iexact Ht0
  isplitl [Ht1]; · iexact Ht1
  isplitl [Hx]; · iexact Hx
  isplitl [Hh]; · iexact Hh
  isplitl [HW]; · iexact HW
  iintro ⟨H0, H1, H2, H3, H4, ⟨%e5, H5⟩, ⟨%e6, H6⟩, HS0, HS1, ⟨%e14, HS2⟩, Hq0, Hq1, Hq2, Ht0, Ht1, Hx, ⟨%fh', %hfh, Hh⟩, HW'⟩
  subst hfh
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (View.cover_of_tiledL _ S1x64.size (by sl_kernel_rfl))
  isplitl [H6]
  · unfold owns; iexists _; isplitr
    swap; · iexact H6
    ipureintro; exact View.read_writes_of_cover _ _ _ _ _ (View.cover_of_tiledL _ S1x64.size (by sl_kernel_rfl))
  isplitl [HS0]; · iexact HS0
  isplitl [HS1]; · iexact HS1
  isplitl [HS2]
  · unfold owns; iexists _, _; isplitr; swap; · iexact HS2
    ipureintro; rfl
  isplitl [Hq0]; · iexact Hq0
  isplitl [Hq1]; · iexact Hq1
  isplitl [Hq2]; · iexact Hq2
  isplitl [Ht0]; · iexact Ht0
  isplitl [Ht1]; · iexact Ht1
  isplitl [Hx]; · iexact Hx
  isplitl [Hh]; · iexact Hh
  iexact HW'

set_option maxHeartbeats 2000000 in
/-- The body at the first point, with what it leaves written out. -/
theorem bodyA (c : Dev nD) (i : grid0.Coords)
    (arg4 : Memref sig .tc .vmem S64x128 .f32) (harg4 : arg4.IsWhole) (arg5 : Memref sig .tc .vmem S64x128 .f32) (harg5 : arg5.IsWhole)
    (arg6 : Memref sig .tc .vmem S1x64 .f32) (harg6 : arg6.IsWhole) (arg7 : Memref sig .tc .vmem S64x64 .f32) (harg7 : arg7.IsWhole)
    (arg8 : Memref sig .tc .vmem S1x64 .f32) (harg8 : arg8.IsWhole)
    (arg10 : Memref sig .tc .vmem S1x64 .f32) (harg10 : arg10.IsWhole) (arg11 : Memref sig .tc .vmem S1x64 .f32) (harg11 : arg11.IsWhole)
    (arg12 : Memref sig .tc .vmem S1x128 .f32) (harg12 : arg12.IsWhole) (arg13 : Memref sig .tc .vmem S1x128 .f32) (harg13 : arg13.IsWhole)
    (arg14 : Memref sig .tc .vmem S1x64 .f32) (harg14 : arg14.IsWhole)
    (hc0 : cond0_0 i) (x0 : Vec F S64x128 .f32) (x1 : Vec F S64x128 .f32) (x2 : Vec F S1x64 .f32) (x3 : Vec F S64x64 .f32) (x4 : Vec F S1x64 .f32)
    (pf0 : Bf (F := F) c tb0) (pf1 : Bf (F := F) c tb1) (fx : Bf (F := F) c xM) (fh : Bf (F := F) c hM)
    (hw0 : k0_chk1 (tw0 tb0 c i pf0)) (hw1 : k0_chk2 (tw1 tb1 c i pf1)) (W : Waits sig Unit) (K : PUnit → sProp 𝕄) :
    iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4
            ∗ (∃ d, owns (c : Thread nD τ) arg10 fullShare d) ∗ (∃ d, owns (c : Thread nD τ) arg11 fullShare d)
            ∗ (∃ d, owns (c : Thread nD τ) arg12 fullShare d) ∗ (∃ d, owns (c : Thread nD τ) arg13 fullShare d) ∗ (∃ d, owns (c : Thread nD τ) arg14 fullShare d)
            ∗ semVal ((c : Thread nD τ), semAt sems 0) 0 ∗ semVal ((c : Thread nD τ), semAt sems 1) 0 ∗ semVal ((c : Thread nD τ), semAt sems 2) 0
            ∗ pt c tb0 pf0 ∗ pt c tb1 pf1 ∗ pt c xM fx ∗ pt c hM fh ∗ owes (c : Thread nD τ) 0 W
            ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4
            ∗ owns (c : Thread nD τ) arg10 fullShare (k0_pay8 (k0_pay3 (rowAt1 tb1 xM c i pf1 fx hw1)) (k0_pay4 (rowAt0 tb0 xM c i pf0 fx hw0) x0) (k0_pay5 x1) (constant S1x64 .f32 0x00000000#32) x2 x3 x4 (k0_pay1 (F := F)))
            ∗ owns (c : Thread nD τ) arg11 fullShare (k0_pay9 (k0_pay3 (rowAt1 tb1 xM c i pf1 fx hw1)) (k0_pay4 (rowAt0 tb0 xM c i pf0 fx hw0) x0) (k0_pay5 x1) (constant S1x64 .f32 0x00000000#32) x2 x3 x4 (k0_pay2 (F := F)))
            ∗ (∃ d, owns (c : Thread nD τ) arg12 fullShare d) ∗ (∃ d, owns (c : Thread nD τ) arg13 fullShare d) ∗ (∃ d, owns (c : Thread nD τ) arg14 fullShare d)
            ∗ semVal ((c : Thread nD τ), semAt sems 0) 0 ∗ semVal ((c : Thread nD τ), semAt sems 1) 0 ∗ semVal ((c : Thread nD τ), semAt sems 2) 0
            ∗ pt c tb0 pf0 ∗ pt c tb1 pf1 ∗ pt c xM fx
            ∗ pt c hM (hNext hM c i fh (k0_pay7 (k0_pay3 (rowAt1 tb1 xM c i pf1 fx hw1)) (k0_pay4 (rowAt0 tb0 xM c i pf0 fx hw0) x0) (k0_pay5 x1) (constant S1x64 .f32 0x00000000#32) x2 x3 x4)) ∗ (∃ W', owes (c : Thread nD τ) 0 W')) -∗ K ⟨⟩))
      ⊢ wp frame (wpE (defs₀ (F := F)) Variants.none c none) Set.univ (cc0__pass1_kernel i tb0 htb0 tb1 htb1 xM hxM arg4 harg4 arg5 harg5 arg6 harg6 arg7 harg7 arg8 harg8 hM hhM arg10 harg10 arg11 harg11 arg12 harg12 arg13 harg13 arg14 harg14 sems) K := by
  rw [← runA_L5 tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 pf0 pf1 fx fh hw0 hw1, ← runA_L6 tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 pf0 pf1 fx fh hw0 hw1, ← runA_L14 tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 pf0 pf1 fx fh hw0 hw1]
  iintro ⟨H0, H1, H2, H3, H4, H5, H6, HS0, HS1, HS2, Hq0, Hq1, Hq2, Ht0, Ht1, Hx, Hh, HW, Hk⟩
  iapply ((runA tb0 htb0 tb1 htb1 xM hxM hM hhM sems c i arg4 harg4 arg5 harg5 arg6 harg6 arg7 harg7 arg8 harg8 arg10 harg10 arg11 harg11 arg12 harg12 arg13 harg13 arg14 harg14 hc0 x0 x1 x2 x3 x4 pf0 pf1 fx fh hw0 hw1).2.2.2 W K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Ht0]; · iexact Ht0
  isplitl [Ht1]; · iexact Ht1
  isplitl [Hx]; · iexact Hx
  isplitl [Hh]; · iexact Hh
  isplitl [HW]; · iexact HW
  iintro ⟨H0, H1, H2, H3, H4, ⟨%e5, H5⟩, ⟨%e6, H6⟩, HS0, HS1, ⟨%e14, HS2⟩, Hq0, Hq1, Hq2, Ht0, Ht1, Hx, ⟨%fh', %hfh, Hh⟩, HW'⟩
  subst hfh
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (View.cover_of_tiledL _ S1x64.size (by sl_kernel_rfl))
  isplitl [H6]
  · unfold owns; iexists _; isplitr
    swap; · iexact H6
    ipureintro; exact View.read_writes_of_cover _ _ _ _ _ (View.cover_of_tiledL _ S1x64.size (by sl_kernel_rfl))
  isplitl [HS0]; · iexact HS0
  isplitl [HS1]; · iexact HS1
  isplitl [HS2]
  · unfold owns; iexists _, _; isplitr; swap; · iexact HS2
    ipureintro; rfl
  isplitl [Hq0]; · iexact Hq0
  isplitl [Hq1]; · iexact Hq1
  isplitl [Hq2]; · iexact Hq2
  isplitl [Ht0]; · iexact Ht0
  isplitl [Ht1]; · iexact Ht1
  isplitl [Hx]; · iexact Hx
  isplitl [Hh]; · iexact Hh
  iexact HW'

end Cert.Kernel.P1

end
-- ==== Proof.B1State.lean ====
/-
  The gather-and-project region as a recursion over its grid points, with no buffer in it: the state
  after point n is the running sum, the running sum of squares and the hidden array. The first point
  starts the two sums from the zero fills and the hidden array from what it held; every later point
  adds its hidden row to the first sum, the row's elementwise square to the second, and overwrites its
  own row of the hidden array.
-/
import proofs.«400866_j57071525429608_2_alg».proof.Proof.B1Run
import proofs.«400866_j57071525429608_2_alg».proof.Proof.B1Pieces
import Idealize.ShloMosaic.Lib.Pipeline.Value
import Idealize.ShloMosaic.Lib.Tactic
import Idealize.ShloMosaic.Lib.ValueIdx

set_option maxRecDepth 100000

noncomputable section

namespace Cert.Kernel.P1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The recursion (any float values) -/

section Generic

variable {F : FTy → Type} [FloatOps F]

variable (tb0 : Memref sig .tc .smem S62500 .i32) (tb1 : Memref sig .tc .smem S62500 .i32)
  (xM : Memref sig .tc .hbm S100000x128 .f32) (hM : Memref sig .tc .hbm S62500x64 .f32) (c : Dev nD)
  (N : ℕ) (crd : Fin N → grid0.Coords)
  (x0 x1 : Fin N → Vec F S64x128 .f32) (x2 : Fin N → Vec F S1x64 .f32) (x3 : Fin N → Vec F S64x64 .f32) (x4 : Fin N → Vec F S1x64 .f32)
  (pf0 : Bf (F := F) c tb0) (pf1 : Bf (F := F) c tb1) (fx : Bf (F := F) c xM) (fh0 : Bf (F := F) c hM)
  (hw0 : ∀ t : Fin N, k0_chk1 (tw0 tb0 c (crd t) pf0)) (hw1 : ∀ t : Fin N, k0_chk2 (tw1 tb1 c (crd t) pf1))

/-- What a point leaves: the two running sums and the hidden array. -/
abbrev St : Type := Vec F S1x64 .f32 × Vec F S1x64 .f32 × Bf (F := F) c hM

/-- Point t's new running sum, from the one before. -/
abbrev sumStep (t : Fin N) (acc : Vec F S1x64 .f32) : Vec F S1x64 .f32 :=
  k0_pay8 (k0_pay3 (rowAt1 tb1 xM c (crd t) pf1 fx (hw1 t))) (k0_pay4 (rowAt0 tb0 xM c (crd t) pf0 fx (hw0 t)) (x0 t)) (k0_pay5 (x1 t))
    (constant S1x64 .f32 0x00000000#32) (x2 t) (x3 t) (x4 t) acc

/-- Point t's new running sum of squares, from the one before. -/
abbrev sqStep (t : Fin N) (acc : Vec F S1x64 .f32) : Vec F S1x64 .f32 :=
  k0_pay9 (k0_pay3 (rowAt1 tb1 xM c (crd t) pf1 fx (hw1 t))) (k0_pay4 (rowAt0 tb0 xM c (crd t) pf0 fx (hw0 t)) (x0 t)) (k0_pay5 (x1 t))
    (constant S1x64 .f32 0x00000000#32) (x2 t) (x3 t) (x4 t) acc

/-- Point t's hidden row. -/
abbrev rowStep (t : Fin N) : Vec F S1x64 .f32 :=
  k0_pay7 (k0_pay3 (rowAt1 tb1 xM c (crd t) pf1 fx (hw1 t))) (k0_pay4 (rowAt0 tb0 xM c (crd t) pf0 fx (hw0 t)) (x0 t)) (k0_pay5 (x1 t))
    (constant S1x64 .f32 0x00000000#32) (x2 t) (x3 t) (x4 t)

/-- The state after point n. -/
def stG : (n : ℕ) → n < N → St (F := F) hM c
  | 0, h =>
    (sumStep tb0 tb1 xM c N crd x0 x1 x2 x3 x4 pf0 pf1 fx hw0 hw1 ⟨0, h⟩ (k0_pay1 (F := F)), sqStep tb0 tb1 xM c N crd x0 x1 x2 x3 x4 pf0 pf1 fx hw0 hw1 ⟨0, h⟩ (k0_pay2 (F := F)),
      hNext hM c (crd ⟨0, h⟩) fh0 (rowStep tb0 tb1 xM c N crd x0 x1 x2 x3 x4 pf0 pf1 fx hw0 hw1 ⟨0, h⟩))
  | n + 1, h =>
    (sumStep tb0 tb1 xM c N crd x0 x1 x2 x3 x4 pf0 pf1 fx hw0 hw1 ⟨n + 1, h⟩ (stG n (Nat.lt_of_succ_lt h)).1,
      sqStep tb0 tb1 xM c N crd x0 x1 x2 x3 x4 pf0 pf1 fx hw0 hw1 ⟨n + 1, h⟩ (stG n (Nat.lt_of_succ_lt h)).2.1,
      hNext hM c (crd ⟨n + 1, h⟩) (stG n (Nat.lt_of_succ_lt h)).2.2 (rowStep tb0 tb1 xM c N crd x0 x1 x2 x3 x4 pf0 pf1 fx hw0 hw1 ⟨n + 1, h⟩))

theorem stG_zero (h : 0 < N) :
    stG tb0 tb1 xM hM c N crd x0 x1 x2 x3 x4 pf0 pf1 fx fh0 hw0 hw1 0 h
      = (sumStep tb0 tb1 xM c N crd x0 x1 x2 x3 x4 pf0 pf1 fx hw0 hw1 ⟨0, h⟩ (k0_pay1 (F := F)), sqStep tb0 tb1 xM c N crd x0 x1 x2 x3 x4 pf0 pf1 fx hw0 hw1 ⟨0, h⟩ (k0_pay2 (F := F)),
          hNext hM c (crd ⟨0, h⟩) fh0 (rowStep tb0 tb1 xM c N crd x0 x1 x2 x3 x4 pf0 pf1 fx hw0 hw1 ⟨0, h⟩)) := rfl

theorem stG_succ (n : ℕ) (h : n + 1 < N) :
    stG tb0 tb1 xM hM c N crd x0 x1 x2 x3 x4 pf0 pf1 fx fh0 hw0 hw1 (n + 1) h
      = (sumStep tb0 tb1 xM c N crd x0 x1 x2 x3 x4 pf0 pf1 fx hw0 hw1 ⟨n + 1, h⟩ (stG tb0 tb1 xM hM c N crd x0 x1 x2 x3 x4 pf0 pf1 fx fh0 hw0 hw1 n (Nat.lt_of_succ_lt h)).1,
          sqStep tb0 tb1 xM c N crd x0 x1 x2 x3 x4 pf0 pf1 fx hw0 hw1 ⟨n + 1, h⟩ (stG tb0 tb1 xM hM c N crd x0 x1 x2 x3 x4 pf0 pf1 fx fh0 hw0 hw1 n (Nat.lt_of_succ_lt h)).2.1,
          hNext hM c (crd ⟨n + 1, h⟩) (stG tb0 tb1 xM hM c N crd x0 x1 x2 x3 x4 pf0 pf1 fx fh0 hw0 hw1 n (Nat.lt_of_succ_lt h)).2.2 (rowStep tb0 tb1 xM c N crd x0 x1 x2 x3 x4 pf0 pf1 fx hw0 hw1 ⟨n + 1, h⟩)) := rfl

/-- The hidden array before point n: what it held at the start, then what the point before left. -/
def hG : (n : ℕ) → n ≤ N → Bf (F := F) c hM
  | 0, _ => fh0
  | n + 1, h => (stG tb0 tb1 xM hM c N crd x0 x1 x2 x3 x4 pf0 pf1 fx fh0 hw0 hw1 n h).2.2

/-- Each point overwrites its own row of the hidden array it finds. -/
theorem hG_succ (n : ℕ) (h : n < N) :
    hG tb0 tb1 xM hM c N crd x0 x1 x2 x3 x4 pf0 pf1 fx fh0 hw0 hw1 (n + 1) h = hNext hM c (crd ⟨n, h⟩) (hG tb0 tb1 xM hM c N crd x0 x1 x2 x3 x4 pf0 pf1 fx fh0 hw0 hw1 n (Nat.le_of_lt h)) (rowStep tb0 tb1 xM c N crd x0 x1 x2 x3 x4 pf0 pf1 fx hw0 hw1 ⟨n, h⟩) := by
  cases n with
  | zero => rfl
  | succ m => rfl

end Generic

end Cert.Kernel.P1

end
-- ==== Proof.B1Kern.lean ====
/-
  The gather-and-project kernel under one name: the sixteen launches print the same body, and each launch's module
  rewrites its own copy to this one.
-/
import proofs.«400866_j57071525429608_2_alg».proof.Proof.Gen.Kernel

noncomputable section

namespace Cert.Kernel.P1

open Cert.Kernel Cert.Kernel.Gen Idealize.ShloMosaic

/-- The kernel function of the first launch, which every launch's kernel function equals. -/
abbrev kern {F : FTy → Type} [FloatOps F] := cc0__pass1_kernel (F := F)

end Cert.Kernel.P1

end
-- ==== Proof.B1R0Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.B1Body
import proofs.«400866_j57071525429608_2_alg».proof.Proof.B1State
import proofs.«400866_j57071525429608_2_alg».proof.Proof.B1Kern

set_option maxRecDepth 100000

noncomputable section

namespace Cert.Kernel.P1R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc0__pass1_kernel (F := F) = P1.kern := rfl

-- The buffer contents when the region is entered, and the admissible index tables.
variable (V : (c : Dev nD) → (b : Ref sig .tc) → Buf (Elt F) ((c : Thread nD τ).loc b))
variable (a : (pcfg0 (F := F)).Adm)

/-- The two index tables, the node-feature array and the hidden array, as the body is handed them. -/
abbrev tb0 : Memref sig .tc .smem S62500 .i32 := Memref.whole main_v11
abbrev tb1 : Memref sig .tc .smem S62500 .i32 := Memref.whole main_v12
abbrev xM : Memref sig .tc .hbm S100000x128 .f32 := Memref.whole main_arg0
abbrev hM : Memref sig .tc .hbm S62500x64 .f32 := Memref.whole main_v13_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid0.Coords), k0_chk1 (tw0 tb0 c i (T0 a c))) (hp1 : ∀ c (i : grid0.Coords), k0_chk2 (tw1 tb1 c i (T1 a c)))

/-- Window `w`'s block at point `t`, read off its array as the region finds it. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- Each window's current staging memref at point `t`, as the pipeline passes it to the body. -/
abbrev ms0 (t : Fin (cfg0 a).N) : Memref sig .tc .vmem S64x128 .f32 := spec0_0.stage ((cfg0 a).slots t 0)
abbrev hs0 (t : Fin (cfg0 a).N) : (ms0 a t).IsWhole := hstage0_0 (((cfg0 a).slots t 0).cast nbuf0_0)
abbrev ms1 (t : Fin (cfg0 a).N) : Memref sig .tc .vmem S64x128 .f32 := spec0_1.stage ((cfg0 a).slots t 1)
abbrev hs1 (t : Fin (cfg0 a).N) : (ms1 a t).IsWhole := hstage0_1 (((cfg0 a).slots t 1).cast nbuf0_1)
abbrev ms2 (t : Fin (cfg0 a).N) : Memref sig .tc .vmem S1x64 .f32 := spec0_2.stage ((cfg0 a).slots t 2)
abbrev hs2 (t : Fin (cfg0 a).N) : (ms2 a t).IsWhole := hstage0_2 (((cfg0 a).slots t 2).cast nbuf0_2)
abbrev ms3 (t : Fin (cfg0 a).N) : Memref sig .tc .vmem S64x64 .f32 := spec0_3.stage ((cfg0 a).slots t 3)
abbrev hs3 (t : Fin (cfg0 a).N) : (ms3 a t).IsWhole := hstage0_3 (((cfg0 a).slots t 3).cast nbuf0_3)
abbrev ms4 (t : Fin (cfg0 a).N) : Memref sig .tc .vmem S1x64 .f32 := spec0_4.stage ((cfg0 a).slots t 4)
abbrev hs4 (t : Fin (cfg0 a).N) : (ms4 a t).IsWhole := hstage0_4 (((cfg0 a).slots t 4).cast nbuf0_4)
abbrev ms5 (t : Fin (cfg0 a).N) : Memref sig .tc .vmem S1x64 .f32 := spec0_5.stage ((cfg0 a).slots t 5)
abbrev hs5 (t : Fin (cfg0 a).N) : (ms5 a t).IsWhole := hstage0_5 (((cfg0 a).slots t 5).cast nbuf0_5)
abbrev ms6 (t : Fin (cfg0 a).N) : Memref sig .tc .vmem S1x64 .f32 := spec0_6.stage ((cfg0 a).slots t 6)
abbrev hs6 (t : Fin (cfg0 a).N) : (ms6 a t).IsWhole := hstage0_6 (((cfg0 a).slots t 6).cast nbuf0_6)
/-- The three scratch buffers (the two gathered rows and the hidden row). -/
abbrev sc0 : Memref sig .tc .vmem S1x128 .f32 := Memref.whole cc0_scratch0
abbrev sc1 : Memref sig .tc .vmem S1x128 .f32 := Memref.whole cc0_scratch1
abbrev sc2 : Memref sig .tc .vmem S1x64 .f32 := Memref.whole cc0_scratch2

/-- The body's own three copy semaphores. -/
abbrev osem : Fin 3 → SemLoc sig := fun j => (![SemLoc.dma 7, SemLoc.dma 8, SemLoc.dma 9] : Fin 3 → SemLoc sig) j
theorem ownSemFacts : Pipeline.OwnSemFacts spec0 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc0_scratch3 0) 0 ∗ semVal ((c : Thread nD τ), semAt cc0_scratch3 1) 0 ∗ semVal ((c : Thread nD τ), semAt cc0_scratch3 2) 0) := by
  rw [Pipeline.ownSems0_eq_of_list c osem [0, 1, 2] (by decide) (by decide)]; rfl

/-- The grid point's coordinate. -/
abbrev crd (t : Fin (cfg0 a).N) : grid0.Coords := grid0.coords t

/-- The grid is one axis of 62500 points: the coordinate of point `t` is `t`. -/
theorem coord_val (t : Fin (cfg0 a).N) : ((crd a t) 0).val = t.val := by
  have hN : t.val < 62500 := lt_of_lt_of_eq t.isLt N_0
  show t.val / grid0.stride 0 % grid0.bound 0 = t.val
  rw [show grid0.stride 0 = 1 from by decide, Nat.div_one]
  exact Nat.mod_eq_of_lt hN

/-- The branch is taken at the first point and at no other. -/
theorem hcond (t : Fin (cfg0 a).N) : cond0_0 (grid0.coords t) ↔ t.val = 0 := by
  have hN : t.val < 62500 := lt_of_lt_of_eq t.isLt N_0
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg0 a).N) : St (F := F) c :=
  P1.stG tb0 tb1 xM hM c (cfg0 a).N (crd a) (fun t => iblk V a c 0 t) (fun t => iblk V a c 1 t) (fun t => iblk V a c 2 t) (fun t => iblk V a c 3 t) (fun t => iblk V a c 4 t) (T0 a c) (T1 a c) (V c main_arg0) (V c main_v13_0) (fun t => hp0 c (crd a t)) (fun t => hp1 c (crd a t)) n hn

/-- The hidden array before point `n` (after `n` points). -/
def hAt (c : Dev nD) (n : ℕ) (hn : n ≤ (cfg0 a).N) : Bf (F := F) c hM :=
  P1.hG tb0 tb1 xM hM c (cfg0 a).N (crd a) (fun t => iblk V a c 0 t) (fun t => iblk V a c 1 t) (fun t => iblk V a c 2 t) (fun t => iblk V a c 3 t) (fun t => iblk V a c 4 t) (T0 a c) (T1 a c) (V c main_arg0) (V c main_v13_0) (fun t => hp0 c (crd a t)) (fun t => hp1 c (crd a t)) n hn

theorem stAt_zero (c : Dev nD) (t : Fin (cfg0 a).N) (h0 : t.val = 0) :
    stAt V a hp0 hp1 c t.val t.isLt
      = (P1.sumStep tb0 tb1 xM c (cfg0 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k0_pay1 (F := F)), P1.sqStep tb0 tb1 xM c (cfg0 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k0_pay2 (F := F)),
          hNext hM c (crd a t) (V c main_v13_0) (P1.rowStep tb0 tb1 xM c (cfg0 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg0 a).N) (h0 : ¬t.val = 0) :
    stAt V a hp0 hp1 c t.val t.isLt
      = (P1.sumStep tb0 tb1 xM c (cfg0 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg0 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg0 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg0 a).N) (h0 : t.val = 0) (hn) : hAt V a hp0 hp1 c t.val hn = V c main_v13_0 := by
  obtain ⟨n, hlt⟩ := t
  cases n with
  | zero => rfl
  | succ n => exact absurd h0 (Nat.succ_ne_zero n)
theorem hAt_pos (c : Dev nD) (t : Fin (cfg0 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg0 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg0 a).N) : sProp 𝕄 :=
  iprop(Pipeline.scopedRest (Ix := Unit) (Name := ℕ) (U := Pipeline.UD sig nD τ) (Lvl := ℕ) (Val := Elt F) spec0 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg0 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec0 c [cc0_scratch0, cc0_scratch1, cc0_scratch2])
          ∗ (∃ r, prngReg c r)
          ∗ iprop(semVal ((c : Thread nD τ), semAt cc0_scratch3 0) 0 ∗ semVal ((c : Thread nD τ), semAt cc0_scratch3 1) 0 ∗ semVal ((c : Thread nD τ), semAt cc0_scratch3 2) 0)
          ∗ pt c tb0 (T0 a c) ∗ pt c tb1 (T1 a c) ∗ pt c xM (V c main_arg0) ∗ pt c hM (hAt V a hp0 hp1 c n hn)) := by
  unfold Φ1; rw [scopedRest0_split, ownSems0_eq]; simp only [sc0, sc1, sc2, owns_whole]; try rfl

def dat (c : Dev nD) : Dat τ (Elt F) Unit ℕ (Pipeline.UD sig nD τ) ℕ (cfg0 a) c where
  A w := V c (Pipeline.arrRef spec0 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg0 a).W) : (dat V a hp0 hp1 c).A w = V c (Pipeline.arrRef spec0 w) := by
  dsimp only [dat]
theorem after_0 (c : Dev nD) (t : Fin (cfg0 a).N) : (dat V a hp0 hp1 c).after 0 t = iblk V a c 0 t := by dsimp only [dat]; rfl
theorem after_1 (c : Dev nD) (t : Fin (cfg0 a).N) : (dat V a hp0 hp1 c).after 1 t = iblk V a c 1 t := by dsimp only [dat]; rfl
theorem after_2 (c : Dev nD) (t : Fin (cfg0 a).N) : (dat V a hp0 hp1 c).after 2 t = iblk V a c 2 t := by dsimp only [dat]; rfl
theorem after_3 (c : Dev nD) (t : Fin (cfg0 a).N) : (dat V a hp0 hp1 c).after 3 t = iblk V a c 3 t := by dsimp only [dat]; rfl
theorem after_4 (c : Dev nD) (t : Fin (cfg0 a).N) : (dat V a hp0 hp1 c).after 4 t = iblk V a c 4 t := by dsimp only [dat]; rfl
theorem after_5 (c : Dev nD) (t : Fin (cfg0 a).N) : (dat V a hp0 hp1 c).after 5 t = (stAt V a hp0 hp1 c t.val t.isLt).1 := by dsimp only [dat]; rfl
theorem after_6 (c : Dev nD) (t : Fin (cfg0 a).N) : (dat V a hp0 hp1 c).after 6 t = (stAt V a hp0 hp1 c t.val t.isLt).2.1 := by dsimp only [dat]; rfl
theorem before_0 (c : Dev nD) (t : Fin (cfg0 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg0 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg0 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg0 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg0 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg0 a).N) (h : t'.val + 1 < (cfg0 a).N) : ((cfg0 a).win 5).flush t' = false := by
  unfold Pipeline.Window.flush
  rw [Bool.and_eq_false_iff]; right
  rw [Bool.or_eq_false_iff]
  have h' : t'.val + 1 < (cfg0 a).grid.N := h
  exact ⟨decide_eq_false (by omega), decide_eq_false (fun ⟨_, hne⟩ => hne rfl)⟩
theorem before_5_B (c : Dev nD) (t : Fin (cfg0 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg0 a).N) (h : t'.val + 1 < (cfg0 a).N) : ((cfg0 a).win 6).flush t' = false := by
  unfold Pipeline.Window.flush
  rw [Bool.and_eq_false_iff]; right
  rw [Bool.or_eq_false_iff]
  have h' : t'.val + 1 < (cfg0 a).grid.N := h
  exact ⟨decide_eq_false (by omega), decide_eq_false (fun ⟨_, hne⟩ => hne rfl)⟩
theorem before_6_B (c : Dev nD) (t : Fin (cfg0 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg0 a).N) : Prog (TpuEff nD τ sig (Elt F) Λ₀ .tc) PUnit :=
  (cc0__pass1_kernel (grid0.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc0_scratch3)

def bodyPre (c : Dev nD) (t : Fin (cfg0 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg0 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg0 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc0_scratch3 c (grid0.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v13_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc0_scratch3 c (grid0.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W0, bigSep_W0]
  exact sound_body V a hp0 hp1 c t

end Cert.Kernel.P1R0

end
-- ==== Proof.B1R0Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.B1R0Dat
import proofs.«400866_j57071525429608_2_alg».proof.Proof.AssembleBits

set_option maxRecDepth 16384

noncomputable section

namespace Cert.Kernel.P1R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Asm (Rr L₀ lv₀)
open Cert.Kernel.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid0.Coords), k0_chk1 (tw0 tb0 c i (T0 (adm 0) c))) (hp1 : ∀ c (i : grid0.Coords), k0_chk2 (tw1 tb1 c i (T1 (adm 0) c)))

/-- The unscoped buffers the body moves itself or reads as tables: no window's array. -/
def H : Finset (Ref sig .tc) := {main_arg0, main_v11, main_v12, main_v13_0}
theorem H_sub : H ⊆ Pipeline.restRefs sig spec0 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v11) ∗ pt c tb1 (W main_v12) ∗ pt c hM (W main_v13_0)) := by
  rw [BI.bigSep_eq_bigSepL_of_eq [main_arg0, main_v11, main_v12, main_v13_0] (by decide) (by decide)]; rfl

/-- The two tables held, listed. -/
theorem pref_eq (c : Dev nD) (T : (pcfgs (F := F) 0).pre.Contents (Elt F)) :
    (Pipeline.prefHeld (Ix := Unit) (Name := ℕ) (U := Pipeline.UD sig nD τ) (Lvl := ℕ) (pcfgs (F := F) 0).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 0) hp0 hp1 c (cfg0 (adm 0)).N le_rfl

/-- The entry valuation with the hidden array at its final contents: what the unscoped rest is at the exit. -/
def Vmid (c : Dev nD) : (b : Ref sig .tc) → Buf (Elt F) ((c : Thread nD τ).loc b) :=
  Function.update (Vin Win c) main_v13_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec0 c W : sProp 𝕄)
      = iprop((bigSep H fun b => ((c : Thread nD τ).loc b) ↦{fullShare} W b) ∗ (bigSep (Pipeline.restRefs sig spec0 \ H) fun b => ((c : Thread nD τ).loc b) ↦{fullShare} W b)) := by
  unfold Pipeline.unscopedRest; exact BI.bigSep_sdiff_split H_sub

set_option maxHeartbeats 4000000 in
def reg (hpd : ∀ c, pdats 0 c = dat (Vin Win) (adm 0) hp0 hp1 c)
    (hT0 : ∀ c, Vin Win c main_v11 = T0 (adm 0) c) (hT1 : ∀ c, Vin Win c main_v12 = T1 (adm 0) c)
    (hF : ∀ c w, (dat (Vin Win) (adm 0) hp0 hp1 c).arrAt w (cfg0 (adm 0)).N = Vout Wout c (Pipeline.arrRef spec0 w))
    (hrest : ∀ c b, b ∉ Finset.univ.image (Pipeline.arrRef spec0) → Vout Wout c b = Vmid adm Win hp0 hp1 c b) :
    Pipeline.RegionSeg (pcfgs (F := F)) adm pdats () defs₀ Variants.none L₀ lv₀ 0 where
  win := winFacts0.to₀
  block_pos := block_pos0
  stage_whole := stage_whole0
  K := Fin 3
  osem := osem
  ho := ownSemFacts
  hbody c := by rw [hpd c]; exact (body_obligation (Vin Win) (adm 0) hp0 hp1 c).loose
  hwaits := Pipeline.hwaits_of_owed_zero _ _ _ _ L₀ lv₀ 0 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v13_0))
  Y c := iprop((∃ r, prngReg c r) ∗ pt c tb0 (T0 (adm 0) c) ∗ pt c tb1 (T1 (adm 0) c) ∗ pt c xM (Vin Win c main_arg0) ∗ pt c hM (hEnd adm Win hp0 hp1 c))
  Z c := bigSep (Pipeline.restRefs sig spec0 \ H) fun b => ((c : Thread nD τ).loc b) ↦{fullShare} Vin Win c b
  hentry c := by
    have hsplit : (StableHlo.held (c : Thread nD τ) (Pipeline.ucRefs τ sig) (Win c) : sProp 𝕄)
        ⊢ iprop((pdats 0 c).arrays ((pdats 0 c).arrAt · 0) ∗ Pipeline.unscopedRest (Ix := Unit) (Name := ℕ) (U := Pipeline.UD sig nD τ) (Lvl := ℕ) spec0 c (Vin Win c)) := by
      have h := Pipeline.arrays_of_unscopedBufs (p := 0) (pcfgs (F := F)) adm pdats winFacts0 arr_whole0 c
        (by rw [hpd c]; exact (dat (Vin Win) (adm 0) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 0 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 0) hp0 hp1 c 0 (Nat.zero_le _)
    unfold Φ1
    rw [pref_eq, show hAt (Vin Win) (adm 0) hp0 hp1 c 0 (Nat.zero_le _) = Vin Win c main_v13_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 0) hp0 hp1 c (cfg0 (adm 0)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 0 c).arrays ((pdats 0 c).arrAt · (cfg0 (adm 0)).N) ∗ Pipeline.unscopedRest (Ix := Unit) (Name := ℕ) (U := Pipeline.UD sig nD τ) (Lvl := ℕ) spec0 c (Vmid adm Win hp0 hp1 c))
        ⊢ (StableHlo.held (c : Thread nD τ) (Pipeline.ucRefs τ sig) (Wout c) : sProp 𝕄) := by
      have h := Pipeline.unscopedBufs_of_arrays (p := 0) (pcfgs (F := F)) adm (Ix := Unit) (Name := ℕ) (U := Pipeline.UD sig nD τ) (Lvl := ℕ)
        winFacts0 arr_whole0 c pdats (by rw [hpd c]; exact (dat (Vin Win) (adm 0) hp0 hp1 c).share_full fun _ => rfl)
        (Vmid adm Win hp0 hp1 c) (Vout Wout c) ((pdats 0 c).arrAt · (cfg0 (adm 0)).N) (by rw [hpd c]; exact hF c) (hrest c)
      rw [Pipeline.unscopedBufs_held] at h; exact h
    rw [rest_split, Hpts_eq] at hjoin
    have hZ : (bigSep (Pipeline.restRefs sig spec0 \ H) fun b => ((c : Thread nD τ).loc b) ↦{fullShare} Vin Win c b : sProp 𝕄)
        = (bigSep (Pipeline.restRefs sig spec0 \ H) fun b => ((c : Thread nD τ).loc b) ↦{fullShare} Vmid adm Win hp0 hp1 c b) :=
      bigSep_congr fun b hb => by
        have hne : b ≠ main_v13_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v11 = Vin Win c main_v11 := by unfold Vmid; exact Function.update_of_ne (by decide) _ _
    have e2 : Vmid adm Win hp0 hp1 c main_v12 = Vin Win c main_v12 := by unfold Vmid; exact Function.update_of_ne (by decide) _ _
    have e3 : Vmid adm Win hp0 hp1 c main_v13_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 0 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.Kernel.P1R0

end
-- ==== Proof.B1R1Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.B1Body
import proofs.«400866_j57071525429608_2_alg».proof.Proof.B1State
import proofs.«400866_j57071525429608_2_alg».proof.Proof.B1Kern

set_option maxRecDepth 100000

noncomputable section

namespace Cert.Kernel.P1R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc1__pass1_kernel (F := F) = P1.kern := rfl

-- The buffer contents when the region is entered, and the admissible index tables.
variable (V : (c : Dev nD) → (b : Ref sig .tc) → Buf (Elt F) ((c : Thread nD τ).loc b))
variable (a : (pcfg1 (F := F)).Adm)

/-- The two index tables, the node-feature array and the hidden array, as the body is handed them. -/
abbrev tb0 : Memref sig .tc .smem S62500 .i32 := Memref.whole main_v14
abbrev tb1 : Memref sig .tc .smem S62500 .i32 := Memref.whole main_v15
abbrev xM : Memref sig .tc .hbm S100000x128 .f32 := Memref.whole main_arg0
abbrev hM : Memref sig .tc .hbm S62500x64 .f32 := Memref.whole main_v16_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid1.Coords), k1_chk1 (tw0 tb0 c i (T0 a c))) (hp1 : ∀ c (i : grid1.Coords), k1_chk2 (tw1 tb1 c i (T1 a c)))

/-- Window `w`'s block at point `t`, read off its array as the region finds it. -/
def iblk (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- Each window's current staging memref at point `t`, as the pipeline passes it to the body. -/
abbrev ms0 (t : Fin (cfg1 a).N) : Memref sig .tc .vmem S64x128 .f32 := spec1_0.stage ((cfg1 a).slots t 0)
abbrev hs0 (t : Fin (cfg1 a).N) : (ms0 a t).IsWhole := hstage1_0 (((cfg1 a).slots t 0).cast nbuf1_0)
abbrev ms1 (t : Fin (cfg1 a).N) : Memref sig .tc .vmem S64x128 .f32 := spec1_1.stage ((cfg1 a).slots t 1)
abbrev hs1 (t : Fin (cfg1 a).N) : (ms1 a t).IsWhole := hstage1_1 (((cfg1 a).slots t 1).cast nbuf1_1)
abbrev ms2 (t : Fin (cfg1 a).N) : Memref sig .tc .vmem S1x64 .f32 := spec1_2.stage ((cfg1 a).slots t 2)
abbrev hs2 (t : Fin (cfg1 a).N) : (ms2 a t).IsWhole := hstage1_2 (((cfg1 a).slots t 2).cast nbuf1_2)
abbrev ms3 (t : Fin (cfg1 a).N) : Memref sig .tc .vmem S64x64 .f32 := spec1_3.stage ((cfg1 a).slots t 3)
abbrev hs3 (t : Fin (cfg1 a).N) : (ms3 a t).IsWhole := hstage1_3 (((cfg1 a).slots t 3).cast nbuf1_3)
abbrev ms4 (t : Fin (cfg1 a).N) : Memref sig .tc .vmem S1x64 .f32 := spec1_4.stage ((cfg1 a).slots t 4)
abbrev hs4 (t : Fin (cfg1 a).N) : (ms4 a t).IsWhole := hstage1_4 (((cfg1 a).slots t 4).cast nbuf1_4)
abbrev ms5 (t : Fin (cfg1 a).N) : Memref sig .tc .vmem S1x64 .f32 := spec1_5.stage ((cfg1 a).slots t 5)
abbrev hs5 (t : Fin (cfg1 a).N) : (ms5 a t).IsWhole := hstage1_5 (((cfg1 a).slots t 5).cast nbuf1_5)
abbrev ms6 (t : Fin (cfg1 a).N) : Memref sig .tc .vmem S1x64 .f32 := spec1_6.stage ((cfg1 a).slots t 6)
abbrev hs6 (t : Fin (cfg1 a).N) : (ms6 a t).IsWhole := hstage1_6 (((cfg1 a).slots t 6).cast nbuf1_6)
/-- The three scratch buffers (the two gathered rows and the hidden row). -/
abbrev sc0 : Memref sig .tc .vmem S1x128 .f32 := Memref.whole cc1_scratch0
abbrev sc1 : Memref sig .tc .vmem S1x128 .f32 := Memref.whole cc1_scratch1
abbrev sc2 : Memref sig .tc .vmem S1x64 .f32 := Memref.whole cc1_scratch2

/-- The body's own three copy semaphores. -/
abbrev osem : Fin 3 → SemLoc sig := fun j => (![SemLoc.dma 17, SemLoc.dma 18, SemLoc.dma 19] : Fin 3 → SemLoc sig) j
theorem ownSemFacts : Pipeline.OwnSemFacts spec1 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc1_scratch3 0) 0 ∗ semVal ((c : Thread nD τ), semAt cc1_scratch3 1) 0 ∗ semVal ((c : Thread nD τ), semAt cc1_scratch3 2) 0) := by
  rw [Pipeline.ownSems0_eq_of_list c osem [0, 1, 2] (by decide) (by decide)]; rfl

/-- The grid point's coordinate. -/
abbrev crd (t : Fin (cfg1 a).N) : grid1.Coords := grid1.coords t

/-- The grid is one axis of 62500 points: the coordinate of point `t` is `t`. -/
theorem coord_val (t : Fin (cfg1 a).N) : ((crd a t) 0).val = t.val := by
  have hN : t.val < 62500 := lt_of_lt_of_eq t.isLt N_1
  show t.val / grid1.stride 0 % grid1.bound 0 = t.val
  rw [show grid1.stride 0 = 1 from by decide, Nat.div_one]
  exact Nat.mod_eq_of_lt hN

/-- The branch is taken at the first point and at no other. -/
theorem hcond (t : Fin (cfg1 a).N) : cond0_0 (grid1.coords t) ↔ t.val = 0 := by
  have hN : t.val < 62500 := lt_of_lt_of_eq t.isLt N_1
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg1 a).N) : St (F := F) c :=
  P1.stG tb0 tb1 xM hM c (cfg1 a).N (crd a) (fun t => iblk V a c 0 t) (fun t => iblk V a c 1 t) (fun t => iblk V a c 2 t) (fun t => iblk V a c 3 t) (fun t => iblk V a c 4 t) (T0 a c) (T1 a c) (V c main_arg0) (V c main_v16_0) (fun t => hp0 c (crd a t)) (fun t => hp1 c (crd a t)) n hn

/-- The hidden array before point `n` (after `n` points). -/
def hAt (c : Dev nD) (n : ℕ) (hn : n ≤ (cfg1 a).N) : Bf (F := F) c hM :=
  P1.hG tb0 tb1 xM hM c (cfg1 a).N (crd a) (fun t => iblk V a c 0 t) (fun t => iblk V a c 1 t) (fun t => iblk V a c 2 t) (fun t => iblk V a c 3 t) (fun t => iblk V a c 4 t) (T0 a c) (T1 a c) (V c main_arg0) (V c main_v16_0) (fun t => hp0 c (crd a t)) (fun t => hp1 c (crd a t)) n hn

theorem stAt_zero (c : Dev nD) (t : Fin (cfg1 a).N) (h0 : t.val = 0) :
    stAt V a hp0 hp1 c t.val t.isLt
      = (P1.sumStep tb0 tb1 xM c (cfg1 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k1_pay1 (F := F)), P1.sqStep tb0 tb1 xM c (cfg1 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k1_pay2 (F := F)),
          hNext hM c (crd a t) (V c main_v16_0) (P1.rowStep tb0 tb1 xM c (cfg1 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg1 a).N) (h0 : ¬t.val = 0) :
    stAt V a hp0 hp1 c t.val t.isLt
      = (P1.sumStep tb0 tb1 xM c (cfg1 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg1 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg1 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg1 a).N) (h0 : t.val = 0) (hn) : hAt V a hp0 hp1 c t.val hn = V c main_v16_0 := by
  obtain ⟨n, hlt⟩ := t
  cases n with
  | zero => rfl
  | succ n => exact absurd h0 (Nat.succ_ne_zero n)
theorem hAt_pos (c : Dev nD) (t : Fin (cfg1 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg1 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg1 a).N) : sProp 𝕄 :=
  iprop(Pipeline.scopedRest (Ix := Unit) (Name := ℕ) (U := Pipeline.UD sig nD τ) (Lvl := ℕ) (Val := Elt F) spec1 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg1 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec1 c [cc1_scratch0, cc1_scratch1, cc1_scratch2])
          ∗ (∃ r, prngReg c r)
          ∗ iprop(semVal ((c : Thread nD τ), semAt cc1_scratch3 0) 0 ∗ semVal ((c : Thread nD τ), semAt cc1_scratch3 1) 0 ∗ semVal ((c : Thread nD τ), semAt cc1_scratch3 2) 0)
          ∗ pt c tb0 (T0 a c) ∗ pt c tb1 (T1 a c) ∗ pt c xM (V c main_arg0) ∗ pt c hM (hAt V a hp0 hp1 c n hn)) := by
  unfold Φ1; rw [scopedRest1_split, ownSems0_eq]; simp only [sc0, sc1, sc2, owns_whole]; try rfl

def dat (c : Dev nD) : Dat τ (Elt F) Unit ℕ (Pipeline.UD sig nD τ) ℕ (cfg1 a) c where
  A w := V c (Pipeline.arrRef spec1 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg1 a).W) : (dat V a hp0 hp1 c).A w = V c (Pipeline.arrRef spec1 w) := by
  dsimp only [dat]
theorem after_0 (c : Dev nD) (t : Fin (cfg1 a).N) : (dat V a hp0 hp1 c).after 0 t = iblk V a c 0 t := by dsimp only [dat]; rfl
theorem after_1 (c : Dev nD) (t : Fin (cfg1 a).N) : (dat V a hp0 hp1 c).after 1 t = iblk V a c 1 t := by dsimp only [dat]; rfl
theorem after_2 (c : Dev nD) (t : Fin (cfg1 a).N) : (dat V a hp0 hp1 c).after 2 t = iblk V a c 2 t := by dsimp only [dat]; rfl
theorem after_3 (c : Dev nD) (t : Fin (cfg1 a).N) : (dat V a hp0 hp1 c).after 3 t = iblk V a c 3 t := by dsimp only [dat]; rfl
theorem after_4 (c : Dev nD) (t : Fin (cfg1 a).N) : (dat V a hp0 hp1 c).after 4 t = iblk V a c 4 t := by dsimp only [dat]; rfl
theorem after_5 (c : Dev nD) (t : Fin (cfg1 a).N) : (dat V a hp0 hp1 c).after 5 t = (stAt V a hp0 hp1 c t.val t.isLt).1 := by dsimp only [dat]; rfl
theorem after_6 (c : Dev nD) (t : Fin (cfg1 a).N) : (dat V a hp0 hp1 c).after 6 t = (stAt V a hp0 hp1 c t.val t.isLt).2.1 := by dsimp only [dat]; rfl
theorem before_0 (c : Dev nD) (t : Fin (cfg1 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg1 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg1 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg1 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg1 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg1 a).N) (h : t'.val + 1 < (cfg1 a).N) : ((cfg1 a).win 5).flush t' = false := by
  unfold Pipeline.Window.flush
  rw [Bool.and_eq_false_iff]; right
  rw [Bool.or_eq_false_iff]
  have h' : t'.val + 1 < (cfg1 a).grid.N := h
  exact ⟨decide_eq_false (by omega), decide_eq_false (fun ⟨_, hne⟩ => hne rfl)⟩
theorem before_5_B (c : Dev nD) (t : Fin (cfg1 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg1 a).N) (h : t'.val + 1 < (cfg1 a).N) : ((cfg1 a).win 6).flush t' = false := by
  unfold Pipeline.Window.flush
  rw [Bool.and_eq_false_iff]; right
  rw [Bool.or_eq_false_iff]
  have h' : t'.val + 1 < (cfg1 a).grid.N := h
  exact ⟨decide_eq_false (by omega), decide_eq_false (fun ⟨_, hne⟩ => hne rfl)⟩
theorem before_6_B (c : Dev nD) (t : Fin (cfg1 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg1 a).N) : Prog (TpuEff nD τ sig (Elt F) Λ₀ .tc) PUnit :=
  (cc1__pass1_kernel (grid1.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc1_scratch3)

def bodyPre (c : Dev nD) (t : Fin (cfg1 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg1 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg1 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc1_scratch3 c (grid1.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v16_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc1_scratch3 c (grid1.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W1, bigSep_W1]
  exact sound_body V a hp0 hp1 c t

end Cert.Kernel.P1R1

end
-- ==== Proof.B1R1Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.B1R1Dat
import proofs.«400866_j57071525429608_2_alg».proof.Proof.AssembleBits

set_option maxRecDepth 16384

noncomputable section

namespace Cert.Kernel.P1R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Asm (Rr L₀ lv₀)
open Cert.Kernel.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid1.Coords), k1_chk1 (tw0 tb0 c i (T0 (adm 1) c))) (hp1 : ∀ c (i : grid1.Coords), k1_chk2 (tw1 tb1 c i (T1 (adm 1) c)))

/-- The unscoped buffers the body moves itself or reads as tables: no window's array. -/
def H : Finset (Ref sig .tc) := {main_arg0, main_v14, main_v15, main_v16_0}
theorem H_sub : H ⊆ Pipeline.restRefs sig spec1 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v14) ∗ pt c tb1 (W main_v15) ∗ pt c hM (W main_v16_0)) := by
  rw [BI.bigSep_eq_bigSepL_of_eq [main_arg0, main_v14, main_v15, main_v16_0] (by decide) (by decide)]; rfl

/-- The two tables held, listed. -/
theorem pref_eq (c : Dev nD) (T : (pcfgs (F := F) 1).pre.Contents (Elt F)) :
    (Pipeline.prefHeld (Ix := Unit) (Name := ℕ) (U := Pipeline.UD sig nD τ) (Lvl := ℕ) (pcfgs (F := F) 1).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 1) hp0 hp1 c (cfg1 (adm 1)).N le_rfl

/-- The entry valuation with the hidden array at its final contents: what the unscoped rest is at the exit. -/
def Vmid (c : Dev nD) : (b : Ref sig .tc) → Buf (Elt F) ((c : Thread nD τ).loc b) :=
  Function.update (Vin Win c) main_v16_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec1 c W : sProp 𝕄)
      = iprop((bigSep H fun b => ((c : Thread nD τ).loc b) ↦{fullShare} W b) ∗ (bigSep (Pipeline.restRefs sig spec1 \ H) fun b => ((c : Thread nD τ).loc b) ↦{fullShare} W b)) := by
  unfold Pipeline.unscopedRest; exact BI.bigSep_sdiff_split H_sub

set_option maxHeartbeats 4000000 in
def reg (hpd : ∀ c, pdats 1 c = dat (Vin Win) (adm 1) hp0 hp1 c)
    (hT0 : ∀ c, Vin Win c main_v14 = T0 (adm 1) c) (hT1 : ∀ c, Vin Win c main_v15 = T1 (adm 1) c)
    (hF : ∀ c w, (dat (Vin Win) (adm 1) hp0 hp1 c).arrAt w (cfg1 (adm 1)).N = Vout Wout c (Pipeline.arrRef spec1 w))
    (hrest : ∀ c b, b ∉ Finset.univ.image (Pipeline.arrRef spec1) → Vout Wout c b = Vmid adm Win hp0 hp1 c b) :
    Pipeline.RegionSeg (pcfgs (F := F)) adm pdats () defs₀ Variants.none L₀ lv₀ 1 where
  win := winFacts1.to₀
  block_pos := block_pos1
  stage_whole := stage_whole1
  K := Fin 3
  osem := osem
  ho := ownSemFacts
  hbody c := by rw [hpd c]; exact (body_obligation (Vin Win) (adm 1) hp0 hp1 c).loose
  hwaits := Pipeline.hwaits_of_owed_zero _ _ _ _ L₀ lv₀ 1 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v16_0))
  Y c := iprop((∃ r, prngReg c r) ∗ pt c tb0 (T0 (adm 1) c) ∗ pt c tb1 (T1 (adm 1) c) ∗ pt c xM (Vin Win c main_arg0) ∗ pt c hM (hEnd adm Win hp0 hp1 c))
  Z c := bigSep (Pipeline.restRefs sig spec1 \ H) fun b => ((c : Thread nD τ).loc b) ↦{fullShare} Vin Win c b
  hentry c := by
    have hsplit : (StableHlo.held (c : Thread nD τ) (Pipeline.ucRefs τ sig) (Win c) : sProp 𝕄)
        ⊢ iprop((pdats 1 c).arrays ((pdats 1 c).arrAt · 0) ∗ Pipeline.unscopedRest (Ix := Unit) (Name := ℕ) (U := Pipeline.UD sig nD τ) (Lvl := ℕ) spec1 c (Vin Win c)) := by
      have h := Pipeline.arrays_of_unscopedBufs (p := 1) (pcfgs (F := F)) adm pdats winFacts1 arr_whole1 c
        (by rw [hpd c]; exact (dat (Vin Win) (adm 1) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 1 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 1) hp0 hp1 c 0 (Nat.zero_le _)
    unfold Φ1
    rw [pref_eq, show hAt (Vin Win) (adm 1) hp0 hp1 c 0 (Nat.zero_le _) = Vin Win c main_v16_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 1) hp0 hp1 c (cfg1 (adm 1)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 1 c).arrays ((pdats 1 c).arrAt · (cfg1 (adm 1)).N) ∗ Pipeline.unscopedRest (Ix := Unit) (Name := ℕ) (U := Pipeline.UD sig nD τ) (Lvl := ℕ) spec1 c (Vmid adm Win hp0 hp1 c))
        ⊢ (StableHlo.held (c : Thread nD τ) (Pipeline.ucRefs τ sig) (Wout c) : sProp 𝕄) := by
      have h := Pipeline.unscopedBufs_of_arrays (p := 1) (pcfgs (F := F)) adm (Ix := Unit) (Name := ℕ) (U := Pipeline.UD sig nD τ) (Lvl := ℕ)
        winFacts1 arr_whole1 c pdats (by rw [hpd c]; exact (dat (Vin Win) (adm 1) hp0 hp1 c).share_full fun _ => rfl)
        (Vmid adm Win hp0 hp1 c) (Vout Wout c) ((pdats 1 c).arrAt · (cfg1 (adm 1)).N) (by rw [hpd c]; exact hF c) (hrest c)
      rw [Pipeline.unscopedBufs_held] at h; exact h
    rw [rest_split, Hpts_eq] at hjoin
    have hZ : (bigSep (Pipeline.restRefs sig spec1 \ H) fun b => ((c : Thread nD τ).loc b) ↦{fullShare} Vin Win c b : sProp 𝕄)
        = (bigSep (Pipeline.restRefs sig spec1 \ H) fun b => ((c : Thread nD τ).loc b) ↦{fullShare} Vmid adm Win hp0 hp1 c b) :=
      bigSep_congr fun b hb => by
        have hne : b ≠ main_v16_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v14 = Vin Win c main_v14 := by unfold Vmid; exact Function.update_of_ne (by decide) _ _
    have e2 : Vmid adm Win hp0 hp1 c main_v15 = Vin Win c main_v15 := by unfold Vmid; exact Function.update_of_ne (by decide) _ _
    have e3 : Vmid adm Win hp0 hp1 c main_v16_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 1 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.Kernel.P1R1

end
-- ==== Proof.B1R2Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.B1Body
import proofs.«400866_j57071525429608_2_alg».proof.Proof.B1State
import proofs.«400866_j57071525429608_2_alg».proof.Proof.B1Kern

set_option maxRecDepth 100000

noncomputable section

namespace Cert.Kernel.P1R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc2__pass1_kernel (F := F) = P1.kern := rfl

-- The buffer contents when the region is entered, and the admissible index tables.
variable (V : (c : Dev nD) → (b : Ref sig .tc) → Buf (Elt F) ((c : Thread nD τ).loc b))
variable (a : (pcfg2 (F := F)).Adm)

/-- The two index tables, the node-feature array and the hidden array, as the body is handed them. -/
abbrev tb0 : Memref sig .tc .smem S62500 .i32 := Memref.whole main_v17
abbrev tb1 : Memref sig .tc .smem S62500 .i32 := Memref.whole main_v18
abbrev xM : Memref sig .tc .hbm S100000x128 .f32 := Memref.whole main_arg0
abbrev hM : Memref sig .tc .hbm S62500x64 .f32 := Memref.whole main_v19_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid2.Coords), k2_chk1 (tw0 tb0 c i (T0 a c))) (hp1 : ∀ c (i : grid2.Coords), k2_chk2 (tw1 tb1 c i (T1 a c)))

/-- Window `w`'s block at point `t`, read off its array as the region finds it. -/
def iblk (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (V c (Pipeline.arrRef spec2 w))

/-- Each window's current staging memref at point `t`, as the pipeline passes it to the body. -/
abbrev ms0 (t : Fin (cfg2 a).N) : Memref sig .tc .vmem S64x128 .f32 := spec2_0.stage ((cfg2 a).slots t 0)
abbrev hs0 (t : Fin (cfg2 a).N) : (ms0 a t).IsWhole := hstage2_0 (((cfg2 a).slots t 0).cast nbuf2_0)
abbrev ms1 (t : Fin (cfg2 a).N) : Memref sig .tc .vmem S64x128 .f32 := spec2_1.stage ((cfg2 a).slots t 1)
abbrev hs1 (t : Fin (cfg2 a).N) : (ms1 a t).IsWhole := hstage2_1 (((cfg2 a).slots t 1).cast nbuf2_1)
abbrev ms2 (t : Fin (cfg2 a).N) : Memref sig .tc .vmem S1x64 .f32 := spec2_2.stage ((cfg2 a).slots t 2)
abbrev hs2 (t : Fin (cfg2 a).N) : (ms2 a t).IsWhole := hstage2_2 (((cfg2 a).slots t 2).cast nbuf2_2)
abbrev ms3 (t : Fin (cfg2 a).N) : Memref sig .tc .vmem S64x64 .f32 := spec2_3.stage ((cfg2 a).slots t 3)
abbrev hs3 (t : Fin (cfg2 a).N) : (ms3 a t).IsWhole := hstage2_3 (((cfg2 a).slots t 3).cast nbuf2_3)
abbrev ms4 (t : Fin (cfg2 a).N) : Memref sig .tc .vmem S1x64 .f32 := spec2_4.stage ((cfg2 a).slots t 4)
abbrev hs4 (t : Fin (cfg2 a).N) : (ms4 a t).IsWhole := hstage2_4 (((cfg2 a).slots t 4).cast nbuf2_4)
abbrev ms5 (t : Fin (cfg2 a).N) : Memref sig .tc .vmem S1x64 .f32 := spec2_5.stage ((cfg2 a).slots t 5)
abbrev hs5 (t : Fin (cfg2 a).N) : (ms5 a t).IsWhole := hstage2_5 (((cfg2 a).slots t 5).cast nbuf2_5)
abbrev ms6 (t : Fin (cfg2 a).N) : Memref sig .tc .vmem S1x64 .f32 := spec2_6.stage ((cfg2 a).slots t 6)
abbrev hs6 (t : Fin (cfg2 a).N) : (ms6 a t).IsWhole := hstage2_6 (((cfg2 a).slots t 6).cast nbuf2_6)
/-- The three scratch buffers (the two gathered rows and the hidden row). -/
abbrev sc0 : Memref sig .tc .vmem S1x128 .f32 := Memref.whole cc2_scratch0
abbrev sc1 : Memref sig .tc .vmem S1x128 .f32 := Memref.whole cc2_scratch1
abbrev sc2 : Memref sig .tc .vmem S1x64 .f32 := Memref.whole cc2_scratch2

/-- The body's own three copy semaphores. -/
abbrev osem : Fin 3 → SemLoc sig := fun j => (![SemLoc.dma 27, SemLoc.dma 28, SemLoc.dma 29] : Fin 3 → SemLoc sig) j
theorem ownSemFacts : Pipeline.OwnSemFacts spec2 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc2_scratch3 0) 0 ∗ semVal ((c : Thread nD τ), semAt cc2_scratch3 1) 0 ∗ semVal ((c : Thread nD τ), semAt cc2_scratch3 2) 0) := by
  rw [Pipeline.ownSems0_eq_of_list c osem [0, 1, 2] (by decide) (by decide)]; rfl

/-- The grid point's coordinate. -/
abbrev crd (t : Fin (cfg2 a).N) : grid2.Coords := grid2.coords t

/-- The grid is one axis of 62500 points: the coordinate of point `t` is `t`. -/
theorem coord_val (t : Fin (cfg2 a).N) : ((crd a t) 0).val = t.val := by
  have hN : t.val < 62500 := lt_of_lt_of_eq t.isLt N_2
  show t.val / grid2.stride 0 % grid2.bound 0 = t.val
  rw [show grid2.stride 0 = 1 from by decide, Nat.div_one]
  exact Nat.mod_eq_of_lt hN

/-- The branch is taken at the first point and at no other. -/
theorem hcond (t : Fin (cfg2 a).N) : cond0_0 (grid2.coords t) ↔ t.val = 0 := by
  have hN : t.val < 62500 := lt_of_lt_of_eq t.isLt N_2
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg2 a).N) : St (F := F) c :=
  P1.stG tb0 tb1 xM hM c (cfg2 a).N (crd a) (fun t => iblk V a c 0 t) (fun t => iblk V a c 1 t) (fun t => iblk V a c 2 t) (fun t => iblk V a c 3 t) (fun t => iblk V a c 4 t) (T0 a c) (T1 a c) (V c main_arg0) (V c main_v19_0) (fun t => hp0 c (crd a t)) (fun t => hp1 c (crd a t)) n hn

/-- The hidden array before point `n` (after `n` points). -/
def hAt (c : Dev nD) (n : ℕ) (hn : n ≤ (cfg2 a).N) : Bf (F := F) c hM :=
  P1.hG tb0 tb1 xM hM c (cfg2 a).N (crd a) (fun t => iblk V a c 0 t) (fun t => iblk V a c 1 t) (fun t => iblk V a c 2 t) (fun t => iblk V a c 3 t) (fun t => iblk V a c 4 t) (T0 a c) (T1 a c) (V c main_arg0) (V c main_v19_0) (fun t => hp0 c (crd a t)) (fun t => hp1 c (crd a t)) n hn

theorem stAt_zero (c : Dev nD) (t : Fin (cfg2 a).N) (h0 : t.val = 0) :
    stAt V a hp0 hp1 c t.val t.isLt
      = (P1.sumStep tb0 tb1 xM c (cfg2 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k2_pay1 (F := F)), P1.sqStep tb0 tb1 xM c (cfg2 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k2_pay2 (F := F)),
          hNext hM c (crd a t) (V c main_v19_0) (P1.rowStep tb0 tb1 xM c (cfg2 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg2 a).N) (h0 : ¬t.val = 0) :
    stAt V a hp0 hp1 c t.val t.isLt
      = (P1.sumStep tb0 tb1 xM c (cfg2 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg2 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg2 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg2 a).N) (h0 : t.val = 0) (hn) : hAt V a hp0 hp1 c t.val hn = V c main_v19_0 := by
  obtain ⟨n, hlt⟩ := t
  cases n with
  | zero => rfl
  | succ n => exact absurd h0 (Nat.succ_ne_zero n)
theorem hAt_pos (c : Dev nD) (t : Fin (cfg2 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg2 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg2 a).N) : sProp 𝕄 :=
  iprop(Pipeline.scopedRest (Ix := Unit) (Name := ℕ) (U := Pipeline.UD sig nD τ) (Lvl := ℕ) (Val := Elt F) spec2 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg2 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec2 c [cc2_scratch0, cc2_scratch1, cc2_scratch2])
          ∗ (∃ r, prngReg c r)
          ∗ iprop(semVal ((c : Thread nD τ), semAt cc2_scratch3 0) 0 ∗ semVal ((c : Thread nD τ), semAt cc2_scratch3 1) 0 ∗ semVal ((c : Thread nD τ), semAt cc2_scratch3 2) 0)
          ∗ pt c tb0 (T0 a c) ∗ pt c tb1 (T1 a c) ∗ pt c xM (V c main_arg0) ∗ pt c hM (hAt V a hp0 hp1 c n hn)) := by
  unfold Φ1; rw [scopedRest2_split, ownSems0_eq]; simp only [sc0, sc1, sc2, owns_whole]; try rfl

def dat (c : Dev nD) : Dat τ (Elt F) Unit ℕ (Pipeline.UD sig nD τ) ℕ (cfg2 a) c where
  A w := V c (Pipeline.arrRef spec2 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg2 a).W) : (dat V a hp0 hp1 c).A w = V c (Pipeline.arrRef spec2 w) := by
  dsimp only [dat]
theorem after_0 (c : Dev nD) (t : Fin (cfg2 a).N) : (dat V a hp0 hp1 c).after 0 t = iblk V a c 0 t := by dsimp only [dat]; rfl
theorem after_1 (c : Dev nD) (t : Fin (cfg2 a).N) : (dat V a hp0 hp1 c).after 1 t = iblk V a c 1 t := by dsimp only [dat]; rfl
theorem after_2 (c : Dev nD) (t : Fin (cfg2 a).N) : (dat V a hp0 hp1 c).after 2 t = iblk V a c 2 t := by dsimp only [dat]; rfl
theorem after_3 (c : Dev nD) (t : Fin (cfg2 a).N) : (dat V a hp0 hp1 c).after 3 t = iblk V a c 3 t := by dsimp only [dat]; rfl
theorem after_4 (c : Dev nD) (t : Fin (cfg2 a).N) : (dat V a hp0 hp1 c).after 4 t = iblk V a c 4 t := by dsimp only [dat]; rfl
theorem after_5 (c : Dev nD) (t : Fin (cfg2 a).N) : (dat V a hp0 hp1 c).after 5 t = (stAt V a hp0 hp1 c t.val t.isLt).1 := by dsimp only [dat]; rfl
theorem after_6 (c : Dev nD) (t : Fin (cfg2 a).N) : (dat V a hp0 hp1 c).after 6 t = (stAt V a hp0 hp1 c t.val t.isLt).2.1 := by dsimp only [dat]; rfl
theorem before_0 (c : Dev nD) (t : Fin (cfg2 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg2 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg2 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg2 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg2 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg2 a).N) (h : t'.val + 1 < (cfg2 a).N) : ((cfg2 a).win 5).flush t' = false := by
  unfold Pipeline.Window.flush
  rw [Bool.and_eq_false_iff]; right
  rw [Bool.or_eq_false_iff]
  have h' : t'.val + 1 < (cfg2 a).grid.N := h
  exact ⟨decide_eq_false (by omega), decide_eq_false (fun ⟨_, hne⟩ => hne rfl)⟩
theorem before_5_B (c : Dev nD) (t : Fin (cfg2 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg2 a).N) (h : t'.val + 1 < (cfg2 a).N) : ((cfg2 a).win 6).flush t' = false := by
  unfold Pipeline.Window.flush
  rw [Bool.and_eq_false_iff]; right
  rw [Bool.or_eq_false_iff]
  have h' : t'.val + 1 < (cfg2 a).grid.N := h
  exact ⟨decide_eq_false (by omega), decide_eq_false (fun ⟨_, hne⟩ => hne rfl)⟩
theorem before_6_B (c : Dev nD) (t : Fin (cfg2 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg2 a).N) : Prog (TpuEff nD τ sig (Elt F) Λ₀ .tc) PUnit :=
  (cc2__pass1_kernel (grid2.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc2_scratch3)

def bodyPre (c : Dev nD) (t : Fin (cfg2 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg2 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg2 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc2_scratch3 c (grid2.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v19_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc2_scratch3 c (grid2.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W2, bigSep_W2]
  exact sound_body V a hp0 hp1 c t

end Cert.Kernel.P1R2

end
-- ==== Proof.B1R2Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.B1R2Dat
import proofs.«400866_j57071525429608_2_alg».proof.Proof.AssembleBits

set_option maxRecDepth 16384

noncomputable section

namespace Cert.Kernel.P1R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Asm (Rr L₀ lv₀)
open Cert.Kernel.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid2.Coords), k2_chk1 (tw0 tb0 c i (T0 (adm 2) c))) (hp1 : ∀ c (i : grid2.Coords), k2_chk2 (tw1 tb1 c i (T1 (adm 2) c)))

/-- The unscoped buffers the body moves itself or reads as tables: no window's array. -/
def H : Finset (Ref sig .tc) := {main_arg0, main_v17, main_v18, main_v19_0}
theorem H_sub : H ⊆ Pipeline.restRefs sig spec2 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v17) ∗ pt c tb1 (W main_v18) ∗ pt c hM (W main_v19_0)) := by
  rw [BI.bigSep_eq_bigSepL_of_eq [main_arg0, main_v17, main_v18, main_v19_0] (by decide) (by decide)]; rfl

/-- The two tables held, listed. -/
theorem pref_eq (c : Dev nD) (T : (pcfgs (F := F) 2).pre.Contents (Elt F)) :
    (Pipeline.prefHeld (Ix := Unit) (Name := ℕ) (U := Pipeline.UD sig nD τ) (Lvl := ℕ) (pcfgs (F := F) 2).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 2) hp0 hp1 c (cfg2 (adm 2)).N le_rfl

/-- The entry valuation with the hidden array at its final contents: what the unscoped rest is at the exit. -/
def Vmid (c : Dev nD) : (b : Ref sig .tc) → Buf (Elt F) ((c : Thread nD τ).loc b) :=
  Function.update (Vin Win c) main_v19_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec2 c W : sProp 𝕄)
      = iprop((bigSep H fun b => ((c : Thread nD τ).loc b) ↦{fullShare} W b) ∗ (bigSep (Pipeline.restRefs sig spec2 \ H) fun b => ((c : Thread nD τ).loc b) ↦{fullShare} W b)) := by
  unfold Pipeline.unscopedRest; exact BI.bigSep_sdiff_split H_sub

set_option maxHeartbeats 4000000 in
def reg (hpd : ∀ c, pdats 2 c = dat (Vin Win) (adm 2) hp0 hp1 c)
    (hT0 : ∀ c, Vin Win c main_v17 = T0 (adm 2) c) (hT1 : ∀ c, Vin Win c main_v18 = T1 (adm 2) c)
    (hF : ∀ c w, (dat (Vin Win) (adm 2) hp0 hp1 c).arrAt w (cfg2 (adm 2)).N = Vout Wout c (Pipeline.arrRef spec2 w))
    (hrest : ∀ c b, b ∉ Finset.univ.image (Pipeline.arrRef spec2) → Vout Wout c b = Vmid adm Win hp0 hp1 c b) :
    Pipeline.RegionSeg (pcfgs (F := F)) adm pdats () defs₀ Variants.none L₀ lv₀ 2 where
  win := winFacts2.to₀
  block_pos := block_pos2
  stage_whole := stage_whole2
  K := Fin 3
  osem := osem
  ho := ownSemFacts
  hbody c := by rw [hpd c]; exact (body_obligation (Vin Win) (adm 2) hp0 hp1 c).loose
  hwaits := Pipeline.hwaits_of_owed_zero _ _ _ _ L₀ lv₀ 2 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v19_0))
  Y c := iprop((∃ r, prngReg c r) ∗ pt c tb0 (T0 (adm 2) c) ∗ pt c tb1 (T1 (adm 2) c) ∗ pt c xM (Vin Win c main_arg0) ∗ pt c hM (hEnd adm Win hp0 hp1 c))
  Z c := bigSep (Pipeline.restRefs sig spec2 \ H) fun b => ((c : Thread nD τ).loc b) ↦{fullShare} Vin Win c b
  hentry c := by
    have hsplit : (StableHlo.held (c : Thread nD τ) (Pipeline.ucRefs τ sig) (Win c) : sProp 𝕄)
        ⊢ iprop((pdats 2 c).arrays ((pdats 2 c).arrAt · 0) ∗ Pipeline.unscopedRest (Ix := Unit) (Name := ℕ) (U := Pipeline.UD sig nD τ) (Lvl := ℕ) spec2 c (Vin Win c)) := by
      have h := Pipeline.arrays_of_unscopedBufs (p := 2) (pcfgs (F := F)) adm pdats winFacts2 arr_whole2 c
        (by rw [hpd c]; exact (dat (Vin Win) (adm 2) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 2 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 2) hp0 hp1 c 0 (Nat.zero_le _)
    unfold Φ1
    rw [pref_eq, show hAt (Vin Win) (adm 2) hp0 hp1 c 0 (Nat.zero_le _) = Vin Win c main_v19_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 2) hp0 hp1 c (cfg2 (adm 2)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 2 c).arrays ((pdats 2 c).arrAt · (cfg2 (adm 2)).N) ∗ Pipeline.unscopedRest (Ix := Unit) (Name := ℕ) (U := Pipeline.UD sig nD τ) (Lvl := ℕ) spec2 c (Vmid adm Win hp0 hp1 c))
        ⊢ (StableHlo.held (c : Thread nD τ) (Pipeline.ucRefs τ sig) (Wout c) : sProp 𝕄) := by
      have h := Pipeline.unscopedBufs_of_arrays (p := 2) (pcfgs (F := F)) adm (Ix := Unit) (Name := ℕ) (U := Pipeline.UD sig nD τ) (Lvl := ℕ)
        winFacts2 arr_whole2 c pdats (by rw [hpd c]; exact (dat (Vin Win) (adm 2) hp0 hp1 c).share_full fun _ => rfl)
        (Vmid adm Win hp0 hp1 c) (Vout Wout c) ((pdats 2 c).arrAt · (cfg2 (adm 2)).N) (by rw [hpd c]; exact hF c) (hrest c)
      rw [Pipeline.unscopedBufs_held] at h; exact h
    rw [rest_split, Hpts_eq] at hjoin
    have hZ : (bigSep (Pipeline.restRefs sig spec2 \ H) fun b => ((c : Thread nD τ).loc b) ↦{fullShare} Vin Win c b : sProp 𝕄)
        = (bigSep (Pipeline.restRefs sig spec2 \ H) fun b => ((c : Thread nD τ).loc b) ↦{fullShare} Vmid adm Win hp0 hp1 c b) :=
      bigSep_congr fun b hb => by
        have hne : b ≠ main_v19_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v17 = Vin Win c main_v17 := by unfold Vmid; exact Function.update_of_ne (by decide) _ _
    have e2 : Vmid adm Win hp0 hp1 c main_v18 = Vin Win c main_v18 := by unfold Vmid; exact Function.update_of_ne (by decide) _ _
    have e3 : Vmid adm Win hp0 hp1 c main_v19_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 2 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.Kernel.P1R2

end
-- ==== Proof.B1R3Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.B1Body
import proofs.«400866_j57071525429608_2_alg».proof.Proof.B1State
import proofs.«400866_j57071525429608_2_alg».proof.Proof.B1Kern

set_option maxRecDepth 100000

noncomputable section

namespace Cert.Kernel.P1R3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc3__pass1_kernel (F := F) = P1.kern := rfl

-- The buffer contents when the region is entered, and the admissible index tables.
variable (V : (c : Dev nD) → (b : Ref sig .tc) → Buf (Elt F) ((c : Thread nD τ).loc b))
variable (a : (pcfg3 (F := F)).Adm)

/-- The two index tables, the node-feature array and the hidden array, as the body is handed them. -/
abbrev tb0 : Memref sig .tc .smem S62500 .i32 := Memref.whole main_v20
abbrev tb1 : Memref sig .tc .smem S62500 .i32 := Memref.whole main_v21
abbrev xM : Memref sig .tc .hbm S100000x128 .f32 := Memref.whole main_arg0
abbrev hM : Memref sig .tc .hbm S62500x64 .f32 := Memref.whole main_v22_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid3.Coords), k3_chk1 (tw0 tb0 c i (T0 a c))) (hp1 : ∀ c (i : grid3.Coords), k3_chk2 (tw1 tb1 c i (T1 a c)))

/-- Window `w`'s block at point `t`, read off its array as the region finds it. -/
def iblk (c : Dev nD) (w : Fin (cfg3 a).W) (t : Fin (cfg3 a).N) : (((cfg3 a).win w).xblock ((cfg3 a).grid.coords t)).Idx → Elt F ((cfg3 a).win w).elt :=
  (((cfg3 a).win w).blk t).view.read (Elt F) (V c (Pipeline.arrRef spec3 w))

/-- Each window's current staging memref at point `t`, as the pipeline passes it to the body. -/
abbrev ms0 (t : Fin (cfg3 a).N) : Memref sig .tc .vmem S64x128 .f32 := spec3_0.stage ((cfg3 a).slots t 0)
abbrev hs0 (t : Fin (cfg3 a).N) : (ms0 a t).IsWhole := hstage3_0 (((cfg3 a).slots t 0).cast nbuf3_0)
abbrev ms1 (t : Fin (cfg3 a).N) : Memref sig .tc .vmem S64x128 .f32 := spec3_1.stage ((cfg3 a).slots t 1)
abbrev hs1 (t : Fin (cfg3 a).N) : (ms1 a t).IsWhole := hstage3_1 (((cfg3 a).slots t 1).cast nbuf3_1)
abbrev ms2 (t : Fin (cfg3 a).N) : Memref sig .tc .vmem S1x64 .f32 := spec3_2.stage ((cfg3 a).slots t 2)
abbrev hs2 (t : Fin (cfg3 a).N) : (ms2 a t).IsWhole := hstage3_2 (((cfg3 a).slots t 2).cast nbuf3_2)
abbrev ms3 (t : Fin (cfg3 a).N) : Memref sig .tc .vmem S64x64 .f32 := spec3_3.stage ((cfg3 a).slots t 3)
abbrev hs3 (t : Fin (cfg3 a).N) : (ms3 a t).IsWhole := hstage3_3 (((cfg3 a).slots t 3).cast nbuf3_3)
abbrev ms4 (t : Fin (cfg3 a).N) : Memref sig .tc .vmem S1x64 .f32 := spec3_4.stage ((cfg3 a).slots t 4)
abbrev hs4 (t : Fin (cfg3 a).N) : (ms4 a t).IsWhole := hstage3_4 (((cfg3 a).slots t 4).cast nbuf3_4)
abbrev ms5 (t : Fin (cfg3 a).N) : Memref sig .tc .vmem S1x64 .f32 := spec3_5.stage ((cfg3 a).slots t 5)
abbrev hs5 (t : Fin (cfg3 a).N) : (ms5 a t).IsWhole := hstage3_5 (((cfg3 a).slots t 5).cast nbuf3_5)
abbrev ms6 (t : Fin (cfg3 a).N) : Memref sig .tc .vmem S1x64 .f32 := spec3_6.stage ((cfg3 a).slots t 6)
abbrev hs6 (t : Fin (cfg3 a).N) : (ms6 a t).IsWhole := hstage3_6 (((cfg3 a).slots t 6).cast nbuf3_6)
/-- The three scratch buffers (the two gathered rows and the hidden row). -/
abbrev sc0 : Memref sig .tc .vmem S1x128 .f32 := Memref.whole cc3_scratch0
abbrev sc1 : Memref sig .tc .vmem S1x128 .f32 := Memref.whole cc3_scratch1
abbrev sc2 : Memref sig .tc .vmem S1x64 .f32 := Memref.whole cc3_scratch2

/-- The body's own three copy semaphores. -/
abbrev osem : Fin 3 → SemLoc sig := fun j => (![SemLoc.dma 37, SemLoc.dma 38, SemLoc.dma 39] : Fin 3 → SemLoc sig) j
theorem ownSemFacts : Pipeline.OwnSemFacts spec3 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc3_scratch3 0) 0 ∗ semVal ((c : Thread nD τ), semAt cc3_scratch3 1) 0 ∗ semVal ((c : Thread nD τ), semAt cc3_scratch3 2) 0) := by
  rw [Pipeline.ownSems0_eq_of_list c osem [0, 1, 2] (by decide) (by decide)]; rfl

/-- The grid point's coordinate. -/
abbrev crd (t : Fin (cfg3 a).N) : grid3.Coords := grid3.coords t

/-- The grid is one axis of 62500 points: the coordinate of point `t` is `t`. -/
theorem coord_val (t : Fin (cfg3 a).N) : ((crd a t) 0).val = t.val := by
  have hN : t.val < 62500 := lt_of_lt_of_eq t.isLt N_3
  show t.val / grid3.stride 0 % grid3.bound 0 = t.val
  rw [show grid3.stride 0 = 1 from by decide, Nat.div_one]
  exact Nat.mod_eq_of_lt hN

/-- The branch is taken at the first point and at no other. -/
theorem hcond (t : Fin (cfg3 a).N) : cond0_0 (grid3.coords t) ↔ t.val = 0 := by
  have hN : t.val < 62500 := lt_of_lt_of_eq t.isLt N_3
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg3 a).N) : St (F := F) c :=
  P1.stG tb0 tb1 xM hM c (cfg3 a).N (crd a) (fun t => iblk V a c 0 t) (fun t => iblk V a c 1 t) (fun t => iblk V a c 2 t) (fun t => iblk V a c 3 t) (fun t => iblk V a c 4 t) (T0 a c) (T1 a c) (V c main_arg0) (V c main_v22_0) (fun t => hp0 c (crd a t)) (fun t => hp1 c (crd a t)) n hn

/-- The hidden array before point `n` (after `n` points). -/
def hAt (c : Dev nD) (n : ℕ) (hn : n ≤ (cfg3 a).N) : Bf (F := F) c hM :=
  P1.hG tb0 tb1 xM hM c (cfg3 a).N (crd a) (fun t => iblk V a c 0 t) (fun t => iblk V a c 1 t) (fun t => iblk V a c 2 t) (fun t => iblk V a c 3 t) (fun t => iblk V a c 4 t) (T0 a c) (T1 a c) (V c main_arg0) (V c main_v22_0) (fun t => hp0 c (crd a t)) (fun t => hp1 c (crd a t)) n hn

theorem stAt_zero (c : Dev nD) (t : Fin (cfg3 a).N) (h0 : t.val = 0) :
    stAt V a hp0 hp1 c t.val t.isLt
      = (P1.sumStep tb0 tb1 xM c (cfg3 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k3_pay1 (F := F)), P1.sqStep tb0 tb1 xM c (cfg3 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k3_pay2 (F := F)),
          hNext hM c (crd a t) (V c main_v22_0) (P1.rowStep tb0 tb1 xM c (cfg3 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg3 a).N) (h0 : ¬t.val = 0) :
    stAt V a hp0 hp1 c t.val t.isLt
      = (P1.sumStep tb0 tb1 xM c (cfg3 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg3 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg3 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg3 a).N) (h0 : t.val = 0) (hn) : hAt V a hp0 hp1 c t.val hn = V c main_v22_0 := by
  obtain ⟨n, hlt⟩ := t
  cases n with
  | zero => rfl
  | succ n => exact absurd h0 (Nat.succ_ne_zero n)
theorem hAt_pos (c : Dev nD) (t : Fin (cfg3 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg3 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg3 a).N) : sProp 𝕄 :=
  iprop(Pipeline.scopedRest (Ix := Unit) (Name := ℕ) (U := Pipeline.UD sig nD τ) (Lvl := ℕ) (Val := Elt F) spec3 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg3 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec3 c [cc3_scratch0, cc3_scratch1, cc3_scratch2])
          ∗ (∃ r, prngReg c r)
          ∗ iprop(semVal ((c : Thread nD τ), semAt cc3_scratch3 0) 0 ∗ semVal ((c : Thread nD τ), semAt cc3_scratch3 1) 0 ∗ semVal ((c : Thread nD τ), semAt cc3_scratch3 2) 0)
          ∗ pt c tb0 (T0 a c) ∗ pt c tb1 (T1 a c) ∗ pt c xM (V c main_arg0) ∗ pt c hM (hAt V a hp0 hp1 c n hn)) := by
  unfold Φ1; rw [scopedRest3_split, ownSems0_eq]; simp only [sc0, sc1, sc2, owns_whole]; try rfl

def dat (c : Dev nD) : Dat τ (Elt F) Unit ℕ (Pipeline.UD sig nD τ) ℕ (cfg3 a) c where
  A w := V c (Pipeline.arrRef spec3 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg3 a).W) : (dat V a hp0 hp1 c).A w = V c (Pipeline.arrRef spec3 w) := by
  dsimp only [dat]
theorem after_0 (c : Dev nD) (t : Fin (cfg3 a).N) : (dat V a hp0 hp1 c).after 0 t = iblk V a c 0 t := by dsimp only [dat]; rfl
theorem after_1 (c : Dev nD) (t : Fin (cfg3 a).N) : (dat V a hp0 hp1 c).after 1 t = iblk V a c 1 t := by dsimp only [dat]; rfl
theorem after_2 (c : Dev nD) (t : Fin (cfg3 a).N) : (dat V a hp0 hp1 c).after 2 t = iblk V a c 2 t := by dsimp only [dat]; rfl
theorem after_3 (c : Dev nD) (t : Fin (cfg3 a).N) : (dat V a hp0 hp1 c).after 3 t = iblk V a c 3 t := by dsimp only [dat]; rfl
theorem after_4 (c : Dev nD) (t : Fin (cfg3 a).N) : (dat V a hp0 hp1 c).after 4 t = iblk V a c 4 t := by dsimp only [dat]; rfl
theorem after_5 (c : Dev nD) (t : Fin (cfg3 a).N) : (dat V a hp0 hp1 c).after 5 t = (stAt V a hp0 hp1 c t.val t.isLt).1 := by dsimp only [dat]; rfl
theorem after_6 (c : Dev nD) (t : Fin (cfg3 a).N) : (dat V a hp0 hp1 c).after 6 t = (stAt V a hp0 hp1 c t.val t.isLt).2.1 := by dsimp only [dat]; rfl
theorem before_0 (c : Dev nD) (t : Fin (cfg3 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg3 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg3 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg3 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg3 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg3 a).N) (h : t'.val + 1 < (cfg3 a).N) : ((cfg3 a).win 5).flush t' = false := by
  unfold Pipeline.Window.flush
  rw [Bool.and_eq_false_iff]; right
  rw [Bool.or_eq_false_iff]
  have h' : t'.val + 1 < (cfg3 a).grid.N := h
  exact ⟨decide_eq_false (by omega), decide_eq_false (fun ⟨_, hne⟩ => hne rfl)⟩
theorem before_5_B (c : Dev nD) (t : Fin (cfg3 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg3 a).N) (h : t'.val + 1 < (cfg3 a).N) : ((cfg3 a).win 6).flush t' = false := by
  unfold Pipeline.Window.flush
  rw [Bool.and_eq_false_iff]; right
  rw [Bool.or_eq_false_iff]
  have h' : t'.val + 1 < (cfg3 a).grid.N := h
  exact ⟨decide_eq_false (by omega), decide_eq_false (fun ⟨_, hne⟩ => hne rfl)⟩
theorem before_6_B (c : Dev nD) (t : Fin (cfg3 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg3 a).N) : Prog (TpuEff nD τ sig (Elt F) Λ₀ .tc) PUnit :=
  (cc3__pass1_kernel (grid3.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc3_scratch3)

def bodyPre (c : Dev nD) (t : Fin (cfg3 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg3 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg3 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc3_scratch3 c (grid3.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v22_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc3_scratch3 c (grid3.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W3, bigSep_W3]
  exact sound_body V a hp0 hp1 c t

end Cert.Kernel.P1R3

end
-- ==== Proof.B1R3Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.B1R3Dat
import proofs.«400866_j57071525429608_2_alg».proof.Proof.AssembleBits

set_option maxRecDepth 16384

noncomputable section

namespace Cert.Kernel.P1R3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Asm (Rr L₀ lv₀)
open Cert.Kernel.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid3.Coords), k3_chk1 (tw0 tb0 c i (T0 (adm 3) c))) (hp1 : ∀ c (i : grid3.Coords), k3_chk2 (tw1 tb1 c i (T1 (adm 3) c)))

/-- The unscoped buffers the body moves itself or reads as tables: no window's array. -/
def H : Finset (Ref sig .tc) := {main_arg0, main_v20, main_v21, main_v22_0}
theorem H_sub : H ⊆ Pipeline.restRefs sig spec3 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v20) ∗ pt c tb1 (W main_v21) ∗ pt c hM (W main_v22_0)) := by
  rw [BI.bigSep_eq_bigSepL_of_eq [main_arg0, main_v20, main_v21, main_v22_0] (by decide) (by decide)]; rfl

/-- The two tables held, listed. -/
theorem pref_eq (c : Dev nD) (T : (pcfgs (F := F) 3).pre.Contents (Elt F)) :
    (Pipeline.prefHeld (Ix := Unit) (Name := ℕ) (U := Pipeline.UD sig nD τ) (Lvl := ℕ) (pcfgs (F := F) 3).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 3) hp0 hp1 c (cfg3 (adm 3)).N le_rfl

/-- The entry valuation with the hidden array at its final contents: what the unscoped rest is at the exit. -/
def Vmid (c : Dev nD) : (b : Ref sig .tc) → Buf (Elt F) ((c : Thread nD τ).loc b) :=
  Function.update (Vin Win c) main_v22_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec3 c W : sProp 𝕄)
      = iprop((bigSep H fun b => ((c : Thread nD τ).loc b) ↦{fullShare} W b) ∗ (bigSep (Pipeline.restRefs sig spec3 \ H) fun b => ((c : Thread nD τ).loc b) ↦{fullShare} W b)) := by
  unfold Pipeline.unscopedRest; exact BI.bigSep_sdiff_split H_sub

set_option maxHeartbeats 4000000 in
def reg (hpd : ∀ c, pdats 3 c = dat (Vin Win) (adm 3) hp0 hp1 c)
    (hT0 : ∀ c, Vin Win c main_v20 = T0 (adm 3) c) (hT1 : ∀ c, Vin Win c main_v21 = T1 (adm 3) c)
    (hF : ∀ c w, (dat (Vin Win) (adm 3) hp0 hp1 c).arrAt w (cfg3 (adm 3)).N = Vout Wout c (Pipeline.arrRef spec3 w))
    (hrest : ∀ c b, b ∉ Finset.univ.image (Pipeline.arrRef spec3) → Vout Wout c b = Vmid adm Win hp0 hp1 c b) :
    Pipeline.RegionSeg (pcfgs (F := F)) adm pdats () defs₀ Variants.none L₀ lv₀ 3 where
  win := winFacts3.to₀
  block_pos := block_pos3
  stage_whole := stage_whole3
  K := Fin 3
  osem := osem
  ho := ownSemFacts
  hbody c := by rw [hpd c]; exact (body_obligation (Vin Win) (adm 3) hp0 hp1 c).loose
  hwaits := Pipeline.hwaits_of_owed_zero _ _ _ _ L₀ lv₀ 3 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v22_0))
  Y c := iprop((∃ r, prngReg c r) ∗ pt c tb0 (T0 (adm 3) c) ∗ pt c tb1 (T1 (adm 3) c) ∗ pt c xM (Vin Win c main_arg0) ∗ pt c hM (hEnd adm Win hp0 hp1 c))
  Z c := bigSep (Pipeline.restRefs sig spec3 \ H) fun b => ((c : Thread nD τ).loc b) ↦{fullShare} Vin Win c b
  hentry c := by
    have hsplit : (StableHlo.held (c : Thread nD τ) (Pipeline.ucRefs τ sig) (Win c) : sProp 𝕄)
        ⊢ iprop((pdats 3 c).arrays ((pdats 3 c).arrAt · 0) ∗ Pipeline.unscopedRest (Ix := Unit) (Name := ℕ) (U := Pipeline.UD sig nD τ) (Lvl := ℕ) spec3 c (Vin Win c)) := by
      have h := Pipeline.arrays_of_unscopedBufs (p := 3) (pcfgs (F := F)) adm pdats winFacts3 arr_whole3 c
        (by rw [hpd c]; exact (dat (Vin Win) (adm 3) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 3 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 3) hp0 hp1 c 0 (Nat.zero_le _)
    unfold Φ1
    rw [pref_eq, show hAt (Vin Win) (adm 3) hp0 hp1 c 0 (Nat.zero_le _) = Vin Win c main_v22_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 3) hp0 hp1 c (cfg3 (adm 3)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 3 c).arrays ((pdats 3 c).arrAt · (cfg3 (adm 3)).N) ∗ Pipeline.unscopedRest (Ix := Unit) (Name := ℕ) (U := Pipeline.UD sig nD τ) (Lvl := ℕ) spec3 c (Vmid adm Win hp0 hp1 c))
        ⊢ (StableHlo.held (c : Thread nD τ) (Pipeline.ucRefs τ sig) (Wout c) : sProp 𝕄) := by
      have h := Pipeline.unscopedBufs_of_arrays (p := 3) (pcfgs (F := F)) adm (Ix := Unit) (Name := ℕ) (U := Pipeline.UD sig nD τ) (Lvl := ℕ)
        winFacts3 arr_whole3 c pdats (by rw [hpd c]; exact (dat (Vin Win) (adm 3) hp0 hp1 c).share_full fun _ => rfl)
        (Vmid adm Win hp0 hp1 c) (Vout Wout c) ((pdats 3 c).arrAt · (cfg3 (adm 3)).N) (by rw [hpd c]; exact hF c) (hrest c)
      rw [Pipeline.unscopedBufs_held] at h; exact h
    rw [rest_split, Hpts_eq] at hjoin
    have hZ : (bigSep (Pipeline.restRefs sig spec3 \ H) fun b => ((c : Thread nD τ).loc b) ↦{fullShare} Vin Win c b : sProp 𝕄)
        = (bigSep (Pipeline.restRefs sig spec3 \ H) fun b => ((c : Thread nD τ).loc b) ↦{fullShare} Vmid adm Win hp0 hp1 c b) :=
      bigSep_congr fun b hb => by
        have hne : b ≠ main_v22_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v20 = Vin Win c main_v20 := by unfold Vmid; exact Function.update_of_ne (by decide) _ _
    have e2 : Vmid adm Win hp0 hp1 c main_v21 = Vin Win c main_v21 := by unfold Vmid; exact Function.update_of_ne (by decide) _ _
    have e3 : Vmid adm Win hp0 hp1 c main_v22_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 3 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.Kernel.P1R3

end
-- ==== Proof.B1R4Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.B1Body
import proofs.«400866_j57071525429608_2_alg».proof.Proof.B1State
import proofs.«400866_j57071525429608_2_alg».proof.Proof.B1Kern

set_option maxRecDepth 100000

noncomputable section

namespace Cert.Kernel.P1R4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc4__pass1_kernel (F := F) = P1.kern := rfl

-- The buffer contents when the region is entered, and the admissible index tables.
variable (V : (c : Dev nD) → (b : Ref sig .tc) → Buf (Elt F) ((c : Thread nD τ).loc b))
variable (a : (pcfg4 (F := F)).Adm)

/-- The two index tables, the node-feature array and the hidden array, as the body is handed them. -/
abbrev tb0 : Memref sig .tc .smem S62500 .i32 := Memref.whole main_v23
abbrev tb1 : Memref sig .tc .smem S62500 .i32 := Memref.whole main_v24
abbrev xM : Memref sig .tc .hbm S100000x128 .f32 := Memref.whole main_arg0
abbrev hM : Memref sig .tc .hbm S62500x64 .f32 := Memref.whole main_v25_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid4.Coords), k4_chk1 (tw0 tb0 c i (T0 a c))) (hp1 : ∀ c (i : grid4.Coords), k4_chk2 (tw1 tb1 c i (T1 a c)))

/-- Window `w`'s block at point `t`, read off its array as the region finds it. -/
def iblk (c : Dev nD) (w : Fin (cfg4 a).W) (t : Fin (cfg4 a).N) : (((cfg4 a).win w).xblock ((cfg4 a).grid.coords t)).Idx → Elt F ((cfg4 a).win w).elt :=
  (((cfg4 a).win w).blk t).view.read (Elt F) (V c (Pipeline.arrRef spec4 w))

/-- Each window's current staging memref at point `t`, as the pipeline passes it to the body. -/
abbrev ms0 (t : Fin (cfg4 a).N) : Memref sig .tc .vmem S64x128 .f32 := spec4_0.stage ((cfg4 a).slots t 0)
abbrev hs0 (t : Fin (cfg4 a).N) : (ms0 a t).IsWhole := hstage4_0 (((cfg4 a).slots t 0).cast nbuf4_0)
abbrev ms1 (t : Fin (cfg4 a).N) : Memref sig .tc .vmem S64x128 .f32 := spec4_1.stage ((cfg4 a).slots t 1)
abbrev hs1 (t : Fin (cfg4 a).N) : (ms1 a t).IsWhole := hstage4_1 (((cfg4 a).slots t 1).cast nbuf4_1)
abbrev ms2 (t : Fin (cfg4 a).N) : Memref sig .tc .vmem S1x64 .f32 := spec4_2.stage ((cfg4 a).slots t 2)
abbrev hs2 (t : Fin (cfg4 a).N) : (ms2 a t).IsWhole := hstage4_2 (((cfg4 a).slots t 2).cast nbuf4_2)
abbrev ms3 (t : Fin (cfg4 a).N) : Memref sig .tc .vmem S64x64 .f32 := spec4_3.stage ((cfg4 a).slots t 3)
abbrev hs3 (t : Fin (cfg4 a).N) : (ms3 a t).IsWhole := hstage4_3 (((cfg4 a).slots t 3).cast nbuf4_3)
abbrev ms4 (t : Fin (cfg4 a).N) : Memref sig .tc .vmem S1x64 .f32 := spec4_4.stage ((cfg4 a).slots t 4)
abbrev hs4 (t : Fin (cfg4 a).N) : (ms4 a t).IsWhole := hstage4_4 (((cfg4 a).slots t 4).cast nbuf4_4)
abbrev ms5 (t : Fin (cfg4 a).N) : Memref sig .tc .vmem S1x64 .f32 := spec4_5.stage ((cfg4 a).slots t 5)
abbrev hs5 (t : Fin (cfg4 a).N) : (ms5 a t).IsWhole := hstage4_5 (((cfg4 a).slots t 5).cast nbuf4_5)
abbrev ms6 (t : Fin (cfg4 a).N) : Memref sig .tc .vmem S1x64 .f32 := spec4_6.stage ((cfg4 a).slots t 6)
abbrev hs6 (t : Fin (cfg4 a).N) : (ms6 a t).IsWhole := hstage4_6 (((cfg4 a).slots t 6).cast nbuf4_6)
/-- The three scratch buffers (the two gathered rows and the hidden row). -/
abbrev sc0 : Memref sig .tc .vmem S1x128 .f32 := Memref.whole cc4_scratch0
abbrev sc1 : Memref sig .tc .vmem S1x128 .f32 := Memref.whole cc4_scratch1
abbrev sc2 : Memref sig .tc .vmem S1x64 .f32 := Memref.whole cc4_scratch2

/-- The body's own three copy semaphores. -/
abbrev osem : Fin 3 → SemLoc sig := fun j => (![SemLoc.dma 47, SemLoc.dma 48, SemLoc.dma 49] : Fin 3 → SemLoc sig) j
theorem ownSemFacts : Pipeline.OwnSemFacts spec4 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc4_scratch3 0) 0 ∗ semVal ((c : Thread nD τ), semAt cc4_scratch3 1) 0 ∗ semVal ((c : Thread nD τ), semAt cc4_scratch3 2) 0) := by
  rw [Pipeline.ownSems0_eq_of_list c osem [0, 1, 2] (by decide) (by decide)]; rfl

/-- The grid point's coordinate. -/
abbrev crd (t : Fin (cfg4 a).N) : grid4.Coords := grid4.coords t

/-- The grid is one axis of 62500 points: the coordinate of point `t` is `t`. -/
theorem coord_val (t : Fin (cfg4 a).N) : ((crd a t) 0).val = t.val := by
  have hN : t.val < 62500 := lt_of_lt_of_eq t.isLt N_4
  show t.val / grid4.stride 0 % grid4.bound 0 = t.val
  rw [show grid4.stride 0 = 1 from by decide, Nat.div_one]
  exact Nat.mod_eq_of_lt hN

/-- The branch is taken at the first point and at no other. -/
theorem hcond (t : Fin (cfg4 a).N) : cond0_0 (grid4.coords t) ↔ t.val = 0 := by
  have hN : t.val < 62500 := lt_of_lt_of_eq t.isLt N_4
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg4 a).N) : St (F := F) c :=
  P1.stG tb0 tb1 xM hM c (cfg4 a).N (crd a) (fun t => iblk V a c 0 t) (fun t => iblk V a c 1 t) (fun t => iblk V a c 2 t) (fun t => iblk V a c 3 t) (fun t => iblk V a c 4 t) (T0 a c) (T1 a c) (V c main_arg0) (V c main_v25_0) (fun t => hp0 c (crd a t)) (fun t => hp1 c (crd a t)) n hn

/-- The hidden array before point `n` (after `n` points). -/
def hAt (c : Dev nD) (n : ℕ) (hn : n ≤ (cfg4 a).N) : Bf (F := F) c hM :=
  P1.hG tb0 tb1 xM hM c (cfg4 a).N (crd a) (fun t => iblk V a c 0 t) (fun t => iblk V a c 1 t) (fun t => iblk V a c 2 t) (fun t => iblk V a c 3 t) (fun t => iblk V a c 4 t) (T0 a c) (T1 a c) (V c main_arg0) (V c main_v25_0) (fun t => hp0 c (crd a t)) (fun t => hp1 c (crd a t)) n hn

theorem stAt_zero (c : Dev nD) (t : Fin (cfg4 a).N) (h0 : t.val = 0) :
    stAt V a hp0 hp1 c t.val t.isLt
      = (P1.sumStep tb0 tb1 xM c (cfg4 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k4_pay1 (F := F)), P1.sqStep tb0 tb1 xM c (cfg4 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k4_pay2 (F := F)),
          hNext hM c (crd a t) (V c main_v25_0) (P1.rowStep tb0 tb1 xM c (cfg4 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg4 a).N) (h0 : ¬t.val = 0) :
    stAt V a hp0 hp1 c t.val t.isLt
      = (P1.sumStep tb0 tb1 xM c (cfg4 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg4 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg4 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg4 a).N) (h0 : t.val = 0) (hn) : hAt V a hp0 hp1 c t.val hn = V c main_v25_0 := by
  obtain ⟨n, hlt⟩ := t
  cases n with
  | zero => rfl
  | succ n => exact absurd h0 (Nat.succ_ne_zero n)
theorem hAt_pos (c : Dev nD) (t : Fin (cfg4 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg4 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg4 a).N) : sProp 𝕄 :=
  iprop(Pipeline.scopedRest (Ix := Unit) (Name := ℕ) (U := Pipeline.UD sig nD τ) (Lvl := ℕ) (Val := Elt F) spec4 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg4 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec4 c [cc4_scratch0, cc4_scratch1, cc4_scratch2])
          ∗ (∃ r, prngReg c r)
          ∗ iprop(semVal ((c : Thread nD τ), semAt cc4_scratch3 0) 0 ∗ semVal ((c : Thread nD τ), semAt cc4_scratch3 1) 0 ∗ semVal ((c : Thread nD τ), semAt cc4_scratch3 2) 0)
          ∗ pt c tb0 (T0 a c) ∗ pt c tb1 (T1 a c) ∗ pt c xM (V c main_arg0) ∗ pt c hM (hAt V a hp0 hp1 c n hn)) := by
  unfold Φ1; rw [scopedRest4_split, ownSems0_eq]; simp only [sc0, sc1, sc2, owns_whole]; try rfl

def dat (c : Dev nD) : Dat τ (Elt F) Unit ℕ (Pipeline.UD sig nD τ) ℕ (cfg4 a) c where
  A w := V c (Pipeline.arrRef spec4 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg4 a).W) : (dat V a hp0 hp1 c).A w = V c (Pipeline.arrRef spec4 w) := by
  dsimp only [dat]
theorem after_0 (c : Dev nD) (t : Fin (cfg4 a).N) : (dat V a hp0 hp1 c).after 0 t = iblk V a c 0 t := by dsimp only [dat]; rfl
theorem after_1 (c : Dev nD) (t : Fin (cfg4 a).N) : (dat V a hp0 hp1 c).after 1 t = iblk V a c 1 t := by dsimp only [dat]; rfl
theorem after_2 (c : Dev nD) (t : Fin (cfg4 a).N) : (dat V a hp0 hp1 c).after 2 t = iblk V a c 2 t := by dsimp only [dat]; rfl
theorem after_3 (c : Dev nD) (t : Fin (cfg4 a).N) : (dat V a hp0 hp1 c).after 3 t = iblk V a c 3 t := by dsimp only [dat]; rfl
theorem after_4 (c : Dev nD) (t : Fin (cfg4 a).N) : (dat V a hp0 hp1 c).after 4 t = iblk V a c 4 t := by dsimp only [dat]; rfl
theorem after_5 (c : Dev nD) (t : Fin (cfg4 a).N) : (dat V a hp0 hp1 c).after 5 t = (stAt V a hp0 hp1 c t.val t.isLt).1 := by dsimp only [dat]; rfl
theorem after_6 (c : Dev nD) (t : Fin (cfg4 a).N) : (dat V a hp0 hp1 c).after 6 t = (stAt V a hp0 hp1 c t.val t.isLt).2.1 := by dsimp only [dat]; rfl
theorem before_0 (c : Dev nD) (t : Fin (cfg4 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg4 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg4 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg4 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg4 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg4 a).N) (h : t'.val + 1 < (cfg4 a).N) : ((cfg4 a).win 5).flush t' = false := by
  unfold Pipeline.Window.flush
  rw [Bool.and_eq_false_iff]; right
  rw [Bool.or_eq_false_iff]
  have h' : t'.val + 1 < (cfg4 a).grid.N := h
  exact ⟨decide_eq_false (by omega), decide_eq_false (fun ⟨_, hne⟩ => hne rfl)⟩
theorem before_5_B (c : Dev nD) (t : Fin (cfg4 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg4 a).N) (h : t'.val + 1 < (cfg4 a).N) : ((cfg4 a).win 6).flush t' = false := by
  unfold Pipeline.Window.flush
  rw [Bool.and_eq_false_iff]; right
  rw [Bool.or_eq_false_iff]
  have h' : t'.val + 1 < (cfg4 a).grid.N := h
  exact ⟨decide_eq_false (by omega), decide_eq_false (fun ⟨_, hne⟩ => hne rfl)⟩
theorem before_6_B (c : Dev nD) (t : Fin (cfg4 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg4 a).N) : Prog (TpuEff nD τ sig (Elt F) Λ₀ .tc) PUnit :=
  (cc4__pass1_kernel (grid4.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc4_scratch3)

def bodyPre (c : Dev nD) (t : Fin (cfg4 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg4 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg4 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc4_scratch3 c (grid4.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v25_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc4_scratch3 c (grid4.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W4, bigSep_W4]
  exact sound_body V a hp0 hp1 c t

end Cert.Kernel.P1R4

end
-- ==== Proof.B1R4Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.B1R4Dat
import proofs.«400866_j57071525429608_2_alg».proof.Proof.AssembleBits

set_option maxRecDepth 16384

noncomputable section

namespace Cert.Kernel.P1R4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Asm (Rr L₀ lv₀)
open Cert.Kernel.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid4.Coords), k4_chk1 (tw0 tb0 c i (T0 (adm 4) c))) (hp1 : ∀ c (i : grid4.Coords), k4_chk2 (tw1 tb1 c i (T1 (adm 4) c)))

/-- The unscoped buffers the body moves itself or reads as tables: no window's array. -/
def H : Finset (Ref sig .tc) := {main_arg0, main_v23, main_v24, main_v25_0}
theorem H_sub : H ⊆ Pipeline.restRefs sig spec4 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v23) ∗ pt c tb1 (W main_v24) ∗ pt c hM (W main_v25_0)) := by
  rw [BI.bigSep_eq_bigSepL_of_eq [main_arg0, main_v23, main_v24, main_v25_0] (by decide) (by decide)]; rfl

/-- The two tables held, listed. -/
theorem pref_eq (c : Dev nD) (T : (pcfgs (F := F) 4).pre.Contents (Elt F)) :
    (Pipeline.prefHeld (Ix := Unit) (Name := ℕ) (U := Pipeline.UD sig nD τ) (Lvl := ℕ) (pcfgs (F := F) 4).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 4) hp0 hp1 c (cfg4 (adm 4)).N le_rfl

/-- The entry valuation with the hidden array at its final contents: what the unscoped rest is at the exit. -/
def Vmid (c : Dev nD) : (b : Ref sig .tc) → Buf (Elt F) ((c : Thread nD τ).loc b) :=
  Function.update (Vin Win c) main_v25_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec4 c W : sProp 𝕄)
      = iprop((bigSep H fun b => ((c : Thread nD τ).loc b) ↦{fullShare} W b) ∗ (bigSep (Pipeline.restRefs sig spec4 \ H) fun b => ((c : Thread nD τ).loc b) ↦{fullShare} W b)) := by
  unfold Pipeline.unscopedRest; exact BI.bigSep_sdiff_split H_sub

set_option maxHeartbeats 4000000 in
def reg (hpd : ∀ c, pdats 4 c = dat (Vin Win) (adm 4) hp0 hp1 c)
    (hT0 : ∀ c, Vin Win c main_v23 = T0 (adm 4) c) (hT1 : ∀ c, Vin Win c main_v24 = T1 (adm 4) c)
    (hF : ∀ c w, (dat (Vin Win) (adm 4) hp0 hp1 c).arrAt w (cfg4 (adm 4)).N = Vout Wout c (Pipeline.arrRef spec4 w))
    (hrest : ∀ c b, b ∉ Finset.univ.image (Pipeline.arrRef spec4) → Vout Wout c b = Vmid adm Win hp0 hp1 c b) :
    Pipeline.RegionSeg (pcfgs (F := F)) adm pdats () defs₀ Variants.none L₀ lv₀ 4 where
  win := winFacts4.to₀
  block_pos := block_pos4
  stage_whole := stage_whole4
  K := Fin 3
  osem := osem
  ho := ownSemFacts
  hbody c := by rw [hpd c]; exact (body_obligation (Vin Win) (adm 4) hp0 hp1 c).loose
  hwaits := Pipeline.hwaits_of_owed_zero _ _ _ _ L₀ lv₀ 4 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v25_0))
  Y c := iprop((∃ r, prngReg c r) ∗ pt c tb0 (T0 (adm 4) c) ∗ pt c tb1 (T1 (adm 4) c) ∗ pt c xM (Vin Win c main_arg0) ∗ pt c hM (hEnd adm Win hp0 hp1 c))
  Z c := bigSep (Pipeline.restRefs sig spec4 \ H) fun b => ((c : Thread nD τ).loc b) ↦{fullShare} Vin Win c b
  hentry c := by
    have hsplit : (StableHlo.held (c : Thread nD τ) (Pipeline.ucRefs τ sig) (Win c) : sProp 𝕄)
        ⊢ iprop((pdats 4 c).arrays ((pdats 4 c).arrAt · 0) ∗ Pipeline.unscopedRest (Ix := Unit) (Name := ℕ) (U := Pipeline.UD sig nD τ) (Lvl := ℕ) spec4 c (Vin Win c)) := by
      have h := Pipeline.arrays_of_unscopedBufs (p := 4) (pcfgs (F := F)) adm pdats winFacts4 arr_whole4 c
        (by rw [hpd c]; exact (dat (Vin Win) (adm 4) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 4 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 4) hp0 hp1 c 0 (Nat.zero_le _)
    unfold Φ1
    rw [pref_eq, show hAt (Vin Win) (adm 4) hp0 hp1 c 0 (Nat.zero_le _) = Vin Win c main_v25_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 4) hp0 hp1 c (cfg4 (adm 4)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 4 c).arrays ((pdats 4 c).arrAt · (cfg4 (adm 4)).N) ∗ Pipeline.unscopedRest (Ix := Unit) (Name := ℕ) (U := Pipeline.UD sig nD τ) (Lvl := ℕ) spec4 c (Vmid adm Win hp0 hp1 c))
        ⊢ (StableHlo.held (c : Thread nD τ) (Pipeline.ucRefs τ sig) (Wout c) : sProp 𝕄) := by
      have h := Pipeline.unscopedBufs_of_arrays (p := 4) (pcfgs (F := F)) adm (Ix := Unit) (Name := ℕ) (U := Pipeline.UD sig nD τ) (Lvl := ℕ)
        winFacts4 arr_whole4 c pdats (by rw [hpd c]; exact (dat (Vin Win) (adm 4) hp0 hp1 c).share_full fun _ => rfl)
        (Vmid adm Win hp0 hp1 c) (Vout Wout c) ((pdats 4 c).arrAt · (cfg4 (adm 4)).N) (by rw [hpd c]; exact hF c) (hrest c)
      rw [Pipeline.unscopedBufs_held] at h; exact h
    rw [rest_split, Hpts_eq] at hjoin
    have hZ : (bigSep (Pipeline.restRefs sig spec4 \ H) fun b => ((c : Thread nD τ).loc b) ↦{fullShare} Vin Win c b : sProp 𝕄)
        = (bigSep (Pipeline.restRefs sig spec4 \ H) fun b => ((c : Thread nD τ).loc b) ↦{fullShare} Vmid adm Win hp0 hp1 c b) :=
      bigSep_congr fun b hb => by
        have hne : b ≠ main_v25_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v23 = Vin Win c main_v23 := by unfold Vmid; exact Function.update_of_ne (by decide) _ _
    have e2 : Vmid adm Win hp0 hp1 c main_v24 = Vin Win c main_v24 := by unfold Vmid; exact Function.update_of_ne (by decide) _ _
    have e3 : Vmid adm Win hp0 hp1 c main_v25_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 4 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.Kernel.P1R4

end
-- ==== Proof.B1R5Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.B1Body
import proofs.«400866_j57071525429608_2_alg».proof.Proof.B1State
import proofs.«400866_j57071525429608_2_alg».proof.Proof.B1Kern

set_option maxRecDepth 100000

noncomputable section

namespace Cert.Kernel.P1R5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc5__pass1_kernel (F := F) = P1.kern := rfl

-- The buffer contents when the region is entered, and the admissible index tables.
variable (V : (c : Dev nD) → (b : Ref sig .tc) → Buf (Elt F) ((c : Thread nD τ).loc b))
variable (a : (pcfg5 (F := F)).Adm)

/-- The two index tables, the node-feature array and the hidden array, as the body is handed them. -/
abbrev tb0 : Memref sig .tc .smem S62500 .i32 := Memref.whole main_v26
abbrev tb1 : Memref sig .tc .smem S62500 .i32 := Memref.whole main_v27
abbrev xM : Memref sig .tc .hbm S100000x128 .f32 := Memref.whole main_arg0
abbrev hM : Memref sig .tc .hbm S62500x64 .f32 := Memref.whole main_v28_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid5.Coords), k5_chk1 (tw0 tb0 c i (T0 a c))) (hp1 : ∀ c (i : grid5.Coords), k5_chk2 (tw1 tb1 c i (T1 a c)))

/-- Window `w`'s block at point `t`, read off its array as the region finds it. -/
def iblk (c : Dev nD) (w : Fin (cfg5 a).W) (t : Fin (cfg5 a).N) : (((cfg5 a).win w).xblock ((cfg5 a).grid.coords t)).Idx → Elt F ((cfg5 a).win w).elt :=
  (((cfg5 a).win w).blk t).view.read (Elt F) (V c (Pipeline.arrRef spec5 w))

/-- Each window's current staging memref at point `t`, as the pipeline passes it to the body. -/
abbrev ms0 (t : Fin (cfg5 a).N) : Memref sig .tc .vmem S64x128 .f32 := spec5_0.stage ((cfg5 a).slots t 0)
abbrev hs0 (t : Fin (cfg5 a).N) : (ms0 a t).IsWhole := hstage5_0 (((cfg5 a).slots t 0).cast nbuf5_0)
abbrev ms1 (t : Fin (cfg5 a).N) : Memref sig .tc .vmem S64x128 .f32 := spec5_1.stage ((cfg5 a).slots t 1)
abbrev hs1 (t : Fin (cfg5 a).N) : (ms1 a t).IsWhole := hstage5_1 (((cfg5 a).slots t 1).cast nbuf5_1)
abbrev ms2 (t : Fin (cfg5 a).N) : Memref sig .tc .vmem S1x64 .f32 := spec5_2.stage ((cfg5 a).slots t 2)
abbrev hs2 (t : Fin (cfg5 a).N) : (ms2 a t).IsWhole := hstage5_2 (((cfg5 a).slots t 2).cast nbuf5_2)
abbrev ms3 (t : Fin (cfg5 a).N) : Memref sig .tc .vmem S64x64 .f32 := spec5_3.stage ((cfg5 a).slots t 3)
abbrev hs3 (t : Fin (cfg5 a).N) : (ms3 a t).IsWhole := hstage5_3 (((cfg5 a).slots t 3).cast nbuf5_3)
abbrev ms4 (t : Fin (cfg5 a).N) : Memref sig .tc .vmem S1x64 .f32 := spec5_4.stage ((cfg5 a).slots t 4)
abbrev hs4 (t : Fin (cfg5 a).N) : (ms4 a t).IsWhole := hstage5_4 (((cfg5 a).slots t 4).cast nbuf5_4)
abbrev ms5 (t : Fin (cfg5 a).N) : Memref sig .tc .vmem S1x64 .f32 := spec5_5.stage ((cfg5 a).slots t 5)
abbrev hs5 (t : Fin (cfg5 a).N) : (ms5 a t).IsWhole := hstage5_5 (((cfg5 a).slots t 5).cast nbuf5_5)
abbrev ms6 (t : Fin (cfg5 a).N) : Memref sig .tc .vmem S1x64 .f32 := spec5_6.stage ((cfg5 a).slots t 6)
abbrev hs6 (t : Fin (cfg5 a).N) : (ms6 a t).IsWhole := hstage5_6 (((cfg5 a).slots t 6).cast nbuf5_6)
/-- The three scratch buffers (the two gathered rows and the hidden row). -/
abbrev sc0 : Memref sig .tc .vmem S1x128 .f32 := Memref.whole cc5_scratch0
abbrev sc1 : Memref sig .tc .vmem S1x128 .f32 := Memref.whole cc5_scratch1
abbrev sc2 : Memref sig .tc .vmem S1x64 .f32 := Memref.whole cc5_scratch2

/-- The body's own three copy semaphores. -/
abbrev osem : Fin 3 → SemLoc sig := fun j => (![SemLoc.dma 57, SemLoc.dma 58, SemLoc.dma 59] : Fin 3 → SemLoc sig) j
theorem ownSemFacts : Pipeline.OwnSemFacts spec5 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc5_scratch3 0) 0 ∗ semVal ((c : Thread nD τ), semAt cc5_scratch3 1) 0 ∗ semVal ((c : Thread nD τ), semAt cc5_scratch3 2) 0) := by
  rw [Pipeline.ownSems0_eq_of_list c osem [0, 1, 2] (by decide) (by decide)]; rfl

/-- The grid point's coordinate. -/
abbrev crd (t : Fin (cfg5 a).N) : grid5.Coords := grid5.coords t

/-- The grid is one axis of 62500 points: the coordinate of point `t` is `t`. -/
theorem coord_val (t : Fin (cfg5 a).N) : ((crd a t) 0).val = t.val := by
  have hN : t.val < 62500 := lt_of_lt_of_eq t.isLt N_5
  show t.val / grid5.stride 0 % grid5.bound 0 = t.val
  rw [show grid5.stride 0 = 1 from by decide, Nat.div_one]
  exact Nat.mod_eq_of_lt hN

/-- The branch is taken at the first point and at no other. -/
theorem hcond (t : Fin (cfg5 a).N) : cond0_0 (grid5.coords t) ↔ t.val = 0 := by
  have hN : t.val < 62500 := lt_of_lt_of_eq t.isLt N_5
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg5 a).N) : St (F := F) c :=
  P1.stG tb0 tb1 xM hM c (cfg5 a).N (crd a) (fun t => iblk V a c 0 t) (fun t => iblk V a c 1 t) (fun t => iblk V a c 2 t) (fun t => iblk V a c 3 t) (fun t => iblk V a c 4 t) (T0 a c) (T1 a c) (V c main_arg0) (V c main_v28_0) (fun t => hp0 c (crd a t)) (fun t => hp1 c (crd a t)) n hn

/-- The hidden array before point `n` (after `n` points). -/
def hAt (c : Dev nD) (n : ℕ) (hn : n ≤ (cfg5 a).N) : Bf (F := F) c hM :=
  P1.hG tb0 tb1 xM hM c (cfg5 a).N (crd a) (fun t => iblk V a c 0 t) (fun t => iblk V a c 1 t) (fun t => iblk V a c 2 t) (fun t => iblk V a c 3 t) (fun t => iblk V a c 4 t) (T0 a c) (T1 a c) (V c main_arg0) (V c main_v28_0) (fun t => hp0 c (crd a t)) (fun t => hp1 c (crd a t)) n hn

theorem stAt_zero (c : Dev nD) (t : Fin (cfg5 a).N) (h0 : t.val = 0) :
    stAt V a hp0 hp1 c t.val t.isLt
      = (P1.sumStep tb0 tb1 xM c (cfg5 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k5_pay1 (F := F)), P1.sqStep tb0 tb1 xM c (cfg5 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k5_pay2 (F := F)),
          hNext hM c (crd a t) (V c main_v28_0) (P1.rowStep tb0 tb1 xM c (cfg5 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg5 a).N) (h0 : ¬t.val = 0) :
    stAt V a hp0 hp1 c t.val t.isLt
      = (P1.sumStep tb0 tb1 xM c (cfg5 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg5 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg5 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg5 a).N) (h0 : t.val = 0) (hn) : hAt V a hp0 hp1 c t.val hn = V c main_v28_0 := by
  obtain ⟨n, hlt⟩ := t
  cases n with
  | zero => rfl
  | succ n => exact absurd h0 (Nat.succ_ne_zero n)
theorem hAt_pos (c : Dev nD) (t : Fin (cfg5 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg5 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg5 a).N) : sProp 𝕄 :=
  iprop(Pipeline.scopedRest (Ix := Unit) (Name := ℕ) (U := Pipeline.UD sig nD τ) (Lvl := ℕ) (Val := Elt F) spec5 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg5 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec5 c [cc5_scratch0, cc5_scratch1, cc5_scratch2])
          ∗ (∃ r, prngReg c r)
          ∗ iprop(semVal ((c : Thread nD τ), semAt cc5_scratch3 0) 0 ∗ semVal ((c : Thread nD τ), semAt cc5_scratch3 1) 0 ∗ semVal ((c : Thread nD τ), semAt cc5_scratch3 2) 0)
          ∗ pt c tb0 (T0 a c) ∗ pt c tb1 (T1 a c) ∗ pt c xM (V c main_arg0) ∗ pt c hM (hAt V a hp0 hp1 c n hn)) := by
  unfold Φ1; rw [scopedRest5_split, ownSems0_eq]; simp only [sc0, sc1, sc2, owns_whole]; try rfl

def dat (c : Dev nD) : Dat τ (Elt F) Unit ℕ (Pipeline.UD sig nD τ) ℕ (cfg5 a) c where
  A w := V c (Pipeline.arrRef spec5 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg5 a).W) : (dat V a hp0 hp1 c).A w = V c (Pipeline.arrRef spec5 w) := by
  dsimp only [dat]
theorem after_0 (c : Dev nD) (t : Fin (cfg5 a).N) : (dat V a hp0 hp1 c).after 0 t = iblk V a c 0 t := by dsimp only [dat]; rfl
theorem after_1 (c : Dev nD) (t : Fin (cfg5 a).N) : (dat V a hp0 hp1 c).after 1 t = iblk V a c 1 t := by dsimp only [dat]; rfl
theorem after_2 (c : Dev nD) (t : Fin (cfg5 a).N) : (dat V a hp0 hp1 c).after 2 t = iblk V a c 2 t := by dsimp only [dat]; rfl
theorem after_3 (c : Dev nD) (t : Fin (cfg5 a).N) : (dat V a hp0 hp1 c).after 3 t = iblk V a c 3 t := by dsimp only [dat]; rfl
theorem after_4 (c : Dev nD) (t : Fin (cfg5 a).N) : (dat V a hp0 hp1 c).after 4 t = iblk V a c 4 t := by dsimp only [dat]; rfl
theorem after_5 (c : Dev nD) (t : Fin (cfg5 a).N) : (dat V a hp0 hp1 c).after 5 t = (stAt V a hp0 hp1 c t.val t.isLt).1 := by dsimp only [dat]; rfl
theorem after_6 (c : Dev nD) (t : Fin (cfg5 a).N) : (dat V a hp0 hp1 c).after 6 t = (stAt V a hp0 hp1 c t.val t.isLt).2.1 := by dsimp only [dat]; rfl
theorem before_0 (c : Dev nD) (t : Fin (cfg5 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg5 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg5 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg5 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg5 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg5 a).N) (h : t'.val + 1 < (cfg5 a).N) : ((cfg5 a).win 5).flush t' = false := by
  unfold Pipeline.Window.flush
  rw [Bool.and_eq_false_iff]; right
  rw [Bool.or_eq_false_iff]
  have h' : t'.val + 1 < (cfg5 a).grid.N := h
  exact ⟨decide_eq_false (by omega), decide_eq_false (fun ⟨_, hne⟩ => hne rfl)⟩
theorem before_5_B (c : Dev nD) (t : Fin (cfg5 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg5 a).N) (h : t'.val + 1 < (cfg5 a).N) : ((cfg5 a).win 6).flush t' = false := by
  unfold Pipeline.Window.flush
  rw [Bool.and_eq_false_iff]; right
  rw [Bool.or_eq_false_iff]
  have h' : t'.val + 1 < (cfg5 a).grid.N := h
  exact ⟨decide_eq_false (by omega), decide_eq_false (fun ⟨_, hne⟩ => hne rfl)⟩
theorem before_6_B (c : Dev nD) (t : Fin (cfg5 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg5 a).N) : Prog (TpuEff nD τ sig (Elt F) Λ₀ .tc) PUnit :=
  (cc5__pass1_kernel (grid5.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc5_scratch3)

def bodyPre (c : Dev nD) (t : Fin (cfg5 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg5 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg5 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc5_scratch3 c (grid5.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v28_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc5_scratch3 c (grid5.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W5, bigSep_W5]
  exact sound_body V a hp0 hp1 c t

end Cert.Kernel.P1R5

end
-- ==== Proof.B1R5Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.B1R5Dat
import proofs.«400866_j57071525429608_2_alg».proof.Proof.AssembleBits

set_option maxRecDepth 16384

noncomputable section

namespace Cert.Kernel.P1R5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Asm (Rr L₀ lv₀)
open Cert.Kernel.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid5.Coords), k5_chk1 (tw0 tb0 c i (T0 (adm 5) c))) (hp1 : ∀ c (i : grid5.Coords), k5_chk2 (tw1 tb1 c i (T1 (adm 5) c)))

/-- The unscoped buffers the body moves itself or reads as tables: no window's array. -/
def H : Finset (Ref sig .tc) := {main_arg0, main_v26, main_v27, main_v28_0}
theorem H_sub : H ⊆ Pipeline.restRefs sig spec5 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v26) ∗ pt c tb1 (W main_v27) ∗ pt c hM (W main_v28_0)) := by
  rw [BI.bigSep_eq_bigSepL_of_eq [main_arg0, main_v26, main_v27, main_v28_0] (by decide) (by decide)]; rfl

/-- The two tables held, listed. -/
theorem pref_eq (c : Dev nD) (T : (pcfgs (F := F) 5).pre.Contents (Elt F)) :
    (Pipeline.prefHeld (Ix := Unit) (Name := ℕ) (U := Pipeline.UD sig nD τ) (Lvl := ℕ) (pcfgs (F := F) 5).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 5) hp0 hp1 c (cfg5 (adm 5)).N le_rfl

/-- The entry valuation with the hidden array at its final contents: what the unscoped rest is at the exit. -/
def Vmid (c : Dev nD) : (b : Ref sig .tc) → Buf (Elt F) ((c : Thread nD τ).loc b) :=
  Function.update (Vin Win c) main_v28_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec5 c W : sProp 𝕄)
      = iprop((bigSep H fun b => ((c : Thread nD τ).loc b) ↦{fullShare} W b) ∗ (bigSep (Pipeline.restRefs sig spec5 \ H) fun b => ((c : Thread nD τ).loc b) ↦{fullShare} W b)) := by
  unfold Pipeline.unscopedRest; exact BI.bigSep_sdiff_split H_sub

set_option maxHeartbeats 4000000 in
def reg (hpd : ∀ c, pdats 5 c = dat (Vin Win) (adm 5) hp0 hp1 c)
    (hT0 : ∀ c, Vin Win c main_v26 = T0 (adm 5) c) (hT1 : ∀ c, Vin Win c main_v27 = T1 (adm 5) c)
    (hF : ∀ c w, (dat (Vin Win) (adm 5) hp0 hp1 c).arrAt w (cfg5 (adm 5)).N = Vout Wout c (Pipeline.arrRef spec5 w))
    (hrest : ∀ c b, b ∉ Finset.univ.image (Pipeline.arrRef spec5) → Vout Wout c b = Vmid adm Win hp0 hp1 c b) :
    Pipeline.RegionSeg (pcfgs (F := F)) adm pdats () defs₀ Variants.none L₀ lv₀ 5 where
  win := winFacts5.to₀
  block_pos := block_pos5
  stage_whole := stage_whole5
  K := Fin 3
  osem := osem
  ho := ownSemFacts
  hbody c := by rw [hpd c]; exact (body_obligation (Vin Win) (adm 5) hp0 hp1 c).loose
  hwaits := Pipeline.hwaits_of_owed_zero _ _ _ _ L₀ lv₀ 5 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v28_0))
  Y c := iprop((∃ r, prngReg c r) ∗ pt c tb0 (T0 (adm 5) c) ∗ pt c tb1 (T1 (adm 5) c) ∗ pt c xM (Vin Win c main_arg0) ∗ pt c hM (hEnd adm Win hp0 hp1 c))
  Z c := bigSep (Pipeline.restRefs sig spec5 \ H) fun b => ((c : Thread nD τ).loc b) ↦{fullShare} Vin Win c b
  hentry c := by
    have hsplit : (StableHlo.held (c : Thread nD τ) (Pipeline.ucRefs τ sig) (Win c) : sProp 𝕄)
        ⊢ iprop((pdats 5 c).arrays ((pdats 5 c).arrAt · 0) ∗ Pipeline.unscopedRest (Ix := Unit) (Name := ℕ) (U := Pipeline.UD sig nD τ) (Lvl := ℕ) spec5 c (Vin Win c)) := by
      have h := Pipeline.arrays_of_unscopedBufs (p := 5) (pcfgs (F := F)) adm pdats winFacts5 arr_whole5 c
        (by rw [hpd c]; exact (dat (Vin Win) (adm 5) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 5 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 5) hp0 hp1 c 0 (Nat.zero_le _)
    unfold Φ1
    rw [pref_eq, show hAt (Vin Win) (adm 5) hp0 hp1 c 0 (Nat.zero_le _) = Vin Win c main_v28_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 5) hp0 hp1 c (cfg5 (adm 5)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 5 c).arrays ((pdats 5 c).arrAt · (cfg5 (adm 5)).N) ∗ Pipeline.unscopedRest (Ix := Unit) (Name := ℕ) (U := Pipeline.UD sig nD τ) (Lvl := ℕ) spec5 c (Vmid adm Win hp0 hp1 c))
        ⊢ (StableHlo.held (c : Thread nD τ) (Pipeline.ucRefs τ sig) (Wout c) : sProp 𝕄) := by
      have h := Pipeline.unscopedBufs_of_arrays (p := 5) (pcfgs (F := F)) adm (Ix := Unit) (Name := ℕ) (U := Pipeline.UD sig nD τ) (Lvl := ℕ)
        winFacts5 arr_whole5 c pdats (by rw [hpd c]; exact (dat (Vin Win) (adm 5) hp0 hp1 c).share_full fun _ => rfl)
        (Vmid adm Win hp0 hp1 c) (Vout Wout c) ((pdats 5 c).arrAt · (cfg5 (adm 5)).N) (by rw [hpd c]; exact hF c) (hrest c)
      rw [Pipeline.unscopedBufs_held] at h; exact h
    rw [rest_split, Hpts_eq] at hjoin
    have hZ : (bigSep (Pipeline.restRefs sig spec5 \ H) fun b => ((c : Thread nD τ).loc b) ↦{fullShare} Vin Win c b : sProp 𝕄)
        = (bigSep (Pipeline.restRefs sig spec5 \ H) fun b => ((c : Thread nD τ).loc b) ↦{fullShare} Vmid adm Win hp0 hp1 c b) :=
      bigSep_congr fun b hb => by
        have hne : b ≠ main_v28_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v26 = Vin Win c main_v26 := by unfold Vmid; exact Function.update_of_ne (by decide) _ _
    have e2 : Vmid adm Win hp0 hp1 c main_v27 = Vin Win c main_v27 := by unfold Vmid; exact Function.update_of_ne (by decide) _ _
    have e3 : Vmid adm Win hp0 hp1 c main_v28_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 5 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.Kernel.P1R5

end
-- ==== Proof.B1R6Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.B1Body
import proofs.«400866_j57071525429608_2_alg».proof.Proof.B1State
import proofs.«400866_j57071525429608_2_alg».proof.Proof.B1Kern

set_option maxRecDepth 100000

noncomputable section

namespace Cert.Kernel.P1R6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc6__pass1_kernel (F := F) = P1.kern := rfl

-- The buffer contents when the region is entered, and the admissible index tables.
variable (V : (c : Dev nD) → (b : Ref sig .tc) → Buf (Elt F) ((c : Thread nD τ).loc b))
variable (a : (pcfg6 (F := F)).Adm)

/-- The two index tables, the node-feature array and the hidden array, as the body is handed them. -/
abbrev tb0 : Memref sig .tc .smem S62500 .i32 := Memref.whole main_v29
abbrev tb1 : Memref sig .tc .smem S62500 .i32 := Memref.whole main_v30
abbrev xM : Memref sig .tc .hbm S100000x128 .f32 := Memref.whole main_arg0
abbrev hM : Memref sig .tc .hbm S62500x64 .f32 := Memref.whole main_v31_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid6.Coords), k6_chk1 (tw0 tb0 c i (T0 a c))) (hp1 : ∀ c (i : grid6.Coords), k6_chk2 (tw1 tb1 c i (T1 a c)))

/-- Window `w`'s block at point `t`, read off its array as the region finds it. -/
def iblk (c : Dev nD) (w : Fin (cfg6 a).W) (t : Fin (cfg6 a).N) : (((cfg6 a).win w).xblock ((cfg6 a).grid.coords t)).Idx → Elt F ((cfg6 a).win w).elt :=
  (((cfg6 a).win w).blk t).view.read (Elt F) (V c (Pipeline.arrRef spec6 w))

/-- Each window's current staging memref at point `t`, as the pipeline passes it to the body. -/
abbrev ms0 (t : Fin (cfg6 a).N) : Memref sig .tc .vmem S64x128 .f32 := spec6_0.stage ((cfg6 a).slots t 0)
abbrev hs0 (t : Fin (cfg6 a).N) : (ms0 a t).IsWhole := hstage6_0 (((cfg6 a).slots t 0).cast nbuf6_0)
abbrev ms1 (t : Fin (cfg6 a).N) : Memref sig .tc .vmem S64x128 .f32 := spec6_1.stage ((cfg6 a).slots t 1)
abbrev hs1 (t : Fin (cfg6 a).N) : (ms1 a t).IsWhole := hstage6_1 (((cfg6 a).slots t 1).cast nbuf6_1)
abbrev ms2 (t : Fin (cfg6 a).N) : Memref sig .tc .vmem S1x64 .f32 := spec6_2.stage ((cfg6 a).slots t 2)
abbrev hs2 (t : Fin (cfg6 a).N) : (ms2 a t).IsWhole := hstage6_2 (((cfg6 a).slots t 2).cast nbuf6_2)
abbrev ms3 (t : Fin (cfg6 a).N) : Memref sig .tc .vmem S64x64 .f32 := spec6_3.stage ((cfg6 a).slots t 3)
abbrev hs3 (t : Fin (cfg6 a).N) : (ms3 a t).IsWhole := hstage6_3 (((cfg6 a).slots t 3).cast nbuf6_3)
abbrev ms4 (t : Fin (cfg6 a).N) : Memref sig .tc .vmem S1x64 .f32 := spec6_4.stage ((cfg6 a).slots t 4)
abbrev hs4 (t : Fin (cfg6 a).N) : (ms4 a t).IsWhole := hstage6_4 (((cfg6 a).slots t 4).cast nbuf6_4)
abbrev ms5 (t : Fin (cfg6 a).N) : Memref sig .tc .vmem S1x64 .f32 := spec6_5.stage ((cfg6 a).slots t 5)
abbrev hs5 (t : Fin (cfg6 a).N) : (ms5 a t).IsWhole := hstage6_5 (((cfg6 a).slots t 5).cast nbuf6_5)
abbrev ms6 (t : Fin (cfg6 a).N) : Memref sig .tc .vmem S1x64 .f32 := spec6_6.stage ((cfg6 a).slots t 6)
abbrev hs6 (t : Fin (cfg6 a).N) : (ms6 a t).IsWhole := hstage6_6 (((cfg6 a).slots t 6).cast nbuf6_6)
/-- The three scratch buffers (the two gathered rows and the hidden row). -/
abbrev sc0 : Memref sig .tc .vmem S1x128 .f32 := Memref.whole cc6_scratch0
abbrev sc1 : Memref sig .tc .vmem S1x128 .f32 := Memref.whole cc6_scratch1
abbrev sc2 : Memref sig .tc .vmem S1x64 .f32 := Memref.whole cc6_scratch2

/-- The body's own three copy semaphores. -/
abbrev osem : Fin 3 → SemLoc sig := fun j => (![SemLoc.dma 67, SemLoc.dma 68, SemLoc.dma 69] : Fin 3 → SemLoc sig) j
theorem ownSemFacts : Pipeline.OwnSemFacts spec6 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc6_scratch3 0) 0 ∗ semVal ((c : Thread nD τ), semAt cc6_scratch3 1) 0 ∗ semVal ((c : Thread nD τ), semAt cc6_scratch3 2) 0) := by
  rw [Pipeline.ownSems0_eq_of_list c osem [0, 1, 2] (by decide) (by decide)]; rfl

/-- The grid point's coordinate. -/
abbrev crd (t : Fin (cfg6 a).N) : grid6.Coords := grid6.coords t

/-- The grid is one axis of 62500 points: the coordinate of point `t` is `t`. -/
theorem coord_val (t : Fin (cfg6 a).N) : ((crd a t) 0).val = t.val := by
  have hN : t.val < 62500 := lt_of_lt_of_eq t.isLt N_6
  show t.val / grid6.stride 0 % grid6.bound 0 = t.val
  rw [show grid6.stride 0 = 1 from by decide, Nat.div_one]
  exact Nat.mod_eq_of_lt hN

/-- The branch is taken at the first point and at no other. -/
theorem hcond (t : Fin (cfg6 a).N) : cond0_0 (grid6.coords t) ↔ t.val = 0 := by
  have hN : t.val < 62500 := lt_of_lt_of_eq t.isLt N_6
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg6 a).N) : St (F := F) c :=
  P1.stG tb0 tb1 xM hM c (cfg6 a).N (crd a) (fun t => iblk V a c 0 t) (fun t => iblk V a c 1 t) (fun t => iblk V a c 2 t) (fun t => iblk V a c 3 t) (fun t => iblk V a c 4 t) (T0 a c) (T1 a c) (V c main_arg0) (V c main_v31_0) (fun t => hp0 c (crd a t)) (fun t => hp1 c (crd a t)) n hn

/-- The hidden array before point `n` (after `n` points). -/
def hAt (c : Dev nD) (n : ℕ) (hn : n ≤ (cfg6 a).N) : Bf (F := F) c hM :=
  P1.hG tb0 tb1 xM hM c (cfg6 a).N (crd a) (fun t => iblk V a c 0 t) (fun t => iblk V a c 1 t) (fun t => iblk V a c 2 t) (fun t => iblk V a c 3 t) (fun t => iblk V a c 4 t) (T0 a c) (T1 a c) (V c main_arg0) (V c main_v31_0) (fun t => hp0 c (crd a t)) (fun t => hp1 c (crd a t)) n hn

theorem stAt_zero (c : Dev nD) (t : Fin (cfg6 a).N) (h0 : t.val = 0) :
    stAt V a hp0 hp1 c t.val t.isLt
      = (P1.sumStep tb0 tb1 xM c (cfg6 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k6_pay1 (F := F)), P1.sqStep tb0 tb1 xM c (cfg6 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k6_pay2 (F := F)),
          hNext hM c (crd a t) (V c main_v31_0) (P1.rowStep tb0 tb1 xM c (cfg6 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg6 a).N) (h0 : ¬t.val = 0) :
    stAt V a hp0 hp1 c t.val t.isLt
      = (P1.sumStep tb0 tb1 xM c (cfg6 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg6 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg6 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg6 a).N) (h0 : t.val = 0) (hn) : hAt V a hp0 hp1 c t.val hn = V c main_v31_0 := by
  obtain ⟨n, hlt⟩ := t
  cases n with
  | zero => rfl
  | succ n => exact absurd h0 (Nat.succ_ne_zero n)
theorem hAt_pos (c : Dev nD) (t : Fin (cfg6 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg6 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg6 a).N) : sProp 𝕄 :=
  iprop(Pipeline.scopedRest (Ix := Unit) (Name := ℕ) (U := Pipeline.UD sig nD τ) (Lvl := ℕ) (Val := Elt F) spec6 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg6 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec6 c [cc6_scratch0, cc6_scratch1, cc6_scratch2])
          ∗ (∃ r, prngReg c r)
          ∗ iprop(semVal ((c : Thread nD τ), semAt cc6_scratch3 0) 0 ∗ semVal ((c : Thread nD τ), semAt cc6_scratch3 1) 0 ∗ semVal ((c : Thread nD τ), semAt cc6_scratch3 2) 0)
          ∗ pt c tb0 (T0 a c) ∗ pt c tb1 (T1 a c) ∗ pt c xM (V c main_arg0) ∗ pt c hM (hAt V a hp0 hp1 c n hn)) := by
  unfold Φ1; rw [scopedRest6_split, ownSems0_eq]; simp only [sc0, sc1, sc2, owns_whole]; try rfl

def dat (c : Dev nD) : Dat τ (Elt F) Unit ℕ (Pipeline.UD sig nD τ) ℕ (cfg6 a) c where
  A w := V c (Pipeline.arrRef spec6 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg6 a).W) : (dat V a hp0 hp1 c).A w = V c (Pipeline.arrRef spec6 w) := by
  dsimp only [dat]
theorem after_0 (c : Dev nD) (t : Fin (cfg6 a).N) : (dat V a hp0 hp1 c).after 0 t = iblk V a c 0 t := by dsimp only [dat]; rfl
theorem after_1 (c : Dev nD) (t : Fin (cfg6 a).N) : (dat V a hp0 hp1 c).after 1 t = iblk V a c 1 t := by dsimp only [dat]; rfl
theorem after_2 (c : Dev nD) (t : Fin (cfg6 a).N) : (dat V a hp0 hp1 c).after 2 t = iblk V a c 2 t := by dsimp only [dat]; rfl
theorem after_3 (c : Dev nD) (t : Fin (cfg6 a).N) : (dat V a hp0 hp1 c).after 3 t = iblk V a c 3 t := by dsimp only [dat]; rfl
theorem after_4 (c : Dev nD) (t : Fin (cfg6 a).N) : (dat V a hp0 hp1 c).after 4 t = iblk V a c 4 t := by dsimp only [dat]; rfl
theorem after_5 (c : Dev nD) (t : Fin (cfg6 a).N) : (dat V a hp0 hp1 c).after 5 t = (stAt V a hp0 hp1 c t.val t.isLt).1 := by dsimp only [dat]; rfl
theorem after_6 (c : Dev nD) (t : Fin (cfg6 a).N) : (dat V a hp0 hp1 c).after 6 t = (stAt V a hp0 hp1 c t.val t.isLt).2.1 := by dsimp only [dat]; rfl
theorem before_0 (c : Dev nD) (t : Fin (cfg6 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg6 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg6 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg6 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg6 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg6 a).N) (h : t'.val + 1 < (cfg6 a).N) : ((cfg6 a).win 5).flush t' = false := by
  unfold Pipeline.Window.flush
  rw [Bool.and_eq_false_iff]; right
  rw [Bool.or_eq_false_iff]
  have h' : t'.val + 1 < (cfg6 a).grid.N := h
  exact ⟨decide_eq_false (by omega), decide_eq_false (fun ⟨_, hne⟩ => hne rfl)⟩
theorem before_5_B (c : Dev nD) (t : Fin (cfg6 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg6 a).N) (h : t'.val + 1 < (cfg6 a).N) : ((cfg6 a).win 6).flush t' = false := by
  unfold Pipeline.Window.flush
  rw [Bool.and_eq_false_iff]; right
  rw [Bool.or_eq_false_iff]
  have h' : t'.val + 1 < (cfg6 a).grid.N := h
  exact ⟨decide_eq_false (by omega), decide_eq_false (fun ⟨_, hne⟩ => hne rfl)⟩
theorem before_6_B (c : Dev nD) (t : Fin (cfg6 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg6 a).N) : Prog (TpuEff nD τ sig (Elt F) Λ₀ .tc) PUnit :=
  (cc6__pass1_kernel (grid6.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc6_scratch3)

def bodyPre (c : Dev nD) (t : Fin (cfg6 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg6 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg6 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc6_scratch3 c (grid6.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v31_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc6_scratch3 c (grid6.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W6, bigSep_W6]
  exact sound_body V a hp0 hp1 c t

end Cert.Kernel.P1R6

end
-- ==== Proof.B1R6Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.B1R6Dat
import proofs.«400866_j57071525429608_2_alg».proof.Proof.AssembleBits

set_option maxRecDepth 16384

noncomputable section

namespace Cert.Kernel.P1R6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Asm (Rr L₀ lv₀)
open Cert.Kernel.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid6.Coords), k6_chk1 (tw0 tb0 c i (T0 (adm 6) c))) (hp1 : ∀ c (i : grid6.Coords), k6_chk2 (tw1 tb1 c i (T1 (adm 6) c)))

/-- The unscoped buffers the body moves itself or reads as tables: no window's array. -/
def H : Finset (Ref sig .tc) := {main_arg0, main_v29, main_v30, main_v31_0}
theorem H_sub : H ⊆ Pipeline.restRefs sig spec6 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v29) ∗ pt c tb1 (W main_v30) ∗ pt c hM (W main_v31_0)) := by
  rw [BI.bigSep_eq_bigSepL_of_eq [main_arg0, main_v29, main_v30, main_v31_0] (by decide) (by decide)]; rfl

/-- The two tables held, listed. -/
theorem pref_eq (c : Dev nD) (T : (pcfgs (F := F) 6).pre.Contents (Elt F)) :
    (Pipeline.prefHeld (Ix := Unit) (Name := ℕ) (U := Pipeline.UD sig nD τ) (Lvl := ℕ) (pcfgs (F := F) 6).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 6) hp0 hp1 c (cfg6 (adm 6)).N le_rfl

/-- The entry valuation with the hidden array at its final contents: what the unscoped rest is at the exit. -/
def Vmid (c : Dev nD) : (b : Ref sig .tc) → Buf (Elt F) ((c : Thread nD τ).loc b) :=
  Function.update (Vin Win c) main_v31_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec6 c W : sProp 𝕄)
      = iprop((bigSep H fun b => ((c : Thread nD τ).loc b) ↦{fullShare} W b) ∗ (bigSep (Pipeline.restRefs sig spec6 \ H) fun b => ((c : Thread nD τ).loc b) ↦{fullShare} W b)) := by
  unfold Pipeline.unscopedRest; exact BI.bigSep_sdiff_split H_sub

set_option maxHeartbeats 4000000 in
def reg (hpd : ∀ c, pdats 6 c = dat (Vin Win) (adm 6) hp0 hp1 c)
    (hT0 : ∀ c, Vin Win c main_v29 = T0 (adm 6) c) (hT1 : ∀ c, Vin Win c main_v30 = T1 (adm 6) c)
    (hF : ∀ c w, (dat (Vin Win) (adm 6) hp0 hp1 c).arrAt w (cfg6 (adm 6)).N = Vout Wout c (Pipeline.arrRef spec6 w))
    (hrest : ∀ c b, b ∉ Finset.univ.image (Pipeline.arrRef spec6) → Vout Wout c b = Vmid adm Win hp0 hp1 c b) :
    Pipeline.RegionSeg (pcfgs (F := F)) adm pdats () defs₀ Variants.none L₀ lv₀ 6 where
  win := winFacts6.to₀
  block_pos := block_pos6
  stage_whole := stage_whole6
  K := Fin 3
  osem := osem
  ho := ownSemFacts
  hbody c := by rw [hpd c]; exact (body_obligation (Vin Win) (adm 6) hp0 hp1 c).loose
  hwaits := Pipeline.hwaits_of_owed_zero _ _ _ _ L₀ lv₀ 6 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v31_0))
  Y c := iprop((∃ r, prngReg c r) ∗ pt c tb0 (T0 (adm 6) c) ∗ pt c tb1 (T1 (adm 6) c) ∗ pt c xM (Vin Win c main_arg0) ∗ pt c hM (hEnd adm Win hp0 hp1 c))
  Z c := bigSep (Pipeline.restRefs sig spec6 \ H) fun b => ((c : Thread nD τ).loc b) ↦{fullShare} Vin Win c b
  hentry c := by
    have hsplit : (StableHlo.held (c : Thread nD τ) (Pipeline.ucRefs τ sig) (Win c) : sProp 𝕄)
        ⊢ iprop((pdats 6 c).arrays ((pdats 6 c).arrAt · 0) ∗ Pipeline.unscopedRest (Ix := Unit) (Name := ℕ) (U := Pipeline.UD sig nD τ) (Lvl := ℕ) spec6 c (Vin Win c)) := by
      have h := Pipeline.arrays_of_unscopedBufs (p := 6) (pcfgs (F := F)) adm pdats winFacts6 arr_whole6 c
        (by rw [hpd c]; exact (dat (Vin Win) (adm 6) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 6 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 6) hp0 hp1 c 0 (Nat.zero_le _)
    unfold Φ1
    rw [pref_eq, show hAt (Vin Win) (adm 6) hp0 hp1 c 0 (Nat.zero_le _) = Vin Win c main_v31_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 6) hp0 hp1 c (cfg6 (adm 6)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 6 c).arrays ((pdats 6 c).arrAt · (cfg6 (adm 6)).N) ∗ Pipeline.unscopedRest (Ix := Unit) (Name := ℕ) (U := Pipeline.UD sig nD τ) (Lvl := ℕ) spec6 c (Vmid adm Win hp0 hp1 c))
        ⊢ (StableHlo.held (c : Thread nD τ) (Pipeline.ucRefs τ sig) (Wout c) : sProp 𝕄) := by
      have h := Pipeline.unscopedBufs_of_arrays (p := 6) (pcfgs (F := F)) adm (Ix := Unit) (Name := ℕ) (U := Pipeline.UD sig nD τ) (Lvl := ℕ)
        winFacts6 arr_whole6 c pdats (by rw [hpd c]; exact (dat (Vin Win) (adm 6) hp0 hp1 c).share_full fun _ => rfl)
        (Vmid adm Win hp0 hp1 c) (Vout Wout c) ((pdats 6 c).arrAt · (cfg6 (adm 6)).N) (by rw [hpd c]; exact hF c) (hrest c)
      rw [Pipeline.unscopedBufs_held] at h; exact h
    rw [rest_split, Hpts_eq] at hjoin
    have hZ : (bigSep (Pipeline.restRefs sig spec6 \ H) fun b => ((c : Thread nD τ).loc b) ↦{fullShare} Vin Win c b : sProp 𝕄)
        = (bigSep (Pipeline.restRefs sig spec6 \ H) fun b => ((c : Thread nD τ).loc b) ↦{fullShare} Vmid adm Win hp0 hp1 c b) :=
      bigSep_congr fun b hb => by
        have hne : b ≠ main_v31_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v29 = Vin Win c main_v29 := by unfold Vmid; exact Function.update_of_ne (by decide) _ _
    have e2 : Vmid adm Win hp0 hp1 c main_v30 = Vin Win c main_v30 := by unfold Vmid; exact Function.update_of_ne (by decide) _ _
    have e3 : Vmid adm Win hp0 hp1 c main_v31_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 6 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.Kernel.P1R6

end
-- ==== Proof.B1R7Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.B1Body
import proofs.«400866_j57071525429608_2_alg».proof.Proof.B1State
import proofs.«400866_j57071525429608_2_alg».proof.Proof.B1Kern

set_option maxRecDepth 100000

noncomputable section

namespace Cert.Kernel.P1R7

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc7__pass1_kernel (F := F) = P1.kern := rfl

-- The buffer contents when the region is entered, and the admissible index tables.
variable (V : (c : Dev nD) → (b : Ref sig .tc) → Buf (Elt F) ((c : Thread nD τ).loc b))
variable (a : (pcfg7 (F := F)).Adm)

/-- The two index tables, the node-feature array and the hidden array, as the body is handed them. -/
abbrev tb0 : Memref sig .tc .smem S62500 .i32 := Memref.whole main_v32
abbrev tb1 : Memref sig .tc .smem S62500 .i32 := Memref.whole main_v33
abbrev xM : Memref sig .tc .hbm S100000x128 .f32 := Memref.whole main_arg0
abbrev hM : Memref sig .tc .hbm S62500x64 .f32 := Memref.whole main_v34_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid7.Coords), k7_chk1 (tw0 tb0 c i (T0 a c))) (hp1 : ∀ c (i : grid7.Coords), k7_chk2 (tw1 tb1 c i (T1 a c)))

/-- Window `w`'s block at point `t`, read off its array as the region finds it. -/
def iblk (c : Dev nD) (w : Fin (cfg7 a).W) (t : Fin (cfg7 a).N) : (((cfg7 a).win w).xblock ((cfg7 a).grid.coords t)).Idx → Elt F ((cfg7 a).win w).elt :=
  (((cfg7 a).win w).blk t).view.read (Elt F) (V c (Pipeline.arrRef spec7 w))

/-- Each window's current staging memref at point `t`, as the pipeline passes it to the body. -/
abbrev ms0 (t : Fin (cfg7 a).N) : Memref sig .tc .vmem S64x128 .f32 := spec7_0.stage ((cfg7 a).slots t 0)
abbrev hs0 (t : Fin (cfg7 a).N) : (ms0 a t).IsWhole := hstage7_0 (((cfg7 a).slots t 0).cast nbuf7_0)
abbrev ms1 (t : Fin (cfg7 a).N) : Memref sig .tc .vmem S64x128 .f32 := spec7_1.stage ((cfg7 a).slots t 1)
abbrev hs1 (t : Fin (cfg7 a).N) : (ms1 a t).IsWhole := hstage7_1 (((cfg7 a).slots t 1).cast nbuf7_1)
abbrev ms2 (t : Fin (cfg7 a).N) : Memref sig .tc .vmem S1x64 .f32 := spec7_2.stage ((cfg7 a).slots t 2)
abbrev hs2 (t : Fin (cfg7 a).N) : (ms2 a t).IsWhole := hstage7_2 (((cfg7 a).slots t 2).cast nbuf7_2)
abbrev ms3 (t : Fin (cfg7 a).N) : Memref sig .tc .vmem S64x64 .f32 := spec7_3.stage ((cfg7 a).slots t 3)
abbrev hs3 (t : Fin (cfg7 a).N) : (ms3 a t).IsWhole := hstage7_3 (((cfg7 a).slots t 3).cast nbuf7_3)
abbrev ms4 (t : Fin (cfg7 a).N) : Memref sig .tc .vmem S1x64 .f32 := spec7_4.stage ((cfg7 a).slots t 4)
abbrev hs4 (t : Fin (cfg7 a).N) : (ms4 a t).IsWhole := hstage7_4 (((cfg7 a).slots t 4).cast nbuf7_4)
abbrev ms5 (t : Fin (cfg7 a).N) : Memref sig .tc .vmem S1x64 .f32 := spec7_5.stage ((cfg7 a).slots t 5)
abbrev hs5 (t : Fin (cfg7 a).N) : (ms5 a t).IsWhole := hstage7_5 (((cfg7 a).slots t 5).cast nbuf7_5)
abbrev ms6 (t : Fin (cfg7 a).N) : Memref sig .tc .vmem S1x64 .f32 := spec7_6.stage ((cfg7 a).slots t 6)
abbrev hs6 (t : Fin (cfg7 a).N) : (ms6 a t).IsWhole := hstage7_6 (((cfg7 a).slots t 6).cast nbuf7_6)
/-- The three scratch buffers (the two gathered rows and the hidden row). -/
abbrev sc0 : Memref sig .tc .vmem S1x128 .f32 := Memref.whole cc7_scratch0
abbrev sc1 : Memref sig .tc .vmem S1x128 .f32 := Memref.whole cc7_scratch1
abbrev sc2 : Memref sig .tc .vmem S1x64 .f32 := Memref.whole cc7_scratch2

/-- The body's own three copy semaphores. -/
abbrev osem : Fin 3 → SemLoc sig := fun j => (![SemLoc.dma 77, SemLoc.dma 78, SemLoc.dma 79] : Fin 3 → SemLoc sig) j
theorem ownSemFacts : Pipeline.OwnSemFacts spec7 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc7_scratch3 0) 0 ∗ semVal ((c : Thread nD τ), semAt cc7_scratch3 1) 0 ∗ semVal ((c : Thread nD τ), semAt cc7_scratch3 2) 0) := by
  rw [Pipeline.ownSems0_eq_of_list c osem [0, 1, 2] (by decide) (by decide)]; rfl

/-- The grid point's coordinate. -/
abbrev crd (t : Fin (cfg7 a).N) : grid7.Coords := grid7.coords t

/-- The grid is one axis of 62500 points: the coordinate of point `t` is `t`. -/
theorem coord_val (t : Fin (cfg7 a).N) : ((crd a t) 0).val = t.val := by
  have hN : t.val < 62500 := lt_of_lt_of_eq t.isLt N_7
  show t.val / grid7.stride 0 % grid7.bound 0 = t.val
  rw [show grid7.stride 0 = 1 from by decide, Nat.div_one]
  exact Nat.mod_eq_of_lt hN

/-- The branch is taken at the first point and at no other. -/
theorem hcond (t : Fin (cfg7 a).N) : cond0_0 (grid7.coords t) ↔ t.val = 0 := by
  have hN : t.val < 62500 := lt_of_lt_of_eq t.isLt N_7
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg7 a).N) : St (F := F) c :=
  P1.stG tb0 tb1 xM hM c (cfg7 a).N (crd a) (fun t => iblk V a c 0 t) (fun t => iblk V a c 1 t) (fun t => iblk V a c 2 t) (fun t => iblk V a c 3 t) (fun t => iblk V a c 4 t) (T0 a c) (T1 a c) (V c main_arg0) (V c main_v34_0) (fun t => hp0 c (crd a t)) (fun t => hp1 c (crd a t)) n hn

/-- The hidden array before point `n` (after `n` points). -/
def hAt (c : Dev nD) (n : ℕ) (hn : n ≤ (cfg7 a).N) : Bf (F := F) c hM :=
  P1.hG tb0 tb1 xM hM c (cfg7 a).N (crd a) (fun t => iblk V a c 0 t) (fun t => iblk V a c 1 t) (fun t => iblk V a c 2 t) (fun t => iblk V a c 3 t) (fun t => iblk V a c 4 t) (T0 a c) (T1 a c) (V c main_arg0) (V c main_v34_0) (fun t => hp0 c (crd a t)) (fun t => hp1 c (crd a t)) n hn

theorem stAt_zero (c : Dev nD) (t : Fin (cfg7 a).N) (h0 : t.val = 0) :
    stAt V a hp0 hp1 c t.val t.isLt
      = (P1.sumStep tb0 tb1 xM c (cfg7 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k7_pay1 (F := F)), P1.sqStep tb0 tb1 xM c (cfg7 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k7_pay2 (F := F)),
          hNext hM c (crd a t) (V c main_v34_0) (P1.rowStep tb0 tb1 xM c (cfg7 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg7 a).N) (h0 : ¬t.val = 0) :
    stAt V a hp0 hp1 c t.val t.isLt
      = (P1.sumStep tb0 tb1 xM c (cfg7 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg7 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg7 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg7 a).N) (h0 : t.val = 0) (hn) : hAt V a hp0 hp1 c t.val hn = V c main_v34_0 := by
  obtain ⟨n, hlt⟩ := t
  cases n with
  | zero => rfl
  | succ n => exact absurd h0 (Nat.succ_ne_zero n)
theorem hAt_pos (c : Dev nD) (t : Fin (cfg7 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg7 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg7 a).N) : sProp 𝕄 :=
  iprop(Pipeline.scopedRest (Ix := Unit) (Name := ℕ) (U := Pipeline.UD sig nD τ) (Lvl := ℕ) (Val := Elt F) spec7 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg7 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec7 c [cc7_scratch0, cc7_scratch1, cc7_scratch2])
          ∗ (∃ r, prngReg c r)
          ∗ iprop(semVal ((c : Thread nD τ), semAt cc7_scratch3 0) 0 ∗ semVal ((c : Thread nD τ), semAt cc7_scratch3 1) 0 ∗ semVal ((c : Thread nD τ), semAt cc7_scratch3 2) 0)
          ∗ pt c tb0 (T0 a c) ∗ pt c tb1 (T1 a c) ∗ pt c xM (V c main_arg0) ∗ pt c hM (hAt V a hp0 hp1 c n hn)) := by
  unfold Φ1; rw [scopedRest7_split, ownSems0_eq]; simp only [sc0, sc1, sc2, owns_whole]; try rfl

def dat (c : Dev nD) : Dat τ (Elt F) Unit ℕ (Pipeline.UD sig nD τ) ℕ (cfg7 a) c where
  A w := V c (Pipeline.arrRef spec7 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg7 a).W) : (dat V a hp0 hp1 c).A w = V c (Pipeline.arrRef spec7 w) := by
  dsimp only [dat]
theorem after_0 (c : Dev nD) (t : Fin (cfg7 a).N) : (dat V a hp0 hp1 c).after 0 t = iblk V a c 0 t := by dsimp only [dat]; rfl
theorem after_1 (c : Dev nD) (t : Fin (cfg7 a).N) : (dat V a hp0 hp1 c).after 1 t = iblk V a c 1 t := by dsimp only [dat]; rfl
theorem after_2 (c : Dev nD) (t : Fin (cfg7 a).N) : (dat V a hp0 hp1 c).after 2 t = iblk V a c 2 t := by dsimp only [dat]; rfl
theorem after_3 (c : Dev nD) (t : Fin (cfg7 a).N) : (dat V a hp0 hp1 c).after 3 t = iblk V a c 3 t := by dsimp only [dat]; rfl
theorem after_4 (c : Dev nD) (t : Fin (cfg7 a).N) : (dat V a hp0 hp1 c).after 4 t = iblk V a c 4 t := by dsimp only [dat]; rfl
theorem after_5 (c : Dev nD) (t : Fin (cfg7 a).N) : (dat V a hp0 hp1 c).after 5 t = (stAt V a hp0 hp1 c t.val t.isLt).1 := by dsimp only [dat]; rfl
theorem after_6 (c : Dev nD) (t : Fin (cfg7 a).N) : (dat V a hp0 hp1 c).after 6 t = (stAt V a hp0 hp1 c t.val t.isLt).2.1 := by dsimp only [dat]; rfl
theorem before_0 (c : Dev nD) (t : Fin (cfg7 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg7 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg7 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg7 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg7 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg7 a).N) (h : t'.val + 1 < (cfg7 a).N) : ((cfg7 a).win 5).flush t' = false := by
  unfold Pipeline.Window.flush
  rw [Bool.and_eq_false_iff]; right
  rw [Bool.or_eq_false_iff]
  have h' : t'.val + 1 < (cfg7 a).grid.N := h
  exact ⟨decide_eq_false (by omega), decide_eq_false (fun ⟨_, hne⟩ => hne rfl)⟩
theorem before_5_B (c : Dev nD) (t : Fin (cfg7 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg7 a).N) (h : t'.val + 1 < (cfg7 a).N) : ((cfg7 a).win 6).flush t' = false := by
  unfold Pipeline.Window.flush
  rw [Bool.and_eq_false_iff]; right
  rw [Bool.or_eq_false_iff]
  have h' : t'.val + 1 < (cfg7 a).grid.N := h
  exact ⟨decide_eq_false (by omega), decide_eq_false (fun ⟨_, hne⟩ => hne rfl)⟩
theorem before_6_B (c : Dev nD) (t : Fin (cfg7 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg7 a).N) : Prog (TpuEff nD τ sig (Elt F) Λ₀ .tc) PUnit :=
  (cc7__pass1_kernel (grid7.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc7_scratch3)

def bodyPre (c : Dev nD) (t : Fin (cfg7 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg7 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg7 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc7_scratch3 c (grid7.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v34_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc7_scratch3 c (grid7.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W7, bigSep_W7]
  exact sound_body V a hp0 hp1 c t

end Cert.Kernel.P1R7

end
-- ==== Proof.B1R7Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.B1R7Dat
import proofs.«400866_j57071525429608_2_alg».proof.Proof.AssembleBits

set_option maxRecDepth 16384

noncomputable section

namespace Cert.Kernel.P1R7

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Asm (Rr L₀ lv₀)
open Cert.Kernel.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid7.Coords), k7_chk1 (tw0 tb0 c i (T0 (adm 7) c))) (hp1 : ∀ c (i : grid7.Coords), k7_chk2 (tw1 tb1 c i (T1 (adm 7) c)))

/-- The unscoped buffers the body moves itself or reads as tables: no window's array. -/
def H : Finset (Ref sig .tc) := {main_arg0, main_v32, main_v33, main_v34_0}
theorem H_sub : H ⊆ Pipeline.restRefs sig spec7 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v32) ∗ pt c tb1 (W main_v33) ∗ pt c hM (W main_v34_0)) := by
  rw [BI.bigSep_eq_bigSepL_of_eq [main_arg0, main_v32, main_v33, main_v34_0] (by decide) (by decide)]; rfl

/-- The two tables held, listed. -/
theorem pref_eq (c : Dev nD) (T : (pcfgs (F := F) 7).pre.Contents (Elt F)) :
    (Pipeline.prefHeld (Ix := Unit) (Name := ℕ) (U := Pipeline.UD sig nD τ) (Lvl := ℕ) (pcfgs (F := F) 7).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 7) hp0 hp1 c (cfg7 (adm 7)).N le_rfl

/-- The entry valuation with the hidden array at its final contents: what the unscoped rest is at the exit. -/
def Vmid (c : Dev nD) : (b : Ref sig .tc) → Buf (Elt F) ((c : Thread nD τ).loc b) :=
  Function.update (Vin Win c) main_v34_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec7 c W : sProp 𝕄)
      = iprop((bigSep H fun b => ((c : Thread nD τ).loc b) ↦{fullShare} W b) ∗ (bigSep (Pipeline.restRefs sig spec7 \ H) fun b => ((c : Thread nD τ).loc b) ↦{fullShare} W b)) := by
  unfold Pipeline.unscopedRest; exact BI.bigSep_sdiff_split H_sub

set_option maxHeartbeats 4000000 in
def reg (hpd : ∀ c, pdats 7 c = dat (Vin Win) (adm 7) hp0 hp1 c)
    (hT0 : ∀ c, Vin Win c main_v32 = T0 (adm 7) c) (hT1 : ∀ c, Vin Win c main_v33 = T1 (adm 7) c)
    (hF : ∀ c w, (dat (Vin Win) (adm 7) hp0 hp1 c).arrAt w (cfg7 (adm 7)).N = Vout Wout c (Pipeline.arrRef spec7 w))
    (hrest : ∀ c b, b ∉ Finset.univ.image (Pipeline.arrRef spec7) → Vout Wout c b = Vmid adm Win hp0 hp1 c b) :
    Pipeline.RegionSeg (pcfgs (F := F)) adm pdats () defs₀ Variants.none L₀ lv₀ 7 where
  win := winFacts7.to₀
  block_pos := block_pos7
  stage_whole := stage_whole7
  K := Fin 3
  osem := osem
  ho := ownSemFacts
  hbody c := by rw [hpd c]; exact (body_obligation (Vin Win) (adm 7) hp0 hp1 c).loose
  hwaits := Pipeline.hwaits_of_owed_zero _ _ _ _ L₀ lv₀ 7 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v34_0))
  Y c := iprop((∃ r, prngReg c r) ∗ pt c tb0 (T0 (adm 7) c) ∗ pt c tb1 (T1 (adm 7) c) ∗ pt c xM (Vin Win c main_arg0) ∗ pt c hM (hEnd adm Win hp0 hp1 c))
  Z c := bigSep (Pipeline.restRefs sig spec7 \ H) fun b => ((c : Thread nD τ).loc b) ↦{fullShare} Vin Win c b
  hentry c := by
    have hsplit : (StableHlo.held (c : Thread nD τ) (Pipeline.ucRefs τ sig) (Win c) : sProp 𝕄)
        ⊢ iprop((pdats 7 c).arrays ((pdats 7 c).arrAt · 0) ∗ Pipeline.unscopedRest (Ix := Unit) (Name := ℕ) (U := Pipeline.UD sig nD τ) (Lvl := ℕ) spec7 c (Vin Win c)) := by
      have h := Pipeline.arrays_of_unscopedBufs (p := 7) (pcfgs (F := F)) adm pdats winFacts7 arr_whole7 c
        (by rw [hpd c]; exact (dat (Vin Win) (adm 7) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 7 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 7) hp0 hp1 c 0 (Nat.zero_le _)
    unfold Φ1
    rw [pref_eq, show hAt (Vin Win) (adm 7) hp0 hp1 c 0 (Nat.zero_le _) = Vin Win c main_v34_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 7) hp0 hp1 c (cfg7 (adm 7)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 7 c).arrays ((pdats 7 c).arrAt · (cfg7 (adm 7)).N) ∗ Pipeline.unscopedRest (Ix := Unit) (Name := ℕ) (U := Pipeline.UD sig nD τ) (Lvl := ℕ) spec7 c (Vmid adm Win hp0 hp1 c))
        ⊢ (StableHlo.held (c : Thread nD τ) (Pipeline.ucRefs τ sig) (Wout c) : sProp 𝕄) := by
      have h := Pipeline.unscopedBufs_of_arrays (p := 7) (pcfgs (F := F)) adm (Ix := Unit) (Name := ℕ) (U := Pipeline.UD sig nD τ) (Lvl := ℕ)
        winFacts7 arr_whole7 c pdats (by rw [hpd c]; exact (dat (Vin Win) (adm 7) hp0 hp1 c).share_full fun _ => rfl)
        (Vmid adm Win hp0 hp1 c) (Vout Wout c) ((pdats 7 c).arrAt · (cfg7 (adm 7)).N) (by rw [hpd c]; exact hF c) (hrest c)
      rw [Pipeline.unscopedBufs_held] at h; exact h
    rw [rest_split, Hpts_eq] at hjoin
    have hZ : (bigSep (Pipeline.restRefs sig spec7 \ H) fun b => ((c : Thread nD τ).loc b) ↦{fullShare} Vin Win c b : sProp 𝕄)
        = (bigSep (Pipeline.restRefs sig spec7 \ H) fun b => ((c : Thread nD τ).loc b) ↦{fullShare} Vmid adm Win hp0 hp1 c b) :=
      bigSep_congr fun b hb => by
        have hne : b ≠ main_v34_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v32 = Vin Win c main_v32 := by unfold Vmid; exact Function.update_of_ne (by decide) _ _
    have e2 : Vmid adm Win hp0 hp1 c main_v33 = Vin Win c main_v33 := by unfold Vmid; exact Function.update_of_ne (by decide) _ _
    have e3 : Vmid adm Win hp0 hp1 c main_v34_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 7 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.Kernel.P1R7

end
-- ==== Proof.B1R8Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.B1Body
import proofs.«400866_j57071525429608_2_alg».proof.Proof.B1State
import proofs.«400866_j57071525429608_2_alg».proof.Proof.B1Kern

set_option maxRecDepth 100000

noncomputable section

namespace Cert.Kernel.P1R8

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc8__pass1_kernel (F := F) = P1.kern := rfl

-- The buffer contents when the region is entered, and the admissible index tables.
variable (V : (c : Dev nD) → (b : Ref sig .tc) → Buf (Elt F) ((c : Thread nD τ).loc b))
variable (a : (pcfg8 (F := F)).Adm)

/-- The two index tables, the node-feature array and the hidden array, as the body is handed them. -/
abbrev tb0 : Memref sig .tc .smem S62500 .i32 := Memref.whole main_v35
abbrev tb1 : Memref sig .tc .smem S62500 .i32 := Memref.whole main_v36
abbrev xM : Memref sig .tc .hbm S100000x128 .f32 := Memref.whole main_arg0
abbrev hM : Memref sig .tc .hbm S62500x64 .f32 := Memref.whole main_v37_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid8.Coords), k8_chk1 (tw0 tb0 c i (T0 a c))) (hp1 : ∀ c (i : grid8.Coords), k8_chk2 (tw1 tb1 c i (T1 a c)))

/-- Window `w`'s block at point `t`, read off its array as the region finds it. -/
def iblk (c : Dev nD) (w : Fin (cfg8 a).W) (t : Fin (cfg8 a).N) : (((cfg8 a).win w).xblock ((cfg8 a).grid.coords t)).Idx → Elt F ((cfg8 a).win w).elt :=
  (((cfg8 a).win w).blk t).view.read (Elt F) (V c (Pipeline.arrRef spec8 w))

/-- Each window's current staging memref at point `t`, as the pipeline passes it to the body. -/
abbrev ms0 (t : Fin (cfg8 a).N) : Memref sig .tc .vmem S64x128 .f32 := spec8_0.stage ((cfg8 a).slots t 0)
abbrev hs0 (t : Fin (cfg8 a).N) : (ms0 a t).IsWhole := hstage8_0 (((cfg8 a).slots t 0).cast nbuf8_0)
abbrev ms1 (t : Fin (cfg8 a).N) : Memref sig .tc .vmem S64x128 .f32 := spec8_1.stage ((cfg8 a).slots t 1)
abbrev hs1 (t : Fin (cfg8 a).N) : (ms1 a t).IsWhole := hstage8_1 (((cfg8 a).slots t 1).cast nbuf8_1)
abbrev ms2 (t : Fin (cfg8 a).N) : Memref sig .tc .vmem S1x64 .f32 := spec8_2.stage ((cfg8 a).slots t 2)
abbrev hs2 (t : Fin (cfg8 a).N) : (ms2 a t).IsWhole := hstage8_2 (((cfg8 a).slots t 2).cast nbuf8_2)
abbrev ms3 (t : Fin (cfg8 a).N) : Memref sig .tc .vmem S64x64 .f32 := spec8_3.stage ((cfg8 a).slots t 3)
abbrev hs3 (t : Fin (cfg8 a).N) : (ms3 a t).IsWhole := hstage8_3 (((cfg8 a).slots t 3).cast nbuf8_3)
abbrev ms4 (t : Fin (cfg8 a).N) : Memref sig .tc .vmem S1x64 .f32 := spec8_4.stage ((cfg8 a).slots t 4)
abbrev hs4 (t : Fin (cfg8 a).N) : (ms4 a t).IsWhole := hstage8_4 (((cfg8 a).slots t 4).cast nbuf8_4)
abbrev ms5 (t : Fin (cfg8 a).N) : Memref sig .tc .vmem S1x64 .f32 := spec8_5.stage ((cfg8 a).slots t 5)
abbrev hs5 (t : Fin (cfg8 a).N) : (ms5 a t).IsWhole := hstage8_5 (((cfg8 a).slots t 5).cast nbuf8_5)
abbrev ms6 (t : Fin (cfg8 a).N) : Memref sig .tc .vmem S1x64 .f32 := spec8_6.stage ((cfg8 a).slots t 6)
abbrev hs6 (t : Fin (cfg8 a).N) : (ms6 a t).IsWhole := hstage8_6 (((cfg8 a).slots t 6).cast nbuf8_6)
/-- The three scratch buffers (the two gathered rows and the hidden row). -/
abbrev sc0 : Memref sig .tc .vmem S1x128 .f32 := Memref.whole cc8_scratch0
abbrev sc1 : Memref sig .tc .vmem S1x128 .f32 := Memref.whole cc8_scratch1
abbrev sc2 : Memref sig .tc .vmem S1x64 .f32 := Memref.whole cc8_scratch2

/-- The body's own three copy semaphores. -/
abbrev osem : Fin 3 → SemLoc sig := fun j => (![SemLoc.dma 87, SemLoc.dma 88, SemLoc.dma 89] : Fin 3 → SemLoc sig) j
theorem ownSemFacts : Pipeline.OwnSemFacts spec8 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc8_scratch3 0) 0 ∗ semVal ((c : Thread nD τ), semAt cc8_scratch3 1) 0 ∗ semVal ((c : Thread nD τ), semAt cc8_scratch3 2) 0) := by
  rw [Pipeline.ownSems0_eq_of_list c osem [0, 1, 2] (by decide) (by decide)]; rfl

/-- The grid point's coordinate. -/
abbrev crd (t : Fin (cfg8 a).N) : grid8.Coords := grid8.coords t

/-- The grid is one axis of 62500 points: the coordinate of point `t` is `t`. -/
theorem coord_val (t : Fin (cfg8 a).N) : ((crd a t) 0).val = t.val := by
  have hN : t.val < 62500 := lt_of_lt_of_eq t.isLt N_8
  show t.val / grid8.stride 0 % grid8.bound 0 = t.val
  rw [show grid8.stride 0 = 1 from by decide, Nat.div_one]
  exact Nat.mod_eq_of_lt hN

/-- The branch is taken at the first point and at no other. -/
theorem hcond (t : Fin (cfg8 a).N) : cond0_0 (grid8.coords t) ↔ t.val = 0 := by
  have hN : t.val < 62500 := lt_of_lt_of_eq t.isLt N_8
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg8 a).N) : St (F := F) c :=
  P1.stG tb0 tb1 xM hM c (cfg8 a).N (crd a) (fun t => iblk V a c 0 t) (fun t => iblk V a c 1 t) (fun t => iblk V a c 2 t) (fun t => iblk V a c 3 t) (fun t => iblk V a c 4 t) (T0 a c) (T1 a c) (V c main_arg0) (V c main_v37_0) (fun t => hp0 c (crd a t)) (fun t => hp1 c (crd a t)) n hn

/-- The hidden array before point `n` (after `n` points). -/
def hAt (c : Dev nD) (n : ℕ) (hn : n ≤ (cfg8 a).N) : Bf (F := F) c hM :=
  P1.hG tb0 tb1 xM hM c (cfg8 a).N (crd a) (fun t => iblk V a c 0 t) (fun t => iblk V a c 1 t) (fun t => iblk V a c 2 t) (fun t => iblk V a c 3 t) (fun t => iblk V a c 4 t) (T0 a c) (T1 a c) (V c main_arg0) (V c main_v37_0) (fun t => hp0 c (crd a t)) (fun t => hp1 c (crd a t)) n hn

theorem stAt_zero (c : Dev nD) (t : Fin (cfg8 a).N) (h0 : t.val = 0) :
    stAt V a hp0 hp1 c t.val t.isLt
      = (P1.sumStep tb0 tb1 xM c (cfg8 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k8_pay1 (F := F)), P1.sqStep tb0 tb1 xM c (cfg8 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k8_pay2 (F := F)),
          hNext hM c (crd a t) (V c main_v37_0) (P1.rowStep tb0 tb1 xM c (cfg8 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg8 a).N) (h0 : ¬t.val = 0) :
    stAt V a hp0 hp1 c t.val t.isLt
      = (P1.sumStep tb0 tb1 xM c (cfg8 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg8 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg8 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg8 a).N) (h0 : t.val = 0) (hn) : hAt V a hp0 hp1 c t.val hn = V c main_v37_0 := by
  obtain ⟨n, hlt⟩ := t
  cases n with
  | zero => rfl
  | succ n => exact absurd h0 (Nat.succ_ne_zero n)
theorem hAt_pos (c : Dev nD) (t : Fin (cfg8 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg8 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg8 a).N) : sProp 𝕄 :=
  iprop(Pipeline.scopedRest (Ix := Unit) (Name := ℕ) (U := Pipeline.UD sig nD τ) (Lvl := ℕ) (Val := Elt F) spec8 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg8 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec8 c [cc8_scratch0, cc8_scratch1, cc8_scratch2])
          ∗ (∃ r, prngReg c r)
          ∗ iprop(semVal ((c : Thread nD τ), semAt cc8_scratch3 0) 0 ∗ semVal ((c : Thread nD τ), semAt cc8_scratch3 1) 0 ∗ semVal ((c : Thread nD τ), semAt cc8_scratch3 2) 0)
          ∗ pt c tb0 (T0 a c) ∗ pt c tb1 (T1 a c) ∗ pt c xM (V c main_arg0) ∗ pt c hM (hAt V a hp0 hp1 c n hn)) := by
  unfold Φ1; rw [scopedRest8_split, ownSems0_eq]; simp only [sc0, sc1, sc2, owns_whole]; try rfl

def dat (c : Dev nD) : Dat τ (Elt F) Unit ℕ (Pipeline.UD sig nD τ) ℕ (cfg8 a) c where
  A w := V c (Pipeline.arrRef spec8 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg8 a).W) : (dat V a hp0 hp1 c).A w = V c (Pipeline.arrRef spec8 w) := by
  dsimp only [dat]
theorem after_0 (c : Dev nD) (t : Fin (cfg8 a).N) : (dat V a hp0 hp1 c).after 0 t = iblk V a c 0 t := by dsimp only [dat]; rfl
theorem after_1 (c : Dev nD) (t : Fin (cfg8 a).N) : (dat V a hp0 hp1 c).after 1 t = iblk V a c 1 t := by dsimp only [dat]; rfl
theorem after_2 (c : Dev nD) (t : Fin (cfg8 a).N) : (dat V a hp0 hp1 c).after 2 t = iblk V a c 2 t := by dsimp only [dat]; rfl
theorem after_3 (c : Dev nD) (t : Fin (cfg8 a).N) : (dat V a hp0 hp1 c).after 3 t = iblk V a c 3 t := by dsimp only [dat]; rfl
theorem after_4 (c : Dev nD) (t : Fin (cfg8 a).N) : (dat V a hp0 hp1 c).after 4 t = iblk V a c 4 t := by dsimp only [dat]; rfl
theorem after_5 (c : Dev nD) (t : Fin (cfg8 a).N) : (dat V a hp0 hp1 c).after 5 t = (stAt V a hp0 hp1 c t.val t.isLt).1 := by dsimp only [dat]; rfl
theorem after_6 (c : Dev nD) (t : Fin (cfg8 a).N) : (dat V a hp0 hp1 c).after 6 t = (stAt V a hp0 hp1 c t.val t.isLt).2.1 := by dsimp only [dat]; rfl
theorem before_0 (c : Dev nD) (t : Fin (cfg8 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg8 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg8 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg8 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg8 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg8 a).N) (h : t'.val + 1 < (cfg8 a).N) : ((cfg8 a).win 5).flush t' = false := by
  unfold Pipeline.Window.flush
  rw [Bool.and_eq_false_iff]; right
  rw [Bool.or_eq_false_iff]
  have h' : t'.val + 1 < (cfg8 a).grid.N := h
  exact ⟨decide_eq_false (by omega), decide_eq_false (fun ⟨_, hne⟩ => hne rfl)⟩
theorem before_5_B (c : Dev nD) (t : Fin (cfg8 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg8 a).N) (h : t'.val + 1 < (cfg8 a).N) : ((cfg8 a).win 6).flush t' = false := by
  unfold Pipeline.Window.flush
  rw [Bool.and_eq_false_iff]; right
  rw [Bool.or_eq_false_iff]
  have h' : t'.val + 1 < (cfg8 a).grid.N := h
  exact ⟨decide_eq_false (by omega), decide_eq_false (fun ⟨_, hne⟩ => hne rfl)⟩
theorem before_6_B (c : Dev nD) (t : Fin (cfg8 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg8 a).N) : Prog (TpuEff nD τ sig (Elt F) Λ₀ .tc) PUnit :=
  (cc8__pass1_kernel (grid8.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc8_scratch3)

def bodyPre (c : Dev nD) (t : Fin (cfg8 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg8 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg8 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc8_scratch3 c (grid8.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v37_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc8_scratch3 c (grid8.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W8, bigSep_W8]
  exact sound_body V a hp0 hp1 c t

end Cert.Kernel.P1R8

end
-- ==== Proof.B1R8Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.B1R8Dat
import proofs.«400866_j57071525429608_2_alg».proof.Proof.AssembleBits

set_option maxRecDepth 16384

noncomputable section

namespace Cert.Kernel.P1R8

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Asm (Rr L₀ lv₀)
open Cert.Kernel.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid8.Coords), k8_chk1 (tw0 tb0 c i (T0 (adm 8) c))) (hp1 : ∀ c (i : grid8.Coords), k8_chk2 (tw1 tb1 c i (T1 (adm 8) c)))

/-- The unscoped buffers the body moves itself or reads as tables: no window's array. -/
def H : Finset (Ref sig .tc) := {main_arg0, main_v35, main_v36, main_v37_0}
theorem H_sub : H ⊆ Pipeline.restRefs sig spec8 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v35) ∗ pt c tb1 (W main_v36) ∗ pt c hM (W main_v37_0)) := by
  rw [BI.bigSep_eq_bigSepL_of_eq [main_arg0, main_v35, main_v36, main_v37_0] (by decide) (by decide)]; rfl

/-- The two tables held, listed. -/
theorem pref_eq (c : Dev nD) (T : (pcfgs (F := F) 8).pre.Contents (Elt F)) :
    (Pipeline.prefHeld (Ix := Unit) (Name := ℕ) (U := Pipeline.UD sig nD τ) (Lvl := ℕ) (pcfgs (F := F) 8).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 8) hp0 hp1 c (cfg8 (adm 8)).N le_rfl

/-- The entry valuation with the hidden array at its final contents: what the unscoped rest is at the exit. -/
def Vmid (c : Dev nD) : (b : Ref sig .tc) → Buf (Elt F) ((c : Thread nD τ).loc b) :=
  Function.update (Vin Win c) main_v37_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec8 c W : sProp 𝕄)
      = iprop((bigSep H fun b => ((c : Thread nD τ).loc b) ↦{fullShare} W b) ∗ (bigSep (Pipeline.restRefs sig spec8 \ H) fun b => ((c : Thread nD τ).loc b) ↦{fullShare} W b)) := by
  unfold Pipeline.unscopedRest; exact BI.bigSep_sdiff_split H_sub

set_option maxHeartbeats 4000000 in
def reg (hpd : ∀ c, pdats 8 c = dat (Vin Win) (adm 8) hp0 hp1 c)
    (hT0 : ∀ c, Vin Win c main_v35 = T0 (adm 8) c) (hT1 : ∀ c, Vin Win c main_v36 = T1 (adm 8) c)
    (hF : ∀ c w, (dat (Vin Win) (adm 8) hp0 hp1 c).arrAt w (cfg8 (adm 8)).N = Vout Wout c (Pipeline.arrRef spec8 w))
    (hrest : ∀ c b, b ∉ Finset.univ.image (Pipeline.arrRef spec8) → Vout Wout c b = Vmid adm Win hp0 hp1 c b) :
    Pipeline.RegionSeg (pcfgs (F := F)) adm pdats () defs₀ Variants.none L₀ lv₀ 8 where
  win := winFacts8.to₀
  block_pos := block_pos8
  stage_whole := stage_whole8
  K := Fin 3
  osem := osem
  ho := ownSemFacts
  hbody c := by rw [hpd c]; exact (body_obligation (Vin Win) (adm 8) hp0 hp1 c).loose
  hwaits := Pipeline.hwaits_of_owed_zero _ _ _ _ L₀ lv₀ 8 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v37_0))
  Y c := iprop((∃ r, prngReg c r) ∗ pt c tb0 (T0 (adm 8) c) ∗ pt c tb1 (T1 (adm 8) c) ∗ pt c xM (Vin Win c main_arg0) ∗ pt c hM (hEnd adm Win hp0 hp1 c))
  Z c := bigSep (Pipeline.restRefs sig spec8 \ H) fun b => ((c : Thread nD τ).loc b) ↦{fullShare} Vin Win c b
  hentry c := by
    have hsplit : (StableHlo.held (c : Thread nD τ) (Pipeline.ucRefs τ sig) (Win c) : sProp 𝕄)
        ⊢ iprop((pdats 8 c).arrays ((pdats 8 c).arrAt · 0) ∗ Pipeline.unscopedRest (Ix := Unit) (Name := ℕ) (U := Pipeline.UD sig nD τ) (Lvl := ℕ) spec8 c (Vin Win c)) := by
      have h := Pipeline.arrays_of_unscopedBufs (p := 8) (pcfgs (F := F)) adm pdats winFacts8 arr_whole8 c
        (by rw [hpd c]; exact (dat (Vin Win) (adm 8) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 8 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 8) hp0 hp1 c 0 (Nat.zero_le _)
    unfold Φ1
    rw [pref_eq, show hAt (Vin Win) (adm 8) hp0 hp1 c 0 (Nat.zero_le _) = Vin Win c main_v37_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 8) hp0 hp1 c (cfg8 (adm 8)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 8 c).arrays ((pdats 8 c).arrAt · (cfg8 (adm 8)).N) ∗ Pipeline.unscopedRest (Ix := Unit) (Name := ℕ) (U := Pipeline.UD sig nD τ) (Lvl := ℕ) spec8 c (Vmid adm Win hp0 hp1 c))
        ⊢ (StableHlo.held (c : Thread nD τ) (Pipeline.ucRefs τ sig) (Wout c) : sProp 𝕄) := by
      have h := Pipeline.unscopedBufs_of_arrays (p := 8) (pcfgs (F := F)) adm (Ix := Unit) (Name := ℕ) (U := Pipeline.UD sig nD τ) (Lvl := ℕ)
        winFacts8 arr_whole8 c pdats (by rw [hpd c]; exact (dat (Vin Win) (adm 8) hp0 hp1 c).share_full fun _ => rfl)
        (Vmid adm Win hp0 hp1 c) (Vout Wout c) ((pdats 8 c).arrAt · (cfg8 (adm 8)).N) (by rw [hpd c]; exact hF c) (hrest c)
      rw [Pipeline.unscopedBufs_held] at h; exact h
    rw [rest_split, Hpts_eq] at hjoin
    have hZ : (bigSep (Pipeline.restRefs sig spec8 \ H) fun b => ((c : Thread nD τ).loc b) ↦{fullShare} Vin Win c b : sProp 𝕄)
        = (bigSep (Pipeline.restRefs sig spec8 \ H) fun b => ((c : Thread nD τ).loc b) ↦{fullShare} Vmid adm Win hp0 hp1 c b) :=
      bigSep_congr fun b hb => by
        have hne : b ≠ main_v37_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v35 = Vin Win c main_v35 := by unfold Vmid; exact Function.update_of_ne (by decide) _ _
    have e2 : Vmid adm Win hp0 hp1 c main_v36 = Vin Win c main_v36 := by unfold Vmid; exact Function.update_of_ne (by decide) _ _
    have e3 : Vmid adm Win hp0 hp1 c main_v37_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 8 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.Kernel.P1R8

end
-- ==== Proof.B1R9Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.B1Body
import proofs.«400866_j57071525429608_2_alg».proof.Proof.B1State
import proofs.«400866_j57071525429608_2_alg».proof.Proof.B1Kern

set_option maxRecDepth 100000

noncomputable section

namespace Cert.Kernel.P1R9

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc9__pass1_kernel (F := F) = P1.kern := rfl

-- The buffer contents when the region is entered, and the admissible index tables.
variable (V : (c : Dev nD) → (b : Ref sig .tc) → Buf (Elt F) ((c : Thread nD τ).loc b))
variable (a : (pcfg9 (F := F)).Adm)

/-- The two index tables, the node-feature array and the hidden array, as the body is handed them. -/
abbrev tb0 : Memref sig .tc .smem S62500 .i32 := Memref.whole main_v38
abbrev tb1 : Memref sig .tc .smem S62500 .i32 := Memref.whole main_v39
abbrev xM : Memref sig .tc .hbm S100000x128 .f32 := Memref.whole main_arg0
abbrev hM : Memref sig .tc .hbm S62500x64 .f32 := Memref.whole main_v40_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid9.Coords), k9_chk1 (tw0 tb0 c i (T0 a c))) (hp1 : ∀ c (i : grid9.Coords), k9_chk2 (tw1 tb1 c i (T1 a c)))

/-- Window `w`'s block at point `t`, read off its array as the region finds it. -/
def iblk (c : Dev nD) (w : Fin (cfg9 a).W) (t : Fin (cfg9 a).N) : (((cfg9 a).win w).xblock ((cfg9 a).grid.coords t)).Idx → Elt F ((cfg9 a).win w).elt :=
  (((cfg9 a).win w).blk t).view.read (Elt F) (V c (Pipeline.arrRef spec9 w))

/-- Each window's current staging memref at point `t`, as the pipeline passes it to the body. -/
abbrev ms0 (t : Fin (cfg9 a).N) : Memref sig .tc .vmem S64x128 .f32 := spec9_0.stage ((cfg9 a).slots t 0)
abbrev hs0 (t : Fin (cfg9 a).N) : (ms0 a t).IsWhole := hstage9_0 (((cfg9 a).slots t 0).cast nbuf9_0)
abbrev ms1 (t : Fin (cfg9 a).N) : Memref sig .tc .vmem S64x128 .f32 := spec9_1.stage ((cfg9 a).slots t 1)
abbrev hs1 (t : Fin (cfg9 a).N) : (ms1 a t).IsWhole := hstage9_1 (((cfg9 a).slots t 1).cast nbuf9_1)
abbrev ms2 (t : Fin (cfg9 a).N) : Memref sig .tc .vmem S1x64 .f32 := spec9_2.stage ((cfg9 a).slots t 2)
abbrev hs2 (t : Fin (cfg9 a).N) : (ms2 a t).IsWhole := hstage9_2 (((cfg9 a).slots t 2).cast nbuf9_2)
abbrev ms3 (t : Fin (cfg9 a).N) : Memref sig .tc .vmem S64x64 .f32 := spec9_3.stage ((cfg9 a).slots t 3)
abbrev hs3 (t : Fin (cfg9 a).N) : (ms3 a t).IsWhole := hstage9_3 (((cfg9 a).slots t 3).cast nbuf9_3)
abbrev ms4 (t : Fin (cfg9 a).N) : Memref sig .tc .vmem S1x64 .f32 := spec9_4.stage ((cfg9 a).slots t 4)
abbrev hs4 (t : Fin (cfg9 a).N) : (ms4 a t).IsWhole := hstage9_4 (((cfg9 a).slots t 4).cast nbuf9_4)
abbrev ms5 (t : Fin (cfg9 a).N) : Memref sig .tc .vmem S1x64 .f32 := spec9_5.stage ((cfg9 a).slots t 5)
abbrev hs5 (t : Fin (cfg9 a).N) : (ms5 a t).IsWhole := hstage9_5 (((cfg9 a).slots t 5).cast nbuf9_5)
abbrev ms6 (t : Fin (cfg9 a).N) : Memref sig .tc .vmem S1x64 .f32 := spec9_6.stage ((cfg9 a).slots t 6)
abbrev hs6 (t : Fin (cfg9 a).N) : (ms6 a t).IsWhole := hstage9_6 (((cfg9 a).slots t 6).cast nbuf9_6)
/-- The three scratch buffers (the two gathered rows and the hidden row). -/
abbrev sc0 : Memref sig .tc .vmem S1x128 .f32 := Memref.whole cc9_scratch0
abbrev sc1 : Memref sig .tc .vmem S1x128 .f32 := Memref.whole cc9_scratch1
abbrev sc2 : Memref sig .tc .vmem S1x64 .f32 := Memref.whole cc9_scratch2

/-- The body's own three copy semaphores. -/
abbrev osem : Fin 3 → SemLoc sig := fun j => (![SemLoc.dma 97, SemLoc.dma 98, SemLoc.dma 99] : Fin 3 → SemLoc sig) j
theorem ownSemFacts : Pipeline.OwnSemFacts spec9 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc9_scratch3 0) 0 ∗ semVal ((c : Thread nD τ), semAt cc9_scratch3 1) 0 ∗ semVal ((c : Thread nD τ), semAt cc9_scratch3 2) 0) := by
  rw [Pipeline.ownSems0_eq_of_list c osem [0, 1, 2] (by decide) (by decide)]; rfl

/-- The grid point's coordinate. -/
abbrev crd (t : Fin (cfg9 a).N) : grid9.Coords := grid9.coords t

/-- The grid is one axis of 62500 points: the coordinate of point `t` is `t`. -/
theorem coord_val (t : Fin (cfg9 a).N) : ((crd a t) 0).val = t.val := by
  have hN : t.val < 62500 := lt_of_lt_of_eq t.isLt N_9
  show t.val / grid9.stride 0 % grid9.bound 0 = t.val
  rw [show grid9.stride 0 = 1 from by decide, Nat.div_one]
  exact Nat.mod_eq_of_lt hN

/-- The branch is taken at the first point and at no other. -/
theorem hcond (t : Fin (cfg9 a).N) : cond0_0 (grid9.coords t) ↔ t.val = 0 := by
  have hN : t.val < 62500 := lt_of_lt_of_eq t.isLt N_9
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg9 a).N) : St (F := F) c :=
  P1.stG tb0 tb1 xM hM c (cfg9 a).N (crd a) (fun t => iblk V a c 0 t) (fun t => iblk V a c 1 t) (fun t => iblk V a c 2 t) (fun t => iblk V a c 3 t) (fun t => iblk V a c 4 t) (T0 a c) (T1 a c) (V c main_arg0) (V c main_v40_0) (fun t => hp0 c (crd a t)) (fun t => hp1 c (crd a t)) n hn

/-- The hidden array before point `n` (after `n` points). -/
def hAt (c : Dev nD) (n : ℕ) (hn : n ≤ (cfg9 a).N) : Bf (F := F) c hM :=
  P1.hG tb0 tb1 xM hM c (cfg9 a).N (crd a) (fun t => iblk V a c 0 t) (fun t => iblk V a c 1 t) (fun t => iblk V a c 2 t) (fun t => iblk V a c 3 t) (fun t => iblk V a c 4 t) (T0 a c) (T1 a c) (V c main_arg0) (V c main_v40_0) (fun t => hp0 c (crd a t)) (fun t => hp1 c (crd a t)) n hn

theorem stAt_zero (c : Dev nD) (t : Fin (cfg9 a).N) (h0 : t.val = 0) :
    stAt V a hp0 hp1 c t.val t.isLt
      = (P1.sumStep tb0 tb1 xM c (cfg9 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k9_pay1 (F := F)), P1.sqStep tb0 tb1 xM c (cfg9 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k9_pay2 (F := F)),
          hNext hM c (crd a t) (V c main_v40_0) (P1.rowStep tb0 tb1 xM c (cfg9 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg9 a).N) (h0 : ¬t.val = 0) :
    stAt V a hp0 hp1 c t.val t.isLt
      = (P1.sumStep tb0 tb1 xM c (cfg9 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg9 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg9 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg9 a).N) (h0 : t.val = 0) (hn) : hAt V a hp0 hp1 c t.val hn = V c main_v40_0 := by
  obtain ⟨n, hlt⟩ := t
  cases n with
  | zero => rfl
  | succ n => exact absurd h0 (Nat.succ_ne_zero n)
theorem hAt_pos (c : Dev nD) (t : Fin (cfg9 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg9 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg9 a).N) : sProp 𝕄 :=
  iprop(Pipeline.scopedRest (Ix := Unit) (Name := ℕ) (U := Pipeline.UD sig nD τ) (Lvl := ℕ) (Val := Elt F) spec9 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg9 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec9 c [cc9_scratch0, cc9_scratch1, cc9_scratch2])
          ∗ (∃ r, prngReg c r)
          ∗ iprop(semVal ((c : Thread nD τ), semAt cc9_scratch3 0) 0 ∗ semVal ((c : Thread nD τ), semAt cc9_scratch3 1) 0 ∗ semVal ((c : Thread nD τ), semAt cc9_scratch3 2) 0)
          ∗ pt c tb0 (T0 a c) ∗ pt c tb1 (T1 a c) ∗ pt c xM (V c main_arg0) ∗ pt c hM (hAt V a hp0 hp1 c n hn)) := by
  unfold Φ1; rw [scopedRest9_split, ownSems0_eq]; simp only [sc0, sc1, sc2, owns_whole]; try rfl

def dat (c : Dev nD) : Dat τ (Elt F) Unit ℕ (Pipeline.UD sig nD τ) ℕ (cfg9 a) c where
  A w := V c (Pipeline.arrRef spec9 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg9 a).W) : (dat V a hp0 hp1 c).A w = V c (Pipeline.arrRef spec9 w) := by
  dsimp only [dat]
theorem after_0 (c : Dev nD) (t : Fin (cfg9 a).N) : (dat V a hp0 hp1 c).after 0 t = iblk V a c 0 t := by dsimp only [dat]; rfl
theorem after_1 (c : Dev nD) (t : Fin (cfg9 a).N) : (dat V a hp0 hp1 c).after 1 t = iblk V a c 1 t := by dsimp only [dat]; rfl
theorem after_2 (c : Dev nD) (t : Fin (cfg9 a).N) : (dat V a hp0 hp1 c).after 2 t = iblk V a c 2 t := by dsimp only [dat]; rfl
theorem after_3 (c : Dev nD) (t : Fin (cfg9 a).N) : (dat V a hp0 hp1 c).after 3 t = iblk V a c 3 t := by dsimp only [dat]; rfl
theorem after_4 (c : Dev nD) (t : Fin (cfg9 a).N) : (dat V a hp0 hp1 c).after 4 t = iblk V a c 4 t := by dsimp only [dat]; rfl
theorem after_5 (c : Dev nD) (t : Fin (cfg9 a).N) : (dat V a hp0 hp1 c).after 5 t = (stAt V a hp0 hp1 c t.val t.isLt).1 := by dsimp only [dat]; rfl
theorem after_6 (c : Dev nD) (t : Fin (cfg9 a).N) : (dat V a hp0 hp1 c).after 6 t = (stAt V a hp0 hp1 c t.val t.isLt).2.1 := by dsimp only [dat]; rfl
theorem before_0 (c : Dev nD) (t : Fin (cfg9 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg9 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg9 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg9 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg9 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg9 a).N) (h : t'.val + 1 < (cfg9 a).N) : ((cfg9 a).win 5).flush t' = false := by
  unfold Pipeline.Window.flush
  rw [Bool.and_eq_false_iff]; right
  rw [Bool.or_eq_false_iff]
  have h' : t'.val + 1 < (cfg9 a).grid.N := h
  exact ⟨decide_eq_false (by omega), decide_eq_false (fun ⟨_, hne⟩ => hne rfl)⟩
theorem before_5_B (c : Dev nD) (t : Fin (cfg9 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg9 a).N) (h : t'.val + 1 < (cfg9 a).N) : ((cfg9 a).win 6).flush t' = false := by
  unfold Pipeline.Window.flush
  rw [Bool.and_eq_false_iff]; right
  rw [Bool.or_eq_false_iff]
  have h' : t'.val + 1 < (cfg9 a).grid.N := h
  exact ⟨decide_eq_false (by omega), decide_eq_false (fun ⟨_, hne⟩ => hne rfl)⟩
theorem before_6_B (c : Dev nD) (t : Fin (cfg9 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg9 a).N) : Prog (TpuEff nD τ sig (Elt F) Λ₀ .tc) PUnit :=
  (cc9__pass1_kernel (grid9.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc9_scratch3)

def bodyPre (c : Dev nD) (t : Fin (cfg9 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg9 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg9 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc9_scratch3 c (grid9.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v40_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc9_scratch3 c (grid9.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W9, bigSep_W9]
  exact sound_body V a hp0 hp1 c t

end Cert.Kernel.P1R9

end
-- ==== Proof.B1R9Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.B1R9Dat
import proofs.«400866_j57071525429608_2_alg».proof.Proof.AssembleBits

set_option maxRecDepth 16384

noncomputable section

namespace Cert.Kernel.P1R9

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Asm (Rr L₀ lv₀)
open Cert.Kernel.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid9.Coords), k9_chk1 (tw0 tb0 c i (T0 (adm 9) c))) (hp1 : ∀ c (i : grid9.Coords), k9_chk2 (tw1 tb1 c i (T1 (adm 9) c)))

/-- The unscoped buffers the body moves itself or reads as tables: no window's array. -/
def H : Finset (Ref sig .tc) := {main_arg0, main_v38, main_v39, main_v40_0}
theorem H_sub : H ⊆ Pipeline.restRefs sig spec9 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v38) ∗ pt c tb1 (W main_v39) ∗ pt c hM (W main_v40_0)) := by
  rw [BI.bigSep_eq_bigSepL_of_eq [main_arg0, main_v38, main_v39, main_v40_0] (by decide) (by decide)]; rfl

/-- The two tables held, listed. -/
theorem pref_eq (c : Dev nD) (T : (pcfgs (F := F) 9).pre.Contents (Elt F)) :
    (Pipeline.prefHeld (Ix := Unit) (Name := ℕ) (U := Pipeline.UD sig nD τ) (Lvl := ℕ) (pcfgs (F := F) 9).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 9) hp0 hp1 c (cfg9 (adm 9)).N le_rfl

/-- The entry valuation with the hidden array at its final contents: what the unscoped rest is at the exit. -/
def Vmid (c : Dev nD) : (b : Ref sig .tc) → Buf (Elt F) ((c : Thread nD τ).loc b) :=
  Function.update (Vin Win c) main_v40_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec9 c W : sProp 𝕄)
      = iprop((bigSep H fun b => ((c : Thread nD τ).loc b) ↦{fullShare} W b) ∗ (bigSep (Pipeline.restRefs sig spec9 \ H) fun b => ((c : Thread nD τ).loc b) ↦{fullShare} W b)) := by
  unfold Pipeline.unscopedRest; exact BI.bigSep_sdiff_split H_sub

set_option maxHeartbeats 4000000 in
def reg (hpd : ∀ c, pdats 9 c = dat (Vin Win) (adm 9) hp0 hp1 c)
    (hT0 : ∀ c, Vin Win c main_v38 = T0 (adm 9) c) (hT1 : ∀ c, Vin Win c main_v39 = T1 (adm 9) c)
    (hF : ∀ c w, (dat (Vin Win) (adm 9) hp0 hp1 c).arrAt w (cfg9 (adm 9)).N = Vout Wout c (Pipeline.arrRef spec9 w))
    (hrest : ∀ c b, b ∉ Finset.univ.image (Pipeline.arrRef spec9) → Vout Wout c b = Vmid adm Win hp0 hp1 c b) :
    Pipeline.RegionSeg (pcfgs (F := F)) adm pdats () defs₀ Variants.none L₀ lv₀ 9 where
  win := winFacts9.to₀
  block_pos := block_pos9
  stage_whole := stage_whole9
  K := Fin 3
  osem := osem
  ho := ownSemFacts
  hbody c := by rw [hpd c]; exact (body_obligation (Vin Win) (adm 9) hp0 hp1 c).loose
  hwaits := Pipeline.hwaits_of_owed_zero _ _ _ _ L₀ lv₀ 9 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v40_0))
  Y c := iprop((∃ r, prngReg c r) ∗ pt c tb0 (T0 (adm 9) c) ∗ pt c tb1 (T1 (adm 9) c) ∗ pt c xM (Vin Win c main_arg0) ∗ pt c hM (hEnd adm Win hp0 hp1 c))
  Z c := bigSep (Pipeline.restRefs sig spec9 \ H) fun b => ((c : Thread nD τ).loc b) ↦{fullShare} Vin Win c b
  hentry c := by
    have hsplit : (StableHlo.held (c : Thread nD τ) (Pipeline.ucRefs τ sig) (Win c) : sProp 𝕄)
        ⊢ iprop((pdats 9 c).arrays ((pdats 9 c).arrAt · 0) ∗ Pipeline.unscopedRest (Ix := Unit) (Name := ℕ) (U := Pipeline.UD sig nD τ) (Lvl := ℕ) spec9 c (Vin Win c)) := by
      have h := Pipeline.arrays_of_unscopedBufs (p := 9) (pcfgs (F := F)) adm pdats winFacts9 arr_whole9 c
        (by rw [hpd c]; exact (dat (Vin Win) (adm 9) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 9 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 9) hp0 hp1 c 0 (Nat.zero_le _)
    unfold Φ1
    rw [pref_eq, show hAt (Vin Win) (adm 9) hp0 hp1 c 0 (Nat.zero_le _) = Vin Win c main_v40_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 9) hp0 hp1 c (cfg9 (adm 9)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 9 c).arrays ((pdats 9 c).arrAt · (cfg9 (adm 9)).N) ∗ Pipeline.unscopedRest (Ix := Unit) (Name := ℕ) (U := Pipeline.UD sig nD τ) (Lvl := ℕ) spec9 c (Vmid adm Win hp0 hp1 c))
        ⊢ (StableHlo.held (c : Thread nD τ) (Pipeline.ucRefs τ sig) (Wout c) : sProp 𝕄) := by
      have h := Pipeline.unscopedBufs_of_arrays (p := 9) (pcfgs (F := F)) adm (Ix := Unit) (Name := ℕ) (U := Pipeline.UD sig nD τ) (Lvl := ℕ)
        winFacts9 arr_whole9 c pdats (by rw [hpd c]; exact (dat (Vin Win) (adm 9) hp0 hp1 c).share_full fun _ => rfl)
        (Vmid adm Win hp0 hp1 c) (Vout Wout c) ((pdats 9 c).arrAt · (cfg9 (adm 9)).N) (by rw [hpd c]; exact hF c) (hrest c)
      rw [Pipeline.unscopedBufs_held] at h; exact h
    rw [rest_split, Hpts_eq] at hjoin
    have hZ : (bigSep (Pipeline.restRefs sig spec9 \ H) fun b => ((c : Thread nD τ).loc b) ↦{fullShare} Vin Win c b : sProp 𝕄)
        = (bigSep (Pipeline.restRefs sig spec9 \ H) fun b => ((c : Thread nD τ).loc b) ↦{fullShare} Vmid adm Win hp0 hp1 c b) :=
      bigSep_congr fun b hb => by
        have hne : b ≠ main_v40_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v38 = Vin Win c main_v38 := by unfold Vmid; exact Function.update_of_ne (by decide) _ _
    have e2 : Vmid adm Win hp0 hp1 c main_v39 = Vin Win c main_v39 := by unfold Vmid; exact Function.update_of_ne (by decide) _ _
    have e3 : Vmid adm Win hp0 hp1 c main_v40_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 9 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.Kernel.P1R9

end
-- ==== Proof.B1R10Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.B1Body
import proofs.«400866_j57071525429608_2_alg».proof.Proof.B1State
import proofs.«400866_j57071525429608_2_alg».proof.Proof.B1Kern

set_option maxRecDepth 100000

noncomputable section

namespace Cert.Kernel.P1R10

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc10__pass1_kernel (F := F) = P1.kern := rfl

-- The buffer contents when the region is entered, and the admissible index tables.
variable (V : (c : Dev nD) → (b : Ref sig .tc) → Buf (Elt F) ((c : Thread nD τ).loc b))
variable (a : (pcfg10 (F := F)).Adm)

/-- The two index tables, the node-feature array and the hidden array, as the body is handed them. -/
abbrev tb0 : Memref sig .tc .smem S62500 .i32 := Memref.whole main_v41
abbrev tb1 : Memref sig .tc .smem S62500 .i32 := Memref.whole main_v42
abbrev xM : Memref sig .tc .hbm S100000x128 .f32 := Memref.whole main_arg0
abbrev hM : Memref sig .tc .hbm S62500x64 .f32 := Memref.whole main_v43_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid10.Coords), k10_chk1 (tw0 tb0 c i (T0 a c))) (hp1 : ∀ c (i : grid10.Coords), k10_chk2 (tw1 tb1 c i (T1 a c)))

/-- Window `w`'s block at point `t`, read off its array as the region finds it. -/
def iblk (c : Dev nD) (w : Fin (cfg10 a).W) (t : Fin (cfg10 a).N) : (((cfg10 a).win w).xblock ((cfg10 a).grid.coords t)).Idx → Elt F ((cfg10 a).win w).elt :=
  (((cfg10 a).win w).blk t).view.read (Elt F) (V c (Pipeline.arrRef spec10 w))

/-- Each window's current staging memref at point `t`, as the pipeline passes it to the body. -/
abbrev ms0 (t : Fin (cfg10 a).N) : Memref sig .tc .vmem S64x128 .f32 := spec10_0.stage ((cfg10 a).slots t 0)
abbrev hs0 (t : Fin (cfg10 a).N) : (ms0 a t).IsWhole := hstage10_0 (((cfg10 a).slots t 0).cast nbuf10_0)
abbrev ms1 (t : Fin (cfg10 a).N) : Memref sig .tc .vmem S64x128 .f32 := spec10_1.stage ((cfg10 a).slots t 1)
abbrev hs1 (t : Fin (cfg10 a).N) : (ms1 a t).IsWhole := hstage10_1 (((cfg10 a).slots t 1).cast nbuf10_1)
abbrev ms2 (t : Fin (cfg10 a).N) : Memref sig .tc .vmem S1x64 .f32 := spec10_2.stage ((cfg10 a).slots t 2)
abbrev hs2 (t : Fin (cfg10 a).N) : (ms2 a t).IsWhole := hstage10_2 (((cfg10 a).slots t 2).cast nbuf10_2)
abbrev ms3 (t : Fin (cfg10 a).N) : Memref sig .tc .vmem S64x64 .f32 := spec10_3.stage ((cfg10 a).slots t 3)
abbrev hs3 (t : Fin (cfg10 a).N) : (ms3 a t).IsWhole := hstage10_3 (((cfg10 a).slots t 3).cast nbuf10_3)
abbrev ms4 (t : Fin (cfg10 a).N) : Memref sig .tc .vmem S1x64 .f32 := spec10_4.stage ((cfg10 a).slots t 4)
abbrev hs4 (t : Fin (cfg10 a).N) : (ms4 a t).IsWhole := hstage10_4 (((cfg10 a).slots t 4).cast nbuf10_4)
abbrev ms5 (t : Fin (cfg10 a).N) : Memref sig .tc .vmem S1x64 .f32 := spec10_5.stage ((cfg10 a).slots t 5)
abbrev hs5 (t : Fin (cfg10 a).N) : (ms5 a t).IsWhole := hstage10_5 (((cfg10 a).slots t 5).cast nbuf10_5)
abbrev ms6 (t : Fin (cfg10 a).N) : Memref sig .tc .vmem S1x64 .f32 := spec10_6.stage ((cfg10 a).slots t 6)
abbrev hs6 (t : Fin (cfg10 a).N) : (ms6 a t).IsWhole := hstage10_6 (((cfg10 a).slots t 6).cast nbuf10_6)
/-- The three scratch buffers (the two gathered rows and the hidden row). -/
abbrev sc0 : Memref sig .tc .vmem S1x128 .f32 := Memref.whole cc10_scratch0
abbrev sc1 : Memref sig .tc .vmem S1x128 .f32 := Memref.whole cc10_scratch1
abbrev sc2 : Memref sig .tc .vmem S1x64 .f32 := Memref.whole cc10_scratch2

/-- The body's own three copy semaphores. -/
abbrev osem : Fin 3 → SemLoc sig := fun j => (![SemLoc.dma 107, SemLoc.dma 108, SemLoc.dma 109] : Fin 3 → SemLoc sig) j
theorem ownSemFacts : Pipeline.OwnSemFacts spec10 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc10_scratch3 0) 0 ∗ semVal ((c : Thread nD τ), semAt cc10_scratch3 1) 0 ∗ semVal ((c : Thread nD τ), semAt cc10_scratch3 2) 0) := by
  rw [Pipeline.ownSems0_eq_of_list c osem [0, 1, 2] (by decide) (by decide)]; rfl

/-- The grid point's coordinate. -/
abbrev crd (t : Fin (cfg10 a).N) : grid10.Coords := grid10.coords t

/-- The grid is one axis of 62500 points: the coordinate of point `t` is `t`. -/
theorem coord_val (t : Fin (cfg10 a).N) : ((crd a t) 0).val = t.val := by
  have hN : t.val < 62500 := lt_of_lt_of_eq t.isLt N_10
  show t.val / grid10.stride 0 % grid10.bound 0 = t.val
  rw [show grid10.stride 0 = 1 from by decide, Nat.div_one]
  exact Nat.mod_eq_of_lt hN

/-- The branch is taken at the first point and at no other. -/
theorem hcond (t : Fin (cfg10 a).N) : cond0_0 (grid10.coords t) ↔ t.val = 0 := by
  have hN : t.val < 62500 := lt_of_lt_of_eq t.isLt N_10
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg10 a).N) : St (F := F) c :=
  P1.stG tb0 tb1 xM hM c (cfg10 a).N (crd a) (fun t => iblk V a c 0 t) (fun t => iblk V a c 1 t) (fun t => iblk V a c 2 t) (fun t => iblk V a c 3 t) (fun t => iblk V a c 4 t) (T0 a c) (T1 a c) (V c main_arg0) (V c main_v43_0) (fun t => hp0 c (crd a t)) (fun t => hp1 c (crd a t)) n hn

/-- The hidden array before point `n` (after `n` points). -/
def hAt (c : Dev nD) (n : ℕ) (hn : n ≤ (cfg10 a).N) : Bf (F := F) c hM :=
  P1.hG tb0 tb1 xM hM c (cfg10 a).N (crd a) (fun t => iblk V a c 0 t) (fun t => iblk V a c 1 t) (fun t => iblk V a c 2 t) (fun t => iblk V a c 3 t) (fun t => iblk V a c 4 t) (T0 a c) (T1 a c) (V c main_arg0) (V c main_v43_0) (fun t => hp0 c (crd a t)) (fun t => hp1 c (crd a t)) n hn

theorem stAt_zero (c : Dev nD) (t : Fin (cfg10 a).N) (h0 : t.val = 0) :
    stAt V a hp0 hp1 c t.val t.isLt
      = (P1.sumStep tb0 tb1 xM c (cfg10 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k10_pay1 (F := F)), P1.sqStep tb0 tb1 xM c (cfg10 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k10_pay2 (F := F)),
          hNext hM c (crd a t) (V c main_v43_0) (P1.rowStep tb0 tb1 xM c (cfg10 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg10 a).N) (h0 : ¬t.val = 0) :
    stAt V a hp0 hp1 c t.val t.isLt
      = (P1.sumStep tb0 tb1 xM c (cfg10 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg10 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg10 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg10 a).N) (h0 : t.val = 0) (hn) : hAt V a hp0 hp1 c t.val hn = V c main_v43_0 := by
  obtain ⟨n, hlt⟩ := t
  cases n with
  | zero => rfl
  | succ n => exact absurd h0 (Nat.succ_ne_zero n)
theorem hAt_pos (c : Dev nD) (t : Fin (cfg10 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg10 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg10 a).N) : sProp 𝕄 :=
  iprop(Pipeline.scopedRest (Ix := Unit) (Name := ℕ) (U := Pipeline.UD sig nD τ) (Lvl := ℕ) (Val := Elt F) spec10 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg10 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec10 c [cc10_scratch0, cc10_scratch1, cc10_scratch2])
          ∗ (∃ r, prngReg c r)
          ∗ iprop(semVal ((c : Thread nD τ), semAt cc10_scratch3 0) 0 ∗ semVal ((c : Thread nD τ), semAt cc10_scratch3 1) 0 ∗ semVal ((c : Thread nD τ), semAt cc10_scratch3 2) 0)
          ∗ pt c tb0 (T0 a c) ∗ pt c tb1 (T1 a c) ∗ pt c xM (V c main_arg0) ∗ pt c hM (hAt V a hp0 hp1 c n hn)) := by
  unfold Φ1; rw [scopedRest10_split, ownSems0_eq]; simp only [sc0, sc1, sc2, owns_whole]; try rfl

def dat (c : Dev nD) : Dat τ (Elt F) Unit ℕ (Pipeline.UD sig nD τ) ℕ (cfg10 a) c where
  A w := V c (Pipeline.arrRef spec10 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg10 a).W) : (dat V a hp0 hp1 c).A w = V c (Pipeline.arrRef spec10 w) := by
  dsimp only [dat]
theorem after_0 (c : Dev nD) (t : Fin (cfg10 a).N) : (dat V a hp0 hp1 c).after 0 t = iblk V a c 0 t := by dsimp only [dat]; rfl
theorem after_1 (c : Dev nD) (t : Fin (cfg10 a).N) : (dat V a hp0 hp1 c).after 1 t = iblk V a c 1 t := by dsimp only [dat]; rfl
theorem after_2 (c : Dev nD) (t : Fin (cfg10 a).N) : (dat V a hp0 hp1 c).after 2 t = iblk V a c 2 t := by dsimp only [dat]; rfl
theorem after_3 (c : Dev nD) (t : Fin (cfg10 a).N) : (dat V a hp0 hp1 c).after 3 t = iblk V a c 3 t := by dsimp only [dat]; rfl
theorem after_4 (c : Dev nD) (t : Fin (cfg10 a).N) : (dat V a hp0 hp1 c).after 4 t = iblk V a c 4 t := by dsimp only [dat]; rfl
theorem after_5 (c : Dev nD) (t : Fin (cfg10 a).N) : (dat V a hp0 hp1 c).after 5 t = (stAt V a hp0 hp1 c t.val t.isLt).1 := by dsimp only [dat]; rfl
theorem after_6 (c : Dev nD) (t : Fin (cfg10 a).N) : (dat V a hp0 hp1 c).after 6 t = (stAt V a hp0 hp1 c t.val t.isLt).2.1 := by dsimp only [dat]; rfl
theorem before_0 (c : Dev nD) (t : Fin (cfg10 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg10 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg10 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg10 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg10 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg10 a).N) (h : t'.val + 1 < (cfg10 a).N) : ((cfg10 a).win 5).flush t' = false := by
  unfold Pipeline.Window.flush
  rw [Bool.and_eq_false_iff]; right
  rw [Bool.or_eq_false_iff]
  have h' : t'.val + 1 < (cfg10 a).grid.N := h
  exact ⟨decide_eq_false (by omega), decide_eq_false (fun ⟨_, hne⟩ => hne rfl)⟩
theorem before_5_B (c : Dev nD) (t : Fin (cfg10 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg10 a).N) (h : t'.val + 1 < (cfg10 a).N) : ((cfg10 a).win 6).flush t' = false := by
  unfold Pipeline.Window.flush
  rw [Bool.and_eq_false_iff]; right
  rw [Bool.or_eq_false_iff]
  have h' : t'.val + 1 < (cfg10 a).grid.N := h
  exact ⟨decide_eq_false (by omega), decide_eq_false (fun ⟨_, hne⟩ => hne rfl)⟩
theorem before_6_B (c : Dev nD) (t : Fin (cfg10 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg10 a).N) : Prog (TpuEff nD τ sig (Elt F) Λ₀ .tc) PUnit :=
  (cc10__pass1_kernel (grid10.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc10_scratch3)

def bodyPre (c : Dev nD) (t : Fin (cfg10 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg10 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg10 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc10_scratch3 c (grid10.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v43_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc10_scratch3 c (grid10.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W10, bigSep_W10]
  exact sound_body V a hp0 hp1 c t

end Cert.Kernel.P1R10

end
-- ==== Proof.B1R10Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.B1R10Dat
import proofs.«400866_j57071525429608_2_alg».proof.Proof.AssembleBits

set_option maxRecDepth 16384

noncomputable section

namespace Cert.Kernel.P1R10

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Asm (Rr L₀ lv₀)
open Cert.Kernel.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid10.Coords), k10_chk1 (tw0 tb0 c i (T0 (adm 10) c))) (hp1 : ∀ c (i : grid10.Coords), k10_chk2 (tw1 tb1 c i (T1 (adm 10) c)))

/-- The unscoped buffers the body moves itself or reads as tables: no window's array. -/
def H : Finset (Ref sig .tc) := {main_arg0, main_v41, main_v42, main_v43_0}
theorem H_sub : H ⊆ Pipeline.restRefs sig spec10 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v41) ∗ pt c tb1 (W main_v42) ∗ pt c hM (W main_v43_0)) := by
  rw [BI.bigSep_eq_bigSepL_of_eq [main_arg0, main_v41, main_v42, main_v43_0] (by decide) (by decide)]; rfl

/-- The two tables held, listed. -/
theorem pref_eq (c : Dev nD) (T : (pcfgs (F := F) 10).pre.Contents (Elt F)) :
    (Pipeline.prefHeld (Ix := Unit) (Name := ℕ) (U := Pipeline.UD sig nD τ) (Lvl := ℕ) (pcfgs (F := F) 10).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 10) hp0 hp1 c (cfg10 (adm 10)).N le_rfl

/-- The entry valuation with the hidden array at its final contents: what the unscoped rest is at the exit. -/
def Vmid (c : Dev nD) : (b : Ref sig .tc) → Buf (Elt F) ((c : Thread nD τ).loc b) :=
  Function.update (Vin Win c) main_v43_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec10 c W : sProp 𝕄)
      = iprop((bigSep H fun b => ((c : Thread nD τ).loc b) ↦{fullShare} W b) ∗ (bigSep (Pipeline.restRefs sig spec10 \ H) fun b => ((c : Thread nD τ).loc b) ↦{fullShare} W b)) := by
  unfold Pipeline.unscopedRest; exact BI.bigSep_sdiff_split H_sub

set_option maxHeartbeats 4000000 in
def reg (hpd : ∀ c, pdats 10 c = dat (Vin Win) (adm 10) hp0 hp1 c)
    (hT0 : ∀ c, Vin Win c main_v41 = T0 (adm 10) c) (hT1 : ∀ c, Vin Win c main_v42 = T1 (adm 10) c)
    (hF : ∀ c w, (dat (Vin Win) (adm 10) hp0 hp1 c).arrAt w (cfg10 (adm 10)).N = Vout Wout c (Pipeline.arrRef spec10 w))
    (hrest : ∀ c b, b ∉ Finset.univ.image (Pipeline.arrRef spec10) → Vout Wout c b = Vmid adm Win hp0 hp1 c b) :
    Pipeline.RegionSeg (pcfgs (F := F)) adm pdats () defs₀ Variants.none L₀ lv₀ 10 where
  win := winFacts10.to₀
  block_pos := block_pos10
  stage_whole := stage_whole10
  K := Fin 3
  osem := osem
  ho := ownSemFacts
  hbody c := by rw [hpd c]; exact (body_obligation (Vin Win) (adm 10) hp0 hp1 c).loose
  hwaits := Pipeline.hwaits_of_owed_zero _ _ _ _ L₀ lv₀ 10 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v43_0))
  Y c := iprop((∃ r, prngReg c r) ∗ pt c tb0 (T0 (adm 10) c) ∗ pt c tb1 (T1 (adm 10) c) ∗ pt c xM (Vin Win c main_arg0) ∗ pt c hM (hEnd adm Win hp0 hp1 c))
  Z c := bigSep (Pipeline.restRefs sig spec10 \ H) fun b => ((c : Thread nD τ).loc b) ↦{fullShare} Vin Win c b
  hentry c := by
    have hsplit : (StableHlo.held (c : Thread nD τ) (Pipeline.ucRefs τ sig) (Win c) : sProp 𝕄)
        ⊢ iprop((pdats 10 c).arrays ((pdats 10 c).arrAt · 0) ∗ Pipeline.unscopedRest (Ix := Unit) (Name := ℕ) (U := Pipeline.UD sig nD τ) (Lvl := ℕ) spec10 c (Vin Win c)) := by
      have h := Pipeline.arrays_of_unscopedBufs (p := 10) (pcfgs (F := F)) adm pdats winFacts10 arr_whole10 c
        (by rw [hpd c]; exact (dat (Vin Win) (adm 10) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 10 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 10) hp0 hp1 c 0 (Nat.zero_le _)
    unfold Φ1
    rw [pref_eq, show hAt (Vin Win) (adm 10) hp0 hp1 c 0 (Nat.zero_le _) = Vin Win c main_v43_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 10) hp0 hp1 c (cfg10 (adm 10)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 10 c).arrays ((pdats 10 c).arrAt · (cfg10 (adm 10)).N) ∗ Pipeline.unscopedRest (Ix := Unit) (Name := ℕ) (U := Pipeline.UD sig nD τ) (Lvl := ℕ) spec10 c (Vmid adm Win hp0 hp1 c))
        ⊢ (StableHlo.held (c : Thread nD τ) (Pipeline.ucRefs τ sig) (Wout c) : sProp 𝕄) := by
      have h := Pipeline.unscopedBufs_of_arrays (p := 10) (pcfgs (F := F)) adm (Ix := Unit) (Name := ℕ) (U := Pipeline.UD sig nD τ) (Lvl := ℕ)
        winFacts10 arr_whole10 c pdats (by rw [hpd c]; exact (dat (Vin Win) (adm 10) hp0 hp1 c).share_full fun _ => rfl)
        (Vmid adm Win hp0 hp1 c) (Vout Wout c) ((pdats 10 c).arrAt · (cfg10 (adm 10)).N) (by rw [hpd c]; exact hF c) (hrest c)
      rw [Pipeline.unscopedBufs_held] at h; exact h
    rw [rest_split, Hpts_eq] at hjoin
    have hZ : (bigSep (Pipeline.restRefs sig spec10 \ H) fun b => ((c : Thread nD τ).loc b) ↦{fullShare} Vin Win c b : sProp 𝕄)
        = (bigSep (Pipeline.restRefs sig spec10 \ H) fun b => ((c : Thread nD τ).loc b) ↦{fullShare} Vmid adm Win hp0 hp1 c b) :=
      bigSep_congr fun b hb => by
        have hne : b ≠ main_v43_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v41 = Vin Win c main_v41 := by unfold Vmid; exact Function.update_of_ne (by decide) _ _
    have e2 : Vmid adm Win hp0 hp1 c main_v42 = Vin Win c main_v42 := by unfold Vmid; exact Function.update_of_ne (by decide) _ _
    have e3 : Vmid adm Win hp0 hp1 c main_v43_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 10 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.Kernel.P1R10

end
-- ==== Proof.B1R11Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.B1Body
import proofs.«400866_j57071525429608_2_alg».proof.Proof.B1State
import proofs.«400866_j57071525429608_2_alg».proof.Proof.B1Kern

set_option maxRecDepth 100000

noncomputable section

namespace Cert.Kernel.P1R11

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc11__pass1_kernel (F := F) = P1.kern := rfl

-- The buffer contents when the region is entered, and the admissible index tables.
variable (V : (c : Dev nD) → (b : Ref sig .tc) → Buf (Elt F) ((c : Thread nD τ).loc b))
variable (a : (pcfg11 (F := F)).Adm)

/-- The two index tables, the node-feature array and the hidden array, as the body is handed them. -/
abbrev tb0 : Memref sig .tc .smem S62500 .i32 := Memref.whole main_v44
abbrev tb1 : Memref sig .tc .smem S62500 .i32 := Memref.whole main_v45
abbrev xM : Memref sig .tc .hbm S100000x128 .f32 := Memref.whole main_arg0
abbrev hM : Memref sig .tc .hbm S62500x64 .f32 := Memref.whole main_v46_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid11.Coords), k11_chk1 (tw0 tb0 c i (T0 a c))) (hp1 : ∀ c (i : grid11.Coords), k11_chk2 (tw1 tb1 c i (T1 a c)))

/-- Window `w`'s block at point `t`, read off its array as the region finds it. -/
def iblk (c : Dev nD) (w : Fin (cfg11 a).W) (t : Fin (cfg11 a).N) : (((cfg11 a).win w).xblock ((cfg11 a).grid.coords t)).Idx → Elt F ((cfg11 a).win w).elt :=
  (((cfg11 a).win w).blk t).view.read (Elt F) (V c (Pipeline.arrRef spec11 w))

/-- Each window's current staging memref at point `t`, as the pipeline passes it to the body. -/
abbrev ms0 (t : Fin (cfg11 a).N) : Memref sig .tc .vmem S64x128 .f32 := spec11_0.stage ((cfg11 a).slots t 0)
abbrev hs0 (t : Fin (cfg11 a).N) : (ms0 a t).IsWhole := hstage11_0 (((cfg11 a).slots t 0).cast nbuf11_0)
abbrev ms1 (t : Fin (cfg11 a).N) : Memref sig .tc .vmem S64x128 .f32 := spec11_1.stage ((cfg11 a).slots t 1)
abbrev hs1 (t : Fin (cfg11 a).N) : (ms1 a t).IsWhole := hstage11_1 (((cfg11 a).slots t 1).cast nbuf11_1)
abbrev ms2 (t : Fin (cfg11 a).N) : Memref sig .tc .vmem S1x64 .f32 := spec11_2.stage ((cfg11 a).slots t 2)
abbrev hs2 (t : Fin (cfg11 a).N) : (ms2 a t).IsWhole := hstage11_2 (((cfg11 a).slots t 2).cast nbuf11_2)
abbrev ms3 (t : Fin (cfg11 a).N) : Memref sig .tc .vmem S64x64 .f32 := spec11_3.stage ((cfg11 a).slots t 3)
abbrev hs3 (t : Fin (cfg11 a).N) : (ms3 a t).IsWhole := hstage11_3 (((cfg11 a).slots t 3).cast nbuf11_3)
abbrev ms4 (t : Fin (cfg11 a).N) : Memref sig .tc .vmem S1x64 .f32 := spec11_4.stage ((cfg11 a).slots t 4)
abbrev hs4 (t : Fin (cfg11 a).N) : (ms4 a t).IsWhole := hstage11_4 (((cfg11 a).slots t 4).cast nbuf11_4)
abbrev ms5 (t : Fin (cfg11 a).N) : Memref sig .tc .vmem S1x64 .f32 := spec11_5.stage ((cfg11 a).slots t 5)
abbrev hs5 (t : Fin (cfg11 a).N) : (ms5 a t).IsWhole := hstage11_5 (((cfg11 a).slots t 5).cast nbuf11_5)
abbrev ms6 (t : Fin (cfg11 a).N) : Memref sig .tc .vmem S1x64 .f32 := spec11_6.stage ((cfg11 a).slots t 6)
abbrev hs6 (t : Fin (cfg11 a).N) : (ms6 a t).IsWhole := hstage11_6 (((cfg11 a).slots t 6).cast nbuf11_6)
/-- The three scratch buffers (the two gathered rows and the hidden row). -/
abbrev sc0 : Memref sig .tc .vmem S1x128 .f32 := Memref.whole cc11_scratch0
abbrev sc1 : Memref sig .tc .vmem S1x128 .f32 := Memref.whole cc11_scratch1
abbrev sc2 : Memref sig .tc .vmem S1x64 .f32 := Memref.whole cc11_scratch2

/-- The body's own three copy semaphores. -/
abbrev osem : Fin 3 → SemLoc sig := fun j => (![SemLoc.dma 117, SemLoc.dma 118, SemLoc.dma 119] : Fin 3 → SemLoc sig) j
theorem ownSemFacts : Pipeline.OwnSemFacts spec11 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc11_scratch3 0) 0 ∗ semVal ((c : Thread nD τ), semAt cc11_scratch3 1) 0 ∗ semVal ((c : Thread nD τ), semAt cc11_scratch3 2) 0) := by
  rw [Pipeline.ownSems0_eq_of_list c osem [0, 1, 2] (by decide) (by decide)]; rfl

/-- The grid point's coordinate. -/
abbrev crd (t : Fin (cfg11 a).N) : grid11.Coords := grid11.coords t

/-- The grid is one axis of 62500 points: the coordinate of point `t` is `t`. -/
theorem coord_val (t : Fin (cfg11 a).N) : ((crd a t) 0).val = t.val := by
  have hN : t.val < 62500 := lt_of_lt_of_eq t.isLt N_11
  show t.val / grid11.stride 0 % grid11.bound 0 = t.val
  rw [show grid11.stride 0 = 1 from by decide, Nat.div_one]
  exact Nat.mod_eq_of_lt hN

/-- The branch is taken at the first point and at no other. -/
theorem hcond (t : Fin (cfg11 a).N) : cond0_0 (grid11.coords t) ↔ t.val = 0 := by
  have hN : t.val < 62500 := lt_of_lt_of_eq t.isLt N_11
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg11 a).N) : St (F := F) c :=
  P1.stG tb0 tb1 xM hM c (cfg11 a).N (crd a) (fun t => iblk V a c 0 t) (fun t => iblk V a c 1 t) (fun t => iblk V a c 2 t) (fun t => iblk V a c 3 t) (fun t => iblk V a c 4 t) (T0 a c) (T1 a c) (V c main_arg0) (V c main_v46_0) (fun t => hp0 c (crd a t)) (fun t => hp1 c (crd a t)) n hn

/-- The hidden array before point `n` (after `n` points). -/
def hAt (c : Dev nD) (n : ℕ) (hn : n ≤ (cfg11 a).N) : Bf (F := F) c hM :=
  P1.hG tb0 tb1 xM hM c (cfg11 a).N (crd a) (fun t => iblk V a c 0 t) (fun t => iblk V a c 1 t) (fun t => iblk V a c 2 t) (fun t => iblk V a c 3 t) (fun t => iblk V a c 4 t) (T0 a c) (T1 a c) (V c main_arg0) (V c main_v46_0) (fun t => hp0 c (crd a t)) (fun t => hp1 c (crd a t)) n hn

theorem stAt_zero (c : Dev nD) (t : Fin (cfg11 a).N) (h0 : t.val = 0) :
    stAt V a hp0 hp1 c t.val t.isLt
      = (P1.sumStep tb0 tb1 xM c (cfg11 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k11_pay1 (F := F)), P1.sqStep tb0 tb1 xM c (cfg11 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k11_pay2 (F := F)),
          hNext hM c (crd a t) (V c main_v46_0) (P1.rowStep tb0 tb1 xM c (cfg11 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg11 a).N) (h0 : ¬t.val = 0) :
    stAt V a hp0 hp1 c t.val t.isLt
      = (P1.sumStep tb0 tb1 xM c (cfg11 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg11 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg11 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg11 a).N) (h0 : t.val = 0) (hn) : hAt V a hp0 hp1 c t.val hn = V c main_v46_0 := by
  obtain ⟨n, hlt⟩ := t
  cases n with
  | zero => rfl
  | succ n => exact absurd h0 (Nat.succ_ne_zero n)
theorem hAt_pos (c : Dev nD) (t : Fin (cfg11 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg11 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg11 a).N) : sProp 𝕄 :=
  iprop(Pipeline.scopedRest (Ix := Unit) (Name := ℕ) (U := Pipeline.UD sig nD τ) (Lvl := ℕ) (Val := Elt F) spec11 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg11 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec11 c [cc11_scratch0, cc11_scratch1, cc11_scratch2])
          ∗ (∃ r, prngReg c r)
          ∗ iprop(semVal ((c : Thread nD τ), semAt cc11_scratch3 0) 0 ∗ semVal ((c : Thread nD τ), semAt cc11_scratch3 1) 0 ∗ semVal ((c : Thread nD τ), semAt cc11_scratch3 2) 0)
          ∗ pt c tb0 (T0 a c) ∗ pt c tb1 (T1 a c) ∗ pt c xM (V c main_arg0) ∗ pt c hM (hAt V a hp0 hp1 c n hn)) := by
  unfold Φ1; rw [scopedRest11_split, ownSems0_eq]; simp only [sc0, sc1, sc2, owns_whole]; try rfl

def dat (c : Dev nD) : Dat τ (Elt F) Unit ℕ (Pipeline.UD sig nD τ) ℕ (cfg11 a) c where
  A w := V c (Pipeline.arrRef spec11 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg11 a).W) : (dat V a hp0 hp1 c).A w = V c (Pipeline.arrRef spec11 w) := by
  dsimp only [dat]
theorem after_0 (c : Dev nD) (t : Fin (cfg11 a).N) : (dat V a hp0 hp1 c).after 0 t = iblk V a c 0 t := by dsimp only [dat]; rfl
theorem after_1 (c : Dev nD) (t : Fin (cfg11 a).N) : (dat V a hp0 hp1 c).after 1 t = iblk V a c 1 t := by dsimp only [dat]; rfl
theorem after_2 (c : Dev nD) (t : Fin (cfg11 a).N) : (dat V a hp0 hp1 c).after 2 t = iblk V a c 2 t := by dsimp only [dat]; rfl
theorem after_3 (c : Dev nD) (t : Fin (cfg11 a).N) : (dat V a hp0 hp1 c).after 3 t = iblk V a c 3 t := by dsimp only [dat]; rfl
theorem after_4 (c : Dev nD) (t : Fin (cfg11 a).N) : (dat V a hp0 hp1 c).after 4 t = iblk V a c 4 t := by dsimp only [dat]; rfl
theorem after_5 (c : Dev nD) (t : Fin (cfg11 a).N) : (dat V a hp0 hp1 c).after 5 t = (stAt V a hp0 hp1 c t.val t.isLt).1 := by dsimp only [dat]; rfl
theorem after_6 (c : Dev nD) (t : Fin (cfg11 a).N) : (dat V a hp0 hp1 c).after 6 t = (stAt V a hp0 hp1 c t.val t.isLt).2.1 := by dsimp only [dat]; rfl
theorem before_0 (c : Dev nD) (t : Fin (cfg11 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg11 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg11 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg11 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg11 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg11 a).N) (h : t'.val + 1 < (cfg11 a).N) : ((cfg11 a).win 5).flush t' = false := by
  unfold Pipeline.Window.flush
  rw [Bool.and_eq_false_iff]; right
  rw [Bool.or_eq_false_iff]
  have h' : t'.val + 1 < (cfg11 a).grid.N := h
  exact ⟨decide_eq_false (by omega), decide_eq_false (fun ⟨_, hne⟩ => hne rfl)⟩
theorem before_5_B (c : Dev nD) (t : Fin (cfg11 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg11 a).N) (h : t'.val + 1 < (cfg11 a).N) : ((cfg11 a).win 6).flush t' = false := by
  unfold Pipeline.Window.flush
  rw [Bool.and_eq_false_iff]; right
  rw [Bool.or_eq_false_iff]
  have h' : t'.val + 1 < (cfg11 a).grid.N := h
  exact ⟨decide_eq_false (by omega), decide_eq_false (fun ⟨_, hne⟩ => hne rfl)⟩
theorem before_6_B (c : Dev nD) (t : Fin (cfg11 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg11 a).N) : Prog (TpuEff nD τ sig (Elt F) Λ₀ .tc) PUnit :=
  (cc11__pass1_kernel (grid11.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc11_scratch3)

def bodyPre (c : Dev nD) (t : Fin (cfg11 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg11 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg11 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc11_scratch3 c (grid11.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v46_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc11_scratch3 c (grid11.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W11, bigSep_W11]
  exact sound_body V a hp0 hp1 c t

end Cert.Kernel.P1R11

end
-- ==== Proof.B1R11Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.B1R11Dat
import proofs.«400866_j57071525429608_2_alg».proof.Proof.AssembleBits

set_option maxRecDepth 16384

noncomputable section

namespace Cert.Kernel.P1R11

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Asm (Rr L₀ lv₀)
open Cert.Kernel.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid11.Coords), k11_chk1 (tw0 tb0 c i (T0 (adm 11) c))) (hp1 : ∀ c (i : grid11.Coords), k11_chk2 (tw1 tb1 c i (T1 (adm 11) c)))

/-- The unscoped buffers the body moves itself or reads as tables: no window's array. -/
def H : Finset (Ref sig .tc) := {main_arg0, main_v44, main_v45, main_v46_0}
theorem H_sub : H ⊆ Pipeline.restRefs sig spec11 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v44) ∗ pt c tb1 (W main_v45) ∗ pt c hM (W main_v46_0)) := by
  rw [BI.bigSep_eq_bigSepL_of_eq [main_arg0, main_v44, main_v45, main_v46_0] (by decide) (by decide)]; rfl

/-- The two tables held, listed. -/
theorem pref_eq (c : Dev nD) (T : (pcfgs (F := F) 11).pre.Contents (Elt F)) :
    (Pipeline.prefHeld (Ix := Unit) (Name := ℕ) (U := Pipeline.UD sig nD τ) (Lvl := ℕ) (pcfgs (F := F) 11).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 11) hp0 hp1 c (cfg11 (adm 11)).N le_rfl

/-- The entry valuation with the hidden array at its final contents: what the unscoped rest is at the exit. -/
def Vmid (c : Dev nD) : (b : Ref sig .tc) → Buf (Elt F) ((c : Thread nD τ).loc b) :=
  Function.update (Vin Win c) main_v46_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec11 c W : sProp 𝕄)
      = iprop((bigSep H fun b => ((c : Thread nD τ).loc b) ↦{fullShare} W b) ∗ (bigSep (Pipeline.restRefs sig spec11 \ H) fun b => ((c : Thread nD τ).loc b) ↦{fullShare} W b)) := by
  unfold Pipeline.unscopedRest; exact BI.bigSep_sdiff_split H_sub

set_option maxHeartbeats 4000000 in
def reg (hpd : ∀ c, pdats 11 c = dat (Vin Win) (adm 11) hp0 hp1 c)
    (hT0 : ∀ c, Vin Win c main_v44 = T0 (adm 11) c) (hT1 : ∀ c, Vin Win c main_v45 = T1 (adm 11) c)
    (hF : ∀ c w, (dat (Vin Win) (adm 11) hp0 hp1 c).arrAt w (cfg11 (adm 11)).N = Vout Wout c (Pipeline.arrRef spec11 w))
    (hrest : ∀ c b, b ∉ Finset.univ.image (Pipeline.arrRef spec11) → Vout Wout c b = Vmid adm Win hp0 hp1 c b) :
    Pipeline.RegionSeg (pcfgs (F := F)) adm pdats () defs₀ Variants.none L₀ lv₀ 11 where
  win := winFacts11.to₀
  block_pos := block_pos11
  stage_whole := stage_whole11
  K := Fin 3
  osem := osem
  ho := ownSemFacts
  hbody c := by rw [hpd c]; exact (body_obligation (Vin Win) (adm 11) hp0 hp1 c).loose
  hwaits := Pipeline.hwaits_of_owed_zero _ _ _ _ L₀ lv₀ 11 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v46_0))
  Y c := iprop((∃ r, prngReg c r) ∗ pt c tb0 (T0 (adm 11) c) ∗ pt c tb1 (T1 (adm 11) c) ∗ pt c xM (Vin Win c main_arg0) ∗ pt c hM (hEnd adm Win hp0 hp1 c))
  Z c := bigSep (Pipeline.restRefs sig spec11 \ H) fun b => ((c : Thread nD τ).loc b) ↦{fullShare} Vin Win c b
  hentry c := by
    have hsplit : (StableHlo.held (c : Thread nD τ) (Pipeline.ucRefs τ sig) (Win c) : sProp 𝕄)
        ⊢ iprop((pdats 11 c).arrays ((pdats 11 c).arrAt · 0) ∗ Pipeline.unscopedRest (Ix := Unit) (Name := ℕ) (U := Pipeline.UD sig nD τ) (Lvl := ℕ) spec11 c (Vin Win c)) := by
      have h := Pipeline.arrays_of_unscopedBufs (p := 11) (pcfgs (F := F)) adm pdats winFacts11 arr_whole11 c
        (by rw [hpd c]; exact (dat (Vin Win) (adm 11) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 11 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 11) hp0 hp1 c 0 (Nat.zero_le _)
    unfold Φ1
    rw [pref_eq, show hAt (Vin Win) (adm 11) hp0 hp1 c 0 (Nat.zero_le _) = Vin Win c main_v46_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 11) hp0 hp1 c (cfg11 (adm 11)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 11 c).arrays ((pdats 11 c).arrAt · (cfg11 (adm 11)).N) ∗ Pipeline.unscopedRest (Ix := Unit) (Name := ℕ) (U := Pipeline.UD sig nD τ) (Lvl := ℕ) spec11 c (Vmid adm Win hp0 hp1 c))
        ⊢ (StableHlo.held (c : Thread nD τ) (Pipeline.ucRefs τ sig) (Wout c) : sProp 𝕄) := by
      have h := Pipeline.unscopedBufs_of_arrays (p := 11) (pcfgs (F := F)) adm (Ix := Unit) (Name := ℕ) (U := Pipeline.UD sig nD τ) (Lvl := ℕ)
        winFacts11 arr_whole11 c pdats (by rw [hpd c]; exact (dat (Vin Win) (adm 11) hp0 hp1 c).share_full fun _ => rfl)
        (Vmid adm Win hp0 hp1 c) (Vout Wout c) ((pdats 11 c).arrAt · (cfg11 (adm 11)).N) (by rw [hpd c]; exact hF c) (hrest c)
      rw [Pipeline.unscopedBufs_held] at h; exact h
    rw [rest_split, Hpts_eq] at hjoin
    have hZ : (bigSep (Pipeline.restRefs sig spec11 \ H) fun b => ((c : Thread nD τ).loc b) ↦{fullShare} Vin Win c b : sProp 𝕄)
        = (bigSep (Pipeline.restRefs sig spec11 \ H) fun b => ((c : Thread nD τ).loc b) ↦{fullShare} Vmid adm Win hp0 hp1 c b) :=
      bigSep_congr fun b hb => by
        have hne : b ≠ main_v46_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v44 = Vin Win c main_v44 := by unfold Vmid; exact Function.update_of_ne (by decide) _ _
    have e2 : Vmid adm Win hp0 hp1 c main_v45 = Vin Win c main_v45 := by unfold Vmid; exact Function.update_of_ne (by decide) _ _
    have e3 : Vmid adm Win hp0 hp1 c main_v46_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 11 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.Kernel.P1R11

end
-- ==== Proof.B1R12Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.B1Body
import proofs.«400866_j57071525429608_2_alg».proof.Proof.B1State
import proofs.«400866_j57071525429608_2_alg».proof.Proof.B1Kern

set_option maxRecDepth 100000

noncomputable section

namespace Cert.Kernel.P1R12

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc12__pass1_kernel (F := F) = P1.kern := rfl

-- The buffer contents when the region is entered, and the admissible index tables.
variable (V : (c : Dev nD) → (b : Ref sig .tc) → Buf (Elt F) ((c : Thread nD τ).loc b))
variable (a : (pcfg12 (F := F)).Adm)

/-- The two index tables, the node-feature array and the hidden array, as the body is handed them. -/
abbrev tb0 : Memref sig .tc .smem S62500 .i32 := Memref.whole main_v47
abbrev tb1 : Memref sig .tc .smem S62500 .i32 := Memref.whole main_v48
abbrev xM : Memref sig .tc .hbm S100000x128 .f32 := Memref.whole main_arg0
abbrev hM : Memref sig .tc .hbm S62500x64 .f32 := Memref.whole main_v49_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid12.Coords), k12_chk1 (tw0 tb0 c i (T0 a c))) (hp1 : ∀ c (i : grid12.Coords), k12_chk2 (tw1 tb1 c i (T1 a c)))

/-- Window `w`'s block at point `t`, read off its array as the region finds it. -/
def iblk (c : Dev nD) (w : Fin (cfg12 a).W) (t : Fin (cfg12 a).N) : (((cfg12 a).win w).xblock ((cfg12 a).grid.coords t)).Idx → Elt F ((cfg12 a).win w).elt :=
  (((cfg12 a).win w).blk t).view.read (Elt F) (V c (Pipeline.arrRef spec12 w))

/-- Each window's current staging memref at point `t`, as the pipeline passes it to the body. -/
abbrev ms0 (t : Fin (cfg12 a).N) : Memref sig .tc .vmem S64x128 .f32 := spec12_0.stage ((cfg12 a).slots t 0)
abbrev hs0 (t : Fin (cfg12 a).N) : (ms0 a t).IsWhole := hstage12_0 (((cfg12 a).slots t 0).cast nbuf12_0)
abbrev ms1 (t : Fin (cfg12 a).N) : Memref sig .tc .vmem S64x128 .f32 := spec12_1.stage ((cfg12 a).slots t 1)
abbrev hs1 (t : Fin (cfg12 a).N) : (ms1 a t).IsWhole := hstage12_1 (((cfg12 a).slots t 1).cast nbuf12_1)
abbrev ms2 (t : Fin (cfg12 a).N) : Memref sig .tc .vmem S1x64 .f32 := spec12_2.stage ((cfg12 a).slots t 2)
abbrev hs2 (t : Fin (cfg12 a).N) : (ms2 a t).IsWhole := hstage12_2 (((cfg12 a).slots t 2).cast nbuf12_2)
abbrev ms3 (t : Fin (cfg12 a).N) : Memref sig .tc .vmem S64x64 .f32 := spec12_3.stage ((cfg12 a).slots t 3)
abbrev hs3 (t : Fin (cfg12 a).N) : (ms3 a t).IsWhole := hstage12_3 (((cfg12 a).slots t 3).cast nbuf12_3)
abbrev ms4 (t : Fin (cfg12 a).N) : Memref sig .tc .vmem S1x64 .f32 := spec12_4.stage ((cfg12 a).slots t 4)
abbrev hs4 (t : Fin (cfg12 a).N) : (ms4 a t).IsWhole := hstage12_4 (((cfg12 a).slots t 4).cast nbuf12_4)
abbrev ms5 (t : Fin (cfg12 a).N) : Memref sig .tc .vmem S1x64 .f32 := spec12_5.stage ((cfg12 a).slots t 5)
abbrev hs5 (t : Fin (cfg12 a).N) : (ms5 a t).IsWhole := hstage12_5 (((cfg12 a).slots t 5).cast nbuf12_5)
abbrev ms6 (t : Fin (cfg12 a).N) : Memref sig .tc .vmem S1x64 .f32 := spec12_6.stage ((cfg12 a).slots t 6)
abbrev hs6 (t : Fin (cfg12 a).N) : (ms6 a t).IsWhole := hstage12_6 (((cfg12 a).slots t 6).cast nbuf12_6)
/-- The three scratch buffers (the two gathered rows and the hidden row). -/
abbrev sc0 : Memref sig .tc .vmem S1x128 .f32 := Memref.whole cc12_scratch0
abbrev sc1 : Memref sig .tc .vmem S1x128 .f32 := Memref.whole cc12_scratch1
abbrev sc2 : Memref sig .tc .vmem S1x64 .f32 := Memref.whole cc12_scratch2

/-- The body's own three copy semaphores. -/
abbrev osem : Fin 3 → SemLoc sig := fun j => (![SemLoc.dma 127, SemLoc.dma 128, SemLoc.dma 129] : Fin 3 → SemLoc sig) j
theorem ownSemFacts : Pipeline.OwnSemFacts spec12 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc12_scratch3 0) 0 ∗ semVal ((c : Thread nD τ), semAt cc12_scratch3 1) 0 ∗ semVal ((c : Thread nD τ), semAt cc12_scratch3 2) 0) := by
  rw [Pipeline.ownSems0_eq_of_list c osem [0, 1, 2] (by decide) (by decide)]; rfl

/-- The grid point's coordinate. -/
abbrev crd (t : Fin (cfg12 a).N) : grid12.Coords := grid12.coords t

/-- The grid is one axis of 62500 points: the coordinate of point `t` is `t`. -/
theorem coord_val (t : Fin (cfg12 a).N) : ((crd a t) 0).val = t.val := by
  have hN : t.val < 62500 := lt_of_lt_of_eq t.isLt N_12
  show t.val / grid12.stride 0 % grid12.bound 0 = t.val
  rw [show grid12.stride 0 = 1 from by decide, Nat.div_one]
  exact Nat.mod_eq_of_lt hN

/-- The branch is taken at the first point and at no other. -/
theorem hcond (t : Fin (cfg12 a).N) : cond0_0 (grid12.coords t) ↔ t.val = 0 := by
  have hN : t.val < 62500 := lt_of_lt_of_eq t.isLt N_12
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg12 a).N) : St (F := F) c :=
  P1.stG tb0 tb1 xM hM c (cfg12 a).N (crd a) (fun t => iblk V a c 0 t) (fun t => iblk V a c 1 t) (fun t => iblk V a c 2 t) (fun t => iblk V a c 3 t) (fun t => iblk V a c 4 t) (T0 a c) (T1 a c) (V c main_arg0) (V c main_v49_0) (fun t => hp0 c (crd a t)) (fun t => hp1 c (crd a t)) n hn

/-- The hidden array before point `n` (after `n` points). -/
def hAt (c : Dev nD) (n : ℕ) (hn : n ≤ (cfg12 a).N) : Bf (F := F) c hM :=
  P1.hG tb0 tb1 xM hM c (cfg12 a).N (crd a) (fun t => iblk V a c 0 t) (fun t => iblk V a c 1 t) (fun t => iblk V a c 2 t) (fun t => iblk V a c 3 t) (fun t => iblk V a c 4 t) (T0 a c) (T1 a c) (V c main_arg0) (V c main_v49_0) (fun t => hp0 c (crd a t)) (fun t => hp1 c (crd a t)) n hn

theorem stAt_zero (c : Dev nD) (t : Fin (cfg12 a).N) (h0 : t.val = 0) :
    stAt V a hp0 hp1 c t.val t.isLt
      = (P1.sumStep tb0 tb1 xM c (cfg12 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k12_pay1 (F := F)), P1.sqStep tb0 tb1 xM c (cfg12 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k12_pay2 (F := F)),
          hNext hM c (crd a t) (V c main_v49_0) (P1.rowStep tb0 tb1 xM c (cfg12 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg12 a).N) (h0 : ¬t.val = 0) :
    stAt V a hp0 hp1 c t.val t.isLt
      = (P1.sumStep tb0 tb1 xM c (cfg12 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg12 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg12 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg12 a).N) (h0 : t.val = 0) (hn) : hAt V a hp0 hp1 c t.val hn = V c main_v49_0 := by
  obtain ⟨n, hlt⟩ := t
  cases n with
  | zero => rfl
  | succ n => exact absurd h0 (Nat.succ_ne_zero n)
theorem hAt_pos (c : Dev nD) (t : Fin (cfg12 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg12 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg12 a).N) : sProp 𝕄 :=
  iprop(Pipeline.scopedRest (Ix := Unit) (Name := ℕ) (U := Pipeline.UD sig nD τ) (Lvl := ℕ) (Val := Elt F) spec12 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg12 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec12 c [cc12_scratch0, cc12_scratch1, cc12_scratch2])
          ∗ (∃ r, prngReg c r)
          ∗ iprop(semVal ((c : Thread nD τ), semAt cc12_scratch3 0) 0 ∗ semVal ((c : Thread nD τ), semAt cc12_scratch3 1) 0 ∗ semVal ((c : Thread nD τ), semAt cc12_scratch3 2) 0)
          ∗ pt c tb0 (T0 a c) ∗ pt c tb1 (T1 a c) ∗ pt c xM (V c main_arg0) ∗ pt c hM (hAt V a hp0 hp1 c n hn)) := by
  unfold Φ1; rw [scopedRest12_split, ownSems0_eq]; simp only [sc0, sc1, sc2, owns_whole]; try rfl

def dat (c : Dev nD) : Dat τ (Elt F) Unit ℕ (Pipeline.UD sig nD τ) ℕ (cfg12 a) c where
  A w := V c (Pipeline.arrRef spec12 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg12 a).W) : (dat V a hp0 hp1 c).A w = V c (Pipeline.arrRef spec12 w) := by
  dsimp only [dat]
theorem after_0 (c : Dev nD) (t : Fin (cfg12 a).N) : (dat V a hp0 hp1 c).after 0 t = iblk V a c 0 t := by dsimp only [dat]; rfl
theorem after_1 (c : Dev nD) (t : Fin (cfg12 a).N) : (dat V a hp0 hp1 c).after 1 t = iblk V a c 1 t := by dsimp only [dat]; rfl
theorem after_2 (c : Dev nD) (t : Fin (cfg12 a).N) : (dat V a hp0 hp1 c).after 2 t = iblk V a c 2 t := by dsimp only [dat]; rfl
theorem after_3 (c : Dev nD) (t : Fin (cfg12 a).N) : (dat V a hp0 hp1 c).after 3 t = iblk V a c 3 t := by dsimp only [dat]; rfl
theorem after_4 (c : Dev nD) (t : Fin (cfg12 a).N) : (dat V a hp0 hp1 c).after 4 t = iblk V a c 4 t := by dsimp only [dat]; rfl
theorem after_5 (c : Dev nD) (t : Fin (cfg12 a).N) : (dat V a hp0 hp1 c).after 5 t = (stAt V a hp0 hp1 c t.val t.isLt).1 := by dsimp only [dat]; rfl
theorem after_6 (c : Dev nD) (t : Fin (cfg12 a).N) : (dat V a hp0 hp1 c).after 6 t = (stAt V a hp0 hp1 c t.val t.isLt).2.1 := by dsimp only [dat]; rfl
theorem before_0 (c : Dev nD) (t : Fin (cfg12 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg12 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg12 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg12 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg12 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg12 a).N) (h : t'.val + 1 < (cfg12 a).N) : ((cfg12 a).win 5).flush t' = false := by
  unfold Pipeline.Window.flush
  rw [Bool.and_eq_false_iff]; right
  rw [Bool.or_eq_false_iff]
  have h' : t'.val + 1 < (cfg12 a).grid.N := h
  exact ⟨decide_eq_false (by omega), decide_eq_false (fun ⟨_, hne⟩ => hne rfl)⟩
theorem before_5_B (c : Dev nD) (t : Fin (cfg12 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg12 a).N) (h : t'.val + 1 < (cfg12 a).N) : ((cfg12 a).win 6).flush t' = false := by
  unfold Pipeline.Window.flush
  rw [Bool.and_eq_false_iff]; right
  rw [Bool.or_eq_false_iff]
  have h' : t'.val + 1 < (cfg12 a).grid.N := h
  exact ⟨decide_eq_false (by omega), decide_eq_false (fun ⟨_, hne⟩ => hne rfl)⟩
theorem before_6_B (c : Dev nD) (t : Fin (cfg12 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg12 a).N) : Prog (TpuEff nD τ sig (Elt F) Λ₀ .tc) PUnit :=
  (cc12__pass1_kernel (grid12.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc12_scratch3)

def bodyPre (c : Dev nD) (t : Fin (cfg12 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg12 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg12 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc12_scratch3 c (grid12.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v49_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc12_scratch3 c (grid12.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W12, bigSep_W12]
  exact sound_body V a hp0 hp1 c t

end Cert.Kernel.P1R12

end
-- ==== Proof.B1R12Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.B1R12Dat
import proofs.«400866_j57071525429608_2_alg».proof.Proof.AssembleBits

set_option maxRecDepth 16384

noncomputable section

namespace Cert.Kernel.P1R12

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Asm (Rr L₀ lv₀)
open Cert.Kernel.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid12.Coords), k12_chk1 (tw0 tb0 c i (T0 (adm 12) c))) (hp1 : ∀ c (i : grid12.Coords), k12_chk2 (tw1 tb1 c i (T1 (adm 12) c)))

/-- The unscoped buffers the body moves itself or reads as tables: no window's array. -/
def H : Finset (Ref sig .tc) := {main_arg0, main_v47, main_v48, main_v49_0}
theorem H_sub : H ⊆ Pipeline.restRefs sig spec12 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v47) ∗ pt c tb1 (W main_v48) ∗ pt c hM (W main_v49_0)) := by
  rw [BI.bigSep_eq_bigSepL_of_eq [main_arg0, main_v47, main_v48, main_v49_0] (by decide) (by decide)]; rfl

/-- The two tables held, listed. -/
theorem pref_eq (c : Dev nD) (T : (pcfgs (F := F) 12).pre.Contents (Elt F)) :
    (Pipeline.prefHeld (Ix := Unit) (Name := ℕ) (U := Pipeline.UD sig nD τ) (Lvl := ℕ) (pcfgs (F := F) 12).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 12) hp0 hp1 c (cfg12 (adm 12)).N le_rfl

/-- The entry valuation with the hidden array at its final contents: what the unscoped rest is at the exit. -/
def Vmid (c : Dev nD) : (b : Ref sig .tc) → Buf (Elt F) ((c : Thread nD τ).loc b) :=
  Function.update (Vin Win c) main_v49_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec12 c W : sProp 𝕄)
      = iprop((bigSep H fun b => ((c : Thread nD τ).loc b) ↦{fullShare} W b) ∗ (bigSep (Pipeline.restRefs sig spec12 \ H) fun b => ((c : Thread nD τ).loc b) ↦{fullShare} W b)) := by
  unfold Pipeline.unscopedRest; exact BI.bigSep_sdiff_split H_sub

set_option maxHeartbeats 4000000 in
def reg (hpd : ∀ c, pdats 12 c = dat (Vin Win) (adm 12) hp0 hp1 c)
    (hT0 : ∀ c, Vin Win c main_v47 = T0 (adm 12) c) (hT1 : ∀ c, Vin Win c main_v48 = T1 (adm 12) c)
    (hF : ∀ c w, (dat (Vin Win) (adm 12) hp0 hp1 c).arrAt w (cfg12 (adm 12)).N = Vout Wout c (Pipeline.arrRef spec12 w))
    (hrest : ∀ c b, b ∉ Finset.univ.image (Pipeline.arrRef spec12) → Vout Wout c b = Vmid adm Win hp0 hp1 c b) :
    Pipeline.RegionSeg (pcfgs (F := F)) adm pdats () defs₀ Variants.none L₀ lv₀ 12 where
  win := winFacts12.to₀
  block_pos := block_pos12
  stage_whole := stage_whole12
  K := Fin 3
  osem := osem
  ho := ownSemFacts
  hbody c := by rw [hpd c]; exact (body_obligation (Vin Win) (adm 12) hp0 hp1 c).loose
  hwaits := Pipeline.hwaits_of_owed_zero _ _ _ _ L₀ lv₀ 12 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v49_0))
  Y c := iprop((∃ r, prngReg c r) ∗ pt c tb0 (T0 (adm 12) c) ∗ pt c tb1 (T1 (adm 12) c) ∗ pt c xM (Vin Win c main_arg0) ∗ pt c hM (hEnd adm Win hp0 hp1 c))
  Z c := bigSep (Pipeline.restRefs sig spec12 \ H) fun b => ((c : Thread nD τ).loc b) ↦{fullShare} Vin Win c b
  hentry c := by
    have hsplit : (StableHlo.held (c : Thread nD τ) (Pipeline.ucRefs τ sig) (Win c) : sProp 𝕄)
        ⊢ iprop((pdats 12 c).arrays ((pdats 12 c).arrAt · 0) ∗ Pipeline.unscopedRest (Ix := Unit) (Name := ℕ) (U := Pipeline.UD sig nD τ) (Lvl := ℕ) spec12 c (Vin Win c)) := by
      have h := Pipeline.arrays_of_unscopedBufs (p := 12) (pcfgs (F := F)) adm pdats winFacts12 arr_whole12 c
        (by rw [hpd c]; exact (dat (Vin Win) (adm 12) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 12 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 12) hp0 hp1 c 0 (Nat.zero_le _)
    unfold Φ1
    rw [pref_eq, show hAt (Vin Win) (adm 12) hp0 hp1 c 0 (Nat.zero_le _) = Vin Win c main_v49_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 12) hp0 hp1 c (cfg12 (adm 12)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 12 c).arrays ((pdats 12 c).arrAt · (cfg12 (adm 12)).N) ∗ Pipeline.unscopedRest (Ix := Unit) (Name := ℕ) (U := Pipeline.UD sig nD τ) (Lvl := ℕ) spec12 c (Vmid adm Win hp0 hp1 c))
        ⊢ (StableHlo.held (c : Thread nD τ) (Pipeline.ucRefs τ sig) (Wout c) : sProp 𝕄) := by
      have h := Pipeline.unscopedBufs_of_arrays (p := 12) (pcfgs (F := F)) adm (Ix := Unit) (Name := ℕ) (U := Pipeline.UD sig nD τ) (Lvl := ℕ)
        winFacts12 arr_whole12 c pdats (by rw [hpd c]; exact (dat (Vin Win) (adm 12) hp0 hp1 c).share_full fun _ => rfl)
        (Vmid adm Win hp0 hp1 c) (Vout Wout c) ((pdats 12 c).arrAt · (cfg12 (adm 12)).N) (by rw [hpd c]; exact hF c) (hrest c)
      rw [Pipeline.unscopedBufs_held] at h; exact h
    rw [rest_split, Hpts_eq] at hjoin
    have hZ : (bigSep (Pipeline.restRefs sig spec12 \ H) fun b => ((c : Thread nD τ).loc b) ↦{fullShare} Vin Win c b : sProp 𝕄)
        = (bigSep (Pipeline.restRefs sig spec12 \ H) fun b => ((c : Thread nD τ).loc b) ↦{fullShare} Vmid adm Win hp0 hp1 c b) :=
      bigSep_congr fun b hb => by
        have hne : b ≠ main_v49_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v47 = Vin Win c main_v47 := by unfold Vmid; exact Function.update_of_ne (by decide) _ _
    have e2 : Vmid adm Win hp0 hp1 c main_v48 = Vin Win c main_v48 := by unfold Vmid; exact Function.update_of_ne (by decide) _ _
    have e3 : Vmid adm Win hp0 hp1 c main_v49_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 12 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.Kernel.P1R12

end
-- ==== Proof.B1R13Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.B1Body
import proofs.«400866_j57071525429608_2_alg».proof.Proof.B1State
import proofs.«400866_j57071525429608_2_alg».proof.Proof.B1Kern

set_option maxRecDepth 100000

noncomputable section

namespace Cert.Kernel.P1R13

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc13__pass1_kernel (F := F) = P1.kern := rfl

-- The buffer contents when the region is entered, and the admissible index tables.
variable (V : (c : Dev nD) → (b : Ref sig .tc) → Buf (Elt F) ((c : Thread nD τ).loc b))
variable (a : (pcfg13 (F := F)).Adm)

/-- The two index tables, the node-feature array and the hidden array, as the body is handed them. -/
abbrev tb0 : Memref sig .tc .smem S62500 .i32 := Memref.whole main_v50
abbrev tb1 : Memref sig .tc .smem S62500 .i32 := Memref.whole main_v51
abbrev xM : Memref sig .tc .hbm S100000x128 .f32 := Memref.whole main_arg0
abbrev hM : Memref sig .tc .hbm S62500x64 .f32 := Memref.whole main_v52_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid13.Coords), k13_chk1 (tw0 tb0 c i (T0 a c))) (hp1 : ∀ c (i : grid13.Coords), k13_chk2 (tw1 tb1 c i (T1 a c)))

/-- Window `w`'s block at point `t`, read off its array as the region finds it. -/
def iblk (c : Dev nD) (w : Fin (cfg13 a).W) (t : Fin (cfg13 a).N) : (((cfg13 a).win w).xblock ((cfg13 a).grid.coords t)).Idx → Elt F ((cfg13 a).win w).elt :=
  (((cfg13 a).win w).blk t).view.read (Elt F) (V c (Pipeline.arrRef spec13 w))

/-- Each window's current staging memref at point `t`, as the pipeline passes it to the body. -/
abbrev ms0 (t : Fin (cfg13 a).N) : Memref sig .tc .vmem S64x128 .f32 := spec13_0.stage ((cfg13 a).slots t 0)
abbrev hs0 (t : Fin (cfg13 a).N) : (ms0 a t).IsWhole := hstage13_0 (((cfg13 a).slots t 0).cast nbuf13_0)
abbrev ms1 (t : Fin (cfg13 a).N) : Memref sig .tc .vmem S64x128 .f32 := spec13_1.stage ((cfg13 a).slots t 1)
abbrev hs1 (t : Fin (cfg13 a).N) : (ms1 a t).IsWhole := hstage13_1 (((cfg13 a).slots t 1).cast nbuf13_1)
abbrev ms2 (t : Fin (cfg13 a).N) : Memref sig .tc .vmem S1x64 .f32 := spec13_2.stage ((cfg13 a).slots t 2)
abbrev hs2 (t : Fin (cfg13 a).N) : (ms2 a t).IsWhole := hstage13_2 (((cfg13 a).slots t 2).cast nbuf13_2)
abbrev ms3 (t : Fin (cfg13 a).N) : Memref sig .tc .vmem S64x64 .f32 := spec13_3.stage ((cfg13 a).slots t 3)
abbrev hs3 (t : Fin (cfg13 a).N) : (ms3 a t).IsWhole := hstage13_3 (((cfg13 a).slots t 3).cast nbuf13_3)
abbrev ms4 (t : Fin (cfg13 a).N) : Memref sig .tc .vmem S1x64 .f32 := spec13_4.stage ((cfg13 a).slots t 4)
abbrev hs4 (t : Fin (cfg13 a).N) : (ms4 a t).IsWhole := hstage13_4 (((cfg13 a).slots t 4).cast nbuf13_4)
abbrev ms5 (t : Fin (cfg13 a).N) : Memref sig .tc .vmem S1x64 .f32 := spec13_5.stage ((cfg13 a).slots t 5)
abbrev hs5 (t : Fin (cfg13 a).N) : (ms5 a t).IsWhole := hstage13_5 (((cfg13 a).slots t 5).cast nbuf13_5)
abbrev ms6 (t : Fin (cfg13 a).N) : Memref sig .tc .vmem S1x64 .f32 := spec13_6.stage ((cfg13 a).slots t 6)
abbrev hs6 (t : Fin (cfg13 a).N) : (ms6 a t).IsWhole := hstage13_6 (((cfg13 a).slots t 6).cast nbuf13_6)
/-- The three scratch buffers (the two gathered rows and the hidden row). -/
abbrev sc0 : Memref sig .tc .vmem S1x128 .f32 := Memref.whole cc13_scratch0
abbrev sc1 : Memref sig .tc .vmem S1x128 .f32 := Memref.whole cc13_scratch1
abbrev sc2 : Memref sig .tc .vmem S1x64 .f32 := Memref.whole cc13_scratch2

/-- The body's own three copy semaphores. -/
abbrev osem : Fin 3 → SemLoc sig := fun j => (![SemLoc.dma 137, SemLoc.dma 138, SemLoc.dma 139] : Fin 3 → SemLoc sig) j
theorem ownSemFacts : Pipeline.OwnSemFacts spec13 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc13_scratch3 0) 0 ∗ semVal ((c : Thread nD τ), semAt cc13_scratch3 1) 0 ∗ semVal ((c : Thread nD τ), semAt cc13_scratch3 2) 0) := by
  rw [Pipeline.ownSems0_eq_of_list c osem [0, 1, 2] (by decide) (by decide)]; rfl

/-- The grid point's coordinate. -/
abbrev crd (t : Fin (cfg13 a).N) : grid13.Coords := grid13.coords t

/-- The grid is one axis of 62500 points: the coordinate of point `t` is `t`. -/
theorem coord_val (t : Fin (cfg13 a).N) : ((crd a t) 0).val = t.val := by
  have hN : t.val < 62500 := lt_of_lt_of_eq t.isLt N_13
  show t.val / grid13.stride 0 % grid13.bound 0 = t.val
  rw [show grid13.stride 0 = 1 from by decide, Nat.div_one]
  exact Nat.mod_eq_of_lt hN

/-- The branch is taken at the first point and at no other. -/
theorem hcond (t : Fin (cfg13 a).N) : cond0_0 (grid13.coords t) ↔ t.val = 0 := by
  have hN : t.val < 62500 := lt_of_lt_of_eq t.isLt N_13
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg13 a).N) : St (F := F) c :=
  P1.stG tb0 tb1 xM hM c (cfg13 a).N (crd a) (fun t => iblk V a c 0 t) (fun t => iblk V a c 1 t) (fun t => iblk V a c 2 t) (fun t => iblk V a c 3 t) (fun t => iblk V a c 4 t) (T0 a c) (T1 a c) (V c main_arg0) (V c main_v52_0) (fun t => hp0 c (crd a t)) (fun t => hp1 c (crd a t)) n hn

/-- The hidden array before point `n` (after `n` points). -/
def hAt (c : Dev nD) (n : ℕ) (hn : n ≤ (cfg13 a).N) : Bf (F := F) c hM :=
  P1.hG tb0 tb1 xM hM c (cfg13 a).N (crd a) (fun t => iblk V a c 0 t) (fun t => iblk V a c 1 t) (fun t => iblk V a c 2 t) (fun t => iblk V a c 3 t) (fun t => iblk V a c 4 t) (T0 a c) (T1 a c) (V c main_arg0) (V c main_v52_0) (fun t => hp0 c (crd a t)) (fun t => hp1 c (crd a t)) n hn

theorem stAt_zero (c : Dev nD) (t : Fin (cfg13 a).N) (h0 : t.val = 0) :
    stAt V a hp0 hp1 c t.val t.isLt
      = (P1.sumStep tb0 tb1 xM c (cfg13 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k13_pay1 (F := F)), P1.sqStep tb0 tb1 xM c (cfg13 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k13_pay2 (F := F)),
          hNext hM c (crd a t) (V c main_v52_0) (P1.rowStep tb0 tb1 xM c (cfg13 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg13 a).N) (h0 : ¬t.val = 0) :
    stAt V a hp0 hp1 c t.val t.isLt
      = (P1.sumStep tb0 tb1 xM c (cfg13 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg13 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg13 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg13 a).N) (h0 : t.val = 0) (hn) : hAt V a hp0 hp1 c t.val hn = V c main_v52_0 := by
  obtain ⟨n, hlt⟩ := t
  cases n with
  | zero => rfl
  | succ n => exact absurd h0 (Nat.succ_ne_zero n)
theorem hAt_pos (c : Dev nD) (t : Fin (cfg13 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg13 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg13 a).N) : sProp 𝕄 :=
  iprop(Pipeline.scopedRest (Ix := Unit) (Name := ℕ) (U := Pipeline.UD sig nD τ) (Lvl := ℕ) (Val := Elt F) spec13 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg13 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec13 c [cc13_scratch0, cc13_scratch1, cc13_scratch2])
          ∗ (∃ r, prngReg c r)
          ∗ iprop(semVal ((c : Thread nD τ), semAt cc13_scratch3 0) 0 ∗ semVal ((c : Thread nD τ), semAt cc13_scratch3 1) 0 ∗ semVal ((c : Thread nD τ), semAt cc13_scratch3 2) 0)
          ∗ pt c tb0 (T0 a c) ∗ pt c tb1 (T1 a c) ∗ pt c xM (V c main_arg0) ∗ pt c hM (hAt V a hp0 hp1 c n hn)) := by
  unfold Φ1; rw [scopedRest13_split, ownSems0_eq]; simp only [sc0, sc1, sc2, owns_whole]; try rfl

def dat (c : Dev nD) : Dat τ (Elt F) Unit ℕ (Pipeline.UD sig nD τ) ℕ (cfg13 a) c where
  A w := V c (Pipeline.arrRef spec13 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg13 a).W) : (dat V a hp0 hp1 c).A w = V c (Pipeline.arrRef spec13 w) := by
  dsimp only [dat]
theorem after_0 (c : Dev nD) (t : Fin (cfg13 a).N) : (dat V a hp0 hp1 c).after 0 t = iblk V a c 0 t := by dsimp only [dat]; rfl
theorem after_1 (c : Dev nD) (t : Fin (cfg13 a).N) : (dat V a hp0 hp1 c).after 1 t = iblk V a c 1 t := by dsimp only [dat]; rfl
theorem after_2 (c : Dev nD) (t : Fin (cfg13 a).N) : (dat V a hp0 hp1 c).after 2 t = iblk V a c 2 t := by dsimp only [dat]; rfl
theorem after_3 (c : Dev nD) (t : Fin (cfg13 a).N) : (dat V a hp0 hp1 c).after 3 t = iblk V a c 3 t := by dsimp only [dat]; rfl
theorem after_4 (c : Dev nD) (t : Fin (cfg13 a).N) : (dat V a hp0 hp1 c).after 4 t = iblk V a c 4 t := by dsimp only [dat]; rfl
theorem after_5 (c : Dev nD) (t : Fin (cfg13 a).N) : (dat V a hp0 hp1 c).after 5 t = (stAt V a hp0 hp1 c t.val t.isLt).1 := by dsimp only [dat]; rfl
theorem after_6 (c : Dev nD) (t : Fin (cfg13 a).N) : (dat V a hp0 hp1 c).after 6 t = (stAt V a hp0 hp1 c t.val t.isLt).2.1 := by dsimp only [dat]; rfl
theorem before_0 (c : Dev nD) (t : Fin (cfg13 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg13 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg13 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg13 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg13 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg13 a).N) (h : t'.val + 1 < (cfg13 a).N) : ((cfg13 a).win 5).flush t' = false := by
  unfold Pipeline.Window.flush
  rw [Bool.and_eq_false_iff]; right
  rw [Bool.or_eq_false_iff]
  have h' : t'.val + 1 < (cfg13 a).grid.N := h
  exact ⟨decide_eq_false (by omega), decide_eq_false (fun ⟨_, hne⟩ => hne rfl)⟩
theorem before_5_B (c : Dev nD) (t : Fin (cfg13 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg13 a).N) (h : t'.val + 1 < (cfg13 a).N) : ((cfg13 a).win 6).flush t' = false := by
  unfold Pipeline.Window.flush
  rw [Bool.and_eq_false_iff]; right
  rw [Bool.or_eq_false_iff]
  have h' : t'.val + 1 < (cfg13 a).grid.N := h
  exact ⟨decide_eq_false (by omega), decide_eq_false (fun ⟨_, hne⟩ => hne rfl)⟩
theorem before_6_B (c : Dev nD) (t : Fin (cfg13 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg13 a).N) : Prog (TpuEff nD τ sig (Elt F) Λ₀ .tc) PUnit :=
  (cc13__pass1_kernel (grid13.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc13_scratch3)

def bodyPre (c : Dev nD) (t : Fin (cfg13 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg13 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg13 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc13_scratch3 c (grid13.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v52_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc13_scratch3 c (grid13.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W13, bigSep_W13]
  exact sound_body V a hp0 hp1 c t

end Cert.Kernel.P1R13

end
-- ==== Proof.B1R13Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.B1R13Dat
import proofs.«400866_j57071525429608_2_alg».proof.Proof.AssembleBits

set_option maxRecDepth 16384

noncomputable section

namespace Cert.Kernel.P1R13

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Asm (Rr L₀ lv₀)
open Cert.Kernel.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid13.Coords), k13_chk1 (tw0 tb0 c i (T0 (adm 13) c))) (hp1 : ∀ c (i : grid13.Coords), k13_chk2 (tw1 tb1 c i (T1 (adm 13) c)))

/-- The unscoped buffers the body moves itself or reads as tables: no window's array. -/
def H : Finset (Ref sig .tc) := {main_arg0, main_v50, main_v51, main_v52_0}
theorem H_sub : H ⊆ Pipeline.restRefs sig spec13 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v50) ∗ pt c tb1 (W main_v51) ∗ pt c hM (W main_v52_0)) := by
  rw [BI.bigSep_eq_bigSepL_of_eq [main_arg0, main_v50, main_v51, main_v52_0] (by decide) (by decide)]; rfl

/-- The two tables held, listed. -/
theorem pref_eq (c : Dev nD) (T : (pcfgs (F := F) 13).pre.Contents (Elt F)) :
    (Pipeline.prefHeld (Ix := Unit) (Name := ℕ) (U := Pipeline.UD sig nD τ) (Lvl := ℕ) (pcfgs (F := F) 13).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 13) hp0 hp1 c (cfg13 (adm 13)).N le_rfl

/-- The entry valuation with the hidden array at its final contents: what the unscoped rest is at the exit. -/
def Vmid (c : Dev nD) : (b : Ref sig .tc) → Buf (Elt F) ((c : Thread nD τ).loc b) :=
  Function.update (Vin Win c) main_v52_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec13 c W : sProp 𝕄)
      = iprop((bigSep H fun b => ((c : Thread nD τ).loc b) ↦{fullShare} W b) ∗ (bigSep (Pipeline.restRefs sig spec13 \ H) fun b => ((c : Thread nD τ).loc b) ↦{fullShare} W b)) := by
  unfold Pipeline.unscopedRest; exact BI.bigSep_sdiff_split H_sub

set_option maxHeartbeats 4000000 in
def reg (hpd : ∀ c, pdats 13 c = dat (Vin Win) (adm 13) hp0 hp1 c)
    (hT0 : ∀ c, Vin Win c main_v50 = T0 (adm 13) c) (hT1 : ∀ c, Vin Win c main_v51 = T1 (adm 13) c)
    (hF : ∀ c w, (dat (Vin Win) (adm 13) hp0 hp1 c).arrAt w (cfg13 (adm 13)).N = Vout Wout c (Pipeline.arrRef spec13 w))
    (hrest : ∀ c b, b ∉ Finset.univ.image (Pipeline.arrRef spec13) → Vout Wout c b = Vmid adm Win hp0 hp1 c b) :
    Pipeline.RegionSeg (pcfgs (F := F)) adm pdats () defs₀ Variants.none L₀ lv₀ 13 where
  win := winFacts13.to₀
  block_pos := block_pos13
  stage_whole := stage_whole13
  K := Fin 3
  osem := osem
  ho := ownSemFacts
  hbody c := by rw [hpd c]; exact (body_obligation (Vin Win) (adm 13) hp0 hp1 c).loose
  hwaits := Pipeline.hwaits_of_owed_zero _ _ _ _ L₀ lv₀ 13 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v52_0))
  Y c := iprop((∃ r, prngReg c r) ∗ pt c tb0 (T0 (adm 13) c) ∗ pt c tb1 (T1 (adm 13) c) ∗ pt c xM (Vin Win c main_arg0) ∗ pt c hM (hEnd adm Win hp0 hp1 c))
  Z c := bigSep (Pipeline.restRefs sig spec13 \ H) fun b => ((c : Thread nD τ).loc b) ↦{fullShare} Vin Win c b
  hentry c := by
    have hsplit : (StableHlo.held (c : Thread nD τ) (Pipeline.ucRefs τ sig) (Win c) : sProp 𝕄)
        ⊢ iprop((pdats 13 c).arrays ((pdats 13 c).arrAt · 0) ∗ Pipeline.unscopedRest (Ix := Unit) (Name := ℕ) (U := Pipeline.UD sig nD τ) (Lvl := ℕ) spec13 c (Vin Win c)) := by
      have h := Pipeline.arrays_of_unscopedBufs (p := 13) (pcfgs (F := F)) adm pdats winFacts13 arr_whole13 c
        (by rw [hpd c]; exact (dat (Vin Win) (adm 13) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 13 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 13) hp0 hp1 c 0 (Nat.zero_le _)
    unfold Φ1
    rw [pref_eq, show hAt (Vin Win) (adm 13) hp0 hp1 c 0 (Nat.zero_le _) = Vin Win c main_v52_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 13) hp0 hp1 c (cfg13 (adm 13)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 13 c).arrays ((pdats 13 c).arrAt · (cfg13 (adm 13)).N) ∗ Pipeline.unscopedRest (Ix := Unit) (Name := ℕ) (U := Pipeline.UD sig nD τ) (Lvl := ℕ) spec13 c (Vmid adm Win hp0 hp1 c))
        ⊢ (StableHlo.held (c : Thread nD τ) (Pipeline.ucRefs τ sig) (Wout c) : sProp 𝕄) := by
      have h := Pipeline.unscopedBufs_of_arrays (p := 13) (pcfgs (F := F)) adm (Ix := Unit) (Name := ℕ) (U := Pipeline.UD sig nD τ) (Lvl := ℕ)
        winFacts13 arr_whole13 c pdats (by rw [hpd c]; exact (dat (Vin Win) (adm 13) hp0 hp1 c).share_full fun _ => rfl)
        (Vmid adm Win hp0 hp1 c) (Vout Wout c) ((pdats 13 c).arrAt · (cfg13 (adm 13)).N) (by rw [hpd c]; exact hF c) (hrest c)
      rw [Pipeline.unscopedBufs_held] at h; exact h
    rw [rest_split, Hpts_eq] at hjoin
    have hZ : (bigSep (Pipeline.restRefs sig spec13 \ H) fun b => ((c : Thread nD τ).loc b) ↦{fullShare} Vin Win c b : sProp 𝕄)
        = (bigSep (Pipeline.restRefs sig spec13 \ H) fun b => ((c : Thread nD τ).loc b) ↦{fullShare} Vmid adm Win hp0 hp1 c b) :=
      bigSep_congr fun b hb => by
        have hne : b ≠ main_v52_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v50 = Vin Win c main_v50 := by unfold Vmid; exact Function.update_of_ne (by decide) _ _
    have e2 : Vmid adm Win hp0 hp1 c main_v51 = Vin Win c main_v51 := by unfold Vmid; exact Function.update_of_ne (by decide) _ _
    have e3 : Vmid adm Win hp0 hp1 c main_v52_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 13 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.Kernel.P1R13

end
-- ==== Proof.B1R14Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.B1Body
import proofs.«400866_j57071525429608_2_alg».proof.Proof.B1State
import proofs.«400866_j57071525429608_2_alg».proof.Proof.B1Kern

set_option maxRecDepth 100000

noncomputable section

namespace Cert.Kernel.P1R14

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc14__pass1_kernel (F := F) = P1.kern := rfl

-- The buffer contents when the region is entered, and the admissible index tables.
variable (V : (c : Dev nD) → (b : Ref sig .tc) → Buf (Elt F) ((c : Thread nD τ).loc b))
variable (a : (pcfg14 (F := F)).Adm)

/-- The two index tables, the node-feature array and the hidden array, as the body is handed them. -/
abbrev tb0 : Memref sig .tc .smem S62500 .i32 := Memref.whole main_v53
abbrev tb1 : Memref sig .tc .smem S62500 .i32 := Memref.whole main_v54
abbrev xM : Memref sig .tc .hbm S100000x128 .f32 := Memref.whole main_arg0
abbrev hM : Memref sig .tc .hbm S62500x64 .f32 := Memref.whole main_v55_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid14.Coords), k14_chk1 (tw0 tb0 c i (T0 a c))) (hp1 : ∀ c (i : grid14.Coords), k14_chk2 (tw1 tb1 c i (T1 a c)))

/-- Window `w`'s block at point `t`, read off its array as the region finds it. -/
def iblk (c : Dev nD) (w : Fin (cfg14 a).W) (t : Fin (cfg14 a).N) : (((cfg14 a).win w).xblock ((cfg14 a).grid.coords t)).Idx → Elt F ((cfg14 a).win w).elt :=
  (((cfg14 a).win w).blk t).view.read (Elt F) (V c (Pipeline.arrRef spec14 w))

/-- Each window's current staging memref at point `t`, as the pipeline passes it to the body. -/
abbrev ms0 (t : Fin (cfg14 a).N) : Memref sig .tc .vmem S64x128 .f32 := spec14_0.stage ((cfg14 a).slots t 0)
abbrev hs0 (t : Fin (cfg14 a).N) : (ms0 a t).IsWhole := hstage14_0 (((cfg14 a).slots t 0).cast nbuf14_0)
abbrev ms1 (t : Fin (cfg14 a).N) : Memref sig .tc .vmem S64x128 .f32 := spec14_1.stage ((cfg14 a).slots t 1)
abbrev hs1 (t : Fin (cfg14 a).N) : (ms1 a t).IsWhole := hstage14_1 (((cfg14 a).slots t 1).cast nbuf14_1)
abbrev ms2 (t : Fin (cfg14 a).N) : Memref sig .tc .vmem S1x64 .f32 := spec14_2.stage ((cfg14 a).slots t 2)
abbrev hs2 (t : Fin (cfg14 a).N) : (ms2 a t).IsWhole := hstage14_2 (((cfg14 a).slots t 2).cast nbuf14_2)
abbrev ms3 (t : Fin (cfg14 a).N) : Memref sig .tc .vmem S64x64 .f32 := spec14_3.stage ((cfg14 a).slots t 3)
abbrev hs3 (t : Fin (cfg14 a).N) : (ms3 a t).IsWhole := hstage14_3 (((cfg14 a).slots t 3).cast nbuf14_3)
abbrev ms4 (t : Fin (cfg14 a).N) : Memref sig .tc .vmem S1x64 .f32 := spec14_4.stage ((cfg14 a).slots t 4)
abbrev hs4 (t : Fin (cfg14 a).N) : (ms4 a t).IsWhole := hstage14_4 (((cfg14 a).slots t 4).cast nbuf14_4)
abbrev ms5 (t : Fin (cfg14 a).N) : Memref sig .tc .vmem S1x64 .f32 := spec14_5.stage ((cfg14 a).slots t 5)
abbrev hs5 (t : Fin (cfg14 a).N) : (ms5 a t).IsWhole := hstage14_5 (((cfg14 a).slots t 5).cast nbuf14_5)
abbrev ms6 (t : Fin (cfg14 a).N) : Memref sig .tc .vmem S1x64 .f32 := spec14_6.stage ((cfg14 a).slots t 6)
abbrev hs6 (t : Fin (cfg14 a).N) : (ms6 a t).IsWhole := hstage14_6 (((cfg14 a).slots t 6).cast nbuf14_6)
/-- The three scratch buffers (the two gathered rows and the hidden row). -/
abbrev sc0 : Memref sig .tc .vmem S1x128 .f32 := Memref.whole cc14_scratch0
abbrev sc1 : Memref sig .tc .vmem S1x128 .f32 := Memref.whole cc14_scratch1
abbrev sc2 : Memref sig .tc .vmem S1x64 .f32 := Memref.whole cc14_scratch2

/-- The body's own three copy semaphores. -/
abbrev osem : Fin 3 → SemLoc sig := fun j => (![SemLoc.dma 147, SemLoc.dma 148, SemLoc.dma 149] : Fin 3 → SemLoc sig) j
theorem ownSemFacts : Pipeline.OwnSemFacts spec14 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc14_scratch3 0) 0 ∗ semVal ((c : Thread nD τ), semAt cc14_scratch3 1) 0 ∗ semVal ((c : Thread nD τ), semAt cc14_scratch3 2) 0) := by
  rw [Pipeline.ownSems0_eq_of_list c osem [0, 1, 2] (by decide) (by decide)]; rfl

/-- The grid point's coordinate. -/
abbrev crd (t : Fin (cfg14 a).N) : grid14.Coords := grid14.coords t

/-- The grid is one axis of 62500 points: the coordinate of point `t` is `t`. -/
theorem coord_val (t : Fin (cfg14 a).N) : ((crd a t) 0).val = t.val := by
  have hN : t.val < 62500 := lt_of_lt_of_eq t.isLt N_14
  show t.val / grid14.stride 0 % grid14.bound 0 = t.val
  rw [show grid14.stride 0 = 1 from by decide, Nat.div_one]
  exact Nat.mod_eq_of_lt hN

/-- The branch is taken at the first point and at no other. -/
theorem hcond (t : Fin (cfg14 a).N) : cond0_0 (grid14.coords t) ↔ t.val = 0 := by
  have hN : t.val < 62500 := lt_of_lt_of_eq t.isLt N_14
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg14 a).N) : St (F := F) c :=
  P1.stG tb0 tb1 xM hM c (cfg14 a).N (crd a) (fun t => iblk V a c 0 t) (fun t => iblk V a c 1 t) (fun t => iblk V a c 2 t) (fun t => iblk V a c 3 t) (fun t => iblk V a c 4 t) (T0 a c) (T1 a c) (V c main_arg0) (V c main_v55_0) (fun t => hp0 c (crd a t)) (fun t => hp1 c (crd a t)) n hn

/-- The hidden array before point `n` (after `n` points). -/
def hAt (c : Dev nD) (n : ℕ) (hn : n ≤ (cfg14 a).N) : Bf (F := F) c hM :=
  P1.hG tb0 tb1 xM hM c (cfg14 a).N (crd a) (fun t => iblk V a c 0 t) (fun t => iblk V a c 1 t) (fun t => iblk V a c 2 t) (fun t => iblk V a c 3 t) (fun t => iblk V a c 4 t) (T0 a c) (T1 a c) (V c main_arg0) (V c main_v55_0) (fun t => hp0 c (crd a t)) (fun t => hp1 c (crd a t)) n hn

theorem stAt_zero (c : Dev nD) (t : Fin (cfg14 a).N) (h0 : t.val = 0) :
    stAt V a hp0 hp1 c t.val t.isLt
      = (P1.sumStep tb0 tb1 xM c (cfg14 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k14_pay1 (F := F)), P1.sqStep tb0 tb1 xM c (cfg14 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k14_pay2 (F := F)),
          hNext hM c (crd a t) (V c main_v55_0) (P1.rowStep tb0 tb1 xM c (cfg14 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg14 a).N) (h0 : ¬t.val = 0) :
    stAt V a hp0 hp1 c t.val t.isLt
      = (P1.sumStep tb0 tb1 xM c (cfg14 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg14 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg14 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg14 a).N) (h0 : t.val = 0) (hn) : hAt V a hp0 hp1 c t.val hn = V c main_v55_0 := by
  obtain ⟨n, hlt⟩ := t
  cases n with
  | zero => rfl
  | succ n => exact absurd h0 (Nat.succ_ne_zero n)
theorem hAt_pos (c : Dev nD) (t : Fin (cfg14 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg14 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg14 a).N) : sProp 𝕄 :=
  iprop(Pipeline.scopedRest (Ix := Unit) (Name := ℕ) (U := Pipeline.UD sig nD τ) (Lvl := ℕ) (Val := Elt F) spec14 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg14 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec14 c [cc14_scratch0, cc14_scratch1, cc14_scratch2])
          ∗ (∃ r, prngReg c r)
          ∗ iprop(semVal ((c : Thread nD τ), semAt cc14_scratch3 0) 0 ∗ semVal ((c : Thread nD τ), semAt cc14_scratch3 1) 0 ∗ semVal ((c : Thread nD τ), semAt cc14_scratch3 2) 0)
          ∗ pt c tb0 (T0 a c) ∗ pt c tb1 (T1 a c) ∗ pt c xM (V c main_arg0) ∗ pt c hM (hAt V a hp0 hp1 c n hn)) := by
  unfold Φ1; rw [scopedRest14_split, ownSems0_eq]; simp only [sc0, sc1, sc2, owns_whole]; try rfl

def dat (c : Dev nD) : Dat τ (Elt F) Unit ℕ (Pipeline.UD sig nD τ) ℕ (cfg14 a) c where
  A w := V c (Pipeline.arrRef spec14 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg14 a).W) : (dat V a hp0 hp1 c).A w = V c (Pipeline.arrRef spec14 w) := by
  dsimp only [dat]
theorem after_0 (c : Dev nD) (t : Fin (cfg14 a).N) : (dat V a hp0 hp1 c).after 0 t = iblk V a c 0 t := by dsimp only [dat]; rfl
theorem after_1 (c : Dev nD) (t : Fin (cfg14 a).N) : (dat V a hp0 hp1 c).after 1 t = iblk V a c 1 t := by dsimp only [dat]; rfl
theorem after_2 (c : Dev nD) (t : Fin (cfg14 a).N) : (dat V a hp0 hp1 c).after 2 t = iblk V a c 2 t := by dsimp only [dat]; rfl
theorem after_3 (c : Dev nD) (t : Fin (cfg14 a).N) : (dat V a hp0 hp1 c).after 3 t = iblk V a c 3 t := by dsimp only [dat]; rfl
theorem after_4 (c : Dev nD) (t : Fin (cfg14 a).N) : (dat V a hp0 hp1 c).after 4 t = iblk V a c 4 t := by dsimp only [dat]; rfl
theorem after_5 (c : Dev nD) (t : Fin (cfg14 a).N) : (dat V a hp0 hp1 c).after 5 t = (stAt V a hp0 hp1 c t.val t.isLt).1 := by dsimp only [dat]; rfl
theorem after_6 (c : Dev nD) (t : Fin (cfg14 a).N) : (dat V a hp0 hp1 c).after 6 t = (stAt V a hp0 hp1 c t.val t.isLt).2.1 := by dsimp only [dat]; rfl
theorem before_0 (c : Dev nD) (t : Fin (cfg14 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg14 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg14 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg14 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg14 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg14 a).N) (h : t'.val + 1 < (cfg14 a).N) : ((cfg14 a).win 5).flush t' = false := by
  unfold Pipeline.Window.flush
  rw [Bool.and_eq_false_iff]; right
  rw [Bool.or_eq_false_iff]
  have h' : t'.val + 1 < (cfg14 a).grid.N := h
  exact ⟨decide_eq_false (by omega), decide_eq_false (fun ⟨_, hne⟩ => hne rfl)⟩
theorem before_5_B (c : Dev nD) (t : Fin (cfg14 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg14 a).N) (h : t'.val + 1 < (cfg14 a).N) : ((cfg14 a).win 6).flush t' = false := by
  unfold Pipeline.Window.flush
  rw [Bool.and_eq_false_iff]; right
  rw [Bool.or_eq_false_iff]
  have h' : t'.val + 1 < (cfg14 a).grid.N := h
  exact ⟨decide_eq_false (by omega), decide_eq_false (fun ⟨_, hne⟩ => hne rfl)⟩
theorem before_6_B (c : Dev nD) (t : Fin (cfg14 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg14 a).N) : Prog (TpuEff nD τ sig (Elt F) Λ₀ .tc) PUnit :=
  (cc14__pass1_kernel (grid14.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc14_scratch3)

def bodyPre (c : Dev nD) (t : Fin (cfg14 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg14 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg14 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc14_scratch3 c (grid14.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v55_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc14_scratch3 c (grid14.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W14, bigSep_W14]
  exact sound_body V a hp0 hp1 c t

end Cert.Kernel.P1R14

end
-- ==== Proof.B1R14Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.B1R14Dat
import proofs.«400866_j57071525429608_2_alg».proof.Proof.AssembleBits

set_option maxRecDepth 16384

noncomputable section

namespace Cert.Kernel.P1R14

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Asm (Rr L₀ lv₀)
open Cert.Kernel.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid14.Coords), k14_chk1 (tw0 tb0 c i (T0 (adm 14) c))) (hp1 : ∀ c (i : grid14.Coords), k14_chk2 (tw1 tb1 c i (T1 (adm 14) c)))

/-- The unscoped buffers the body moves itself or reads as tables: no window's array. -/
def H : Finset (Ref sig .tc) := {main_arg0, main_v53, main_v54, main_v55_0}
theorem H_sub : H ⊆ Pipeline.restRefs sig spec14 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v53) ∗ pt c tb1 (W main_v54) ∗ pt c hM (W main_v55_0)) := by
  rw [BI.bigSep_eq_bigSepL_of_eq [main_arg0, main_v53, main_v54, main_v55_0] (by decide) (by decide)]; rfl

/-- The two tables held, listed. -/
theorem pref_eq (c : Dev nD) (T : (pcfgs (F := F) 14).pre.Contents (Elt F)) :
    (Pipeline.prefHeld (Ix := Unit) (Name := ℕ) (U := Pipeline.UD sig nD τ) (Lvl := ℕ) (pcfgs (F := F) 14).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 14) hp0 hp1 c (cfg14 (adm 14)).N le_rfl

/-- The entry valuation with the hidden array at its final contents: what the unscoped rest is at the exit. -/
def Vmid (c : Dev nD) : (b : Ref sig .tc) → Buf (Elt F) ((c : Thread nD τ).loc b) :=
  Function.update (Vin Win c) main_v55_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec14 c W : sProp 𝕄)
      = iprop((bigSep H fun b => ((c : Thread nD τ).loc b) ↦{fullShare} W b) ∗ (bigSep (Pipeline.restRefs sig spec14 \ H) fun b => ((c : Thread nD τ).loc b) ↦{fullShare} W b)) := by
  unfold Pipeline.unscopedRest; exact BI.bigSep_sdiff_split H_sub

set_option maxHeartbeats 4000000 in
def reg (hpd : ∀ c, pdats 14 c = dat (Vin Win) (adm 14) hp0 hp1 c)
    (hT0 : ∀ c, Vin Win c main_v53 = T0 (adm 14) c) (hT1 : ∀ c, Vin Win c main_v54 = T1 (adm 14) c)
    (hF : ∀ c w, (dat (Vin Win) (adm 14) hp0 hp1 c).arrAt w (cfg14 (adm 14)).N = Vout Wout c (Pipeline.arrRef spec14 w))
    (hrest : ∀ c b, b ∉ Finset.univ.image (Pipeline.arrRef spec14) → Vout Wout c b = Vmid adm Win hp0 hp1 c b) :
    Pipeline.RegionSeg (pcfgs (F := F)) adm pdats () defs₀ Variants.none L₀ lv₀ 14 where
  win := winFacts14.to₀
  block_pos := block_pos14
  stage_whole := stage_whole14
  K := Fin 3
  osem := osem
  ho := ownSemFacts
  hbody c := by rw [hpd c]; exact (body_obligation (Vin Win) (adm 14) hp0 hp1 c).loose
  hwaits := Pipeline.hwaits_of_owed_zero _ _ _ _ L₀ lv₀ 14 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v55_0))
  Y c := iprop((∃ r, prngReg c r) ∗ pt c tb0 (T0 (adm 14) c) ∗ pt c tb1 (T1 (adm 14) c) ∗ pt c xM (Vin Win c main_arg0) ∗ pt c hM (hEnd adm Win hp0 hp1 c))
  Z c := bigSep (Pipeline.restRefs sig spec14 \ H) fun b => ((c : Thread nD τ).loc b) ↦{fullShare} Vin Win c b
  hentry c := by
    have hsplit : (StableHlo.held (c : Thread nD τ) (Pipeline.ucRefs τ sig) (Win c) : sProp 𝕄)
        ⊢ iprop((pdats 14 c).arrays ((pdats 14 c).arrAt · 0) ∗ Pipeline.unscopedRest (Ix := Unit) (Name := ℕ) (U := Pipeline.UD sig nD τ) (Lvl := ℕ) spec14 c (Vin Win c)) := by
      have h := Pipeline.arrays_of_unscopedBufs (p := 14) (pcfgs (F := F)) adm pdats winFacts14 arr_whole14 c
        (by rw [hpd c]; exact (dat (Vin Win) (adm 14) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 14 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 14) hp0 hp1 c 0 (Nat.zero_le _)
    unfold Φ1
    rw [pref_eq, show hAt (Vin Win) (adm 14) hp0 hp1 c 0 (Nat.zero_le _) = Vin Win c main_v55_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 14) hp0 hp1 c (cfg14 (adm 14)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 14 c).arrays ((pdats 14 c).arrAt · (cfg14 (adm 14)).N) ∗ Pipeline.unscopedRest (Ix := Unit) (Name := ℕ) (U := Pipeline.UD sig nD τ) (Lvl := ℕ) spec14 c (Vmid adm Win hp0 hp1 c))
        ⊢ (StableHlo.held (c : Thread nD τ) (Pipeline.ucRefs τ sig) (Wout c) : sProp 𝕄) := by
      have h := Pipeline.unscopedBufs_of_arrays (p := 14) (pcfgs (F := F)) adm (Ix := Unit) (Name := ℕ) (U := Pipeline.UD sig nD τ) (Lvl := ℕ)
        winFacts14 arr_whole14 c pdats (by rw [hpd c]; exact (dat (Vin Win) (adm 14) hp0 hp1 c).share_full fun _ => rfl)
        (Vmid adm Win hp0 hp1 c) (Vout Wout c) ((pdats 14 c).arrAt · (cfg14 (adm 14)).N) (by rw [hpd c]; exact hF c) (hrest c)
      rw [Pipeline.unscopedBufs_held] at h; exact h
    rw [rest_split, Hpts_eq] at hjoin
    have hZ : (bigSep (Pipeline.restRefs sig spec14 \ H) fun b => ((c : Thread nD τ).loc b) ↦{fullShare} Vin Win c b : sProp 𝕄)
        = (bigSep (Pipeline.restRefs sig spec14 \ H) fun b => ((c : Thread nD τ).loc b) ↦{fullShare} Vmid adm Win hp0 hp1 c b) :=
      bigSep_congr fun b hb => by
        have hne : b ≠ main_v55_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v53 = Vin Win c main_v53 := by unfold Vmid; exact Function.update_of_ne (by decide) _ _
    have e2 : Vmid adm Win hp0 hp1 c main_v54 = Vin Win c main_v54 := by unfold Vmid; exact Function.update_of_ne (by decide) _ _
    have e3 : Vmid adm Win hp0 hp1 c main_v55_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 14 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.Kernel.P1R14

end
-- ==== Proof.B1R15Dat.lean ====
/-
  A gather-and-project region (one chunk of 62500 edges): its index tables, node-feature array, hidden array and copy
  semaphores; what its two accumulators and the hidden array hold after each grid point (the shared recursion over the
  points, read at this region's blocks and tables); the pipeline's proof data over that; and the body obligation at a
  generic point, from the shared runs of the kernel body.
-/
import proofs.«400866_j57071525429608_2_alg».proof.Proof.B1Body
import proofs.«400866_j57071525429608_2_alg».proof.Proof.B1State
import proofs.«400866_j57071525429608_2_alg».proof.Proof.B1Kern

set_option maxRecDepth 100000

noncomputable section

namespace Cert.Kernel.P1R15

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.P1 (Bf pt cond0_0 semAt tw0 tw1 hNext)

variable {F : FTy → Type} [FloatOps F]

local notation "𝕄" => MT nD τ sig Unit (Elt F) ℕ (Pipeline.UD sig nD τ) ℕ

/-- This launch's kernel function is the shared one. -/
theorem kernel_eq : cc15__pass1_kernel (F := F) = P1.kern := rfl

-- The buffer contents when the region is entered, and the admissible index tables.
variable (V : (c : Dev nD) → (b : Ref sig .tc) → Buf (Elt F) ((c : Thread nD τ).loc b))
variable (a : (pcfg15 (F := F)).Adm)

/-- The two index tables, the node-feature array and the hidden array, as the body is handed them. -/
abbrev tb0 : Memref sig .tc .smem S62500 .i32 := Memref.whole main_v56
abbrev tb1 : Memref sig .tc .smem S62500 .i32 := Memref.whole main_v57
abbrev xM : Memref sig .tc .hbm S100000x128 .f32 := Memref.whole main_arg0
abbrev hM : Memref sig .tc .hbm S62500x64 .f32 := Memref.whole main_v58_0

/-- The two index tables as the region holds them. -/
abbrev T0 (c : Dev nD) : Bf (F := F) c tb0 := a.1 0
abbrev T1 (c : Dev nD) : Bf (F := F) c tb1 := a.1 1

-- What the body assumes of the word it reads from each table at a point: it names a row of the node-feature array.
variable (hp0 : ∀ c (i : grid15.Coords), k15_chk1 (tw0 tb0 c i (T0 a c))) (hp1 : ∀ c (i : grid15.Coords), k15_chk2 (tw1 tb1 c i (T1 a c)))

/-- Window `w`'s block at point `t`, read off its array as the region finds it. -/
def iblk (c : Dev nD) (w : Fin (cfg15 a).W) (t : Fin (cfg15 a).N) : (((cfg15 a).win w).xblock ((cfg15 a).grid.coords t)).Idx → Elt F ((cfg15 a).win w).elt :=
  (((cfg15 a).win w).blk t).view.read (Elt F) (V c (Pipeline.arrRef spec15 w))

/-- Each window's current staging memref at point `t`, as the pipeline passes it to the body. -/
abbrev ms0 (t : Fin (cfg15 a).N) : Memref sig .tc .vmem S64x128 .f32 := spec15_0.stage ((cfg15 a).slots t 0)
abbrev hs0 (t : Fin (cfg15 a).N) : (ms0 a t).IsWhole := hstage15_0 (((cfg15 a).slots t 0).cast nbuf15_0)
abbrev ms1 (t : Fin (cfg15 a).N) : Memref sig .tc .vmem S64x128 .f32 := spec15_1.stage ((cfg15 a).slots t 1)
abbrev hs1 (t : Fin (cfg15 a).N) : (ms1 a t).IsWhole := hstage15_1 (((cfg15 a).slots t 1).cast nbuf15_1)
abbrev ms2 (t : Fin (cfg15 a).N) : Memref sig .tc .vmem S1x64 .f32 := spec15_2.stage ((cfg15 a).slots t 2)
abbrev hs2 (t : Fin (cfg15 a).N) : (ms2 a t).IsWhole := hstage15_2 (((cfg15 a).slots t 2).cast nbuf15_2)
abbrev ms3 (t : Fin (cfg15 a).N) : Memref sig .tc .vmem S64x64 .f32 := spec15_3.stage ((cfg15 a).slots t 3)
abbrev hs3 (t : Fin (cfg15 a).N) : (ms3 a t).IsWhole := hstage15_3 (((cfg15 a).slots t 3).cast nbuf15_3)
abbrev ms4 (t : Fin (cfg15 a).N) : Memref sig .tc .vmem S1x64 .f32 := spec15_4.stage ((cfg15 a).slots t 4)
abbrev hs4 (t : Fin (cfg15 a).N) : (ms4 a t).IsWhole := hstage15_4 (((cfg15 a).slots t 4).cast nbuf15_4)
abbrev ms5 (t : Fin (cfg15 a).N) : Memref sig .tc .vmem S1x64 .f32 := spec15_5.stage ((cfg15 a).slots t 5)
abbrev hs5 (t : Fin (cfg15 a).N) : (ms5 a t).IsWhole := hstage15_5 (((cfg15 a).slots t 5).cast nbuf15_5)
abbrev ms6 (t : Fin (cfg15 a).N) : Memref sig .tc .vmem S1x64 .f32 := spec15_6.stage ((cfg15 a).slots t 6)
abbrev hs6 (t : Fin (cfg15 a).N) : (ms6 a t).IsWhole := hstage15_6 (((cfg15 a).slots t 6).cast nbuf15_6)
/-- The three scratch buffers (the two gathered rows and the hidden row). -/
abbrev sc0 : Memref sig .tc .vmem S1x128 .f32 := Memref.whole cc15_scratch0
abbrev sc1 : Memref sig .tc .vmem S1x128 .f32 := Memref.whole cc15_scratch1
abbrev sc2 : Memref sig .tc .vmem S1x64 .f32 := Memref.whole cc15_scratch2

/-- The body's own three copy semaphores. -/
abbrev osem : Fin 3 → SemLoc sig := fun j => (![SemLoc.dma 157, SemLoc.dma 158, SemLoc.dma 159] : Fin 3 → SemLoc sig) j
theorem ownSemFacts : Pipeline.OwnSemFacts spec15 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), semAt cc15_scratch3 0) 0 ∗ semVal ((c : Thread nD τ), semAt cc15_scratch3 1) 0 ∗ semVal ((c : Thread nD τ), semAt cc15_scratch3 2) 0) := by
  rw [Pipeline.ownSems0_eq_of_list c osem [0, 1, 2] (by decide) (by decide)]; rfl

/-- The grid point's coordinate. -/
abbrev crd (t : Fin (cfg15 a).N) : grid15.Coords := grid15.coords t

/-- The grid is one axis of 62500 points: the coordinate of point `t` is `t`. -/
theorem coord_val (t : Fin (cfg15 a).N) : ((crd a t) 0).val = t.val := by
  have hN : t.val < 62500 := lt_of_lt_of_eq t.isLt N_15
  show t.val / grid15.stride 0 % grid15.bound 0 = t.val
  rw [show grid15.stride 0 = 1 from by decide, Nat.div_one]
  exact Nat.mod_eq_of_lt hN

/-- The branch is taken at the first point and at no other. -/
theorem hcond (t : Fin (cfg15 a).N) : cond0_0 (grid15.coords t) ↔ t.val = 0 := by
  have hN : t.val < 62500 := lt_of_lt_of_eq t.isLt N_15
  unfold cond0_0
  rw [coord_val a t]
  constructor
  · intro h
    by_contra hne
    have hb : (BitVec.ofNat 32 t.val == 0#32) = false := by
      rw [beq_eq_false_iff_ne]
      intro h0
      have := congrArg BitVec.toNat h0
      simp only [BitVec.toNat_ofNat, BitVec.toNat_zero] at this
      omega
    simp only [Scalar.cmpi, IntOp.cmpi, Scalar.extui, hb] at h
    exact absurd h (by decide)
  · intro h0
    rw [h0]; decide

/-- What a point leaves: the two accumulators and the hidden array. -/
abbrev St (c : Dev nD) : Type := Vec F S1x64 .f32 × Vec F S1x64 .f32 × Bf (F := F) c hM

/-- THE ACCUMULATION: the state after the body at position `n` — the shared recursion at this region's blocks and tables. -/
def stAt (c : Dev nD) (n : ℕ) (hn : n < (cfg15 a).N) : St (F := F) c :=
  P1.stG tb0 tb1 xM hM c (cfg15 a).N (crd a) (fun t => iblk V a c 0 t) (fun t => iblk V a c 1 t) (fun t => iblk V a c 2 t) (fun t => iblk V a c 3 t) (fun t => iblk V a c 4 t) (T0 a c) (T1 a c) (V c main_arg0) (V c main_v58_0) (fun t => hp0 c (crd a t)) (fun t => hp1 c (crd a t)) n hn

/-- The hidden array before point `n` (after `n` points). -/
def hAt (c : Dev nD) (n : ℕ) (hn : n ≤ (cfg15 a).N) : Bf (F := F) c hM :=
  P1.hG tb0 tb1 xM hM c (cfg15 a).N (crd a) (fun t => iblk V a c 0 t) (fun t => iblk V a c 1 t) (fun t => iblk V a c 2 t) (fun t => iblk V a c 3 t) (fun t => iblk V a c 4 t) (T0 a c) (T1 a c) (V c main_arg0) (V c main_v58_0) (fun t => hp0 c (crd a t)) (fun t => hp1 c (crd a t)) n hn

theorem stAt_zero (c : Dev nD) (t : Fin (cfg15 a).N) (h0 : t.val = 0) :
    stAt V a hp0 hp1 c t.val t.isLt
      = (P1.sumStep tb0 tb1 xM c (cfg15 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k15_pay1 (F := F)), P1.sqStep tb0 tb1 xM c (cfg15 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (k15_pay2 (F := F)),
          hNext hM c (crd a t) (V c main_v58_0) (P1.rowStep tb0 tb1 xM c (cfg15 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => rfl
  | succ n => exact absurd h0 (Nat.succ_ne_zero n)

theorem stAt_succ (c : Dev nD) (t : Fin (cfg15 a).N) (h0 : ¬t.val = 0) :
    stAt V a hp0 hp1 c t.val t.isLt
      = (P1.sumStep tb0 tb1 xM c (cfg15 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).1,
          P1.sqStep tb0 tb1 xM c (cfg15 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t (stAt V a hp0 hp1 c (t.val - 1) (Nat.lt_of_le_of_lt (Nat.sub_le _ _) t.isLt)).2.1,
          hNext hM c (crd a t) (stAt V a hp0 hp1 c (t.val - 1) (Nat.lt_of_le_of_lt (Nat.sub_le _ _) t.isLt)).2.2 (P1.rowStep tb0 tb1 xM c (cfg15 a).N (crd a) (fun t => iblk V a c 0 t) (fun t => iblk V a c 1 t) (fun t => iblk V a c 2 t) (fun t => iblk V a c 3 t) (fun t => iblk V a c 4 t) (T0 a c) (T1 a c) (V c main_arg0) (fun t => hp0 c (crd a t)) (fun t => hp1 c (crd a t)) t)) := by
  obtain ⟨n, hn⟩ := t
  cases n with
  | zero => exact absurd rfl h0
  | succ n => rfl

theorem hAt_zero (c : Dev nD) (t : Fin (cfg15 a).N) (h0 : t.val = 0) (hn) : hAt V a hp0 hp1 c t.val hn = V c main_v58_0 := by
  obtain ⟨n, hlt⟩ := t
  cases n with
  | zero => rfl
  | succ n => exact absurd h0 (Nat.succ_ne_zero n)
theorem hAt_pos (c : Dev nD) (t : Fin (cfg15 a).N) (h0 : ¬t.val = 0) (hn) :
    hAt V a hp0 hp1 c t.val hn = (stAt V a hp0 hp1 c (t.val - 1) (Nat.lt_of_le_of_lt (Nat.sub_le _ _) t.isLt)).2.2 := by
  obtain ⟨n, hlt⟩ := t
  cases n with
  | zero => exact absurd rfl h0
  | succ n => rfl
theorem hAt_succ (c : Dev nD) (n : ℕ) (hn : n < (cfg15 a).N) : hAt V a hp0 hp1 c (n + 1) hn = (stAt V a hp0 hp1 c n hn).2.2 := rfl

/-! ## The pipeline's proof data -/

/-- The invariant before point `n`: the scoped rest, the generator register, the three own semaphores at zero, the two
    tables and the node-feature array as found, and the hidden array with its first `n` rows written. -/
def Φ1 (c : Dev nD) (n : ℕ) (hn : n ≤ (cfg15 a).N) : sProp 𝕄 :=
  iprop(Pipeline.scopedRest (Ix := Unit) (Name := ℕ) (U := Pipeline.UD sig nD τ) (Lvl := ℕ) (Val := Elt F) spec15 c ∗ (∃ r, prngReg c r)
    ∗ Pipeline.ownSems0 (Ix := Unit) (Name := ℕ) (U := Pipeline.UD sig nD τ) (Lvl := ℕ) (Val := Elt F) (τ := τ) osem c
    ∗ pt c tb0 (T0 a c) ∗ pt c tb1 (T1 a c) ∗ pt c xM (V c main_arg0) ∗ pt c hM (hAt V a hp0 hp1 c n hn))

/-- The invariant, conjunct by conjunct, in the form the runs take it. -/
theorem Φ1_eq (c : Dev nD) (n : ℕ) (hn : n ≤ (cfg15 a).N) :
    Φ1 V a hp0 hp1 c n hn
      = iprop(iprop(iprop((∃ d, owns (c : Thread nD τ) sc0 fullShare d) ∗ (∃ d, owns (c : Thread nD τ) sc1 fullShare d) ∗ (∃ d, owns (c : Thread nD τ) sc2 fullShare d))
            ∗ Pipeline.scopedRestBut (Ix := Unit) (Name := ℕ) (U := Pipeline.UD sig nD τ) (Lvl := ℕ) (Val := Elt F) spec15 c [cc15_scratch0, cc15_scratch1, cc15_scratch2])
          ∗ (∃ r, prngReg c r)
          ∗ iprop(semVal ((c : Thread nD τ), semAt cc15_scratch3 0) 0 ∗ semVal ((c : Thread nD τ), semAt cc15_scratch3 1) 0 ∗ semVal ((c : Thread nD τ), semAt cc15_scratch3 2) 0)
          ∗ pt c tb0 (T0 a c) ∗ pt c tb1 (T1 a c) ∗ pt c xM (V c main_arg0) ∗ pt c hM (hAt V a hp0 hp1 c n hn)) := by
  unfold Φ1; rw [scopedRest15_split, ownSems0_eq]; simp only [sc0, sc1, sc2, owns_whole]; try rfl

def dat (c : Dev nD) : Dat τ (Elt F) Unit ℕ (Pipeline.UD sig nD τ) ℕ (cfg15 a) c where
  A w := V c (Pipeline.arrRef spec15 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => (stAt V a hp0 hp1 c t.val t.isLt).1
    | ⟨6, _⟩ => (stAt V a hp0 hp1 c t.val t.isLt).2.1
    | ⟨_ + 7, h⟩ => absurd h (Nat.not_lt.2 (Nat.le_add_left _ _))
  Φ t := Φ1 V a hp0 hp1 c t.val (Nat.le_of_lt_succ t.isLt)
  q _ := fullShare
  owed _ := 0

theorem A_eq (c : Dev nD) (w : Fin (cfg15 a).W) : (dat V a hp0 hp1 c).A w = V c (Pipeline.arrRef spec15 w) := by
  dsimp only [dat]
theorem after_0 (c : Dev nD) (t : Fin (cfg15 a).N) : (dat V a hp0 hp1 c).after 0 t = iblk V a c 0 t := by dsimp only [dat]; rfl
theorem after_1 (c : Dev nD) (t : Fin (cfg15 a).N) : (dat V a hp0 hp1 c).after 1 t = iblk V a c 1 t := by dsimp only [dat]; rfl
theorem after_2 (c : Dev nD) (t : Fin (cfg15 a).N) : (dat V a hp0 hp1 c).after 2 t = iblk V a c 2 t := by dsimp only [dat]; rfl
theorem after_3 (c : Dev nD) (t : Fin (cfg15 a).N) : (dat V a hp0 hp1 c).after 3 t = iblk V a c 3 t := by dsimp only [dat]; rfl
theorem after_4 (c : Dev nD) (t : Fin (cfg15 a).N) : (dat V a hp0 hp1 c).after 4 t = iblk V a c 4 t := by dsimp only [dat]; rfl
theorem after_5 (c : Dev nD) (t : Fin (cfg15 a).N) : (dat V a hp0 hp1 c).after 5 t = (stAt V a hp0 hp1 c t.val t.isLt).1 := by dsimp only [dat]; rfl
theorem after_6 (c : Dev nD) (t : Fin (cfg15 a).N) : (dat V a hp0 hp1 c).after 6 t = (stAt V a hp0 hp1 c t.val t.isLt).2.1 := by dsimp only [dat]; rfl
theorem before_0 (c : Dev nD) (t : Fin (cfg15 a).N) (d) : (dat V a hp0 hp1 c).before 0 t d = iblk V a c 0 t :=
  ((dat V a hp0 hp1 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg15 a).N) (d) : (dat V a hp0 hp1 c).before 1 t d = iblk V a c 1 t :=
  ((dat V a hp0 hp1 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg15 a).N) (d) : (dat V a hp0 hp1 c).before 2 t d = iblk V a c 2 t :=
  ((dat V a hp0 hp1 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg15 a).N) (d) : (dat V a hp0 hp1 c).before 3 t d = iblk V a c 3 t :=
  ((dat V a hp0 hp1 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg15 a).N) (d) : (dat V a hp0 hp1 c).before 4 t d = iblk V a c 4 t :=
  ((dat V a hp0 hp1 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- An accumulator is written back only after the last point: at a later point it holds what the point before left. -/
theorem flush_5 (t' : Fin (cfg15 a).N) (h : t'.val + 1 < (cfg15 a).N) : ((cfg15 a).win 5).flush t' = false := by
  unfold Pipeline.Window.flush
  rw [Bool.and_eq_false_iff]; right
  rw [Bool.or_eq_false_iff]
  have h' : t'.val + 1 < (cfg15 a).grid.N := h
  exact ⟨decide_eq_false (by omega), decide_eq_false (fun ⟨_, hne⟩ => hne rfl)⟩
theorem before_5_B (c : Dev nD) (t : Fin (cfg15 a).N) (h0 : ¬t.val = 0) (d) :
    (dat V a hp0 hp1 c).before 5 t d = (stAt V a hp0 hp1 c (t.val - 1) (Nat.lt_of_le_of_lt (Nat.sub_le _ _) t.isLt)).1 := by
  rw [Dat.before_out_kept _ 5 rfl t h0 (flush_5 a _ ((Nat.sub_add_cancel (Nat.pos_of_ne_zero h0)).le.trans_lt t.isLt)) (fun _ => rfl) (fun _ _ => rfl)]
  dsimp only [dat]; rfl
/-- An accumulator is written back only after the last point: at a later point it holds what the point before left. -/
theorem flush_6 (t' : Fin (cfg15 a).N) (h : t'.val + 1 < (cfg15 a).N) : ((cfg15 a).win 6).flush t' = false := by
  unfold Pipeline.Window.flush
  rw [Bool.and_eq_false_iff]; right
  rw [Bool.or_eq_false_iff]
  have h' : t'.val + 1 < (cfg15 a).grid.N := h
  exact ⟨decide_eq_false (by omega), decide_eq_false (fun ⟨_, hne⟩ => hne rfl)⟩
theorem before_6_B (c : Dev nD) (t : Fin (cfg15 a).N) (h0 : ¬t.val = 0) (d) :
    (dat V a hp0 hp1 c).before 6 t d = (stAt V a hp0 hp1 c (t.val - 1) (Nat.lt_of_le_of_lt (Nat.sub_le _ _) t.isLt)).2.1 := by
  rw [Dat.before_out_kept _ 6 rfl t h0 (flush_6 a _ ((Nat.sub_add_cancel (Nat.pos_of_ne_zero h0)).le.trans_lt t.isLt)) (fun _ => rfl) (fun _ _ => rfl)]
  dsimp only [dat]; rfl

/-! ## The body obligation, at a generic point -/

/-- The kernel body as the pipeline calls it at point `t`. -/
abbrev bodyAt (t : Fin (cfg15 a).N) : Prog (TpuEff nD τ sig (Elt F) Λ₀ .tc) PUnit :=
  (cc15__pass1_kernel (grid15.coords t) tb0 (Memref.isWhole_whole _) tb1 (Memref.isWhole_whole _) xM (Memref.isWhole_whole _) (ms0 a t) (hs0 a t) (ms1 a t) (hs1 a t) (ms2 a t) (hs2 a t) (ms3 a t) (hs3 a t) (ms4 a t) (hs4 a t) hM (Memref.isWhole_whole _) (ms5 a t) (hs5 a t) (ms6 a t) (hs6 a t) sc0 (Memref.isWhole_whole _) sc1 (Memref.isWhole_whole _) sc2 (Memref.isWhole_whole _) cc15_scratch3)

def bodyPre (c : Dev nD) (t : Fin (cfg15 a).N) : sProp 𝕄 :=
  iprop((dat V a hp0 hp1 c).Φ t.castSucc ∗ (dat V a hp0 hp1 c).owesAt () t.castSucc
    ∗ (∃ d, owns (c : Thread nD τ) (ms0 a t) fullShare ((dat V a hp0 hp1 c).before 0 t d))
    ∗ (∃ d, owns (c : Thread nD τ) (ms1 a t) fullShare ((dat V a hp0 hp1 c).before 1 t d))
    ∗ (∃ d, owns (c : Thread nD τ) (ms2 a t) fullShare ((dat V a hp0 hp1 c).before 2 t d))
    ∗ (∃ d, owns (c : Thread nD τ) (ms3 a t) fullShare ((dat V a hp0 hp1 c).before 3 t d))
    ∗ (∃ d, owns (c : Thread nD τ) (ms4 a t) fullShare ((dat V a hp0 hp1 c).before 4 t d))
    ∗ (∃ d, owns (c : Thread nD τ) (ms5 a t) fullShare ((dat V a hp0 hp1 c).before 5 t d))
    ∗ (∃ d, owns (c : Thread nD τ) (ms6 a t) fullShare ((dat V a hp0 hp1 c).before 6 t d)))

def bodyPost (c : Dev nD) (t : Fin (cfg15 a).N) : sProp 𝕄 :=
  iprop((dat V a hp0 hp1 c).Φ t.succ ∗ (dat V a hp0 hp1 c).owesAt () t.succ
    ∗ owns (c : Thread nD τ) (ms0 a t) fullShare ((dat V a hp0 hp1 c).after 0 t)
    ∗ owns (c : Thread nD τ) (ms1 a t) fullShare ((dat V a hp0 hp1 c).after 1 t)
    ∗ owns (c : Thread nD τ) (ms2 a t) fullShare ((dat V a hp0 hp1 c).after 2 t)
    ∗ owns (c : Thread nD τ) (ms3 a t) fullShare ((dat V a hp0 hp1 c).after 3 t)
    ∗ owns (c : Thread nD τ) (ms4 a t) fullShare ((dat V a hp0 hp1 c).after 4 t)
    ∗ owns (c : Thread nD τ) (ms5 a t) fullShare ((dat V a hp0 hp1 c).after 5 t)
    ∗ owns (c : Thread nD τ) (ms6 a t) fullShare ((dat V a hp0 hp1 c).after 6 t))

set_option maxHeartbeats 2000000 in
/-- The body at any point: the inputs' buffers hold their blocks; at the first point the accumulators hold anything and the
    hidden array is as found; at a later point they hold what the point before left; the shared run of the point's case
    applies, and what it leaves is the state after the point. -/
theorem sound_body (c : Dev nD) (t : Fin (cfg15 a).N) :
    bodyPre V a hp0 hp1 c t ⊢ wp frame (wpE (defs₀ (F := F)) Variants.none c none) Set.univ (bodyAt a t) (fun _ => bodyPost V a hp0 hp1 c t) := by
  unfold bodyPre bodyPost bodyAt
  rw [kernel_eq]
  simp only [before_0, before_1, before_2, before_3, before_4]
  rw [after_0, after_1, after_2, after_3, after_4, after_5, after_6]
  rw [show (dat V a hp0 hp1 c).Φ t.castSucc = Φ1 V a hp0 hp1 c t.val (Nat.le_of_lt t.isLt) from rfl,
    show (dat V a hp0 hp1 c).Φ t.succ = Φ1 V a hp0 hp1 c (t.val + 1) t.isLt from rfl, Φ1_eq, Φ1_eq]
  unfold Dat.owesAt Pipeline.owesWithin
  rw [show (dat V a hp0 hp1 c).owed t.castSucc = 0 from rfl, show (dat V a hp0 hp1 c).owed t.succ = 0 from rfl]
  rw [hAt_succ V a hp0 hp1 c t.val t.isLt]
  by_cases h0 : t.val = 0
  · rw [hAt_zero V a hp0 hp1 c t h0, stAt_zero V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyA tb0 (Memref.isWhole_whole _) tb1 (Memref.isWhole_whole _) xM (Memref.isWhole_whole _) hM (Memref.isWhole_whole _) cc15_scratch3 c (grid15.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) ((hcond a t).mpr h0) (iblk V a c 0 t) (iblk V a c 1 t) (iblk V a c 2 t) (iblk V a c 3 t) (iblk V a c 4 t) (T0 a c) (T1 a c) (V c main_arg0) (V c main_v58_0) (hp0 c _) (hp1 c _) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [hAt_pos V a hp0 hp1 c t h0, stAt_succ V a hp0 hp1 c t h0]
    simp only [before_5_B V a hp0 hp1 c t h0, before_6_B V a hp0 hp1 c t h0]
    iintro ⟨⟨⟨⟨HS0, HS1, HS2⟩, HR⟩, Hg, ⟨Hq0, Hq1, Hq2⟩, Ht0, Ht1, Hx, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (P1.bodyB tb0 (Memref.isWhole_whole _) tb1 (Memref.isWhole_whole _) xM (Memref.isWhole_whole _) hM (Memref.isWhole_whole _) cc15_scratch3 c (grid15.coords t) (ms0 a t) (hs0 a t) (ms1 a t) (hs1 a t) (ms2 a t) (hs2 a t) (ms3 a t) (hs3 a t) (ms4 a t) (hs4 a t) (ms5 a t) (hs5 a t) (ms6 a t) (hs6 a t) sc0 (Memref.isWhole_whole _) sc1 (Memref.isWhole_whole _) sc2 (Memref.isWhole_whole _) (fun h => h0 ((hcond a t).mp h)) (iblk V a c 0 t) (iblk V a c 1 t) (iblk V a c 2 t) (iblk V a c 3 t) (iblk V a c 4 t) _ _ (T0 a c) (T1 a c) (V c main_arg0) _ (hp0 c _) (hp1 c _) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Ht0]; · iexact Ht0
    isplitl [Ht1]; · iexact Ht1
    isplitl [Hx]; · iexact Hx
    isplitl [Hh]; · iexact Hh
    isplitl [HW]; · iexact HW
    iintro ⟨H0, H1, H2, H3, H4, H5, H6, HS0, HS1, HS2, Hq0, Hq1, Hq2, Ht0, Ht1, Hx, Hh, ⟨%W', HW'⟩⟩
    isplitl [HS0 HS1 HS2 HR Hg Hq0 Hq1 Hq2 Ht0 Ht1 Hx Hh]
    · isplitl [HS0 HS1 HS2 HR]
      · isplitl [HS0 HS1 HS2]
        · isplitl [HS0]; · iexact HS0
          isplitl [HS1]; · iexact HS1
          iexact HS2
        iexact HR
      isplitl [Hg]; · iexact Hg
      isplitl [Hq0 Hq1 Hq2]
      · isplitl [Hq0]; · iexact Hq0
        isplitl [Hq1]; · iexact Hq1
        iexact Hq2
      isplitl [Ht0]; · iexact Ht0
      isplitl [Ht1]; · iexact Ht1
      isplitl [Hx]; · iexact Hx
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V a hp0 hp1 c) (defs₀ (F := F)) Variants.none () Set.univ := fun t => by
  rw [bigSep_W15, bigSep_W15]
  exact sound_body V a hp0 hp1 c t

end Cert.Kernel.P1R15

end
-- ==== Proof.B1R15Reg.lean ====
/-
  A gather-and-project region as one segment of the whole run: entered with every unscoped buffer held at a
  valuation `Win`, left with them held at `Wout` — `Win` except at the two accumulators' arrays (what the last point left)
  and at the hidden array (all its rows written). The two index tables, the node-feature array and the hidden array are
  taken out of the unscoped rest at entry and put back at exit; the generator register and the three own semaphores ride
  in the region's invariant.
-/
import proofs.«400866_j57071525429608_2_alg».proof.Proof.B1R15Dat
import proofs.«400866_j57071525429608_2_alg».proof.Proof.AssembleBits

set_option maxRecDepth 16384

noncomputable section

namespace Cert.Kernel.P1R15

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Asm (Rr L₀ lv₀)
open Cert.Kernel.P1 (Bf pt cond0_0 semAt tw0 tw1 hNext)

variable {F : FTy → Type} [FloatOps F]

local notation "𝕄" => MT nD τ sig Unit (Elt F) ℕ (Pipeline.UD sig nD τ) ℕ

variable (adm : (p : Fin 17) → (pcfgs (F := F) p).Adm)
variable (pdats : (p : Fin 17) → (c : Dev nD) → Dat τ (Elt F) Unit ℕ (Pipeline.UD sig nD τ) ℕ (Pipeline.pin (pcfgs (F := F)) adm p) c)
variable (Win Wout : Dev nD → Valuation τ sig (Elt F))

/-- The two valuations read at the TensorCore's references. -/
abbrev Vin : (c : Dev nD) → (b : Ref sig .tc) → Buf (Elt F) ((c : Thread nD τ).loc b) := fun c b => Win c b
abbrev Vout : (c : Dev nD) → (b : Ref sig .tc) → Buf (Elt F) ((c : Thread nD τ).loc b) := fun c b => Wout c b
variable (hp0 : ∀ c (i : grid15.Coords), k15_chk1 (tw0 tb0 c i (T0 (adm 15) c))) (hp1 : ∀ c (i : grid15.Coords), k15_chk2 (tw1 tb1 c i (T1 (adm 15) c)))

/-- The unscoped buffers the body moves itself or reads as tables: no window's array. -/
def H : Finset (Ref sig .tc) := {main_arg0, main_v56, main_v57, main_v58_0}
theorem H_sub : H ⊆ Pipeline.restRefs sig spec15 := by decide

/-- Their points-tos at a valuation, listed. -/
theorem Hpts_eq (c : Dev nD) (W : (b : Ref sig .tc) → Buf (Elt F) ((c : Thread nD τ).loc b)) :
    (bigSep H (fun b => ((c : Thread nD τ).loc b) ↦{fullShare} W b) : sProp 𝕄)
      = iprop(pt c xM (W main_arg0) ∗ pt c tb0 (W main_v56) ∗ pt c tb1 (W main_v57) ∗ pt c hM (W main_v58_0)) := by
  rw [BI.bigSep_eq_bigSepL_of_eq [main_arg0, main_v56, main_v57, main_v58_0] (by decide) (by decide)]; rfl

/-- The two tables held, listed. -/
theorem pref_eq (c : Dev nD) (T : (pcfgs (F := F) 15).pre.Contents (Elt F)) :
    (Pipeline.prefHeld (Ix := Unit) (Name := ℕ) (U := Pipeline.UD sig nD τ) (Lvl := ℕ) (pcfgs (F := F) 15).pre c (fun _ => fullShare) T : sProp 𝕄)
      = iprop(pt c tb0 (T 0) ∗ pt c tb1 (T 1)) := by
  unfold Pipeline.prefHeld
  rw [bigSep_univ_eq_bigSepL [(0 : Fin 2), (1 : Fin 2)] (by decide) (by decide)]; rfl

/-- The hidden array after the last point. -/
abbrev hEnd (c : Dev nD) : Bf (F := F) c hM := hAt (Vin Win) (adm 15) hp0 hp1 c (cfg15 (adm 15)).N le_rfl

/-- The entry valuation with the hidden array at its final contents: what the unscoped rest is at the exit. -/
def Vmid (c : Dev nD) : (b : Ref sig .tc) → Buf (Elt F) ((c : Thread nD τ).loc b) :=
  Function.update (Vin Win c) main_v58_0 (hEnd adm Win hp0 hp1 c)

theorem rest_split (c : Dev nD) (W : (b : Ref sig .tc) → Buf (Elt F) ((c : Thread nD τ).loc b)) :
    (Pipeline.unscopedRest (Ix := Unit) (Name := ℕ) (U := Pipeline.UD sig nD τ) (Lvl := ℕ) spec15 c W : sProp 𝕄)
      = iprop((bigSep H fun b => ((c : Thread nD τ).loc b) ↦{fullShare} W b) ∗ (bigSep (Pipeline.restRefs sig spec15 \ H) fun b => ((c : Thread nD τ).loc b) ↦{fullShare} W b)) := by
  unfold Pipeline.unscopedRest; exact BI.bigSep_sdiff_split H_sub

set_option maxHeartbeats 4000000 in
def reg (hpd : ∀ c, pdats 15 c = dat (Vin Win) (adm 15) hp0 hp1 c)
    (hT0 : ∀ c, Vin Win c main_v56 = T0 (adm 15) c) (hT1 : ∀ c, Vin Win c main_v57 = T1 (adm 15) c)
    (hF : ∀ c w, (dat (Vin Win) (adm 15) hp0 hp1 c).arrAt w (cfg15 (adm 15)).N = Vout Wout c (Pipeline.arrRef spec15 w))
    (hrest : ∀ c b, b ∉ Finset.univ.image (Pipeline.arrRef spec15) → Vout Wout c b = Vmid adm Win hp0 hp1 c b) :
    Pipeline.RegionSeg (pcfgs (F := F)) adm pdats () defs₀ Variants.none L₀ lv₀ 15 where
  win := winFacts15.to₀
  block_pos := block_pos15
  stage_whole := stage_whole15
  K := Fin 3
  osem := osem
  ho := ownSemFacts
  hbody c := by rw [hpd c]; exact (body_obligation (Vin Win) (adm 15) hp0 hp1 c).loose
  hwaits := Pipeline.hwaits_of_owed_zero _ _ _ _ L₀ lv₀ 15 fun c t => by rw [hpd c]; rfl
  pre c := iprop(StableHlo.held (c : Thread nD τ) (Pipeline.ucRefs τ sig) (Win c) ∗ Rr c)
  post c := iprop(StableHlo.held (c : Thread nD τ) (Pipeline.ucRefs τ sig) (Wout c) ∗ Rr c)
  X c := iprop((∃ r, prngReg c r) ∗ Pipeline.ownSems0 (Ix := Unit) (Name := ℕ) (U := Pipeline.UD sig nD τ) (Lvl := ℕ) (Val := Elt F) (τ := τ) osem c ∗ pt c xM (Vin Win c main_arg0) ∗ pt c hM (Vin Win c main_v58_0))
  Y c := iprop((∃ r, prngReg c r) ∗ pt c tb0 (T0 (adm 15) c) ∗ pt c tb1 (T1 (adm 15) c) ∗ pt c xM (Vin Win c main_arg0) ∗ pt c hM (hEnd adm Win hp0 hp1 c))
  Z c := bigSep (Pipeline.restRefs sig spec15 \ H) fun b => ((c : Thread nD τ).loc b) ↦{fullShare} Vin Win c b
  hentry c := by
    have hsplit : (StableHlo.held (c : Thread nD τ) (Pipeline.ucRefs τ sig) (Win c) : sProp 𝕄)
        ⊢ iprop((pdats 15 c).arrays ((pdats 15 c).arrAt · 0) ∗ Pipeline.unscopedRest (Ix := Unit) (Name := ℕ) (U := Pipeline.UD sig nD τ) (Lvl := ℕ) spec15 c (Vin Win c)) := by
      have h := Pipeline.arrays_of_unscopedBufs (p := 15) (pcfgs (F := F)) adm pdats winFacts15 arr_whole15 c
        (by rw [hpd c]; exact (dat (Vin Win) (adm 15) hp0 hp1 c).share_full fun _ => rfl) (Vin Win c) (by rw [hpd c]; exact fun _ => rfl)
      rw [Pipeline.unscopedBufs_held] at h; exact h
    rw [rest_split, Hpts_eq] at hsplit
    rw [pref_eq]
    unfold Rr
    iintro ⟨⟨Hub, Hp, HO⟩, Hos, -⟩
    ihave H := hsplit $$ Hub
    icases H with ⟨Ha, ⟨Hx, Ht0, Ht1, Hh⟩, HR⟩
    imodintro
    isplitl [Ha]; · iexact Ha
    isplitl [Ht0 Ht1]
    · rw [hT0 c, hT1 c]
      isplitl [Ht0]; · iexact Ht0
      iexact Ht1
    isplitl [HO]
    · unfold Pipeline.Dat.owesAt Pipeline.owesWithin
      icases HO with ⟨%W, HO⟩; iexists W; isplitr
      · ipureintro; exact fun _ _ => Or.inl (by rw [hpd c]; trivial)
      rw [show (pdats 15 c).owed 0 = 0 from by rw [hpd c]; rfl]
      iexact HO
    isplitl [Hp Hos Hx Hh]
    · isplitl [Hp]; · iexact Hp
      isplitl [Hos]; · iexact Hos
      isplitl [Hx]; · iexact Hx
      iexact Hh
    iexact HR
  hin c := by
    rw [hpd c]
    change _ ⊢ Φ1 (Vin Win) (adm 15) hp0 hp1 c 0 (Nat.zero_le _)
    unfold Φ1
    rw [pref_eq, show hAt (Vin Win) (adm 15) hp0 hp1 c 0 (Nat.zero_le _) = Vin Win c main_v58_0 from rfl]
    iintro ⟨⟨Hp, Ho, Hx, Hh⟩, ⟨Ht0, Ht1⟩, Hr⟩
    isplitl [Hr]; · iexact Hr
    isplitl [Hp]; · iexact Hp
    isplitl [Ho]; · iexact Ho
    isplitl [Ht0]; · iexact Ht0
    isplitl [Ht1]; · iexact Ht1
    isplitl [Hx]; · iexact Hx
    iexact Hh
  hout c := by
    rw [hpd c]
    change Φ1 (Vin Win) (adm 15) hp0 hp1 c (cfg15 (adm 15)).N le_rfl ⊢ _
    unfold Φ1
    iintro ⟨Hr, Hp, Ho, Ht0, Ht1, Hx, Hh⟩
    isplitl [Hp Ht0 Ht1 Hx Hh]
    · isplitl [Hp]; · iexact Hp
      isplitl [Ht0]; · iexact Ht0
      isplitl [Ht1]; · iexact Ht1
      isplitl [Hx]; · iexact Hx
      iexact Hh
    isplitl [Ho]; · iexact Ho
    iexact Hr
  hexit c := by
    have hjoin : iprop((pdats 15 c).arrays ((pdats 15 c).arrAt · (cfg15 (adm 15)).N) ∗ Pipeline.unscopedRest (Ix := Unit) (Name := ℕ) (U := Pipeline.UD sig nD τ) (Lvl := ℕ) spec15 c (Vmid adm Win hp0 hp1 c))
        ⊢ (StableHlo.held (c : Thread nD τ) (Pipeline.ucRefs τ sig) (Wout c) : sProp 𝕄) := by
      have h := Pipeline.unscopedBufs_of_arrays (p := 15) (pcfgs (F := F)) adm (Ix := Unit) (Name := ℕ) (U := Pipeline.UD sig nD τ) (Lvl := ℕ)
        winFacts15 arr_whole15 c pdats (by rw [hpd c]; exact (dat (Vin Win) (adm 15) hp0 hp1 c).share_full fun _ => rfl)
        (Vmid adm Win hp0 hp1 c) (Vout Wout c) ((pdats 15 c).arrAt · (cfg15 (adm 15)).N) (by rw [hpd c]; exact hF c) (hrest c)
      rw [Pipeline.unscopedBufs_held] at h; exact h
    rw [rest_split, Hpts_eq] at hjoin
    have hZ : (bigSep (Pipeline.restRefs sig spec15 \ H) fun b => ((c : Thread nD τ).loc b) ↦{fullShare} Vin Win c b : sProp 𝕄)
        = (bigSep (Pipeline.restRefs sig spec15 \ H) fun b => ((c : Thread nD τ).loc b) ↦{fullShare} Vmid adm Win hp0 hp1 c b) :=
      bigSep_congr fun b hb => by
        have hne : b ≠ main_v58_0 := fun h => (Finset.mem_sdiff.mp hb).2 (h ▸ by decide)
        unfold Vmid; rw [Function.update_of_ne hne]
    have e0 : Vmid adm Win hp0 hp1 c main_arg0 = Vin Win c main_arg0 := by unfold Vmid; exact Function.update_of_ne (by decide) _ _
    have e1 : Vmid adm Win hp0 hp1 c main_v56 = Vin Win c main_v56 := by unfold Vmid; exact Function.update_of_ne (by decide) _ _
    have e2 : Vmid adm Win hp0 hp1 c main_v57 = Vin Win c main_v57 := by unfold Vmid; exact Function.update_of_ne (by decide) _ _
    have e3 : Vmid adm Win hp0 hp1 c main_v58_0 = hEnd adm Win hp0 hp1 c := by unfold Vmid; exact Function.update_self _ _ _
    rw [e0, e1, e2, e3, hT0 c, hT1 c] at hjoin
    rw [hZ]
    unfold Rr Pipeline.Dat.owesAt Pipeline.owesWithin
    rw [show (pdats 15 c).owed (Fin.last _) = 0 from by rw [hpd c]; rfl]
    iintro ⟨Ha, HO, ⟨Hp, Ht0, Ht1, Hx, Hh⟩, HR⟩
    imodintro
    isplitl [Ha Ht0 Ht1 Hx Hh HR]
    · iapply hjoin
      isplitl [Ha]; · iexact Ha
      isplitl [Hx Ht0 Ht1 Hh]
      · isplitl [Hx]; · iexact Hx
        isplitl [Ht0]; · iexact Ht0
        isplitl [Ht1]; · iexact Ht1
        iexact Hh
      iexact HR
    isplitl [Hp]; · iexact Hp
    icases HO with ⟨%W, -, HO⟩; iexists W
    iexact HO

end Cert.Kernel.P1R15

end
-- ==== Proof.GlueBits.lean ====
/- (the text of one gather-and-project region, written for region 0, substituted for regions 0 to 15; the rest written once) -/
/-
  The run's choices: the index tables, the buffer contents between the program's items, the proof data, and each
  region's segment of the run.

  The program is 17 kernel regions among stretches of host operations. The conditional run is stated over UNKNOWNS,
  "what region K leaves in its result buffers"; here they are chosen. The contents of a core's buffers between two
  items form a chain that mentions no unknown:
    W1            what the first host stretch makes of the launch contents;
    W(2K+2)       W(2K+1) changed at region K's three result buffers to what region K's own proof data, entered from
                  W(2K+1), leave there (the two accumulators' arrays after the last write-back, and the hidden array
                  after the last point);
    W(2K+3)       what the next host stretch makes of W(2K+2);
    W34           W33 changed at the result array of the normalising pass to what its write-backs leave.
  The unknown "after item J, buffer r" is then W(J) at r, and the conditional run's contents V(J) at these unknowns ARE
  the chain (V(J)_eq), by one step per item: a region's step is that contents changed at distinct buffers to what the
  changed contents hold there are the changed contents; a host stretch's step is a congruence.

  The index tables of region K are entries [62500 K, 62500 K + 62500) of the two flattened rows of the edge-endpoint
  array, read off the first contents on the one device; every entry is an endpoint, so below 100000 under the
  hypothesis hE, which is what the bodies assume of the row number a point reads.

  Each region's segment is then its own record at these choices: the tables it finds are its admissible ones, its
  arrays end at what the chain holds, and every other buffer is as the region's record says.
-/
import proofs.«400866_j57071525429608_2_alg».proof.Proof.GlueBitsBase
import proofs.«400866_j57071525429608_2_alg».proof.Proof.Reg16Bits
import proofs.«400866_j57071525429608_2_alg».proof.Proof.TblFactsBits
import proofs.«400866_j57071525429608_2_alg».proof.Proof.ChkFacts
import proofs.«400866_j57071525429608_2_alg».proof.Proof.B1R0Reg
import proofs.«400866_j57071525429608_2_alg».proof.Proof.B1R1Reg
import proofs.«400866_j57071525429608_2_alg».proof.Proof.B1R2Reg
import proofs.«400866_j57071525429608_2_alg».proof.Proof.B1R3Reg
import proofs.«400866_j57071525429608_2_alg».proof.Proof.B1R4Reg
import proofs.«400866_j57071525429608_2_alg».proof.Proof.B1R5Reg
import proofs.«400866_j57071525429608_2_alg».proof.Proof.B1R6Reg
import proofs.«400866_j57071525429608_2_alg».proof.Proof.B1R7Reg
import proofs.«400866_j57071525429608_2_alg».proof.Proof.B1R8Reg
import proofs.«400866_j57071525429608_2_alg».proof.Proof.B1R9Reg
import proofs.«400866_j57071525429608_2_alg».proof.Proof.B1R10Reg
import proofs.«400866_j57071525429608_2_alg».proof.Proof.B1R11Reg
import proofs.«400866_j57071525429608_2_alg».proof.Proof.B1R12Reg
import proofs.«400866_j57071525429608_2_alg».proof.Proof.B1R13Reg
import proofs.«400866_j57071525429608_2_alg».proof.Proof.B1R14Reg
import proofs.«400866_j57071525429608_2_alg».proof.Proof.B1R15Reg

set_option maxRecDepth 16384

noncomputable section

namespace Cert.Kernel.Glue

open Cert.Kernel Cert.Kernel.Gen Cert.Kernel.P2 Cert.Kernel.Asm
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)
  (hE : ∀ (c : Dev nD) (idx : S2x1000000.Idx), ((V0 m c main_arg1 : IVec S2x1000000 32) idx).toNat < 100000)

/-! ## The chain of contents, region by region -/

/-- After the first host stretch. -/
def W1 (c : Dev nD) : Valuation τ sig (Elt F) := V1 m c

/-! ### Region 0 -/

/-- Its two index tables: entries [0, 0 + 62500) of the two flattened rows of the endpoints. -/
def tbls0 : pre0.Contents (Elt F) := fun
  | 0 => extractStridedSlice S62500 ![0] (V1 m c₀ main_v1 : IVec S1000000 32) slices_S1000000_S62500_0
  | 1 => extractStridedSlice S62500 ![0] (V1 m c₀ main_v3 : IVec S1000000 32) slices_S1000000_S62500_0
  | ⟨_ + 2, h⟩ => absurd h (Nat.not_lt.2 (Nat.le_add_left _ _))
/-- They are admissible: the side condition asks nothing of the contents. -/
def adm0 : (pcfg0 (F := F)).Adm := ⟨tbls0 m, trivial⟩
include hE in
/-- The word a point reads of either table is an entry of the table, so an endpoint: it names a row of the node table. -/
theorem hp0_0 (c : Dev nD) (i : grid0.Coords) : k0_chk1 (P1.tw0 P1R0.tb0 c i (P1R0.T0 (adm0 m) c)) :=
  ChkFacts.row_inb _ (by rw [P1.tw0_eq]; exact Tbl.row0_lt m c₀ (hE c₀) _)
include hE in
theorem hp1_0 (c : Dev nD) (i : grid0.Coords) : k0_chk2 (P1.tw1 P1R0.tb1 c i (P1R0.T1 (adm0 m) c)) :=
  ChkFacts.row_inb _ (by rw [P1.tw1_eq]; exact Tbl.row1_lt m c₀ (hE c₀) _)
/-- Its proof data over the contents it is entered from. -/
abbrev d0 (c : Dev nD) : Dat τ (Elt F) Unit ℕ (Pipeline.UD sig nD τ) ℕ (cfg0 (adm0 m)) c :=
  P1R0.dat (atTc (W1 m)) (adm0 m) (hp0_0 m hE) (hp1_0 m hE) c
/-- The contents it leaves: its three results at what its proof data leave, every other buffer as entered. -/
def W2 (c : Dev nD) : Valuation τ sig (Elt F) :=
  set3 (W1 m c) main_v13_1 main_v13_2 main_v13_0
    ((d0 m hE c).arrAt 5 (cfg0 (adm0 m)).N) ((d0 m hE c).arrAt 6 (cfg0 (adm0 m)).N)
    (P1R0.hAt (atTc (W1 m)) (adm0 m) (hp0_0 m hE) (hp1_0 m hE) c (cfg0 (adm0 m)).N le_rfl)
theorem W2_def (c : Dev nD) : W2 m hE c =
  set3 (W1 m c) main_v13_1 main_v13_2 main_v13_0
    ((d0 m hE c).arrAt 5 (cfg0 (adm0 m)).N) ((d0 m hE c).arrAt 6 (cfg0 (adm0 m)).N)
    (P1R0.hAt (atTc (W1 m)) (adm0 m) (hp0_0 m hE) (hp1_0 m hE) c (cfg0 (adm0 m)).N le_rfl) := rfl
/-- The contents after the host stretch that follows. -/
def W3 (c : Dev nD) : Valuation τ sig (Elt F) := StableHlo.after hostOps1 (W2 m hE c)
/-- What the region leaves in its results, -/
theorem W2_res1 (c : Dev nD) : W2 m hE c (Proc.devRef .tc main_v13_1) = (d0 m hE c).arrAt 5 (cfg0 (adm0 m)).N :=
  set3_1 _ _ _ _ _ _ _ (by decide) (by decide)
theorem W2_res2 (c : Dev nD) : W2 m hE c (Proc.devRef .tc main_v13_2) = (d0 m hE c).arrAt 6 (cfg0 (adm0 m)).N :=
  set3_2 _ _ _ _ _ _ _ (by decide)
theorem W2_res0 (c : Dev nD) : W2 m hE c (Proc.devRef .tc main_v13_0)
    = P1R0.hAt (atTc (W1 m)) (adm0 m) (hp0_0 m hE) (hp1_0 m hE) c (cfg0 (adm0 m)).N le_rfl :=
  set3_0 _ _ _ _ _ _ _
/-- and every other buffer is as it was entered. -/
theorem W2_of (c : Dev nD) (r : Ref sig .tc) (h1 : r ≠ main_v13_1) (h2 : r ≠ main_v13_2) (h0 : r ≠ main_v13_0) :
    W2 m hE c (Proc.devRef .tc r) = W1 m c (Proc.devRef .tc r) :=
  set3_of _ _ _ _ _ _ _ r h1 h2 h0

/-! ### Region 1 -/

/-- Its two index tables: entries [62500, 62500 + 62500) of the two flattened rows of the endpoints. -/
def tbls1 : pre1.Contents (Elt F) := fun
  | 0 => extractStridedSlice S62500 ![62500] (V1 m c₀ main_v1 : IVec S1000000 32) slices_S1000000_S62500_62500
  | 1 => extractStridedSlice S62500 ![62500] (V1 m c₀ main_v3 : IVec S1000000 32) slices_S1000000_S62500_62500
  | ⟨_ + 2, h⟩ => absurd h (Nat.not_lt.2 (Nat.le_add_left _ _))
/-- They are admissible: the side condition asks nothing of the contents. -/
def adm1 : (pcfg1 (F := F)).Adm := ⟨tbls1 m, trivial⟩
include hE in
/-- The word a point reads of either table is an entry of the table, so an endpoint: it names a row of the node table. -/
theorem hp0_1 (c : Dev nD) (i : grid1.Coords) : k1_chk1 (P1.tw0 P1R1.tb0 c i (P1R1.T0 (adm1 m) c)) :=
  ChkFacts.row_inb _ (by rw [P1.tw0_eq]; exact Tbl.row0_lt m c₀ (hE c₀) _)
include hE in
theorem hp1_1 (c : Dev nD) (i : grid1.Coords) : k1_chk2 (P1.tw1 P1R1.tb1 c i (P1R1.T1 (adm1 m) c)) :=
  ChkFacts.row_inb _ (by rw [P1.tw1_eq]; exact Tbl.row1_lt m c₀ (hE c₀) _)
/-- Its proof data over the contents it is entered from. -/
abbrev d1 (c : Dev nD) : Dat τ (Elt F) Unit ℕ (Pipeline.UD sig nD τ) ℕ (cfg1 (adm1 m)) c :=
  P1R1.dat (atTc (W3 m hE)) (adm1 m) (hp0_1 m hE) (hp1_1 m hE) c
/-- The contents it leaves: its three results at what its proof data leave, every other buffer as entered. -/
def W4 (c : Dev nD) : Valuation τ sig (Elt F) :=
  set3 (W3 m hE c) main_v16_1 main_v16_2 main_v16_0
    ((d1 m hE c).arrAt 5 (cfg1 (adm1 m)).N) ((d1 m hE c).arrAt 6 (cfg1 (adm1 m)).N)
    (P1R1.hAt (atTc (W3 m hE)) (adm1 m) (hp0_1 m hE) (hp1_1 m hE) c (cfg1 (adm1 m)).N le_rfl)
theorem W4_def (c : Dev nD) : W4 m hE c =
  set3 (W3 m hE c) main_v16_1 main_v16_2 main_v16_0
    ((d1 m hE c).arrAt 5 (cfg1 (adm1 m)).N) ((d1 m hE c).arrAt 6 (cfg1 (adm1 m)).N)
    (P1R1.hAt (atTc (W3 m hE)) (adm1 m) (hp0_1 m hE) (hp1_1 m hE) c (cfg1 (adm1 m)).N le_rfl) := rfl
/-- The contents after the host stretch that follows. -/
def W5 (c : Dev nD) : Valuation τ sig (Elt F) := StableHlo.after hostOps2 (W4 m hE c)
/-- What the region leaves in its results, -/
theorem W4_res1 (c : Dev nD) : W4 m hE c (Proc.devRef .tc main_v16_1) = (d1 m hE c).arrAt 5 (cfg1 (adm1 m)).N :=
  set3_1 _ _ _ _ _ _ _ (by decide) (by decide)
theorem W4_res2 (c : Dev nD) : W4 m hE c (Proc.devRef .tc main_v16_2) = (d1 m hE c).arrAt 6 (cfg1 (adm1 m)).N :=
  set3_2 _ _ _ _ _ _ _ (by decide)
theorem W4_res0 (c : Dev nD) : W4 m hE c (Proc.devRef .tc main_v16_0)
    = P1R1.hAt (atTc (W3 m hE)) (adm1 m) (hp0_1 m hE) (hp1_1 m hE) c (cfg1 (adm1 m)).N le_rfl :=
  set3_0 _ _ _ _ _ _ _
/-- and every other buffer is as it was entered. -/
theorem W4_of (c : Dev nD) (r : Ref sig .tc) (h1 : r ≠ main_v16_1) (h2 : r ≠ main_v16_2) (h0 : r ≠ main_v16_0) :
    W4 m hE c (Proc.devRef .tc r) = W3 m hE c (Proc.devRef .tc r) :=
  set3_of _ _ _ _ _ _ _ r h1 h2 h0

/-! ### Region 2 -/

/-- Its two index tables: entries [125000, 125000 + 62500) of the two flattened rows of the endpoints. -/
def tbls2 : pre2.Contents (Elt F) := fun
  | 0 => extractStridedSlice S62500 ![125000] (V1 m c₀ main_v1 : IVec S1000000 32) slices_S1000000_S62500_125000
  | 1 => extractStridedSlice S62500 ![125000] (V1 m c₀ main_v3 : IVec S1000000 32) slices_S1000000_S62500_125000
  | ⟨_ + 2, h⟩ => absurd h (Nat.not_lt.2 (Nat.le_add_left _ _))
/-- They are admissible: the side condition asks nothing of the contents. -/
def adm2 : (pcfg2 (F := F)).Adm := ⟨tbls2 m, trivial⟩
include hE in
/-- The word a point reads of either table is an entry of the table, so an endpoint: it names a row of the node table. -/
theorem hp0_2 (c : Dev nD) (i : grid2.Coords) : k2_chk1 (P1.tw0 P1R2.tb0 c i (P1R2.T0 (adm2 m) c)) :=
  ChkFacts.row_inb _ (by rw [P1.tw0_eq]; exact Tbl.row0_lt m c₀ (hE c₀) _)
include hE in
theorem hp1_2 (c : Dev nD) (i : grid2.Coords) : k2_chk2 (P1.tw1 P1R2.tb1 c i (P1R2.T1 (adm2 m) c)) :=
  ChkFacts.row_inb _ (by rw [P1.tw1_eq]; exact Tbl.row1_lt m c₀ (hE c₀) _)
/-- Its proof data over the contents it is entered from. -/
abbrev d2 (c : Dev nD) : Dat τ (Elt F) Unit ℕ (Pipeline.UD sig nD τ) ℕ (cfg2 (adm2 m)) c :=
  P1R2.dat (atTc (W5 m hE)) (adm2 m) (hp0_2 m hE) (hp1_2 m hE) c
/-- The contents it leaves: its three results at what its proof data leave, every other buffer as entered. -/
def W6 (c : Dev nD) : Valuation τ sig (Elt F) :=
  set3 (W5 m hE c) main_v19_1 main_v19_2 main_v19_0
    ((d2 m hE c).arrAt 5 (cfg2 (adm2 m)).N) ((d2 m hE c).arrAt 6 (cfg2 (adm2 m)).N)
    (P1R2.hAt (atTc (W5 m hE)) (adm2 m) (hp0_2 m hE) (hp1_2 m hE) c (cfg2 (adm2 m)).N le_rfl)
theorem W6_def (c : Dev nD) : W6 m hE c =
  set3 (W5 m hE c) main_v19_1 main_v19_2 main_v19_0
    ((d2 m hE c).arrAt 5 (cfg2 (adm2 m)).N) ((d2 m hE c).arrAt 6 (cfg2 (adm2 m)).N)
    (P1R2.hAt (atTc (W5 m hE)) (adm2 m) (hp0_2 m hE) (hp1_2 m hE) c (cfg2 (adm2 m)).N le_rfl) := rfl
/-- The contents after the host stretch that follows. -/
def W7 (c : Dev nD) : Valuation τ sig (Elt F) := StableHlo.after hostOps3 (W6 m hE c)
/-- What the region leaves in its results, -/
theorem W6_res1 (c : Dev nD) : W6 m hE c (Proc.devRef .tc main_v19_1) = (d2 m hE c).arrAt 5 (cfg2 (adm2 m)).N :=
  set3_1 _ _ _ _ _ _ _ (by decide) (by decide)
theorem W6_res2 (c : Dev nD) : W6 m hE c (Proc.devRef .tc main_v19_2) = (d2 m hE c).arrAt 6 (cfg2 (adm2 m)).N :=
  set3_2 _ _ _ _ _ _ _ (by decide)
theorem W6_res0 (c : Dev nD) : W6 m hE c (Proc.devRef .tc main_v19_0)
    = P1R2.hAt (atTc (W5 m hE)) (adm2 m) (hp0_2 m hE) (hp1_2 m hE) c (cfg2 (adm2 m)).N le_rfl :=
  set3_0 _ _ _ _ _ _ _
/-- and every other buffer is as it was entered. -/
theorem W6_of (c : Dev nD) (r : Ref sig .tc) (h1 : r ≠ main_v19_1) (h2 : r ≠ main_v19_2) (h0 : r ≠ main_v19_0) :
    W6 m hE c (Proc.devRef .tc r) = W5 m hE c (Proc.devRef .tc r) :=
  set3_of _ _ _ _ _ _ _ r h1 h2 h0

/-! ### Region 3 -/

/-- Its two index tables: entries [187500, 187500 + 62500) of the two flattened rows of the endpoints. -/
def tbls3 : pre3.Contents (Elt F) := fun
  | 0 => extractStridedSlice S62500 ![187500] (V1 m c₀ main_v1 : IVec S1000000 32) slices_S1000000_S62500_187500
  | 1 => extractStridedSlice S62500 ![187500] (V1 m c₀ main_v3 : IVec S1000000 32) slices_S1000000_S62500_187500
  | ⟨_ + 2, h⟩ => absurd h (Nat.not_lt.2 (Nat.le_add_left _ _))
/-- They are admissible: the side condition asks nothing of the contents. -/
def adm3 : (pcfg3 (F := F)).Adm := ⟨tbls3 m, trivial⟩
include hE in
/-- The word a point reads of either table is an entry of the table, so an endpoint: it names a row of the node table. -/
theorem hp0_3 (c : Dev nD) (i : grid3.Coords) : k3_chk1 (P1.tw0 P1R3.tb0 c i (P1R3.T0 (adm3 m) c)) :=
  ChkFacts.row_inb _ (by rw [P1.tw0_eq]; exact Tbl.row0_lt m c₀ (hE c₀) _)
include hE in
theorem hp1_3 (c : Dev nD) (i : grid3.Coords) : k3_chk2 (P1.tw1 P1R3.tb1 c i (P1R3.T1 (adm3 m) c)) :=
  ChkFacts.row_inb _ (by rw [P1.tw1_eq]; exact Tbl.row1_lt m c₀ (hE c₀) _)
/-- Its proof data over the contents it is entered from. -/
abbrev d3 (c : Dev nD) : Dat τ (Elt F) Unit ℕ (Pipeline.UD sig nD τ) ℕ (cfg3 (adm3 m)) c :=
  P1R3.dat (atTc (W7 m hE)) (adm3 m) (hp0_3 m hE) (hp1_3 m hE) c
/-- The contents it leaves: its three results at what its proof data leave, every other buffer as entered. -/
def W8 (c : Dev nD) : Valuation τ sig (Elt F) :=
  set3 (W7 m hE c) main_v22_1 main_v22_2 main_v22_0
    ((d3 m hE c).arrAt 5 (cfg3 (adm3 m)).N) ((d3 m hE c).arrAt 6 (cfg3 (adm3 m)).N)
    (P1R3.hAt (atTc (W7 m hE)) (adm3 m) (hp0_3 m hE) (hp1_3 m hE) c (cfg3 (adm3 m)).N le_rfl)
theorem W8_def (c : Dev nD) : W8 m hE c =
  set3 (W7 m hE c) main_v22_1 main_v22_2 main_v22_0
    ((d3 m hE c).arrAt 5 (cfg3 (adm3 m)).N) ((d3 m hE c).arrAt 6 (cfg3 (adm3 m)).N)
    (P1R3.hAt (atTc (W7 m hE)) (adm3 m) (hp0_3 m hE) (hp1_3 m hE) c (cfg3 (adm3 m)).N le_rfl) := rfl
/-- The contents after the host stretch that follows. -/
def W9 (c : Dev nD) : Valuation τ sig (Elt F) := StableHlo.after hostOps4 (W8 m hE c)
/-- What the region leaves in its results, -/
theorem W8_res1 (c : Dev nD) : W8 m hE c (Proc.devRef .tc main_v22_1) = (d3 m hE c).arrAt 5 (cfg3 (adm3 m)).N :=
  set3_1 _ _ _ _ _ _ _ (by decide) (by decide)
theorem W8_res2 (c : Dev nD) : W8 m hE c (Proc.devRef .tc main_v22_2) = (d3 m hE c).arrAt 6 (cfg3 (adm3 m)).N :=
  set3_2 _ _ _ _ _ _ _ (by decide)
theorem W8_res0 (c : Dev nD) : W8 m hE c (Proc.devRef .tc main_v22_0)
    = P1R3.hAt (atTc (W7 m hE)) (adm3 m) (hp0_3 m hE) (hp1_3 m hE) c (cfg3 (adm3 m)).N le_rfl :=
  set3_0 _ _ _ _ _ _ _
/-- and every other buffer is as it was entered. -/
theorem W8_of (c : Dev nD) (r : Ref sig .tc) (h1 : r ≠ main_v22_1) (h2 : r ≠ main_v22_2) (h0 : r ≠ main_v22_0) :
    W8 m hE c (Proc.devRef .tc r) = W7 m hE c (Proc.devRef .tc r) :=
  set3_of _ _ _ _ _ _ _ r h1 h2 h0

/-! ### Region 4 -/

/-- Its two index tables: entries [250000, 250000 + 62500) of the two flattened rows of the endpoints. -/
def tbls4 : pre4.Contents (Elt F) := fun
  | 0 => extractStridedSlice S62500 ![250000] (V1 m c₀ main_v1 : IVec S1000000 32) slices_S1000000_S62500_250000
  | 1 => extractStridedSlice S62500 ![250000] (V1 m c₀ main_v3 : IVec S1000000 32) slices_S1000000_S62500_250000
  | ⟨_ + 2, h⟩ => absurd h (Nat.not_lt.2 (Nat.le_add_left _ _))
/-- They are admissible: the side condition asks nothing of the contents. -/
def adm4 : (pcfg4 (F := F)).Adm := ⟨tbls4 m, trivial⟩
include hE in
/-- The word a point reads of either table is an entry of the table, so an endpoint: it names a row of the node table. -/
theorem hp0_4 (c : Dev nD) (i : grid4.Coords) : k4_chk1 (P1.tw0 P1R4.tb0 c i (P1R4.T0 (adm4 m) c)) :=
  ChkFacts.row_inb _ (by rw [P1.tw0_eq]; exact Tbl.row0_lt m c₀ (hE c₀) _)
include hE in
theorem hp1_4 (c : Dev nD) (i : grid4.Coords) : k4_chk2 (P1.tw1 P1R4.tb1 c i (P1R4.T1 (adm4 m) c)) :=
  ChkFacts.row_inb _ (by rw [P1.tw1_eq]; exact Tbl.row1_lt m c₀ (hE c₀) _)
/-- Its proof data over the contents it is entered from. -/
abbrev d4 (c : Dev nD) : Dat τ (Elt F) Unit ℕ (Pipeline.UD sig nD τ) ℕ (cfg4 (adm4 m)) c :=
  P1R4.dat (atTc (W9 m hE)) (adm4 m) (hp0_4 m hE) (hp1_4 m hE) c
/-- The contents it leaves: its three results at what its proof data leave, every other buffer as entered. -/
def W10 (c : Dev nD) : Valuation τ sig (Elt F) :=
  set3 (W9 m hE c) main_v25_1 main_v25_2 main_v25_0
    ((d4 m hE c).arrAt 5 (cfg4 (adm4 m)).N) ((d4 m hE c).arrAt 6 (cfg4 (adm4 m)).N)
    (P1R4.hAt (atTc (W9 m hE)) (adm4 m) (hp0_4 m hE) (hp1_4 m hE) c (cfg4 (adm4 m)).N le_rfl)
theorem W10_def (c : Dev nD) : W10 m hE c =
  set3 (W9 m hE c) main_v25_1 main_v25_2 main_v25_0
    ((d4 m hE c).arrAt 5 (cfg4 (adm4 m)).N) ((d4 m hE c).arrAt 6 (cfg4 (adm4 m)).N)
    (P1R4.hAt (atTc (W9 m hE)) (adm4 m) (hp0_4 m hE) (hp1_4 m hE) c (cfg4 (adm4 m)).N le_rfl) := rfl
/-- The contents after the host stretch that follows. -/
def W11 (c : Dev nD) : Valuation τ sig (Elt F) := StableHlo.after hostOps5 (W10 m hE c)
/-- What the region leaves in its results, -/
theorem W10_res1 (c : Dev nD) : W10 m hE c (Proc.devRef .tc main_v25_1) = (d4 m hE c).arrAt 5 (cfg4 (adm4 m)).N :=
  set3_1 _ _ _ _ _ _ _ (by decide) (by decide)
theorem W10_res2 (c : Dev nD) : W10 m hE c (Proc.devRef .tc main_v25_2) = (d4 m hE c).arrAt 6 (cfg4 (adm4 m)).N :=
  set3_2 _ _ _ _ _ _ _ (by decide)
theorem W10_res0 (c : Dev nD) : W10 m hE c (Proc.devRef .tc main_v25_0)
    = P1R4.hAt (atTc (W9 m hE)) (adm4 m) (hp0_4 m hE) (hp1_4 m hE) c (cfg4 (adm4 m)).N le_rfl :=
  set3_0 _ _ _ _ _ _ _
/-- and every other buffer is as it was entered. -/
theorem W10_of (c : Dev nD) (r : Ref sig .tc) (h1 : r ≠ main_v25_1) (h2 : r ≠ main_v25_2) (h0 : r ≠ main_v25_0) :
    W10 m hE c (Proc.devRef .tc r) = W9 m hE c (Proc.devRef .tc r) :=
  set3_of _ _ _ _ _ _ _ r h1 h2 h0

/-! ### Region 5 -/

/-- Its two index tables: entries [312500, 312500 + 62500) of the two flattened rows of the endpoints. -/
def tbls5 : pre5.Contents (Elt F) := fun
  | 0 => extractStridedSlice S62500 ![312500] (V1 m c₀ main_v1 : IVec S1000000 32) slices_S1000000_S62500_312500
  | 1 => extractStridedSlice S62500 ![312500] (V1 m c₀ main_v3 : IVec S1000000 32) slices_S1000000_S62500_312500
  | ⟨_ + 2, h⟩ => absurd h (Nat.not_lt.2 (Nat.le_add_left _ _))
/-- They are admissible: the side condition asks nothing of the contents. -/
def adm5 : (pcfg5 (F := F)).Adm := ⟨tbls5 m, trivial⟩
include hE in
/-- The word a point reads of either table is an entry of the table, so an endpoint: it names a row of the node table. -/
theorem hp0_5 (c : Dev nD) (i : grid5.Coords) : k5_chk1 (P1.tw0 P1R5.tb0 c i (P1R5.T0 (adm5 m) c)) :=
  ChkFacts.row_inb _ (by rw [P1.tw0_eq]; exact Tbl.row0_lt m c₀ (hE c₀) _)
include hE in
theorem hp1_5 (c : Dev nD) (i : grid5.Coords) : k5_chk2 (P1.tw1 P1R5.tb1 c i (P1R5.T1 (adm5 m) c)) :=
  ChkFacts.row_inb _ (by rw [P1.tw1_eq]; exact Tbl.row1_lt m c₀ (hE c₀) _)
/-- Its proof data over the contents it is entered from. -/
abbrev d5 (c : Dev nD) : Dat τ (Elt F) Unit ℕ (Pipeline.UD sig nD τ) ℕ (cfg5 (adm5 m)) c :=
  P1R5.dat (atTc (W11 m hE)) (adm5 m) (hp0_5 m hE) (hp1_5 m hE) c
/-- The contents it leaves: its three results at what its proof data leave, every other buffer as entered. -/
def W12 (c : Dev nD) : Valuation τ sig (Elt F) :=
  set3 (W11 m hE c) main_v28_1 main_v28_2 main_v28_0
    ((d5 m hE c).arrAt 5 (cfg5 (adm5 m)).N) ((d5 m hE c).arrAt 6 (cfg5 (adm5 m)).N)
    (P1R5.hAt (atTc (W11 m hE)) (adm5 m) (hp0_5 m hE) (hp1_5 m hE) c (cfg5 (adm5 m)).N le_rfl)
theorem W12_def (c : Dev nD) : W12 m hE c =
  set3 (W11 m hE c) main_v28_1 main_v28_2 main_v28_0
    ((d5 m hE c).arrAt 5 (cfg5 (adm5 m)).N) ((d5 m hE c).arrAt 6 (cfg5 (adm5 m)).N)
    (P1R5.hAt (atTc (W11 m hE)) (adm5 m) (hp0_5 m hE) (hp1_5 m hE) c (cfg5 (adm5 m)).N le_rfl) := rfl
/-- The contents after the host stretch that follows. -/
def W13 (c : Dev nD) : Valuation τ sig (Elt F) := StableHlo.after hostOps6 (W12 m hE c)
/-- What the region leaves in its results, -/
theorem W12_res1 (c : Dev nD) : W12 m hE c (Proc.devRef .tc main_v28_1) = (d5 m hE c).arrAt 5 (cfg5 (adm5 m)).N :=
  set3_1 _ _ _ _ _ _ _ (by decide) (by decide)
theorem W12_res2 (c : Dev nD) : W12 m hE c (Proc.devRef .tc main_v28_2) = (d5 m hE c).arrAt 6 (cfg5 (adm5 m)).N :=
  set3_2 _ _ _ _ _ _ _ (by decide)
theorem W12_res0 (c : Dev nD) : W12 m hE c (Proc.devRef .tc main_v28_0)
    = P1R5.hAt (atTc (W11 m hE)) (adm5 m) (hp0_5 m hE) (hp1_5 m hE) c (cfg5 (adm5 m)).N le_rfl :=
  set3_0 _ _ _ _ _ _ _
/-- and every other buffer is as it was entered. -/
theorem W12_of (c : Dev nD) (r : Ref sig .tc) (h1 : r ≠ main_v28_1) (h2 : r ≠ main_v28_2) (h0 : r ≠ main_v28_0) :
    W12 m hE c (Proc.devRef .tc r) = W11 m hE c (Proc.devRef .tc r) :=
  set3_of _ _ _ _ _ _ _ r h1 h2 h0

/-! ### Region 6 -/

/-- Its two index tables: entries [375000, 375000 + 62500) of the two flattened rows of the endpoints. -/
def tbls6 : pre6.Contents (Elt F) := fun
  | 0 => extractStridedSlice S62500 ![375000] (V1 m c₀ main_v1 : IVec S1000000 32) slices_S1000000_S62500_375000
  | 1 => extractStridedSlice S62500 ![375000] (V1 m c₀ main_v3 : IVec S1000000 32) slices_S1000000_S62500_375000
  | ⟨_ + 2, h⟩ => absurd h (Nat.not_lt.2 (Nat.le_add_left _ _))
/-- They are admissible: the side condition asks nothing of the contents. -/
def adm6 : (pcfg6 (F := F)).Adm := ⟨tbls6 m, trivial⟩
include hE in
/-- The word a point reads of either table is an entry of the table, so an endpoint: it names a row of the node table. -/
theorem hp0_6 (c : Dev nD) (i : grid6.Coords) : k6_chk1 (P1.tw0 P1R6.tb0 c i (P1R6.T0 (adm6 m) c)) :=
  ChkFacts.row_inb _ (by rw [P1.tw0_eq]; exact Tbl.row0_lt m c₀ (hE c₀) _)
include hE in
theorem hp1_6 (c : Dev nD) (i : grid6.Coords) : k6_chk2 (P1.tw1 P1R6.tb1 c i (P1R6.T1 (adm6 m) c)) :=
  ChkFacts.row_inb _ (by rw [P1.tw1_eq]; exact Tbl.row1_lt m c₀ (hE c₀) _)
/-- Its proof data over the contents it is entered from. -/
abbrev d6 (c : Dev nD) : Dat τ (Elt F) Unit ℕ (Pipeline.UD sig nD τ) ℕ (cfg6 (adm6 m)) c :=
  P1R6.dat (atTc (W13 m hE)) (adm6 m) (hp0_6 m hE) (hp1_6 m hE) c
/-- The contents it leaves: its three results at what its proof data leave, every other buffer as entered. -/
def W14 (c : Dev nD) : Valuation τ sig (Elt F) :=
  set3 (W13 m hE c) main_v31_1 main_v31_2 main_v31_0
    ((d6 m hE c).arrAt 5 (cfg6 (adm6 m)).N) ((d6 m hE c).arrAt 6 (cfg6 (adm6 m)).N)
    (P1R6.hAt (atTc (W13 m hE)) (adm6 m) (hp0_6 m hE) (hp1_6 m hE) c (cfg6 (adm6 m)).N le_rfl)
theorem W14_def (c : Dev nD) : W14 m hE c =
  set3 (W13 m hE c) main_v31_1 main_v31_2 main_v31_0
    ((d6 m hE c).arrAt 5 (cfg6 (adm6 m)).N) ((d6 m hE c).arrAt 6 (cfg6 (adm6 m)).N)
    (P1R6.hAt (atTc (W13 m hE)) (adm6 m) (hp0_6 m hE) (hp1_6 m hE) c (cfg6 (adm6 m)).N le_rfl) := rfl
/-- The contents after the host stretch that follows. -/
def W15 (c : Dev nD) : Valuation τ sig (Elt F) := StableHlo.after hostOps7 (W14 m hE c)
/-- What the region leaves in its results, -/
theorem W14_res1 (c : Dev nD) : W14 m hE c (Proc.devRef .tc main_v31_1) = (d6 m hE c).arrAt 5 (cfg6 (adm6 m)).N :=
  set3_1 _ _ _ _ _ _ _ (by decide) (by decide)
theorem W14_res2 (c : Dev nD) : W14 m hE c (Proc.devRef .tc main_v31_2) = (d6 m hE c).arrAt 6 (cfg6 (adm6 m)).N :=
  set3_2 _ _ _ _ _ _ _ (by decide)
theorem W14_res0 (c : Dev nD) : W14 m hE c (Proc.devRef .tc main_v31_0)
    = P1R6.hAt (atTc (W13 m hE)) (adm6 m) (hp0_6 m hE) (hp1_6 m hE) c (cfg6 (adm6 m)).N le_rfl :=
  set3_0 _ _ _ _ _ _ _
/-- and every other buffer is as it was entered. -/
theorem W14_of (c : Dev nD) (r : Ref sig .tc) (h1 : r ≠ main_v31_1) (h2 : r ≠ main_v31_2) (h0 : r ≠ main_v31_0) :
    W14 m hE c (Proc.devRef .tc r) = W13 m hE c (Proc.devRef .tc r) :=
  set3_of _ _ _ _ _ _ _ r h1 h2 h0

/-! ### Region 7 -/

/-- Its two index tables: entries [437500, 437500 + 62500) of the two flattened rows of the endpoints. -/
def tbls7 : pre7.Contents (Elt F) := fun
  | 0 => extractStridedSlice S62500 ![437500] (V1 m c₀ main_v1 : IVec S1000000 32) slices_S1000000_S62500_437500
  | 1 => extractStridedSlice S62500 ![437500] (V1 m c₀ main_v3 : IVec S1000000 32) slices_S1000000_S62500_437500
  | ⟨_ + 2, h⟩ => absurd h (Nat.not_lt.2 (Nat.le_add_left _ _))
/-- They are admissible: the side condition asks nothing of the contents. -/
def adm7 : (pcfg7 (F := F)).Adm := ⟨tbls7 m, trivial⟩
include hE in
/-- The word a point reads of either table is an entry of the table, so an endpoint: it names a row of the node table. -/
theorem hp0_7 (c : Dev nD) (i : grid7.Coords) : k7_chk1 (P1.tw0 P1R7.tb0 c i (P1R7.T0 (adm7 m) c)) :=
  ChkFacts.row_inb _ (by rw [P1.tw0_eq]; exact Tbl.row0_lt m c₀ (hE c₀) _)
include hE in
theorem hp1_7 (c : Dev nD) (i : grid7.Coords) : k7_chk2 (P1.tw1 P1R7.tb1 c i (P1R7.T1 (adm7 m) c)) :=
  ChkFacts.row_inb _ (by rw [P1.tw1_eq]; exact Tbl.row1_lt m c₀ (hE c₀) _)
/-- Its proof data over the contents it is entered from. -/
abbrev d7 (c : Dev nD) : Dat τ (Elt F) Unit ℕ (Pipeline.UD sig nD τ) ℕ (cfg7 (adm7 m)) c :=
  P1R7.dat (atTc (W15 m hE)) (adm7 m) (hp0_7 m hE) (hp1_7 m hE) c
/-- The contents it leaves: its three results at what its proof data leave, every other buffer as entered. -/
def W16 (c : Dev nD) : Valuation τ sig (Elt F) :=
  set3 (W15 m hE c) main_v34_1 main_v34_2 main_v34_0
    ((d7 m hE c).arrAt 5 (cfg7 (adm7 m)).N) ((d7 m hE c).arrAt 6 (cfg7 (adm7 m)).N)
    (P1R7.hAt (atTc (W15 m hE)) (adm7 m) (hp0_7 m hE) (hp1_7 m hE) c (cfg7 (adm7 m)).N le_rfl)
theorem W16_def (c : Dev nD) : W16 m hE c =
  set3 (W15 m hE c) main_v34_1 main_v34_2 main_v34_0
    ((d7 m hE c).arrAt 5 (cfg7 (adm7 m)).N) ((d7 m hE c).arrAt 6 (cfg7 (adm7 m)).N)
    (P1R7.hAt (atTc (W15 m hE)) (adm7 m) (hp0_7 m hE) (hp1_7 m hE) c (cfg7 (adm7 m)).N le_rfl) := rfl
/-- The contents after the host stretch that follows. -/
def W17 (c : Dev nD) : Valuation τ sig (Elt F) := StableHlo.after hostOps8 (W16 m hE c)
/-- What the region leaves in its results, -/
theorem W16_res1 (c : Dev nD) : W16 m hE c (Proc.devRef .tc main_v34_1) = (d7 m hE c).arrAt 5 (cfg7 (adm7 m)).N :=
  set3_1 _ _ _ _ _ _ _ (by decide) (by decide)
theorem W16_res2 (c : Dev nD) : W16 m hE c (Proc.devRef .tc main_v34_2) = (d7 m hE c).arrAt 6 (cfg7 (adm7 m)).N :=
  set3_2 _ _ _ _ _ _ _ (by decide)
theorem W16_res0 (c : Dev nD) : W16 m hE c (Proc.devRef .tc main_v34_0)
    = P1R7.hAt (atTc (W15 m hE)) (adm7 m) (hp0_7 m hE) (hp1_7 m hE) c (cfg7 (adm7 m)).N le_rfl :=
  set3_0 _ _ _ _ _ _ _
/-- and every other buffer is as it was entered. -/
theorem W16_of (c : Dev nD) (r : Ref sig .tc) (h1 : r ≠ main_v34_1) (h2 : r ≠ main_v34_2) (h0 : r ≠ main_v34_0) :
    W16 m hE c (Proc.devRef .tc r) = W15 m hE c (Proc.devRef .tc r) :=
  set3_of _ _ _ _ _ _ _ r h1 h2 h0

/-! ### Region 8 -/

/-- Its two index tables: entries [500000, 500000 + 62500) of the two flattened rows of the endpoints. -/
def tbls8 : pre8.Contents (Elt F) := fun
  | 0 => extractStridedSlice S62500 ![500000] (V1 m c₀ main_v1 : IVec S1000000 32) slices_S1000000_S62500_500000
  | 1 => extractStridedSlice S62500 ![500000] (V1 m c₀ main_v3 : IVec S1000000 32) slices_S1000000_S62500_500000
  | ⟨_ + 2, h⟩ => absurd h (Nat.not_lt.2 (Nat.le_add_left _ _))
/-- They are admissible: the side condition asks nothing of the contents. -/
def adm8 : (pcfg8 (F := F)).Adm := ⟨tbls8 m, trivial⟩
include hE in
/-- The word a point reads of either table is an entry of the table, so an endpoint: it names a row of the node table. -/
theorem hp0_8 (c : Dev nD) (i : grid8.Coords) : k8_chk1 (P1.tw0 P1R8.tb0 c i (P1R8.T0 (adm8 m) c)) :=
  ChkFacts.row_inb _ (by rw [P1.tw0_eq]; exact Tbl.row0_lt m c₀ (hE c₀) _)
include hE in
theorem hp1_8 (c : Dev nD) (i : grid8.Coords) : k8_chk2 (P1.tw1 P1R8.tb1 c i (P1R8.T1 (adm8 m) c)) :=
  ChkFacts.row_inb _ (by rw [P1.tw1_eq]; exact Tbl.row1_lt m c₀ (hE c₀) _)
/-- Its proof data over the contents it is entered from. -/
abbrev d8 (c : Dev nD) : Dat τ (Elt F) Unit ℕ (Pipeline.UD sig nD τ) ℕ (cfg8 (adm8 m)) c :=
  P1R8.dat (atTc (W17 m hE)) (adm8 m) (hp0_8 m hE) (hp1_8 m hE) c
/-- The contents it leaves: its three results at what its proof data leave, every other buffer as entered. -/
def W18 (c : Dev nD) : Valuation τ sig (Elt F) :=
  set3 (W17 m hE c) main_v37_1 main_v37_2 main_v37_0
    ((d8 m hE c).arrAt 5 (cfg8 (adm8 m)).N) ((d8 m hE c).arrAt 6 (cfg8 (adm8 m)).N)
    (P1R8.hAt (atTc (W17 m hE)) (adm8 m) (hp0_8 m hE) (hp1_8 m hE) c (cfg8 (adm8 m)).N le_rfl)
theorem W18_def (c : Dev nD) : W18 m hE c =
  set3 (W17 m hE c) main_v37_1 main_v37_2 main_v37_0
    ((d8 m hE c).arrAt 5 (cfg8 (adm8 m)).N) ((d8 m hE c).arrAt 6 (cfg8 (adm8 m)).N)
    (P1R8.hAt (atTc (W17 m hE)) (adm8 m) (hp0_8 m hE) (hp1_8 m hE) c (cfg8 (adm8 m)).N le_rfl) := rfl
/-- The contents after the host stretch that follows. -/
def W19 (c : Dev nD) : Valuation τ sig (Elt F) := StableHlo.after hostOps9 (W18 m hE c)
/-- What the region leaves in its results, -/
theorem W18_res1 (c : Dev nD) : W18 m hE c (Proc.devRef .tc main_v37_1) = (d8 m hE c).arrAt 5 (cfg8 (adm8 m)).N :=
  set3_1 _ _ _ _ _ _ _ (by decide) (by decide)
theorem W18_res2 (c : Dev nD) : W18 m hE c (Proc.devRef .tc main_v37_2) = (d8 m hE c).arrAt 6 (cfg8 (adm8 m)).N :=
  set3_2 _ _ _ _ _ _ _ (by decide)
theorem W18_res0 (c : Dev nD) : W18 m hE c (Proc.devRef .tc main_v37_0)
    = P1R8.hAt (atTc (W17 m hE)) (adm8 m) (hp0_8 m hE) (hp1_8 m hE) c (cfg8 (adm8 m)).N le_rfl :=
  set3_0 _ _ _ _ _ _ _
/-- and every other buffer is as it was entered. -/
theorem W18_of (c : Dev nD) (r : Ref sig .tc) (h1 : r ≠ main_v37_1) (h2 : r ≠ main_v37_2) (h0 : r ≠ main_v37_0) :
    W18 m hE c (Proc.devRef .tc r) = W17 m hE c (Proc.devRef .tc r) :=
  set3_of _ _ _ _ _ _ _ r h1 h2 h0

/-! ### Region 9 -/

/-- Its two index tables: entries [562500, 562500 + 62500) of the two flattened rows of the endpoints. -/
def tbls9 : pre9.Contents (Elt F) := fun
  | 0 => extractStridedSlice S62500 ![562500] (V1 m c₀ main_v1 : IVec S1000000 32) slices_S1000000_S62500_562500
  | 1 => extractStridedSlice S62500 ![562500] (V1 m c₀ main_v3 : IVec S1000000 32) slices_S1000000_S62500_562500
  | ⟨_ + 2, h⟩ => absurd h (Nat.not_lt.2 (Nat.le_add_left _ _))
/-- They are admissible: the side condition asks nothing of the contents. -/
def adm9 : (pcfg9 (F := F)).Adm := ⟨tbls9 m, trivial⟩
include hE in
/-- The word a point reads of either table is an entry of the table, so an endpoint: it names a row of the node table. -/
theorem hp0_9 (c : Dev nD) (i : grid9.Coords) : k9_chk1 (P1.tw0 P1R9.tb0 c i (P1R9.T0 (adm9 m) c)) :=
  ChkFacts.row_inb _ (by rw [P1.tw0_eq]; exact Tbl.row0_lt m c₀ (hE c₀) _)
include hE in
theorem hp1_9 (c : Dev nD) (i : grid9.Coords) : k9_chk2 (P1.tw1 P1R9.tb1 c i (P1R9.T1 (adm9 m) c)) :=
  ChkFacts.row_inb _ (by rw [P1.tw1_eq]; exact Tbl.row1_lt m c₀ (hE c₀) _)
/-- Its proof data over the contents it is entered from. -/
abbrev d9 (c : Dev nD) : Dat τ (Elt F) Unit ℕ (Pipeline.UD sig nD τ) ℕ (cfg9 (adm9 m)) c :=
  P1R9.dat (atTc (W19 m hE)) (adm9 m) (hp0_9 m hE) (hp1_9 m hE) c
/-- The contents it leaves: its three results at what its proof data leave, every other buffer as entered. -/
def W20 (c : Dev nD) : Valuation τ sig (Elt F) :=
  set3 (W19 m hE c) main_v40_1 main_v40_2 main_v40_0
    ((d9 m hE c).arrAt 5 (cfg9 (adm9 m)).N) ((d9 m hE c).arrAt 6 (cfg9 (adm9 m)).N)
    (P1R9.hAt (atTc (W19 m hE)) (adm9 m) (hp0_9 m hE) (hp1_9 m hE) c (cfg9 (adm9 m)).N le_rfl)
theorem W20_def (c : Dev nD) : W20 m hE c =
  set3 (W19 m hE c) main_v40_1 main_v40_2 main_v40_0
    ((d9 m hE c).arrAt 5 (cfg9 (adm9 m)).N) ((d9 m hE c).arrAt 6 (cfg9 (adm9 m)).N)
    (P1R9.hAt (atTc (W19 m hE)) (adm9 m) (hp0_9 m hE) (hp1_9 m hE) c (cfg9 (adm9 m)).N le_rfl) := rfl
/-- The contents after the host stretch that follows. -/
def W21 (c : Dev nD) : Valuation τ sig (Elt F) := StableHlo.after hostOps10 (W20 m hE c)
/-- What the region leaves in its results, -/
theorem W20_res1 (c : Dev nD) : W20 m hE c (Proc.devRef .tc main_v40_1) = (d9 m hE c).arrAt 5 (cfg9 (adm9 m)).N :=
  set3_1 _ _ _ _ _ _ _ (by decide) (by decide)
theorem W20_res2 (c : Dev nD) : W20 m hE c (Proc.devRef .tc main_v40_2) = (d9 m hE c).arrAt 6 (cfg9 (adm9 m)).N :=
  set3_2 _ _ _ _ _ _ _ (by decide)
theorem W20_res0 (c : Dev nD) : W20 m hE c (Proc.devRef .tc main_v40_0)
    = P1R9.hAt (atTc (W19 m hE)) (adm9 m) (hp0_9 m hE) (hp1_9 m hE) c (cfg9 (adm9 m)).N le_rfl :=
  set3_0 _ _ _ _ _ _ _
/-- and every other buffer is as it was entered. -/
theorem W20_of (c : Dev nD) (r : Ref sig .tc) (h1 : r ≠ main_v40_1) (h2 : r ≠ main_v40_2) (h0 : r ≠ main_v40_0) :
    W20 m hE c (Proc.devRef .tc r) = W19 m hE c (Proc.devRef .tc r) :=
  set3_of _ _ _ _ _ _ _ r h1 h2 h0

/-! ### Region 10 -/

/-- Its two index tables: entries [625000, 625000 + 62500) of the two flattened rows of the endpoints. -/
def tbls10 : pre10.Contents (Elt F) := fun
  | 0 => extractStridedSlice S62500 ![625000] (V1 m c₀ main_v1 : IVec S1000000 32) slices_S1000000_S62500_625000
  | 1 => extractStridedSlice S62500 ![625000] (V1 m c₀ main_v3 : IVec S1000000 32) slices_S1000000_S62500_625000
  | ⟨_ + 2, h⟩ => absurd h (Nat.not_lt.2 (Nat.le_add_left _ _))
/-- They are admissible: the side condition asks nothing of the contents. -/
def adm10 : (pcfg10 (F := F)).Adm := ⟨tbls10 m, trivial⟩
include hE in
/-- The word a point reads of either table is an entry of the table, so an endpoint: it names a row of the node table. -/
theorem hp0_10 (c : Dev nD) (i : grid10.Coords) : k10_chk1 (P1.tw0 P1R10.tb0 c i (P1R10.T0 (adm10 m) c)) :=
  ChkFacts.row_inb _ (by rw [P1.tw0_eq]; exact Tbl.row0_lt m c₀ (hE c₀) _)
include hE in
theorem hp1_10 (c : Dev nD) (i : grid10.Coords) : k10_chk2 (P1.tw1 P1R10.tb1 c i (P1R10.T1 (adm10 m) c)) :=
  ChkFacts.row_inb _ (by rw [P1.tw1_eq]; exact Tbl.row1_lt m c₀ (hE c₀) _)
/-- Its proof data over the contents it is entered from. -/
abbrev d10 (c : Dev nD) : Dat τ (Elt F) Unit ℕ (Pipeline.UD sig nD τ) ℕ (cfg10 (adm10 m)) c :=
  P1R10.dat (atTc (W21 m hE)) (adm10 m) (hp0_10 m hE) (hp1_10 m hE) c
/-- The contents it leaves: its three results at what its proof data leave, every other buffer as entered. -/
def W22 (c : Dev nD) : Valuation τ sig (Elt F) :=
  set3 (W21 m hE c) main_v43_1 main_v43_2 main_v43_0
    ((d10 m hE c).arrAt 5 (cfg10 (adm10 m)).N) ((d10 m hE c).arrAt 6 (cfg10 (adm10 m)).N)
    (P1R10.hAt (atTc (W21 m hE)) (adm10 m) (hp0_10 m hE) (hp1_10 m hE) c (cfg10 (adm10 m)).N le_rfl)
theorem W22_def (c : Dev nD) : W22 m hE c =
  set3 (W21 m hE c) main_v43_1 main_v43_2 main_v43_0
    ((d10 m hE c).arrAt 5 (cfg10 (adm10 m)).N) ((d10 m hE c).arrAt 6 (cfg10 (adm10 m)).N)
    (P1R10.hAt (atTc (W21 m hE)) (adm10 m) (hp0_10 m hE) (hp1_10 m hE) c (cfg10 (adm10 m)).N le_rfl) := rfl
/-- The contents after the host stretch that follows. -/
def W23 (c : Dev nD) : Valuation τ sig (Elt F) := StableHlo.after hostOps11 (W22 m hE c)
/-- What the region leaves in its results, -/
theorem W22_res1 (c : Dev nD) : W22 m hE c (Proc.devRef .tc main_v43_1) = (d10 m hE c).arrAt 5 (cfg10 (adm10 m)).N :=
  set3_1 _ _ _ _ _ _ _ (by decide) (by decide)
theorem W22_res2 (c : Dev nD) : W22 m hE c (Proc.devRef .tc main_v43_2) = (d10 m hE c).arrAt 6 (cfg10 (adm10 m)).N :=
  set3_2 _ _ _ _ _ _ _ (by decide)
theorem W22_res0 (c : Dev nD) : W22 m hE c (Proc.devRef .tc main_v43_0)
    = P1R10.hAt (atTc (W21 m hE)) (adm10 m) (hp0_10 m hE) (hp1_10 m hE) c (cfg10 (adm10 m)).N le_rfl :=
  set3_0 _ _ _ _ _ _ _
/-- and every other buffer is as it was entered. -/
theorem W22_of (c : Dev nD) (r : Ref sig .tc) (h1 : r ≠ main_v43_1) (h2 : r ≠ main_v43_2) (h0 : r ≠ main_v43_0) :
    W22 m hE c (Proc.devRef .tc r) = W21 m hE c (Proc.devRef .tc r) :=
  set3_of _ _ _ _ _ _ _ r h1 h2 h0

/-! ### Region 11 -/

/-- Its two index tables: entries [687500, 687500 + 62500) of the two flattened rows of the endpoints. -/
def tbls11 : pre11.Contents (Elt F) := fun
  | 0 => extractStridedSlice S62500 ![687500] (V1 m c₀ main_v1 : IVec S1000000 32) slices_S1000000_S62500_687500
  | 1 => extractStridedSlice S62500 ![687500] (V1 m c₀ main_v3 : IVec S1000000 32) slices_S1000000_S62500_687500
  | ⟨_ + 2, h⟩ => absurd h (Nat.not_lt.2 (Nat.le_add_left _ _))
/-- They are admissible: the side condition asks nothing of the contents. -/
def adm11 : (pcfg11 (F := F)).Adm := ⟨tbls11 m, trivial⟩
include hE in
/-- The word a point reads of either table is an entry of the table, so an endpoint: it names a row of the node table. -/
theorem hp0_11 (c : Dev nD) (i : grid11.Coords) : k11_chk1 (P1.tw0 P1R11.tb0 c i (P1R11.T0 (adm11 m) c)) :=
  ChkFacts.row_inb _ (by rw [P1.tw0_eq]; exact Tbl.row0_lt m c₀ (hE c₀) _)
include hE in
theorem hp1_11 (c : Dev nD) (i : grid11.Coords) : k11_chk2 (P1.tw1 P1R11.tb1 c i (P1R11.T1 (adm11 m) c)) :=
  ChkFacts.row_inb _ (by rw [P1.tw1_eq]; exact Tbl.row1_lt m c₀ (hE c₀) _)
/-- Its proof data over the contents it is entered from. -/
abbrev d11 (c : Dev nD) : Dat τ (Elt F) Unit ℕ (Pipeline.UD sig nD τ) ℕ (cfg11 (adm11 m)) c :=
  P1R11.dat (atTc (W23 m hE)) (adm11 m) (hp0_11 m hE) (hp1_11 m hE) c
/-- The contents it leaves: its three results at what its proof data leave, every other buffer as entered. -/
def W24 (c : Dev nD) : Valuation τ sig (Elt F) :=
  set3 (W23 m hE c) main_v46_1 main_v46_2 main_v46_0
    ((d11 m hE c).arrAt 5 (cfg11 (adm11 m)).N) ((d11 m hE c).arrAt 6 (cfg11 (adm11 m)).N)
    (P1R11.hAt (atTc (W23 m hE)) (adm11 m) (hp0_11 m hE) (hp1_11 m hE) c (cfg11 (adm11 m)).N le_rfl)
theorem W24_def (c : Dev nD) : W24 m hE c =
  set3 (W23 m hE c) main_v46_1 main_v46_2 main_v46_0
    ((d11 m hE c).arrAt 5 (cfg11 (adm11 m)).N) ((d11 m hE c).arrAt 6 (cfg11 (adm11 m)).N)
    (P1R11.hAt (atTc (W23 m hE)) (adm11 m) (hp0_11 m hE) (hp1_11 m hE) c (cfg11 (adm11 m)).N le_rfl) := rfl
/-- The contents after the host stretch that follows. -/
def W25 (c : Dev nD) : Valuation τ sig (Elt F) := StableHlo.after hostOps12 (W24 m hE c)
/-- What the region leaves in its results, -/
theorem W24_res1 (c : Dev nD) : W24 m hE c (Proc.devRef .tc main_v46_1) = (d11 m hE c).arrAt 5 (cfg11 (adm11 m)).N :=
  set3_1 _ _ _ _ _ _ _ (by decide) (by decide)
theorem W24_res2 (c : Dev nD) : W24 m hE c (Proc.devRef .tc main_v46_2) = (d11 m hE c).arrAt 6 (cfg11 (adm11 m)).N :=
  set3_2 _ _ _ _ _ _ _ (by decide)
theorem W24_res0 (c : Dev nD) : W24 m hE c (Proc.devRef .tc main_v46_0)
    = P1R11.hAt (atTc (W23 m hE)) (adm11 m) (hp0_11 m hE) (hp1_11 m hE) c (cfg11 (adm11 m)).N le_rfl :=
  set3_0 _ _ _ _ _ _ _
/-- and every other buffer is as it was entered. -/
theorem W24_of (c : Dev nD) (r : Ref sig .tc) (h1 : r ≠ main_v46_1) (h2 : r ≠ main_v46_2) (h0 : r ≠ main_v46_0) :
    W24 m hE c (Proc.devRef .tc r) = W23 m hE c (Proc.devRef .tc r) :=
  set3_of _ _ _ _ _ _ _ r h1 h2 h0

/-! ### Region 12 -/

/-- Its two index tables: entries [750000, 750000 + 62500) of the two flattened rows of the endpoints. -/
def tbls12 : pre12.Contents (Elt F) := fun
  | 0 => extractStridedSlice S62500 ![750000] (V1 m c₀ main_v1 : IVec S1000000 32) slices_S1000000_S62500_750000
  | 1 => extractStridedSlice S62500 ![750000] (V1 m c₀ main_v3 : IVec S1000000 32) slices_S1000000_S62500_750000
  | ⟨_ + 2, h⟩ => absurd h (Nat.not_lt.2 (Nat.le_add_left _ _))
/-- They are admissible: the side condition asks nothing of the contents. -/
def adm12 : (pcfg12 (F := F)).Adm := ⟨tbls12 m, trivial⟩
include hE in
/-- The word a point reads of either table is an entry of the table, so an endpoint: it names a row of the node table. -/
theorem hp0_12 (c : Dev nD) (i : grid12.Coords) : k12_chk1 (P1.tw0 P1R12.tb0 c i (P1R12.T0 (adm12 m) c)) :=
  ChkFacts.row_inb _ (by rw [P1.tw0_eq]; exact Tbl.row0_lt m c₀ (hE c₀) _)
include hE in
theorem hp1_12 (c : Dev nD) (i : grid12.Coords) : k12_chk2 (P1.tw1 P1R12.tb1 c i (P1R12.T1 (adm12 m) c)) :=
  ChkFacts.row_inb _ (by rw [P1.tw1_eq]; exact Tbl.row1_lt m c₀ (hE c₀) _)
/-- Its proof data over the contents it is entered from. -/
abbrev d12 (c : Dev nD) : Dat τ (Elt F) Unit ℕ (Pipeline.UD sig nD τ) ℕ (cfg12 (adm12 m)) c :=
  P1R12.dat (atTc (W25 m hE)) (adm12 m) (hp0_12 m hE) (hp1_12 m hE) c
/-- The contents it leaves: its three results at what its proof data leave, every other buffer as entered. -/
def W26 (c : Dev nD) : Valuation τ sig (Elt F) :=
  set3 (W25 m hE c) main_v49_1 main_v49_2 main_v49_0
    ((d12 m hE c).arrAt 5 (cfg12 (adm12 m)).N) ((d12 m hE c).arrAt 6 (cfg12 (adm12 m)).N)
    (P1R12.hAt (atTc (W25 m hE)) (adm12 m) (hp0_12 m hE) (hp1_12 m hE) c (cfg12 (adm12 m)).N le_rfl)
theorem W26_def (c : Dev nD) : W26 m hE c =
  set3 (W25 m hE c) main_v49_1 main_v49_2 main_v49_0
    ((d12 m hE c).arrAt 5 (cfg12 (adm12 m)).N) ((d12 m hE c).arrAt 6 (cfg12 (adm12 m)).N)
    (P1R12.hAt (atTc (W25 m hE)) (adm12 m) (hp0_12 m hE) (hp1_12 m hE) c (cfg12 (adm12 m)).N le_rfl) := rfl
/-- The contents after the host stretch that follows. -/
def W27 (c : Dev nD) : Valuation τ sig (Elt F) := StableHlo.after hostOps13 (W26 m hE c)
/-- What the region leaves in its results, -/
theorem W26_res1 (c : Dev nD) : W26 m hE c (Proc.devRef .tc main_v49_1) = (d12 m hE c).arrAt 5 (cfg12 (adm12 m)).N :=
  set3_1 _ _ _ _ _ _ _ (by decide) (by decide)
theorem W26_res2 (c : Dev nD) : W26 m hE c (Proc.devRef .tc main_v49_2) = (d12 m hE c).arrAt 6 (cfg12 (adm12 m)).N :=
  set3_2 _ _ _ _ _ _ _ (by decide)
theorem W26_res0 (c : Dev nD) : W26 m hE c (Proc.devRef .tc main_v49_0)
    = P1R12.hAt (atTc (W25 m hE)) (adm12 m) (hp0_12 m hE) (hp1_12 m hE) c (cfg12 (adm12 m)).N le_rfl :=
  set3_0 _ _ _ _ _ _ _
/-- and every other buffer is as it was entered. -/
theorem W26_of (c : Dev nD) (r : Ref sig .tc) (h1 : r ≠ main_v49_1) (h2 : r ≠ main_v49_2) (h0 : r ≠ main_v49_0) :
    W26 m hE c (Proc.devRef .tc r) = W25 m hE c (Proc.devRef .tc r) :=
  set3_of _ _ _ _ _ _ _ r h1 h2 h0

/-! ### Region 13 -/

/-- Its two index tables: entries [812500, 812500 + 62500) of the two flattened rows of the endpoints. -/
def tbls13 : pre13.Contents (Elt F) := fun
  | 0 => extractStridedSlice S62500 ![812500] (V1 m c₀ main_v1 : IVec S1000000 32) slices_S1000000_S62500_812500
  | 1 => extractStridedSlice S62500 ![812500] (V1 m c₀ main_v3 : IVec S1000000 32) slices_S1000000_S62500_812500
  | ⟨_ + 2, h⟩ => absurd h (Nat.not_lt.2 (Nat.le_add_left _ _))
/-- They are admissible: the side condition asks nothing of the contents. -/
def adm13 : (pcfg13 (F := F)).Adm := ⟨tbls13 m, trivial⟩
include hE in
/-- The word a point reads of either table is an entry of the table, so an endpoint: it names a row of the node table. -/
theorem hp0_13 (c : Dev nD) (i : grid13.Coords) : k13_chk1 (P1.tw0 P1R13.tb0 c i (P1R13.T0 (adm13 m) c)) :=
  ChkFacts.row_inb _ (by rw [P1.tw0_eq]; exact Tbl.row0_lt m c₀ (hE c₀) _)
include hE in
theorem hp1_13 (c : Dev nD) (i : grid13.Coords) : k13_chk2 (P1.tw1 P1R13.tb1 c i (P1R13.T1 (adm13 m) c)) :=
  ChkFacts.row_inb _ (by rw [P1.tw1_eq]; exact Tbl.row1_lt m c₀ (hE c₀) _)
/-- Its proof data over the contents it is entered from. -/
abbrev d13 (c : Dev nD) : Dat τ (Elt F) Unit ℕ (Pipeline.UD sig nD τ) ℕ (cfg13 (adm13 m)) c :=
  P1R13.dat (atTc (W27 m hE)) (adm13 m) (hp0_13 m hE) (hp1_13 m hE) c
/-- The contents it leaves: its three results at what its proof data leave, every other buffer as entered. -/
def W28 (c : Dev nD) : Valuation τ sig (Elt F) :=
  set3 (W27 m hE c) main_v52_1 main_v52_2 main_v52_0
    ((d13 m hE c).arrAt 5 (cfg13 (adm13 m)).N) ((d13 m hE c).arrAt 6 (cfg13 (adm13 m)).N)
    (P1R13.hAt (atTc (W27 m hE)) (adm13 m) (hp0_13 m hE) (hp1_13 m hE) c (cfg13 (adm13 m)).N le_rfl)
theorem W28_def (c : Dev nD) : W28 m hE c =
  set3 (W27 m hE c) main_v52_1 main_v52_2 main_v52_0
    ((d13 m hE c).arrAt 5 (cfg13 (adm13 m)).N) ((d13 m hE c).arrAt 6 (cfg13 (adm13 m)).N)
    (P1R13.hAt (atTc (W27 m hE)) (adm13 m) (hp0_13 m hE) (hp1_13 m hE) c (cfg13 (adm13 m)).N le_rfl) := rfl
/-- The contents after the host stretch that follows. -/
def W29 (c : Dev nD) : Valuation τ sig (Elt F) := StableHlo.after hostOps14 (W28 m hE c)
/-- What the region leaves in its results, -/
theorem W28_res1 (c : Dev nD) : W28 m hE c (Proc.devRef .tc main_v52_1) = (d13 m hE c).arrAt 5 (cfg13 (adm13 m)).N :=
  set3_1 _ _ _ _ _ _ _ (by decide) (by decide)
theorem W28_res2 (c : Dev nD) : W28 m hE c (Proc.devRef .tc main_v52_2) = (d13 m hE c).arrAt 6 (cfg13 (adm13 m)).N :=
  set3_2 _ _ _ _ _ _ _ (by decide)
theorem W28_res0 (c : Dev nD) : W28 m hE c (Proc.devRef .tc main_v52_0)
    = P1R13.hAt (atTc (W27 m hE)) (adm13 m) (hp0_13 m hE) (hp1_13 m hE) c (cfg13 (adm13 m)).N le_rfl :=
  set3_0 _ _ _ _ _ _ _
/-- and every other buffer is as it was entered. -/
theorem W28_of (c : Dev nD) (r : Ref sig .tc) (h1 : r ≠ main_v52_1) (h2 : r ≠ main_v52_2) (h0 : r ≠ main_v52_0) :
    W28 m hE c (Proc.devRef .tc r) = W27 m hE c (Proc.devRef .tc r) :=
  set3_of _ _ _ _ _ _ _ r h1 h2 h0

/-! ### Region 14 -/

/-- Its two index tables: entries [875000, 875000 + 62500) of the two flattened rows of the endpoints. -/
def tbls14 : pre14.Contents (Elt F) := fun
  | 0 => extractStridedSlice S62500 ![875000] (V1 m c₀ main_v1 : IVec S1000000 32) slices_S1000000_S62500_875000
  | 1 => extractStridedSlice S62500 ![875000] (V1 m c₀ main_v3 : IVec S1000000 32) slices_S1000000_S62500_875000
  | ⟨_ + 2, h⟩ => absurd h (Nat.not_lt.2 (Nat.le_add_left _ _))
/-- They are admissible: the side condition asks nothing of the contents. -/
def adm14 : (pcfg14 (F := F)).Adm := ⟨tbls14 m, trivial⟩
include hE in
/-- The word a point reads of either table is an entry of the table, so an endpoint: it names a row of the node table. -/
theorem hp0_14 (c : Dev nD) (i : grid14.Coords) : k14_chk1 (P1.tw0 P1R14.tb0 c i (P1R14.T0 (adm14 m) c)) :=
  ChkFacts.row_inb _ (by rw [P1.tw0_eq]; exact Tbl.row0_lt m c₀ (hE c₀) _)
include hE in
theorem hp1_14 (c : Dev nD) (i : grid14.Coords) : k14_chk2 (P1.tw1 P1R14.tb1 c i (P1R14.T1 (adm14 m) c)) :=
  ChkFacts.row_inb _ (by rw [P1.tw1_eq]; exact Tbl.row1_lt m c₀ (hE c₀) _)
/-- Its proof data over the contents it is entered from. -/
abbrev d14 (c : Dev nD) : Dat τ (Elt F) Unit ℕ (Pipeline.UD sig nD τ) ℕ (cfg14 (adm14 m)) c :=
  P1R14.dat (atTc (W29 m hE)) (adm14 m) (hp0_14 m hE) (hp1_14 m hE) c
/-- The contents it leaves: its three results at what its proof data leave, every other buffer as entered. -/
def W30 (c : Dev nD) : Valuation τ sig (Elt F) :=
  set3 (W29 m hE c) main_v55_1 main_v55_2 main_v55_0
    ((d14 m hE c).arrAt 5 (cfg14 (adm14 m)).N) ((d14 m hE c).arrAt 6 (cfg14 (adm14 m)).N)
    (P1R14.hAt (atTc (W29 m hE)) (adm14 m) (hp0_14 m hE) (hp1_14 m hE) c (cfg14 (adm14 m)).N le_rfl)
theorem W30_def (c : Dev nD) : W30 m hE c =
  set3 (W29 m hE c) main_v55_1 main_v55_2 main_v55_0
    ((d14 m hE c).arrAt 5 (cfg14 (adm14 m)).N) ((d14 m hE c).arrAt 6 (cfg14 (adm14 m)).N)
    (P1R14.hAt (atTc (W29 m hE)) (adm14 m) (hp0_14 m hE) (hp1_14 m hE) c (cfg14 (adm14 m)).N le_rfl) := rfl
/-- The contents after the host stretch that follows. -/
def W31 (c : Dev nD) : Valuation τ sig (Elt F) := StableHlo.after hostOps15 (W30 m hE c)
/-- What the region leaves in its results, -/
theorem W30_res1 (c : Dev nD) : W30 m hE c (Proc.devRef .tc main_v55_1) = (d14 m hE c).arrAt 5 (cfg14 (adm14 m)).N :=
  set3_1 _ _ _ _ _ _ _ (by decide) (by decide)
theorem W30_res2 (c : Dev nD) : W30 m hE c (Proc.devRef .tc main_v55_2) = (d14 m hE c).arrAt 6 (cfg14 (adm14 m)).N :=
  set3_2 _ _ _ _ _ _ _ (by decide)
theorem W30_res0 (c : Dev nD) : W30 m hE c (Proc.devRef .tc main_v55_0)
    = P1R14.hAt (atTc (W29 m hE)) (adm14 m) (hp0_14 m hE) (hp1_14 m hE) c (cfg14 (adm14 m)).N le_rfl :=
  set3_0 _ _ _ _ _ _ _
/-- and every other buffer is as it was entered. -/
theorem W30_of (c : Dev nD) (r : Ref sig .tc) (h1 : r ≠ main_v55_1) (h2 : r ≠ main_v55_2) (h0 : r ≠ main_v55_0) :
    W30 m hE c (Proc.devRef .tc r) = W29 m hE c (Proc.devRef .tc r) :=
  set3_of _ _ _ _ _ _ _ r h1 h2 h0

/-! ### Region 15 -/

/-- Its two index tables: entries [937500, 937500 + 62500) of the two flattened rows of the endpoints. -/
def tbls15 : pre15.Contents (Elt F) := fun
  | 0 => extractStridedSlice S62500 ![937500] (V1 m c₀ main_v1 : IVec S1000000 32) slices_S1000000_S62500_937500
  | 1 => extractStridedSlice S62500 ![937500] (V1 m c₀ main_v3 : IVec S1000000 32) slices_S1000000_S62500_937500
  | ⟨_ + 2, h⟩ => absurd h (Nat.not_lt.2 (Nat.le_add_left _ _))
/-- They are admissible: the side condition asks nothing of the contents. -/
def adm15 : (pcfg15 (F := F)).Adm := ⟨tbls15 m, trivial⟩
include hE in
/-- The word a point reads of either table is an entry of the table, so an endpoint: it names a row of the node table. -/
theorem hp0_15 (c : Dev nD) (i : grid15.Coords) : k15_chk1 (P1.tw0 P1R15.tb0 c i (P1R15.T0 (adm15 m) c)) :=
  ChkFacts.row_inb _ (by rw [P1.tw0_eq]; exact Tbl.row0_lt m c₀ (hE c₀) _)
include hE in
theorem hp1_15 (c : Dev nD) (i : grid15.Coords) : k15_chk2 (P1.tw1 P1R15.tb1 c i (P1R15.T1 (adm15 m) c)) :=
  ChkFacts.row_inb _ (by rw [P1.tw1_eq]; exact Tbl.row1_lt m c₀ (hE c₀) _)
/-- Its proof data over the contents it is entered from. -/
abbrev d15 (c : Dev nD) : Dat τ (Elt F) Unit ℕ (Pipeline.UD sig nD τ) ℕ (cfg15 (adm15 m)) c :=
  P1R15.dat (atTc (W31 m hE)) (adm15 m) (hp0_15 m hE) (hp1_15 m hE) c
/-- The contents it leaves: its three results at what its proof data leave, every other buffer as entered. -/
def W32 (c : Dev nD) : Valuation τ sig (Elt F) :=
  set3 (W31 m hE c) main_v58_1 main_v58_2 main_v58_0
    ((d15 m hE c).arrAt 5 (cfg15 (adm15 m)).N) ((d15 m hE c).arrAt 6 (cfg15 (adm15 m)).N)
    (P1R15.hAt (atTc (W31 m hE)) (adm15 m) (hp0_15 m hE) (hp1_15 m hE) c (cfg15 (adm15 m)).N le_rfl)
theorem W32_def (c : Dev nD) : W32 m hE c =
  set3 (W31 m hE c) main_v58_1 main_v58_2 main_v58_0
    ((d15 m hE c).arrAt 5 (cfg15 (adm15 m)).N) ((d15 m hE c).arrAt 6 (cfg15 (adm15 m)).N)
    (P1R15.hAt (atTc (W31 m hE)) (adm15 m) (hp0_15 m hE) (hp1_15 m hE) c (cfg15 (adm15 m)).N le_rfl) := rfl
/-- The contents after the host stretch that follows. -/
def W33 (c : Dev nD) : Valuation τ sig (Elt F) := StableHlo.after hostOps16 (W32 m hE c)
/-- What the region leaves in its results, -/
theorem W32_res1 (c : Dev nD) : W32 m hE c (Proc.devRef .tc main_v58_1) = (d15 m hE c).arrAt 5 (cfg15 (adm15 m)).N :=
  set3_1 _ _ _ _ _ _ _ (by decide) (by decide)
theorem W32_res2 (c : Dev nD) : W32 m hE c (Proc.devRef .tc main_v58_2) = (d15 m hE c).arrAt 6 (cfg15 (adm15 m)).N :=
  set3_2 _ _ _ _ _ _ _ (by decide)
theorem W32_res0 (c : Dev nD) : W32 m hE c (Proc.devRef .tc main_v58_0)
    = P1R15.hAt (atTc (W31 m hE)) (adm15 m) (hp0_15 m hE) (hp1_15 m hE) c (cfg15 (adm15 m)).N le_rfl :=
  set3_0 _ _ _ _ _ _ _
/-- and every other buffer is as it was entered. -/
theorem W32_of (c : Dev nD) (r : Ref sig .tc) (h1 : r ≠ main_v58_1) (h2 : r ≠ main_v58_2) (h0 : r ≠ main_v58_0) :
    W32 m hE c (Proc.devRef .tc r) = W31 m hE c (Proc.devRef .tc r) :=
  set3_of _ _ _ _ _ _ _ r h1 h2 h0

/-! ### Region 16: the normalising pass -/

/-- The contents it leaves: the result array at what its write-backs leave, every other buffer as entered. -/
def W34 (c : Dev nD) : Valuation τ sig (Elt F) :=
  Function.update (W33 m hE c) (Proc.devRef .tc main_v104) ((dat16 (atTc (W33 m hE)) c).arrAt 7 cfg16.N)

/-! ## The unknowns, chosen: after item J, buffer r holds what the chain holds there -/

def outs : Outs (F := F) := fun J r c =>
  match J with
  | 2 => W2 m hE c (Proc.devRef .tc r)
  | 4 => W4 m hE c (Proc.devRef .tc r)
  | 6 => W6 m hE c (Proc.devRef .tc r)
  | 8 => W8 m hE c (Proc.devRef .tc r)
  | 10 => W10 m hE c (Proc.devRef .tc r)
  | 12 => W12 m hE c (Proc.devRef .tc r)
  | 14 => W14 m hE c (Proc.devRef .tc r)
  | 16 => W16 m hE c (Proc.devRef .tc r)
  | 18 => W18 m hE c (Proc.devRef .tc r)
  | 20 => W20 m hE c (Proc.devRef .tc r)
  | 22 => W22 m hE c (Proc.devRef .tc r)
  | 24 => W24 m hE c (Proc.devRef .tc r)
  | 26 => W26 m hE c (Proc.devRef .tc r)
  | 28 => W28 m hE c (Proc.devRef .tc r)
  | 30 => W30 m hE c (Proc.devRef .tc r)
  | 32 => W32 m hE c (Proc.devRef .tc r)
  | 34 => W34 m hE c (Proc.devRef .tc r)
  | _ => W1 m c (Proc.devRef .tc r)

theorem outs_2 (r : Ref sig .tc) (c : Dev nD) : outs m hE 2 r c = W2 m hE c (Proc.devRef .tc r) := rfl
theorem outs_4 (r : Ref sig .tc) (c : Dev nD) : outs m hE 4 r c = W4 m hE c (Proc.devRef .tc r) := rfl
theorem outs_6 (r : Ref sig .tc) (c : Dev nD) : outs m hE 6 r c = W6 m hE c (Proc.devRef .tc r) := rfl
theorem outs_8 (r : Ref sig .tc) (c : Dev nD) : outs m hE 8 r c = W8 m hE c (Proc.devRef .tc r) := rfl
theorem outs_10 (r : Ref sig .tc) (c : Dev nD) : outs m hE 10 r c = W10 m hE c (Proc.devRef .tc r) := rfl
theorem outs_12 (r : Ref sig .tc) (c : Dev nD) : outs m hE 12 r c = W12 m hE c (Proc.devRef .tc r) := rfl
theorem outs_14 (r : Ref sig .tc) (c : Dev nD) : outs m hE 14 r c = W14 m hE c (Proc.devRef .tc r) := rfl
theorem outs_16 (r : Ref sig .tc) (c : Dev nD) : outs m hE 16 r c = W16 m hE c (Proc.devRef .tc r) := rfl
theorem outs_18 (r : Ref sig .tc) (c : Dev nD) : outs m hE 18 r c = W18 m hE c (Proc.devRef .tc r) := rfl
theorem outs_20 (r : Ref sig .tc) (c : Dev nD) : outs m hE 20 r c = W20 m hE c (Proc.devRef .tc r) := rfl
theorem outs_22 (r : Ref sig .tc) (c : Dev nD) : outs m hE 22 r c = W22 m hE c (Proc.devRef .tc r) := rfl
theorem outs_24 (r : Ref sig .tc) (c : Dev nD) : outs m hE 24 r c = W24 m hE c (Proc.devRef .tc r) := rfl
theorem outs_26 (r : Ref sig .tc) (c : Dev nD) : outs m hE 26 r c = W26 m hE c (Proc.devRef .tc r) := rfl
theorem outs_28 (r : Ref sig .tc) (c : Dev nD) : outs m hE 28 r c = W28 m hE c (Proc.devRef .tc r) := rfl
theorem outs_30 (r : Ref sig .tc) (c : Dev nD) : outs m hE 30 r c = W30 m hE c (Proc.devRef .tc r) := rfl
theorem outs_32 (r : Ref sig .tc) (c : Dev nD) : outs m hE 32 r c = W32 m hE c (Proc.devRef .tc r) := rfl
theorem outs_34 (r : Ref sig .tc) (c : Dev nD) : outs m hE 34 r c = W34 m hE c (Proc.devRef .tc r) := rfl

/-! ## The conditional run's contents at these unknowns are the chain -/

theorem V1_eq (c : Dev nD) : V1 m c = W1 m c := rfl
theorem V2_eq (c : Dev nD) : V2 m (outs m hE) c = W2 m hE c :=
  (set3_chain _ main_v13_1 main_v13_2 main_v13_0 _ _ _ _ _ _ (V1_eq m c) (W2_def m hE c)
      (outs_2 m hE main_v13_1 c) (outs_2 m hE main_v13_2 c) (outs_2 m hE main_v13_0 c) (by decide) (by decide) (by decide) :
    set3 (V1 m c) main_v13_1 main_v13_2 main_v13_0 (outs m hE 2 main_v13_1 c)
      (outs m hE 2 main_v13_2 c) (outs m hE 2 main_v13_0 c) = W2 m hE c)
theorem V3_eq (c : Dev nD) : V3 m (outs m hE) c = W3 m hE c :=
  congrArg (StableHlo.after hostOps1) (V2_eq m hE c)
theorem V4_eq (c : Dev nD) : V4 m (outs m hE) c = W4 m hE c :=
  (set3_chain _ main_v16_1 main_v16_2 main_v16_0 _ _ _ _ _ _ (V3_eq m hE c) (W4_def m hE c)
      (outs_4 m hE main_v16_1 c) (outs_4 m hE main_v16_2 c) (outs_4 m hE main_v16_0 c) (by decide) (by decide) (by decide) :
    set3 (V3 m (outs m hE) c) main_v16_1 main_v16_2 main_v16_0 (outs m hE 4 main_v16_1 c)
      (outs m hE 4 main_v16_2 c) (outs m hE 4 main_v16_0 c) = W4 m hE c)
theorem V5_eq (c : Dev nD) : V5 m (outs m hE) c = W5 m hE c :=
  congrArg (StableHlo.after hostOps2) (V4_eq m hE c)
theorem V6_eq (c : Dev nD) : V6 m (outs m hE) c = W6 m hE c :=
  (set3_chain _ main_v19_1 main_v19_2 main_v19_0 _ _ _ _ _ _ (V5_eq m hE c) (W6_def m hE c)
      (outs_6 m hE main_v19_1 c) (outs_6 m hE main_v19_2 c) (outs_6 m hE main_v19_0 c) (by decide) (by decide) (by decide) :
    set3 (V5 m (outs m hE) c) main_v19_1 main_v19_2 main_v19_0 (outs m hE 6 main_v19_1 c)
      (outs m hE 6 main_v19_2 c) (outs m hE 6 main_v19_0 c) = W6 m hE c)
theorem V7_eq (c : Dev nD) : V7 m (outs m hE) c = W7 m hE c :=
  congrArg (StableHlo.after hostOps3) (V6_eq m hE c)
theorem V8_eq (c : Dev nD) : V8 m (outs m hE) c = W8 m hE c :=
  (set3_chain _ main_v22_1 main_v22_2 main_v22_0 _ _ _ _ _ _ (V7_eq m hE c) (W8_def m hE c)
      (outs_8 m hE main_v22_1 c) (outs_8 m hE main_v22_2 c) (outs_8 m hE main_v22_0 c) (by decide) (by decide) (by decide) :
    set3 (V7 m (outs m hE) c) main_v22_1 main_v22_2 main_v22_0 (outs m hE 8 main_v22_1 c)
      (outs m hE 8 main_v22_2 c) (outs m hE 8 main_v22_0 c) = W8 m hE c)
theorem V9_eq (c : Dev nD) : V9 m (outs m hE) c = W9 m hE c :=
  congrArg (StableHlo.after hostOps4) (V8_eq m hE c)
theorem V10_eq (c : Dev nD) : V10 m (outs m hE) c = W10 m hE c :=
  (set3_chain _ main_v25_1 main_v25_2 main_v25_0 _ _ _ _ _ _ (V9_eq m hE c) (W10_def m hE c)
      (outs_10 m hE main_v25_1 c) (outs_10 m hE main_v25_2 c) (outs_10 m hE main_v25_0 c) (by decide) (by decide) (by decide) :
    set3 (V9 m (outs m hE) c) main_v25_1 main_v25_2 main_v25_0 (outs m hE 10 main_v25_1 c)
      (outs m hE 10 main_v25_2 c) (outs m hE 10 main_v25_0 c) = W10 m hE c)
theorem V11_eq (c : Dev nD) : V11 m (outs m hE) c = W11 m hE c :=
  congrArg (StableHlo.after hostOps5) (V10_eq m hE c)
theorem V12_eq (c : Dev nD) : V12 m (outs m hE) c = W12 m hE c :=
  (set3_chain _ main_v28_1 main_v28_2 main_v28_0 _ _ _ _ _ _ (V11_eq m hE c) (W12_def m hE c)
      (outs_12 m hE main_v28_1 c) (outs_12 m hE main_v28_2 c) (outs_12 m hE main_v28_0 c) (by decide) (by decide) (by decide) :
    set3 (V11 m (outs m hE) c) main_v28_1 main_v28_2 main_v28_0 (outs m hE 12 main_v28_1 c)
      (outs m hE 12 main_v28_2 c) (outs m hE 12 main_v28_0 c) = W12 m hE c)
theorem V13_eq (c : Dev nD) : V13 m (outs m hE) c = W13 m hE c :=
  congrArg (StableHlo.after hostOps6) (V12_eq m hE c)
theorem V14_eq (c : Dev nD) : V14 m (outs m hE) c = W14 m hE c :=
  (set3_chain _ main_v31_1 main_v31_2 main_v31_0 _ _ _ _ _ _ (V13_eq m hE c) (W14_def m hE c)
      (outs_14 m hE main_v31_1 c) (outs_14 m hE main_v31_2 c) (outs_14 m hE main_v31_0 c) (by decide) (by decide) (by decide) :
    set3 (V13 m (outs m hE) c) main_v31_1 main_v31_2 main_v31_0 (outs m hE 14 main_v31_1 c)
      (outs m hE 14 main_v31_2 c) (outs m hE 14 main_v31_0 c) = W14 m hE c)
theorem V15_eq (c : Dev nD) : V15 m (outs m hE) c = W15 m hE c :=
  congrArg (StableHlo.after hostOps7) (V14_eq m hE c)
theorem V16_eq (c : Dev nD) : V16 m (outs m hE) c = W16 m hE c :=
  (set3_chain _ main_v34_1 main_v34_2 main_v34_0 _ _ _ _ _ _ (V15_eq m hE c) (W16_def m hE c)
      (outs_16 m hE main_v34_1 c) (outs_16 m hE main_v34_2 c) (outs_16 m hE main_v34_0 c) (by decide) (by decide) (by decide) :
    set3 (V15 m (outs m hE) c) main_v34_1 main_v34_2 main_v34_0 (outs m hE 16 main_v34_1 c)
      (outs m hE 16 main_v34_2 c) (outs m hE 16 main_v34_0 c) = W16 m hE c)
theorem V17_eq (c : Dev nD) : V17 m (outs m hE) c = W17 m hE c :=
  congrArg (StableHlo.after hostOps8) (V16_eq m hE c)
theorem V18_eq (c : Dev nD) : V18 m (outs m hE) c = W18 m hE c :=
  (set3_chain _ main_v37_1 main_v37_2 main_v37_0 _ _ _ _ _ _ (V17_eq m hE c) (W18_def m hE c)
      (outs_18 m hE main_v37_1 c) (outs_18 m hE main_v37_2 c) (outs_18 m hE main_v37_0 c) (by decide) (by decide) (by decide) :
    set3 (V17 m (outs m hE) c) main_v37_1 main_v37_2 main_v37_0 (outs m hE 18 main_v37_1 c)
      (outs m hE 18 main_v37_2 c) (outs m hE 18 main_v37_0 c) = W18 m hE c)
theorem V19_eq (c : Dev nD) : V19 m (outs m hE) c = W19 m hE c :=
  congrArg (StableHlo.after hostOps9) (V18_eq m hE c)
theorem V20_eq (c : Dev nD) : V20 m (outs m hE) c = W20 m hE c :=
  (set3_chain _ main_v40_1 main_v40_2 main_v40_0 _ _ _ _ _ _ (V19_eq m hE c) (W20_def m hE c)
      (outs_20 m hE main_v40_1 c) (outs_20 m hE main_v40_2 c) (outs_20 m hE main_v40_0 c) (by decide) (by decide) (by decide) :
    set3 (V19 m (outs m hE) c) main_v40_1 main_v40_2 main_v40_0 (outs m hE 20 main_v40_1 c)
      (outs m hE 20 main_v40_2 c) (outs m hE 20 main_v40_0 c) = W20 m hE c)
theorem V21_eq (c : Dev nD) : V21 m (outs m hE) c = W21 m hE c :=
  congrArg (StableHlo.after hostOps10) (V20_eq m hE c)
theorem V22_eq (c : Dev nD) : V22 m (outs m hE) c = W22 m hE c :=
  (set3_chain _ main_v43_1 main_v43_2 main_v43_0 _ _ _ _ _ _ (V21_eq m hE c) (W22_def m hE c)
      (outs_22 m hE main_v43_1 c) (outs_22 m hE main_v43_2 c) (outs_22 m hE main_v43_0 c) (by decide) (by decide) (by decide) :
    set3 (V21 m (outs m hE) c) main_v43_1 main_v43_2 main_v43_0 (outs m hE 22 main_v43_1 c)
      (outs m hE 22 main_v43_2 c) (outs m hE 22 main_v43_0 c) = W22 m hE c)
theorem V23_eq (c : Dev nD) : V23 m (outs m hE) c = W23 m hE c :=
  congrArg (StableHlo.after hostOps11) (V22_eq m hE c)
theorem V24_eq (c : Dev nD) : V24 m (outs m hE) c = W24 m hE c :=
  (set3_chain _ main_v46_1 main_v46_2 main_v46_0 _ _ _ _ _ _ (V23_eq m hE c) (W24_def m hE c)
      (outs_24 m hE main_v46_1 c) (outs_24 m hE main_v46_2 c) (outs_24 m hE main_v46_0 c) (by decide) (by decide) (by decide) :
    set3 (V23 m (outs m hE) c) main_v46_1 main_v46_2 main_v46_0 (outs m hE 24 main_v46_1 c)
      (outs m hE 24 main_v46_2 c) (outs m hE 24 main_v46_0 c) = W24 m hE c)
theorem V25_eq (c : Dev nD) : V25 m (outs m hE) c = W25 m hE c :=
  congrArg (StableHlo.after hostOps12) (V24_eq m hE c)
theorem V26_eq (c : Dev nD) : V26 m (outs m hE) c = W26 m hE c :=
  (set3_chain _ main_v49_1 main_v49_2 main_v49_0 _ _ _ _ _ _ (V25_eq m hE c) (W26_def m hE c)
      (outs_26 m hE main_v49_1 c) (outs_26 m hE main_v49_2 c) (outs_26 m hE main_v49_0 c) (by decide) (by decide) (by decide) :
    set3 (V25 m (outs m hE) c) main_v49_1 main_v49_2 main_v49_0 (outs m hE 26 main_v49_1 c)
      (outs m hE 26 main_v49_2 c) (outs m hE 26 main_v49_0 c) = W26 m hE c)
theorem V27_eq (c : Dev nD) : V27 m (outs m hE) c = W27 m hE c :=
  congrArg (StableHlo.after hostOps13) (V26_eq m hE c)
theorem V28_eq (c : Dev nD) : V28 m (outs m hE) c = W28 m hE c :=
  (set3_chain _ main_v52_1 main_v52_2 main_v52_0 _ _ _ _ _ _ (V27_eq m hE c) (W28_def m hE c)
      (outs_28 m hE main_v52_1 c) (outs_28 m hE main_v52_2 c) (outs_28 m hE main_v52_0 c) (by decide) (by decide) (by decide) :
    set3 (V27 m (outs m hE) c) main_v52_1 main_v52_2 main_v52_0 (outs m hE 28 main_v52_1 c)
      (outs m hE 28 main_v52_2 c) (outs m hE 28 main_v52_0 c) = W28 m hE c)
theorem V29_eq (c : Dev nD) : V29 m (outs m hE) c = W29 m hE c :=
  congrArg (StableHlo.after hostOps14) (V28_eq m hE c)
theorem V30_eq (c : Dev nD) : V30 m (outs m hE) c = W30 m hE c :=
  (set3_chain _ main_v55_1 main_v55_2 main_v55_0 _ _ _ _ _ _ (V29_eq m hE c) (W30_def m hE c)
      (outs_30 m hE main_v55_1 c) (outs_30 m hE main_v55_2 c) (outs_30 m hE main_v55_0 c) (by decide) (by decide) (by decide) :
    set3 (V29 m (outs m hE) c) main_v55_1 main_v55_2 main_v55_0 (outs m hE 30 main_v55_1 c)
      (outs m hE 30 main_v55_2 c) (outs m hE 30 main_v55_0 c) = W30 m hE c)
theorem V31_eq (c : Dev nD) : V31 m (outs m hE) c = W31 m hE c :=
  congrArg (StableHlo.after hostOps15) (V30_eq m hE c)
theorem V32_eq (c : Dev nD) : V32 m (outs m hE) c = W32 m hE c :=
  (set3_chain _ main_v58_1 main_v58_2 main_v58_0 _ _ _ _ _ _ (V31_eq m hE c) (W32_def m hE c)
      (outs_32 m hE main_v58_1 c) (outs_32 m hE main_v58_2 c) (outs_32 m hE main_v58_0 c) (by decide) (by decide) (by decide) :
    set3 (V31 m (outs m hE) c) main_v58_1 main_v58_2 main_v58_0 (outs m hE 32 main_v58_1 c)
      (outs m hE 32 main_v58_2 c) (outs m hE 32 main_v58_0 c) = W32 m hE c)
theorem V33_eq (c : Dev nD) : V33 m (outs m hE) c = W33 m hE c :=
  congrArg (StableHlo.after hostOps16) (V32_eq m hE c)

theorem W34_def (c : Dev nD) : W34 m hE c =
  Function.update (W33 m hE c) (Proc.devRef .tc main_v104) ((dat16 (atTc (W33 m hE)) c).arrAt 7 cfg16.N) := rfl
theorem V34_eq (c : Dev nD) : V34 m (outs m hE) c = W34 m hE c :=
  (set1_chain main_v104 _ _ (V33_eq m hE c) (W34_def m hE c) (outs_34 m hE main_v104 c) :
    Function.update (V33 m (outs m hE) c) (Proc.devRef .tc main_v104) (outs m hE 34 main_v104 c) = W34 m hE c)

/-! ## The tables and the proof data, as families over the 17 pipelines -/

/-- Each pipeline's admissible tables (the last pipeline has none). -/
def adm : (p : Fin 17) → (pcfgs (F := F) p).Adm
  | ⟨0, _⟩ => adm0 m
  | ⟨1, _⟩ => adm1 m
  | ⟨2, _⟩ => adm2 m
  | ⟨3, _⟩ => adm3 m
  | ⟨4, _⟩ => adm4 m
  | ⟨5, _⟩ => adm5 m
  | ⟨6, _⟩ => adm6 m
  | ⟨7, _⟩ => adm7 m
  | ⟨8, _⟩ => adm8 m
  | ⟨9, _⟩ => adm9 m
  | ⟨10, _⟩ => adm10 m
  | ⟨11, _⟩ => adm11 m
  | ⟨12, _⟩ => adm12 m
  | ⟨13, _⟩ => adm13 m
  | ⟨14, _⟩ => adm14 m
  | ⟨15, _⟩ => adm15 m
  | ⟨16, _⟩ => cfg16.toPCfg_adm
  | ⟨_ + 17, h⟩ => absurd h (Nat.not_lt.2 (Nat.le_add_left _ _))

/-- Each pipeline's proof data, over the contents its region is entered from. -/
def pdats : (p : Fin 17) → (c : Dev nD) → Dat τ (Elt F) Unit ℕ (Pipeline.UD sig nD τ) ℕ (Pipeline.pin (pcfgs (F := F)) (adm m) p) c
  | ⟨0, _⟩ => fun c => d0 m hE c
  | ⟨1, _⟩ => fun c => d1 m hE c
  | ⟨2, _⟩ => fun c => d2 m hE c
  | ⟨3, _⟩ => fun c => d3 m hE c
  | ⟨4, _⟩ => fun c => d4 m hE c
  | ⟨5, _⟩ => fun c => d5 m hE c
  | ⟨6, _⟩ => fun c => d6 m hE c
  | ⟨7, _⟩ => fun c => d7 m hE c
  | ⟨8, _⟩ => fun c => d8 m hE c
  | ⟨9, _⟩ => fun c => d9 m hE c
  | ⟨10, _⟩ => fun c => d10 m hE c
  | ⟨11, _⟩ => fun c => d11 m hE c
  | ⟨12, _⟩ => fun c => d12 m hE c
  | ⟨13, _⟩ => fun c => d13 m hE c
  | ⟨14, _⟩ => fun c => d14 m hE c
  | ⟨15, _⟩ => fun c => d15 m hE c
  | ⟨16, _⟩ => fun c => dat16 (atTc (W33 m hE)) c
  | ⟨_ + 17, h⟩ => absurd h (Nat.not_lt.2 (Nat.le_add_left _ _))

/-! ## Each region as a segment of the run -/

/-! ### Region 0 -/

include hE in
/-- The tables it finds in the buffers are its admissible ones: the host stretch before it cut them out of the two
    flattened rows, which no region writes. -/
theorem hT0_0 (c : Dev nD) : atTc (W1 m) c main_v11 = P1R0.T0 (adm0 m) c := by
  obtain rfl := dev_eq c
  exact ((congrFun (V1_eq m c₀) (Proc.devRef .tc main_v11)).symm.trans (Tbl.tbl_0a_eq m c₀) :)
include hE in
theorem hT1_0 (c : Dev nD) : atTc (W1 m) c main_v12 = P1R0.T1 (adm0 m) c := by
  obtain rfl := dev_eq c
  exact ((congrFun (V1_eq m c₀) (Proc.devRef .tc main_v12)).symm.trans (Tbl.tbl_0b_eq m c₀) :)
/-- At its exit each of its arrays holds what the pipeline leaves: the five inputs what they held (none is a result),
    the two accumulators' arrays their last write-back; -/
theorem hF_0 (c : Dev nD) (w : Fin (cfg0 (adm0 m)).W) :
    (d0 m hE c).arrAt w (cfg0 (adm0 m)).N = atTc (W2 m hE) c (Pipeline.arrRef spec0 w) := by
  match w with
  | ⟨0, _⟩ => exact (((d0 m hE c).arrAt_in 0 rfl _).trans (P1R0.A_eq _ _ _ _ c 0)).trans (W2_of m hE c (Pipeline.arrRef spec0 (0 : Fin 7)) (by decide) (by decide) (by decide)).symm
  | ⟨1, _⟩ => exact (((d0 m hE c).arrAt_in 1 rfl _).trans (P1R0.A_eq _ _ _ _ c 1)).trans (W2_of m hE c (Pipeline.arrRef spec0 (1 : Fin 7)) (by decide) (by decide) (by decide)).symm
  | ⟨2, _⟩ => exact (((d0 m hE c).arrAt_in 2 rfl _).trans (P1R0.A_eq _ _ _ _ c 2)).trans (W2_of m hE c (Pipeline.arrRef spec0 (2 : Fin 7)) (by decide) (by decide) (by decide)).symm
  | ⟨3, _⟩ => exact (((d0 m hE c).arrAt_in 3 rfl _).trans (P1R0.A_eq _ _ _ _ c 3)).trans (W2_of m hE c (Pipeline.arrRef spec0 (3 : Fin 7)) (by decide) (by decide) (by decide)).symm
  | ⟨4, _⟩ => exact (((d0 m hE c).arrAt_in 4 rfl _).trans (P1R0.A_eq _ _ _ _ c 4)).trans (W2_of m hE c (Pipeline.arrRef spec0 (4 : Fin 7)) (by decide) (by decide) (by decide)).symm
  | ⟨5, _⟩ => exact (W2_res1 m hE c).symm
  | ⟨6, _⟩ => exact (W2_res2 m hE c).symm
/-- and every buffer that is none of its arrays holds what it held at entry, but the hidden array, which holds what
    the last point left. -/
theorem hrest_0 (c : Dev nD) (b : Ref sig .tc) (hb : b ∉ Finset.univ.image (Pipeline.arrRef spec0)) :
    atTc (W2 m hE) c b = P1R0.Vmid (adm m) (W1 m) (hp0_0 m hE) (hp1_0 m hE) c b := by
  have h1 : b ≠ main_v13_1 := fun e => hb (Finset.mem_image.mpr ⟨5, Finset.mem_univ _, e.symm⟩)
  have h2 : b ≠ main_v13_2 := fun e => hb (Finset.mem_image.mpr ⟨6, Finset.mem_univ _, e.symm⟩)
  unfold P1R0.Vmid
  by_cases h0 : b = main_v13_0
  · subst h0; rw [Function.update_self]; exact W2_res0 m hE c
  · rw [Function.update_of_ne h0]; exact W2_of m hE c b h1 h2 h0
/-- The region's segment, entered from the buffers at W1 and left at W2. -/
def R0 : RegionSeg (pcfgs (F := F)) (adm m) (pdats m hE) () defs₀ Variants.none L₀ lv₀ 0 :=
  P1R0.reg (adm m) (pdats m hE) (W1 m) (W2 m hE) (hp0_0 m hE) (hp1_0 m hE) (fun _ => rfl)
    (hT0_0 m hE) (hT1_0 m hE) (hF_0 m hE) (hrest_0 m hE)
/-- It is entered from the conditional run's contents before it and left at those after it. -/
theorem hpre0 (c : Dev nD) :
    iprop(StableHlo.held (c : Thread nD τ) (Pipeline.ucRefs τ sig) (V1 m c) ∗ Rr c) ⊢ (R0 m hE).pre c :=
  Entails.of_eq (congrArg (fun W => iprop(StableHlo.held (c : Thread nD τ) (Pipeline.ucRefs τ sig) W ∗ Rr c)) (V1_eq m c))
theorem hpost0 (c : Dev nD) :
    (R0 m hE).post c ⊢ iprop(StableHlo.held (c : Thread nD τ) (Pipeline.ucRefs τ sig) (V2 m (outs m hE) c) ∗ Rr c) :=
  Entails.of_eq (congrArg (fun W => iprop(StableHlo.held (c : Thread nD τ) (Pipeline.ucRefs τ sig) W ∗ Rr c)) (V2_eq m hE c).symm)

/-! ### Region 1 -/

include hE in
/-- The tables it finds in the buffers are its admissible ones: the host stretch before it cut them out of the two
    flattened rows, which no region writes. -/
theorem hT0_1 (c : Dev nD) : atTc (W3 m hE) c main_v14 = P1R1.T0 (adm1 m) c := by
  obtain rfl := dev_eq c
  exact ((congrFun (V3_eq m hE c₀) (Proc.devRef .tc main_v14)).symm.trans (Tbl.tbl_1a_eq m (outs m hE) c₀) :)
include hE in
theorem hT1_1 (c : Dev nD) : atTc (W3 m hE) c main_v15 = P1R1.T1 (adm1 m) c := by
  obtain rfl := dev_eq c
  exact ((congrFun (V3_eq m hE c₀) (Proc.devRef .tc main_v15)).symm.trans (Tbl.tbl_1b_eq m (outs m hE) c₀) :)
/-- At its exit each of its arrays holds what the pipeline leaves: the five inputs what they held (none is a result),
    the two accumulators' arrays their last write-back; -/
theorem hF_1 (c : Dev nD) (w : Fin (cfg1 (adm1 m)).W) :
    (d1 m hE c).arrAt w (cfg1 (adm1 m)).N = atTc (W4 m hE) c (Pipeline.arrRef spec1 w) := by
  match w with
  | ⟨0, _⟩ => exact (((d1 m hE c).arrAt_in 0 rfl _).trans (P1R1.A_eq _ _ _ _ c 0)).trans (W4_of m hE c (Pipeline.arrRef spec1 (0 : Fin 7)) (by decide) (by decide) (by decide)).symm
  | ⟨1, _⟩ => exact (((d1 m hE c).arrAt_in 1 rfl _).trans (P1R1.A_eq _ _ _ _ c 1)).trans (W4_of m hE c (Pipeline.arrRef spec1 (1 : Fin 7)) (by decide) (by decide) (by decide)).symm
  | ⟨2, _⟩ => exact (((d1 m hE c).arrAt_in 2 rfl _).trans (P1R1.A_eq _ _ _ _ c 2)).trans (W4_of m hE c (Pipeline.arrRef spec1 (2 : Fin 7)) (by decide) (by decide) (by decide)).symm
  | ⟨3, _⟩ => exact (((d1 m hE c).arrAt_in 3 rfl _).trans (P1R1.A_eq _ _ _ _ c 3)).trans (W4_of m hE c (Pipeline.arrRef spec1 (3 : Fin 7)) (by decide) (by decide) (by decide)).symm
  | ⟨4, _⟩ => exact (((d1 m hE c).arrAt_in 4 rfl _).trans (P1R1.A_eq _ _ _ _ c 4)).trans (W4_of m hE c (Pipeline.arrRef spec1 (4 : Fin 7)) (by decide) (by decide) (by decide)).symm
  | ⟨5, _⟩ => exact (W4_res1 m hE c).symm
  | ⟨6, _⟩ => exact (W4_res2 m hE c).symm
/-- and every buffer that is none of its arrays holds what it held at entry, but the hidden array, which holds what
    the last point left. -/
theorem hrest_1 (c : Dev nD) (b : Ref sig .tc) (hb : b ∉ Finset.univ.image (Pipeline.arrRef spec1)) :
    atTc (W4 m hE) c b = P1R1.Vmid (adm m) (W3 m hE) (hp0_1 m hE) (hp1_1 m hE) c b := by
  have h1 : b ≠ main_v16_1 := fun e => hb (Finset.mem_image.mpr ⟨5, Finset.mem_univ _, e.symm⟩)
  have h2 : b ≠ main_v16_2 := fun e => hb (Finset.mem_image.mpr ⟨6, Finset.mem_univ _, e.symm⟩)
  unfold P1R1.Vmid
  by_cases h0 : b = main_v16_0
  · subst h0; rw [Function.update_self]; exact W4_res0 m hE c
  · rw [Function.update_of_ne h0]; exact W4_of m hE c b h1 h2 h0
/-- The region's segment, entered from the buffers at W3 and left at W4. -/
def R1 : RegionSeg (pcfgs (F := F)) (adm m) (pdats m hE) () defs₀ Variants.none L₀ lv₀ 1 :=
  P1R1.reg (adm m) (pdats m hE) (W3 m hE) (W4 m hE) (hp0_1 m hE) (hp1_1 m hE) (fun _ => rfl)
    (hT0_1 m hE) (hT1_1 m hE) (hF_1 m hE) (hrest_1 m hE)
/-- It is entered from the conditional run's contents before it and left at those after it. -/
theorem hpre1 (c : Dev nD) :
    iprop(StableHlo.held (c : Thread nD τ) (Pipeline.ucRefs τ sig) (V3 m (outs m hE) c) ∗ Rr c) ⊢ (R1 m hE).pre c :=
  Entails.of_eq (congrArg (fun W => iprop(StableHlo.held (c : Thread nD τ) (Pipeline.ucRefs τ sig) W ∗ Rr c)) (V3_eq m hE c))
theorem hpost1 (c : Dev nD) :
    (R1 m hE).post c ⊢ iprop(StableHlo.held (c : Thread nD τ) (Pipeline.ucRefs τ sig) (V4 m (outs m hE) c) ∗ Rr c) :=
  Entails.of_eq (congrArg (fun W => iprop(StableHlo.held (c : Thread nD τ) (Pipeline.ucRefs τ sig) W ∗ Rr c)) (V4_eq m hE c).symm)

/-! ### Region 2 -/

include hE in
/-- The tables it finds in the buffers are its admissible ones: the host stretch before it cut them out of the two
    flattened rows, which no region writes. -/
theorem hT0_2 (c : Dev nD) : atTc (W5 m hE) c main_v17 = P1R2.T0 (adm2 m) c := by
  obtain rfl := dev_eq c
  exact ((congrFun (V5_eq m hE c₀) (Proc.devRef .tc main_v17)).symm.trans (Tbl.tbl_2a_eq m (outs m hE) c₀) :)
include hE in
theorem hT1_2 (c : Dev nD) : atTc (W5 m hE) c main_v18 = P1R2.T1 (adm2 m) c := by
  obtain rfl := dev_eq c
  exact ((congrFun (V5_eq m hE c₀) (Proc.devRef .tc main_v18)).symm.trans (Tbl.tbl_2b_eq m (outs m hE) c₀) :)
/-- At its exit each of its arrays holds what the pipeline leaves: the five inputs what they held (none is a result),
    the two accumulators' arrays their last write-back; -/
theorem hF_2 (c : Dev nD) (w : Fin (cfg2 (adm2 m)).W) :
    (d2 m hE c).arrAt w (cfg2 (adm2 m)).N = atTc (W6 m hE) c (Pipeline.arrRef spec2 w) := by
  match w with
  | ⟨0, _⟩ => exact (((d2 m hE c).arrAt_in 0 rfl _).trans (P1R2.A_eq _ _ _ _ c 0)).trans (W6_of m hE c (Pipeline.arrRef spec2 (0 : Fin 7)) (by decide) (by decide) (by decide)).symm
  | ⟨1, _⟩ => exact (((d2 m hE c).arrAt_in 1 rfl _).trans (P1R2.A_eq _ _ _ _ c 1)).trans (W6_of m hE c (Pipeline.arrRef spec2 (1 : Fin 7)) (by decide) (by decide) (by decide)).symm
  | ⟨2, _⟩ => exact (((d2 m hE c).arrAt_in 2 rfl _).trans (P1R2.A_eq _ _ _ _ c 2)).trans (W6_of m hE c (Pipeline.arrRef spec2 (2 : Fin 7)) (by decide) (by decide) (by decide)).symm
  | ⟨3, _⟩ => exact (((d2 m hE c).arrAt_in 3 rfl _).trans (P1R2.A_eq _ _ _ _ c 3)).trans (W6_of m hE c (Pipeline.arrRef spec2 (3 : Fin 7)) (by decide) (by decide) (by decide)).symm
  | ⟨4, _⟩ => exact (((d2 m hE c).arrAt_in 4 rfl _).trans (P1R2.A_eq _ _ _ _ c 4)).trans (W6_of m hE c (Pipeline.arrRef spec2 (4 : Fin 7)) (by decide) (by decide) (by decide)).symm
  | ⟨5, _⟩ => exact (W6_res1 m hE c).symm
  | ⟨6, _⟩ => exact (W6_res2 m hE c).symm
/-- and every buffer that is none of its arrays holds what it held at entry, but the hidden array, which holds what
    the last point left. -/
theorem hrest_2 (c : Dev nD) (b : Ref sig .tc) (hb : b ∉ Finset.univ.image (Pipeline.arrRef spec2)) :
    atTc (W6 m hE) c b = P1R2.Vmid (adm m) (W5 m hE) (hp0_2 m hE) (hp1_2 m hE) c b := by
  have h1 : b ≠ main_v19_1 := fun e => hb (Finset.mem_image.mpr ⟨5, Finset.mem_univ _, e.symm⟩)
  have h2 : b ≠ main_v19_2 := fun e => hb (Finset.mem_image.mpr ⟨6, Finset.mem_univ _, e.symm⟩)
  unfold P1R2.Vmid
  by_cases h0 : b = main_v19_0
  · subst h0; rw [Function.update_self]; exact W6_res0 m hE c
  · rw [Function.update_of_ne h0]; exact W6_of m hE c b h1 h2 h0
/-- The region's segment, entered from the buffers at W5 and left at W6. -/
def R2 : RegionSeg (pcfgs (F := F)) (adm m) (pdats m hE) () defs₀ Variants.none L₀ lv₀ 2 :=
  P1R2.reg (adm m) (pdats m hE) (W5 m hE) (W6 m hE) (hp0_2 m hE) (hp1_2 m hE) (fun _ => rfl)
    (hT0_2 m hE) (hT1_2 m hE) (hF_2 m hE) (hrest_2 m hE)
/-- It is entered from the conditional run's contents before it and left at those after it. -/
theorem hpre2 (c : Dev nD) :
    iprop(StableHlo.held (c : Thread nD τ) (Pipeline.ucRefs τ sig) (V5 m (outs m hE) c) ∗ Rr c) ⊢ (R2 m hE).pre c :=
  Entails.of_eq (congrArg (fun W => iprop(StableHlo.held (c : Thread nD τ) (Pipeline.ucRefs τ sig) W ∗ Rr c)) (V5_eq m hE c))
theorem hpost2 (c : Dev nD) :
    (R2 m hE).post c ⊢ iprop(StableHlo.held (c : Thread nD τ) (Pipeline.ucRefs τ sig) (V6 m (outs m hE) c) ∗ Rr c) :=
  Entails.of_eq (congrArg (fun W => iprop(StableHlo.held (c : Thread nD τ) (Pipeline.ucRefs τ sig) W ∗ Rr c)) (V6_eq m hE c).symm)

/-! ### Region 3 -/

include hE in
/-- The tables it finds in the buffers are its admissible ones: the host stretch before it cut them out of the two
    flattened rows, which no region writes. -/
theorem hT0_3 (c : Dev nD) : atTc (W7 m hE) c main_v20 = P1R3.T0 (adm3 m) c := by
  obtain rfl := dev_eq c
  exact ((congrFun (V7_eq m hE c₀) (Proc.devRef .tc main_v20)).symm.trans (Tbl.tbl_3a_eq m (outs m hE) c₀) :)
include hE in
theorem hT1_3 (c : Dev nD) : atTc (W7 m hE) c main_v21 = P1R3.T1 (adm3 m) c := by
  obtain rfl := dev_eq c
  exact ((congrFun (V7_eq m hE c₀) (Proc.devRef .tc main_v21)).symm.trans (Tbl.tbl_3b_eq m (outs m hE) c₀) :)
/-- At its exit each of its arrays holds what the pipeline leaves: the five inputs what they held (none is a result),
    the two accumulators' arrays their last write-back; -/
theorem hF_3 (c : Dev nD) (w : Fin (cfg3 (adm3 m)).W) :
    (d3 m hE c).arrAt w (cfg3 (adm3 m)).N = atTc (W8 m hE) c (Pipeline.arrRef spec3 w) := by
  match w with
  | ⟨0, _⟩ => exact (((d3 m hE c).arrAt_in 0 rfl _).trans (P1R3.A_eq _ _ _ _ c 0)).trans (W8_of m hE c (Pipeline.arrRef spec3 (0 : Fin 7)) (by decide) (by decide) (by decide)).symm
  | ⟨1, _⟩ => exact (((d3 m hE c).arrAt_in 1 rfl _).trans (P1R3.A_eq _ _ _ _ c 1)).trans (W8_of m hE c (Pipeline.arrRef spec3 (1 : Fin 7)) (by decide) (by decide) (by decide)).symm
  | ⟨2, _⟩ => exact (((d3 m hE c).arrAt_in 2 rfl _).trans (P1R3.A_eq _ _ _ _ c 2)).trans (W8_of m hE c (Pipeline.arrRef spec3 (2 : Fin 7)) (by decide) (by decide) (by decide)).symm
  | ⟨3, _⟩ => exact (((d3 m hE c).arrAt_in 3 rfl _).trans (P1R3.A_eq _ _ _ _ c 3)).trans (W8_of m hE c (Pipeline.arrRef spec3 (3 : Fin 7)) (by decide) (by decide) (by decide)).symm
  | ⟨4, _⟩ => exact (((d3 m hE c).arrAt_in 4 rfl _).trans (P1R3.A_eq _ _ _ _ c 4)).trans (W8_of m hE c (Pipeline.arrRef spec3 (4 : Fin 7)) (by decide) (by decide) (by decide)).symm
  | ⟨5, _⟩ => exact (W8_res1 m hE c).symm
  | ⟨6, _⟩ => exact (W8_res2 m hE c).symm
/-- and every buffer that is none of its arrays holds what it held at entry, but the hidden array, which holds what
    the last point left. -/
theorem hrest_3 (c : Dev nD) (b : Ref sig .tc) (hb : b ∉ Finset.univ.image (Pipeline.arrRef spec3)) :
    atTc (W8 m hE) c b = P1R3.Vmid (adm m) (W7 m hE) (hp0_3 m hE) (hp1_3 m hE) c b := by
  have h1 : b ≠ main_v22_1 := fun e => hb (Finset.mem_image.mpr ⟨5, Finset.mem_univ _, e.symm⟩)
  have h2 : b ≠ main_v22_2 := fun e => hb (Finset.mem_image.mpr ⟨6, Finset.mem_univ _, e.symm⟩)
  unfold P1R3.Vmid
  by_cases h0 : b = main_v22_0
  · subst h0; rw [Function.update_self]; exact W8_res0 m hE c
  · rw [Function.update_of_ne h0]; exact W8_of m hE c b h1 h2 h0
/-- The region's segment, entered from the buffers at W7 and left at W8. -/
def R3 : RegionSeg (pcfgs (F := F)) (adm m) (pdats m hE) () defs₀ Variants.none L₀ lv₀ 3 :=
  P1R3.reg (adm m) (pdats m hE) (W7 m hE) (W8 m hE) (hp0_3 m hE) (hp1_3 m hE) (fun _ => rfl)
    (hT0_3 m hE) (hT1_3 m hE) (hF_3 m hE) (hrest_3 m hE)
/-- It is entered from the conditional run's contents before it and left at those after it. -/
theorem hpre3 (c : Dev nD) :
    iprop(StableHlo.held (c : Thread nD τ) (Pipeline.ucRefs τ sig) (V7 m (outs m hE) c) ∗ Rr c) ⊢ (R3 m hE).pre c :=
  Entails.of_eq (congrArg (fun W => iprop(StableHlo.held (c : Thread nD τ) (Pipeline.ucRefs τ sig) W ∗ Rr c)) (V7_eq m hE c))
theorem hpost3 (c : Dev nD) :
    (R3 m hE).post c ⊢ iprop(StableHlo.held (c : Thread nD τ) (Pipeline.ucRefs τ sig) (V8 m (outs m hE) c) ∗ Rr c) :=
  Entails.of_eq (congrArg (fun W => iprop(StableHlo.held (c : Thread nD τ) (Pipeline.ucRefs τ sig) W ∗ Rr c)) (V8_eq m hE c).symm)

/-! ### Region 4 -/

include hE in
/-- The tables it finds in the buffers are its admissible ones: the host stretch before it cut them out of the two
    flattened rows, which no region writes. -/
theorem hT0_4 (c : Dev nD) : atTc (W9 m hE) c main_v23 = P1R4.T0 (adm4 m) c := by
  obtain rfl := dev_eq c
  exact ((congrFun (V9_eq m hE c₀) (Proc.devRef .tc main_v23)).symm.trans (Tbl.tbl_4a_eq m (outs m hE) c₀) :)
include hE in
theorem hT1_4 (c : Dev nD) : atTc (W9 m hE) c main_v24 = P1R4.T1 (adm4 m) c := by
  obtain rfl := dev_eq c
  exact ((congrFun (V9_eq m hE c₀) (Proc.devRef .tc main_v24)).symm.trans (Tbl.tbl_4b_eq m (outs m hE) c₀) :)
/-- At its exit each of its arrays holds what the pipeline leaves: the five inputs what they held (none is a result),
    the two accumulators' arrays their last write-back; -/
theorem hF_4 (c : Dev nD) (w : Fin (cfg4 (adm4 m)).W) :
    (d4 m hE c).arrAt w (cfg4 (adm4 m)).N = atTc (W10 m hE) c (Pipeline.arrRef spec4 w) := by
  match w with
  | ⟨0, _⟩ => exact (((d4 m hE c).arrAt_in 0 rfl _).trans (P1R4.A_eq _ _ _ _ c 0)).trans (W10_of m hE c (Pipeline.arrRef spec4 (0 : Fin 7)) (by decide) (by decide) (by decide)).symm
  | ⟨1, _⟩ => exact (((d4 m hE c).arrAt_in 1 rfl _).trans (P1R4.A_eq _ _ _ _ c 1)).trans (W10_of m hE c (Pipeline.arrRef spec4 (1 : Fin 7)) (by decide) (by decide) (by decide)).symm
  | ⟨2, _⟩ => exact (((d4 m hE c).arrAt_in 2 rfl _).trans (P1R4.A_eq _ _ _ _ c 2)).trans (W10_of m hE c (Pipeline.arrRef spec4 (2 : Fin 7)) (by decide) (by decide) (by decide)).symm
  | ⟨3, _⟩ => exact (((d4 m hE c).arrAt_in 3 rfl _).trans (P1R4.A_eq _ _ _ _ c 3)).trans (W10_of m hE c (Pipeline.arrRef spec4 (3 : Fin 7)) (by decide) (by decide) (by decide)).symm
  | ⟨4, _⟩ => exact (((d4 m hE c).arrAt_in 4 rfl _).trans (P1R4.A_eq _ _ _ _ c 4)).trans (W10_of m hE c (Pipeline.arrRef spec4 (4 : Fin 7)) (by decide) (by decide) (by decide)).symm
  | ⟨5, _⟩ => exact (W10_res1 m hE c).symm
  | ⟨6, _⟩ => exact (W10_res2 m hE c).symm
/-- and every buffer that is none of its arrays holds what it held at entry, but the hidden array, which holds what
    the last point left. -/
theorem hrest_4 (c : Dev nD) (b : Ref sig .tc) (hb : b ∉ Finset.univ.image (Pipeline.arrRef spec4)) :
    atTc (W10 m hE) c b = P1R4.Vmid (adm m) (W9 m hE) (hp0_4 m hE) (hp1_4 m hE) c b := by
  have h1 : b ≠ main_v25_1 := fun e => hb (Finset.mem_image.mpr ⟨5, Finset.mem_univ _, e.symm⟩)
  have h2 : b ≠ main_v25_2 := fun e => hb (Finset.mem_image.mpr ⟨6, Finset.mem_univ _, e.symm⟩)
  unfold P1R4.Vmid
  by_cases h0 : b = main_v25_0
  · subst h0; rw [Function.update_self]; exact W10_res0 m hE c
  · rw [Function.update_of_ne h0]; exact W10_of m hE c b h1 h2 h0
/-- The region's segment, entered from the buffers at W9 and left at W10. -/
def R4 : RegionSeg (pcfgs (F := F)) (adm m) (pdats m hE) () defs₀ Variants.none L₀ lv₀ 4 :=
  P1R4.reg (adm m) (pdats m hE) (W9 m hE) (W10 m hE) (hp0_4 m hE) (hp1_4 m hE) (fun _ => rfl)
    (hT0_4 m hE) (hT1_4 m hE) (hF_4 m hE) (hrest_4 m hE)
/-- It is entered from the conditional run's contents before it and left at those after it. -/
theorem hpre4 (c : Dev nD) :
    iprop(StableHlo.held (c : Thread nD τ) (Pipeline.ucRefs τ sig) (V9 m (outs m hE) c) ∗ Rr c) ⊢ (R4 m hE).pre c :=
  Entails.of_eq (congrArg (fun W => iprop(StableHlo.held (c : Thread nD τ) (Pipeline.ucRefs τ sig) W ∗ Rr c)) (V9_eq m hE c))
theorem hpost4 (c : Dev nD) :
    (R4 m hE).post c ⊢ iprop(StableHlo.held (c : Thread nD τ) (Pipeline.ucRefs τ sig) (V10 m (outs m hE) c) ∗ Rr c) :=
  Entails.of_eq (congrArg (fun W => iprop(StableHlo.held (c : Thread nD τ) (Pipeline.ucRefs τ sig) W ∗ Rr c)) (V10_eq m hE c).symm)

/-! ### Region 5 -/

include hE in
/-- The tables it finds in the buffers are its admissible ones: the host stretch before it cut them out of the two
    flattened rows, which no region writes. -/
theorem hT0_5 (c : Dev nD) : atTc (W11 m hE) c main_v26 = P1R5.T0 (adm5 m) c := by
  obtain rfl := dev_eq c
  exact ((congrFun (V11_eq m hE c₀) (Proc.devRef .tc main_v26)).symm.trans (Tbl.tbl_5a_eq m (outs m hE) c₀) :)
include hE in
theorem hT1_5 (c : Dev nD) : atTc (W11 m hE) c main_v27 = P1R5.T1 (adm5 m) c := by
  obtain rfl := dev_eq c
  exact ((congrFun (V11_eq m hE c₀) (Proc.devRef .tc main_v27)).symm.trans (Tbl.tbl_5b_eq m (outs m hE) c₀) :)
/-- At its exit each of its arrays holds what the pipeline leaves: the five inputs what they held (none is a result),
    the two accumulators' arrays their last write-back; -/
theorem hF_5 (c : Dev nD) (w : Fin (cfg5 (adm5 m)).W) :
    (d5 m hE c).arrAt w (cfg5 (adm5 m)).N = atTc (W12 m hE) c (Pipeline.arrRef spec5 w) := by
  match w with
  | ⟨0, _⟩ => exact (((d5 m hE c).arrAt_in 0 rfl _).trans (P1R5.A_eq _ _ _ _ c 0)).trans (W12_of m hE c (Pipeline.arrRef spec5 (0 : Fin 7)) (by decide) (by decide) (by decide)).symm
  | ⟨1, _⟩ => exact (((d5 m hE c).arrAt_in 1 rfl _).trans (P1R5.A_eq _ _ _ _ c 1)).trans (W12_of m hE c (Pipeline.arrRef spec5 (1 : Fin 7)) (by decide) (by decide) (by decide)).symm
  | ⟨2, _⟩ => exact (((d5 m hE c).arrAt_in 2 rfl _).trans (P1R5.A_eq _ _ _ _ c 2)).trans (W12_of m hE c (Pipeline.arrRef spec5 (2 : Fin 7)) (by decide) (by decide) (by decide)).symm
  | ⟨3, _⟩ => exact (((d5 m hE c).arrAt_in 3 rfl _).trans (P1R5.A_eq _ _ _ _ c 3)).trans (W12_of m hE c (Pipeline.arrRef spec5 (3 : Fin 7)) (by decide) (by decide) (by decide)).symm
  | ⟨4, _⟩ => exact (((d5 m hE c).arrAt_in 4 rfl _).trans (P1R5.A_eq _ _ _ _ c 4)).trans (W12_of m hE c (Pipeline.arrRef spec5 (4 : Fin 7)) (by decide) (by decide) (by decide)).symm
  | ⟨5, _⟩ => exact (W12_res1 m hE c).symm
  | ⟨6, _⟩ => exact (W12_res2 m hE c).symm
/-- and every buffer that is none of its arrays holds what it held at entry, but the hidden array, which holds what
    the last point left. -/
theorem hrest_5 (c : Dev nD) (b : Ref sig .tc) (hb : b ∉ Finset.univ.image (Pipeline.arrRef spec5)) :
    atTc (W12 m hE) c b = P1R5.Vmid (adm m) (W11 m hE) (hp0_5 m hE) (hp1_5 m hE) c b := by
  have h1 : b ≠ main_v28_1 := fun e => hb (Finset.mem_image.mpr ⟨5, Finset.mem_univ _, e.symm⟩)
  have h2 : b ≠ main_v28_2 := fun e => hb (Finset.mem_image.mpr ⟨6, Finset.mem_univ _, e.symm⟩)
  unfold P1R5.Vmid
  by_cases h0 : b = main_v28_0
  · subst h0; rw [Function.update_self]; exact W12_res0 m hE c
  · rw [Function.update_of_ne h0]; exact W12_of m hE c b h1 h2 h0
/-- The region's segment, entered from the buffers at W11 and left at W12. -/
def R5 : RegionSeg (pcfgs (F := F)) (adm m) (pdats m hE) () defs₀ Variants.none L₀ lv₀ 5 :=
  P1R5.reg (adm m) (pdats m hE) (W11 m hE) (W12 m hE) (hp0_5 m hE) (hp1_5 m hE) (fun _ => rfl)
    (hT0_5 m hE) (hT1_5 m hE) (hF_5 m hE) (hrest_5 m hE)
/-- It is entered from the conditional run's contents before it and left at those after it. -/
theorem hpre5 (c : Dev nD) :
    iprop(StableHlo.held (c : Thread nD τ) (Pipeline.ucRefs τ sig) (V11 m (outs m hE) c) ∗ Rr c) ⊢ (R5 m hE).pre c :=
  Entails.of_eq (congrArg (fun W => iprop(StableHlo.held (c : Thread nD τ) (Pipeline.ucRefs τ sig) W ∗ Rr c)) (V11_eq m hE c))
theorem hpost5 (c : Dev nD) :
    (R5 m hE).post c ⊢ iprop(StableHlo.held (c : Thread nD τ) (Pipeline.ucRefs τ sig) (V12 m (outs m hE) c) ∗ Rr c) :=
  Entails.of_eq (congrArg (fun W => iprop(StableHlo.held (c : Thread nD τ) (Pipeline.ucRefs τ sig) W ∗ Rr c)) (V12_eq m hE c).symm)

/-! ### Region 6 -/

include hE in
/-- The tables it finds in the buffers are its admissible ones: the host stretch before it cut them out of the two
    flattened rows, which no region writes. -/
theorem hT0_6 (c : Dev nD) : atTc (W13 m hE) c main_v29 = P1R6.T0 (adm6 m) c := by
  obtain rfl := dev_eq c
  exact ((congrFun (V13_eq m hE c₀) (Proc.devRef .tc main_v29)).symm.trans (Tbl.tbl_6a_eq m (outs m hE) c₀) :)
include hE in
theorem hT1_6 (c : Dev nD) : atTc (W13 m hE) c main_v30 = P1R6.T1 (adm6 m) c := by
  obtain rfl := dev_eq c
  exact ((congrFun (V13_eq m hE c₀) (Proc.devRef .tc main_v30)).symm.trans (Tbl.tbl_6b_eq m (outs m hE) c₀) :)
/-- At its exit each of its arrays holds what the pipeline leaves: the five inputs what they held (none is a result),
    the two accumulators' arrays their last write-back; -/
theorem hF_6 (c : Dev nD) (w : Fin (cfg6 (adm6 m)).W) :
    (d6 m hE c).arrAt w (cfg6 (adm6 m)).N = atTc (W14 m hE) c (Pipeline.arrRef spec6 w) := by
  match w with
  | ⟨0, _⟩ => exact (((d6 m hE c).arrAt_in 0 rfl _).trans (P1R6.A_eq _ _ _ _ c 0)).trans (W14_of m hE c (Pipeline.arrRef spec6 (0 : Fin 7)) (by decide) (by decide) (by decide)).symm
  | ⟨1, _⟩ => exact (((d6 m hE c).arrAt_in 1 rfl _).trans (P1R6.A_eq _ _ _ _ c 1)).trans (W14_of m hE c (Pipeline.arrRef spec6 (1 : Fin 7)) (by decide) (by decide) (by decide)).symm
  | ⟨2, _⟩ => exact (((d6 m hE c).arrAt_in 2 rfl _).trans (P1R6.A_eq _ _ _ _ c 2)).trans (W14_of m hE c (Pipeline.arrRef spec6 (2 : Fin 7)) (by decide) (by decide) (by decide)).symm
  | ⟨3, _⟩ => exact (((d6 m hE c).arrAt_in 3 rfl _).trans (P1R6.A_eq _ _ _ _ c 3)).trans (W14_of m hE c (Pipeline.arrRef spec6 (3 : Fin 7)) (by decide) (by decide) (by decide)).symm
  | ⟨4, _⟩ => exact (((d6 m hE c).arrAt_in 4 rfl _).trans (P1R6.A_eq _ _ _ _ c 4)).trans (W14_of m hE c (Pipeline.arrRef spec6 (4 : Fin 7)) (by decide) (by decide) (by decide)).symm
  | ⟨5, _⟩ => exact (W14_res1 m hE c).symm
  | ⟨6, _⟩ => exact (W14_res2 m hE c).symm
/-- and every buffer that is none of its arrays holds what it held at entry, but the hidden array, which holds what
    the last point left. -/
theorem hrest_6 (c : Dev nD) (b : Ref sig .tc) (hb : b ∉ Finset.univ.image (Pipeline.arrRef spec6)) :
    atTc (W14 m hE) c b = P1R6.Vmid (adm m) (W13 m hE) (hp0_6 m hE) (hp1_6 m hE) c b := by
  have h1 : b ≠ main_v31_1 := fun e => hb (Finset.mem_image.mpr ⟨5, Finset.mem_univ _, e.symm⟩)
  have h2 : b ≠ main_v31_2 := fun e => hb (Finset.mem_image.mpr ⟨6, Finset.mem_univ _, e.symm⟩)
  unfold P1R6.Vmid
  by_cases h0 : b = main_v31_0
  · subst h0; rw [Function.update_self]; exact W14_res0 m hE c
  · rw [Function.update_of_ne h0]; exact W14_of m hE c b h1 h2 h0
/-- The region's segment, entered from the buffers at W13 and left at W14. -/
def R6 : RegionSeg (pcfgs (F := F)) (adm m) (pdats m hE) () defs₀ Variants.none L₀ lv₀ 6 :=
  P1R6.reg (adm m) (pdats m hE) (W13 m hE) (W14 m hE) (hp0_6 m hE) (hp1_6 m hE) (fun _ => rfl)
    (hT0_6 m hE) (hT1_6 m hE) (hF_6 m hE) (hrest_6 m hE)
/-- It is entered from the conditional run's contents before it and left at those after it. -/
theorem hpre6 (c : Dev nD) :
    iprop(StableHlo.held (c : Thread nD τ) (Pipeline.ucRefs τ sig) (V13 m (outs m hE) c) ∗ Rr c) ⊢ (R6 m hE).pre c :=
  Entails.of_eq (congrArg (fun W => iprop(StableHlo.held (c : Thread nD τ) (Pipeline.ucRefs τ sig) W ∗ Rr c)) (V13_eq m hE c))
theorem hpost6 (c : Dev nD) :
    (R6 m hE).post c ⊢ iprop(StableHlo.held (c : Thread nD τ) (Pipeline.ucRefs τ sig) (V14 m (outs m hE) c) ∗ Rr c) :=
  Entails.of_eq (congrArg (fun W => iprop(StableHlo.held (c : Thread nD τ) (Pipeline.ucRefs τ sig) W ∗ Rr c)) (V14_eq m hE c).symm)

/-! ### Region 7 -/

include hE in
/-- The tables it finds in the buffers are its admissible ones: the host stretch before it cut them out of the two
    flattened rows, which no region writes. -/
theorem hT0_7 (c : Dev nD) : atTc (W15 m hE) c main_v32 = P1R7.T0 (adm7 m) c := by
  obtain rfl := dev_eq c
  exact ((congrFun (V15_eq m hE c₀) (Proc.devRef .tc main_v32)).symm.trans (Tbl.tbl_7a_eq m (outs m hE) c₀) :)
include hE in
theorem hT1_7 (c : Dev nD) : atTc (W15 m hE) c main_v33 = P1R7.T1 (adm7 m) c := by
  obtain rfl := dev_eq c
  exact ((congrFun (V15_eq m hE c₀) (Proc.devRef .tc main_v33)).symm.trans (Tbl.tbl_7b_eq m (outs m hE) c₀) :)
/-- At its exit each of its arrays holds what the pipeline leaves: the five inputs what they held (none is a result),
    the two accumulators' arrays their last write-back; -/
theorem hF_7 (c : Dev nD) (w : Fin (cfg7 (adm7 m)).W) :
    (d7 m hE c).arrAt w (cfg7 (adm7 m)).N = atTc (W16 m hE) c (Pipeline.arrRef spec7 w) := by
  match w with
  | ⟨0, _⟩ => exact (((d7 m hE c).arrAt_in 0 rfl _).trans (P1R7.A_eq _ _ _ _ c 0)).trans (W16_of m hE c (Pipeline.arrRef spec7 (0 : Fin 7)) (by decide) (by decide) (by decide)).symm
  | ⟨1, _⟩ => exact (((d7 m hE c).arrAt_in 1 rfl _).trans (P1R7.A_eq _ _ _ _ c 1)).trans (W16_of m hE c (Pipeline.arrRef spec7 (1 : Fin 7)) (by decide) (by decide) (by decide)).symm
  | ⟨2, _⟩ => exact (((d7 m hE c).arrAt_in 2 rfl _).trans (P1R7.A_eq _ _ _ _ c 2)).trans (W16_of m hE c (Pipeline.arrRef spec7 (2 : Fin 7)) (by decide) (by decide) (by decide)).symm
  | ⟨3, _⟩ => exact (((d7 m hE c).arrAt_in 3 rfl _).trans (P1R7.A_eq _ _ _ _ c 3)).trans (W16_of m hE c (Pipeline.arrRef spec7 (3 : Fin 7)) (by decide) (by decide) (by decide)).symm
  | ⟨4, _⟩ => exact (((d7 m hE c).arrAt_in 4 rfl _).trans (P1R7.A_eq _ _ _ _ c 4)).trans (W16_of m hE c (Pipeline.arrRef spec7 (4 : Fin 7)) (by decide) (by decide) (by decide)).symm
  | ⟨5, _⟩ => exact (W16_res1 m hE c).symm
  | ⟨6, _⟩ => exact (W16_res2 m hE c).symm
/-- and every buffer that is none of its arrays holds what it held at entry, but the hidden array, which holds what
    the last point left. -/
theorem hrest_7 (c : Dev nD) (b : Ref sig .tc) (hb : b ∉ Finset.univ.image (Pipeline.arrRef spec7)) :
    atTc (W16 m hE) c b = P1R7.Vmid (adm m) (W15 m hE) (hp0_7 m hE) (hp1_7 m hE) c b := by
  have h1 : b ≠ main_v34_1 := fun e => hb (Finset.mem_image.mpr ⟨5, Finset.mem_univ _, e.symm⟩)
  have h2 : b ≠ main_v34_2 := fun e => hb (Finset.mem_image.mpr ⟨6, Finset.mem_univ _, e.symm⟩)
  unfold P1R7.Vmid
  by_cases h0 : b = main_v34_0
  · subst h0; rw [Function.update_self]; exact W16_res0 m hE c
  · rw [Function.update_of_ne h0]; exact W16_of m hE c b h1 h2 h0
/-- The region's segment, entered from the buffers at W15 and left at W16. -/
def R7 : RegionSeg (pcfgs (F := F)) (adm m) (pdats m hE) () defs₀ Variants.none L₀ lv₀ 7 :=
  P1R7.reg (adm m) (pdats m hE) (W15 m hE) (W16 m hE) (hp0_7 m hE) (hp1_7 m hE) (fun _ => rfl)
    (hT0_7 m hE) (hT1_7 m hE) (hF_7 m hE) (hrest_7 m hE)
/-- It is entered from the conditional run's contents before it and left at those after it. -/
theorem hpre7 (c : Dev nD) :
    iprop(StableHlo.held (c : Thread nD τ) (Pipeline.ucRefs τ sig) (V15 m (outs m hE) c) ∗ Rr c) ⊢ (R7 m hE).pre c :=
  Entails.of_eq (congrArg (fun W => iprop(StableHlo.held (c : Thread nD τ) (Pipeline.ucRefs τ sig) W ∗ Rr c)) (V15_eq m hE c))
theorem hpost7 (c : Dev nD) :
    (R7 m hE).post c ⊢ iprop(StableHlo.held (c : Thread nD τ) (Pipeline.ucRefs τ sig) (V16 m (outs m hE) c) ∗ Rr c) :=
  Entails.of_eq (congrArg (fun W => iprop(StableHlo.held (c : Thread nD τ) (Pipeline.ucRefs τ sig) W ∗ Rr c)) (V16_eq m hE c).symm)

/-! ### Region 8 -/

include hE in
/-- The tables it finds in the buffers are its admissible ones: the host stretch before it cut them out of the two
    flattened rows, which no region writes. -/
theorem hT0_8 (c : Dev nD) : atTc (W17 m hE) c main_v35 = P1R8.T0 (adm8 m) c := by
  obtain rfl := dev_eq c
  exact ((congrFun (V17_eq m hE c₀) (Proc.devRef .tc main_v35)).symm.trans (Tbl.tbl_8a_eq m (outs m hE) c₀) :)
include hE in
theorem hT1_8 (c : Dev nD) : atTc (W17 m hE) c main_v36 = P1R8.T1 (adm8 m) c := by
  obtain rfl := dev_eq c
  exact ((congrFun (V17_eq m hE c₀) (Proc.devRef .tc main_v36)).symm.trans (Tbl.tbl_8b_eq m (outs m hE) c₀) :)
/-- At its exit each of its arrays holds what the pipeline leaves: the five inputs what they held (none is a result),
    the two accumulators' arrays their last write-back; -/
theorem hF_8 (c : Dev nD) (w : Fin (cfg8 (adm8 m)).W) :
    (d8 m hE c).arrAt w (cfg8 (adm8 m)).N = atTc (W18 m hE) c (Pipeline.arrRef spec8 w) := by
  match w with
  | ⟨0, _⟩ => exact (((d8 m hE c).arrAt_in 0 rfl _).trans (P1R8.A_eq _ _ _ _ c 0)).trans (W18_of m hE c (Pipeline.arrRef spec8 (0 : Fin 7)) (by decide) (by decide) (by decide)).symm
  | ⟨1, _⟩ => exact (((d8 m hE c).arrAt_in 1 rfl _).trans (P1R8.A_eq _ _ _ _ c 1)).trans (W18_of m hE c (Pipeline.arrRef spec8 (1 : Fin 7)) (by decide) (by decide) (by decide)).symm
  | ⟨2, _⟩ => exact (((d8 m hE c).arrAt_in 2 rfl _).trans (P1R8.A_eq _ _ _ _ c 2)).trans (W18_of m hE c (Pipeline.arrRef spec8 (2 : Fin 7)) (by decide) (by decide) (by decide)).symm
  | ⟨3, _⟩ => exact (((d8 m hE c).arrAt_in 3 rfl _).trans (P1R8.A_eq _ _ _ _ c 3)).trans (W18_of m hE c (Pipeline.arrRef spec8 (3 : Fin 7)) (by decide) (by decide) (by decide)).symm
  | ⟨4, _⟩ => exact (((d8 m hE c).arrAt_in 4 rfl _).trans (P1R8.A_eq _ _ _ _ c 4)).trans (W18_of m hE c (Pipeline.arrRef spec8 (4 : Fin 7)) (by decide) (by decide) (by decide)).symm
  | ⟨5, _⟩ => exact (W18_res1 m hE c).symm
  | ⟨6, _⟩ => exact (W18_res2 m hE c).symm
/-- and every buffer that is none of its arrays holds what it held at entry, but the hidden array, which holds what
    the last point left. -/
theorem hrest_8 (c : Dev nD) (b : Ref sig .tc) (hb : b ∉ Finset.univ.image (Pipeline.arrRef spec8)) :
    atTc (W18 m hE) c b = P1R8.Vmid (adm m) (W17 m hE) (hp0_8 m hE) (hp1_8 m hE) c b := by
  have h1 : b ≠ main_v37_1 := fun e => hb (Finset.mem_image.mpr ⟨5, Finset.mem_univ _, e.symm⟩)
  have h2 : b ≠ main_v37_2 := fun e => hb (Finset.mem_image.mpr ⟨6, Finset.mem_univ _, e.symm⟩)
  unfold P1R8.Vmid
  by_cases h0 : b = main_v37_0
  · subst h0; rw [Function.update_self]; exact W18_res0 m hE c
  · rw [Function.update_of_ne h0]; exact W18_of m hE c b h1 h2 h0
/-- The region's segment, entered from the buffers at W17 and left at W18. -/
def R8 : RegionSeg (pcfgs (F := F)) (adm m) (pdats m hE) () defs₀ Variants.none L₀ lv₀ 8 :=
  P1R8.reg (adm m) (pdats m hE) (W17 m hE) (W18 m hE) (hp0_8 m hE) (hp1_8 m hE) (fun _ => rfl)
    (hT0_8 m hE) (hT1_8 m hE) (hF_8 m hE) (hrest_8 m hE)
/-- It is entered from the conditional run's contents before it and left at those after it. -/
theorem hpre8 (c : Dev nD) :
    iprop(StableHlo.held (c : Thread nD τ) (Pipeline.ucRefs τ sig) (V17 m (outs m hE) c) ∗ Rr c) ⊢ (R8 m hE).pre c :=
  Entails.of_eq (congrArg (fun W => iprop(StableHlo.held (c : Thread nD τ) (Pipeline.ucRefs τ sig) W ∗ Rr c)) (V17_eq m hE c))
theorem hpost8 (c : Dev nD) :
    (R8 m hE).post c ⊢ iprop(StableHlo.held (c : Thread nD τ) (Pipeline.ucRefs τ sig) (V18 m (outs m hE) c) ∗ Rr c) :=
  Entails.of_eq (congrArg (fun W => iprop(StableHlo.held (c : Thread nD τ) (Pipeline.ucRefs τ sig) W ∗ Rr c)) (V18_eq m hE c).symm)

/-! ### Region 9 -/

include hE in
/-- The tables it finds in the buffers are its admissible ones: the host stretch before it cut them out of the two
    flattened rows, which no region writes. -/
theorem hT0_9 (c : Dev nD) : atTc (W19 m hE) c main_v38 = P1R9.T0 (adm9 m) c := by
  obtain rfl := dev_eq c
  exact ((congrFun (V19_eq m hE c₀) (Proc.devRef .tc main_v38)).symm.trans (Tbl.tbl_9a_eq m (outs m hE) c₀) :)
include hE in
theorem hT1_9 (c : Dev nD) : atTc (W19 m hE) c main_v39 = P1R9.T1 (adm9 m) c := by
  obtain rfl := dev_eq c
  exact ((congrFun (V19_eq m hE c₀) (Proc.devRef .tc main_v39)).symm.trans (Tbl.tbl_9b_eq m (outs m hE) c₀) :)
/-- At its exit each of its arrays holds what the pipeline leaves: the five inputs what they held (none is a result),
    the two accumulators' arrays their last write-back; -/
theorem hF_9 (c : Dev nD) (w : Fin (cfg9 (adm9 m)).W) :
    (d9 m hE c).arrAt w (cfg9 (adm9 m)).N = atTc (W20 m hE) c (Pipeline.arrRef spec9 w) := by
  match w with
  | ⟨0, _⟩ => exact (((d9 m hE c).arrAt_in 0 rfl _).trans (P1R9.A_eq _ _ _ _ c 0)).trans (W20_of m hE c (Pipeline.arrRef spec9 (0 : Fin 7)) (by decide) (by decide) (by decide)).symm
  | ⟨1, _⟩ => exact (((d9 m hE c).arrAt_in 1 rfl _).trans (P1R9.A_eq _ _ _ _ c 1)).trans (W20_of m hE c (Pipeline.arrRef spec9 (1 : Fin 7)) (by decide) (by decide) (by decide)).symm
  | ⟨2, _⟩ => exact (((d9 m hE c).arrAt_in 2 rfl _).trans (P1R9.A_eq _ _ _ _ c 2)).trans (W20_of m hE c (Pipeline.arrRef spec9 (2 : Fin 7)) (by decide) (by decide) (by decide)).symm
  | ⟨3, _⟩ => exact (((d9 m hE c).arrAt_in 3 rfl _).trans (P1R9.A_eq _ _ _ _ c 3)).trans (W20_of m hE c (Pipeline.arrRef spec9 (3 : Fin 7)) (by decide) (by decide) (by decide)).symm
  | ⟨4, _⟩ => exact (((d9 m hE c).arrAt_in 4 rfl _).trans (P1R9.A_eq _ _ _ _ c 4)).trans (W20_of m hE c (Pipeline.arrRef spec9 (4 : Fin 7)) (by decide) (by decide) (by decide)).symm
  | ⟨5, _⟩ => exact (W20_res1 m hE c).symm
  | ⟨6, _⟩ => exact (W20_res2 m hE c).symm
/-- and every buffer that is none of its arrays holds what it held at entry, but the hidden array, which holds what
    the last point left. -/
theorem hrest_9 (c : Dev nD) (b : Ref sig .tc) (hb : b ∉ Finset.univ.image (Pipeline.arrRef spec9)) :
    atTc (W20 m hE) c b = P1R9.Vmid (adm m) (W19 m hE) (hp0_9 m hE) (hp1_9 m hE) c b := by
  have h1 : b ≠ main_v40_1 := fun e => hb (Finset.mem_image.mpr ⟨5, Finset.mem_univ _, e.symm⟩)
  have h2 : b ≠ main_v40_2 := fun e => hb (Finset.mem_image.mpr ⟨6, Finset.mem_univ _, e.symm⟩)
  unfold P1R9.Vmid
  by_cases h0 : b = main_v40_0
  · subst h0; rw [Function.update_self]; exact W20_res0 m hE c
  · rw [Function.update_of_ne h0]; exact W20_of m hE c b h1 h2 h0
/-- The region's segment, entered from the buffers at W19 and left at W20. -/
def R9 : RegionSeg (pcfgs (F := F)) (adm m) (pdats m hE) () defs₀ Variants.none L₀ lv₀ 9 :=
  P1R9.reg (adm m) (pdats m hE) (W19 m hE) (W20 m hE) (hp0_9 m hE) (hp1_9 m hE) (fun _ => rfl)
    (hT0_9 m hE) (hT1_9 m hE) (hF_9 m hE) (hrest_9 m hE)
/-- It is entered from the conditional run's contents before it and left at those after it. -/
theorem hpre9 (c : Dev nD) :
    iprop(StableHlo.held (c : Thread nD τ) (Pipeline.ucRefs τ sig) (V19 m (outs m hE) c) ∗ Rr c) ⊢ (R9 m hE).pre c :=
  Entails.of_eq (congrArg (fun W => iprop(StableHlo.held (c : Thread nD τ) (Pipeline.ucRefs τ sig) W ∗ Rr c)) (V19_eq m hE c))
theorem hpost9 (c : Dev nD) :
    (R9 m hE).post c ⊢ iprop(StableHlo.held (c : Thread nD τ) (Pipeline.ucRefs τ sig) (V20 m (outs m hE) c) ∗ Rr c) :=
  Entails.of_eq (congrArg (fun W => iprop(StableHlo.held (c : Thread nD τ) (Pipeline.ucRefs τ sig) W ∗ Rr c)) (V20_eq m hE c).symm)

/-! ### Region 10 -/

include hE in
/-- The tables it finds in the buffers are its admissible ones: the host stretch before it cut them out of the two
    flattened rows, which no region writes. -/
theorem hT0_10 (c : Dev nD) : atTc (W21 m hE) c main_v41 = P1R10.T0 (adm10 m) c := by
  obtain rfl := dev_eq c
  exact ((congrFun (V21_eq m hE c₀) (Proc.devRef .tc main_v41)).symm.trans (Tbl.tbl_10a_eq m (outs m hE) c₀) :)
include hE in
theorem hT1_10 (c : Dev nD) : atTc (W21 m hE) c main_v42 = P1R10.T1 (adm10 m) c := by
  obtain rfl := dev_eq c
  exact ((congrFun (V21_eq m hE c₀) (Proc.devRef .tc main_v42)).symm.trans (Tbl.tbl_10b_eq m (outs m hE) c₀) :)
/-- At its exit each of its arrays holds what the pipeline leaves: the five inputs what they held (none is a result),
    the two accumulators' arrays their last write-back; -/
theorem hF_10 (c : Dev nD) (w : Fin (cfg10 (adm10 m)).W) :
    (d10 m hE c).arrAt w (cfg10 (adm10 m)).N = atTc (W22 m hE) c (Pipeline.arrRef spec10 w) := by
  match w with
  | ⟨0, _⟩ => exact (((d10 m hE c).arrAt_in 0 rfl _).trans (P1R10.A_eq _ _ _ _ c 0)).trans (W22_of m hE c (Pipeline.arrRef spec10 (0 : Fin 7)) (by decide) (by decide) (by decide)).symm
  | ⟨1, _⟩ => exact (((d10 m hE c).arrAt_in 1 rfl _).trans (P1R10.A_eq _ _ _ _ c 1)).trans (W22_of m hE c (Pipeline.arrRef spec10 (1 : Fin 7)) (by decide) (by decide) (by decide)).symm
  | ⟨2, _⟩ => exact (((d10 m hE c).arrAt_in 2 rfl _).trans (P1R10.A_eq _ _ _ _ c 2)).trans (W22_of m hE c (Pipeline.arrRef spec10 (2 : Fin 7)) (by decide) (by decide) (by decide)).symm
  | ⟨3, _⟩ => exact (((d10 m hE c).arrAt_in 3 rfl _).trans (P1R10.A_eq _ _ _ _ c 3)).trans (W22_of m hE c (Pipeline.arrRef spec10 (3 : Fin 7)) (by decide) (by decide) (by decide)).symm
  | ⟨4, _⟩ => exact (((d10 m hE c).arrAt_in 4 rfl _).trans (P1R10.A_eq _ _ _ _ c 4)).trans (W22_of m hE c (Pipeline.arrRef spec10 (4 : Fin 7)) (by decide) (by decide) (by decide)).symm
  | ⟨5, _⟩ => exact (W22_res1 m hE c).symm
  | ⟨6, _⟩ => exact (W22_res2 m hE c).symm
/-- and every buffer that is none of its arrays holds what it held at entry, but the hidden array, which holds what
    the last point left. -/
theorem hrest_10 (c : Dev nD) (b : Ref sig .tc) (hb : b ∉ Finset.univ.image (Pipeline.arrRef spec10)) :
    atTc (W22 m hE) c b = P1R10.Vmid (adm m) (W21 m hE) (hp0_10 m hE) (hp1_10 m hE) c b := by
  have h1 : b ≠ main_v43_1 := fun e => hb (Finset.mem_image.mpr ⟨5, Finset.mem_univ _, e.symm⟩)
  have h2 : b ≠ main_v43_2 := fun e => hb (Finset.mem_image.mpr ⟨6, Finset.mem_univ _, e.symm⟩)
  unfold P1R10.Vmid
  by_cases h0 : b = main_v43_0
  · subst h0; rw [Function.update_self]; exact W22_res0 m hE c
  · rw [Function.update_of_ne h0]; exact W22_of m hE c b h1 h2 h0
/-- The region's segment, entered from the buffers at W21 and left at W22. -/
def R10 : RegionSeg (pcfgs (F := F)) (adm m) (pdats m hE) () defs₀ Variants.none L₀ lv₀ 10 :=
  P1R10.reg (adm m) (pdats m hE) (W21 m hE) (W22 m hE) (hp0_10 m hE) (hp1_10 m hE) (fun _ => rfl)
    (hT0_10 m hE) (hT1_10 m hE) (hF_10 m hE) (hrest_10 m hE)
/-- It is entered from the conditional run's contents before it and left at those after it. -/
theorem hpre10 (c : Dev nD) :
    iprop(StableHlo.held (c : Thread nD τ) (Pipeline.ucRefs τ sig) (V21 m (outs m hE) c) ∗ Rr c) ⊢ (R10 m hE).pre c :=
  Entails.of_eq (congrArg (fun W => iprop(StableHlo.held (c : Thread nD τ) (Pipeline.ucRefs τ sig) W ∗ Rr c)) (V21_eq m hE c))
theorem hpost10 (c : Dev nD) :
    (R10 m hE).post c ⊢ iprop(StableHlo.held (c : Thread nD τ) (Pipeline.ucRefs τ sig) (V22 m (outs m hE) c) ∗ Rr c) :=
  Entails.of_eq (congrArg (fun W => iprop(StableHlo.held (c : Thread nD τ) (Pipeline.ucRefs τ sig) W ∗ Rr c)) (V22_eq m hE c).symm)

/-! ### Region 11 -/

include hE in
/-- The tables it finds in the buffers are its admissible ones: the host stretch before it cut them out of the two
    flattened rows, which no region writes. -/
theorem hT0_11 (c : Dev nD) : atTc (W23 m hE) c main_v44 = P1R11.T0 (adm11 m) c := by
  obtain rfl := dev_eq c
  exact ((congrFun (V23_eq m hE c₀) (Proc.devRef .tc main_v44)).symm.trans (Tbl.tbl_11a_eq m (outs m hE) c₀) :)
include hE in
theorem hT1_11 (c : Dev nD) : atTc (W23 m hE) c main_v45 = P1R11.T1 (adm11 m) c := by
  obtain rfl := dev_eq c
  exact ((congrFun (V23_eq m hE c₀) (Proc.devRef .tc main_v45)).symm.trans (Tbl.tbl_11b_eq m (outs m hE) c₀) :)
/-- At its exit each of its arrays holds what the pipeline leaves: the five inputs what they held (none is a result),
    the two accumulators' arrays their last write-back; -/
theorem hF_11 (c : Dev nD) (w : Fin (cfg11 (adm11 m)).W) :
    (d11 m hE c).arrAt w (cfg11 (adm11 m)).N = atTc (W24 m hE) c (Pipeline.arrRef spec11 w) := by
  match w with
  | ⟨0, _⟩ => exact (((d11 m hE c).arrAt_in 0 rfl _).trans (P1R11.A_eq _ _ _ _ c 0)).trans (W24_of m hE c (Pipeline.arrRef spec11 (0 : Fin 7)) (by decide) (by decide) (by decide)).symm
  | ⟨1, _⟩ => exact (((d11 m hE c).arrAt_in 1 rfl _).trans (P1R11.A_eq _ _ _ _ c 1)).trans (W24_of m hE c (Pipeline.arrRef spec11 (1 : Fin 7)) (by decide) (by decide) (by decide)).symm
  | ⟨2, _⟩ => exact (((d11 m hE c).arrAt_in 2 rfl _).trans (P1R11.A_eq _ _ _ _ c 2)).trans (W24_of m hE c (Pipeline.arrRef spec11 (2 : Fin 7)) (by decide) (by decide) (by decide)).symm
  | ⟨3, _⟩ => exact (((d11 m hE c).arrAt_in 3 rfl _).trans (P1R11.A_eq _ _ _ _ c 3)).trans (W24_of m hE c (Pipeline.arrRef spec11 (3 : Fin 7)) (by decide) (by decide) (by decide)).symm
  | ⟨4, _⟩ => exact (((d11 m hE c).arrAt_in 4 rfl _).trans (P1R11.A_eq _ _ _ _ c 4)).trans (W24_of m hE c (Pipeline.arrRef spec11 (4 : Fin 7)) (by decide) (by decide) (by decide)).symm
  | ⟨5, _⟩ => exact (W24_res1 m hE c).symm
  | ⟨6, _⟩ => exact (W24_res2 m hE c).symm
/-- and every buffer that is none of its arrays holds what it held at entry, but the hidden array, which holds what
    the last point left. -/
theorem hrest_11 (c : Dev nD) (b : Ref sig .tc) (hb : b ∉ Finset.univ.image (Pipeline.arrRef spec11)) :
    atTc (W24 m hE) c b = P1R11.Vmid (adm m) (W23 m hE) (hp0_11 m hE) (hp1_11 m hE) c b := by
  have h1 : b ≠ main_v46_1 := fun e => hb (Finset.mem_image.mpr ⟨5, Finset.mem_univ _, e.symm⟩)
  have h2 : b ≠ main_v46_2 := fun e => hb (Finset.mem_image.mpr ⟨6, Finset.mem_univ _, e.symm⟩)
  unfold P1R11.Vmid
  by_cases h0 : b = main_v46_0
  · subst h0; rw [Function.update_self]; exact W24_res0 m hE c
  · rw [Function.update_of_ne h0]; exact W24_of m hE c b h1 h2 h0
/-- The region's segment, entered from the buffers at W23 and left at W24. -/
def R11 : RegionSeg (pcfgs (F := F)) (adm m) (pdats m hE) () defs₀ Variants.none L₀ lv₀ 11 :=
  P1R11.reg (adm m) (pdats m hE) (W23 m hE) (W24 m hE) (hp0_11 m hE) (hp1_11 m hE) (fun _ => rfl)
    (hT0_11 m hE) (hT1_11 m hE) (hF_11 m hE) (hrest_11 m hE)
/-- It is entered from the conditional run's contents before it and left at those after it. -/
theorem hpre11 (c : Dev nD) :
    iprop(StableHlo.held (c : Thread nD τ) (Pipeline.ucRefs τ sig) (V23 m (outs m hE) c) ∗ Rr c) ⊢ (R11 m hE).pre c :=
  Entails.of_eq (congrArg (fun W => iprop(StableHlo.held (c : Thread nD τ) (Pipeline.ucRefs τ sig) W ∗ Rr c)) (V23_eq m hE c))
theorem hpost11 (c : Dev nD) :
    (R11 m hE).post c ⊢ iprop(StableHlo.held (c : Thread nD τ) (Pipeline.ucRefs τ sig) (V24 m (outs m hE) c) ∗ Rr c) :=
  Entails.of_eq (congrArg (fun W => iprop(StableHlo.held (c : Thread nD τ) (Pipeline.ucRefs τ sig) W ∗ Rr c)) (V24_eq m hE c).symm)

/-! ### Region 12 -/

include hE in
/-- The tables it finds in the buffers are its admissible ones: the host stretch before it cut them out of the two
    flattened rows, which no region writes. -/
theorem hT0_12 (c : Dev nD) : atTc (W25 m hE) c main_v47 = P1R12.T0 (adm12 m) c := by
  obtain rfl := dev_eq c
  exact ((congrFun (V25_eq m hE c₀) (Proc.devRef .tc main_v47)).symm.trans (Tbl.tbl_12a_eq m (outs m hE) c₀) :)
include hE in
theorem hT1_12 (c : Dev nD) : atTc (W25 m hE) c main_v48 = P1R12.T1 (adm12 m) c := by
  obtain rfl := dev_eq c
  exact ((congrFun (V25_eq m hE c₀) (Proc.devRef .tc main_v48)).symm.trans (Tbl.tbl_12b_eq m (outs m hE) c₀) :)
/-- At its exit each of its arrays holds what the pipeline leaves: the five inputs what they held (none is a result),
    the two accumulators' arrays their last write-back; -/
theorem hF_12 (c : Dev nD) (w : Fin (cfg12 (adm12 m)).W) :
    (d12 m hE c).arrAt w (cfg12 (adm12 m)).N = atTc (W26 m hE) c (Pipeline.arrRef spec12 w) := by
  match w with
  | ⟨0, _⟩ => exact (((d12 m hE c).arrAt_in 0 rfl _).trans (P1R12.A_eq _ _ _ _ c 0)).trans (W26_of m hE c (Pipeline.arrRef spec12 (0 : Fin 7)) (by decide) (by decide) (by decide)).symm
  | ⟨1, _⟩ => exact (((d12 m hE c).arrAt_in 1 rfl _).trans (P1R12.A_eq _ _ _ _ c 1)).trans (W26_of m hE c (Pipeline.arrRef spec12 (1 : Fin 7)) (by decide) (by decide) (by decide)).symm
  | ⟨2, _⟩ => exact (((d12 m hE c).arrAt_in 2 rfl _).trans (P1R12.A_eq _ _ _ _ c 2)).trans (W26_of m hE c (Pipeline.arrRef spec12 (2 : Fin 7)) (by decide) (by decide) (by decide)).symm
  | ⟨3, _⟩ => exact (((d12 m hE c).arrAt_in 3 rfl _).trans (P1R12.A_eq _ _ _ _ c 3)).trans (W26_of m hE c (Pipeline.arrRef spec12 (3 : Fin 7)) (by decide) (by decide) (by decide)).symm
  | ⟨4, _⟩ => exact (((d12 m hE c).arrAt_in 4 rfl _).trans (P1R12.A_eq _ _ _ _ c 4)).trans (W26_of m hE c (Pipeline.arrRef spec12 (4 : Fin 7)) (by decide) (by decide) (by decide)).symm
  | ⟨5, _⟩ => exact (W26_res1 m hE c).symm
  | ⟨6, _⟩ => exact (W26_res2 m hE c).symm
/-- and every buffer that is none of its arrays holds what it held at entry, but the hidden array, which holds what
    the last point left. -/
theorem hrest_12 (c : Dev nD) (b : Ref sig .tc) (hb : b ∉ Finset.univ.image (Pipeline.arrRef spec12)) :
    atTc (W26 m hE) c b = P1R12.Vmid (adm m) (W25 m hE) (hp0_12 m hE) (hp1_12 m hE) c b := by
  have h1 : b ≠ main_v49_1 := fun e => hb (Finset.mem_image.mpr ⟨5, Finset.mem_univ _, e.symm⟩)
  have h2 : b ≠ main_v49_2 := fun e => hb (Finset.mem_image.mpr ⟨6, Finset.mem_univ _, e.symm⟩)
  unfold P1R12.Vmid
  by_cases h0 : b = main_v49_0
  · subst h0; rw [Function.update_self]; exact W26_res0 m hE c
  · rw [Function.update_of_ne h0]; exact W26_of m hE c b h1 h2 h0
/-- The region's segment, entered from the buffers at W25 and left at W26. -/
def R12 : RegionSeg (pcfgs (F := F)) (adm m) (pdats m hE) () defs₀ Variants.none L₀ lv₀ 12 :=
  P1R12.reg (adm m) (pdats m hE) (W25 m hE) (W26 m hE) (hp0_12 m hE) (hp1_12 m hE) (fun _ => rfl)
    (hT0_12 m hE) (hT1_12 m hE) (hF_12 m hE) (hrest_12 m hE)
/-- It is entered from the conditional run's contents before it and left at those after it. -/
theorem hpre12 (c : Dev nD) :
    iprop(StableHlo.held (c : Thread nD τ) (Pipeline.ucRefs τ sig) (V25 m (outs m hE) c) ∗ Rr c) ⊢ (R12 m hE).pre c :=
  Entails.of_eq (congrArg (fun W => iprop(StableHlo.held (c : Thread nD τ) (Pipeline.ucRefs τ sig) W ∗ Rr c)) (V25_eq m hE c))
theorem hpost12 (c : Dev nD) :
    (R12 m hE).post c ⊢ iprop(StableHlo.held (c : Thread nD τ) (Pipeline.ucRefs τ sig) (V26 m (outs m hE) c) ∗ Rr c) :=
  Entails.of_eq (congrArg (fun W => iprop(StableHlo.held (c : Thread nD τ) (Pipeline.ucRefs τ sig) W ∗ Rr c)) (V26_eq m hE c).symm)

/-! ### Region 13 -/

include hE in
/-- The tables it finds in the buffers are its admissible ones: the host stretch before it cut them out of the two
    flattened rows, which no region writes. -/
theorem hT0_13 (c : Dev nD) : atTc (W27 m hE) c main_v50 = P1R13.T0 (adm13 m) c := by
  obtain rfl := dev_eq c
  exact ((congrFun (V27_eq m hE c₀) (Proc.devRef .tc main_v50)).symm.trans (Tbl.tbl_13a_eq m (outs m hE) c₀) :)
include hE in
theorem hT1_13 (c : Dev nD) : atTc (W27 m hE) c main_v51 = P1R13.T1 (adm13 m) c := by
  obtain rfl := dev_eq c
  exact ((congrFun (V27_eq m hE c₀) (Proc.devRef .tc main_v51)).symm.trans (Tbl.tbl_13b_eq m (outs m hE) c₀) :)
/-- At its exit each of its arrays holds what the pipeline leaves: the five inputs what they held (none is a result),
    the two accumulators' arrays their last write-back; -/
theorem hF_13 (c : Dev nD) (w : Fin (cfg13 (adm13 m)).W) :
    (d13 m hE c).arrAt w (cfg13 (adm13 m)).N = atTc (W28 m hE) c (Pipeline.arrRef spec13 w) := by
  match w with
  | ⟨0, _⟩ => exact (((d13 m hE c).arrAt_in 0 rfl _).trans (P1R13.A_eq _ _ _ _ c 0)).trans (W28_of m hE c (Pipeline.arrRef spec13 (0 : Fin 7)) (by decide) (by decide) (by decide)).symm
  | ⟨1, _⟩ => exact (((d13 m hE c).arrAt_in 1 rfl _).trans (P1R13.A_eq _ _ _ _ c 1)).trans (W28_of m hE c (Pipeline.arrRef spec13 (1 : Fin 7)) (by decide) (by decide) (by decide)).symm
  | ⟨2, _⟩ => exact (((d13 m hE c).arrAt_in 2 rfl _).trans (P1R13.A_eq _ _ _ _ c 2)).trans (W28_of m hE c (Pipeline.arrRef spec13 (2 : Fin 7)) (by decide) (by decide) (by decide)).symm
  | ⟨3, _⟩ => exact (((d13 m hE c).arrAt_in 3 rfl _).trans (P1R13.A_eq _ _ _ _ c 3)).trans (W28_of m hE c (Pipeline.arrRef spec13 (3 : Fin 7)) (by decide) (by decide) (by decide)).symm
  | ⟨4, _⟩ => exact (((d13 m hE c).arrAt_in 4 rfl _).trans (P1R13.A_eq _ _ _ _ c 4)).trans (W28_of m hE c (Pipeline.arrRef spec13 (4 : Fin 7)) (by decide) (by decide) (by decide)).symm
  | ⟨5, _⟩ => exact (W28_res1 m hE c).symm
  | ⟨6, _⟩ => exact (W28_res2 m hE c).symm
/-- and every buffer that is none of its arrays holds what it held at entry, but the hidden array, which holds what
    the last point left. -/
theorem hrest_13 (c : Dev nD) (b : Ref sig .tc) (hb : b ∉ Finset.univ.image (Pipeline.arrRef spec13)) :
    atTc (W28 m hE) c b = P1R13.Vmid (adm m) (W27 m hE) (hp0_13 m hE) (hp1_13 m hE) c b := by
  have h1 : b ≠ main_v52_1 := fun e => hb (Finset.mem_image.mpr ⟨5, Finset.mem_univ _, e.symm⟩)
  have h2 : b ≠ main_v52_2 := fun e => hb (Finset.mem_image.mpr ⟨6, Finset.mem_univ _, e.symm⟩)
  unfold P1R13.Vmid
  by_cases h0 : b = main_v52_0
  · subst h0; rw [Function.update_self]; exact W28_res0 m hE c
  · rw [Function.update_of_ne h0]; exact W28_of m hE c b h1 h2 h0
/-- The region's segment, entered from the buffers at W27 and left at W28. -/
def R13 : RegionSeg (pcfgs (F := F)) (adm m) (pdats m hE) () defs₀ Variants.none L₀ lv₀ 13 :=
  P1R13.reg (adm m) (pdats m hE) (W27 m hE) (W28 m hE) (hp0_13 m hE) (hp1_13 m hE) (fun _ => rfl)
    (hT0_13 m hE) (hT1_13 m hE) (hF_13 m hE) (hrest_13 m hE)
/-- It is entered from the conditional run's contents before it and left at those after it. -/
theorem hpre13 (c : Dev nD) :
    iprop(StableHlo.held (c : Thread nD τ) (Pipeline.ucRefs τ sig) (V27 m (outs m hE) c) ∗ Rr c) ⊢ (R13 m hE).pre c :=
  Entails.of_eq (congrArg (fun W => iprop(StableHlo.held (c : Thread nD τ) (Pipeline.ucRefs τ sig) W ∗ Rr c)) (V27_eq m hE c))
theorem hpost13 (c : Dev nD) :
    (R13 m hE).post c ⊢ iprop(StableHlo.held (c : Thread nD τ) (Pipeline.ucRefs τ sig) (V28 m (outs m hE) c) ∗ Rr c) :=
  Entails.of_eq (congrArg (fun W => iprop(StableHlo.held (c : Thread nD τ) (Pipeline.ucRefs τ sig) W ∗ Rr c)) (V28_eq m hE c).symm)

/-! ### Region 14 -/

include hE in
/-- The tables it finds in the buffers are its admissible ones: the host stretch before it cut them out of the two
    flattened rows, which no region writes. -/
theorem hT0_14 (c : Dev nD) : atTc (W29 m hE) c main_v53 = P1R14.T0 (adm14 m) c := by
  obtain rfl := dev_eq c
  exact ((congrFun (V29_eq m hE c₀) (Proc.devRef .tc main_v53)).symm.trans (Tbl.tbl_14a_eq m (outs m hE) c₀) :)
include hE in
theorem hT1_14 (c : Dev nD) : atTc (W29 m hE) c main_v54 = P1R14.T1 (adm14 m) c := by
  obtain rfl := dev_eq c
  exact ((congrFun (V29_eq m hE c₀) (Proc.devRef .tc main_v54)).symm.trans (Tbl.tbl_14b_eq m (outs m hE) c₀) :)
/-- At its exit each of its arrays holds what the pipeline leaves: the five inputs what they held (none is a result),
    the two accumulators' arrays their last write-back; -/
theorem hF_14 (c : Dev nD) (w : Fin (cfg14 (adm14 m)).W) :
    (d14 m hE c).arrAt w (cfg14 (adm14 m)).N = atTc (W30 m hE) c (Pipeline.arrRef spec14 w) := by
  match w with
  | ⟨0, _⟩ => exact (((d14 m hE c).arrAt_in 0 rfl _).trans (P1R14.A_eq _ _ _ _ c 0)).trans (W30_of m hE c (Pipeline.arrRef spec14 (0 : Fin 7)) (by decide) (by decide) (by decide)).symm
  | ⟨1, _⟩ => exact (((d14 m hE c).arrAt_in 1 rfl _).trans (P1R14.A_eq _ _ _ _ c 1)).trans (W30_of m hE c (Pipeline.arrRef spec14 (1 : Fin 7)) (by decide) (by decide) (by decide)).symm
  | ⟨2, _⟩ => exact (((d14 m hE c).arrAt_in 2 rfl _).trans (P1R14.A_eq _ _ _ _ c 2)).trans (W30_of m hE c (Pipeline.arrRef spec14 (2 : Fin 7)) (by decide) (by decide) (by decide)).symm
  | ⟨3, _⟩ => exact (((d14 m hE c).arrAt_in 3 rfl _).trans (P1R14.A_eq _ _ _ _ c 3)).trans (W30_of m hE c (Pipeline.arrRef spec14 (3 : Fin 7)) (by decide) (by decide) (by decide)).symm
  | ⟨4, _⟩ => exact (((d14 m hE c).arrAt_in 4 rfl _).trans (P1R14.A_eq _ _ _ _ c 4)).trans (W30_of m hE c (Pipeline.arrRef spec14 (4 : Fin 7)) (by decide) (by decide) (by decide)).symm
  | ⟨5, _⟩ => exact (W30_res1 m hE c).symm
  | ⟨6, _⟩ => exact (W30_res2 m hE c).symm
/-- and every buffer that is none of its arrays holds what it held at entry, but the hidden array, which holds what
    the last point left. -/
theorem hrest_14 (c : Dev nD) (b : Ref sig .tc) (hb : b ∉ Finset.univ.image (Pipeline.arrRef spec14)) :
    atTc (W30 m hE) c b = P1R14.Vmid (adm m) (W29 m hE) (hp0_14 m hE) (hp1_14 m hE) c b := by
  have h1 : b ≠ main_v55_1 := fun e => hb (Finset.mem_image.mpr ⟨5, Finset.mem_univ _, e.symm⟩)
  have h2 : b ≠ main_v55_2 := fun e => hb (Finset.mem_image.mpr ⟨6, Finset.mem_univ _, e.symm⟩)
  unfold P1R14.Vmid
  by_cases h0 : b = main_v55_0
  · subst h0; rw [Function.update_self]; exact W30_res0 m hE c
  · rw [Function.update_of_ne h0]; exact W30_of m hE c b h1 h2 h0
/-- The region's segment, entered from the buffers at W29 and left at W30. -/
def R14 : RegionSeg (pcfgs (F := F)) (adm m) (pdats m hE) () defs₀ Variants.none L₀ lv₀ 14 :=
  P1R14.reg (adm m) (pdats m hE) (W29 m hE) (W30 m hE) (hp0_14 m hE) (hp1_14 m hE) (fun _ => rfl)
    (hT0_14 m hE) (hT1_14 m hE) (hF_14 m hE) (hrest_14 m hE)
/-- It is entered from the conditional run's contents before it and left at those after it. -/
theorem hpre14 (c : Dev nD) :
    iprop(StableHlo.held (c : Thread nD τ) (Pipeline.ucRefs τ sig) (V29 m (outs m hE) c) ∗ Rr c) ⊢ (R14 m hE).pre c :=
  Entails.of_eq (congrArg (fun W => iprop(StableHlo.held (c : Thread nD τ) (Pipeline.ucRefs τ sig) W ∗ Rr c)) (V29_eq m hE c))
theorem hpost14 (c : Dev nD) :
    (R14 m hE).post c ⊢ iprop(StableHlo.held (c : Thread nD τ) (Pipeline.ucRefs τ sig) (V30 m (outs m hE) c) ∗ Rr c) :=
  Entails.of_eq (congrArg (fun W => iprop(StableHlo.held (c : Thread nD τ) (Pipeline.ucRefs τ sig) W ∗ Rr c)) (V30_eq m hE c).symm)

/-! ### Region 15 -/

include hE in
/-- The tables it finds in the buffers are its admissible ones: the host stretch before it cut them out of the two
    flattened rows, which no region writes. -/
theorem hT0_15 (c : Dev nD) : atTc (W31 m hE) c main_v56 = P1R15.T0 (adm15 m) c := by
  obtain rfl := dev_eq c
  exact ((congrFun (V31_eq m hE c₀) (Proc.devRef .tc main_v56)).symm.trans (Tbl.tbl_15a_eq m (outs m hE) c₀) :)
include hE in
theorem hT1_15 (c : Dev nD) : atTc (W31 m hE) c main_v57 = P1R15.T1 (adm15 m) c := by
  obtain rfl := dev_eq c
  exact ((congrFun (V31_eq m hE c₀) (Proc.devRef .tc main_v57)).symm.trans (Tbl.tbl_15b_eq m (outs m hE) c₀) :)
/-- At its exit each of its arrays holds what the pipeline leaves: the five inputs what they held (none is a result),
    the two accumulators' arrays their last write-back; -/
theorem hF_15 (c : Dev nD) (w : Fin (cfg15 (adm15 m)).W) :
    (d15 m hE c).arrAt w (cfg15 (adm15 m)).N = atTc (W32 m hE) c (Pipeline.arrRef spec15 w) := by
  match w with
  | ⟨0, _⟩ => exact (((d15 m hE c).arrAt_in 0 rfl _).trans (P1R15.A_eq _ _ _ _ c 0)).trans (W32_of m hE c (Pipeline.arrRef spec15 (0 : Fin 7)) (by decide) (by decide) (by decide)).symm
  | ⟨1, _⟩ => exact (((d15 m hE c).arrAt_in 1 rfl _).trans (P1R15.A_eq _ _ _ _ c 1)).trans (W32_of m hE c (Pipeline.arrRef spec15 (1 : Fin 7)) (by decide) (by decide) (by decide)).symm
  | ⟨2, _⟩ => exact (((d15 m hE c).arrAt_in 2 rfl _).trans (P1R15.A_eq _ _ _ _ c 2)).trans (W32_of m hE c (Pipeline.arrRef spec15 (2 : Fin 7)) (by decide) (by decide) (by decide)).symm
  | ⟨3, _⟩ => exact (((d15 m hE c).arrAt_in 3 rfl _).trans (P1R15.A_eq _ _ _ _ c 3)).trans (W32_of m hE c (Pipeline.arrRef spec15 (3 : Fin 7)) (by decide) (by decide) (by decide)).symm
  | ⟨4, _⟩ => exact (((d15 m hE c).arrAt_in 4 rfl _).trans (P1R15.A_eq _ _ _ _ c 4)).trans (W32_of m hE c (Pipeline.arrRef spec15 (4 : Fin 7)) (by decide) (by decide) (by decide)).symm
  | ⟨5, _⟩ => exact (W32_res1 m hE c).symm
  | ⟨6, _⟩ => exact (W32_res2 m hE c).symm
/-- and every buffer that is none of its arrays holds what it held at entry, but the hidden array, which holds what
    the last point left. -/
theorem hrest_15 (c : Dev nD) (b : Ref sig .tc) (hb : b ∉ Finset.univ.image (Pipeline.arrRef spec15)) :
    atTc (W32 m hE) c b = P1R15.Vmid (adm m) (W31 m hE) (hp0_15 m hE) (hp1_15 m hE) c b := by
  have h1 : b ≠ main_v58_1 := fun e => hb (Finset.mem_image.mpr ⟨5, Finset.mem_univ _, e.symm⟩)
  have h2 : b ≠ main_v58_2 := fun e => hb (Finset.mem_image.mpr ⟨6, Finset.mem_univ _, e.symm⟩)
  unfold P1R15.Vmid
  by_cases h0 : b = main_v58_0
  · subst h0; rw [Function.update_self]; exact W32_res0 m hE c
  · rw [Function.update_of_ne h0]; exact W32_of m hE c b h1 h2 h0
/-- The region's segment, entered from the buffers at W31 and left at W32. -/
def R15 : RegionSeg (pcfgs (F := F)) (adm m) (pdats m hE) () defs₀ Variants.none L₀ lv₀ 15 :=
  P1R15.reg (adm m) (pdats m hE) (W31 m hE) (W32 m hE) (hp0_15 m hE) (hp1_15 m hE) (fun _ => rfl)
    (hT0_15 m hE) (hT1_15 m hE) (hF_15 m hE) (hrest_15 m hE)
/-- It is entered from the conditional run's contents before it and left at those after it. -/
theorem hpre15 (c : Dev nD) :
    iprop(StableHlo.held (c : Thread nD τ) (Pipeline.ucRefs τ sig) (V31 m (outs m hE) c) ∗ Rr c) ⊢ (R15 m hE).pre c :=
  Entails.of_eq (congrArg (fun W => iprop(StableHlo.held (c : Thread nD τ) (Pipeline.ucRefs τ sig) W ∗ Rr c)) (V31_eq m hE c))
theorem hpost15 (c : Dev nD) :
    (R15 m hE).post c ⊢ iprop(StableHlo.held (c : Thread nD τ) (Pipeline.ucRefs τ sig) (V32 m (outs m hE) c) ∗ Rr c) :=
  Entails.of_eq (congrArg (fun W => iprop(StableHlo.held (c : Thread nD τ) (Pipeline.ucRefs τ sig) W ∗ Rr c)) (V32_eq m hE c).symm)

/-! ### Region 16: the normalising pass -/

/-- Off the result array the region changes nothing. -/
theorem W34_of (c : Dev nD) (r : Ref sig .tc) (h : r ≠ main_v104) : W34 m hE c (Proc.devRef .tc r) = W33 m hE c (Proc.devRef .tc r) :=
  (congrFun (W34_def m hE c) _).trans (Function.update_of_ne (StableHlo.devRef_ne_of_ne h) ..)
/-- At the result array it holds the write-backs. -/
theorem W34_res (c : Dev nD) : W34 m hE c (Proc.devRef .tc main_v104) = (dat16 (atTc (W33 m hE)) c).arrAt 7 cfg16.N :=
  (congrFun (W34_def m hE c) _).trans (Function.update_self ..)
/-- An input window's array is not written: at the exit it holds what it held, and it is not the result array. -/
theorem hF16_in (c : Dev nD) (w : Fin 8) (hin : (cfg16.win w).isOut = false) (hne : Pipeline.arrRef spec16 w ≠ main_v104) :
    (dat16 (atTc (W33 m hE)) c).arrAt w cfg16.N = W34 m hE c (Proc.devRef .tc (Pipeline.arrRef spec16 w)) :=
  (((dat16 (atTc (W33 m hE)) c).arrAt_in w hin cfg16.N).trans (A_eq16 (atTc (W33 m hE)) c w)).trans (W34_of m hE c (Pipeline.arrRef spec16 w) hne).symm
/-- At the region's exit each of its arrays holds what the pipeline leaves: the seven inputs what they held (none is
    the result array), the result array its write-backs; -/
theorem hF16 (c : Dev nD) (w : Fin cfg16.W) :
    (dat16 (atTc (W33 m hE)) c).arrAt w cfg16.N = W34 m hE c (Proc.devRef .tc (Pipeline.arrRef spec16 w)) :=
  match w with
  | ⟨0, _⟩ => hF16_in m hE c (0 : Fin 8) rfl (by decide)
  | ⟨1, _⟩ => hF16_in m hE c (1 : Fin 8) rfl (by decide)
  | ⟨2, _⟩ => hF16_in m hE c (2 : Fin 8) rfl (by decide)
  | ⟨3, _⟩ => hF16_in m hE c (3 : Fin 8) rfl (by decide)
  | ⟨4, _⟩ => hF16_in m hE c (4 : Fin 8) rfl (by decide)
  | ⟨5, _⟩ => hF16_in m hE c (5 : Fin 8) rfl (by decide)
  | ⟨6, _⟩ => hF16_in m hE c (6 : Fin 8) rfl (by decide)
  | ⟨7, _⟩ => (W34_res m hE c).symm

/-- and every buffer that is none of its arrays holds what it held at entry. -/
theorem hrest16 (c : Dev nD) (b : Ref sig .tc) (hb : b ∉ Finset.univ.image (Pipeline.arrRef spec16)) :
    W34 m hE c (Proc.devRef .tc b) = W33 m hE c (Proc.devRef .tc b) :=
  W34_of m hE c b fun e => hb (Finset.mem_image.mpr ⟨7, Finset.mem_univ _, e.symm⟩)

/-- The last region's segment, entered from the buffers at W33 and left at W34. -/
def R16 : RegionSeg (pcfgs (F := F)) (adm m) (pdats m hE) () defs₀ Variants.none L₀ lv₀ 16 :=
  reg16 (adm m) (pdats m hE) (W33 m hE) (W34 m hE) (fun _ => rfl) (hF16 m hE) (hrest16 m hE)

theorem hpre16 (c : Dev nD) :
    iprop(StableHlo.held (c : Thread nD τ) (Pipeline.ucRefs τ sig) (V33 m (outs m hE) c) ∗ Rr c) ⊢ (R16 m hE).pre c :=
  Entails.of_eq (congrArg (fun W => iprop(StableHlo.held (c : Thread nD τ) (Pipeline.ucRefs τ sig) W ∗ Rr c)) (V33_eq m hE c))
theorem hpost16 (c : Dev nD) :
    (R16 m hE).post c ⊢ iprop(StableHlo.held (c : Thread nD τ) (Pipeline.ucRefs τ sig) (V34 m (outs m hE) c) ∗ Rr c) :=
  Entails.of_eq (congrArg (fun W => iprop(StableHlo.held (c : Thread nD τ) (Pipeline.ucRefs τ sig) W ∗ Rr c)) (V34_eq m hE c).symm)

end Cert.Kernel.Glue

end
-- ==== Proof.GlueBitsTop.lean ====
/- (the 17 regions' records listed in order) -/
/-
  The run of the program, unconditionally: every weakly fair execution from a memory whose edge endpoints are below
  100000 terminates, every argument array ends as launched, and the result buffer ends holding the last contents of
  the chain — the conditional run at the tables, unknowns, proof data and segments chosen region by region.
-/
import proofs.«400866_j57071525429608_2_alg».proof.Proof.GlueBits

set_option maxRecDepth 16384

noncomputable section

namespace Cert.Kernel.Glue

open Cert.Kernel Cert.Kernel.Gen Cert.Kernel.Asm
open Idealize.ShloMosaic Idealize.ShloMosaic.TcCoe
open Idealize.SL Idealize.SL.Sem

variable {F : FTy → Type} [FloatOps F]

/-- The run terminates and every argument array ends holding what it held at launch. -/
theorem frame (m : (ℓ : Loc nD τ sig) → Buf (Elt F) ℓ) (ρ : Dev nD → PrngReg)
    (hE : ∀ (c : Dev nD) (idx : S2x1000000.Idx), ((V0 m c main_arg1 : IVec S2x1000000 32) idx).toNat < 100000) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of_regs m ρ (outs m hE) (adm m) (pdats m hE)
    (R0 m hE) (hpre0 m hE) (hpost0 m hE)
    (R1 m hE) (hpre1 m hE) (hpost1 m hE)
    (R2 m hE) (hpre2 m hE) (hpost2 m hE)
    (R3 m hE) (hpre3 m hE) (hpost3 m hE)
    (R4 m hE) (hpre4 m hE) (hpost4 m hE)
    (R5 m hE) (hpre5 m hE) (hpost5 m hE)
    (R6 m hE) (hpre6 m hE) (hpost6 m hE)
    (R7 m hE) (hpre7 m hE) (hpost7 m hE)
    (R8 m hE) (hpre8 m hE) (hpost8 m hE)
    (R9 m hE) (hpre9 m hE) (hpost9 m hE)
    (R10 m hE) (hpre10 m hE) (hpost10 m hE)
    (R11 m hE) (hpre11 m hE) (hpost11 m hE)
    (R12 m hE) (hpre12 m hE) (hpost12 m hE)
    (R13 m hE) (hpre13 m hE) (hpost13 m hE)
    (R14 m hE) (hpre14 m hE) (hpost14 m hE)
    (R15 m hE) (hpre15 m hE) (hpost15 m hE)
    (R16 m hE) (hpre16 m hE) (hpost16 m hE)

/-- Moreover the result buffer ends holding the last contents of the chain. -/
theorem run (m : (ℓ : Loc nD τ sig) → Buf (Elt F) ℓ) (ρ : Dev nD → PrngReg)
    (hE : ∀ (c : Dev nD) (idx : S2x1000000.Idx), ((V0 m c main_arg1 : IVec S2x1000000 32) idx).toNat < 100000) :
    θ_run defs (onTc (τ := τ) (main (F := F))) ⟨m, fun _ => 0, ρ⟩ (fun r => ∀ c : Dev nD,
      r.2.mem ((c.tc : Thread nD τ).loc main_v105) = V35 m (outs m hE) c main_v105
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_of_regs m ρ (outs m hE) (adm m) (pdats m hE)
    (R0 m hE) (hpre0 m hE) (hpost0 m hE)
    (R1 m hE) (hpre1 m hE) (hpost1 m hE)
    (R2 m hE) (hpre2 m hE) (hpost2 m hE)
    (R3 m hE) (hpre3 m hE) (hpost3 m hE)
    (R4 m hE) (hpre4 m hE) (hpost4 m hE)
    (R5 m hE) (hpre5 m hE) (hpost5 m hE)
    (R6 m hE) (hpre6 m hE) (hpost6 m hE)
    (R7 m hE) (hpre7 m hE) (hpost7 m hE)
    (R8 m hE) (hpre8 m hE) (hpost8 m hE)
    (R9 m hE) (hpre9 m hE) (hpost9 m hE)
    (R10 m hE) (hpre10 m hE) (hpost10 m hE)
    (R11 m hE) (hpre11 m hE) (hpost11 m hE)
    (R12 m hE) (hpre12 m hE) (hpost12 m hE)
    (R13 m hE) (hpre13 m hE) (hpost13 m hE)
    (R14 m hE) (hpre14 m hE) (hpost14 m hE)
    (R15 m hE) (hpre15 m hE) (hpost15 m hE)
    (R16 m hE) (hpre16 m hE) (hpost16 m hE)

end Cert.Kernel.Glue

end
-- ==== Proof.BTop.lean ====
/-
  The word-level kernel program's frame: the same seventeen regions chained through the same host operations, read at
  machine words; the edge indices name rows of the node-feature array because the precondition says so.
-/
import proofs.«400866_j57071525429608_2_alg».proof.Defs
import proofs.«400866_j57071525429608_2_alg».proof.Proof.GlueBitsTop
import proofs.«400866_j57071525429608_2_alg».proof.Proof.PreFacts
import proofs.«400866_j57071525429608_2_alg».proof.Proof.Gen.Pre_finite_inputs

noncomputable section

namespace Cert.Proof.BTop

open Cert.Kernel Cert.Kernel.Gen
open Idealize.ShloMosaic Idealize.ShloMosaic.TcCoe Idealize.SL.Sem

/-- The frame: the program runs to its end and leaves its arguments as it found them. -/
theorem frame_K : Cert.frame_Kernel (hKernel := Cert.Kernel.Gen.facts) (hPre_finite_inputs := Cert.Pre_finite_inputs.Gen.facts) :=
  fun m ρ hpre => Cert.Kernel.Glue.frame m ρ (fun c => Cert.PreFacts.edges_lt _ _ _ _ _ _ _ _ _ _ (hpre c))

end Cert.Proof.BTop

end
-- ==== Proof.lean ====
/-
  The certificate of an edge-scoring message-passing kernel against its array-level reference. For every edge (u, v) the
  kernel gathers the feature rows x[u], x[v] (copied by the kernel body itself, the endpoints read from index tables),
  forms h = relu([x[u], x[v]]·W_inᵀ + b_in)·W_hᵀ + b_h in sixteen launches of 62500 edges each, accumulating per launch
  the column sums of h and of h², then normalises over all 10⁶ edges (mean and variance from the summed partial sums),
  applies the second ReLU and the output projection. The reference does the same with whole-array operations and the
  variance as the mean squared deviation. Over the extended reals the two agree under the precondition that every float
  input is finite and every edge endpoint is a row index of x: the 256-wide inner product splits into its two 128-wide
  halves, a sum over all edges is the sum of the sixteen chunk sums, and mean(h²) − mean(h)² is the mean squared deviation
  and is non-negative, so the kernel's clamp at zero changes nothing.
  The three frames, that the idealized kernel is the kernel's own text read at exact arithmetic, and the agreement:
-/
import proofs.«400866_j57071525429608_2_alg».proof.Defs
import proofs.«400866_j57071525429608_2_alg».proof.Proof.Claims
import proofs.«400866_j57071525429608_2_alg».proof.Proof.KITop
import proofs.«400866_j57071525429608_2_alg».proof.Proof.BTop

noncomputable section

namespace Cert.Proof

theorem claim : Cert.Claim :=
  Cert.Proof.Claims.claim_of Cert.Proof.BTop.frame_K Cert.Proof.KITop.frame_KI Cert.Proof.KITop.kernel_run

end Cert.Proof

end
